-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S1024x512 .f32) (main_arg1 : FVec F S512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Pre_finite_inputs_ReferenceIdeal.lean ====
abbrev S1024x16384 : Shape := ⟨2, ![1024, 16384]⟩
abbrev S16384x1024 : Shape := ⟨2, ![16384, 1024]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S1024x16384 .f32) (main_arg1 : FVec F S16384x1024 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S1024x512 : Shape := ⟨2, ![1024, 512]⟩
abbrev S512x1024 : Shape := ⟨2, ![512, 1024]⟩
abbrev S32x1024 : Shape := ⟨2, ![32, 1024]⟩
abbrev S8x4x4x32x128 : Shape := ⟨5, ![8, 4, 4, 32, 128]⟩
abbrev S32x4x32x128 : Shape := ⟨4, ![32, 4, 32, 128]⟩
abbrev S32x32x128 : Shape := ⟨3, ![32, 32, 128]⟩
abbrev S8 : Shape := ⟨1, ![8]⟩
abbrev S32 : Shape := ⟨1, ![32]⟩
abbrev S_ : Shape := ⟨0, ![]⟩
abbrev S32x512 : Shape := ⟨2, ![32, 512]⟩
abbrev S512x512 : Shape := ⟨2, ![512, 512]⟩
abbrev S512x128 : Shape := ⟨2, ![512, 128]⟩
abbrev S4x4x32x128 : Shape := ⟨4, ![4, 4, 32, 128]⟩
abbrev S1x4x4x32x128 : Shape := ⟨5, ![1, 4, 4, 32, 128]⟩
abbrev S1 : Shape := ⟨1, ![1]⟩
abbrev S1x4x32x128 : Shape := ⟨4, ![1, 4, 32, 128]⟩
abbrev S4x32x128 : Shape := ⟨3, ![4, 32, 128]⟩
abbrev S1x32x128 : Shape := ⟨3, ![1, 32, 128]⟩
abbrev S32x128 : Shape := ⟨2, ![32, 128]⟩

abbrev nBuf : Space → Nat
  | .hbm => 3
  | .vmem => 12
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S32x1024, .f32⟩
  | .local _ .vmem, ⟨0, _⟩ => ⟨S1024x512, .f32⟩
  | .local _ .vmem, ⟨1, _⟩ => ⟨S512x1024, .f32⟩
  | .local _ .vmem, ⟨2, _⟩ => ⟨S32x1024, .f32⟩
  | .local _ .vmem, ⟨3, _⟩ => ⟨S1024x512, .bf16⟩
  | .local _ .vmem, ⟨4, _⟩ => ⟨S512x1024, .bf16⟩
  | .local _ .vmem, ⟨5, _⟩ => ⟨S8x4x4x32x128, .bf16⟩
  | .local _ .vmem, ⟨6, _⟩ => ⟨S8x4x4x32x128, .bf16⟩
  | .local _ .vmem, ⟨7, _⟩ => ⟨S8x4x4x32x128, .bf16⟩
  | .local _ .vmem, ⟨8, _⟩ => ⟨S32x4x32x128, .bf16⟩
  | .local _ .vmem, ⟨9, _⟩ => ⟨S32x4x32x128, .bf16⟩
  | .local _ .vmem, ⟨10, _⟩ => ⟨S32x32x128, .bf16⟩
  | .local _ .vmem, ⟨11, _⟩ => ⟨S32x32x128, .bf16⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 147 → Bool
  | ⟨i, _⟩ => dmaSemScopedAt i

abbrev sig : RefSig :=
  (ofTc nBuf bufTy 1 147 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_72 : BitVec 32 := 8#32
  let v141 : BitVec 32 := Scalar.muli v19 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  let v50 : BitVec 32 := Scalar.xori v29 c1_i32_19
  let v142 : BitVec 32 := Scalar.addi v141 v50
  let c1_i32_74 : BitVec 32 := 1#32
  let v144 : BitVec 32 := Scalar.muli v142 c1_i32_74
  let v145 : BitVec 32 := Scalar.addi c0_i32_75 v144
  v145.toNat
def k0_dev2 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v51 : BitVec 32 := Scalar.muli v19 c8_i32_20
  let c2_i32_27 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_21 : BitVec 32 := 1#32
  let v52 : BitVec 32 := Scalar.addi v46 c1_i32_21
  let c4_i32 : BitVec 32 := 4#32
  let c0_i32_22 : BitVec 32 := 0#32
  let v53 : BitVec 1 := Scalar.cmpi .eq c4_i32 c0_i32_22
  let c1_i32_23 : BitVec 32 := 1#32
  let v54 : BitVec 32 := Scalar.select v53 c1_i32_23 c4_i32
  let v55 : BitVec 32 := Scalar.remsi v52 v54
  let c0_i32_25 : BitVec 32 := 0#32
  let v57 : BitVec 1 := Scalar.cmpi .slt v55 c0_i32_25
  let c0_i32_26 : BitVec 32 := 0#32
  let v58 : BitVec 1 := Scalar.cmpi .slt v54 c0_i32_26
  let v59 : BitVec 1 := Scalar.xori v57 v58
  let c0_i32_24 : BitVec 32 := 0#32
  let v56 : BitVec 1 := Scalar.cmpi .ne v55 c0_i32_24
  let v60 : BitVec 1 := Scalar.andi v59 v56
  let v61 : BitVec 32 := Scalar.addi v55 v54
  let v62 : BitVec 32 := Scalar.select v60 v61 v55
  let v63 : BitVec 32 := Scalar.muli c2_i32_27 v62
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_28 : BitVec 32 := 1#32
  let v64 : BitVec 32 := Scalar.andi v62 c1_i32_28
  let v65 : BitVec 32 := Scalar.xori v49 v64
  let v66 : BitVec 32 := Scalar.addi v63 v65
  let v67 : BitVec 32 := Scalar.addi v51 v66
  let c1_i32_77 : BitVec 32 := 1#32
  let v146 : BitVec 32 := Scalar.muli v67 c1_i32_77
  let v147 : BitVec 32 := Scalar.addi c0_i32_78 v146
  v147.toNat
def k0_dev3 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_29 : BitVec 32 := 8#32
  let v68 : BitVec 32 := Scalar.muli v19 c8_i32_29
  let c2_i32_37 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_30 : BitVec 32 := 2#32
  let v69 : BitVec 32 := Scalar.addi v46 c2_i32_30
  let c4_i32_31 : BitVec 32 := 4#32
  let c0_i32_32 : BitVec 32 := 0#32
  let v70 : BitVec 1 := Scalar.cmpi .eq c4_i32_31 c0_i32_32
  let c1_i32_33 : BitVec 32 := 1#32
  let v71 : BitVec 32 := Scalar.select v70 c1_i32_33 c4_i32_31
  let v72 : BitVec 32 := Scalar.remsi v69 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v80 : BitVec 32 := Scalar.muli c2_i32_37 v79
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_38 : BitVec 32 := 1#32
  let v81 : BitVec 32 := Scalar.andi v79 c1_i32_38
  let v82 : BitVec 32 := Scalar.xori v49 v81
  let v83 : BitVec 32 := Scalar.addi v80 v82
  let v84 : BitVec 32 := Scalar.addi v68 v83
  let c1_i32_80 : BitVec 32 := 1#32
  let v148 : BitVec 32 := Scalar.muli v84 c1_i32_80
  let v149 : BitVec 32 := Scalar.addi c0_i32_81 v148
  v149.toNat
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_39 : BitVec 32 := 8#32
  let v85 : BitVec 32 := Scalar.muli v19 c8_i32_39
  let c2_i32_46 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v86 : BitVec 32 := Scalar.addi v46 c3_i32
  let c4_i32_40 : BitVec 32 := 4#32
  let c0_i32_41 : BitVec 32 := 0#32
  let v87 : BitVec 1 := Scalar.cmpi .eq c4_i32_40 c0_i32_41
  let c1_i32_42 : BitVec 32 := 1#32
  let v88 : BitVec 32 := Scalar.select v87 c1_i32_42 c4_i32_40
  let v89 : BitVec 32 := Scalar.remsi v86 v88
  let c0_i32_44 : BitVec 32 := 0#32
  let v91 : BitVec 1 := Scalar.cmpi .slt v89 c0_i32_44
  let c0_i32_45 : BitVec 32 := 0#32
  let v92 : BitVec 1 := Scalar.cmpi .slt v88 c0_i32_45
  let v93 : BitVec 1 := Scalar.xori v91 v92
  let c0_i32_43 : BitVec 32 := 0#32
  let v90 : BitVec 1 := Scalar.cmpi .ne v89 c0_i32_43
  let v94 : BitVec 1 := Scalar.andi v93 v90
  let v95 : BitVec 32 := Scalar.addi v89 v88
  let v96 : BitVec 32 := Scalar.select v94 v95 v89
  let v97 : BitVec 32 := Scalar.muli c2_i32_46 v96
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_47 : BitVec 32 := 1#32
  let v98 : BitVec 32 := Scalar.andi v96 c1_i32_47
  let v99 : BitVec 32 := Scalar.xori v49 v98
  let v100 : BitVec 32 := Scalar.addi v97 v99
  let v101 : BitVec 32 := Scalar.addi v85 v100
  let c1_i32_83 : BitVec 32 := 1#32
  let v150 : BitVec 32 := Scalar.muli v101 c1_i32_83
  let v151 : BitVec 32 := Scalar.addi c0_i32_84 v150
  v151.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_48 : BitVec 32 := 1#32
  let v102 : BitVec 32 := Scalar.addi v19 c1_i32_48
  let c4_i32_49 : BitVec 32 := 4#32
  let c0_i32_50 : BitVec 32 := 0#32
  let v103 : BitVec 1 := Scalar.cmpi .eq c4_i32_49 c0_i32_50
  let c1_i32_51 : BitVec 32 := 1#32
  let v104 : BitVec 32 := Scalar.select v103 c1_i32_51 c4_i32_49
  let v105 : BitVec 32 := Scalar.remsi v102 v104
  let c0_i32_53 : BitVec 32 := 0#32
  let v107 : BitVec 1 := Scalar.cmpi .slt v105 c0_i32_53
  let c0_i32_54 : BitVec 32 := 0#32
  let v108 : BitVec 1 := Scalar.cmpi .slt v104 c0_i32_54
  let v109 : BitVec 1 := Scalar.xori v107 v108
  let c0_i32_52 : BitVec 32 := 0#32
  let v106 : BitVec 1 := Scalar.cmpi .ne v105 c0_i32_52
  let v110 : BitVec 1 := Scalar.andi v109 v106
  let v111 : BitVec 32 := Scalar.addi v105 v104
  let v112 : BitVec 32 := Scalar.select v110 v111 v105
  let c8_i32_55 : BitVec 32 := 8#32
  let v113 : BitVec 32 := Scalar.muli v112 c8_i32_55
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v114 : BitVec 32 := Scalar.addi v113 v29
  let c1_i32_86 : BitVec 32 := 1#32
  let v152 : BitVec 32 := Scalar.muli v114 c1_i32_86
  let v153 : BitVec 32 := Scalar.addi c0_i32_87 v152
  v153.toNat
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_56 : BitVec 32 := 2#32
  let v115 : BitVec 32 := Scalar.addi v19 c2_i32_56
  let c4_i32_57 : BitVec 32 := 4#32
  let c0_i32_58 : BitVec 32 := 0#32
  let v116 : BitVec 1 := Scalar.cmpi .eq c4_i32_57 c0_i32_58
  let c1_i32_59 : BitVec 32 := 1#32
  let v117 : BitVec 32 := Scalar.select v116 c1_i32_59 c4_i32_57
  let v118 : BitVec 32 := Scalar.remsi v115 v117
  let c0_i32_61 : BitVec 32 := 0#32
  let v120 : BitVec 1 := Scalar.cmpi .slt v118 c0_i32_61
  let c0_i32_62 : BitVec 32 := 0#32
  let v121 : BitVec 1 := Scalar.cmpi .slt v117 c0_i32_62
  let v122 : BitVec 1 := Scalar.xori v120 v121
  let c0_i32_60 : BitVec 32 := 0#32
  let v119 : BitVec 1 := Scalar.cmpi .ne v118 c0_i32_60
  let v123 : BitVec 1 := Scalar.andi v122 v119
  let v124 : BitVec 32 := Scalar.addi v118 v117
  let v125 : BitVec 32 := Scalar.select v123 v124 v118
  let c8_i32_63 : BitVec 32 := 8#32
  let v126 : BitVec 32 := Scalar.muli v125 c8_i32_63
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v127 : BitVec 32 := Scalar.addi v126 v29
  let c1_i32_89 : BitVec 32 := 1#32
  let v154 : BitVec 32 := Scalar.muli v127 c1_i32_89
  let v155 : BitVec 32 := Scalar.addi c0_i32_90 v154
  v155.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_64 : BitVec 32 := 3#32
  let v128 : BitVec 32 := Scalar.addi v19 c3_i32_64
  let c4_i32_65 : BitVec 32 := 4#32
  let c0_i32_66 : BitVec 32 := 0#32
  let v129 : BitVec 1 := Scalar.cmpi .eq c4_i32_65 c0_i32_66
  let c1_i32_67 : BitVec 32 := 1#32
  let v130 : BitVec 32 := Scalar.select v129 c1_i32_67 c4_i32_65
  let v131 : BitVec 32 := Scalar.remsi v128 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let c8_i32_71 : BitVec 32 := 8#32
  let v139 : BitVec 32 := Scalar.muli v138 c8_i32_71
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v140 : BitVec 32 := Scalar.addi v139 v29
  let c1_i32_92 : BitVec 32 := 1#32
  let v156 : BitVec 32 := Scalar.muli v140 c1_i32_92
  let v157 : BitVec 32 := Scalar.addi c0_i32_93 v156
  v157.toNat
def k0_off1 (d0 : Dev nD) (c0_i32_101 : BitVec 32) (c0_i32_99 : BitVec 32) (c0_i32_98 : BitVec 32) : Fin 2 → Nat :=
  let c1_i32_97 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.andi v29 c1_i32_17
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_18 : BitVec 32 := 1#32
  let v48 : BitVec 32 := Scalar.andi v46 c1_i32_18
  let v49 : BitVec 32 := Scalar.xori v47 v48
  let v164 : BitVec 32 := Scalar.subi c1_i32_97 v49
  let v165 : BitVec 32 := Scalar.xori v164 c0_i32_98
  let v166 : BitVec 32 := Scalar.addi c0_i32_99 v165
  let c32_i32_100 : BitVec 32 := 32#32
  let v167 : BitVec 32 := Scalar.muli v166 c32_i32_100
  let v168 : BitVec 32 := Scalar.addi c0_i32_101 v167
  let v169 : Index := Scalar.indexCast v168
  let c0_102 : Index := 0#32
  ![v169.toNat, 0]
def k0_off1_at (r : Fin 16) : BitVec 32 × BitVec 32 × BitVec 32 :=
  if r.val < 8 then
    if r.val < 4 then
      if r.val < 2 then
        if r.val < 1 then
          (0#32, 0#32, 0#32)
        else
          (256#32, 0#32, 0#32)
      else
        if r.val < 3 then
          (512#32, 0#32, 0#32)
        else
          (768#32, 0#32, 0#32)
    else
      if r.val < 6 then
        if r.val < 5 then
          (0#32, 2#32, 1#32)
        else
          (256#32, 2#32, 1#32)
      else
        if r.val < 7 then
          (512#32, 2#32, 1#32)
        else
          (768#32, 2#32, 1#32)
  else
    if r.val < 12 then
      if r.val < 10 then
        if r.val < 9 then
          (0#32, 4#32, 0#32)
        else
          (256#32, 4#32, 0#32)
      else
        if r.val < 11 then
          (512#32, 4#32, 0#32)
        else
          (768#32, 4#32, 0#32)
    else
      if r.val < 14 then
        if r.val < 13 then
          (0#32, 6#32, 1#32)
        else
          (256#32, 6#32, 1#32)
      else
        if r.val < 15 then
          (512#32, 6#32, 1#32)
        else
          (768#32, 6#32, 1#32)
def k0_off2 (d0 : Dev nD) (c0_i32_209 : BitVec 32) (c0_i32_207 : BitVec 32) (c0_i32_206 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_17 : BitVec 32 := 1#32
  let v47 : BitVec 32 := Scalar.andi v29 c1_i32_17
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_18 : BitVec 32 := 1#32
  let v48 : BitVec 32 := Scalar.andi v46 c1_i32_18
  let v49 : BitVec 32 := Scalar.xori v47 v48
  let v356 : BitVec 32 := Scalar.xori v49 c0_i32_206
  let v357 : BitVec 32 := Scalar.addi c0_i32_207 v356
  let c32_i32_208 : BitVec 32 := 32#32
  let v358 : BitVec 32 := Scalar.muli v357 c32_i32_208
  let v359 : BitVec 32 := Scalar.addi c0_i32_209 v358
  let v360 : Index := Scalar.indexCast v359
  let c0_210 : Index := 0#32
  ![v360.toNat, 0]
def k0_off2_at (r : Fin 16) : BitVec 32 × BitVec 32 × BitVec 32 :=
  if r.val < 8 then
    if r.val < 4 then
      if r.val < 2 then
        if r.val < 1 then
          (0#32, 0#32, 0#32)
        else
          (256#32, 0#32, 0#32)
      else
        if r.val < 3 then
          (512#32, 0#32, 0#32)
        else
          (768#32, 0#32, 0#32)
    else
      if r.val < 6 then
        if r.val < 5 then
          (0#32, 2#32, 1#32)
        else
          (256#32, 2#32, 1#32)
      else
        if r.val < 7 then
          (512#32, 2#32, 1#32)
        else
          (768#32, 2#32, 1#32)
  else
    if r.val < 12 then
      if r.val < 10 then
        if r.val < 9 then
          (0#32, 4#32, 0#32)
        else
          (256#32, 4#32, 0#32)
      else
        if r.val < 11 then
          (512#32, 4#32, 0#32)
        else
          (768#32, 4#32, 0#32)
    else
      if r.val < 14 then
        if r.val < 13 then
          (0#32, 6#32, 1#32)
        else
          (256#32, 6#32, 1#32)
      else
        if r.val < 15 then
          (512#32, 6#32, 1#32)
        else
          (768#32, 6#32, 1#32)
def k0_dev8 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_311 : BitVec 32 := 8#32
  let v540 : BitVec 32 := Scalar.muli v19 c8_i32_311
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  let v50 : BitVec 32 := Scalar.xori v29 c1_i32_19
  let v541 : BitVec 32 := Scalar.addi v540 v50
  let c1_i32_316 : BitVec 32 := 1#32
  let v542 : BitVec 32 := Scalar.muli v541 c1_i32_316
  let v543 : BitVec 32 := Scalar.addi c0_i32_317 v542
  v543.toNat
def k0_dev9 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_345 : BitVec 32 := 8#32
  let v568 : BitVec 32 := Scalar.muli v19 c8_i32_345
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  let v50 : BitVec 32 := Scalar.xori v29 c1_i32_19
  let v569 : BitVec 32 := Scalar.addi v568 v50
  let c1_i32_350 : BitVec 32 := 1#32
  let v570 : BitVec 32 := Scalar.muli v569 c1_i32_350
  let v571 : BitVec 32 := Scalar.addi c0_i32_351 v570
  v571.toNat
def k0_dev10 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_379 : BitVec 32 := 8#32
  let v596 : BitVec 32 := Scalar.muli v19 c8_i32_379
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  let v50 : BitVec 32 := Scalar.xori v29 c1_i32_19
  let v597 : BitVec 32 := Scalar.addi v596 v50
  let c1_i32_384 : BitVec 32 := 1#32
  let v598 : BitVec 32 := Scalar.muli v597 c1_i32_384
  let v599 : BitVec 32 := Scalar.addi c0_i32_385 v598
  v599.toNat
def k0_dev11 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_413 : BitVec 32 := 8#32
  let v624 : BitVec 32 := Scalar.muli v19 c8_i32_413
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  let v50 : BitVec 32 := Scalar.xori v29 c1_i32_19
  let v625 : BitVec 32 := Scalar.addi v624 v50
  let c1_i32_418 : BitVec 32 := 1#32
  let v626 : BitVec 32 := Scalar.muli v625 c1_i32_418
  let v627 : BitVec 32 := Scalar.addi c0_i32_419 v626
  v627.toNat
def k0_dev12 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_447 : BitVec 32 := 8#32
  let v652 : BitVec 32 := Scalar.muli v19 c8_i32_447
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  let v50 : BitVec 32 := Scalar.xori v29 c1_i32_19
  let v653 : BitVec 32 := Scalar.addi v652 v50
  let c1_i32_452 : BitVec 32 := 1#32
  let v654 : BitVec 32 := Scalar.muli v653 c1_i32_452
  let v655 : BitVec 32 := Scalar.addi c0_i32_453 v654
  v655.toNat
def k0_dev13 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_481 : BitVec 32 := 8#32
  let v680 : BitVec 32 := Scalar.muli v19 c8_i32_481
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  let v50 : BitVec 32 := Scalar.xori v29 c1_i32_19
  let v681 : BitVec 32 := Scalar.addi v680 v50
  let c1_i32_485 : BitVec 32 := 1#32
  let v682 : BitVec 32 := Scalar.muli v681 c1_i32_485
  let v683 : BitVec 32 := Scalar.addi c0_i32_486 v682
  v683.toNat
def k0_dev14 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_514 : BitVec 32 := 8#32
  let v708 : BitVec 32 := Scalar.muli v19 c8_i32_514
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  let v50 : BitVec 32 := Scalar.xori v29 c1_i32_19
  let v709 : BitVec 32 := Scalar.addi v708 v50
  let c1_i32_519 : BitVec 32 := 1#32
  let v710 : BitVec 32 := Scalar.muli v709 c1_i32_519
  let v711 : BitVec 32 := Scalar.addi c0_i32_520 v710
  v711.toNat
def k0_dev15 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_548 : BitVec 32 := 8#32
  let v736 : BitVec 32 := Scalar.muli v19 c8_i32_548
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  let v50 : BitVec 32 := Scalar.xori v29 c1_i32_19
  let v737 : BitVec 32 := Scalar.addi v736 v50
  let c1_i32_553 : BitVec 32 := 1#32
  let v738 : BitVec 32 := Scalar.muli v737 c1_i32_553
  let v739 : BitVec 32 := Scalar.addi c0_i32_554 v738
  v739.toNat
def k0_off3 (d0 : Dev nD) (c0_i32_611 : BitVec 32) (c1_i32_602 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v775 : BitVec 32 := Scalar.addi v46 c1_i32_602
  let c4_i32_603 : BitVec 32 := 4#32
  let c0_i32_604 : BitVec 32 := 0#32
  let v776 : BitVec 1 := Scalar.cmpi .eq c4_i32_603 c0_i32_604
  let c1_i32_605 : BitVec 32 := 1#32
  let v777 : BitVec 32 := Scalar.select v776 c1_i32_605 c4_i32_603
  let v778 : BitVec 32 := Scalar.remsi v775 v777
  let c0_i32_607 : BitVec 32 := 0#32
  let v780 : BitVec 1 := Scalar.cmpi .slt v778 c0_i32_607
  let c0_i32_608 : BitVec 32 := 0#32
  let v781 : BitVec 1 := Scalar.cmpi .slt v777 c0_i32_608
  let v782 : BitVec 1 := Scalar.xori v780 v781
  let c0_i32_606 : BitVec 32 := 0#32
  let v779 : BitVec 1 := Scalar.cmpi .ne v778 c0_i32_606
  let v783 : BitVec 1 := Scalar.andi v782 v779
  let v784 : BitVec 32 := Scalar.addi v778 v777
  let v785 : BitVec 32 := Scalar.select v783 v784 v778
  let v788 : BitVec 32 := Scalar.addi c0_i32_611 v785
  ![v788.toNat]
def k0_off4 (d0 : Dev nD) (c0_i32_612 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v789 : BitVec 32 := Scalar.addi c0_i32_612 v46
  ![v789.toNat]
def k0_off5 (d0 : Dev nD) (c0_i32_610 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v787 : BitVec 32 := Scalar.addi c0_i32_610 v46
  let c0_i32_618 : BitVec 32 := 0#32
  let c0_i32_619 : BitVec 32 := 0#32
  let c0_i32_620 : BitVec 32 := 0#32
  ![v787.toNat, 0, 0, 0]
def k0_off6 (d0 : Dev nD) (c0_i32_609 : BitVec 32) (c1_i32_602 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v775 : BitVec 32 := Scalar.addi v46 c1_i32_602
  let c4_i32_603 : BitVec 32 := 4#32
  let c0_i32_604 : BitVec 32 := 0#32
  let v776 : BitVec 1 := Scalar.cmpi .eq c4_i32_603 c0_i32_604
  let c1_i32_605 : BitVec 32 := 1#32
  let v777 : BitVec 32 := Scalar.select v776 c1_i32_605 c4_i32_603
  let v778 : BitVec 32 := Scalar.remsi v775 v777
  let c0_i32_607 : BitVec 32 := 0#32
  let v780 : BitVec 1 := Scalar.cmpi .slt v778 c0_i32_607
  let c0_i32_608 : BitVec 32 := 0#32
  let v781 : BitVec 1 := Scalar.cmpi .slt v777 c0_i32_608
  let v782 : BitVec 1 := Scalar.xori v780 v781
  let c0_i32_606 : BitVec 32 := 0#32
  let v779 : BitVec 1 := Scalar.cmpi .ne v778 c0_i32_606
  let v783 : BitVec 1 := Scalar.andi v782 v779
  let v784 : BitVec 32 := Scalar.addi v778 v777
  let v785 : BitVec 32 := Scalar.select v783 v784 v778
  let v786 : BitVec 32 := Scalar.addi c0_i32_609 v785
  let c0_i32_621 : BitVec 32 := 0#32
  let c0_i32_622 : BitVec 32 := 0#32
  let c0_i32_623 : BitVec 32 := 0#32
  ![v786.toNat, 0, 0, 0]
def k0_dev16 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_613 : BitVec 32 := 8#32
  let v790 : BitVec 32 := Scalar.muli v19 c8_i32_613
  let c2_i32_614 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_602 : BitVec 32 := 1#32
  let v775 : BitVec 32 := Scalar.addi v46 c1_i32_602
  let c4_i32_603 : BitVec 32 := 4#32
  let c0_i32_604 : BitVec 32 := 0#32
  let v776 : BitVec 1 := Scalar.cmpi .eq c4_i32_603 c0_i32_604
  let c1_i32_605 : BitVec 32 := 1#32
  let v777 : BitVec 32 := Scalar.select v776 c1_i32_605 c4_i32_603
  let v778 : BitVec 32 := Scalar.remsi v775 v777
  let c0_i32_607 : BitVec 32 := 0#32
  let v780 : BitVec 1 := Scalar.cmpi .slt v778 c0_i32_607
  let c0_i32_608 : BitVec 32 := 0#32
  let v781 : BitVec 1 := Scalar.cmpi .slt v777 c0_i32_608
  let v782 : BitVec 1 := Scalar.xori v780 v781
  let c0_i32_606 : BitVec 32 := 0#32
  let v779 : BitVec 1 := Scalar.cmpi .ne v778 c0_i32_606
  let v783 : BitVec 1 := Scalar.andi v782 v779
  let v784 : BitVec 32 := Scalar.addi v778 v777
  let v785 : BitVec 32 := Scalar.select v783 v784 v778
  let v791 : BitVec 32 := Scalar.muli c2_i32_614 v785
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_615 : BitVec 32 := 1#32
  let v792 : BitVec 32 := Scalar.andi v785 c1_i32_615
  let v793 : BitVec 32 := Scalar.xori v49 v792
  let v794 : BitVec 32 := Scalar.addi v791 v793
  let v795 : BitVec 32 := Scalar.addi v790 v794
  let c1_i32_616 : BitVec 32 := 1#32
  let v796 : BitVec 32 := Scalar.muli v795 c1_i32_616
  let v797 : BitVec 32 := Scalar.addi c0_i32_617 v796
  v797.toNat
def k0_dev17 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_635 : BitVec 32 := 8#32
  let v819 : BitVec 32 := Scalar.muli v19 c8_i32_635
  let c2_i32_636 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_624 : BitVec 32 := 2#32
  let v804 : BitVec 32 := Scalar.addi v46 c2_i32_624
  let c4_i32_625 : BitVec 32 := 4#32
  let c0_i32_626 : BitVec 32 := 0#32
  let v805 : BitVec 1 := Scalar.cmpi .eq c4_i32_625 c0_i32_626
  let c1_i32_627 : BitVec 32 := 1#32
  let v806 : BitVec 32 := Scalar.select v805 c1_i32_627 c4_i32_625
  let v807 : BitVec 32 := Scalar.remsi v804 v806
  let c0_i32_629 : BitVec 32 := 0#32
  let v809 : BitVec 1 := Scalar.cmpi .slt v807 c0_i32_629
  let c0_i32_630 : BitVec 32 := 0#32
  let v810 : BitVec 1 := Scalar.cmpi .slt v806 c0_i32_630
  let v811 : BitVec 1 := Scalar.xori v809 v810
  let c0_i32_628 : BitVec 32 := 0#32
  let v808 : BitVec 1 := Scalar.cmpi .ne v807 c0_i32_628
  let v812 : BitVec 1 := Scalar.andi v811 v808
  let v813 : BitVec 32 := Scalar.addi v807 v806
  let v814 : BitVec 32 := Scalar.select v812 v813 v807
  let v820 : BitVec 32 := Scalar.muli c2_i32_636 v814
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_637 : BitVec 32 := 1#32
  let v821 : BitVec 32 := Scalar.andi v814 c1_i32_637
  let v822 : BitVec 32 := Scalar.xori v49 v821
  let v823 : BitVec 32 := Scalar.addi v820 v822
  let v824 : BitVec 32 := Scalar.addi v819 v823
  let c1_i32_638 : BitVec 32 := 1#32
  let v825 : BitVec 32 := Scalar.muli v824 c1_i32_638
  let v826 : BitVec 32 := Scalar.addi c0_i32_639 v825
  v826.toNat
def k0_dev18 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_657 : BitVec 32 := 8#32
  let v848 : BitVec 32 := Scalar.muli v19 c8_i32_657
  let c2_i32_658 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_646 : BitVec 32 := 3#32
  let v833 : BitVec 32 := Scalar.addi v46 c3_i32_646
  let c4_i32_647 : BitVec 32 := 4#32
  let c0_i32_648 : BitVec 32 := 0#32
  let v834 : BitVec 1 := Scalar.cmpi .eq c4_i32_647 c0_i32_648
  let c1_i32_649 : BitVec 32 := 1#32
  let v835 : BitVec 32 := Scalar.select v834 c1_i32_649 c4_i32_647
  let v836 : BitVec 32 := Scalar.remsi v833 v835
  let c0_i32_651 : BitVec 32 := 0#32
  let v838 : BitVec 1 := Scalar.cmpi .slt v836 c0_i32_651
  let c0_i32_652 : BitVec 32 := 0#32
  let v839 : BitVec 1 := Scalar.cmpi .slt v835 c0_i32_652
  let v840 : BitVec 1 := Scalar.xori v838 v839
  let c0_i32_650 : BitVec 32 := 0#32
  let v837 : BitVec 1 := Scalar.cmpi .ne v836 c0_i32_650
  let v841 : BitVec 1 := Scalar.andi v840 v837
  let v842 : BitVec 32 := Scalar.addi v836 v835
  let v843 : BitVec 32 := Scalar.select v841 v842 v836
  let v849 : BitVec 32 := Scalar.muli c2_i32_658 v843
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_659 : BitVec 32 := 1#32
  let v850 : BitVec 32 := Scalar.andi v843 c1_i32_659
  let v851 : BitVec 32 := Scalar.xori v49 v850
  let v852 : BitVec 32 := Scalar.addi v849 v851
  let v853 : BitVec 32 := Scalar.addi v848 v852
  let c1_i32_660 : BitVec 32 := 1#32
  let v854 : BitVec 32 := Scalar.muli v853 c1_i32_660
  let v855 : BitVec 32 := Scalar.addi c0_i32_661 v854
  v855.toNat
def k0_dev19 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_708 : BitVec 32 := 8#32
  let v896 : BitVec 32 := Scalar.muli v19 c8_i32_708
  let c2_i32_709 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_697 : BitVec 32 := 1#32
  let v881 : BitVec 32 := Scalar.addi v46 c1_i32_697
  let c4_i32_698 : BitVec 32 := 4#32
  let c0_i32_699 : BitVec 32 := 0#32
  let v882 : BitVec 1 := Scalar.cmpi .eq c4_i32_698 c0_i32_699
  let c1_i32_700 : BitVec 32 := 1#32
  let v883 : BitVec 32 := Scalar.select v882 c1_i32_700 c4_i32_698
  let v884 : BitVec 32 := Scalar.remsi v881 v883
  let c0_i32_702 : BitVec 32 := 0#32
  let v886 : BitVec 1 := Scalar.cmpi .slt v884 c0_i32_702
  let c0_i32_703 : BitVec 32 := 0#32
  let v887 : BitVec 1 := Scalar.cmpi .slt v883 c0_i32_703
  let v888 : BitVec 1 := Scalar.xori v886 v887
  let c0_i32_701 : BitVec 32 := 0#32
  let v885 : BitVec 1 := Scalar.cmpi .ne v884 c0_i32_701
  let v889 : BitVec 1 := Scalar.andi v888 v885
  let v890 : BitVec 32 := Scalar.addi v884 v883
  let v891 : BitVec 32 := Scalar.select v889 v890 v884
  let v897 : BitVec 32 := Scalar.muli c2_i32_709 v891
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_710 : BitVec 32 := 1#32
  let v898 : BitVec 32 := Scalar.andi v891 c1_i32_710
  let v899 : BitVec 32 := Scalar.xori v49 v898
  let v900 : BitVec 32 := Scalar.addi v897 v899
  let v901 : BitVec 32 := Scalar.addi v896 v900
  let c1_i32_711 : BitVec 32 := 1#32
  let v902 : BitVec 32 := Scalar.muli v901 c1_i32_711
  let v903 : BitVec 32 := Scalar.addi c0_i32_712 v902
  v903.toNat
def k0_dev20 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_730 : BitVec 32 := 8#32
  let v925 : BitVec 32 := Scalar.muli v19 c8_i32_730
  let c2_i32_731 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_719 : BitVec 32 := 2#32
  let v910 : BitVec 32 := Scalar.addi v46 c2_i32_719
  let c4_i32_720 : BitVec 32 := 4#32
  let c0_i32_721 : BitVec 32 := 0#32
  let v911 : BitVec 1 := Scalar.cmpi .eq c4_i32_720 c0_i32_721
  let c1_i32_722 : BitVec 32 := 1#32
  let v912 : BitVec 32 := Scalar.select v911 c1_i32_722 c4_i32_720
  let v913 : BitVec 32 := Scalar.remsi v910 v912
  let c0_i32_724 : BitVec 32 := 0#32
  let v915 : BitVec 1 := Scalar.cmpi .slt v913 c0_i32_724
  let c0_i32_725 : BitVec 32 := 0#32
  let v916 : BitVec 1 := Scalar.cmpi .slt v912 c0_i32_725
  let v917 : BitVec 1 := Scalar.xori v915 v916
  let c0_i32_723 : BitVec 32 := 0#32
  let v914 : BitVec 1 := Scalar.cmpi .ne v913 c0_i32_723
  let v918 : BitVec 1 := Scalar.andi v917 v914
  let v919 : BitVec 32 := Scalar.addi v913 v912
  let v920 : BitVec 32 := Scalar.select v918 v919 v913
  let v926 : BitVec 32 := Scalar.muli c2_i32_731 v920
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_732 : BitVec 32 := 1#32
  let v927 : BitVec 32 := Scalar.andi v920 c1_i32_732
  let v928 : BitVec 32 := Scalar.xori v49 v927
  let v929 : BitVec 32 := Scalar.addi v926 v928
  let v930 : BitVec 32 := Scalar.addi v925 v929
  let c1_i32_733 : BitVec 32 := 1#32
  let v931 : BitVec 32 := Scalar.muli v930 c1_i32_733
  let v932 : BitVec 32 := Scalar.addi c0_i32_734 v931
  v932.toNat
def k0_dev21 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_752 : BitVec 32 := 8#32
  let v954 : BitVec 32 := Scalar.muli v19 c8_i32_752
  let c2_i32_753 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_741 : BitVec 32 := 3#32
  let v939 : BitVec 32 := Scalar.addi v46 c3_i32_741
  let c4_i32_742 : BitVec 32 := 4#32
  let c0_i32_743 : BitVec 32 := 0#32
  let v940 : BitVec 1 := Scalar.cmpi .eq c4_i32_742 c0_i32_743
  let c1_i32_744 : BitVec 32 := 1#32
  let v941 : BitVec 32 := Scalar.select v940 c1_i32_744 c4_i32_742
  let v942 : BitVec 32 := Scalar.remsi v939 v941
  let c0_i32_746 : BitVec 32 := 0#32
  let v944 : BitVec 1 := Scalar.cmpi .slt v942 c0_i32_746
  let c0_i32_747 : BitVec 32 := 0#32
  let v945 : BitVec 1 := Scalar.cmpi .slt v941 c0_i32_747
  let v946 : BitVec 1 := Scalar.xori v944 v945
  let c0_i32_745 : BitVec 32 := 0#32
  let v943 : BitVec 1 := Scalar.cmpi .ne v942 c0_i32_745
  let v947 : BitVec 1 := Scalar.andi v946 v943
  let v948 : BitVec 32 := Scalar.addi v942 v941
  let v949 : BitVec 32 := Scalar.select v947 v948 v942
  let v955 : BitVec 32 := Scalar.muli c2_i32_753 v949
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_754 : BitVec 32 := 1#32
  let v956 : BitVec 32 := Scalar.andi v949 c1_i32_754
  let v957 : BitVec 32 := Scalar.xori v49 v956
  let v958 : BitVec 32 := Scalar.addi v955 v957
  let v959 : BitVec 32 := Scalar.addi v954 v958
  let c1_i32_755 : BitVec 32 := 1#32
  let v960 : BitVec 32 := Scalar.muli v959 c1_i32_755
  let v961 : BitVec 32 := Scalar.addi c0_i32_756 v960
  v961.toNat
def k0_dev22 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_802 : BitVec 32 := 8#32
  let v1002 : BitVec 32 := Scalar.muli v19 c8_i32_802
  let c2_i32_803 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_791 : BitVec 32 := 1#32
  let v987 : BitVec 32 := Scalar.addi v46 c1_i32_791
  let c4_i32_792 : BitVec 32 := 4#32
  let c0_i32_793 : BitVec 32 := 0#32
  let v988 : BitVec 1 := Scalar.cmpi .eq c4_i32_792 c0_i32_793
  let c1_i32_794 : BitVec 32 := 1#32
  let v989 : BitVec 32 := Scalar.select v988 c1_i32_794 c4_i32_792
  let v990 : BitVec 32 := Scalar.remsi v987 v989
  let c0_i32_796 : BitVec 32 := 0#32
  let v992 : BitVec 1 := Scalar.cmpi .slt v990 c0_i32_796
  let c0_i32_797 : BitVec 32 := 0#32
  let v993 : BitVec 1 := Scalar.cmpi .slt v989 c0_i32_797
  let v994 : BitVec 1 := Scalar.xori v992 v993
  let c0_i32_795 : BitVec 32 := 0#32
  let v991 : BitVec 1 := Scalar.cmpi .ne v990 c0_i32_795
  let v995 : BitVec 1 := Scalar.andi v994 v991
  let v996 : BitVec 32 := Scalar.addi v990 v989
  let v997 : BitVec 32 := Scalar.select v995 v996 v990
  let v1003 : BitVec 32 := Scalar.muli c2_i32_803 v997
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_804 : BitVec 32 := 1#32
  let v1004 : BitVec 32 := Scalar.andi v997 c1_i32_804
  let v1005 : BitVec 32 := Scalar.xori v49 v1004
  let v1006 : BitVec 32 := Scalar.addi v1003 v1005
  let v1007 : BitVec 32 := Scalar.addi v1002 v1006
  let c1_i32_805 : BitVec 32 := 1#32
  let v1008 : BitVec 32 := Scalar.muli v1007 c1_i32_805
  let v1009 : BitVec 32 := Scalar.addi c0_i32_806 v1008
  v1009.toNat
def k0_dev23 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_824 : BitVec 32 := 8#32
  let v1031 : BitVec 32 := Scalar.muli v19 c8_i32_824
  let c2_i32_825 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_813 : BitVec 32 := 2#32
  let v1016 : BitVec 32 := Scalar.addi v46 c2_i32_813
  let c4_i32_814 : BitVec 32 := 4#32
  let c0_i32_815 : BitVec 32 := 0#32
  let v1017 : BitVec 1 := Scalar.cmpi .eq c4_i32_814 c0_i32_815
  let c1_i32_816 : BitVec 32 := 1#32
  let v1018 : BitVec 32 := Scalar.select v1017 c1_i32_816 c4_i32_814
  let v1019 : BitVec 32 := Scalar.remsi v1016 v1018
  let c0_i32_818 : BitVec 32 := 0#32
  let v1021 : BitVec 1 := Scalar.cmpi .slt v1019 c0_i32_818
  let c0_i32_819 : BitVec 32 := 0#32
  let v1022 : BitVec 1 := Scalar.cmpi .slt v1018 c0_i32_819
  let v1023 : BitVec 1 := Scalar.xori v1021 v1022
  let c0_i32_817 : BitVec 32 := 0#32
  let v1020 : BitVec 1 := Scalar.cmpi .ne v1019 c0_i32_817
  let v1024 : BitVec 1 := Scalar.andi v1023 v1020
  let v1025 : BitVec 32 := Scalar.addi v1019 v1018
  let v1026 : BitVec 32 := Scalar.select v1024 v1025 v1019
  let v1032 : BitVec 32 := Scalar.muli c2_i32_825 v1026
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_826 : BitVec 32 := 1#32
  let v1033 : BitVec 32 := Scalar.andi v1026 c1_i32_826
  let v1034 : BitVec 32 := Scalar.xori v49 v1033
  let v1035 : BitVec 32 := Scalar.addi v1032 v1034
  let v1036 : BitVec 32 := Scalar.addi v1031 v1035
  let c1_i32_827 : BitVec 32 := 1#32
  let v1037 : BitVec 32 := Scalar.muli v1036 c1_i32_827
  let v1038 : BitVec 32 := Scalar.addi c0_i32_828 v1037
  v1038.toNat
def k0_dev24 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_846 : BitVec 32 := 8#32
  let v1060 : BitVec 32 := Scalar.muli v19 c8_i32_846
  let c2_i32_847 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_835 : BitVec 32 := 3#32
  let v1045 : BitVec 32 := Scalar.addi v46 c3_i32_835
  let c4_i32_836 : BitVec 32 := 4#32
  let c0_i32_837 : BitVec 32 := 0#32
  let v1046 : BitVec 1 := Scalar.cmpi .eq c4_i32_836 c0_i32_837
  let c1_i32_838 : BitVec 32 := 1#32
  let v1047 : BitVec 32 := Scalar.select v1046 c1_i32_838 c4_i32_836
  let v1048 : BitVec 32 := Scalar.remsi v1045 v1047
  let c0_i32_840 : BitVec 32 := 0#32
  let v1050 : BitVec 1 := Scalar.cmpi .slt v1048 c0_i32_840
  let c0_i32_841 : BitVec 32 := 0#32
  let v1051 : BitVec 1 := Scalar.cmpi .slt v1047 c0_i32_841
  let v1052 : BitVec 1 := Scalar.xori v1050 v1051
  let c0_i32_839 : BitVec 32 := 0#32
  let v1049 : BitVec 1 := Scalar.cmpi .ne v1048 c0_i32_839
  let v1053 : BitVec 1 := Scalar.andi v1052 v1049
  let v1054 : BitVec 32 := Scalar.addi v1048 v1047
  let v1055 : BitVec 32 := Scalar.select v1053 v1054 v1048
  let v1061 : BitVec 32 := Scalar.muli c2_i32_847 v1055
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_848 : BitVec 32 := 1#32
  let v1062 : BitVec 32 := Scalar.andi v1055 c1_i32_848
  let v1063 : BitVec 32 := Scalar.xori v49 v1062
  let v1064 : BitVec 32 := Scalar.addi v1061 v1063
  let v1065 : BitVec 32 := Scalar.addi v1060 v1064
  let c1_i32_849 : BitVec 32 := 1#32
  let v1066 : BitVec 32 := Scalar.muli v1065 c1_i32_849
  let v1067 : BitVec 32 := Scalar.addi c0_i32_850 v1066
  v1067.toNat
def k0_dev25 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_895 : BitVec 32 := 8#32
  let v1108 : BitVec 32 := Scalar.muli v19 c8_i32_895
  let c2_i32_896 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_885 : BitVec 32 := 1#32
  let v1093 : BitVec 32 := Scalar.addi v46 c1_i32_885
  let c4_i32_886 : BitVec 32 := 4#32
  let c0_i32_887 : BitVec 32 := 0#32
  let v1094 : BitVec 1 := Scalar.cmpi .eq c4_i32_886 c0_i32_887
  let c1_i32_888 : BitVec 32 := 1#32
  let v1095 : BitVec 32 := Scalar.select v1094 c1_i32_888 c4_i32_886
  let v1096 : BitVec 32 := Scalar.remsi v1093 v1095
  let c0_i32_890 : BitVec 32 := 0#32
  let v1098 : BitVec 1 := Scalar.cmpi .slt v1096 c0_i32_890
  let c0_i32_891 : BitVec 32 := 0#32
  let v1099 : BitVec 1 := Scalar.cmpi .slt v1095 c0_i32_891
  let v1100 : BitVec 1 := Scalar.xori v1098 v1099
  let c0_i32_889 : BitVec 32 := 0#32
  let v1097 : BitVec 1 := Scalar.cmpi .ne v1096 c0_i32_889
  let v1101 : BitVec 1 := Scalar.andi v1100 v1097
  let v1102 : BitVec 32 := Scalar.addi v1096 v1095
  let v1103 : BitVec 32 := Scalar.select v1101 v1102 v1096
  let v1109 : BitVec 32 := Scalar.muli c2_i32_896 v1103
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_897 : BitVec 32 := 1#32
  let v1110 : BitVec 32 := Scalar.andi v1103 c1_i32_897
  let v1111 : BitVec 32 := Scalar.xori v49 v1110
  let v1112 : BitVec 32 := Scalar.addi v1109 v1111
  let v1113 : BitVec 32 := Scalar.addi v1108 v1112
  let c1_i32_898 : BitVec 32 := 1#32
  let v1114 : BitVec 32 := Scalar.muli v1113 c1_i32_898
  let v1115 : BitVec 32 := Scalar.addi c0_i32_899 v1114
  v1115.toNat
def k0_dev26 (d0 : Dev nD) : Nat :=
  let c0_i32_921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_917 : BitVec 32 := 8#32
  let v1137 : BitVec 32 := Scalar.muli v19 c8_i32_917
  let c2_i32_918 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_906 : BitVec 32 := 2#32
  let v1122 : BitVec 32 := Scalar.addi v46 c2_i32_906
  let c4_i32_907 : BitVec 32 := 4#32
  let c0_i32_908 : BitVec 32 := 0#32
  let v1123 : BitVec 1 := Scalar.cmpi .eq c4_i32_907 c0_i32_908
  let c1_i32_909 : BitVec 32 := 1#32
  let v1124 : BitVec 32 := Scalar.select v1123 c1_i32_909 c4_i32_907
  let v1125 : BitVec 32 := Scalar.remsi v1122 v1124
  let c0_i32_911 : BitVec 32 := 0#32
  let v1127 : BitVec 1 := Scalar.cmpi .slt v1125 c0_i32_911
  let c0_i32_912 : BitVec 32 := 0#32
  let v1128 : BitVec 1 := Scalar.cmpi .slt v1124 c0_i32_912
  let v1129 : BitVec 1 := Scalar.xori v1127 v1128
  let c0_i32_910 : BitVec 32 := 0#32
  let v1126 : BitVec 1 := Scalar.cmpi .ne v1125 c0_i32_910
  let v1130 : BitVec 1 := Scalar.andi v1129 v1126
  let v1131 : BitVec 32 := Scalar.addi v1125 v1124
  let v1132 : BitVec 32 := Scalar.select v1130 v1131 v1125
  let v1138 : BitVec 32 := Scalar.muli c2_i32_918 v1132
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_919 : BitVec 32 := 1#32
  let v1139 : BitVec 32 := Scalar.andi v1132 c1_i32_919
  let v1140 : BitVec 32 := Scalar.xori v49 v1139
  let v1141 : BitVec 32 := Scalar.addi v1138 v1140
  let v1142 : BitVec 32 := Scalar.addi v1137 v1141
  let c1_i32_920 : BitVec 32 := 1#32
  let v1143 : BitVec 32 := Scalar.muli v1142 c1_i32_920
  let v1144 : BitVec 32 := Scalar.addi c0_i32_921 v1143
  v1144.toNat
def k0_dev27 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_939 : BitVec 32 := 8#32
  let v1166 : BitVec 32 := Scalar.muli v19 c8_i32_939
  let c2_i32_940 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_928 : BitVec 32 := 3#32
  let v1151 : BitVec 32 := Scalar.addi v46 c3_i32_928
  let c4_i32_929 : BitVec 32 := 4#32
  let c0_i32_930 : BitVec 32 := 0#32
  let v1152 : BitVec 1 := Scalar.cmpi .eq c4_i32_929 c0_i32_930
  let c1_i32_931 : BitVec 32 := 1#32
  let v1153 : BitVec 32 := Scalar.select v1152 c1_i32_931 c4_i32_929
  let v1154 : BitVec 32 := Scalar.remsi v1151 v1153
  let c0_i32_933 : BitVec 32 := 0#32
  let v1156 : BitVec 1 := Scalar.cmpi .slt v1154 c0_i32_933
  let c0_i32_934 : BitVec 32 := 0#32
  let v1157 : BitVec 1 := Scalar.cmpi .slt v1153 c0_i32_934
  let v1158 : BitVec 1 := Scalar.xori v1156 v1157
  let c0_i32_932 : BitVec 32 := 0#32
  let v1155 : BitVec 1 := Scalar.cmpi .ne v1154 c0_i32_932
  let v1159 : BitVec 1 := Scalar.andi v1158 v1155
  let v1160 : BitVec 32 := Scalar.addi v1154 v1153
  let v1161 : BitVec 32 := Scalar.select v1159 v1160 v1154
  let v1167 : BitVec 32 := Scalar.muli c2_i32_940 v1161
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_941 : BitVec 32 := 1#32
  let v1168 : BitVec 32 := Scalar.andi v1161 c1_i32_941
  let v1169 : BitVec 32 := Scalar.xori v49 v1168
  let v1170 : BitVec 32 := Scalar.addi v1167 v1169
  let v1171 : BitVec 32 := Scalar.addi v1166 v1170
  let c1_i32_942 : BitVec 32 := 1#32
  let v1172 : BitVec 32 := Scalar.muli v1171 c1_i32_942
  let v1173 : BitVec 32 := Scalar.addi c0_i32_943 v1172
  v1173.toNat
def k0_dev28 (d0 : Dev nD) : Nat :=
  let c0_i32_992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_988 : BitVec 32 := 8#32
  let v1214 : BitVec 32 := Scalar.muli v19 c8_i32_988
  let c2_i32_989 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_978 : BitVec 32 := 1#32
  let v1199 : BitVec 32 := Scalar.addi v46 c1_i32_978
  let c4_i32_979 : BitVec 32 := 4#32
  let c0_i32_980 : BitVec 32 := 0#32
  let v1200 : BitVec 1 := Scalar.cmpi .eq c4_i32_979 c0_i32_980
  let c1_i32_981 : BitVec 32 := 1#32
  let v1201 : BitVec 32 := Scalar.select v1200 c1_i32_981 c4_i32_979
  let v1202 : BitVec 32 := Scalar.remsi v1199 v1201
  let c0_i32_983 : BitVec 32 := 0#32
  let v1204 : BitVec 1 := Scalar.cmpi .slt v1202 c0_i32_983
  let c0_i32_984 : BitVec 32 := 0#32
  let v1205 : BitVec 1 := Scalar.cmpi .slt v1201 c0_i32_984
  let v1206 : BitVec 1 := Scalar.xori v1204 v1205
  let c0_i32_982 : BitVec 32 := 0#32
  let v1203 : BitVec 1 := Scalar.cmpi .ne v1202 c0_i32_982
  let v1207 : BitVec 1 := Scalar.andi v1206 v1203
  let v1208 : BitVec 32 := Scalar.addi v1202 v1201
  let v1209 : BitVec 32 := Scalar.select v1207 v1208 v1202
  let v1215 : BitVec 32 := Scalar.muli c2_i32_989 v1209
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_990 : BitVec 32 := 1#32
  let v1216 : BitVec 32 := Scalar.andi v1209 c1_i32_990
  let v1217 : BitVec 32 := Scalar.xori v49 v1216
  let v1218 : BitVec 32 := Scalar.addi v1215 v1217
  let v1219 : BitVec 32 := Scalar.addi v1214 v1218
  let c1_i32_991 : BitVec 32 := 1#32
  let v1220 : BitVec 32 := Scalar.muli v1219 c1_i32_991
  let v1221 : BitVec 32 := Scalar.addi c0_i32_992 v1220
  v1221.toNat
def k0_dev29 (d0 : Dev nD) : Nat :=
  let c0_i32_1014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1010 : BitVec 32 := 8#32
  let v1243 : BitVec 32 := Scalar.muli v19 c8_i32_1010
  let c2_i32_1011 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_999 : BitVec 32 := 2#32
  let v1228 : BitVec 32 := Scalar.addi v46 c2_i32_999
  let c4_i32_1000 : BitVec 32 := 4#32
  let c0_i32_1001 : BitVec 32 := 0#32
  let v1229 : BitVec 1 := Scalar.cmpi .eq c4_i32_1000 c0_i32_1001
  let c1_i32_1002 : BitVec 32 := 1#32
  let v1230 : BitVec 32 := Scalar.select v1229 c1_i32_1002 c4_i32_1000
  let v1231 : BitVec 32 := Scalar.remsi v1228 v1230
  let c0_i32_1004 : BitVec 32 := 0#32
  let v1233 : BitVec 1 := Scalar.cmpi .slt v1231 c0_i32_1004
  let c0_i32_1005 : BitVec 32 := 0#32
  let v1234 : BitVec 1 := Scalar.cmpi .slt v1230 c0_i32_1005
  let v1235 : BitVec 1 := Scalar.xori v1233 v1234
  let c0_i32_1003 : BitVec 32 := 0#32
  let v1232 : BitVec 1 := Scalar.cmpi .ne v1231 c0_i32_1003
  let v1236 : BitVec 1 := Scalar.andi v1235 v1232
  let v1237 : BitVec 32 := Scalar.addi v1231 v1230
  let v1238 : BitVec 32 := Scalar.select v1236 v1237 v1231
  let v1244 : BitVec 32 := Scalar.muli c2_i32_1011 v1238
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1012 : BitVec 32 := 1#32
  let v1245 : BitVec 32 := Scalar.andi v1238 c1_i32_1012
  let v1246 : BitVec 32 := Scalar.xori v49 v1245
  let v1247 : BitVec 32 := Scalar.addi v1244 v1246
  let v1248 : BitVec 32 := Scalar.addi v1243 v1247
  let c1_i32_1013 : BitVec 32 := 1#32
  let v1249 : BitVec 32 := Scalar.muli v1248 c1_i32_1013
  let v1250 : BitVec 32 := Scalar.addi c0_i32_1014 v1249
  v1250.toNat
def k0_dev30 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1032 : BitVec 32 := 8#32
  let v1272 : BitVec 32 := Scalar.muli v19 c8_i32_1032
  let c2_i32_1033 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_1021 : BitVec 32 := 3#32
  let v1257 : BitVec 32 := Scalar.addi v46 c3_i32_1021
  let c4_i32_1022 : BitVec 32 := 4#32
  let c0_i32_1023 : BitVec 32 := 0#32
  let v1258 : BitVec 1 := Scalar.cmpi .eq c4_i32_1022 c0_i32_1023
  let c1_i32_1024 : BitVec 32 := 1#32
  let v1259 : BitVec 32 := Scalar.select v1258 c1_i32_1024 c4_i32_1022
  let v1260 : BitVec 32 := Scalar.remsi v1257 v1259
  let c0_i32_1026 : BitVec 32 := 0#32
  let v1262 : BitVec 1 := Scalar.cmpi .slt v1260 c0_i32_1026
  let c0_i32_1027 : BitVec 32 := 0#32
  let v1263 : BitVec 1 := Scalar.cmpi .slt v1259 c0_i32_1027
  let v1264 : BitVec 1 := Scalar.xori v1262 v1263
  let c0_i32_1025 : BitVec 32 := 0#32
  let v1261 : BitVec 1 := Scalar.cmpi .ne v1260 c0_i32_1025
  let v1265 : BitVec 1 := Scalar.andi v1264 v1261
  let v1266 : BitVec 32 := Scalar.addi v1260 v1259
  let v1267 : BitVec 32 := Scalar.select v1265 v1266 v1260
  let v1273 : BitVec 32 := Scalar.muli c2_i32_1033 v1267
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1034 : BitVec 32 := 1#32
  let v1274 : BitVec 32 := Scalar.andi v1267 c1_i32_1034
  let v1275 : BitVec 32 := Scalar.xori v49 v1274
  let v1276 : BitVec 32 := Scalar.addi v1273 v1275
  let v1277 : BitVec 32 := Scalar.addi v1272 v1276
  let c1_i32_1035 : BitVec 32 := 1#32
  let v1278 : BitVec 32 := Scalar.muli v1277 c1_i32_1035
  let v1279 : BitVec 32 := Scalar.addi c0_i32_1036 v1278
  v1279.toNat
def k0_dev31 (d0 : Dev nD) : Nat :=
  let c0_i32_1085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1081 : BitVec 32 := 8#32
  let v1320 : BitVec 32 := Scalar.muli v19 c8_i32_1081
  let c2_i32_1082 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1071 : BitVec 32 := 1#32
  let v1305 : BitVec 32 := Scalar.addi v46 c1_i32_1071
  let c4_i32_1072 : BitVec 32 := 4#32
  let c0_i32_1073 : BitVec 32 := 0#32
  let v1306 : BitVec 1 := Scalar.cmpi .eq c4_i32_1072 c0_i32_1073
  let c1_i32_1074 : BitVec 32 := 1#32
  let v1307 : BitVec 32 := Scalar.select v1306 c1_i32_1074 c4_i32_1072
  let v1308 : BitVec 32 := Scalar.remsi v1305 v1307
  let c0_i32_1076 : BitVec 32 := 0#32
  let v1310 : BitVec 1 := Scalar.cmpi .slt v1308 c0_i32_1076
  let c0_i32_1077 : BitVec 32 := 0#32
  let v1311 : BitVec 1 := Scalar.cmpi .slt v1307 c0_i32_1077
  let v1312 : BitVec 1 := Scalar.xori v1310 v1311
  let c0_i32_1075 : BitVec 32 := 0#32
  let v1309 : BitVec 1 := Scalar.cmpi .ne v1308 c0_i32_1075
  let v1313 : BitVec 1 := Scalar.andi v1312 v1309
  let v1314 : BitVec 32 := Scalar.addi v1308 v1307
  let v1315 : BitVec 32 := Scalar.select v1313 v1314 v1308
  let v1321 : BitVec 32 := Scalar.muli c2_i32_1082 v1315
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1083 : BitVec 32 := 1#32
  let v1322 : BitVec 32 := Scalar.andi v1315 c1_i32_1083
  let v1323 : BitVec 32 := Scalar.xori v49 v1322
  let v1324 : BitVec 32 := Scalar.addi v1321 v1323
  let v1325 : BitVec 32 := Scalar.addi v1320 v1324
  let c1_i32_1084 : BitVec 32 := 1#32
  let v1326 : BitVec 32 := Scalar.muli v1325 c1_i32_1084
  let v1327 : BitVec 32 := Scalar.addi c0_i32_1085 v1326
  v1327.toNat
def k0_dev32 (d0 : Dev nD) : Nat :=
  let c0_i32_1107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1103 : BitVec 32 := 8#32
  let v1349 : BitVec 32 := Scalar.muli v19 c8_i32_1103
  let c2_i32_1104 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1092 : BitVec 32 := 2#32
  let v1334 : BitVec 32 := Scalar.addi v46 c2_i32_1092
  let c4_i32_1093 : BitVec 32 := 4#32
  let c0_i32_1094 : BitVec 32 := 0#32
  let v1335 : BitVec 1 := Scalar.cmpi .eq c4_i32_1093 c0_i32_1094
  let c1_i32_1095 : BitVec 32 := 1#32
  let v1336 : BitVec 32 := Scalar.select v1335 c1_i32_1095 c4_i32_1093
  let v1337 : BitVec 32 := Scalar.remsi v1334 v1336
  let c0_i32_1097 : BitVec 32 := 0#32
  let v1339 : BitVec 1 := Scalar.cmpi .slt v1337 c0_i32_1097
  let c0_i32_1098 : BitVec 32 := 0#32
  let v1340 : BitVec 1 := Scalar.cmpi .slt v1336 c0_i32_1098
  let v1341 : BitVec 1 := Scalar.xori v1339 v1340
  let c0_i32_1096 : BitVec 32 := 0#32
  let v1338 : BitVec 1 := Scalar.cmpi .ne v1337 c0_i32_1096
  let v1342 : BitVec 1 := Scalar.andi v1341 v1338
  let v1343 : BitVec 32 := Scalar.addi v1337 v1336
  let v1344 : BitVec 32 := Scalar.select v1342 v1343 v1337
  let v1350 : BitVec 32 := Scalar.muli c2_i32_1104 v1344
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1105 : BitVec 32 := 1#32
  let v1351 : BitVec 32 := Scalar.andi v1344 c1_i32_1105
  let v1352 : BitVec 32 := Scalar.xori v49 v1351
  let v1353 : BitVec 32 := Scalar.addi v1350 v1352
  let v1354 : BitVec 32 := Scalar.addi v1349 v1353
  let c1_i32_1106 : BitVec 32 := 1#32
  let v1355 : BitVec 32 := Scalar.muli v1354 c1_i32_1106
  let v1356 : BitVec 32 := Scalar.addi c0_i32_1107 v1355
  v1356.toNat
def k0_dev33 (d0 : Dev nD) : Nat :=
  let c0_i32_1129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1125 : BitVec 32 := 8#32
  let v1378 : BitVec 32 := Scalar.muli v19 c8_i32_1125
  let c2_i32_1126 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_1114 : BitVec 32 := 3#32
  let v1363 : BitVec 32 := Scalar.addi v46 c3_i32_1114
  let c4_i32_1115 : BitVec 32 := 4#32
  let c0_i32_1116 : BitVec 32 := 0#32
  let v1364 : BitVec 1 := Scalar.cmpi .eq c4_i32_1115 c0_i32_1116
  let c1_i32_1117 : BitVec 32 := 1#32
  let v1365 : BitVec 32 := Scalar.select v1364 c1_i32_1117 c4_i32_1115
  let v1366 : BitVec 32 := Scalar.remsi v1363 v1365
  let c0_i32_1119 : BitVec 32 := 0#32
  let v1368 : BitVec 1 := Scalar.cmpi .slt v1366 c0_i32_1119
  let c0_i32_1120 : BitVec 32 := 0#32
  let v1369 : BitVec 1 := Scalar.cmpi .slt v1365 c0_i32_1120
  let v1370 : BitVec 1 := Scalar.xori v1368 v1369
  let c0_i32_1118 : BitVec 32 := 0#32
  let v1367 : BitVec 1 := Scalar.cmpi .ne v1366 c0_i32_1118
  let v1371 : BitVec 1 := Scalar.andi v1370 v1367
  let v1372 : BitVec 32 := Scalar.addi v1366 v1365
  let v1373 : BitVec 32 := Scalar.select v1371 v1372 v1366
  let v1379 : BitVec 32 := Scalar.muli c2_i32_1126 v1373
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1127 : BitVec 32 := 1#32
  let v1380 : BitVec 32 := Scalar.andi v1373 c1_i32_1127
  let v1381 : BitVec 32 := Scalar.xori v49 v1380
  let v1382 : BitVec 32 := Scalar.addi v1379 v1381
  let v1383 : BitVec 32 := Scalar.addi v1378 v1382
  let c1_i32_1128 : BitVec 32 := 1#32
  let v1384 : BitVec 32 := Scalar.muli v1383 c1_i32_1128
  let v1385 : BitVec 32 := Scalar.addi c0_i32_1129 v1384
  v1385.toNat
def k0_dev34 (d0 : Dev nD) : Nat :=
  let c0_i32_1178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1174 : BitVec 32 := 8#32
  let v1426 : BitVec 32 := Scalar.muli v19 c8_i32_1174
  let c2_i32_1175 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1164 : BitVec 32 := 1#32
  let v1411 : BitVec 32 := Scalar.addi v46 c1_i32_1164
  let c4_i32_1165 : BitVec 32 := 4#32
  let c0_i32_1166 : BitVec 32 := 0#32
  let v1412 : BitVec 1 := Scalar.cmpi .eq c4_i32_1165 c0_i32_1166
  let c1_i32_1167 : BitVec 32 := 1#32
  let v1413 : BitVec 32 := Scalar.select v1412 c1_i32_1167 c4_i32_1165
  let v1414 : BitVec 32 := Scalar.remsi v1411 v1413
  let c0_i32_1169 : BitVec 32 := 0#32
  let v1416 : BitVec 1 := Scalar.cmpi .slt v1414 c0_i32_1169
  let c0_i32_1170 : BitVec 32 := 0#32
  let v1417 : BitVec 1 := Scalar.cmpi .slt v1413 c0_i32_1170
  let v1418 : BitVec 1 := Scalar.xori v1416 v1417
  let c0_i32_1168 : BitVec 32 := 0#32
  let v1415 : BitVec 1 := Scalar.cmpi .ne v1414 c0_i32_1168
  let v1419 : BitVec 1 := Scalar.andi v1418 v1415
  let v1420 : BitVec 32 := Scalar.addi v1414 v1413
  let v1421 : BitVec 32 := Scalar.select v1419 v1420 v1414
  let v1427 : BitVec 32 := Scalar.muli c2_i32_1175 v1421
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1176 : BitVec 32 := 1#32
  let v1428 : BitVec 32 := Scalar.andi v1421 c1_i32_1176
  let v1429 : BitVec 32 := Scalar.xori v49 v1428
  let v1430 : BitVec 32 := Scalar.addi v1427 v1429
  let v1431 : BitVec 32 := Scalar.addi v1426 v1430
  let c1_i32_1177 : BitVec 32 := 1#32
  let v1432 : BitVec 32 := Scalar.muli v1431 c1_i32_1177
  let v1433 : BitVec 32 := Scalar.addi c0_i32_1178 v1432
  v1433.toNat
def k0_dev35 (d0 : Dev nD) : Nat :=
  let c0_i32_1200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1196 : BitVec 32 := 8#32
  let v1455 : BitVec 32 := Scalar.muli v19 c8_i32_1196
  let c2_i32_1197 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1185 : BitVec 32 := 2#32
  let v1440 : BitVec 32 := Scalar.addi v46 c2_i32_1185
  let c4_i32_1186 : BitVec 32 := 4#32
  let c0_i32_1187 : BitVec 32 := 0#32
  let v1441 : BitVec 1 := Scalar.cmpi .eq c4_i32_1186 c0_i32_1187
  let c1_i32_1188 : BitVec 32 := 1#32
  let v1442 : BitVec 32 := Scalar.select v1441 c1_i32_1188 c4_i32_1186
  let v1443 : BitVec 32 := Scalar.remsi v1440 v1442
  let c0_i32_1190 : BitVec 32 := 0#32
  let v1445 : BitVec 1 := Scalar.cmpi .slt v1443 c0_i32_1190
  let c0_i32_1191 : BitVec 32 := 0#32
  let v1446 : BitVec 1 := Scalar.cmpi .slt v1442 c0_i32_1191
  let v1447 : BitVec 1 := Scalar.xori v1445 v1446
  let c0_i32_1189 : BitVec 32 := 0#32
  let v1444 : BitVec 1 := Scalar.cmpi .ne v1443 c0_i32_1189
  let v1448 : BitVec 1 := Scalar.andi v1447 v1444
  let v1449 : BitVec 32 := Scalar.addi v1443 v1442
  let v1450 : BitVec 32 := Scalar.select v1448 v1449 v1443
  let v1456 : BitVec 32 := Scalar.muli c2_i32_1197 v1450
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1198 : BitVec 32 := 1#32
  let v1457 : BitVec 32 := Scalar.andi v1450 c1_i32_1198
  let v1458 : BitVec 32 := Scalar.xori v49 v1457
  let v1459 : BitVec 32 := Scalar.addi v1456 v1458
  let v1460 : BitVec 32 := Scalar.addi v1455 v1459
  let c1_i32_1199 : BitVec 32 := 1#32
  let v1461 : BitVec 32 := Scalar.muli v1460 c1_i32_1199
  let v1462 : BitVec 32 := Scalar.addi c0_i32_1200 v1461
  v1462.toNat
def k0_dev36 (d0 : Dev nD) : Nat :=
  let c0_i32_1222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1218 : BitVec 32 := 8#32
  let v1484 : BitVec 32 := Scalar.muli v19 c8_i32_1218
  let c2_i32_1219 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_1207 : BitVec 32 := 3#32
  let v1469 : BitVec 32 := Scalar.addi v46 c3_i32_1207
  let c4_i32_1208 : BitVec 32 := 4#32
  let c0_i32_1209 : BitVec 32 := 0#32
  let v1470 : BitVec 1 := Scalar.cmpi .eq c4_i32_1208 c0_i32_1209
  let c1_i32_1210 : BitVec 32 := 1#32
  let v1471 : BitVec 32 := Scalar.select v1470 c1_i32_1210 c4_i32_1208
  let v1472 : BitVec 32 := Scalar.remsi v1469 v1471
  let c0_i32_1212 : BitVec 32 := 0#32
  let v1474 : BitVec 1 := Scalar.cmpi .slt v1472 c0_i32_1212
  let c0_i32_1213 : BitVec 32 := 0#32
  let v1475 : BitVec 1 := Scalar.cmpi .slt v1471 c0_i32_1213
  let v1476 : BitVec 1 := Scalar.xori v1474 v1475
  let c0_i32_1211 : BitVec 32 := 0#32
  let v1473 : BitVec 1 := Scalar.cmpi .ne v1472 c0_i32_1211
  let v1477 : BitVec 1 := Scalar.andi v1476 v1473
  let v1478 : BitVec 32 := Scalar.addi v1472 v1471
  let v1479 : BitVec 32 := Scalar.select v1477 v1478 v1472
  let v1485 : BitVec 32 := Scalar.muli c2_i32_1219 v1479
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1220 : BitVec 32 := 1#32
  let v1486 : BitVec 32 := Scalar.andi v1479 c1_i32_1220
  let v1487 : BitVec 32 := Scalar.xori v49 v1486
  let v1488 : BitVec 32 := Scalar.addi v1485 v1487
  let v1489 : BitVec 32 := Scalar.addi v1484 v1488
  let c1_i32_1221 : BitVec 32 := 1#32
  let v1490 : BitVec 32 := Scalar.muli v1489 c1_i32_1221
  let v1491 : BitVec 32 := Scalar.addi c0_i32_1222 v1490
  v1491.toNat
def k0_dev37 (d0 : Dev nD) : Nat :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1267 : BitVec 32 := 8#32
  let v1532 : BitVec 32 := Scalar.muli v19 c8_i32_1267
  let c2_i32_1268 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_1257 : BitVec 32 := 1#32
  let v1517 : BitVec 32 := Scalar.addi v46 c1_i32_1257
  let c4_i32_1258 : BitVec 32 := 4#32
  let c0_i32_1259 : BitVec 32 := 0#32
  let v1518 : BitVec 1 := Scalar.cmpi .eq c4_i32_1258 c0_i32_1259
  let c1_i32_1260 : BitVec 32 := 1#32
  let v1519 : BitVec 32 := Scalar.select v1518 c1_i32_1260 c4_i32_1258
  let v1520 : BitVec 32 := Scalar.remsi v1517 v1519
  let c0_i32_1262 : BitVec 32 := 0#32
  let v1522 : BitVec 1 := Scalar.cmpi .slt v1520 c0_i32_1262
  let c0_i32_1263 : BitVec 32 := 0#32
  let v1523 : BitVec 1 := Scalar.cmpi .slt v1519 c0_i32_1263
  let v1524 : BitVec 1 := Scalar.xori v1522 v1523
  let c0_i32_1261 : BitVec 32 := 0#32
  let v1521 : BitVec 1 := Scalar.cmpi .ne v1520 c0_i32_1261
  let v1525 : BitVec 1 := Scalar.andi v1524 v1521
  let v1526 : BitVec 32 := Scalar.addi v1520 v1519
  let v1527 : BitVec 32 := Scalar.select v1525 v1526 v1520
  let v1533 : BitVec 32 := Scalar.muli c2_i32_1268 v1527
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1269 : BitVec 32 := 1#32
  let v1534 : BitVec 32 := Scalar.andi v1527 c1_i32_1269
  let v1535 : BitVec 32 := Scalar.xori v49 v1534
  let v1536 : BitVec 32 := Scalar.addi v1533 v1535
  let v1537 : BitVec 32 := Scalar.addi v1532 v1536
  let c1_i32_1270 : BitVec 32 := 1#32
  let v1538 : BitVec 32 := Scalar.muli v1537 c1_i32_1270
  let v1539 : BitVec 32 := Scalar.addi c0_i32_1271 v1538
  v1539.toNat
def k0_dev38 (d0 : Dev nD) : Nat :=
  let c0_i32_1293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1289 : BitVec 32 := 8#32
  let v1561 : BitVec 32 := Scalar.muli v19 c8_i32_1289
  let c2_i32_1290 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_1278 : BitVec 32 := 2#32
  let v1546 : BitVec 32 := Scalar.addi v46 c2_i32_1278
  let c4_i32_1279 : BitVec 32 := 4#32
  let c0_i32_1280 : BitVec 32 := 0#32
  let v1547 : BitVec 1 := Scalar.cmpi .eq c4_i32_1279 c0_i32_1280
  let c1_i32_1281 : BitVec 32 := 1#32
  let v1548 : BitVec 32 := Scalar.select v1547 c1_i32_1281 c4_i32_1279
  let v1549 : BitVec 32 := Scalar.remsi v1546 v1548
  let c0_i32_1283 : BitVec 32 := 0#32
  let v1551 : BitVec 1 := Scalar.cmpi .slt v1549 c0_i32_1283
  let c0_i32_1284 : BitVec 32 := 0#32
  let v1552 : BitVec 1 := Scalar.cmpi .slt v1548 c0_i32_1284
  let v1553 : BitVec 1 := Scalar.xori v1551 v1552
  let c0_i32_1282 : BitVec 32 := 0#32
  let v1550 : BitVec 1 := Scalar.cmpi .ne v1549 c0_i32_1282
  let v1554 : BitVec 1 := Scalar.andi v1553 v1550
  let v1555 : BitVec 32 := Scalar.addi v1549 v1548
  let v1556 : BitVec 32 := Scalar.select v1554 v1555 v1549
  let v1562 : BitVec 32 := Scalar.muli c2_i32_1290 v1556
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1291 : BitVec 32 := 1#32
  let v1563 : BitVec 32 := Scalar.andi v1556 c1_i32_1291
  let v1564 : BitVec 32 := Scalar.xori v49 v1563
  let v1565 : BitVec 32 := Scalar.addi v1562 v1564
  let v1566 : BitVec 32 := Scalar.addi v1561 v1565
  let c1_i32_1292 : BitVec 32 := 1#32
  let v1567 : BitVec 32 := Scalar.muli v1566 c1_i32_1292
  let v1568 : BitVec 32 := Scalar.addi c0_i32_1293 v1567
  v1568.toNat
def k0_dev39 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1311 : BitVec 32 := 8#32
  let v1590 : BitVec 32 := Scalar.muli v19 c8_i32_1311
  let c2_i32_1312 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32_1300 : BitVec 32 := 3#32
  let v1575 : BitVec 32 := Scalar.addi v46 c3_i32_1300
  let c4_i32_1301 : BitVec 32 := 4#32
  let c0_i32_1302 : BitVec 32 := 0#32
  let v1576 : BitVec 1 := Scalar.cmpi .eq c4_i32_1301 c0_i32_1302
  let c1_i32_1303 : BitVec 32 := 1#32
  let v1577 : BitVec 32 := Scalar.select v1576 c1_i32_1303 c4_i32_1301
  let v1578 : BitVec 32 := Scalar.remsi v1575 v1577
  let c0_i32_1305 : BitVec 32 := 0#32
  let v1580 : BitVec 1 := Scalar.cmpi .slt v1578 c0_i32_1305
  let c0_i32_1306 : BitVec 32 := 0#32
  let v1581 : BitVec 1 := Scalar.cmpi .slt v1577 c0_i32_1306
  let v1582 : BitVec 1 := Scalar.xori v1580 v1581
  let c0_i32_1304 : BitVec 32 := 0#32
  let v1579 : BitVec 1 := Scalar.cmpi .ne v1578 c0_i32_1304
  let v1583 : BitVec 1 := Scalar.andi v1582 v1579
  let v1584 : BitVec 32 := Scalar.addi v1578 v1577
  let v1585 : BitVec 32 := Scalar.select v1583 v1584 v1578
  let v1591 : BitVec 32 := Scalar.muli c2_i32_1312 v1585
  let c1_i32_17 : BitVec 32 := 1#32
  let v47 : BitVec 32 := Scalar.andi v29 c1_i32_17
  let c1_i32_18 : BitVec 32 := 1#32
  let v48 : BitVec 32 := Scalar.andi v46 c1_i32_18
  let v49 : BitVec 32 := Scalar.xori v47 v48
  let c1_i32_1313 : BitVec 32 := 1#32
  let v1592 : BitVec 32 := Scalar.andi v1585 c1_i32_1313
  let v1593 : BitVec 32 := Scalar.xori v49 v1592
  let v1594 : BitVec 32 := Scalar.addi v1591 v1593
  let v1595 : BitVec 32 := Scalar.addi v1590 v1594
  let c1_i32_1314 : BitVec 32 := 1#32
  let v1596 : BitVec 32 := Scalar.muli v1595 c1_i32_1314
  let v1597 : BitVec 32 := Scalar.addi c0_i32_1315 v1596
  v1597.toNat
def k0_off7 (d0 : Dev nD) (c0_i32_1322 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1604 : BitVec 32 := Scalar.addi c0_i32_1322 v46
  let v1605 : Index := Scalar.indexCast v1604
  let c0_1323 : Index := 0#32
  let c0_1324 : Index := 0#32
  let c0_1325 : Index := 0#32
  ![v1605.toNat, 0, 0, 0]
def k0_off8 (d0 : Dev nD) (c0_i32_1333 : BitVec 32) (c1_i32_1326 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1609 : BitVec 32 := Scalar.subi v46 c1_i32_1326
  let c4_i32_1327 : BitVec 32 := 4#32
  let c0_i32_1328 : BitVec 32 := 0#32
  let v1610 : BitVec 1 := Scalar.cmpi .eq c4_i32_1327 c0_i32_1328
  let c1_i32_1329 : BitVec 32 := 1#32
  let v1611 : BitVec 32 := Scalar.select v1610 c1_i32_1329 c4_i32_1327
  let v1612 : BitVec 32 := Scalar.remsi v1609 v1611
  let c0_i32_1331 : BitVec 32 := 0#32
  let v1614 : BitVec 1 := Scalar.cmpi .slt v1612 c0_i32_1331
  let c0_i32_1332 : BitVec 32 := 0#32
  let v1615 : BitVec 1 := Scalar.cmpi .slt v1611 c0_i32_1332
  let v1616 : BitVec 1 := Scalar.xori v1614 v1615
  let c0_i32_1330 : BitVec 32 := 0#32
  let v1613 : BitVec 1 := Scalar.cmpi .ne v1612 c0_i32_1330
  let v1617 : BitVec 1 := Scalar.andi v1616 v1613
  let v1618 : BitVec 32 := Scalar.addi v1612 v1611
  let v1619 : BitVec 32 := Scalar.select v1617 v1618 v1612
  let v1620 : BitVec 32 := Scalar.addi c0_i32_1333 v1619
  ![v1620.toNat]
def k0_off9 (d0 : Dev nD) (c0_i32_1333 : BitVec 32) (c1_i32_1326 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1609 : BitVec 32 := Scalar.subi v46 c1_i32_1326
  let c4_i32_1327 : BitVec 32 := 4#32
  let c0_i32_1328 : BitVec 32 := 0#32
  let v1610 : BitVec 1 := Scalar.cmpi .eq c4_i32_1327 c0_i32_1328
  let c1_i32_1329 : BitVec 32 := 1#32
  let v1611 : BitVec 32 := Scalar.select v1610 c1_i32_1329 c4_i32_1327
  let v1612 : BitVec 32 := Scalar.remsi v1609 v1611
  let c0_i32_1331 : BitVec 32 := 0#32
  let v1614 : BitVec 1 := Scalar.cmpi .slt v1612 c0_i32_1331
  let c0_i32_1332 : BitVec 32 := 0#32
  let v1615 : BitVec 1 := Scalar.cmpi .slt v1611 c0_i32_1332
  let v1616 : BitVec 1 := Scalar.xori v1614 v1615
  let c0_i32_1330 : BitVec 32 := 0#32
  let v1613 : BitVec 1 := Scalar.cmpi .ne v1612 c0_i32_1330
  let v1617 : BitVec 1 := Scalar.andi v1616 v1613
  let v1618 : BitVec 32 := Scalar.addi v1612 v1611
  let v1619 : BitVec 32 := Scalar.select v1617 v1618 v1612
  let v1620 : BitVec 32 := Scalar.addi c0_i32_1333 v1619
  let c0_i32_1337 : BitVec 32 := 0#32
  let c0_i32_1338 : BitVec 32 := 0#32
  let c0_i32_1339 : BitVec 32 := 0#32
  ![v1620.toNat, 0, 0, 0]
def k0_off10 (d0 : Dev nD) (c0_i32_1333 : BitVec 32) (c1_i32_1326 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1609 : BitVec 32 := Scalar.subi v46 c1_i32_1326
  let c4_i32_1327 : BitVec 32 := 4#32
  let c0_i32_1328 : BitVec 32 := 0#32
  let v1610 : BitVec 1 := Scalar.cmpi .eq c4_i32_1327 c0_i32_1328
  let c1_i32_1329 : BitVec 32 := 1#32
  let v1611 : BitVec 32 := Scalar.select v1610 c1_i32_1329 c4_i32_1327
  let v1612 : BitVec 32 := Scalar.remsi v1609 v1611
  let c0_i32_1331 : BitVec 32 := 0#32
  let v1614 : BitVec 1 := Scalar.cmpi .slt v1612 c0_i32_1331
  let c0_i32_1332 : BitVec 32 := 0#32
  let v1615 : BitVec 1 := Scalar.cmpi .slt v1611 c0_i32_1332
  let v1616 : BitVec 1 := Scalar.xori v1614 v1615
  let c0_i32_1330 : BitVec 32 := 0#32
  let v1613 : BitVec 1 := Scalar.cmpi .ne v1612 c0_i32_1330
  let v1617 : BitVec 1 := Scalar.andi v1616 v1613
  let v1618 : BitVec 32 := Scalar.addi v1612 v1611
  let v1619 : BitVec 32 := Scalar.select v1617 v1618 v1612
  let v1620 : BitVec 32 := Scalar.addi c0_i32_1333 v1619
  let v1627 : Index := Scalar.indexCast v1620
  let c0_1343 : Index := 0#32
  let c0_1344 : Index := 0#32
  let c0_1345 : Index := 0#32
  ![v1627.toNat, 0, 0, 0]
def k0_off11 (d0 : Dev nD) (c0_i32_1398 : BitVec 32) (c1_i32_1389 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1682 : BitVec 32 := Scalar.addi v19 c1_i32_1389
  let c4_i32_1390 : BitVec 32 := 4#32
  let c0_i32_1391 : BitVec 32 := 0#32
  let v1683 : BitVec 1 := Scalar.cmpi .eq c4_i32_1390 c0_i32_1391
  let c1_i32_1392 : BitVec 32 := 1#32
  let v1684 : BitVec 32 := Scalar.select v1683 c1_i32_1392 c4_i32_1390
  let v1685 : BitVec 32 := Scalar.remsi v1682 v1684
  let c0_i32_1394 : BitVec 32 := 0#32
  let v1687 : BitVec 1 := Scalar.cmpi .slt v1685 c0_i32_1394
  let c0_i32_1395 : BitVec 32 := 0#32
  let v1688 : BitVec 1 := Scalar.cmpi .slt v1684 c0_i32_1395
  let v1689 : BitVec 1 := Scalar.xori v1687 v1688
  let c0_i32_1393 : BitVec 32 := 0#32
  let v1686 : BitVec 1 := Scalar.cmpi .ne v1685 c0_i32_1393
  let v1690 : BitVec 1 := Scalar.andi v1689 v1686
  let v1691 : BitVec 32 := Scalar.addi v1685 v1684
  let v1692 : BitVec 32 := Scalar.select v1690 v1691 v1685
  let v1695 : BitVec 32 := Scalar.addi c0_i32_1398 v1692
  ![v1695.toNat]
def k0_off12 (d0 : Dev nD) (c0_i32_1399 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1696 : BitVec 32 := Scalar.addi c0_i32_1399 v19
  ![v1696.toNat]
def k0_off13 (d0 : Dev nD) (c0_i32_1397 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1694 : BitVec 32 := Scalar.addi c0_i32_1397 v19
  let c0_i32_1403 : BitVec 32 := 0#32
  let c0_i32_1404 : BitVec 32 := 0#32
  ![v1694.toNat, 0, 0]
def k0_off14 (d0 : Dev nD) (c0_i32_1396 : BitVec 32) (c1_i32_1389 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1682 : BitVec 32 := Scalar.addi v19 c1_i32_1389
  let c4_i32_1390 : BitVec 32 := 4#32
  let c0_i32_1391 : BitVec 32 := 0#32
  let v1683 : BitVec 1 := Scalar.cmpi .eq c4_i32_1390 c0_i32_1391
  let c1_i32_1392 : BitVec 32 := 1#32
  let v1684 : BitVec 32 := Scalar.select v1683 c1_i32_1392 c4_i32_1390
  let v1685 : BitVec 32 := Scalar.remsi v1682 v1684
  let c0_i32_1394 : BitVec 32 := 0#32
  let v1687 : BitVec 1 := Scalar.cmpi .slt v1685 c0_i32_1394
  let c0_i32_1395 : BitVec 32 := 0#32
  let v1688 : BitVec 1 := Scalar.cmpi .slt v1684 c0_i32_1395
  let v1689 : BitVec 1 := Scalar.xori v1687 v1688
  let c0_i32_1393 : BitVec 32 := 0#32
  let v1686 : BitVec 1 := Scalar.cmpi .ne v1685 c0_i32_1393
  let v1690 : BitVec 1 := Scalar.andi v1689 v1686
  let v1691 : BitVec 32 := Scalar.addi v1685 v1684
  let v1692 : BitVec 32 := Scalar.select v1690 v1691 v1685
  let v1693 : BitVec 32 := Scalar.addi c0_i32_1396 v1692
  let c0_i32_1405 : BitVec 32 := 0#32
  let c0_i32_1406 : BitVec 32 := 0#32
  ![v1693.toNat, 0, 0]
def k0_dev40 (d0 : Dev nD) : Nat :=
  let c0_i32_1402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1389 : BitVec 32 := 1#32
  let v1682 : BitVec 32 := Scalar.addi v19 c1_i32_1389
  let c4_i32_1390 : BitVec 32 := 4#32
  let c0_i32_1391 : BitVec 32 := 0#32
  let v1683 : BitVec 1 := Scalar.cmpi .eq c4_i32_1390 c0_i32_1391
  let c1_i32_1392 : BitVec 32 := 1#32
  let v1684 : BitVec 32 := Scalar.select v1683 c1_i32_1392 c4_i32_1390
  let v1685 : BitVec 32 := Scalar.remsi v1682 v1684
  let c0_i32_1394 : BitVec 32 := 0#32
  let v1687 : BitVec 1 := Scalar.cmpi .slt v1685 c0_i32_1394
  let c0_i32_1395 : BitVec 32 := 0#32
  let v1688 : BitVec 1 := Scalar.cmpi .slt v1684 c0_i32_1395
  let v1689 : BitVec 1 := Scalar.xori v1687 v1688
  let c0_i32_1393 : BitVec 32 := 0#32
  let v1686 : BitVec 1 := Scalar.cmpi .ne v1685 c0_i32_1393
  let v1690 : BitVec 1 := Scalar.andi v1689 v1686
  let v1691 : BitVec 32 := Scalar.addi v1685 v1684
  let v1692 : BitVec 32 := Scalar.select v1690 v1691 v1685
  let c8_i32_1400 : BitVec 32 := 8#32
  let v1697 : BitVec 32 := Scalar.muli v1692 c8_i32_1400
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1698 : BitVec 32 := Scalar.addi v1697 v29
  let c1_i32_1401 : BitVec 32 := 1#32
  let v1699 : BitVec 32 := Scalar.muli v1698 c1_i32_1401
  let v1700 : BitVec 32 := Scalar.addi c0_i32_1402 v1699
  v1700.toNat
def k0_dev41 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1407 : BitVec 32 := 2#32
  let v1707 : BitVec 32 := Scalar.addi v19 c2_i32_1407
  let c4_i32_1408 : BitVec 32 := 4#32
  let c0_i32_1409 : BitVec 32 := 0#32
  let v1708 : BitVec 1 := Scalar.cmpi .eq c4_i32_1408 c0_i32_1409
  let c1_i32_1410 : BitVec 32 := 1#32
  let v1709 : BitVec 32 := Scalar.select v1708 c1_i32_1410 c4_i32_1408
  let v1710 : BitVec 32 := Scalar.remsi v1707 v1709
  let c0_i32_1412 : BitVec 32 := 0#32
  let v1712 : BitVec 1 := Scalar.cmpi .slt v1710 c0_i32_1412
  let c0_i32_1413 : BitVec 32 := 0#32
  let v1713 : BitVec 1 := Scalar.cmpi .slt v1709 c0_i32_1413
  let v1714 : BitVec 1 := Scalar.xori v1712 v1713
  let c0_i32_1411 : BitVec 32 := 0#32
  let v1711 : BitVec 1 := Scalar.cmpi .ne v1710 c0_i32_1411
  let v1715 : BitVec 1 := Scalar.andi v1714 v1711
  let v1716 : BitVec 32 := Scalar.addi v1710 v1709
  let v1717 : BitVec 32 := Scalar.select v1715 v1716 v1710
  let c8_i32_1418 : BitVec 32 := 8#32
  let v1722 : BitVec 32 := Scalar.muli v1717 c8_i32_1418
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1723 : BitVec 32 := Scalar.addi v1722 v29
  let c1_i32_1419 : BitVec 32 := 1#32
  let v1724 : BitVec 32 := Scalar.muli v1723 c1_i32_1419
  let v1725 : BitVec 32 := Scalar.addi c0_i32_1420 v1724
  v1725.toNat
def k0_dev42 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1425 : BitVec 32 := 3#32
  let v1732 : BitVec 32 := Scalar.addi v19 c3_i32_1425
  let c4_i32_1426 : BitVec 32 := 4#32
  let c0_i32_1427 : BitVec 32 := 0#32
  let v1733 : BitVec 1 := Scalar.cmpi .eq c4_i32_1426 c0_i32_1427
  let c1_i32_1428 : BitVec 32 := 1#32
  let v1734 : BitVec 32 := Scalar.select v1733 c1_i32_1428 c4_i32_1426
  let v1735 : BitVec 32 := Scalar.remsi v1732 v1734
  let c0_i32_1430 : BitVec 32 := 0#32
  let v1737 : BitVec 1 := Scalar.cmpi .slt v1735 c0_i32_1430
  let c0_i32_1431 : BitVec 32 := 0#32
  let v1738 : BitVec 1 := Scalar.cmpi .slt v1734 c0_i32_1431
  let v1739 : BitVec 1 := Scalar.xori v1737 v1738
  let c0_i32_1429 : BitVec 32 := 0#32
  let v1736 : BitVec 1 := Scalar.cmpi .ne v1735 c0_i32_1429
  let v1740 : BitVec 1 := Scalar.andi v1739 v1736
  let v1741 : BitVec 32 := Scalar.addi v1735 v1734
  let v1742 : BitVec 32 := Scalar.select v1740 v1741 v1735
  let c8_i32_1436 : BitVec 32 := 8#32
  let v1747 : BitVec 32 := Scalar.muli v1742 c8_i32_1436
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1748 : BitVec 32 := Scalar.addi v1747 v29
  let c1_i32_1437 : BitVec 32 := 1#32
  let v1749 : BitVec 32 := Scalar.muli v1748 c1_i32_1437
  let v1750 : BitVec 32 := Scalar.addi c0_i32_1438 v1749
  v1750.toNat
def k0_dev43 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1510 : BitVec 32 := 1#32
  let v1835 : BitVec 32 := Scalar.addi v19 c1_i32_1510
  let c4_i32_1511 : BitVec 32 := 4#32
  let c0_i32_1512 : BitVec 32 := 0#32
  let v1836 : BitVec 1 := Scalar.cmpi .eq c4_i32_1511 c0_i32_1512
  let c1_i32_1513 : BitVec 32 := 1#32
  let v1837 : BitVec 32 := Scalar.select v1836 c1_i32_1513 c4_i32_1511
  let v1838 : BitVec 32 := Scalar.remsi v1835 v1837
  let c0_i32_1515 : BitVec 32 := 0#32
  let v1840 : BitVec 1 := Scalar.cmpi .slt v1838 c0_i32_1515
  let c0_i32_1516 : BitVec 32 := 0#32
  let v1841 : BitVec 1 := Scalar.cmpi .slt v1837 c0_i32_1516
  let v1842 : BitVec 1 := Scalar.xori v1840 v1841
  let c0_i32_1514 : BitVec 32 := 0#32
  let v1839 : BitVec 1 := Scalar.cmpi .ne v1838 c0_i32_1514
  let v1843 : BitVec 1 := Scalar.andi v1842 v1839
  let v1844 : BitVec 32 := Scalar.addi v1838 v1837
  let v1845 : BitVec 32 := Scalar.select v1843 v1844 v1838
  let c8_i32_1521 : BitVec 32 := 8#32
  let v1850 : BitVec 32 := Scalar.muli v1845 c8_i32_1521
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1851 : BitVec 32 := Scalar.addi v1850 v29
  let c1_i32_1522 : BitVec 32 := 1#32
  let v1852 : BitVec 32 := Scalar.muli v1851 c1_i32_1522
  let v1853 : BitVec 32 := Scalar.addi c0_i32_1523 v1852
  v1853.toNat
def k0_dev44 (d0 : Dev nD) : Nat :=
  let c0_i32_1541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1528 : BitVec 32 := 2#32
  let v1860 : BitVec 32 := Scalar.addi v19 c2_i32_1528
  let c4_i32_1529 : BitVec 32 := 4#32
  let c0_i32_1530 : BitVec 32 := 0#32
  let v1861 : BitVec 1 := Scalar.cmpi .eq c4_i32_1529 c0_i32_1530
  let c1_i32_1531 : BitVec 32 := 1#32
  let v1862 : BitVec 32 := Scalar.select v1861 c1_i32_1531 c4_i32_1529
  let v1863 : BitVec 32 := Scalar.remsi v1860 v1862
  let c0_i32_1533 : BitVec 32 := 0#32
  let v1865 : BitVec 1 := Scalar.cmpi .slt v1863 c0_i32_1533
  let c0_i32_1534 : BitVec 32 := 0#32
  let v1866 : BitVec 1 := Scalar.cmpi .slt v1862 c0_i32_1534
  let v1867 : BitVec 1 := Scalar.xori v1865 v1866
  let c0_i32_1532 : BitVec 32 := 0#32
  let v1864 : BitVec 1 := Scalar.cmpi .ne v1863 c0_i32_1532
  let v1868 : BitVec 1 := Scalar.andi v1867 v1864
  let v1869 : BitVec 32 := Scalar.addi v1863 v1862
  let v1870 : BitVec 32 := Scalar.select v1868 v1869 v1863
  let c8_i32_1539 : BitVec 32 := 8#32
  let v1875 : BitVec 32 := Scalar.muli v1870 c8_i32_1539
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1876 : BitVec 32 := Scalar.addi v1875 v29
  let c1_i32_1540 : BitVec 32 := 1#32
  let v1877 : BitVec 32 := Scalar.muli v1876 c1_i32_1540
  let v1878 : BitVec 32 := Scalar.addi c0_i32_1541 v1877
  v1878.toNat
def k0_dev45 (d0 : Dev nD) : Nat :=
  let c0_i32_1559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1546 : BitVec 32 := 3#32
  let v1885 : BitVec 32 := Scalar.addi v19 c3_i32_1546
  let c4_i32_1547 : BitVec 32 := 4#32
  let c0_i32_1548 : BitVec 32 := 0#32
  let v1886 : BitVec 1 := Scalar.cmpi .eq c4_i32_1547 c0_i32_1548
  let c1_i32_1549 : BitVec 32 := 1#32
  let v1887 : BitVec 32 := Scalar.select v1886 c1_i32_1549 c4_i32_1547
  let v1888 : BitVec 32 := Scalar.remsi v1885 v1887
  let c0_i32_1551 : BitVec 32 := 0#32
  let v1890 : BitVec 1 := Scalar.cmpi .slt v1888 c0_i32_1551
  let c0_i32_1552 : BitVec 32 := 0#32
  let v1891 : BitVec 1 := Scalar.cmpi .slt v1887 c0_i32_1552
  let v1892 : BitVec 1 := Scalar.xori v1890 v1891
  let c0_i32_1550 : BitVec 32 := 0#32
  let v1889 : BitVec 1 := Scalar.cmpi .ne v1888 c0_i32_1550
  let v1893 : BitVec 1 := Scalar.andi v1892 v1889
  let v1894 : BitVec 32 := Scalar.addi v1888 v1887
  let v1895 : BitVec 32 := Scalar.select v1893 v1894 v1888
  let c8_i32_1557 : BitVec 32 := 8#32
  let v1900 : BitVec 32 := Scalar.muli v1895 c8_i32_1557
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1901 : BitVec 32 := Scalar.addi v1900 v29
  let c1_i32_1558 : BitVec 32 := 1#32
  let v1902 : BitVec 32 := Scalar.muli v1901 c1_i32_1558
  let v1903 : BitVec 32 := Scalar.addi c0_i32_1559 v1902
  v1903.toNat
def k0_dev46 (d0 : Dev nD) : Nat :=
  let c0_i32_1644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1631 : BitVec 32 := 1#32
  let v1988 : BitVec 32 := Scalar.addi v19 c1_i32_1631
  let c4_i32_1632 : BitVec 32 := 4#32
  let c0_i32_1633 : BitVec 32 := 0#32
  let v1989 : BitVec 1 := Scalar.cmpi .eq c4_i32_1632 c0_i32_1633
  let c1_i32_1634 : BitVec 32 := 1#32
  let v1990 : BitVec 32 := Scalar.select v1989 c1_i32_1634 c4_i32_1632
  let v1991 : BitVec 32 := Scalar.remsi v1988 v1990
  let c0_i32_1636 : BitVec 32 := 0#32
  let v1993 : BitVec 1 := Scalar.cmpi .slt v1991 c0_i32_1636
  let c0_i32_1637 : BitVec 32 := 0#32
  let v1994 : BitVec 1 := Scalar.cmpi .slt v1990 c0_i32_1637
  let v1995 : BitVec 1 := Scalar.xori v1993 v1994
  let c0_i32_1635 : BitVec 32 := 0#32
  let v1992 : BitVec 1 := Scalar.cmpi .ne v1991 c0_i32_1635
  let v1996 : BitVec 1 := Scalar.andi v1995 v1992
  let v1997 : BitVec 32 := Scalar.addi v1991 v1990
  let v1998 : BitVec 32 := Scalar.select v1996 v1997 v1991
  let c8_i32_1642 : BitVec 32 := 8#32
  let v2003 : BitVec 32 := Scalar.muli v1998 c8_i32_1642
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2004 : BitVec 32 := Scalar.addi v2003 v29
  let c1_i32_1643 : BitVec 32 := 1#32
  let v2005 : BitVec 32 := Scalar.muli v2004 c1_i32_1643
  let v2006 : BitVec 32 := Scalar.addi c0_i32_1644 v2005
  v2006.toNat
def k0_dev47 (d0 : Dev nD) : Nat :=
  let c0_i32_1662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1649 : BitVec 32 := 2#32
  let v2013 : BitVec 32 := Scalar.addi v19 c2_i32_1649
  let c4_i32_1650 : BitVec 32 := 4#32
  let c0_i32_1651 : BitVec 32 := 0#32
  let v2014 : BitVec 1 := Scalar.cmpi .eq c4_i32_1650 c0_i32_1651
  let c1_i32_1652 : BitVec 32 := 1#32
  let v2015 : BitVec 32 := Scalar.select v2014 c1_i32_1652 c4_i32_1650
  let v2016 : BitVec 32 := Scalar.remsi v2013 v2015
  let c0_i32_1654 : BitVec 32 := 0#32
  let v2018 : BitVec 1 := Scalar.cmpi .slt v2016 c0_i32_1654
  let c0_i32_1655 : BitVec 32 := 0#32
  let v2019 : BitVec 1 := Scalar.cmpi .slt v2015 c0_i32_1655
  let v2020 : BitVec 1 := Scalar.xori v2018 v2019
  let c0_i32_1653 : BitVec 32 := 0#32
  let v2017 : BitVec 1 := Scalar.cmpi .ne v2016 c0_i32_1653
  let v2021 : BitVec 1 := Scalar.andi v2020 v2017
  let v2022 : BitVec 32 := Scalar.addi v2016 v2015
  let v2023 : BitVec 32 := Scalar.select v2021 v2022 v2016
  let c8_i32_1660 : BitVec 32 := 8#32
  let v2028 : BitVec 32 := Scalar.muli v2023 c8_i32_1660
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2029 : BitVec 32 := Scalar.addi v2028 v29
  let c1_i32_1661 : BitVec 32 := 1#32
  let v2030 : BitVec 32 := Scalar.muli v2029 c1_i32_1661
  let v2031 : BitVec 32 := Scalar.addi c0_i32_1662 v2030
  v2031.toNat
def k0_dev48 (d0 : Dev nD) : Nat :=
  let c0_i32_1680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1667 : BitVec 32 := 3#32
  let v2038 : BitVec 32 := Scalar.addi v19 c3_i32_1667
  let c4_i32_1668 : BitVec 32 := 4#32
  let c0_i32_1669 : BitVec 32 := 0#32
  let v2039 : BitVec 1 := Scalar.cmpi .eq c4_i32_1668 c0_i32_1669
  let c1_i32_1670 : BitVec 32 := 1#32
  let v2040 : BitVec 32 := Scalar.select v2039 c1_i32_1670 c4_i32_1668
  let v2041 : BitVec 32 := Scalar.remsi v2038 v2040
  let c0_i32_1672 : BitVec 32 := 0#32
  let v2043 : BitVec 1 := Scalar.cmpi .slt v2041 c0_i32_1672
  let c0_i32_1673 : BitVec 32 := 0#32
  let v2044 : BitVec 1 := Scalar.cmpi .slt v2040 c0_i32_1673
  let v2045 : BitVec 1 := Scalar.xori v2043 v2044
  let c0_i32_1671 : BitVec 32 := 0#32
  let v2042 : BitVec 1 := Scalar.cmpi .ne v2041 c0_i32_1671
  let v2046 : BitVec 1 := Scalar.andi v2045 v2042
  let v2047 : BitVec 32 := Scalar.addi v2041 v2040
  let v2048 : BitVec 32 := Scalar.select v2046 v2047 v2041
  let c8_i32_1678 : BitVec 32 := 8#32
  let v2053 : BitVec 32 := Scalar.muli v2048 c8_i32_1678
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2054 : BitVec 32 := Scalar.addi v2053 v29
  let c1_i32_1679 : BitVec 32 := 1#32
  let v2055 : BitVec 32 := Scalar.muli v2054 c1_i32_1679
  let v2056 : BitVec 32 := Scalar.addi c0_i32_1680 v2055
  v2056.toNat
def k0_dev49 (d0 : Dev nD) : Nat :=
  let c0_i32_1765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1752 : BitVec 32 := 1#32
  let v2141 : BitVec 32 := Scalar.addi v19 c1_i32_1752
  let c4_i32_1753 : BitVec 32 := 4#32
  let c0_i32_1754 : BitVec 32 := 0#32
  let v2142 : BitVec 1 := Scalar.cmpi .eq c4_i32_1753 c0_i32_1754
  let c1_i32_1755 : BitVec 32 := 1#32
  let v2143 : BitVec 32 := Scalar.select v2142 c1_i32_1755 c4_i32_1753
  let v2144 : BitVec 32 := Scalar.remsi v2141 v2143
  let c0_i32_1757 : BitVec 32 := 0#32
  let v2146 : BitVec 1 := Scalar.cmpi .slt v2144 c0_i32_1757
  let c0_i32_1758 : BitVec 32 := 0#32
  let v2147 : BitVec 1 := Scalar.cmpi .slt v2143 c0_i32_1758
  let v2148 : BitVec 1 := Scalar.xori v2146 v2147
  let c0_i32_1756 : BitVec 32 := 0#32
  let v2145 : BitVec 1 := Scalar.cmpi .ne v2144 c0_i32_1756
  let v2149 : BitVec 1 := Scalar.andi v2148 v2145
  let v2150 : BitVec 32 := Scalar.addi v2144 v2143
  let v2151 : BitVec 32 := Scalar.select v2149 v2150 v2144
  let c8_i32_1763 : BitVec 32 := 8#32
  let v2156 : BitVec 32 := Scalar.muli v2151 c8_i32_1763
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2157 : BitVec 32 := Scalar.addi v2156 v29
  let c1_i32_1764 : BitVec 32 := 1#32
  let v2158 : BitVec 32 := Scalar.muli v2157 c1_i32_1764
  let v2159 : BitVec 32 := Scalar.addi c0_i32_1765 v2158
  v2159.toNat
def k0_dev50 (d0 : Dev nD) : Nat :=
  let c0_i32_1783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1770 : BitVec 32 := 2#32
  let v2166 : BitVec 32 := Scalar.addi v19 c2_i32_1770
  let c4_i32_1771 : BitVec 32 := 4#32
  let c0_i32_1772 : BitVec 32 := 0#32
  let v2167 : BitVec 1 := Scalar.cmpi .eq c4_i32_1771 c0_i32_1772
  let c1_i32_1773 : BitVec 32 := 1#32
  let v2168 : BitVec 32 := Scalar.select v2167 c1_i32_1773 c4_i32_1771
  let v2169 : BitVec 32 := Scalar.remsi v2166 v2168
  let c0_i32_1775 : BitVec 32 := 0#32
  let v2171 : BitVec 1 := Scalar.cmpi .slt v2169 c0_i32_1775
  let c0_i32_1776 : BitVec 32 := 0#32
  let v2172 : BitVec 1 := Scalar.cmpi .slt v2168 c0_i32_1776
  let v2173 : BitVec 1 := Scalar.xori v2171 v2172
  let c0_i32_1774 : BitVec 32 := 0#32
  let v2170 : BitVec 1 := Scalar.cmpi .ne v2169 c0_i32_1774
  let v2174 : BitVec 1 := Scalar.andi v2173 v2170
  let v2175 : BitVec 32 := Scalar.addi v2169 v2168
  let v2176 : BitVec 32 := Scalar.select v2174 v2175 v2169
  let c8_i32_1781 : BitVec 32 := 8#32
  let v2181 : BitVec 32 := Scalar.muli v2176 c8_i32_1781
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2182 : BitVec 32 := Scalar.addi v2181 v29
  let c1_i32_1782 : BitVec 32 := 1#32
  let v2183 : BitVec 32 := Scalar.muli v2182 c1_i32_1782
  let v2184 : BitVec 32 := Scalar.addi c0_i32_1783 v2183
  v2184.toNat
def k0_dev51 (d0 : Dev nD) : Nat :=
  let c0_i32_1801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1788 : BitVec 32 := 3#32
  let v2191 : BitVec 32 := Scalar.addi v19 c3_i32_1788
  let c4_i32_1789 : BitVec 32 := 4#32
  let c0_i32_1790 : BitVec 32 := 0#32
  let v2192 : BitVec 1 := Scalar.cmpi .eq c4_i32_1789 c0_i32_1790
  let c1_i32_1791 : BitVec 32 := 1#32
  let v2193 : BitVec 32 := Scalar.select v2192 c1_i32_1791 c4_i32_1789
  let v2194 : BitVec 32 := Scalar.remsi v2191 v2193
  let c0_i32_1793 : BitVec 32 := 0#32
  let v2196 : BitVec 1 := Scalar.cmpi .slt v2194 c0_i32_1793
  let c0_i32_1794 : BitVec 32 := 0#32
  let v2197 : BitVec 1 := Scalar.cmpi .slt v2193 c0_i32_1794
  let v2198 : BitVec 1 := Scalar.xori v2196 v2197
  let c0_i32_1792 : BitVec 32 := 0#32
  let v2195 : BitVec 1 := Scalar.cmpi .ne v2194 c0_i32_1792
  let v2199 : BitVec 1 := Scalar.andi v2198 v2195
  let v2200 : BitVec 32 := Scalar.addi v2194 v2193
  let v2201 : BitVec 32 := Scalar.select v2199 v2200 v2194
  let c8_i32_1799 : BitVec 32 := 8#32
  let v2206 : BitVec 32 := Scalar.muli v2201 c8_i32_1799
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2207 : BitVec 32 := Scalar.addi v2206 v29
  let c1_i32_1800 : BitVec 32 := 1#32
  let v2208 : BitVec 32 := Scalar.muli v2207 c1_i32_1800
  let v2209 : BitVec 32 := Scalar.addi c0_i32_1801 v2208
  v2209.toNat
def k0_dev52 (d0 : Dev nD) : Nat :=
  let c0_i32_1886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1873 : BitVec 32 := 1#32
  let v2294 : BitVec 32 := Scalar.addi v19 c1_i32_1873
  let c4_i32_1874 : BitVec 32 := 4#32
  let c0_i32_1875 : BitVec 32 := 0#32
  let v2295 : BitVec 1 := Scalar.cmpi .eq c4_i32_1874 c0_i32_1875
  let c1_i32_1876 : BitVec 32 := 1#32
  let v2296 : BitVec 32 := Scalar.select v2295 c1_i32_1876 c4_i32_1874
  let v2297 : BitVec 32 := Scalar.remsi v2294 v2296
  let c0_i32_1878 : BitVec 32 := 0#32
  let v2299 : BitVec 1 := Scalar.cmpi .slt v2297 c0_i32_1878
  let c0_i32_1879 : BitVec 32 := 0#32
  let v2300 : BitVec 1 := Scalar.cmpi .slt v2296 c0_i32_1879
  let v2301 : BitVec 1 := Scalar.xori v2299 v2300
  let c0_i32_1877 : BitVec 32 := 0#32
  let v2298 : BitVec 1 := Scalar.cmpi .ne v2297 c0_i32_1877
  let v2302 : BitVec 1 := Scalar.andi v2301 v2298
  let v2303 : BitVec 32 := Scalar.addi v2297 v2296
  let v2304 : BitVec 32 := Scalar.select v2302 v2303 v2297
  let c8_i32_1884 : BitVec 32 := 8#32
  let v2309 : BitVec 32 := Scalar.muli v2304 c8_i32_1884
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2310 : BitVec 32 := Scalar.addi v2309 v29
  let c1_i32_1885 : BitVec 32 := 1#32
  let v2311 : BitVec 32 := Scalar.muli v2310 c1_i32_1885
  let v2312 : BitVec 32 := Scalar.addi c0_i32_1886 v2311
  v2312.toNat
def k0_dev53 (d0 : Dev nD) : Nat :=
  let c0_i32_1904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1891 : BitVec 32 := 2#32
  let v2319 : BitVec 32 := Scalar.addi v19 c2_i32_1891
  let c4_i32_1892 : BitVec 32 := 4#32
  let c0_i32_1893 : BitVec 32 := 0#32
  let v2320 : BitVec 1 := Scalar.cmpi .eq c4_i32_1892 c0_i32_1893
  let c1_i32_1894 : BitVec 32 := 1#32
  let v2321 : BitVec 32 := Scalar.select v2320 c1_i32_1894 c4_i32_1892
  let v2322 : BitVec 32 := Scalar.remsi v2319 v2321
  let c0_i32_1896 : BitVec 32 := 0#32
  let v2324 : BitVec 1 := Scalar.cmpi .slt v2322 c0_i32_1896
  let c0_i32_1897 : BitVec 32 := 0#32
  let v2325 : BitVec 1 := Scalar.cmpi .slt v2321 c0_i32_1897
  let v2326 : BitVec 1 := Scalar.xori v2324 v2325
  let c0_i32_1895 : BitVec 32 := 0#32
  let v2323 : BitVec 1 := Scalar.cmpi .ne v2322 c0_i32_1895
  let v2327 : BitVec 1 := Scalar.andi v2326 v2323
  let v2328 : BitVec 32 := Scalar.addi v2322 v2321
  let v2329 : BitVec 32 := Scalar.select v2327 v2328 v2322
  let c8_i32_1902 : BitVec 32 := 8#32
  let v2334 : BitVec 32 := Scalar.muli v2329 c8_i32_1902
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2335 : BitVec 32 := Scalar.addi v2334 v29
  let c1_i32_1903 : BitVec 32 := 1#32
  let v2336 : BitVec 32 := Scalar.muli v2335 c1_i32_1903
  let v2337 : BitVec 32 := Scalar.addi c0_i32_1904 v2336
  v2337.toNat
def k0_dev54 (d0 : Dev nD) : Nat :=
  let c0_i32_1922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1909 : BitVec 32 := 3#32
  let v2344 : BitVec 32 := Scalar.addi v19 c3_i32_1909
  let c4_i32_1910 : BitVec 32 := 4#32
  let c0_i32_1911 : BitVec 32 := 0#32
  let v2345 : BitVec 1 := Scalar.cmpi .eq c4_i32_1910 c0_i32_1911
  let c1_i32_1912 : BitVec 32 := 1#32
  let v2346 : BitVec 32 := Scalar.select v2345 c1_i32_1912 c4_i32_1910
  let v2347 : BitVec 32 := Scalar.remsi v2344 v2346
  let c0_i32_1914 : BitVec 32 := 0#32
  let v2349 : BitVec 1 := Scalar.cmpi .slt v2347 c0_i32_1914
  let c0_i32_1915 : BitVec 32 := 0#32
  let v2350 : BitVec 1 := Scalar.cmpi .slt v2346 c0_i32_1915
  let v2351 : BitVec 1 := Scalar.xori v2349 v2350
  let c0_i32_1913 : BitVec 32 := 0#32
  let v2348 : BitVec 1 := Scalar.cmpi .ne v2347 c0_i32_1913
  let v2352 : BitVec 1 := Scalar.andi v2351 v2348
  let v2353 : BitVec 32 := Scalar.addi v2347 v2346
  let v2354 : BitVec 32 := Scalar.select v2352 v2353 v2347
  let c8_i32_1920 : BitVec 32 := 8#32
  let v2359 : BitVec 32 := Scalar.muli v2354 c8_i32_1920
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2360 : BitVec 32 := Scalar.addi v2359 v29
  let c1_i32_1921 : BitVec 32 := 1#32
  let v2361 : BitVec 32 := Scalar.muli v2360 c1_i32_1921
  let v2362 : BitVec 32 := Scalar.addi c0_i32_1922 v2361
  v2362.toNat
def k0_dev55 (d0 : Dev nD) : Nat :=
  let c0_i32_2007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1994 : BitVec 32 := 1#32
  let v2447 : BitVec 32 := Scalar.addi v19 c1_i32_1994
  let c4_i32_1995 : BitVec 32 := 4#32
  let c0_i32_1996 : BitVec 32 := 0#32
  let v2448 : BitVec 1 := Scalar.cmpi .eq c4_i32_1995 c0_i32_1996
  let c1_i32_1997 : BitVec 32 := 1#32
  let v2449 : BitVec 32 := Scalar.select v2448 c1_i32_1997 c4_i32_1995
  let v2450 : BitVec 32 := Scalar.remsi v2447 v2449
  let c0_i32_1999 : BitVec 32 := 0#32
  let v2452 : BitVec 1 := Scalar.cmpi .slt v2450 c0_i32_1999
  let c0_i32_2000 : BitVec 32 := 0#32
  let v2453 : BitVec 1 := Scalar.cmpi .slt v2449 c0_i32_2000
  let v2454 : BitVec 1 := Scalar.xori v2452 v2453
  let c0_i32_1998 : BitVec 32 := 0#32
  let v2451 : BitVec 1 := Scalar.cmpi .ne v2450 c0_i32_1998
  let v2455 : BitVec 1 := Scalar.andi v2454 v2451
  let v2456 : BitVec 32 := Scalar.addi v2450 v2449
  let v2457 : BitVec 32 := Scalar.select v2455 v2456 v2450
  let c8_i32_2005 : BitVec 32 := 8#32
  let v2462 : BitVec 32 := Scalar.muli v2457 c8_i32_2005
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2463 : BitVec 32 := Scalar.addi v2462 v29
  let c1_i32_2006 : BitVec 32 := 1#32
  let v2464 : BitVec 32 := Scalar.muli v2463 c1_i32_2006
  let v2465 : BitVec 32 := Scalar.addi c0_i32_2007 v2464
  v2465.toNat
def k0_dev56 (d0 : Dev nD) : Nat :=
  let c0_i32_2025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2012 : BitVec 32 := 2#32
  let v2472 : BitVec 32 := Scalar.addi v19 c2_i32_2012
  let c4_i32_2013 : BitVec 32 := 4#32
  let c0_i32_2014 : BitVec 32 := 0#32
  let v2473 : BitVec 1 := Scalar.cmpi .eq c4_i32_2013 c0_i32_2014
  let c1_i32_2015 : BitVec 32 := 1#32
  let v2474 : BitVec 32 := Scalar.select v2473 c1_i32_2015 c4_i32_2013
  let v2475 : BitVec 32 := Scalar.remsi v2472 v2474
  let c0_i32_2017 : BitVec 32 := 0#32
  let v2477 : BitVec 1 := Scalar.cmpi .slt v2475 c0_i32_2017
  let c0_i32_2018 : BitVec 32 := 0#32
  let v2478 : BitVec 1 := Scalar.cmpi .slt v2474 c0_i32_2018
  let v2479 : BitVec 1 := Scalar.xori v2477 v2478
  let c0_i32_2016 : BitVec 32 := 0#32
  let v2476 : BitVec 1 := Scalar.cmpi .ne v2475 c0_i32_2016
  let v2480 : BitVec 1 := Scalar.andi v2479 v2476
  let v2481 : BitVec 32 := Scalar.addi v2475 v2474
  let v2482 : BitVec 32 := Scalar.select v2480 v2481 v2475
  let c8_i32_2023 : BitVec 32 := 8#32
  let v2487 : BitVec 32 := Scalar.muli v2482 c8_i32_2023
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2488 : BitVec 32 := Scalar.addi v2487 v29
  let c1_i32_2024 : BitVec 32 := 1#32
  let v2489 : BitVec 32 := Scalar.muli v2488 c1_i32_2024
  let v2490 : BitVec 32 := Scalar.addi c0_i32_2025 v2489
  v2490.toNat
def k0_dev57 (d0 : Dev nD) : Nat :=
  let c0_i32_2043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2030 : BitVec 32 := 3#32
  let v2497 : BitVec 32 := Scalar.addi v19 c3_i32_2030
  let c4_i32_2031 : BitVec 32 := 4#32
  let c0_i32_2032 : BitVec 32 := 0#32
  let v2498 : BitVec 1 := Scalar.cmpi .eq c4_i32_2031 c0_i32_2032
  let c1_i32_2033 : BitVec 32 := 1#32
  let v2499 : BitVec 32 := Scalar.select v2498 c1_i32_2033 c4_i32_2031
  let v2500 : BitVec 32 := Scalar.remsi v2497 v2499
  let c0_i32_2035 : BitVec 32 := 0#32
  let v2502 : BitVec 1 := Scalar.cmpi .slt v2500 c0_i32_2035
  let c0_i32_2036 : BitVec 32 := 0#32
  let v2503 : BitVec 1 := Scalar.cmpi .slt v2499 c0_i32_2036
  let v2504 : BitVec 1 := Scalar.xori v2502 v2503
  let c0_i32_2034 : BitVec 32 := 0#32
  let v2501 : BitVec 1 := Scalar.cmpi .ne v2500 c0_i32_2034
  let v2505 : BitVec 1 := Scalar.andi v2504 v2501
  let v2506 : BitVec 32 := Scalar.addi v2500 v2499
  let v2507 : BitVec 32 := Scalar.select v2505 v2506 v2500
  let c8_i32_2041 : BitVec 32 := 8#32
  let v2512 : BitVec 32 := Scalar.muli v2507 c8_i32_2041
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2513 : BitVec 32 := Scalar.addi v2512 v29
  let c1_i32_2042 : BitVec 32 := 1#32
  let v2514 : BitVec 32 := Scalar.muli v2513 c1_i32_2042
  let v2515 : BitVec 32 := Scalar.addi c0_i32_2043 v2514
  v2515.toNat
def k0_dev58 (d0 : Dev nD) : Nat :=
  let c0_i32_2128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2115 : BitVec 32 := 1#32
  let v2600 : BitVec 32 := Scalar.addi v19 c1_i32_2115
  let c4_i32_2116 : BitVec 32 := 4#32
  let c0_i32_2117 : BitVec 32 := 0#32
  let v2601 : BitVec 1 := Scalar.cmpi .eq c4_i32_2116 c0_i32_2117
  let c1_i32_2118 : BitVec 32 := 1#32
  let v2602 : BitVec 32 := Scalar.select v2601 c1_i32_2118 c4_i32_2116
  let v2603 : BitVec 32 := Scalar.remsi v2600 v2602
  let c0_i32_2120 : BitVec 32 := 0#32
  let v2605 : BitVec 1 := Scalar.cmpi .slt v2603 c0_i32_2120
  let c0_i32_2121 : BitVec 32 := 0#32
  let v2606 : BitVec 1 := Scalar.cmpi .slt v2602 c0_i32_2121
  let v2607 : BitVec 1 := Scalar.xori v2605 v2606
  let c0_i32_2119 : BitVec 32 := 0#32
  let v2604 : BitVec 1 := Scalar.cmpi .ne v2603 c0_i32_2119
  let v2608 : BitVec 1 := Scalar.andi v2607 v2604
  let v2609 : BitVec 32 := Scalar.addi v2603 v2602
  let v2610 : BitVec 32 := Scalar.select v2608 v2609 v2603
  let c8_i32_2126 : BitVec 32 := 8#32
  let v2615 : BitVec 32 := Scalar.muli v2610 c8_i32_2126
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2616 : BitVec 32 := Scalar.addi v2615 v29
  let c1_i32_2127 : BitVec 32 := 1#32
  let v2617 : BitVec 32 := Scalar.muli v2616 c1_i32_2127
  let v2618 : BitVec 32 := Scalar.addi c0_i32_2128 v2617
  v2618.toNat
def k0_dev59 (d0 : Dev nD) : Nat :=
  let c0_i32_2146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2133 : BitVec 32 := 2#32
  let v2625 : BitVec 32 := Scalar.addi v19 c2_i32_2133
  let c4_i32_2134 : BitVec 32 := 4#32
  let c0_i32_2135 : BitVec 32 := 0#32
  let v2626 : BitVec 1 := Scalar.cmpi .eq c4_i32_2134 c0_i32_2135
  let c1_i32_2136 : BitVec 32 := 1#32
  let v2627 : BitVec 32 := Scalar.select v2626 c1_i32_2136 c4_i32_2134
  let v2628 : BitVec 32 := Scalar.remsi v2625 v2627
  let c0_i32_2138 : BitVec 32 := 0#32
  let v2630 : BitVec 1 := Scalar.cmpi .slt v2628 c0_i32_2138
  let c0_i32_2139 : BitVec 32 := 0#32
  let v2631 : BitVec 1 := Scalar.cmpi .slt v2627 c0_i32_2139
  let v2632 : BitVec 1 := Scalar.xori v2630 v2631
  let c0_i32_2137 : BitVec 32 := 0#32
  let v2629 : BitVec 1 := Scalar.cmpi .ne v2628 c0_i32_2137
  let v2633 : BitVec 1 := Scalar.andi v2632 v2629
  let v2634 : BitVec 32 := Scalar.addi v2628 v2627
  let v2635 : BitVec 32 := Scalar.select v2633 v2634 v2628
  let c8_i32_2144 : BitVec 32 := 8#32
  let v2640 : BitVec 32 := Scalar.muli v2635 c8_i32_2144
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2641 : BitVec 32 := Scalar.addi v2640 v29
  let c1_i32_2145 : BitVec 32 := 1#32
  let v2642 : BitVec 32 := Scalar.muli v2641 c1_i32_2145
  let v2643 : BitVec 32 := Scalar.addi c0_i32_2146 v2642
  v2643.toNat
def k0_dev60 (d0 : Dev nD) : Nat :=
  let c0_i32_2164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2151 : BitVec 32 := 3#32
  let v2650 : BitVec 32 := Scalar.addi v19 c3_i32_2151
  let c4_i32_2152 : BitVec 32 := 4#32
  let c0_i32_2153 : BitVec 32 := 0#32
  let v2651 : BitVec 1 := Scalar.cmpi .eq c4_i32_2152 c0_i32_2153
  let c1_i32_2154 : BitVec 32 := 1#32
  let v2652 : BitVec 32 := Scalar.select v2651 c1_i32_2154 c4_i32_2152
  let v2653 : BitVec 32 := Scalar.remsi v2650 v2652
  let c0_i32_2156 : BitVec 32 := 0#32
  let v2655 : BitVec 1 := Scalar.cmpi .slt v2653 c0_i32_2156
  let c0_i32_2157 : BitVec 32 := 0#32
  let v2656 : BitVec 1 := Scalar.cmpi .slt v2652 c0_i32_2157
  let v2657 : BitVec 1 := Scalar.xori v2655 v2656
  let c0_i32_2155 : BitVec 32 := 0#32
  let v2654 : BitVec 1 := Scalar.cmpi .ne v2653 c0_i32_2155
  let v2658 : BitVec 1 := Scalar.andi v2657 v2654
  let v2659 : BitVec 32 := Scalar.addi v2653 v2652
  let v2660 : BitVec 32 := Scalar.select v2658 v2659 v2653
  let c8_i32_2162 : BitVec 32 := 8#32
  let v2665 : BitVec 32 := Scalar.muli v2660 c8_i32_2162
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2666 : BitVec 32 := Scalar.addi v2665 v29
  let c1_i32_2163 : BitVec 32 := 1#32
  let v2667 : BitVec 32 := Scalar.muli v2666 c1_i32_2163
  let v2668 : BitVec 32 := Scalar.addi c0_i32_2164 v2667
  v2668.toNat
def k0_dev61 (d0 : Dev nD) : Nat :=
  let c0_i32_2249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2236 : BitVec 32 := 1#32
  let v2753 : BitVec 32 := Scalar.addi v19 c1_i32_2236
  let c4_i32_2237 : BitVec 32 := 4#32
  let c0_i32_2238 : BitVec 32 := 0#32
  let v2754 : BitVec 1 := Scalar.cmpi .eq c4_i32_2237 c0_i32_2238
  let c1_i32_2239 : BitVec 32 := 1#32
  let v2755 : BitVec 32 := Scalar.select v2754 c1_i32_2239 c4_i32_2237
  let v2756 : BitVec 32 := Scalar.remsi v2753 v2755
  let c0_i32_2241 : BitVec 32 := 0#32
  let v2758 : BitVec 1 := Scalar.cmpi .slt v2756 c0_i32_2241
  let c0_i32_2242 : BitVec 32 := 0#32
  let v2759 : BitVec 1 := Scalar.cmpi .slt v2755 c0_i32_2242
  let v2760 : BitVec 1 := Scalar.xori v2758 v2759
  let c0_i32_2240 : BitVec 32 := 0#32
  let v2757 : BitVec 1 := Scalar.cmpi .ne v2756 c0_i32_2240
  let v2761 : BitVec 1 := Scalar.andi v2760 v2757
  let v2762 : BitVec 32 := Scalar.addi v2756 v2755
  let v2763 : BitVec 32 := Scalar.select v2761 v2762 v2756
  let c8_i32_2247 : BitVec 32 := 8#32
  let v2768 : BitVec 32 := Scalar.muli v2763 c8_i32_2247
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2769 : BitVec 32 := Scalar.addi v2768 v29
  let c1_i32_2248 : BitVec 32 := 1#32
  let v2770 : BitVec 32 := Scalar.muli v2769 c1_i32_2248
  let v2771 : BitVec 32 := Scalar.addi c0_i32_2249 v2770
  v2771.toNat
def k0_dev62 (d0 : Dev nD) : Nat :=
  let c0_i32_2267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2254 : BitVec 32 := 2#32
  let v2778 : BitVec 32 := Scalar.addi v19 c2_i32_2254
  let c4_i32_2255 : BitVec 32 := 4#32
  let c0_i32_2256 : BitVec 32 := 0#32
  let v2779 : BitVec 1 := Scalar.cmpi .eq c4_i32_2255 c0_i32_2256
  let c1_i32_2257 : BitVec 32 := 1#32
  let v2780 : BitVec 32 := Scalar.select v2779 c1_i32_2257 c4_i32_2255
  let v2781 : BitVec 32 := Scalar.remsi v2778 v2780
  let c0_i32_2259 : BitVec 32 := 0#32
  let v2783 : BitVec 1 := Scalar.cmpi .slt v2781 c0_i32_2259
  let c0_i32_2260 : BitVec 32 := 0#32
  let v2784 : BitVec 1 := Scalar.cmpi .slt v2780 c0_i32_2260
  let v2785 : BitVec 1 := Scalar.xori v2783 v2784
  let c0_i32_2258 : BitVec 32 := 0#32
  let v2782 : BitVec 1 := Scalar.cmpi .ne v2781 c0_i32_2258
  let v2786 : BitVec 1 := Scalar.andi v2785 v2782
  let v2787 : BitVec 32 := Scalar.addi v2781 v2780
  let v2788 : BitVec 32 := Scalar.select v2786 v2787 v2781
  let c8_i32_2265 : BitVec 32 := 8#32
  let v2793 : BitVec 32 := Scalar.muli v2788 c8_i32_2265
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2794 : BitVec 32 := Scalar.addi v2793 v29
  let c1_i32_2266 : BitVec 32 := 1#32
  let v2795 : BitVec 32 := Scalar.muli v2794 c1_i32_2266
  let v2796 : BitVec 32 := Scalar.addi c0_i32_2267 v2795
  v2796.toNat
def k0_dev63 (d0 : Dev nD) : Nat :=
  let c0_i32_2285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2272 : BitVec 32 := 3#32
  let v2803 : BitVec 32 := Scalar.addi v19 c3_i32_2272
  let c4_i32_2273 : BitVec 32 := 4#32
  let c0_i32_2274 : BitVec 32 := 0#32
  let v2804 : BitVec 1 := Scalar.cmpi .eq c4_i32_2273 c0_i32_2274
  let c1_i32_2275 : BitVec 32 := 1#32
  let v2805 : BitVec 32 := Scalar.select v2804 c1_i32_2275 c4_i32_2273
  let v2806 : BitVec 32 := Scalar.remsi v2803 v2805
  let c0_i32_2277 : BitVec 32 := 0#32
  let v2808 : BitVec 1 := Scalar.cmpi .slt v2806 c0_i32_2277
  let c0_i32_2278 : BitVec 32 := 0#32
  let v2809 : BitVec 1 := Scalar.cmpi .slt v2805 c0_i32_2278
  let v2810 : BitVec 1 := Scalar.xori v2808 v2809
  let c0_i32_2276 : BitVec 32 := 0#32
  let v2807 : BitVec 1 := Scalar.cmpi .ne v2806 c0_i32_2276
  let v2811 : BitVec 1 := Scalar.andi v2810 v2807
  let v2812 : BitVec 32 := Scalar.addi v2806 v2805
  let v2813 : BitVec 32 := Scalar.select v2811 v2812 v2806
  let c8_i32_2283 : BitVec 32 := 8#32
  let v2818 : BitVec 32 := Scalar.muli v2813 c8_i32_2283
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2819 : BitVec 32 := Scalar.addi v2818 v29
  let c1_i32_2284 : BitVec 32 := 1#32
  let v2820 : BitVec 32 := Scalar.muli v2819 c1_i32_2284
  let v2821 : BitVec 32 := Scalar.addi c0_i32_2285 v2820
  v2821.toNat
def k0_off15 (d0 : Dev nD) (c0_i32_2290 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2828 : BitVec 32 := Scalar.addi c0_i32_2290 v19
  let v2829 : Index := Scalar.indexCast v2828
  let c0_2291 : Index := 0#32
  let c0_2292 : Index := 0#32
  ![v2829.toNat, 0, 0]
def k0_off16 (d0 : Dev nD) (c0_i32_2300 : BitVec 32) (c1_i32_2293 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2833 : BitVec 32 := Scalar.subi v19 c1_i32_2293
  let c4_i32_2294 : BitVec 32 := 4#32
  let c0_i32_2295 : BitVec 32 := 0#32
  let v2834 : BitVec 1 := Scalar.cmpi .eq c4_i32_2294 c0_i32_2295
  let c1_i32_2296 : BitVec 32 := 1#32
  let v2835 : BitVec 32 := Scalar.select v2834 c1_i32_2296 c4_i32_2294
  let v2836 : BitVec 32 := Scalar.remsi v2833 v2835
  let c0_i32_2298 : BitVec 32 := 0#32
  let v2838 : BitVec 1 := Scalar.cmpi .slt v2836 c0_i32_2298
  let c0_i32_2299 : BitVec 32 := 0#32
  let v2839 : BitVec 1 := Scalar.cmpi .slt v2835 c0_i32_2299
  let v2840 : BitVec 1 := Scalar.xori v2838 v2839
  let c0_i32_2297 : BitVec 32 := 0#32
  let v2837 : BitVec 1 := Scalar.cmpi .ne v2836 c0_i32_2297
  let v2841 : BitVec 1 := Scalar.andi v2840 v2837
  let v2842 : BitVec 32 := Scalar.addi v2836 v2835
  let v2843 : BitVec 32 := Scalar.select v2841 v2842 v2836
  let v2844 : BitVec 32 := Scalar.addi c0_i32_2300 v2843
  ![v2844.toNat]
def k0_off17 (d0 : Dev nD) (c0_i32_2300 : BitVec 32) (c1_i32_2293 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2833 : BitVec 32 := Scalar.subi v19 c1_i32_2293
  let c4_i32_2294 : BitVec 32 := 4#32
  let c0_i32_2295 : BitVec 32 := 0#32
  let v2834 : BitVec 1 := Scalar.cmpi .eq c4_i32_2294 c0_i32_2295
  let c1_i32_2296 : BitVec 32 := 1#32
  let v2835 : BitVec 32 := Scalar.select v2834 c1_i32_2296 c4_i32_2294
  let v2836 : BitVec 32 := Scalar.remsi v2833 v2835
  let c0_i32_2298 : BitVec 32 := 0#32
  let v2838 : BitVec 1 := Scalar.cmpi .slt v2836 c0_i32_2298
  let c0_i32_2299 : BitVec 32 := 0#32
  let v2839 : BitVec 1 := Scalar.cmpi .slt v2835 c0_i32_2299
  let v2840 : BitVec 1 := Scalar.xori v2838 v2839
  let c0_i32_2297 : BitVec 32 := 0#32
  let v2837 : BitVec 1 := Scalar.cmpi .ne v2836 c0_i32_2297
  let v2841 : BitVec 1 := Scalar.andi v2840 v2837
  let v2842 : BitVec 32 := Scalar.addi v2836 v2835
  let v2843 : BitVec 32 := Scalar.select v2841 v2842 v2836
  let v2844 : BitVec 32 := Scalar.addi c0_i32_2300 v2843
  let c0_i32_2304 : BitVec 32 := 0#32
  let c0_i32_2305 : BitVec 32 := 0#32
  ![v2844.toNat, 0, 0]
def k0_off18 (d0 : Dev nD) (c0_i32_2300 : BitVec 32) (c1_i32_2293 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2833 : BitVec 32 := Scalar.subi v19 c1_i32_2293
  let c4_i32_2294 : BitVec 32 := 4#32
  let c0_i32_2295 : BitVec 32 := 0#32
  let v2834 : BitVec 1 := Scalar.cmpi .eq c4_i32_2294 c0_i32_2295
  let c1_i32_2296 : BitVec 32 := 1#32
  let v2835 : BitVec 32 := Scalar.select v2834 c1_i32_2296 c4_i32_2294
  let v2836 : BitVec 32 := Scalar.remsi v2833 v2835
  let c0_i32_2298 : BitVec 32 := 0#32
  let v2838 : BitVec 1 := Scalar.cmpi .slt v2836 c0_i32_2298
  let c0_i32_2299 : BitVec 32 := 0#32
  let v2839 : BitVec 1 := Scalar.cmpi .slt v2835 c0_i32_2299
  let v2840 : BitVec 1 := Scalar.xori v2838 v2839
  let c0_i32_2297 : BitVec 32 := 0#32
  let v2837 : BitVec 1 := Scalar.cmpi .ne v2836 c0_i32_2297
  let v2841 : BitVec 1 := Scalar.andi v2840 v2837
  let v2842 : BitVec 32 := Scalar.addi v2836 v2835
  let v2843 : BitVec 32 := Scalar.select v2841 v2842 v2836
  let v2844 : BitVec 32 := Scalar.addi c0_i32_2300 v2843
  let v2851 : Index := Scalar.indexCast v2844
  let c0_2308 : Index := 0#32
  let c0_2309 : Index := 0#32
  ![v2851.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  h_S32x512 : 0 < S32x512.numel
  shapeCasts_S32x512_S32x512 : S32x512.ShapeCasts S32x512
  inb_S1024x512_S32x512_0_0 : ∀ a, (![0, 0] : Fin 2 → Nat) a + S32x512.size a ≤ S1024x512.size a
  packedbf16_S1024x512_S32x512_0_0 : (Rect.unit (s := S1024x512) ![0, 0] S32x512.size inb_S1024x512_S32x512_0_0).PackedRows (EltTy.packing .bf16)
  inb_S1024x512_S32x512_32_0 : ∀ a, (![32, 0] : Fin 2 → Nat) a + S32x512.size a ≤ S1024x512.size a
  packedbf16_S1024x512_S32x512_32_0 : (Rect.unit (s := S1024x512) ![32, 0] S32x512.size inb_S1024x512_S32x512_32_0).PackedRows (EltTy.packing .bf16)
  inb_S1024x512_S32x512_64_0 : ∀ a, (![64, 0] : Fin 2 → Nat) a + S32x512.size a ≤ S1024x512.size a
  packedbf16_S1024x512_S32x512_64_0 : (Rect.unit (s := S1024x512) ![64, 0] S32x512.size inb_S1024x512_S32x512_64_0).PackedRows (EltTy.packing .bf16)
  inb_S1024x512_S32x512_96_0 : ∀ a, (![96, 0] : Fin 2 → Nat) a + S32x512.size a ≤ S1024x512.size a
  packedbf16_S1024x512_S32x512_96_0 : (Rect.unit (s := S1024x512) ![96, 0] S32x512.size inb_S1024x512_S32x512_96_0).PackedRows (EltTy.packing .bf16)
  inb_S1024x512_S32x512_128_0 : ∀ a, (![128, 0] : Fin 2 → Nat) a + S32x512.size a ≤ S1024x512.size a
  packedbf16_S1024x512_S32x512_128_0 : (Rect.unit (s := S1024x512) ![128, 0] S32x512.size inb_S1024x512_S32x512_128_0).PackedRows (EltTy.packing .bf16)
  inb_S1024x512_S32x512_160_0 : ∀ a, (![160, 0] : Fin 2 → Nat) a + S32x512.size a ≤ S1024x512.size a
  packedbf16_S1024x512_S32x512_160_0 : (Rect.unit (s := S1024x512) ![160, 0] S32x512.size inb_S1024x512_S32x512_160_0).PackedRows (EltTy.packing .bf16)
  inb_S1024x512_S32x512_192_0 : ∀ a, (![192, 0] : Fin 2 → Nat) a + S32x512.size a ≤ S1024x512.size a
  packedbf16_S1024x512_S32x512_192_0 : (Rect.unit (s := S1024x512) ![192, 0] S32x512.size inb_S1024x512_S32x512_192_0).PackedRows (EltTy.packing .bf16)
  inb_S1024x512_S32x512_224_0 : ∀ a, (![224, 0] : Fin 2 → Nat) a + S32x512.size a ≤ S1024x512.size a
  packedbf16_S1024x512_S32x512_224_0 : (Rect.unit (s := S1024x512) ![224, 0] S32x512.size inb_S1024x512_S32x512_224_0).PackedRows (EltTy.packing .bf16)
  inb_S1024x512_S32x512_256_0 : ∀ a, (![256, 0] : Fin 2 → Nat) a + S32x512.size a ≤ S1024x512.size a
  packedbf16_S1024x512_S32x512_256_0 : (Rect.unit (s := S1024x512) ![256, 0] S32x512.size inb_S1024x512_S32x512_256_0).PackedRows (EltTy.packing .bf16)
  inb_S1024x512_S32x512_288_0 : ∀ a, (![288, 0] : Fin 2 → Nat) a + S32x512.size a ≤ S1024x512.size a
  packedbf16_S1024x512_S32x512_288_0 : (Rect.unit (s := S1024x512) ![288, 0] S32x512.size inb_S1024x512_S32x512_288_0).PackedRows (EltTy.packing .bf16)
  inb_S1024x512_S32x512_320_0 : ∀ a, (![320, 0] : Fin 2 → Nat) a + S32x512.size a ≤ S1024x512.size a
  packedbf16_S1024x512_S32x512_320_0 : (Rect.unit (s := S1024x512) ![320, 0] S32x512.size inb_S1024x512_S32x512_320_0).PackedRows (EltTy.packing .bf16)
  inb_S1024x512_S32x512_352_0 : ∀ a, (![352, 0] : Fin 2 → Nat) a + S32x512.size a ≤ S1024x512.size a
  packedbf16_S1024x512_S32x512_352_0 : (Rect.unit (s := S1024x512) ![352, 0] S32x512.size inb_S1024x512_S32x512_352_0).PackedRows (EltTy.packing .bf16)
  inb_S1024x512_S32x512_384_0 : ∀ a, (![384, 0] : Fin 2 → Nat) a + S32x512.size a ≤ S1024x512.size a
  packedbf16_S1024x512_S32x512_384_0 : (Rect.unit (s := S1024x512) ![384, 0] S32x512.size inb_S1024x512_S32x512_384_0).PackedRows (EltTy.packing .bf16)
  inb_S1024x512_S32x512_416_0 : ∀ a, (![416, 0] : Fin 2 → Nat) a + S32x512.size a ≤ S1024x512.size a
  packedbf16_S1024x512_S32x512_416_0 : (Rect.unit (s := S1024x512) ![416, 0] S32x512.size inb_S1024x512_S32x512_416_0).PackedRows (EltTy.packing .bf16)
  inb_S1024x512_S32x512_448_0 : ∀ a, (![448, 0] : Fin 2 → Nat) a + S32x512.size a ≤ S1024x512.size a
  packedbf16_S1024x512_S32x512_448_0 : (Rect.unit (s := S1024x512) ![448, 0] S32x512.size inb_S1024x512_S32x512_448_0).PackedRows (EltTy.packing .bf16)
  inb_S1024x512_S32x512_480_0 : ∀ a, (![480, 0] : Fin 2 → Nat) a + S32x512.size a ≤ S1024x512.size a
  packedbf16_S1024x512_S32x512_480_0 : (Rect.unit (s := S1024x512) ![480, 0] S32x512.size inb_S1024x512_S32x512_480_0).PackedRows (EltTy.packing .bf16)
  inb_S1024x512_S32x512_512_0 : ∀ a, (![512, 0] : Fin 2 → Nat) a + S32x512.size a ≤ S1024x512.size a
  packedbf16_S1024x512_S32x512_512_0 : (Rect.unit (s := S1024x512) ![512, 0] S32x512.size inb_S1024x512_S32x512_512_0).PackedRows (EltTy.packing .bf16)
  inb_S1024x512_S32x512_544_0 : ∀ a, (![544, 0] : Fin 2 → Nat) a + S32x512.size a ≤ S1024x512.size a
  packedbf16_S1024x512_S32x512_544_0 : (Rect.unit (s := S1024x512) ![544, 0] S32x512.size inb_S1024x512_S32x512_544_0).PackedRows (EltTy.packing .bf16)
  inb_S1024x512_S32x512_576_0 : ∀ a, (![576, 0] : Fin 2 → Nat) a + S32x512.size a ≤ S1024x512.size a
  packedbf16_S1024x512_S32x512_576_0 : (Rect.unit (s := S1024x512) ![576, 0] S32x512.size inb_S1024x512_S32x512_576_0).PackedRows (EltTy.packing .bf16)
  inb_S1024x512_S32x512_608_0 : ∀ a, (![608, 0] : Fin 2 → Nat) a + S32x512.size a ≤ S1024x512.size a
  packedbf16_S1024x512_S32x512_608_0 : (Rect.unit (s := S1024x512) ![608, 0] S32x512.size inb_S1024x512_S32x512_608_0).PackedRows (EltTy.packing .bf16)
  inb_S1024x512_S32x512_640_0 : ∀ a, (![640, 0] : Fin 2 → Nat) a + S32x512.size a ≤ S1024x512.size a
  packedbf16_S1024x512_S32x512_640_0 : (Rect.unit (s := S1024x512) ![640, 0] S32x512.size inb_S1024x512_S32x512_640_0).PackedRows (EltTy.packing .bf16)
  inb_S1024x512_S32x512_672_0 : ∀ a, (![672, 0] : Fin 2 → Nat) a + S32x512.size a ≤ S1024x512.size a
  packedbf16_S1024x512_S32x512_672_0 : (Rect.unit (s := S1024x512) ![672, 0] S32x512.size inb_S1024x512_S32x512_672_0).PackedRows (EltTy.packing .bf16)
  inb_S1024x512_S32x512_704_0 : ∀ a, (![704, 0] : Fin 2 → Nat) a + S32x512.size a ≤ S1024x512.size a
  packedbf16_S1024x512_S32x512_704_0 : (Rect.unit (s := S1024x512) ![704, 0] S32x512.size inb_S1024x512_S32x512_704_0).PackedRows (EltTy.packing .bf16)
  inb_S1024x512_S32x512_736_0 : ∀ a, (![736, 0] : Fin 2 → Nat) a + S32x512.size a ≤ S1024x512.size a
  packedbf16_S1024x512_S32x512_736_0 : (Rect.unit (s := S1024x512) ![736, 0] S32x512.size inb_S1024x512_S32x512_736_0).PackedRows (EltTy.packing .bf16)
  inb_S1024x512_S32x512_768_0 : ∀ a, (![768, 0] : Fin 2 → Nat) a + S32x512.size a ≤ S1024x512.size a
  packedbf16_S1024x512_S32x512_768_0 : (Rect.unit (s := S1024x512) ![768, 0] S32x512.size inb_S1024x512_S32x512_768_0).PackedRows (EltTy.packing .bf16)
  inb_S1024x512_S32x512_800_0 : ∀ a, (![800, 0] : Fin 2 → Nat) a + S32x512.size a ≤ S1024x512.size a
  packedbf16_S1024x512_S32x512_800_0 : (Rect.unit (s := S1024x512) ![800, 0] S32x512.size inb_S1024x512_S32x512_800_0).PackedRows (EltTy.packing .bf16)
  inb_S1024x512_S32x512_832_0 : ∀ a, (![832, 0] : Fin 2 → Nat) a + S32x512.size a ≤ S1024x512.size a
  packedbf16_S1024x512_S32x512_832_0 : (Rect.unit (s := S1024x512) ![832, 0] S32x512.size inb_S1024x512_S32x512_832_0).PackedRows (EltTy.packing .bf16)
  inb_S1024x512_S32x512_864_0 : ∀ a, (![864, 0] : Fin 2 → Nat) a + S32x512.size a ≤ S1024x512.size a
  packedbf16_S1024x512_S32x512_864_0 : (Rect.unit (s := S1024x512) ![864, 0] S32x512.size inb_S1024x512_S32x512_864_0).PackedRows (EltTy.packing .bf16)
  inb_S1024x512_S32x512_896_0 : ∀ a, (![896, 0] : Fin 2 → Nat) a + S32x512.size a ≤ S1024x512.size a
  packedbf16_S1024x512_S32x512_896_0 : (Rect.unit (s := S1024x512) ![896, 0] S32x512.size inb_S1024x512_S32x512_896_0).PackedRows (EltTy.packing .bf16)
  inb_S1024x512_S32x512_928_0 : ∀ a, (![928, 0] : Fin 2 → Nat) a + S32x512.size a ≤ S1024x512.size a
  packedbf16_S1024x512_S32x512_928_0 : (Rect.unit (s := S1024x512) ![928, 0] S32x512.size inb_S1024x512_S32x512_928_0).PackedRows (EltTy.packing .bf16)
  inb_S1024x512_S32x512_960_0 : ∀ a, (![960, 0] : Fin 2 → Nat) a + S32x512.size a ≤ S1024x512.size a
  packedbf16_S1024x512_S32x512_960_0 : (Rect.unit (s := S1024x512) ![960, 0] S32x512.size inb_S1024x512_S32x512_960_0).PackedRows (EltTy.packing .bf16)
  inb_S1024x512_S32x512_992_0 : ∀ a, (![992, 0] : Fin 2 → Nat) a + S32x512.size a ≤ S1024x512.size a
  packedbf16_S1024x512_S32x512_992_0 : (Rect.unit (s := S1024x512) ![992, 0] S32x512.size inb_S1024x512_S32x512_992_0).PackedRows (EltTy.packing .bf16)
  inb_S1024x512_S512x512_0_0 : ∀ a, (![0, 0] : Fin 2 → Nat) a + S512x512.size a ≤ S1024x512.size a
  h_S512x512 : 0 < S512x512.numel
  inb_S512x1024_S512x128_0_0 : ∀ a, (![0, 0] : Fin 2 → Nat) a + S512x128.size a ≤ S512x1024.size a
  h_S512x128 : 0 < S512x128.numel
  shapeCasts_S512x128_S4x4x32x128 : S512x128.ShapeCasts S4x4x32x128
  inb_S8x4x4x32x128_S1x4x4x32x128_0_0_0_0_0 : ∀ a, (![0, 0, 0, 0, 0] : Fin 5 → Nat) a + S1x4x4x32x128.size a ≤ S8x4x4x32x128.size a
  h_S1x4x4x32x128 : 0 < S1x4x4x32x128.numel
  shapeCasts_S1x4x4x32x128_S4x4x32x128 : S1x4x4x32x128.ShapeCasts S4x4x32x128
  shapeCasts_S4x4x32x128_S1x4x4x32x128 : S4x4x32x128.ShapeCasts S1x4x4x32x128
  packedbf16_S8x4x4x32x128_S1x4x4x32x128_0_0_0_0_0 : (Rect.unit (s := S8x4x4x32x128) ![0, 0, 0, 0, 0] S1x4x4x32x128.size inb_S8x4x4x32x128_S1x4x4x32x128_0_0_0_0_0).PackedRows (EltTy.packing .bf16)
  hamt_7 : (7#32 : BitVec 32).msb = false
  inb_S8_S1_0 : ∀ a, (![0] : Fin 1 → Nat) a + S1.size a ≤ S8.size a
  squeezes_S1_S_ : S1.Squeezes S_
  squeezes_S1x4x4x32x128_S4x4x32x128 : S1x4x4x32x128.Squeezes S4x4x32x128
  wordsbf16_S8x4x4x32x128_S1x4x4x32x128_0_0_0_0_0 : (Rect.unit (s := S8x4x4x32x128) ![0, 0, 0, 0, 0] S1x4x4x32x128.size inb_S8x4x4x32x128_S1x4x4x32x128_0_0_0_0_0).WholeWords (EltTy.packing .bf16)
  inb_S1024x512_S512x512_512_0 : ∀ a, (![512, 0] : Fin 2 → Nat) a + S512x512.size a ≤ S1024x512.size a
  inb_S512x1024_S512x128_0_128 : ∀ a, (![0, 128] : Fin 2 → Nat) a + S512x128.size a ≤ S512x1024.size a
  inb_S8x4x4x32x128_S1x4x4x32x128_1_0_0_0_0 : ∀ a, (![1, 0, 0, 0, 0] : Fin 5 → Nat) a + S1x4x4x32x128.size a ≤ S8x4x4x32x128.size a
  packedbf16_S8x4x4x32x128_S1x4x4x32x128_1_0_0_0_0 : (Rect.unit (s := S8x4x4x32x128) ![1, 0, 0, 0, 0] S1x4x4x32x128.size inb_S8x4x4x32x128_S1x4x4x32x128_1_0_0_0_0).PackedRows (EltTy.packing .bf16)
  inb_S8_S1_1 : ∀ a, (![1] : Fin 1 → Nat) a + S1.size a ≤ S8.size a
  wordsbf16_S8x4x4x32x128_S1x4x4x32x128_1_0_0_0_0 : (Rect.unit (s := S8x4x4x32x128) ![1, 0, 0, 0, 0] S1x4x4x32x128.size inb_S8x4x4x32x128_S1x4x4x32x128_1_0_0_0_0).WholeWords (EltTy.packing .bf16)
  inb_S512x1024_S512x128_0_256 : ∀ a, (![0, 256] : Fin 2 → Nat) a + S512x128.size a ≤ S512x1024.size a
  inb_S8x4x4x32x128_S1x4x4x32x128_2_0_0_0_0 : ∀ a, (![2, 0, 0, 0, 0] : Fin 5 → Nat) a + S1x4x4x32x128.size a ≤ S8x4x4x32x128.size a
  packedbf16_S8x4x4x32x128_S1x4x4x32x128_2_0_0_0_0 : (Rect.unit (s := S8x4x4x32x128) ![2, 0, 0, 0, 0] S1x4x4x32x128.size inb_S8x4x4x32x128_S1x4x4x32x128_2_0_0_0_0).PackedRows (EltTy.packing .bf16)
  inb_S8_S1_2 : ∀ a, (![2] : Fin 1 → Nat) a + S1.size a ≤ S8.size a
  wordsbf16_S8x4x4x32x128_S1x4x4x32x128_2_0_0_0_0 : (Rect.unit (s := S8x4x4x32x128) ![2, 0, 0, 0, 0] S1x4x4x32x128.size inb_S8x4x4x32x128_S1x4x4x32x128_2_0_0_0_0).WholeWords (EltTy.packing .bf16)
  inb_S512x1024_S512x128_0_384 : ∀ a, (![0, 384] : Fin 2 → Nat) a + S512x128.size a ≤ S512x1024.size a
  inb_S8x4x4x32x128_S1x4x4x32x128_3_0_0_0_0 : ∀ a, (![3, 0, 0, 0, 0] : Fin 5 → Nat) a + S1x4x4x32x128.size a ≤ S8x4x4x32x128.size a
  packedbf16_S8x4x4x32x128_S1x4x4x32x128_3_0_0_0_0 : (Rect.unit (s := S8x4x4x32x128) ![3, 0, 0, 0, 0] S1x4x4x32x128.size inb_S8x4x4x32x128_S1x4x4x32x128_3_0_0_0_0).PackedRows (EltTy.packing .bf16)
  inb_S8_S1_3 : ∀ a, (![3] : Fin 1 → Nat) a + S1.size a ≤ S8.size a
  wordsbf16_S8x4x4x32x128_S1x4x4x32x128_3_0_0_0_0 : (Rect.unit (s := S8x4x4x32x128) ![3, 0, 0, 0, 0] S1x4x4x32x128.size inb_S8x4x4x32x128_S1x4x4x32x128_3_0_0_0_0).WholeWords (EltTy.packing .bf16)
  inb_S512x1024_S512x128_0_512 : ∀ a, (![0, 512] : Fin 2 → Nat) a + S512x128.size a ≤ S512x1024.size a
  inb_S8x4x4x32x128_S1x4x4x32x128_4_0_0_0_0 : ∀ a, (![4, 0, 0, 0, 0] : Fin 5 → Nat) a + S1x4x4x32x128.size a ≤ S8x4x4x32x128.size a
  packedbf16_S8x4x4x32x128_S1x4x4x32x128_4_0_0_0_0 : (Rect.unit (s := S8x4x4x32x128) ![4, 0, 0, 0, 0] S1x4x4x32x128.size inb_S8x4x4x32x128_S1x4x4x32x128_4_0_0_0_0).PackedRows (EltTy.packing .bf16)
  inb_S8_S1_4 : ∀ a, (![4] : Fin 1 → Nat) a + S1.size a ≤ S8.size a
  wordsbf16_S8x4x4x32x128_S1x4x4x32x128_4_0_0_0_0 : (Rect.unit (s := S8x4x4x32x128) ![4, 0, 0, 0, 0] S1x4x4x32x128.size inb_S8x4x4x32x128_S1x4x4x32x128_4_0_0_0_0).WholeWords (EltTy.packing .bf16)
  inb_S512x1024_S512x128_0_640 : ∀ a, (![0, 640] : Fin 2 → Nat) a + S512x128.size a ≤ S512x1024.size a
  inb_S8x4x4x32x128_S1x4x4x32x128_5_0_0_0_0 : ∀ a, (![5, 0, 0, 0, 0] : Fin 5 → Nat) a + S1x4x4x32x128.size a ≤ S8x4x4x32x128.size a
  packedbf16_S8x4x4x32x128_S1x4x4x32x128_5_0_0_0_0 : (Rect.unit (s := S8x4x4x32x128) ![5, 0, 0, 0, 0] S1x4x4x32x128.size inb_S8x4x4x32x128_S1x4x4x32x128_5_0_0_0_0).PackedRows (EltTy.packing .bf16)
  inb_S8_S1_5 : ∀ a, (![5] : Fin 1 → Nat) a + S1.size a ≤ S8.size a
  wordsbf16_S8x4x4x32x128_S1x4x4x32x128_5_0_0_0_0 : (Rect.unit (s := S8x4x4x32x128) ![5, 0, 0, 0, 0] S1x4x4x32x128.size inb_S8x4x4x32x128_S1x4x4x32x128_5_0_0_0_0).WholeWords (EltTy.packing .bf16)
  inb_S512x1024_S512x128_0_768 : ∀ a, (![0, 768] : Fin 2 → Nat) a + S512x128.size a ≤ S512x1024.size a
  inb_S8x4x4x32x128_S1x4x4x32x128_6_0_0_0_0 : ∀ a, (![6, 0, 0, 0, 0] : Fin 5 → Nat) a + S1x4x4x32x128.size a ≤ S8x4x4x32x128.size a
  packedbf16_S8x4x4x32x128_S1x4x4x32x128_6_0_0_0_0 : (Rect.unit (s := S8x4x4x32x128) ![6, 0, 0, 0, 0] S1x4x4x32x128.size inb_S8x4x4x32x128_S1x4x4x32x128_6_0_0_0_0).PackedRows (EltTy.packing .bf16)
  inb_S8_S1_6 : ∀ a, (![6] : Fin 1 → Nat) a + S1.size a ≤ S8.size a
  wordsbf16_S8x4x4x32x128_S1x4x4x32x128_6_0_0_0_0 : (Rect.unit (s := S8x4x4x32x128) ![6, 0, 0, 0, 0] S1x4x4x32x128.size inb_S8x4x4x32x128_S1x4x4x32x128_6_0_0_0_0).WholeWords (EltTy.packing .bf16)
  inb_S512x1024_S512x128_0_896 : ∀ a, (![0, 896] : Fin 2 → Nat) a + S512x128.size a ≤ S512x1024.size a
  inb_S8x4x4x32x128_S1x4x4x32x128_7_0_0_0_0 : ∀ a, (![7, 0, 0, 0, 0] : Fin 5 → Nat) a + S1x4x4x32x128.size a ≤ S8x4x4x32x128.size a
  packedbf16_S8x4x4x32x128_S1x4x4x32x128_7_0_0_0_0 : (Rect.unit (s := S8x4x4x32x128) ![7, 0, 0, 0, 0] S1x4x4x32x128.size inb_S8x4x4x32x128_S1x4x4x32x128_7_0_0_0_0).PackedRows (EltTy.packing .bf16)
  inb_S8_S1_7 : ∀ a, (![7] : Fin 1 → Nat) a + S1.size a ≤ S8.size a
  wordsbf16_S8x4x4x32x128_S1x4x4x32x128_7_0_0_0_0 : (Rect.unit (s := S8x4x4x32x128) ![7, 0, 0, 0, 0] S1x4x4x32x128.size inb_S8x4x4x32x128_S1x4x4x32x128_7_0_0_0_0).WholeWords (EltTy.packing .bf16)
  inb_S32x4x32x128_S4x4x32x128_0_0_0_0 : ∀ a, (![0, 0, 0, 0] : Fin 4 → Nat) a + S4x4x32x128.size a ≤ S32x4x32x128.size a
  h_S4x4x32x128 : 0 < S4x4x32x128.numel
  shapeCasts_S4x4x32x128_S4x4x32x128 : S4x4x32x128.ShapeCasts S4x4x32x128
  packedbf16_S32x4x32x128_S4x4x32x128_0_0_0_0 : (Rect.unit (s := S32x4x32x128) ![0, 0, 0, 0] S4x4x32x128.size inb_S32x4x32x128_S4x4x32x128_0_0_0_0).PackedRows (EltTy.packing .bf16)
  inb_S32x4x32x128_S4x4x32x128_4_0_0_0 : ∀ a, (![4, 0, 0, 0] : Fin 4 → Nat) a + S4x4x32x128.size a ≤ S32x4x32x128.size a
  packedbf16_S32x4x32x128_S4x4x32x128_4_0_0_0 : (Rect.unit (s := S32x4x32x128) ![4, 0, 0, 0] S4x4x32x128.size inb_S32x4x32x128_S4x4x32x128_4_0_0_0).PackedRows (EltTy.packing .bf16)
  inb_S32x4x32x128_S4x4x32x128_8_0_0_0 : ∀ a, (![8, 0, 0, 0] : Fin 4 → Nat) a + S4x4x32x128.size a ≤ S32x4x32x128.size a
  packedbf16_S32x4x32x128_S4x4x32x128_8_0_0_0 : (Rect.unit (s := S32x4x32x128) ![8, 0, 0, 0] S4x4x32x128.size inb_S32x4x32x128_S4x4x32x128_8_0_0_0).PackedRows (EltTy.packing .bf16)
  inb_S32x4x32x128_S4x4x32x128_12_0_0_0 : ∀ a, (![12, 0, 0, 0] : Fin 4 → Nat) a + S4x4x32x128.size a ≤ S32x4x32x128.size a
  packedbf16_S32x4x32x128_S4x4x32x128_12_0_0_0 : (Rect.unit (s := S32x4x32x128) ![12, 0, 0, 0] S4x4x32x128.size inb_S32x4x32x128_S4x4x32x128_12_0_0_0).PackedRows (EltTy.packing .bf16)
  inb_S32x4x32x128_S4x4x32x128_16_0_0_0 : ∀ a, (![16, 0, 0, 0] : Fin 4 → Nat) a + S4x4x32x128.size a ≤ S32x4x32x128.size a
  packedbf16_S32x4x32x128_S4x4x32x128_16_0_0_0 : (Rect.unit (s := S32x4x32x128) ![16, 0, 0, 0] S4x4x32x128.size inb_S32x4x32x128_S4x4x32x128_16_0_0_0).PackedRows (EltTy.packing .bf16)
  inb_S32x4x32x128_S4x4x32x128_20_0_0_0 : ∀ a, (![20, 0, 0, 0] : Fin 4 → Nat) a + S4x4x32x128.size a ≤ S32x4x32x128.size a
  packedbf16_S32x4x32x128_S4x4x32x128_20_0_0_0 : (Rect.unit (s := S32x4x32x128) ![20, 0, 0, 0] S4x4x32x128.size inb_S32x4x32x128_S4x4x32x128_20_0_0_0).PackedRows (EltTy.packing .bf16)
  inb_S32x4x32x128_S4x4x32x128_24_0_0_0 : ∀ a, (![24, 0, 0, 0] : Fin 4 → Nat) a + S4x4x32x128.size a ≤ S32x4x32x128.size a
  packedbf16_S32x4x32x128_S4x4x32x128_24_0_0_0 : (Rect.unit (s := S32x4x32x128) ![24, 0, 0, 0] S4x4x32x128.size inb_S32x4x32x128_S4x4x32x128_24_0_0_0).PackedRows (EltTy.packing .bf16)
  inb_S32x4x32x128_S4x4x32x128_28_0_0_0 : ∀ a, (![28, 0, 0, 0] : Fin 4 → Nat) a + S4x4x32x128.size a ≤ S32x4x32x128.size a
  packedbf16_S32x4x32x128_S4x4x32x128_28_0_0_0 : (Rect.unit (s := S32x4x32x128) ![28, 0, 0, 0] S4x4x32x128.size inb_S32x4x32x128_S4x4x32x128_28_0_0_0).PackedRows (EltTy.packing .bf16)
  h_S1x4x32x128 : 0 < S1x4x32x128.numel
  shapeCasts_S1x4x32x128_S4x32x128 : S1x4x32x128.ShapeCasts S4x32x128
  inb_S32x32x128_S4x32x128_0_0_0 : ∀ a, (![0, 0, 0] : Fin 3 → Nat) a + S4x32x128.size a ≤ S32x32x128.size a
  h_S4x32x128 : 0 < S4x32x128.numel
  shapeCasts_S4x32x128_S4x32x128 : S4x32x128.ShapeCasts S4x32x128
  packedbf16_S32x32x128_S4x32x128_0_0_0 : (Rect.unit (s := S32x32x128) ![0, 0, 0] S4x32x128.size inb_S32x32x128_S4x32x128_0_0_0).PackedRows (EltTy.packing .bf16)
  inb_S32x32x128_S4x32x128_4_0_0 : ∀ a, (![4, 0, 0] : Fin 3 → Nat) a + S4x32x128.size a ≤ S32x32x128.size a
  packedbf16_S32x32x128_S4x32x128_4_0_0 : (Rect.unit (s := S32x32x128) ![4, 0, 0] S4x32x128.size inb_S32x32x128_S4x32x128_4_0_0).PackedRows (EltTy.packing .bf16)
  inb_S32x32x128_S4x32x128_8_0_0 : ∀ a, (![8, 0, 0] : Fin 3 → Nat) a + S4x32x128.size a ≤ S32x32x128.size a
  packedbf16_S32x32x128_S4x32x128_8_0_0 : (Rect.unit (s := S32x32x128) ![8, 0, 0] S4x32x128.size inb_S32x32x128_S4x32x128_8_0_0).PackedRows (EltTy.packing .bf16)
  inb_S32x32x128_S4x32x128_12_0_0 : ∀ a, (![12, 0, 0] : Fin 3 → Nat) a + S4x32x128.size a ≤ S32x32x128.size a
  packedbf16_S32x32x128_S4x32x128_12_0_0 : (Rect.unit (s := S32x32x128) ![12, 0, 0] S4x32x128.size inb_S32x32x128_S4x32x128_12_0_0).PackedRows (EltTy.packing .bf16)
  inb_S32x32x128_S4x32x128_16_0_0 : ∀ a, (![16, 0, 0] : Fin 3 → Nat) a + S4x32x128.size a ≤ S32x32x128.size a
  packedbf16_S32x32x128_S4x32x128_16_0_0 : (Rect.unit (s := S32x32x128) ![16, 0, 0] S4x32x128.size inb_S32x32x128_S4x32x128_16_0_0).PackedRows (EltTy.packing .bf16)
  inb_S32x32x128_S4x32x128_20_0_0 : ∀ a, (![20, 0, 0] : Fin 3 → Nat) a + S4x32x128.size a ≤ S32x32x128.size a
  packedbf16_S32x32x128_S4x32x128_20_0_0 : (Rect.unit (s := S32x32x128) ![20, 0, 0] S4x32x128.size inb_S32x32x128_S4x32x128_20_0_0).PackedRows (EltTy.packing .bf16)
  inb_S32x32x128_S4x32x128_24_0_0 : ∀ a, (![24, 0, 0] : Fin 3 → Nat) a + S4x32x128.size a ≤ S32x32x128.size a
  packedbf16_S32x32x128_S4x32x128_24_0_0 : (Rect.unit (s := S32x32x128) ![24, 0, 0] S4x32x128.size inb_S32x32x128_S4x32x128_24_0_0).PackedRows (EltTy.packing .bf16)
  inb_S32x32x128_S4x32x128_28_0_0 : ∀ a, (![28, 0, 0] : Fin 3 → Nat) a + S4x32x128.size a ≤ S32x32x128.size a
  packedbf16_S32x32x128_S4x32x128_28_0_0 : (Rect.unit (s := S32x32x128) ![28, 0, 0] S4x32x128.size inb_S32x32x128_S4x32x128_28_0_0).PackedRows (EltTy.packing .bf16)
  h_S1x32x128 : 0 < S1x32x128.numel
  shapeCasts_S1x32x128_S32x128 : S1x32x128.ShapeCasts S32x128
  inb_S32x1024_S32x128_0_0 : ∀ a, (![0, 0] : Fin 2 → Nat) a + S32x128.size a ≤ S32x1024.size a
  h_S32x128 : 0 < S32x128.numel
  inb_S32x1024_S32x128_0_128 : ∀ a, (![0, 128] : Fin 2 → Nat) a + S32x128.size a ≤ S32x1024.size a
  inb_S32x1024_S32x128_0_256 : ∀ a, (![0, 256] : Fin 2 → Nat) a + S32x128.size a ≤ S32x1024.size a
  inb_S32x1024_S32x128_0_384 : ∀ a, (![0, 384] : Fin 2 → Nat) a + S32x128.size a ≤ S32x1024.size a
  inb_S32x1024_S32x128_0_512 : ∀ a, (![0, 512] : Fin 2 → Nat) a + S32x128.size a ≤ S32x1024.size a
  inb_S32x1024_S32x128_0_640 : ∀ a, (![0, 640] : Fin 2 → Nat) a + S32x128.size a ≤ S32x1024.size a
  inb_S32x1024_S32x128_0_768 : ∀ a, (![0, 768] : Fin 2 → Nat) a + S32x128.size a ≤ S32x1024.size a
  inb_S32x1024_S32x128_0_896 : ∀ a, (![0, 896] : Fin 2 → Nat) a + S32x128.size a ≤ S32x1024.size a
  dot_S512x512_S512x128_S512x128_1_0_0_1_n_n_wf : DotDims.WF S512x512 S512x128 S512x128 [1] [0] [0] [1] [] []
  hcc0_scratch9 : 3 + S8.numel ≤ 147
  hcc0_scratch10 : 11 + S8.numel ≤ 147
  hcc0_scratch11 : 19 + S32.numel ≤ 147
  hcc0_scratch12 : 51 + S32.numel ≤ 147
  hcc0_scratch13 : 83 + S32.numel ≤ 147
  hcc0_scratch14 : 115 + S32.numel ≤ 147
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 16), ∀ a, (k0_off1 d0 (k0_off1_at r).1 (k0_off1_at r).2.1 (k0_off1_at r).2.2) a + S32x512.size a ≤ S1024x512.size a
  k0_off2_inb : ∀ d0 : Dev nD, ∀ (r : Fin 16), ∀ a, (k0_off2 d0 (k0_off2_at r).1 (k0_off2_at r).2.1 (k0_off2_at r).2.2) a + S32x512.size a ≤ S1024x512.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off3_inb : ∀ d0 : Dev nD, ∀ (r₁ : Fin 8) (r₂ : Fin 3), ∀ a, (k0_off3 d0 (BitVec.ofNat 32 (4 * r₁.val)) (BitVec.ofNat 32 (1 + r₂.val))) a + S1.size a ≤ S32.size a
  k0_off4_inb : ∀ d0 : Dev nD, ∀ (r : Fin 8), ∀ a, (k0_off4 d0 (BitVec.ofNat 32 (4 * r.val))) a + S1.size a ≤ S32.size a
  k0_off5_inb : ∀ d0 : Dev nD, ∀ (r : Fin 8), ∀ a, (k0_off5 d0 (BitVec.ofNat 32 (4 * r.val))) a + S1x4x32x128.size a ≤ S32x4x32x128.size a
  k0_off6_inb : ∀ d0 : Dev nD, ∀ (r₁ : Fin 8) (r₂ : Fin 3), ∀ a, (k0_off6 d0 (BitVec.ofNat 32 (4 * r₁.val)) (BitVec.ofNat 32 (1 + r₂.val))) a + S1x4x32x128.size a ≤ S32x4x32x128.size a
  k0_off6_wordsbf16 : ∀ d0 : Dev nD, ∀ (r₁ : Fin 8) (r₂ : Fin 3), (Rect.unit (s := S32x4x32x128) (k0_off6 d0 (BitVec.ofNat 32 (4 * r₁.val)) (BitVec.ofNat 32 (1 + r₂.val))) S1x4x32x128.size (k0_off6_inb d0 r₁ r₂)).WholeWords (EltTy.packing .bf16)
  k0_off5_wordsbf16 : ∀ d0 : Dev nD, ∀ (r : Fin 8), (Rect.unit (s := S32x4x32x128) (k0_off5 d0 (BitVec.ofNat 32 (4 * r.val))) S1x4x32x128.size (k0_off5_inb d0 r)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_off7_inb : ∀ d0 : Dev nD, ∀ (r : Fin 8), ∀ a, (k0_off7 d0 (BitVec.ofNat 32 (4 * r.val))) a + S1x4x32x128.size a ≤ S32x4x32x128.size a
  k0_off8_inb : ∀ d0 : Dev nD, ∀ (r₁ : Fin 8) (r₂ : Fin 3), ∀ a, (k0_off8 d0 (BitVec.ofNat 32 (4 * r₁.val)) (BitVec.ofNat 32 (1 + r₂.val))) a + S1.size a ≤ S32.size a
  k0_off9_inb : ∀ d0 : Dev nD, ∀ (r₁ : Fin 8) (r₂ : Fin 3), ∀ a, (k0_off9 d0 (BitVec.ofNat 32 (4 * r₁.val)) (BitVec.ofNat 32 (1 + r₂.val))) a + S1x4x32x128.size a ≤ S32x4x32x128.size a
  k0_off9_wordsbf16 : ∀ d0 : Dev nD, ∀ (r₁ : Fin 8) (r₂ : Fin 3), (Rect.unit (s := S32x4x32x128) (k0_off9 d0 (BitVec.ofNat 32 (4 * r₁.val)) (BitVec.ofNat 32 (1 + r₂.val))) S1x4x32x128.size (k0_off9_inb d0 r₁ r₂)).WholeWords (EltTy.packing .bf16)
  k0_off10_inb : ∀ d0 : Dev nD, ∀ (r₁ : Fin 8) (r₂ : Fin 3), ∀ a, (k0_off10 d0 (BitVec.ofNat 32 (4 * r₁.val)) (BitVec.ofNat 32 (1 + r₂.val))) a + S1x4x32x128.size a ≤ S32x4x32x128.size a
  k0_off11_inb : ∀ d0 : Dev nD, ∀ (r₁ : Fin 8) (r₂ : Fin 3), ∀ a, (k0_off11 d0 (BitVec.ofNat 32 (4 * r₁.val)) (BitVec.ofNat 32 (1 + r₂.val))) a + S1.size a ≤ S32.size a
  k0_off12_inb : ∀ d0 : Dev nD, ∀ (r : Fin 8), ∀ a, (k0_off12 d0 (BitVec.ofNat 32 (4 * r.val))) a + S1.size a ≤ S32.size a
  k0_off13_inb : ∀ d0 : Dev nD, ∀ (r : Fin 8), ∀ a, (k0_off13 d0 (BitVec.ofNat 32 (4 * r.val))) a + S1x32x128.size a ≤ S32x32x128.size a
  k0_off14_inb : ∀ d0 : Dev nD, ∀ (r₁ : Fin 8) (r₂ : Fin 3), ∀ a, (k0_off14 d0 (BitVec.ofNat 32 (4 * r₁.val)) (BitVec.ofNat 32 (1 + r₂.val))) a + S1x32x128.size a ≤ S32x32x128.size a
  k0_off14_wordsbf16 : ∀ d0 : Dev nD, ∀ (r₁ : Fin 8) (r₂ : Fin 3), (Rect.unit (s := S32x32x128) (k0_off14 d0 (BitVec.ofNat 32 (4 * r₁.val)) (BitVec.ofNat 32 (1 + r₂.val))) S1x32x128.size (k0_off14_inb d0 r₁ r₂)).WholeWords (EltTy.packing .bf16)
  k0_off13_wordsbf16 : ∀ d0 : Dev nD, ∀ (r : Fin 8), (Rect.unit (s := S32x32x128) (k0_off13 d0 (BitVec.ofNat 32 (4 * r.val))) S1x32x128.size (k0_off13_inb d0 r)).WholeWords (EltTy.packing .bf16)
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_off15_inb : ∀ d0 : Dev nD, ∀ (r : Fin 8), ∀ a, (k0_off15 d0 (BitVec.ofNat 32 (4 * r.val))) a + S1x32x128.size a ≤ S32x32x128.size a
  k0_off16_inb : ∀ d0 : Dev nD, ∀ (r₁ : Fin 8) (r₂ : Fin 3), ∀ a, (k0_off16 d0 (BitVec.ofNat 32 (4 * r₁.val)) (BitVec.ofNat 32 (1 + r₂.val))) a + S1.size a ≤ S32.size a
  k0_off17_inb : ∀ d0 : Dev nD, ∀ (r₁ : Fin 8) (r₂ : Fin 3), ∀ a, (k0_off17 d0 (BitVec.ofNat 32 (4 * r₁.val)) (BitVec.ofNat 32 (1 + r₂.val))) a + S1x32x128.size a ≤ S32x32x128.size a
  k0_off17_wordsbf16 : ∀ d0 : Dev nD, ∀ (r₁ : Fin 8) (r₂ : Fin 3), (Rect.unit (s := S32x32x128) (k0_off17 d0 (BitVec.ofNat 32 (4 * r₁.val)) (BitVec.ofNat 32 (1 + r₂.val))) S1x32x128.size (k0_off17_inb d0 r₁ r₂)).WholeWords (EltTy.packing .bf16)
  k0_off18_inb : ∀ d0 : Dev nD, ∀ (r₁ : Fin 8) (r₂ : Fin 3), ∀ a, (k0_off18 d0 (BitVec.ofNat 32 (4 * r₁.val)) (BitVec.ofNat 32 (1 + r₂.val))) a + S1x32x128.size a ≤ S32x32x128.size a
  hstage0_0 : ∀ j, (stage0_0 j).IsWhole
  hstage0_1 : ∀ j, (stage0_1 j).IsWhole
  hstage0_2 : ∀ j, (stage0_2 j).IsWhole

variable [Facts₀]

abbrev cc0_scratch9 : DmaSems sig S8 := SemArray.consecutive 3 S8 hcc0_scratch9
abbrev cc0_scratch10 : DmaSems sig S8 := SemArray.consecutive 11 S8 hcc0_scratch10
abbrev cc0_scratch11 : DmaSems sig S32 := SemArray.consecutive 19 S32 hcc0_scratch11
abbrev cc0_scratch12 : DmaSems sig S32 := SemArray.consecutive 51 S32 hcc0_scratch12
abbrev cc0_scratch13 : DmaSems sig S32 := SemArray.consecutive 83 S32 hcc0_scratch13
abbrev cc0_scratch14 : DmaSems sig S32 := SemArray.consecutive 115 S32 hcc0_scratch14
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x1024, .f32⟩
  | .hbm, ⟨2, _⟩ => ⟨S1024x1024, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x16384_S16384x1024_S1024x1024_1_0_0_1_n_n_wf : DotDims.WF S1024x16384 S16384x1024 S1024x1024 [1] [0] [0] [1] [] []

variable [Facts₀]

def dot_S1024x16384_S16384x1024_S1024x1024_1_0_0_1_n_n : DotDims S1024x16384 S16384x1024 S1024x1024 where
  lhsContracting := [1]
  rhsContracting := [0]
  lhsNonContracting := [0]
  rhsNonContracting := [1]
  lhsBatch := []
  rhsBatch := []
  wf := dot_S1024x16384_S16384x1024_S1024x1024_1_0_0_1_n_n_wf

class Facts : Prop extends Facts₀ where

variable [Facts]
-- ==== Proof.RefValue.lean ====
/-
  The reference program read as mathematics: it runs, leaves its two argument arrays as they were, and
  its result at row i, column j is the sum over the 16384 contracted positions K of A(i, K) · B(K, j).
-/
import proofs.«900893_g7700000000000894_dist_matmul_mk_i_outk_m1024_n1024_k512_v7x_i32_f32_1_alg».proof.Defs
import proofs.«900893_g7700000000000894_dist_matmul_mk_i_outk_m1024_n1024_k512_v7x_i32_f32_1_alg».proof.Proof.Gen.ReferenceIdeal
import proofs.«900893_g7700000000000894_dist_matmul_mk_i_outk_m1024_n1024_k512_v7x_i32_f32_1_alg».proof.Proof.Gen.Pre_finite_inputs_ReferenceIdeal
import proofs.«900893_g7700000000000894_dist_matmul_mk_i_outk_m1024_n1024_k512_v7x_i32_f32_1_alg».proof.Proof.Gen.ReferenceIdeal.Run
import proofs.«900893_g7700000000000894_dist_matmul_mk_i_outk_m1024_n1024_k512_v7x_i32_f32_1_alg».proof.Proof.Gen.ReferenceIdeal.Read
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The reference runs and its argument arrays end unchanged: its run with the result dropped. -/
theorem ref_frame : Cert.frame_ReferenceIdeal :=
  fun m ρ _ => (θ_run Cert.ReferenceIdeal.defs _ _).mono (fun _ h c => (h c).2)
    (Cert.ReferenceIdeal.Value.run (F := Ideal) m ρ)

/-- The reference's result as a function of its two arguments: the one contraction. -/
abbrev refOut (A : (⟨S1024x16384, .f32⟩ : BufTy).Contents (Elt Ideal)) (B : (⟨S16384x1024, .f32⟩ : BufTy).Contents (Elt Ideal)) :
    (⟨S1024x1024, .f32⟩ : BufTy).Contents (Elt Ideal) :=
  Host.dotGeneral (F := Ideal) (φ₁ := .f32) (φ₂ := .f32) dot_S1024x16384_S16384x1024_S1024x1024_1_0_0_1_n_n none A B

/-- The result at row i, column j is the sum over the contracted positions of the products. -/
theorem refOut_apply (A : (⟨S1024x16384, .f32⟩ : BufTy).Contents (Elt Ideal)) (B : (⟨S16384x1024, .f32⟩ : BufTy).Contents (Elt Ideal))
    (i j : Fin 1024) :
    refOut A B (ix2 i j) = ∑ K : Fin 16384, A (ix2 i K) * B (ix2 K j) := by
  have h := Read.val_main_v0_apply A B (ix2 i j)
  rw [show Read.val_main_v0 (F := Ideal) A B = refOut A B from rfl] at h
  rw [h]
  refine Finset.sum_congr rfl fun K _ => ?_
  have el : Read.lidx_main_v0 (ix2 i j) K = ix2 i K := by
    funext a
    match a with
    | ⟨0, _⟩ => rfl
    | ⟨1, _⟩ => rfl
  have er : Read.ridx_main_v0 (ix2 i j) K = ix2 K j := by
    funext a
    match a with
    | ⟨0, _⟩ => rfl
    | ⟨1, _⟩ => rfl
  rw [el, er]

/-- The reference's run, read on its one device: the result is the contraction of the launch contents of
    the two arguments, and the arguments end unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      r.2.mem (((0 : Dev nD).tc : Thread nD τ).loc main_v0)
          = refOut (m (((0 : Dev nD).tc : Thread nD τ).loc main_arg0)) (m (((0 : Dev nD).tc : Thread nD τ).loc main_arg1))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) :=
  (θ_run defs _ _).mono (fun _ h => h 0) (Cert.ReferenceIdeal.Value.run (F := Ideal) m ρ)

end Cert.ReferenceIdeal.RefValue

end
-- ==== Proof.MeshDefs.lean ====
/-
  The 32 devices as a 4 × 4 × 2 box. Device c = 8·z + p with z = c / 8 and p = c % 8; inside a plane,
  y = p / 2 and x = (p % 2 + y) % 2, so that p = 2·y + (x + y) % 2 (the two devices of a row y are
  p = 2y and p = 2y + 1, and x alternates with the parity of y).
  Three families of peers: the partner (same z and y, the other x), the three rail peers (same z and x,
  y advanced by s = 1, 2, 3 modulo 4) and the three plane peers (same p, z advanced by s modulo 4).
-/
import Mathlib.Data.Fin.Basic
import Mathlib.Tactic.Linarith

namespace Cert.Mesh

/-- Plane coordinate z of device c. -/
def zc (c : Fin 32) : ℕ := c.val / 8
/-- Position p of device c inside its plane. -/
def pc (c : Fin 32) : ℕ := c.val % 8
/-- Row y of device c inside its plane. -/
def yc (c : Fin 32) : ℕ := c.val % 8 / 2
/-- Column x of device c inside its plane: the low bit of p, flipped on odd rows. -/
def xc (c : Fin 32) : ℕ := (c.val % 2 + c.val % 8 / 2) % 2
/-- The position inside a plane of column x, row y. -/
def pOf (x y : ℕ) : ℕ := 2 * y + (x + y) % 2

/-- The device of plane z, column x, row y (coordinates reduced into range). -/
def dev (z x y : ℕ) : Fin 32 := ⟨z % 4 * 8 + pOf (x % 2) (y % 4), by unfold pOf; omega⟩

/-- The partner: same plane and row, the other column. -/
def partner (c : Fin 32) : Fin 32 := dev (zc c) (xc c + 1) (yc c)
/-- Rail peer s: same plane and column, row advanced by s. -/
def rail (c : Fin 32) (s : ℕ) : Fin 32 := dev (zc c) (xc c) (yc c + s)
/-- Plane peer s: same position, plane advanced by s. -/
def zpeer (c : Fin 32) (s : ℕ) : Fin 32 := dev (zc c + s) (xc c) (yc c)

end Cert.Mesh
-- ==== Proof.SlotIdx.lean ====
/-
  Slot numbers of the 32-slot exchange buffers and semaphore arrays: slot 4·q + (v + s) % 4 belongs to
  column chunk q and to the coordinate v advanced by s (v a device's row y, or its plane z). With s = 0 it
  is the device's own slot of chunk q; s = 1, 2, 3 are the slots of the peers ahead of it, and 4 − s those
  of the peers behind it.
-/
import Mathlib.Data.Fin.Basic
import Mathlib.Tactic.Linarith

namespace Cert.Mesh

/-- Slot 4·q + (v + s) % 4 of a 32-slot buffer. -/
def slot (v : ℕ) (q : Fin 8) (s : ℕ) : Fin 32 := ⟨4 * q.val + (v + s) % 4, by omega⟩

theorem slot_val (v : ℕ) (q : Fin 8) (s : ℕ) : (slot v q s).val = 4 * q.val + (v + s) % 4 := rfl

/-- Two slots of one chunk and one base coordinate agree only at equal advances modulo 4. -/
theorem slot_inj_s (v : ℕ) (q : Fin 8) (s s' : ℕ) (h : slot v q s = slot v q s') : s % 4 = s' % 4 := by
  have := congrArg Fin.val h; simp only [slot_val] at this; omega

/-- Slots of different chunks differ. -/
theorem slot_ne_q (v v' : ℕ) (q q' : Fin 8) (s s' : ℕ) (h : q ≠ q') : slot v q s ≠ slot v' q' s' := by
  intro e; have := congrArg Fin.val e; simp only [slot_val] at this
  exact h (Fin.ext (by omega))

end Cert.Mesh
-- ==== Proof.MeshFacts.lean ====
/-
  Closed forms of the device chains and of the device-dependent offsets of the printed kernel over the
  4 × 4 × 2 box of the 32 devices, and the elementary facts about the three families of peers.
-/
import proofs.«900893_g7700000000000894_dist_matmul_mk_i_outk_m1024_n1024_k512_v7x_i32_f32_1_alg».proof.Proof.MeshDefs
import proofs.«900893_g7700000000000894_dist_matmul_mk_i_outk_m1024_n1024_k512_v7x_i32_f32_1_alg».proof.Proof.Gen.KernelIdeal

set_option Elab.async false

namespace Cert.KernelIdeal.MeshFacts

open Idealize.ShloMosaic Idealize.SL.Sem
open Cert.KernelIdeal Cert.KernelIdeal.Facts₀
open Cert.Mesh (partner rail zpeer zc pc yc xc pOf dev)

/-! ## The device chains

Each chain is a function of the device alone, so its closed form is checked on the 32 devices. -/

theorem dev1_val : ∀ c : Dev nD, k0_dev1 c = (partner c).val := by decide +kernel
theorem dev2_val : ∀ c : Dev nD, k0_dev2 c = (rail c 1).val := by decide +kernel
theorem dev3_val : ∀ c : Dev nD, k0_dev3 c = (rail c 2).val := by decide +kernel
theorem dev4_val : ∀ c : Dev nD, k0_dev4 c = (rail c 3).val := by decide +kernel
theorem dev5_val : ∀ c : Dev nD, k0_dev5 c = (zpeer c 1).val := by decide +kernel
theorem dev6_val : ∀ c : Dev nD, k0_dev6 c = (zpeer c 2).val := by decide +kernel
theorem dev7_val : ∀ c : Dev nD, k0_dev7 c = (zpeer c 3).val := by decide +kernel
theorem dev8_val : ∀ c : Dev nD, k0_dev8 c = (partner c).val := by decide +kernel
theorem dev9_val : ∀ c : Dev nD, k0_dev9 c = (partner c).val := by decide +kernel
theorem dev10_val : ∀ c : Dev nD, k0_dev10 c = (partner c).val := by decide +kernel
theorem dev11_val : ∀ c : Dev nD, k0_dev11 c = (partner c).val := by decide +kernel
theorem dev12_val : ∀ c : Dev nD, k0_dev12 c = (partner c).val := by decide +kernel
theorem dev13_val : ∀ c : Dev nD, k0_dev13 c = (partner c).val := by decide +kernel
theorem dev14_val : ∀ c : Dev nD, k0_dev14 c = (partner c).val := by decide +kernel
theorem dev15_val : ∀ c : Dev nD, k0_dev15 c = (partner c).val := by decide +kernel
theorem dev16_val : ∀ c : Dev nD, k0_dev16 c = (rail c 1).val := by decide +kernel
theorem dev17_val : ∀ c : Dev nD, k0_dev17 c = (rail c 2).val := by decide +kernel
theorem dev18_val : ∀ c : Dev nD, k0_dev18 c = (rail c 3).val := by decide +kernel
theorem dev19_val : ∀ c : Dev nD, k0_dev19 c = (rail c 1).val := by decide +kernel
theorem dev20_val : ∀ c : Dev nD, k0_dev20 c = (rail c 2).val := by decide +kernel
theorem dev21_val : ∀ c : Dev nD, k0_dev21 c = (rail c 3).val := by decide +kernel
theorem dev22_val : ∀ c : Dev nD, k0_dev22 c = (rail c 1).val := by decide +kernel
theorem dev23_val : ∀ c : Dev nD, k0_dev23 c = (rail c 2).val := by decide +kernel
theorem dev24_val : ∀ c : Dev nD, k0_dev24 c = (rail c 3).val := by decide +kernel
theorem dev25_val : ∀ c : Dev nD, k0_dev25 c = (rail c 1).val := by decide +kernel
theorem dev26_val : ∀ c : Dev nD, k0_dev26 c = (rail c 2).val := by decide +kernel
theorem dev27_val : ∀ c : Dev nD, k0_dev27 c = (rail c 3).val := by decide +kernel
theorem dev28_val : ∀ c : Dev nD, k0_dev28 c = (rail c 1).val := by decide +kernel
theorem dev29_val : ∀ c : Dev nD, k0_dev29 c = (rail c 2).val := by decide +kernel
theorem dev30_val : ∀ c : Dev nD, k0_dev30 c = (rail c 3).val := by decide +kernel
theorem dev31_val : ∀ c : Dev nD, k0_dev31 c = (rail c 1).val := by decide +kernel
theorem dev32_val : ∀ c : Dev nD, k0_dev32 c = (rail c 2).val := by decide +kernel
theorem dev33_val : ∀ c : Dev nD, k0_dev33 c = (rail c 3).val := by decide +kernel
theorem dev34_val : ∀ c : Dev nD, k0_dev34 c = (rail c 1).val := by decide +kernel
theorem dev35_val : ∀ c : Dev nD, k0_dev35 c = (rail c 2).val := by decide +kernel
theorem dev36_val : ∀ c : Dev nD, k0_dev36 c = (rail c 3).val := by decide +kernel
theorem dev37_val : ∀ c : Dev nD, k0_dev37 c = (rail c 1).val := by decide +kernel
theorem dev38_val : ∀ c : Dev nD, k0_dev38 c = (rail c 2).val := by decide +kernel
theorem dev39_val : ∀ c : Dev nD, k0_dev39 c = (rail c 3).val := by decide +kernel
theorem dev40_val : ∀ c : Dev nD, k0_dev40 c = (zpeer c 1).val := by decide +kernel
theorem dev41_val : ∀ c : Dev nD, k0_dev41 c = (zpeer c 2).val := by decide +kernel
theorem dev42_val : ∀ c : Dev nD, k0_dev42 c = (zpeer c 3).val := by decide +kernel
theorem dev43_val : ∀ c : Dev nD, k0_dev43 c = (zpeer c 1).val := by decide +kernel
theorem dev44_val : ∀ c : Dev nD, k0_dev44 c = (zpeer c 2).val := by decide +kernel
theorem dev45_val : ∀ c : Dev nD, k0_dev45 c = (zpeer c 3).val := by decide +kernel
theorem dev46_val : ∀ c : Dev nD, k0_dev46 c = (zpeer c 1).val := by decide +kernel
theorem dev47_val : ∀ c : Dev nD, k0_dev47 c = (zpeer c 2).val := by decide +kernel
theorem dev48_val : ∀ c : Dev nD, k0_dev48 c = (zpeer c 3).val := by decide +kernel
theorem dev49_val : ∀ c : Dev nD, k0_dev49 c = (zpeer c 1).val := by decide +kernel
theorem dev50_val : ∀ c : Dev nD, k0_dev50 c = (zpeer c 2).val := by decide +kernel
theorem dev51_val : ∀ c : Dev nD, k0_dev51 c = (zpeer c 3).val := by decide +kernel
theorem dev52_val : ∀ c : Dev nD, k0_dev52 c = (zpeer c 1).val := by decide +kernel
theorem dev53_val : ∀ c : Dev nD, k0_dev53 c = (zpeer c 2).val := by decide +kernel
theorem dev54_val : ∀ c : Dev nD, k0_dev54 c = (zpeer c 3).val := by decide +kernel
theorem dev55_val : ∀ c : Dev nD, k0_dev55 c = (zpeer c 1).val := by decide +kernel
theorem dev56_val : ∀ c : Dev nD, k0_dev56 c = (zpeer c 2).val := by decide +kernel
theorem dev57_val : ∀ c : Dev nD, k0_dev57 c = (zpeer c 3).val := by decide +kernel
theorem dev58_val : ∀ c : Dev nD, k0_dev58 c = (zpeer c 1).val := by decide +kernel
theorem dev59_val : ∀ c : Dev nD, k0_dev59 c = (zpeer c 2).val := by decide +kernel
theorem dev60_val : ∀ c : Dev nD, k0_dev60 c = (zpeer c 3).val := by decide +kernel
theorem dev61_val : ∀ c : Dev nD, k0_dev61 c = (zpeer c 1).val := by decide +kernel
theorem dev62_val : ∀ c : Dev nD, k0_dev62 c = (zpeer c 2).val := by decide +kernel
theorem dev63_val : ∀ c : Dev nD, k0_dev63 c = (zpeer c 3).val := by decide +kernel

theorem dev1_eq [Facts₀] (c : Dev nD) : (⟨k0_dev1 c, k0_dev1_lt c⟩ : Dev nD) = partner c :=
  Fin.ext (dev1_val c)
theorem dev2_eq [Facts₀] (c : Dev nD) : (⟨k0_dev2 c, k0_dev2_lt c⟩ : Dev nD) = rail c 1 :=
  Fin.ext (dev2_val c)
theorem dev3_eq [Facts₀] (c : Dev nD) : (⟨k0_dev3 c, k0_dev3_lt c⟩ : Dev nD) = rail c 2 :=
  Fin.ext (dev3_val c)
theorem dev4_eq [Facts₀] (c : Dev nD) : (⟨k0_dev4 c, k0_dev4_lt c⟩ : Dev nD) = rail c 3 :=
  Fin.ext (dev4_val c)
theorem dev5_eq [Facts₀] (c : Dev nD) : (⟨k0_dev5 c, k0_dev5_lt c⟩ : Dev nD) = zpeer c 1 :=
  Fin.ext (dev5_val c)
theorem dev6_eq [Facts₀] (c : Dev nD) : (⟨k0_dev6 c, k0_dev6_lt c⟩ : Dev nD) = zpeer c 2 :=
  Fin.ext (dev6_val c)
theorem dev7_eq [Facts₀] (c : Dev nD) : (⟨k0_dev7 c, k0_dev7_lt c⟩ : Dev nD) = zpeer c 3 :=
  Fin.ext (dev7_val c)
theorem dev8_eq [Facts₀] (c : Dev nD) : (⟨k0_dev8 c, k0_dev8_lt c⟩ : Dev nD) = partner c :=
  Fin.ext (dev8_val c)
theorem dev9_eq [Facts₀] (c : Dev nD) : (⟨k0_dev9 c, k0_dev9_lt c⟩ : Dev nD) = partner c :=
  Fin.ext (dev9_val c)
theorem dev10_eq [Facts₀] (c : Dev nD) : (⟨k0_dev10 c, k0_dev10_lt c⟩ : Dev nD) = partner c :=
  Fin.ext (dev10_val c)
theorem dev11_eq [Facts₀] (c : Dev nD) : (⟨k0_dev11 c, k0_dev11_lt c⟩ : Dev nD) = partner c :=
  Fin.ext (dev11_val c)
theorem dev12_eq [Facts₀] (c : Dev nD) : (⟨k0_dev12 c, k0_dev12_lt c⟩ : Dev nD) = partner c :=
  Fin.ext (dev12_val c)
theorem dev13_eq [Facts₀] (c : Dev nD) : (⟨k0_dev13 c, k0_dev13_lt c⟩ : Dev nD) = partner c :=
  Fin.ext (dev13_val c)
theorem dev14_eq [Facts₀] (c : Dev nD) : (⟨k0_dev14 c, k0_dev14_lt c⟩ : Dev nD) = partner c :=
  Fin.ext (dev14_val c)
theorem dev15_eq [Facts₀] (c : Dev nD) : (⟨k0_dev15 c, k0_dev15_lt c⟩ : Dev nD) = partner c :=
  Fin.ext (dev15_val c)
theorem dev16_eq [Facts₀] (c : Dev nD) : (⟨k0_dev16 c, k0_dev16_lt c⟩ : Dev nD) = rail c 1 :=
  Fin.ext (dev16_val c)
theorem dev17_eq [Facts₀] (c : Dev nD) : (⟨k0_dev17 c, k0_dev17_lt c⟩ : Dev nD) = rail c 2 :=
  Fin.ext (dev17_val c)
theorem dev18_eq [Facts₀] (c : Dev nD) : (⟨k0_dev18 c, k0_dev18_lt c⟩ : Dev nD) = rail c 3 :=
  Fin.ext (dev18_val c)
theorem dev19_eq [Facts₀] (c : Dev nD) : (⟨k0_dev19 c, k0_dev19_lt c⟩ : Dev nD) = rail c 1 :=
  Fin.ext (dev19_val c)
theorem dev20_eq [Facts₀] (c : Dev nD) : (⟨k0_dev20 c, k0_dev20_lt c⟩ : Dev nD) = rail c 2 :=
  Fin.ext (dev20_val c)
theorem dev21_eq [Facts₀] (c : Dev nD) : (⟨k0_dev21 c, k0_dev21_lt c⟩ : Dev nD) = rail c 3 :=
  Fin.ext (dev21_val c)
theorem dev22_eq [Facts₀] (c : Dev nD) : (⟨k0_dev22 c, k0_dev22_lt c⟩ : Dev nD) = rail c 1 :=
  Fin.ext (dev22_val c)
theorem dev23_eq [Facts₀] (c : Dev nD) : (⟨k0_dev23 c, k0_dev23_lt c⟩ : Dev nD) = rail c 2 :=
  Fin.ext (dev23_val c)
theorem dev24_eq [Facts₀] (c : Dev nD) : (⟨k0_dev24 c, k0_dev24_lt c⟩ : Dev nD) = rail c 3 :=
  Fin.ext (dev24_val c)
theorem dev25_eq [Facts₀] (c : Dev nD) : (⟨k0_dev25 c, k0_dev25_lt c⟩ : Dev nD) = rail c 1 :=
  Fin.ext (dev25_val c)
theorem dev26_eq [Facts₀] (c : Dev nD) : (⟨k0_dev26 c, k0_dev26_lt c⟩ : Dev nD) = rail c 2 :=
  Fin.ext (dev26_val c)
theorem dev27_eq [Facts₀] (c : Dev nD) : (⟨k0_dev27 c, k0_dev27_lt c⟩ : Dev nD) = rail c 3 :=
  Fin.ext (dev27_val c)
theorem dev28_eq [Facts₀] (c : Dev nD) : (⟨k0_dev28 c, k0_dev28_lt c⟩ : Dev nD) = rail c 1 :=
  Fin.ext (dev28_val c)
theorem dev29_eq [Facts₀] (c : Dev nD) : (⟨k0_dev29 c, k0_dev29_lt c⟩ : Dev nD) = rail c 2 :=
  Fin.ext (dev29_val c)
theorem dev30_eq [Facts₀] (c : Dev nD) : (⟨k0_dev30 c, k0_dev30_lt c⟩ : Dev nD) = rail c 3 :=
  Fin.ext (dev30_val c)
theorem dev31_eq [Facts₀] (c : Dev nD) : (⟨k0_dev31 c, k0_dev31_lt c⟩ : Dev nD) = rail c 1 :=
  Fin.ext (dev31_val c)
theorem dev32_eq [Facts₀] (c : Dev nD) : (⟨k0_dev32 c, k0_dev32_lt c⟩ : Dev nD) = rail c 2 :=
  Fin.ext (dev32_val c)
theorem dev33_eq [Facts₀] (c : Dev nD) : (⟨k0_dev33 c, k0_dev33_lt c⟩ : Dev nD) = rail c 3 :=
  Fin.ext (dev33_val c)
theorem dev34_eq [Facts₀] (c : Dev nD) : (⟨k0_dev34 c, k0_dev34_lt c⟩ : Dev nD) = rail c 1 :=
  Fin.ext (dev34_val c)
theorem dev35_eq [Facts₀] (c : Dev nD) : (⟨k0_dev35 c, k0_dev35_lt c⟩ : Dev nD) = rail c 2 :=
  Fin.ext (dev35_val c)
theorem dev36_eq [Facts₀] (c : Dev nD) : (⟨k0_dev36 c, k0_dev36_lt c⟩ : Dev nD) = rail c 3 :=
  Fin.ext (dev36_val c)
theorem dev37_eq [Facts₀] (c : Dev nD) : (⟨k0_dev37 c, k0_dev37_lt c⟩ : Dev nD) = rail c 1 :=
  Fin.ext (dev37_val c)
theorem dev38_eq [Facts₀] (c : Dev nD) : (⟨k0_dev38 c, k0_dev38_lt c⟩ : Dev nD) = rail c 2 :=
  Fin.ext (dev38_val c)
theorem dev39_eq [Facts₀] (c : Dev nD) : (⟨k0_dev39 c, k0_dev39_lt c⟩ : Dev nD) = rail c 3 :=
  Fin.ext (dev39_val c)
theorem dev40_eq [Facts₀] (c : Dev nD) : (⟨k0_dev40 c, k0_dev40_lt c⟩ : Dev nD) = zpeer c 1 :=
  Fin.ext (dev40_val c)
theorem dev41_eq [Facts₀] (c : Dev nD) : (⟨k0_dev41 c, k0_dev41_lt c⟩ : Dev nD) = zpeer c 2 :=
  Fin.ext (dev41_val c)
theorem dev42_eq [Facts₀] (c : Dev nD) : (⟨k0_dev42 c, k0_dev42_lt c⟩ : Dev nD) = zpeer c 3 :=
  Fin.ext (dev42_val c)
theorem dev43_eq [Facts₀] (c : Dev nD) : (⟨k0_dev43 c, k0_dev43_lt c⟩ : Dev nD) = zpeer c 1 :=
  Fin.ext (dev43_val c)
theorem dev44_eq [Facts₀] (c : Dev nD) : (⟨k0_dev44 c, k0_dev44_lt c⟩ : Dev nD) = zpeer c 2 :=
  Fin.ext (dev44_val c)
theorem dev45_eq [Facts₀] (c : Dev nD) : (⟨k0_dev45 c, k0_dev45_lt c⟩ : Dev nD) = zpeer c 3 :=
  Fin.ext (dev45_val c)
theorem dev46_eq [Facts₀] (c : Dev nD) : (⟨k0_dev46 c, k0_dev46_lt c⟩ : Dev nD) = zpeer c 1 :=
  Fin.ext (dev46_val c)
theorem dev47_eq [Facts₀] (c : Dev nD) : (⟨k0_dev47 c, k0_dev47_lt c⟩ : Dev nD) = zpeer c 2 :=
  Fin.ext (dev47_val c)
theorem dev48_eq [Facts₀] (c : Dev nD) : (⟨k0_dev48 c, k0_dev48_lt c⟩ : Dev nD) = zpeer c 3 :=
  Fin.ext (dev48_val c)
theorem dev49_eq [Facts₀] (c : Dev nD) : (⟨k0_dev49 c, k0_dev49_lt c⟩ : Dev nD) = zpeer c 1 :=
  Fin.ext (dev49_val c)
theorem dev50_eq [Facts₀] (c : Dev nD) : (⟨k0_dev50 c, k0_dev50_lt c⟩ : Dev nD) = zpeer c 2 :=
  Fin.ext (dev50_val c)
theorem dev51_eq [Facts₀] (c : Dev nD) : (⟨k0_dev51 c, k0_dev51_lt c⟩ : Dev nD) = zpeer c 3 :=
  Fin.ext (dev51_val c)
theorem dev52_eq [Facts₀] (c : Dev nD) : (⟨k0_dev52 c, k0_dev52_lt c⟩ : Dev nD) = zpeer c 1 :=
  Fin.ext (dev52_val c)
theorem dev53_eq [Facts₀] (c : Dev nD) : (⟨k0_dev53 c, k0_dev53_lt c⟩ : Dev nD) = zpeer c 2 :=
  Fin.ext (dev53_val c)
theorem dev54_eq [Facts₀] (c : Dev nD) : (⟨k0_dev54 c, k0_dev54_lt c⟩ : Dev nD) = zpeer c 3 :=
  Fin.ext (dev54_val c)
theorem dev55_eq [Facts₀] (c : Dev nD) : (⟨k0_dev55 c, k0_dev55_lt c⟩ : Dev nD) = zpeer c 1 :=
  Fin.ext (dev55_val c)
theorem dev56_eq [Facts₀] (c : Dev nD) : (⟨k0_dev56 c, k0_dev56_lt c⟩ : Dev nD) = zpeer c 2 :=
  Fin.ext (dev56_val c)
theorem dev57_eq [Facts₀] (c : Dev nD) : (⟨k0_dev57 c, k0_dev57_lt c⟩ : Dev nD) = zpeer c 3 :=
  Fin.ext (dev57_val c)
theorem dev58_eq [Facts₀] (c : Dev nD) : (⟨k0_dev58 c, k0_dev58_lt c⟩ : Dev nD) = zpeer c 1 :=
  Fin.ext (dev58_val c)
theorem dev59_eq [Facts₀] (c : Dev nD) : (⟨k0_dev59 c, k0_dev59_lt c⟩ : Dev nD) = zpeer c 2 :=
  Fin.ext (dev59_val c)
theorem dev60_eq [Facts₀] (c : Dev nD) : (⟨k0_dev60 c, k0_dev60_lt c⟩ : Dev nD) = zpeer c 3 :=
  Fin.ext (dev60_val c)
theorem dev61_eq [Facts₀] (c : Dev nD) : (⟨k0_dev61 c, k0_dev61_lt c⟩ : Dev nD) = zpeer c 1 :=
  Fin.ext (dev61_val c)
theorem dev62_eq [Facts₀] (c : Dev nD) : (⟨k0_dev62 c, k0_dev62_lt c⟩ : Dev nD) = zpeer c 2 :=
  Fin.ext (dev62_val c)
theorem dev63_eq [Facts₀] (c : Dev nD) : (⟨k0_dev63 c, k0_dev63_lt c⟩ : Dev nD) = zpeer c 3 :=
  Fin.ext (dev63_val c)

/-! ## The device-dependent offsets

Each offset is a function of the device and of one or two small parameters, so its closed form is
checked at every device, every parameter and every axis. -/

theorem off1_pt : ∀ c : Dev nD, ∀ r : Fin 16, ∀ a,
    k0_off1 c (k0_off1_at r).1 (k0_off1_at r).2.1 (k0_off1_at r).2.2 a
      = (![r.val % 4 * 256 + pOf (1 - xc c) (r.val / 4) * 32, 0] : Fin 2 → Nat) a := by decide +kernel
/-- Side 0: block `r = 4·y + zo` is read at row `256·zo + 32·p` with `p` the position of the other column on row `y`. -/
theorem off1_eq (c : Dev nD) (r : Fin 16) :
    k0_off1 c (k0_off1_at r).1 (k0_off1_at r).2.1 (k0_off1_at r).2.2
      = ![r.val % 4 * 256 + pOf (1 - xc c) (r.val / 4) * 32, 0] := funext (off1_pt c r)

theorem off2_pt : ∀ c : Dev nD, ∀ r : Fin 16, ∀ a,
    k0_off2 c (k0_off2_at r).1 (k0_off2_at r).2.1 (k0_off2_at r).2.2 a
      = (![r.val % 4 * 256 + pOf (xc c) (r.val / 4) * 32, 0] : Fin 2 → Nat) a := by decide +kernel
/-- Side 1: block `r = 4·y + zo` is read at row `256·zo + 32·p` with `p` the position of the device's own column on row `y`. -/
theorem off2_eq (c : Dev nD) (r : Fin 16) :
    k0_off2 c (k0_off2_at r).1 (k0_off2_at r).2.1 (k0_off2_at r).2.2
      = ![r.val % 4 * 256 + pOf (xc c) (r.val / 4) * 32, 0] := funext (off2_pt c r)

theorem off3_pt : ∀ c : Dev nD, ∀ (r₁ : Fin 8) (r₂ : Fin 3), ∀ a,
    k0_off3 c (BitVec.ofNat 32 (4 * r₁.val)) (BitVec.ofNat 32 (1 + r₂.val)) a
      = (![4 * r₁.val + (yc c + (1 + r₂.val)) % 4] : Fin 1 → Nat) a := by decide +kernel
theorem off3_eq (c : Dev nD) (r₁ : Fin 8) (r₂ : Fin 3) :
    k0_off3 c (BitVec.ofNat 32 (4 * r₁.val)) (BitVec.ofNat 32 (1 + r₂.val))
      = ![4 * r₁.val + (yc c + (1 + r₂.val)) % 4] := funext (off3_pt c r₁ r₂)

theorem off4_pt : ∀ c : Dev nD, ∀ (r : Fin 8), ∀ a,
    k0_off4 c (BitVec.ofNat 32 (4 * r.val)) a
      = (![4 * r.val + yc c] : Fin 1 → Nat) a := by decide +kernel
theorem off4_eq (c : Dev nD) (r : Fin 8) :
    k0_off4 c (BitVec.ofNat 32 (4 * r.val))
      = ![4 * r.val + yc c] := funext (off4_pt c r)

theorem off5_pt : ∀ c : Dev nD, ∀ (r : Fin 8), ∀ a,
    k0_off5 c (BitVec.ofNat 32 (4 * r.val)) a
      = (![4 * r.val + yc c, 0, 0, 0] : Fin 4 → Nat) a := by decide +kernel
theorem off5_eq (c : Dev nD) (r : Fin 8) :
    k0_off5 c (BitVec.ofNat 32 (4 * r.val))
      = ![4 * r.val + yc c, 0, 0, 0] := funext (off5_pt c r)

theorem off6_pt : ∀ c : Dev nD, ∀ (r₁ : Fin 8) (r₂ : Fin 3), ∀ a,
    k0_off6 c (BitVec.ofNat 32 (4 * r₁.val)) (BitVec.ofNat 32 (1 + r₂.val)) a
      = (![4 * r₁.val + (yc c + (1 + r₂.val)) % 4, 0, 0, 0] : Fin 4 → Nat) a := by decide +kernel
theorem off6_eq (c : Dev nD) (r₁ : Fin 8) (r₂ : Fin 3) :
    k0_off6 c (BitVec.ofNat 32 (4 * r₁.val)) (BitVec.ofNat 32 (1 + r₂.val))
      = ![4 * r₁.val + (yc c + (1 + r₂.val)) % 4, 0, 0, 0] := funext (off6_pt c r₁ r₂)

theorem off7_pt : ∀ c : Dev nD, ∀ (r : Fin 8), ∀ a,
    k0_off7 c (BitVec.ofNat 32 (4 * r.val)) a
      = (![4 * r.val + yc c, 0, 0, 0] : Fin 4 → Nat) a := by decide +kernel
theorem off7_eq (c : Dev nD) (r : Fin 8) :
    k0_off7 c (BitVec.ofNat 32 (4 * r.val))
      = ![4 * r.val + yc c, 0, 0, 0] := funext (off7_pt c r)

theorem off8_pt : ∀ c : Dev nD, ∀ (r₁ : Fin 8) (r₂ : Fin 3), ∀ a,
    k0_off8 c (BitVec.ofNat 32 (4 * r₁.val)) (BitVec.ofNat 32 (1 + r₂.val)) a
      = (![4 * r₁.val + (yc c + 4 - (1 + r₂.val)) % 4] : Fin 1 → Nat) a := by decide +kernel
theorem off8_eq (c : Dev nD) (r₁ : Fin 8) (r₂ : Fin 3) :
    k0_off8 c (BitVec.ofNat 32 (4 * r₁.val)) (BitVec.ofNat 32 (1 + r₂.val))
      = ![4 * r₁.val + (yc c + 4 - (1 + r₂.val)) % 4] := funext (off8_pt c r₁ r₂)

theorem off9_pt : ∀ c : Dev nD, ∀ (r₁ : Fin 8) (r₂ : Fin 3), ∀ a,
    k0_off9 c (BitVec.ofNat 32 (4 * r₁.val)) (BitVec.ofNat 32 (1 + r₂.val)) a
      = (![4 * r₁.val + (yc c + 4 - (1 + r₂.val)) % 4, 0, 0, 0] : Fin 4 → Nat) a := by decide +kernel
theorem off9_eq (c : Dev nD) (r₁ : Fin 8) (r₂ : Fin 3) :
    k0_off9 c (BitVec.ofNat 32 (4 * r₁.val)) (BitVec.ofNat 32 (1 + r₂.val))
      = ![4 * r₁.val + (yc c + 4 - (1 + r₂.val)) % 4, 0, 0, 0] := funext (off9_pt c r₁ r₂)

theorem off10_pt : ∀ c : Dev nD, ∀ (r₁ : Fin 8) (r₂ : Fin 3), ∀ a,
    k0_off10 c (BitVec.ofNat 32 (4 * r₁.val)) (BitVec.ofNat 32 (1 + r₂.val)) a
      = (![4 * r₁.val + (yc c + 4 - (1 + r₂.val)) % 4, 0, 0, 0] : Fin 4 → Nat) a := by decide +kernel
theorem off10_eq (c : Dev nD) (r₁ : Fin 8) (r₂ : Fin 3) :
    k0_off10 c (BitVec.ofNat 32 (4 * r₁.val)) (BitVec.ofNat 32 (1 + r₂.val))
      = ![4 * r₁.val + (yc c + 4 - (1 + r₂.val)) % 4, 0, 0, 0] := funext (off10_pt c r₁ r₂)

theorem off11_pt : ∀ c : Dev nD, ∀ (r₁ : Fin 8) (r₂ : Fin 3), ∀ a,
    k0_off11 c (BitVec.ofNat 32 (4 * r₁.val)) (BitVec.ofNat 32 (1 + r₂.val)) a
      = (![4 * r₁.val + (zc c + (1 + r₂.val)) % 4] : Fin 1 → Nat) a := by decide +kernel
theorem off11_eq (c : Dev nD) (r₁ : Fin 8) (r₂ : Fin 3) :
    k0_off11 c (BitVec.ofNat 32 (4 * r₁.val)) (BitVec.ofNat 32 (1 + r₂.val))
      = ![4 * r₁.val + (zc c + (1 + r₂.val)) % 4] := funext (off11_pt c r₁ r₂)

theorem off12_pt : ∀ c : Dev nD, ∀ (r : Fin 8), ∀ a,
    k0_off12 c (BitVec.ofNat 32 (4 * r.val)) a
      = (![4 * r.val + zc c] : Fin 1 → Nat) a := by decide +kernel
theorem off12_eq (c : Dev nD) (r : Fin 8) :
    k0_off12 c (BitVec.ofNat 32 (4 * r.val))
      = ![4 * r.val + zc c] := funext (off12_pt c r)

theorem off13_pt : ∀ c : Dev nD, ∀ (r : Fin 8), ∀ a,
    k0_off13 c (BitVec.ofNat 32 (4 * r.val)) a
      = (![4 * r.val + zc c, 0, 0] : Fin 3 → Nat) a := by decide +kernel
theorem off13_eq (c : Dev nD) (r : Fin 8) :
    k0_off13 c (BitVec.ofNat 32 (4 * r.val))
      = ![4 * r.val + zc c, 0, 0] := funext (off13_pt c r)

theorem off14_pt : ∀ c : Dev nD, ∀ (r₁ : Fin 8) (r₂ : Fin 3), ∀ a,
    k0_off14 c (BitVec.ofNat 32 (4 * r₁.val)) (BitVec.ofNat 32 (1 + r₂.val)) a
      = (![4 * r₁.val + (zc c + (1 + r₂.val)) % 4, 0, 0] : Fin 3 → Nat) a := by decide +kernel
theorem off14_eq (c : Dev nD) (r₁ : Fin 8) (r₂ : Fin 3) :
    k0_off14 c (BitVec.ofNat 32 (4 * r₁.val)) (BitVec.ofNat 32 (1 + r₂.val))
      = ![4 * r₁.val + (zc c + (1 + r₂.val)) % 4, 0, 0] := funext (off14_pt c r₁ r₂)

theorem off15_pt : ∀ c : Dev nD, ∀ (r : Fin 8), ∀ a,
    k0_off15 c (BitVec.ofNat 32 (4 * r.val)) a
      = (![4 * r.val + zc c, 0, 0] : Fin 3 → Nat) a := by decide +kernel
theorem off15_eq (c : Dev nD) (r : Fin 8) :
    k0_off15 c (BitVec.ofNat 32 (4 * r.val))
      = ![4 * r.val + zc c, 0, 0] := funext (off15_pt c r)

theorem off16_pt : ∀ c : Dev nD, ∀ (r₁ : Fin 8) (r₂ : Fin 3), ∀ a,
    k0_off16 c (BitVec.ofNat 32 (4 * r₁.val)) (BitVec.ofNat 32 (1 + r₂.val)) a
      = (![4 * r₁.val + (zc c + 4 - (1 + r₂.val)) % 4] : Fin 1 → Nat) a := by decide +kernel
theorem off16_eq (c : Dev nD) (r₁ : Fin 8) (r₂ : Fin 3) :
    k0_off16 c (BitVec.ofNat 32 (4 * r₁.val)) (BitVec.ofNat 32 (1 + r₂.val))
      = ![4 * r₁.val + (zc c + 4 - (1 + r₂.val)) % 4] := funext (off16_pt c r₁ r₂)

theorem off17_pt : ∀ c : Dev nD, ∀ (r₁ : Fin 8) (r₂ : Fin 3), ∀ a,
    k0_off17 c (BitVec.ofNat 32 (4 * r₁.val)) (BitVec.ofNat 32 (1 + r₂.val)) a
      = (![4 * r₁.val + (zc c + 4 - (1 + r₂.val)) % 4, 0, 0] : Fin 3 → Nat) a := by decide +kernel
theorem off17_eq (c : Dev nD) (r₁ : Fin 8) (r₂ : Fin 3) :
    k0_off17 c (BitVec.ofNat 32 (4 * r₁.val)) (BitVec.ofNat 32 (1 + r₂.val))
      = ![4 * r₁.val + (zc c + 4 - (1 + r₂.val)) % 4, 0, 0] := funext (off17_pt c r₁ r₂)

theorem off18_pt : ∀ c : Dev nD, ∀ (r₁ : Fin 8) (r₂ : Fin 3), ∀ a,
    k0_off18 c (BitVec.ofNat 32 (4 * r₁.val)) (BitVec.ofNat 32 (1 + r₂.val)) a
      = (![4 * r₁.val + (zc c + 4 - (1 + r₂.val)) % 4, 0, 0] : Fin 3 → Nat) a := by decide +kernel
theorem off18_eq (c : Dev nD) (r₁ : Fin 8) (r₂ : Fin 3) :
    k0_off18 c (BitVec.ofNat 32 (4 * r₁.val)) (BitVec.ofNat 32 (1 + r₂.val))
      = ![4 * r₁.val + (zc c + 4 - (1 + r₂.val)) % 4, 0, 0] := funext (off18_pt c r₁ r₂)

/-! ### The same closed forms, for parameters given as words

The parameters of an offset may be spelt as literal words; each form below takes the words together with
the equations identifying them, which hold by computation. -/

theorem off1_at (c : Dev nD) (a b d : BitVec 32) (r : Fin 16) (h : k0_off1_at r = (a, b, d)) :
    k0_off1 c a b d = ![r.val % 4 * 256 + pOf (1 - xc c) (r.val / 4) * 32, 0] := by
  have := off1_eq c r
  rw [h] at this
  exact this

theorem off2_at (c : Dev nD) (a b d : BitVec 32) (r : Fin 16) (h : k0_off2_at r = (a, b, d)) :
    k0_off2 c a b d = ![r.val % 4 * 256 + pOf (xc c) (r.val / 4) * 32, 0] := by
  have := off2_eq c r
  rw [h] at this
  exact this

theorem off3_at (c : Dev nD) (a b : BitVec 32) (r₁ : Fin 8) (r₂ : Fin 3)
    (ha : a = BitVec.ofNat 32 (4 * r₁.val)) (hb : b = BitVec.ofNat 32 (1 + r₂.val)) :
    k0_off3 c a b = ![4 * r₁.val + (yc c + (1 + r₂.val)) % 4] := by
  subst ha hb; exact off3_eq c r₁ r₂

theorem off4_at (c : Dev nD) (a : BitVec 32) (r : Fin 8) (ha : a = BitVec.ofNat 32 (4 * r.val)) :
    k0_off4 c a = ![4 * r.val + yc c] := by
  subst ha; exact off4_eq c r

theorem off5_at (c : Dev nD) (a : BitVec 32) (r : Fin 8) (ha : a = BitVec.ofNat 32 (4 * r.val)) :
    k0_off5 c a = ![4 * r.val + yc c, 0, 0, 0] := by
  subst ha; exact off5_eq c r

theorem off6_at (c : Dev nD) (a b : BitVec 32) (r₁ : Fin 8) (r₂ : Fin 3)
    (ha : a = BitVec.ofNat 32 (4 * r₁.val)) (hb : b = BitVec.ofNat 32 (1 + r₂.val)) :
    k0_off6 c a b = ![4 * r₁.val + (yc c + (1 + r₂.val)) % 4, 0, 0, 0] := by
  subst ha hb; exact off6_eq c r₁ r₂

theorem off7_at (c : Dev nD) (a : BitVec 32) (r : Fin 8) (ha : a = BitVec.ofNat 32 (4 * r.val)) :
    k0_off7 c a = ![4 * r.val + yc c, 0, 0, 0] := by
  subst ha; exact off7_eq c r

theorem off8_at (c : Dev nD) (a b : BitVec 32) (r₁ : Fin 8) (r₂ : Fin 3)
    (ha : a = BitVec.ofNat 32 (4 * r₁.val)) (hb : b = BitVec.ofNat 32 (1 + r₂.val)) :
    k0_off8 c a b = ![4 * r₁.val + (yc c + 4 - (1 + r₂.val)) % 4] := by
  subst ha hb; exact off8_eq c r₁ r₂

theorem off9_at (c : Dev nD) (a b : BitVec 32) (r₁ : Fin 8) (r₂ : Fin 3)
    (ha : a = BitVec.ofNat 32 (4 * r₁.val)) (hb : b = BitVec.ofNat 32 (1 + r₂.val)) :
    k0_off9 c a b = ![4 * r₁.val + (yc c + 4 - (1 + r₂.val)) % 4, 0, 0, 0] := by
  subst ha hb; exact off9_eq c r₁ r₂

theorem off10_at (c : Dev nD) (a b : BitVec 32) (r₁ : Fin 8) (r₂ : Fin 3)
    (ha : a = BitVec.ofNat 32 (4 * r₁.val)) (hb : b = BitVec.ofNat 32 (1 + r₂.val)) :
    k0_off10 c a b = ![4 * r₁.val + (yc c + 4 - (1 + r₂.val)) % 4, 0, 0, 0] := by
  subst ha hb; exact off10_eq c r₁ r₂

theorem off11_at (c : Dev nD) (a b : BitVec 32) (r₁ : Fin 8) (r₂ : Fin 3)
    (ha : a = BitVec.ofNat 32 (4 * r₁.val)) (hb : b = BitVec.ofNat 32 (1 + r₂.val)) :
    k0_off11 c a b = ![4 * r₁.val + (zc c + (1 + r₂.val)) % 4] := by
  subst ha hb; exact off11_eq c r₁ r₂

theorem off12_at (c : Dev nD) (a : BitVec 32) (r : Fin 8) (ha : a = BitVec.ofNat 32 (4 * r.val)) :
    k0_off12 c a = ![4 * r.val + zc c] := by
  subst ha; exact off12_eq c r

theorem off13_at (c : Dev nD) (a : BitVec 32) (r : Fin 8) (ha : a = BitVec.ofNat 32 (4 * r.val)) :
    k0_off13 c a = ![4 * r.val + zc c, 0, 0] := by
  subst ha; exact off13_eq c r

theorem off14_at (c : Dev nD) (a b : BitVec 32) (r₁ : Fin 8) (r₂ : Fin 3)
    (ha : a = BitVec.ofNat 32 (4 * r₁.val)) (hb : b = BitVec.ofNat 32 (1 + r₂.val)) :
    k0_off14 c a b = ![4 * r₁.val + (zc c + (1 + r₂.val)) % 4, 0, 0] := by
  subst ha hb; exact off14_eq c r₁ r₂

theorem off15_at (c : Dev nD) (a : BitVec 32) (r : Fin 8) (ha : a = BitVec.ofNat 32 (4 * r.val)) :
    k0_off15 c a = ![4 * r.val + zc c, 0, 0] := by
  subst ha; exact off15_eq c r

theorem off16_at (c : Dev nD) (a b : BitVec 32) (r₁ : Fin 8) (r₂ : Fin 3)
    (ha : a = BitVec.ofNat 32 (4 * r₁.val)) (hb : b = BitVec.ofNat 32 (1 + r₂.val)) :
    k0_off16 c a b = ![4 * r₁.val + (zc c + 4 - (1 + r₂.val)) % 4] := by
  subst ha hb; exact off16_eq c r₁ r₂

theorem off17_at (c : Dev nD) (a b : BitVec 32) (r₁ : Fin 8) (r₂ : Fin 3)
    (ha : a = BitVec.ofNat 32 (4 * r₁.val)) (hb : b = BitVec.ofNat 32 (1 + r₂.val)) :
    k0_off17 c a b = ![4 * r₁.val + (zc c + 4 - (1 + r₂.val)) % 4, 0, 0] := by
  subst ha hb; exact off17_eq c r₁ r₂

theorem off18_at (c : Dev nD) (a b : BitVec 32) (r₁ : Fin 8) (r₂ : Fin 3)
    (ha : a = BitVec.ofNat 32 (4 * r₁.val)) (hb : b = BitVec.ofNat 32 (1 + r₂.val)) :
    k0_off18 c a b = ![4 * r₁.val + (zc c + 4 - (1 + r₂.val)) % 4, 0, 0] := by
  subst ha hb; exact off18_eq c r₁ r₂

/-! ## The peers

Coordinates of a device of the box, and of its partner, rail peers and plane peers; the peer maps are
involutive up to the complementary step, and the seven peers of a device are distinct from it and from
one another. -/

section Peers
open Cert.Mesh

theorem dev_val (z x y : ℕ) :
    (dev z x y).val = z % 4 * 8 + (2 * (y % 4) + (x % 2 + y % 4) % 2) := rfl

theorem zc_lt (c : Fin 32) : zc c < 4 := by have := c.isLt; unfold zc; omega
theorem yc_lt (c : Fin 32) : yc c < 4 := by unfold yc; omega
theorem xc_lt (c : Fin 32) : xc c < 2 := by unfold xc; omega
theorem pc_lt (c : Fin 32) : pc c < 8 := by unfold pc; omega

theorem zc_dev (z x y : ℕ) : zc (dev z x y) = z % 4 := by unfold zc; rw [dev_val]; omega
theorem yc_dev (z x y : ℕ) : yc (dev z x y) = y % 4 := by unfold yc; rw [dev_val]; omega
theorem xc_dev (z x y : ℕ) : xc (dev z x y) = x % 2 := by unfold xc; rw [dev_val]; omega
theorem pc_dev (z x y : ℕ) : pc (dev z x y) = pOf (x % 2) (y % 4) := by
  unfold pc pOf; rw [dev_val]; omega

/-- A device is the device of its own coordinates. -/
theorem dev_coords (c : Fin 32) : dev (zc c) (xc c) (yc c) = c := by
  apply Fin.ext; rw [dev_val]; have := c.isLt; unfold zc xc yc; omega

/-- The position inside the plane, from the column and the row. -/
theorem pc_eq_pOf (c : Fin 32) : pc c = pOf (xc c) (yc c) := by
  unfold pc pOf xc yc; omega

/-- The device id, from the plane and the position. -/
theorem val_eq (c : Fin 32) : c.val = zc c * 8 + pc c := by unfold zc pc; omega

/-- Two devices with the same three coordinates are equal. -/
theorem ext_coords {a b : Fin 32} (hz : zc a = zc b) (hx : xc a = xc b) (hy : yc a = yc b) : a = b := by
  rw [← dev_coords a, ← dev_coords b, hz, hx, hy]

theorem zc_partner (c : Fin 32) : zc (partner c) = zc c := by
  unfold partner; rw [zc_dev]; have := zc_lt c; omega
theorem xc_partner (c : Fin 32) : xc (partner c) = 1 - xc c := by
  unfold partner; rw [xc_dev]; have := xc_lt c; omega
theorem yc_partner (c : Fin 32) : yc (partner c) = yc c := by
  unfold partner; rw [yc_dev]; have := yc_lt c; omega

theorem zc_rail (c : Fin 32) (s : ℕ) : zc (rail c s) = zc c := by
  unfold rail; rw [zc_dev]; have := zc_lt c; omega
theorem xc_rail (c : Fin 32) (s : ℕ) : xc (rail c s) = xc c := by
  unfold rail; rw [xc_dev]; have := xc_lt c; omega
theorem yc_rail (c : Fin 32) (s : ℕ) : yc (rail c s) = (yc c + s) % 4 := by
  unfold rail; rw [yc_dev]

theorem zc_zpeer (c : Fin 32) (s : ℕ) : zc (zpeer c s) = (zc c + s) % 4 := by
  unfold zpeer; rw [zc_dev]
theorem xc_zpeer (c : Fin 32) (s : ℕ) : xc (zpeer c s) = xc c := by
  unfold zpeer; rw [xc_dev]; have := xc_lt c; omega
theorem yc_zpeer (c : Fin 32) (s : ℕ) : yc (zpeer c s) = yc c := by
  unfold zpeer; rw [yc_dev]; have := yc_lt c; omega
theorem pc_zpeer (c : Fin 32) (s : ℕ) : pc (zpeer c s) = pc c := by
  rw [pc_eq_pOf, xc_zpeer, yc_zpeer, ← pc_eq_pOf]

/-- The partner is the device whose id differs in the lowest bit. -/
theorem partner_val (c : Fin 32) : (partner c).val = c.val + 1 - 2 * (c.val % 2) := by
  revert c; decide
/-- Plane peer s, by its id. -/
theorem zpeer_val (c : Fin 32) (s : ℕ) : (zpeer c s).val = (zc c + s) % 4 * 8 + pc c := by
  rw [val_eq (zpeer c s), zc_zpeer, pc_zpeer]
/-- Rail peer s, by its id. -/
theorem rail_val (c : Fin 32) (s : ℕ) : (rail c s).val = zc c * 8 + pOf (xc c) ((yc c + s) % 4) := by
  rw [val_eq (rail c s), zc_rail, pc_eq_pOf, xc_rail, yc_rail]

theorem partner_partner (c : Fin 32) : partner (partner c) = c := by
  apply ext_coords
  · rw [zc_partner, zc_partner]
  · rw [xc_partner, xc_partner]; have := xc_lt c; omega
  · rw [yc_partner, yc_partner]

/-- Advancing the row by s and then by 4 - s comes back. -/
theorem rail_rail (c : Fin 32) (s : ℕ) (hs : s ≤ 4) : rail (rail c s) (4 - s) = c := by
  apply ext_coords
  · rw [zc_rail, zc_rail]
  · rw [xc_rail, xc_rail]
  · rw [yc_rail, yc_rail]; have := yc_lt c; omega

/-- Advancing the plane by s and then by 4 - s comes back. -/
theorem zpeer_zpeer (c : Fin 32) (s : ℕ) (hs : s ≤ 4) : zpeer (zpeer c s) (4 - s) = c := by
  apply ext_coords
  · rw [zc_zpeer, zc_zpeer]; have := zc_lt c; omega
  · rw [xc_zpeer, xc_zpeer]
  · rw [yc_zpeer, yc_zpeer]

theorem rail_rail_1 (c : Fin 32) : rail (rail c 1) 3 = c := rail_rail c 1 (by omega)
theorem rail_rail_2 (c : Fin 32) : rail (rail c 2) 2 = c := rail_rail c 2 (by omega)
theorem rail_rail_3 (c : Fin 32) : rail (rail c 3) 1 = c := rail_rail c 3 (by omega)
theorem zpeer_zpeer_1 (c : Fin 32) : zpeer (zpeer c 1) 3 = c := zpeer_zpeer c 1 (by omega)
theorem zpeer_zpeer_2 (c : Fin 32) : zpeer (zpeer c 2) 2 = c := zpeer_zpeer c 2 (by omega)
theorem zpeer_zpeer_3 (c : Fin 32) : zpeer (zpeer c 3) 1 = c := zpeer_zpeer c 3 (by omega)

/-- Who names c as a peer: d's partner is c exactly when d is c's partner. -/
theorem partner_eq_iff (c d : Fin 32) : partner d = c ↔ d = partner c := by
  constructor
  · rintro rfl; exact (partner_partner d).symm
  · rintro rfl; exact partner_partner c
/-- d's rail peer s is c exactly when d is c's rail peer 4 - s (1 ≤ s ≤ 3). -/
theorem rail_eq_iff (c d : Fin 32) (s : ℕ) (h1 : 1 ≤ s) (h3 : s ≤ 3) : rail d s = c ↔ d = rail c (4 - s) := by
  constructor
  · rintro rfl; exact (rail_rail d s (by omega)).symm
  · rintro rfl
    have := rail_rail c (4 - s) (by omega)
    rwa [show 4 - (4 - s) = s by omega] at this
/-- d's plane peer s is c exactly when d is c's plane peer 4 - s (1 ≤ s ≤ 3). -/
theorem zpeer_eq_iff (c d : Fin 32) (s : ℕ) (h1 : 1 ≤ s) (h3 : s ≤ 3) : zpeer d s = c ↔ d = zpeer c (4 - s) := by
  constructor
  · rintro rfl; exact (zpeer_zpeer d s (by omega)).symm
  · rintro rfl
    have := zpeer_zpeer c (4 - s) (by omega)
    rwa [show 4 - (4 - s) = s by omega] at this

/-- A device and its seven peers are eight different devices. -/
theorem peers_nodup : ∀ c : Fin 32,
    [c, partner c, rail c 1, rail c 2, rail c 3, zpeer c 1, zpeer c 2, zpeer c 3].Nodup := by
  decide +kernel

theorem partner_ne (c : Fin 32) : partner c ≠ c := by
  intro h; have := congrArg xc h; rw [xc_partner] at this; have := xc_lt c; omega
theorem rail_ne (c : Fin 32) (s : Fin 3) : rail c (s.val + 1) ≠ c := by
  intro h; have := congrArg yc h; rw [yc_rail] at this; have := yc_lt c; have := s.isLt; omega
theorem zpeer_ne (c : Fin 32) (s : Fin 3) : zpeer c (s.val + 1) ≠ c := by
  intro h; have := congrArg zc h; rw [zc_zpeer] at this; have := zc_lt c; have := s.isLt; omega
theorem rail_ne_partner (c : Fin 32) (s : ℕ) : rail c s ≠ partner c := by
  intro h; have := congrArg xc h; rw [xc_rail, xc_partner] at this; have := xc_lt c; omega
theorem zpeer_ne_partner (c : Fin 32) (s : ℕ) : zpeer c s ≠ partner c := by
  intro h; have := congrArg xc h; rw [xc_zpeer, xc_partner] at this; have := xc_lt c; omega
theorem rail_ne_zpeer (c : Fin 32) (s : Fin 3) (t : ℕ) : rail c (s.val + 1) ≠ zpeer c t := by
  intro h; have := congrArg yc h; rw [yc_rail, yc_zpeer] at this; have := yc_lt c; have := s.isLt; omega
theorem rail_inj (c : Fin 32) (s t : Fin 3) (h : rail c (s.val + 1) = rail c (t.val + 1)) : s = t := by
  have := congrArg yc h; rw [yc_rail, yc_rail] at this
  have := s.isLt; have := t.isLt; apply Fin.ext; omega
theorem zpeer_inj (c : Fin 32) (s t : Fin 3) (h : zpeer c (s.val + 1) = zpeer c (t.val + 1)) : s = t := by
  have := congrArg zc h; rw [zc_zpeer, zc_zpeer] at this
  have := s.isLt; have := t.isLt; apply Fin.ext; omega

end Peers

end Cert.KernelIdeal.MeshFacts
-- ==== Proof.Proto.lean ====
/-
  The cross-device protocol of the three-stage reduce-scatter, written in the rounds discipline:
  the semaphore cells, the slot views of the six exchange buffers and their credits.
-/
import proofs.«900893_g7700000000000894_dist_matmul_mk_i_outk_m1024_n1024_k512_v7x_i32_f32_1_alg».proof.Proof.MeshDefs
import proofs.«900893_g7700000000000894_dist_matmul_mk_i_outk_m1024_n1024_k512_v7x_i32_f32_1_alg».proof.Proof.SlotIdx
import proofs.«900893_g7700000000000894_dist_matmul_mk_i_outk_m1024_n1024_k512_v7x_i32_f32_1_alg».proof.Proof.MeshFacts
import proofs.«900893_g7700000000000894_dist_matmul_mk_i_outk_m1024_n1024_k512_v7x_i32_f32_1_alg».proof.Proof.Gen.KernelIdeal
import proofs.«900893_g7700000000000894_dist_matmul_mk_i_outk_m1024_n1024_k512_v7x_i32_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 7`) -/

/-- Duty names: a barrier cell has the seven duties `0 … 6` (one per peer), a DMA cell the duty `0`. -/
abbrev D : Type := Fin 7
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores and the cells -/

/-- The runtime's barrier semaphore of collective id 0 (unscoped). -/
abbrev barS : Sem sig := (SemArray.scalar (sig.barrier 0 rfl) : Sems sig S_).sem

theorem inb8 (q : Fin 8) : ∀ a, (![q.val] : Fin 1 → Nat) a + S1.size a ≤ S8.size a := by
  intro a; have := q.isLt; fin_cases a; simp; omega
theorem inb32 (i : Fin 32) : ∀ a, (![i.val] : Fin 1 → Nat) a + S1.size a ≤ S32.size a := by
  intro a; have := i.isLt; fin_cases a; simp; omega

/-- Semaphore `q` of an array of 8, spelt as the kernel spells it: the unit slice at `q`, squeezed. -/
abbrev sem8 (A : DmaSems sig S8) (q : Fin 8) : DmaSem sig :=
  ((A.slice (Rect.unit (s := S8) ![q.val] S1.size (inb8 q))).squeeze S_ squeezes_S1_S_).sem
/-- Semaphore `i` of an array of 32. -/
abbrev sem32 (A : DmaSems sig S32) (i : Fin 32) : DmaSem sig :=
  ((A.slice (Rect.unit (s := S32) ![i.val] S1.size (inb32 i))).squeeze S_ squeezes_S1_S_).sem

theorem sem8_a1s (q : Fin 8) : (sem8 cc0_scratch9 q).val = 3 + q.val := by revert q; decide
theorem sem8_a1r (q : Fin 8) : (sem8 cc0_scratch10 q).val = 11 + q.val := by revert q; decide
theorem sem32_a2s (i : Fin 32) : (sem32 cc0_scratch11 i).val = 19 + i.val := by revert i; decide
theorem sem32_a2r (i : Fin 32) : (sem32 cc0_scratch12 i).val = 51 + i.val := by revert i; decide
theorem sem32_bs (i : Fin 32) : (sem32 cc0_scratch13 i).val = 83 + i.val := by revert i; decide
theorem sem32_br (i : Fin 32) : (sem32 cc0_scratch14 i).val = 115 + i.val := by revert i; decide

/-- The barrier cell of device `c`. -/
abbrev barCell (c : Dev nD) : GSem nD τ sig := ((c : Thread nD τ), .reg barS)
/-- Stage 1: the send cell and the receive cell of column chunk `q`. -/
abbrev a1sCell (c : Dev nD) (q : Fin 8) : GSem nD τ sig := ((c : Thread nD τ), .dma (sem8 cc0_scratch9 q))
abbrev a1rCell (c : Dev nD) (q : Fin 8) : GSem nD τ sig := ((c : Thread nD τ), .dma (sem8 cc0_scratch10 q))
/-- Stage 2: the send cell and the receive cell of slot `i`. -/
abbrev a2sCell (c : Dev nD) (i : Fin 32) : GSem nD τ sig := ((c : Thread nD τ), .dma (sem32 cc0_scratch11 i))
abbrev a2rCell (c : Dev nD) (i : Fin 32) : GSem nD τ sig := ((c : Thread nD τ), .dma (sem32 cc0_scratch12 i))
/-- Stage 3: the send cell and the receive cell of slot `i`. -/
abbrev bsCell (c : Dev nD) (i : Fin 32) : GSem nD τ sig := ((c : Thread nD τ), .dma (sem32 cc0_scratch13 i))
abbrev brCell (c : Dev nD) (i : Fin 32) : GSem nD τ sig := ((c : Thread nD τ), .dma (sem32 cc0_scratch14 i))

/-! ## The exchange buffers and their slots -/

abbrev sendA1 : Memref sig .tc .vmem S8x4x4x32x128 .bf16 := Memref.whole cc0_scratch2
abbrev commA1 : Memref sig .tc .vmem S8x4x4x32x128 .bf16 := Memref.whole cc0_scratch3
abbrev ownA : Memref sig .tc .vmem S8x4x4x32x128 .bf16 := Memref.whole cc0_scratch4
abbrev sendA2 : Memref sig .tc .vmem S32x4x32x128 .bf16 := Memref.whole cc0_scratch5
abbrev commA2 : Memref sig .tc .vmem S32x4x32x128 .bf16 := Memref.whole cc0_scratch6
abbrev sendB : Memref sig .tc .vmem S32x32x128 .bf16 := Memref.whole cc0_scratch7
abbrev commB : Memref sig .tc .vmem S32x32x128 .bf16 := Memref.whole cc0_scratch8

theorem inbA1 (q : Fin 8) : ∀ a, (![q.val, 0, 0, 0, 0] : Fin 5 → Nat) a + S1x4x4x32x128.size a ≤ S8x4x4x32x128.size a := by
  intro a; have := q.isLt; fin_cases a <;> simp <;> omega
theorem inbA2 (i : Fin 32) : ∀ a, (![i.val, 0, 0, 0] : Fin 4 → Nat) a + S1x4x32x128.size a ≤ S32x4x32x128.size a := by
  intro a; have := i.isLt; fin_cases a <;> simp <;> omega
theorem inbB (i : Fin 32) : ∀ a, (![i.val, 0, 0] : Fin 3 → Nat) a + S1x32x128.size a ≤ S32x32x128.size a := by
  intro a; have := i.isLt; fin_cases a <;> simp <;> omega

/-- Slot `q` of a stage-1 buffer: the unit slice at `q`, its leading axis squeezed away. -/
abbrev slot1 (M : Memref sig .tc .vmem S8x4x4x32x128 .bf16) (q : Fin 8) : Memref sig .tc .vmem S4x4x32x128 .bf16 :=
  (M.slice (Rect.unit (s := S8x4x4x32x128) ![q.val, 0, 0, 0, 0] S1x4x4x32x128.size (inbA1 q)) (fun _ => rfl)).squeeze S4x4x32x128 squeezes_S1x4x4x32x128_S4x4x32x128
/-- Slot `i` of a stage-2 buffer: the unit slice at `i`. -/
abbrev slot2 (M : Memref sig .tc .vmem S32x4x32x128 .bf16) (i : Fin 32) : Memref sig .tc .vmem S1x4x32x128 .bf16 :=
  M.slice (Rect.unit (s := S32x4x32x128) ![i.val, 0, 0, 0] S1x4x32x128.size (inbA2 i)) (fun _ => rfl)
/-- Slot `i` of a stage-3 buffer: the unit slice at `i`. -/
abbrev slot3 (M : Memref sig .tc .vmem S32x32x128 .bf16) (i : Fin 32) : Memref sig .tc .vmem S1x32x128 .bf16 :=
  M.slice (Rect.unit (s := S32x32x128) ![i.val, 0, 0] S1x32x128.size (inbB i)) (fun _ => rfl)

/-- The credit one slot's copy puts on a DMA semaphore, per stage. -/
abbrev N1 : ℕ := (slot1 commA1 0).view.dmaCredit
abbrev N2 : ℕ := (slot2 commA2 0).view.dmaCredit
abbrev N3 : ℕ := (slot3 commB 0).view.dmaCredit
theorem N1_pos : 0 < N1 := View.dmaCredit_pos _ (by decide)
theorem N2_pos : 0 < N2 := View.dmaCredit_pos _ (by decide)
theorem N3_pos : 0 < N3 := View.dmaCredit_pos _ (by decide)
theorem credit1_comm (q : Fin 8) : (slot1 commA1 q).view.dmaCredit = N1 := rfl
theorem credit1_send (q : Fin 8) : (slot1 sendA1 q).view.dmaCredit = N1 := rfl
theorem credit2_comm (i : Fin 32) : (slot2 commA2 i).view.dmaCredit = N2 := rfl
theorem credit2_send (i : Fin 32) : (slot2 sendA2 i).view.dmaCredit = N2 := rfl
theorem credit3_comm (i : Fin 32) : (slot3 commB i).view.dmaCredit = N3 := rfl
theorem credit3_send (i : Fin 32) : (slot3 sendB i).view.dmaCredit = N3 := rfl

/-- What a slot holds, per stage: a value under each index of the slot's shape. -/
abbrev C1 (F : FTy → Type) : Type := S4x4x32x128.Idx → Elt F .bf16
abbrev C2 (F : FTy → Type) : Type := S1x4x32x128.Idx → Elt F .bf16
abbrev C3 (F : FTy → Type) : Type := S1x32x128.Idx → Elt F .bf16

/-- The contents of a buffer that hold `X` under the view `v` (and `X`'s first value everywhere else:
    a points-to on the view's elements does not see them). -/
def slotBuf {κ : Kind} {sp : Space} {S : Shape} {e : EltTy} (v : View sig κ sp S e) (h : 0 < S.numel) (X : S.Idx → Elt F e) : v.ty.Contents (Elt F) :=
  v.write (Elt F) (fun _ => cast (congrArg (Elt F) v.elt_eq.symm) (X (Shape.Idx.first h))) X Finset.univ

omit [FloatOps F] in
theorem read_slotBuf {κ : Kind} {sp : Space} {S : Shape} {e : EltTy} (v : View sig κ sp S e) (h : 0 < S.numel) (X : S.Idx → Elt F e) :
    v.read (Elt F) (slotBuf v h X) = X := View.read_write_univ _ _

omit [FloatOps F] in
/-- A points-to on a view's elements sees only what the view reads. -/
theorem pts_slotBuf {sp : Space} {S : Shape} {e : EltTy} (c : Dev nD) (M : Memref sig .tc sp S e) (h : 0 < S.numel) (q : PosShare TreeShare)
    (f : Buf (Elt F) (M.view.loc (c : Thread nD τ))) (X : S.Idx → Elt F e) (hX : M.view.read (Elt F) f = X) :
    (M.view.loc (c : Thread nD τ) ↦[M.view.set]{q} f : sProp 𝕄) = (M.view.loc (c : Thread nD τ) ↦[M.view.set]{q} slotBuf M.view h X) := by
  refine BI.Region.is_congr fun i hi => ?_
  obtain ⟨y, -, rfl⟩ := Finset.mem_map.mp hi
  unfold slotBuf
  rw [View.write_emb_of_mem _ _ (Finset.mem_univ y), ← hX, View.read_apply]
  simp

/-! ## One enumeration of the protocol's cells -/

/-- The protocol's semaphores, numbered: `0` the barrier semaphore, `1 + i` DMA semaphore `3 + i` of the pool
    (stage-1 send `0 … 7`, stage-1 receive `8 … 15`, stage-2 send `16 … 47`, stage-2 receive `48 … 79`,
    stage-3 send `80 … 111`, stage-3 receive `112 … 143`). -/
def csem (k : Fin 145) : SemLoc sig :=
  if k.val = 0 then .reg barS else .dma (⟨k.val + 2, by have := k.isLt; show k.val + 2 < 147; omega⟩ : Fin 147)
abbrev kcell (ck : Dev nD × Fin 145) : GSem nD τ sig := ((ck.1 : Thread nD τ), csem ck.2)

theorem csem_injective : Function.Injective csem := by
  intro a b h
  unfold csem at h
  by_cases ha : a.val = 0 <;> by_cases hb : b.val = 0
  · exact Fin.ext (ha.trans hb.symm)
  · rw [if_pos ha, if_neg hb] at h; cases h
  · rw [if_neg ha, if_pos hb] at h; cases h
  · rw [if_neg ha, if_neg hb] at h
    have h' := congrArg Fin.val (SemLoc.dma.inj h)
    exact Fin.ext (by simp only at h'; omega)

theorem kcell_injective : Function.Injective (kcell : Dev nD × Fin 145 → GSem nD τ sig) := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

theorem csem_succ (i : Fin 144) : csem ⟨1 + i.val, by have := i.isLt; omega⟩ = .dma (⟨3 + i.val, by have := i.isLt; show 3 + i.val < 147; omega⟩ : Fin 147) := by
  unfold csem
  rw [if_neg (by simp)]
  exact congrArg SemLoc.dma (Fin.ext (by simp only; omega))

theorem dma_eq_csem (n : DmaSem sig) (k : ℕ) (hk : k < 144) (h : n.val = 3 + k) : SemLoc.dma n = csem ⟨1 + k, by omega⟩ := by
  rw [csem_succ ⟨k, hk⟩]; exact congrArg SemLoc.dma (Fin.ext h)

theorem a1sCell_eq (c : Dev nD) (q : Fin 8) : a1sCell c q = kcell (c, ⟨1 + q.val, by have := q.isLt; omega⟩) :=
  Prod.ext rfl (dma_eq_csem _ q.val (by have := q.isLt; omega) (sem8_a1s q))
theorem a1rCell_eq (c : Dev nD) (q : Fin 8) : a1rCell c q = kcell (c, ⟨1 + (8 + q.val), by have := q.isLt; omega⟩) :=
  Prod.ext rfl (dma_eq_csem _ (8 + q.val) (by have := q.isLt; omega) (by rw [sem8_a1r]; omega))
theorem a2sCell_eq (c : Dev nD) (i : Fin 32) : a2sCell c i = kcell (c, ⟨1 + (16 + i.val), by have := i.isLt; omega⟩) :=
  Prod.ext rfl (dma_eq_csem _ (16 + i.val) (by have := i.isLt; omega) (by rw [sem32_a2s]; omega))
theorem a2rCell_eq (c : Dev nD) (i : Fin 32) : a2rCell c i = kcell (c, ⟨1 + (48 + i.val), by have := i.isLt; omega⟩) :=
  Prod.ext rfl (dma_eq_csem _ (48 + i.val) (by have := i.isLt; omega) (by rw [sem32_a2r]; omega))
theorem bsCell_eq (c : Dev nD) (i : Fin 32) : bsCell c i = kcell (c, ⟨1 + (80 + i.val), by have := i.isLt; omega⟩) :=
  Prod.ext rfl (dma_eq_csem _ (80 + i.val) (by have := i.isLt; omega) (by rw [sem32_bs]; omega))
theorem brCell_eq (c : Dev nD) (i : Fin 32) : brCell c i = kcell (c, ⟨1 + (112 + i.val), by have := i.isLt; omega⟩) :=
  Prod.ext rfl (dma_eq_csem _ (112 + i.val) (by have := i.isLt; omega) (by rw [sem32_br]; omega))
theorem barCell_eq (c : Dev nD) : barCell c = kcell (c, 0) := Prod.ext rfl (by show SemLoc.reg barS = csem 0; unfold csem; exact (if_pos rfl).symm)

/-! ## The schedule -/

/-- The column chunk of slot `i`. -/
def qOf (i : Fin 32) : Fin 8 := ⟨i.val / 4, by have := i.isLt; omega⟩

/-- The kinds of cell: the barrier cell, the send and receive cells of the three stages by slot, and the rest
    (the pipeline's staging cells). -/
inductive CK : Type
  | bar | a1s (q : Fin 8) | a1r (q : Fin 8) | a2s (i : Fin 32) | a2r (i : Fin 32) | bs (i : Fin 32) | br (i : Fin 32) | other
deriving DecidableEq

/-- A semaphore's kind, read off its number in the pool. -/
def kindOf : SemLoc sig → CK
  | .reg s => if s = barS then .bar else .other
  | .dma n =>
    have hn : n.val < 147 := n.isLt
    if h0 : n.val < 3 then .other
    else if h1 : n.val < 11 then .a1s ⟨n.val - 3, by omega⟩
    else if h2 : n.val < 19 then .a1r ⟨n.val - 11, by omega⟩
    else if h3 : n.val < 51 then .a2s ⟨n.val - 19, by omega⟩
    else if h4 : n.val < 83 then .a2r ⟨n.val - 51, by omega⟩
    else if h5 : n.val < 115 then .bs ⟨n.val - 83, by omega⟩
    else .br ⟨n.val - 115, by omega⟩

theorem kind_bar : kindOf (.reg barS) = .bar := by unfold kindOf; exact if_pos rfl
theorem kind_a1s (q : Fin 8) : kindOf (.dma (sem8 cc0_scratch9 q)) = .a1s q := by revert q; decide
theorem kind_a1r (q : Fin 8) : kindOf (.dma (sem8 cc0_scratch10 q)) = .a1r q := by revert q; decide
theorem kind_a2s (i : Fin 32) : kindOf (.dma (sem32 cc0_scratch11 i)) = .a2s i := by revert i; decide
theorem kind_a2r (i : Fin 32) : kindOf (.dma (sem32 cc0_scratch12 i)) = .a2r i := by revert i; decide
theorem kind_bs (i : Fin 32) : kindOf (.dma (sem32 cc0_scratch13 i)) = .bs i := by revert i; decide
theorem kind_br (i : Fin 32) : kindOf (.dma (sem32 cc0_scratch14 i)) = .br i := by revert i; decide
theorem kind_stage (n : DmaSem sig) (h : n.val < 3) : kindOf (.dma n) = .other := by unfold kindOf; exact dif_pos h

/-- The duties of round 0, by kind: a barrier cell the seven, a stage-1 cell one, a stage-2 (stage-3) cell one
    unless its slot is the device's own row (plane), on which nothing is sent. -/
def dutiesOf (c : Dev nD) : CK → Finset D
  | .bar => Finset.univ
  | .a1s _ => {0}
  | .a1r _ => {0}
  | .a2s i => if i.val % 4 = yc c then ∅ else {0}
  | .a2r i => if i.val % 4 = yc c then ∅ else {0}
  | .bs i => if i.val % 4 = zc c then ∅ else {0}
  | .br i => if i.val % 4 = zc c then ∅ else {0}
  | .other => ∅

def amountOf : CK → ℕ
  | .bar => 1
  | .a1s _ => N1
  | .a1r _ => N1
  | .a2s _ => N2
  | .a2r _ => N2
  | .bs _ => N3
  | .br _ => N3
  | .other => 1

theorem amountOf_pos (k : CK) : 0 < amountOf k := by
  cases k <;> first | exact Nat.one_pos | exact N1_pos | exact N2_pos | exact N3_pos

/-- A slot of device `c` holding `X`. -/
abbrev pts1 (M : Memref sig .tc .vmem S8x4x4x32x128 .bf16) (c : Dev nD) (q : Fin 8) (X : C1 F) : sProp 𝕄 :=
  (slot1 M q).view.loc (c : Thread nD τ) ↦[(slot1 M q).view.set]{fullShare} slotBuf (slot1 M q).view h_S4x4x32x128 X
abbrev pts2 (M : Memref sig .tc .vmem S32x4x32x128 .bf16) (c : Dev nD) (i : Fin 32) (X : C2 F) : sProp 𝕄 :=
  (slot2 M i).view.loc (c : Thread nD τ) ↦[(slot2 M i).view.set]{fullShare} slotBuf (slot2 M i).view h_S1x4x32x128 X
abbrev pts3 (M : Memref sig .tc .vmem S32x32x128 .bf16) (c : Dev nD) (i : Fin 32) (X : C3 F) : sProp 𝕄 :=
  (slot3 M i).view.loc (c : Thread nD τ) ↦[(slot3 M i).view.set]{fullShare} slotBuf (slot3 M i).view h_S1x32x128 X

/-- What a device `d` grants the partner that will copy into it: its whole stage-1 landing buffer, and that it has
    reached round 0 of its eight stage-1 receive cells. -/
def grant1 (d : Dev nD) : sProp 𝕄 :=
  iprop((∃ f : Buf (Elt F) ((d : Thread nD τ).loc cc0_scratch3), ((d : Thread nD τ).loc cc0_scratch3) ↦{fullShare} f)
    ∗ bigSep Finset.univ fun q : Fin 8 => reached ER (a1rCell d q) 0)
/-- What `d` grants the rail peer of row `y`: the eight slots `4q + y` of its stage-2 landing buffer, and that it
    has reached round 0 of their receive cells. -/
def grant2 (d : Dev nD) (v s : ℕ) : sProp 𝕄 :=
  bigSep Finset.univ fun q : Fin 8 =>
    iprop((∃ f, (slot2 commA2 (slot v q s)).view.loc (d : Thread nD τ) ↦[(slot2 commA2 (slot v q s)).view.set]{fullShare} f)
      ∗ reached ER (a2rCell d (slot v q s)) 0)
/-- What `d` grants the plane peer of plane `z`: the eight slots `4q + z` of its stage-3 landing buffer, and that
    it has reached round 0 of their receive cells. -/
def grant3 (d : Dev nD) (v s : ℕ) : sProp 𝕄 :=
  bigSep Finset.univ fun q : Fin 8 =>
    iprop((∃ f, (slot3 commB (slot v q s)).view.loc (d : Thread nD τ) ↦[(slot3 commB (slot v q s)).view.set]{fullShare} f)
      ∗ reached ER (brCell d (slot v q s)) 0)

/-- Duty `k` of `c`'s barrier cell is paid by the device whose `k`-th peer is `c` (`0`: the partner; `s = 1, 2, 3`:
    the rail peer `4 - s` rows on; `3 + s`: the plane peer `4 - s` planes on), and hands `c` that device's grant. -/
def barPay (c : Dev nD) (k : D) : sProp 𝕄 :=
  if k.val = 0 then grant1 (partner c)
  else if k.val ≤ 3 then grant2 (rail c (4 - k.val)) (yc c) 0
  else grant3 (zpeer c (7 - k.val)) (zc c) 0

variable (S1 : Dev nD → Fin 8 → C1 F) (P2 : Dev nD → Fin 32 → C2 F) (P3 : Dev nD → Fin 32 → C3 F)

/-- The payloads by kind. A send cell gives the slot back as it was sent; a receive cell gives the landing slot
    holding what the sender's slot held: the partner's slot `q`; the slot `4q + y_c` of the rail peer of row
    `i % 4`; the slot `4q + z_c` of the plane peer of plane `i % 4`. -/
def payloadOf (c : Dev nD) : CK → D → sProp 𝕄
  | .bar, k => barPay c k
  | .a1s q, _ => pts1 sendA1 c q (S1 c q)
  | .a1r q, _ => pts1 commA1 c q (S1 (partner c) q)
  | .a2s i, _ => pts2 sendA2 c i (P2 c i)
  | .a2r i, _ => pts2 commA2 c i (P2 (dev (zc c) (xc c) (i.val % 4)) (slot (yc c) (qOf i) 0))
  | .bs i, _ => pts3 sendB c i (P3 c i)
  | .br i, _ => pts3 commB c i (P3 (dev (i.val % 4) (xc c) (yc c)) (slot (zc c) (qOf i) 0))
  | .other, _ => iprop(emp)

/-- One round, round 0, on the TensorCores' cells. -/
def sched : Rounds.Schedule (GSem nD τ sig) D 𝕄 where
  duties g r := if r = 0 ∧ g.1.2 = .tc then dutiesOf g.1.1 (kindOf g.2) else ∅
  unitless _ := False
  amount g _ _ := amountOf (kindOf g.2)
  payload g _ d := payloadOf S1 P2 P3 g.1.1 (kindOf g.2) d
  amount_pos g _ _ _ := amountOf_pos _

instance sched_payload_storable (g : GSem nD τ sig) (r : ℕ) (d : D) :
    BI.Storable (upEmb : UEmb _ 𝕄) ((sched S1 P2 P3).payload g r d) := by
  show BI.Storable upEmb (payloadOf S1 P2 P3 g.1.1 (kindOf g.2) d)
  cases kindOf g.2 <;> unfold payloadOf
  · unfold barPay grant1 grant2 grant3; (repeat' split) <;> infer_instance
  all_goals infer_instance

/-! ## The schedule's tables -/

section Tables
variable (c : Dev nD)

omit [FloatOps F] in
theorem duties_tc (sm : SemLoc sig) : (sched S1 P2 P3).duties ((c : Thread nD τ), sm) 0 = dutiesOf c (kindOf sm) := by dsimp only [sched]; exact if_pos ⟨rfl, rfl⟩
omit [FloatOps F] in
theorem duties_later (g : GSem nD τ sig) : ∀ r, 1 ≤ r → (sched S1 P2 P3).duties g r = ∅ :=
  fun r hr => by dsimp only [sched]; exact if_neg fun h => by omega
omit [FloatOps F] in
theorem duties_of_ne (g : GSem nD τ sig) (h : g.1.2 ≠ .tc) (r : ℕ) : (sched S1 P2 P3).duties g r = ∅ := by dsimp only [sched]; exact if_neg fun h' => h h'.2
omit [FloatOps F] in
theorem amount_tc (sm : SemLoc sig) (r : ℕ) (d : D) : (sched S1 P2 P3).amount ((c : Thread nD τ), sm) r d = amountOf (kindOf sm) := rfl
omit [FloatOps F] in
theorem payload_tc (sm : SemLoc sig) (r : ℕ) (d : D) : (sched S1 P2 P3).payload ((c : Thread nD τ), sm) r d = payloadOf S1 P2 P3 c (kindOf sm) d := rfl

theorem slot_mod (v : ℕ) (q : Fin 8) (s : ℕ) : (slot v q s).val % 4 = (v + s) % 4 := by rw [Cert.Mesh.slot_val]; omega
theorem qOf_slot (v : ℕ) (q : Fin 8) (s : ℕ) : qOf (slot v q s) = q := Fin.ext (by unfold qOf; simp only [Cert.Mesh.slot_val]; omega)
theorem yc_lt (c : Dev nD) : yc c < 4 := by unfold yc; omega
theorem zc_lt (c : Dev nD) : zc c < 4 := by have : c.val < 32 := c.isLt; unfold zc; omega

/-! ### Duties -/

omit [FloatOps F] in
theorem duties_bar : (sched S1 P2 P3).duties (barCell c) 0 = Finset.univ := by rw [duties_tc, kind_bar]; rfl
omit [FloatOps F] in
theorem duties_a1s (q : Fin 8) : (sched S1 P2 P3).duties (a1sCell c q) 0 = {0} := by rw [duties_tc, kind_a1s]; rfl
omit [FloatOps F] in
theorem duties_a1r (q : Fin 8) : (sched S1 P2 P3).duties (a1rCell c q) 0 = {0} := by rw [duties_tc, kind_a1r]; rfl
omit [FloatOps F] in
theorem duties_a2s (q : Fin 8) (s : ℕ) (hs : s % 4 ≠ 0) : (sched S1 P2 P3).duties (a2sCell c (slot (yc c) q s)) 0 = {0} := by
  rw [duties_tc, kind_a2s]; exact if_neg fun h => by rw [slot_mod] at h; have := yc_lt c; omega
omit [FloatOps F] in
theorem duties_a2r (q : Fin 8) (s : ℕ) (hs : s % 4 ≠ 0) : (sched S1 P2 P3).duties (a2rCell c (slot (yc c) q s)) 0 = {0} := by
  rw [duties_tc, kind_a2r]; exact if_neg fun h => by rw [slot_mod] at h; have := yc_lt c; omega
omit [FloatOps F] in
theorem duties_bs (q : Fin 8) (s : ℕ) (hs : s % 4 ≠ 0) : (sched S1 P2 P3).duties (bsCell c (slot (zc c) q s)) 0 = {0} := by
  rw [duties_tc, kind_bs]; exact if_neg fun h => by rw [slot_mod] at h; have := zc_lt c; omega
omit [FloatOps F] in
theorem duties_br (q : Fin 8) (s : ℕ) (hs : s % 4 ≠ 0) : (sched S1 P2 P3).duties (brCell c (slot (zc c) q s)) 0 = {0} := by
  rw [duties_tc, kind_br]; exact if_neg fun h => by rw [slot_mod] at h; have := zc_lt c; omega
omit [FloatOps F] in
/-- The cells of a device's own row and plane have no duty: nothing is sent on them. -/
theorem duties_a2s_own (q : Fin 8) : (sched S1 P2 P3).duties (a2sCell c (slot (yc c) q 0)) 0 = ∅ := by
  rw [duties_tc, kind_a2s]; exact if_pos (by rw [slot_mod]; have := yc_lt c; omega)
omit [FloatOps F] in
theorem duties_a2r_own (q : Fin 8) : (sched S1 P2 P3).duties (a2rCell c (slot (yc c) q 0)) 0 = ∅ := by
  rw [duties_tc, kind_a2r]; exact if_pos (by rw [slot_mod]; have := yc_lt c; omega)
omit [FloatOps F] in
theorem duties_bs_own (q : Fin 8) : (sched S1 P2 P3).duties (bsCell c (slot (zc c) q 0)) 0 = ∅ := by
  rw [duties_tc, kind_bs]; exact if_pos (by rw [slot_mod]; have := zc_lt c; omega)
omit [FloatOps F] in
theorem duties_br_own (q : Fin 8) : (sched S1 P2 P3).duties (brCell c (slot (zc c) q 0)) 0 = ∅ := by
  rw [duties_tc, kind_br]; exact if_pos (by rw [slot_mod]; have := zc_lt c; omega)
omit [FloatOps F] in
/-- On a peer: the receive cell of MY row's (plane's) slot there has its duty (it is not the peer's own row). -/
theorem duties_a2r_peer (q : Fin 8) (s : ℕ) (hs : s % 4 ≠ 0) : (sched S1 P2 P3).duties (a2rCell (rail c s) (slot (yc c) q 0)) 0 = {0} := by
  rw [duties_tc, kind_a2r]; exact if_neg fun h => by rw [slot_mod, MeshFacts.yc_rail] at h; have := yc_lt c; omega
omit [FloatOps F] in
theorem duties_br_peer (q : Fin 8) (s : ℕ) (hs : s % 4 ≠ 0) : (sched S1 P2 P3).duties (brCell (zpeer c s) (slot (zc c) q 0)) 0 = {0} := by
  rw [duties_tc, kind_br]; exact if_neg fun h => by rw [slot_mod, MeshFacts.zc_zpeer] at h; have := zc_lt c; omega

/-! ### Amounts and the units a round expects -/

omit [FloatOps F] in
theorem amount_bar (d : D) : (sched S1 P2 P3).amount (barCell c) 0 d = 1 := by rw [amount_tc, kind_bar]; rfl
omit [FloatOps F] in
theorem amount_a1s (q : Fin 8) (d : D) : (sched S1 P2 P3).amount (a1sCell c q) 0 d = N1 := by rw [amount_tc, kind_a1s]; rfl
omit [FloatOps F] in
theorem amount_a1r (q : Fin 8) (d : D) : (sched S1 P2 P3).amount (a1rCell c q) 0 d = N1 := by rw [amount_tc, kind_a1r]; rfl
omit [FloatOps F] in
theorem amount_a2s (i : Fin 32) (d : D) : (sched S1 P2 P3).amount (a2sCell c i) 0 d = N2 := by rw [amount_tc, kind_a2s]; rfl
omit [FloatOps F] in
theorem amount_a2r (i : Fin 32) (d : D) : (sched S1 P2 P3).amount (a2rCell c i) 0 d = N2 := by rw [amount_tc, kind_a2r]; rfl
omit [FloatOps F] in
theorem amount_bs (i : Fin 32) (d : D) : (sched S1 P2 P3).amount (bsCell c i) 0 d = N3 := by rw [amount_tc, kind_bs]; rfl
omit [FloatOps F] in
theorem amount_br (i : Fin 32) (d : D) : (sched S1 P2 P3).amount (brCell c i) 0 d = N3 := by rw [amount_tc, kind_br]; rfl

omit [FloatOps F] in
theorem expect_bar : (sched S1 P2 P3).expect (barCell c) 0 = 7 := by
  unfold Schedule.expect Schedule.amountOf
  rw [duties_bar, Finset.sum_congr rfl fun d _ => amount_bar S1 P2 P3 c d, Finset.sum_const, Finset.card_univ, Fintype.card_fin, smul_eq_mul]
omit [FloatOps F] in
theorem expect_a1s (q : Fin 8) : (sched S1 P2 P3).expect (a1sCell c q) 0 = N1 := by
  unfold Schedule.expect Schedule.amountOf; rw [duties_a1s, Finset.sum_singleton, amount_a1s]
omit [FloatOps F] in
theorem expect_a1r (q : Fin 8) : (sched S1 P2 P3).expect (a1rCell c q) 0 = N1 := by
  unfold Schedule.expect Schedule.amountOf; rw [duties_a1r, Finset.sum_singleton, amount_a1r]
omit [FloatOps F] in
theorem expect_a2s (q : Fin 8) (s : ℕ) (hs : s % 4 ≠ 0) : (sched S1 P2 P3).expect (a2sCell c (slot (yc c) q s)) 0 = N2 := by
  unfold Schedule.expect Schedule.amountOf; rw [duties_a2s S1 P2 P3 c q s hs, Finset.sum_singleton, amount_a2s]
omit [FloatOps F] in
theorem expect_a2r (q : Fin 8) (s : ℕ) (hs : s % 4 ≠ 0) : (sched S1 P2 P3).expect (a2rCell c (slot (yc c) q s)) 0 = N2 := by
  unfold Schedule.expect Schedule.amountOf; rw [duties_a2r S1 P2 P3 c q s hs, Finset.sum_singleton, amount_a2r]
omit [FloatOps F] in
theorem expect_bs (q : Fin 8) (s : ℕ) (hs : s % 4 ≠ 0) : (sched S1 P2 P3).expect (bsCell c (slot (zc c) q s)) 0 = N3 := by
  unfold Schedule.expect Schedule.amountOf; rw [duties_bs S1 P2 P3 c q s hs, Finset.sum_singleton, amount_bs]
omit [FloatOps F] in
theorem expect_br (q : Fin 8) (s : ℕ) (hs : s % 4 ≠ 0) : (sched S1 P2 P3).expect (brCell c (slot (zc c) q s)) 0 = N3 := by
  unfold Schedule.expect Schedule.amountOf; rw [duties_br S1 P2 P3 c q s hs, Finset.sum_singleton, amount_br]

/-! ### Payloads -/

omit [FloatOps F] in
theorem payload_bar (k : D) : (sched S1 P2 P3).payload (barCell c) 0 k = barPay c k := by rw [payload_tc, kind_bar]; rfl
omit [FloatOps F] in
theorem payload_a1s (q : Fin 8) (d : D) : (sched S1 P2 P3).payload (a1sCell c q) 0 d = pts1 sendA1 c q (S1 c q) := by rw [payload_tc, kind_a1s]; rfl
omit [FloatOps F] in
theorem payload_a1r (q : Fin 8) (d : D) : (sched S1 P2 P3).payload (a1rCell c q) 0 d = pts1 commA1 c q (S1 (partner c) q) := by rw [payload_tc, kind_a1r]; rfl
omit [FloatOps F] in
theorem payload_a2s (i : Fin 32) (d : D) : (sched S1 P2 P3).payload (a2sCell c i) 0 d = pts2 sendA2 c i (P2 c i) := by rw [payload_tc, kind_a2s]; rfl
omit [FloatOps F] in
theorem payload_bs (i : Fin 32) (d : D) : (sched S1 P2 P3).payload (bsCell c i) 0 d = pts3 sendB c i (P3 c i) := by rw [payload_tc, kind_bs]; rfl
omit [FloatOps F] in
theorem payload_a2r_raw (i : Fin 32) (d : D) : (sched S1 P2 P3).payload (a2rCell c i) 0 d
    = pts2 commA2 c i (P2 (dev (zc c) (xc c) (i.val % 4)) (slot (yc c) (qOf i) 0)) := by rw [payload_tc, kind_a2r]; rfl
omit [FloatOps F] in
theorem payload_br_raw (i : Fin 32) (d : D) : (sched S1 P2 P3).payload (brCell c i) 0 d
    = pts3 commB c i (P3 (dev (i.val % 4) (xc c) (yc c)) (slot (zc c) (qOf i) 0)) := by rw [payload_tc, kind_br]; rfl

theorem dev_mod_y (z x y : ℕ) : dev z x (y % 4) = dev z x y := Fin.ext (by unfold dev; simp only [Nat.mod_mod])
theorem dev_mod_z (z x y : ℕ) : dev (z % 4) x y = dev z x y := Fin.ext (by unfold dev; simp only [Nat.mod_mod])
theorem dev_self : ∀ c : Dev nD, dev (zc c) (xc c) (yc c) = c := by decide

end Tables

end Cert.KernelIdeal.Proto

end
-- ==== Proof.ProtoTables.lean ====
/-
  The cross-device protocol, continued: payloads resolved at the owner and at the payer, the grants written out,
  what each device owes at launch, the levels, and the evidence each wait presents.
-/
import proofs.«900893_g7700000000000894_dist_matmul_mk_i_outk_m1024_n1024_k512_v7x_i32_f32_1_alg».proof.Proof.Proto
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (S1 : Dev nD → Fin 8 → C1 F) (P2 : Dev nD → Fin 32 → C2 F) (P3 : Dev nD → Fin 32 → C3 F)

/-! ## Payloads resolved at the owner and at the payer; the rest of a round -/

section Resolved
variable (c : Dev nD)

theorem slot_shift (v : ℕ) (q : Fin 8) (s : ℕ) : slot ((v + s) % 4) q 0 = slot v q s :=
  Fin.ext (by simp only [Cert.Mesh.slot_val]; omega)

omit [FloatOps F] in
/-- The owner's view: the slot of the row `t` ahead holds what the rail peer `t` sent from its slot of MY row. -/
theorem payload_a2r (q : Fin 8) (t : ℕ) (d : D) : (sched S1 P2 P3).payload (a2rCell c (slot (yc c) q t)) 0 d
    = pts2 commA2 c (slot (yc c) q t) (P2 (rail c t) (slot (yc c) q 0)) := by
  rw [payload_a2r_raw, slot_mod, dev_mod_y, qOf_slot]; rfl
omit [FloatOps F] in
theorem payload_br (q : Fin 8) (t : ℕ) (d : D) : (sched S1 P2 P3).payload (brCell c (slot (zc c) q t)) 0 d
    = pts3 commB c (slot (zc c) q t) (P3 (zpeer c t) (slot (zc c) q 0)) := by
  rw [payload_br_raw, slot_mod, dev_mod_z, qOf_slot]; rfl

omit [FloatOps F] in
/-- The payer's view: what my copy lands on the partner is my slot. -/
theorem payload_a1r_peer (q : Fin 8) (d : D) : (sched S1 P2 P3).payload (a1rCell (partner c) q) 0 d
    = pts1 commA1 (partner c) q (S1 c q) := by
  rw [payload_a1r, MeshFacts.partner_partner]
omit [FloatOps F] in
theorem payload_a2r_peer (q : Fin 8) (s : ℕ) (d : D) : (sched S1 P2 P3).payload (a2rCell (rail c s) (slot (yc c) q 0)) 0 d
    = pts2 commA2 (rail c s) (slot (yc c) q 0) (P2 c (slot (yc c) q s)) := by
  rw [payload_a2r_raw, slot_mod, qOf_slot, MeshFacts.zc_rail, MeshFacts.xc_rail, MeshFacts.yc_rail, dev_mod_y, Nat.add_zero, dev_self, slot_shift]
omit [FloatOps F] in
theorem payload_br_peer (q : Fin 8) (s : ℕ) (d : D) : (sched S1 P2 P3).payload (brCell (zpeer c s) (slot (zc c) q 0)) 0 d
    = pts3 commB (zpeer c s) (slot (zc c) q 0) (P3 c (slot (zc c) q s)) := by
  rw [payload_br_raw, slot_mod, qOf_slot, MeshFacts.zc_zpeer, MeshFacts.xc_zpeer, MeshFacts.yc_zpeer, dev_mod_z, Nat.add_zero, dev_self, slot_shift]

omit [FloatOps F] in
theorem grant2_shift (d : Dev nD) (v s : ℕ) : (grant2 d ((v + s) % 4) 0 : sProp 𝕄) = grant2 d v s := by
  unfold grant2; exact bigSep_congr fun q _ => by rw [slot_shift]
omit [FloatOps F] in
theorem grant3_shift (d : Dev nD) (v s : ℕ) : (grant3 d ((v + s) % 4) 0 : sProp 𝕄) = grant3 d v s := by
  unfold grant3; exact bigSep_congr fun q _ => by rw [slot_shift]

omit [FloatOps F] in
/-- What my seven signals hand over: my own grants. -/
theorem barPay_partner : (barPay (partner c) 0 : sProp 𝕄) = grant1 c := by
  unfold barPay; rw [if_pos (show ((0 : D).val = 0) from rfl), MeshFacts.partner_partner]
omit [FloatOps F] in
theorem barPay_rail (s : ℕ) (h1 : 1 ≤ s) (h3 : s ≤ 3) : (barPay (rail c s) ⟨s, by omega⟩ : sProp 𝕄) = grant2 c (yc c) s := by
  unfold barPay
  rw [if_neg (by simp only; omega), if_pos (by simp only; omega)]
  simp only []
  rw [MeshFacts.rail_rail c s (by omega), MeshFacts.yc_rail, grant2_shift]
omit [FloatOps F] in
theorem barPay_zpeer (s : ℕ) (h1 : 1 ≤ s) (h3 : s ≤ 3) : (barPay (zpeer c s) ⟨3 + s, by omega⟩ : sProp 𝕄) = grant3 c (zc c) s := by
  unfold barPay
  rw [if_neg (by simp only; omega), if_neg (by simp only; omega)]
  simp only []
  rw [show 7 - (3 + s) = 4 - s from by omega, MeshFacts.zpeer_zpeer c s (by omega), MeshFacts.zc_zpeer, grant3_shift]

omit [FloatOps F] in
/-- The rest of the barrier cell's round, no duty taken: the seven grants. -/
theorem rest_bar : bigSep ((sched S1 P2 P3).duties (barCell c) 0 \ ∅) (fun d => (sched S1 P2 P3).payload (barCell c) 0 d)
    = iprop(barPay c 0 ∗ barPay c 1 ∗ barPay c 2 ∗ barPay c 3 ∗ barPay c 4 ∗ barPay c 5 ∗ barPay c 6) := by
  rw [Finset.sdiff_empty, duties_bar, bigSep_univ_eq_bigSepL [0, 1, 2, 3, 4, 5, 6] (by decide) (by decide)]
  simp only [bigSepL_cons_cons, bigSepL_singleton, payload_bar]
  rfl
omit [FloatOps F] in
/-- The rest of a one-duty round is the duty's payload. -/
theorem rest_one (g : GSem nD τ sig) (h : (sched S1 P2 P3).duties g 0 = {0}) :
    bigSep ((sched S1 P2 P3).duties g 0 \ ∅) (fun d => (sched S1 P2 P3).payload g 0 d) = (sched S1 P2 P3).payload g 0 0 := by
  rw [Finset.sdiff_empty, h, bigSep_singleton]

/-! ### The grants written out, chunk by chunk -/

omit [FloatOps F] in
theorem grant1_eq (d : Dev nD) : (grant1 d : sProp 𝕄)
    = iprop((∃ f : Buf (Elt F) ((d : Thread nD τ).loc cc0_scratch3), ((d : Thread nD τ).loc cc0_scratch3) ↦{fullShare} f)
      ∗ reached ER (a1rCell d 0) 0 ∗ reached ER (a1rCell d 1) 0 ∗ reached ER (a1rCell d 2) 0 ∗ reached ER (a1rCell d 3) 0 ∗ reached ER (a1rCell d 4) 0 ∗ reached ER (a1rCell d 5) 0 ∗ reached ER (a1rCell d 6) 0 ∗ reached ER (a1rCell d 7) 0) := by
  unfold grant1
  rw [bigSep_univ_eq_bigSepL [(0 : Fin 8), 1, 2, 3, 4, 5, 6, 7] (by decide) (by decide)]
  rfl
omit [FloatOps F] in
theorem grant2_eq (d : Dev nD) (v s : ℕ) : (grant2 d v s : sProp 𝕄)
    = iprop(((∃ f, (slot2 commA2 (slot v 0 s)).view.loc (d : Thread nD τ) ↦[(slot2 commA2 (slot v 0 s)).view.set]{fullShare} f) ∗ reached ER (a2rCell d (slot v 0 s)) 0)
      ∗ ((∃ f, (slot2 commA2 (slot v 1 s)).view.loc (d : Thread nD τ) ↦[(slot2 commA2 (slot v 1 s)).view.set]{fullShare} f) ∗ reached ER (a2rCell d (slot v 1 s)) 0)
      ∗ ((∃ f, (slot2 commA2 (slot v 2 s)).view.loc (d : Thread nD τ) ↦[(slot2 commA2 (slot v 2 s)).view.set]{fullShare} f) ∗ reached ER (a2rCell d (slot v 2 s)) 0)
      ∗ ((∃ f, (slot2 commA2 (slot v 3 s)).view.loc (d : Thread nD τ) ↦[(slot2 commA2 (slot v 3 s)).view.set]{fullShare} f) ∗ reached ER (a2rCell d (slot v 3 s)) 0)
      ∗ ((∃ f, (slot2 commA2 (slot v 4 s)).view.loc (d : Thread nD τ) ↦[(slot2 commA2 (slot v 4 s)).view.set]{fullShare} f) ∗ reached ER (a2rCell d (slot v 4 s)) 0)
      ∗ ((∃ f, (slot2 commA2 (slot v 5 s)).view.loc (d : Thread nD τ) ↦[(slot2 commA2 (slot v 5 s)).view.set]{fullShare} f) ∗ reached ER (a2rCell d (slot v 5 s)) 0)
      ∗ ((∃ f, (slot2 commA2 (slot v 6 s)).view.loc (d : Thread nD τ) ↦[(slot2 commA2 (slot v 6 s)).view.set]{fullShare} f) ∗ reached ER (a2rCell d (slot v 6 s)) 0)
      ∗ ((∃ f, (slot2 commA2 (slot v 7 s)).view.loc (d : Thread nD τ) ↦[(slot2 commA2 (slot v 7 s)).view.set]{fullShare} f) ∗ reached ER (a2rCell d (slot v 7 s)) 0)) := by
  unfold grant2
  rw [bigSep_univ_eq_bigSepL [(0 : Fin 8), 1, 2, 3, 4, 5, 6, 7] (by decide) (by decide)]
  rfl
omit [FloatOps F] in
theorem grant3_eq (d : Dev nD) (v s : ℕ) : (grant3 d v s : sProp 𝕄)
    = iprop(((∃ f, (slot3 commB (slot v 0 s)).view.loc (d : Thread nD τ) ↦[(slot3 commB (slot v 0 s)).view.set]{fullShare} f) ∗ reached ER (brCell d (slot v 0 s)) 0)
      ∗ ((∃ f, (slot3 commB (slot v 1 s)).view.loc (d : Thread nD τ) ↦[(slot3 commB (slot v 1 s)).view.set]{fullShare} f) ∗ reached ER (brCell d (slot v 1 s)) 0)
      ∗ ((∃ f, (slot3 commB (slot v 2 s)).view.loc (d : Thread nD τ) ↦[(slot3 commB (slot v 2 s)).view.set]{fullShare} f) ∗ reached ER (brCell d (slot v 2 s)) 0)
      ∗ ((∃ f, (slot3 commB (slot v 3 s)).view.loc (d : Thread nD τ) ↦[(slot3 commB (slot v 3 s)).view.set]{fullShare} f) ∗ reached ER (brCell d (slot v 3 s)) 0)
      ∗ ((∃ f, (slot3 commB (slot v 4 s)).view.loc (d : Thread nD τ) ↦[(slot3 commB (slot v 4 s)).view.set]{fullShare} f) ∗ reached ER (brCell d (slot v 4 s)) 0)
      ∗ ((∃ f, (slot3 commB (slot v 5 s)).view.loc (d : Thread nD τ) ↦[(slot3 commB (slot v 5 s)).view.set]{fullShare} f) ∗ reached ER (brCell d (slot v 5 s)) 0)
      ∗ ((∃ f, (slot3 commB (slot v 6 s)).view.loc (d : Thread nD τ) ↦[(slot3 commB (slot v 6 s)).view.set]{fullShare} f) ∗ reached ER (brCell d (slot v 6 s)) 0)
      ∗ ((∃ f, (slot3 commB (slot v 7 s)).view.loc (d : Thread nD τ) ↦[(slot3 commB (slot v 7 s)).view.set]{fullShare} f) ∗ reached ER (brCell d (slot v 7 s)) 0)) := by
  unfold grant3
  rw [bigSep_univ_eq_bigSepL [(0 : Fin 8), 1, 2, 3, 4, 5, 6, 7] (by decide) (by decide)]
  rfl

/-! ### The payer's side of the seven barrier duties -/

omit [FloatOps F] in
theorem payload_bar_partner : (sched S1 P2 P3).payload (barCell (partner c)) 0 0 = grant1 c := by
  rw [payload_bar, barPay_partner]
omit [FloatOps F] in
theorem payload_bar_rail1 : (sched S1 P2 P3).payload (barCell (rail c 1)) 0 1 = grant2 c (yc c) 1 := by
  rw [payload_bar]; exact barPay_rail c 1 (by decide) (by decide)
omit [FloatOps F] in
theorem payload_bar_rail2 : (sched S1 P2 P3).payload (barCell (rail c 2)) 0 2 = grant2 c (yc c) 2 := by
  rw [payload_bar]; exact barPay_rail c 2 (by decide) (by decide)
omit [FloatOps F] in
theorem payload_bar_rail3 : (sched S1 P2 P3).payload (barCell (rail c 3)) 0 3 = grant2 c (yc c) 3 := by
  rw [payload_bar]; exact barPay_rail c 3 (by decide) (by decide)
omit [FloatOps F] in
theorem payload_bar_zpeer1 : (sched S1 P2 P3).payload (barCell (zpeer c 1)) 0 4 = grant3 c (zc c) 1 := by
  rw [payload_bar]; exact barPay_zpeer c 1 (by decide) (by decide)
omit [FloatOps F] in
theorem payload_bar_zpeer2 : (sched S1 P2 P3).payload (barCell (zpeer c 2)) 0 5 = grant3 c (zc c) 2 := by
  rw [payload_bar]; exact barPay_zpeer c 2 (by decide) (by decide)
omit [FloatOps F] in
theorem payload_bar_zpeer3 : (sched S1 P2 P3).payload (barCell (zpeer c 3)) 0 6 = grant3 c (zc c) 3 := by
  rw [payload_bar]; exact barPay_zpeer c 3 (by decide) (by decide)

end Resolved

/-! ## What each device owes at launch; the levels -/

/-- The arrivals of stage 3 a device owes, the first to be paid last in the sum. -/
abbrev O3 (c : Dev nD) : CellTallies nD τ sig Unit :=
  tallyAt (brCell (zpeer c 3) (slot (zc c) 7 0)) () N3 + tallyAt (brCell (zpeer c 2) (slot (zc c) 7 0)) () N3 + tallyAt (brCell (zpeer c 1) (slot (zc c) 7 0)) () N3
    + tallyAt (brCell (zpeer c 3) (slot (zc c) 6 0)) () N3 + tallyAt (brCell (zpeer c 2) (slot (zc c) 6 0)) () N3 + tallyAt (brCell (zpeer c 1) (slot (zc c) 6 0)) () N3
    + tallyAt (brCell (zpeer c 3) (slot (zc c) 5 0)) () N3 + tallyAt (brCell (zpeer c 2) (slot (zc c) 5 0)) () N3 + tallyAt (brCell (zpeer c 1) (slot (zc c) 5 0)) () N3
    + tallyAt (brCell (zpeer c 3) (slot (zc c) 4 0)) () N3 + tallyAt (brCell (zpeer c 2) (slot (zc c) 4 0)) () N3 + tallyAt (brCell (zpeer c 1) (slot (zc c) 4 0)) () N3
    + tallyAt (brCell (zpeer c 3) (slot (zc c) 3 0)) () N3 + tallyAt (brCell (zpeer c 2) (slot (zc c) 3 0)) () N3 + tallyAt (brCell (zpeer c 1) (slot (zc c) 3 0)) () N3
    + tallyAt (brCell (zpeer c 3) (slot (zc c) 2 0)) () N3 + tallyAt (brCell (zpeer c 2) (slot (zc c) 2 0)) () N3 + tallyAt (brCell (zpeer c 1) (slot (zc c) 2 0)) () N3
    + tallyAt (brCell (zpeer c 3) (slot (zc c) 1 0)) () N3 + tallyAt (brCell (zpeer c 2) (slot (zc c) 1 0)) () N3 + tallyAt (brCell (zpeer c 1) (slot (zc c) 1 0)) () N3
    + tallyAt (brCell (zpeer c 3) (slot (zc c) 0 0)) () N3 + tallyAt (brCell (zpeer c 2) (slot (zc c) 0 0)) () N3 + tallyAt (brCell (zpeer c 1) (slot (zc c) 0 0)) () N3
/-- … and those of stage 2, -/
abbrev O2 (c : Dev nD) : CellTallies nD τ sig Unit :=
  O3 c
    + tallyAt (a2rCell (rail c 3) (slot (yc c) 7 0)) () N2 + tallyAt (a2rCell (rail c 2) (slot (yc c) 7 0)) () N2 + tallyAt (a2rCell (rail c 1) (slot (yc c) 7 0)) () N2
    + tallyAt (a2rCell (rail c 3) (slot (yc c) 6 0)) () N2 + tallyAt (a2rCell (rail c 2) (slot (yc c) 6 0)) () N2 + tallyAt (a2rCell (rail c 1) (slot (yc c) 6 0)) () N2
    + tallyAt (a2rCell (rail c 3) (slot (yc c) 5 0)) () N2 + tallyAt (a2rCell (rail c 2) (slot (yc c) 5 0)) () N2 + tallyAt (a2rCell (rail c 1) (slot (yc c) 5 0)) () N2
    + tallyAt (a2rCell (rail c 3) (slot (yc c) 4 0)) () N2 + tallyAt (a2rCell (rail c 2) (slot (yc c) 4 0)) () N2 + tallyAt (a2rCell (rail c 1) (slot (yc c) 4 0)) () N2
    + tallyAt (a2rCell (rail c 3) (slot (yc c) 3 0)) () N2 + tallyAt (a2rCell (rail c 2) (slot (yc c) 3 0)) () N2 + tallyAt (a2rCell (rail c 1) (slot (yc c) 3 0)) () N2
    + tallyAt (a2rCell (rail c 3) (slot (yc c) 2 0)) () N2 + tallyAt (a2rCell (rail c 2) (slot (yc c) 2 0)) () N2 + tallyAt (a2rCell (rail c 1) (slot (yc c) 2 0)) () N2
    + tallyAt (a2rCell (rail c 3) (slot (yc c) 1 0)) () N2 + tallyAt (a2rCell (rail c 2) (slot (yc c) 1 0)) () N2 + tallyAt (a2rCell (rail c 1) (slot (yc c) 1 0)) () N2
    + tallyAt (a2rCell (rail c 3) (slot (yc c) 0 0)) () N2 + tallyAt (a2rCell (rail c 2) (slot (yc c) 0 0)) () N2 + tallyAt (a2rCell (rail c 1) (slot (yc c) 0 0)) () N2
/-- … and those of stage 1. -/
abbrev O1 (c : Dev nD) : CellTallies nD τ sig Unit :=
  O2 c
    + tallyAt (a1rCell (partner c) 7) () N1 + tallyAt (a1rCell (partner c) 6) () N1 + tallyAt (a1rCell (partner c) 5) () N1
    + tallyAt (a1rCell (partner c) 4) () N1 + tallyAt (a1rCell (partner c) 3) () N1 + tallyAt (a1rCell (partner c) 2) () N1
    + tallyAt (a1rCell (partner c) 1) () N1 + tallyAt (a1rCell (partner c) 0) () N1
/-- What device `c` owes at launch: one unit to each of its seven peers' barrier cells (paid first: the partner, the
    rail peers 1, 2, 3, the plane peers 1, 2, 3), then a slot's credit for each copy, in the order the copies start. -/
def O₀ (c : Dev nD) : CellTallies nD τ sig Unit :=
  O1 c
    + tallyAt (barCell (zpeer c 3)) () 1 + tallyAt (barCell (zpeer c 2)) () 1 + tallyAt (barCell (zpeer c 1)) () 1
    + tallyAt (barCell (rail c 3)) () 1 + tallyAt (barCell (rail c 2)) () 1 + tallyAt (barCell (rail c 1)) () 1
    + tallyAt (barCell (partner c)) () 1

/-- The same payments as a list, in the order they are made. -/
def pays (c : Dev nD) : List (GSem nD τ sig × ℕ) :=
  [(barCell (partner c), 1),
   (barCell (rail c 1), 1),
   (barCell (rail c 2), 1),
   (barCell (rail c 3), 1),
   (barCell (zpeer c 1), 1),
   (barCell (zpeer c 2), 1),
   (barCell (zpeer c 3), 1),
   (a1rCell (partner c) 0, N1),
   (a1rCell (partner c) 1, N1),
   (a1rCell (partner c) 2, N1),
   (a1rCell (partner c) 3, N1),
   (a1rCell (partner c) 4, N1),
   (a1rCell (partner c) 5, N1),
   (a1rCell (partner c) 6, N1),
   (a1rCell (partner c) 7, N1),
   (a2rCell (rail c 1) (slot (yc c) 0 0), N2),
   (a2rCell (rail c 2) (slot (yc c) 0 0), N2),
   (a2rCell (rail c 3) (slot (yc c) 0 0), N2),
   (a2rCell (rail c 1) (slot (yc c) 1 0), N2),
   (a2rCell (rail c 2) (slot (yc c) 1 0), N2),
   (a2rCell (rail c 3) (slot (yc c) 1 0), N2),
   (a2rCell (rail c 1) (slot (yc c) 2 0), N2),
   (a2rCell (rail c 2) (slot (yc c) 2 0), N2),
   (a2rCell (rail c 3) (slot (yc c) 2 0), N2),
   (a2rCell (rail c 1) (slot (yc c) 3 0), N2),
   (a2rCell (rail c 2) (slot (yc c) 3 0), N2),
   (a2rCell (rail c 3) (slot (yc c) 3 0), N2),
   (a2rCell (rail c 1) (slot (yc c) 4 0), N2),
   (a2rCell (rail c 2) (slot (yc c) 4 0), N2),
   (a2rCell (rail c 3) (slot (yc c) 4 0), N2),
   (a2rCell (rail c 1) (slot (yc c) 5 0), N2),
   (a2rCell (rail c 2) (slot (yc c) 5 0), N2),
   (a2rCell (rail c 3) (slot (yc c) 5 0), N2),
   (a2rCell (rail c 1) (slot (yc c) 6 0), N2),
   (a2rCell (rail c 2) (slot (yc c) 6 0), N2),
   (a2rCell (rail c 3) (slot (yc c) 6 0), N2),
   (a2rCell (rail c 1) (slot (yc c) 7 0), N2),
   (a2rCell (rail c 2) (slot (yc c) 7 0), N2),
   (a2rCell (rail c 3) (slot (yc c) 7 0), N2),
   (brCell (zpeer c 1) (slot (zc c) 0 0), N3),
   (brCell (zpeer c 2) (slot (zc c) 0 0), N3),
   (brCell (zpeer c 3) (slot (zc c) 0 0), N3),
   (brCell (zpeer c 1) (slot (zc c) 1 0), N3),
   (brCell (zpeer c 2) (slot (zc c) 1 0), N3),
   (brCell (zpeer c 3) (slot (zc c) 1 0), N3),
   (brCell (zpeer c 1) (slot (zc c) 2 0), N3),
   (brCell (zpeer c 2) (slot (zc c) 2 0), N3),
   (brCell (zpeer c 3) (slot (zc c) 2 0), N3),
   (brCell (zpeer c 1) (slot (zc c) 3 0), N3),
   (brCell (zpeer c 2) (slot (zc c) 3 0), N3),
   (brCell (zpeer c 3) (slot (zc c) 3 0), N3),
   (brCell (zpeer c 1) (slot (zc c) 4 0), N3),
   (brCell (zpeer c 2) (slot (zc c) 4 0), N3),
   (brCell (zpeer c 3) (slot (zc c) 4 0), N3),
   (brCell (zpeer c 1) (slot (zc c) 5 0), N3),
   (brCell (zpeer c 2) (slot (zc c) 5 0), N3),
   (brCell (zpeer c 3) (slot (zc c) 5 0), N3),
   (brCell (zpeer c 1) (slot (zc c) 6 0), N3),
   (brCell (zpeer c 2) (slot (zc c) 6 0), N3),
   (brCell (zpeer c 3) (slot (zc c) 6 0), N3),
   (brCell (zpeer c 1) (slot (zc c) 7 0), N3),
   (brCell (zpeer c 2) (slot (zc c) 7 0), N3),
   (brCell (zpeer c 3) (slot (zc c) 7 0), N3)]

/-- What is owed while the payments `l` are still to make (the first of them the last summand). -/
def owe : List (GSem nD τ sig × ℕ) → CellTallies nD τ sig Unit
  | [] => 0
  | [p] => tallyAt p.1 () p.2
  | p :: p' :: l => owe (p' :: l) + tallyAt p.1 () p.2

/-- What is still owed after the first `k` payments. -/
def Oafter (c : Dev nD) (k : ℕ) : CellTallies nD τ sig Unit := owe ((pays c).drop k)

theorem pays_length (c : Dev nD) : (pays c).length = 63 := rfl
theorem O₀_eq (c : Dev nD) : O₀ c = Oafter c 0 := rfl
theorem O1_eq (c : Dev nD) : O1 c = Oafter c 7 := rfl
theorem O2_eq (c : Dev nD) : O2 c = Oafter c 15 := rfl
theorem O3_eq (c : Dev nD) : O3 c = Oafter c 39 := rfl
theorem Oafter_done (c : Dev nD) (k : ℕ) (hk : 63 ≤ k) : Oafter c k = 0 := by
  unfold Oafter; rw [List.drop_eq_nil_of_le (by rw [pays_length]; exact hk)]; rfl

def L (g : GSem nD τ sig) : Finset Unit := if g.1.2 = .tc then {()} else ∅
/-- Barrier cells at 1, the receive cells of the three stages at 2, 3, 4, everything else (staging, send) at 0. -/
def lvK : CK → ℕ
  | .bar => 1
  | .a1r _ => 2
  | .a2r _ => 3
  | .br _ => 4
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]; rfl
theorem lv_a1s (c : Dev nD) (q : Fin 8) : lv (a1sCell c q) () = 0 := by unfold lv; rw [kind_a1s]; rfl
theorem lv_a1r (c : Dev nD) (q : Fin 8) : lv (a1rCell c q) () = 2 := by unfold lv; rw [kind_a1r]; rfl
theorem lv_a2s (c : Dev nD) (i : Fin 32) : lv (a2sCell c i) () = 0 := by unfold lv; rw [kind_a2s]; rfl
theorem lv_a2r (c : Dev nD) (i : Fin 32) : lv (a2rCell c i) () = 3 := by unfold lv; rw [kind_a2r]; rfl
theorem lv_bs (c : Dev nD) (i : Fin 32) : lv (bsCell c i) () = 0 := by unfold lv; rw [kind_bs]; rfl
theorem lv_br (c : Dev nD) (i : Fin 32) : lv (brCell c i) () = 4 := by unfold lv; rw [kind_br]; rfl
theorem lv_stage (c : Dev nD) (n : DmaSem sig) (h : n.val < 3) : lv ((c : Thread nD τ), .dma n) () = 0 := by unfold lv; rw [kind_stage n h]; rfl

theorem owe_cons (p : GSem nD τ sig × ℕ) (l : List (GSem nD τ sig × ℕ)) : owe (p :: l) = owe l + tallyAt p.1 () p.2 := by
  cases l with
  | nil => exact (zero_add _).symm
  | cons p' l => rfl

theorem owe_pos {l : List (GSem nD τ sig × ℕ)} {g : GSem nD τ sig} {u : Unit} (h : 0 < owe l g u) : ∃ p ∈ l, g = p.1 := by
  induction l with
  | nil => exact absurd h (Nat.lt_irrefl 0)
  | cons p l ih =>
    rw [owe_cons] at h
    rcases Pipeline.add_pos_cases h with h' | h'
    · obtain ⟨p', hp', e⟩ := ih h'; exact ⟨p', List.mem_cons_of_mem _ hp', e⟩
    · rw [tallyAt_apply] at h'
      by_cases hg : g = p.1 ∧ u = ()
      · exact ⟨p, List.mem_cons_self, hg.1⟩
      · rw [if_neg hg] at h'; exact absurd h' (Nat.lt_irrefl 0)

omit [FloatOps F] in
/-- A wait is allowed while everything still to be paid sits strictly above the waited cell. -/
theorem mayWait_owe (c : Dev nD) (s : SemLoc sig) (l : List (GSem nD τ sig × ℕ))
    (h : ∀ p ∈ l, p.1.1.2 = .tc ∧ lv ((c : Thread nD τ), s) () < lv p.1 ()) :
    (levAts L lv : sProp 𝕄) ⊢ MayWait (c : Thread nD τ) s () (owe l) :=
  Pipeline.mayWait_of_levAts (by rw [L_tc]; exact Finset.mem_singleton_self _) fun g i hg => by
    obtain ⟨p, hp, rfl⟩ := owe_pos hg
    exact ⟨by unfold L; rw [if_pos (h p hp).1]; exact Finset.mem_singleton_self _, (h p hp).2⟩

/-- Every payment is to a TensorCore's cell, and the level of the `k`-th and later ones is at least
    1 (all), 2 (after the seven signals), 3 (after stage 1's copies), 4 (after stage 2's). -/
theorem pays_facts (c : Dev nD) : ∀ p ∈ pays c, p.1.1.2 = .tc ∧ 1 ≤ lv p.1 () := by
  intro p hp
  simp only [pays, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    (refine ⟨rfl, ?_⟩; first | (rw [lv_bar]) | (rw [lv_a1r]; decide) | (rw [lv_a2r]; decide) | (rw [lv_br]; decide))
theorem pays_facts7 (c : Dev nD) : ∀ p ∈ (pays c).drop 7, 2 ≤ lv p.1 () := by
  intro p hp
  simp only [pays, List.drop_succ_cons, List.drop_zero, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    first | (rw [lv_a1r]) | (rw [lv_a2r]; decide) | (rw [lv_br]; decide)
theorem pays_facts15 (c : Dev nD) : ∀ p ∈ (pays c).drop 15, 3 ≤ lv p.1 () := by
  intro p hp
  simp only [pays, List.drop_succ_cons, List.drop_zero, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    first | (rw [lv_a2r]) | (rw [lv_br]; decide)
theorem pays_facts39 (c : Dev nD) : ∀ p ∈ (pays c).drop 39, 4 ≤ lv p.1 () := by
  intro p hp
  simp only [pays, List.drop_succ_cons, List.drop_zero, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl <;> rw [lv_br]

theorem mem_drop_of_le {α : Type} {l : List α} {a b : ℕ} (h : a ≤ b) {p : α} (hp : p ∈ l.drop b) : p ∈ l.drop a := by
  obtain ⟨d, rfl⟩ := Nat.exists_eq_add_of_le h
  rw [← List.drop_drop] at hp
  exact List.mem_of_mem_drop hp

omit [FloatOps F] in
/-- A staging wait (level 0), whatever is still owed. -/
theorem mayWait_stage (c : Dev nD) (n : DmaSem sig) (hn : n.val < 3) (k : ℕ) :
    (levAts L lv : sProp 𝕄) ⊢ MayWait (c : Thread nD τ) (.dma n) () (Oafter c k) :=
  mayWait_owe c _ _ fun p hp => by
    have := pays_facts c p (List.mem_of_mem_drop hp)
    exact ⟨this.1, by rw [lv_stage c n hn]; exact this.2⟩
omit [FloatOps F] in
/-- The barrier wait (level 1), once the seven signals are sent: only arrivals are owed. -/
theorem mayWait_bar (c : Dev nD) (k : ℕ) (hk : 7 ≤ k) :
    (levAts L lv : sProp 𝕄) ⊢ MayWait (c : Thread nD τ) (.reg barS) () (Oafter c k) :=
  mayWait_owe c _ _ fun p hp =>
    ⟨(pays_facts c p (List.mem_of_mem_drop hp)).1, by rw [show lv ((c : Thread nD τ), .reg barS) () = 1 from lv_bar c]; exact pays_facts7 c p (mem_drop_of_le hk hp)⟩
omit [FloatOps F] in
/-- A stage-1 receive wait (level 2), once stage 1's copies are started. -/
theorem mayWait_a1r (c : Dev nD) (q : Fin 8) (k : ℕ) (hk : 15 ≤ k) :
    (levAts L lv : sProp 𝕄) ⊢ MayWait (c : Thread nD τ) (.dma (sem8 cc0_scratch10 q)) () (Oafter c k) :=
  mayWait_owe c _ _ fun p hp =>
    ⟨(pays_facts c p (List.mem_of_mem_drop hp)).1, by rw [show lv ((c : Thread nD τ), .dma (sem8 cc0_scratch10 q)) () = 2 from lv_a1r c q]; exact pays_facts15 c p (mem_drop_of_le hk hp)⟩
omit [FloatOps F] in
/-- A stage-2 receive wait (level 3), once stage 2's copies are started. -/
theorem mayWait_a2r (c : Dev nD) (i : Fin 32) (k : ℕ) (hk : 39 ≤ k) :
    (levAts L lv : sProp 𝕄) ⊢ MayWait (c : Thread nD τ) (.dma (sem32 cc0_scratch12 i)) () (Oafter c k) :=
  mayWait_owe c _ _ fun p hp =>
    ⟨(pays_facts c p (List.mem_of_mem_drop hp)).1, by rw [show lv ((c : Thread nD τ), .dma (sem32 cc0_scratch12 i)) () = 3 from lv_a2r c i]; exact pays_facts39 c p (mem_drop_of_le hk hp)⟩
omit [FloatOps F] in
/-- Any wait once nothing is owed: the stage-3 receive waits and the 56 send waits. -/
theorem mayWait_none (c : Dev nD) (s : SemLoc sig) : (levAts L lv : sProp 𝕄) ⊢ MayWait (c : Thread nD τ) s () 0 := by
  rw [MayWait_zero]; iintro -; iempintro
omit [FloatOps F] in
theorem mayWait_done (c : Dev nD) (s : SemLoc sig) (k : ℕ) (hk : 63 ≤ k) :
    (levAts L lv : sProp 𝕄) ⊢ MayWait (c : Thread nD τ) s () (Oafter c k) := by
  rw [Oafter_done c k hk]; exact mayWait_none c s

end Cert.KernelIdeal.Proto

end
-- ==== Proof.Proto0.lean ====
/-
  The protocol with the data payloads left open: the same cells, duties, amounts and barrier grants, every slot
  handed over at some contents.
-/
import proofs.«900893_g7700000000000894_dist_matmul_mk_i_outk_m1024_n1024_k512_v7x_i32_f32_1_alg».proof.Proof.ProtoTables

noncomputable section

namespace Cert.KernelIdeal.Proto

open Cert.KernelIdeal Cert.KernelIdeal.Gen
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### The grants as flat chains -/

omit [FloatOps F] in
theorem sep_assoc_eq (P Q R : sProp 𝕄) : (iprop((P ∗ Q) ∗ R) : sProp 𝕄) = iprop(P ∗ Q ∗ R) := by
  refine BI.Entails.antisymm (show _ ⊢ (_ : sProp 𝕄) from ?_) (show _ ⊢ (_ : sProp 𝕄) from ?_)
  · iintro ⟨⟨HP, HQ⟩, HR⟩
    isplitl [HP]
    · iexact HP
    isplitl [HQ]
    · iexact HQ
    · iexact HR
  · iintro ⟨HP, HQ, HR⟩
    isplitr [HR]
    · isplitl [HP]
      · iexact HP
      · iexact HQ
    · iexact HR
omit [FloatOps F] in
theorem grant2_flat (d : Dev nD) (v s : ℕ) : (grant2 d v s : sProp 𝕄)
    = iprop((∃ f, (slot2 commA2 (slot v 0 s)).view.loc (d : Thread nD τ) ↦[(slot2 commA2 (slot v 0 s)).view.set]{fullShare} f) ∗ reached ER (a2rCell d (slot v 0 s)) 0
      ∗ (∃ f, (slot2 commA2 (slot v 1 s)).view.loc (d : Thread nD τ) ↦[(slot2 commA2 (slot v 1 s)).view.set]{fullShare} f) ∗ reached ER (a2rCell d (slot v 1 s)) 0
      ∗ (∃ f, (slot2 commA2 (slot v 2 s)).view.loc (d : Thread nD τ) ↦[(slot2 commA2 (slot v 2 s)).view.set]{fullShare} f) ∗ reached ER (a2rCell d (slot v 2 s)) 0
      ∗ (∃ f, (slot2 commA2 (slot v 3 s)).view.loc (d : Thread nD τ) ↦[(slot2 commA2 (slot v 3 s)).view.set]{fullShare} f) ∗ reached ER (a2rCell d (slot v 3 s)) 0
      ∗ (∃ f, (slot2 commA2 (slot v 4 s)).view.loc (d : Thread nD τ) ↦[(slot2 commA2 (slot v 4 s)).view.set]{fullShare} f) ∗ reached ER (a2rCell d (slot v 4 s)) 0
      ∗ (∃ f, (slot2 commA2 (slot v 5 s)).view.loc (d : Thread nD τ) ↦[(slot2 commA2 (slot v 5 s)).view.set]{fullShare} f) ∗ reached ER (a2rCell d (slot v 5 s)) 0
      ∗ (∃ f, (slot2 commA2 (slot v 6 s)).view.loc (d : Thread nD τ) ↦[(slot2 commA2 (slot v 6 s)).view.set]{fullShare} f) ∗ reached ER (a2rCell d (slot v 6 s)) 0
      ∗ (∃ f, (slot2 commA2 (slot v 7 s)).view.loc (d : Thread nD τ) ↦[(slot2 commA2 (slot v 7 s)).view.set]{fullShare} f) ∗ reached ER (a2rCell d (slot v 7 s)) 0) := by
  rw [grant2_eq]; simp only [sep_assoc_eq]
omit [FloatOps F] in
theorem grant3_flat (d : Dev nD) (v s : ℕ) : (grant3 d v s : sProp 𝕄)
    = iprop((∃ f, (slot3 commB (slot v 0 s)).view.loc (d : Thread nD τ) ↦[(slot3 commB (slot v 0 s)).view.set]{fullShare} f) ∗ reached ER (brCell d (slot v 0 s)) 0
      ∗ (∃ f, (slot3 commB (slot v 1 s)).view.loc (d : Thread nD τ) ↦[(slot3 commB (slot v 1 s)).view.set]{fullShare} f) ∗ reached ER (brCell d (slot v 1 s)) 0
      ∗ (∃ f, (slot3 commB (slot v 2 s)).view.loc (d : Thread nD τ) ↦[(slot3 commB (slot v 2 s)).view.set]{fullShare} f) ∗ reached ER (brCell d (slot v 2 s)) 0
      ∗ (∃ f, (slot3 commB (slot v 3 s)).view.loc (d : Thread nD τ) ↦[(slot3 commB (slot v 3 s)).view.set]{fullShare} f) ∗ reached ER (brCell d (slot v 3 s)) 0
      ∗ (∃ f, (slot3 commB (slot v 4 s)).view.loc (d : Thread nD τ) ↦[(slot3 commB (slot v 4 s)).view.set]{fullShare} f) ∗ reached ER (brCell d (slot v 4 s)) 0
      ∗ (∃ f, (slot3 commB (slot v 5 s)).view.loc (d : Thread nD τ) ↦[(slot3 commB (slot v 5 s)).view.set]{fullShare} f) ∗ reached ER (brCell d (slot v 5 s)) 0
      ∗ (∃ f, (slot3 commB (slot v 6 s)).view.loc (d : Thread nD τ) ↦[(slot3 commB (slot v 6 s)).view.set]{fullShare} f) ∗ reached ER (brCell d (slot v 6 s)) 0
      ∗ (∃ f, (slot3 commB (slot v 7 s)).view.loc (d : Thread nD τ) ↦[(slot3 commB (slot v 7 s)).view.set]{fullShare} f) ∗ reached ER (brCell d (slot v 7 s)) 0) := by
  rw [grant3_eq]; simp only [sep_assoc_eq]

/-! ### What a device receives at its barrier wait, duty by duty -/

omit [FloatOps F] in
theorem barPay_own0 (c : Dev nD) : (barPay c 0 : sProp 𝕄) = grant1 (partner c) := rfl
omit [FloatOps F] in
theorem barPay_own1 (c : Dev nD) : (barPay c 1 : sProp 𝕄) = grant2 (rail c 3) (yc c) 0 := rfl
omit [FloatOps F] in
theorem barPay_own2 (c : Dev nD) : (barPay c 2 : sProp 𝕄) = grant2 (rail c 2) (yc c) 0 := rfl
omit [FloatOps F] in
theorem barPay_own3 (c : Dev nD) : (barPay c 3 : sProp 𝕄) = grant2 (rail c 1) (yc c) 0 := rfl
omit [FloatOps F] in
theorem barPay_own4 (c : Dev nD) : (barPay c 4 : sProp 𝕄) = grant3 (zpeer c 3) (zc c) 0 := rfl
omit [FloatOps F] in
theorem barPay_own5 (c : Dev nD) : (barPay c 5 : sProp 𝕄) = grant3 (zpeer c 2) (zc c) 0 := rfl
omit [FloatOps F] in
theorem barPay_own6 (c : Dev nD) : (barPay c 6 : sProp 𝕄) = grant3 (zpeer c 1) (zc c) 0 := rfl

/-! ## The schedule with open data payloads -/

/-- The payloads by kind: the barrier grants as before; a send or receive cell hands its slot over at some contents. -/
def payloadOf0 (c : Dev nD) : CK → D → sProp 𝕄
  | .bar, k => barPay c k
  | .a1s q, _ => iprop(∃ f, (slot1 sendA1 q).view.loc (c : Thread nD τ) ↦[(slot1 sendA1 q).view.set]{fullShare} f)
  | .a1r q, _ => iprop(∃ f, (slot1 commA1 q).view.loc (c : Thread nD τ) ↦[(slot1 commA1 q).view.set]{fullShare} f)
  | .a2s i, _ => iprop(∃ f, (slot2 sendA2 i).view.loc (c : Thread nD τ) ↦[(slot2 sendA2 i).view.set]{fullShare} f)
  | .a2r i, _ => iprop(∃ f, (slot2 commA2 i).view.loc (c : Thread nD τ) ↦[(slot2 commA2 i).view.set]{fullShare} f)
  | .bs i, _ => iprop(∃ f, (slot3 sendB i).view.loc (c : Thread nD τ) ↦[(slot3 sendB i).view.set]{fullShare} f)
  | .br i, _ => iprop(∃ f, (slot3 commB i).view.loc (c : Thread nD τ) ↦[(slot3 commB i).view.set]{fullShare} f)
  | .other, _ => iprop(emp)

/-- One round, round 0, on the TensorCores' cells. -/
def sched0 : Rounds.Schedule (GSem nD τ sig) D 𝕄 where
  duties g r := if r = 0 ∧ g.1.2 = .tc then dutiesOf g.1.1 (kindOf g.2) else ∅
  unitless _ := False
  amount g _ _ := amountOf (kindOf g.2)
  payload g _ d := payloadOf0 g.1.1 (kindOf g.2) d
  amount_pos g _ _ _ := amountOf_pos _

set_option maxHeartbeats 4000000 in
omit [FloatOps F] in
theorem payloadOf0_storable (c : Dev nD) (k : CK) (d : D) : BI.Storable (upEmb : UEmb _ 𝕄) (payloadOf0 (F := F) c k d) := by
  cases k with
  | bar => unfold payloadOf0 barPay grant1 grant2 grant3; (repeat' split) <;> infer_instance
  | a1s q => unfold payloadOf0; exact BI.Storable.exists _ _
  | a1r q => unfold payloadOf0; exact BI.Storable.exists _ _
  | a2s i => unfold payloadOf0; exact BI.Storable.exists _ _
  | a2r i => unfold payloadOf0; exact BI.Storable.exists _ _
  | bs i => unfold payloadOf0; exact BI.Storable.exists _ _
  | br i => unfold payloadOf0; exact BI.Storable.exists _ _
  | other => unfold payloadOf0; infer_instance

omit [FloatOps F] in
instance sched0_payload_storable (g : GSem nD τ sig) (r : ℕ) (d : D) :
    BI.Storable (upEmb : UEmb _ 𝕄) ((sched0 (F := F)).payload g r d) := payloadOf0_storable g.1.1 (kindOf g.2) d

section Tables0
variable (c : Dev nD)

omit [FloatOps F] in
theorem duties_tc0 (sm : SemLoc sig) : (sched0 (F := F)).duties ((c : Thread nD τ), sm) 0 = dutiesOf c (kindOf sm) := by dsimp only [sched0]; exact if_pos ⟨rfl, rfl⟩
omit [FloatOps F] in
theorem duties_later0 (g : GSem nD τ sig) : ∀ r, 1 ≤ r → (sched0 (F := F)).duties g r = ∅ :=
  fun r hr => by dsimp only [sched0]; exact if_neg fun h => by omega
omit [FloatOps F] in
theorem duties_of_ne0 (g : GSem nD τ sig) (h : g.1.2 ≠ .tc) (r : ℕ) : (sched0 (F := F)).duties g r = ∅ := by dsimp only [sched0]; exact if_neg fun h' => h h'.2
omit [FloatOps F] in
theorem amount_tc0 (sm : SemLoc sig) (r : ℕ) (d : D) : (sched0 (F := F)).amount ((c : Thread nD τ), sm) r d = amountOf (kindOf sm) := rfl
omit [FloatOps F] in
theorem payload_tc0 (sm : SemLoc sig) (r : ℕ) (d : D) : (sched0 (F := F)).payload ((c : Thread nD τ), sm) r d = payloadOf0 c (kindOf sm) d := rfl

/-! ### Duties -/

omit [FloatOps F] in
theorem duties_bar0 : (sched0 (F := F)).duties (barCell c) 0 = Finset.univ := by rw [duties_tc0, kind_bar]; rfl
omit [FloatOps F] in
theorem duties_a1s0 (q : Fin 8) : (sched0 (F := F)).duties (a1sCell c q) 0 = {0} := by rw [duties_tc0, kind_a1s]; rfl
omit [FloatOps F] in
theorem duties_a1r0 (q : Fin 8) : (sched0 (F := F)).duties (a1rCell c q) 0 = {0} := by rw [duties_tc0, kind_a1r]; rfl
omit [FloatOps F] in
theorem duties_a2s0 (q : Fin 8) (s : ℕ) (hs : s % 4 ≠ 0) : (sched0 (F := F)).duties (a2sCell c (slot (yc c) q s)) 0 = {0} := by
  rw [duties_tc0, kind_a2s]; exact if_neg fun h => by rw [slot_mod] at h; have := yc_lt c; omega
omit [FloatOps F] in
theorem duties_a2s_own0 (q : Fin 8) : (sched0 (F := F)).duties (a2sCell c (slot (yc c) q 0)) 0 = ∅ := by
  rw [duties_tc0, kind_a2s]; exact if_pos (by rw [slot_mod]; have := yc_lt c; omega)
omit [FloatOps F] in
theorem duties_a2r0 (q : Fin 8) (s : ℕ) (hs : s % 4 ≠ 0) : (sched0 (F := F)).duties (a2rCell c (slot (yc c) q s)) 0 = {0} := by
  rw [duties_tc0, kind_a2r]; exact if_neg fun h => by rw [slot_mod] at h; have := yc_lt c; omega
omit [FloatOps F] in
theorem duties_a2r_own0 (q : Fin 8) : (sched0 (F := F)).duties (a2rCell c (slot (yc c) q 0)) 0 = ∅ := by
  rw [duties_tc0, kind_a2r]; exact if_pos (by rw [slot_mod]; have := yc_lt c; omega)
omit [FloatOps F] in
theorem duties_bs0 (q : Fin 8) (s : ℕ) (hs : s % 4 ≠ 0) : (sched0 (F := F)).duties (bsCell c (slot (zc c) q s)) 0 = {0} := by
  rw [duties_tc0, kind_bs]; exact if_neg fun h => by rw [slot_mod] at h; have := zc_lt c; omega
omit [FloatOps F] in
theorem duties_bs_own0 (q : Fin 8) : (sched0 (F := F)).duties (bsCell c (slot (zc c) q 0)) 0 = ∅ := by
  rw [duties_tc0, kind_bs]; exact if_pos (by rw [slot_mod]; have := zc_lt c; omega)
omit [FloatOps F] in
theorem duties_br0 (q : Fin 8) (s : ℕ) (hs : s % 4 ≠ 0) : (sched0 (F := F)).duties (brCell c (slot (zc c) q s)) 0 = {0} := by
  rw [duties_tc0, kind_br]; exact if_neg fun h => by rw [slot_mod] at h; have := zc_lt c; omega
omit [FloatOps F] in
theorem duties_br_own0 (q : Fin 8) : (sched0 (F := F)).duties (brCell c (slot (zc c) q 0)) 0 = ∅ := by
  rw [duties_tc0, kind_br]; exact if_pos (by rw [slot_mod]; have := zc_lt c; omega)
omit [FloatOps F] in
theorem duties_a2r_peer0 (q : Fin 8) (s : ℕ) (hs : s % 4 ≠ 0) : (sched0 (F := F)).duties (a2rCell (rail c s) (slot (yc c) q 0)) 0 = {0} := by
  rw [duties_tc0, kind_a2r]; exact if_neg fun h => by rw [slot_mod, MeshFacts.yc_rail] at h; have := yc_lt c; omega
omit [FloatOps F] in
theorem duties_br_peer0 (q : Fin 8) (s : ℕ) (hs : s % 4 ≠ 0) : (sched0 (F := F)).duties (brCell (zpeer c s) (slot (zc c) q 0)) 0 = {0} := by
  rw [duties_tc0, kind_br]; exact if_neg fun h => by rw [slot_mod, MeshFacts.zc_zpeer] at h; have := zc_lt c; omega

/-! ### Amounts and the units a round expects -/

omit [FloatOps F] in
theorem amount_bar0 (d : D) : (sched0 (F := F)).amount (barCell c) 0 d = 1 := by rw [amount_tc0, kind_bar]; rfl
omit [FloatOps F] in
theorem amount_a1s0 (q : Fin 8) (d : D) : (sched0 (F := F)).amount (a1sCell c q) 0 d = N1 := by rw [amount_tc0, kind_a1s]; rfl
omit [FloatOps F] in
theorem amount_a1r0 (q : Fin 8) (d : D) : (sched0 (F := F)).amount (a1rCell c q) 0 d = N1 := by rw [amount_tc0, kind_a1r]; rfl
omit [FloatOps F] in
theorem amount_a2s0 (i : Fin 32) (d : D) : (sched0 (F := F)).amount (a2sCell c i) 0 d = N2 := by rw [amount_tc0, kind_a2s]; rfl
omit [FloatOps F] in
theorem amount_a2r0 (i : Fin 32) (d : D) : (sched0 (F := F)).amount (a2rCell c i) 0 d = N2 := by rw [amount_tc0, kind_a2r]; rfl
omit [FloatOps F] in
theorem amount_bs0 (i : Fin 32) (d : D) : (sched0 (F := F)).amount (bsCell c i) 0 d = N3 := by rw [amount_tc0, kind_bs]; rfl
omit [FloatOps F] in
theorem amount_br0 (i : Fin 32) (d : D) : (sched0 (F := F)).amount (brCell c i) 0 d = N3 := by rw [amount_tc0, kind_br]; rfl
omit [FloatOps F] in
theorem expect_bar0 : (sched0 (F := F)).expect (barCell c) 0 = 7 := by
  unfold Schedule.expect Schedule.amountOf
  rw [duties_bar0, Finset.sum_congr rfl fun d _ => amount_bar0 (F := F) c d, Finset.sum_const, Finset.card_univ, Fintype.card_fin, smul_eq_mul]
omit [FloatOps F] in
theorem expect_a1s0 (q : Fin 8) : (sched0 (F := F)).expect (a1sCell c q) 0 = N1 := by
  unfold Schedule.expect Schedule.amountOf; rw [duties_a1s0, Finset.sum_singleton, amount_a1s0]
omit [FloatOps F] in
theorem expect_a1r0 (q : Fin 8) : (sched0 (F := F)).expect (a1rCell c q) 0 = N1 := by
  unfold Schedule.expect Schedule.amountOf; rw [duties_a1r0, Finset.sum_singleton, amount_a1r0]
omit [FloatOps F] in
theorem expect_a2s0 (q : Fin 8) (s : ℕ) (hs : s % 4 ≠ 0) : (sched0 (F := F)).expect (a2sCell c (slot (yc c) q s)) 0 = N2 := by
  unfold Schedule.expect Schedule.amountOf; rw [duties_a2s0 (F := F) c q s hs, Finset.sum_singleton, amount_a2s0]
omit [FloatOps F] in
theorem expect_a2r0 (q : Fin 8) (s : ℕ) (hs : s % 4 ≠ 0) : (sched0 (F := F)).expect (a2rCell c (slot (yc c) q s)) 0 = N2 := by
  unfold Schedule.expect Schedule.amountOf; rw [duties_a2r0 (F := F) c q s hs, Finset.sum_singleton, amount_a2r0]
omit [FloatOps F] in
theorem expect_bs0 (q : Fin 8) (s : ℕ) (hs : s % 4 ≠ 0) : (sched0 (F := F)).expect (bsCell c (slot (zc c) q s)) 0 = N3 := by
  unfold Schedule.expect Schedule.amountOf; rw [duties_bs0 (F := F) c q s hs, Finset.sum_singleton, amount_bs0]
omit [FloatOps F] in
theorem expect_br0 (q : Fin 8) (s : ℕ) (hs : s % 4 ≠ 0) : (sched0 (F := F)).expect (brCell c (slot (zc c) q s)) 0 = N3 := by
  unfold Schedule.expect Schedule.amountOf; rw [duties_br0 (F := F) c q s hs, Finset.sum_singleton, amount_br0]

/-! ### Payloads -/

omit [FloatOps F] in
theorem payload_bar0 (k : D) : (sched0 (F := F)).payload (barCell c) 0 k = barPay c k := by rw [payload_tc0, kind_bar]; rfl
omit [FloatOps F] in
theorem payload_a1s0 (q : Fin 8) (d : D) : (sched0 (F := F)).payload (a1sCell c q) 0 d = iprop(∃ f, (slot1 sendA1 q).view.loc (c : Thread nD τ) ↦[(slot1 sendA1 q).view.set]{fullShare} f) := by rw [payload_tc0, kind_a1s]; rfl
omit [FloatOps F] in
theorem payload_a1r0 (q : Fin 8) (d : D) : (sched0 (F := F)).payload (a1rCell c q) 0 d = iprop(∃ f, (slot1 commA1 q).view.loc (c : Thread nD τ) ↦[(slot1 commA1 q).view.set]{fullShare} f) := by rw [payload_tc0, kind_a1r]; rfl
omit [FloatOps F] in
theorem payload_a1r_peer0 (q : Fin 8) (d : D) : (sched0 (F := F)).payload (a1rCell (partner c) q) 0 d = iprop(∃ f, (slot1 commA1 q).view.loc (partner c : Thread nD τ) ↦[(slot1 commA1 q).view.set]{fullShare} f) := by rw [payload_tc0, kind_a1r]; rfl
omit [FloatOps F] in
theorem payload_a2s0 (i : Fin 32) (d : D) : (sched0 (F := F)).payload (a2sCell c i) 0 d = iprop(∃ f, (slot2 sendA2 i).view.loc (c : Thread nD τ) ↦[(slot2 sendA2 i).view.set]{fullShare} f) := by rw [payload_tc0, kind_a2s]; rfl
omit [FloatOps F] in
theorem payload_a2r_at0 (i : Fin 32) (d : D) : (sched0 (F := F)).payload (a2rCell c i) 0 d = iprop(∃ f, (slot2 commA2 i).view.loc (c : Thread nD τ) ↦[(slot2 commA2 i).view.set]{fullShare} f) := by rw [payload_tc0, kind_a2r]; rfl
omit [FloatOps F] in
theorem payload_a2r0 (q : Fin 8) (t : ℕ) (d : D) : (sched0 (F := F)).payload (a2rCell c (slot (yc c) q t)) 0 d = iprop(∃ f, (slot2 commA2 (slot (yc c) q t)).view.loc (c : Thread nD τ) ↦[(slot2 commA2 (slot (yc c) q t)).view.set]{fullShare} f) := by rw [payload_tc0, kind_a2r]; rfl
omit [FloatOps F] in
theorem payload_a2r_peer0 (q : Fin 8) (s : ℕ) (d : D) : (sched0 (F := F)).payload (a2rCell (rail c s) (slot (yc c) q 0)) 0 d = iprop(∃ f, (slot2 commA2 (slot (yc c) q 0)).view.loc (rail c s : Thread nD τ) ↦[(slot2 commA2 (slot (yc c) q 0)).view.set]{fullShare} f) := by rw [payload_tc0, kind_a2r]; rfl
omit [FloatOps F] in
theorem payload_bs0 (i : Fin 32) (d : D) : (sched0 (F := F)).payload (bsCell c i) 0 d = iprop(∃ f, (slot3 sendB i).view.loc (c : Thread nD τ) ↦[(slot3 sendB i).view.set]{fullShare} f) := by rw [payload_tc0, kind_bs]; rfl
omit [FloatOps F] in
theorem payload_br_at0 (i : Fin 32) (d : D) : (sched0 (F := F)).payload (brCell c i) 0 d = iprop(∃ f, (slot3 commB i).view.loc (c : Thread nD τ) ↦[(slot3 commB i).view.set]{fullShare} f) := by rw [payload_tc0, kind_br]; rfl
omit [FloatOps F] in
theorem payload_br0 (q : Fin 8) (t : ℕ) (d : D) : (sched0 (F := F)).payload (brCell c (slot (zc c) q t)) 0 d = iprop(∃ f, (slot3 commB (slot (zc c) q t)).view.loc (c : Thread nD τ) ↦[(slot3 commB (slot (zc c) q t)).view.set]{fullShare} f) := by rw [payload_tc0, kind_br]; rfl
omit [FloatOps F] in
theorem payload_br_peer0 (q : Fin 8) (s : ℕ) (d : D) : (sched0 (F := F)).payload (brCell (zpeer c s) (slot (zc c) q 0)) 0 d = iprop(∃ f, (slot3 commB (slot (zc c) q 0)).view.loc (zpeer c s : Thread nD τ) ↦[(slot3 commB (slot (zc c) q 0)).view.set]{fullShare} f) := by rw [payload_tc0, kind_br]; rfl

omit [FloatOps F] in
theorem payload_bar_partner0 : (sched0 (F := F)).payload (barCell (partner c)) 0 0 = grant1 c := by
  rw [payload_bar0, barPay_partner]
omit [FloatOps F] in
theorem payload_bar_rail1_0 : (sched0 (F := F)).payload (barCell (rail c 1)) 0 1 = grant2 c (yc c) 1 := by
  rw [payload_bar0]; exact barPay_rail c 1 (by decide) (by decide)
omit [FloatOps F] in
theorem payload_bar_zpeer1_0 : (sched0 (F := F)).payload (barCell (zpeer c 1)) 0 4 = grant3 c (zc c) 1 := by
  rw [payload_bar0]; exact barPay_zpeer c 1 (by decide) (by decide)
omit [FloatOps F] in
theorem payload_bar_rail2_0 : (sched0 (F := F)).payload (barCell (rail c 2)) 0 2 = grant2 c (yc c) 2 := by
  rw [payload_bar0]; exact barPay_rail c 2 (by decide) (by decide)
omit [FloatOps F] in
theorem payload_bar_zpeer2_0 : (sched0 (F := F)).payload (barCell (zpeer c 2)) 0 5 = grant3 c (zc c) 2 := by
  rw [payload_bar0]; exact barPay_zpeer c 2 (by decide) (by decide)
omit [FloatOps F] in
theorem payload_bar_rail3_0 : (sched0 (F := F)).payload (barCell (rail c 3)) 0 3 = grant2 c (yc c) 3 := by
  rw [payload_bar0]; exact barPay_rail c 3 (by decide) (by decide)
omit [FloatOps F] in
theorem payload_bar_zpeer3_0 : (sched0 (F := F)).payload (barCell (zpeer c 3)) 0 6 = grant3 c (zc c) 3 := by
  rw [payload_bar0]; exact barPay_zpeer c 3 (by decide) (by decide)

omit [FloatOps F] in
/-- The rest of the barrier cell's round, no duty taken: the seven grants. -/
theorem rest_bar0 : bigSep ((sched0 (F := F)).duties (barCell c) 0 \ ∅) (fun d => (sched0 (F := F)).payload (barCell c) 0 d)
    = iprop(barPay c 0 ∗ barPay c 1 ∗ barPay c 2 ∗ barPay c 3 ∗ barPay c 4 ∗ barPay c 5 ∗ barPay c 6) := by
  rw [Finset.sdiff_empty, duties_bar0, bigSep_univ_eq_bigSepL [0, 1, 2, 3, 4, 5, 6] (by decide) (by decide)]
  simp only [bigSepL_cons_cons, bigSepL_singleton, payload_bar0]
  rfl
omit [FloatOps F] in
/-- The rest of a one-duty round is the duty's payload. -/
theorem rest_one0 (g : GSem nD τ sig) (h : (sched0 (F := F)).duties g 0 = {0}) :
    bigSep ((sched0 (F := F)).duties g 0 \ ∅) (fun d => (sched0 (F := F)).payload g 0 d) = (sched0 (F := F)).payload g 0 0 := by
  rw [Finset.sdiff_empty, h, bigSep_singleton]

end Tables0

omit [FloatOps F] in
/-- What the barrier wait hands back: the seven peers' grants. -/
theorem bar_payloads0 (c : Dev nD) : (bigSep Finset.univ fun d : D => (sched0 (F := F)).payload (barCell c) 0 d)
    = iprop(grant1 (partner c) ∗ grant2 (rail c 3) (yc c) 0 ∗ grant2 (rail c 2) (yc c) 0 ∗ grant2 (rail c 1) (yc c) 0
        ∗ grant3 (zpeer c 3) (zc c) 0 ∗ grant3 (zpeer c 2) (zc c) 0 ∗ grant3 (zpeer c 1) (zc c) 0) := by
  rw [bigSep_univ_eq_bigSepL [(0 : D), 1, 2, 3, 4, 5, 6] (by decide) (by decide)]
  simp only [bigSepL_cons_cons, bigSepL_singleton, payload_bar0]
  rfl

end Cert.KernelIdeal.Proto

end
-- ==== Proof.Ghost.lean ====
/-
  What one device holds of the protocol's ghost state when its kernel body starts, for any schedule over
  the cells: the invariants of its own 145 cells and of the 63 cells of other devices it pays into, its
  position at round 0 of each own cell, the tokens of the duties it pays (seven barrier units, one arrival
  per copy it sends, one departure per copy), that round 0 of each paid cell is reached, and the credit it
  was dealt for what others owe its cells (seven barrier units, one slot credit per copy it receives).
  Device c's stage-2 slots are numbered from its row y, its stage-3 slots from its plane z: slot (v, q, s)
  is 4·q + (v + s) % 4; s = 0 is the device's own slot of chunk q, s = 1, 2, 3 the slot it sends at step s
  and also the slot that the peer s ahead of it writes on this device.
-/
import proofs.«900893_g7700000000000894_dist_matmul_mk_i_outk_m1024_n1024_k512_v7x_i32_f32_1_alg».proof.Proof.Proto
import proofs.«900893_g7700000000000894_dist_matmul_mk_i_outk_m1024_n1024_k512_v7x_i32_f32_1_alg».proof.Proof.SlotIdx

noncomputable section

namespace Cert.KernelIdeal.Ghost

open Cert.KernelIdeal Cert.KernelIdeal.Gen Cert.KernelIdeal.Proto
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the protocol's small index ranges, written out -/

/-- Steps 1, 2, 3. -/
def three (Φ : ℕ → sProp 𝕄) : sProp 𝕄 := iprop(Φ 1 ∗ Φ 2 ∗ Φ 3)
/-- Advances 0, 1, 2, 3. -/
def four (Φ : ℕ → sProp 𝕄) : sProp 𝕄 := iprop(Φ 0 ∗ Φ 1 ∗ Φ 2 ∗ Φ 3)
/-- Column chunks 0 … 7. -/
def eight (Φ : Fin 8 → sProp 𝕄) : sProp 𝕄 := iprop(Φ 0 ∗ Φ 1 ∗ Φ 2 ∗ Φ 3 ∗ Φ 4 ∗ Φ 5 ∗ Φ 6 ∗ Φ 7)

instance three_persistent (Φ : ℕ → sProp 𝕄) [∀ n, BI.Persistent (Φ n)] : BI.Persistent (three Φ) := by unfold three; infer_instance
instance four_persistent (Φ : ℕ → sProp 𝕄) [∀ n, BI.Persistent (Φ n)] : BI.Persistent (four Φ) := by unfold four; infer_instance
instance eight_persistent (Φ : Fin 8 → sProp 𝕄) [∀ n, BI.Persistent (Φ n)] : BI.Persistent (eight Φ) := by unfold eight; infer_instance

/-- The invariant of cell g at the name the launch allocated it at. -/
abbrev cinv (Rd : Schedule (GSem nD τ sig) D (MT nD τ sig Unit (Elt F) ℕ UU ℕ)) (K : GSem nD τ sig → ℕ) (g : GSem nD τ sig) : sProp 𝕄 := cellInv ER Rd (K g) g

/-! ## The persistent part -/

/-- The invariants of the device's own cells. -/
def ownInvs (Rd : Schedule (GSem nD τ sig) D (MT nD τ sig Unit (Elt F) ℕ UU ℕ)) (K : GSem nD τ sig → ℕ) (c : Dev nD) : sProp 𝕄 :=
  iprop(cinv Rd K (barCell c)
    ∗ eight (fun q => iprop(cinv Rd K (a1sCell c q) ∗ cinv Rd K (a1rCell c q)))
    ∗ eight (fun q => four fun s => iprop(cinv Rd K (a2sCell c (slot (yc c) q s)) ∗ cinv Rd K (a2rCell c (slot (yc c) q s))))
    ∗ eight (fun q => four fun s => iprop(cinv Rd K (bsCell c (slot (zc c) q s)) ∗ cinv Rd K (brCell c (slot (zc c) q s)))))

/-- The invariants of the cells of other devices that this device pays into, and that round 0 of each is
    reached: its seven peers' barrier cells, its partner's eight stage-1 receive cells, and on each rail
    peer and each plane peer the eight receive cells of this device's own row, respectively plane. -/
def paidInvs (Rd : Schedule (GSem nD τ sig) D (MT nD τ sig Unit (Elt F) ℕ UU ℕ)) (K : GSem nD τ sig → ℕ) (c : Dev nD) : sProp 𝕄 :=
  iprop((cinv Rd K (barCell (partner c)) ∗ reached ER (barCell (partner c)) 0)
    ∗ three (fun s => iprop(cinv Rd K (barCell (rail c s)) ∗ reached ER (barCell (rail c s)) 0))
    ∗ three (fun s => iprop(cinv Rd K (barCell (zpeer c s)) ∗ reached ER (barCell (zpeer c s)) 0))
    ∗ eight (fun q => iprop(cinv Rd K (a1rCell (partner c) q) ∗ reached ER (a1rCell (partner c) q) 0))
    ∗ eight (fun q => three fun s => iprop(cinv Rd K (a2rCell (rail c s) (slot (yc c) q 0)) ∗ reached ER (a2rCell (rail c s) (slot (yc c) q 0)) 0))
    ∗ eight (fun q => three fun s => iprop(cinv Rd K (brCell (zpeer c s) (slot (zc c) q 0)) ∗ reached ER (brCell (zpeer c s) (slot (zc c) q 0)) 0)))

/-- Round 0 of the device's own send cells is reached (a departure is paid at the round its token names). -/
def sendReached (c : Dev nD) : sProp 𝕄 :=
  iprop(eight (fun q => reached ER (a1sCell c q) 0)
    ∗ eight (fun q => three fun s => reached ER (a2sCell c (slot (yc c) q s)) 0)
    ∗ eight (fun q => three fun s => reached ER (bsCell c (slot (zc c) q s)) 0))

/-- Round 0 of the device's own receive cells is reached: what it tells each peer, with the slots it lends
    it, when it signals that peer's barrier. -/
def recvReached (c : Dev nD) : sProp 𝕄 :=
  iprop(eight (fun q => reached ER (a1rCell c q) 0)
    ∗ eight (fun q => three fun s => reached ER (a2rCell c (slot (yc c) q s)) 0)
    ∗ eight (fun q => three fun s => reached ER (brCell c (slot (zc c) q s)) 0))

/-- Everything persistent. -/
def records (Rd : Schedule (GSem nD τ sig) D (MT nD τ sig Unit (Elt F) ℕ UU ℕ)) (K : GSem nD τ sig → ℕ) (c : Dev nD) : sProp 𝕄 := iprop(ownInvs Rd K c ∗ paidInvs Rd K c ∗ sendReached c ∗ recvReached c)

instance records_persistent (Rd : Schedule (GSem nD τ sig) D (MT nD τ sig Unit (Elt F) ℕ UU ℕ)) (K : GSem nD τ sig → ℕ) (c : Dev nD) : BI.Persistent (records Rd K c) := by
  unfold records ownInvs paidInvs sendReached recvReached; infer_instance

/-! ## The linear part -/

/-- The device's position at round 0, nothing taken, of each of its 145 cells. -/
def positions (c : Dev nD) : sProp 𝕄 :=
  iprop(atPos ER (barCell c) 0 ∅ 0
    ∗ eight (fun q => iprop(atPos ER (a1sCell c q) 0 ∅ 0 ∗ atPos ER (a1rCell c q) 0 ∅ 0))
    ∗ eight (fun q => four fun s => iprop(atPos ER (a2sCell c (slot (yc c) q s)) 0 ∅ 0 ∗ atPos ER (a2rCell c (slot (yc c) q s)) 0 ∅ 0))
    ∗ eight (fun q => four fun s => iprop(atPos ER (bsCell c (slot (zc c) q s)) 0 ∅ 0 ∗ atPos ER (brCell c (slot (zc c) q s)) 0 ∅ 0)))

/-- The tokens of the duties the device pays: duty k of its k-th peer's barrier cell; for each copy it
    sends, the departure on its own send cell and the arrival on the receiver's cell. -/
def payToks (c : Dev nD) : sProp 𝕄 :=
  iprop(dutyTok ER (barCell (partner c)) 0 (0 : D)
    ∗ dutyTok ER (barCell (rail c 1)) 0 (1 : D) ∗ dutyTok ER (barCell (rail c 2)) 0 (2 : D) ∗ dutyTok ER (barCell (rail c 3)) 0 (3 : D)
    ∗ dutyTok ER (barCell (zpeer c 1)) 0 (4 : D) ∗ dutyTok ER (barCell (zpeer c 2)) 0 (5 : D) ∗ dutyTok ER (barCell (zpeer c 3)) 0 (6 : D)
    ∗ eight (fun q => iprop(dutyTok ER (a1sCell c q) 0 (0 : D) ∗ dutyTok ER (a1rCell (partner c) q) 0 (0 : D)))
    ∗ eight (fun q => three fun s => iprop(dutyTok ER (a2sCell c (slot (yc c) q s)) 0 (0 : D) ∗ dutyTok ER (a2rCell (rail c s) (slot (yc c) q 0)) 0 (0 : D)))
    ∗ eight (fun q => three fun s => iprop(dutyTok ER (bsCell c (slot (zc c) q s)) 0 (0 : D) ∗ dutyTok ER (brCell (zpeer c s) (slot (zc c) q 0)) 0 (0 : D))))

/-- The credit the device was dealt at launch: what the other devices owe its cells. -/
def credits (c : Dev nD) : sProp 𝕄 :=
  iprop(cred (tallyAt (barCell c) () 7)
    ∗ eight (fun q => cred (tallyAt (a1rCell c q) () N1))
    ∗ eight (fun q => three fun s => cred (tallyAt (a2rCell c (slot (yc c) q s)) () N2))
    ∗ eight (fun q => three fun s => cred (tallyAt (brCell c (slot (zc c) q s)) () N3)))

/-- The ghost state device c's body starts from. -/
def ghost (Rd : Schedule (GSem nD τ sig) D (MT nD τ sig Unit (Elt F) ℕ UU ℕ)) (K : GSem nD τ sig → ℕ) (c : Dev nD) : sProp 𝕄 := iprop(records Rd K c ∗ positions c ∗ payToks c ∗ credits c)

end Cert.KernelIdeal.Ghost

end
-- ==== Proof.LaunchSems.lean ====
/-
  The semaphores of the launch: the kernel's own scoped semaphores are the 144 DMA semaphores of its six
  scratch semaphore arrays (numbers 3 to 146 of the pool; 0, 1 and 2 are the staging semaphores of the
  three windows), and the one semaphore that is not scoped is the runtime's barrier semaphore of
  collective id 0.
-/
import proofs.«900893_g7700000000000894_dist_matmul_mk_i_outk_m1024_n1024_k512_v7x_i32_f32_1_alg».proof.Proof.Gen.KernelIdeal
import proofs.«900893_g7700000000000894_dist_matmul_mk_i_outk_m1024_n1024_k512_v7x_i32_f32_1_alg».proof.Proof.Gen.KernelIdeal.Launch
import Idealize.ShloMosaic.Lib.Pipeline.Launch
import Idealize.ShloMosaic.Lib.Pipeline.Kit

set_option Elab.async false

noncomputable section

namespace Cert.KernelIdeal.LaunchSems

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The kernel's own scoped semaphores, as the launch indexes them: DMA semaphore 3 + i of the pool. -/
abbrev osem : Fin 144 → SemLoc sig :=
  fun i => .dma ⟨3 + i.val, by have := i.isLt; show 3 + i.val < 147; omega⟩

/-- The runtime's barrier semaphore of collective id 0, as the body names it. -/
abbrev barS : Sem sig := (SemArray.scalar (sig.barrier 0 rfl) : Sems sig S_).sem

/-- The own semaphores are scoped, pairwise distinct, and none is a window's staging semaphore. -/
theorem ownSemFacts : Pipeline.OwnSemFacts cfg0.spec osem := by decide +kernel

/-- The own semaphores at zero, as one conjunction over their 144 numbers. -/
theorem ownSems0_eq {Ix : Type} [DecidableEq Ix] {Val : EltTy → Type} {Name : Type} [DecidableEq Name] {U : Type} [URA U] {Lvl : Type}
    (c : Dev nD) :
    (Pipeline.ownSems0 (Ix := Ix) (Name := Name) (U := U) (Lvl := Lvl) (Val := Val) (τ := τ) osem c : sProp (MT nD τ sig Ix Val Name U Lvl))
      = bigSep Finset.univ fun i : Fin 144 => semVal ((c : Thread nD τ), osem i) 0 := rfl

/-- The barrier semaphore is the one semaphore of the core that is not scoped. -/
theorem unscopedSems0_eq {Ix : Type} [DecidableEq Ix] {Val : EltTy → Type} {Name : Type} [DecidableEq Name] {U : Type} [URA U] {Lvl : Type}
    (c : Dev nD) :
    (unscopedSems0 (Ix := Ix) (Name := Name) (U := U) (Lvl := Lvl) (Val := Val) (τ := τ) c : sProp (MT nD τ sig Ix Val Name U Lvl))
      = semVal ((c : Thread nD τ), .reg barS) 0 := by
  unfold unscopedSems0
  rw [bigSep_eq_bigSepL_of_eq [SemLoc.reg barS] (by decide +kernel) (by decide)]
  rfl

end Cert.KernelIdeal.LaunchSems

end
-- ==== Proof.LaunchData.lean ====
/-
  The proof data of the one pipeline: what each input window's staging buffer holds after the kernel body (the
  result window's is left unnamed: the claims proved through these data do not read it), the body's invariant
  before and after the one grid point, and what a device owes at each.
-/
import proofs.«900893_g7700000000000894_dist_matmul_mk_i_outk_m1024_n1024_k512_v7x_i32_f32_1_alg».proof.Proof.Ghost
import proofs.«900893_g7700000000000894_dist_matmul_mk_i_outk_m1024_n1024_k512_v7x_i32_f32_1_alg».proof.Proof.ProtoTables
import proofs.«900893_g7700000000000894_dist_matmul_mk_i_outk_m1024_n1024_k512_v7x_i32_f32_1_alg».proof.Proof.LaunchSems
import proofs.«900893_g7700000000000894_dist_matmul_mk_i_outk_m1024_n1024_k512_v7x_i32_f32_1_alg».proof.Proof.MeshFacts
import Idealize.ShloMosaic.Lib.Pipeline.Launch
import Idealize.ShloMosaic.Lib.Pipeline.Kit
import Idealize.ShloMosaic.Lib.Tactic

noncomputable section

namespace Cert.KernelIdeal.LaunchData

open Cert.KernelIdeal Cert.KernelIdeal.Gen Cert.KernelIdeal.Proto Cert.KernelIdeal.Ghost
open Cert.KernelIdeal.LaunchSems (osem ownSemFacts ownSems0_eq unscopedSems0_eq)
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pipeline's proof data -/

variable (Rd : Rounds.Schedule (GSem nD τ sig) D (MT nD τ sig Unit (Elt F) ℕ UU ℕ))
variable (m : (ℓ : Loc nD τ sig) → Buf (Elt F) ℓ)

/-- Device `c`'s block of the first argument, as the pipeline stages it. -/
def astg (c : Dev nD) : (cc0_stg0_0 : Ref sig .tc).ty.Contents (Elt F) :=
  (win0_0.blk (0 : Fin 1)).view.read (Elt F) (m ((c : Thread nD τ).loc main_arg0))
/-- Device `c`'s block of the second argument, as the pipeline stages it. -/
def bstg (c : Dev nD) : (cc0_stg1_0 : Ref sig .tc).ty.Contents (Elt F) :=
  (win0_1.blk (0 : Fin 1)).view.read (Elt F) (m ((c : Thread nD τ).loc main_arg1))

/-- The windows whose contents after the body are not named: the result window. -/
def fgt2 : Fin cfg0.W → Bool := fun w => match w with
  | ⟨0, _⟩ => false
  | ⟨1, _⟩ => false
  | ⟨2, _⟩ => true

/-- Before the one grid point: the protocol's ghost state at some names, the level facts, and the nine scratch
    buffers at some contents. -/
def Φ₀ (c : Dev nD) : sProp 𝕄 :=
  iprop((∃ K, ghost Rd K c) ∗ levAts L lv ∗ Pipeline.scopedRest cfg0.spec c)
/-- After it: the 144 own semaphores at zero, the nine scratch buffers at some contents. -/
def Φ₁ (c : Dev nD) : sProp 𝕄 :=
  iprop(Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => astg m c
    | ⟨1, _⟩ => bstg m c
    | ⟨2, _⟩ => fun _ => Classical.arbitrary _
  Φ t := match t with
    | ⟨0, _⟩ => Φ₀ Rd c
    | ⟨_ + 1, _⟩ => Φ₁ c
  q _ := fullShare
  owed t := match t with
    | ⟨0, _⟩ => O₀ c
    | ⟨_ + 1, _⟩ => 0

end Cert.KernelIdeal.LaunchData

end
-- ==== Proof.SlotGeom.lean ====
/-
  The exchange buffers cut into their slots. A stage-one buffer is its eight slots, one per leading
  coordinate; a stage-two or stage-three buffer is its 32 slots, numbered 4·q + (v + s) % 4 over the eight
  chunks q and the four advances s from any base v. The slots' element sets are pairwise disjoint and cover
  the buffer, because the leading coordinate of an index names exactly one slot; so holding the buffer is
  holding every slot, over the same contents.
-/
import proofs.«900893_g7700000000000894_dist_matmul_mk_i_outk_m1024_n1024_k512_v7x_i32_f32_1_alg».proof.Proof.Proto
import proofs.«900893_g7700000000000894_dist_matmul_mk_i_outk_m1024_n1024_k512_v7x_i32_f32_1_alg».proof.Proof.Ghost
import proofs.«900893_g7700000000000894_dist_matmul_mk_i_outk_m1024_n1024_k512_v7x_i32_f32_1_alg».proof.Proof.SlotIdx
import Idealize.ShloMosaic.Rules.PointsTo
import Idealize.ShloMosaic.Lib.Exec.Geometry
import Idealize.ShloMosaic.Lib.Pipeline.Kit

noncomputable section

namespace Cert.KernelIdeal.SlotGeom

open Cert.KernelIdeal Cert.KernelIdeal.Gen Cert.KernelIdeal.Proto Cert.KernelIdeal.Ghost
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Stage one: eight slots by the leading coordinate -/

/-- The rectangle of slot q: leading coordinate q, everything on the other axes. -/
abbrev rect1 (q : Fin 8) : Rect S8x4x4x32x128 :=
  Rect.unit (s := S8x4x4x32x128) ![q.val, 0, 0, 0, 0] S1x4x4x32x128.size (inbA1 q)

/-- An index lies in slot q's rectangle exactly when its leading coordinate is q. -/
theorem mem_rect1 (q : Fin 8) (i : S8x4x4x32x128.Idx) : i ∈ (rect1 q).set ↔ (i 0).val = q.val := by
  rw [Rect.mem_set_unit]
  constructor
  · intro h
    have h0 := h 0
    simp at h0
    omega
  · intro h a
    have ha := (i a).isLt
    fin_cases a <;> simp at ha ⊢ <;> omega

theorem rect1_disjoint (q q' : Fin 8) (h : q ≠ q') : Disjoint (rect1 q).set (rect1 q').set := by
  rw [Finset.disjoint_left]
  intro i hi hi'
  rw [mem_rect1] at hi hi'
  exact h (Fin.ext (hi.symm.trans hi'))

theorem rect1_cover : (Finset.univ : Finset S8x4x4x32x128.Idx) = Finset.univ.biUnion fun q : Fin 8 => (rect1 q).set := by
  ext i
  simp only [Finset.mem_univ, Finset.mem_biUnion, true_and, true_iff]
  exact ⟨⟨(i 0).val, (i 0).isLt⟩, (mem_rect1 _ i).mpr rfl⟩

/-- A slot's elements are its rectangle's, seen through the buffer's view. -/
theorem slot1_set (M : Memref sig .tc .vmem S8x4x4x32x128 .bf16) (q : Fin 8) :
    (slot1 M q).view.set = (rect1 q).set.map M.view.emb := by
  exact (Memref.set_view_squeeze _ _).trans (View.set_slice _ _)

theorem eight_eq (Φ : Fin 8 → sProp 𝕄) : eight Φ = bigSep Finset.univ Φ :=
  (bigSep_univ_eq_bigSepL [0, 1, 2, 3, 4, 5, 6, 7] (by decide) (by decide) Φ).symm

theorem slot1_disjoint (M : Memref sig .tc .vmem S8x4x4x32x128 .bf16) (q q' : Fin 8) (h : q ≠ q') :
    Disjoint (slot1 M q).view.set (slot1 M q').view.set := by
  rw [slot1_set, slot1_set]
  exact (Finset.disjoint_map _).mpr (rect1_disjoint q q' h)

/-- The elements under the buffer's view are those of its slots. -/
theorem set1_cover (M : Memref sig .tc .vmem S8x4x4x32x128 .bf16) (c : Dev nD) :
    (M.view.set : Finset (Idx (M.view.loc (c : Thread nD τ))))
      = Finset.univ.biUnion fun q : Fin 8 => ((slot1 M q).view.set : Finset (Idx (M.view.loc (c : Thread nD τ)))) := by
  ext j
  constructor
  · intro hj
    obtain ⟨x, -, rfl⟩ := Finset.mem_map.mp hj
    refine Finset.mem_biUnion.mpr ⟨⟨(x 0).val, (x 0).isLt⟩, Finset.mem_univ _, ?_⟩
    rw [slot1_set]
    exact Finset.mem_map_of_mem _ ((mem_rect1 _ x).mpr rfl)
  · intro hj
    obtain ⟨q, -, hq⟩ := Finset.mem_biUnion.mp hj
    rw [slot1_set] at hq
    obtain ⟨x, -, rfl⟩ := Finset.mem_map.mp hq
    exact View.emb_mem_set _ x

/-- Holding the elements under the buffer's view is holding its slots, over the same contents. -/
theorem split1_view (M : Memref sig .tc .vmem S8x4x4x32x128 .bf16) (c : Dev nD) (f : Buf (Elt F) (M.view.loc (c : Thread nD τ))) :
    (M.view.loc (c : Thread nD τ) ↦[M.view.set]{fullShare} f : sProp 𝕄)
      = eight (fun q => (slot1 M q).view.loc (c : Thread nD τ) ↦[(slot1 M q).view.set]{fullShare} f) := by
  rw [eight_eq]
  have key : (M.view.loc (c : Thread nD τ) ↦[Finset.univ.biUnion fun q : Fin 8 => ((slot1 M q).view.set : Finset (Idx (M.view.loc (c : Thread nD τ))))]{fullShare} f : sProp 𝕄)
      = bigSep Finset.univ fun q : Fin 8 => (M.view.loc (c : Thread nD τ) ↦[(slot1 M q).view.set]{fullShare} f) :=
    pointsTo_biUnion (ℓ := M.view.loc (c : Thread nD τ)) Finset.univ _ (fun q _ q' _ h => slot1_disjoint M q q' h)
  rw [set1_cover M c]
  exact key

/-- For a buffer whose view is all of it. -/
theorem split1 (M : Memref sig .tc .vmem S8x4x4x32x128 .bf16) (hM : M.view.set = Finset.univ) (c : Dev nD)
    (f : Buf (Elt F) (M.view.loc (c : Thread nD τ))) :
    (M.view.loc (c : Thread nD τ) ↦{fullShare} f : sProp 𝕄)
      = eight (fun q => (slot1 M q).view.loc (c : Thread nD τ) ↦[(slot1 M q).view.set]{fullShare} f) := by
  rw [← split1_view M c f, hM]

/-! ## The 32 slots, chunk by chunk and advance by advance -/

/-- From any base v, (q, s) ↦ 4·q + (v + s) % 4 runs through the 32 slots once. -/
def slotEquiv (v : ℕ) : Fin 8 × Fin 4 ≃ Fin 32 :=
  Equiv.ofBijective (fun p => slot v p.1 p.2.val) ⟨by
    rintro ⟨q, s⟩ ⟨q', s'⟩ h
    have e := congrArg Fin.val h
    simp only [Cert.Mesh.slot_val] at e
    have := s.isLt; have := s'.isLt
    exact Prod.ext (Fin.ext (by simp only; omega)) (Fin.ext (by simp only; omega)), by
    intro i
    have := i.isLt
    refine ⟨(⟨i.val / 4, by omega⟩, ⟨(i.val % 4 + 4 - v % 4) % 4, by omega⟩), Fin.ext ?_⟩
    simp only [Cert.Mesh.slot_val]
    omega⟩

theorem slotEquiv_apply (v : ℕ) (q : Fin 8) (s : Fin 4) : slotEquiv v (q, s) = slot v q s.val := rfl

theorem four_eq (Ψ : ℕ → sProp 𝕄) : four Ψ = bigSep Finset.univ (fun s : Fin 4 => Ψ s.val) :=
  (bigSep_univ_eq_bigSepL [0, 1, 2, 3] (by decide) (by decide) (fun s : Fin 4 => Ψ s.val)).symm

/-- A conjunction over the 32 slots, chunk by chunk and advance by advance from any base. -/
theorem reindex32 (v : ℕ) (Φ : Fin 32 → sProp 𝕄) :
    bigSep Finset.univ Φ = eight (fun q => four fun s => Φ (slot v q s)) := by
  rw [bigSep_univ_equiv (slotEquiv v) Φ, bigSep_univ_prod, eight_eq]
  refine bigSep_congr fun q _ => ?_
  rw [four_eq]
  rfl

/-! ## Stage two: 32 slots by the leading coordinate -/

/-- The rectangle of slot i: leading coordinate i, everything on the other axes. -/
abbrev rect2 (i : Fin 32) : Rect S32x4x32x128 :=
  Rect.unit (s := S32x4x32x128) ![i.val, 0, 0, 0] S1x4x32x128.size (inbA2 i)

/-- An index lies in slot i's rectangle exactly when its leading coordinate is i. -/
theorem mem_rect2 (i : Fin 32) (j : S32x4x32x128.Idx) : j ∈ (rect2 i).set ↔ (j 0).val = i.val := by
  rw [Rect.mem_set_unit]
  constructor
  · intro h
    have h0 := h 0
    simp at h0
    omega
  · intro h a
    have ha := (j a).isLt
    fin_cases a <;> simp at ha ⊢ <;> omega

theorem rect2_disjoint (i i' : Fin 32) (h : i ≠ i') : Disjoint (rect2 i).set (rect2 i').set := by
  rw [Finset.disjoint_left]
  intro j hj hj'
  rw [mem_rect2] at hj hj'
  exact h (Fin.ext (hj.symm.trans hj'))

/-- A slot's elements are its rectangle's, seen through the buffer's view. -/
theorem slot2_set (M : Memref sig .tc .vmem S32x4x32x128 .bf16) (i : Fin 32) :
    (slot2 M i).view.set = (rect2 i).set.map M.view.emb :=
  View.set_slice _ _

theorem slot2_disjoint (M : Memref sig .tc .vmem S32x4x32x128 .bf16) (i i' : Fin 32) (h : i ≠ i') :
    Disjoint (slot2 M i).view.set (slot2 M i').view.set := by
  rw [slot2_set, slot2_set]
  exact (Finset.disjoint_map _).mpr (rect2_disjoint i i' h)

/-- The elements under the buffer's view are those of its slots. -/
theorem set2_cover (M : Memref sig .tc .vmem S32x4x32x128 .bf16) (c : Dev nD) :
    (M.view.set : Finset (Idx (M.view.loc (c : Thread nD τ))))
      = Finset.univ.biUnion fun i : Fin 32 => ((slot2 M i).view.set : Finset (Idx (M.view.loc (c : Thread nD τ)))) := by
  ext j
  constructor
  · intro hj
    obtain ⟨x, -, rfl⟩ := Finset.mem_map.mp hj
    refine Finset.mem_biUnion.mpr ⟨⟨(x 0).val, (x 0).isLt⟩, Finset.mem_univ _, ?_⟩
    rw [slot2_set]
    exact Finset.mem_map_of_mem _ ((mem_rect2 _ x).mpr rfl)
  · intro hj
    obtain ⟨i, -, hq⟩ := Finset.mem_biUnion.mp hj
    rw [slot2_set] at hq
    obtain ⟨x, -, rfl⟩ := Finset.mem_map.mp hq
    exact View.emb_mem_set _ x

/-- Holding the elements under the buffer's view is holding its slots, over the same contents. -/
theorem split2_all (M : Memref sig .tc .vmem S32x4x32x128 .bf16) (c : Dev nD) (f : Buf (Elt F) (M.view.loc (c : Thread nD τ))) :
    (M.view.loc (c : Thread nD τ) ↦[M.view.set]{fullShare} f : sProp 𝕄)
      = bigSep Finset.univ (fun i : Fin 32 => (slot2 M i).view.loc (c : Thread nD τ) ↦[(slot2 M i).view.set]{fullShare} f) := by
  have key : (M.view.loc (c : Thread nD τ) ↦[Finset.univ.biUnion fun i : Fin 32 => ((slot2 M i).view.set : Finset (Idx (M.view.loc (c : Thread nD τ))))]{fullShare} f : sProp 𝕄)
      = bigSep Finset.univ fun i : Fin 32 => (M.view.loc (c : Thread nD τ) ↦[(slot2 M i).view.set]{fullShare} f) :=
    pointsTo_biUnion (ℓ := M.view.loc (c : Thread nD τ)) Finset.univ _ (fun i _ i' _ h => slot2_disjoint M i i' h)
  rw [set2_cover M c]
  exact key

/-- The same, the slots numbered from any base v: chunk by chunk, advance by advance. -/
theorem split2_view (M : Memref sig .tc .vmem S32x4x32x128 .bf16) (v : ℕ) (c : Dev nD) (f : Buf (Elt F) (M.view.loc (c : Thread nD τ))) :
    (M.view.loc (c : Thread nD τ) ↦[M.view.set]{fullShare} f : sProp 𝕄)
      = eight (fun q => four fun s =>
          (slot2 M (slot v q s)).view.loc (c : Thread nD τ) ↦[(slot2 M (slot v q s)).view.set]{fullShare} f) := by
  rw [split2_all, reindex32 v]

/-- For a buffer whose view is all of it. -/
theorem split2 (M : Memref sig .tc .vmem S32x4x32x128 .bf16) (hM : M.view.set = Finset.univ) (v : ℕ) (c : Dev nD)
    (f : Buf (Elt F) (M.view.loc (c : Thread nD τ))) :
    (M.view.loc (c : Thread nD τ) ↦{fullShare} f : sProp 𝕄)
      = eight (fun q => four fun s =>
          (slot2 M (slot v q s)).view.loc (c : Thread nD τ) ↦[(slot2 M (slot v q s)).view.set]{fullShare} f) := by
  rw [← split2_view M v c f, hM]

/-! ## Stage three: 32 slots by the leading coordinate -/

/-- The rectangle of slot i: leading coordinate i, everything on the other axes. -/
abbrev rect3 (i : Fin 32) : Rect S32x32x128 :=
  Rect.unit (s := S32x32x128) ![i.val, 0, 0] S1x32x128.size (inbB i)

/-- An index lies in slot i's rectangle exactly when its leading coordinate is i. -/
theorem mem_rect3 (i : Fin 32) (j : S32x32x128.Idx) : j ∈ (rect3 i).set ↔ (j 0).val = i.val := by
  rw [Rect.mem_set_unit]
  constructor
  · intro h
    have h0 := h 0
    simp at h0
    omega
  · intro h a
    have ha := (j a).isLt
    fin_cases a <;> simp at ha ⊢ <;> omega

theorem rect3_disjoint (i i' : Fin 32) (h : i ≠ i') : Disjoint (rect3 i).set (rect3 i').set := by
  rw [Finset.disjoint_left]
  intro j hj hj'
  rw [mem_rect3] at hj hj'
  exact h (Fin.ext (hj.symm.trans hj'))

/-- A slot's elements are its rectangle's, seen through the buffer's view. -/
theorem slot3_set (M : Memref sig .tc .vmem S32x32x128 .bf16) (i : Fin 32) :
    (slot3 M i).view.set = (rect3 i).set.map M.view.emb :=
  View.set_slice _ _

theorem slot3_disjoint (M : Memref sig .tc .vmem S32x32x128 .bf16) (i i' : Fin 32) (h : i ≠ i') :
    Disjoint (slot3 M i).view.set (slot3 M i').view.set := by
  rw [slot3_set, slot3_set]
  exact (Finset.disjoint_map _).mpr (rect3_disjoint i i' h)

/-- The elements under the buffer's view are those of its slots. -/
theorem set3_cover (M : Memref sig .tc .vmem S32x32x128 .bf16) (c : Dev nD) :
    (M.view.set : Finset (Idx (M.view.loc (c : Thread nD τ))))
      = Finset.univ.biUnion fun i : Fin 32 => ((slot3 M i).view.set : Finset (Idx (M.view.loc (c : Thread nD τ)))) := by
  ext j
  constructor
  · intro hj
    obtain ⟨x, -, rfl⟩ := Finset.mem_map.mp hj
    refine Finset.mem_biUnion.mpr ⟨⟨(x 0).val, (x 0).isLt⟩, Finset.mem_univ _, ?_⟩
    rw [slot3_set]
    exact Finset.mem_map_of_mem _ ((mem_rect3 _ x).mpr rfl)
  · intro hj
    obtain ⟨i, -, hq⟩ := Finset.mem_biUnion.mp hj
    rw [slot3_set] at hq
    obtain ⟨x, -, rfl⟩ := Finset.mem_map.mp hq
    exact View.emb_mem_set _ x

/-- Holding the elements under the buffer's view is holding its slots, over the same contents. -/
theorem split3_all (M : Memref sig .tc .vmem S32x32x128 .bf16) (c : Dev nD) (f : Buf (Elt F) (M.view.loc (c : Thread nD τ))) :
    (M.view.loc (c : Thread nD τ) ↦[M.view.set]{fullShare} f : sProp 𝕄)
      = bigSep Finset.univ (fun i : Fin 32 => (slot3 M i).view.loc (c : Thread nD τ) ↦[(slot3 M i).view.set]{fullShare} f) := by
  have key : (M.view.loc (c : Thread nD τ) ↦[Finset.univ.biUnion fun i : Fin 32 => ((slot3 M i).view.set : Finset (Idx (M.view.loc (c : Thread nD τ))))]{fullShare} f : sProp 𝕄)
      = bigSep Finset.univ fun i : Fin 32 => (M.view.loc (c : Thread nD τ) ↦[(slot3 M i).view.set]{fullShare} f) :=
    pointsTo_biUnion (ℓ := M.view.loc (c : Thread nD τ)) Finset.univ _ (fun i _ i' _ h => slot3_disjoint M i i' h)
  rw [set3_cover M c]
  exact key

/-- The same, the slots numbered from any base v: chunk by chunk, advance by advance. -/
theorem split3_view (M : Memref sig .tc .vmem S32x32x128 .bf16) (v : ℕ) (c : Dev nD) (f : Buf (Elt F) (M.view.loc (c : Thread nD τ))) :
    (M.view.loc (c : Thread nD τ) ↦[M.view.set]{fullShare} f : sProp 𝕄)
      = eight (fun q => four fun s =>
          (slot3 M (slot v q s)).view.loc (c : Thread nD τ) ↦[(slot3 M (slot v q s)).view.set]{fullShare} f) := by
  rw [split3_all, reindex32 v]

/-- For a buffer whose view is all of it. -/
theorem split3 (M : Memref sig .tc .vmem S32x32x128 .bf16) (hM : M.view.set = Finset.univ) (v : ℕ) (c : Dev nD)
    (f : Buf (Elt F) (M.view.loc (c : Thread nD τ))) :
    (M.view.loc (c : Thread nD τ) ↦{fullShare} f : sProp 𝕄)
      = eight (fun q => four fun s =>
          (slot3 M (slot v q s)).view.loc (c : Thread nD τ) ↦[(slot3 M (slot v q s)).view.set]{fullShare} f) := by
  rw [← split3_view M v c f, hM]

/-! ## The 32 slots step by step -/

theorem eight_sep (A B : Fin 8 → sProp 𝕄) : eight (fun q => iprop(A q ∗ B q)) = iprop(eight A ∗ eight B) := by
  rw [eight_eq, eight_eq, eight_eq]; exact bigSep_sep' _ A B

theorem rot4_mp (a b c d : sProp 𝕄) : iprop(a ∗ b ∗ c ∗ d) ⊢ iprop(b ∗ c ∗ d ∗ a) := by
  iintro ⟨Ha, Hb, Hc, Hd⟩
  isplitl [Hb]; · iexact Hb
  isplitl [Hc]; · iexact Hc
  isplitl [Hd]; · iexact Hd
  iexact Ha

theorem rot4_mpr (a b c d : sProp 𝕄) : iprop(b ∗ c ∗ d ∗ a) ⊢ iprop(a ∗ b ∗ c ∗ d) := by
  iintro ⟨Hb, Hc, Hd, Ha⟩
  isplitl [Ha]; · iexact Ha
  isplitl [Hb]; · iexact Hb
  isplitl [Hc]; · iexact Hc
  iexact Hd

/-- Four conjuncts with the first moved to the end. -/
theorem rot4 (a b c d : sProp 𝕄) : iprop(a ∗ b ∗ c ∗ d) = iprop(b ∗ c ∗ d ∗ a) :=
  BI.equiv_iff.mp ⟨rot4_mp a b c d, rot4_mpr a b c d⟩

/-- A conjunction chunk by chunk and advance by advance, regrouped advance by advance: one, two, three, then none. -/
theorem eight_four_by_step (X : Fin 8 → ℕ → sProp 𝕄) :
    eight (fun q => four (X q))
      = iprop(eight (fun q => X q 1) ∗ eight (fun q => X q 2) ∗ eight (fun q => X q 3) ∗ eight (fun q => X q 0)) := by
  unfold four
  rw [eight_sep (fun q => X q 0) (fun q => iprop(X q 1 ∗ X q 2 ∗ X q 3)),
    eight_sep (fun q => X q 1) (fun q => iprop(X q 2 ∗ X q 3)),
    eight_sep (fun q => X q 2) (fun q => X q 3)]
  exact rot4 _ _ _ _

/-- The same, step by step: the eight slots one advance on, then two, then three, then the eight own slots. -/
theorem split2_by_step (M : Memref sig .tc .vmem S32x4x32x128 .bf16) (hM : M.view.set = Finset.univ) (v : ℕ) (c : Dev nD)
    (f : Buf (Elt F) (M.view.loc (c : Thread nD τ))) :
    (M.view.loc (c : Thread nD τ) ↦{fullShare} f : sProp 𝕄)
      = iprop(eight (fun q => (slot2 M (slot v q 1)).view.loc (c : Thread nD τ) ↦[(slot2 M (slot v q 1)).view.set]{fullShare} f)
        ∗ eight (fun q => (slot2 M (slot v q 2)).view.loc (c : Thread nD τ) ↦[(slot2 M (slot v q 2)).view.set]{fullShare} f)
        ∗ eight (fun q => (slot2 M (slot v q 3)).view.loc (c : Thread nD τ) ↦[(slot2 M (slot v q 3)).view.set]{fullShare} f)
        ∗ eight (fun q => (slot2 M (slot v q 0)).view.loc (c : Thread nD τ) ↦[(slot2 M (slot v q 0)).view.set]{fullShare} f)) := by
  rw [split2 M hM v c f]
  exact eight_four_by_step (fun q s => (slot2 M (slot v q s)).view.loc (c : Thread nD τ) ↦[(slot2 M (slot v q s)).view.set]{fullShare} f)

/-- The same, step by step: the eight slots one advance on, then two, then three, then the eight own slots. -/
theorem split3_by_step (M : Memref sig .tc .vmem S32x32x128 .bf16) (hM : M.view.set = Finset.univ) (v : ℕ) (c : Dev nD)
    (f : Buf (Elt F) (M.view.loc (c : Thread nD τ))) :
    (M.view.loc (c : Thread nD τ) ↦{fullShare} f : sProp 𝕄)
      = iprop(eight (fun q => (slot3 M (slot v q 1)).view.loc (c : Thread nD τ) ↦[(slot3 M (slot v q 1)).view.set]{fullShare} f)
        ∗ eight (fun q => (slot3 M (slot v q 2)).view.loc (c : Thread nD τ) ↦[(slot3 M (slot v q 2)).view.set]{fullShare} f)
        ∗ eight (fun q => (slot3 M (slot v q 3)).view.loc (c : Thread nD τ) ↦[(slot3 M (slot v q 3)).view.set]{fullShare} f)
        ∗ eight (fun q => (slot3 M (slot v q 0)).view.loc (c : Thread nD τ) ↦[(slot3 M (slot v q 0)).view.set]{fullShare} f)) := by
  rw [split3 M hM v c f]
  exact eight_four_by_step (fun q s => (slot3 M (slot v q s)).view.loc (c : Thread nD τ) ↦[(slot3 M (slot v q s)).view.set]{fullShare} f)

/-! ## A stage-one slot before its leading axis is squeezed away -/

/-- Slot q of a stage-one buffer as the unit slice at q, its leading unit axis kept. -/
abbrev slot1u (M : Memref sig .tc .vmem S8x4x4x32x128 .bf16) (q : Fin 8) : Memref sig .tc .vmem S1x4x4x32x128 .bf16 :=
  M.slice (Rect.unit (s := S8x4x4x32x128) ![q.val, 0, 0, 0, 0] S1x4x4x32x128.size (inbA1 q)) (fun _ => rfl)

theorem slot1_eq_squeeze (M : Memref sig .tc .vmem S8x4x4x32x128 .bf16) (q : Fin 8) :
    slot1 M q = (slot1u M q).squeeze S4x4x32x128 squeezes_S1x4x4x32x128_S4x4x32x128 := rfl

/-- Squeezing the unit axis away keeps the slot's elements. -/
theorem slot1u_set (M : Memref sig .tc .vmem S8x4x4x32x128 .bf16) (q : Fin 8) :
    (slot1 M q).view.set = (slot1u M q).view.set := Memref.set_view_squeeze _ _

/-- Holding a slot's elements is the same under either spelling of the slot. -/
theorem pts_squeeze1 (M : Memref sig .tc .vmem S8x4x4x32x128 .bf16) (q : Fin 8) (c : Dev nD) (sh : PosShare TreeShare)
    (f : Buf (Elt F) (M.view.loc (c : Thread nD τ))) :
    ((slot1 M q).view.loc (c : Thread nD τ) ↦[(slot1 M q).view.set]{sh} f : sProp 𝕄)
      = ((slot1u M q).view.loc (c : Thread nD τ) ↦[(slot1u M q).view.set]{sh} f) :=
  congrArg (fun S => (M.view.loc (c : Thread nD τ) ↦[S]{sh} f : sProp 𝕄)) (slot1u_set M q)

/-- A stage-one buffer whose view is all of it is its eight slots, each with its unit axis kept. -/
theorem split1u (M : Memref sig .tc .vmem S8x4x4x32x128 .bf16) (hM : M.view.set = Finset.univ) (c : Dev nD)
    (f : Buf (Elt F) (M.view.loc (c : Thread nD τ))) :
    (M.view.loc (c : Thread nD τ) ↦{fullShare} f : sProp 𝕄)
      = eight (fun q => (slot1u M q).view.loc (c : Thread nD τ) ↦[(slot1u M q).view.set]{fullShare} f) := by
  rw [split1 M hM c f]
  exact congrArg eight (funext fun q => pts_squeeze1 M q c fullShare f)

/-! ## The seven exchange buffers are whole buffers -/

theorem sendA1_univ : (sendA1 : Memref sig .tc .vmem S8x4x4x32x128 .bf16).view.set = Finset.univ := View.set_whole _
theorem commA1_univ : (commA1 : Memref sig .tc .vmem S8x4x4x32x128 .bf16).view.set = Finset.univ := View.set_whole _
theorem ownA_univ : (ownA : Memref sig .tc .vmem S8x4x4x32x128 .bf16).view.set = Finset.univ := View.set_whole _
theorem sendA2_univ : (sendA2 : Memref sig .tc .vmem S32x4x32x128 .bf16).view.set = Finset.univ := View.set_whole _
theorem commA2_univ : (commA2 : Memref sig .tc .vmem S32x4x32x128 .bf16).view.set = Finset.univ := View.set_whole _
theorem sendB_univ : (sendB : Memref sig .tc .vmem S32x32x128 .bf16).view.set = Finset.univ := View.set_whole _
theorem commB_univ : (commB : Memref sig .tc .vmem S32x32x128 .bf16).view.set = Finset.univ := View.set_whole _

end Cert.KernelIdeal.SlotGeom

end
-- ==== Proof.LaunchAlloc.lean ====
/-
  The allocation of the protocol's cells at launch: every device's 145 semaphores at zero and their round
  states become the cells' invariants, at names chosen under one update for all devices; what is left is each
  device's position at round 0 of its own cells and the marks that round 0 of every cell is reached, regrouped
  into the written-out conjunctions a kernel body starts from.
-/
import proofs.«900893_g7700000000000894_dist_matmul_mk_i_outk_m1024_n1024_k512_v7x_i32_f32_1_alg».proof.Proof.Ghost
import proofs.«900893_g7700000000000894_dist_matmul_mk_i_outk_m1024_n1024_k512_v7x_i32_f32_1_alg».proof.Proof.LaunchSems
import proofs.«900893_g7700000000000894_dist_matmul_mk_i_outk_m1024_n1024_k512_v7x_i32_f32_1_alg».proof.Proof.MeshFacts
import proofs.«900893_g7700000000000894_dist_matmul_mk_i_outk_m1024_n1024_k512_v7x_i32_f32_1_alg».proof.Proof.SlotGeom
import proofs.«900893_g7700000000000894_dist_matmul_mk_i_outk_m1024_n1024_k512_v7x_i32_f32_1_alg».proof.Proof.ProtoTables
import Idealize.ShloMosaic.Lib.Pipeline.Launch
import Idealize.ShloMosaic.Lib.Pipeline.Kit
import Idealize.ShloMosaic.Lib.Tactic
import Mathlib.Logic.Equiv.Fin.Basic

noncomputable section

namespace Cert.KernelIdeal.LaunchAlloc

open Cert.KernelIdeal Cert.KernelIdeal.Gen Cert.KernelIdeal.Proto Cert.KernelIdeal.Ghost
open Cert.KernelIdeal.LaunchSems (osem ownSemFacts ownSems0_eq unscopedSems0_eq)
open Cert.KernelIdeal.SlotGeom (eight_eq four_eq reindex32)
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A conjunction over a device's 145 semaphores, family by family -/

omit [FloatOps F] in
/-- A conjunction over `Fin (a + b)` is the one over the first `a` and the one over the last `b`. -/
theorem fin_add_split (a b n : ℕ) (h : n = a + b) (Ψ : Fin n → sProp 𝕄) :
    bigSep Finset.univ Ψ = iprop((bigSep Finset.univ fun i : Fin a => Ψ ⟨i.val, by have := i.isLt; omega⟩)
      ∗ bigSep Finset.univ fun j : Fin b => Ψ ⟨a + j.val, by have := j.isLt; omega⟩) := by
  subst h
  rw [bigSep_univ_equiv finSumFinEquiv Ψ, bigSep_univ_sum]
  rfl

omit [FloatOps F] in
/-- The barrier semaphore first, then the 144 DMA semaphores. -/
theorem split_bar (Ψ : Fin 145 → sProp 𝕄) :
    bigSep Finset.univ Ψ = iprop(Ψ 0 ∗ bigSep Finset.univ fun i : Fin 144 => Ψ ⟨1 + i.val, by have := i.isLt; omega⟩) := by
  rw [fin_add_split 1 144 145 rfl Ψ, bigSep_univ_of_subsingleton (0 : Fin 1)]
  rfl

omit [FloatOps F] in
/-- The 144 DMA semaphores by array: 8, 8, 32, 32, 32, 32. -/
theorem split_dma (Ψ : Fin 144 → sProp 𝕄) :
    bigSep Finset.univ Ψ = iprop((bigSep Finset.univ fun q : Fin 8 => Ψ ⟨q.val, by have := q.isLt; omega⟩)
      ∗ (bigSep Finset.univ fun q : Fin 8 => Ψ ⟨8 + q.val, by have := q.isLt; omega⟩)
      ∗ (bigSep Finset.univ fun i : Fin 32 => Ψ ⟨16 + i.val, by have := i.isLt; omega⟩)
      ∗ (bigSep Finset.univ fun i : Fin 32 => Ψ ⟨48 + i.val, by have := i.isLt; omega⟩)
      ∗ (bigSep Finset.univ fun i : Fin 32 => Ψ ⟨80 + i.val, by have := i.isLt; omega⟩)
      ∗ (bigSep Finset.univ fun i : Fin 32 => Ψ ⟨112 + i.val, by have := i.isLt; omega⟩)) := by
  rw [fin_add_split 8 136 144 rfl Ψ,
    fin_add_split 8 128 136 rfl (fun j : Fin 136 => Ψ ⟨8 + j.val, by have := j.isLt; omega⟩),
    fin_add_split 32 96 128 rfl (fun j : Fin 128 => Ψ ⟨8 + (8 + j.val), by have := j.isLt; omega⟩),
    fin_add_split 32 64 96 rfl (fun j : Fin 96 => Ψ ⟨8 + (8 + (32 + j.val)), by have := j.isLt; omega⟩),
    fin_add_split 32 32 64 rfl (fun j : Fin 64 => Ψ ⟨8 + (8 + (32 + (32 + j.val))), by have := j.isLt; omega⟩)]
  refine congrArg₂ _ rfl (congrArg₂ _ rfl (congrArg₂ _ ?_ (congrArg₂ _ ?_ (congrArg₂ _ ?_ ?_))))
  all_goals exact bigSep_congr fun i _ => congrArg Ψ (Fin.ext (by simp only []; omega))

/-- A conjunction over a device's 145 cells, written out as the protocol names them: the barrier cell, the
    stage-1 send and receive cells by chunk, the stage-2 and stage-3 send and receive cells by chunk and by
    advance from the device's own row, respectively plane. -/
def cellsOf (c : Dev nD) (Φ : GSem nD τ sig → sProp 𝕄) : sProp 𝕄 :=
  iprop(Φ (barCell c)
    ∗ eight (fun q => iprop(Φ (a1sCell c q) ∗ Φ (a1rCell c q)))
    ∗ eight (fun q => four fun s => iprop(Φ (a2sCell c (slot (yc c) q s)) ∗ Φ (a2rCell c (slot (yc c) q s))))
    ∗ eight (fun q => four fun s => iprop(Φ (bsCell c (slot (zc c) q s)) ∗ Φ (brCell c (slot (zc c) q s)))))

omit [FloatOps F] in
/-- The 145 semaphores by family, each family under a name of its own. -/
theorem split_families (Ψ : Fin 145 → sProp 𝕄) (B0 : sProp 𝕄) (A1s A1r : Fin 8 → sProp 𝕄) (A2s A2r Bs Br : Fin 32 → sProp 𝕄)
    (h0 : Ψ 0 = B0)
    (h1 : ∀ q : Fin 8, Ψ ⟨1 + q.val, by have := q.isLt; omega⟩ = A1s q)
    (h2 : ∀ q : Fin 8, Ψ ⟨1 + (8 + q.val), by have := q.isLt; omega⟩ = A1r q)
    (h3 : ∀ i : Fin 32, Ψ ⟨1 + (16 + i.val), by have := i.isLt; omega⟩ = A2s i)
    (h4 : ∀ i : Fin 32, Ψ ⟨1 + (48 + i.val), by have := i.isLt; omega⟩ = A2r i)
    (h5 : ∀ i : Fin 32, Ψ ⟨1 + (80 + i.val), by have := i.isLt; omega⟩ = Bs i)
    (h6 : ∀ i : Fin 32, Ψ ⟨1 + (112 + i.val), by have := i.isLt; omega⟩ = Br i) :
    bigSep Finset.univ Ψ = iprop(B0 ∗ bigSep Finset.univ A1s ∗ bigSep Finset.univ A1r ∗ bigSep Finset.univ A2s ∗ bigSep Finset.univ A2r
      ∗ bigSep Finset.univ Bs ∗ bigSep Finset.univ Br) := by
  rw [split_bar, split_dma (fun i : Fin 144 => Ψ ⟨1 + i.val, by have := i.isLt; omega⟩), h0]
  refine congrArg₂ _ rfl (congrArg₂ _ ?_ (congrArg₂ _ ?_ (congrArg₂ _ ?_ (congrArg₂ _ ?_ (congrArg₂ _ ?_ ?_)))))
  · exact bigSep_congr fun q _ => h1 q
  · exact bigSep_congr fun q _ => h2 q
  · exact bigSep_congr fun q _ => h3 q
  · exact bigSep_congr fun q _ => h4 q
  · exact bigSep_congr fun q _ => h5 q
  · exact bigSep_congr fun q _ => h6 q

theorem cells_regroup (c : Dev nD) (Φ : GSem nD τ sig → sProp 𝕄) :
    (bigSep Finset.univ fun k : Fin 145 => Φ (kcell (c, k))) ⊢ cellsOf c Φ := by
  rw [split_families (fun k : Fin 145 => Φ (kcell (c, k))) (Φ (barCell c)) (fun q => Φ (a1sCell c q)) (fun q => Φ (a1rCell c q))
      (fun i => Φ (a2sCell c i)) (fun i => Φ (a2rCell c i)) (fun i => Φ (bsCell c i)) (fun i => Φ (brCell c i))
      (by rw [barCell_eq]) (fun q => by rw [a1sCell_eq]) (fun q => by rw [a1rCell_eq]) (fun i => by rw [a2sCell_eq])
      (fun i => by rw [a2rCell_eq]) (fun i => by rw [bsCell_eq]) (fun i => by rw [brCell_eq]),
    reindex32 (yc c) (fun i : Fin 32 => Φ (a2sCell c i)), reindex32 (yc c) (fun i : Fin 32 => Φ (a2rCell c i)),
    reindex32 (zc c) (fun i : Fin 32 => Φ (bsCell c i)), reindex32 (zc c) (fun i : Fin 32 => Φ (brCell c i))]
  unfold cellsOf
  simp only [eight_eq, four_eq, bigSep_sep']
  iintro ⟨H0, H1, H2, H3, H4, H5, H6⟩
  isplitl [H0]; · iexact H0
  isplitl [H1 H2]
  · isplitl [H1] <;> iassumption
  isplitl [H3 H4]
  · isplitl [H3] <;> iassumption
  isplitl [H5] <;> iassumption

/-! ## The cells and the launch element -/

/-- The protocol's cells: every device's 145. -/
def protoCells : Finset (GSem nD τ sig) := Finset.univ.map ⟨kcell, kcell_injective⟩

omit [FloatOps F] in
theorem bigSep_protoCells (Φ : GSem nD τ sig → sProp 𝕄) :
    bigSep protoCells Φ = bigSep Finset.univ fun c : Dev nD => bigSep Finset.univ fun k : Fin 145 => Φ (kcell (c, k)) := by
  unfold protoCells; rw [bigSep_map, bigSep_univ_prod]; rfl

variable (Rd : Rounds.Schedule (GSem nD τ sig) D (MT nD τ sig Unit (Elt F) ℕ UU ℕ))
  [hRd : ∀ g r d, BI.Storable (upEmb : UEmb _ (MT nD τ sig Unit (Elt F) ℕ UU ℕ)) (Rd.payload g r d)]

/-- What the launch element deals device `c` beside its tokens: the round state at counter zero of each of its cells,
    its position at round 0 of each, and that round 0 of each is reached. -/
def cellsG (c : Dev nD) : sProp 𝕄 :=
  iprop((bigSep Finset.univ fun k : Fin 145 => roundState ER Rd (kcell (c, k)) 0)
    ∗ (bigSep Finset.univ fun k : Fin 145 => iprop(atPos ER (kcell (c, k)) 0 ∅ 0 ∗ reached ER (kcell (c, k)) 0)))

/-- Funding: the launch element of the cells and of any set of duty tokens is every device's share and the tokens. -/
theorem fund_cells (T : Finset (GSem nD τ sig × ℕ × D)) :
    BI.own (ER (initOf protoCells T))
      ⊢ (|==> iprop(bigSep Finset.univ (cellsG Rd) ∗ bigSep T (fun x => dutyTok ER x.1 x.2.1 x.2.2)) : sProp 𝕄) := by
  iintro HX
  imod (Rounds.fund ER Rd protoCells T) $$ HX with ⟨Hst, Hr, Hat, Htok⟩
  imodintro
  ihave Hst' := (Entails.of_eq (bigSep_protoCells fun g => roundState ER Rd g 0)) $$ Hst
  ihave Hat' := (Entails.of_eq (bigSep_protoCells fun g => atPos ER g 0 ∅ 0)) $$ Hat
  ihave Hr' := (Entails.of_eq (bigSep_protoCells fun g => reached ER g 0)) $$ Hr
  unfold cellsG; simp only [bigSep_sep']
  isplitr [Htok]
  · isplitl [Hst']; · iexact Hst'
    isplitl [Hat'] <;> iassumption
  · iexact Htok

/-! ## The semaphores at zero, cell by cell -/

omit [FloatOps F] in
/-- The own semaphores and the barrier semaphore are the device's 145 cells' semaphores. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 145 => semVal (kcell (c, k)) 0 : sProp 𝕄) := by
  rw [ownSems0_eq, unscopedSems0_eq, split_bar]
  iintro ⟨HS, HB⟩
  isplitl [HB]
  · rw [← barCell_eq]; iexact HB
  · rw [bigSep_congr (s := Finset.univ) (Φ := fun i : Fin 144 => (semVal (kcell (c, ⟨1 + i.val, by have := i.isLt; omega⟩)) 0 : sProp 𝕄))
      (Ψ := fun i : Fin 144 => semVal ((c : Thread nD τ), osem i) 0) (fun i _ => by
        rw [show kcell (c, (⟨1 + i.val, by have := i.isLt; omega⟩ : Fin 145)) = ((c : Thread nD τ), osem i) from Prod.ext rfl (csem_succ i)])]
    iexact HS

/-- One device's cells allocated: from its semaphores at zero and its round states, each cell's invariant at some name;
    its tokens are carried along. -/
theorem core_alloc (ownToks : Dev nD → sProp 𝕄) (c : Dev nD) :
    iprop(Pipeline.ownSems0 (Ix := Unit) (Name := ℕ) (U := UU) (Lvl := ℕ) (Val := Elt F) (τ := τ) osem c ∗ unscopedSems0 c
        ∗ cellsG Rd c ∗ ownToks c)
      ⊢ |={Set.univ}=> iprop((bigSep Finset.univ fun k : Fin 145 => iprop(∃ κ : ℕ, cellInv ER Rd κ (kcell (c, k))))
          ∗ (bigSep Finset.univ fun k : Fin 145 => iprop(atPos ER (kcell (c, k)) 0 ∅ 0 ∗ reached ER (kcell (c, k)) 0)) ∗ ownToks c) := by
  unfold cellsG
  iintro ⟨Hos, Hus, ⟨Hst, Hat⟩, Htok⟩
  ihave Hv := (sems0 (F := F) c) $$ [Hos Hus]
  · isplitl [Hos] <;> iassumption
  imod (show iprop((bigSep Finset.univ fun k : Fin 145 => semVal (kcell (c, k)) 0) ∗ bigSep Finset.univ fun k : Fin 145 => roundState ER Rd (kcell (c, k)) 0)
      ⊢ (|={Set.univ}=> bigSep Finset.univ fun k : Fin 145 => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat] <;> iassumption

/-! ## The records every device reads -/

/-- The invariants of all cells at the names `K`, and that round 0 of every cell is reached. -/
def recordsAll (K : Dev nD × Fin 145 → ℕ) : sProp 𝕄 :=
  iprop((bigSep Finset.univ fun ck : Dev nD × Fin 145 => cellInv ER Rd (K ck) (kcell ck))
    ∗ bigSep Finset.univ fun ck : Dev nD × Fin 145 => reached ER (kcell ck) 0)

instance recordsAll_persistent (K : Dev nD × Fin 145 → ℕ) : BI.Persistent (recordsAll Rd K) := by unfold recordsAll; infer_instance

/-- The names as a function of the cell. -/
def nameOf (K : Dev nD × Fin 145 → ℕ) (g : GSem nD τ sig) : ℕ := K (Function.invFun kcell g)

theorem nameOf_kcell (K : Dev nD × Fin 145 → ℕ) (ck : Dev nD × Fin 145) : nameOf K (kcell ck) = K ck := by
  unfold nameOf; rw [Function.leftInverse_invFun kcell_injective ck]

omit [FloatOps F] in
theorem invs_elim (K : Dev nD × Fin 145 → ℕ) (ck : Dev nD × Fin 145) :
    (bigSep Finset.univ fun ck : Dev nD × Fin 145 => (cellInv ER Rd (K ck) (kcell ck) : sProp 𝕄))
      ⊢ cellInv ER Rd (K ck) (kcell ck) :=
  bigSep_elim (Finset.mem_univ ck)
omit [FloatOps F] in
theorem reacheds_elim (ck : Dev nD × Fin 145) :
    (bigSep Finset.univ fun ck : Dev nD × Fin 145 => (reached ER (kcell ck) 0 : sProp 𝕄)) ⊢ reached ER (kcell ck) 0 :=
  bigSep_elim (Finset.mem_univ ck)

theorem inv_at (K : Dev nD × Fin 145 → ℕ) (ck : Dev nD × Fin 145) :
    recordsAll Rd K ⊢ cinv Rd (nameOf K) (kcell ck) := by
  show _ ⊢ cellInv ER Rd (nameOf K (kcell ck)) (kcell ck)
  rw [nameOf_kcell]
  unfold recordsAll
  iintro ⟨#HI, -⟩
  iapply (invs_elim Rd K ck)
  iexact HI

theorem reached_at (K : Dev nD × Fin 145 → ℕ) (ck : Dev nD × Fin 145) :
    recordsAll Rd K ⊢ reached ER (kcell ck) 0 := by
  unfold recordsAll
  iintro ⟨-, #HR⟩
  iapply (reacheds_elim (F := F) ck)
  iexact HR

/-! ### The records of one device -/

section Named
variable (K : Dev nD × Fin 145 → ℕ) (d : Dev nD)

theorem inv_bar : recordsAll Rd K ⊢ cinv Rd (nameOf K) (barCell d) := by rw [barCell_eq]; exact inv_at Rd K _
theorem inv_a1s (q : Fin 8) : recordsAll Rd K ⊢ cinv Rd (nameOf K) (a1sCell d q) := by rw [a1sCell_eq]; exact inv_at Rd K _
theorem inv_a1r (q : Fin 8) : recordsAll Rd K ⊢ cinv Rd (nameOf K) (a1rCell d q) := by rw [a1rCell_eq]; exact inv_at Rd K _
theorem inv_a2s (i : Fin 32) : recordsAll Rd K ⊢ cinv Rd (nameOf K) (a2sCell d i) := by rw [a2sCell_eq]; exact inv_at Rd K _
theorem inv_a2r (i : Fin 32) : recordsAll Rd K ⊢ cinv Rd (nameOf K) (a2rCell d i) := by rw [a2rCell_eq]; exact inv_at Rd K _
theorem inv_bs (i : Fin 32) : recordsAll Rd K ⊢ cinv Rd (nameOf K) (bsCell d i) := by rw [bsCell_eq]; exact inv_at Rd K _
theorem inv_br (i : Fin 32) : recordsAll Rd K ⊢ cinv Rd (nameOf K) (brCell d i) := by rw [brCell_eq]; exact inv_at Rd K _

theorem rch_bar : recordsAll Rd K ⊢ reached ER (barCell d) 0 := by rw [barCell_eq]; exact reached_at Rd K _
theorem rch_a1s (q : Fin 8) : recordsAll Rd K ⊢ reached ER (a1sCell d q) 0 := by rw [a1sCell_eq]; exact reached_at Rd K _
theorem rch_a1r (q : Fin 8) : recordsAll Rd K ⊢ reached ER (a1rCell d q) 0 := by rw [a1rCell_eq]; exact reached_at Rd K _
theorem rch_a2s (i : Fin 32) : recordsAll Rd K ⊢ reached ER (a2sCell d i) 0 := by rw [a2sCell_eq]; exact reached_at Rd K _
theorem rch_a2r (i : Fin 32) : recordsAll Rd K ⊢ reached ER (a2rCell d i) 0 := by rw [a2rCell_eq]; exact reached_at Rd K _
theorem rch_bs (i : Fin 32) : recordsAll Rd K ⊢ reached ER (bsCell d i) 0 := by rw [bsCell_eq]; exact reached_at Rd K _
theorem rch_br (i : Fin 32) : recordsAll Rd K ⊢ reached ER (brCell d i) 0 := by rw [brCell_eq]; exact reached_at Rd K _

end Named

omit [FloatOps F] in
/-- A persistent assertion that yields both conjuncts yields the conjunction. -/
theorem pers_sep {R P Q : sProp 𝕄} [BI.Persistent R] (h1 : R ⊢ P) (h2 : R ⊢ Q) : R ⊢ iprop(P ∗ Q) := by
  iintro #H; isplitr
  · iapply h1; iexact H
  · iapply h2; iexact H
theorem pers_eight {R : sProp 𝕄} [BI.Persistent R] {Φ : Fin 8 → sProp 𝕄} (h : ∀ q, R ⊢ Φ q) : R ⊢ eight Φ := by
  rw [eight_eq]; exact bigSep_intro_persistent fun q _ => h q
theorem pers_four {R : sProp 𝕄} [BI.Persistent R] {Φ : ℕ → sProp 𝕄} (h : ∀ s, R ⊢ Φ s) : R ⊢ four Φ := by
  rw [four_eq]; exact bigSep_intro_persistent fun s _ => h s.val
omit [FloatOps F] in
theorem pers_three {R : sProp 𝕄} [BI.Persistent R] {Φ : ℕ → sProp 𝕄} (h : ∀ s, R ⊢ Φ s) : R ⊢ three Φ :=
  pers_sep (h 1) (pers_sep (h 2) (h 3))

/-- One device's records, read off the records of all cells. -/
theorem records_intro (K : Dev nD × Fin 145 → ℕ) (c : Dev nD) :
    recordsAll Rd K ⊢ Ghost.records Rd (nameOf K) c := by
  unfold Ghost.records Ghost.ownInvs Ghost.paidInvs Ghost.sendReached Ghost.recvReached
  refine pers_sep ?_ (pers_sep ?_ (pers_sep ?_ ?_))
  · exact pers_sep (inv_bar Rd K c) (pers_sep (pers_eight fun q => pers_sep (inv_a1s Rd K c q) (inv_a1r Rd K c q))
      (pers_sep (pers_eight fun q => pers_four fun s => pers_sep (inv_a2s Rd K c _) (inv_a2r Rd K c _))
        (pers_eight fun q => pers_four fun s => pers_sep (inv_bs Rd K c _) (inv_br Rd K c _))))
  · exact pers_sep (pers_sep (inv_bar Rd K (partner c)) (rch_bar Rd K (partner c)))
      (pers_sep (pers_three fun s => pers_sep (inv_bar Rd K (rail c s)) (rch_bar Rd K (rail c s)))
        (pers_sep (pers_three fun s => pers_sep (inv_bar Rd K (zpeer c s)) (rch_bar Rd K (zpeer c s)))
          (pers_sep (pers_eight fun q => pers_sep (inv_a1r Rd K (partner c) q) (rch_a1r Rd K (partner c) q))
            (pers_sep (pers_eight fun q => pers_three fun s => pers_sep (inv_a2r Rd K (rail c s) _) (rch_a2r Rd K (rail c s) _))
              (pers_eight fun q => pers_three fun s => pers_sep (inv_br Rd K (zpeer c s) _) (rch_br Rd K (zpeer c s) _))))))
  · exact pers_sep (pers_eight fun q => rch_a1s Rd K c q)
      (pers_sep (pers_eight fun q => pers_three fun s => rch_a2s Rd K c _) (pers_eight fun q => pers_three fun s => rch_bs Rd K c _))
  · exact pers_sep (pers_eight fun q => rch_a1r Rd K c q)
      (pers_sep (pers_eight fun q => pers_three fun s => rch_a2r Rd K c _) (pers_eight fun q => pers_three fun s => rch_br Rd K c _))

/-- One device's positions, from its position at each of its 145 cells. -/
theorem positions_intro (c : Dev nD) :
    (bigSep Finset.univ fun k : Fin 145 => (atPos ER (kcell (c, k)) 0 ∅ 0 : sProp 𝕄)) ⊢ positions c :=
  cells_regroup c (fun g => atPos ER g 0 ∅ 0)

/-! ## The global step -/

/-- What the global step hands device `c`: at some names, its records, its positions and the tokens of the duties it pays. -/
def G' (c : Dev nD) : sProp 𝕄 := iprop(∃ K, Ghost.records Rd K c ∗ positions c ∗ payToks c)

theorem ghost_intro (K : Dev nD × Fin 145 → ℕ) (c : Dev nD) :
    iprop(recordsAll Rd K ∗ (bigSep Finset.univ fun k : Fin 145 => atPos ER (kcell (c, k)) 0 ∅ 0) ∗ payToks c) ⊢ G' Rd c := by
  iintro ⟨#HR, Hat, Htok⟩
  unfold G'
  iexists (nameOf K)
  isplitr
  · iapply (records_intro Rd K c); iexact HR
  isplitl [Hat]
  · iapply (positions_intro (F := F) c); iexact Hat
  · iexact Htok

theorem regroup (ownToks : Dev nD → sProp 𝕄)
    (hdeal : (bigSep Finset.univ fun c : Dev nD => ownToks c) ⊢ bigSep Finset.univ fun c : Dev nD => (payToks c : sProp 𝕄)) :
    (bigSep Finset.univ fun c : Dev nD => iprop((bigSep Finset.univ fun k : Fin 145 => iprop(∃ κ : ℕ, cellInv ER Rd κ (kcell (c, k))))
          ∗ (bigSep Finset.univ fun k : Fin 145 => iprop(atPos ER (kcell (c, k)) 0 ∅ 0 ∗ reached ER (kcell (c, k)) 0)) ∗ ownToks c) : sProp 𝕄)
      ⊢ bigSep Finset.univ (G' Rd) := by
  rw [bigSep_sep', bigSep_sep', ← bigSep_univ_prod (fun ck : Dev nD × Fin 145 => iprop(∃ κ : ℕ, cellInv ER Rd κ (kcell ck))),
    bigSep_congr (s := Finset.univ) (fun (c : Dev nD) _ => bigSep_sep' Finset.univ (fun k : Fin 145 => (atPos ER (kcell (c, k)) 0 ∅ 0 : sProp 𝕄)) (fun k => reached ER (kcell (c, k)) 0)),
    bigSep_sep', ← bigSep_univ_prod (fun ck : Dev nD × Fin 145 => (reached ER (kcell ck) 0 : sProp 𝕄))]
  iintro ⟨HI, ⟨Hat, #HR⟩, Htok⟩
  ihave HK := (BI.bigSep_exists_pi Finset.univ (fun (ck : Dev nD × Fin 145) (κ : ℕ) => (cellInv ER Rd κ (kcell ck) : sProp 𝕄))) $$ HI
  icases HK with ⟨%K, #HI⟩
  ihave Htk := hdeal $$ Htok
  iapply (BI.bigSep_with_persistent (R := recordsAll Rd K) fun c _ => ghost_intro Rd K c)
  isplitr
  · unfold recordsAll; isplitl; · iexact HI
    iexact HR
  · rw [bigSep_sep']
    isplitl [Hat]; · iexact Hat
    iexact Htk

/-- The global step: own and unscoped semaphores of every device at once. -/
theorem glob (ownToks : Dev nD → sProp 𝕄)
    (hdeal : (bigSep Finset.univ fun c : Dev nD => ownToks c) ⊢ bigSep Finset.univ fun c : Dev nD => (payToks c : sProp 𝕄)) :
    (bigSep Finset.univ fun c => iprop(Pipeline.ownSems0 (Ix := Unit) (Name := ℕ) (U := UU) (Lvl := ℕ) (Val := Elt F) (τ := τ) osem c ∗ unscopedSems0 c
        ∗ cellsG Rd c ∗ ownToks c) : sProp 𝕄)
      ⊢ |={Set.univ}=> bigSep Finset.univ (G' Rd) := by
  exact ((bigSep_mono fun c _ => core_alloc Rd ownToks c).trans (bigSep_fupd _ _)).trans (BI.fupd_mono (regroup Rd ownToks hdeal))

/-- info: 'Cert.KernelIdeal.LaunchAlloc.glob' depends on axioms: [propext, Classical.choice, Quot.sound] -/
#guard_msgs in #print axioms glob
/-- info: 'Cert.KernelIdeal.LaunchAlloc.fund_cells' depends on axioms: [propext, Classical.choice, Quot.sound] -/
#guard_msgs in #print axioms fund_cells

end Cert.KernelIdeal.LaunchAlloc

end
-- ==== Proof.LaunchDeal.lean ====
/-
  The duty tokens at launch. The allocation mints, for every device, the tokens of the duties of its own
  cells; a duty is paid by another device, so the tokens are dealt round the box: duty k of a barrier cell
  to the device whose k-th peer owns the cell, the arrival token of a receive cell to the device that
  copies into it, while the departure token of a send cell stays with its owner. The deals are re-indexings
  of the 32 devices along the peer maps, each a bijection of the box.
-/
import proofs.«900893_g7700000000000894_dist_matmul_mk_i_outk_m1024_n1024_k512_v7x_i32_f32_1_alg».proof.Proof.Proto
import proofs.«900893_g7700000000000894_dist_matmul_mk_i_outk_m1024_n1024_k512_v7x_i32_f32_1_alg».proof.Proof.ProtoTables
import proofs.«900893_g7700000000000894_dist_matmul_mk_i_outk_m1024_n1024_k512_v7x_i32_f32_1_alg».proof.Proof.Ghost
import proofs.«900893_g7700000000000894_dist_matmul_mk_i_outk_m1024_n1024_k512_v7x_i32_f32_1_alg».proof.Proof.MeshFacts
import proofs.«900893_g7700000000000894_dist_matmul_mk_i_outk_m1024_n1024_k512_v7x_i32_f32_1_alg».proof.Proof.SlotIdx

noncomputable section

namespace Cert.KernelIdeal.LaunchDeal

open Cert.KernelIdeal Cert.KernelIdeal.Gen Cert.KernelIdeal.Proto Cert.KernelIdeal.Ghost
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peer maps as bijections of the box -/

def partnerE : Dev nD ≃ Dev nD where
  toFun c := partner c
  invFun c := partner c
  left_inv c := MeshFacts.partner_partner c
  right_inv c := MeshFacts.partner_partner c

def railE (s : ℕ) (hs : s ≤ 4) : Dev nD ≃ Dev nD where
  toFun c := rail c s
  invFun c := rail c (4 - s)
  left_inv c := MeshFacts.rail_rail c s hs
  right_inv c := by
    have h := MeshFacts.rail_rail c (4 - s) (by omega)
    rwa [show 4 - (4 - s) = s by omega] at h

def zpeerE (s : ℕ) (hs : s ≤ 4) : Dev nD ≃ Dev nD where
  toFun c := zpeer c s
  invFun c := zpeer c (4 - s)
  left_inv c := MeshFacts.zpeer_zpeer c s hs
  right_inv c := by
    have h := MeshFacts.zpeer_zpeer c (4 - s) (by omega)
    rwa [show 4 - (4 - s) = s by omega] at h

/-- Seen from the rail peer s rows on, this device's own slot of chunk q is the slot 4 - s advances on. -/
theorem slot_rail_back (c : Dev nD) (q : Fin 8) (s : ℕ) (h1 : 1 ≤ s) (h3 : s ≤ 3) :
    slot (yc (rail c s)) q (4 - s) = slot (yc c) q 0 := by
  apply Fin.ext
  rw [Cert.Mesh.slot_val, Cert.Mesh.slot_val, MeshFacts.yc_rail]
  have := MeshFacts.yc_lt c
  omega

/-- Seen from the plane peer s planes on, this device's own slot of chunk q is the slot 4 - s advances on. -/
theorem slot_zpeer_back (c : Dev nD) (q : Fin 8) (s : ℕ) (h1 : 1 ≤ s) (h3 : s ≤ 3) :
    slot (zc (zpeer c s)) q (4 - s) = slot (zc c) q 0 := by
  apply Fin.ext
  rw [Cert.Mesh.slot_val, Cert.Mesh.slot_val, MeshFacts.zc_zpeer]
  have := MeshFacts.zc_lt c
  omega

omit [FloatOps F] in
theorem eight_eq (Φ : Fin 8 → sProp 𝕄) : eight Φ = bigSep Finset.univ Φ :=
  (bigSep_univ_eq_bigSepL [0, 1, 2, 3, 4, 5, 6, 7] (by decide) (by decide) Φ).symm

omit [FloatOps F] in
theorem eight_sep (A B : Fin 8 → sProp 𝕄) : eight (fun q => iprop(A q ∗ B q)) = iprop(eight A ∗ eight B) := by
  rw [eight_eq, eight_eq, eight_eq]; exact bigSep_sep' _ A B

omit [FloatOps F] in
theorem shuffle_mp (a b c d e f : sProp 𝕄) :
    iprop((a ∗ f) ∗ (c ∗ d) ∗ (e ∗ b)) ⊢ iprop((a ∗ b) ∗ (c ∗ d) ∗ (e ∗ f)) := by
  iintro ⟨⟨Ha, Hf⟩, ⟨Hc, Hd⟩, He, Hb⟩
  isplitl [Ha Hb]
  · isplitl [Ha]; · iexact Ha
    iexact Hb
  isplitl [Hc Hd]
  · isplitl [Hc]; · iexact Hc
    iexact Hd
  isplitl [He]; · iexact He
  iexact Hf

omit [FloatOps F] in
/-- Three pairs with the second members in the opposite order. -/
theorem shuffle (a b c d e f : sProp 𝕄) :
    iprop((a ∗ f) ∗ (c ∗ d) ∗ (e ∗ b)) = iprop((a ∗ b) ∗ (c ∗ d) ∗ (e ∗ f)) :=
  BI.equiv_iff.mp ⟨shuffle_mp a b c d e f, shuffle_mp a f c d e b⟩

/-! ## The tokens as minted, and the deal -/

/-- The duty tokens of device c's own cells: the seven duties of its barrier cell; the one duty of each
    stage-one send and receive cell; and the one duty of each stage-two and stage-three send and receive
    cell other than those of its own row and plane, on which nothing is sent. -/
def ownToks (c : Dev nD) : sProp 𝕄 :=
  iprop(dutyTok ER (barCell c) 0 (0 : D)
    ∗ dutyTok ER (barCell c) 0 (1 : D) ∗ dutyTok ER (barCell c) 0 (2 : D) ∗ dutyTok ER (barCell c) 0 (3 : D)
    ∗ dutyTok ER (barCell c) 0 (4 : D) ∗ dutyTok ER (barCell c) 0 (5 : D) ∗ dutyTok ER (barCell c) 0 (6 : D)
    ∗ eight (fun q => iprop(dutyTok ER (a1sCell c q) 0 (0 : D) ∗ dutyTok ER (a1rCell c q) 0 (0 : D)))
    ∗ eight (fun q => three fun s => iprop(dutyTok ER (a2sCell c (slot (yc c) q s)) 0 (0 : D) ∗ dutyTok ER (a2rCell c (slot (yc c) q s)) 0 (0 : D)))
    ∗ eight (fun q => three fun s => iprop(dutyTok ER (bsCell c (slot (zc c) q s)) 0 (0 : D) ∗ dutyTok ER (brCell c (slot (zc c) q s)) 0 (0 : D))))

omit [FloatOps F] in
/-- The tokens dealt round the box: every device ends with the tokens of the duties it pays. -/
theorem deal_eq : (bigSep Finset.univ fun c : Dev nD => (ownToks c : sProp 𝕄)) = bigSep Finset.univ fun c : Dev nD => (payToks c : sProp 𝕄) := by
  have hB0 := bigSep_univ_equiv partnerE (fun c : Dev nD => (dutyTok ER (barCell c) 0 (0 : D) : sProp 𝕄))
  have hB1 := bigSep_univ_equiv (railE 1 (by omega)) (fun c : Dev nD => (dutyTok ER (barCell c) 0 (1 : D) : sProp 𝕄))
  have hB2 := bigSep_univ_equiv (railE 2 (by omega)) (fun c : Dev nD => (dutyTok ER (barCell c) 0 (2 : D) : sProp 𝕄))
  have hB3 := bigSep_univ_equiv (railE 3 (by omega)) (fun c : Dev nD => (dutyTok ER (barCell c) 0 (3 : D) : sProp 𝕄))
  have hB4 := bigSep_univ_equiv (zpeerE 1 (by omega)) (fun c : Dev nD => (dutyTok ER (barCell c) 0 (4 : D) : sProp 𝕄))
  have hB5 := bigSep_univ_equiv (zpeerE 2 (by omega)) (fun c : Dev nD => (dutyTok ER (barCell c) 0 (5 : D) : sProp 𝕄))
  have hB6 := bigSep_univ_equiv (zpeerE 3 (by omega)) (fun c : Dev nD => (dutyTok ER (barCell c) 0 (6 : D) : sProp 𝕄))
  have hR1 := bigSep_univ_equiv partnerE (fun c : Dev nD => eight (fun q => (dutyTok ER (a1rCell c q) 0 (0 : D) : sProp 𝕄)))
  have hR2 : ∀ (s : ℕ) (h1 : 1 ≤ s) (h3 : s ≤ 3),
      (bigSep Finset.univ fun c : Dev nD => eight (fun q => (dutyTok ER (a2rCell c (slot (yc c) q (4 - s))) 0 (0 : D) : sProp 𝕄)))
        = bigSep Finset.univ fun c : Dev nD => eight (fun q => (dutyTok ER (a2rCell (rail c s) (slot (yc c) q 0)) 0 (0 : D) : sProp 𝕄)) := by
    intro s h1 h3
    rw [bigSep_univ_equiv (railE s (by omega))]
    refine bigSep_congr fun c _ => ?_
    show eight (fun q => (dutyTok ER (a2rCell (rail c s) (slot (yc (rail c s)) q (4 - s))) 0 (0 : D) : sProp 𝕄)) = _
    simp only [slot_rail_back c _ s h1 h3]
  have hR3 : ∀ (s : ℕ) (h1 : 1 ≤ s) (h3 : s ≤ 3),
      (bigSep Finset.univ fun c : Dev nD => eight (fun q => (dutyTok ER (brCell c (slot (zc c) q (4 - s))) 0 (0 : D) : sProp 𝕄)))
        = bigSep Finset.univ fun c : Dev nD => eight (fun q => (dutyTok ER (brCell (zpeer c s) (slot (zc c) q 0)) 0 (0 : D) : sProp 𝕄)) := by
    intro s h1 h3
    rw [bigSep_univ_equiv (zpeerE s (by omega))]
    refine bigSep_congr fun c _ => ?_
    show eight (fun q => (dutyTok ER (brCell (zpeer c s) (slot (zc (zpeer c s)) q (4 - s))) 0 (0 : D) : sProp 𝕄)) = _
    simp only [slot_zpeer_back c _ s h1 h3]
  have hR2_1 := hR2 1 (by omega) (by omega)
  have hR2_2 := hR2 2 (by omega) (by omega)
  have hR2_3 := hR2 3 (by omega) (by omega)
  have hR3_1 := hR3 1 (by omega) (by omega)
  have hR3_2 := hR3 2 (by omega) (by omega)
  have hR3_3 := hR3 3 (by omega) (by omega)
  simp only [show 4 - 1 = 3 from rfl, show 4 - 2 = 2 from rfl, show 4 - 3 = 1 from rfl] at hR2_1 hR2_2 hR2_3 hR3_1 hR3_2 hR3_3
  unfold ownToks payToks three
  simp only [bigSep_sep', eight_sep]
  rw [hB0, hB1, hB2, hB3, hB4, hB5, hB6, hR1, hR2_1, hR2_2, hR2_3, hR3_1, hR3_2, hR3_3]
  simp only [partnerE, railE, zpeerE, Equiv.coe_fn_mk]
  rw [shuffle (a := bigSep Finset.univ fun i : Dev nD => eight fun q => (dutyTok ER (a2sCell i (slot (yc i) q 1)) 0 (0 : D) : sProp 𝕄)),
    shuffle (a := bigSep Finset.univ fun i : Dev nD => eight fun q => (dutyTok ER (bsCell i (slot (zc i) q 1)) 0 (0 : D) : sProp 𝕄))]

omit [FloatOps F] in
theorem deal : (bigSep Finset.univ fun c : Dev nD => (ownToks c : sProp 𝕄)) ⊢ bigSep Finset.univ fun c : Dev nD => (payToks c : sProp 𝕄) :=
  Entails.of_eq deal_eq

/-! ## The minted tokens, enumerated -/

/-- Which token of a device: a barrier duty; a stage-one cell (send or receive) of a chunk; a stage-two cell
    of a chunk and a step 1, 2, 3; a stage-three cell likewise. -/
abbrev TokIx : Type := Fin 7 ⊕ (Fin 8 × Bool) ⊕ (Fin 8 × Fin 3 × Bool) ⊕ (Fin 8 × Fin 3 × Bool)

/-- The token named by a device and an index: its cell, round 0, its duty. -/
def tokOf (cj : Dev nD × TokIx) : GSem nD τ sig × ℕ × D :=
  match cj.2 with
  | .inl k => (barCell cj.1, 0, k)
  | .inr (.inl (q, false)) => (a1sCell cj.1 q, 0, 0)
  | .inr (.inl (q, true)) => (a1rCell cj.1 q, 0, 0)
  | .inr (.inr (.inl (q, s, false))) => (a2sCell cj.1 (slot (yc cj.1) q (s.val + 1)), 0, 0)
  | .inr (.inr (.inl (q, s, true))) => (a2rCell cj.1 (slot (yc cj.1) q (s.val + 1)), 0, 0)
  | .inr (.inr (.inr (q, s, false))) => (bsCell cj.1 (slot (zc cj.1) q (s.val + 1)), 0, 0)
  | .inr (.inr (.inr (q, s, true))) => (brCell cj.1 (slot (zc cj.1) q (s.val + 1)), 0, 0)

/-- The kind of the token's cell. -/
def kindJ (c : Dev nD) : TokIx → CK
  | .inl _ => .bar
  | .inr (.inl (q, false)) => .a1s q
  | .inr (.inl (q, true)) => .a1r q
  | .inr (.inr (.inl (q, s, false))) => .a2s (slot (yc c) q (s.val + 1))
  | .inr (.inr (.inl (q, s, true))) => .a2r (slot (yc c) q (s.val + 1))
  | .inr (.inr (.inr (q, s, false))) => .bs (slot (zc c) q (s.val + 1))
  | .inr (.inr (.inr (q, s, true))) => .br (slot (zc c) q (s.val + 1))

/-- The token's duty. -/
def dutyJ : TokIx → D
  | .inl k => k
  | .inr _ => 0

theorem tok_dev (c : Dev nD) (j : TokIx) : (tokOf (c, j)).1.1.1 = c := by
  rcases j with k | (⟨q, b⟩ | (⟨q, s, b⟩ | ⟨q, s, b⟩)) <;> (try cases b) <;> rfl

theorem tok_duty (c : Dev nD) (j : TokIx) : (tokOf (c, j)).2.2 = dutyJ j := by
  rcases j with k | (⟨q, b⟩ | (⟨q, s, b⟩ | ⟨q, s, b⟩)) <;> (try cases b) <;> rfl

theorem tok_kind (c : Dev nD) (j : TokIx) : kindOf (tokOf (c, j)).1.2 = kindJ c j := by
  rcases j with k | (⟨q, b⟩ | (⟨q, s, b⟩ | ⟨q, s, b⟩)) <;> (try cases b)
  · exact kind_bar
  · exact kind_a1s q
  · exact kind_a1r q
  · exact kind_a2s _
  · exact kind_a2r _
  · exact kind_bs _
  · exact kind_br _

theorem slot_inj (v : ℕ) (q q' : Fin 8) (s s' : Fin 3) (h : slot v q (s.val + 1) = slot v q' (s'.val + 1)) : q = q' ∧ s = s' := by
  have e := congrArg Fin.val h
  simp only [Cert.Mesh.slot_val] at e
  have := s.isLt; have := s'.isLt
  exact ⟨Fin.ext (by omega), Fin.ext (by omega)⟩

theorem kindJ_inj (c : Dev nD) (j j' : TokIx) (hk : kindJ c j = kindJ c j') (hd : dutyJ j = dutyJ j') : j = j' := by
  rcases j with k | (⟨q, b⟩ | (⟨q, s, b⟩ | ⟨q, s, b⟩)) <;> rcases j' with k' | (⟨q', b'⟩ | (⟨q', s', b'⟩ | ⟨q', s', b'⟩)) <;>
    (try cases b) <;> (try cases b') <;>
    first
    | (exfalso; simpa [kindJ] using hk)
    | (simp only [dutyJ] at hd; subst hd; rfl)
    | (simp only [kindJ, CK.a1s.injEq, CK.a1r.injEq] at hk; subst hk; rfl)
    | (simp only [kindJ, CK.a2s.injEq, CK.a2r.injEq, CK.bs.injEq, CK.br.injEq] at hk
       obtain ⟨rfl, rfl⟩ := slot_inj _ _ _ _ _ hk
       rfl)

theorem tokOf_injective : Function.Injective (tokOf : Dev nD × TokIx → GSem nD τ sig × ℕ × D) := by
  rintro ⟨c, j⟩ ⟨c', j'⟩ h
  have hc : c = c' := by
    have := congrArg (fun x : GSem nD τ sig × ℕ × D => x.1.1.1) h
    simpa only [tok_dev] using this
  subst hc
  have hk : kindJ c j = kindJ c j' := by
    rw [← tok_kind, ← tok_kind]; exact congrArg (fun x : GSem nD τ sig × ℕ × D => kindOf x.1.2) h
  have hd : dutyJ j = dutyJ j' := by
    rw [← tok_duty c j, ← tok_duty c j']; exact congrArg (fun x : GSem nD τ sig × ℕ × D => x.2.2) h
  rw [kindJ_inj c j j' hk hd]

/-- The minted tokens: every device's, every index's. -/
def protoToks : Finset (GSem nD τ sig × ℕ × D) := Finset.univ.map ⟨tokOf, tokOf_injective⟩

omit [FloatOps F] in
theorem three_eq (Ψ : ℕ → sProp 𝕄) : three Ψ = bigSep Finset.univ (fun s : Fin 3 => Ψ (s.val + 1)) :=
  (bigSep_univ_eq_bigSepL [0, 1, 2] (by decide) (by decide) (fun s : Fin 3 => Ψ (s.val + 1))).symm

omit [FloatOps F] in
theorem pair_eq (Ψ : Bool → sProp 𝕄) : bigSep Finset.univ Ψ = iprop(Ψ false ∗ Ψ true) :=
  bigSep_univ_eq_bigSepL [false, true] (by decide) (by decide) Ψ

omit [FloatOps F] in
theorem seven_eq (Ψ : Fin 7 → sProp 𝕄) : bigSep Finset.univ Ψ = iprop(Ψ 0 ∗ Ψ 1 ∗ Ψ 2 ∗ Ψ 3 ∗ Ψ 4 ∗ Ψ 5 ∗ Ψ 6) :=
  bigSep_univ_eq_bigSepL [0, 1, 2, 3, 4, 5, 6] (by decide) (by decide) Ψ

omit [FloatOps F] in
theorem assoc7_mp (b0 b1 b2 b3 b4 b5 b6 r : sProp 𝕄) :
    iprop((b0 ∗ b1 ∗ b2 ∗ b3 ∗ b4 ∗ b5 ∗ b6) ∗ r) ⊢ iprop(b0 ∗ b1 ∗ b2 ∗ b3 ∗ b4 ∗ b5 ∗ b6 ∗ r) := by
  iintro ⟨⟨H0, H1, H2, H3, H4, H5, H6⟩, Hr⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hr

omit [FloatOps F] in
theorem assoc7_mpr (b0 b1 b2 b3 b4 b5 b6 r : sProp 𝕄) :
    iprop(b0 ∗ b1 ∗ b2 ∗ b3 ∗ b4 ∗ b5 ∗ b6 ∗ r) ⊢ iprop((b0 ∗ b1 ∗ b2 ∗ b3 ∗ b4 ∗ b5 ∗ b6) ∗ r) := by
  iintro ⟨H0, H1, H2, H3, H4, H5, H6, Hr⟩
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

omit [FloatOps F] in
theorem assoc7 (b0 b1 b2 b3 b4 b5 b6 r : sProp 𝕄) :
    iprop((b0 ∗ b1 ∗ b2 ∗ b3 ∗ b4 ∗ b5 ∗ b6) ∗ r) = iprop(b0 ∗ b1 ∗ b2 ∗ b3 ∗ b4 ∗ b5 ∗ b6 ∗ r) :=
  BI.equiv_iff.mp ⟨assoc7_mp b0 b1 b2 b3 b4 b5 b6 r, assoc7_mpr b0 b1 b2 b3 b4 b5 b6 r⟩

omit [FloatOps F] in
/-- One device's tokens, enumerated, are its bundle. -/
theorem toks_of_dev (c : Dev nD) :
    bigSep Finset.univ (fun j : TokIx => (dutyTok ER (tokOf (c, j)).1 (tokOf (c, j)).2.1 (tokOf (c, j)).2.2 : sProp 𝕄)) = ownToks c := by
  rw [bigSep_univ_sum, bigSep_univ_sum, bigSep_univ_sum, seven_eq]
  unfold ownToks
  rw [← assoc7]
  congr 1
  congr 1
  · rw [bigSep_univ_prod, eight_eq]
    refine bigSep_congr fun q _ => ?_
    rw [pair_eq]; rfl
  congr 1
  · rw [bigSep_univ_prod, eight_eq]
    refine bigSep_congr fun q _ => ?_
    rw [bigSep_univ_prod, three_eq]
    refine bigSep_congr fun s _ => ?_
    rw [pair_eq]; rfl
  · rw [bigSep_univ_prod, eight_eq]
    refine bigSep_congr fun q _ => ?_
    rw [bigSep_univ_prod, three_eq]
    refine bigSep_congr fun s _ => ?_
    rw [pair_eq]; rfl

omit [FloatOps F] in
/-- The minted tokens are the devices' bundles. -/
theorem protoToks_eq :
    bigSep protoToks (fun x => (dutyTok ER x.1 x.2.1 x.2.2 : sProp 𝕄)) = bigSep Finset.univ fun c : Dev nD => (ownToks c : sProp 𝕄) := by
  unfold protoToks
  rw [bigSep_map, bigSep_univ_prod]
  exact bigSep_congr fun c _ => toks_of_dev c

end Cert.KernelIdeal.LaunchDeal

end
-- ==== Proof.ProtoCred.lean ====
/-
  The launch credit: what the devices owe, summed over the payers, is on each device exactly the credit its own
  waits consume: seven barrier units, one slot credit per copy it receives.
-/
import proofs.«900893_g7700000000000894_dist_matmul_mk_i_outk_m1024_n1024_k512_v7x_i32_f32_1_alg».proof.Proof.ProtoTables
import proofs.«900893_g7700000000000894_dist_matmul_mk_i_outk_m1024_n1024_k512_v7x_i32_f32_1_alg».proof.Proof.Ghost
import Mathlib.Tactic.Abel

noncomputable section

namespace Cert.KernelIdeal.Proto

open Cert.KernelIdeal Cert.KernelIdeal.Gen
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peer maps as permutations of the devices -/

def ePartner : Dev nD ≃ Dev nD := ⟨partner, partner, MeshFacts.partner_partner, MeshFacts.partner_partner⟩
def eRail1 : Dev nD ≃ Dev nD := ⟨fun d => rail d 1, fun d => rail d 3, MeshFacts.rail_rail_1, MeshFacts.rail_rail_3⟩
def eRail2 : Dev nD ≃ Dev nD := ⟨fun d => rail d 2, fun d => rail d 2, MeshFacts.rail_rail_2, MeshFacts.rail_rail_2⟩
def eRail3 : Dev nD ≃ Dev nD := ⟨fun d => rail d 3, fun d => rail d 1, MeshFacts.rail_rail_3, MeshFacts.rail_rail_1⟩
def eZ1 : Dev nD ≃ Dev nD := ⟨fun d => zpeer d 1, fun d => zpeer d 3, MeshFacts.zpeer_zpeer_1, MeshFacts.zpeer_zpeer_3⟩
def eZ2 : Dev nD ≃ Dev nD := ⟨fun d => zpeer d 2, fun d => zpeer d 2, MeshFacts.zpeer_zpeer_2, MeshFacts.zpeer_zpeer_2⟩
def eZ3 : Dev nD ≃ Dev nD := ⟨fun d => zpeer d 3, fun d => zpeer d 1, MeshFacts.zpeer_zpeer_3, MeshFacts.zpeer_zpeer_1⟩

/-! ## Each payment summed over the payers is a sum over the receivers -/

theorem sum_bar_partner : (∑ d : Dev nD, tallyAt (barCell (partner d)) () 1 : CellTallies nD τ sig Unit) = ∑ e : Dev nD, tallyAt (barCell e) () 1 :=
  Equiv.sum_comp ePartner fun e => (tallyAt (barCell e) () 1 : CellTallies nD τ sig Unit)
theorem sum_bar_rail1 : (∑ d : Dev nD, tallyAt (barCell (rail d 1)) () 1 : CellTallies nD τ sig Unit) = ∑ e : Dev nD, tallyAt (barCell e) () 1 :=
  Equiv.sum_comp eRail1 fun e => (tallyAt (barCell e) () 1 : CellTallies nD τ sig Unit)
theorem sum_bar_zpeer1 : (∑ d : Dev nD, tallyAt (barCell (zpeer d 1)) () 1 : CellTallies nD τ sig Unit) = ∑ e : Dev nD, tallyAt (barCell e) () 1 :=
  Equiv.sum_comp eZ1 fun e => (tallyAt (barCell e) () 1 : CellTallies nD τ sig Unit)
theorem sum_bar_rail2 : (∑ d : Dev nD, tallyAt (barCell (rail d 2)) () 1 : CellTallies nD τ sig Unit) = ∑ e : Dev nD, tallyAt (barCell e) () 1 :=
  Equiv.sum_comp eRail2 fun e => (tallyAt (barCell e) () 1 : CellTallies nD τ sig Unit)
theorem sum_bar_zpeer2 : (∑ d : Dev nD, tallyAt (barCell (zpeer d 2)) () 1 : CellTallies nD τ sig Unit) = ∑ e : Dev nD, tallyAt (barCell e) () 1 :=
  Equiv.sum_comp eZ2 fun e => (tallyAt (barCell e) () 1 : CellTallies nD τ sig Unit)
theorem sum_bar_rail3 : (∑ d : Dev nD, tallyAt (barCell (rail d 3)) () 1 : CellTallies nD τ sig Unit) = ∑ e : Dev nD, tallyAt (barCell e) () 1 :=
  Equiv.sum_comp eRail3 fun e => (tallyAt (barCell e) () 1 : CellTallies nD τ sig Unit)
theorem sum_bar_zpeer3 : (∑ d : Dev nD, tallyAt (barCell (zpeer d 3)) () 1 : CellTallies nD τ sig Unit) = ∑ e : Dev nD, tallyAt (barCell e) () 1 :=
  Equiv.sum_comp eZ3 fun e => (tallyAt (barCell e) () 1 : CellTallies nD τ sig Unit)
theorem sum_a1r (q : Fin 8) : (∑ d : Dev nD, tallyAt (a1rCell (partner d) q) () N1 : CellTallies nD τ sig Unit) = ∑ e : Dev nD, tallyAt (a1rCell e q) () N1 :=
  Equiv.sum_comp ePartner fun e => (tallyAt (a1rCell e q) () N1 : CellTallies nD τ sig Unit)

theorem slot_rail (d : Dev nD) (q : Fin 8) (s t : ℕ) (h : (s + t) % 4 = 0) : slot (yc d) q 0 = slot (yc (rail d s)) q t :=
  Fin.ext (by simp only [Cert.Mesh.slot_val, MeshFacts.yc_rail]; have := yc_lt d; omega)
theorem slot_zpeer (d : Dev nD) (q : Fin 8) (s t : ℕ) (h : (s + t) % 4 = 0) : slot (zc d) q 0 = slot (zc (zpeer d s)) q t :=
  Fin.ext (by simp only [Cert.Mesh.slot_val, MeshFacts.zc_zpeer]; have := zc_lt d; omega)
theorem sum_a2r_1 (q : Fin 8) : (∑ d : Dev nD, tallyAt (a2rCell (rail d 1) (slot (yc d) q 0)) () N2 : CellTallies nD τ sig Unit)
    = ∑ e : Dev nD, tallyAt (a2rCell e (slot (yc e) q 3)) () N2 := by
  rw [Finset.sum_congr rfl fun d _ => by rw [slot_rail d q 1 3 (by decide)]]
  exact Equiv.sum_comp eRail1 fun e => (tallyAt (a2rCell e (slot (yc e) q 3)) () N2 : CellTallies nD τ sig Unit)
theorem sum_br_1 (q : Fin 8) : (∑ d : Dev nD, tallyAt (brCell (zpeer d 1) (slot (zc d) q 0)) () N3 : CellTallies nD τ sig Unit)
    = ∑ e : Dev nD, tallyAt (brCell e (slot (zc e) q 3)) () N3 := by
  rw [Finset.sum_congr rfl fun d _ => by rw [slot_zpeer d q 1 3 (by decide)]]
  exact Equiv.sum_comp eZ1 fun e => (tallyAt (brCell e (slot (zc e) q 3)) () N3 : CellTallies nD τ sig Unit)
theorem sum_a2r_2 (q : Fin 8) : (∑ d : Dev nD, tallyAt (a2rCell (rail d 2) (slot (yc d) q 0)) () N2 : CellTallies nD τ sig Unit)
    = ∑ e : Dev nD, tallyAt (a2rCell e (slot (yc e) q 2)) () N2 := by
  rw [Finset.sum_congr rfl fun d _ => by rw [slot_rail d q 2 2 (by decide)]]
  exact Equiv.sum_comp eRail2 fun e => (tallyAt (a2rCell e (slot (yc e) q 2)) () N2 : CellTallies nD τ sig Unit)
theorem sum_br_2 (q : Fin 8) : (∑ d : Dev nD, tallyAt (brCell (zpeer d 2) (slot (zc d) q 0)) () N3 : CellTallies nD τ sig Unit)
    = ∑ e : Dev nD, tallyAt (brCell e (slot (zc e) q 2)) () N3 := by
  rw [Finset.sum_congr rfl fun d _ => by rw [slot_zpeer d q 2 2 (by decide)]]
  exact Equiv.sum_comp eZ2 fun e => (tallyAt (brCell e (slot (zc e) q 2)) () N3 : CellTallies nD τ sig Unit)
theorem sum_a2r_3 (q : Fin 8) : (∑ d : Dev nD, tallyAt (a2rCell (rail d 3) (slot (yc d) q 0)) () N2 : CellTallies nD τ sig Unit)
    = ∑ e : Dev nD, tallyAt (a2rCell e (slot (yc e) q 1)) () N2 := by
  rw [Finset.sum_congr rfl fun d _ => by rw [slot_rail d q 3 1 (by decide)]]
  exact Equiv.sum_comp eRail3 fun e => (tallyAt (a2rCell e (slot (yc e) q 1)) () N2 : CellTallies nD τ sig Unit)
theorem sum_br_3 (q : Fin 8) : (∑ d : Dev nD, tallyAt (brCell (zpeer d 3) (slot (zc d) q 0)) () N3 : CellTallies nD τ sig Unit)
    = ∑ e : Dev nD, tallyAt (brCell e (slot (zc e) q 1)) () N3 := by
  rw [Finset.sum_congr rfl fun d _ => by rw [slot_zpeer d q 3 1 (by decide)]]
  exact Equiv.sum_comp eZ3 fun e => (tallyAt (brCell e (slot (zc e) q 1)) () N3 : CellTallies nD τ sig Unit)

/-! ## The credit a device is dealt -/

/-- Sums over the chunks 0 … 7 and over the steps 1, 2, 3, nested as the conjunctions of the ghost state are. -/
def sum8 (Φ : Fin 8 → CellTallies nD τ sig Unit) : CellTallies nD τ sig Unit := Φ 0 + (Φ 1 + (Φ 2 + (Φ 3 + (Φ 4 + (Φ 5 + (Φ 6 + Φ 7))))))
def sum3 (Φ : ℕ → CellTallies nD τ sig Unit) : CellTallies nD τ sig Unit := Φ 1 + (Φ 2 + Φ 3)

/-- What the others owe device `c`'s cells: seven units on its barrier cell, a slot's credit on each receive cell
    that has a payer. -/
def Tcred (c : Dev nD) : CellTallies nD τ sig Unit :=
  tallyAt (barCell c) () 7
    + (sum8 (fun q => tallyAt (a1rCell c q) () N1)
      + (sum8 (fun q => sum3 fun s => tallyAt (a2rCell c (slot (yc c) q s)) () N2)
        + sum8 (fun q => sum3 fun s => tallyAt (brCell c (slot (zc c) q s)) () N3)))

theorem sum_bar7 : (∑ d : Dev nD, tallyAt (barCell d) () 7 : CellTallies nD τ sig Unit)
    = (∑ e : Dev nD, tallyAt (barCell e) () 1) + (∑ e : Dev nD, tallyAt (barCell e) () 1) + (∑ e : Dev nD, tallyAt (barCell e) () 1) + (∑ e : Dev nD, tallyAt (barCell e) () 1)
      + (∑ e : Dev nD, tallyAt (barCell e) () 1) + (∑ e : Dev nD, tallyAt (barCell e) () 1) + (∑ e : Dev nD, tallyAt (barCell e) () 1) := by
  simp only [← Finset.sum_add_distrib, tallyAt_add]

/-- Summed over the devices, what is owed is what is dealt. -/
theorem owed_sum : (∑ d : Dev nD, O₀ d) = ∑ d : Dev nD, Tcred d := by
  unfold O₀ O1 O2 O3 Tcred sum8 sum3
  simp only [Finset.sum_add_distrib, sum_bar_partner, sum_bar_rail1, sum_bar_rail2, sum_bar_rail3, sum_bar_zpeer1, sum_bar_zpeer2, sum_bar_zpeer3,
    sum_a1r, sum_a2r_1, sum_a2r_2, sum_a2r_3, sum_br_1, sum_br_2, sum_br_3, sum_bar7]
  abel

theorem tallyAt_off (d : Dev nD) (sm : SemLoc sig) (n : ℕ) (g : GSem nD τ sig) (h : g.1 ≠ (d.tc : Thread nD τ)) :
    (tallyAt (((d.tc : Thread nD τ)), sm) () n : CellTallies nD τ sig Unit) g = 0 :=
  tallyAt_ne_cell (fun e => h (congrArg Prod.fst e)) _ _

/-- A device's dealt credit sits on its own cells. -/
theorem Tcred_own (d : Dev nD) (g : GSem nD τ sig) (hg : Tcred d g ≠ 0) : g.1 = (d.tc : Thread nD τ) := by
  by_contra h
  refine hg ?_
  unfold Tcred sum8 sum3
  simp only [Pi.add_apply, tallyAt_off d _ _ g h, add_zero]

omit [FloatOps F] in
theorem cred_add' (T₁ T₂ : CellTallies nD τ sig Unit) : (cred (T₁ + T₂) : sProp 𝕄) = iprop(cred T₁ ∗ cred T₂) :=
  BI.Entails.antisymm (cred_add _ _).1 (cred_add _ _).2

omit [FloatOps F] in
/-- A device's launch credit is its dealt credit, -/
theorem launchCred_eq (c : Dev nD) : (Pipeline.launchCred O₀ c : sProp 𝕄) = cred (Tcred c) :=
  Pipeline.launchCred_of_sum O₀ Tcred owed_sum Tcred_own c

omit [FloatOps F] in
/-- … cell by cell. -/
theorem creds (c : Dev nD) : (Pipeline.launchCred O₀ c : sProp 𝕄) ⊢ Ghost.credits c := by
  rw [launchCred_eq]
  unfold Tcred sum8 sum3 Ghost.credits Ghost.eight Ghost.three
  simp only [cred_add']
  exact .rfl

end Cert.KernelIdeal.Proto

end
-- ==== Proof.Launch.lean ====
/-
  The launch: from the proof of every device's kernel body to the run of the whole program on the mesh. The
  launch element is the pipeline's own and the protocol's; the protocol's part is every device's cells and
  tokens; the global step allocates the cells and deals the tokens to the devices that pay them; each device
  then holds its ghost state with the credit dealt for what the others owe it, and the body's invariant
  follows. The result window's contents are left unnamed: what is read off the run is that the two argument
  arrays of every device end as they began.
-/
import proofs.«900893_g7700000000000894_dist_matmul_mk_i_outk_m1024_n1024_k512_v7x_i32_f32_1_alg».proof.Proof.LaunchData
import proofs.«900893_g7700000000000894_dist_matmul_mk_i_outk_m1024_n1024_k512_v7x_i32_f32_1_alg».proof.Proof.LaunchAlloc
import proofs.«900893_g7700000000000894_dist_matmul_mk_i_outk_m1024_n1024_k512_v7x_i32_f32_1_alg».proof.Proof.LaunchDeal
import proofs.«900893_g7700000000000894_dist_matmul_mk_i_outk_m1024_n1024_k512_v7x_i32_f32_1_alg».proof.Proof.ProtoCred
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Proto Cert.KernelIdeal.Ghost
open Cert.KernelIdeal.LaunchSems (osem ownSemFacts ownSems0_eq unscopedSems0_eq)
open Cert.KernelIdeal.LaunchData Cert.KernelIdeal.LaunchAlloc Cert.KernelIdeal.LaunchDeal
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Rd : Rounds.Schedule (GSem nD τ sig) D (MT nD τ sig Unit (Elt F) ℕ UU ℕ))
  [hRd : ∀ g r d, BI.Storable (upEmb : UEmb _ (MT nD τ sig Unit (Elt F) ℕ UU ℕ)) (Rd.payload g r d)]
variable (m : (ℓ : Loc nD τ sig) → Buf (Elt F) ℓ) (ρ : Dev nD → PrngReg)

/-- The proof data read as relational data, the result window forgotten. -/
def rdats (p : Fin 1) (c : Dev nD) : Pipeline.RDat τ (Elt F) Unit ℕ UU ℕ (cfgs p) c := (dats Rd m p c).toRForget fgt2

theorem share_eq (c : Dev nD) (w : Fin cfg0.W) : (rdats Rd m 0 c).share w = fullShare := by
  show (dats Rd m 0 c).share w = fullShare
  unfold Dat.share; split <;> rfl

/-- The launch element: the pipeline library's own and the protocol's. -/
def u₀ : UU :=
  (initOf (Pipeline.cells cfgs cellOf_inj) (Pipeline.launchToks cfgs cellOf_inj), initOf protoCells protoToks)

/-- What the launch element deals device `c`. -/
def G (c : Dev nD) : sProp 𝕄 := iprop(cellsG Rd c ∗ ownToks c)

theorem fund_all : BI.own (ER (initOf protoCells protoToks)) ⊢ (|==> bigSep Finset.univ (G Rd) : sProp 𝕄) := by
  iintro HX
  imod (fund_cells Rd protoToks) $$ HX with ⟨HG, Htok⟩
  imodintro
  ihave Htok' := (Entails.of_eq (protoToks_eq (F := F))) $$ Htok
  unfold G; rw [bigSep_sep']
  isplitl [HG] <;> iassumption

theorem glob_all :
    (bigSep Finset.univ fun c => iprop(Pipeline.ownSems0 (Ix := Unit) (Name := ℕ) (U := UU) (Lvl := ℕ) (Val := Elt F) (τ := τ) osem c ∗ unscopedSems0 c ∗ G Rd c) : sProp 𝕄)
      ⊢ |={Set.univ}=> bigSep Finset.univ (G' Rd) :=
  glob Rd ownToks (deal (F := F))

/-- What a device's body starts from, the scratch buffers apart. -/
def X (c : Dev nD) : sProp 𝕄 := iprop((∃ K, ghost Rd K c) ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Rd c)
      ⊢ |={Set.univ}=> iprop(X Rd c ∗ emp) := by
  iintro ⟨-, Hlev, Hcr, -, HG⟩
  ihave Hc := (creds (F := F) c) $$ Hcr
  unfold G'
  icases HG with ⟨%K, HR, Hp, Ht⟩
  imodintro
  unfold X ghost
  isplitl
  · isplitl [HR Hp Ht Hc]
    · iexists K
      isplitl [HR]; · iexact HR
      isplitl [Hp]; · iexact Hp
      isplitl [Ht]; · iexact Ht
      iexact Hc
    · iexact Hlev
  · iempintro

theorem phi0_intro (c : Dev nD) :
    iprop(X Rd c ∗ Pipeline.prefHeld Pipeline.Prefetch.none c (fun _ => fullShare.right) (fun k => k.elim0) ∗ Pipeline.scopedRest cfg0.spec c)
      ⊢ (rdats Rd m 0 c).Φ 0 := by
  show _ ⊢ Φ₀ Rd c
  unfold Φ₀ X
  iintro ⟨⟨HG, Hl⟩, -, Hr⟩
  isplitl [HG]; · iexact HG
  isplitl [Hl] <;> iassumption

theorem phi1_exit (c : Dev nD) :
    (rdats Rd m 0 c).Φ (Fin.last cfg0.N) ⊢ iprop(emp ∗ Pipeline.ownSems0 osem c ∗ Pipeline.scopedRest cfg0.spec c) := by
  show Φ₁ c ⊢ _
  unfold Φ₁
  iintro ⟨Hs, Hr⟩
  isplitr; · iempintro
  isplitl [Hs] <;> iassumption

theorem waits (c : Dev nD) : (levAts L lv : sProp 𝕄) ⊢ Pipeline.RDat.cellsWaits cfgs (rdats Rd m) () 0 c :=
  Pipeline.RDat.cellsWaits_intro cfgs (rdats Rd m) () 0 c fun w s t => by
    have hn : (((cfgs 0).win w).sem s).val < 3 := by fin_cases w <;> fin_cases s <;> decide
    rcases t with ⟨_ | _, ht⟩
    · exact mayWait_stage c _ hn 0
    · exact mayWait_none c _

set_option maxRecDepth 8000 in
/-- At the compiled mesh, from any memory with zero counters: if every device's kernel body meets its obligation (the
    result window's contents left unnamed), every weakly fair execution of the program terminates, and both argument
    arrays of every device end unchanged. -/
theorem frame_of_body (hbody : ∀ c, BodyObligation (dats Rd m 0 c) (defs₀ (F := F)) Variants.none () Set.univ fgt2) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_region_owing_glob_pf (fun p => (cfgs p).toPCfg) (fun p => (cfgs p).toPCfg_adm) (rdats Rd m) () cellOf_inj (0 : Fin 1)
    winFacts0.to₀ ownSemFacts (Pipeline.PreFacts.none _) EP defs₀ Variants.none m ρ main
    (hmain := fun _ => rfl)
    (hbody := fun c => (hbody c).toRForget) (hne := fun w => by fin_cases w <;> exact Nat.succ_pos _) (harr := arr_whole0) (hstage := stage_whole0)
    (hshare := share_eq Rd m)
    (hdistinct := winFacts0.arr_inj)
    (O₀ := O₀) (howed₀ := fun _ => rfl) (howedN := fun _ => rfl)
    (L := L) (lv := lv) (hL := L_of_ne) (hwaits := waits Rd m)
    (G := G Rd) (G' := G' Rd) (u₀ := u₀)
    (hu₀ := by
      unfold u₀
      iintro Hu
      ihave H := (ownU_pair _ _) $$ Hu
      icases H with ⟨HP, HX⟩
      imod (fund_all Rd) $$ HX with HG
      imodintro
      isplitl [HP] <;> iassumption)
    (hglob := glob_all Rd)
    (hA := fun _ _ => rfl) (hpf := fun _ k => k.elim0)
    (X := X Rd) (Y := fun _ => iprop(emp)) (Z := fun _ => iprop(emp))
    (hX := start_intro Rd m ρ) (hin := phi0_intro Rd m) (hout := phi1_exit Rd m)
    (QY := fun _ _ => True)
    (hY := fun c s' => by
      iintro ⟨-, -, HSI⟩
      imodintro
      isplitr; · ipureintro; trivial
      iexact HSI)
    (hQ := fun s h c =>
      ⟨(congrFun (Pipeline.RDat.ArrAt_in (rdats Rd m 0 c) (0 : Fin 3) rfl _) _).mp ((h c).1 0),
       (congrFun (Pipeline.RDat.ArrAt_in (rdats Rd m 0 c) (1 : Fin 3) rfl _) _).mp ((h c).1 1)⟩)

/-- info: 'Cert.KernelIdeal.Launch.frame_of_body' depends on axioms: [propext, Classical.choice, Quot.sound] -/
#guard_msgs in #print axioms frame_of_body

end Cert.KernelIdeal.Launch

end
-- ==== Proof.BodyWrap.lean ====
/-
  The kernel body's lemma handed to the launch: the body's own precondition and postcondition written out
  buffer by buffer, and the step from a proof of the body between the two to the pipeline's body obligation
  at its one grid point (the result window's staging contents are not named).
-/
import proofs.«900893_g7700000000000894_dist_matmul_mk_i_outk_m1024_n1024_k512_v7x_i32_f32_1_alg».proof.Proof.LaunchData
import proofs.«900893_g7700000000000894_dist_matmul_mk_i_outk_m1024_n1024_k512_v7x_i32_f32_1_alg».proof.Proof.Gen.KernelIdeal.Launch
import proofs.«900893_g7700000000000894_dist_matmul_mk_i_outk_m1024_n1024_k512_v7x_i32_f32_1_alg».proof.Proof.Gen.KernelIdeal.Points

noncomputable section

namespace Cert.KernelIdeal.BodyWrap

open Cert.KernelIdeal Cert.KernelIdeal.Gen Cert.KernelIdeal.Proto Cert.KernelIdeal.Ghost Cert.KernelIdeal.LaunchData
open Cert.KernelIdeal.LaunchSems (osem ownSemFacts ownSems0_eq unscopedSems0_eq)
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body's own pre- and postcondition -/

/-- What the body starts from: the protocol's ghost state, the level facts, what the device owes, the two input
    staging buffers at the device's blocks of the arguments, the result staging buffer and the nine scratch
    buffers at some contents. -/
def bodyPre (Rd : Rounds.Schedule (GSem nD τ sig) D (MT nD τ sig Unit (Elt F) ℕ UU ℕ)) (m : (ℓ : Loc nD τ sig) → Buf (Elt F) ℓ)
    (K : GSem nD τ sig → ℕ) (c : Dev nD) (W : Waits sig Unit)
    (o0 : Buf (Elt F) ((c : Thread nD τ).loc cc0_stg2_0))
    (f0 : Buf (Elt F) ((c : Thread nD τ).loc cc0_scratch0))
    (f1 : Buf (Elt F) ((c : Thread nD τ).loc cc0_scratch1))
    (f2 : Buf (Elt F) ((c : Thread nD τ).loc cc0_scratch2))
    (f3 : Buf (Elt F) ((c : Thread nD τ).loc cc0_scratch3))
    (f4 : Buf (Elt F) ((c : Thread nD τ).loc cc0_scratch4))
    (f5 : Buf (Elt F) ((c : Thread nD τ).loc cc0_scratch5))
    (f6 : Buf (Elt F) ((c : Thread nD τ).loc cc0_scratch6))
    (f7 : Buf (Elt F) ((c : Thread nD τ).loc cc0_scratch7))
    (f8 : Buf (Elt F) ((c : Thread nD τ).loc cc0_scratch8)) : sProp 𝕄 :=
  iprop(ghost Rd K c ∗ levAts L lv ∗ owes (c : Thread nD τ) (O₀ c) W
    ∗ ((Memref.whole cc0_stg0_0 : Memref sig .tc _ _ _).view.loc (c : Thread nD τ) ↦{fullShare} astg m c)
    ∗ ((Memref.whole cc0_stg1_0 : Memref sig .tc _ _ _).view.loc (c : Thread nD τ) ↦{fullShare} bstg m c)
    ∗ ((Memref.whole cc0_stg2_0 : Memref sig .tc _ _ _).view.loc (c : Thread nD τ) ↦{fullShare} o0)
    ∗ ((Memref.whole cc0_scratch0 : Memref sig .tc _ _ _).view.loc (c : Thread nD τ) ↦{fullShare} f0)
    ∗ ((Memref.whole cc0_scratch1 : Memref sig .tc _ _ _).view.loc (c : Thread nD τ) ↦{fullShare} f1)
    ∗ ((Memref.whole cc0_scratch2 : Memref sig .tc _ _ _).view.loc (c : Thread nD τ) ↦{fullShare} f2)
    ∗ ((Memref.whole cc0_scratch3 : Memref sig .tc _ _ _).view.loc (c : Thread nD τ) ↦{fullShare} f3)
    ∗ ((Memref.whole cc0_scratch4 : Memref sig .tc _ _ _).view.loc (c : Thread nD τ) ↦{fullShare} f4)
    ∗ ((Memref.whole cc0_scratch5 : Memref sig .tc _ _ _).view.loc (c : Thread nD τ) ↦{fullShare} f5)
    ∗ ((Memref.whole cc0_scratch6 : Memref sig .tc _ _ _).view.loc (c : Thread nD τ) ↦{fullShare} f6)
    ∗ ((Memref.whole cc0_scratch7 : Memref sig .tc _ _ _).view.loc (c : Thread nD τ) ↦{fullShare} f7)
    ∗ ((Memref.whole cc0_scratch8 : Memref sig .tc _ _ _).view.loc (c : Thread nD τ) ↦{fullShare} f8))

/-- What the body ends with: nothing owed, the two input staging buffers as they were, the result staging buffer
    and the nine scratch buffers at some contents, and the 144 own semaphores at zero. -/
def bodyPost (m : (ℓ : Loc nD τ sig) → Buf (Elt F) ℓ) (c : Dev nD) : sProp 𝕄 :=
  iprop((∃ W' : Waits sig Unit, owes (c : Thread nD τ) 0 W')
    ∗ ((Memref.whole cc0_stg0_0 : Memref sig .tc _ _ _).view.loc (c : Thread nD τ) ↦{fullShare} astg m c)
    ∗ ((Memref.whole cc0_stg1_0 : Memref sig .tc _ _ _).view.loc (c : Thread nD τ) ↦{fullShare} bstg m c)
    ∗ (∃ o : Buf (Elt F) ((c : Thread nD τ).loc cc0_stg2_0), ((Memref.whole cc0_stg2_0 : Memref sig .tc _ _ _).view.loc (c : Thread nD τ) ↦{fullShare} o))
    ∗ (∃ f : Buf (Elt F) ((c : Thread nD τ).loc cc0_scratch0), ((Memref.whole cc0_scratch0 : Memref sig .tc _ _ _).view.loc (c : Thread nD τ) ↦{fullShare} f))
    ∗ (∃ f : Buf (Elt F) ((c : Thread nD τ).loc cc0_scratch1), ((Memref.whole cc0_scratch1 : Memref sig .tc _ _ _).view.loc (c : Thread nD τ) ↦{fullShare} f))
    ∗ (∃ f : Buf (Elt F) ((c : Thread nD τ).loc cc0_scratch2), ((Memref.whole cc0_scratch2 : Memref sig .tc _ _ _).view.loc (c : Thread nD τ) ↦{fullShare} f))
    ∗ (∃ f : Buf (Elt F) ((c : Thread nD τ).loc cc0_scratch3), ((Memref.whole cc0_scratch3 : Memref sig .tc _ _ _).view.loc (c : Thread nD τ) ↦{fullShare} f))
    ∗ (∃ f : Buf (Elt F) ((c : Thread nD τ).loc cc0_scratch4), ((Memref.whole cc0_scratch4 : Memref sig .tc _ _ _).view.loc (c : Thread nD τ) ↦{fullShare} f))
    ∗ (∃ f : Buf (Elt F) ((c : Thread nD τ).loc cc0_scratch5), ((Memref.whole cc0_scratch5 : Memref sig .tc _ _ _).view.loc (c : Thread nD τ) ↦{fullShare} f))
    ∗ (∃ f : Buf (Elt F) ((c : Thread nD τ).loc cc0_scratch6), ((Memref.whole cc0_scratch6 : Memref sig .tc _ _ _).view.loc (c : Thread nD τ) ↦{fullShare} f))
    ∗ (∃ f : Buf (Elt F) ((c : Thread nD τ).loc cc0_scratch7), ((Memref.whole cc0_scratch7 : Memref sig .tc _ _ _).view.loc (c : Thread nD τ) ↦{fullShare} f))
    ∗ (∃ f : Buf (Elt F) ((c : Thread nD τ).loc cc0_scratch8), ((Memref.whole cc0_scratch8 : Memref sig .tc _ _ _).view.loc (c : Thread nD τ) ↦{fullShare} f))
    ∗ bigSep Finset.univ fun i : Fin 144 => semVal ((c : Thread nD τ), LaunchSems.osem i) 0)

/-- The body's lemma: on every device, from the body's precondition and a continuation that takes its
    postcondition, the body runs. -/
def Sound (Rd : Rounds.Schedule (GSem nD τ sig) D (MT nD τ sig Unit (Elt F) ℕ UU ℕ)) (m : (ℓ : Loc nD τ sig) → Buf (Elt F) ℓ) : Prop :=
  ∀ (c : Dev nD) (K : GSem nD τ sig → ℕ) (W : Waits sig Unit) (Kt : PUnit → sProp 𝕄)
      (o0 : Buf (Elt F) ((c : Thread nD τ).loc cc0_stg2_0))
      (f0 : Buf (Elt F) ((c : Thread nD τ).loc cc0_scratch0))
      (f1 : Buf (Elt F) ((c : Thread nD τ).loc cc0_scratch1))
      (f2 : Buf (Elt F) ((c : Thread nD τ).loc cc0_scratch2))
      (f3 : Buf (Elt F) ((c : Thread nD τ).loc cc0_scratch3))
      (f4 : Buf (Elt F) ((c : Thread nD τ).loc cc0_scratch4))
      (f5 : Buf (Elt F) ((c : Thread nD τ).loc cc0_scratch5))
      (f6 : Buf (Elt F) ((c : Thread nD τ).loc cc0_scratch6))
      (f7 : Buf (Elt F) ((c : Thread nD τ).loc cc0_scratch7))
      (f8 : Buf (Elt F) ((c : Thread nD τ).loc cc0_scratch8)),
      iprop(bodyPre Rd m K c W o0 f0 f1 f2 f3 f4 f5 f6 f7 f8 ∗ (bodyPost m c -∗ Kt ⟨⟩))
        ⊢ wp frame (wpE (defs₀ (F := F)) Variants.none (c : Thread nD τ) none) Set.univ
          (cc0_body (F := F) (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 cc0_scratch12 cc0_scratch13 cc0_scratch14) Kt

/-! ## From the body's lemma to the pipeline's obligation -/

/-- A staging or scratch buffer whole at given contents, in the form the pipeline's obligation states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The obligation's precondition at the one point. -/
def bodyPre' (Rd : Rounds.Schedule (GSem nD τ sig) D (MT nD τ sig Unit (Elt F) ℕ UU ℕ)) (m : (ℓ : Loc nD τ sig) → Buf (Elt F) ℓ) (c : Dev nD) : sProp 𝕄 :=
  iprop(Φ₀ Rd c ∗ (dats Rd m 0 c).owesAt () t0_0.castSucc
    ∗ (∃ d, stg c cc0_stg0_0 ((dats Rd m 0 c).before (0 : Fin 3) t0_0 d))
    ∗ (∃ d, stg c cc0_stg1_0 ((dats Rd m 0 c).before (1 : Fin 3) t0_0 d))
    ∗ (∃ X, stg c cc0_stg2_0 X))

/-- The obligation's postcondition at the one point. -/
def bodyPost' (Rd : Rounds.Schedule (GSem nD τ sig) D (MT nD τ sig Unit (Elt F) ℕ UU ℕ)) (m : (ℓ : Loc nD τ sig) → Buf (Elt F) ℓ) (c : Dev nD) : sProp 𝕄 :=
  iprop(Φ₁ c ∗ (dats Rd m 0 c).owesAt () t0_0.succ
    ∗ stg c cc0_stg0_0 (astg m c) ∗ stg c cc0_stg1_0 (bstg m c) ∗ (∃ X, stg c cc0_stg2_0 X))

theorem before_0 (Rd : Rounds.Schedule (GSem nD τ sig) D (MT nD τ sig Unit (Elt F) ℕ UU ℕ)) (m : (ℓ : Loc nD τ sig) → Buf (Elt F) ℓ) (c : Dev nD)
    (d : (cfg0.win (0 : Fin 3)).block.Idx → Elt F (cfg0.win (0 : Fin 3)).elt) :
    (dats Rd m 0 c).before (0 : Fin 3) t0_0 d = astg m c := by
  unfold Dat.before; rw [if_pos (fetch0_0 t0_0)]; rfl

theorem before_1 (Rd : Rounds.Schedule (GSem nD τ sig) D (MT nD τ sig Unit (Elt F) ℕ UU ℕ)) (m : (ℓ : Loc nD τ sig) → Buf (Elt F) ℓ) (c : Dev nD)
    (d : (cfg0.win (1 : Fin 3)).block.Idx → Elt F (cfg0.win (1 : Fin 3)).elt) :
    (dats Rd m 0 c).before (1 : Fin 3) t0_0 d = bstg m c := by
  unfold Dat.before; rw [if_pos (fetch0_1 t0_0)]; rfl

set_option maxRecDepth 100000 in
set_option maxHeartbeats 1600000 in
/-- The pipeline's body obligation on every device, from the body's lemma. -/
theorem body_obligation (Rd : Rounds.Schedule (GSem nD τ sig) D (MT nD τ sig Unit (Elt F) ℕ UU ℕ)) (m : (ℓ : Loc nD τ sig) → Buf (Elt F) ℓ)
    (hsound : Sound Rd m) :
    ∀ c : Dev nD, BodyObligation (dats Rd m 0 c) (defs₀ (F := F)) Variants.none () Set.univ fgt2 := fun c t => by
  rw [fin_N0 t, bigSep_W0, bigSep_W0]
  simp only [owns_whole_eq]
  show bodyPre' Rd m c ⊢ wp frame (wpE (defs₀ (F := F)) Variants.none (c : Thread nD τ) none) Set.univ
    (cc0_body (F := F) (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 cc0_scratch12 cc0_scratch13 cc0_scratch14) (fun _ => bodyPost' Rd m c)
  have hsr := scopedRest0_eq (Ix := Unit) (Val := Elt F) (Name := ℕ) (U := UU) (Lvl := ℕ) c
  unfold bodyPre' bodyPost' Φ₀ Φ₁
  rw [show (Pipeline.scopedRest cfg0.spec c : sProp 𝕄) = _ from hsr,
    show (Pipeline.ownSems0 osem c : sProp 𝕄) = _ from ownSems0_eq (Ix := Unit) (Val := Elt F) (Name := ℕ) (U := UU) (Lvl := ℕ) c]
  iintro ⟨⟨⟨%K, Hg⟩, Hlev, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, ⟨%W, %hW, Ho⟩, ⟨%d0, %g0, %hg0, Ha⟩, ⟨%d1, %g1, %hg1, Hb⟩, ⟨%X, %g2, %hg2, Hout⟩⟩
  have ha : g0 = astg m c := hg0.trans (before_0 Rd m c d0)
  have hb : g1 = bstg m c := hg1.trans (before_1 Rd m c d1)
  subst ha hb
  iapply (hsound c K W _ g2 f0 f1 f2 f3 f4 f5 f6 f7 f8)
  isplitr []
  · unfold bodyPre
    isplitl [Hg]; · iexact Hg
    isplitl [Hlev]; · iexact Hlev
    isplitl [Ho]; · iexact Ho
    isplitl [Ha]; · iexact Ha
    isplitl [Hb]; · iexact Hb
    isplitl [Hout]; · iexact Hout
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · unfold bodyPost
    iintro ⟨⟨%W', Ho'⟩, Ha, Hb, ⟨%o, Hout⟩, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, Hsems⟩
    isplitl [Hsems H0 H1 H2 H3 H4 H5 H6 H7 H8]
    · isplitl [Hsems]; · iexact Hsems
      isplitl [H0]; · (iexists e0; iexact H0)
      isplitl [H1]; · (iexists e1; iexact H1)
      isplitl [H2]; · (iexists e2; iexact H2)
      isplitl [H3]; · (iexists e3; iexact H3)
      isplitl [H4]; · (iexists e4; iexact H4)
      isplitl [H5]; · (iexists e5; iexact H5)
      isplitl [H6]; · (iexists e6; iexact H6)
      isplitl [H7]; · (iexists e7; iexact H7)
      iexists e8; iexact H8
    isplitl [Ho']
    · iexists W'
      isplitr; · (ipureintro; exact Set.subset_union_of_subset_left (Set.subset_univ _) _)
      iexact Ho'
    isplitl [Ha]
    · iexists _; isplitr; · (ipureintro; rfl)
      iexact Ha
    isplitl [Hb]
    · iexists _; isplitr; · (ipureintro; rfl)
      iexact Hb
    iexists o; iexists o; isplitr; · (ipureintro; rfl)
    iexact Hout

end Cert.KernelIdeal.BodyWrap

end
-- ==== Proof.Word.MeshFacts.lean ====
/-
  Closed forms of the device chains and of the device-dependent offsets of the printed kernel over the
  4 × 4 × 2 box of the 32 devices, and the elementary facts about the three families of peers.
-/
import proofs.«900893_g7700000000000894_dist_matmul_mk_i_outk_m1024_n1024_k512_v7x_i32_f32_1_alg».proof.Proof.MeshDefs
import proofs.«900893_g7700000000000894_dist_matmul_mk_i_outk_m1024_n1024_k512_v7x_i32_f32_1_alg».proof.Proof.Gen.Kernel

set_option Elab.async false

namespace Cert.Kernel.MeshFacts

open Idealize.ShloMosaic Idealize.SL.Sem
open Cert.Kernel Cert.Kernel.Facts₀
open Cert.Mesh (partner rail zpeer zc pc yc xc pOf dev)

/-! ## The device chains

Each chain is a function of the device alone, so its closed form is checked on the 32 devices. -/

theorem dev1_val : ∀ c : Dev nD, k0_dev1 c = (partner c).val := by decide +kernel
theorem dev2_val : ∀ c : Dev nD, k0_dev2 c = (rail c 1).val := by decide +kernel
theorem dev3_val : ∀ c : Dev nD, k0_dev3 c = (rail c 2).val := by decide +kernel
theorem dev4_val : ∀ c : Dev nD, k0_dev4 c = (rail c 3).val := by decide +kernel
theorem dev5_val : ∀ c : Dev nD, k0_dev5 c = (zpeer c 1).val := by decide +kernel
theorem dev6_val : ∀ c : Dev nD, k0_dev6 c = (zpeer c 2).val := by decide +kernel
theorem dev7_val : ∀ c : Dev nD, k0_dev7 c = (zpeer c 3).val := by decide +kernel
theorem dev8_val : ∀ c : Dev nD, k0_dev8 c = (partner c).val := by decide +kernel
theorem dev9_val : ∀ c : Dev nD, k0_dev9 c = (partner c).val := by decide +kernel
theorem dev10_val : ∀ c : Dev nD, k0_dev10 c = (partner c).val := by decide +kernel
theorem dev11_val : ∀ c : Dev nD, k0_dev11 c = (partner c).val := by decide +kernel
theorem dev12_val : ∀ c : Dev nD, k0_dev12 c = (partner c).val := by decide +kernel
theorem dev13_val : ∀ c : Dev nD, k0_dev13 c = (partner c).val := by decide +kernel
theorem dev14_val : ∀ c : Dev nD, k0_dev14 c = (partner c).val := by decide +kernel
theorem dev15_val : ∀ c : Dev nD, k0_dev15 c = (partner c).val := by decide +kernel
theorem dev16_val : ∀ c : Dev nD, k0_dev16 c = (rail c 1).val := by decide +kernel
theorem dev17_val : ∀ c : Dev nD, k0_dev17 c = (rail c 2).val := by decide +kernel
theorem dev18_val : ∀ c : Dev nD, k0_dev18 c = (rail c 3).val := by decide +kernel
theorem dev19_val : ∀ c : Dev nD, k0_dev19 c = (rail c 1).val := by decide +kernel
theorem dev20_val : ∀ c : Dev nD, k0_dev20 c = (rail c 2).val := by decide +kernel
theorem dev21_val : ∀ c : Dev nD, k0_dev21 c = (rail c 3).val := by decide +kernel
theorem dev22_val : ∀ c : Dev nD, k0_dev22 c = (rail c 1).val := by decide +kernel
theorem dev23_val : ∀ c : Dev nD, k0_dev23 c = (rail c 2).val := by decide +kernel
theorem dev24_val : ∀ c : Dev nD, k0_dev24 c = (rail c 3).val := by decide +kernel
theorem dev25_val : ∀ c : Dev nD, k0_dev25 c = (rail c 1).val := by decide +kernel
theorem dev26_val : ∀ c : Dev nD, k0_dev26 c = (rail c 2).val := by decide +kernel
theorem dev27_val : ∀ c : Dev nD, k0_dev27 c = (rail c 3).val := by decide +kernel
theorem dev28_val : ∀ c : Dev nD, k0_dev28 c = (rail c 1).val := by decide +kernel
theorem dev29_val : ∀ c : Dev nD, k0_dev29 c = (rail c 2).val := by decide +kernel
theorem dev30_val : ∀ c : Dev nD, k0_dev30 c = (rail c 3).val := by decide +kernel
theorem dev31_val : ∀ c : Dev nD, k0_dev31 c = (rail c 1).val := by decide +kernel
theorem dev32_val : ∀ c : Dev nD, k0_dev32 c = (rail c 2).val := by decide +kernel
theorem dev33_val : ∀ c : Dev nD, k0_dev33 c = (rail c 3).val := by decide +kernel
theorem dev34_val : ∀ c : Dev nD, k0_dev34 c = (rail c 1).val := by decide +kernel
theorem dev35_val : ∀ c : Dev nD, k0_dev35 c = (rail c 2).val := by decide +kernel
theorem dev36_val : ∀ c : Dev nD, k0_dev36 c = (rail c 3).val := by decide +kernel
theorem dev37_val : ∀ c : Dev nD, k0_dev37 c = (rail c 1).val := by decide +kernel
theorem dev38_val : ∀ c : Dev nD, k0_dev38 c = (rail c 2).val := by decide +kernel
theorem dev39_val : ∀ c : Dev nD, k0_dev39 c = (rail c 3).val := by decide +kernel
theorem dev40_val : ∀ c : Dev nD, k0_dev40 c = (zpeer c 1).val := by decide +kernel
theorem dev41_val : ∀ c : Dev nD, k0_dev41 c = (zpeer c 2).val := by decide +kernel
theorem dev42_val : ∀ c : Dev nD, k0_dev42 c = (zpeer c 3).val := by decide +kernel
theorem dev43_val : ∀ c : Dev nD, k0_dev43 c = (zpeer c 1).val := by decide +kernel
theorem dev44_val : ∀ c : Dev nD, k0_dev44 c = (zpeer c 2).val := by decide +kernel
theorem dev45_val : ∀ c : Dev nD, k0_dev45 c = (zpeer c 3).val := by decide +kernel
theorem dev46_val : ∀ c : Dev nD, k0_dev46 c = (zpeer c 1).val := by decide +kernel
theorem dev47_val : ∀ c : Dev nD, k0_dev47 c = (zpeer c 2).val := by decide +kernel
theorem dev48_val : ∀ c : Dev nD, k0_dev48 c = (zpeer c 3).val := by decide +kernel
theorem dev49_val : ∀ c : Dev nD, k0_dev49 c = (zpeer c 1).val := by decide +kernel
theorem dev50_val : ∀ c : Dev nD, k0_dev50 c = (zpeer c 2).val := by decide +kernel
theorem dev51_val : ∀ c : Dev nD, k0_dev51 c = (zpeer c 3).val := by decide +kernel
theorem dev52_val : ∀ c : Dev nD, k0_dev52 c = (zpeer c 1).val := by decide +kernel
theorem dev53_val : ∀ c : Dev nD, k0_dev53 c = (zpeer c 2).val := by decide +kernel
theorem dev54_val : ∀ c : Dev nD, k0_dev54 c = (zpeer c 3).val := by decide +kernel
theorem dev55_val : ∀ c : Dev nD, k0_dev55 c = (zpeer c 1).val := by decide +kernel
theorem dev56_val : ∀ c : Dev nD, k0_dev56 c = (zpeer c 2).val := by decide +kernel
theorem dev57_val : ∀ c : Dev nD, k0_dev57 c = (zpeer c 3).val := by decide +kernel
theorem dev58_val : ∀ c : Dev nD, k0_dev58 c = (zpeer c 1).val := by decide +kernel
theorem dev59_val : ∀ c : Dev nD, k0_dev59 c = (zpeer c 2).val := by decide +kernel
theorem dev60_val : ∀ c : Dev nD, k0_dev60 c = (zpeer c 3).val := by decide +kernel
theorem dev61_val : ∀ c : Dev nD, k0_dev61 c = (zpeer c 1).val := by decide +kernel
theorem dev62_val : ∀ c : Dev nD, k0_dev62 c = (zpeer c 2).val := by decide +kernel
theorem dev63_val : ∀ c : Dev nD, k0_dev63 c = (zpeer c 3).val := by decide +kernel

theorem dev1_eq [Facts₀] (c : Dev nD) : (⟨k0_dev1 c, k0_dev1_lt c⟩ : Dev nD) = partner c :=
  Fin.ext (dev1_val c)
theorem dev2_eq [Facts₀] (c : Dev nD) : (⟨k0_dev2 c, k0_dev2_lt c⟩ : Dev nD) = rail c 1 :=
  Fin.ext (dev2_val c)
theorem dev3_eq [Facts₀] (c : Dev nD) : (⟨k0_dev3 c, k0_dev3_lt c⟩ : Dev nD) = rail c 2 :=
  Fin.ext (dev3_val c)
theorem dev4_eq [Facts₀] (c : Dev nD) : (⟨k0_dev4 c, k0_dev4_lt c⟩ : Dev nD) = rail c 3 :=
  Fin.ext (dev4_val c)
theorem dev5_eq [Facts₀] (c : Dev nD) : (⟨k0_dev5 c, k0_dev5_lt c⟩ : Dev nD) = zpeer c 1 :=
  Fin.ext (dev5_val c)
theorem dev6_eq [Facts₀] (c : Dev nD) : (⟨k0_dev6 c, k0_dev6_lt c⟩ : Dev nD) = zpeer c 2 :=
  Fin.ext (dev6_val c)
theorem dev7_eq [Facts₀] (c : Dev nD) : (⟨k0_dev7 c, k0_dev7_lt c⟩ : Dev nD) = zpeer c 3 :=
  Fin.ext (dev7_val c)
theorem dev8_eq [Facts₀] (c : Dev nD) : (⟨k0_dev8 c, k0_dev8_lt c⟩ : Dev nD) = partner c :=
  Fin.ext (dev8_val c)
theorem dev9_eq [Facts₀] (c : Dev nD) : (⟨k0_dev9 c, k0_dev9_lt c⟩ : Dev nD) = partner c :=
  Fin.ext (dev9_val c)
theorem dev10_eq [Facts₀] (c : Dev nD) : (⟨k0_dev10 c, k0_dev10_lt c⟩ : Dev nD) = partner c :=
  Fin.ext (dev10_val c)
theorem dev11_eq [Facts₀] (c : Dev nD) : (⟨k0_dev11 c, k0_dev11_lt c⟩ : Dev nD) = partner c :=
  Fin.ext (dev11_val c)
theorem dev12_eq [Facts₀] (c : Dev nD) : (⟨k0_dev12 c, k0_dev12_lt c⟩ : Dev nD) = partner c :=
  Fin.ext (dev12_val c)
theorem dev13_eq [Facts₀] (c : Dev nD) : (⟨k0_dev13 c, k0_dev13_lt c⟩ : Dev nD) = partner c :=
  Fin.ext (dev13_val c)
theorem dev14_eq [Facts₀] (c : Dev nD) : (⟨k0_dev14 c, k0_dev14_lt c⟩ : Dev nD) = partner c :=
  Fin.ext (dev14_val c)
theorem dev15_eq [Facts₀] (c : Dev nD) : (⟨k0_dev15 c, k0_dev15_lt c⟩ : Dev nD) = partner c :=
  Fin.ext (dev15_val c)
theorem dev16_eq [Facts₀] (c : Dev nD) : (⟨k0_dev16 c, k0_dev16_lt c⟩ : Dev nD) = rail c 1 :=
  Fin.ext (dev16_val c)
theorem dev17_eq [Facts₀] (c : Dev nD) : (⟨k0_dev17 c, k0_dev17_lt c⟩ : Dev nD) = rail c 2 :=
  Fin.ext (dev17_val c)
theorem dev18_eq [Facts₀] (c : Dev nD) : (⟨k0_dev18 c, k0_dev18_lt c⟩ : Dev nD) = rail c 3 :=
  Fin.ext (dev18_val c)
theorem dev19_eq [Facts₀] (c : Dev nD) : (⟨k0_dev19 c, k0_dev19_lt c⟩ : Dev nD) = rail c 1 :=
  Fin.ext (dev19_val c)
theorem dev20_eq [Facts₀] (c : Dev nD) : (⟨k0_dev20 c, k0_dev20_lt c⟩ : Dev nD) = rail c 2 :=
  Fin.ext (dev20_val c)
theorem dev21_eq [Facts₀] (c : Dev nD) : (⟨k0_dev21 c, k0_dev21_lt c⟩ : Dev nD) = rail c 3 :=
  Fin.ext (dev21_val c)
theorem dev22_eq [Facts₀] (c : Dev nD) : (⟨k0_dev22 c, k0_dev22_lt c⟩ : Dev nD) = rail c 1 :=
  Fin.ext (dev22_val c)
theorem dev23_eq [Facts₀] (c : Dev nD) : (⟨k0_dev23 c, k0_dev23_lt c⟩ : Dev nD) = rail c 2 :=
  Fin.ext (dev23_val c)
theorem dev24_eq [Facts₀] (c : Dev nD) : (⟨k0_dev24 c, k0_dev24_lt c⟩ : Dev nD) = rail c 3 :=
  Fin.ext (dev24_val c)
theorem dev25_eq [Facts₀] (c : Dev nD) : (⟨k0_dev25 c, k0_dev25_lt c⟩ : Dev nD) = rail c 1 :=
  Fin.ext (dev25_val c)
theorem dev26_eq [Facts₀] (c : Dev nD) : (⟨k0_dev26 c, k0_dev26_lt c⟩ : Dev nD) = rail c 2 :=
  Fin.ext (dev26_val c)
theorem dev27_eq [Facts₀] (c : Dev nD) : (⟨k0_dev27 c, k0_dev27_lt c⟩ : Dev nD) = rail c 3 :=
  Fin.ext (dev27_val c)
theorem dev28_eq [Facts₀] (c : Dev nD) : (⟨k0_dev28 c, k0_dev28_lt c⟩ : Dev nD) = rail c 1 :=
  Fin.ext (dev28_val c)
theorem dev29_eq [Facts₀] (c : Dev nD) : (⟨k0_dev29 c, k0_dev29_lt c⟩ : Dev nD) = rail c 2 :=
  Fin.ext (dev29_val c)
theorem dev30_eq [Facts₀] (c : Dev nD) : (⟨k0_dev30 c, k0_dev30_lt c⟩ : Dev nD) = rail c 3 :=
  Fin.ext (dev30_val c)
theorem dev31_eq [Facts₀] (c : Dev nD) : (⟨k0_dev31 c, k0_dev31_lt c⟩ : Dev nD) = rail c 1 :=
  Fin.ext (dev31_val c)
theorem dev32_eq [Facts₀] (c : Dev nD) : (⟨k0_dev32 c, k0_dev32_lt c⟩ : Dev nD) = rail c 2 :=
  Fin.ext (dev32_val c)
theorem dev33_eq [Facts₀] (c : Dev nD) : (⟨k0_dev33 c, k0_dev33_lt c⟩ : Dev nD) = rail c 3 :=
  Fin.ext (dev33_val c)
theorem dev34_eq [Facts₀] (c : Dev nD) : (⟨k0_dev34 c, k0_dev34_lt c⟩ : Dev nD) = rail c 1 :=
  Fin.ext (dev34_val c)
theorem dev35_eq [Facts₀] (c : Dev nD) : (⟨k0_dev35 c, k0_dev35_lt c⟩ : Dev nD) = rail c 2 :=
  Fin.ext (dev35_val c)
theorem dev36_eq [Facts₀] (c : Dev nD) : (⟨k0_dev36 c, k0_dev36_lt c⟩ : Dev nD) = rail c 3 :=
  Fin.ext (dev36_val c)
theorem dev37_eq [Facts₀] (c : Dev nD) : (⟨k0_dev37 c, k0_dev37_lt c⟩ : Dev nD) = rail c 1 :=
  Fin.ext (dev37_val c)
theorem dev38_eq [Facts₀] (c : Dev nD) : (⟨k0_dev38 c, k0_dev38_lt c⟩ : Dev nD) = rail c 2 :=
  Fin.ext (dev38_val c)
theorem dev39_eq [Facts₀] (c : Dev nD) : (⟨k0_dev39 c, k0_dev39_lt c⟩ : Dev nD) = rail c 3 :=
  Fin.ext (dev39_val c)
theorem dev40_eq [Facts₀] (c : Dev nD) : (⟨k0_dev40 c, k0_dev40_lt c⟩ : Dev nD) = zpeer c 1 :=
  Fin.ext (dev40_val c)
theorem dev41_eq [Facts₀] (c : Dev nD) : (⟨k0_dev41 c, k0_dev41_lt c⟩ : Dev nD) = zpeer c 2 :=
  Fin.ext (dev41_val c)
theorem dev42_eq [Facts₀] (c : Dev nD) : (⟨k0_dev42 c, k0_dev42_lt c⟩ : Dev nD) = zpeer c 3 :=
  Fin.ext (dev42_val c)
theorem dev43_eq [Facts₀] (c : Dev nD) : (⟨k0_dev43 c, k0_dev43_lt c⟩ : Dev nD) = zpeer c 1 :=
  Fin.ext (dev43_val c)
theorem dev44_eq [Facts₀] (c : Dev nD) : (⟨k0_dev44 c, k0_dev44_lt c⟩ : Dev nD) = zpeer c 2 :=
  Fin.ext (dev44_val c)
theorem dev45_eq [Facts₀] (c : Dev nD) : (⟨k0_dev45 c, k0_dev45_lt c⟩ : Dev nD) = zpeer c 3 :=
  Fin.ext (dev45_val c)
theorem dev46_eq [Facts₀] (c : Dev nD) : (⟨k0_dev46 c, k0_dev46_lt c⟩ : Dev nD) = zpeer c 1 :=
  Fin.ext (dev46_val c)
theorem dev47_eq [Facts₀] (c : Dev nD) : (⟨k0_dev47 c, k0_dev47_lt c⟩ : Dev nD) = zpeer c 2 :=
  Fin.ext (dev47_val c)
theorem dev48_eq [Facts₀] (c : Dev nD) : (⟨k0_dev48 c, k0_dev48_lt c⟩ : Dev nD) = zpeer c 3 :=
  Fin.ext (dev48_val c)
theorem dev49_eq [Facts₀] (c : Dev nD) : (⟨k0_dev49 c, k0_dev49_lt c⟩ : Dev nD) = zpeer c 1 :=
  Fin.ext (dev49_val c)
theorem dev50_eq [Facts₀] (c : Dev nD) : (⟨k0_dev50 c, k0_dev50_lt c⟩ : Dev nD) = zpeer c 2 :=
  Fin.ext (dev50_val c)
theorem dev51_eq [Facts₀] (c : Dev nD) : (⟨k0_dev51 c, k0_dev51_lt c⟩ : Dev nD) = zpeer c 3 :=
  Fin.ext (dev51_val c)
theorem dev52_eq [Facts₀] (c : Dev nD) : (⟨k0_dev52 c, k0_dev52_lt c⟩ : Dev nD) = zpeer c 1 :=
  Fin.ext (dev52_val c)
theorem dev53_eq [Facts₀] (c : Dev nD) : (⟨k0_dev53 c, k0_dev53_lt c⟩ : Dev nD) = zpeer c 2 :=
  Fin.ext (dev53_val c)
theorem dev54_eq [Facts₀] (c : Dev nD) : (⟨k0_dev54 c, k0_dev54_lt c⟩ : Dev nD) = zpeer c 3 :=
  Fin.ext (dev54_val c)
theorem dev55_eq [Facts₀] (c : Dev nD) : (⟨k0_dev55 c, k0_dev55_lt c⟩ : Dev nD) = zpeer c 1 :=
  Fin.ext (dev55_val c)
theorem dev56_eq [Facts₀] (c : Dev nD) : (⟨k0_dev56 c, k0_dev56_lt c⟩ : Dev nD) = zpeer c 2 :=
  Fin.ext (dev56_val c)
theorem dev57_eq [Facts₀] (c : Dev nD) : (⟨k0_dev57 c, k0_dev57_lt c⟩ : Dev nD) = zpeer c 3 :=
  Fin.ext (dev57_val c)
theorem dev58_eq [Facts₀] (c : Dev nD) : (⟨k0_dev58 c, k0_dev58_lt c⟩ : Dev nD) = zpeer c 1 :=
  Fin.ext (dev58_val c)
theorem dev59_eq [Facts₀] (c : Dev nD) : (⟨k0_dev59 c, k0_dev59_lt c⟩ : Dev nD) = zpeer c 2 :=
  Fin.ext (dev59_val c)
theorem dev60_eq [Facts₀] (c : Dev nD) : (⟨k0_dev60 c, k0_dev60_lt c⟩ : Dev nD) = zpeer c 3 :=
  Fin.ext (dev60_val c)
theorem dev61_eq [Facts₀] (c : Dev nD) : (⟨k0_dev61 c, k0_dev61_lt c⟩ : Dev nD) = zpeer c 1 :=
  Fin.ext (dev61_val c)
theorem dev62_eq [Facts₀] (c : Dev nD) : (⟨k0_dev62 c, k0_dev62_lt c⟩ : Dev nD) = zpeer c 2 :=
  Fin.ext (dev62_val c)
theorem dev63_eq [Facts₀] (c : Dev nD) : (⟨k0_dev63 c, k0_dev63_lt c⟩ : Dev nD) = zpeer c 3 :=
  Fin.ext (dev63_val c)

/-! ## The device-dependent offsets

Each offset is a function of the device and of one or two small parameters, so its closed form is
checked at every device, every parameter and every axis. -/

theorem off1_pt : ∀ c : Dev nD, ∀ r : Fin 16, ∀ a,
    k0_off1 c (k0_off1_at r).1 (k0_off1_at r).2.1 (k0_off1_at r).2.2 a
      = (![r.val % 4 * 256 + pOf (1 - xc c) (r.val / 4) * 32, 0] : Fin 2 → Nat) a := by decide +kernel
/-- Side 0: block `r = 4·y + zo` is read at row `256·zo + 32·p` with `p` the position of the other column on row `y`. -/
theorem off1_eq (c : Dev nD) (r : Fin 16) :
    k0_off1 c (k0_off1_at r).1 (k0_off1_at r).2.1 (k0_off1_at r).2.2
      = ![r.val % 4 * 256 + pOf (1 - xc c) (r.val / 4) * 32, 0] := funext (off1_pt c r)

theorem off2_pt : ∀ c : Dev nD, ∀ r : Fin 16, ∀ a,
    k0_off2 c (k0_off2_at r).1 (k0_off2_at r).2.1 (k0_off2_at r).2.2 a
      = (![r.val % 4 * 256 + pOf (xc c) (r.val / 4) * 32, 0] : Fin 2 → Nat) a := by decide +kernel
/-- Side 1: block `r = 4·y + zo` is read at row `256·zo + 32·p` with `p` the position of the device's own column on row `y`. -/
theorem off2_eq (c : Dev nD) (r : Fin 16) :
    k0_off2 c (k0_off2_at r).1 (k0_off2_at r).2.1 (k0_off2_at r).2.2
      = ![r.val % 4 * 256 + pOf (xc c) (r.val / 4) * 32, 0] := funext (off2_pt c r)

theorem off3_pt : ∀ c : Dev nD, ∀ (r₁ : Fin 8) (r₂ : Fin 3), ∀ a,
    k0_off3 c (BitVec.ofNat 32 (4 * r₁.val)) (BitVec.ofNat 32 (1 + r₂.val)) a
      = (![4 * r₁.val + (yc c + (1 + r₂.val)) % 4] : Fin 1 → Nat) a := by decide +kernel
theorem off3_eq (c : Dev nD) (r₁ : Fin 8) (r₂ : Fin 3) :
    k0_off3 c (BitVec.ofNat 32 (4 * r₁.val)) (BitVec.ofNat 32 (1 + r₂.val))
      = ![4 * r₁.val + (yc c + (1 + r₂.val)) % 4] := funext (off3_pt c r₁ r₂)

theorem off4_pt : ∀ c : Dev nD, ∀ (r : Fin 8), ∀ a,
    k0_off4 c (BitVec.ofNat 32 (4 * r.val)) a
      = (![4 * r.val + yc c] : Fin 1 → Nat) a := by decide +kernel
theorem off4_eq (c : Dev nD) (r : Fin 8) :
    k0_off4 c (BitVec.ofNat 32 (4 * r.val))
      = ![4 * r.val + yc c] := funext (off4_pt c r)

theorem off5_pt : ∀ c : Dev nD, ∀ (r : Fin 8), ∀ a,
    k0_off5 c (BitVec.ofNat 32 (4 * r.val)) a
      = (![4 * r.val + yc c, 0, 0, 0] : Fin 4 → Nat) a := by decide +kernel
theorem off5_eq (c : Dev nD) (r : Fin 8) :
    k0_off5 c (BitVec.ofNat 32 (4 * r.val))
      = ![4 * r.val + yc c, 0, 0, 0] := funext (off5_pt c r)

theorem off6_pt : ∀ c : Dev nD, ∀ (r₁ : Fin 8) (r₂ : Fin 3), ∀ a,
    k0_off6 c (BitVec.ofNat 32 (4 * r₁.val)) (BitVec.ofNat 32 (1 + r₂.val)) a
      = (![4 * r₁.val + (yc c + (1 + r₂.val)) % 4, 0, 0, 0] : Fin 4 → Nat) a := by decide +kernel
theorem off6_eq (c : Dev nD) (r₁ : Fin 8) (r₂ : Fin 3) :
    k0_off6 c (BitVec.ofNat 32 (4 * r₁.val)) (BitVec.ofNat 32 (1 + r₂.val))
      = ![4 * r₁.val + (yc c + (1 + r₂.val)) % 4, 0, 0, 0] := funext (off6_pt c r₁ r₂)

theorem off7_pt : ∀ c : Dev nD, ∀ (r : Fin 8), ∀ a,
    k0_off7 c (BitVec.ofNat 32 (4 * r.val)) a
      = (![4 * r.val + yc c, 0, 0, 0] : Fin 4 → Nat) a := by decide +kernel
theorem off7_eq (c : Dev nD) (r : Fin 8) :
    k0_off7 c (BitVec.ofNat 32 (4 * r.val))
      = ![4 * r.val + yc c, 0, 0, 0] := funext (off7_pt c r)

theorem off8_pt : ∀ c : Dev nD, ∀ (r₁ : Fin 8) (r₂ : Fin 3), ∀ a,
    k0_off8 c (BitVec.ofNat 32 (4 * r₁.val)) (BitVec.ofNat 32 (1 + r₂.val)) a
      = (![4 * r₁.val + (yc c + 4 - (1 + r₂.val)) % 4] : Fin 1 → Nat) a := by decide +kernel
theorem off8_eq (c : Dev nD) (r₁ : Fin 8) (r₂ : Fin 3) :
    k0_off8 c (BitVec.ofNat 32 (4 * r₁.val)) (BitVec.ofNat 32 (1 + r₂.val))
      = ![4 * r₁.val + (yc c + 4 - (1 + r₂.val)) % 4] := funext (off8_pt c r₁ r₂)

theorem off9_pt : ∀ c : Dev nD, ∀ (r₁ : Fin 8) (r₂ : Fin 3), ∀ a,
    k0_off9 c (BitVec.ofNat 32 (4 * r₁.val)) (BitVec.ofNat 32 (1 + r₂.val)) a
      = (![4 * r₁.val + (yc c + 4 - (1 + r₂.val)) % 4, 0, 0, 0] : Fin 4 → Nat) a := by decide +kernel
theorem off9_eq (c : Dev nD) (r₁ : Fin 8) (r₂ : Fin 3) :
    k0_off9 c (BitVec.ofNat 32 (4 * r₁.val)) (BitVec.ofNat 32 (1 + r₂.val))
      = ![4 * r₁.val + (yc c + 4 - (1 + r₂.val)) % 4, 0, 0, 0] := funext (off9_pt c r₁ r₂)

theorem off10_pt : ∀ c : Dev nD, ∀ (r₁ : Fin 8) (r₂ : Fin 3), ∀ a,
    k0_off10 c (BitVec.ofNat 32 (4 * r₁.val)) (BitVec.ofNat 32 (1 + r₂.val)) a
      = (![4 * r₁.val + (yc c + 4 - (1 + r₂.val)) % 4, 0, 0, 0] : Fin 4 → Nat) a := by decide +kernel
theorem off10_eq (c : Dev nD) (r₁ : Fin 8) (r₂ : Fin 3) :
    k0_off10 c (BitVec.ofNat 32 (4 * r₁.val)) (BitVec.ofNat 32 (1 + r₂.val))
      = ![4 * r₁.val + (yc c + 4 - (1 + r₂.val)) % 4, 0, 0, 0] := funext (off10_pt c r₁ r₂)

theorem off11_pt : ∀ c : Dev nD, ∀ (r₁ : Fin 8) (r₂ : Fin 3), ∀ a,
    k0_off11 c (BitVec.ofNat 32 (4 * r₁.val)) (BitVec.ofNat 32 (1 + r₂.val)) a
      = (![4 * r₁.val + (zc c + (1 + r₂.val)) % 4] : Fin 1 → Nat) a := by decide +kernel
theorem off11_eq (c : Dev nD) (r₁ : Fin 8) (r₂ : Fin 3) :
    k0_off11 c (BitVec.ofNat 32 (4 * r₁.val)) (BitVec.ofNat 32 (1 + r₂.val))
      = ![4 * r₁.val + (zc c + (1 + r₂.val)) % 4] := funext (off11_pt c r₁ r₂)

theorem off12_pt : ∀ c : Dev nD, ∀ (r : Fin 8), ∀ a,
    k0_off12 c (BitVec.ofNat 32 (4 * r.val)) a
      = (![4 * r.val + zc c] : Fin 1 → Nat) a := by decide +kernel
theorem off12_eq (c : Dev nD) (r : Fin 8) :
    k0_off12 c (BitVec.ofNat 32 (4 * r.val))
      = ![4 * r.val + zc c] := funext (off12_pt c r)

theorem off13_pt : ∀ c : Dev nD, ∀ (r : Fin 8), ∀ a,
    k0_off13 c (BitVec.ofNat 32 (4 * r.val)) a
      = (![4 * r.val + zc c, 0, 0] : Fin 3 → Nat) a := by decide +kernel
theorem off13_eq (c : Dev nD) (r : Fin 8) :
    k0_off13 c (BitVec.ofNat 32 (4 * r.val))
      = ![4 * r.val + zc c, 0, 0] := funext (off13_pt c r)

theorem off14_pt : ∀ c : Dev nD, ∀ (r₁ : Fin 8) (r₂ : Fin 3), ∀ a,
    k0_off14 c (BitVec.ofNat 32 (4 * r₁.val)) (BitVec.ofNat 32 (1 + r₂.val)) a
      = (![4 * r₁.val + (zc c + (1 + r₂.val)) % 4, 0, 0] : Fin 3 → Nat) a := by decide +kernel
theorem off14_eq (c : Dev nD) (r₁ : Fin 8) (r₂ : Fin 3) :
    k0_off14 c (BitVec.ofNat 32 (4 * r₁.val)) (BitVec.ofNat 32 (1 + r₂.val))
      = ![4 * r₁.val + (zc c + (1 + r₂.val)) % 4, 0, 0] := funext (off14_pt c r₁ r₂)

theorem off15_pt : ∀ c : Dev nD, ∀ (r : Fin 8), ∀ a,
    k0_off15 c (BitVec.ofNat 32 (4 * r.val)) a
      = (![4 * r.val + zc c, 0, 0] : Fin 3 → Nat) a := by decide +kernel
theorem off15_eq (c : Dev nD) (r : Fin 8) :
    k0_off15 c (BitVec.ofNat 32 (4 * r.val))
      = ![4 * r.val + zc c, 0, 0] := funext (off15_pt c r)

theorem off16_pt : ∀ c : Dev nD, ∀ (r₁ : Fin 8) (r₂ : Fin 3), ∀ a,
    k0_off16 c (BitVec.ofNat 32 (4 * r₁.val)) (BitVec.ofNat 32 (1 + r₂.val)) a
      = (![4 * r₁.val + (zc c + 4 - (1 + r₂.val)) % 4] : Fin 1 → Nat) a := by decide +kernel
theorem off16_eq (c : Dev nD) (r₁ : Fin 8) (r₂ : Fin 3) :
    k0_off16 c (BitVec.ofNat 32 (4 * r₁.val)) (BitVec.ofNat 32 (1 + r₂.val))
      = ![4 * r₁.val + (zc c + 4 - (1 + r₂.val)) % 4] := funext (off16_pt c r₁ r₂)

theorem off17_pt : ∀ c : Dev nD, ∀ (r₁ : Fin 8) (r₂ : Fin 3), ∀ a,
    k0_off17 c (BitVec.ofNat 32 (4 * r₁.val)) (BitVec.ofNat 32 (1 + r₂.val)) a
      = (![4 * r₁.val + (zc c + 4 - (1 + r₂.val)) % 4, 0, 0] : Fin 3 → Nat) a := by decide +kernel
theorem off17_eq (c : Dev nD) (r₁ : Fin 8) (r₂ : Fin 3) :
    k0_off17 c (BitVec.ofNat 32 (4 * r₁.val)) (BitVec.ofNat 32 (1 + r₂.val))
      = ![4 * r₁.val + (zc c + 4 - (1 + r₂.val)) % 4, 0, 0] := funext (off17_pt c r₁ r₂)

theorem off18_pt : ∀ c : Dev nD, ∀ (r₁ : Fin 8) (r₂ : Fin 3), ∀ a,
    k0_off18 c (BitVec.ofNat 32 (4 * r₁.val)) (BitVec.ofNat 32 (1 + r₂.val)) a
      = (![4 * r₁.val + (zc c + 4 - (1 + r₂.val)) % 4, 0, 0] : Fin 3 → Nat) a := by decide +kernel
theorem off18_eq (c : Dev nD) (r₁ : Fin 8) (r₂ : Fin 3) :
    k0_off18 c (BitVec.ofNat 32 (4 * r₁.val)) (BitVec.ofNat 32 (1 + r₂.val))
      = ![4 * r₁.val + (zc c + 4 - (1 + r₂.val)) % 4, 0, 0] := funext (off18_pt c r₁ r₂)

/-! ### The same closed forms, for parameters given as words

The parameters of an offset may be spelt as literal words; each form below takes the words together with
the equations identifying them, which hold by computation. -/

theorem off1_at (c : Dev nD) (a b d : BitVec 32) (r : Fin 16) (h : k0_off1_at r = (a, b, d)) :
    k0_off1 c a b d = ![r.val % 4 * 256 + pOf (1 - xc c) (r.val / 4) * 32, 0] := by
  have := off1_eq c r
  rw [h] at this
  exact this

theorem off2_at (c : Dev nD) (a b d : BitVec 32) (r : Fin 16) (h : k0_off2_at r = (a, b, d)) :
    k0_off2 c a b d = ![r.val % 4 * 256 + pOf (xc c) (r.val / 4) * 32, 0] := by
  have := off2_eq c r
  rw [h] at this
  exact this

theorem off3_at (c : Dev nD) (a b : BitVec 32) (r₁ : Fin 8) (r₂ : Fin 3)
    (ha : a = BitVec.ofNat 32 (4 * r₁.val)) (hb : b = BitVec.ofNat 32 (1 + r₂.val)) :
    k0_off3 c a b = ![4 * r₁.val + (yc c + (1 + r₂.val)) % 4] := by
  subst ha hb; exact off3_eq c r₁ r₂

theorem off4_at (c : Dev nD) (a : BitVec 32) (r : Fin 8) (ha : a = BitVec.ofNat 32 (4 * r.val)) :
    k0_off4 c a = ![4 * r.val + yc c] := by
  subst ha; exact off4_eq c r

theorem off5_at (c : Dev nD) (a : BitVec 32) (r : Fin 8) (ha : a = BitVec.ofNat 32 (4 * r.val)) :
    k0_off5 c a = ![4 * r.val + yc c, 0, 0, 0] := by
  subst ha; exact off5_eq c r

theorem off6_at (c : Dev nD) (a b : BitVec 32) (r₁ : Fin 8) (r₂ : Fin 3)
    (ha : a = BitVec.ofNat 32 (4 * r₁.val)) (hb : b = BitVec.ofNat 32 (1 + r₂.val)) :
    k0_off6 c a b = ![4 * r₁.val + (yc c + (1 + r₂.val)) % 4, 0, 0, 0] := by
  subst ha hb; exact off6_eq c r₁ r₂

theorem off7_at (c : Dev nD) (a : BitVec 32) (r : Fin 8) (ha : a = BitVec.ofNat 32 (4 * r.val)) :
    k0_off7 c a = ![4 * r.val + yc c, 0, 0, 0] := by
  subst ha; exact off7_eq c r

theorem off8_at (c : Dev nD) (a b : BitVec 32) (r₁ : Fin 8) (r₂ : Fin 3)
    (ha : a = BitVec.ofNat 32 (4 * r₁.val)) (hb : b = BitVec.ofNat 32 (1 + r₂.val)) :
    k0_off8 c a b = ![4 * r₁.val + (yc c + 4 - (1 + r₂.val)) % 4] := by
  subst ha hb; exact off8_eq c r₁ r₂

theorem off9_at (c : Dev nD) (a b : BitVec 32) (r₁ : Fin 8) (r₂ : Fin 3)
    (ha : a = BitVec.ofNat 32 (4 * r₁.val)) (hb : b = BitVec.ofNat 32 (1 + r₂.val)) :
    k0_off9 c a b = ![4 * r₁.val + (yc c + 4 - (1 + r₂.val)) % 4, 0, 0, 0] := by
  subst ha hb; exact off9_eq c r₁ r₂

theorem off10_at (c : Dev nD) (a b : BitVec 32) (r₁ : Fin 8) (r₂ : Fin 3)
    (ha : a = BitVec.ofNat 32 (4 * r₁.val)) (hb : b = BitVec.ofNat 32 (1 + r₂.val)) :
    k0_off10 c a b = ![4 * r₁.val + (yc c + 4 - (1 + r₂.val)) % 4, 0, 0, 0] := by
  subst ha hb; exact off10_eq c r₁ r₂

theorem off11_at (c : Dev nD) (a b : BitVec 32) (r₁ : Fin 8) (r₂ : Fin 3)
    (ha : a = BitVec.ofNat 32 (4 * r₁.val)) (hb : b = BitVec.ofNat 32 (1 + r₂.val)) :
    k0_off11 c a b = ![4 * r₁.val + (zc c + (1 + r₂.val)) % 4] := by
  subst ha hb; exact off11_eq c r₁ r₂

theorem off12_at (c : Dev nD) (a : BitVec 32) (r : Fin 8) (ha : a = BitVec.ofNat 32 (4 * r.val)) :
    k0_off12 c a = ![4 * r.val + zc c] := by
  subst ha; exact off12_eq c r

theorem off13_at (c : Dev nD) (a : BitVec 32) (r : Fin 8) (ha : a = BitVec.ofNat 32 (4 * r.val)) :
    k0_off13 c a = ![4 * r.val + zc c, 0, 0] := by
  subst ha; exact off13_eq c r

theorem off14_at (c : Dev nD) (a b : BitVec 32) (r₁ : Fin 8) (r₂ : Fin 3)
    (ha : a = BitVec.ofNat 32 (4 * r₁.val)) (hb : b = BitVec.ofNat 32 (1 + r₂.val)) :
    k0_off14 c a b = ![4 * r₁.val + (zc c + (1 + r₂.val)) % 4, 0, 0] := by
  subst ha hb; exact off14_eq c r₁ r₂

theorem off15_at (c : Dev nD) (a : BitVec 32) (r : Fin 8) (ha : a = BitVec.ofNat 32 (4 * r.val)) :
    k0_off15 c a = ![4 * r.val + zc c, 0, 0] := by
  subst ha; exact off15_eq c r

theorem off16_at (c : Dev nD) (a b : BitVec 32) (r₁ : Fin 8) (r₂ : Fin 3)
    (ha : a = BitVec.ofNat 32 (4 * r₁.val)) (hb : b = BitVec.ofNat 32 (1 + r₂.val)) :
    k0_off16 c a b = ![4 * r₁.val + (zc c + 4 - (1 + r₂.val)) % 4] := by
  subst ha hb; exact off16_eq c r₁ r₂

theorem off17_at (c : Dev nD) (a b : BitVec 32) (r₁ : Fin 8) (r₂ : Fin 3)
    (ha : a = BitVec.ofNat 32 (4 * r₁.val)) (hb : b = BitVec.ofNat 32 (1 + r₂.val)) :
    k0_off17 c a b = ![4 * r₁.val + (zc c + 4 - (1 + r₂.val)) % 4, 0, 0] := by
  subst ha hb; exact off17_eq c r₁ r₂

theorem off18_at (c : Dev nD) (a b : BitVec 32) (r₁ : Fin 8) (r₂ : Fin 3)
    (ha : a = BitVec.ofNat 32 (4 * r₁.val)) (hb : b = BitVec.ofNat 32 (1 + r₂.val)) :
    k0_off18 c a b = ![4 * r₁.val + (zc c + 4 - (1 + r₂.val)) % 4, 0, 0] := by
  subst ha hb; exact off18_eq c r₁ r₂

/-! ## The peers

Coordinates of a device of the box, and of its partner, rail peers and plane peers; the peer maps are
involutive up to the complementary step, and the seven peers of a device are distinct from it and from
one another. -/

section Peers
open Cert.Mesh

theorem dev_val (z x y : ℕ) :
    (dev z x y).val = z % 4 * 8 + (2 * (y % 4) + (x % 2 + y % 4) % 2) := rfl

theorem zc_lt (c : Fin 32) : zc c < 4 := by have := c.isLt; unfold zc; omega
theorem yc_lt (c : Fin 32) : yc c < 4 := by unfold yc; omega
theorem xc_lt (c : Fin 32) : xc c < 2 := by unfold xc; omega
theorem pc_lt (c : Fin 32) : pc c < 8 := by unfold pc; omega

theorem zc_dev (z x y : ℕ) : zc (dev z x y) = z % 4 := by unfold zc; rw [dev_val]; omega
theorem yc_dev (z x y : ℕ) : yc (dev z x y) = y % 4 := by unfold yc; rw [dev_val]; omega
theorem xc_dev (z x y : ℕ) : xc (dev z x y) = x % 2 := by unfold xc; rw [dev_val]; omega
theorem pc_dev (z x y : ℕ) : pc (dev z x y) = pOf (x % 2) (y % 4) := by
  unfold pc pOf; rw [dev_val]; omega

/-- A device is the device of its own coordinates. -/
theorem dev_coords (c : Fin 32) : dev (zc c) (xc c) (yc c) = c := by
  apply Fin.ext; rw [dev_val]; have := c.isLt; unfold zc xc yc; omega

/-- The position inside the plane, from the column and the row. -/
theorem pc_eq_pOf (c : Fin 32) : pc c = pOf (xc c) (yc c) := by
  unfold pc pOf xc yc; omega

/-- The device id, from the plane and the position. -/
theorem val_eq (c : Fin 32) : c.val = zc c * 8 + pc c := by unfold zc pc; omega

/-- Two devices with the same three coordinates are equal. -/
theorem ext_coords {a b : Fin 32} (hz : zc a = zc b) (hx : xc a = xc b) (hy : yc a = yc b) : a = b := by
  rw [← dev_coords a, ← dev_coords b, hz, hx, hy]

theorem zc_partner (c : Fin 32) : zc (partner c) = zc c := by
  unfold partner; rw [zc_dev]; have := zc_lt c; omega
theorem xc_partner (c : Fin 32) : xc (partner c) = 1 - xc c := by
  unfold partner; rw [xc_dev]; have := xc_lt c; omega
theorem yc_partner (c : Fin 32) : yc (partner c) = yc c := by
  unfold partner; rw [yc_dev]; have := yc_lt c; omega

theorem zc_rail (c : Fin 32) (s : ℕ) : zc (rail c s) = zc c := by
  unfold rail; rw [zc_dev]; have := zc_lt c; omega
theorem xc_rail (c : Fin 32) (s : ℕ) : xc (rail c s) = xc c := by
  unfold rail; rw [xc_dev]; have := xc_lt c; omega
theorem yc_rail (c : Fin 32) (s : ℕ) : yc (rail c s) = (yc c + s) % 4 := by
  unfold rail; rw [yc_dev]

theorem zc_zpeer (c : Fin 32) (s : ℕ) : zc (zpeer c s) = (zc c + s) % 4 := by
  unfold zpeer; rw [zc_dev]
theorem xc_zpeer (c : Fin 32) (s : ℕ) : xc (zpeer c s) = xc c := by
  unfold zpeer; rw [xc_dev]; have := xc_lt c; omega
theorem yc_zpeer (c : Fin 32) (s : ℕ) : yc (zpeer c s) = yc c := by
  unfold zpeer; rw [yc_dev]; have := yc_lt c; omega
theorem pc_zpeer (c : Fin 32) (s : ℕ) : pc (zpeer c s) = pc c := by
  rw [pc_eq_pOf, xc_zpeer, yc_zpeer, ← pc_eq_pOf]

/-- The partner is the device whose id differs in the lowest bit. -/
theorem partner_val (c : Fin 32) : (partner c).val = c.val + 1 - 2 * (c.val % 2) := by
  revert c; decide
/-- Plane peer s, by its id. -/
theorem zpeer_val (c : Fin 32) (s : ℕ) : (zpeer c s).val = (zc c + s) % 4 * 8 + pc c := by
  rw [val_eq (zpeer c s), zc_zpeer, pc_zpeer]
/-- Rail peer s, by its id. -/
theorem rail_val (c : Fin 32) (s : ℕ) : (rail c s).val = zc c * 8 + pOf (xc c) ((yc c + s) % 4) := by
  rw [val_eq (rail c s), zc_rail, pc_eq_pOf, xc_rail, yc_rail]

theorem partner_partner (c : Fin 32) : partner (partner c) = c := by
  apply ext_coords
  · rw [zc_partner, zc_partner]
  · rw [xc_partner, xc_partner]; have := xc_lt c; omega
  · rw [yc_partner, yc_partner]

/-- Advancing the row by s and then by 4 - s comes back. -/
theorem rail_rail (c : Fin 32) (s : ℕ) (hs : s ≤ 4) : rail (rail c s) (4 - s) = c := by
  apply ext_coords
  · rw [zc_rail, zc_rail]
  · rw [xc_rail, xc_rail]
  · rw [yc_rail, yc_rail]; have := yc_lt c; omega

/-- Advancing the plane by s and then by 4 - s comes back. -/
theorem zpeer_zpeer (c : Fin 32) (s : ℕ) (hs : s ≤ 4) : zpeer (zpeer c s) (4 - s) = c := by
  apply ext_coords
  · rw [zc_zpeer, zc_zpeer]; have := zc_lt c; omega
  · rw [xc_zpeer, xc_zpeer]
  · rw [yc_zpeer, yc_zpeer]

theorem rail_rail_1 (c : Fin 32) : rail (rail c 1) 3 = c := rail_rail c 1 (by omega)
theorem rail_rail_2 (c : Fin 32) : rail (rail c 2) 2 = c := rail_rail c 2 (by omega)
theorem rail_rail_3 (c : Fin 32) : rail (rail c 3) 1 = c := rail_rail c 3 (by omega)
theorem zpeer_zpeer_1 (c : Fin 32) : zpeer (zpeer c 1) 3 = c := zpeer_zpeer c 1 (by omega)
theorem zpeer_zpeer_2 (c : Fin 32) : zpeer (zpeer c 2) 2 = c := zpeer_zpeer c 2 (by omega)
theorem zpeer_zpeer_3 (c : Fin 32) : zpeer (zpeer c 3) 1 = c := zpeer_zpeer c 3 (by omega)

/-- Who names c as a peer: d's partner is c exactly when d is c's partner. -/
theorem partner_eq_iff (c d : Fin 32) : partner d = c ↔ d = partner c := by
  constructor
  · rintro rfl; exact (partner_partner d).symm
  · rintro rfl; exact partner_partner c
/-- d's rail peer s is c exactly when d is c's rail peer 4 - s (1 ≤ s ≤ 3). -/
theorem rail_eq_iff (c d : Fin 32) (s : ℕ) (h1 : 1 ≤ s) (h3 : s ≤ 3) : rail d s = c ↔ d = rail c (4 - s) := by
  constructor
  · rintro rfl; exact (rail_rail d s (by omega)).symm
  · rintro rfl
    have := rail_rail c (4 - s) (by omega)
    rwa [show 4 - (4 - s) = s by omega] at this
/-- d's plane peer s is c exactly when d is c's plane peer 4 - s (1 ≤ s ≤ 3). -/
theorem zpeer_eq_iff (c d : Fin 32) (s : ℕ) (h1 : 1 ≤ s) (h3 : s ≤ 3) : zpeer d s = c ↔ d = zpeer c (4 - s) := by
  constructor
  · rintro rfl; exact (zpeer_zpeer d s (by omega)).symm
  · rintro rfl
    have := zpeer_zpeer c (4 - s) (by omega)
    rwa [show 4 - (4 - s) = s by omega] at this

/-- A device and its seven peers are eight different devices. -/
theorem peers_nodup : ∀ c : Fin 32,
    [c, partner c, rail c 1, rail c 2, rail c 3, zpeer c 1, zpeer c 2, zpeer c 3].Nodup := by
  decide +kernel

theorem partner_ne (c : Fin 32) : partner c ≠ c := by
  intro h; have := congrArg xc h; rw [xc_partner] at this; have := xc_lt c; omega
theorem rail_ne (c : Fin 32) (s : Fin 3) : rail c (s.val + 1) ≠ c := by
  intro h; have := congrArg yc h; rw [yc_rail] at this; have := yc_lt c; have := s.isLt; omega
theorem zpeer_ne (c : Fin 32) (s : Fin 3) : zpeer c (s.val + 1) ≠ c := by
  intro h; have := congrArg zc h; rw [zc_zpeer] at this; have := zc_lt c; have := s.isLt; omega
theorem rail_ne_partner (c : Fin 32) (s : ℕ) : rail c s ≠ partner c := by
  intro h; have := congrArg xc h; rw [xc_rail, xc_partner] at this; have := xc_lt c; omega
theorem zpeer_ne_partner (c : Fin 32) (s : ℕ) : zpeer c s ≠ partner c := by
  intro h; have := congrArg xc h; rw [xc_zpeer, xc_partner] at this; have := xc_lt c; omega
theorem rail_ne_zpeer (c : Fin 32) (s : Fin 3) (t : ℕ) : rail c (s.val + 1) ≠ zpeer c t := by
  intro h; have := congrArg yc h; rw [yc_rail, yc_zpeer] at this; have := yc_lt c; have := s.isLt; omega
theorem rail_inj (c : Fin 32) (s t : Fin 3) (h : rail c (s.val + 1) = rail c (t.val + 1)) : s = t := by
  have := congrArg yc h; rw [yc_rail, yc_rail] at this
  have := s.isLt; have := t.isLt; apply Fin.ext; omega
theorem zpeer_inj (c : Fin 32) (s t : Fin 3) (h : zpeer c (s.val + 1) = zpeer c (t.val + 1)) : s = t := by
  have := congrArg zc h; rw [zc_zpeer, zc_zpeer] at this
  have := s.isLt; have := t.isLt; apply Fin.ext; omega

end Peers

end Cert.Kernel.MeshFacts
-- ==== Proof.Word.Proto.lean ====
/-
  The cross-device protocol of the three-stage reduce-scatter, written in the rounds discipline:
  the semaphore cells, the slot views of the six exchange buffers and their credits.
-/
import proofs.«900893_g7700000000000894_dist_matmul_mk_i_outk_m1024_n1024_k512_v7x_i32_f32_1_alg».proof.Proof.MeshDefs
import proofs.«900893_g7700000000000894_dist_matmul_mk_i_outk_m1024_n1024_k512_v7x_i32_f32_1_alg».proof.Proof.SlotIdx
import proofs.«900893_g7700000000000894_dist_matmul_mk_i_outk_m1024_n1024_k512_v7x_i32_f32_1_alg».proof.Proof.Word.MeshFacts
import proofs.«900893_g7700000000000894_dist_matmul_mk_i_outk_m1024_n1024_k512_v7x_i32_f32_1_alg».proof.Proof.Gen.Kernel
import proofs.«900893_g7700000000000894_dist_matmul_mk_i_outk_m1024_n1024_k512_v7x_i32_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Proto

open Cert.Kernel Cert.Kernel.Gen
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 7`) -/

/-- Duty names: a barrier cell has the seven duties `0 … 6` (one per peer), a DMA cell the duty `0`. -/
abbrev D : Type := Fin 7
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores and the cells -/

/-- The runtime's barrier semaphore of collective id 0 (unscoped). -/
abbrev barS : Sem sig := (SemArray.scalar (sig.barrier 0 rfl) : Sems sig S_).sem

theorem inb8 (q : Fin 8) : ∀ a, (![q.val] : Fin 1 → Nat) a + S1.size a ≤ S8.size a := by
  intro a; have := q.isLt; fin_cases a; simp; omega
theorem inb32 (i : Fin 32) : ∀ a, (![i.val] : Fin 1 → Nat) a + S1.size a ≤ S32.size a := by
  intro a; have := i.isLt; fin_cases a; simp; omega

/-- Semaphore `q` of an array of 8, spelt as the kernel spells it: the unit slice at `q`, squeezed. -/
abbrev sem8 (A : DmaSems sig S8) (q : Fin 8) : DmaSem sig :=
  ((A.slice (Rect.unit (s := S8) ![q.val] S1.size (inb8 q))).squeeze S_ squeezes_S1_S_).sem
/-- Semaphore `i` of an array of 32. -/
abbrev sem32 (A : DmaSems sig S32) (i : Fin 32) : DmaSem sig :=
  ((A.slice (Rect.unit (s := S32) ![i.val] S1.size (inb32 i))).squeeze S_ squeezes_S1_S_).sem

theorem sem8_a1s (q : Fin 8) : (sem8 cc0_scratch9 q).val = 3 + q.val := by revert q; decide
theorem sem8_a1r (q : Fin 8) : (sem8 cc0_scratch10 q).val = 11 + q.val := by revert q; decide
theorem sem32_a2s (i : Fin 32) : (sem32 cc0_scratch11 i).val = 19 + i.val := by revert i; decide
theorem sem32_a2r (i : Fin 32) : (sem32 cc0_scratch12 i).val = 51 + i.val := by revert i; decide
theorem sem32_bs (i : Fin 32) : (sem32 cc0_scratch13 i).val = 83 + i.val := by revert i; decide
theorem sem32_br (i : Fin 32) : (sem32 cc0_scratch14 i).val = 115 + i.val := by revert i; decide

/-- The barrier cell of device `c`. -/
abbrev barCell (c : Dev nD) : GSem nD τ sig := ((c : Thread nD τ), .reg barS)
/-- Stage 1: the send cell and the receive cell of column chunk `q`. -/
abbrev a1sCell (c : Dev nD) (q : Fin 8) : GSem nD τ sig := ((c : Thread nD τ), .dma (sem8 cc0_scratch9 q))
abbrev a1rCell (c : Dev nD) (q : Fin 8) : GSem nD τ sig := ((c : Thread nD τ), .dma (sem8 cc0_scratch10 q))
/-- Stage 2: the send cell and the receive cell of slot `i`. -/
abbrev a2sCell (c : Dev nD) (i : Fin 32) : GSem nD τ sig := ((c : Thread nD τ), .dma (sem32 cc0_scratch11 i))
abbrev a2rCell (c : Dev nD) (i : Fin 32) : GSem nD τ sig := ((c : Thread nD τ), .dma (sem32 cc0_scratch12 i))
/-- Stage 3: the send cell and the receive cell of slot `i`. -/
abbrev bsCell (c : Dev nD) (i : Fin 32) : GSem nD τ sig := ((c : Thread nD τ), .dma (sem32 cc0_scratch13 i))
abbrev brCell (c : Dev nD) (i : Fin 32) : GSem nD τ sig := ((c : Thread nD τ), .dma (sem32 cc0_scratch14 i))

/-! ## The exchange buffers and their slots -/

abbrev sendA1 : Memref sig .tc .vmem S8x4x4x32x128 .bf16 := Memref.whole cc0_scratch2
abbrev commA1 : Memref sig .tc .vmem S8x4x4x32x128 .bf16 := Memref.whole cc0_scratch3
abbrev ownA : Memref sig .tc .vmem S8x4x4x32x128 .bf16 := Memref.whole cc0_scratch4
abbrev sendA2 : Memref sig .tc .vmem S32x4x32x128 .bf16 := Memref.whole cc0_scratch5
abbrev commA2 : Memref sig .tc .vmem S32x4x32x128 .bf16 := Memref.whole cc0_scratch6
abbrev sendB : Memref sig .tc .vmem S32x32x128 .bf16 := Memref.whole cc0_scratch7
abbrev commB : Memref sig .tc .vmem S32x32x128 .bf16 := Memref.whole cc0_scratch8

theorem inbA1 (q : Fin 8) : ∀ a, (![q.val, 0, 0, 0, 0] : Fin 5 → Nat) a + S1x4x4x32x128.size a ≤ S8x4x4x32x128.size a := by
  intro a; have := q.isLt; fin_cases a <;> simp <;> omega
theorem inbA2 (i : Fin 32) : ∀ a, (![i.val, 0, 0, 0] : Fin 4 → Nat) a + S1x4x32x128.size a ≤ S32x4x32x128.size a := by
  intro a; have := i.isLt; fin_cases a <;> simp <;> omega
theorem inbB (i : Fin 32) : ∀ a, (![i.val, 0, 0] : Fin 3 → Nat) a + S1x32x128.size a ≤ S32x32x128.size a := by
  intro a; have := i.isLt; fin_cases a <;> simp <;> omega

/-- Slot `q` of a stage-1 buffer: the unit slice at `q`, its leading axis squeezed away. -/
abbrev slot1 (M : Memref sig .tc .vmem S8x4x4x32x128 .bf16) (q : Fin 8) : Memref sig .tc .vmem S4x4x32x128 .bf16 :=
  (M.slice (Rect.unit (s := S8x4x4x32x128) ![q.val, 0, 0, 0, 0] S1x4x4x32x128.size (inbA1 q)) (fun _ => rfl)).squeeze S4x4x32x128 squeezes_S1x4x4x32x128_S4x4x32x128
/-- Slot `i` of a stage-2 buffer: the unit slice at `i`. -/
abbrev slot2 (M : Memref sig .tc .vmem S32x4x32x128 .bf16) (i : Fin 32) : Memref sig .tc .vmem S1x4x32x128 .bf16 :=
  M.slice (Rect.unit (s := S32x4x32x128) ![i.val, 0, 0, 0] S1x4x32x128.size (inbA2 i)) (fun _ => rfl)
/-- Slot `i` of a stage-3 buffer: the unit slice at `i`. -/
abbrev slot3 (M : Memref sig .tc .vmem S32x32x128 .bf16) (i : Fin 32) : Memref sig .tc .vmem S1x32x128 .bf16 :=
  M.slice (Rect.unit (s := S32x32x128) ![i.val, 0, 0] S1x32x128.size (inbB i)) (fun _ => rfl)

/-- The credit one slot's copy puts on a DMA semaphore, per stage. -/
abbrev N1 : ℕ := (slot1 commA1 0).view.dmaCredit
abbrev N2 : ℕ := (slot2 commA2 0).view.dmaCredit
abbrev N3 : ℕ := (slot3 commB 0).view.dmaCredit
theorem N1_pos : 0 < N1 := View.dmaCredit_pos _ (by decide)
theorem N2_pos : 0 < N2 := View.dmaCredit_pos _ (by decide)
theorem N3_pos : 0 < N3 := View.dmaCredit_pos _ (by decide)
theorem credit1_comm (q : Fin 8) : (slot1 commA1 q).view.dmaCredit = N1 := rfl
theorem credit1_send (q : Fin 8) : (slot1 sendA1 q).view.dmaCredit = N1 := rfl
theorem credit2_comm (i : Fin 32) : (slot2 commA2 i).view.dmaCredit = N2 := rfl
theorem credit2_send (i : Fin 32) : (slot2 sendA2 i).view.dmaCredit = N2 := rfl
theorem credit3_comm (i : Fin 32) : (slot3 commB i).view.dmaCredit = N3 := rfl
theorem credit3_send (i : Fin 32) : (slot3 sendB i).view.dmaCredit = N3 := rfl

/-- What a slot holds, per stage: a value under each index of the slot's shape. -/
abbrev C1 (F : FTy → Type) : Type := S4x4x32x128.Idx → Elt F .bf16
abbrev C2 (F : FTy → Type) : Type := S1x4x32x128.Idx → Elt F .bf16
abbrev C3 (F : FTy → Type) : Type := S1x32x128.Idx → Elt F .bf16

/-- The contents of a buffer that hold `X` under the view `v` (and `X`'s first value everywhere else:
    a points-to on the view's elements does not see them). -/
def slotBuf {κ : Kind} {sp : Space} {S : Shape} {e : EltTy} (v : View sig κ sp S e) (h : 0 < S.numel) (X : S.Idx → Elt F e) : v.ty.Contents (Elt F) :=
  v.write (Elt F) (fun _ => cast (congrArg (Elt F) v.elt_eq.symm) (X (Shape.Idx.first h))) X Finset.univ

omit [FloatOps F] in
theorem read_slotBuf {κ : Kind} {sp : Space} {S : Shape} {e : EltTy} (v : View sig κ sp S e) (h : 0 < S.numel) (X : S.Idx → Elt F e) :
    v.read (Elt F) (slotBuf v h X) = X := View.read_write_univ _ _

omit [FloatOps F] in
/-- A points-to on a view's elements sees only what the view reads. -/
theorem pts_slotBuf {sp : Space} {S : Shape} {e : EltTy} (c : Dev nD) (M : Memref sig .tc sp S e) (h : 0 < S.numel) (q : PosShare TreeShare)
    (f : Buf (Elt F) (M.view.loc (c : Thread nD τ))) (X : S.Idx → Elt F e) (hX : M.view.read (Elt F) f = X) :
    (M.view.loc (c : Thread nD τ) ↦[M.view.set]{q} f : sProp 𝕄) = (M.view.loc (c : Thread nD τ) ↦[M.view.set]{q} slotBuf M.view h X) := by
  refine BI.Region.is_congr fun i hi => ?_
  obtain ⟨y, -, rfl⟩ := Finset.mem_map.mp hi
  unfold slotBuf
  rw [View.write_emb_of_mem _ _ (Finset.mem_univ y), ← hX, View.read_apply]
  simp

/-! ## One enumeration of the protocol's cells -/

/-- The protocol's semaphores, numbered: `0` the barrier semaphore, `1 + i` DMA semaphore `3 + i` of the pool
    (stage-1 send `0 … 7`, stage-1 receive `8 … 15`, stage-2 send `16 … 47`, stage-2 receive `48 … 79`,
    stage-3 send `80 … 111`, stage-3 receive `112 … 143`). -/
def csem (k : Fin 145) : SemLoc sig :=
  if k.val = 0 then .reg barS else .dma (⟨k.val + 2, by have := k.isLt; show k.val + 2 < 147; omega⟩ : Fin 147)
abbrev kcell (ck : Dev nD × Fin 145) : GSem nD τ sig := ((ck.1 : Thread nD τ), csem ck.2)

theorem csem_injective : Function.Injective csem := by
  intro a b h
  unfold csem at h
  by_cases ha : a.val = 0 <;> by_cases hb : b.val = 0
  · exact Fin.ext (ha.trans hb.symm)
  · rw [if_pos ha, if_neg hb] at h; cases h
  · rw [if_neg ha, if_pos hb] at h; cases h
  · rw [if_neg ha, if_neg hb] at h
    have h' := congrArg Fin.val (SemLoc.dma.inj h)
    exact Fin.ext (by simp only at h'; omega)

theorem kcell_injective : Function.Injective (kcell : Dev nD × Fin 145 → GSem nD τ sig) := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

theorem csem_succ (i : Fin 144) : csem ⟨1 + i.val, by have := i.isLt; omega⟩ = .dma (⟨3 + i.val, by have := i.isLt; show 3 + i.val < 147; omega⟩ : Fin 147) := by
  unfold csem
  rw [if_neg (by simp)]
  exact congrArg SemLoc.dma (Fin.ext (by simp only; omega))

theorem dma_eq_csem (n : DmaSem sig) (k : ℕ) (hk : k < 144) (h : n.val = 3 + k) : SemLoc.dma n = csem ⟨1 + k, by omega⟩ := by
  rw [csem_succ ⟨k, hk⟩]; exact congrArg SemLoc.dma (Fin.ext h)

theorem a1sCell_eq (c : Dev nD) (q : Fin 8) : a1sCell c q = kcell (c, ⟨1 + q.val, by have := q.isLt; omega⟩) :=
  Prod.ext rfl (dma_eq_csem _ q.val (by have := q.isLt; omega) (sem8_a1s q))
theorem a1rCell_eq (c : Dev nD) (q : Fin 8) : a1rCell c q = kcell (c, ⟨1 + (8 + q.val), by have := q.isLt; omega⟩) :=
  Prod.ext rfl (dma_eq_csem _ (8 + q.val) (by have := q.isLt; omega) (by rw [sem8_a1r]; omega))
theorem a2sCell_eq (c : Dev nD) (i : Fin 32) : a2sCell c i = kcell (c, ⟨1 + (16 + i.val), by have := i.isLt; omega⟩) :=
  Prod.ext rfl (dma_eq_csem _ (16 + i.val) (by have := i.isLt; omega) (by rw [sem32_a2s]; omega))
theorem a2rCell_eq (c : Dev nD) (i : Fin 32) : a2rCell c i = kcell (c, ⟨1 + (48 + i.val), by have := i.isLt; omega⟩) :=
  Prod.ext rfl (dma_eq_csem _ (48 + i.val) (by have := i.isLt; omega) (by rw [sem32_a2r]; omega))
theorem bsCell_eq (c : Dev nD) (i : Fin 32) : bsCell c i = kcell (c, ⟨1 + (80 + i.val), by have := i.isLt; omega⟩) :=
  Prod.ext rfl (dma_eq_csem _ (80 + i.val) (by have := i.isLt; omega) (by rw [sem32_bs]; omega))
theorem brCell_eq (c : Dev nD) (i : Fin 32) : brCell c i = kcell (c, ⟨1 + (112 + i.val), by have := i.isLt; omega⟩) :=
  Prod.ext rfl (dma_eq_csem _ (112 + i.val) (by have := i.isLt; omega) (by rw [sem32_br]; omega))
theorem barCell_eq (c : Dev nD) : barCell c = kcell (c, 0) := Prod.ext rfl (by show SemLoc.reg barS = csem 0; unfold csem; exact (if_pos rfl).symm)

/-! ## The schedule -/

/-- The column chunk of slot `i`. -/
def qOf (i : Fin 32) : Fin 8 := ⟨i.val / 4, by have := i.isLt; omega⟩

/-- The kinds of cell: the barrier cell, the send and receive cells of the three stages by slot, and the rest
    (the pipeline's staging cells). -/
inductive CK : Type
  | bar | a1s (q : Fin 8) | a1r (q : Fin 8) | a2s (i : Fin 32) | a2r (i : Fin 32) | bs (i : Fin 32) | br (i : Fin 32) | other
deriving DecidableEq

/-- A semaphore's kind, read off its number in the pool. -/
def kindOf : SemLoc sig → CK
  | .reg s => if s = barS then .bar else .other
  | .dma n =>
    have hn : n.val < 147 := n.isLt
    if h0 : n.val < 3 then .other
    else if h1 : n.val < 11 then .a1s ⟨n.val - 3, by omega⟩
    else if h2 : n.val < 19 then .a1r ⟨n.val - 11, by omega⟩
    else if h3 : n.val < 51 then .a2s ⟨n.val - 19, by omega⟩
    else if h4 : n.val < 83 then .a2r ⟨n.val - 51, by omega⟩
    else if h5 : n.val < 115 then .bs ⟨n.val - 83, by omega⟩
    else .br ⟨n.val - 115, by omega⟩

theorem kind_bar : kindOf (.reg barS) = .bar := by unfold kindOf; exact if_pos rfl
theorem kind_a1s (q : Fin 8) : kindOf (.dma (sem8 cc0_scratch9 q)) = .a1s q := by revert q; decide
theorem kind_a1r (q : Fin 8) : kindOf (.dma (sem8 cc0_scratch10 q)) = .a1r q := by revert q; decide
theorem kind_a2s (i : Fin 32) : kindOf (.dma (sem32 cc0_scratch11 i)) = .a2s i := by revert i; decide
theorem kind_a2r (i : Fin 32) : kindOf (.dma (sem32 cc0_scratch12 i)) = .a2r i := by revert i; decide
theorem kind_bs (i : Fin 32) : kindOf (.dma (sem32 cc0_scratch13 i)) = .bs i := by revert i; decide
theorem kind_br (i : Fin 32) : kindOf (.dma (sem32 cc0_scratch14 i)) = .br i := by revert i; decide
theorem kind_stage (n : DmaSem sig) (h : n.val < 3) : kindOf (.dma n) = .other := by unfold kindOf; exact dif_pos h

/-- The duties of round 0, by kind: a barrier cell the seven, a stage-1 cell one, a stage-2 (stage-3) cell one
    unless its slot is the device's own row (plane), on which nothing is sent. -/
def dutiesOf (c : Dev nD) : CK → Finset D
  | .bar => Finset.univ
  | .a1s _ => {0}
  | .a1r _ => {0}
  | .a2s i => if i.val % 4 = yc c then ∅ else {0}
  | .a2r i => if i.val % 4 = yc c then ∅ else {0}
  | .bs i => if i.val % 4 = zc c then ∅ else {0}
  | .br i => if i.val % 4 = zc c then ∅ else {0}
  | .other => ∅

def amountOf : CK → ℕ
  | .bar => 1
  | .a1s _ => N1
  | .a1r _ => N1
  | .a2s _ => N2
  | .a2r _ => N2
  | .bs _ => N3
  | .br _ => N3
  | .other => 1

theorem amountOf_pos (k : CK) : 0 < amountOf k := by
  cases k <;> first | exact Nat.one_pos | exact N1_pos | exact N2_pos | exact N3_pos

/-- A slot of device `c` holding `X`. -/
abbrev pts1 (M : Memref sig .tc .vmem S8x4x4x32x128 .bf16) (c : Dev nD) (q : Fin 8) (X : C1 F) : sProp 𝕄 :=
  (slot1 M q).view.loc (c : Thread nD τ) ↦[(slot1 M q).view.set]{fullShare} slotBuf (slot1 M q).view h_S4x4x32x128 X
abbrev pts2 (M : Memref sig .tc .vmem S32x4x32x128 .bf16) (c : Dev nD) (i : Fin 32) (X : C2 F) : sProp 𝕄 :=
  (slot2 M i).view.loc (c : Thread nD τ) ↦[(slot2 M i).view.set]{fullShare} slotBuf (slot2 M i).view h_S1x4x32x128 X
abbrev pts3 (M : Memref sig .tc .vmem S32x32x128 .bf16) (c : Dev nD) (i : Fin 32) (X : C3 F) : sProp 𝕄 :=
  (slot3 M i).view.loc (c : Thread nD τ) ↦[(slot3 M i).view.set]{fullShare} slotBuf (slot3 M i).view h_S1x32x128 X

/-- What a device `d` grants the partner that will copy into it: its whole stage-1 landing buffer, and that it has
    reached round 0 of its eight stage-1 receive cells. -/
def grant1 (d : Dev nD) : sProp 𝕄 :=
  iprop((∃ f : Buf (Elt F) ((d : Thread nD τ).loc cc0_scratch3), ((d : Thread nD τ).loc cc0_scratch3) ↦{fullShare} f)
    ∗ bigSep Finset.univ fun q : Fin 8 => reached ER (a1rCell d q) 0)
/-- What `d` grants the rail peer of row `y`: the eight slots `4q + y` of its stage-2 landing buffer, and that it
    has reached round 0 of their receive cells. -/
def grant2 (d : Dev nD) (v s : ℕ) : sProp 𝕄 :=
  bigSep Finset.univ fun q : Fin 8 =>
    iprop((∃ f, (slot2 commA2 (slot v q s)).view.loc (d : Thread nD τ) ↦[(slot2 commA2 (slot v q s)).view.set]{fullShare} f)
      ∗ reached ER (a2rCell d (slot v q s)) 0)
/-- What `d` grants the plane peer of plane `z`: the eight slots `4q + z` of its stage-3 landing buffer, and that
    it has reached round 0 of their receive cells. -/
def grant3 (d : Dev nD) (v s : ℕ) : sProp 𝕄 :=
  bigSep Finset.univ fun q : Fin 8 =>
    iprop((∃ f, (slot3 commB (slot v q s)).view.loc (d : Thread nD τ) ↦[(slot3 commB (slot v q s)).view.set]{fullShare} f)
      ∗ reached ER (brCell d (slot v q s)) 0)

/-- Duty `k` of `c`'s barrier cell is paid by the device whose `k`-th peer is `c` (`0`: the partner; `s = 1, 2, 3`:
    the rail peer `4 - s` rows on; `3 + s`: the plane peer `4 - s` planes on), and hands `c` that device's grant. -/
def barPay (c : Dev nD) (k : D) : sProp 𝕄 :=
  if k.val = 0 then grant1 (partner c)
  else if k.val ≤ 3 then grant2 (rail c (4 - k.val)) (yc c) 0
  else grant3 (zpeer c (7 - k.val)) (zc c) 0

variable (S1 : Dev nD → Fin 8 → C1 F) (P2 : Dev nD → Fin 32 → C2 F) (P3 : Dev nD → Fin 32 → C3 F)

/-- The payloads by kind. A send cell gives the slot back as it was sent; a receive cell gives the landing slot
    holding what the sender's slot held: the partner's slot `q`; the slot `4q + y_c` of the rail peer of row
    `i % 4`; the slot `4q + z_c` of the plane peer of plane `i % 4`. -/
def payloadOf (c : Dev nD) : CK → D → sProp 𝕄
  | .bar, k => barPay c k
  | .a1s q, _ => pts1 sendA1 c q (S1 c q)
  | .a1r q, _ => pts1 commA1 c q (S1 (partner c) q)
  | .a2s i, _ => pts2 sendA2 c i (P2 c i)
  | .a2r i, _ => pts2 commA2 c i (P2 (dev (zc c) (xc c) (i.val % 4)) (slot (yc c) (qOf i) 0))
  | .bs i, _ => pts3 sendB c i (P3 c i)
  | .br i, _ => pts3 commB c i (P3 (dev (i.val % 4) (xc c) (yc c)) (slot (zc c) (qOf i) 0))
  | .other, _ => iprop(emp)

/-- One round, round 0, on the TensorCores' cells. -/
def sched : Rounds.Schedule (GSem nD τ sig) D 𝕄 where
  duties g r := if r = 0 ∧ g.1.2 = .tc then dutiesOf g.1.1 (kindOf g.2) else ∅
  unitless _ := False
  amount g _ _ := amountOf (kindOf g.2)
  payload g _ d := payloadOf S1 P2 P3 g.1.1 (kindOf g.2) d
  amount_pos g _ _ _ := amountOf_pos _

instance sched_payload_storable (g : GSem nD τ sig) (r : ℕ) (d : D) :
    BI.Storable (upEmb : UEmb _ 𝕄) ((sched S1 P2 P3).payload g r d) := by
  show BI.Storable upEmb (payloadOf S1 P2 P3 g.1.1 (kindOf g.2) d)
  cases kindOf g.2 <;> unfold payloadOf
  · unfold barPay grant1 grant2 grant3; (repeat' split) <;> infer_instance
  all_goals infer_instance

/-! ## The schedule's tables -/

section Tables
variable (c : Dev nD)

omit [FloatOps F] in
theorem duties_tc (sm : SemLoc sig) : (sched S1 P2 P3).duties ((c : Thread nD τ), sm) 0 = dutiesOf c (kindOf sm) := by dsimp only [sched]; exact if_pos ⟨rfl, rfl⟩
omit [FloatOps F] in
theorem duties_later (g : GSem nD τ sig) : ∀ r, 1 ≤ r → (sched S1 P2 P3).duties g r = ∅ :=
  fun r hr => by dsimp only [sched]; exact if_neg fun h => by omega
omit [FloatOps F] in
theorem duties_of_ne (g : GSem nD τ sig) (h : g.1.2 ≠ .tc) (r : ℕ) : (sched S1 P2 P3).duties g r = ∅ := by dsimp only [sched]; exact if_neg fun h' => h h'.2
omit [FloatOps F] in
theorem amount_tc (sm : SemLoc sig) (r : ℕ) (d : D) : (sched S1 P2 P3).amount ((c : Thread nD τ), sm) r d = amountOf (kindOf sm) := rfl
omit [FloatOps F] in
theorem payload_tc (sm : SemLoc sig) (r : ℕ) (d : D) : (sched S1 P2 P3).payload ((c : Thread nD τ), sm) r d = payloadOf S1 P2 P3 c (kindOf sm) d := rfl

theorem slot_mod (v : ℕ) (q : Fin 8) (s : ℕ) : (slot v q s).val % 4 = (v + s) % 4 := by rw [Cert.Mesh.slot_val]; omega
theorem qOf_slot (v : ℕ) (q : Fin 8) (s : ℕ) : qOf (slot v q s) = q := Fin.ext (by unfold qOf; simp only [Cert.Mesh.slot_val]; omega)
theorem yc_lt (c : Dev nD) : yc c < 4 := by unfold yc; omega
theorem zc_lt (c : Dev nD) : zc c < 4 := by have : c.val < 32 := c.isLt; unfold zc; omega

/-! ### Duties -/

omit [FloatOps F] in
theorem duties_bar : (sched S1 P2 P3).duties (barCell c) 0 = Finset.univ := by rw [duties_tc, kind_bar]; rfl
omit [FloatOps F] in
theorem duties_a1s (q : Fin 8) : (sched S1 P2 P3).duties (a1sCell c q) 0 = {0} := by rw [duties_tc, kind_a1s]; rfl
omit [FloatOps F] in
theorem duties_a1r (q : Fin 8) : (sched S1 P2 P3).duties (a1rCell c q) 0 = {0} := by rw [duties_tc, kind_a1r]; rfl
omit [FloatOps F] in
theorem duties_a2s (q : Fin 8) (s : ℕ) (hs : s % 4 ≠ 0) : (sched S1 P2 P3).duties (a2sCell c (slot (yc c) q s)) 0 = {0} := by
  rw [duties_tc, kind_a2s]; exact if_neg fun h => by rw [slot_mod] at h; have := yc_lt c; omega
omit [FloatOps F] in
theorem duties_a2r (q : Fin 8) (s : ℕ) (hs : s % 4 ≠ 0) : (sched S1 P2 P3).duties (a2rCell c (slot (yc c) q s)) 0 = {0} := by
  rw [duties_tc, kind_a2r]; exact if_neg fun h => by rw [slot_mod] at h; have := yc_lt c; omega
omit [FloatOps F] in
theorem duties_bs (q : Fin 8) (s : ℕ) (hs : s % 4 ≠ 0) : (sched S1 P2 P3).duties (bsCell c (slot (zc c) q s)) 0 = {0} := by
  rw [duties_tc, kind_bs]; exact if_neg fun h => by rw [slot_mod] at h; have := zc_lt c; omega
omit [FloatOps F] in
theorem duties_br (q : Fin 8) (s : ℕ) (hs : s % 4 ≠ 0) : (sched S1 P2 P3).duties (brCell c (slot (zc c) q s)) 0 = {0} := by
  rw [duties_tc, kind_br]; exact if_neg fun h => by rw [slot_mod] at h; have := zc_lt c; omega
omit [FloatOps F] in
/-- The cells of a device's own row and plane have no duty: nothing is sent on them. -/
theorem duties_a2s_own (q : Fin 8) : (sched S1 P2 P3).duties (a2sCell c (slot (yc c) q 0)) 0 = ∅ := by
  rw [duties_tc, kind_a2s]; exact if_pos (by rw [slot_mod]; have := yc_lt c; omega)
omit [FloatOps F] in
theorem duties_a2r_own (q : Fin 8) : (sched S1 P2 P3).duties (a2rCell c (slot (yc c) q 0)) 0 = ∅ := by
  rw [duties_tc, kind_a2r]; exact if_pos (by rw [slot_mod]; have := yc_lt c; omega)
omit [FloatOps F] in
theorem duties_bs_own (q : Fin 8) : (sched S1 P2 P3).duties (bsCell c (slot (zc c) q 0)) 0 = ∅ := by
  rw [duties_tc, kind_bs]; exact if_pos (by rw [slot_mod]; have := zc_lt c; omega)
omit [FloatOps F] in
theorem duties_br_own (q : Fin 8) : (sched S1 P2 P3).duties (brCell c (slot (zc c) q 0)) 0 = ∅ := by
  rw [duties_tc, kind_br]; exact if_pos (by rw [slot_mod]; have := zc_lt c; omega)
omit [FloatOps F] in
/-- On a peer: the receive cell of MY row's (plane's) slot there has its duty (it is not the peer's own row). -/
theorem duties_a2r_peer (q : Fin 8) (s : ℕ) (hs : s % 4 ≠ 0) : (sched S1 P2 P3).duties (a2rCell (rail c s) (slot (yc c) q 0)) 0 = {0} := by
  rw [duties_tc, kind_a2r]; exact if_neg fun h => by rw [slot_mod, MeshFacts.yc_rail] at h; have := yc_lt c; omega
omit [FloatOps F] in
theorem duties_br_peer (q : Fin 8) (s : ℕ) (hs : s % 4 ≠ 0) : (sched S1 P2 P3).duties (brCell (zpeer c s) (slot (zc c) q 0)) 0 = {0} := by
  rw [duties_tc, kind_br]; exact if_neg fun h => by rw [slot_mod, MeshFacts.zc_zpeer] at h; have := zc_lt c; omega

/-! ### Amounts and the units a round expects -/

omit [FloatOps F] in
theorem amount_bar (d : D) : (sched S1 P2 P3).amount (barCell c) 0 d = 1 := by rw [amount_tc, kind_bar]; rfl
omit [FloatOps F] in
theorem amount_a1s (q : Fin 8) (d : D) : (sched S1 P2 P3).amount (a1sCell c q) 0 d = N1 := by rw [amount_tc, kind_a1s]; rfl
omit [FloatOps F] in
theorem amount_a1r (q : Fin 8) (d : D) : (sched S1 P2 P3).amount (a1rCell c q) 0 d = N1 := by rw [amount_tc, kind_a1r]; rfl
omit [FloatOps F] in
theorem amount_a2s (i : Fin 32) (d : D) : (sched S1 P2 P3).amount (a2sCell c i) 0 d = N2 := by rw [amount_tc, kind_a2s]; rfl
omit [FloatOps F] in
theorem amount_a2r (i : Fin 32) (d : D) : (sched S1 P2 P3).amount (a2rCell c i) 0 d = N2 := by rw [amount_tc, kind_a2r]; rfl
omit [FloatOps F] in
theorem amount_bs (i : Fin 32) (d : D) : (sched S1 P2 P3).amount (bsCell c i) 0 d = N3 := by rw [amount_tc, kind_bs]; rfl
omit [FloatOps F] in
theorem amount_br (i : Fin 32) (d : D) : (sched S1 P2 P3).amount (brCell c i) 0 d = N3 := by rw [amount_tc, kind_br]; rfl

omit [FloatOps F] in
theorem expect_bar : (sched S1 P2 P3).expect (barCell c) 0 = 7 := by
  unfold Schedule.expect Schedule.amountOf
  rw [duties_bar, Finset.sum_congr rfl fun d _ => amount_bar S1 P2 P3 c d, Finset.sum_const, Finset.card_univ, Fintype.card_fin, smul_eq_mul]
omit [FloatOps F] in
theorem expect_a1s (q : Fin 8) : (sched S1 P2 P3).expect (a1sCell c q) 0 = N1 := by
  unfold Schedule.expect Schedule.amountOf; rw [duties_a1s, Finset.sum_singleton, amount_a1s]
omit [FloatOps F] in
theorem expect_a1r (q : Fin 8) : (sched S1 P2 P3).expect (a1rCell c q) 0 = N1 := by
  unfold Schedule.expect Schedule.amountOf; rw [duties_a1r, Finset.sum_singleton, amount_a1r]
omit [FloatOps F] in
theorem expect_a2s (q : Fin 8) (s : ℕ) (hs : s % 4 ≠ 0) : (sched S1 P2 P3).expect (a2sCell c (slot (yc c) q s)) 0 = N2 := by
  unfold Schedule.expect Schedule.amountOf; rw [duties_a2s S1 P2 P3 c q s hs, Finset.sum_singleton, amount_a2s]
omit [FloatOps F] in
theorem expect_a2r (q : Fin 8) (s : ℕ) (hs : s % 4 ≠ 0) : (sched S1 P2 P3).expect (a2rCell c (slot (yc c) q s)) 0 = N2 := by
  unfold Schedule.expect Schedule.amountOf; rw [duties_a2r S1 P2 P3 c q s hs, Finset.sum_singleton, amount_a2r]
omit [FloatOps F] in
theorem expect_bs (q : Fin 8) (s : ℕ) (hs : s % 4 ≠ 0) : (sched S1 P2 P3).expect (bsCell c (slot (zc c) q s)) 0 = N3 := by
  unfold Schedule.expect Schedule.amountOf; rw [duties_bs S1 P2 P3 c q s hs, Finset.sum_singleton, amount_bs]
omit [FloatOps F] in
theorem expect_br (q : Fin 8) (s : ℕ) (hs : s % 4 ≠ 0) : (sched S1 P2 P3).expect (brCell c (slot (zc c) q s)) 0 = N3 := by
  unfold Schedule.expect Schedule.amountOf; rw [duties_br S1 P2 P3 c q s hs, Finset.sum_singleton, amount_br]

/-! ### Payloads -/

omit [FloatOps F] in
theorem payload_bar (k : D) : (sched S1 P2 P3).payload (barCell c) 0 k = barPay c k := by rw [payload_tc, kind_bar]; rfl
omit [FloatOps F] in
theorem payload_a1s (q : Fin 8) (d : D) : (sched S1 P2 P3).payload (a1sCell c q) 0 d = pts1 sendA1 c q (S1 c q) := by rw [payload_tc, kind_a1s]; rfl
omit [FloatOps F] in
theorem payload_a1r (q : Fin 8) (d : D) : (sched S1 P2 P3).payload (a1rCell c q) 0 d = pts1 commA1 c q (S1 (partner c) q) := by rw [payload_tc, kind_a1r]; rfl
omit [FloatOps F] in
theorem payload_a2s (i : Fin 32) (d : D) : (sched S1 P2 P3).payload (a2sCell c i) 0 d = pts2 sendA2 c i (P2 c i) := by rw [payload_tc, kind_a2s]; rfl
omit [FloatOps F] in
theorem payload_bs (i : Fin 32) (d : D) : (sched S1 P2 P3).payload (bsCell c i) 0 d = pts3 sendB c i (P3 c i) := by rw [payload_tc, kind_bs]; rfl
omit [FloatOps F] in
theorem payload_a2r_raw (i : Fin 32) (d : D) : (sched S1 P2 P3).payload (a2rCell c i) 0 d
    = pts2 commA2 c i (P2 (dev (zc c) (xc c) (i.val % 4)) (slot (yc c) (qOf i) 0)) := by rw [payload_tc, kind_a2r]; rfl
omit [FloatOps F] in
theorem payload_br_raw (i : Fin 32) (d : D) : (sched S1 P2 P3).payload (brCell c i) 0 d
    = pts3 commB c i (P3 (dev (i.val % 4) (xc c) (yc c)) (slot (zc c) (qOf i) 0)) := by rw [payload_tc, kind_br]; rfl

theorem dev_mod_y (z x y : ℕ) : dev z x (y % 4) = dev z x y := Fin.ext (by unfold dev; simp only [Nat.mod_mod])
theorem dev_mod_z (z x y : ℕ) : dev (z % 4) x y = dev z x y := Fin.ext (by unfold dev; simp only [Nat.mod_mod])
theorem dev_self : ∀ c : Dev nD, dev (zc c) (xc c) (yc c) = c := by decide

end Tables

end Cert.Kernel.Proto

end
-- ==== Proof.Word.ProtoTables.lean ====
/-
  The cross-device protocol, continued: payloads resolved at the owner and at the payer, the grants written out,
  what each device owes at launch, the levels, and the evidence each wait presents.
-/
import proofs.«900893_g7700000000000894_dist_matmul_mk_i_outk_m1024_n1024_k512_v7x_i32_f32_1_alg».proof.Proof.Word.Proto
import Idealize.ShloMosaic.Lib.Pipeline.Launch
import Idealize.ShloMosaic.Lib.Pipeline.Kit
import Idealize.ShloMosaic.Lib.Tactic

noncomputable section

namespace Cert.Kernel.Proto

open Cert.Kernel Cert.Kernel.Gen
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (S1 : Dev nD → Fin 8 → C1 F) (P2 : Dev nD → Fin 32 → C2 F) (P3 : Dev nD → Fin 32 → C3 F)

/-! ## Payloads resolved at the owner and at the payer; the rest of a round -/

section Resolved
variable (c : Dev nD)

theorem slot_shift (v : ℕ) (q : Fin 8) (s : ℕ) : slot ((v + s) % 4) q 0 = slot v q s :=
  Fin.ext (by simp only [Cert.Mesh.slot_val]; omega)

omit [FloatOps F] in
/-- The owner's view: the slot of the row `t` ahead holds what the rail peer `t` sent from its slot of MY row. -/
theorem payload_a2r (q : Fin 8) (t : ℕ) (d : D) : (sched S1 P2 P3).payload (a2rCell c (slot (yc c) q t)) 0 d
    = pts2 commA2 c (slot (yc c) q t) (P2 (rail c t) (slot (yc c) q 0)) := by
  rw [payload_a2r_raw, slot_mod, dev_mod_y, qOf_slot]; rfl
omit [FloatOps F] in
theorem payload_br (q : Fin 8) (t : ℕ) (d : D) : (sched S1 P2 P3).payload (brCell c (slot (zc c) q t)) 0 d
    = pts3 commB c (slot (zc c) q t) (P3 (zpeer c t) (slot (zc c) q 0)) := by
  rw [payload_br_raw, slot_mod, dev_mod_z, qOf_slot]; rfl

omit [FloatOps F] in
/-- The payer's view: what my copy lands on the partner is my slot. -/
theorem payload_a1r_peer (q : Fin 8) (d : D) : (sched S1 P2 P3).payload (a1rCell (partner c) q) 0 d
    = pts1 commA1 (partner c) q (S1 c q) := by
  rw [payload_a1r, MeshFacts.partner_partner]
omit [FloatOps F] in
theorem payload_a2r_peer (q : Fin 8) (s : ℕ) (d : D) : (sched S1 P2 P3).payload (a2rCell (rail c s) (slot (yc c) q 0)) 0 d
    = pts2 commA2 (rail c s) (slot (yc c) q 0) (P2 c (slot (yc c) q s)) := by
  rw [payload_a2r_raw, slot_mod, qOf_slot, MeshFacts.zc_rail, MeshFacts.xc_rail, MeshFacts.yc_rail, dev_mod_y, Nat.add_zero, dev_self, slot_shift]
omit [FloatOps F] in
theorem payload_br_peer (q : Fin 8) (s : ℕ) (d : D) : (sched S1 P2 P3).payload (brCell (zpeer c s) (slot (zc c) q 0)) 0 d
    = pts3 commB (zpeer c s) (slot (zc c) q 0) (P3 c (slot (zc c) q s)) := by
  rw [payload_br_raw, slot_mod, qOf_slot, MeshFacts.zc_zpeer, MeshFacts.xc_zpeer, MeshFacts.yc_zpeer, dev_mod_z, Nat.add_zero, dev_self, slot_shift]

omit [FloatOps F] in
theorem grant2_shift (d : Dev nD) (v s : ℕ) : (grant2 d ((v + s) % 4) 0 : sProp 𝕄) = grant2 d v s := by
  unfold grant2; exact bigSep_congr fun q _ => by rw [slot_shift]
omit [FloatOps F] in
theorem grant3_shift (d : Dev nD) (v s : ℕ) : (grant3 d ((v + s) % 4) 0 : sProp 𝕄) = grant3 d v s := by
  unfold grant3; exact bigSep_congr fun q _ => by rw [slot_shift]

omit [FloatOps F] in
/-- What my seven signals hand over: my own grants. -/
theorem barPay_partner : (barPay (partner c) 0 : sProp 𝕄) = grant1 c := by
  unfold barPay; rw [if_pos (show ((0 : D).val = 0) from rfl), MeshFacts.partner_partner]
omit [FloatOps F] in
theorem barPay_rail (s : ℕ) (h1 : 1 ≤ s) (h3 : s ≤ 3) : (barPay (rail c s) ⟨s, by omega⟩ : sProp 𝕄) = grant2 c (yc c) s := by
  unfold barPay
  rw [if_neg (by simp only; omega), if_pos (by simp only; omega)]
  simp only []
  rw [MeshFacts.rail_rail c s (by omega), MeshFacts.yc_rail, grant2_shift]
omit [FloatOps F] in
theorem barPay_zpeer (s : ℕ) (h1 : 1 ≤ s) (h3 : s ≤ 3) : (barPay (zpeer c s) ⟨3 + s, by omega⟩ : sProp 𝕄) = grant3 c (zc c) s := by
  unfold barPay
  rw [if_neg (by simp only; omega), if_neg (by simp only; omega)]
  simp only []
  rw [show 7 - (3 + s) = 4 - s from by omega, MeshFacts.zpeer_zpeer c s (by omega), MeshFacts.zc_zpeer, grant3_shift]

omit [FloatOps F] in
/-- The rest of the barrier cell's round, no duty taken: the seven grants. -/
theorem rest_bar : bigSep ((sched S1 P2 P3).duties (barCell c) 0 \ ∅) (fun d => (sched S1 P2 P3).payload (barCell c) 0 d)
    = iprop(barPay c 0 ∗ barPay c 1 ∗ barPay c 2 ∗ barPay c 3 ∗ barPay c 4 ∗ barPay c 5 ∗ barPay c 6) := by
  rw [Finset.sdiff_empty, duties_bar, bigSep_univ_eq_bigSepL [0, 1, 2, 3, 4, 5, 6] (by decide) (by decide)]
  simp only [bigSepL_cons_cons, bigSepL_singleton, payload_bar]
  rfl
omit [FloatOps F] in
/-- The rest of a one-duty round is the duty's payload. -/
theorem rest_one (g : GSem nD τ sig) (h : (sched S1 P2 P3).duties g 0 = {0}) :
    bigSep ((sched S1 P2 P3).duties g 0 \ ∅) (fun d => (sched S1 P2 P3).payload g 0 d) = (sched S1 P2 P3).payload g 0 0 := by
  rw [Finset.sdiff_empty, h, bigSep_singleton]

/-! ### The grants written out, chunk by chunk -/

omit [FloatOps F] in
theorem grant1_eq (d : Dev nD) : (grant1 d : sProp 𝕄)
    = iprop((∃ f : Buf (Elt F) ((d : Thread nD τ).loc cc0_scratch3), ((d : Thread nD τ).loc cc0_scratch3) ↦{fullShare} f)
      ∗ reached ER (a1rCell d 0) 0 ∗ reached ER (a1rCell d 1) 0 ∗ reached ER (a1rCell d 2) 0 ∗ reached ER (a1rCell d 3) 0 ∗ reached ER (a1rCell d 4) 0 ∗ reached ER (a1rCell d 5) 0 ∗ reached ER (a1rCell d 6) 0 ∗ reached ER (a1rCell d 7) 0) := by
  unfold grant1
  rw [bigSep_univ_eq_bigSepL [(0 : Fin 8), 1, 2, 3, 4, 5, 6, 7] (by decide) (by decide)]
  rfl
omit [FloatOps F] in
theorem grant2_eq (d : Dev nD) (v s : ℕ) : (grant2 d v s : sProp 𝕄)
    = iprop(((∃ f, (slot2 commA2 (slot v 0 s)).view.loc (d : Thread nD τ) ↦[(slot2 commA2 (slot v 0 s)).view.set]{fullShare} f) ∗ reached ER (a2rCell d (slot v 0 s)) 0)
      ∗ ((∃ f, (slot2 commA2 (slot v 1 s)).view.loc (d : Thread nD τ) ↦[(slot2 commA2 (slot v 1 s)).view.set]{fullShare} f) ∗ reached ER (a2rCell d (slot v 1 s)) 0)
      ∗ ((∃ f, (slot2 commA2 (slot v 2 s)).view.loc (d : Thread nD τ) ↦[(slot2 commA2 (slot v 2 s)).view.set]{fullShare} f) ∗ reached ER (a2rCell d (slot v 2 s)) 0)
      ∗ ((∃ f, (slot2 commA2 (slot v 3 s)).view.loc (d : Thread nD τ) ↦[(slot2 commA2 (slot v 3 s)).view.set]{fullShare} f) ∗ reached ER (a2rCell d (slot v 3 s)) 0)
      ∗ ((∃ f, (slot2 commA2 (slot v 4 s)).view.loc (d : Thread nD τ) ↦[(slot2 commA2 (slot v 4 s)).view.set]{fullShare} f) ∗ reached ER (a2rCell d (slot v 4 s)) 0)
      ∗ ((∃ f, (slot2 commA2 (slot v 5 s)).view.loc (d : Thread nD τ) ↦[(slot2 commA2 (slot v 5 s)).view.set]{fullShare} f) ∗ reached ER (a2rCell d (slot v 5 s)) 0)
      ∗ ((∃ f, (slot2 commA2 (slot v 6 s)).view.loc (d : Thread nD τ) ↦[(slot2 commA2 (slot v 6 s)).view.set]{fullShare} f) ∗ reached ER (a2rCell d (slot v 6 s)) 0)
      ∗ ((∃ f, (slot2 commA2 (slot v 7 s)).view.loc (d : Thread nD τ) ↦[(slot2 commA2 (slot v 7 s)).view.set]{fullShare} f) ∗ reached ER (a2rCell d (slot v 7 s)) 0)) := by
  unfold grant2
  rw [bigSep_univ_eq_bigSepL [(0 : Fin 8), 1, 2, 3, 4, 5, 6, 7] (by decide) (by decide)]
  rfl
omit [FloatOps F] in
theorem grant3_eq (d : Dev nD) (v s : ℕ) : (grant3 d v s : sProp 𝕄)
    = iprop(((∃ f, (slot3 commB (slot v 0 s)).view.loc (d : Thread nD τ) ↦[(slot3 commB (slot v 0 s)).view.set]{fullShare} f) ∗ reached ER (brCell d (slot v 0 s)) 0)
      ∗ ((∃ f, (slot3 commB (slot v 1 s)).view.loc (d : Thread nD τ) ↦[(slot3 commB (slot v 1 s)).view.set]{fullShare} f) ∗ reached ER (brCell d (slot v 1 s)) 0)
      ∗ ((∃ f, (slot3 commB (slot v 2 s)).view.loc (d : Thread nD τ) ↦[(slot3 commB (slot v 2 s)).view.set]{fullShare} f) ∗ reached ER (brCell d (slot v 2 s)) 0)
      ∗ ((∃ f, (slot3 commB (slot v 3 s)).view.loc (d : Thread nD τ) ↦[(slot3 commB (slot v 3 s)).view.set]{fullShare} f) ∗ reached ER (brCell d (slot v 3 s)) 0)
      ∗ ((∃ f, (slot3 commB (slot v 4 s)).view.loc (d : Thread nD τ) ↦[(slot3 commB (slot v 4 s)).view.set]{fullShare} f) ∗ reached ER (brCell d (slot v 4 s)) 0)
      ∗ ((∃ f, (slot3 commB (slot v 5 s)).view.loc (d : Thread nD τ) ↦[(slot3 commB (slot v 5 s)).view.set]{fullShare} f) ∗ reached ER (brCell d (slot v 5 s)) 0)
      ∗ ((∃ f, (slot3 commB (slot v 6 s)).view.loc (d : Thread nD τ) ↦[(slot3 commB (slot v 6 s)).view.set]{fullShare} f) ∗ reached ER (brCell d (slot v 6 s)) 0)
      ∗ ((∃ f, (slot3 commB (slot v 7 s)).view.loc (d : Thread nD τ) ↦[(slot3 commB (slot v 7 s)).view.set]{fullShare} f) ∗ reached ER (brCell d (slot v 7 s)) 0)) := by
  unfold grant3
  rw [bigSep_univ_eq_bigSepL [(0 : Fin 8), 1, 2, 3, 4, 5, 6, 7] (by decide) (by decide)]
  rfl

/-! ### The payer's side of the seven barrier duties -/

omit [FloatOps F] in
theorem payload_bar_partner : (sched S1 P2 P3).payload (barCell (partner c)) 0 0 = grant1 c := by
  rw [payload_bar, barPay_partner]
omit [FloatOps F] in
theorem payload_bar_rail1 : (sched S1 P2 P3).payload (barCell (rail c 1)) 0 1 = grant2 c (yc c) 1 := by
  rw [payload_bar]; exact barPay_rail c 1 (by decide) (by decide)
omit [FloatOps F] in
theorem payload_bar_rail2 : (sched S1 P2 P3).payload (barCell (rail c 2)) 0 2 = grant2 c (yc c) 2 := by
  rw [payload_bar]; exact barPay_rail c 2 (by decide) (by decide)
omit [FloatOps F] in
theorem payload_bar_rail3 : (sched S1 P2 P3).payload (barCell (rail c 3)) 0 3 = grant2 c (yc c) 3 := by
  rw [payload_bar]; exact barPay_rail c 3 (by decide) (by decide)
omit [FloatOps F] in
theorem payload_bar_zpeer1 : (sched S1 P2 P3).payload (barCell (zpeer c 1)) 0 4 = grant3 c (zc c) 1 := by
  rw [payload_bar]; exact barPay_zpeer c 1 (by decide) (by decide)
omit [FloatOps F] in
theorem payload_bar_zpeer2 : (sched S1 P2 P3).payload (barCell (zpeer c 2)) 0 5 = grant3 c (zc c) 2 := by
  rw [payload_bar]; exact barPay_zpeer c 2 (by decide) (by decide)
omit [FloatOps F] in
theorem payload_bar_zpeer3 : (sched S1 P2 P3).payload (barCell (zpeer c 3)) 0 6 = grant3 c (zc c) 3 := by
  rw [payload_bar]; exact barPay_zpeer c 3 (by decide) (by decide)

end Resolved

/-! ## What each device owes at launch; the levels -/

/-- The arrivals of stage 3 a device owes, the first to be paid last in the sum. -/
abbrev O3 (c : Dev nD) : CellTallies nD τ sig Unit :=
  tallyAt (brCell (zpeer c 3) (slot (zc c) 7 0)) () N3 + tallyAt (brCell (zpeer c 2) (slot (zc c) 7 0)) () N3 + tallyAt (brCell (zpeer c 1) (slot (zc c) 7 0)) () N3
    + tallyAt (brCell (zpeer c 3) (slot (zc c) 6 0)) () N3 + tallyAt (brCell (zpeer c 2) (slot (zc c) 6 0)) () N3 + tallyAt (brCell (zpeer c 1) (slot (zc c) 6 0)) () N3
    + tallyAt (brCell (zpeer c 3) (slot (zc c) 5 0)) () N3 + tallyAt (brCell (zpeer c 2) (slot (zc c) 5 0)) () N3 + tallyAt (brCell (zpeer c 1) (slot (zc c) 5 0)) () N3
    + tallyAt (brCell (zpeer c 3) (slot (zc c) 4 0)) () N3 + tallyAt (brCell (zpeer c 2) (slot (zc c) 4 0)) () N3 + tallyAt (brCell (zpeer c 1) (slot (zc c) 4 0)) () N3
    + tallyAt (brCell (zpeer c 3) (slot (zc c) 3 0)) () N3 + tallyAt (brCell (zpeer c 2) (slot (zc c) 3 0)) () N3 + tallyAt (brCell (zpeer c 1) (slot (zc c) 3 0)) () N3
    + tallyAt (brCell (zpeer c 3) (slot (zc c) 2 0)) () N3 + tallyAt (brCell (zpeer c 2) (slot (zc c) 2 0)) () N3 + tallyAt (brCell (zpeer c 1) (slot (zc c) 2 0)) () N3
    + tallyAt (brCell (zpeer c 3) (slot (zc c) 1 0)) () N3 + tallyAt (brCell (zpeer c 2) (slot (zc c) 1 0)) () N3 + tallyAt (brCell (zpeer c 1) (slot (zc c) 1 0)) () N3
    + tallyAt (brCell (zpeer c 3) (slot (zc c) 0 0)) () N3 + tallyAt (brCell (zpeer c 2) (slot (zc c) 0 0)) () N3 + tallyAt (brCell (zpeer c 1) (slot (zc c) 0 0)) () N3
/-- … and those of stage 2, -/
abbrev O2 (c : Dev nD) : CellTallies nD τ sig Unit :=
  O3 c
    + tallyAt (a2rCell (rail c 3) (slot (yc c) 7 0)) () N2 + tallyAt (a2rCell (rail c 2) (slot (yc c) 7 0)) () N2 + tallyAt (a2rCell (rail c 1) (slot (yc c) 7 0)) () N2
    + tallyAt (a2rCell (rail c 3) (slot (yc c) 6 0)) () N2 + tallyAt (a2rCell (rail c 2) (slot (yc c) 6 0)) () N2 + tallyAt (a2rCell (rail c 1) (slot (yc c) 6 0)) () N2
    + tallyAt (a2rCell (rail c 3) (slot (yc c) 5 0)) () N2 + tallyAt (a2rCell (rail c 2) (slot (yc c) 5 0)) () N2 + tallyAt (a2rCell (rail c 1) (slot (yc c) 5 0)) () N2
    + tallyAt (a2rCell (rail c 3) (slot (yc c) 4 0)) () N2 + tallyAt (a2rCell (rail c 2) (slot (yc c) 4 0)) () N2 + tallyAt (a2rCell (rail c 1) (slot (yc c) 4 0)) () N2
    + tallyAt (a2rCell (rail c 3) (slot (yc c) 3 0)) () N2 + tallyAt (a2rCell (rail c 2) (slot (yc c) 3 0)) () N2 + tallyAt (a2rCell (rail c 1) (slot (yc c) 3 0)) () N2
    + tallyAt (a2rCell (rail c 3) (slot (yc c) 2 0)) () N2 + tallyAt (a2rCell (rail c 2) (slot (yc c) 2 0)) () N2 + tallyAt (a2rCell (rail c 1) (slot (yc c) 2 0)) () N2
    + tallyAt (a2rCell (rail c 3) (slot (yc c) 1 0)) () N2 + tallyAt (a2rCell (rail c 2) (slot (yc c) 1 0)) () N2 + tallyAt (a2rCell (rail c 1) (slot (yc c) 1 0)) () N2
    + tallyAt (a2rCell (rail c 3) (slot (yc c) 0 0)) () N2 + tallyAt (a2rCell (rail c 2) (slot (yc c) 0 0)) () N2 + tallyAt (a2rCell (rail c 1) (slot (yc c) 0 0)) () N2
/-- … and those of stage 1. -/
abbrev O1 (c : Dev nD) : CellTallies nD τ sig Unit :=
  O2 c
    + tallyAt (a1rCell (partner c) 7) () N1 + tallyAt (a1rCell (partner c) 6) () N1 + tallyAt (a1rCell (partner c) 5) () N1
    + tallyAt (a1rCell (partner c) 4) () N1 + tallyAt (a1rCell (partner c) 3) () N1 + tallyAt (a1rCell (partner c) 2) () N1
    + tallyAt (a1rCell (partner c) 1) () N1 + tallyAt (a1rCell (partner c) 0) () N1
/-- What device `c` owes at launch: one unit to each of its seven peers' barrier cells (paid first: the partner, the
    rail peers 1, 2, 3, the plane peers 1, 2, 3), then a slot's credit for each copy, in the order the copies start. -/
def O₀ (c : Dev nD) : CellTallies nD τ sig Unit :=
  O1 c
    + tallyAt (barCell (zpeer c 3)) () 1 + tallyAt (barCell (zpeer c 2)) () 1 + tallyAt (barCell (zpeer c 1)) () 1
    + tallyAt (barCell (rail c 3)) () 1 + tallyAt (barCell (rail c 2)) () 1 + tallyAt (barCell (rail c 1)) () 1
    + tallyAt (barCell (partner c)) () 1

/-- The same payments as a list, in the order they are made. -/
def pays (c : Dev nD) : List (GSem nD τ sig × ℕ) :=
  [(barCell (partner c), 1),
   (barCell (rail c 1), 1),
   (barCell (rail c 2), 1),
   (barCell (rail c 3), 1),
   (barCell (zpeer c 1), 1),
   (barCell (zpeer c 2), 1),
   (barCell (zpeer c 3), 1),
   (a1rCell (partner c) 0, N1),
   (a1rCell (partner c) 1, N1),
   (a1rCell (partner c) 2, N1),
   (a1rCell (partner c) 3, N1),
   (a1rCell (partner c) 4, N1),
   (a1rCell (partner c) 5, N1),
   (a1rCell (partner c) 6, N1),
   (a1rCell (partner c) 7, N1),
   (a2rCell (rail c 1) (slot (yc c) 0 0), N2),
   (a2rCell (rail c 2) (slot (yc c) 0 0), N2),
   (a2rCell (rail c 3) (slot (yc c) 0 0), N2),
   (a2rCell (rail c 1) (slot (yc c) 1 0), N2),
   (a2rCell (rail c 2) (slot (yc c) 1 0), N2),
   (a2rCell (rail c 3) (slot (yc c) 1 0), N2),
   (a2rCell (rail c 1) (slot (yc c) 2 0), N2),
   (a2rCell (rail c 2) (slot (yc c) 2 0), N2),
   (a2rCell (rail c 3) (slot (yc c) 2 0), N2),
   (a2rCell (rail c 1) (slot (yc c) 3 0), N2),
   (a2rCell (rail c 2) (slot (yc c) 3 0), N2),
   (a2rCell (rail c 3) (slot (yc c) 3 0), N2),
   (a2rCell (rail c 1) (slot (yc c) 4 0), N2),
   (a2rCell (rail c 2) (slot (yc c) 4 0), N2),
   (a2rCell (rail c 3) (slot (yc c) 4 0), N2),
   (a2rCell (rail c 1) (slot (yc c) 5 0), N2),
   (a2rCell (rail c 2) (slot (yc c) 5 0), N2),
   (a2rCell (rail c 3) (slot (yc c) 5 0), N2),
   (a2rCell (rail c 1) (slot (yc c) 6 0), N2),
   (a2rCell (rail c 2) (slot (yc c) 6 0), N2),
   (a2rCell (rail c 3) (slot (yc c) 6 0), N2),
   (a2rCell (rail c 1) (slot (yc c) 7 0), N2),
   (a2rCell (rail c 2) (slot (yc c) 7 0), N2),
   (a2rCell (rail c 3) (slot (yc c) 7 0), N2),
   (brCell (zpeer c 1) (slot (zc c) 0 0), N3),
   (brCell (zpeer c 2) (slot (zc c) 0 0), N3),
   (brCell (zpeer c 3) (slot (zc c) 0 0), N3),
   (brCell (zpeer c 1) (slot (zc c) 1 0), N3),
   (brCell (zpeer c 2) (slot (zc c) 1 0), N3),
   (brCell (zpeer c 3) (slot (zc c) 1 0), N3),
   (brCell (zpeer c 1) (slot (zc c) 2 0), N3),
   (brCell (zpeer c 2) (slot (zc c) 2 0), N3),
   (brCell (zpeer c 3) (slot (zc c) 2 0), N3),
   (brCell (zpeer c 1) (slot (zc c) 3 0), N3),
   (brCell (zpeer c 2) (slot (zc c) 3 0), N3),
   (brCell (zpeer c 3) (slot (zc c) 3 0), N3),
   (brCell (zpeer c 1) (slot (zc c) 4 0), N3),
   (brCell (zpeer c 2) (slot (zc c) 4 0), N3),
   (brCell (zpeer c 3) (slot (zc c) 4 0), N3),
   (brCell (zpeer c 1) (slot (zc c) 5 0), N3),
   (brCell (zpeer c 2) (slot (zc c) 5 0), N3),
   (brCell (zpeer c 3) (slot (zc c) 5 0), N3),
   (brCell (zpeer c 1) (slot (zc c) 6 0), N3),
   (brCell (zpeer c 2) (slot (zc c) 6 0), N3),
   (brCell (zpeer c 3) (slot (zc c) 6 0), N3),
   (brCell (zpeer c 1) (slot (zc c) 7 0), N3),
   (brCell (zpeer c 2) (slot (zc c) 7 0), N3),
   (brCell (zpeer c 3) (slot (zc c) 7 0), N3)]

/-- What is owed while the payments `l` are still to make (the first of them the last summand). -/
def owe : List (GSem nD τ sig × ℕ) → CellTallies nD τ sig Unit
  | [] => 0
  | [p] => tallyAt p.1 () p.2
  | p :: p' :: l => owe (p' :: l) + tallyAt p.1 () p.2

/-- What is still owed after the first `k` payments. -/
def Oafter (c : Dev nD) (k : ℕ) : CellTallies nD τ sig Unit := owe ((pays c).drop k)

theorem pays_length (c : Dev nD) : (pays c).length = 63 := rfl
theorem O₀_eq (c : Dev nD) : O₀ c = Oafter c 0 := rfl
theorem O1_eq (c : Dev nD) : O1 c = Oafter c 7 := rfl
theorem O2_eq (c : Dev nD) : O2 c = Oafter c 15 := rfl
theorem O3_eq (c : Dev nD) : O3 c = Oafter c 39 := rfl
theorem Oafter_done (c : Dev nD) (k : ℕ) (hk : 63 ≤ k) : Oafter c k = 0 := by
  unfold Oafter; rw [List.drop_eq_nil_of_le (by rw [pays_length]; exact hk)]; rfl

def L (g : GSem nD τ sig) : Finset Unit := if g.1.2 = .tc then {()} else ∅
/-- Barrier cells at 1, the receive cells of the three stages at 2, 3, 4, everything else (staging, send) at 0. -/
def lvK : CK → ℕ
  | .bar => 1
  | .a1r _ => 2
  | .a2r _ => 3
  | .br _ => 4
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]; rfl
theorem lv_a1s (c : Dev nD) (q : Fin 8) : lv (a1sCell c q) () = 0 := by unfold lv; rw [kind_a1s]; rfl
theorem lv_a1r (c : Dev nD) (q : Fin 8) : lv (a1rCell c q) () = 2 := by unfold lv; rw [kind_a1r]; rfl
theorem lv_a2s (c : Dev nD) (i : Fin 32) : lv (a2sCell c i) () = 0 := by unfold lv; rw [kind_a2s]; rfl
theorem lv_a2r (c : Dev nD) (i : Fin 32) : lv (a2rCell c i) () = 3 := by unfold lv; rw [kind_a2r]; rfl
theorem lv_bs (c : Dev nD) (i : Fin 32) : lv (bsCell c i) () = 0 := by unfold lv; rw [kind_bs]; rfl
theorem lv_br (c : Dev nD) (i : Fin 32) : lv (brCell c i) () = 4 := by unfold lv; rw [kind_br]; rfl
theorem lv_stage (c : Dev nD) (n : DmaSem sig) (h : n.val < 3) : lv ((c : Thread nD τ), .dma n) () = 0 := by unfold lv; rw [kind_stage n h]; rfl

theorem owe_cons (p : GSem nD τ sig × ℕ) (l : List (GSem nD τ sig × ℕ)) : owe (p :: l) = owe l + tallyAt p.1 () p.2 := by
  cases l with
  | nil => exact (zero_add _).symm
  | cons p' l => rfl

theorem owe_pos {l : List (GSem nD τ sig × ℕ)} {g : GSem nD τ sig} {u : Unit} (h : 0 < owe l g u) : ∃ p ∈ l, g = p.1 := by
  induction l with
  | nil => exact absurd h (Nat.lt_irrefl 0)
  | cons p l ih =>
    rw [owe_cons] at h
    rcases Pipeline.add_pos_cases h with h' | h'
    · obtain ⟨p', hp', e⟩ := ih h'; exact ⟨p', List.mem_cons_of_mem _ hp', e⟩
    · rw [tallyAt_apply] at h'
      by_cases hg : g = p.1 ∧ u = ()
      · exact ⟨p, List.mem_cons_self, hg.1⟩
      · rw [if_neg hg] at h'; exact absurd h' (Nat.lt_irrefl 0)

omit [FloatOps F] in
/-- A wait is allowed while everything still to be paid sits strictly above the waited cell. -/
theorem mayWait_owe (c : Dev nD) (s : SemLoc sig) (l : List (GSem nD τ sig × ℕ))
    (h : ∀ p ∈ l, p.1.1.2 = .tc ∧ lv ((c : Thread nD τ), s) () < lv p.1 ()) :
    (levAts L lv : sProp 𝕄) ⊢ MayWait (c : Thread nD τ) s () (owe l) :=
  Pipeline.mayWait_of_levAts (by rw [L_tc]; exact Finset.mem_singleton_self _) fun g i hg => by
    obtain ⟨p, hp, rfl⟩ := owe_pos hg
    exact ⟨by unfold L; rw [if_pos (h p hp).1]; exact Finset.mem_singleton_self _, (h p hp).2⟩

/-- Every payment is to a TensorCore's cell, and the level of the `k`-th and later ones is at least
    1 (all), 2 (after the seven signals), 3 (after stage 1's copies), 4 (after stage 2's). -/
theorem pays_facts (c : Dev nD) : ∀ p ∈ pays c, p.1.1.2 = .tc ∧ 1 ≤ lv p.1 () := by
  intro p hp
  simp only [pays, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    (refine ⟨rfl, ?_⟩; first | (rw [lv_bar]) | (rw [lv_a1r]; decide) | (rw [lv_a2r]; decide) | (rw [lv_br]; decide))
theorem pays_facts7 (c : Dev nD) : ∀ p ∈ (pays c).drop 7, 2 ≤ lv p.1 () := by
  intro p hp
  simp only [pays, List.drop_succ_cons, List.drop_zero, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    first | (rw [lv_a1r]) | (rw [lv_a2r]; decide) | (rw [lv_br]; decide)
theorem pays_facts15 (c : Dev nD) : ∀ p ∈ (pays c).drop 15, 3 ≤ lv p.1 () := by
  intro p hp
  simp only [pays, List.drop_succ_cons, List.drop_zero, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    first | (rw [lv_a2r]) | (rw [lv_br]; decide)
theorem pays_facts39 (c : Dev nD) : ∀ p ∈ (pays c).drop 39, 4 ≤ lv p.1 () := by
  intro p hp
  simp only [pays, List.drop_succ_cons, List.drop_zero, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl <;> rw [lv_br]

theorem mem_drop_of_le {α : Type} {l : List α} {a b : ℕ} (h : a ≤ b) {p : α} (hp : p ∈ l.drop b) : p ∈ l.drop a := by
  obtain ⟨d, rfl⟩ := Nat.exists_eq_add_of_le h
  rw [← List.drop_drop] at hp
  exact List.mem_of_mem_drop hp

omit [FloatOps F] in
/-- A staging wait (level 0), whatever is still owed. -/
theorem mayWait_stage (c : Dev nD) (n : DmaSem sig) (hn : n.val < 3) (k : ℕ) :
    (levAts L lv : sProp 𝕄) ⊢ MayWait (c : Thread nD τ) (.dma n) () (Oafter c k) :=
  mayWait_owe c _ _ fun p hp => by
    have := pays_facts c p (List.mem_of_mem_drop hp)
    exact ⟨this.1, by rw [lv_stage c n hn]; exact this.2⟩
omit [FloatOps F] in
/-- The barrier wait (level 1), once the seven signals are sent: only arrivals are owed. -/
theorem mayWait_bar (c : Dev nD) (k : ℕ) (hk : 7 ≤ k) :
    (levAts L lv : sProp 𝕄) ⊢ MayWait (c : Thread nD τ) (.reg barS) () (Oafter c k) :=
  mayWait_owe c _ _ fun p hp =>
    ⟨(pays_facts c p (List.mem_of_mem_drop hp)).1, by rw [show lv ((c : Thread nD τ), .reg barS) () = 1 from lv_bar c]; exact pays_facts7 c p (mem_drop_of_le hk hp)⟩
omit [FloatOps F] in
/-- A stage-1 receive wait (level 2), once stage 1's copies are started. -/
theorem mayWait_a1r (c : Dev nD) (q : Fin 8) (k : ℕ) (hk : 15 ≤ k) :
    (levAts L lv : sProp 𝕄) ⊢ MayWait (c : Thread nD τ) (.dma (sem8 cc0_scratch10 q)) () (Oafter c k) :=
  mayWait_owe c _ _ fun p hp =>
    ⟨(pays_facts c p (List.mem_of_mem_drop hp)).1, by rw [show lv ((c : Thread nD τ), .dma (sem8 cc0_scratch10 q)) () = 2 from lv_a1r c q]; exact pays_facts15 c p (mem_drop_of_le hk hp)⟩
omit [FloatOps F] in
/-- A stage-2 receive wait (level 3), once stage 2's copies are started. -/
theorem mayWait_a2r (c : Dev nD) (i : Fin 32) (k : ℕ) (hk : 39 ≤ k) :
    (levAts L lv : sProp 𝕄) ⊢ MayWait (c : Thread nD τ) (.dma (sem32 cc0_scratch12 i)) () (Oafter c k) :=
  mayWait_owe c _ _ fun p hp =>
    ⟨(pays_facts c p (List.mem_of_mem_drop hp)).1, by rw [show lv ((c : Thread nD τ), .dma (sem32 cc0_scratch12 i)) () = 3 from lv_a2r c i]; exact pays_facts39 c p (mem_drop_of_le hk hp)⟩
omit [FloatOps F] in
/-- Any wait once nothing is owed: the stage-3 receive waits and the 56 send waits. -/
theorem mayWait_none (c : Dev nD) (s : SemLoc sig) : (levAts L lv : sProp 𝕄) ⊢ MayWait (c : Thread nD τ) s () 0 := by
  rw [MayWait_zero]; iintro -; iempintro
omit [FloatOps F] in
theorem mayWait_done (c : Dev nD) (s : SemLoc sig) (k : ℕ) (hk : 63 ≤ k) :
    (levAts L lv : sProp 𝕄) ⊢ MayWait (c : Thread nD τ) s () (Oafter c k) := by
  rw [Oafter_done c k hk]; exact mayWait_none c s

end Cert.Kernel.Proto

end
-- ==== Proof.Word.Proto0.lean ====
/-
  The protocol with the data payloads left open: the same cells, duties, amounts and barrier grants, every slot
  handed over at some contents.
-/
import proofs.«900893_g7700000000000894_dist_matmul_mk_i_outk_m1024_n1024_k512_v7x_i32_f32_1_alg».proof.Proof.Word.ProtoTables

noncomputable section

namespace Cert.Kernel.Proto

open Cert.Kernel Cert.Kernel.Gen
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### The grants as flat chains -/

omit [FloatOps F] in
theorem sep_assoc_eq (P Q R : sProp 𝕄) : (iprop((P ∗ Q) ∗ R) : sProp 𝕄) = iprop(P ∗ Q ∗ R) := by
  refine BI.Entails.antisymm (show _ ⊢ (_ : sProp 𝕄) from ?_) (show _ ⊢ (_ : sProp 𝕄) from ?_)
  · iintro ⟨⟨HP, HQ⟩, HR⟩
    isplitl [HP]
    · iexact HP
    isplitl [HQ]
    · iexact HQ
    · iexact HR
  · iintro ⟨HP, HQ, HR⟩
    isplitr [HR]
    · isplitl [HP]
      · iexact HP
      · iexact HQ
    · iexact HR
omit [FloatOps F] in
theorem grant2_flat (d : Dev nD) (v s : ℕ) : (grant2 d v s : sProp 𝕄)
    = iprop((∃ f, (slot2 commA2 (slot v 0 s)).view.loc (d : Thread nD τ) ↦[(slot2 commA2 (slot v 0 s)).view.set]{fullShare} f) ∗ reached ER (a2rCell d (slot v 0 s)) 0
      ∗ (∃ f, (slot2 commA2 (slot v 1 s)).view.loc (d : Thread nD τ) ↦[(slot2 commA2 (slot v 1 s)).view.set]{fullShare} f) ∗ reached ER (a2rCell d (slot v 1 s)) 0
      ∗ (∃ f, (slot2 commA2 (slot v 2 s)).view.loc (d : Thread nD τ) ↦[(slot2 commA2 (slot v 2 s)).view.set]{fullShare} f) ∗ reached ER (a2rCell d (slot v 2 s)) 0
      ∗ (∃ f, (slot2 commA2 (slot v 3 s)).view.loc (d : Thread nD τ) ↦[(slot2 commA2 (slot v 3 s)).view.set]{fullShare} f) ∗ reached ER (a2rCell d (slot v 3 s)) 0
      ∗ (∃ f, (slot2 commA2 (slot v 4 s)).view.loc (d : Thread nD τ) ↦[(slot2 commA2 (slot v 4 s)).view.set]{fullShare} f) ∗ reached ER (a2rCell d (slot v 4 s)) 0
      ∗ (∃ f, (slot2 commA2 (slot v 5 s)).view.loc (d : Thread nD τ) ↦[(slot2 commA2 (slot v 5 s)).view.set]{fullShare} f) ∗ reached ER (a2rCell d (slot v 5 s)) 0
      ∗ (∃ f, (slot2 commA2 (slot v 6 s)).view.loc (d : Thread nD τ) ↦[(slot2 commA2 (slot v 6 s)).view.set]{fullShare} f) ∗ reached ER (a2rCell d (slot v 6 s)) 0
      ∗ (∃ f, (slot2 commA2 (slot v 7 s)).view.loc (d : Thread nD τ) ↦[(slot2 commA2 (slot v 7 s)).view.set]{fullShare} f) ∗ reached ER (a2rCell d (slot v 7 s)) 0) := by
  rw [grant2_eq]; simp only [sep_assoc_eq]
omit [FloatOps F] in
theorem grant3_flat (d : Dev nD) (v s : ℕ) : (grant3 d v s : sProp 𝕄)
    = iprop((∃ f, (slot3 commB (slot v 0 s)).view.loc (d : Thread nD τ) ↦[(slot3 commB (slot v 0 s)).view.set]{fullShare} f) ∗ reached ER (brCell d (slot v 0 s)) 0
      ∗ (∃ f, (slot3 commB (slot v 1 s)).view.loc (d : Thread nD τ) ↦[(slot3 commB (slot v 1 s)).view.set]{fullShare} f) ∗ reached ER (brCell d (slot v 1 s)) 0
      ∗ (∃ f, (slot3 commB (slot v 2 s)).view.loc (d : Thread nD τ) ↦[(slot3 commB (slot v 2 s)).view.set]{fullShare} f) ∗ reached ER (brCell d (slot v 2 s)) 0
      ∗ (∃ f, (slot3 commB (slot v 3 s)).view.loc (d : Thread nD τ) ↦[(slot3 commB (slot v 3 s)).view.set]{fullShare} f) ∗ reached ER (brCell d (slot v 3 s)) 0
      ∗ (∃ f, (slot3 commB (slot v 4 s)).view.loc (d : Thread nD τ) ↦[(slot3 commB (slot v 4 s)).view.set]{fullShare} f) ∗ reached ER (brCell d (slot v 4 s)) 0
      ∗ (∃ f, (slot3 commB (slot v 5 s)).view.loc (d : Thread nD τ) ↦[(slot3 commB (slot v 5 s)).view.set]{fullShare} f) ∗ reached ER (brCell d (slot v 5 s)) 0
      ∗ (∃ f, (slot3 commB (slot v 6 s)).view.loc (d : Thread nD τ) ↦[(slot3 commB (slot v 6 s)).view.set]{fullShare} f) ∗ reached ER (brCell d (slot v 6 s)) 0
      ∗ (∃ f, (slot3 commB (slot v 7 s)).view.loc (d : Thread nD τ) ↦[(slot3 commB (slot v 7 s)).view.set]{fullShare} f) ∗ reached ER (brCell d (slot v 7 s)) 0) := by
  rw [grant3_eq]; simp only [sep_assoc_eq]

/-! ### What a device receives at its barrier wait, duty by duty -/

omit [FloatOps F] in
theorem barPay_own0 (c : Dev nD) : (barPay c 0 : sProp 𝕄) = grant1 (partner c) := rfl
omit [FloatOps F] in
theorem barPay_own1 (c : Dev nD) : (barPay c 1 : sProp 𝕄) = grant2 (rail c 3) (yc c) 0 := rfl
omit [FloatOps F] in
theorem barPay_own2 (c : Dev nD) : (barPay c 2 : sProp 𝕄) = grant2 (rail c 2) (yc c) 0 := rfl
omit [FloatOps F] in
theorem barPay_own3 (c : Dev nD) : (barPay c 3 : sProp 𝕄) = grant2 (rail c 1) (yc c) 0 := rfl
omit [FloatOps F] in
theorem barPay_own4 (c : Dev nD) : (barPay c 4 : sProp 𝕄) = grant3 (zpeer c 3) (zc c) 0 := rfl
omit [FloatOps F] in
theorem barPay_own5 (c : Dev nD) : (barPay c 5 : sProp 𝕄) = grant3 (zpeer c 2) (zc c) 0 := rfl
omit [FloatOps F] in
theorem barPay_own6 (c : Dev nD) : (barPay c 6 : sProp 𝕄) = grant3 (zpeer c 1) (zc c) 0 := rfl

/-! ## The schedule with open data payloads -/

/-- The payloads by kind: the barrier grants as before; a send or receive cell hands its slot over at some contents. -/
def payloadOf0 (c : Dev nD) : CK → D → sProp 𝕄
  | .bar, k => barPay c k
  | .a1s q, _ => iprop(∃ f, (slot1 sendA1 q).view.loc (c : Thread nD τ) ↦[(slot1 sendA1 q).view.set]{fullShare} f)
  | .a1r q, _ => iprop(∃ f, (slot1 commA1 q).view.loc (c : Thread nD τ) ↦[(slot1 commA1 q).view.set]{fullShare} f)
  | .a2s i, _ => iprop(∃ f, (slot2 sendA2 i).view.loc (c : Thread nD τ) ↦[(slot2 sendA2 i).view.set]{fullShare} f)
  | .a2r i, _ => iprop(∃ f, (slot2 commA2 i).view.loc (c : Thread nD τ) ↦[(slot2 commA2 i).view.set]{fullShare} f)
  | .bs i, _ => iprop(∃ f, (slot3 sendB i).view.loc (c : Thread nD τ) ↦[(slot3 sendB i).view.set]{fullShare} f)
  | .br i, _ => iprop(∃ f, (slot3 commB i).view.loc (c : Thread nD τ) ↦[(slot3 commB i).view.set]{fullShare} f)
  | .other, _ => iprop(emp)

/-- One round, round 0, on the TensorCores' cells. -/
def sched0 : Rounds.Schedule (GSem nD τ sig) D 𝕄 where
  duties g r := if r = 0 ∧ g.1.2 = .tc then dutiesOf g.1.1 (kindOf g.2) else ∅
  unitless _ := False
  amount g _ _ := amountOf (kindOf g.2)
  payload g _ d := payloadOf0 g.1.1 (kindOf g.2) d
  amount_pos g _ _ _ := amountOf_pos _

set_option maxHeartbeats 4000000 in
omit [FloatOps F] in
theorem payloadOf0_storable (c : Dev nD) (k : CK) (d : D) : BI.Storable (upEmb : UEmb _ 𝕄) (payloadOf0 (F := F) c k d) := by
  cases k with
  | bar => unfold payloadOf0 barPay grant1 grant2 grant3; (repeat' split) <;> infer_instance
  | a1s q => unfold payloadOf0; exact BI.Storable.exists _ _
  | a1r q => unfold payloadOf0; exact BI.Storable.exists _ _
  | a2s i => unfold payloadOf0; exact BI.Storable.exists _ _
  | a2r i => unfold payloadOf0; exact BI.Storable.exists _ _
  | bs i => unfold payloadOf0; exact BI.Storable.exists _ _
  | br i => unfold payloadOf0; exact BI.Storable.exists _ _
  | other => unfold payloadOf0; infer_instance

omit [FloatOps F] in
instance sched0_payload_storable (g : GSem nD τ sig) (r : ℕ) (d : D) :
    BI.Storable (upEmb : UEmb _ 𝕄) ((sched0 (F := F)).payload g r d) := payloadOf0_storable g.1.1 (kindOf g.2) d

section Tables0
variable (c : Dev nD)

omit [FloatOps F] in
theorem duties_tc0 (sm : SemLoc sig) : (sched0 (F := F)).duties ((c : Thread nD τ), sm) 0 = dutiesOf c (kindOf sm) := by dsimp only [sched0]; exact if_pos ⟨rfl, rfl⟩
omit [FloatOps F] in
theorem duties_later0 (g : GSem nD τ sig) : ∀ r, 1 ≤ r → (sched0 (F := F)).duties g r = ∅ :=
  fun r hr => by dsimp only [sched0]; exact if_neg fun h => by omega
omit [FloatOps F] in
theorem duties_of_ne0 (g : GSem nD τ sig) (h : g.1.2 ≠ .tc) (r : ℕ) : (sched0 (F := F)).duties g r = ∅ := by dsimp only [sched0]; exact if_neg fun h' => h h'.2
omit [FloatOps F] in
theorem amount_tc0 (sm : SemLoc sig) (r : ℕ) (d : D) : (sched0 (F := F)).amount ((c : Thread nD τ), sm) r d = amountOf (kindOf sm) := rfl
omit [FloatOps F] in
theorem payload_tc0 (sm : SemLoc sig) (r : ℕ) (d : D) : (sched0 (F := F)).payload ((c : Thread nD τ), sm) r d = payloadOf0 c (kindOf sm) d := rfl

/-! ### Duties -/

omit [FloatOps F] in
theorem duties_bar0 : (sched0 (F := F)).duties (barCell c) 0 = Finset.univ := by rw [duties_tc0, kind_bar]; rfl
omit [FloatOps F] in
theorem duties_a1s0 (q : Fin 8) : (sched0 (F := F)).duties (a1sCell c q) 0 = {0} := by rw [duties_tc0, kind_a1s]; rfl
omit [FloatOps F] in
theorem duties_a1r0 (q : Fin 8) : (sched0 (F := F)).duties (a1rCell c q) 0 = {0} := by rw [duties_tc0, kind_a1r]; rfl
omit [FloatOps F] in
theorem duties_a2s0 (q : Fin 8) (s : ℕ) (hs : s % 4 ≠ 0) : (sched0 (F := F)).duties (a2sCell c (slot (yc c) q s)) 0 = {0} := by
  rw [duties_tc0, kind_a2s]; exact if_neg fun h => by rw [slot_mod] at h; have := yc_lt c; omega
omit [FloatOps F] in
theorem duties_a2s_own0 (q : Fin 8) : (sched0 (F := F)).duties (a2sCell c (slot (yc c) q 0)) 0 = ∅ := by
  rw [duties_tc0, kind_a2s]; exact if_pos (by rw [slot_mod]; have := yc_lt c; omega)
omit [FloatOps F] in
theorem duties_a2r0 (q : Fin 8) (s : ℕ) (hs : s % 4 ≠ 0) : (sched0 (F := F)).duties (a2rCell c (slot (yc c) q s)) 0 = {0} := by
  rw [duties_tc0, kind_a2r]; exact if_neg fun h => by rw [slot_mod] at h; have := yc_lt c; omega
omit [FloatOps F] in
theorem duties_a2r_own0 (q : Fin 8) : (sched0 (F := F)).duties (a2rCell c (slot (yc c) q 0)) 0 = ∅ := by
  rw [duties_tc0, kind_a2r]; exact if_pos (by rw [slot_mod]; have := yc_lt c; omega)
omit [FloatOps F] in
theorem duties_bs0 (q : Fin 8) (s : ℕ) (hs : s % 4 ≠ 0) : (sched0 (F := F)).duties (bsCell c (slot (zc c) q s)) 0 = {0} := by
  rw [duties_tc0, kind_bs]; exact if_neg fun h => by rw [slot_mod] at h; have := zc_lt c; omega
omit [FloatOps F] in
theorem duties_bs_own0 (q : Fin 8) : (sched0 (F := F)).duties (bsCell c (slot (zc c) q 0)) 0 = ∅ := by
  rw [duties_tc0, kind_bs]; exact if_pos (by rw [slot_mod]; have := zc_lt c; omega)
omit [FloatOps F] in
theorem duties_br0 (q : Fin 8) (s : ℕ) (hs : s % 4 ≠ 0) : (sched0 (F := F)).duties (brCell c (slot (zc c) q s)) 0 = {0} := by
  rw [duties_tc0, kind_br]; exact if_neg fun h => by rw [slot_mod] at h; have := zc_lt c; omega
omit [FloatOps F] in
theorem duties_br_own0 (q : Fin 8) : (sched0 (F := F)).duties (brCell c (slot (zc c) q 0)) 0 = ∅ := by
  rw [duties_tc0, kind_br]; exact if_pos (by rw [slot_mod]; have := zc_lt c; omega)
omit [FloatOps F] in
theorem duties_a2r_peer0 (q : Fin 8) (s : ℕ) (hs : s % 4 ≠ 0) : (sched0 (F := F)).duties (a2rCell (rail c s) (slot (yc c) q 0)) 0 = {0} := by
  rw [duties_tc0, kind_a2r]; exact if_neg fun h => by rw [slot_mod, MeshFacts.yc_rail] at h; have := yc_lt c; omega
omit [FloatOps F] in
theorem duties_br_peer0 (q : Fin 8) (s : ℕ) (hs : s % 4 ≠ 0) : (sched0 (F := F)).duties (brCell (zpeer c s) (slot (zc c) q 0)) 0 = {0} := by
  rw [duties_tc0, kind_br]; exact if_neg fun h => by rw [slot_mod, MeshFacts.zc_zpeer] at h; have := zc_lt c; omega

/-! ### Amounts and the units a round expects -/

omit [FloatOps F] in
theorem amount_bar0 (d : D) : (sched0 (F := F)).amount (barCell c) 0 d = 1 := by rw [amount_tc0, kind_bar]; rfl
omit [FloatOps F] in
theorem amount_a1s0 (q : Fin 8) (d : D) : (sched0 (F := F)).amount (a1sCell c q) 0 d = N1 := by rw [amount_tc0, kind_a1s]; rfl
omit [FloatOps F] in
theorem amount_a1r0 (q : Fin 8) (d : D) : (sched0 (F := F)).amount (a1rCell c q) 0 d = N1 := by rw [amount_tc0, kind_a1r]; rfl
omit [FloatOps F] in
theorem amount_a2s0 (i : Fin 32) (d : D) : (sched0 (F := F)).amount (a2sCell c i) 0 d = N2 := by rw [amount_tc0, kind_a2s]; rfl
omit [FloatOps F] in
theorem amount_a2r0 (i : Fin 32) (d : D) : (sched0 (F := F)).amount (a2rCell c i) 0 d = N2 := by rw [amount_tc0, kind_a2r]; rfl
omit [FloatOps F] in
theorem amount_bs0 (i : Fin 32) (d : D) : (sched0 (F := F)).amount (bsCell c i) 0 d = N3 := by rw [amount_tc0, kind_bs]; rfl
omit [FloatOps F] in
theorem amount_br0 (i : Fin 32) (d : D) : (sched0 (F := F)).amount (brCell c i) 0 d = N3 := by rw [amount_tc0, kind_br]; rfl
omit [FloatOps F] in
theorem expect_bar0 : (sched0 (F := F)).expect (barCell c) 0 = 7 := by
  unfold Schedule.expect Schedule.amountOf
  rw [duties_bar0, Finset.sum_congr rfl fun d _ => amount_bar0 (F := F) c d, Finset.sum_const, Finset.card_univ, Fintype.card_fin, smul_eq_mul]
omit [FloatOps F] in
theorem expect_a1s0 (q : Fin 8) : (sched0 (F := F)).expect (a1sCell c q) 0 = N1 := by
  unfold Schedule.expect Schedule.amountOf; rw [duties_a1s0, Finset.sum_singleton, amount_a1s0]
omit [FloatOps F] in
theorem expect_a1r0 (q : Fin 8) : (sched0 (F := F)).expect (a1rCell c q) 0 = N1 := by
  unfold Schedule.expect Schedule.amountOf; rw [duties_a1r0, Finset.sum_singleton, amount_a1r0]
omit [FloatOps F] in
theorem expect_a2s0 (q : Fin 8) (s : ℕ) (hs : s % 4 ≠ 0) : (sched0 (F := F)).expect (a2sCell c (slot (yc c) q s)) 0 = N2 := by
  unfold Schedule.expect Schedule.amountOf; rw [duties_a2s0 (F := F) c q s hs, Finset.sum_singleton, amount_a2s0]
omit [FloatOps F] in
theorem expect_a2r0 (q : Fin 8) (s : ℕ) (hs : s % 4 ≠ 0) : (sched0 (F := F)).expect (a2rCell c (slot (yc c) q s)) 0 = N2 := by
  unfold Schedule.expect Schedule.amountOf; rw [duties_a2r0 (F := F) c q s hs, Finset.sum_singleton, amount_a2r0]
omit [FloatOps F] in
theorem expect_bs0 (q : Fin 8) (s : ℕ) (hs : s % 4 ≠ 0) : (sched0 (F := F)).expect (bsCell c (slot (zc c) q s)) 0 = N3 := by
  unfold Schedule.expect Schedule.amountOf; rw [duties_bs0 (F := F) c q s hs, Finset.sum_singleton, amount_bs0]
omit [FloatOps F] in
theorem expect_br0 (q : Fin 8) (s : ℕ) (hs : s % 4 ≠ 0) : (sched0 (F := F)).expect (brCell c (slot (zc c) q s)) 0 = N3 := by
  unfold Schedule.expect Schedule.amountOf; rw [duties_br0 (F := F) c q s hs, Finset.sum_singleton, amount_br0]

/-! ### Payloads -/

omit [FloatOps F] in
theorem payload_bar0 (k : D) : (sched0 (F := F)).payload (barCell c) 0 k = barPay c k := by rw [payload_tc0, kind_bar]; rfl
omit [FloatOps F] in
theorem payload_a1s0 (q : Fin 8) (d : D) : (sched0 (F := F)).payload (a1sCell c q) 0 d = iprop(∃ f, (slot1 sendA1 q).view.loc (c : Thread nD τ) ↦[(slot1 sendA1 q).view.set]{fullShare} f) := by rw [payload_tc0, kind_a1s]; rfl
omit [FloatOps F] in
theorem payload_a1r0 (q : Fin 8) (d : D) : (sched0 (F := F)).payload (a1rCell c q) 0 d = iprop(∃ f, (slot1 commA1 q).view.loc (c : Thread nD τ) ↦[(slot1 commA1 q).view.set]{fullShare} f) := by rw [payload_tc0, kind_a1r]; rfl
omit [FloatOps F] in
theorem payload_a1r_peer0 (q : Fin 8) (d : D) : (sched0 (F := F)).payload (a1rCell (partner c) q) 0 d = iprop(∃ f, (slot1 commA1 q).view.loc (partner c : Thread nD τ) ↦[(slot1 commA1 q).view.set]{fullShare} f) := by rw [payload_tc0, kind_a1r]; rfl
omit [FloatOps F] in
theorem payload_a2s0 (i : Fin 32) (d : D) : (sched0 (F := F)).payload (a2sCell c i) 0 d = iprop(∃ f, (slot2 sendA2 i).view.loc (c : Thread nD τ) ↦[(slot2 sendA2 i).view.set]{fullShare} f) := by rw [payload_tc0, kind_a2s]; rfl
omit [FloatOps F] in
theorem payload_a2r_at0 (i : Fin 32) (d : D) : (sched0 (F := F)).payload (a2rCell c i) 0 d = iprop(∃ f, (slot2 commA2 i).view.loc (c : Thread nD τ) ↦[(slot2 commA2 i).view.set]{fullShare} f) := by rw [payload_tc0, kind_a2r]; rfl
omit [FloatOps F] in
theorem payload_a2r0 (q : Fin 8) (t : ℕ) (d : D) : (sched0 (F := F)).payload (a2rCell c (slot (yc c) q t)) 0 d = iprop(∃ f, (slot2 commA2 (slot (yc c) q t)).view.loc (c : Thread nD τ) ↦[(slot2 commA2 (slot (yc c) q t)).view.set]{fullShare} f) := by rw [payload_tc0, kind_a2r]; rfl
omit [FloatOps F] in
theorem payload_a2r_peer0 (q : Fin 8) (s : ℕ) (d : D) : (sched0 (F := F)).payload (a2rCell (rail c s) (slot (yc c) q 0)) 0 d = iprop(∃ f, (slot2 commA2 (slot (yc c) q 0)).view.loc (rail c s : Thread nD τ) ↦[(slot2 commA2 (slot (yc c) q 0)).view.set]{fullShare} f) := by rw [payload_tc0, kind_a2r]; rfl
omit [FloatOps F] in
theorem payload_bs0 (i : Fin 32) (d : D) : (sched0 (F := F)).payload (bsCell c i) 0 d = iprop(∃ f, (slot3 sendB i).view.loc (c : Thread nD τ) ↦[(slot3 sendB i).view.set]{fullShare} f) := by rw [payload_tc0, kind_bs]; rfl
omit [FloatOps F] in
theorem payload_br_at0 (i : Fin 32) (d : D) : (sched0 (F := F)).payload (brCell c i) 0 d = iprop(∃ f, (slot3 commB i).view.loc (c : Thread nD τ) ↦[(slot3 commB i).view.set]{fullShare} f) := by rw [payload_tc0, kind_br]; rfl
omit [FloatOps F] in
theorem payload_br0 (q : Fin 8) (t : ℕ) (d : D) : (sched0 (F := F)).payload (brCell c (slot (zc c) q t)) 0 d = iprop(∃ f, (slot3 commB (slot (zc c) q t)).view.loc (c : Thread nD τ) ↦[(slot3 commB (slot (zc c) q t)).view.set]{fullShare} f) := by rw [payload_tc0, kind_br]; rfl
omit [FloatOps F] in
theorem payload_br_peer0 (q : Fin 8) (s : ℕ) (d : D) : (sched0 (F := F)).payload (brCell (zpeer c s) (slot (zc c) q 0)) 0 d = iprop(∃ f, (slot3 commB (slot (zc c) q 0)).view.loc (zpeer c s : Thread nD τ) ↦[(slot3 commB (slot (zc c) q 0)).view.set]{fullShare} f) := by rw [payload_tc0, kind_br]; rfl

omit [FloatOps F] in
theorem payload_bar_partner0 : (sched0 (F := F)).payload (barCell (partner c)) 0 0 = grant1 c := by
  rw [payload_bar0, barPay_partner]
omit [FloatOps F] in
theorem payload_bar_rail1_0 : (sched0 (F := F)).payload (barCell (rail c 1)) 0 1 = grant2 c (yc c) 1 := by
  rw [payload_bar0]; exact barPay_rail c 1 (by decide) (by decide)
omit [FloatOps F] in
theorem payload_bar_zpeer1_0 : (sched0 (F := F)).payload (barCell (zpeer c 1)) 0 4 = grant3 c (zc c) 1 := by
  rw [payload_bar0]; exact barPay_zpeer c 1 (by decide) (by decide)
omit [FloatOps F] in
theorem payload_bar_rail2_0 : (sched0 (F := F)).payload (barCell (rail c 2)) 0 2 = grant2 c (yc c) 2 := by
  rw [payload_bar0]; exact barPay_rail c 2 (by decide) (by decide)
omit [FloatOps F] in
theorem payload_bar_zpeer2_0 : (sched0 (F := F)).payload (barCell (zpeer c 2)) 0 5 = grant3 c (zc c) 2 := by
  rw [payload_bar0]; exact barPay_zpeer c 2 (by decide) (by decide)
omit [FloatOps F] in
theorem payload_bar_rail3_0 : (sched0 (F := F)).payload (barCell (rail c 3)) 0 3 = grant2 c (yc c) 3 := by
  rw [payload_bar0]; exact barPay_rail c 3 (by decide) (by decide)
omit [FloatOps F] in
theorem payload_bar_zpeer3_0 : (sched0 (F := F)).payload (barCell (zpeer c 3)) 0 6 = grant3 c (zc c) 3 := by
  rw [payload_bar0]; exact barPay_zpeer c 3 (by decide) (by decide)

omit [FloatOps F] in
/-- The rest of the barrier cell's round, no duty taken: the seven grants. -/
theorem rest_bar0 : bigSep ((sched0 (F := F)).duties (barCell c) 0 \ ∅) (fun d => (sched0 (F := F)).payload (barCell c) 0 d)
    = iprop(barPay c 0 ∗ barPay c 1 ∗ barPay c 2 ∗ barPay c 3 ∗ barPay c 4 ∗ barPay c 5 ∗ barPay c 6) := by
  rw [Finset.sdiff_empty, duties_bar0, bigSep_univ_eq_bigSepL [0, 1, 2, 3, 4, 5, 6] (by decide) (by decide)]
  simp only [bigSepL_cons_cons, bigSepL_singleton, payload_bar0]
  rfl
omit [FloatOps F] in
/-- The rest of a one-duty round is the duty's payload. -/
theorem rest_one0 (g : GSem nD τ sig) (h : (sched0 (F := F)).duties g 0 = {0}) :
    bigSep ((sched0 (F := F)).duties g 0 \ ∅) (fun d => (sched0 (F := F)).payload g 0 d) = (sched0 (F := F)).payload g 0 0 := by
  rw [Finset.sdiff_empty, h, bigSep_singleton]

end Tables0

omit [FloatOps F] in
/-- What the barrier wait hands back: the seven peers' grants. -/
theorem bar_payloads0 (c : Dev nD) : (bigSep Finset.univ fun d : D => (sched0 (F := F)).payload (barCell c) 0 d)
    = iprop(grant1 (partner c) ∗ grant2 (rail c 3) (yc c) 0 ∗ grant2 (rail c 2) (yc c) 0 ∗ grant2 (rail c 1) (yc c) 0
        ∗ grant3 (zpeer c 3) (zc c) 0 ∗ grant3 (zpeer c 2) (zc c) 0 ∗ grant3 (zpeer c 1) (zc c) 0) := by
  rw [bigSep_univ_eq_bigSepL [(0 : D), 1, 2, 3, 4, 5, 6] (by decide) (by decide)]
  simp only [bigSepL_cons_cons, bigSepL_singleton, payload_bar0]
  rfl

end Cert.Kernel.Proto

end
-- ==== Proof.Word.Ghost.lean ====
/-
  What one device holds of the protocol's ghost state when its kernel body starts, for any schedule over
  the cells: the invariants of its own 145 cells and of the 63 cells of other devices it pays into, its
  position at round 0 of each own cell, the tokens of the duties it pays (seven barrier units, one arrival
  per copy it sends, one departure per copy), that round 0 of each paid cell is reached, and the credit it
  was dealt for what others owe its cells (seven barrier units, one slot credit per copy it receives).
  Device c's stage-2 slots are numbered from its row y, its stage-3 slots from its plane z: slot (v, q, s)
  is 4·q + (v + s) % 4; s = 0 is the device's own slot of chunk q, s = 1, 2, 3 the slot it sends at step s
  and also the slot that the peer s ahead of it writes on this device.
-/
import proofs.«900893_g7700000000000894_dist_matmul_mk_i_outk_m1024_n1024_k512_v7x_i32_f32_1_alg».proof.Proof.Word.Proto
import proofs.«900893_g7700000000000894_dist_matmul_mk_i_outk_m1024_n1024_k512_v7x_i32_f32_1_alg».proof.Proof.SlotIdx

noncomputable section

namespace Cert.Kernel.Ghost

open Cert.Kernel Cert.Kernel.Gen Cert.Kernel.Proto
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the protocol's small index ranges, written out -/

/-- Steps 1, 2, 3. -/
def three (Φ : ℕ → sProp 𝕄) : sProp 𝕄 := iprop(Φ 1 ∗ Φ 2 ∗ Φ 3)
/-- Advances 0, 1, 2, 3. -/
def four (Φ : ℕ → sProp 𝕄) : sProp 𝕄 := iprop(Φ 0 ∗ Φ 1 ∗ Φ 2 ∗ Φ 3)
/-- Column chunks 0 … 7. -/
def eight (Φ : Fin 8 → sProp 𝕄) : sProp 𝕄 := iprop(Φ 0 ∗ Φ 1 ∗ Φ 2 ∗ Φ 3 ∗ Φ 4 ∗ Φ 5 ∗ Φ 6 ∗ Φ 7)

instance three_persistent (Φ : ℕ → sProp 𝕄) [∀ n, BI.Persistent (Φ n)] : BI.Persistent (three Φ) := by unfold three; infer_instance
instance four_persistent (Φ : ℕ → sProp 𝕄) [∀ n, BI.Persistent (Φ n)] : BI.Persistent (four Φ) := by unfold four; infer_instance
instance eight_persistent (Φ : Fin 8 → sProp 𝕄) [∀ n, BI.Persistent (Φ n)] : BI.Persistent (eight Φ) := by unfold eight; infer_instance

/-- The invariant of cell g at the name the launch allocated it at. -/
abbrev cinv (Rd : Schedule (GSem nD τ sig) D (MT nD τ sig Unit (Elt F) ℕ UU ℕ)) (K : GSem nD τ sig → ℕ) (g : GSem nD τ sig) : sProp 𝕄 := cellInv ER Rd (K g) g

/-! ## The persistent part -/

/-- The invariants of the device's own cells. -/
def ownInvs (Rd : Schedule (GSem nD τ sig) D (MT nD τ sig Unit (Elt F) ℕ UU ℕ)) (K : GSem nD τ sig → ℕ) (c : Dev nD) : sProp 𝕄 :=
  iprop(cinv Rd K (barCell c)
    ∗ eight (fun q => iprop(cinv Rd K (a1sCell c q) ∗ cinv Rd K (a1rCell c q)))
    ∗ eight (fun q => four fun s => iprop(cinv Rd K (a2sCell c (slot (yc c) q s)) ∗ cinv Rd K (a2rCell c (slot (yc c) q s))))
    ∗ eight (fun q => four fun s => iprop(cinv Rd K (bsCell c (slot (zc c) q s)) ∗ cinv Rd K (brCell c (slot (zc c) q s)))))

/-- The invariants of the cells of other devices that this device pays into, and that round 0 of each is
    reached: its seven peers' barrier cells, its partner's eight stage-1 receive cells, and on each rail
    peer and each plane peer the eight receive cells of this device's own row, respectively plane. -/
def paidInvs (Rd : Schedule (GSem nD τ sig) D (MT nD τ sig Unit (Elt F) ℕ UU ℕ)) (K : GSem nD τ sig → ℕ) (c : Dev nD) : sProp 𝕄 :=
  iprop((cinv Rd K (barCell (partner c)) ∗ reached ER (barCell (partner c)) 0)
    ∗ three (fun s => iprop(cinv Rd K (barCell (rail c s)) ∗ reached ER (barCell (rail c s)) 0))
    ∗ three (fun s => iprop(cinv Rd K (barCell (zpeer c s)) ∗ reached ER (barCell (zpeer c s)) 0))
    ∗ eight (fun q => iprop(cinv Rd K (a1rCell (partner c) q) ∗ reached ER (a1rCell (partner c) q) 0))
    ∗ eight (fun q => three fun s => iprop(cinv Rd K (a2rCell (rail c s) (slot (yc c) q 0)) ∗ reached ER (a2rCell (rail c s) (slot (yc c) q 0)) 0))
    ∗ eight (fun q => three fun s => iprop(cinv Rd K (brCell (zpeer c s) (slot (zc c) q 0)) ∗ reached ER (brCell (zpeer c s) (slot (zc c) q 0)) 0)))

/-- Round 0 of the device's own send cells is reached (a departure is paid at the round its token names). -/
def sendReached (c : Dev nD) : sProp 𝕄 :=
  iprop(eight (fun q => reached ER (a1sCell c q) 0)
    ∗ eight (fun q => three fun s => reached ER (a2sCell c (slot (yc c) q s)) 0)
    ∗ eight (fun q => three fun s => reached ER (bsCell c (slot (zc c) q s)) 0))

/-- Round 0 of the device's own receive cells is reached: what it tells each peer, with the slots it lends
    it, when it signals that peer's barrier. -/
def recvReached (c : Dev nD) : sProp 𝕄 :=
  iprop(eight (fun q => reached ER (a1rCell c q) 0)
    ∗ eight (fun q => three fun s => reached ER (a2rCell c (slot (yc c) q s)) 0)
    ∗ eight (fun q => three fun s => reached ER (brCell c (slot (zc c) q s)) 0))

/-- Everything persistent. -/
def records (Rd : Schedule (GSem nD τ sig) D (MT nD τ sig Unit (Elt F) ℕ UU ℕ)) (K : GSem nD τ sig → ℕ) (c : Dev nD) : sProp 𝕄 := iprop(ownInvs Rd K c ∗ paidInvs Rd K c ∗ sendReached c ∗ recvReached c)

instance records_persistent (Rd : Schedule (GSem nD τ sig) D (MT nD τ sig Unit (Elt F) ℕ UU ℕ)) (K : GSem nD τ sig → ℕ) (c : Dev nD) : BI.Persistent (records Rd K c) := by
  unfold records ownInvs paidInvs sendReached recvReached; infer_instance

/-! ## The linear part -/

/-- The device's position at round 0, nothing taken, of each of its 145 cells. -/
def positions (c : Dev nD) : sProp 𝕄 :=
  iprop(atPos ER (barCell c) 0 ∅ 0
    ∗ eight (fun q => iprop(atPos ER (a1sCell c q) 0 ∅ 0 ∗ atPos ER (a1rCell c q) 0 ∅ 0))
    ∗ eight (fun q => four fun s => iprop(atPos ER (a2sCell c (slot (yc c) q s)) 0 ∅ 0 ∗ atPos ER (a2rCell c (slot (yc c) q s)) 0 ∅ 0))
    ∗ eight (fun q => four fun s => iprop(atPos ER (bsCell c (slot (zc c) q s)) 0 ∅ 0 ∗ atPos ER (brCell c (slot (zc c) q s)) 0 ∅ 0)))

/-- The tokens of the duties the device pays: duty k of its k-th peer's barrier cell; for each copy it
    sends, the departure on its own send cell and the arrival on the receiver's cell. -/
def payToks (c : Dev nD) : sProp 𝕄 :=
  iprop(dutyTok ER (barCell (partner c)) 0 (0 : D)
    ∗ dutyTok ER (barCell (rail c 1)) 0 (1 : D) ∗ dutyTok ER (barCell (rail c 2)) 0 (2 : D) ∗ dutyTok ER (barCell (rail c 3)) 0 (3 : D)
    ∗ dutyTok ER (barCell (zpeer c 1)) 0 (4 : D) ∗ dutyTok ER (barCell (zpeer c 2)) 0 (5 : D) ∗ dutyTok ER (barCell (zpeer c 3)) 0 (6 : D)
    ∗ eight (fun q => iprop(dutyTok ER (a1sCell c q) 0 (0 : D) ∗ dutyTok ER (a1rCell (partner c) q) 0 (0 : D)))
    ∗ eight (fun q => three fun s => iprop(dutyTok ER (a2sCell c (slot (yc c) q s)) 0 (0 : D) ∗ dutyTok ER (a2rCell (rail c s) (slot (yc c) q 0)) 0 (0 : D)))
    ∗ eight (fun q => three fun s => iprop(dutyTok ER (bsCell c (slot (zc c) q s)) 0 (0 : D) ∗ dutyTok ER (brCell (zpeer c s) (slot (zc c) q 0)) 0 (0 : D))))

/-- The credit the device was dealt at launch: what the other devices owe its cells. -/
def credits (c : Dev nD) : sProp 𝕄 :=
  iprop(cred (tallyAt (barCell c) () 7)
    ∗ eight (fun q => cred (tallyAt (a1rCell c q) () N1))
    ∗ eight (fun q => three fun s => cred (tallyAt (a2rCell c (slot (yc c) q s)) () N2))
    ∗ eight (fun q => three fun s => cred (tallyAt (brCell c (slot (zc c) q s)) () N3)))

/-- The ghost state device c's body starts from. -/
def ghost (Rd : Schedule (GSem nD τ sig) D (MT nD τ sig Unit (Elt F) ℕ UU ℕ)) (K : GSem nD τ sig → ℕ) (c : Dev nD) : sProp 𝕄 := iprop(records Rd K c ∗ positions c ∗ payToks c ∗ credits c)

end Cert.Kernel.Ghost

end
-- ==== Proof.Word.LaunchSems.lean ====
/-
  The semaphores of the launch: the kernel's own scoped semaphores are the 144 DMA semaphores of its six
  scratch semaphore arrays (numbers 3 to 146 of the pool; 0, 1 and 2 are the staging semaphores of the
  three windows), and the one semaphore that is not scoped is the runtime's barrier semaphore of
  collective id 0.
-/
import proofs.«900893_g7700000000000894_dist_matmul_mk_i_outk_m1024_n1024_k512_v7x_i32_f32_1_alg».proof.Proof.Gen.Kernel
import proofs.«900893_g7700000000000894_dist_matmul_mk_i_outk_m1024_n1024_k512_v7x_i32_f32_1_alg».proof.Proof.Gen.Kernel.Launch
import Idealize.ShloMosaic.Lib.Pipeline.Launch
import Idealize.ShloMosaic.Lib.Pipeline.Kit

set_option Elab.async false

noncomputable section

namespace Cert.Kernel.LaunchSems

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The kernel's own scoped semaphores, as the launch indexes them: DMA semaphore 3 + i of the pool. -/
abbrev osem : Fin 144 → SemLoc sig :=
  fun i => .dma ⟨3 + i.val, by have := i.isLt; show 3 + i.val < 147; omega⟩

/-- The runtime's barrier semaphore of collective id 0, as the body names it. -/
abbrev barS : Sem sig := (SemArray.scalar (sig.barrier 0 rfl) : Sems sig S_).sem

/-- The own semaphores are scoped, pairwise distinct, and none is a window's staging semaphore. -/
theorem ownSemFacts : Pipeline.OwnSemFacts cfg0.spec osem := by decide +kernel

/-- The own semaphores at zero, as one conjunction over their 144 numbers. -/
theorem ownSems0_eq {Ix : Type} [DecidableEq Ix] {Val : EltTy → Type} {Name : Type} [DecidableEq Name] {U : Type} [URA U] {Lvl : Type}
    (c : Dev nD) :
    (Pipeline.ownSems0 (Ix := Ix) (Name := Name) (U := U) (Lvl := Lvl) (Val := Val) (τ := τ) osem c : sProp (MT nD τ sig Ix Val Name U Lvl))
      = bigSep Finset.univ fun i : Fin 144 => semVal ((c : Thread nD τ), osem i) 0 := rfl

/-- The barrier semaphore is the one semaphore of the core that is not scoped. -/
theorem unscopedSems0_eq {Ix : Type} [DecidableEq Ix] {Val : EltTy → Type} {Name : Type} [DecidableEq Name] {U : Type} [URA U] {Lvl : Type}
    (c : Dev nD) :
    (unscopedSems0 (Ix := Ix) (Name := Name) (U := U) (Lvl := Lvl) (Val := Val) (τ := τ) c : sProp (MT nD τ sig Ix Val Name U Lvl))
      = semVal ((c : Thread nD τ), .reg barS) 0 := by
  unfold unscopedSems0
  rw [bigSep_eq_bigSepL_of_eq [SemLoc.reg barS] (by decide +kernel) (by decide)]
  rfl

end Cert.Kernel.LaunchSems

end
-- ==== Proof.Word.LaunchData.lean ====
/-
  The proof data of the one pipeline: what each input window's staging buffer holds after the kernel body (the
  result window's is left unnamed: the claims proved through these data do not read it), the body's invariant
  before and after the one grid point, and what a device owes at each.
-/
import proofs.«900893_g7700000000000894_dist_matmul_mk_i_outk_m1024_n1024_k512_v7x_i32_f32_1_alg».proof.Proof.Word.Ghost
import proofs.«900893_g7700000000000894_dist_matmul_mk_i_outk_m1024_n1024_k512_v7x_i32_f32_1_alg».proof.Proof.Word.ProtoTables
import proofs.«900893_g7700000000000894_dist_matmul_mk_i_outk_m1024_n1024_k512_v7x_i32_f32_1_alg».proof.Proof.Word.LaunchSems
import proofs.«900893_g7700000000000894_dist_matmul_mk_i_outk_m1024_n1024_k512_v7x_i32_f32_1_alg».proof.Proof.Word.MeshFacts
import Idealize.ShloMosaic.Lib.Pipeline.Launch
import Idealize.ShloMosaic.Lib.Pipeline.Kit
import Idealize.ShloMosaic.Lib.Tactic

noncomputable section

namespace Cert.Kernel.LaunchData

open Cert.Kernel Cert.Kernel.Gen Cert.Kernel.Proto Cert.Kernel.Ghost
open Cert.Kernel.LaunchSems (osem ownSemFacts ownSems0_eq unscopedSems0_eq)
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The pipeline's proof data -/

variable (Rd : Rounds.Schedule (GSem nD τ sig) D (MT nD τ sig Unit (Elt F) ℕ UU ℕ))
variable (m : (ℓ : Loc nD τ sig) → Buf (Elt F) ℓ)

/-- Device `c`'s block of the first argument, as the pipeline stages it. -/
def astg (c : Dev nD) : (cc0_stg0_0 : Ref sig .tc).ty.Contents (Elt F) :=
  (win0_0.blk (0 : Fin 1)).view.read (Elt F) (m ((c : Thread nD τ).loc main_arg0))
/-- Device `c`'s block of the second argument, as the pipeline stages it. -/
def bstg (c : Dev nD) : (cc0_stg1_0 : Ref sig .tc).ty.Contents (Elt F) :=
  (win0_1.blk (0 : Fin 1)).view.read (Elt F) (m ((c : Thread nD τ).loc main_arg1))

/-- The windows whose contents after the body are not named: the result window. -/
def fgt2 : Fin cfg0.W → Bool := fun w => match w with
  | ⟨0, _⟩ => false
  | ⟨1, _⟩ => false
  | ⟨2, _⟩ => true

/-- Before the one grid point: the protocol's ghost state at some names, the level facts, and the nine scratch
    buffers at some contents. -/
def Φ₀ (c : Dev nD) : sProp 𝕄 :=
  iprop((∃ K, ghost Rd K c) ∗ levAts L lv ∗ Pipeline.scopedRest cfg0.spec c)
/-- After it: the 144 own semaphores at zero, the nine scratch buffers at some contents. -/
def Φ₁ (c : Dev nD) : sProp 𝕄 :=
  iprop(Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => astg m c
    | ⟨1, _⟩ => bstg m c
    | ⟨2, _⟩ => fun _ => Classical.arbitrary _
  Φ t := match t with
    | ⟨0, _⟩ => Φ₀ Rd c
    | ⟨_ + 1, _⟩ => Φ₁ c
  q _ := fullShare
  owed t := match t with
    | ⟨0, _⟩ => O₀ c
    | ⟨_ + 1, _⟩ => 0

end Cert.Kernel.LaunchData

end
-- ==== Proof.Word.SlotGeom.lean ====
/-
  The exchange buffers cut into their slots. A stage-one buffer is its eight slots, one per leading
  coordinate; a stage-two or stage-three buffer is its 32 slots, numbered 4·q + (v + s) % 4 over the eight
  chunks q and the four advances s from any base v. The slots' element sets are pairwise disjoint and cover
  the buffer, because the leading coordinate of an index names exactly one slot; so holding the buffer is
  holding every slot, over the same contents.
-/
import proofs.«900893_g7700000000000894_dist_matmul_mk_i_outk_m1024_n1024_k512_v7x_i32_f32_1_alg».proof.Proof.Word.Proto
import proofs.«900893_g7700000000000894_dist_matmul_mk_i_outk_m1024_n1024_k512_v7x_i32_f32_1_alg».proof.Proof.Word.Ghost
import proofs.«900893_g7700000000000894_dist_matmul_mk_i_outk_m1024_n1024_k512_v7x_i32_f32_1_alg».proof.Proof.SlotIdx
import Idealize.ShloMosaic.Rules.PointsTo
import Idealize.ShloMosaic.Lib.Exec.Geometry
import Idealize.ShloMosaic.Lib.Pipeline.Kit

noncomputable section

namespace Cert.Kernel.SlotGeom

open Cert.Kernel Cert.Kernel.Gen Cert.Kernel.Proto Cert.Kernel.Ghost
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Stage one: eight slots by the leading coordinate -/

/-- The rectangle of slot q: leading coordinate q, everything on the other axes. -/
abbrev rect1 (q : Fin 8) : Rect S8x4x4x32x128 :=
  Rect.unit (s := S8x4x4x32x128) ![q.val, 0, 0, 0, 0] S1x4x4x32x128.size (inbA1 q)

/-- An index lies in slot q's rectangle exactly when its leading coordinate is q. -/
theorem mem_rect1 (q : Fin 8) (i : S8x4x4x32x128.Idx) : i ∈ (rect1 q).set ↔ (i 0).val = q.val := by
  rw [Rect.mem_set_unit]
  constructor
  · intro h
    have h0 := h 0
    simp at h0
    omega
  · intro h a
    have ha := (i a).isLt
    fin_cases a <;> simp at ha ⊢ <;> omega

theorem rect1_disjoint (q q' : Fin 8) (h : q ≠ q') : Disjoint (rect1 q).set (rect1 q').set := by
  rw [Finset.disjoint_left]
  intro i hi hi'
  rw [mem_rect1] at hi hi'
  exact h (Fin.ext (hi.symm.trans hi'))

theorem rect1_cover : (Finset.univ : Finset S8x4x4x32x128.Idx) = Finset.univ.biUnion fun q : Fin 8 => (rect1 q).set := by
  ext i
  simp only [Finset.mem_univ, Finset.mem_biUnion, true_and, true_iff]
  exact ⟨⟨(i 0).val, (i 0).isLt⟩, (mem_rect1 _ i).mpr rfl⟩

/-- A slot's elements are its rectangle's, seen through the buffer's view. -/
theorem slot1_set (M : Memref sig .tc .vmem S8x4x4x32x128 .bf16) (q : Fin 8) :
    (slot1 M q).view.set = (rect1 q).set.map M.view.emb := by
  exact (Memref.set_view_squeeze _ _).trans (View.set_slice _ _)

theorem eight_eq (Φ : Fin 8 → sProp 𝕄) : eight Φ = bigSep Finset.univ Φ :=
  (bigSep_univ_eq_bigSepL [0, 1, 2, 3, 4, 5, 6, 7] (by decide) (by decide) Φ).symm

theorem slot1_disjoint (M : Memref sig .tc .vmem S8x4x4x32x128 .bf16) (q q' : Fin 8) (h : q ≠ q') :
    Disjoint (slot1 M q).view.set (slot1 M q').view.set := by
  rw [slot1_set, slot1_set]
  exact (Finset.disjoint_map _).mpr (rect1_disjoint q q' h)

/-- The elements under the buffer's view are those of its slots. -/
theorem set1_cover (M : Memref sig .tc .vmem S8x4x4x32x128 .bf16) (c : Dev nD) :
    (M.view.set : Finset (Idx (M.view.loc (c : Thread nD τ))))
      = Finset.univ.biUnion fun q : Fin 8 => ((slot1 M q).view.set : Finset (Idx (M.view.loc (c : Thread nD τ)))) := by
  ext j
  constructor
  · intro hj
    obtain ⟨x, -, rfl⟩ := Finset.mem_map.mp hj
    refine Finset.mem_biUnion.mpr ⟨⟨(x 0).val, (x 0).isLt⟩, Finset.mem_univ _, ?_⟩
    rw [slot1_set]
    exact Finset.mem_map_of_mem _ ((mem_rect1 _ x).mpr rfl)
  · intro hj
    obtain ⟨q, -, hq⟩ := Finset.mem_biUnion.mp hj
    rw [slot1_set] at hq
    obtain ⟨x, -, rfl⟩ := Finset.mem_map.mp hq
    exact View.emb_mem_set _ x

/-- Holding the elements under the buffer's view is holding its slots, over the same contents. -/
theorem split1_view (M : Memref sig .tc .vmem S8x4x4x32x128 .bf16) (c : Dev nD) (f : Buf (Elt F) (M.view.loc (c : Thread nD τ))) :
    (M.view.loc (c : Thread nD τ) ↦[M.view.set]{fullShare} f : sProp 𝕄)
      = eight (fun q => (slot1 M q).view.loc (c : Thread nD τ) ↦[(slot1 M q).view.set]{fullShare} f) := by
  rw [eight_eq]
  have key : (M.view.loc (c : Thread nD τ) ↦[Finset.univ.biUnion fun q : Fin 8 => ((slot1 M q).view.set : Finset (Idx (M.view.loc (c : Thread nD τ))))]{fullShare} f : sProp 𝕄)
      = bigSep Finset.univ fun q : Fin 8 => (M.view.loc (c : Thread nD τ) ↦[(slot1 M q).view.set]{fullShare} f) :=
    pointsTo_biUnion (ℓ := M.view.loc (c : Thread nD τ)) Finset.univ _ (fun q _ q' _ h => slot1_disjoint M q q' h)
  rw [set1_cover M c]
  exact key

/-- For a buffer whose view is all of it. -/
theorem split1 (M : Memref sig .tc .vmem S8x4x4x32x128 .bf16) (hM : M.view.set = Finset.univ) (c : Dev nD)
    (f : Buf (Elt F) (M.view.loc (c : Thread nD τ))) :
    (M.view.loc (c : Thread nD τ) ↦{fullShare} f : sProp 𝕄)
      = eight (fun q => (slot1 M q).view.loc (c : Thread nD τ) ↦[(slot1 M q).view.set]{fullShare} f) := by
  rw [← split1_view M c f, hM]

/-! ## The 32 slots, chunk by chunk and advance by advance -/

/-- From any base v, (q, s) ↦ 4·q + (v + s) % 4 runs through the 32 slots once. -/
def slotEquiv (v : ℕ) : Fin 8 × Fin 4 ≃ Fin 32 :=
  Equiv.ofBijective (fun p => slot v p.1 p.2.val) ⟨by
    rintro ⟨q, s⟩ ⟨q', s'⟩ h
    have e := congrArg Fin.val h
    simp only [Cert.Mesh.slot_val] at e
    have := s.isLt; have := s'.isLt
    exact Prod.ext (Fin.ext (by simp only; omega)) (Fin.ext (by simp only; omega)), by
    intro i
    have := i.isLt
    refine ⟨(⟨i.val / 4, by omega⟩, ⟨(i.val % 4 + 4 - v % 4) % 4, by omega⟩), Fin.ext ?_⟩
    simp only [Cert.Mesh.slot_val]
    omega⟩

theorem slotEquiv_apply (v : ℕ) (q : Fin 8) (s : Fin 4) : slotEquiv v (q, s) = slot v q s.val := rfl

theorem four_eq (Ψ : ℕ → sProp 𝕄) : four Ψ = bigSep Finset.univ (fun s : Fin 4 => Ψ s.val) :=
  (bigSep_univ_eq_bigSepL [0, 1, 2, 3] (by decide) (by decide) (fun s : Fin 4 => Ψ s.val)).symm

/-- A conjunction over the 32 slots, chunk by chunk and advance by advance from any base. -/
theorem reindex32 (v : ℕ) (Φ : Fin 32 → sProp 𝕄) :
    bigSep Finset.univ Φ = eight (fun q => four fun s => Φ (slot v q s)) := by
  rw [bigSep_univ_equiv (slotEquiv v) Φ, bigSep_univ_prod, eight_eq]
  refine bigSep_congr fun q _ => ?_
  rw [four_eq]
  rfl

/-! ## Stage two: 32 slots by the leading coordinate -/

/-- The rectangle of slot i: leading coordinate i, everything on the other axes. -/
abbrev rect2 (i : Fin 32) : Rect S32x4x32x128 :=
  Rect.unit (s := S32x4x32x128) ![i.val, 0, 0, 0] S1x4x32x128.size (inbA2 i)

/-- An index lies in slot i's rectangle exactly when its leading coordinate is i. -/
theorem mem_rect2 (i : Fin 32) (j : S32x4x32x128.Idx) : j ∈ (rect2 i).set ↔ (j 0).val = i.val := by
  rw [Rect.mem_set_unit]
  constructor
  · intro h
    have h0 := h 0
    simp at h0
    omega
  · intro h a
    have ha := (j a).isLt
    fin_cases a <;> simp at ha ⊢ <;> omega

theorem rect2_disjoint (i i' : Fin 32) (h : i ≠ i') : Disjoint (rect2 i).set (rect2 i').set := by
  rw [Finset.disjoint_left]
  intro j hj hj'
  rw [mem_rect2] at hj hj'
  exact h (Fin.ext (hj.symm.trans hj'))

/-- A slot's elements are its rectangle's, seen through the buffer's view. -/
theorem slot2_set (M : Memref sig .tc .vmem S32x4x32x128 .bf16) (i : Fin 32) :
    (slot2 M i).view.set = (rect2 i).set.map M.view.emb :=
  View.set_slice _ _

theorem slot2_disjoint (M : Memref sig .tc .vmem S32x4x32x128 .bf16) (i i' : Fin 32) (h : i ≠ i') :
    Disjoint (slot2 M i).view.set (slot2 M i').view.set := by
  rw [slot2_set, slot2_set]
  exact (Finset.disjoint_map _).mpr (rect2_disjoint i i' h)

/-- The elements under the buffer's view are those of its slots. -/
theorem set2_cover (M : Memref sig .tc .vmem S32x4x32x128 .bf16) (c : Dev nD) :
    (M.view.set : Finset (Idx (M.view.loc (c : Thread nD τ))))
      = Finset.univ.biUnion fun i : Fin 32 => ((slot2 M i).view.set : Finset (Idx (M.view.loc (c : Thread nD τ)))) := by
  ext j
  constructor
  · intro hj
    obtain ⟨x, -, rfl⟩ := Finset.mem_map.mp hj
    refine Finset.mem_biUnion.mpr ⟨⟨(x 0).val, (x 0).isLt⟩, Finset.mem_univ _, ?_⟩
    rw [slot2_set]
    exact Finset.mem_map_of_mem _ ((mem_rect2 _ x).mpr rfl)
  · intro hj
    obtain ⟨i, -, hq⟩ := Finset.mem_biUnion.mp hj
    rw [slot2_set] at hq
    obtain ⟨x, -, rfl⟩ := Finset.mem_map.mp hq
    exact View.emb_mem_set _ x

/-- Holding the elements under the buffer's view is holding its slots, over the same contents. -/
theorem split2_all (M : Memref sig .tc .vmem S32x4x32x128 .bf16) (c : Dev nD) (f : Buf (Elt F) (M.view.loc (c : Thread nD τ))) :
    (M.view.loc (c : Thread nD τ) ↦[M.view.set]{fullShare} f : sProp 𝕄)
      = bigSep Finset.univ (fun i : Fin 32 => (slot2 M i).view.loc (c : Thread nD τ) ↦[(slot2 M i).view.set]{fullShare} f) := by
  have key : (M.view.loc (c : Thread nD τ) ↦[Finset.univ.biUnion fun i : Fin 32 => ((slot2 M i).view.set : Finset (Idx (M.view.loc (c : Thread nD τ))))]{fullShare} f : sProp 𝕄)
      = bigSep Finset.univ fun i : Fin 32 => (M.view.loc (c : Thread nD τ) ↦[(slot2 M i).view.set]{fullShare} f) :=
    pointsTo_biUnion (ℓ := M.view.loc (c : Thread nD τ)) Finset.univ _ (fun i _ i' _ h => slot2_disjoint M i i' h)
  rw [set2_cover M c]
  exact key

/-- The same, the slots numbered from any base v: chunk by chunk, advance by advance. -/
theorem split2_view (M : Memref sig .tc .vmem S32x4x32x128 .bf16) (v : ℕ) (c : Dev nD) (f : Buf (Elt F) (M.view.loc (c : Thread nD τ))) :
    (M.view.loc (c : Thread nD τ) ↦[M.view.set]{fullShare} f : sProp 𝕄)
      = eight (fun q => four fun s =>
          (slot2 M (slot v q s)).view.loc (c : Thread nD τ) ↦[(slot2 M (slot v q s)).view.set]{fullShare} f) := by
  rw [split2_all, reindex32 v]

/-- For a buffer whose view is all of it. -/
theorem split2 (M : Memref sig .tc .vmem S32x4x32x128 .bf16) (hM : M.view.set = Finset.univ) (v : ℕ) (c : Dev nD)
    (f : Buf (Elt F) (M.view.loc (c : Thread nD τ))) :
    (M.view.loc (c : Thread nD τ) ↦{fullShare} f : sProp 𝕄)
      = eight (fun q => four fun s =>
          (slot2 M (slot v q s)).view.loc (c : Thread nD τ) ↦[(slot2 M (slot v q s)).view.set]{fullShare} f) := by
  rw [← split2_view M v c f, hM]

/-! ## Stage three: 32 slots by the leading coordinate -/

/-- The rectangle of slot i: leading coordinate i, everything on the other axes. -/
abbrev rect3 (i : Fin 32) : Rect S32x32x128 :=
  Rect.unit (s := S32x32x128) ![i.val, 0, 0] S1x32x128.size (inbB i)

/-- An index lies in slot i's rectangle exactly when its leading coordinate is i. -/
theorem mem_rect3 (i : Fin 32) (j : S32x32x128.Idx) : j ∈ (rect3 i).set ↔ (j 0).val = i.val := by
  rw [Rect.mem_set_unit]
  constructor
  · intro h
    have h0 := h 0
    simp at h0
    omega
  · intro h a
    have ha := (j a).isLt
    fin_cases a <;> simp at ha ⊢ <;> omega

theorem rect3_disjoint (i i' : Fin 32) (h : i ≠ i') : Disjoint (rect3 i).set (rect3 i').set := by
  rw [Finset.disjoint_left]
  intro j hj hj'
  rw [mem_rect3] at hj hj'
  exact h (Fin.ext (hj.symm.trans hj'))

/-- A slot's elements are its rectangle's, seen through the buffer's view. -/
theorem slot3_set (M : Memref sig .tc .vmem S32x32x128 .bf16) (i : Fin 32) :
    (slot3 M i).view.set = (rect3 i).set.map M.view.emb :=
  View.set_slice _ _

theorem slot3_disjoint (M : Memref sig .tc .vmem S32x32x128 .bf16) (i i' : Fin 32) (h : i ≠ i') :
    Disjoint (slot3 M i).view.set (slot3 M i').view.set := by
  rw [slot3_set, slot3_set]
  exact (Finset.disjoint_map _).mpr (rect3_disjoint i i' h)

/-- The elements under the buffer's view are those of its slots. -/
theorem set3_cover (M : Memref sig .tc .vmem S32x32x128 .bf16) (c : Dev nD) :
    (M.view.set : Finset (Idx (M.view.loc (c : Thread nD τ))))
      = Finset.univ.biUnion fun i : Fin 32 => ((slot3 M i).view.set : Finset (Idx (M.view.loc (c : Thread nD τ)))) := by
  ext j
  constructor
  · intro hj
    obtain ⟨x, -, rfl⟩ := Finset.mem_map.mp hj
    refine Finset.mem_biUnion.mpr ⟨⟨(x 0).val, (x 0).isLt⟩, Finset.mem_univ _, ?_⟩
    rw [slot3_set]
    exact Finset.mem_map_of_mem _ ((mem_rect3 _ x).mpr rfl)
  · intro hj
    obtain ⟨i, -, hq⟩ := Finset.mem_biUnion.mp hj
    rw [slot3_set] at hq
    obtain ⟨x, -, rfl⟩ := Finset.mem_map.mp hq
    exact View.emb_mem_set _ x

/-- Holding the elements under the buffer's view is holding its slots, over the same contents. -/
theorem split3_all (M : Memref sig .tc .vmem S32x32x128 .bf16) (c : Dev nD) (f : Buf (Elt F) (M.view.loc (c : Thread nD τ))) :
    (M.view.loc (c : Thread nD τ) ↦[M.view.set]{fullShare} f : sProp 𝕄)
      = bigSep Finset.univ (fun i : Fin 32 => (slot3 M i).view.loc (c : Thread nD τ) ↦[(slot3 M i).view.set]{fullShare} f) := by
  have key : (M.view.loc (c : Thread nD τ) ↦[Finset.univ.biUnion fun i : Fin 32 => ((slot3 M i).view.set : Finset (Idx (M.view.loc (c : Thread nD τ))))]{fullShare} f : sProp 𝕄)
      = bigSep Finset.univ fun i : Fin 32 => (M.view.loc (c : Thread nD τ) ↦[(slot3 M i).view.set]{fullShare} f) :=
    pointsTo_biUnion (ℓ := M.view.loc (c : Thread nD τ)) Finset.univ _ (fun i _ i' _ h => slot3_disjoint M i i' h)
  rw [set3_cover M c]
  exact key

/-- The same, the slots numbered from any base v: chunk by chunk, advance by advance. -/
theorem split3_view (M : Memref sig .tc .vmem S32x32x128 .bf16) (v : ℕ) (c : Dev nD) (f : Buf (Elt F) (M.view.loc (c : Thread nD τ))) :
    (M.view.loc (c : Thread nD τ) ↦[M.view.set]{fullShare} f : sProp 𝕄)
      = eight (fun q => four fun s =>
          (slot3 M (slot v q s)).view.loc (c : Thread nD τ) ↦[(slot3 M (slot v q s)).view.set]{fullShare} f) := by
  rw [split3_all, reindex32 v]

/-- For a buffer whose view is all of it. -/
theorem split3 (M : Memref sig .tc .vmem S32x32x128 .bf16) (hM : M.view.set = Finset.univ) (v : ℕ) (c : Dev nD)
    (f : Buf (Elt F) (M.view.loc (c : Thread nD τ))) :
    (M.view.loc (c : Thread nD τ) ↦{fullShare} f : sProp 𝕄)
      = eight (fun q => four fun s =>
          (slot3 M (slot v q s)).view.loc (c : Thread nD τ) ↦[(slot3 M (slot v q s)).view.set]{fullShare} f) := by
  rw [← split3_view M v c f, hM]

/-! ## The 32 slots step by step -/

theorem eight_sep (A B : Fin 8 → sProp 𝕄) : eight (fun q => iprop(A q ∗ B q)) = iprop(eight A ∗ eight B) := by
  rw [eight_eq, eight_eq, eight_eq]; exact bigSep_sep' _ A B

theorem rot4_mp (a b c d : sProp 𝕄) : iprop(a ∗ b ∗ c ∗ d) ⊢ iprop(b ∗ c ∗ d ∗ a) := by
  iintro ⟨Ha, Hb, Hc, Hd⟩
  isplitl [Hb]; · iexact Hb
  isplitl [Hc]; · iexact Hc
  isplitl [Hd]; · iexact Hd
  iexact Ha

theorem rot4_mpr (a b c d : sProp 𝕄) : iprop(b ∗ c ∗ d ∗ a) ⊢ iprop(a ∗ b ∗ c ∗ d) := by
  iintro ⟨Hb, Hc, Hd, Ha⟩
  isplitl [Ha]; · iexact Ha
  isplitl [Hb]; · iexact Hb
  isplitl [Hc]; · iexact Hc
  iexact Hd

/-- Four conjuncts with the first moved to the end. -/
theorem rot4 (a b c d : sProp 𝕄) : iprop(a ∗ b ∗ c ∗ d) = iprop(b ∗ c ∗ d ∗ a) :=
  BI.equiv_iff.mp ⟨rot4_mp a b c d, rot4_mpr a b c d⟩

/-- A conjunction chunk by chunk and advance by advance, regrouped advance by advance: one, two, three, then none. -/
theorem eight_four_by_step (X : Fin 8 → ℕ → sProp 𝕄) :
    eight (fun q => four (X q))
      = iprop(eight (fun q => X q 1) ∗ eight (fun q => X q 2) ∗ eight (fun q => X q 3) ∗ eight (fun q => X q 0)) := by
  unfold four
  rw [eight_sep (fun q => X q 0) (fun q => iprop(X q 1 ∗ X q 2 ∗ X q 3)),
    eight_sep (fun q => X q 1) (fun q => iprop(X q 2 ∗ X q 3)),
    eight_sep (fun q => X q 2) (fun q => X q 3)]
  exact rot4 _ _ _ _

/-- The same, step by step: the eight slots one advance on, then two, then three, then the eight own slots. -/
theorem split2_by_step (M : Memref sig .tc .vmem S32x4x32x128 .bf16) (hM : M.view.set = Finset.univ) (v : ℕ) (c : Dev nD)
    (f : Buf (Elt F) (M.view.loc (c : Thread nD τ))) :
    (M.view.loc (c : Thread nD τ) ↦{fullShare} f : sProp 𝕄)
      = iprop(eight (fun q => (slot2 M (slot v q 1)).view.loc (c : Thread nD τ) ↦[(slot2 M (slot v q 1)).view.set]{fullShare} f)
        ∗ eight (fun q => (slot2 M (slot v q 2)).view.loc (c : Thread nD τ) ↦[(slot2 M (slot v q 2)).view.set]{fullShare} f)
        ∗ eight (fun q => (slot2 M (slot v q 3)).view.loc (c : Thread nD τ) ↦[(slot2 M (slot v q 3)).view.set]{fullShare} f)
        ∗ eight (fun q => (slot2 M (slot v q 0)).view.loc (c : Thread nD τ) ↦[(slot2 M (slot v q 0)).view.set]{fullShare} f)) := by
  rw [split2 M hM v c f]
  exact eight_four_by_step (fun q s => (slot2 M (slot v q s)).view.loc (c : Thread nD τ) ↦[(slot2 M (slot v q s)).view.set]{fullShare} f)

/-- The same, step by step: the eight slots one advance on, then two, then three, then the eight own slots. -/
theorem split3_by_step (M : Memref sig .tc .vmem S32x32x128 .bf16) (hM : M.view.set = Finset.univ) (v : ℕ) (c : Dev nD)
    (f : Buf (Elt F) (M.view.loc (c : Thread nD τ))) :
    (M.view.loc (c : Thread nD τ) ↦{fullShare} f : sProp 𝕄)
      = iprop(eight (fun q => (slot3 M (slot v q 1)).view.loc (c : Thread nD τ) ↦[(slot3 M (slot v q 1)).view.set]{fullShare} f)
        ∗ eight (fun q => (slot3 M (slot v q 2)).view.loc (c : Thread nD τ) ↦[(slot3 M (slot v q 2)).view.set]{fullShare} f)
        ∗ eight (fun q => (slot3 M (slot v q 3)).view.loc (c : Thread nD τ) ↦[(slot3 M (slot v q 3)).view.set]{fullShare} f)
        ∗ eight (fun q => (slot3 M (slot v q 0)).view.loc (c : Thread nD τ) ↦[(slot3 M (slot v q 0)).view.set]{fullShare} f)) := by
  rw [split3 M hM v c f]
  exact eight_four_by_step (fun q s => (slot3 M (slot v q s)).view.loc (c : Thread nD τ) ↦[(slot3 M (slot v q s)).view.set]{fullShare} f)

/-! ## A stage-one slot before its leading axis is squeezed away -/

/-- Slot q of a stage-one buffer as the unit slice at q, its leading unit axis kept. -/
abbrev slot1u (M : Memref sig .tc .vmem S8x4x4x32x128 .bf16) (q : Fin 8) : Memref sig .tc .vmem S1x4x4x32x128 .bf16 :=
  M.slice (Rect.unit (s := S8x4x4x32x128) ![q.val, 0, 0, 0, 0] S1x4x4x32x128.size (inbA1 q)) (fun _ => rfl)

theorem slot1_eq_squeeze (M : Memref sig .tc .vmem S8x4x4x32x128 .bf16) (q : Fin 8) :
    slot1 M q = (slot1u M q).squeeze S4x4x32x128 squeezes_S1x4x4x32x128_S4x4x32x128 := rfl

/-- Squeezing the unit axis away keeps the slot's elements. -/
theorem slot1u_set (M : Memref sig .tc .vmem S8x4x4x32x128 .bf16) (q : Fin 8) :
    (slot1 M q).view.set = (slot1u M q).view.set := Memref.set_view_squeeze _ _

/-- Holding a slot's elements is the same under either spelling of the slot. -/
theorem pts_squeeze1 (M : Memref sig .tc .vmem S8x4x4x32x128 .bf16) (q : Fin 8) (c : Dev nD) (sh : PosShare TreeShare)
    (f : Buf (Elt F) (M.view.loc (c : Thread nD τ))) :
    ((slot1 M q).view.loc (c : Thread nD τ) ↦[(slot1 M q).view.set]{sh} f : sProp 𝕄)
      = ((slot1u M q).view.loc (c : Thread nD τ) ↦[(slot1u M q).view.set]{sh} f) :=
  congrArg (fun S => (M.view.loc (c : Thread nD τ) ↦[S]{sh} f : sProp 𝕄)) (slot1u_set M q)

/-- A stage-one buffer whose view is all of it is its eight slots, each with its unit axis kept. -/
theorem split1u (M : Memref sig .tc .vmem S8x4x4x32x128 .bf16) (hM : M.view.set = Finset.univ) (c : Dev nD)
    (f : Buf (Elt F) (M.view.loc (c : Thread nD τ))) :
    (M.view.loc (c : Thread nD τ) ↦{fullShare} f : sProp 𝕄)
      = eight (fun q => (slot1u M q).view.loc (c : Thread nD τ) ↦[(slot1u M q).view.set]{fullShare} f) := by
  rw [split1 M hM c f]
  exact congrArg eight (funext fun q => pts_squeeze1 M q c fullShare f)

/-! ## The seven exchange buffers are whole buffers -/

theorem sendA1_univ : (sendA1 : Memref sig .tc .vmem S8x4x4x32x128 .bf16).view.set = Finset.univ := View.set_whole _
theorem commA1_univ : (commA1 : Memref sig .tc .vmem S8x4x4x32x128 .bf16).view.set = Finset.univ := View.set_whole _
theorem ownA_univ : (ownA : Memref sig .tc .vmem S8x4x4x32x128 .bf16).view.set = Finset.univ := View.set_whole _
theorem sendA2_univ : (sendA2 : Memref sig .tc .vmem S32x4x32x128 .bf16).view.set = Finset.univ := View.set_whole _
theorem commA2_univ : (commA2 : Memref sig .tc .vmem S32x4x32x128 .bf16).view.set = Finset.univ := View.set_whole _
theorem sendB_univ : (sendB : Memref sig .tc .vmem S32x32x128 .bf16).view.set = Finset.univ := View.set_whole _
theorem commB_univ : (commB : Memref sig .tc .vmem S32x32x128 .bf16).view.set = Finset.univ := View.set_whole _

end Cert.Kernel.SlotGeom

end
-- ==== Proof.Word.LaunchAlloc.lean ====
/-
  The allocation of the protocol's cells at launch: every device's 145 semaphores at zero and their round
  states become the cells' invariants, at names chosen under one update for all devices; what is left is each
  device's position at round 0 of its own cells and the marks that round 0 of every cell is reached, regrouped
  into the written-out conjunctions a kernel body starts from.
-/
import proofs.«900893_g7700000000000894_dist_matmul_mk_i_outk_m1024_n1024_k512_v7x_i32_f32_1_alg».proof.Proof.Word.Ghost
import proofs.«900893_g7700000000000894_dist_matmul_mk_i_outk_m1024_n1024_k512_v7x_i32_f32_1_alg».proof.Proof.Word.LaunchSems
import proofs.«900893_g7700000000000894_dist_matmul_mk_i_outk_m1024_n1024_k512_v7x_i32_f32_1_alg».proof.Proof.Word.MeshFacts
import proofs.«900893_g7700000000000894_dist_matmul_mk_i_outk_m1024_n1024_k512_v7x_i32_f32_1_alg».proof.Proof.Word.SlotGeom
import proofs.«900893_g7700000000000894_dist_matmul_mk_i_outk_m1024_n1024_k512_v7x_i32_f32_1_alg».proof.Proof.Word.ProtoTables
import Idealize.ShloMosaic.Lib.Pipeline.Launch
import Idealize.ShloMosaic.Lib.Pipeline.Kit
import Idealize.ShloMosaic.Lib.Tactic
import Mathlib.Logic.Equiv.Fin.Basic

noncomputable section

namespace Cert.Kernel.LaunchAlloc

open Cert.Kernel Cert.Kernel.Gen Cert.Kernel.Proto Cert.Kernel.Ghost
open Cert.Kernel.LaunchSems (osem ownSemFacts ownSems0_eq unscopedSems0_eq)
open Cert.Kernel.SlotGeom (eight_eq four_eq reindex32)
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A conjunction over a device's 145 semaphores, family by family -/

omit [FloatOps F] in
/-- A conjunction over `Fin (a + b)` is the one over the first `a` and the one over the last `b`. -/
theorem fin_add_split (a b n : ℕ) (h : n = a + b) (Ψ : Fin n → sProp 𝕄) :
    bigSep Finset.univ Ψ = iprop((bigSep Finset.univ fun i : Fin a => Ψ ⟨i.val, by have := i.isLt; omega⟩)
      ∗ bigSep Finset.univ fun j : Fin b => Ψ ⟨a + j.val, by have := j.isLt; omega⟩) := by
  subst h
  rw [bigSep_univ_equiv finSumFinEquiv Ψ, bigSep_univ_sum]
  rfl

omit [FloatOps F] in
/-- The barrier semaphore first, then the 144 DMA semaphores. -/
theorem split_bar (Ψ : Fin 145 → sProp 𝕄) :
    bigSep Finset.univ Ψ = iprop(Ψ 0 ∗ bigSep Finset.univ fun i : Fin 144 => Ψ ⟨1 + i.val, by have := i.isLt; omega⟩) := by
  rw [fin_add_split 1 144 145 rfl Ψ, bigSep_univ_of_subsingleton (0 : Fin 1)]
  rfl

omit [FloatOps F] in
/-- The 144 DMA semaphores by array: 8, 8, 32, 32, 32, 32. -/
theorem split_dma (Ψ : Fin 144 → sProp 𝕄) :
    bigSep Finset.univ Ψ = iprop((bigSep Finset.univ fun q : Fin 8 => Ψ ⟨q.val, by have := q.isLt; omega⟩)
      ∗ (bigSep Finset.univ fun q : Fin 8 => Ψ ⟨8 + q.val, by have := q.isLt; omega⟩)
      ∗ (bigSep Finset.univ fun i : Fin 32 => Ψ ⟨16 + i.val, by have := i.isLt; omega⟩)
      ∗ (bigSep Finset.univ fun i : Fin 32 => Ψ ⟨48 + i.val, by have := i.isLt; omega⟩)
      ∗ (bigSep Finset.univ fun i : Fin 32 => Ψ ⟨80 + i.val, by have := i.isLt; omega⟩)
      ∗ (bigSep Finset.univ fun i : Fin 32 => Ψ ⟨112 + i.val, by have := i.isLt; omega⟩)) := by
  rw [fin_add_split 8 136 144 rfl Ψ,
    fin_add_split 8 128 136 rfl (fun j : Fin 136 => Ψ ⟨8 + j.val, by have := j.isLt; omega⟩),
    fin_add_split 32 96 128 rfl (fun j : Fin 128 => Ψ ⟨8 + (8 + j.val), by have := j.isLt; omega⟩),
    fin_add_split 32 64 96 rfl (fun j : Fin 96 => Ψ ⟨8 + (8 + (32 + j.val)), by have := j.isLt; omega⟩),
    fin_add_split 32 32 64 rfl (fun j : Fin 64 => Ψ ⟨8 + (8 + (32 + (32 + j.val))), by have := j.isLt; omega⟩)]
  refine congrArg₂ _ rfl (congrArg₂ _ rfl (congrArg₂ _ ?_ (congrArg₂ _ ?_ (congrArg₂ _ ?_ ?_))))
  all_goals exact bigSep_congr fun i _ => congrArg Ψ (Fin.ext (by simp only []; omega))

/-- A conjunction over a device's 145 cells, written out as the protocol names them: the barrier cell, the
    stage-1 send and receive cells by chunk, the stage-2 and stage-3 send and receive cells by chunk and by
    advance from the device's own row, respectively plane. -/
def cellsOf (c : Dev nD) (Φ : GSem nD τ sig → sProp 𝕄) : sProp 𝕄 :=
  iprop(Φ (barCell c)
    ∗ eight (fun q => iprop(Φ (a1sCell c q) ∗ Φ (a1rCell c q)))
    ∗ eight (fun q => four fun s => iprop(Φ (a2sCell c (slot (yc c) q s)) ∗ Φ (a2rCell c (slot (yc c) q s))))
    ∗ eight (fun q => four fun s => iprop(Φ (bsCell c (slot (zc c) q s)) ∗ Φ (brCell c (slot (zc c) q s)))))

omit [FloatOps F] in
/-- The 145 semaphores by family, each family under a name of its own. -/
theorem split_families (Ψ : Fin 145 → sProp 𝕄) (B0 : sProp 𝕄) (A1s A1r : Fin 8 → sProp 𝕄) (A2s A2r Bs Br : Fin 32 → sProp 𝕄)
    (h0 : Ψ 0 = B0)
    (h1 : ∀ q : Fin 8, Ψ ⟨1 + q.val, by have := q.isLt; omega⟩ = A1s q)
    (h2 : ∀ q : Fin 8, Ψ ⟨1 + (8 + q.val), by have := q.isLt; omega⟩ = A1r q)
    (h3 : ∀ i : Fin 32, Ψ ⟨1 + (16 + i.val), by have := i.isLt; omega⟩ = A2s i)
    (h4 : ∀ i : Fin 32, Ψ ⟨1 + (48 + i.val), by have := i.isLt; omega⟩ = A2r i)
    (h5 : ∀ i : Fin 32, Ψ ⟨1 + (80 + i.val), by have := i.isLt; omega⟩ = Bs i)
    (h6 : ∀ i : Fin 32, Ψ ⟨1 + (112 + i.val), by have := i.isLt; omega⟩ = Br i) :
    bigSep Finset.univ Ψ = iprop(B0 ∗ bigSep Finset.univ A1s ∗ bigSep Finset.univ A1r ∗ bigSep Finset.univ A2s ∗ bigSep Finset.univ A2r
      ∗ bigSep Finset.univ Bs ∗ bigSep Finset.univ Br) := by
  rw [split_bar, split_dma (fun i : Fin 144 => Ψ ⟨1 + i.val, by have := i.isLt; omega⟩), h0]
  refine congrArg₂ _ rfl (congrArg₂ _ ?_ (congrArg₂ _ ?_ (congrArg₂ _ ?_ (congrArg₂ _ ?_ (congrArg₂ _ ?_ ?_)))))
  · exact bigSep_congr fun q _ => h1 q
  · exact bigSep_congr fun q _ => h2 q
  · exact bigSep_congr fun q _ => h3 q
  · exact bigSep_congr fun q _ => h4 q
  · exact bigSep_congr fun q _ => h5 q
  · exact bigSep_congr fun q _ => h6 q

theorem cells_regroup (c : Dev nD) (Φ : GSem nD τ sig → sProp 𝕄) :
    (bigSep Finset.univ fun k : Fin 145 => Φ (kcell (c, k))) ⊢ cellsOf c Φ := by
  rw [split_families (fun k : Fin 145 => Φ (kcell (c, k))) (Φ (barCell c)) (fun q => Φ (a1sCell c q)) (fun q => Φ (a1rCell c q))
      (fun i => Φ (a2sCell c i)) (fun i => Φ (a2rCell c i)) (fun i => Φ (bsCell c i)) (fun i => Φ (brCell c i))
      (by rw [barCell_eq]) (fun q => by rw [a1sCell_eq]) (fun q => by rw [a1rCell_eq]) (fun i => by rw [a2sCell_eq])
      (fun i => by rw [a2rCell_eq]) (fun i => by rw [bsCell_eq]) (fun i => by rw [brCell_eq]),
    reindex32 (yc c) (fun i : Fin 32 => Φ (a2sCell c i)), reindex32 (yc c) (fun i : Fin 32 => Φ (a2rCell c i)),
    reindex32 (zc c) (fun i : Fin 32 => Φ (bsCell c i)), reindex32 (zc c) (fun i : Fin 32 => Φ (brCell c i))]
  unfold cellsOf
  simp only [eight_eq, four_eq, bigSep_sep']
  iintro ⟨H0, H1, H2, H3, H4, H5, H6⟩
  isplitl [H0]; · iexact H0
  isplitl [H1 H2]
  · isplitl [H1] <;> iassumption
  isplitl [H3 H4]
  · isplitl [H3] <;> iassumption
  isplitl [H5] <;> iassumption

/-! ## The cells and the launch element -/

/-- The protocol's cells: every device's 145. -/
def protoCells : Finset (GSem nD τ sig) := Finset.univ.map ⟨kcell, kcell_injective⟩

omit [FloatOps F] in
theorem bigSep_protoCells (Φ : GSem nD τ sig → sProp 𝕄) :
    bigSep protoCells Φ = bigSep Finset.univ fun c : Dev nD => bigSep Finset.univ fun k : Fin 145 => Φ (kcell (c, k)) := by
  unfold protoCells; rw [bigSep_map, bigSep_univ_prod]; rfl

variable (Rd : Rounds.Schedule (GSem nD τ sig) D (MT nD τ sig Unit (Elt F) ℕ UU ℕ))
  [hRd : ∀ g r d, BI.Storable (upEmb : UEmb _ (MT nD τ sig Unit (Elt F) ℕ UU ℕ)) (Rd.payload g r d)]

/-- What the launch element deals device `c` beside its tokens: the round state at counter zero of each of its cells,
    its position at round 0 of each, and that round 0 of each is reached. -/
def cellsG (c : Dev nD) : sProp 𝕄 :=
  iprop((bigSep Finset.univ fun k : Fin 145 => roundState ER Rd (kcell (c, k)) 0)
    ∗ (bigSep Finset.univ fun k : Fin 145 => iprop(atPos ER (kcell (c, k)) 0 ∅ 0 ∗ reached ER (kcell (c, k)) 0)))

/-- Funding: the launch element of the cells and of any set of duty tokens is every device's share and the tokens. -/
theorem fund_cells (T : Finset (GSem nD τ sig × ℕ × D)) :
    BI.own (ER (initOf protoCells T))
      ⊢ (|==> iprop(bigSep Finset.univ (cellsG Rd) ∗ bigSep T (fun x => dutyTok ER x.1 x.2.1 x.2.2)) : sProp 𝕄) := by
  iintro HX
  imod (Rounds.fund ER Rd protoCells T) $$ HX with ⟨Hst, Hr, Hat, Htok⟩
  imodintro
  ihave Hst' := (Entails.of_eq (bigSep_protoCells fun g => roundState ER Rd g 0)) $$ Hst
  ihave Hat' := (Entails.of_eq (bigSep_protoCells fun g => atPos ER g 0 ∅ 0)) $$ Hat
  ihave Hr' := (Entails.of_eq (bigSep_protoCells fun g => reached ER g 0)) $$ Hr
  unfold cellsG; simp only [bigSep_sep']
  isplitr [Htok]
  · isplitl [Hst']; · iexact Hst'
    isplitl [Hat'] <;> iassumption
  · iexact Htok

/-! ## The semaphores at zero, cell by cell -/

omit [FloatOps F] in
/-- The own semaphores and the barrier semaphore are the device's 145 cells' semaphores. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 145 => semVal (kcell (c, k)) 0 : sProp 𝕄) := by
  rw [ownSems0_eq, unscopedSems0_eq, split_bar]
  iintro ⟨HS, HB⟩
  isplitl [HB]
  · rw [← barCell_eq]; iexact HB
  · rw [bigSep_congr (s := Finset.univ) (Φ := fun i : Fin 144 => (semVal (kcell (c, ⟨1 + i.val, by have := i.isLt; omega⟩)) 0 : sProp 𝕄))
      (Ψ := fun i : Fin 144 => semVal ((c : Thread nD τ), osem i) 0) (fun i _ => by
        rw [show kcell (c, (⟨1 + i.val, by have := i.isLt; omega⟩ : Fin 145)) = ((c : Thread nD τ), osem i) from Prod.ext rfl (csem_succ i)])]
    iexact HS

/-- One device's cells allocated: from its semaphores at zero and its round states, each cell's invariant at some name;
    its tokens are carried along. -/
theorem core_alloc (ownToks : Dev nD → sProp 𝕄) (c : Dev nD) :
    iprop(Pipeline.ownSems0 (Ix := Unit) (Name := ℕ) (U := UU) (Lvl := ℕ) (Val := Elt F) (τ := τ) osem c ∗ unscopedSems0 c
        ∗ cellsG Rd c ∗ ownToks c)
      ⊢ |={Set.univ}=> iprop((bigSep Finset.univ fun k : Fin 145 => iprop(∃ κ : ℕ, cellInv ER Rd κ (kcell (c, k))))
          ∗ (bigSep Finset.univ fun k : Fin 145 => iprop(atPos ER (kcell (c, k)) 0 ∅ 0 ∗ reached ER (kcell (c, k)) 0)) ∗ ownToks c) := by
  unfold cellsG
  iintro ⟨Hos, Hus, ⟨Hst, Hat⟩, Htok⟩
  ihave Hv := (sems0 (F := F) c) $$ [Hos Hus]
  · isplitl [Hos] <;> iassumption
  imod (show iprop((bigSep Finset.univ fun k : Fin 145 => semVal (kcell (c, k)) 0) ∗ bigSep Finset.univ fun k : Fin 145 => roundState ER Rd (kcell (c, k)) 0)
      ⊢ (|={Set.univ}=> bigSep Finset.univ fun k : Fin 145 => iprop(∃ κ : ℕ, cellInv ER Rd κ (kcell (c, k))) : sProp 𝕄) from by
        rw [← bigSep_sep']
        exact (bigSep_mono fun k _ => (Rounds.body_intro ER Rd (kcell (c, k))).trans inv_alloc).trans (bigSep_fupd _ _)) $$ [Hv Hst] with Hinv
  · isplitl [Hv] <;> iassumption
  imodintro
  isplitl [Hinv]; · iexact Hinv
  isplitl [Hat] <;> iassumption

/-! ## The records every device reads -/

/-- The invariants of all cells at the names `K`, and that round 0 of every cell is reached. -/
def recordsAll (K : Dev nD × Fin 145 → ℕ) : sProp 𝕄 :=
  iprop((bigSep Finset.univ fun ck : Dev nD × Fin 145 => cellInv ER Rd (K ck) (kcell ck))
    ∗ bigSep Finset.univ fun ck : Dev nD × Fin 145 => reached ER (kcell ck) 0)

instance recordsAll_persistent (K : Dev nD × Fin 145 → ℕ) : BI.Persistent (recordsAll Rd K) := by unfold recordsAll; infer_instance

/-- The names as a function of the cell. -/
def nameOf (K : Dev nD × Fin 145 → ℕ) (g : GSem nD τ sig) : ℕ := K (Function.invFun kcell g)

theorem nameOf_kcell (K : Dev nD × Fin 145 → ℕ) (ck : Dev nD × Fin 145) : nameOf K (kcell ck) = K ck := by
  unfold nameOf; rw [Function.leftInverse_invFun kcell_injective ck]

omit [FloatOps F] in
theorem invs_elim (K : Dev nD × Fin 145 → ℕ) (ck : Dev nD × Fin 145) :
    (bigSep Finset.univ fun ck : Dev nD × Fin 145 => (cellInv ER Rd (K ck) (kcell ck) : sProp 𝕄))
      ⊢ cellInv ER Rd (K ck) (kcell ck) :=
  bigSep_elim (Finset.mem_univ ck)
omit [FloatOps F] in
theorem reacheds_elim (ck : Dev nD × Fin 145) :
    (bigSep Finset.univ fun ck : Dev nD × Fin 145 => (reached ER (kcell ck) 0 : sProp 𝕄)) ⊢ reached ER (kcell ck) 0 :=
  bigSep_elim (Finset.mem_univ ck)

theorem inv_at (K : Dev nD × Fin 145 → ℕ) (ck : Dev nD × Fin 145) :
    recordsAll Rd K ⊢ cinv Rd (nameOf K) (kcell ck) := by
  show _ ⊢ cellInv ER Rd (nameOf K (kcell ck)) (kcell ck)
  rw [nameOf_kcell]
  unfold recordsAll
  iintro ⟨#HI, -⟩
  iapply (invs_elim Rd K ck)
  iexact HI

theorem reached_at (K : Dev nD × Fin 145 → ℕ) (ck : Dev nD × Fin 145) :
    recordsAll Rd K ⊢ reached ER (kcell ck) 0 := by
  unfold recordsAll
  iintro ⟨-, #HR⟩
  iapply (reacheds_elim (F := F) ck)
  iexact HR

/-! ### The records of one device -/

section Named
variable (K : Dev nD × Fin 145 → ℕ) (d : Dev nD)

theorem inv_bar : recordsAll Rd K ⊢ cinv Rd (nameOf K) (barCell d) := by rw [barCell_eq]; exact inv_at Rd K _
theorem inv_a1s (q : Fin 8) : recordsAll Rd K ⊢ cinv Rd (nameOf K) (a1sCell d q) := by rw [a1sCell_eq]; exact inv_at Rd K _
theorem inv_a1r (q : Fin 8) : recordsAll Rd K ⊢ cinv Rd (nameOf K) (a1rCell d q) := by rw [a1rCell_eq]; exact inv_at Rd K _
theorem inv_a2s (i : Fin 32) : recordsAll Rd K ⊢ cinv Rd (nameOf K) (a2sCell d i) := by rw [a2sCell_eq]; exact inv_at Rd K _
theorem inv_a2r (i : Fin 32) : recordsAll Rd K ⊢ cinv Rd (nameOf K) (a2rCell d i) := by rw [a2rCell_eq]; exact inv_at Rd K _
theorem inv_bs (i : Fin 32) : recordsAll Rd K ⊢ cinv Rd (nameOf K) (bsCell d i) := by rw [bsCell_eq]; exact inv_at Rd K _
theorem inv_br (i : Fin 32) : recordsAll Rd K ⊢ cinv Rd (nameOf K) (brCell d i) := by rw [brCell_eq]; exact inv_at Rd K _

theorem rch_bar : recordsAll Rd K ⊢ reached ER (barCell d) 0 := by rw [barCell_eq]; exact reached_at Rd K _
theorem rch_a1s (q : Fin 8) : recordsAll Rd K ⊢ reached ER (a1sCell d q) 0 := by rw [a1sCell_eq]; exact reached_at Rd K _
theorem rch_a1r (q : Fin 8) : recordsAll Rd K ⊢ reached ER (a1rCell d q) 0 := by rw [a1rCell_eq]; exact reached_at Rd K _
theorem rch_a2s (i : Fin 32) : recordsAll Rd K ⊢ reached ER (a2sCell d i) 0 := by rw [a2sCell_eq]; exact reached_at Rd K _
theorem rch_a2r (i : Fin 32) : recordsAll Rd K ⊢ reached ER (a2rCell d i) 0 := by rw [a2rCell_eq]; exact reached_at Rd K _
theorem rch_bs (i : Fin 32) : recordsAll Rd K ⊢ reached ER (bsCell d i) 0 := by rw [bsCell_eq]; exact reached_at Rd K _
theorem rch_br (i : Fin 32) : recordsAll Rd K ⊢ reached ER (brCell d i) 0 := by rw [brCell_eq]; exact reached_at Rd K _

end Named

omit [FloatOps F] in
/-- A persistent assertion that yields both conjuncts yields the conjunction. -/
theorem pers_sep {R P Q : sProp 𝕄} [BI.Persistent R] (h1 : R ⊢ P) (h2 : R ⊢ Q) : R ⊢ iprop(P ∗ Q) := by
  iintro #H; isplitr
  · iapply h1; iexact H
  · iapply h2; iexact H
theorem pers_eight {R : sProp 𝕄} [BI.Persistent R] {Φ : Fin 8 → sProp 𝕄} (h : ∀ q, R ⊢ Φ q) : R ⊢ eight Φ := by
  rw [eight_eq]; exact bigSep_intro_persistent fun q _ => h q
theorem pers_four {R : sProp 𝕄} [BI.Persistent R] {Φ : ℕ → sProp 𝕄} (h : ∀ s, R ⊢ Φ s) : R ⊢ four Φ := by
  rw [four_eq]; exact bigSep_intro_persistent fun s _ => h s.val
omit [FloatOps F] in
theorem pers_three {R : sProp 𝕄} [BI.Persistent R] {Φ : ℕ → sProp 𝕄} (h : ∀ s, R ⊢ Φ s) : R ⊢ three Φ :=
  pers_sep (h 1) (pers_sep (h 2) (h 3))

/-- One device's records, read off the records of all cells. -/
theorem records_intro (K : Dev nD × Fin 145 → ℕ) (c : Dev nD) :
    recordsAll Rd K ⊢ Ghost.records Rd (nameOf K) c := by
  unfold Ghost.records Ghost.ownInvs Ghost.paidInvs Ghost.sendReached Ghost.recvReached
  refine pers_sep ?_ (pers_sep ?_ (pers_sep ?_ ?_))
  · exact pers_sep (inv_bar Rd K c) (pers_sep (pers_eight fun q => pers_sep (inv_a1s Rd K c q) (inv_a1r Rd K c q))
      (pers_sep (pers_eight fun q => pers_four fun s => pers_sep (inv_a2s Rd K c _) (inv_a2r Rd K c _))
        (pers_eight fun q => pers_four fun s => pers_sep (inv_bs Rd K c _) (inv_br Rd K c _))))
  · exact pers_sep (pers_sep (inv_bar Rd K (partner c)) (rch_bar Rd K (partner c)))
      (pers_sep (pers_three fun s => pers_sep (inv_bar Rd K (rail c s)) (rch_bar Rd K (rail c s)))
        (pers_sep (pers_three fun s => pers_sep (inv_bar Rd K (zpeer c s)) (rch_bar Rd K (zpeer c s)))
          (pers_sep (pers_eight fun q => pers_sep (inv_a1r Rd K (partner c) q) (rch_a1r Rd K (partner c) q))
            (pers_sep (pers_eight fun q => pers_three fun s => pers_sep (inv_a2r Rd K (rail c s) _) (rch_a2r Rd K (rail c s) _))
              (pers_eight fun q => pers_three fun s => pers_sep (inv_br Rd K (zpeer c s) _) (rch_br Rd K (zpeer c s) _))))))
  · exact pers_sep (pers_eight fun q => rch_a1s Rd K c q)
      (pers_sep (pers_eight fun q => pers_three fun s => rch_a2s Rd K c _) (pers_eight fun q => pers_three fun s => rch_bs Rd K c _))
  · exact pers_sep (pers_eight fun q => rch_a1r Rd K c q)
      (pers_sep (pers_eight fun q => pers_three fun s => rch_a2r Rd K c _) (pers_eight fun q => pers_three fun s => rch_br Rd K c _))

/-- One device's positions, from its position at each of its 145 cells. -/
theorem positions_intro (c : Dev nD) :
    (bigSep Finset.univ fun k : Fin 145 => (atPos ER (kcell (c, k)) 0 ∅ 0 : sProp 𝕄)) ⊢ positions c :=
  cells_regroup c (fun g => atPos ER g 0 ∅ 0)

/-! ## The global step -/

/-- What the global step hands device `c`: at some names, its records, its positions and the tokens of the duties it pays. -/
def G' (c : Dev nD) : sProp 𝕄 := iprop(∃ K, Ghost.records Rd K c ∗ positions c ∗ payToks c)

theorem ghost_intro (K : Dev nD × Fin 145 → ℕ) (c : Dev nD) :
    iprop(recordsAll Rd K ∗ (bigSep Finset.univ fun k : Fin 145 => atPos ER (kcell (c, k)) 0 ∅ 0) ∗ payToks c) ⊢ G' Rd c := by
  iintro ⟨#HR, Hat, Htok⟩
  unfold G'
  iexists (nameOf K)
  isplitr
  · iapply (records_intro Rd K c); iexact HR
  isplitl [Hat]
  · iapply (positions_intro (F := F) c); iexact Hat
  · iexact Htok

theorem regroup (ownToks : Dev nD → sProp 𝕄)
    (hdeal : (bigSep Finset.univ fun c : Dev nD => ownToks c) ⊢ bigSep Finset.univ fun c : Dev nD => (payToks c : sProp 𝕄)) :
    (bigSep Finset.univ fun c : Dev nD => iprop((bigSep Finset.univ fun k : Fin 145 => iprop(∃ κ : ℕ, cellInv ER Rd κ (kcell (c, k))))
          ∗ (bigSep Finset.univ fun k : Fin 145 => iprop(atPos ER (kcell (c, k)) 0 ∅ 0 ∗ reached ER (kcell (c, k)) 0)) ∗ ownToks c) : sProp 𝕄)
      ⊢ bigSep Finset.univ (G' Rd) := by
  rw [bigSep_sep', bigSep_sep', ← bigSep_univ_prod (fun ck : Dev nD × Fin 145 => iprop(∃ κ : ℕ, cellInv ER Rd κ (kcell ck))),
    bigSep_congr (s := Finset.univ) (fun (c : Dev nD) _ => bigSep_sep' Finset.univ (fun k : Fin 145 => (atPos ER (kcell (c, k)) 0 ∅ 0 : sProp 𝕄)) (fun k => reached ER (kcell (c, k)) 0)),
    bigSep_sep', ← bigSep_univ_prod (fun ck : Dev nD × Fin 145 => (reached ER (kcell ck) 0 : sProp 𝕄))]
  iintro ⟨HI, ⟨Hat, #HR⟩, Htok⟩
  ihave HK := (BI.bigSep_exists_pi Finset.univ (fun (ck : Dev nD × Fin 145) (κ : ℕ) => (cellInv ER Rd κ (kcell ck) : sProp 𝕄))) $$ HI
  icases HK with ⟨%K, #HI⟩
  ihave Htk := hdeal $$ Htok
  iapply (BI.bigSep_with_persistent (R := recordsAll Rd K) fun c _ => ghost_intro Rd K c)
  isplitr
  · unfold recordsAll; isplitl; · iexact HI
    iexact HR
  · rw [bigSep_sep']
    isplitl [Hat]; · iexact Hat
    iexact Htk

/-- The global step: own and unscoped semaphores of every device at once. -/
theorem glob (ownToks : Dev nD → sProp 𝕄)
    (hdeal : (bigSep Finset.univ fun c : Dev nD => ownToks c) ⊢ bigSep Finset.univ fun c : Dev nD => (payToks c : sProp 𝕄)) :
    (bigSep Finset.univ fun c => iprop(Pipeline.ownSems0 (Ix := Unit) (Name := ℕ) (U := UU) (Lvl := ℕ) (Val := Elt F) (τ := τ) osem c ∗ unscopedSems0 c
        ∗ cellsG Rd c ∗ ownToks c) : sProp 𝕄)
      ⊢ |={Set.univ}=> bigSep Finset.univ (G' Rd) := by
  exact ((bigSep_mono fun c _ => core_alloc Rd ownToks c).trans (bigSep_fupd _ _)).trans (BI.fupd_mono (regroup Rd ownToks hdeal))

/-- info: 'Cert.Kernel.LaunchAlloc.glob' depends on axioms: [propext, Classical.choice, Quot.sound] -/
#guard_msgs in #print axioms glob
/-- info: 'Cert.Kernel.LaunchAlloc.fund_cells' depends on axioms: [propext, Classical.choice, Quot.sound] -/
#guard_msgs in #print axioms fund_cells

end Cert.Kernel.LaunchAlloc

end
-- ==== Proof.Word.LaunchDeal.lean ====
/-
  The duty tokens at launch. The allocation mints, for every device, the tokens of the duties of its own
  cells; a duty is paid by another device, so the tokens are dealt round the box: duty k of a barrier cell
  to the device whose k-th peer owns the cell, the arrival token of a receive cell to the device that
  copies into it, while the departure token of a send cell stays with its owner. The deals are re-indexings
  of the 32 devices along the peer maps, each a bijection of the box.
-/
import proofs.«900893_g7700000000000894_dist_matmul_mk_i_outk_m1024_n1024_k512_v7x_i32_f32_1_alg».proof.Proof.Word.Proto
import proofs.«900893_g7700000000000894_dist_matmul_mk_i_outk_m1024_n1024_k512_v7x_i32_f32_1_alg».proof.Proof.Word.ProtoTables
import proofs.«900893_g7700000000000894_dist_matmul_mk_i_outk_m1024_n1024_k512_v7x_i32_f32_1_alg».proof.Proof.Word.Ghost
import proofs.«900893_g7700000000000894_dist_matmul_mk_i_outk_m1024_n1024_k512_v7x_i32_f32_1_alg».proof.Proof.Word.MeshFacts
import proofs.«900893_g7700000000000894_dist_matmul_mk_i_outk_m1024_n1024_k512_v7x_i32_f32_1_alg».proof.Proof.SlotIdx

noncomputable section

namespace Cert.Kernel.LaunchDeal

open Cert.Kernel Cert.Kernel.Gen Cert.Kernel.Proto Cert.Kernel.Ghost
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peer maps as bijections of the box -/

def partnerE : Dev nD ≃ Dev nD where
  toFun c := partner c
  invFun c := partner c
  left_inv c := MeshFacts.partner_partner c
  right_inv c := MeshFacts.partner_partner c

def railE (s : ℕ) (hs : s ≤ 4) : Dev nD ≃ Dev nD where
  toFun c := rail c s
  invFun c := rail c (4 - s)
  left_inv c := MeshFacts.rail_rail c s hs
  right_inv c := by
    have h := MeshFacts.rail_rail c (4 - s) (by omega)
    rwa [show 4 - (4 - s) = s by omega] at h

def zpeerE (s : ℕ) (hs : s ≤ 4) : Dev nD ≃ Dev nD where
  toFun c := zpeer c s
  invFun c := zpeer c (4 - s)
  left_inv c := MeshFacts.zpeer_zpeer c s hs
  right_inv c := by
    have h := MeshFacts.zpeer_zpeer c (4 - s) (by omega)
    rwa [show 4 - (4 - s) = s by omega] at h

/-- Seen from the rail peer s rows on, this device's own slot of chunk q is the slot 4 - s advances on. -/
theorem slot_rail_back (c : Dev nD) (q : Fin 8) (s : ℕ) (h1 : 1 ≤ s) (h3 : s ≤ 3) :
    slot (yc (rail c s)) q (4 - s) = slot (yc c) q 0 := by
  apply Fin.ext
  rw [Cert.Mesh.slot_val, Cert.Mesh.slot_val, MeshFacts.yc_rail]
  have := MeshFacts.yc_lt c
  omega

/-- Seen from the plane peer s planes on, this device's own slot of chunk q is the slot 4 - s advances on. -/
theorem slot_zpeer_back (c : Dev nD) (q : Fin 8) (s : ℕ) (h1 : 1 ≤ s) (h3 : s ≤ 3) :
    slot (zc (zpeer c s)) q (4 - s) = slot (zc c) q 0 := by
  apply Fin.ext
  rw [Cert.Mesh.slot_val, Cert.Mesh.slot_val, MeshFacts.zc_zpeer]
  have := MeshFacts.zc_lt c
  omega

omit [FloatOps F] in
theorem eight_eq (Φ : Fin 8 → sProp 𝕄) : eight Φ = bigSep Finset.univ Φ :=
  (bigSep_univ_eq_bigSepL [0, 1, 2, 3, 4, 5, 6, 7] (by decide) (by decide) Φ).symm

omit [FloatOps F] in
theorem eight_sep (A B : Fin 8 → sProp 𝕄) : eight (fun q => iprop(A q ∗ B q)) = iprop(eight A ∗ eight B) := by
  rw [eight_eq, eight_eq, eight_eq]; exact bigSep_sep' _ A B

omit [FloatOps F] in
theorem shuffle_mp (a b c d e f : sProp 𝕄) :
    iprop((a ∗ f) ∗ (c ∗ d) ∗ (e ∗ b)) ⊢ iprop((a ∗ b) ∗ (c ∗ d) ∗ (e ∗ f)) := by
  iintro ⟨⟨Ha, Hf⟩, ⟨Hc, Hd⟩, He, Hb⟩
  isplitl [Ha Hb]
  · isplitl [Ha]; · iexact Ha
    iexact Hb
  isplitl [Hc Hd]
  · isplitl [Hc]; · iexact Hc
    iexact Hd
  isplitl [He]; · iexact He
  iexact Hf

omit [FloatOps F] in
/-- Three pairs with the second members in the opposite order. -/
theorem shuffle (a b c d e f : sProp 𝕄) :
    iprop((a ∗ f) ∗ (c ∗ d) ∗ (e ∗ b)) = iprop((a ∗ b) ∗ (c ∗ d) ∗ (e ∗ f)) :=
  BI.equiv_iff.mp ⟨shuffle_mp a b c d e f, shuffle_mp a f c d e b⟩

/-! ## The tokens as minted, and the deal -/

/-- The duty tokens of device c's own cells: the seven duties of its barrier cell; the one duty of each
    stage-one send and receive cell; and the one duty of each stage-two and stage-three send and receive
    cell other than those of its own row and plane, on which nothing is sent. -/
def ownToks (c : Dev nD) : sProp 𝕄 :=
  iprop(dutyTok ER (barCell c) 0 (0 : D)
    ∗ dutyTok ER (barCell c) 0 (1 : D) ∗ dutyTok ER (barCell c) 0 (2 : D) ∗ dutyTok ER (barCell c) 0 (3 : D)
    ∗ dutyTok ER (barCell c) 0 (4 : D) ∗ dutyTok ER (barCell c) 0 (5 : D) ∗ dutyTok ER (barCell c) 0 (6 : D)
    ∗ eight (fun q => iprop(dutyTok ER (a1sCell c q) 0 (0 : D) ∗ dutyTok ER (a1rCell c q) 0 (0 : D)))
    ∗ eight (fun q => three fun s => iprop(dutyTok ER (a2sCell c (slot (yc c) q s)) 0 (0 : D) ∗ dutyTok ER (a2rCell c (slot (yc c) q s)) 0 (0 : D)))
    ∗ eight (fun q => three fun s => iprop(dutyTok ER (bsCell c (slot (zc c) q s)) 0 (0 : D) ∗ dutyTok ER (brCell c (slot (zc c) q s)) 0 (0 : D))))

omit [FloatOps F] in
/-- The tokens dealt round the box: every device ends with the tokens of the duties it pays. -/
theorem deal_eq : (bigSep Finset.univ fun c : Dev nD => (ownToks c : sProp 𝕄)) = bigSep Finset.univ fun c : Dev nD => (payToks c : sProp 𝕄) := by
  have hB0 := bigSep_univ_equiv partnerE (fun c : Dev nD => (dutyTok ER (barCell c) 0 (0 : D) : sProp 𝕄))
  have hB1 := bigSep_univ_equiv (railE 1 (by omega)) (fun c : Dev nD => (dutyTok ER (barCell c) 0 (1 : D) : sProp 𝕄))
  have hB2 := bigSep_univ_equiv (railE 2 (by omega)) (fun c : Dev nD => (dutyTok ER (barCell c) 0 (2 : D) : sProp 𝕄))
  have hB3 := bigSep_univ_equiv (railE 3 (by omega)) (fun c : Dev nD => (dutyTok ER (barCell c) 0 (3 : D) : sProp 𝕄))
  have hB4 := bigSep_univ_equiv (zpeerE 1 (by omega)) (fun c : Dev nD => (dutyTok ER (barCell c) 0 (4 : D) : sProp 𝕄))
  have hB5 := bigSep_univ_equiv (zpeerE 2 (by omega)) (fun c : Dev nD => (dutyTok ER (barCell c) 0 (5 : D) : sProp 𝕄))
  have hB6 := bigSep_univ_equiv (zpeerE 3 (by omega)) (fun c : Dev nD => (dutyTok ER (barCell c) 0 (6 : D) : sProp 𝕄))
  have hR1 := bigSep_univ_equiv partnerE (fun c : Dev nD => eight (fun q => (dutyTok ER (a1rCell c q) 0 (0 : D) : sProp 𝕄)))
  have hR2 : ∀ (s : ℕ) (h1 : 1 ≤ s) (h3 : s ≤ 3),
      (bigSep Finset.univ fun c : Dev nD => eight (fun q => (dutyTok ER (a2rCell c (slot (yc c) q (4 - s))) 0 (0 : D) : sProp 𝕄)))
        = bigSep Finset.univ fun c : Dev nD => eight (fun q => (dutyTok ER (a2rCell (rail c s) (slot (yc c) q 0)) 0 (0 : D) : sProp 𝕄)) := by
    intro s h1 h3
    rw [bigSep_univ_equiv (railE s (by omega))]
    refine bigSep_congr fun c _ => ?_
    show eight (fun q => (dutyTok ER (a2rCell (rail c s) (slot (yc (rail c s)) q (4 - s))) 0 (0 : D) : sProp 𝕄)) = _
    simp only [slot_rail_back c _ s h1 h3]
  have hR3 : ∀ (s : ℕ) (h1 : 1 ≤ s) (h3 : s ≤ 3),
      (bigSep Finset.univ fun c : Dev nD => eight (fun q => (dutyTok ER (brCell c (slot (zc c) q (4 - s))) 0 (0 : D) : sProp 𝕄)))
        = bigSep Finset.univ fun c : Dev nD => eight (fun q => (dutyTok ER (brCell (zpeer c s) (slot (zc c) q 0)) 0 (0 : D) : sProp 𝕄)) := by
    intro s h1 h3
    rw [bigSep_univ_equiv (zpeerE s (by omega))]
    refine bigSep_congr fun c _ => ?_
    show eight (fun q => (dutyTok ER (brCell (zpeer c s) (slot (zc (zpeer c s)) q (4 - s))) 0 (0 : D) : sProp 𝕄)) = _
    simp only [slot_zpeer_back c _ s h1 h3]
  have hR2_1 := hR2 1 (by omega) (by omega)
  have hR2_2 := hR2 2 (by omega) (by omega)
  have hR2_3 := hR2 3 (by omega) (by omega)
  have hR3_1 := hR3 1 (by omega) (by omega)
  have hR3_2 := hR3 2 (by omega) (by omega)
  have hR3_3 := hR3 3 (by omega) (by omega)
  simp only [show 4 - 1 = 3 from rfl, show 4 - 2 = 2 from rfl, show 4 - 3 = 1 from rfl] at hR2_1 hR2_2 hR2_3 hR3_1 hR3_2 hR3_3
  unfold ownToks payToks three
  simp only [bigSep_sep', eight_sep]
  rw [hB0, hB1, hB2, hB3, hB4, hB5, hB6, hR1, hR2_1, hR2_2, hR2_3, hR3_1, hR3_2, hR3_3]
  simp only [partnerE, railE, zpeerE, Equiv.coe_fn_mk]
  rw [shuffle (a := bigSep Finset.univ fun i : Dev nD => eight fun q => (dutyTok ER (a2sCell i (slot (yc i) q 1)) 0 (0 : D) : sProp 𝕄)),
    shuffle (a := bigSep Finset.univ fun i : Dev nD => eight fun q => (dutyTok ER (bsCell i (slot (zc i) q 1)) 0 (0 : D) : sProp 𝕄))]

omit [FloatOps F] in
theorem deal : (bigSep Finset.univ fun c : Dev nD => (ownToks c : sProp 𝕄)) ⊢ bigSep Finset.univ fun c : Dev nD => (payToks c : sProp 𝕄) :=
  Entails.of_eq deal_eq

/-! ## The minted tokens, enumerated -/

/-- Which token of a device: a barrier duty; a stage-one cell (send or receive) of a chunk; a stage-two cell
    of a chunk and a step 1, 2, 3; a stage-three cell likewise. -/
abbrev TokIx : Type := Fin 7 ⊕ (Fin 8 × Bool) ⊕ (Fin 8 × Fin 3 × Bool) ⊕ (Fin 8 × Fin 3 × Bool)

/-- The token named by a device and an index: its cell, round 0, its duty. -/
def tokOf (cj : Dev nD × TokIx) : GSem nD τ sig × ℕ × D :=
  match cj.2 with
  | .inl k => (barCell cj.1, 0, k)
  | .inr (.inl (q, false)) => (a1sCell cj.1 q, 0, 0)
  | .inr (.inl (q, true)) => (a1rCell cj.1 q, 0, 0)
  | .inr (.inr (.inl (q, s, false))) => (a2sCell cj.1 (slot (yc cj.1) q (s.val + 1)), 0, 0)
  | .inr (.inr (.inl (q, s, true))) => (a2rCell cj.1 (slot (yc cj.1) q (s.val + 1)), 0, 0)
  | .inr (.inr (.inr (q, s, false))) => (bsCell cj.1 (slot (zc cj.1) q (s.val + 1)), 0, 0)
  | .inr (.inr (.inr (q, s, true))) => (brCell cj.1 (slot (zc cj.1) q (s.val + 1)), 0, 0)

/-- The kind of the token's cell. -/
def kindJ (c : Dev nD) : TokIx → CK
  | .inl _ => .bar
  | .inr (.inl (q, false)) => .a1s q
  | .inr (.inl (q, true)) => .a1r q
  | .inr (.inr (.inl (q, s, false))) => .a2s (slot (yc c) q (s.val + 1))
  | .inr (.inr (.inl (q, s, true))) => .a2r (slot (yc c) q (s.val + 1))
  | .inr (.inr (.inr (q, s, false))) => .bs (slot (zc c) q (s.val + 1))
  | .inr (.inr (.inr (q, s, true))) => .br (slot (zc c) q (s.val + 1))

/-- The token's duty. -/
def dutyJ : TokIx → D
  | .inl k => k
  | .inr _ => 0

theorem tok_dev (c : Dev nD) (j : TokIx) : (tokOf (c, j)).1.1.1 = c := by
  rcases j with k | (⟨q, b⟩ | (⟨q, s, b⟩ | ⟨q, s, b⟩)) <;> (try cases b) <;> rfl

theorem tok_duty (c : Dev nD) (j : TokIx) : (tokOf (c, j)).2.2 = dutyJ j := by
  rcases j with k | (⟨q, b⟩ | (⟨q, s, b⟩ | ⟨q, s, b⟩)) <;> (try cases b) <;> rfl

theorem tok_kind (c : Dev nD) (j : TokIx) : kindOf (tokOf (c, j)).1.2 = kindJ c j := by
  rcases j with k | (⟨q, b⟩ | (⟨q, s, b⟩ | ⟨q, s, b⟩)) <;> (try cases b)
  · exact kind_bar
  · exact kind_a1s q
  · exact kind_a1r q
  · exact kind_a2s _
  · exact kind_a2r _
  · exact kind_bs _
  · exact kind_br _

theorem slot_inj (v : ℕ) (q q' : Fin 8) (s s' : Fin 3) (h : slot v q (s.val + 1) = slot v q' (s'.val + 1)) : q = q' ∧ s = s' := by
  have e := congrArg Fin.val h
  simp only [Cert.Mesh.slot_val] at e
  have := s.isLt; have := s'.isLt
  exact ⟨Fin.ext (by omega), Fin.ext (by omega)⟩

theorem kindJ_inj (c : Dev nD) (j j' : TokIx) (hk : kindJ c j = kindJ c j') (hd : dutyJ j = dutyJ j') : j = j' := by
  rcases j with k | (⟨q, b⟩ | (⟨q, s, b⟩ | ⟨q, s, b⟩)) <;> rcases j' with k' | (⟨q', b'⟩ | (⟨q', s', b'⟩ | ⟨q', s', b'⟩)) <;>
    (try cases b) <;> (try cases b') <;>
    first
    | (exfalso; simpa [kindJ] using hk)
    | (simp only [dutyJ] at hd; subst hd; rfl)
    | (simp only [kindJ, CK.a1s.injEq, CK.a1r.injEq] at hk; subst hk; rfl)
    | (simp only [kindJ, CK.a2s.injEq, CK.a2r.injEq, CK.bs.injEq, CK.br.injEq] at hk
       obtain ⟨rfl, rfl⟩ := slot_inj _ _ _ _ _ hk
       rfl)

theorem tokOf_injective : Function.Injective (tokOf : Dev nD × TokIx → GSem nD τ sig × ℕ × D) := by
  rintro ⟨c, j⟩ ⟨c', j'⟩ h
  have hc : c = c' := by
    have := congrArg (fun x : GSem nD τ sig × ℕ × D => x.1.1.1) h
    simpa only [tok_dev] using this
  subst hc
  have hk : kindJ c j = kindJ c j' := by
    rw [← tok_kind, ← tok_kind]; exact congrArg (fun x : GSem nD τ sig × ℕ × D => kindOf x.1.2) h
  have hd : dutyJ j = dutyJ j' := by
    rw [← tok_duty c j, ← tok_duty c j']; exact congrArg (fun x : GSem nD τ sig × ℕ × D => x.2.2) h
  rw [kindJ_inj c j j' hk hd]

/-- The minted tokens: every device's, every index's. -/
def protoToks : Finset (GSem nD τ sig × ℕ × D) := Finset.univ.map ⟨tokOf, tokOf_injective⟩

omit [FloatOps F] in
theorem three_eq (Ψ : ℕ → sProp 𝕄) : three Ψ = bigSep Finset.univ (fun s : Fin 3 => Ψ (s.val + 1)) :=
  (bigSep_univ_eq_bigSepL [0, 1, 2] (by decide) (by decide) (fun s : Fin 3 => Ψ (s.val + 1))).symm

omit [FloatOps F] in
theorem pair_eq (Ψ : Bool → sProp 𝕄) : bigSep Finset.univ Ψ = iprop(Ψ false ∗ Ψ true) :=
  bigSep_univ_eq_bigSepL [false, true] (by decide) (by decide) Ψ

omit [FloatOps F] in
theorem seven_eq (Ψ : Fin 7 → sProp 𝕄) : bigSep Finset.univ Ψ = iprop(Ψ 0 ∗ Ψ 1 ∗ Ψ 2 ∗ Ψ 3 ∗ Ψ 4 ∗ Ψ 5 ∗ Ψ 6) :=
  bigSep_univ_eq_bigSepL [0, 1, 2, 3, 4, 5, 6] (by decide) (by decide) Ψ

omit [FloatOps F] in
theorem assoc7_mp (b0 b1 b2 b3 b4 b5 b6 r : sProp 𝕄) :
    iprop((b0 ∗ b1 ∗ b2 ∗ b3 ∗ b4 ∗ b5 ∗ b6) ∗ r) ⊢ iprop(b0 ∗ b1 ∗ b2 ∗ b3 ∗ b4 ∗ b5 ∗ b6 ∗ r) := by
  iintro ⟨⟨H0, H1, H2, H3, H4, H5, H6⟩, Hr⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hr

omit [FloatOps F] in
theorem assoc7_mpr (b0 b1 b2 b3 b4 b5 b6 r : sProp 𝕄) :
    iprop(b0 ∗ b1 ∗ b2 ∗ b3 ∗ b4 ∗ b5 ∗ b6 ∗ r) ⊢ iprop((b0 ∗ b1 ∗ b2 ∗ b3 ∗ b4 ∗ b5 ∗ b6) ∗ r) := by
  iintro ⟨H0, H1, H2, H3, H4, H5, H6, Hr⟩
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

omit [FloatOps F] in
theorem assoc7 (b0 b1 b2 b3 b4 b5 b6 r : sProp 𝕄) :
    iprop((b0 ∗ b1 ∗ b2 ∗ b3 ∗ b4 ∗ b5 ∗ b6) ∗ r) = iprop(b0 ∗ b1 ∗ b2 ∗ b3 ∗ b4 ∗ b5 ∗ b6 ∗ r) :=
  BI.equiv_iff.mp ⟨assoc7_mp b0 b1 b2 b3 b4 b5 b6 r, assoc7_mpr b0 b1 b2 b3 b4 b5 b6 r⟩

omit [FloatOps F] in
/-- One device's tokens, enumerated, are its bundle. -/
theorem toks_of_dev (c : Dev nD) :
    bigSep Finset.univ (fun j : TokIx => (dutyTok ER (tokOf (c, j)).1 (tokOf (c, j)).2.1 (tokOf (c, j)).2.2 : sProp 𝕄)) = ownToks c := by
  rw [bigSep_univ_sum, bigSep_univ_sum, bigSep_univ_sum, seven_eq]
  unfold ownToks
  rw [← assoc7]
  congr 1
  congr 1
  · rw [bigSep_univ_prod, eight_eq]
    refine bigSep_congr fun q _ => ?_
    rw [pair_eq]; rfl
  congr 1
  · rw [bigSep_univ_prod, eight_eq]
    refine bigSep_congr fun q _ => ?_
    rw [bigSep_univ_prod, three_eq]
    refine bigSep_congr fun s _ => ?_
    rw [pair_eq]; rfl
  · rw [bigSep_univ_prod, eight_eq]
    refine bigSep_congr fun q _ => ?_
    rw [bigSep_univ_prod, three_eq]
    refine bigSep_congr fun s _ => ?_
    rw [pair_eq]; rfl

omit [FloatOps F] in
/-- The minted tokens are the devices' bundles. -/
theorem protoToks_eq :
    bigSep protoToks (fun x => (dutyTok ER x.1 x.2.1 x.2.2 : sProp 𝕄)) = bigSep Finset.univ fun c : Dev nD => (ownToks c : sProp 𝕄) := by
  unfold protoToks
  rw [bigSep_map, bigSep_univ_prod]
  exact bigSep_congr fun c _ => toks_of_dev c

end Cert.Kernel.LaunchDeal

end
-- ==== Proof.Word.ProtoCred.lean ====
/-
  The launch credit: what the devices owe, summed over the payers, is on each device exactly the credit its own
  waits consume: seven barrier units, one slot credit per copy it receives.
-/
import proofs.«900893_g7700000000000894_dist_matmul_mk_i_outk_m1024_n1024_k512_v7x_i32_f32_1_alg».proof.Proof.Word.ProtoTables
import proofs.«900893_g7700000000000894_dist_matmul_mk_i_outk_m1024_n1024_k512_v7x_i32_f32_1_alg».proof.Proof.Word.Ghost
import Mathlib.Tactic.Abel

noncomputable section

namespace Cert.Kernel.Proto

open Cert.Kernel Cert.Kernel.Gen
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peer maps as permutations of the devices -/

def ePartner : Dev nD ≃ Dev nD := ⟨partner, partner, MeshFacts.partner_partner, MeshFacts.partner_partner⟩
def eRail1 : Dev nD ≃ Dev nD := ⟨fun d => rail d 1, fun d => rail d 3, MeshFacts.rail_rail_1, MeshFacts.rail_rail_3⟩
def eRail2 : Dev nD ≃ Dev nD := ⟨fun d => rail d 2, fun d => rail d 2, MeshFacts.rail_rail_2, MeshFacts.rail_rail_2⟩
def eRail3 : Dev nD ≃ Dev nD := ⟨fun d => rail d 3, fun d => rail d 1, MeshFacts.rail_rail_3, MeshFacts.rail_rail_1⟩
def eZ1 : Dev nD ≃ Dev nD := ⟨fun d => zpeer d 1, fun d => zpeer d 3, MeshFacts.zpeer_zpeer_1, MeshFacts.zpeer_zpeer_3⟩
def eZ2 : Dev nD ≃ Dev nD := ⟨fun d => zpeer d 2, fun d => zpeer d 2, MeshFacts.zpeer_zpeer_2, MeshFacts.zpeer_zpeer_2⟩
def eZ3 : Dev nD ≃ Dev nD := ⟨fun d => zpeer d 3, fun d => zpeer d 1, MeshFacts.zpeer_zpeer_3, MeshFacts.zpeer_zpeer_1⟩

/-! ## Each payment summed over the payers is a sum over the receivers -/

theorem sum_bar_partner : (∑ d : Dev nD, tallyAt (barCell (partner d)) () 1 : CellTallies nD τ sig Unit) = ∑ e : Dev nD, tallyAt (barCell e) () 1 :=
  Equiv.sum_comp ePartner fun e => (tallyAt (barCell e) () 1 : CellTallies nD τ sig Unit)
theorem sum_bar_rail1 : (∑ d : Dev nD, tallyAt (barCell (rail d 1)) () 1 : CellTallies nD τ sig Unit) = ∑ e : Dev nD, tallyAt (barCell e) () 1 :=
  Equiv.sum_comp eRail1 fun e => (tallyAt (barCell e) () 1 : CellTallies nD τ sig Unit)
theorem sum_bar_zpeer1 : (∑ d : Dev nD, tallyAt (barCell (zpeer d 1)) () 1 : CellTallies nD τ sig Unit) = ∑ e : Dev nD, tallyAt (barCell e) () 1 :=
  Equiv.sum_comp eZ1 fun e => (tallyAt (barCell e) () 1 : CellTallies nD τ sig Unit)
theorem sum_bar_rail2 : (∑ d : Dev nD, tallyAt (barCell (rail d 2)) () 1 : CellTallies nD τ sig Unit) = ∑ e : Dev nD, tallyAt (barCell e) () 1 :=
  Equiv.sum_comp eRail2 fun e => (tallyAt (barCell e) () 1 : CellTallies nD τ sig Unit)
theorem sum_bar_zpeer2 : (∑ d : Dev nD, tallyAt (barCell (zpeer d 2)) () 1 : CellTallies nD τ sig Unit) = ∑ e : Dev nD, tallyAt (barCell e) () 1 :=
  Equiv.sum_comp eZ2 fun e => (tallyAt (barCell e) () 1 : CellTallies nD τ sig Unit)
theorem sum_bar_rail3 : (∑ d : Dev nD, tallyAt (barCell (rail d 3)) () 1 : CellTallies nD τ sig Unit) = ∑ e : Dev nD, tallyAt (barCell e) () 1 :=
  Equiv.sum_comp eRail3 fun e => (tallyAt (barCell e) () 1 : CellTallies nD τ sig Unit)
theorem sum_bar_zpeer3 : (∑ d : Dev nD, tallyAt (barCell (zpeer d 3)) () 1 : CellTallies nD τ sig Unit) = ∑ e : Dev nD, tallyAt (barCell e) () 1 :=
  Equiv.sum_comp eZ3 fun e => (tallyAt (barCell e) () 1 : CellTallies nD τ sig Unit)
theorem sum_a1r (q : Fin 8) : (∑ d : Dev nD, tallyAt (a1rCell (partner d) q) () N1 : CellTallies nD τ sig Unit) = ∑ e : Dev nD, tallyAt (a1rCell e q) () N1 :=
  Equiv.sum_comp ePartner fun e => (tallyAt (a1rCell e q) () N1 : CellTallies nD τ sig Unit)

theorem slot_rail (d : Dev nD) (q : Fin 8) (s t : ℕ) (h : (s + t) % 4 = 0) : slot (yc d) q 0 = slot (yc (rail d s)) q t :=
  Fin.ext (by simp only [Cert.Mesh.slot_val, MeshFacts.yc_rail]; have := yc_lt d; omega)
theorem slot_zpeer (d : Dev nD) (q : Fin 8) (s t : ℕ) (h : (s + t) % 4 = 0) : slot (zc d) q 0 = slot (zc (zpeer d s)) q t :=
  Fin.ext (by simp only [Cert.Mesh.slot_val, MeshFacts.zc_zpeer]; have := zc_lt d; omega)
theorem sum_a2r_1 (q : Fin 8) : (∑ d : Dev nD, tallyAt (a2rCell (rail d 1) (slot (yc d) q 0)) () N2 : CellTallies nD τ sig Unit)
    = ∑ e : Dev nD, tallyAt (a2rCell e (slot (yc e) q 3)) () N2 := by
  rw [Finset.sum_congr rfl fun d _ => by rw [slot_rail d q 1 3 (by decide)]]
  exact Equiv.sum_comp eRail1 fun e => (tallyAt (a2rCell e (slot (yc e) q 3)) () N2 : CellTallies nD τ sig Unit)
theorem sum_br_1 (q : Fin 8) : (∑ d : Dev nD, tallyAt (brCell (zpeer d 1) (slot (zc d) q 0)) () N3 : CellTallies nD τ sig Unit)
    = ∑ e : Dev nD, tallyAt (brCell e (slot (zc e) q 3)) () N3 := by
  rw [Finset.sum_congr rfl fun d _ => by rw [slot_zpeer d q 1 3 (by decide)]]
  exact Equiv.sum_comp eZ1 fun e => (tallyAt (brCell e (slot (zc e) q 3)) () N3 : CellTallies nD τ sig Unit)
theorem sum_a2r_2 (q : Fin 8) : (∑ d : Dev nD, tallyAt (a2rCell (rail d 2) (slot (yc d) q 0)) () N2 : CellTallies nD τ sig Unit)
    = ∑ e : Dev nD, tallyAt (a2rCell e (slot (yc e) q 2)) () N2 := by
  rw [Finset.sum_congr rfl fun d _ => by rw [slot_rail d q 2 2 (by decide)]]
  exact Equiv.sum_comp eRail2 fun e => (tallyAt (a2rCell e (slot (yc e) q 2)) () N2 : CellTallies nD τ sig Unit)
theorem sum_br_2 (q : Fin 8) : (∑ d : Dev nD, tallyAt (brCell (zpeer d 2) (slot (zc d) q 0)) () N3 : CellTallies nD τ sig Unit)
    = ∑ e : Dev nD, tallyAt (brCell e (slot (zc e) q 2)) () N3 := by
  rw [Finset.sum_congr rfl fun d _ => by rw [slot_zpeer d q 2 2 (by decide)]]
  exact Equiv.sum_comp eZ2 fun e => (tallyAt (brCell e (slot (zc e) q 2)) () N3 : CellTallies nD τ sig Unit)
theorem sum_a2r_3 (q : Fin 8) : (∑ d : Dev nD, tallyAt (a2rCell (rail d 3) (slot (yc d) q 0)) () N2 : CellTallies nD τ sig Unit)
    = ∑ e : Dev nD, tallyAt (a2rCell e (slot (yc e) q 1)) () N2 := by
  rw [Finset.sum_congr rfl fun d _ => by rw [slot_rail d q 3 1 (by decide)]]
  exact Equiv.sum_comp eRail3 fun e => (tallyAt (a2rCell e (slot (yc e) q 1)) () N2 : CellTallies nD τ sig Unit)
theorem sum_br_3 (q : Fin 8) : (∑ d : Dev nD, tallyAt (brCell (zpeer d 3) (slot (zc d) q 0)) () N3 : CellTallies nD τ sig Unit)
    = ∑ e : Dev nD, tallyAt (brCell e (slot (zc e) q 1)) () N3 := by
  rw [Finset.sum_congr rfl fun d _ => by rw [slot_zpeer d q 3 1 (by decide)]]
  exact Equiv.sum_comp eZ3 fun e => (tallyAt (brCell e (slot (zc e) q 1)) () N3 : CellTallies nD τ sig Unit)

/-! ## The credit a device is dealt -/

/-- Sums over the chunks 0 … 7 and over the steps 1, 2, 3, nested as the conjunctions of the ghost state are. -/
def sum8 (Φ : Fin 8 → CellTallies nD τ sig Unit) : CellTallies nD τ sig Unit := Φ 0 + (Φ 1 + (Φ 2 + (Φ 3 + (Φ 4 + (Φ 5 + (Φ 6 + Φ 7))))))
def sum3 (Φ : ℕ → CellTallies nD τ sig Unit) : CellTallies nD τ sig Unit := Φ 1 + (Φ 2 + Φ 3)

/-- What the others owe device `c`'s cells: seven units on its barrier cell, a slot's credit on each receive cell
    that has a payer. -/
def Tcred (c : Dev nD) : CellTallies nD τ sig Unit :=
  tallyAt (barCell c) () 7
    + (sum8 (fun q => tallyAt (a1rCell c q) () N1)
      + (sum8 (fun q => sum3 fun s => tallyAt (a2rCell c (slot (yc c) q s)) () N2)
        + sum8 (fun q => sum3 fun s => tallyAt (brCell c (slot (zc c) q s)) () N3)))

theorem sum_bar7 : (∑ d : Dev nD, tallyAt (barCell d) () 7 : CellTallies nD τ sig Unit)
    = (∑ e : Dev nD, tallyAt (barCell e) () 1) + (∑ e : Dev nD, tallyAt (barCell e) () 1) + (∑ e : Dev nD, tallyAt (barCell e) () 1) + (∑ e : Dev nD, tallyAt (barCell e) () 1)
      + (∑ e : Dev nD, tallyAt (barCell e) () 1) + (∑ e : Dev nD, tallyAt (barCell e) () 1) + (∑ e : Dev nD, tallyAt (barCell e) () 1) := by
  simp only [← Finset.sum_add_distrib, tallyAt_add]

/-- Summed over the devices, what is owed is what is dealt. -/
theorem owed_sum : (∑ d : Dev nD, O₀ d) = ∑ d : Dev nD, Tcred d := by
  unfold O₀ O1 O2 O3 Tcred sum8 sum3
  simp only [Finset.sum_add_distrib, sum_bar_partner, sum_bar_rail1, sum_bar_rail2, sum_bar_rail3, sum_bar_zpeer1, sum_bar_zpeer2, sum_bar_zpeer3,
    sum_a1r, sum_a2r_1, sum_a2r_2, sum_a2r_3, sum_br_1, sum_br_2, sum_br_3, sum_bar7]
  abel

theorem tallyAt_off (d : Dev nD) (sm : SemLoc sig) (n : ℕ) (g : GSem nD τ sig) (h : g.1 ≠ (d.tc : Thread nD τ)) :
    (tallyAt (((d.tc : Thread nD τ)), sm) () n : CellTallies nD τ sig Unit) g = 0 :=
  tallyAt_ne_cell (fun e => h (congrArg Prod.fst e)) _ _

/-- A device's dealt credit sits on its own cells. -/
theorem Tcred_own (d : Dev nD) (g : GSem nD τ sig) (hg : Tcred d g ≠ 0) : g.1 = (d.tc : Thread nD τ) := by
  by_contra h
  refine hg ?_
  unfold Tcred sum8 sum3
  simp only [Pi.add_apply, tallyAt_off d _ _ g h, add_zero]

omit [FloatOps F] in
theorem cred_add' (T₁ T₂ : CellTallies nD τ sig Unit) : (cred (T₁ + T₂) : sProp 𝕄) = iprop(cred T₁ ∗ cred T₂) :=
  BI.Entails.antisymm (cred_add _ _).1 (cred_add _ _).2

omit [FloatOps F] in
/-- A device's launch credit is its dealt credit, -/
theorem launchCred_eq (c : Dev nD) : (Pipeline.launchCred O₀ c : sProp 𝕄) = cred (Tcred c) :=
  Pipeline.launchCred_of_sum O₀ Tcred owed_sum Tcred_own c

omit [FloatOps F] in
/-- … cell by cell. -/
theorem creds (c : Dev nD) : (Pipeline.launchCred O₀ c : sProp 𝕄) ⊢ Ghost.credits c := by
  rw [launchCred_eq]
  unfold Tcred sum8 sum3 Ghost.credits Ghost.eight Ghost.three
  simp only [cred_add']
  exact .rfl

end Cert.Kernel.Proto

end
-- ==== Proof.Word.Launch.lean ====
/-
  The launch: from the proof of every device's kernel body to the run of the whole program on the mesh. The
  launch element is the pipeline's own and the protocol's; the protocol's part is every device's cells and
  tokens; the global step allocates the cells and deals the tokens to the devices that pay them; each device
  then holds its ghost state with the credit dealt for what the others owe it, and the body's invariant
  follows. The result window's contents are left unnamed: what is read off the run is that the two argument
  arrays of every device end as they began.
-/
import proofs.«900893_g7700000000000894_dist_matmul_mk_i_outk_m1024_n1024_k512_v7x_i32_f32_1_alg».proof.Proof.Word.LaunchData
import proofs.«900893_g7700000000000894_dist_matmul_mk_i_outk_m1024_n1024_k512_v7x_i32_f32_1_alg».proof.Proof.Word.LaunchAlloc
import proofs.«900893_g7700000000000894_dist_matmul_mk_i_outk_m1024_n1024_k512_v7x_i32_f32_1_alg».proof.Proof.Word.LaunchDeal
import proofs.«900893_g7700000000000894_dist_matmul_mk_i_outk_m1024_n1024_k512_v7x_i32_f32_1_alg».proof.Proof.Word.ProtoCred
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Proto Cert.Kernel.Ghost
open Cert.Kernel.LaunchSems (osem ownSemFacts ownSems0_eq unscopedSems0_eq)
open Cert.Kernel.LaunchData Cert.Kernel.LaunchAlloc Cert.Kernel.LaunchDeal
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Rd : Rounds.Schedule (GSem nD τ sig) D (MT nD τ sig Unit (Elt F) ℕ UU ℕ))
  [hRd : ∀ g r d, BI.Storable (upEmb : UEmb _ (MT nD τ sig Unit (Elt F) ℕ UU ℕ)) (Rd.payload g r d)]
variable (m : (ℓ : Loc nD τ sig) → Buf (Elt F) ℓ) (ρ : Dev nD → PrngReg)

/-- The proof data read as relational data, the result window forgotten. -/
def rdats (p : Fin 1) (c : Dev nD) : Pipeline.RDat τ (Elt F) Unit ℕ UU ℕ (cfgs p) c := (dats Rd m p c).toRForget fgt2

theorem share_eq (c : Dev nD) (w : Fin cfg0.W) : (rdats Rd m 0 c).share w = fullShare := by
  show (dats Rd m 0 c).share w = fullShare
  unfold Dat.share; split <;> rfl

/-- The launch element: the pipeline library's own and the protocol's. -/
def u₀ : UU :=
  (initOf (Pipeline.cells cfgs cellOf_inj) (Pipeline.launchToks cfgs cellOf_inj), initOf protoCells protoToks)

/-- What the launch element deals device `c`. -/
def G (c : Dev nD) : sProp 𝕄 := iprop(cellsG Rd c ∗ ownToks c)

theorem fund_all : BI.own (ER (initOf protoCells protoToks)) ⊢ (|==> bigSep Finset.univ (G Rd) : sProp 𝕄) := by
  iintro HX
  imod (fund_cells Rd protoToks) $$ HX with ⟨HG, Htok⟩
  imodintro
  ihave Htok' := (Entails.of_eq (protoToks_eq (F := F))) $$ Htok
  unfold G; rw [bigSep_sep']
  isplitl [HG] <;> iassumption

theorem glob_all :
    (bigSep Finset.univ fun c => iprop(Pipeline.ownSems0 (Ix := Unit) (Name := ℕ) (U := UU) (Lvl := ℕ) (Val := Elt F) (τ := τ) osem c ∗ unscopedSems0 c ∗ G Rd c) : sProp 𝕄)
      ⊢ |={Set.univ}=> bigSep Finset.univ (G' Rd) :=
  glob Rd ownToks (deal (F := F))

/-- What a device's body starts from, the scratch buffers apart. -/
def X (c : Dev nD) : sProp 𝕄 := iprop((∃ K, ghost Rd K c) ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Rd c)
      ⊢ |={Set.univ}=> iprop(X Rd c ∗ emp) := by
  iintro ⟨-, Hlev, Hcr, -, HG⟩
  ihave Hc := (creds (F := F) c) $$ Hcr
  unfold G'
  icases HG with ⟨%K, HR, Hp, Ht⟩
  imodintro
  unfold X ghost
  isplitl
  · isplitl [HR Hp Ht Hc]
    · iexists K
      isplitl [HR]; · iexact HR
      isplitl [Hp]; · iexact Hp
      isplitl [Ht]; · iexact Ht
      iexact Hc
    · iexact Hlev
  · iempintro

theorem phi0_intro (c : Dev nD) :
    iprop(X Rd c ∗ Pipeline.prefHeld Pipeline.Prefetch.none c (fun _ => fullShare.right) (fun k => k.elim0) ∗ Pipeline.scopedRest cfg0.spec c)
      ⊢ (rdats Rd m 0 c).Φ 0 := by
  show _ ⊢ Φ₀ Rd c
  unfold Φ₀ X
  iintro ⟨⟨HG, Hl⟩, -, Hr⟩
  isplitl [HG]; · iexact HG
  isplitl [Hl] <;> iassumption

theorem phi1_exit (c : Dev nD) :
    (rdats Rd m 0 c).Φ (Fin.last cfg0.N) ⊢ iprop(emp ∗ Pipeline.ownSems0 osem c ∗ Pipeline.scopedRest cfg0.spec c) := by
  show Φ₁ c ⊢ _
  unfold Φ₁
  iintro ⟨Hs, Hr⟩
  isplitr; · iempintro
  isplitl [Hs] <;> iassumption

theorem waits (c : Dev nD) : (levAts L lv : sProp 𝕄) ⊢ Pipeline.RDat.cellsWaits cfgs (rdats Rd m) () 0 c :=
  Pipeline.RDat.cellsWaits_intro cfgs (rdats Rd m) () 0 c fun w s t => by
    have hn : (((cfgs 0).win w).sem s).val < 3 := by fin_cases w <;> fin_cases s <;> decide
    rcases t with ⟨_ | _, ht⟩
    · exact mayWait_stage c _ hn 0
    · exact mayWait_none c _

set_option maxRecDepth 8000 in
/-- At the compiled mesh, from any memory with zero counters: if every device's kernel body meets its obligation (the
    result window's contents left unnamed), every weakly fair execution of the program terminates, and both argument
    arrays of every device end unchanged. -/
theorem frame_of_body (hbody : ∀ c, BodyObligation (dats Rd m 0 c) (defs₀ (F := F)) Variants.none () Set.univ fgt2) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_region_owing_glob_pf (fun p => (cfgs p).toPCfg) (fun p => (cfgs p).toPCfg_adm) (rdats Rd m) () cellOf_inj (0 : Fin 1)
    winFacts0.to₀ ownSemFacts (Pipeline.PreFacts.none _) EP defs₀ Variants.none m ρ main
    (hmain := fun _ => rfl)
    (hbody := fun c => (hbody c).toRForget) (hne := fun w => by fin_cases w <;> exact Nat.succ_pos _) (harr := arr_whole0) (hstage := stage_whole0)
    (hshare := share_eq Rd m)
    (hdistinct := winFacts0.arr_inj)
    (O₀ := O₀) (howed₀ := fun _ => rfl) (howedN := fun _ => rfl)
    (L := L) (lv := lv) (hL := L_of_ne) (hwaits := waits Rd m)
    (G := G Rd) (G' := G' Rd) (u₀ := u₀)
    (hu₀ := by
      unfold u₀
      iintro Hu
      ihave H := (ownU_pair _ _) $$ Hu
      icases H with ⟨HP, HX⟩
      imod (fund_all Rd) $$ HX with HG
      imodintro
      isplitl [HP] <;> iassumption)
    (hglob := glob_all Rd)
    (hA := fun _ _ => rfl) (hpf := fun _ k => k.elim0)
    (X := X Rd) (Y := fun _ => iprop(emp)) (Z := fun _ => iprop(emp))
    (hX := start_intro Rd m ρ) (hin := phi0_intro Rd m) (hout := phi1_exit Rd m)
    (QY := fun _ _ => True)
    (hY := fun c s' => by
      iintro ⟨-, -, HSI⟩
      imodintro
      isplitr; · ipureintro; trivial
      iexact HSI)
    (hQ := fun s h c =>
      ⟨(congrFun (Pipeline.RDat.ArrAt_in (rdats Rd m 0 c) (0 : Fin 3) rfl _) _).mp ((h c).1 0),
       (congrFun (Pipeline.RDat.ArrAt_in (rdats Rd m 0 c) (1 : Fin 3) rfl _) _).mp ((h c).1 1)⟩)

/-- info: 'Cert.Kernel.Launch.frame_of_body' depends on axioms: [propext, Classical.choice, Quot.sound] -/
#guard_msgs in #print axioms frame_of_body

end Cert.Kernel.Launch

end
-- ==== Proof.Word.BodyWrap.lean ====
/-
  The kernel body's lemma handed to the launch: the body's own precondition and postcondition written out
  buffer by buffer, and the step from a proof of the body between the two to the pipeline's body obligation
  at its one grid point (the result window's staging contents are not named).
-/
import proofs.«900893_g7700000000000894_dist_matmul_mk_i_outk_m1024_n1024_k512_v7x_i32_f32_1_alg».proof.Proof.Word.LaunchData
import proofs.«900893_g7700000000000894_dist_matmul_mk_i_outk_m1024_n1024_k512_v7x_i32_f32_1_alg».proof.Proof.Gen.Kernel.Launch
import proofs.«900893_g7700000000000894_dist_matmul_mk_i_outk_m1024_n1024_k512_v7x_i32_f32_1_alg».proof.Proof.Gen.Kernel.Points

noncomputable section

namespace Cert.Kernel.BodyWrap

open Cert.Kernel Cert.Kernel.Gen Cert.Kernel.Proto Cert.Kernel.Ghost Cert.Kernel.LaunchData
open Cert.Kernel.LaunchSems (osem ownSemFacts ownSems0_eq unscopedSems0_eq)
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body's own pre- and postcondition -/

/-- What the body starts from: the protocol's ghost state, the level facts, what the device owes, the two input
    staging buffers at the device's blocks of the arguments, the result staging buffer and the nine scratch
    buffers at some contents. -/
def bodyPre (Rd : Rounds.Schedule (GSem nD τ sig) D (MT nD τ sig Unit (Elt F) ℕ UU ℕ)) (m : (ℓ : Loc nD τ sig) → Buf (Elt F) ℓ)
    (K : GSem nD τ sig → ℕ) (c : Dev nD) (W : Waits sig Unit)
    (o0 : Buf (Elt F) ((c : Thread nD τ).loc cc0_stg2_0))
    (f0 : Buf (Elt F) ((c : Thread nD τ).loc cc0_scratch0))
    (f1 : Buf (Elt F) ((c : Thread nD τ).loc cc0_scratch1))
    (f2 : Buf (Elt F) ((c : Thread nD τ).loc cc0_scratch2))
    (f3 : Buf (Elt F) ((c : Thread nD τ).loc cc0_scratch3))
    (f4 : Buf (Elt F) ((c : Thread nD τ).loc cc0_scratch4))
    (f5 : Buf (Elt F) ((c : Thread nD τ).loc cc0_scratch5))
    (f6 : Buf (Elt F) ((c : Thread nD τ).loc cc0_scratch6))
    (f7 : Buf (Elt F) ((c : Thread nD τ).loc cc0_scratch7))
    (f8 : Buf (Elt F) ((c : Thread nD τ).loc cc0_scratch8)) : sProp 𝕄 :=
  iprop(ghost Rd K c ∗ levAts L lv ∗ owes (c : Thread nD τ) (O₀ c) W
    ∗ ((Memref.whole cc0_stg0_0 : Memref sig .tc _ _ _).view.loc (c : Thread nD τ) ↦{fullShare} astg m c)
    ∗ ((Memref.whole cc0_stg1_0 : Memref sig .tc _ _ _).view.loc (c : Thread nD τ) ↦{fullShare} bstg m c)
    ∗ ((Memref.whole cc0_stg2_0 : Memref sig .tc _ _ _).view.loc (c : Thread nD τ) ↦{fullShare} o0)
    ∗ ((Memref.whole cc0_scratch0 : Memref sig .tc _ _ _).view.loc (c : Thread nD τ) ↦{fullShare} f0)
    ∗ ((Memref.whole cc0_scratch1 : Memref sig .tc _ _ _).view.loc (c : Thread nD τ) ↦{fullShare} f1)
    ∗ ((Memref.whole cc0_scratch2 : Memref sig .tc _ _ _).view.loc (c : Thread nD τ) ↦{fullShare} f2)
    ∗ ((Memref.whole cc0_scratch3 : Memref sig .tc _ _ _).view.loc (c : Thread nD τ) ↦{fullShare} f3)
    ∗ ((Memref.whole cc0_scratch4 : Memref sig .tc _ _ _).view.loc (c : Thread nD τ) ↦{fullShare} f4)
    ∗ ((Memref.whole cc0_scratch5 : Memref sig .tc _ _ _).view.loc (c : Thread nD τ) ↦{fullShare} f5)
    ∗ ((Memref.whole cc0_scratch6 : Memref sig .tc _ _ _).view.loc (c : Thread nD τ) ↦{fullShare} f6)
    ∗ ((Memref.whole cc0_scratch7 : Memref sig .tc _ _ _).view.loc (c : Thread nD τ) ↦{fullShare} f7)
    ∗ ((Memref.whole cc0_scratch8 : Memref sig .tc _ _ _).view.loc (c : Thread nD τ) ↦{fullShare} f8))

/-- What the body ends with: nothing owed, the two input staging buffers as they were, the result staging buffer
    and the nine scratch buffers at some contents, and the 144 own semaphores at zero. -/
def bodyPost (m : (ℓ : Loc nD τ sig) → Buf (Elt F) ℓ) (c : Dev nD) : sProp 𝕄 :=
  iprop((∃ W' : Waits sig Unit, owes (c : Thread nD τ) 0 W')
    ∗ ((Memref.whole cc0_stg0_0 : Memref sig .tc _ _ _).view.loc (c : Thread nD τ) ↦{fullShare} astg m c)
    ∗ ((Memref.whole cc0_stg1_0 : Memref sig .tc _ _ _).view.loc (c : Thread nD τ) ↦{fullShare} bstg m c)
    ∗ (∃ o : Buf (Elt F) ((c : Thread nD τ).loc cc0_stg2_0), ((Memref.whole cc0_stg2_0 : Memref sig .tc _ _ _).view.loc (c : Thread nD τ) ↦{fullShare} o))
    ∗ (∃ f : Buf (Elt F) ((c : Thread nD τ).loc cc0_scratch0), ((Memref.whole cc0_scratch0 : Memref sig .tc _ _ _).view.loc (c : Thread nD τ) ↦{fullShare} f))
    ∗ (∃ f : Buf (Elt F) ((c : Thread nD τ).loc cc0_scratch1), ((Memref.whole cc0_scratch1 : Memref sig .tc _ _ _).view.loc (c : Thread nD τ) ↦{fullShare} f))
    ∗ (∃ f : Buf (Elt F) ((c : Thread nD τ).loc cc0_scratch2), ((Memref.whole cc0_scratch2 : Memref sig .tc _ _ _).view.loc (c : Thread nD τ) ↦{fullShare} f))
    ∗ (∃ f : Buf (Elt F) ((c : Thread nD τ).loc cc0_scratch3), ((Memref.whole cc0_scratch3 : Memref sig .tc _ _ _).view.loc (c : Thread nD τ) ↦{fullShare} f))
    ∗ (∃ f : Buf (Elt F) ((c : Thread nD τ).loc cc0_scratch4), ((Memref.whole cc0_scratch4 : Memref sig .tc _ _ _).view.loc (c : Thread nD τ) ↦{fullShare} f))
    ∗ (∃ f : Buf (Elt F) ((c : Thread nD τ).loc cc0_scratch5), ((Memref.whole cc0_scratch5 : Memref sig .tc _ _ _).view.loc (c : Thread nD τ) ↦{fullShare} f))
    ∗ (∃ f : Buf (Elt F) ((c : Thread nD τ).loc cc0_scratch6), ((Memref.whole cc0_scratch6 : Memref sig .tc _ _ _).view.loc (c : Thread nD τ) ↦{fullShare} f))
    ∗ (∃ f : Buf (Elt F) ((c : Thread nD τ).loc cc0_scratch7), ((Memref.whole cc0_scratch7 : Memref sig .tc _ _ _).view.loc (c : Thread nD τ) ↦{fullShare} f))
    ∗ (∃ f : Buf (Elt F) ((c : Thread nD τ).loc cc0_scratch8), ((Memref.whole cc0_scratch8 : Memref sig .tc _ _ _).view.loc (c : Thread nD τ) ↦{fullShare} f))
    ∗ bigSep Finset.univ fun i : Fin 144 => semVal ((c : Thread nD τ), LaunchSems.osem i) 0)

/-- The body's lemma: on every device, from the body's precondition and a continuation that takes its
    postcondition, the body runs. -/
def Sound (Rd : Rounds.Schedule (GSem nD τ sig) D (MT nD τ sig Unit (Elt F) ℕ UU ℕ)) (m : (ℓ : Loc nD τ sig) → Buf (Elt F) ℓ) : Prop :=
  ∀ (c : Dev nD) (K : GSem nD τ sig → ℕ) (W : Waits sig Unit) (Kt : PUnit → sProp 𝕄)
      (o0 : Buf (Elt F) ((c : Thread nD τ).loc cc0_stg2_0))
      (f0 : Buf (Elt F) ((c : Thread nD τ).loc cc0_scratch0))
      (f1 : Buf (Elt F) ((c : Thread nD τ).loc cc0_scratch1))
      (f2 : Buf (Elt F) ((c : Thread nD τ).loc cc0_scratch2))
      (f3 : Buf (Elt F) ((c : Thread nD τ).loc cc0_scratch3))
      (f4 : Buf (Elt F) ((c : Thread nD τ).loc cc0_scratch4))
      (f5 : Buf (Elt F) ((c : Thread nD τ).loc cc0_scratch5))
      (f6 : Buf (Elt F) ((c : Thread nD τ).loc cc0_scratch6))
      (f7 : Buf (Elt F) ((c : Thread nD τ).loc cc0_scratch7))
      (f8 : Buf (Elt F) ((c : Thread nD τ).loc cc0_scratch8)),
      iprop(bodyPre Rd m K c W o0 f0 f1 f2 f3 f4 f5 f6 f7 f8 ∗ (bodyPost m c -∗ Kt ⟨⟩))
        ⊢ wp frame (wpE (defs₀ (F := F)) Variants.none (c : Thread nD τ) none) Set.univ
          (cc0_body (F := F) (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 cc0_scratch12 cc0_scratch13 cc0_scratch14) Kt

/-! ## From the body's lemma to the pipeline's obligation -/

/-- A staging or scratch buffer whole at given contents, in the form the pipeline's obligation states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The obligation's precondition at the one point. -/
def bodyPre' (Rd : Rounds.Schedule (GSem nD τ sig) D (MT nD τ sig Unit (Elt F) ℕ UU ℕ)) (m : (ℓ : Loc nD τ sig) → Buf (Elt F) ℓ) (c : Dev nD) : sProp 𝕄 :=
  iprop(Φ₀ Rd c ∗ (dats Rd m 0 c).owesAt () t0_0.castSucc
    ∗ (∃ d, stg c cc0_stg0_0 ((dats Rd m 0 c).before (0 : Fin 3) t0_0 d))
    ∗ (∃ d, stg c cc0_stg1_0 ((dats Rd m 0 c).before (1 : Fin 3) t0_0 d))
    ∗ (∃ X, stg c cc0_stg2_0 X))

/-- The obligation's postcondition at the one point. -/
def bodyPost' (Rd : Rounds.Schedule (GSem nD τ sig) D (MT nD τ sig Unit (Elt F) ℕ UU ℕ)) (m : (ℓ : Loc nD τ sig) → Buf (Elt F) ℓ) (c : Dev nD) : sProp 𝕄 :=
  iprop(Φ₁ c ∗ (dats Rd m 0 c).owesAt () t0_0.succ
    ∗ stg c cc0_stg0_0 (astg m c) ∗ stg c cc0_stg1_0 (bstg m c) ∗ (∃ X, stg c cc0_stg2_0 X))

theorem before_0 (Rd : Rounds.Schedule (GSem nD τ sig) D (MT nD τ sig Unit (Elt F) ℕ UU ℕ)) (m : (ℓ : Loc nD τ sig) → Buf (Elt F) ℓ) (c : Dev nD)
    (d : (cfg0.win (0 : Fin 3)).block.Idx → Elt F (cfg0.win (0 : Fin 3)).elt) :
    (dats Rd m 0 c).before (0 : Fin 3) t0_0 d = astg m c := by
  unfold Dat.before; rw [if_pos (fetch0_0 t0_0)]; rfl

theorem before_1 (Rd : Rounds.Schedule (GSem nD τ sig) D (MT nD τ sig Unit (Elt F) ℕ UU ℕ)) (m : (ℓ : Loc nD τ sig) → Buf (Elt F) ℓ) (c : Dev nD)
    (d : (cfg0.win (1 : Fin 3)).block.Idx → Elt F (cfg0.win (1 : Fin 3)).elt) :
    (dats Rd m 0 c).before (1 : Fin 3) t0_0 d = bstg m c := by
  unfold Dat.before; rw [if_pos (fetch0_1 t0_0)]; rfl

set_option maxRecDepth 100000 in
set_option maxHeartbeats 1600000 in
/-- The pipeline's body obligation on every device, from the body's lemma. -/
theorem body_obligation (Rd : Rounds.Schedule (GSem nD τ sig) D (MT nD τ sig Unit (Elt F) ℕ UU ℕ)) (m : (ℓ : Loc nD τ sig) → Buf (Elt F) ℓ)
    (hsound : Sound Rd m) :
    ∀ c : Dev nD, BodyObligation (dats Rd m 0 c) (defs₀ (F := F)) Variants.none () Set.univ fgt2 := fun c t => by
  rw [fin_N0 t, bigSep_W0, bigSep_W0]
  simp only [owns_whole_eq]
  show bodyPre' Rd m c ⊢ wp frame (wpE (defs₀ (F := F)) Variants.none (c : Thread nD τ) none) Set.univ
    (cc0_body (F := F) (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 cc0_scratch12 cc0_scratch13 cc0_scratch14) (fun _ => bodyPost' Rd m c)
  have hsr := scopedRest0_eq (Ix := Unit) (Val := Elt F) (Name := ℕ) (U := UU) (Lvl := ℕ) c
  unfold bodyPre' bodyPost' Φ₀ Φ₁
  rw [show (Pipeline.scopedRest cfg0.spec c : sProp 𝕄) = _ from hsr,
    show (Pipeline.ownSems0 osem c : sProp 𝕄) = _ from ownSems0_eq (Ix := Unit) (Val := Elt F) (Name := ℕ) (U := UU) (Lvl := ℕ) c]
  iintro ⟨⟨⟨%K, Hg⟩, Hlev, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, ⟨%W, %hW, Ho⟩, ⟨%d0, %g0, %hg0, Ha⟩, ⟨%d1, %g1, %hg1, Hb⟩, ⟨%X, %g2, %hg2, Hout⟩⟩
  have ha : g0 = astg m c := hg0.trans (before_0 Rd m c d0)
  have hb : g1 = bstg m c := hg1.trans (before_1 Rd m c d1)
  subst ha hb
  iapply (hsound c K W _ g2 f0 f1 f2 f3 f4 f5 f6 f7 f8)
  isplitr []
  · unfold bodyPre
    isplitl [Hg]; · iexact Hg
    isplitl [Hlev]; · iexact Hlev
    isplitl [Ho]; · iexact Ho
    isplitl [Ha]; · iexact Ha
    isplitl [Hb]; · iexact Hb
    isplitl [Hout]; · iexact Hout
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · unfold bodyPost
    iintro ⟨⟨%W', Ho'⟩, Ha, Hb, ⟨%o, Hout⟩, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, Hsems⟩
    isplitl [Hsems H0 H1 H2 H3 H4 H5 H6 H7 H8]
    · isplitl [Hsems]; · iexact Hsems
      isplitl [H0]; · (iexists e0; iexact H0)
      isplitl [H1]; · (iexists e1; iexact H1)
      isplitl [H2]; · (iexists e2; iexact H2)
      isplitl [H3]; · (iexists e3; iexact H3)
      isplitl [H4]; · (iexists e4; iexact H4)
      isplitl [H5]; · (iexists e5; iexact H5)
      isplitl [H6]; · (iexists e6; iexact H6)
      isplitl [H7]; · (iexists e7; iexact H7)
      iexists e8; iexact H8
    isplitl [Ho']
    · iexists W'
      isplitr; · (ipureintro; exact Set.subset_union_of_subset_left (Set.subset_univ _) _)
      iexact Ho'
    isplitl [Ha]
    · iexists _; isplitr; · (ipureintro; rfl)
      iexact Ha
    isplitl [Hb]
    · iexists _; isplitr; · (ipureintro; rfl)
      iexact Hb
    iexists o; iexists o; isplitr; · (ipureintro; rfl)
    iexact Hout

end Cert.Kernel.BodyWrap

end
-- ==== Proof.Frames.lean ====
/-
  The two kernel frames from the launch: at each instance, if every device's kernel body meets its obligation
  over the valueless schedule, the program on the 32 devices terminates without a fault and leaves the two
  argument arrays of every device unchanged. The precondition on the inputs is not used.
-/
import proofs.«900893_g7700000000000894_dist_matmul_mk_i_outk_m1024_n1024_k512_v7x_i32_f32_1_alg».proof.Defs
import proofs.«900893_g7700000000000894_dist_matmul_mk_i_outk_m1024_n1024_k512_v7x_i32_f32_1_alg».proof.Proof.Gen.Pre_finite_inputs_Kernel
import proofs.«900893_g7700000000000894_dist_matmul_mk_i_outk_m1024_n1024_k512_v7x_i32_f32_1_alg».proof.Proof.Proto0
import proofs.«900893_g7700000000000894_dist_matmul_mk_i_outk_m1024_n1024_k512_v7x_i32_f32_1_alg».proof.Proof.Launch
import proofs.«900893_g7700000000000894_dist_matmul_mk_i_outk_m1024_n1024_k512_v7x_i32_f32_1_alg».proof.Proof.BodyWrap
import proofs.«900893_g7700000000000894_dist_matmul_mk_i_outk_m1024_n1024_k512_v7x_i32_f32_1_alg».proof.Proof.Word.Proto0
import proofs.«900893_g7700000000000894_dist_matmul_mk_i_outk_m1024_n1024_k512_v7x_i32_f32_1_alg».proof.Proof.Word.Launch
import proofs.«900893_g7700000000000894_dist_matmul_mk_i_outk_m1024_n1024_k512_v7x_i32_f32_1_alg».proof.Proof.Word.BodyWrap

noncomputable section

namespace Cert.Proof.Frames

open Idealize.ShloMosaic Idealize.SL.Sem
open Idealize.ShloMosaic.Pipeline (BodyObligation)

/-- The idealized kernel's frame, from its devices' body obligations. -/
theorem frame_ki_of_body
    (hbody : ∀ (m : (ℓ : Loc Cert.KernelIdeal.nD Cert.KernelIdeal.τ Cert.KernelIdeal.sig) → Buf (Elt Ideal) ℓ) (c : Dev Cert.KernelIdeal.nD),
      BodyObligation (Cert.KernelIdeal.LaunchData.dats (Cert.KernelIdeal.Proto.sched0 (F := Ideal)) m 0 c) (Cert.KernelIdeal.defs₀ (F := Ideal))
        Variants.none () Set.univ Cert.KernelIdeal.LaunchData.fgt2) :
    Cert.frame_KernelIdeal (hKernelIdeal := Cert.KernelIdeal.Gen.facts) (hPre_finite_inputs_Kernel := Cert.Pre_finite_inputs_Kernel.Gen.facts) :=
  fun m g _ => Cert.KernelIdeal.Launch.frame_of_body (Cert.KernelIdeal.Proto.sched0 (F := Ideal)) m g (hbody m)

/-- The word-level kernel's frame, from its devices' body obligations. -/
theorem frame_k_of_body
    (hbody : ∀ (m : (ℓ : Loc Cert.Kernel.nD Cert.Kernel.τ Cert.Kernel.sig) → Buf (Elt Bits) ℓ) (c : Dev Cert.Kernel.nD),
      BodyObligation (Cert.Kernel.LaunchData.dats (Cert.Kernel.Proto.sched0 (F := Bits)) m 0 c) (Cert.Kernel.defs₀ (F := Bits))
        Variants.none () Set.univ Cert.Kernel.LaunchData.fgt2) :
    Cert.frame_Kernel (hKernel := Cert.Kernel.Gen.facts) (hPre_finite_inputs_Kernel := Cert.Pre_finite_inputs_Kernel.Gen.facts) :=
  fun m g _ => Cert.Kernel.Launch.frame_of_body (Cert.Kernel.Proto.sched0 (F := Bits)) m g (hbody m)

/-- The idealized kernel's frame, from the run of one device's kernel body at its own pre- and postcondition. -/
theorem frame_ki
    (hsound : ∀ m : (ℓ : Loc Cert.KernelIdeal.nD Cert.KernelIdeal.τ Cert.KernelIdeal.sig) → Buf (Elt Ideal) ℓ,
      Cert.KernelIdeal.BodyWrap.Sound (Cert.KernelIdeal.Proto.sched0 (F := Ideal)) m) :
    Cert.frame_KernelIdeal (hKernelIdeal := Cert.KernelIdeal.Gen.facts) (hPre_finite_inputs_Kernel := Cert.Pre_finite_inputs_Kernel.Gen.facts) :=
  frame_ki_of_body fun m => Cert.KernelIdeal.BodyWrap.body_obligation (Cert.KernelIdeal.Proto.sched0 (F := Ideal)) m (hsound m)

/-- The word-level kernel's frame, from the run of one device's kernel body at its own pre- and postcondition. -/
theorem frame_k
    (hsound : ∀ m : (ℓ : Loc Cert.Kernel.nD Cert.Kernel.τ Cert.Kernel.sig) → Buf (Elt Bits) ℓ,
      Cert.Kernel.BodyWrap.Sound (Cert.Kernel.Proto.sched0 (F := Bits)) m) :
    Cert.frame_Kernel (hKernel := Cert.Kernel.Gen.facts) (hPre_finite_inputs_Kernel := Cert.Pre_finite_inputs_Kernel.Gen.facts) :=
  frame_k_of_body fun m => Cert.Kernel.BodyWrap.body_obligation (Cert.Kernel.Proto.sched0 (F := Bits)) m (hsound m)

/-- info: 'Cert.Proof.Frames.frame_ki' depends on axioms: [propext, Classical.choice, Quot.sound] -/
#guard_msgs in #print axioms frame_ki
/-- info: 'Cert.Proof.Frames.frame_k' depends on axioms: [propext, Classical.choice, Quot.sound] -/
#guard_msgs in #print axioms frame_k
/-- info: 'Cert.Proof.Frames.frame_ki_of_body' depends on axioms: [propext, Classical.choice, Quot.sound] -/
#guard_msgs in #print axioms frame_ki_of_body
/-- info: 'Cert.Proof.Frames.frame_k_of_body' depends on axioms: [propext, Classical.choice, Quot.sound] -/
#guard_msgs in #print axioms frame_k_of_body

end Cert.Proof.Frames

end
-- ==== Proof.ChunkGeom.lean ====
/-
  The stage-two and stage-three send buffers cut into their eight chunks of four slots. Chunk q is the rows
  4 q .. 4 q + 3, one slice. The leading coordinate of an index, divided by 4, names exactly one chunk, and inside
  chunk q the four slots 4 q + (v + s) % 4, s = 0, 1, 2, 3, from any base v, are the four rows; so holding a chunk
  is holding its four slots over the same contents, and holding the buffer is holding its eight chunks.
-/
import proofs.«900893_g7700000000000894_dist_matmul_mk_i_outk_m1024_n1024_k512_v7x_i32_f32_1_alg».proof.Proof.SlotGeom

noncomputable section

namespace Cert.KernelIdeal.ChunkGeom

open Cert.KernelIdeal Cert.KernelIdeal.Gen Cert.KernelIdeal.Proto Cert.KernelIdeal.Ghost Cert.KernelIdeal.SlotGeom
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Stage two -/

theorem inbC2 (q : Fin 8) : ∀ a, (![4 * q.val, 0, 0, 0] : Fin 4 → ℕ) a + S4x4x32x128.size a ≤ S32x4x32x128.size a := by
  intro a; have := q.isLt; fin_cases a <;> simp <;> omega

/-- The rectangle of chunk q: leading coordinates 4 q .. 4 q + 3, everything on the other axes. -/
abbrev rectC2 (q : Fin 8) : Rect S32x4x32x128 :=
  Rect.unit (s := S32x4x32x128) ![4 * q.val, 0, 0, 0] S4x4x32x128.size (inbC2 q)

/-- Chunk q of a stage-two buffer: its four rows 4 q .. 4 q + 3 as one slice. -/
abbrev chunk2 (M : Memref sig .tc .vmem S32x4x32x128 .bf16) (q : Fin 8) : Memref sig .tc .vmem S4x4x32x128 .bf16 :=
  M.slice (rectC2 q) (fun _ => rfl)

/-- An index lies in chunk q's rectangle exactly when its leading coordinate, divided by 4, is q. -/
theorem mem_rectC2 (q : Fin 8) (j : S32x4x32x128.Idx) : j ∈ (rectC2 q).set ↔ (j 0).val / 4 = q.val := by
  rw [Rect.mem_set_unit]
  constructor
  · intro h
    have h0 := h 0
    simp at h0
    omega
  · intro h a
    have ha := (j a).isLt
    fin_cases a <;> simp at ha ⊢ <;> omega

/-- A chunk's elements are its rectangle's, seen through the buffer's view. -/
theorem chunk2_set (M : Memref sig .tc .vmem S32x4x32x128 .bf16) (q : Fin 8) :
    (chunk2 M q).view.set = (rectC2 q).set.map M.view.emb :=
  View.set_slice _ _

/-- The elements of chunk q are those of its four slots, from any base. -/
theorem chunk2_cover (M : Memref sig .tc .vmem S32x4x32x128 .bf16) (v : ℕ) (q : Fin 8) (c : Dev nD) :
    ((chunk2 M q).view.set : Finset (Idx (M.view.loc (c : Thread nD τ))))
      = Finset.univ.biUnion fun s : Fin 4 => ((slot2 M (slot v q s.val)).view.set : Finset (Idx (M.view.loc (c : Thread nD τ)))) := by
  ext j
  constructor
  · intro hj
    rw [chunk2_set] at hj
    obtain ⟨x, hx, rfl⟩ := Finset.mem_map.mp hj
    have hq := (mem_rectC2 q x).mp hx
    refine Finset.mem_biUnion.mpr ⟨⟨((x 0).val % 4 + 4 - v % 4) % 4, Nat.mod_lt _ (by decide)⟩, Finset.mem_univ _, ?_⟩
    rw [slot2_set]
    refine Finset.mem_map_of_mem _ ((mem_rect2 _ x).mpr ?_)
    rw [Cert.Mesh.slot_val]
    show (x 0).val = 4 * q.val + (v + ((x 0).val % 4 + 4 - v % 4) % 4) % 4
    omega
  · intro hj
    obtain ⟨s, -, hs⟩ := Finset.mem_biUnion.mp hj
    rw [slot2_set] at hs
    obtain ⟨x, hx, rfl⟩ := Finset.mem_map.mp hs
    rw [chunk2_set]
    refine Finset.mem_map_of_mem _ ((mem_rectC2 q x).mpr ?_)
    have h := (mem_rect2 _ x).mp hx
    rw [Cert.Mesh.slot_val] at h
    omega

/-- Holding a chunk is holding its four slots, over the same contents. -/
theorem chunk2_split_all (M : Memref sig .tc .vmem S32x4x32x128 .bf16) (v : ℕ) (q : Fin 8) (c : Dev nD)
    (f : Buf (Elt F) (M.view.loc (c : Thread nD τ))) :
    ((chunk2 M q).view.loc (c : Thread nD τ) ↦[(chunk2 M q).view.set]{fullShare} f : sProp 𝕄)
      = bigSep Finset.univ (fun s : Fin 4 =>
          (slot2 M (slot v q s.val)).view.loc (c : Thread nD τ) ↦[(slot2 M (slot v q s.val)).view.set]{fullShare} f) := by
  have key : (M.view.loc (c : Thread nD τ) ↦[Finset.univ.biUnion fun s : Fin 4 => ((slot2 M (slot v q s.val)).view.set : Finset (Idx (M.view.loc (c : Thread nD τ))))]{fullShare} f : sProp 𝕄)
      = bigSep Finset.univ fun s : Fin 4 => (M.view.loc (c : Thread nD τ) ↦[(slot2 M (slot v q s.val)).view.set]{fullShare} f) :=
    pointsTo_biUnion (ℓ := M.view.loc (c : Thread nD τ)) Finset.univ _ (fun s _ s' _ h => slot2_disjoint M _ _ (fun e => h (Fin.ext (by
      have h1 := Cert.Mesh.slot_inj_s v q s.val s'.val e
      have h2 := s.isLt
      have h3 := s'.isLt
      omega))))
  rw [chunk2_cover M v q c]
  exact key

/-- The same, step by step: the slot one advance on, then two, then three, then the own slot. -/
theorem chunk2_by_step (M : Memref sig .tc .vmem S32x4x32x128 .bf16) (v : ℕ) (q : Fin 8) (c : Dev nD)
    (f : Buf (Elt F) (M.view.loc (c : Thread nD τ))) :
    ((chunk2 M q).view.loc (c : Thread nD τ) ↦[(chunk2 M q).view.set]{fullShare} f : sProp 𝕄)
      = iprop(((slot2 M (slot v q 1)).view.loc (c : Thread nD τ) ↦[(slot2 M (slot v q 1)).view.set]{fullShare} f)
        ∗ ((slot2 M (slot v q 2)).view.loc (c : Thread nD τ) ↦[(slot2 M (slot v q 2)).view.set]{fullShare} f)
        ∗ ((slot2 M (slot v q 3)).view.loc (c : Thread nD τ) ↦[(slot2 M (slot v q 3)).view.set]{fullShare} f)
        ∗ ((slot2 M (slot v q 0)).view.loc (c : Thread nD τ) ↦[(slot2 M (slot v q 0)).view.set]{fullShare} f)) :=
  (chunk2_split_all M v q c f).trans
    ((four_eq (fun s => (slot2 M (slot v q s)).view.loc (c : Thread nD τ) ↦[(slot2 M (slot v q s)).view.set]{fullShare} f)).symm.trans
      (rot4 _ _ _ _))

/-- A stage-two buffer whose view is all of it is its eight chunks. -/
theorem split2_chunks (M : Memref sig .tc .vmem S32x4x32x128 .bf16) (hM : M.view.set = Finset.univ) (c : Dev nD)
    (f : Buf (Elt F) (M.view.loc (c : Thread nD τ))) :
    (M.view.loc (c : Thread nD τ) ↦{fullShare} f : sProp 𝕄)
      = eight (fun q => (chunk2 M q).view.loc (c : Thread nD τ) ↦[(chunk2 M q).view.set]{fullShare} f) := by
  rw [split2 M hM 0 c f]
  refine congrArg eight (funext fun q => ?_)
  exact (four_eq (fun s => (slot2 M (slot 0 q s)).view.loc (c : Thread nD τ) ↦[(slot2 M (slot 0 q s)).view.set]{fullShare} f)).trans
    (chunk2_split_all M 0 q c f).symm

/-! ## Stage three -/

theorem inbC3 (q : Fin 8) : ∀ a, (![4 * q.val, 0, 0] : Fin 3 → ℕ) a + S4x32x128.size a ≤ S32x32x128.size a := by
  intro a; have := q.isLt; fin_cases a <;> simp <;> omega

/-- The rectangle of chunk q: leading coordinates 4 q .. 4 q + 3, everything on the other axes. -/
abbrev rectC3 (q : Fin 8) : Rect S32x32x128 :=
  Rect.unit (s := S32x32x128) ![4 * q.val, 0, 0] S4x32x128.size (inbC3 q)

/-- Chunk q of a stage-three buffer: its four rows 4 q .. 4 q + 3 as one slice. -/
abbrev chunk3 (M : Memref sig .tc .vmem S32x32x128 .bf16) (q : Fin 8) : Memref sig .tc .vmem S4x32x128 .bf16 :=
  M.slice (rectC3 q) (fun _ => rfl)

/-- An index lies in chunk q's rectangle exactly when its leading coordinate, divided by 4, is q. -/
theorem mem_rectC3 (q : Fin 8) (j : S32x32x128.Idx) : j ∈ (rectC3 q).set ↔ (j 0).val / 4 = q.val := by
  rw [Rect.mem_set_unit]
  constructor
  · intro h
    have h0 := h 0
    simp at h0
    omega
  · intro h a
    have ha := (j a).isLt
    fin_cases a <;> simp at ha ⊢ <;> omega

/-- A chunk's elements are its rectangle's, seen through the buffer's view. -/
theorem chunk3_set (M : Memref sig .tc .vmem S32x32x128 .bf16) (q : Fin 8) :
    (chunk3 M q).view.set = (rectC3 q).set.map M.view.emb :=
  View.set_slice _ _

/-- The elements of chunk q are those of its four slots, from any base. -/
theorem chunk3_cover (M : Memref sig .tc .vmem S32x32x128 .bf16) (v : ℕ) (q : Fin 8) (c : Dev nD) :
    ((chunk3 M q).view.set : Finset (Idx (M.view.loc (c : Thread nD τ))))
      = Finset.univ.biUnion fun s : Fin 4 => ((slot3 M (slot v q s.val)).view.set : Finset (Idx (M.view.loc (c : Thread nD τ)))) := by
  ext j
  constructor
  · intro hj
    rw [chunk3_set] at hj
    obtain ⟨x, hx, rfl⟩ := Finset.mem_map.mp hj
    have hq := (mem_rectC3 q x).mp hx
    refine Finset.mem_biUnion.mpr ⟨⟨((x 0).val % 4 + 4 - v % 4) % 4, Nat.mod_lt _ (by decide)⟩, Finset.mem_univ _, ?_⟩
    rw [slot3_set]
    refine Finset.mem_map_of_mem _ ((mem_rect3 _ x).mpr ?_)
    rw [Cert.Mesh.slot_val]
    show (x 0).val = 4 * q.val + (v + ((x 0).val % 4 + 4 - v % 4) % 4) % 4
    omega
  · intro hj
    obtain ⟨s, -, hs⟩ := Finset.mem_biUnion.mp hj
    rw [slot3_set] at hs
    obtain ⟨x, hx, rfl⟩ := Finset.mem_map.mp hs
    rw [chunk3_set]
    refine Finset.mem_map_of_mem _ ((mem_rectC3 q x).mpr ?_)
    have h := (mem_rect3 _ x).mp hx
    rw [Cert.Mesh.slot_val] at h
    omega

/-- Holding a chunk is holding its four slots, over the same contents. -/
theorem chunk3_split_all (M : Memref sig .tc .vmem S32x32x128 .bf16) (v : ℕ) (q : Fin 8) (c : Dev nD)
    (f : Buf (Elt F) (M.view.loc (c : Thread nD τ))) :
    ((chunk3 M q).view.loc (c : Thread nD τ) ↦[(chunk3 M q).view.set]{fullShare} f : sProp 𝕄)
      = bigSep Finset.univ (fun s : Fin 4 =>
          (slot3 M (slot v q s.val)).view.loc (c : Thread nD τ) ↦[(slot3 M (slot v q s.val)).view.set]{fullShare} f) := by
  have key : (M.view.loc (c : Thread nD τ) ↦[Finset.univ.biUnion fun s : Fin 4 => ((slot3 M (slot v q s.val)).view.set : Finset (Idx (M.view.loc (c : Thread nD τ))))]{fullShare} f : sProp 𝕄)
      = bigSep Finset.univ fun s : Fin 4 => (M.view.loc (c : Thread nD τ) ↦[(slot3 M (slot v q s.val)).view.set]{fullShare} f) :=
    pointsTo_biUnion (ℓ := M.view.loc (c : Thread nD τ)) Finset.univ _ (fun s _ s' _ h => slot3_disjoint M _ _ (fun e => h (Fin.ext (by
      have h1 := Cert.Mesh.slot_inj_s v q s.val s'.val e
      have h2 := s.isLt
      have h3 := s'.isLt
      omega))))
  rw [chunk3_cover M v q c]
  exact key

/-- The same, step by step: the slot one advance on, then two, then three, then the own slot. -/
theorem chunk3_by_step (M : Memref sig .tc .vmem S32x32x128 .bf16) (v : ℕ) (q : Fin 8) (c : Dev nD)
    (f : Buf (Elt F) (M.view.loc (c : Thread nD τ))) :
    ((chunk3 M q).view.loc (c : Thread nD τ) ↦[(chunk3 M q).view.set]{fullShare} f : sProp 𝕄)
      = iprop(((slot3 M (slot v q 1)).view.loc (c : Thread nD τ) ↦[(slot3 M (slot v q 1)).view.set]{fullShare} f)
        ∗ ((slot3 M (slot v q 2)).view.loc (c : Thread nD τ) ↦[(slot3 M (slot v q 2)).view.set]{fullShare} f)
        ∗ ((slot3 M (slot v q 3)).view.loc (c : Thread nD τ) ↦[(slot3 M (slot v q 3)).view.set]{fullShare} f)
        ∗ ((slot3 M (slot v q 0)).view.loc (c : Thread nD τ) ↦[(slot3 M (slot v q 0)).view.set]{fullShare} f)) :=
  (chunk3_split_all M v q c f).trans
    ((four_eq (fun s => (slot3 M (slot v q s)).view.loc (c : Thread nD τ) ↦[(slot3 M (slot v q s)).view.set]{fullShare} f)).symm.trans
      (rot4 _ _ _ _))

/-- A stage-three buffer whose view is all of it is its eight chunks. -/
theorem split3_chunks (M : Memref sig .tc .vmem S32x32x128 .bf16) (hM : M.view.set = Finset.univ) (c : Dev nD)
    (f : Buf (Elt F) (M.view.loc (c : Thread nD τ))) :
    (M.view.loc (c : Thread nD τ) ↦{fullShare} f : sProp 𝕄)
      = eight (fun q => (chunk3 M q).view.loc (c : Thread nD τ) ↦[(chunk3 M q).view.set]{fullShare} f) := by
  rw [split3 M hM 0 c f]
  refine congrArg eight (funext fun q => ?_)
  exact (four_eq (fun s => (slot3 M (slot 0 q s)).view.loc (c : Thread nD τ) ↦[(slot3 M (slot 0 q s)).view.set]{fullShare} f)).trans
    (chunk3_split_all M 0 q c f).symm

end Cert.KernelIdeal.ChunkGeom

end
-- ==== Proof.Canon.lean ====
/-
  Canonical names. The kernel spells a slot of an exchange buffer, or a semaphore of a semaphore array, through
  an offset computed from the device id; each such spelling is the slot, or the semaphore, whose number is given
  by the device's row or plane coordinate: 4·q + (v + s) % 4 for column chunk q and advance s.
-/
import proofs.«900893_g7700000000000894_dist_matmul_mk_i_outk_m1024_n1024_k512_v7x_i32_f32_1_alg».proof.Proof.MeshFacts
import proofs.«900893_g7700000000000894_dist_matmul_mk_i_outk_m1024_n1024_k512_v7x_i32_f32_1_alg».proof.Proof.SlotIdx
import proofs.«900893_g7700000000000894_dist_matmul_mk_i_outk_m1024_n1024_k512_v7x_i32_f32_1_alg».proof.Proof.Proto
import proofs.«900893_g7700000000000894_dist_matmul_mk_i_outk_m1024_n1024_k512_v7x_i32_f32_1_alg».proof.Proof.LaunchSems

set_option Elab.async false

noncomputable section

namespace Cert.KernelIdeal.Canon

open Cert.KernelIdeal Cert.KernelIdeal.Gen Cert.KernelIdeal.Facts₀
open Cert.KernelIdeal.Proto
open Cert.Mesh (partner rail zpeer zc pc yc xc pOf dev slot slot_val)
open Idealize.ShloMosaic Idealize.SL.Sem

/-! ## The offsets through the slot numbers

An offset with parameters (4·q, s) is slot q of the coordinate advanced by s; the offsets of the slots a device
receives into run behind it, at the advance 4 − s. -/

theorem off3_slot (c : Dev nD) (r₁ : Fin 8) (r₂ : Fin 3) :
    k0_off3 c (BitVec.ofNat 32 (4 * r₁.val)) (BitVec.ofNat 32 (1 + r₂.val)) = ![(slot (yc c) r₁ (1 + r₂.val)).val] :=
  MeshFacts.off3_eq c r₁ r₂

theorem off4_slot (c : Dev nD) (r : Fin 8) :
    k0_off4 c (BitVec.ofNat 32 (4 * r.val)) = ![(slot (yc c) r 0).val] := by
  have e : 4 * r.val + yc c = (slot (yc c) r 0).val := by rw [slot_val]; have := MeshFacts.yc_lt c; omega
  rw [MeshFacts.off4_eq, e]

theorem off5_slot (c : Dev nD) (r : Fin 8) :
    k0_off5 c (BitVec.ofNat 32 (4 * r.val)) = ![(slot (yc c) r 0).val, 0, 0, 0] := by
  have e : 4 * r.val + yc c = (slot (yc c) r 0).val := by rw [slot_val]; have := MeshFacts.yc_lt c; omega
  rw [MeshFacts.off5_eq, e]

theorem off6_slot (c : Dev nD) (r₁ : Fin 8) (r₂ : Fin 3) :
    k0_off6 c (BitVec.ofNat 32 (4 * r₁.val)) (BitVec.ofNat 32 (1 + r₂.val)) = ![(slot (yc c) r₁ (1 + r₂.val)).val, 0, 0, 0] :=
  MeshFacts.off6_eq c r₁ r₂

theorem off7_slot (c : Dev nD) (r : Fin 8) :
    k0_off7 c (BitVec.ofNat 32 (4 * r.val)) = ![(slot (yc c) r 0).val, 0, 0, 0] := by
  have e : 4 * r.val + yc c = (slot (yc c) r 0).val := by rw [slot_val]; have := MeshFacts.yc_lt c; omega
  rw [MeshFacts.off7_eq, e]

theorem off8_slot (c : Dev nD) (r₁ : Fin 8) (r₂ : Fin 3) :
    k0_off8 c (BitVec.ofNat 32 (4 * r₁.val)) (BitVec.ofNat 32 (1 + r₂.val)) = ![(slot (yc c) r₁ (3 - r₂.val)).val] := by
  have e : 4 * r₁.val + (yc c + 4 - (1 + r₂.val)) % 4 = (slot (yc c) r₁ (3 - r₂.val)).val := by rw [slot_val]; have := r₂.isLt; omega
  rw [MeshFacts.off8_eq, e]

theorem off9_slot (c : Dev nD) (r₁ : Fin 8) (r₂ : Fin 3) :
    k0_off9 c (BitVec.ofNat 32 (4 * r₁.val)) (BitVec.ofNat 32 (1 + r₂.val)) = ![(slot (yc c) r₁ (3 - r₂.val)).val, 0, 0, 0] := by
  have e : 4 * r₁.val + (yc c + 4 - (1 + r₂.val)) % 4 = (slot (yc c) r₁ (3 - r₂.val)).val := by rw [slot_val]; have := r₂.isLt; omega
  rw [MeshFacts.off9_eq, e]

theorem off10_slot (c : Dev nD) (r₁ : Fin 8) (r₂ : Fin 3) :
    k0_off10 c (BitVec.ofNat 32 (4 * r₁.val)) (BitVec.ofNat 32 (1 + r₂.val)) = ![(slot (yc c) r₁ (3 - r₂.val)).val, 0, 0, 0] := by
  have e : 4 * r₁.val + (yc c + 4 - (1 + r₂.val)) % 4 = (slot (yc c) r₁ (3 - r₂.val)).val := by rw [slot_val]; have := r₂.isLt; omega
  rw [MeshFacts.off10_eq, e]

theorem off11_slot (c : Dev nD) (r₁ : Fin 8) (r₂ : Fin 3) :
    k0_off11 c (BitVec.ofNat 32 (4 * r₁.val)) (BitVec.ofNat 32 (1 + r₂.val)) = ![(slot (zc c) r₁ (1 + r₂.val)).val] :=
  MeshFacts.off11_eq c r₁ r₂

theorem off12_slot (c : Dev nD) (r : Fin 8) :
    k0_off12 c (BitVec.ofNat 32 (4 * r.val)) = ![(slot (zc c) r 0).val] := by
  have e : 4 * r.val + zc c = (slot (zc c) r 0).val := by rw [slot_val]; have := MeshFacts.zc_lt c; omega
  rw [MeshFacts.off12_eq, e]

theorem off13_slot (c : Dev nD) (r : Fin 8) :
    k0_off13 c (BitVec.ofNat 32 (4 * r.val)) = ![(slot (zc c) r 0).val, 0, 0] := by
  have e : 4 * r.val + zc c = (slot (zc c) r 0).val := by rw [slot_val]; have := MeshFacts.zc_lt c; omega
  rw [MeshFacts.off13_eq, e]

theorem off14_slot (c : Dev nD) (r₁ : Fin 8) (r₂ : Fin 3) :
    k0_off14 c (BitVec.ofNat 32 (4 * r₁.val)) (BitVec.ofNat 32 (1 + r₂.val)) = ![(slot (zc c) r₁ (1 + r₂.val)).val, 0, 0] :=
  MeshFacts.off14_eq c r₁ r₂

theorem off15_slot (c : Dev nD) (r : Fin 8) :
    k0_off15 c (BitVec.ofNat 32 (4 * r.val)) = ![(slot (zc c) r 0).val, 0, 0] := by
  have e : 4 * r.val + zc c = (slot (zc c) r 0).val := by rw [slot_val]; have := MeshFacts.zc_lt c; omega
  rw [MeshFacts.off15_eq, e]

theorem off16_slot (c : Dev nD) (r₁ : Fin 8) (r₂ : Fin 3) :
    k0_off16 c (BitVec.ofNat 32 (4 * r₁.val)) (BitVec.ofNat 32 (1 + r₂.val)) = ![(slot (zc c) r₁ (3 - r₂.val)).val] := by
  have e : 4 * r₁.val + (zc c + 4 - (1 + r₂.val)) % 4 = (slot (zc c) r₁ (3 - r₂.val)).val := by rw [slot_val]; have := r₂.isLt; omega
  rw [MeshFacts.off16_eq, e]

theorem off17_slot (c : Dev nD) (r₁ : Fin 8) (r₂ : Fin 3) :
    k0_off17 c (BitVec.ofNat 32 (4 * r₁.val)) (BitVec.ofNat 32 (1 + r₂.val)) = ![(slot (zc c) r₁ (3 - r₂.val)).val, 0, 0] := by
  have e : 4 * r₁.val + (zc c + 4 - (1 + r₂.val)) % 4 = (slot (zc c) r₁ (3 - r₂.val)).val := by rw [slot_val]; have := r₂.isLt; omega
  rw [MeshFacts.off17_eq, e]

theorem off18_slot (c : Dev nD) (r₁ : Fin 8) (r₂ : Fin 3) :
    k0_off18 c (BitVec.ofNat 32 (4 * r₁.val)) (BitVec.ofNat 32 (1 + r₂.val)) = ![(slot (zc c) r₁ (3 - r₂.val)).val, 0, 0] := by
  have e : 4 * r₁.val + (zc c + 4 - (1 + r₂.val)) % 4 = (slot (zc c) r₁ (3 - r₂.val)).val := by rw [slot_val]; have := r₂.isLt; omega
  rw [MeshFacts.off18_eq, e]

/-! ## The printed spellings, parameter by parameter

One equation for each offset function and each pair of literal parameters the kernel uses: the unit slice at
the computed offset is the slice at the slot number (for a semaphore array also after the squeeze, as the one
semaphore it names; for a load, the rectangle read). -/

/-! ### Offset function 3: a semaphore of a 32-array -/

theorem semSlice_off3_w0_1 (A : DmaSems sig S32) (c : Dev nD) (p) :
    A.slice (Rect.unit (s := S32) (k0_off3 c 0#32 1#32) S1.size p)
      = A.slice (Rect.unit (s := S32) ![(slot (yc c) 0 1).val] S1.size (inb32 (slot (yc c) 0 1))) :=
  SemArray.slice_unit_congr A (off3_slot c 0 0) p _
theorem sem_off3_w0_1 (A : DmaSems sig S32) (c : Dev nD) (p) (hq : S1.Squeezes S_) :
    ((A.slice (Rect.unit (s := S32) (k0_off3 c 0#32 1#32) S1.size p)).squeeze S_ hq).sem = sem32 A (slot (yc c) 0 1) :=
  congrArg (fun X : DmaSems sig S1 => (X.squeeze S_ hq).sem) (semSlice_off3_w0_1 A c p)
theorem semSlice_off3_w0_2 (A : DmaSems sig S32) (c : Dev nD) (p) :
    A.slice (Rect.unit (s := S32) (k0_off3 c 0#32 2#32) S1.size p)
      = A.slice (Rect.unit (s := S32) ![(slot (yc c) 0 2).val] S1.size (inb32 (slot (yc c) 0 2))) :=
  SemArray.slice_unit_congr A (off3_slot c 0 1) p _
theorem sem_off3_w0_2 (A : DmaSems sig S32) (c : Dev nD) (p) (hq : S1.Squeezes S_) :
    ((A.slice (Rect.unit (s := S32) (k0_off3 c 0#32 2#32) S1.size p)).squeeze S_ hq).sem = sem32 A (slot (yc c) 0 2) :=
  congrArg (fun X : DmaSems sig S1 => (X.squeeze S_ hq).sem) (semSlice_off3_w0_2 A c p)
theorem semSlice_off3_w0_3 (A : DmaSems sig S32) (c : Dev nD) (p) :
    A.slice (Rect.unit (s := S32) (k0_off3 c 0#32 3#32) S1.size p)
      = A.slice (Rect.unit (s := S32) ![(slot (yc c) 0 3).val] S1.size (inb32 (slot (yc c) 0 3))) :=
  SemArray.slice_unit_congr A (off3_slot c 0 2) p _
theorem sem_off3_w0_3 (A : DmaSems sig S32) (c : Dev nD) (p) (hq : S1.Squeezes S_) :
    ((A.slice (Rect.unit (s := S32) (k0_off3 c 0#32 3#32) S1.size p)).squeeze S_ hq).sem = sem32 A (slot (yc c) 0 3) :=
  congrArg (fun X : DmaSems sig S1 => (X.squeeze S_ hq).sem) (semSlice_off3_w0_3 A c p)
theorem semSlice_off3_w4_1 (A : DmaSems sig S32) (c : Dev nD) (p) :
    A.slice (Rect.unit (s := S32) (k0_off3 c 4#32 1#32) S1.size p)
      = A.slice (Rect.unit (s := S32) ![(slot (yc c) 1 1).val] S1.size (inb32 (slot (yc c) 1 1))) :=
  SemArray.slice_unit_congr A (off3_slot c 1 0) p _
theorem sem_off3_w4_1 (A : DmaSems sig S32) (c : Dev nD) (p) (hq : S1.Squeezes S_) :
    ((A.slice (Rect.unit (s := S32) (k0_off3 c 4#32 1#32) S1.size p)).squeeze S_ hq).sem = sem32 A (slot (yc c) 1 1) :=
  congrArg (fun X : DmaSems sig S1 => (X.squeeze S_ hq).sem) (semSlice_off3_w4_1 A c p)
theorem semSlice_off3_w4_2 (A : DmaSems sig S32) (c : Dev nD) (p) :
    A.slice (Rect.unit (s := S32) (k0_off3 c 4#32 2#32) S1.size p)
      = A.slice (Rect.unit (s := S32) ![(slot (yc c) 1 2).val] S1.size (inb32 (slot (yc c) 1 2))) :=
  SemArray.slice_unit_congr A (off3_slot c 1 1) p _
theorem sem_off3_w4_2 (A : DmaSems sig S32) (c : Dev nD) (p) (hq : S1.Squeezes S_) :
    ((A.slice (Rect.unit (s := S32) (k0_off3 c 4#32 2#32) S1.size p)).squeeze S_ hq).sem = sem32 A (slot (yc c) 1 2) :=
  congrArg (fun X : DmaSems sig S1 => (X.squeeze S_ hq).sem) (semSlice_off3_w4_2 A c p)
theorem semSlice_off3_w4_3 (A : DmaSems sig S32) (c : Dev nD) (p) :
    A.slice (Rect.unit (s := S32) (k0_off3 c 4#32 3#32) S1.size p)
      = A.slice (Rect.unit (s := S32) ![(slot (yc c) 1 3).val] S1.size (inb32 (slot (yc c) 1 3))) :=
  SemArray.slice_unit_congr A (off3_slot c 1 2) p _
theorem sem_off3_w4_3 (A : DmaSems sig S32) (c : Dev nD) (p) (hq : S1.Squeezes S_) :
    ((A.slice (Rect.unit (s := S32) (k0_off3 c 4#32 3#32) S1.size p)).squeeze S_ hq).sem = sem32 A (slot (yc c) 1 3) :=
  congrArg (fun X : DmaSems sig S1 => (X.squeeze S_ hq).sem) (semSlice_off3_w4_3 A c p)
theorem semSlice_off3_w8_1 (A : DmaSems sig S32) (c : Dev nD) (p) :
    A.slice (Rect.unit (s := S32) (k0_off3 c 8#32 1#32) S1.size p)
      = A.slice (Rect.unit (s := S32) ![(slot (yc c) 2 1).val] S1.size (inb32 (slot (yc c) 2 1))) :=
  SemArray.slice_unit_congr A (off3_slot c 2 0) p _
theorem sem_off3_w8_1 (A : DmaSems sig S32) (c : Dev nD) (p) (hq : S1.Squeezes S_) :
    ((A.slice (Rect.unit (s := S32) (k0_off3 c 8#32 1#32) S1.size p)).squeeze S_ hq).sem = sem32 A (slot (yc c) 2 1) :=
  congrArg (fun X : DmaSems sig S1 => (X.squeeze S_ hq).sem) (semSlice_off3_w8_1 A c p)
theorem semSlice_off3_w8_2 (A : DmaSems sig S32) (c : Dev nD) (p) :
    A.slice (Rect.unit (s := S32) (k0_off3 c 8#32 2#32) S1.size p)
      = A.slice (Rect.unit (s := S32) ![(slot (yc c) 2 2).val] S1.size (inb32 (slot (yc c) 2 2))) :=
  SemArray.slice_unit_congr A (off3_slot c 2 1) p _
theorem sem_off3_w8_2 (A : DmaSems sig S32) (c : Dev nD) (p) (hq : S1.Squeezes S_) :
    ((A.slice (Rect.unit (s := S32) (k0_off3 c 8#32 2#32) S1.size p)).squeeze S_ hq).sem = sem32 A (slot (yc c) 2 2) :=
  congrArg (fun X : DmaSems sig S1 => (X.squeeze S_ hq).sem) (semSlice_off3_w8_2 A c p)
theorem semSlice_off3_w8_3 (A : DmaSems sig S32) (c : Dev nD) (p) :
    A.slice (Rect.unit (s := S32) (k0_off3 c 8#32 3#32) S1.size p)
      = A.slice (Rect.unit (s := S32) ![(slot (yc c) 2 3).val] S1.size (inb32 (slot (yc c) 2 3))) :=
  SemArray.slice_unit_congr A (off3_slot c 2 2) p _
theorem sem_off3_w8_3 (A : DmaSems sig S32) (c : Dev nD) (p) (hq : S1.Squeezes S_) :
    ((A.slice (Rect.unit (s := S32) (k0_off3 c 8#32 3#32) S1.size p)).squeeze S_ hq).sem = sem32 A (slot (yc c) 2 3) :=
  congrArg (fun X : DmaSems sig S1 => (X.squeeze S_ hq).sem) (semSlice_off3_w8_3 A c p)
theorem semSlice_off3_w12_1 (A : DmaSems sig S32) (c : Dev nD) (p) :
    A.slice (Rect.unit (s := S32) (k0_off3 c 12#32 1#32) S1.size p)
      = A.slice (Rect.unit (s := S32) ![(slot (yc c) 3 1).val] S1.size (inb32 (slot (yc c) 3 1))) :=
  SemArray.slice_unit_congr A (off3_slot c 3 0) p _
theorem sem_off3_w12_1 (A : DmaSems sig S32) (c : Dev nD) (p) (hq : S1.Squeezes S_) :
    ((A.slice (Rect.unit (s := S32) (k0_off3 c 12#32 1#32) S1.size p)).squeeze S_ hq).sem = sem32 A (slot (yc c) 3 1) :=
  congrArg (fun X : DmaSems sig S1 => (X.squeeze S_ hq).sem) (semSlice_off3_w12_1 A c p)
theorem semSlice_off3_w12_2 (A : DmaSems sig S32) (c : Dev nD) (p) :
    A.slice (Rect.unit (s := S32) (k0_off3 c 12#32 2#32) S1.size p)
      = A.slice (Rect.unit (s := S32) ![(slot (yc c) 3 2).val] S1.size (inb32 (slot (yc c) 3 2))) :=
  SemArray.slice_unit_congr A (off3_slot c 3 1) p _
theorem sem_off3_w12_2 (A : DmaSems sig S32) (c : Dev nD) (p) (hq : S1.Squeezes S_) :
    ((A.slice (Rect.unit (s := S32) (k0_off3 c 12#32 2#32) S1.size p)).squeeze S_ hq).sem = sem32 A (slot (yc c) 3 2) :=
  congrArg (fun X : DmaSems sig S1 => (X.squeeze S_ hq).sem) (semSlice_off3_w12_2 A c p)
theorem semSlice_off3_w12_3 (A : DmaSems sig S32) (c : Dev nD) (p) :
    A.slice (Rect.unit (s := S32) (k0_off3 c 12#32 3#32) S1.size p)
      = A.slice (Rect.unit (s := S32) ![(slot (yc c) 3 3).val] S1.size (inb32 (slot (yc c) 3 3))) :=
  SemArray.slice_unit_congr A (off3_slot c 3 2) p _
theorem sem_off3_w12_3 (A : DmaSems sig S32) (c : Dev nD) (p) (hq : S1.Squeezes S_) :
    ((A.slice (Rect.unit (s := S32) (k0_off3 c 12#32 3#32) S1.size p)).squeeze S_ hq).sem = sem32 A (slot (yc c) 3 3) :=
  congrArg (fun X : DmaSems sig S1 => (X.squeeze S_ hq).sem) (semSlice_off3_w12_3 A c p)
theorem semSlice_off3_w16_1 (A : DmaSems sig S32) (c : Dev nD) (p) :
    A.slice (Rect.unit (s := S32) (k0_off3 c 16#32 1#32) S1.size p)
      = A.slice (Rect.unit (s := S32) ![(slot (yc c) 4 1).val] S1.size (inb32 (slot (yc c) 4 1))) :=
  SemArray.slice_unit_congr A (off3_slot c 4 0) p _
theorem sem_off3_w16_1 (A : DmaSems sig S32) (c : Dev nD) (p) (hq : S1.Squeezes S_) :
    ((A.slice (Rect.unit (s := S32) (k0_off3 c 16#32 1#32) S1.size p)).squeeze S_ hq).sem = sem32 A (slot (yc c) 4 1) :=
  congrArg (fun X : DmaSems sig S1 => (X.squeeze S_ hq).sem) (semSlice_off3_w16_1 A c p)
theorem semSlice_off3_w16_2 (A : DmaSems sig S32) (c : Dev nD) (p) :
    A.slice (Rect.unit (s := S32) (k0_off3 c 16#32 2#32) S1.size p)
      = A.slice (Rect.unit (s := S32) ![(slot (yc c) 4 2).val] S1.size (inb32 (slot (yc c) 4 2))) :=
  SemArray.slice_unit_congr A (off3_slot c 4 1) p _
theorem sem_off3_w16_2 (A : DmaSems sig S32) (c : Dev nD) (p) (hq : S1.Squeezes S_) :
    ((A.slice (Rect.unit (s := S32) (k0_off3 c 16#32 2#32) S1.size p)).squeeze S_ hq).sem = sem32 A (slot (yc c) 4 2) :=
  congrArg (fun X : DmaSems sig S1 => (X.squeeze S_ hq).sem) (semSlice_off3_w16_2 A c p)
theorem semSlice_off3_w16_3 (A : DmaSems sig S32) (c : Dev nD) (p) :
    A.slice (Rect.unit (s := S32) (k0_off3 c 16#32 3#32) S1.size p)
      = A.slice (Rect.unit (s := S32) ![(slot (yc c) 4 3).val] S1.size (inb32 (slot (yc c) 4 3))) :=
  SemArray.slice_unit_congr A (off3_slot c 4 2) p _
theorem sem_off3_w16_3 (A : DmaSems sig S32) (c : Dev nD) (p) (hq : S1.Squeezes S_) :
    ((A.slice (Rect.unit (s := S32) (k0_off3 c 16#32 3#32) S1.size p)).squeeze S_ hq).sem = sem32 A (slot (yc c) 4 3) :=
  congrArg (fun X : DmaSems sig S1 => (X.squeeze S_ hq).sem) (semSlice_off3_w16_3 A c p)
theorem semSlice_off3_w20_1 (A : DmaSems sig S32) (c : Dev nD) (p) :
    A.slice (Rect.unit (s := S32) (k0_off3 c 20#32 1#32) S1.size p)
      = A.slice (Rect.unit (s := S32) ![(slot (yc c) 5 1).val] S1.size (inb32 (slot (yc c) 5 1))) :=
  SemArray.slice_unit_congr A (off3_slot c 5 0) p _
theorem sem_off3_w20_1 (A : DmaSems sig S32) (c : Dev nD) (p) (hq : S1.Squeezes S_) :
    ((A.slice (Rect.unit (s := S32) (k0_off3 c 20#32 1#32) S1.size p)).squeeze S_ hq).sem = sem32 A (slot (yc c) 5 1) :=
  congrArg (fun X : DmaSems sig S1 => (X.squeeze S_ hq).sem) (semSlice_off3_w20_1 A c p)
theorem semSlice_off3_w20_2 (A : DmaSems sig S32) (c : Dev nD) (p) :
    A.slice (Rect.unit (s := S32) (k0_off3 c 20#32 2#32) S1.size p)
      = A.slice (Rect.unit (s := S32) ![(slot (yc c) 5 2).val] S1.size (inb32 (slot (yc c) 5 2))) :=
  SemArray.slice_unit_congr A (off3_slot c 5 1) p _
theorem sem_off3_w20_2 (A : DmaSems sig S32) (c : Dev nD) (p) (hq : S1.Squeezes S_) :
    ((A.slice (Rect.unit (s := S32) (k0_off3 c 20#32 2#32) S1.size p)).squeeze S_ hq).sem = sem32 A (slot (yc c) 5 2) :=
  congrArg (fun X : DmaSems sig S1 => (X.squeeze S_ hq).sem) (semSlice_off3_w20_2 A c p)
theorem semSlice_off3_w20_3 (A : DmaSems sig S32) (c : Dev nD) (p) :
    A.slice (Rect.unit (s := S32) (k0_off3 c 20#32 3#32) S1.size p)
      = A.slice (Rect.unit (s := S32) ![(slot (yc c) 5 3).val] S1.size (inb32 (slot (yc c) 5 3))) :=
  SemArray.slice_unit_congr A (off3_slot c 5 2) p _
theorem sem_off3_w20_3 (A : DmaSems sig S32) (c : Dev nD) (p) (hq : S1.Squeezes S_) :
    ((A.slice (Rect.unit (s := S32) (k0_off3 c 20#32 3#32) S1.size p)).squeeze S_ hq).sem = sem32 A (slot (yc c) 5 3) :=
  congrArg (fun X : DmaSems sig S1 => (X.squeeze S_ hq).sem) (semSlice_off3_w20_3 A c p)
theorem semSlice_off3_w24_1 (A : DmaSems sig S32) (c : Dev nD) (p) :
    A.slice (Rect.unit (s := S32) (k0_off3 c 24#32 1#32) S1.size p)
      = A.slice (Rect.unit (s := S32) ![(slot (yc c) 6 1).val] S1.size (inb32 (slot (yc c) 6 1))) :=
  SemArray.slice_unit_congr A (off3_slot c 6 0) p _
theorem sem_off3_w24_1 (A : DmaSems sig S32) (c : Dev nD) (p) (hq : S1.Squeezes S_) :
    ((A.slice (Rect.unit (s := S32) (k0_off3 c 24#32 1#32) S1.size p)).squeeze S_ hq).sem = sem32 A (slot (yc c) 6 1) :=
  congrArg (fun X : DmaSems sig S1 => (X.squeeze S_ hq).sem) (semSlice_off3_w24_1 A c p)
theorem semSlice_off3_w24_2 (A : DmaSems sig S32) (c : Dev nD) (p) :
    A.slice (Rect.unit (s := S32) (k0_off3 c 24#32 2#32) S1.size p)
      = A.slice (Rect.unit (s := S32) ![(slot (yc c) 6 2).val] S1.size (inb32 (slot (yc c) 6 2))) :=
  SemArray.slice_unit_congr A (off3_slot c 6 1) p _
theorem sem_off3_w24_2 (A : DmaSems sig S32) (c : Dev nD) (p) (hq : S1.Squeezes S_) :
    ((A.slice (Rect.unit (s := S32) (k0_off3 c 24#32 2#32) S1.size p)).squeeze S_ hq).sem = sem32 A (slot (yc c) 6 2) :=
  congrArg (fun X : DmaSems sig S1 => (X.squeeze S_ hq).sem) (semSlice_off3_w24_2 A c p)
theorem semSlice_off3_w24_3 (A : DmaSems sig S32) (c : Dev nD) (p) :
    A.slice (Rect.unit (s := S32) (k0_off3 c 24#32 3#32) S1.size p)
      = A.slice (Rect.unit (s := S32) ![(slot (yc c) 6 3).val] S1.size (inb32 (slot (yc c) 6 3))) :=
  SemArray.slice_unit_congr A (off3_slot c 6 2) p _
theorem sem_off3_w24_3 (A : DmaSems sig S32) (c : Dev nD) (p) (hq : S1.Squeezes S_) :
    ((A.slice (Rect.unit (s := S32) (k0_off3 c 24#32 3#32) S1.size p)).squeeze S_ hq).sem = sem32 A (slot (yc c) 6 3) :=
  congrArg (fun X : DmaSems sig S1 => (X.squeeze S_ hq).sem) (semSlice_off3_w24_3 A c p)
theorem semSlice_off3_w28_1 (A : DmaSems sig S32) (c : Dev nD) (p) :
    A.slice (Rect.unit (s := S32) (k0_off3 c 28#32 1#32) S1.size p)
      = A.slice (Rect.unit (s := S32) ![(slot (yc c) 7 1).val] S1.size (inb32 (slot (yc c) 7 1))) :=
  SemArray.slice_unit_congr A (off3_slot c 7 0) p _
theorem sem_off3_w28_1 (A : DmaSems sig S32) (c : Dev nD) (p) (hq : S1.Squeezes S_) :
    ((A.slice (Rect.unit (s := S32) (k0_off3 c 28#32 1#32) S1.size p)).squeeze S_ hq).sem = sem32 A (slot (yc c) 7 1) :=
  congrArg (fun X : DmaSems sig S1 => (X.squeeze S_ hq).sem) (semSlice_off3_w28_1 A c p)
theorem semSlice_off3_w28_2 (A : DmaSems sig S32) (c : Dev nD) (p) :
    A.slice (Rect.unit (s := S32) (k0_off3 c 28#32 2#32) S1.size p)
      = A.slice (Rect.unit (s := S32) ![(slot (yc c) 7 2).val] S1.size (inb32 (slot (yc c) 7 2))) :=
  SemArray.slice_unit_congr A (off3_slot c 7 1) p _
theorem sem_off3_w28_2 (A : DmaSems sig S32) (c : Dev nD) (p) (hq : S1.Squeezes S_) :
    ((A.slice (Rect.unit (s := S32) (k0_off3 c 28#32 2#32) S1.size p)).squeeze S_ hq).sem = sem32 A (slot (yc c) 7 2) :=
  congrArg (fun X : DmaSems sig S1 => (X.squeeze S_ hq).sem) (semSlice_off3_w28_2 A c p)
theorem semSlice_off3_w28_3 (A : DmaSems sig S32) (c : Dev nD) (p) :
    A.slice (Rect.unit (s := S32) (k0_off3 c 28#32 3#32) S1.size p)
      = A.slice (Rect.unit (s := S32) ![(slot (yc c) 7 3).val] S1.size (inb32 (slot (yc c) 7 3))) :=
  SemArray.slice_unit_congr A (off3_slot c 7 2) p _
theorem sem_off3_w28_3 (A : DmaSems sig S32) (c : Dev nD) (p) (hq : S1.Squeezes S_) :
    ((A.slice (Rect.unit (s := S32) (k0_off3 c 28#32 3#32) S1.size p)).squeeze S_ hq).sem = sem32 A (slot (yc c) 7 3) :=
  congrArg (fun X : DmaSems sig S1 => (X.squeeze S_ hq).sem) (semSlice_off3_w28_3 A c p)

/-! ### Offset function 4: a semaphore of a 32-array -/

theorem semSlice_off4_w0 (A : DmaSems sig S32) (c : Dev nD) (p) :
    A.slice (Rect.unit (s := S32) (k0_off4 c 0#32) S1.size p)
      = A.slice (Rect.unit (s := S32) ![(slot (yc c) 0 0).val] S1.size (inb32 (slot (yc c) 0 0))) :=
  SemArray.slice_unit_congr A (off4_slot c 0) p _
theorem sem_off4_w0 (A : DmaSems sig S32) (c : Dev nD) (p) (hq : S1.Squeezes S_) :
    ((A.slice (Rect.unit (s := S32) (k0_off4 c 0#32) S1.size p)).squeeze S_ hq).sem = sem32 A (slot (yc c) 0 0) :=
  congrArg (fun X : DmaSems sig S1 => (X.squeeze S_ hq).sem) (semSlice_off4_w0 A c p)
theorem semSlice_off4_w4 (A : DmaSems sig S32) (c : Dev nD) (p) :
    A.slice (Rect.unit (s := S32) (k0_off4 c 4#32) S1.size p)
      = A.slice (Rect.unit (s := S32) ![(slot (yc c) 1 0).val] S1.size (inb32 (slot (yc c) 1 0))) :=
  SemArray.slice_unit_congr A (off4_slot c 1) p _
theorem sem_off4_w4 (A : DmaSems sig S32) (c : Dev nD) (p) (hq : S1.Squeezes S_) :
    ((A.slice (Rect.unit (s := S32) (k0_off4 c 4#32) S1.size p)).squeeze S_ hq).sem = sem32 A (slot (yc c) 1 0) :=
  congrArg (fun X : DmaSems sig S1 => (X.squeeze S_ hq).sem) (semSlice_off4_w4 A c p)
theorem semSlice_off4_w8 (A : DmaSems sig S32) (c : Dev nD) (p) :
    A.slice (Rect.unit (s := S32) (k0_off4 c 8#32) S1.size p)
      = A.slice (Rect.unit (s := S32) ![(slot (yc c) 2 0).val] S1.size (inb32 (slot (yc c) 2 0))) :=
  SemArray.slice_unit_congr A (off4_slot c 2) p _
theorem sem_off4_w8 (A : DmaSems sig S32) (c : Dev nD) (p) (hq : S1.Squeezes S_) :
    ((A.slice (Rect.unit (s := S32) (k0_off4 c 8#32) S1.size p)).squeeze S_ hq).sem = sem32 A (slot (yc c) 2 0) :=
  congrArg (fun X : DmaSems sig S1 => (X.squeeze S_ hq).sem) (semSlice_off4_w8 A c p)
theorem semSlice_off4_w12 (A : DmaSems sig S32) (c : Dev nD) (p) :
    A.slice (Rect.unit (s := S32) (k0_off4 c 12#32) S1.size p)
      = A.slice (Rect.unit (s := S32) ![(slot (yc c) 3 0).val] S1.size (inb32 (slot (yc c) 3 0))) :=
  SemArray.slice_unit_congr A (off4_slot c 3) p _
theorem sem_off4_w12 (A : DmaSems sig S32) (c : Dev nD) (p) (hq : S1.Squeezes S_) :
    ((A.slice (Rect.unit (s := S32) (k0_off4 c 12#32) S1.size p)).squeeze S_ hq).sem = sem32 A (slot (yc c) 3 0) :=
  congrArg (fun X : DmaSems sig S1 => (X.squeeze S_ hq).sem) (semSlice_off4_w12 A c p)
theorem semSlice_off4_w16 (A : DmaSems sig S32) (c : Dev nD) (p) :
    A.slice (Rect.unit (s := S32) (k0_off4 c 16#32) S1.size p)
      = A.slice (Rect.unit (s := S32) ![(slot (yc c) 4 0).val] S1.size (inb32 (slot (yc c) 4 0))) :=
  SemArray.slice_unit_congr A (off4_slot c 4) p _
theorem sem_off4_w16 (A : DmaSems sig S32) (c : Dev nD) (p) (hq : S1.Squeezes S_) :
    ((A.slice (Rect.unit (s := S32) (k0_off4 c 16#32) S1.size p)).squeeze S_ hq).sem = sem32 A (slot (yc c) 4 0) :=
  congrArg (fun X : DmaSems sig S1 => (X.squeeze S_ hq).sem) (semSlice_off4_w16 A c p)
theorem semSlice_off4_w20 (A : DmaSems sig S32) (c : Dev nD) (p) :
    A.slice (Rect.unit (s := S32) (k0_off4 c 20#32) S1.size p)
      = A.slice (Rect.unit (s := S32) ![(slot (yc c) 5 0).val] S1.size (inb32 (slot (yc c) 5 0))) :=
  SemArray.slice_unit_congr A (off4_slot c 5) p _
theorem sem_off4_w20 (A : DmaSems sig S32) (c : Dev nD) (p) (hq : S1.Squeezes S_) :
    ((A.slice (Rect.unit (s := S32) (k0_off4 c 20#32) S1.size p)).squeeze S_ hq).sem = sem32 A (slot (yc c) 5 0) :=
  congrArg (fun X : DmaSems sig S1 => (X.squeeze S_ hq).sem) (semSlice_off4_w20 A c p)
theorem semSlice_off4_w24 (A : DmaSems sig S32) (c : Dev nD) (p) :
    A.slice (Rect.unit (s := S32) (k0_off4 c 24#32) S1.size p)
      = A.slice (Rect.unit (s := S32) ![(slot (yc c) 6 0).val] S1.size (inb32 (slot (yc c) 6 0))) :=
  SemArray.slice_unit_congr A (off4_slot c 6) p _
theorem sem_off4_w24 (A : DmaSems sig S32) (c : Dev nD) (p) (hq : S1.Squeezes S_) :
    ((A.slice (Rect.unit (s := S32) (k0_off4 c 24#32) S1.size p)).squeeze S_ hq).sem = sem32 A (slot (yc c) 6 0) :=
  congrArg (fun X : DmaSems sig S1 => (X.squeeze S_ hq).sem) (semSlice_off4_w24 A c p)
theorem semSlice_off4_w28 (A : DmaSems sig S32) (c : Dev nD) (p) :
    A.slice (Rect.unit (s := S32) (k0_off4 c 28#32) S1.size p)
      = A.slice (Rect.unit (s := S32) ![(slot (yc c) 7 0).val] S1.size (inb32 (slot (yc c) 7 0))) :=
  SemArray.slice_unit_congr A (off4_slot c 7) p _
theorem sem_off4_w28 (A : DmaSems sig S32) (c : Dev nD) (p) (hq : S1.Squeezes S_) :
    ((A.slice (Rect.unit (s := S32) (k0_off4 c 28#32) S1.size p)).squeeze S_ hq).sem = sem32 A (slot (yc c) 7 0) :=
  congrArg (fun X : DmaSems sig S1 => (X.squeeze S_ hq).sem) (semSlice_off4_w28 A c p)

/-! ### Offset function 5: a slot of a stage-2 buffer -/

theorem slice_off5_w0 (M : Memref sig .tc .vmem S32x4x32x128 .bf16) (c : Dev nD) (p) (hs) :
    M.slice (Rect.unit (s := S32x4x32x128) (k0_off5 c 0#32) S1x4x32x128.size p) hs = slot2 M (slot (yc c) 0 0) :=
  Memref.slice_unit_congr M (off5_slot c 0) p _ hs _
theorem slice_off5_w4 (M : Memref sig .tc .vmem S32x4x32x128 .bf16) (c : Dev nD) (p) (hs) :
    M.slice (Rect.unit (s := S32x4x32x128) (k0_off5 c 4#32) S1x4x32x128.size p) hs = slot2 M (slot (yc c) 1 0) :=
  Memref.slice_unit_congr M (off5_slot c 1) p _ hs _
theorem slice_off5_w8 (M : Memref sig .tc .vmem S32x4x32x128 .bf16) (c : Dev nD) (p) (hs) :
    M.slice (Rect.unit (s := S32x4x32x128) (k0_off5 c 8#32) S1x4x32x128.size p) hs = slot2 M (slot (yc c) 2 0) :=
  Memref.slice_unit_congr M (off5_slot c 2) p _ hs _
theorem slice_off5_w12 (M : Memref sig .tc .vmem S32x4x32x128 .bf16) (c : Dev nD) (p) (hs) :
    M.slice (Rect.unit (s := S32x4x32x128) (k0_off5 c 12#32) S1x4x32x128.size p) hs = slot2 M (slot (yc c) 3 0) :=
  Memref.slice_unit_congr M (off5_slot c 3) p _ hs _
theorem slice_off5_w16 (M : Memref sig .tc .vmem S32x4x32x128 .bf16) (c : Dev nD) (p) (hs) :
    M.slice (Rect.unit (s := S32x4x32x128) (k0_off5 c 16#32) S1x4x32x128.size p) hs = slot2 M (slot (yc c) 4 0) :=
  Memref.slice_unit_congr M (off5_slot c 4) p _ hs _
theorem slice_off5_w20 (M : Memref sig .tc .vmem S32x4x32x128 .bf16) (c : Dev nD) (p) (hs) :
    M.slice (Rect.unit (s := S32x4x32x128) (k0_off5 c 20#32) S1x4x32x128.size p) hs = slot2 M (slot (yc c) 5 0) :=
  Memref.slice_unit_congr M (off5_slot c 5) p _ hs _
theorem slice_off5_w24 (M : Memref sig .tc .vmem S32x4x32x128 .bf16) (c : Dev nD) (p) (hs) :
    M.slice (Rect.unit (s := S32x4x32x128) (k0_off5 c 24#32) S1x4x32x128.size p) hs = slot2 M (slot (yc c) 6 0) :=
  Memref.slice_unit_congr M (off5_slot c 6) p _ hs _
theorem slice_off5_w28 (M : Memref sig .tc .vmem S32x4x32x128 .bf16) (c : Dev nD) (p) (hs) :
    M.slice (Rect.unit (s := S32x4x32x128) (k0_off5 c 28#32) S1x4x32x128.size p) hs = slot2 M (slot (yc c) 7 0) :=
  Memref.slice_unit_congr M (off5_slot c 7) p _ hs _

/-! ### Offset function 6: a slot of a stage-2 buffer -/

theorem slice_off6_w0_1 (M : Memref sig .tc .vmem S32x4x32x128 .bf16) (c : Dev nD) (p) (hs) :
    M.slice (Rect.unit (s := S32x4x32x128) (k0_off6 c 0#32 1#32) S1x4x32x128.size p) hs = slot2 M (slot (yc c) 0 1) :=
  Memref.slice_unit_congr M (off6_slot c 0 0) p _ hs _
theorem slice_off6_w0_2 (M : Memref sig .tc .vmem S32x4x32x128 .bf16) (c : Dev nD) (p) (hs) :
    M.slice (Rect.unit (s := S32x4x32x128) (k0_off6 c 0#32 2#32) S1x4x32x128.size p) hs = slot2 M (slot (yc c) 0 2) :=
  Memref.slice_unit_congr M (off6_slot c 0 1) p _ hs _
theorem slice_off6_w0_3 (M : Memref sig .tc .vmem S32x4x32x128 .bf16) (c : Dev nD) (p) (hs) :
    M.slice (Rect.unit (s := S32x4x32x128) (k0_off6 c 0#32 3#32) S1x4x32x128.size p) hs = slot2 M (slot (yc c) 0 3) :=
  Memref.slice_unit_congr M (off6_slot c 0 2) p _ hs _
theorem slice_off6_w4_1 (M : Memref sig .tc .vmem S32x4x32x128 .bf16) (c : Dev nD) (p) (hs) :
    M.slice (Rect.unit (s := S32x4x32x128) (k0_off6 c 4#32 1#32) S1x4x32x128.size p) hs = slot2 M (slot (yc c) 1 1) :=
  Memref.slice_unit_congr M (off6_slot c 1 0) p _ hs _
theorem slice_off6_w4_2 (M : Memref sig .tc .vmem S32x4x32x128 .bf16) (c : Dev nD) (p) (hs) :
    M.slice (Rect.unit (s := S32x4x32x128) (k0_off6 c 4#32 2#32) S1x4x32x128.size p) hs = slot2 M (slot (yc c) 1 2) :=
  Memref.slice_unit_congr M (off6_slot c 1 1) p _ hs _
theorem slice_off6_w4_3 (M : Memref sig .tc .vmem S32x4x32x128 .bf16) (c : Dev nD) (p) (hs) :
    M.slice (Rect.unit (s := S32x4x32x128) (k0_off6 c 4#32 3#32) S1x4x32x128.size p) hs = slot2 M (slot (yc c) 1 3) :=
  Memref.slice_unit_congr M (off6_slot c 1 2) p _ hs _
theorem slice_off6_w8_1 (M : Memref sig .tc .vmem S32x4x32x128 .bf16) (c : Dev nD) (p) (hs) :
    M.slice (Rect.unit (s := S32x4x32x128) (k0_off6 c 8#32 1#32) S1x4x32x128.size p) hs = slot2 M (slot (yc c) 2 1) :=
  Memref.slice_unit_congr M (off6_slot c 2 0) p _ hs _
theorem slice_off6_w8_2 (M : Memref sig .tc .vmem S32x4x32x128 .bf16) (c : Dev nD) (p) (hs) :
    M.slice (Rect.unit (s := S32x4x32x128) (k0_off6 c 8#32 2#32) S1x4x32x128.size p) hs = slot2 M (slot (yc c) 2 2) :=
  Memref.slice_unit_congr M (off6_slot c 2 1) p _ hs _
theorem slice_off6_w8_3 (M : Memref sig .tc .vmem S32x4x32x128 .bf16) (c : Dev nD) (p) (hs) :
    M.slice (Rect.unit (s := S32x4x32x128) (k0_off6 c 8#32 3#32) S1x4x32x128.size p) hs = slot2 M (slot (yc c) 2 3) :=
  Memref.slice_unit_congr M (off6_slot c 2 2) p _ hs _
theorem slice_off6_w12_1 (M : Memref sig .tc .vmem S32x4x32x128 .bf16) (c : Dev nD) (p) (hs) :
    M.slice (Rect.unit (s := S32x4x32x128) (k0_off6 c 12#32 1#32) S1x4x32x128.size p) hs = slot2 M (slot (yc c) 3 1) :=
  Memref.slice_unit_congr M (off6_slot c 3 0) p _ hs _
theorem slice_off6_w12_2 (M : Memref sig .tc .vmem S32x4x32x128 .bf16) (c : Dev nD) (p) (hs) :
    M.slice (Rect.unit (s := S32x4x32x128) (k0_off6 c 12#32 2#32) S1x4x32x128.size p) hs = slot2 M (slot (yc c) 3 2) :=
  Memref.slice_unit_congr M (off6_slot c 3 1) p _ hs _
theorem slice_off6_w12_3 (M : Memref sig .tc .vmem S32x4x32x128 .bf16) (c : Dev nD) (p) (hs) :
    M.slice (Rect.unit (s := S32x4x32x128) (k0_off6 c 12#32 3#32) S1x4x32x128.size p) hs = slot2 M (slot (yc c) 3 3) :=
  Memref.slice_unit_congr M (off6_slot c 3 2) p _ hs _
theorem slice_off6_w16_1 (M : Memref sig .tc .vmem S32x4x32x128 .bf16) (c : Dev nD) (p) (hs) :
    M.slice (Rect.unit (s := S32x4x32x128) (k0_off6 c 16#32 1#32) S1x4x32x128.size p) hs = slot2 M (slot (yc c) 4 1) :=
  Memref.slice_unit_congr M (off6_slot c 4 0) p _ hs _
theorem slice_off6_w16_2 (M : Memref sig .tc .vmem S32x4x32x128 .bf16) (c : Dev nD) (p) (hs) :
    M.slice (Rect.unit (s := S32x4x32x128) (k0_off6 c 16#32 2#32) S1x4x32x128.size p) hs = slot2 M (slot (yc c) 4 2) :=
  Memref.slice_unit_congr M (off6_slot c 4 1) p _ hs _
theorem slice_off6_w16_3 (M : Memref sig .tc .vmem S32x4x32x128 .bf16) (c : Dev nD) (p) (hs) :
    M.slice (Rect.unit (s := S32x4x32x128) (k0_off6 c 16#32 3#32) S1x4x32x128.size p) hs = slot2 M (slot (yc c) 4 3) :=
  Memref.slice_unit_congr M (off6_slot c 4 2) p _ hs _
theorem slice_off6_w20_1 (M : Memref sig .tc .vmem S32x4x32x128 .bf16) (c : Dev nD) (p) (hs) :
    M.slice (Rect.unit (s := S32x4x32x128) (k0_off6 c 20#32 1#32) S1x4x32x128.size p) hs = slot2 M (slot (yc c) 5 1) :=
  Memref.slice_unit_congr M (off6_slot c 5 0) p _ hs _
theorem slice_off6_w20_2 (M : Memref sig .tc .vmem S32x4x32x128 .bf16) (c : Dev nD) (p) (hs) :
    M.slice (Rect.unit (s := S32x4x32x128) (k0_off6 c 20#32 2#32) S1x4x32x128.size p) hs = slot2 M (slot (yc c) 5 2) :=
  Memref.slice_unit_congr M (off6_slot c 5 1) p _ hs _
theorem slice_off6_w20_3 (M : Memref sig .tc .vmem S32x4x32x128 .bf16) (c : Dev nD) (p) (hs) :
    M.slice (Rect.unit (s := S32x4x32x128) (k0_off6 c 20#32 3#32) S1x4x32x128.size p) hs = slot2 M (slot (yc c) 5 3) :=
  Memref.slice_unit_congr M (off6_slot c 5 2) p _ hs _
theorem slice_off6_w24_1 (M : Memref sig .tc .vmem S32x4x32x128 .bf16) (c : Dev nD) (p) (hs) :
    M.slice (Rect.unit (s := S32x4x32x128) (k0_off6 c 24#32 1#32) S1x4x32x128.size p) hs = slot2 M (slot (yc c) 6 1) :=
  Memref.slice_unit_congr M (off6_slot c 6 0) p _ hs _
theorem slice_off6_w24_2 (M : Memref sig .tc .vmem S32x4x32x128 .bf16) (c : Dev nD) (p) (hs) :
    M.slice (Rect.unit (s := S32x4x32x128) (k0_off6 c 24#32 2#32) S1x4x32x128.size p) hs = slot2 M (slot (yc c) 6 2) :=
  Memref.slice_unit_congr M (off6_slot c 6 1) p _ hs _
theorem slice_off6_w24_3 (M : Memref sig .tc .vmem S32x4x32x128 .bf16) (c : Dev nD) (p) (hs) :
    M.slice (Rect.unit (s := S32x4x32x128) (k0_off6 c 24#32 3#32) S1x4x32x128.size p) hs = slot2 M (slot (yc c) 6 3) :=
  Memref.slice_unit_congr M (off6_slot c 6 2) p _ hs _
theorem slice_off6_w28_1 (M : Memref sig .tc .vmem S32x4x32x128 .bf16) (c : Dev nD) (p) (hs) :
    M.slice (Rect.unit (s := S32x4x32x128) (k0_off6 c 28#32 1#32) S1x4x32x128.size p) hs = slot2 M (slot (yc c) 7 1) :=
  Memref.slice_unit_congr M (off6_slot c 7 0) p _ hs _
theorem slice_off6_w28_2 (M : Memref sig .tc .vmem S32x4x32x128 .bf16) (c : Dev nD) (p) (hs) :
    M.slice (Rect.unit (s := S32x4x32x128) (k0_off6 c 28#32 2#32) S1x4x32x128.size p) hs = slot2 M (slot (yc c) 7 2) :=
  Memref.slice_unit_congr M (off6_slot c 7 1) p _ hs _
theorem slice_off6_w28_3 (M : Memref sig .tc .vmem S32x4x32x128 .bf16) (c : Dev nD) (p) (hs) :
    M.slice (Rect.unit (s := S32x4x32x128) (k0_off6 c 28#32 3#32) S1x4x32x128.size p) hs = slot2 M (slot (yc c) 7 3) :=
  Memref.slice_unit_congr M (off6_slot c 7 2) p _ hs _

/-! ### Offset function 7: the rectangle of a load from a stage-2 buffer -/

theorem rect_off7_w0 (c : Dev nD) (p) :
    Rect.unit (s := S32x4x32x128) (k0_off7 c 0#32) S1x4x32x128.size p
      = Rect.unit (s := S32x4x32x128) ![(slot (yc c) 0 0).val, 0, 0, 0] S1x4x32x128.size (inbA2 (slot (yc c) 0 0)) :=
  Rect.unit_congr (off7_slot c 0) p _
theorem rect_off7_w4 (c : Dev nD) (p) :
    Rect.unit (s := S32x4x32x128) (k0_off7 c 4#32) S1x4x32x128.size p
      = Rect.unit (s := S32x4x32x128) ![(slot (yc c) 1 0).val, 0, 0, 0] S1x4x32x128.size (inbA2 (slot (yc c) 1 0)) :=
  Rect.unit_congr (off7_slot c 1) p _
theorem rect_off7_w8 (c : Dev nD) (p) :
    Rect.unit (s := S32x4x32x128) (k0_off7 c 8#32) S1x4x32x128.size p
      = Rect.unit (s := S32x4x32x128) ![(slot (yc c) 2 0).val, 0, 0, 0] S1x4x32x128.size (inbA2 (slot (yc c) 2 0)) :=
  Rect.unit_congr (off7_slot c 2) p _
theorem rect_off7_w12 (c : Dev nD) (p) :
    Rect.unit (s := S32x4x32x128) (k0_off7 c 12#32) S1x4x32x128.size p
      = Rect.unit (s := S32x4x32x128) ![(slot (yc c) 3 0).val, 0, 0, 0] S1x4x32x128.size (inbA2 (slot (yc c) 3 0)) :=
  Rect.unit_congr (off7_slot c 3) p _
theorem rect_off7_w16 (c : Dev nD) (p) :
    Rect.unit (s := S32x4x32x128) (k0_off7 c 16#32) S1x4x32x128.size p
      = Rect.unit (s := S32x4x32x128) ![(slot (yc c) 4 0).val, 0, 0, 0] S1x4x32x128.size (inbA2 (slot (yc c) 4 0)) :=
  Rect.unit_congr (off7_slot c 4) p _
theorem rect_off7_w20 (c : Dev nD) (p) :
    Rect.unit (s := S32x4x32x128) (k0_off7 c 20#32) S1x4x32x128.size p
      = Rect.unit (s := S32x4x32x128) ![(slot (yc c) 5 0).val, 0, 0, 0] S1x4x32x128.size (inbA2 (slot (yc c) 5 0)) :=
  Rect.unit_congr (off7_slot c 5) p _
theorem rect_off7_w24 (c : Dev nD) (p) :
    Rect.unit (s := S32x4x32x128) (k0_off7 c 24#32) S1x4x32x128.size p
      = Rect.unit (s := S32x4x32x128) ![(slot (yc c) 6 0).val, 0, 0, 0] S1x4x32x128.size (inbA2 (slot (yc c) 6 0)) :=
  Rect.unit_congr (off7_slot c 6) p _
theorem rect_off7_w28 (c : Dev nD) (p) :
    Rect.unit (s := S32x4x32x128) (k0_off7 c 28#32) S1x4x32x128.size p
      = Rect.unit (s := S32x4x32x128) ![(slot (yc c) 7 0).val, 0, 0, 0] S1x4x32x128.size (inbA2 (slot (yc c) 7 0)) :=
  Rect.unit_congr (off7_slot c 7) p _

/-! ### Offset function 8: a semaphore of a 32-array -/

theorem semSlice_off8_w0_1 (A : DmaSems sig S32) (c : Dev nD) (p) :
    A.slice (Rect.unit (s := S32) (k0_off8 c 0#32 1#32) S1.size p)
      = A.slice (Rect.unit (s := S32) ![(slot (yc c) 0 3).val] S1.size (inb32 (slot (yc c) 0 3))) :=
  SemArray.slice_unit_congr A (off8_slot c 0 0) p _
theorem sem_off8_w0_1 (A : DmaSems sig S32) (c : Dev nD) (p) (hq : S1.Squeezes S_) :
    ((A.slice (Rect.unit (s := S32) (k0_off8 c 0#32 1#32) S1.size p)).squeeze S_ hq).sem = sem32 A (slot (yc c) 0 3) :=
  congrArg (fun X : DmaSems sig S1 => (X.squeeze S_ hq).sem) (semSlice_off8_w0_1 A c p)
theorem semSlice_off8_w0_2 (A : DmaSems sig S32) (c : Dev nD) (p) :
    A.slice (Rect.unit (s := S32) (k0_off8 c 0#32 2#32) S1.size p)
      = A.slice (Rect.unit (s := S32) ![(slot (yc c) 0 2).val] S1.size (inb32 (slot (yc c) 0 2))) :=
  SemArray.slice_unit_congr A (off8_slot c 0 1) p _
theorem sem_off8_w0_2 (A : DmaSems sig S32) (c : Dev nD) (p) (hq : S1.Squeezes S_) :
    ((A.slice (Rect.unit (s := S32) (k0_off8 c 0#32 2#32) S1.size p)).squeeze S_ hq).sem = sem32 A (slot (yc c) 0 2) :=
  congrArg (fun X : DmaSems sig S1 => (X.squeeze S_ hq).sem) (semSlice_off8_w0_2 A c p)
theorem semSlice_off8_w0_3 (A : DmaSems sig S32) (c : Dev nD) (p) :
    A.slice (Rect.unit (s := S32) (k0_off8 c 0#32 3#32) S1.size p)
      = A.slice (Rect.unit (s := S32) ![(slot (yc c) 0 1).val] S1.size (inb32 (slot (yc c) 0 1))) :=
  SemArray.slice_unit_congr A (off8_slot c 0 2) p _
theorem sem_off8_w0_3 (A : DmaSems sig S32) (c : Dev nD) (p) (hq : S1.Squeezes S_) :
    ((A.slice (Rect.unit (s := S32) (k0_off8 c 0#32 3#32) S1.size p)).squeeze S_ hq).sem = sem32 A (slot (yc c) 0 1) :=
  congrArg (fun X : DmaSems sig S1 => (X.squeeze S_ hq).sem) (semSlice_off8_w0_3 A c p)
theorem semSlice_off8_w4_1 (A : DmaSems sig S32) (c : Dev nD) (p) :
    A.slice (Rect.unit (s := S32) (k0_off8 c 4#32 1#32) S1.size p)
      = A.slice (Rect.unit (s := S32) ![(slot (yc c) 1 3).val] S1.size (inb32 (slot (yc c) 1 3))) :=
  SemArray.slice_unit_congr A (off8_slot c 1 0) p _
theorem sem_off8_w4_1 (A : DmaSems sig S32) (c : Dev nD) (p) (hq : S1.Squeezes S_) :
    ((A.slice (Rect.unit (s := S32) (k0_off8 c 4#32 1#32) S1.size p)).squeeze S_ hq).sem = sem32 A (slot (yc c) 1 3) :=
  congrArg (fun X : DmaSems sig S1 => (X.squeeze S_ hq).sem) (semSlice_off8_w4_1 A c p)
theorem semSlice_off8_w4_2 (A : DmaSems sig S32) (c : Dev nD) (p) :
    A.slice (Rect.unit (s := S32) (k0_off8 c 4#32 2#32) S1.size p)
      = A.slice (Rect.unit (s := S32) ![(slot (yc c) 1 2).val] S1.size (inb32 (slot (yc c) 1 2))) :=
  SemArray.slice_unit_congr A (off8_slot c 1 1) p _
theorem sem_off8_w4_2 (A : DmaSems sig S32) (c : Dev nD) (p) (hq : S1.Squeezes S_) :
    ((A.slice (Rect.unit (s := S32) (k0_off8 c 4#32 2#32) S1.size p)).squeeze S_ hq).sem = sem32 A (slot (yc c) 1 2) :=
  congrArg (fun X : DmaSems sig S1 => (X.squeeze S_ hq).sem) (semSlice_off8_w4_2 A c p)
theorem semSlice_off8_w4_3 (A : DmaSems sig S32) (c : Dev nD) (p) :
    A.slice (Rect.unit (s := S32) (k0_off8 c 4#32 3#32) S1.size p)
      = A.slice (Rect.unit (s := S32) ![(slot (yc c) 1 1).val] S1.size (inb32 (slot (yc c) 1 1))) :=
  SemArray.slice_unit_congr A (off8_slot c 1 2) p _
theorem sem_off8_w4_3 (A : DmaSems sig S32) (c : Dev nD) (p) (hq : S1.Squeezes S_) :
    ((A.slice (Rect.unit (s := S32) (k0_off8 c 4#32 3#32) S1.size p)).squeeze S_ hq).sem = sem32 A (slot (yc c) 1 1) :=
  congrArg (fun X : DmaSems sig S1 => (X.squeeze S_ hq).sem) (semSlice_off8_w4_3 A c p)
theorem semSlice_off8_w8_1 (A : DmaSems sig S32) (c : Dev nD) (p) :
    A.slice (Rect.unit (s := S32) (k0_off8 c 8#32 1#32) S1.size p)
      = A.slice (Rect.unit (s := S32) ![(slot (yc c) 2 3).val] S1.size (inb32 (slot (yc c) 2 3))) :=
  SemArray.slice_unit_congr A (off8_slot c 2 0) p _
theorem sem_off8_w8_1 (A : DmaSems sig S32) (c : Dev nD) (p) (hq : S1.Squeezes S_) :
    ((A.slice (Rect.unit (s := S32) (k0_off8 c 8#32 1#32) S1.size p)).squeeze S_ hq).sem = sem32 A (slot (yc c) 2 3) :=
  congrArg (fun X : DmaSems sig S1 => (X.squeeze S_ hq).sem) (semSlice_off8_w8_1 A c p)
theorem semSlice_off8_w8_2 (A : DmaSems sig S32) (c : Dev nD) (p) :
    A.slice (Rect.unit (s := S32) (k0_off8 c 8#32 2#32) S1.size p)
      = A.slice (Rect.unit (s := S32) ![(slot (yc c) 2 2).val] S1.size (inb32 (slot (yc c) 2 2))) :=
  SemArray.slice_unit_congr A (off8_slot c 2 1) p _
theorem sem_off8_w8_2 (A : DmaSems sig S32) (c : Dev nD) (p) (hq : S1.Squeezes S_) :
    ((A.slice (Rect.unit (s := S32) (k0_off8 c 8#32 2#32) S1.size p)).squeeze S_ hq).sem = sem32 A (slot (yc c) 2 2) :=
  congrArg (fun X : DmaSems sig S1 => (X.squeeze S_ hq).sem) (semSlice_off8_w8_2 A c p)
theorem semSlice_off8_w8_3 (A : DmaSems sig S32) (c : Dev nD) (p) :
    A.slice (Rect.unit (s := S32) (k0_off8 c 8#32 3#32) S1.size p)
      = A.slice (Rect.unit (s := S32) ![(slot (yc c) 2 1).val] S1.size (inb32 (slot (yc c) 2 1))) :=
  SemArray.slice_unit_congr A (off8_slot c 2 2) p _
theorem sem_off8_w8_3 (A : DmaSems sig S32) (c : Dev nD) (p) (hq : S1.Squeezes S_) :
    ((A.slice (Rect.unit (s := S32) (k0_off8 c 8#32 3#32) S1.size p)).squeeze S_ hq).sem = sem32 A (slot (yc c) 2 1) :=
  congrArg (fun X : DmaSems sig S1 => (X.squeeze S_ hq).sem) (semSlice_off8_w8_3 A c p)
theorem semSlice_off8_w12_1 (A : DmaSems sig S32) (c : Dev nD) (p) :
    A.slice (Rect.unit (s := S32) (k0_off8 c 12#32 1#32) S1.size p)
      = A.slice (Rect.unit (s := S32) ![(slot (yc c) 3 3).val] S1.size (inb32 (slot (yc c) 3 3))) :=
  SemArray.slice_unit_congr A (off8_slot c 3 0) p _
theorem sem_off8_w12_1 (A : DmaSems sig S32) (c : Dev nD) (p) (hq : S1.Squeezes S_) :
    ((A.slice (Rect.unit (s := S32) (k0_off8 c 12#32 1#32) S1.size p)).squeeze S_ hq).sem = sem32 A (slot (yc c) 3 3) :=
  congrArg (fun X : DmaSems sig S1 => (X.squeeze S_ hq).sem) (semSlice_off8_w12_1 A c p)
theorem semSlice_off8_w12_2 (A : DmaSems sig S32) (c : Dev nD) (p) :
    A.slice (Rect.unit (s := S32) (k0_off8 c 12#32 2#32) S1.size p)
      = A.slice (Rect.unit (s := S32) ![(slot (yc c) 3 2).val] S1.size (inb32 (slot (yc c) 3 2))) :=
  SemArray.slice_unit_congr A (off8_slot c 3 1) p _
theorem sem_off8_w12_2 (A : DmaSems sig S32) (c : Dev nD) (p) (hq : S1.Squeezes S_) :
    ((A.slice (Rect.unit (s := S32) (k0_off8 c 12#32 2#32) S1.size p)).squeeze S_ hq).sem = sem32 A (slot (yc c) 3 2) :=
  congrArg (fun X : DmaSems sig S1 => (X.squeeze S_ hq).sem) (semSlice_off8_w12_2 A c p)
theorem semSlice_off8_w12_3 (A : DmaSems sig S32) (c : Dev nD) (p) :
    A.slice (Rect.unit (s := S32) (k0_off8 c 12#32 3#32) S1.size p)
      = A.slice (Rect.unit (s := S32) ![(slot (yc c) 3 1).val] S1.size (inb32 (slot (yc c) 3 1))) :=
  SemArray.slice_unit_congr A (off8_slot c 3 2) p _
theorem sem_off8_w12_3 (A : DmaSems sig S32) (c : Dev nD) (p) (hq : S1.Squeezes S_) :
    ((A.slice (Rect.unit (s := S32) (k0_off8 c 12#32 3#32) S1.size p)).squeeze S_ hq).sem = sem32 A (slot (yc c) 3 1) :=
  congrArg (fun X : DmaSems sig S1 => (X.squeeze S_ hq).sem) (semSlice_off8_w12_3 A c p)
theorem semSlice_off8_w16_1 (A : DmaSems sig S32) (c : Dev nD) (p) :
    A.slice (Rect.unit (s := S32) (k0_off8 c 16#32 1#32) S1.size p)
      = A.slice (Rect.unit (s := S32) ![(slot (yc c) 4 3).val] S1.size (inb32 (slot (yc c) 4 3))) :=
  SemArray.slice_unit_congr A (off8_slot c 4 0) p _
theorem sem_off8_w16_1 (A : DmaSems sig S32) (c : Dev nD) (p) (hq : S1.Squeezes S_) :
    ((A.slice (Rect.unit (s := S32) (k0_off8 c 16#32 1#32) S1.size p)).squeeze S_ hq).sem = sem32 A (slot (yc c) 4 3) :=
  congrArg (fun X : DmaSems sig S1 => (X.squeeze S_ hq).sem) (semSlice_off8_w16_1 A c p)
theorem semSlice_off8_w16_2 (A : DmaSems sig S32) (c : Dev nD) (p) :
    A.slice (Rect.unit (s := S32) (k0_off8 c 16#32 2#32) S1.size p)
      = A.slice (Rect.unit (s := S32) ![(slot (yc c) 4 2).val] S1.size (inb32 (slot (yc c) 4 2))) :=
  SemArray.slice_unit_congr A (off8_slot c 4 1) p _
theorem sem_off8_w16_2 (A : DmaSems sig S32) (c : Dev nD) (p) (hq : S1.Squeezes S_) :
    ((A.slice (Rect.unit (s := S32) (k0_off8 c 16#32 2#32) S1.size p)).squeeze S_ hq).sem = sem32 A (slot (yc c) 4 2) :=
  congrArg (fun X : DmaSems sig S1 => (X.squeeze S_ hq).sem) (semSlice_off8_w16_2 A c p)
theorem semSlice_off8_w16_3 (A : DmaSems sig S32) (c : Dev nD) (p) :
    A.slice (Rect.unit (s := S32) (k0_off8 c 16#32 3#32) S1.size p)
      = A.slice (Rect.unit (s := S32) ![(slot (yc c) 4 1).val] S1.size (inb32 (slot (yc c) 4 1))) :=
  SemArray.slice_unit_congr A (off8_slot c 4 2) p _
theorem sem_off8_w16_3 (A : DmaSems sig S32) (c : Dev nD) (p) (hq : S1.Squeezes S_) :
    ((A.slice (Rect.unit (s := S32) (k0_off8 c 16#32 3#32) S1.size p)).squeeze S_ hq).sem = sem32 A (slot (yc c) 4 1) :=
  congrArg (fun X : DmaSems sig S1 => (X.squeeze S_ hq).sem) (semSlice_off8_w16_3 A c p)
theorem semSlice_off8_w20_1 (A : DmaSems sig S32) (c : Dev nD) (p) :
    A.slice (Rect.unit (s := S32) (k0_off8 c 20#32 1#32) S1.size p)
      = A.slice (Rect.unit (s := S32) ![(slot (yc c) 5 3).val] S1.size (inb32 (slot (yc c) 5 3))) :=
  SemArray.slice_unit_congr A (off8_slot c 5 0) p _
theorem sem_off8_w20_1 (A : DmaSems sig S32) (c : Dev nD) (p) (hq : S1.Squeezes S_) :
    ((A.slice (Rect.unit (s := S32) (k0_off8 c 20#32 1#32) S1.size p)).squeeze S_ hq).sem = sem32 A (slot (yc c) 5 3) :=
  congrArg (fun X : DmaSems sig S1 => (X.squeeze S_ hq).sem) (semSlice_off8_w20_1 A c p)
theorem semSlice_off8_w20_2 (A : DmaSems sig S32) (c : Dev nD) (p) :
    A.slice (Rect.unit (s := S32) (k0_off8 c 20#32 2#32) S1.size p)
      = A.slice (Rect.unit (s := S32) ![(slot (yc c) 5 2).val] S1.size (inb32 (slot (yc c) 5 2))) :=
  SemArray.slice_unit_congr A (off8_slot c 5 1) p _
theorem sem_off8_w20_2 (A : DmaSems sig S32) (c : Dev nD) (p) (hq : S1.Squeezes S_) :
    ((A.slice (Rect.unit (s := S32) (k0_off8 c 20#32 2#32) S1.size p)).squeeze S_ hq).sem = sem32 A (slot (yc c) 5 2) :=
  congrArg (fun X : DmaSems sig S1 => (X.squeeze S_ hq).sem) (semSlice_off8_w20_2 A c p)
theorem semSlice_off8_w20_3 (A : DmaSems sig S32) (c : Dev nD) (p) :
    A.slice (Rect.unit (s := S32) (k0_off8 c 20#32 3#32) S1.size p)
      = A.slice (Rect.unit (s := S32) ![(slot (yc c) 5 1).val] S1.size (inb32 (slot (yc c) 5 1))) :=
  SemArray.slice_unit_congr A (off8_slot c 5 2) p _
theorem sem_off8_w20_3 (A : DmaSems sig S32) (c : Dev nD) (p) (hq : S1.Squeezes S_) :
    ((A.slice (Rect.unit (s := S32) (k0_off8 c 20#32 3#32) S1.size p)).squeeze S_ hq).sem = sem32 A (slot (yc c) 5 1) :=
  congrArg (fun X : DmaSems sig S1 => (X.squeeze S_ hq).sem) (semSlice_off8_w20_3 A c p)
theorem semSlice_off8_w24_1 (A : DmaSems sig S32) (c : Dev nD) (p) :
    A.slice (Rect.unit (s := S32) (k0_off8 c 24#32 1#32) S1.size p)
      = A.slice (Rect.unit (s := S32) ![(slot (yc c) 6 3).val] S1.size (inb32 (slot (yc c) 6 3))) :=
  SemArray.slice_unit_congr A (off8_slot c 6 0) p _
theorem sem_off8_w24_1 (A : DmaSems sig S32) (c : Dev nD) (p) (hq : S1.Squeezes S_) :
    ((A.slice (Rect.unit (s := S32) (k0_off8 c 24#32 1#32) S1.size p)).squeeze S_ hq).sem = sem32 A (slot (yc c) 6 3) :=
  congrArg (fun X : DmaSems sig S1 => (X.squeeze S_ hq).sem) (semSlice_off8_w24_1 A c p)
theorem semSlice_off8_w24_2 (A : DmaSems sig S32) (c : Dev nD) (p) :
    A.slice (Rect.unit (s := S32) (k0_off8 c 24#32 2#32) S1.size p)
      = A.slice (Rect.unit (s := S32) ![(slot (yc c) 6 2).val] S1.size (inb32 (slot (yc c) 6 2))) :=
  SemArray.slice_unit_congr A (off8_slot c 6 1) p _
theorem sem_off8_w24_2 (A : DmaSems sig S32) (c : Dev nD) (p) (hq : S1.Squeezes S_) :
    ((A.slice (Rect.unit (s := S32) (k0_off8 c 24#32 2#32) S1.size p)).squeeze S_ hq).sem = sem32 A (slot (yc c) 6 2) :=
  congrArg (fun X : DmaSems sig S1 => (X.squeeze S_ hq).sem) (semSlice_off8_w24_2 A c p)
theorem semSlice_off8_w24_3 (A : DmaSems sig S32) (c : Dev nD) (p) :
    A.slice (Rect.unit (s := S32) (k0_off8 c 24#32 3#32) S1.size p)
      = A.slice (Rect.unit (s := S32) ![(slot (yc c) 6 1).val] S1.size (inb32 (slot (yc c) 6 1))) :=
  SemArray.slice_unit_congr A (off8_slot c 6 2) p _
theorem sem_off8_w24_3 (A : DmaSems sig S32) (c : Dev nD) (p) (hq : S1.Squeezes S_) :
    ((A.slice (Rect.unit (s := S32) (k0_off8 c 24#32 3#32) S1.size p)).squeeze S_ hq).sem = sem32 A (slot (yc c) 6 1) :=
  congrArg (fun X : DmaSems sig S1 => (X.squeeze S_ hq).sem) (semSlice_off8_w24_3 A c p)
theorem semSlice_off8_w28_1 (A : DmaSems sig S32) (c : Dev nD) (p) :
    A.slice (Rect.unit (s := S32) (k0_off8 c 28#32 1#32) S1.size p)
      = A.slice (Rect.unit (s := S32) ![(slot (yc c) 7 3).val] S1.size (inb32 (slot (yc c) 7 3))) :=
  SemArray.slice_unit_congr A (off8_slot c 7 0) p _
theorem sem_off8_w28_1 (A : DmaSems sig S32) (c : Dev nD) (p) (hq : S1.Squeezes S_) :
    ((A.slice (Rect.unit (s := S32) (k0_off8 c 28#32 1#32) S1.size p)).squeeze S_ hq).sem = sem32 A (slot (yc c) 7 3) :=
  congrArg (fun X : DmaSems sig S1 => (X.squeeze S_ hq).sem) (semSlice_off8_w28_1 A c p)
theorem semSlice_off8_w28_2 (A : DmaSems sig S32) (c : Dev nD) (p) :
    A.slice (Rect.unit (s := S32) (k0_off8 c 28#32 2#32) S1.size p)
      = A.slice (Rect.unit (s := S32) ![(slot (yc c) 7 2).val] S1.size (inb32 (slot (yc c) 7 2))) :=
  SemArray.slice_unit_congr A (off8_slot c 7 1) p _
theorem sem_off8_w28_2 (A : DmaSems sig S32) (c : Dev nD) (p) (hq : S1.Squeezes S_) :
    ((A.slice (Rect.unit (s := S32) (k0_off8 c 28#32 2#32) S1.size p)).squeeze S_ hq).sem = sem32 A (slot (yc c) 7 2) :=
  congrArg (fun X : DmaSems sig S1 => (X.squeeze S_ hq).sem) (semSlice_off8_w28_2 A c p)
theorem semSlice_off8_w28_3 (A : DmaSems sig S32) (c : Dev nD) (p) :
    A.slice (Rect.unit (s := S32) (k0_off8 c 28#32 3#32) S1.size p)
      = A.slice (Rect.unit (s := S32) ![(slot (yc c) 7 1).val] S1.size (inb32 (slot (yc c) 7 1))) :=
  SemArray.slice_unit_congr A (off8_slot c 7 2) p _
theorem sem_off8_w28_3 (A : DmaSems sig S32) (c : Dev nD) (p) (hq : S1.Squeezes S_) :
    ((A.slice (Rect.unit (s := S32) (k0_off8 c 28#32 3#32) S1.size p)).squeeze S_ hq).sem = sem32 A (slot (yc c) 7 1) :=
  congrArg (fun X : DmaSems sig S1 => (X.squeeze S_ hq).sem) (semSlice_off8_w28_3 A c p)

/-! ### Offset function 9: a slot of a stage-2 buffer -/

theorem slice_off9_w0_1 (M : Memref sig .tc .vmem S32x4x32x128 .bf16) (c : Dev nD) (p) (hs) :
    M.slice (Rect.unit (s := S32x4x32x128) (k0_off9 c 0#32 1#32) S1x4x32x128.size p) hs = slot2 M (slot (yc c) 0 3) :=
  Memref.slice_unit_congr M (off9_slot c 0 0) p _ hs _
theorem slice_off9_w0_2 (M : Memref sig .tc .vmem S32x4x32x128 .bf16) (c : Dev nD) (p) (hs) :
    M.slice (Rect.unit (s := S32x4x32x128) (k0_off9 c 0#32 2#32) S1x4x32x128.size p) hs = slot2 M (slot (yc c) 0 2) :=
  Memref.slice_unit_congr M (off9_slot c 0 1) p _ hs _
theorem slice_off9_w0_3 (M : Memref sig .tc .vmem S32x4x32x128 .bf16) (c : Dev nD) (p) (hs) :
    M.slice (Rect.unit (s := S32x4x32x128) (k0_off9 c 0#32 3#32) S1x4x32x128.size p) hs = slot2 M (slot (yc c) 0 1) :=
  Memref.slice_unit_congr M (off9_slot c 0 2) p _ hs _
theorem slice_off9_w4_1 (M : Memref sig .tc .vmem S32x4x32x128 .bf16) (c : Dev nD) (p) (hs) :
    M.slice (Rect.unit (s := S32x4x32x128) (k0_off9 c 4#32 1#32) S1x4x32x128.size p) hs = slot2 M (slot (yc c) 1 3) :=
  Memref.slice_unit_congr M (off9_slot c 1 0) p _ hs _
theorem slice_off9_w4_2 (M : Memref sig .tc .vmem S32x4x32x128 .bf16) (c : Dev nD) (p) (hs) :
    M.slice (Rect.unit (s := S32x4x32x128) (k0_off9 c 4#32 2#32) S1x4x32x128.size p) hs = slot2 M (slot (yc c) 1 2) :=
  Memref.slice_unit_congr M (off9_slot c 1 1) p _ hs _
theorem slice_off9_w4_3 (M : Memref sig .tc .vmem S32x4x32x128 .bf16) (c : Dev nD) (p) (hs) :
    M.slice (Rect.unit (s := S32x4x32x128) (k0_off9 c 4#32 3#32) S1x4x32x128.size p) hs = slot2 M (slot (yc c) 1 1) :=
  Memref.slice_unit_congr M (off9_slot c 1 2) p _ hs _
theorem slice_off9_w8_1 (M : Memref sig .tc .vmem S32x4x32x128 .bf16) (c : Dev nD) (p) (hs) :
    M.slice (Rect.unit (s := S32x4x32x128) (k0_off9 c 8#32 1#32) S1x4x32x128.size p) hs = slot2 M (slot (yc c) 2 3) :=
  Memref.slice_unit_congr M (off9_slot c 2 0) p _ hs _
theorem slice_off9_w8_2 (M : Memref sig .tc .vmem S32x4x32x128 .bf16) (c : Dev nD) (p) (hs) :
    M.slice (Rect.unit (s := S32x4x32x128) (k0_off9 c 8#32 2#32) S1x4x32x128.size p) hs = slot2 M (slot (yc c) 2 2) :=
  Memref.slice_unit_congr M (off9_slot c 2 1) p _ hs _
theorem slice_off9_w8_3 (M : Memref sig .tc .vmem S32x4x32x128 .bf16) (c : Dev nD) (p) (hs) :
    M.slice (Rect.unit (s := S32x4x32x128) (k0_off9 c 8#32 3#32) S1x4x32x128.size p) hs = slot2 M (slot (yc c) 2 1) :=
  Memref.slice_unit_congr M (off9_slot c 2 2) p _ hs _
theorem slice_off9_w12_1 (M : Memref sig .tc .vmem S32x4x32x128 .bf16) (c : Dev nD) (p) (hs) :
    M.slice (Rect.unit (s := S32x4x32x128) (k0_off9 c 12#32 1#32) S1x4x32x128.size p) hs = slot2 M (slot (yc c) 3 3) :=
  Memref.slice_unit_congr M (off9_slot c 3 0) p _ hs _
theorem slice_off9_w12_2 (M : Memref sig .tc .vmem S32x4x32x128 .bf16) (c : Dev nD) (p) (hs) :
    M.slice (Rect.unit (s := S32x4x32x128) (k0_off9 c 12#32 2#32) S1x4x32x128.size p) hs = slot2 M (slot (yc c) 3 2) :=
  Memref.slice_unit_congr M (off9_slot c 3 1) p _ hs _
theorem slice_off9_w12_3 (M : Memref sig .tc .vmem S32x4x32x128 .bf16) (c : Dev nD) (p) (hs) :
    M.slice (Rect.unit (s := S32x4x32x128) (k0_off9 c 12#32 3#32) S1x4x32x128.size p) hs = slot2 M (slot (yc c) 3 1) :=
  Memref.slice_unit_congr M (off9_slot c 3 2) p _ hs _
theorem slice_off9_w16_1 (M : Memref sig .tc .vmem S32x4x32x128 .bf16) (c : Dev nD) (p) (hs) :
    M.slice (Rect.unit (s := S32x4x32x128) (k0_off9 c 16#32 1#32) S1x4x32x128.size p) hs = slot2 M (slot (yc c) 4 3) :=
  Memref.slice_unit_congr M (off9_slot c 4 0) p _ hs _
theorem slice_off9_w16_2 (M : Memref sig .tc .vmem S32x4x32x128 .bf16) (c : Dev nD) (p) (hs) :
    M.slice (Rect.unit (s := S32x4x32x128) (k0_off9 c 16#32 2#32) S1x4x32x128.size p) hs = slot2 M (slot (yc c) 4 2) :=
  Memref.slice_unit_congr M (off9_slot c 4 1) p _ hs _
theorem slice_off9_w16_3 (M : Memref sig .tc .vmem S32x4x32x128 .bf16) (c : Dev nD) (p) (hs) :
    M.slice (Rect.unit (s := S32x4x32x128) (k0_off9 c 16#32 3#32) S1x4x32x128.size p) hs = slot2 M (slot (yc c) 4 1) :=
  Memref.slice_unit_congr M (off9_slot c 4 2) p _ hs _
theorem slice_off9_w20_1 (M : Memref sig .tc .vmem S32x4x32x128 .bf16) (c : Dev nD) (p) (hs) :
    M.slice (Rect.unit (s := S32x4x32x128) (k0_off9 c 20#32 1#32) S1x4x32x128.size p) hs = slot2 M (slot (yc c) 5 3) :=
  Memref.slice_unit_congr M (off9_slot c 5 0) p _ hs _
theorem slice_off9_w20_2 (M : Memref sig .tc .vmem S32x4x32x128 .bf16) (c : Dev nD) (p) (hs) :
    M.slice (Rect.unit (s := S32x4x32x128) (k0_off9 c 20#32 2#32) S1x4x32x128.size p) hs = slot2 M (slot (yc c) 5 2) :=
  Memref.slice_unit_congr M (off9_slot c 5 1) p _ hs _
theorem slice_off9_w20_3 (M : Memref sig .tc .vmem S32x4x32x128 .bf16) (c : Dev nD) (p) (hs) :
    M.slice (Rect.unit (s := S32x4x32x128) (k0_off9 c 20#32 3#32) S1x4x32x128.size p) hs = slot2 M (slot (yc c) 5 1) :=
  Memref.slice_unit_congr M (off9_slot c 5 2) p _ hs _
theorem slice_off9_w24_1 (M : Memref sig .tc .vmem S32x4x32x128 .bf16) (c : Dev nD) (p) (hs) :
    M.slice (Rect.unit (s := S32x4x32x128) (k0_off9 c 24#32 1#32) S1x4x32x128.size p) hs = slot2 M (slot (yc c) 6 3) :=
  Memref.slice_unit_congr M (off9_slot c 6 0) p _ hs _
theorem slice_off9_w24_2 (M : Memref sig .tc .vmem S32x4x32x128 .bf16) (c : Dev nD) (p) (hs) :
    M.slice (Rect.unit (s := S32x4x32x128) (k0_off9 c 24#32 2#32) S1x4x32x128.size p) hs = slot2 M (slot (yc c) 6 2) :=
  Memref.slice_unit_congr M (off9_slot c 6 1) p _ hs _
theorem slice_off9_w24_3 (M : Memref sig .tc .vmem S32x4x32x128 .bf16) (c : Dev nD) (p) (hs) :
    M.slice (Rect.unit (s := S32x4x32x128) (k0_off9 c 24#32 3#32) S1x4x32x128.size p) hs = slot2 M (slot (yc c) 6 1) :=
  Memref.slice_unit_congr M (off9_slot c 6 2) p _ hs _
theorem slice_off9_w28_1 (M : Memref sig .tc .vmem S32x4x32x128 .bf16) (c : Dev nD) (p) (hs) :
    M.slice (Rect.unit (s := S32x4x32x128) (k0_off9 c 28#32 1#32) S1x4x32x128.size p) hs = slot2 M (slot (yc c) 7 3) :=
  Memref.slice_unit_congr M (off9_slot c 7 0) p _ hs _
theorem slice_off9_w28_2 (M : Memref sig .tc .vmem S32x4x32x128 .bf16) (c : Dev nD) (p) (hs) :
    M.slice (Rect.unit (s := S32x4x32x128) (k0_off9 c 28#32 2#32) S1x4x32x128.size p) hs = slot2 M (slot (yc c) 7 2) :=
  Memref.slice_unit_congr M (off9_slot c 7 1) p _ hs _
theorem slice_off9_w28_3 (M : Memref sig .tc .vmem S32x4x32x128 .bf16) (c : Dev nD) (p) (hs) :
    M.slice (Rect.unit (s := S32x4x32x128) (k0_off9 c 28#32 3#32) S1x4x32x128.size p) hs = slot2 M (slot (yc c) 7 1) :=
  Memref.slice_unit_congr M (off9_slot c 7 2) p _ hs _

/-! ### Offset function 10: the rectangle of a load from a stage-2 buffer -/

theorem rect_off10_w0_1 (c : Dev nD) (p) :
    Rect.unit (s := S32x4x32x128) (k0_off10 c 0#32 1#32) S1x4x32x128.size p
      = Rect.unit (s := S32x4x32x128) ![(slot (yc c) 0 3).val, 0, 0, 0] S1x4x32x128.size (inbA2 (slot (yc c) 0 3)) :=
  Rect.unit_congr (off10_slot c 0 0) p _
theorem rect_off10_w0_2 (c : Dev nD) (p) :
    Rect.unit (s := S32x4x32x128) (k0_off10 c 0#32 2#32) S1x4x32x128.size p
      = Rect.unit (s := S32x4x32x128) ![(slot (yc c) 0 2).val, 0, 0, 0] S1x4x32x128.size (inbA2 (slot (yc c) 0 2)) :=
  Rect.unit_congr (off10_slot c 0 1) p _
theorem rect_off10_w0_3 (c : Dev nD) (p) :
    Rect.unit (s := S32x4x32x128) (k0_off10 c 0#32 3#32) S1x4x32x128.size p
      = Rect.unit (s := S32x4x32x128) ![(slot (yc c) 0 1).val, 0, 0, 0] S1x4x32x128.size (inbA2 (slot (yc c) 0 1)) :=
  Rect.unit_congr (off10_slot c 0 2) p _
theorem rect_off10_w4_1 (c : Dev nD) (p) :
    Rect.unit (s := S32x4x32x128) (k0_off10 c 4#32 1#32) S1x4x32x128.size p
      = Rect.unit (s := S32x4x32x128) ![(slot (yc c) 1 3).val, 0, 0, 0] S1x4x32x128.size (inbA2 (slot (yc c) 1 3)) :=
  Rect.unit_congr (off10_slot c 1 0) p _
theorem rect_off10_w4_2 (c : Dev nD) (p) :
    Rect.unit (s := S32x4x32x128) (k0_off10 c 4#32 2#32) S1x4x32x128.size p
      = Rect.unit (s := S32x4x32x128) ![(slot (yc c) 1 2).val, 0, 0, 0] S1x4x32x128.size (inbA2 (slot (yc c) 1 2)) :=
  Rect.unit_congr (off10_slot c 1 1) p _
theorem rect_off10_w4_3 (c : Dev nD) (p) :
    Rect.unit (s := S32x4x32x128) (k0_off10 c 4#32 3#32) S1x4x32x128.size p
      = Rect.unit (s := S32x4x32x128) ![(slot (yc c) 1 1).val, 0, 0, 0] S1x4x32x128.size (inbA2 (slot (yc c) 1 1)) :=
  Rect.unit_congr (off10_slot c 1 2) p _
theorem rect_off10_w8_1 (c : Dev nD) (p) :
    Rect.unit (s := S32x4x32x128) (k0_off10 c 8#32 1#32) S1x4x32x128.size p
      = Rect.unit (s := S32x4x32x128) ![(slot (yc c) 2 3).val, 0, 0, 0] S1x4x32x128.size (inbA2 (slot (yc c) 2 3)) :=
  Rect.unit_congr (off10_slot c 2 0) p _
theorem rect_off10_w8_2 (c : Dev nD) (p) :
    Rect.unit (s := S32x4x32x128) (k0_off10 c 8#32 2#32) S1x4x32x128.size p
      = Rect.unit (s := S32x4x32x128) ![(slot (yc c) 2 2).val, 0, 0, 0] S1x4x32x128.size (inbA2 (slot (yc c) 2 2)) :=
  Rect.unit_congr (off10_slot c 2 1) p _
theorem rect_off10_w8_3 (c : Dev nD) (p) :
    Rect.unit (s := S32x4x32x128) (k0_off10 c 8#32 3#32) S1x4x32x128.size p
      = Rect.unit (s := S32x4x32x128) ![(slot (yc c) 2 1).val, 0, 0, 0] S1x4x32x128.size (inbA2 (slot (yc c) 2 1)) :=
  Rect.unit_congr (off10_slot c 2 2) p _
theorem rect_off10_w12_1 (c : Dev nD) (p) :
    Rect.unit (s := S32x4x32x128) (k0_off10 c 12#32 1#32) S1x4x32x128.size p
      = Rect.unit (s := S32x4x32x128) ![(slot (yc c) 3 3).val, 0, 0, 0] S1x4x32x128.size (inbA2 (slot (yc c) 3 3)) :=
  Rect.unit_congr (off10_slot c 3 0) p _
theorem rect_off10_w12_2 (c : Dev nD) (p) :
    Rect.unit (s := S32x4x32x128) (k0_off10 c 12#32 2#32) S1x4x32x128.size p
      = Rect.unit (s := S32x4x32x128) ![(slot (yc c) 3 2).val, 0, 0, 0] S1x4x32x128.size (inbA2 (slot (yc c) 3 2)) :=
  Rect.unit_congr (off10_slot c 3 1) p _
theorem rect_off10_w12_3 (c : Dev nD) (p) :
    Rect.unit (s := S32x4x32x128) (k0_off10 c 12#32 3#32) S1x4x32x128.size p
      = Rect.unit (s := S32x4x32x128) ![(slot (yc c) 3 1).val, 0, 0, 0] S1x4x32x128.size (inbA2 (slot (yc c) 3 1)) :=
  Rect.unit_congr (off10_slot c 3 2) p _
theorem rect_off10_w16_1 (c : Dev nD) (p) :
    Rect.unit (s := S32x4x32x128) (k0_off10 c 16#32 1#32) S1x4x32x128.size p
      = Rect.unit (s := S32x4x32x128) ![(slot (yc c) 4 3).val, 0, 0, 0] S1x4x32x128.size (inbA2 (slot (yc c) 4 3)) :=
  Rect.unit_congr (off10_slot c 4 0) p _
theorem rect_off10_w16_2 (c : Dev nD) (p) :
    Rect.unit (s := S32x4x32x128) (k0_off10 c 16#32 2#32) S1x4x32x128.size p
      = Rect.unit (s := S32x4x32x128) ![(slot (yc c) 4 2).val, 0, 0, 0] S1x4x32x128.size (inbA2 (slot (yc c) 4 2)) :=
  Rect.unit_congr (off10_slot c 4 1) p _
theorem rect_off10_w16_3 (c : Dev nD) (p) :
    Rect.unit (s := S32x4x32x128) (k0_off10 c 16#32 3#32) S1x4x32x128.size p
      = Rect.unit (s := S32x4x32x128) ![(slot (yc c) 4 1).val, 0, 0, 0] S1x4x32x128.size (inbA2 (slot (yc c) 4 1)) :=
  Rect.unit_congr (off10_slot c 4 2) p _
theorem rect_off10_w20_1 (c : Dev nD) (p) :
    Rect.unit (s := S32x4x32x128) (k0_off10 c 20#32 1#32) S1x4x32x128.size p
      = Rect.unit (s := S32x4x32x128) ![(slot (yc c) 5 3).val, 0, 0, 0] S1x4x32x128.size (inbA2 (slot (yc c) 5 3)) :=
  Rect.unit_congr (off10_slot c 5 0) p _
theorem rect_off10_w20_2 (c : Dev nD) (p) :
    Rect.unit (s := S32x4x32x128) (k0_off10 c 20#32 2#32) S1x4x32x128.size p
      = Rect.unit (s := S32x4x32x128) ![(slot (yc c) 5 2).val, 0, 0, 0] S1x4x32x128.size (inbA2 (slot (yc c) 5 2)) :=
  Rect.unit_congr (off10_slot c 5 1) p _
theorem rect_off10_w20_3 (c : Dev nD) (p) :
    Rect.unit (s := S32x4x32x128) (k0_off10 c 20#32 3#32) S1x4x32x128.size p
      = Rect.unit (s := S32x4x32x128) ![(slot (yc c) 5 1).val, 0, 0, 0] S1x4x32x128.size (inbA2 (slot (yc c) 5 1)) :=
  Rect.unit_congr (off10_slot c 5 2) p _
theorem rect_off10_w24_1 (c : Dev nD) (p) :
    Rect.unit (s := S32x4x32x128) (k0_off10 c 24#32 1#32) S1x4x32x128.size p
      = Rect.unit (s := S32x4x32x128) ![(slot (yc c) 6 3).val, 0, 0, 0] S1x4x32x128.size (inbA2 (slot (yc c) 6 3)) :=
  Rect.unit_congr (off10_slot c 6 0) p _
theorem rect_off10_w24_2 (c : Dev nD) (p) :
    Rect.unit (s := S32x4x32x128) (k0_off10 c 24#32 2#32) S1x4x32x128.size p
      = Rect.unit (s := S32x4x32x128) ![(slot (yc c) 6 2).val, 0, 0, 0] S1x4x32x128.size (inbA2 (slot (yc c) 6 2)) :=
  Rect.unit_congr (off10_slot c 6 1) p _
theorem rect_off10_w24_3 (c : Dev nD) (p) :
    Rect.unit (s := S32x4x32x128) (k0_off10 c 24#32 3#32) S1x4x32x128.size p
      = Rect.unit (s := S32x4x32x128) ![(slot (yc c) 6 1).val, 0, 0, 0] S1x4x32x128.size (inbA2 (slot (yc c) 6 1)) :=
  Rect.unit_congr (off10_slot c 6 2) p _
theorem rect_off10_w28_1 (c : Dev nD) (p) :
    Rect.unit (s := S32x4x32x128) (k0_off10 c 28#32 1#32) S1x4x32x128.size p
      = Rect.unit (s := S32x4x32x128) ![(slot (yc c) 7 3).val, 0, 0, 0] S1x4x32x128.size (inbA2 (slot (yc c) 7 3)) :=
  Rect.unit_congr (off10_slot c 7 0) p _
theorem rect_off10_w28_2 (c : Dev nD) (p) :
    Rect.unit (s := S32x4x32x128) (k0_off10 c 28#32 2#32) S1x4x32x128.size p
      = Rect.unit (s := S32x4x32x128) ![(slot (yc c) 7 2).val, 0, 0, 0] S1x4x32x128.size (inbA2 (slot (yc c) 7 2)) :=
  Rect.unit_congr (off10_slot c 7 1) p _
theorem rect_off10_w28_3 (c : Dev nD) (p) :
    Rect.unit (s := S32x4x32x128) (k0_off10 c 28#32 3#32) S1x4x32x128.size p
      = Rect.unit (s := S32x4x32x128) ![(slot (yc c) 7 1).val, 0, 0, 0] S1x4x32x128.size (inbA2 (slot (yc c) 7 1)) :=
  Rect.unit_congr (off10_slot c 7 2) p _

/-! ### Offset function 11: a semaphore of a 32-array -/

theorem semSlice_off11_w0_1 (A : DmaSems sig S32) (c : Dev nD) (p) :
    A.slice (Rect.unit (s := S32) (k0_off11 c 0#32 1#32) S1.size p)
      = A.slice (Rect.unit (s := S32) ![(slot (zc c) 0 1).val] S1.size (inb32 (slot (zc c) 0 1))) :=
  SemArray.slice_unit_congr A (off11_slot c 0 0) p _
theorem sem_off11_w0_1 (A : DmaSems sig S32) (c : Dev nD) (p) (hq : S1.Squeezes S_) :
    ((A.slice (Rect.unit (s := S32) (k0_off11 c 0#32 1#32) S1.size p)).squeeze S_ hq).sem = sem32 A (slot (zc c) 0 1) :=
  congrArg (fun X : DmaSems sig S1 => (X.squeeze S_ hq).sem) (semSlice_off11_w0_1 A c p)
theorem semSlice_off11_w0_2 (A : DmaSems sig S32) (c : Dev nD) (p) :
    A.slice (Rect.unit (s := S32) (k0_off11 c 0#32 2#32) S1.size p)
      = A.slice (Rect.unit (s := S32) ![(slot (zc c) 0 2).val] S1.size (inb32 (slot (zc c) 0 2))) :=
  SemArray.slice_unit_congr A (off11_slot c 0 1) p _
theorem sem_off11_w0_2 (A : DmaSems sig S32) (c : Dev nD) (p) (hq : S1.Squeezes S_) :
    ((A.slice (Rect.unit (s := S32) (k0_off11 c 0#32 2#32) S1.size p)).squeeze S_ hq).sem = sem32 A (slot (zc c) 0 2) :=
  congrArg (fun X : DmaSems sig S1 => (X.squeeze S_ hq).sem) (semSlice_off11_w0_2 A c p)
theorem semSlice_off11_w0_3 (A : DmaSems sig S32) (c : Dev nD) (p) :
    A.slice (Rect.unit (s := S32) (k0_off11 c 0#32 3#32) S1.size p)
      = A.slice (Rect.unit (s := S32) ![(slot (zc c) 0 3).val] S1.size (inb32 (slot (zc c) 0 3))) :=
  SemArray.slice_unit_congr A (off11_slot c 0 2) p _
theorem sem_off11_w0_3 (A : DmaSems sig S32) (c : Dev nD) (p) (hq : S1.Squeezes S_) :
    ((A.slice (Rect.unit (s := S32) (k0_off11 c 0#32 3#32) S1.size p)).squeeze S_ hq).sem = sem32 A (slot (zc c) 0 3) :=
  congrArg (fun X : DmaSems sig S1 => (X.squeeze S_ hq).sem) (semSlice_off11_w0_3 A c p)
theorem semSlice_off11_w4_1 (A : DmaSems sig S32) (c : Dev nD) (p) :
    A.slice (Rect.unit (s := S32) (k0_off11 c 4#32 1#32) S1.size p)
      = A.slice (Rect.unit (s := S32) ![(slot (zc c) 1 1).val] S1.size (inb32 (slot (zc c) 1 1))) :=
  SemArray.slice_unit_congr A (off11_slot c 1 0) p _
theorem sem_off11_w4_1 (A : DmaSems sig S32) (c : Dev nD) (p) (hq : S1.Squeezes S_) :
    ((A.slice (Rect.unit (s := S32) (k0_off11 c 4#32 1#32) S1.size p)).squeeze S_ hq).sem = sem32 A (slot (zc c) 1 1) :=
  congrArg (fun X : DmaSems sig S1 => (X.squeeze S_ hq).sem) (semSlice_off11_w4_1 A c p)
theorem semSlice_off11_w4_2 (A : DmaSems sig S32) (c : Dev nD) (p) :
    A.slice (Rect.unit (s := S32) (k0_off11 c 4#32 2#32) S1.size p)
      = A.slice (Rect.unit (s := S32) ![(slot (zc c) 1 2).val] S1.size (inb32 (slot (zc c) 1 2))) :=
  SemArray.slice_unit_congr A (off11_slot c 1 1) p _
theorem sem_off11_w4_2 (A : DmaSems sig S32) (c : Dev nD) (p) (hq : S1.Squeezes S_) :
    ((A.slice (Rect.unit (s := S32) (k0_off11 c 4#32 2#32) S1.size p)).squeeze S_ hq).sem = sem32 A (slot (zc c) 1 2) :=
  congrArg (fun X : DmaSems sig S1 => (X.squeeze S_ hq).sem) (semSlice_off11_w4_2 A c p)
theorem semSlice_off11_w4_3 (A : DmaSems sig S32) (c : Dev nD) (p) :
    A.slice (Rect.unit (s := S32) (k0_off11 c 4#32 3#32) S1.size p)
      = A.slice (Rect.unit (s := S32) ![(slot (zc c) 1 3).val] S1.size (inb32 (slot (zc c) 1 3))) :=
  SemArray.slice_unit_congr A (off11_slot c 1 2) p _
theorem sem_off11_w4_3 (A : DmaSems sig S32) (c : Dev nD) (p) (hq : S1.Squeezes S_) :
    ((A.slice (Rect.unit (s := S32) (k0_off11 c 4#32 3#32) S1.size p)).squeeze S_ hq).sem = sem32 A (slot (zc c) 1 3) :=
  congrArg (fun X : DmaSems sig S1 => (X.squeeze S_ hq).sem) (semSlice_off11_w4_3 A c p)
theorem semSlice_off11_w8_1 (A : DmaSems sig S32) (c : Dev nD) (p) :
    A.slice (Rect.unit (s := S32) (k0_off11 c 8#32 1#32) S1.size p)
      = A.slice (Rect.unit (s := S32) ![(slot (zc c) 2 1).val] S1.size (inb32 (slot (zc c) 2 1))) :=
  SemArray.slice_unit_congr A (off11_slot c 2 0) p _
theorem sem_off11_w8_1 (A : DmaSems sig S32) (c : Dev nD) (p) (hq : S1.Squeezes S_) :
    ((A.slice (Rect.unit (s := S32) (k0_off11 c 8#32 1#32) S1.size p)).squeeze S_ hq).sem = sem32 A (slot (zc c) 2 1) :=
  congrArg (fun X : DmaSems sig S1 => (X.squeeze S_ hq).sem) (semSlice_off11_w8_1 A c p)
theorem semSlice_off11_w8_2 (A : DmaSems sig S32) (c : Dev nD) (p) :
    A.slice (Rect.unit (s := S32) (k0_off11 c 8#32 2#32) S1.size p)
      = A.slice (Rect.unit (s := S32) ![(slot (zc c) 2 2).val] S1.size (inb32 (slot (zc c) 2 2))) :=
  SemArray.slice_unit_congr A (off11_slot c 2 1) p _
theorem sem_off11_w8_2 (A : DmaSems sig S32) (c : Dev nD) (p) (hq : S1.Squeezes S_) :
    ((A.slice (Rect.unit (s := S32) (k0_off11 c 8#32 2#32) S1.size p)).squeeze S_ hq).sem = sem32 A (slot (zc c) 2 2) :=
  congrArg (fun X : DmaSems sig S1 => (X.squeeze S_ hq).sem) (semSlice_off11_w8_2 A c p)
theorem semSlice_off11_w8_3 (A : DmaSems sig S32) (c : Dev nD) (p) :
    A.slice (Rect.unit (s := S32) (k0_off11 c 8#32 3#32) S1.size p)
      = A.slice (Rect.unit (s := S32) ![(slot (zc c) 2 3).val] S1.size (inb32 (slot (zc c) 2 3))) :=
  SemArray.slice_unit_congr A (off11_slot c 2 2) p _
theorem sem_off11_w8_3 (A : DmaSems sig S32) (c : Dev nD) (p) (hq : S1.Squeezes S_) :
    ((A.slice (Rect.unit (s := S32) (k0_off11 c 8#32 3#32) S1.size p)).squeeze S_ hq).sem = sem32 A (slot (zc c) 2 3) :=
  congrArg (fun X : DmaSems sig S1 => (X.squeeze S_ hq).sem) (semSlice_off11_w8_3 A c p)
theorem semSlice_off11_w12_1 (A : DmaSems sig S32) (c : Dev nD) (p) :
    A.slice (Rect.unit (s := S32) (k0_off11 c 12#32 1#32) S1.size p)
      = A.slice (Rect.unit (s := S32) ![(slot (zc c) 3 1).val] S1.size (inb32 (slot (zc c) 3 1))) :=
  SemArray.slice_unit_congr A (off11_slot c 3 0) p _
theorem sem_off11_w12_1 (A : DmaSems sig S32) (c : Dev nD) (p) (hq : S1.Squeezes S_) :
    ((A.slice (Rect.unit (s := S32) (k0_off11 c 12#32 1#32) S1.size p)).squeeze S_ hq).sem = sem32 A (slot (zc c) 3 1) :=
  congrArg (fun X : DmaSems sig S1 => (X.squeeze S_ hq).sem) (semSlice_off11_w12_1 A c p)
theorem semSlice_off11_w12_2 (A : DmaSems sig S32) (c : Dev nD) (p) :
    A.slice (Rect.unit (s := S32) (k0_off11 c 12#32 2#32) S1.size p)
      = A.slice (Rect.unit (s := S32) ![(slot (zc c) 3 2).val] S1.size (inb32 (slot (zc c) 3 2))) :=
  SemArray.slice_unit_congr A (off11_slot c 3 1) p _
theorem sem_off11_w12_2 (A : DmaSems sig S32) (c : Dev nD) (p) (hq : S1.Squeezes S_) :
    ((A.slice (Rect.unit (s := S32) (k0_off11 c 12#32 2#32) S1.size p)).squeeze S_ hq).sem = sem32 A (slot (zc c) 3 2) :=
  congrArg (fun X : DmaSems sig S1 => (X.squeeze S_ hq).sem) (semSlice_off11_w12_2 A c p)
theorem semSlice_off11_w12_3 (A : DmaSems sig S32) (c : Dev nD) (p) :
    A.slice (Rect.unit (s := S32) (k0_off11 c 12#32 3#32) S1.size p)
      = A.slice (Rect.unit (s := S32) ![(slot (zc c) 3 3).val] S1.size (inb32 (slot (zc c) 3 3))) :=
  SemArray.slice_unit_congr A (off11_slot c 3 2) p _
theorem sem_off11_w12_3 (A : DmaSems sig S32) (c : Dev nD) (p) (hq : S1.Squeezes S_) :
    ((A.slice (Rect.unit (s := S32) (k0_off11 c 12#32 3#32) S1.size p)).squeeze S_ hq).sem = sem32 A (slot (zc c) 3 3) :=
  congrArg (fun X : DmaSems sig S1 => (X.squeeze S_ hq).sem) (semSlice_off11_w12_3 A c p)
theorem semSlice_off11_w16_1 (A : DmaSems sig S32) (c : Dev nD) (p) :
    A.slice (Rect.unit (s := S32) (k0_off11 c 16#32 1#32) S1.size p)
      = A.slice (Rect.unit (s := S32) ![(slot (zc c) 4 1).val] S1.size (inb32 (slot (zc c) 4 1))) :=
  SemArray.slice_unit_congr A (off11_slot c 4 0) p _
theorem sem_off11_w16_1 (A : DmaSems sig S32) (c : Dev nD) (p) (hq : S1.Squeezes S_) :
    ((A.slice (Rect.unit (s := S32) (k0_off11 c 16#32 1#32) S1.size p)).squeeze S_ hq).sem = sem32 A (slot (zc c) 4 1) :=
  congrArg (fun X : DmaSems sig S1 => (X.squeeze S_ hq).sem) (semSlice_off11_w16_1 A c p)
theorem semSlice_off11_w16_2 (A : DmaSems sig S32) (c : Dev nD) (p) :
    A.slice (Rect.unit (s := S32) (k0_off11 c 16#32 2#32) S1.size p)
      = A.slice (Rect.unit (s := S32) ![(slot (zc c) 4 2).val] S1.size (inb32 (slot (zc c) 4 2))) :=
  SemArray.slice_unit_congr A (off11_slot c 4 1) p _
theorem sem_off11_w16_2 (A : DmaSems sig S32) (c : Dev nD) (p) (hq : S1.Squeezes S_) :
    ((A.slice (Rect.unit (s := S32) (k0_off11 c 16#32 2#32) S1.size p)).squeeze S_ hq).sem = sem32 A (slot (zc c) 4 2) :=
  congrArg (fun X : DmaSems sig S1 => (X.squeeze S_ hq).sem) (semSlice_off11_w16_2 A c p)
theorem semSlice_off11_w16_3 (A : DmaSems sig S32) (c : Dev nD) (p) :
    A.slice (Rect.unit (s := S32) (k0_off11 c 16#32 3#32) S1.size p)
      = A.slice (Rect.unit (s := S32) ![(slot (zc c) 4 3).val] S1.size (inb32 (slot (zc c) 4 3))) :=
  SemArray.slice_unit_congr A (off11_slot c 4 2) p _
theorem sem_off11_w16_3 (A : DmaSems sig S32) (c : Dev nD) (p) (hq : S1.Squeezes S_) :
    ((A.slice (Rect.unit (s := S32) (k0_off11 c 16#32 3#32) S1.size p)).squeeze S_ hq).sem = sem32 A (slot (zc c) 4 3) :=
  congrArg (fun X : DmaSems sig S1 => (X.squeeze S_ hq).sem) (semSlice_off11_w16_3 A c p)
theorem semSlice_off11_w20_1 (A : DmaSems sig S32) (c : Dev nD) (p) :
    A.slice (Rect.unit (s := S32) (k0_off11 c 20#32 1#32) S1.size p)
      = A.slice (Rect.unit (s := S32) ![(slot (zc c) 5 1).val] S1.size (inb32 (slot (zc c) 5 1))) :=
  SemArray.slice_unit_congr A (off11_slot c 5 0) p _
theorem sem_off11_w20_1 (A : DmaSems sig S32) (c : Dev nD) (p) (hq : S1.Squeezes S_) :
    ((A.slice (Rect.unit (s := S32) (k0_off11 c 20#32 1#32) S1.size p)).squeeze S_ hq).sem = sem32 A (slot (zc c) 5 1) :=
  congrArg (fun X : DmaSems sig S1 => (X.squeeze S_ hq).sem) (semSlice_off11_w20_1 A c p)
theorem semSlice_off11_w20_2 (A : DmaSems sig S32) (c : Dev nD) (p) :
    A.slice (Rect.unit (s := S32) (k0_off11 c 20#32 2#32) S1.size p)
      = A.slice (Rect.unit (s := S32) ![(slot (zc c) 5 2).val] S1.size (inb32 (slot (zc c) 5 2))) :=
  SemArray.slice_unit_congr A (off11_slot c 5 1) p _
theorem sem_off11_w20_2 (A : DmaSems sig S32) (c : Dev nD) (p) (hq : S1.Squeezes S_) :
    ((A.slice (Rect.unit (s := S32) (k0_off11 c 20#32 2#32) S1.size p)).squeeze S_ hq).sem = sem32 A (slot (zc c) 5 2) :=
  congrArg (fun X : DmaSems sig S1 => (X.squeeze S_ hq).sem) (semSlice_off11_w20_2 A c p)
theorem semSlice_off11_w20_3 (A : DmaSems sig S32) (c : Dev nD) (p) :
    A.slice (Rect.unit (s := S32) (k0_off11 c 20#32 3#32) S1.size p)
      = A.slice (Rect.unit (s := S32) ![(slot (zc c) 5 3).val] S1.size (inb32 (slot (zc c) 5 3))) :=
  SemArray.slice_unit_congr A (off11_slot c 5 2) p _
theorem sem_off11_w20_3 (A : DmaSems sig S32) (c : Dev nD) (p) (hq : S1.Squeezes S_) :
    ((A.slice (Rect.unit (s := S32) (k0_off11 c 20#32 3#32) S1.size p)).squeeze S_ hq).sem = sem32 A (slot (zc c) 5 3) :=
  congrArg (fun X : DmaSems sig S1 => (X.squeeze S_ hq).sem) (semSlice_off11_w20_3 A c p)
theorem semSlice_off11_w24_1 (A : DmaSems sig S32) (c : Dev nD) (p) :
    A.slice (Rect.unit (s := S32) (k0_off11 c 24#32 1#32) S1.size p)
      = A.slice (Rect.unit (s := S32) ![(slot (zc c) 6 1).val] S1.size (inb32 (slot (zc c) 6 1))) :=
  SemArray.slice_unit_congr A (off11_slot c 6 0) p _
theorem sem_off11_w24_1 (A : DmaSems sig S32) (c : Dev nD) (p) (hq : S1.Squeezes S_) :
    ((A.slice (Rect.unit (s := S32) (k0_off11 c 24#32 1#32) S1.size p)).squeeze S_ hq).sem = sem32 A (slot (zc c) 6 1) :=
  congrArg (fun X : DmaSems sig S1 => (X.squeeze S_ hq).sem) (semSlice_off11_w24_1 A c p)
theorem semSlice_off11_w24_2 (A : DmaSems sig S32) (c : Dev nD) (p) :
    A.slice (Rect.unit (s := S32) (k0_off11 c 24#32 2#32) S1.size p)
      = A.slice (Rect.unit (s := S32) ![(slot (zc c) 6 2).val] S1.size (inb32 (slot (zc c) 6 2))) :=
  SemArray.slice_unit_congr A (off11_slot c 6 1) p _
theorem sem_off11_w24_2 (A : DmaSems sig S32) (c : Dev nD) (p) (hq : S1.Squeezes S_) :
    ((A.slice (Rect.unit (s := S32) (k0_off11 c 24#32 2#32) S1.size p)).squeeze S_ hq).sem = sem32 A (slot (zc c) 6 2) :=
  congrArg (fun X : DmaSems sig S1 => (X.squeeze S_ hq).sem) (semSlice_off11_w24_2 A c p)
theorem semSlice_off11_w24_3 (A : DmaSems sig S32) (c : Dev nD) (p) :
    A.slice (Rect.unit (s := S32) (k0_off11 c 24#32 3#32) S1.size p)
      = A.slice (Rect.unit (s := S32) ![(slot (zc c) 6 3).val] S1.size (inb32 (slot (zc c) 6 3))) :=
  SemArray.slice_unit_congr A (off11_slot c 6 2) p _
theorem sem_off11_w24_3 (A : DmaSems sig S32) (c : Dev nD) (p) (hq : S1.Squeezes S_) :
    ((A.slice (Rect.unit (s := S32) (k0_off11 c 24#32 3#32) S1.size p)).squeeze S_ hq).sem = sem32 A (slot (zc c) 6 3) :=
  congrArg (fun X : DmaSems sig S1 => (X.squeeze S_ hq).sem) (semSlice_off11_w24_3 A c p)
theorem semSlice_off11_w28_1 (A : DmaSems sig S32) (c : Dev nD) (p) :
    A.slice (Rect.unit (s := S32) (k0_off11 c 28#32 1#32) S1.size p)
      = A.slice (Rect.unit (s := S32) ![(slot (zc c) 7 1).val] S1.size (inb32 (slot (zc c) 7 1))) :=
  SemArray.slice_unit_congr A (off11_slot c 7 0) p _
theorem sem_off11_w28_1 (A : DmaSems sig S32) (c : Dev nD) (p) (hq : S1.Squeezes S_) :
    ((A.slice (Rect.unit (s := S32) (k0_off11 c 28#32 1#32) S1.size p)).squeeze S_ hq).sem = sem32 A (slot (zc c) 7 1) :=
  congrArg (fun X : DmaSems sig S1 => (X.squeeze S_ hq).sem) (semSlice_off11_w28_1 A c p)
theorem semSlice_off11_w28_2 (A : DmaSems sig S32) (c : Dev nD) (p) :
    A.slice (Rect.unit (s := S32) (k0_off11 c 28#32 2#32) S1.size p)
      = A.slice (Rect.unit (s := S32) ![(slot (zc c) 7 2).val] S1.size (inb32 (slot (zc c) 7 2))) :=
  SemArray.slice_unit_congr A (off11_slot c 7 1) p _
theorem sem_off11_w28_2 (A : DmaSems sig S32) (c : Dev nD) (p) (hq : S1.Squeezes S_) :
    ((A.slice (Rect.unit (s := S32) (k0_off11 c 28#32 2#32) S1.size p)).squeeze S_ hq).sem = sem32 A (slot (zc c) 7 2) :=
  congrArg (fun X : DmaSems sig S1 => (X.squeeze S_ hq).sem) (semSlice_off11_w28_2 A c p)
theorem semSlice_off11_w28_3 (A : DmaSems sig S32) (c : Dev nD) (p) :
    A.slice (Rect.unit (s := S32) (k0_off11 c 28#32 3#32) S1.size p)
      = A.slice (Rect.unit (s := S32) ![(slot (zc c) 7 3).val] S1.size (inb32 (slot (zc c) 7 3))) :=
  SemArray.slice_unit_congr A (off11_slot c 7 2) p _
theorem sem_off11_w28_3 (A : DmaSems sig S32) (c : Dev nD) (p) (hq : S1.Squeezes S_) :
    ((A.slice (Rect.unit (s := S32) (k0_off11 c 28#32 3#32) S1.size p)).squeeze S_ hq).sem = sem32 A (slot (zc c) 7 3) :=
  congrArg (fun X : DmaSems sig S1 => (X.squeeze S_ hq).sem) (semSlice_off11_w28_3 A c p)

/-! ### Offset function 12: a semaphore of a 32-array -/

theorem semSlice_off12_w0 (A : DmaSems sig S32) (c : Dev nD) (p) :
    A.slice (Rect.unit (s := S32) (k0_off12 c 0#32) S1.size p)
      = A.slice (Rect.unit (s := S32) ![(slot (zc c) 0 0).val] S1.size (inb32 (slot (zc c) 0 0))) :=
  SemArray.slice_unit_congr A (off12_slot c 0) p _
theorem sem_off12_w0 (A : DmaSems sig S32) (c : Dev nD) (p) (hq : S1.Squeezes S_) :
    ((A.slice (Rect.unit (s := S32) (k0_off12 c 0#32) S1.size p)).squeeze S_ hq).sem = sem32 A (slot (zc c) 0 0) :=
  congrArg (fun X : DmaSems sig S1 => (X.squeeze S_ hq).sem) (semSlice_off12_w0 A c p)
theorem semSlice_off12_w4 (A : DmaSems sig S32) (c : Dev nD) (p) :
    A.slice (Rect.unit (s := S32) (k0_off12 c 4#32) S1.size p)
      = A.slice (Rect.unit (s := S32) ![(slot (zc c) 1 0).val] S1.size (inb32 (slot (zc c) 1 0))) :=
  SemArray.slice_unit_congr A (off12_slot c 1) p _
theorem sem_off12_w4 (A : DmaSems sig S32) (c : Dev nD) (p) (hq : S1.Squeezes S_) :
    ((A.slice (Rect.unit (s := S32) (k0_off12 c 4#32) S1.size p)).squeeze S_ hq).sem = sem32 A (slot (zc c) 1 0) :=
  congrArg (fun X : DmaSems sig S1 => (X.squeeze S_ hq).sem) (semSlice_off12_w4 A c p)
theorem semSlice_off12_w8 (A : DmaSems sig S32) (c : Dev nD) (p) :
    A.slice (Rect.unit (s := S32) (k0_off12 c 8#32) S1.size p)
      = A.slice (Rect.unit (s := S32) ![(slot (zc c) 2 0).val] S1.size (inb32 (slot (zc c) 2 0))) :=
  SemArray.slice_unit_congr A (off12_slot c 2) p _
theorem sem_off12_w8 (A : DmaSems sig S32) (c : Dev nD) (p) (hq : S1.Squeezes S_) :
    ((A.slice (Rect.unit (s := S32) (k0_off12 c 8#32) S1.size p)).squeeze S_ hq).sem = sem32 A (slot (zc c) 2 0) :=
  congrArg (fun X : DmaSems sig S1 => (X.squeeze S_ hq).sem) (semSlice_off12_w8 A c p)
theorem semSlice_off12_w12 (A : DmaSems sig S32) (c : Dev nD) (p) :
    A.slice (Rect.unit (s := S32) (k0_off12 c 12#32) S1.size p)
      = A.slice (Rect.unit (s := S32) ![(slot (zc c) 3 0).val] S1.size (inb32 (slot (zc c) 3 0))) :=
  SemArray.slice_unit_congr A (off12_slot c 3) p _
theorem sem_off12_w12 (A : DmaSems sig S32) (c : Dev nD) (p) (hq : S1.Squeezes S_) :
    ((A.slice (Rect.unit (s := S32) (k0_off12 c 12#32) S1.size p)).squeeze S_ hq).sem = sem32 A (slot (zc c) 3 0) :=
  congrArg (fun X : DmaSems sig S1 => (X.squeeze S_ hq).sem) (semSlice_off12_w12 A c p)
theorem semSlice_off12_w16 (A : DmaSems sig S32) (c : Dev nD) (p) :
    A.slice (Rect.unit (s := S32) (k0_off12 c 16#32) S1.size p)
      = A.slice (Rect.unit (s := S32) ![(slot (zc c) 4 0).val] S1.size (inb32 (slot (zc c) 4 0))) :=
  SemArray.slice_unit_congr A (off12_slot c 4) p _
theorem sem_off12_w16 (A : DmaSems sig S32) (c : Dev nD) (p) (hq : S1.Squeezes S_) :
    ((A.slice (Rect.unit (s := S32) (k0_off12 c 16#32) S1.size p)).squeeze S_ hq).sem = sem32 A (slot (zc c) 4 0) :=
  congrArg (fun X : DmaSems sig S1 => (X.squeeze S_ hq).sem) (semSlice_off12_w16 A c p)
theorem semSlice_off12_w20 (A : DmaSems sig S32) (c : Dev nD) (p) :
    A.slice (Rect.unit (s := S32) (k0_off12 c 20#32) S1.size p)
      = A.slice (Rect.unit (s := S32) ![(slot (zc c) 5 0).val] S1.size (inb32 (slot (zc c) 5 0))) :=
  SemArray.slice_unit_congr A (off12_slot c 5) p _
theorem sem_off12_w20 (A : DmaSems sig S32) (c : Dev nD) (p) (hq : S1.Squeezes S_) :
    ((A.slice (Rect.unit (s := S32) (k0_off12 c 20#32) S1.size p)).squeeze S_ hq).sem = sem32 A (slot (zc c) 5 0) :=
  congrArg (fun X : DmaSems sig S1 => (X.squeeze S_ hq).sem) (semSlice_off12_w20 A c p)
theorem semSlice_off12_w24 (A : DmaSems sig S32) (c : Dev nD) (p) :
    A.slice (Rect.unit (s := S32) (k0_off12 c 24#32) S1.size p)
      = A.slice (Rect.unit (s := S32) ![(slot (zc c) 6 0).val] S1.size (inb32 (slot (zc c) 6 0))) :=
  SemArray.slice_unit_congr A (off12_slot c 6) p _
theorem sem_off12_w24 (A : DmaSems sig S32) (c : Dev nD) (p) (hq : S1.Squeezes S_) :
    ((A.slice (Rect.unit (s := S32) (k0_off12 c 24#32) S1.size p)).squeeze S_ hq).sem = sem32 A (slot (zc c) 6 0) :=
  congrArg (fun X : DmaSems sig S1 => (X.squeeze S_ hq).sem) (semSlice_off12_w24 A c p)
theorem semSlice_off12_w28 (A : DmaSems sig S32) (c : Dev nD) (p) :
    A.slice (Rect.unit (s := S32) (k0_off12 c 28#32) S1.size p)
      = A.slice (Rect.unit (s := S32) ![(slot (zc c) 7 0).val] S1.size (inb32 (slot (zc c) 7 0))) :=
  SemArray.slice_unit_congr A (off12_slot c 7) p _
theorem sem_off12_w28 (A : DmaSems sig S32) (c : Dev nD) (p) (hq : S1.Squeezes S_) :
    ((A.slice (Rect.unit (s := S32) (k0_off12 c 28#32) S1.size p)).squeeze S_ hq).sem = sem32 A (slot (zc c) 7 0) :=
  congrArg (fun X : DmaSems sig S1 => (X.squeeze S_ hq).sem) (semSlice_off12_w28 A c p)

/-! ### Offset function 13: a slot of a stage-3 buffer -/

theorem slice_off13_w0 (M : Memref sig .tc .vmem S32x32x128 .bf16) (c : Dev nD) (p) (hs) :
    M.slice (Rect.unit (s := S32x32x128) (k0_off13 c 0#32) S1x32x128.size p) hs = slot3 M (slot (zc c) 0 0) :=
  Memref.slice_unit_congr M (off13_slot c 0) p _ hs _
theorem slice_off13_w4 (M : Memref sig .tc .vmem S32x32x128 .bf16) (c : Dev nD) (p) (hs) :
    M.slice (Rect.unit (s := S32x32x128) (k0_off13 c 4#32) S1x32x128.size p) hs = slot3 M (slot (zc c) 1 0) :=
  Memref.slice_unit_congr M (off13_slot c 1) p _ hs _
theorem slice_off13_w8 (M : Memref sig .tc .vmem S32x32x128 .bf16) (c : Dev nD) (p) (hs) :
    M.slice (Rect.unit (s := S32x32x128) (k0_off13 c 8#32) S1x32x128.size p) hs = slot3 M (slot (zc c) 2 0) :=
  Memref.slice_unit_congr M (off13_slot c 2) p _ hs _
theorem slice_off13_w12 (M : Memref sig .tc .vmem S32x32x128 .bf16) (c : Dev nD) (p) (hs) :
    M.slice (Rect.unit (s := S32x32x128) (k0_off13 c 12#32) S1x32x128.size p) hs = slot3 M (slot (zc c) 3 0) :=
  Memref.slice_unit_congr M (off13_slot c 3) p _ hs _
theorem slice_off13_w16 (M : Memref sig .tc .vmem S32x32x128 .bf16) (c : Dev nD) (p) (hs) :
    M.slice (Rect.unit (s := S32x32x128) (k0_off13 c 16#32) S1x32x128.size p) hs = slot3 M (slot (zc c) 4 0) :=
  Memref.slice_unit_congr M (off13_slot c 4) p _ hs _
theorem slice_off13_w20 (M : Memref sig .tc .vmem S32x32x128 .bf16) (c : Dev nD) (p) (hs) :
    M.slice (Rect.unit (s := S32x32x128) (k0_off13 c 20#32) S1x32x128.size p) hs = slot3 M (slot (zc c) 5 0) :=
  Memref.slice_unit_congr M (off13_slot c 5) p _ hs _
theorem slice_off13_w24 (M : Memref sig .tc .vmem S32x32x128 .bf16) (c : Dev nD) (p) (hs) :
    M.slice (Rect.unit (s := S32x32x128) (k0_off13 c 24#32) S1x32x128.size p) hs = slot3 M (slot (zc c) 6 0) :=
  Memref.slice_unit_congr M (off13_slot c 6) p _ hs _
theorem slice_off13_w28 (M : Memref sig .tc .vmem S32x32x128 .bf16) (c : Dev nD) (p) (hs) :
    M.slice (Rect.unit (s := S32x32x128) (k0_off13 c 28#32) S1x32x128.size p) hs = slot3 M (slot (zc c) 7 0) :=
  Memref.slice_unit_congr M (off13_slot c 7) p _ hs _

/-! ### Offset function 14: a slot of a stage-3 buffer -/

theorem slice_off14_w0_1 (M : Memref sig .tc .vmem S32x32x128 .bf16) (c : Dev nD) (p) (hs) :
    M.slice (Rect.unit (s := S32x32x128) (k0_off14 c 0#32 1#32) S1x32x128.size p) hs = slot3 M (slot (zc c) 0 1) :=
  Memref.slice_unit_congr M (off14_slot c 0 0) p _ hs _
theorem slice_off14_w0_2 (M : Memref sig .tc .vmem S32x32x128 .bf16) (c : Dev nD) (p) (hs) :
    M.slice (Rect.unit (s := S32x32x128) (k0_off14 c 0#32 2#32) S1x32x128.size p) hs = slot3 M (slot (zc c) 0 2) :=
  Memref.slice_unit_congr M (off14_slot c 0 1) p _ hs _
theorem slice_off14_w0_3 (M : Memref sig .tc .vmem S32x32x128 .bf16) (c : Dev nD) (p) (hs) :
    M.slice (Rect.unit (s := S32x32x128) (k0_off14 c 0#32 3#32) S1x32x128.size p) hs = slot3 M (slot (zc c) 0 3) :=
  Memref.slice_unit_congr M (off14_slot c 0 2) p _ hs _
theorem slice_off14_w4_1 (M : Memref sig .tc .vmem S32x32x128 .bf16) (c : Dev nD) (p) (hs) :
    M.slice (Rect.unit (s := S32x32x128) (k0_off14 c 4#32 1#32) S1x32x128.size p) hs = slot3 M (slot (zc c) 1 1) :=
  Memref.slice_unit_congr M (off14_slot c 1 0) p _ hs _
theorem slice_off14_w4_2 (M : Memref sig .tc .vmem S32x32x128 .bf16) (c : Dev nD) (p) (hs) :
    M.slice (Rect.unit (s := S32x32x128) (k0_off14 c 4#32 2#32) S1x32x128.size p) hs = slot3 M (slot (zc c) 1 2) :=
  Memref.slice_unit_congr M (off14_slot c 1 1) p _ hs _
theorem slice_off14_w4_3 (M : Memref sig .tc .vmem S32x32x128 .bf16) (c : Dev nD) (p) (hs) :
    M.slice (Rect.unit (s := S32x32x128) (k0_off14 c 4#32 3#32) S1x32x128.size p) hs = slot3 M (slot (zc c) 1 3) :=
  Memref.slice_unit_congr M (off14_slot c 1 2) p _ hs _
theorem slice_off14_w8_1 (M : Memref sig .tc .vmem S32x32x128 .bf16) (c : Dev nD) (p) (hs) :
    M.slice (Rect.unit (s := S32x32x128) (k0_off14 c 8#32 1#32) S1x32x128.size p) hs = slot3 M (slot (zc c) 2 1) :=
  Memref.slice_unit_congr M (off14_slot c 2 0) p _ hs _
theorem slice_off14_w8_2 (M : Memref sig .tc .vmem S32x32x128 .bf16) (c : Dev nD) (p) (hs) :
    M.slice (Rect.unit (s := S32x32x128) (k0_off14 c 8#32 2#32) S1x32x128.size p) hs = slot3 M (slot (zc c) 2 2) :=
  Memref.slice_unit_congr M (off14_slot c 2 1) p _ hs _
theorem slice_off14_w8_3 (M : Memref sig .tc .vmem S32x32x128 .bf16) (c : Dev nD) (p) (hs) :
    M.slice (Rect.unit (s := S32x32x128) (k0_off14 c 8#32 3#32) S1x32x128.size p) hs = slot3 M (slot (zc c) 2 3) :=
  Memref.slice_unit_congr M (off14_slot c 2 2) p _ hs _
theorem slice_off14_w12_1 (M : Memref sig .tc .vmem S32x32x128 .bf16) (c : Dev nD) (p) (hs) :
    M.slice (Rect.unit (s := S32x32x128) (k0_off14 c 12#32 1#32) S1x32x128.size p) hs = slot3 M (slot (zc c) 3 1) :=
  Memref.slice_unit_congr M (off14_slot c 3 0) p _ hs _
theorem slice_off14_w12_2 (M : Memref sig .tc .vmem S32x32x128 .bf16) (c : Dev nD) (p) (hs) :
    M.slice (Rect.unit (s := S32x32x128) (k0_off14 c 12#32 2#32) S1x32x128.size p) hs = slot3 M (slot (zc c) 3 2) :=
  Memref.slice_unit_congr M (off14_slot c 3 1) p _ hs _
theorem slice_off14_w12_3 (M : Memref sig .tc .vmem S32x32x128 .bf16) (c : Dev nD) (p) (hs) :
    M.slice (Rect.unit (s := S32x32x128) (k0_off14 c 12#32 3#32) S1x32x128.size p) hs = slot3 M (slot (zc c) 3 3) :=
  Memref.slice_unit_congr M (off14_slot c 3 2) p _ hs _
theorem slice_off14_w16_1 (M : Memref sig .tc .vmem S32x32x128 .bf16) (c : Dev nD) (p) (hs) :
    M.slice (Rect.unit (s := S32x32x128) (k0_off14 c 16#32 1#32) S1x32x128.size p) hs = slot3 M (slot (zc c) 4 1) :=
  Memref.slice_unit_congr M (off14_slot c 4 0) p _ hs _
theorem slice_off14_w16_2 (M : Memref sig .tc .vmem S32x32x128 .bf16) (c : Dev nD) (p) (hs) :
    M.slice (Rect.unit (s := S32x32x128) (k0_off14 c 16#32 2#32) S1x32x128.size p) hs = slot3 M (slot (zc c) 4 2) :=
  Memref.slice_unit_congr M (off14_slot c 4 1) p _ hs _
theorem slice_off14_w16_3 (M : Memref sig .tc .vmem S32x32x128 .bf16) (c : Dev nD) (p) (hs) :
    M.slice (Rect.unit (s := S32x32x128) (k0_off14 c 16#32 3#32) S1x32x128.size p) hs = slot3 M (slot (zc c) 4 3) :=
  Memref.slice_unit_congr M (off14_slot c 4 2) p _ hs _
theorem slice_off14_w20_1 (M : Memref sig .tc .vmem S32x32x128 .bf16) (c : Dev nD) (p) (hs) :
    M.slice (Rect.unit (s := S32x32x128) (k0_off14 c 20#32 1#32) S1x32x128.size p) hs = slot3 M (slot (zc c) 5 1) :=
  Memref.slice_unit_congr M (off14_slot c 5 0) p _ hs _
theorem slice_off14_w20_2 (M : Memref sig .tc .vmem S32x32x128 .bf16) (c : Dev nD) (p) (hs) :
    M.slice (Rect.unit (s := S32x32x128) (k0_off14 c 20#32 2#32) S1x32x128.size p) hs = slot3 M (slot (zc c) 5 2) :=
  Memref.slice_unit_congr M (off14_slot c 5 1) p _ hs _
theorem slice_off14_w20_3 (M : Memref sig .tc .vmem S32x32x128 .bf16) (c : Dev nD) (p) (hs) :
    M.slice (Rect.unit (s := S32x32x128) (k0_off14 c 20#32 3#32) S1x32x128.size p) hs = slot3 M (slot (zc c) 5 3) :=
  Memref.slice_unit_congr M (off14_slot c 5 2) p _ hs _
theorem slice_off14_w24_1 (M : Memref sig .tc .vmem S32x32x128 .bf16) (c : Dev nD) (p) (hs) :
    M.slice (Rect.unit (s := S32x32x128) (k0_off14 c 24#32 1#32) S1x32x128.size p) hs = slot3 M (slot (zc c) 6 1) :=
  Memref.slice_unit_congr M (off14_slot c 6 0) p _ hs _
theorem slice_off14_w24_2 (M : Memref sig .tc .vmem S32x32x128 .bf16) (c : Dev nD) (p) (hs) :
    M.slice (Rect.unit (s := S32x32x128) (k0_off14 c 24#32 2#32) S1x32x128.size p) hs = slot3 M (slot (zc c) 6 2) :=
  Memref.slice_unit_congr M (off14_slot c 6 1) p _ hs _
theorem slice_off14_w24_3 (M : Memref sig .tc .vmem S32x32x128 .bf16) (c : Dev nD) (p) (hs) :
    M.slice (Rect.unit (s := S32x32x128) (k0_off14 c 24#32 3#32) S1x32x128.size p) hs = slot3 M (slot (zc c) 6 3) :=
  Memref.slice_unit_congr M (off14_slot c 6 2) p _ hs _
theorem slice_off14_w28_1 (M : Memref sig .tc .vmem S32x32x128 .bf16) (c : Dev nD) (p) (hs) :
    M.slice (Rect.unit (s := S32x32x128) (k0_off14 c 28#32 1#32) S1x32x128.size p) hs = slot3 M (slot (zc c) 7 1) :=
  Memref.slice_unit_congr M (off14_slot c 7 0) p _ hs _
theorem slice_off14_w28_2 (M : Memref sig .tc .vmem S32x32x128 .bf16) (c : Dev nD) (p) (hs) :
    M.slice (Rect.unit (s := S32x32x128) (k0_off14 c 28#32 2#32) S1x32x128.size p) hs = slot3 M (slot (zc c) 7 2) :=
  Memref.slice_unit_congr M (off14_slot c 7 1) p _ hs _
theorem slice_off14_w28_3 (M : Memref sig .tc .vmem S32x32x128 .bf16) (c : Dev nD) (p) (hs) :
    M.slice (Rect.unit (s := S32x32x128) (k0_off14 c 28#32 3#32) S1x32x128.size p) hs = slot3 M (slot (zc c) 7 3) :=
  Memref.slice_unit_congr M (off14_slot c 7 2) p _ hs _

/-! ### Offset function 15: the rectangle of a load from a stage-3 buffer -/

theorem rect_off15_w0 (c : Dev nD) (p) :
    Rect.unit (s := S32x32x128) (k0_off15 c 0#32) S1x32x128.size p
      = Rect.unit (s := S32x32x128) ![(slot (zc c) 0 0).val, 0, 0] S1x32x128.size (inbB (slot (zc c) 0 0)) :=
  Rect.unit_congr (off15_slot c 0) p _
theorem rect_off15_w4 (c : Dev nD) (p) :
    Rect.unit (s := S32x32x128) (k0_off15 c 4#32) S1x32x128.size p
      = Rect.unit (s := S32x32x128) ![(slot (zc c) 1 0).val, 0, 0] S1x32x128.size (inbB (slot (zc c) 1 0)) :=
  Rect.unit_congr (off15_slot c 1) p _
theorem rect_off15_w8 (c : Dev nD) (p) :
    Rect.unit (s := S32x32x128) (k0_off15 c 8#32) S1x32x128.size p
      = Rect.unit (s := S32x32x128) ![(slot (zc c) 2 0).val, 0, 0] S1x32x128.size (inbB (slot (zc c) 2 0)) :=
  Rect.unit_congr (off15_slot c 2) p _
theorem rect_off15_w12 (c : Dev nD) (p) :
    Rect.unit (s := S32x32x128) (k0_off15 c 12#32) S1x32x128.size p
      = Rect.unit (s := S32x32x128) ![(slot (zc c) 3 0).val, 0, 0] S1x32x128.size (inbB (slot (zc c) 3 0)) :=
  Rect.unit_congr (off15_slot c 3) p _
theorem rect_off15_w16 (c : Dev nD) (p) :
    Rect.unit (s := S32x32x128) (k0_off15 c 16#32) S1x32x128.size p
      = Rect.unit (s := S32x32x128) ![(slot (zc c) 4 0).val, 0, 0] S1x32x128.size (inbB (slot (zc c) 4 0)) :=
  Rect.unit_congr (off15_slot c 4) p _
theorem rect_off15_w20 (c : Dev nD) (p) :
    Rect.unit (s := S32x32x128) (k0_off15 c 20#32) S1x32x128.size p
      = Rect.unit (s := S32x32x128) ![(slot (zc c) 5 0).val, 0, 0] S1x32x128.size (inbB (slot (zc c) 5 0)) :=
  Rect.unit_congr (off15_slot c 5) p _
theorem rect_off15_w24 (c : Dev nD) (p) :
    Rect.unit (s := S32x32x128) (k0_off15 c 24#32) S1x32x128.size p
      = Rect.unit (s := S32x32x128) ![(slot (zc c) 6 0).val, 0, 0] S1x32x128.size (inbB (slot (zc c) 6 0)) :=
  Rect.unit_congr (off15_slot c 6) p _
theorem rect_off15_w28 (c : Dev nD) (p) :
    Rect.unit (s := S32x32x128) (k0_off15 c 28#32) S1x32x128.size p
      = Rect.unit (s := S32x32x128) ![(slot (zc c) 7 0).val, 0, 0] S1x32x128.size (inbB (slot (zc c) 7 0)) :=
  Rect.unit_congr (off15_slot c 7) p _

/-! ### Offset function 16: a semaphore of a 32-array -/

theorem semSlice_off16_w0_1 (A : DmaSems sig S32) (c : Dev nD) (p) :
    A.slice (Rect.unit (s := S32) (k0_off16 c 0#32 1#32) S1.size p)
      = A.slice (Rect.unit (s := S32) ![(slot (zc c) 0 3).val] S1.size (inb32 (slot (zc c) 0 3))) :=
  SemArray.slice_unit_congr A (off16_slot c 0 0) p _
theorem sem_off16_w0_1 (A : DmaSems sig S32) (c : Dev nD) (p) (hq : S1.Squeezes S_) :
    ((A.slice (Rect.unit (s := S32) (k0_off16 c 0#32 1#32) S1.size p)).squeeze S_ hq).sem = sem32 A (slot (zc c) 0 3) :=
  congrArg (fun X : DmaSems sig S1 => (X.squeeze S_ hq).sem) (semSlice_off16_w0_1 A c p)
theorem semSlice_off16_w0_2 (A : DmaSems sig S32) (c : Dev nD) (p) :
    A.slice (Rect.unit (s := S32) (k0_off16 c 0#32 2#32) S1.size p)
      = A.slice (Rect.unit (s := S32) ![(slot (zc c) 0 2).val] S1.size (inb32 (slot (zc c) 0 2))) :=
  SemArray.slice_unit_congr A (off16_slot c 0 1) p _
theorem sem_off16_w0_2 (A : DmaSems sig S32) (c : Dev nD) (p) (hq : S1.Squeezes S_) :
    ((A.slice (Rect.unit (s := S32) (k0_off16 c 0#32 2#32) S1.size p)).squeeze S_ hq).sem = sem32 A (slot (zc c) 0 2) :=
  congrArg (fun X : DmaSems sig S1 => (X.squeeze S_ hq).sem) (semSlice_off16_w0_2 A c p)
theorem semSlice_off16_w0_3 (A : DmaSems sig S32) (c : Dev nD) (p) :
    A.slice (Rect.unit (s := S32) (k0_off16 c 0#32 3#32) S1.size p)
      = A.slice (Rect.unit (s := S32) ![(slot (zc c) 0 1).val] S1.size (inb32 (slot (zc c) 0 1))) :=
  SemArray.slice_unit_congr A (off16_slot c 0 2) p _
theorem sem_off16_w0_3 (A : DmaSems sig S32) (c : Dev nD) (p) (hq : S1.Squeezes S_) :
    ((A.slice (Rect.unit (s := S32) (k0_off16 c 0#32 3#32) S1.size p)).squeeze S_ hq).sem = sem32 A (slot (zc c) 0 1) :=
  congrArg (fun X : DmaSems sig S1 => (X.squeeze S_ hq).sem) (semSlice_off16_w0_3 A c p)
theorem semSlice_off16_w4_1 (A : DmaSems sig S32) (c : Dev nD) (p) :
    A.slice (Rect.unit (s := S32) (k0_off16 c 4#32 1#32) S1.size p)
      = A.slice (Rect.unit (s := S32) ![(slot (zc c) 1 3).val] S1.size (inb32 (slot (zc c) 1 3))) :=
  SemArray.slice_unit_congr A (off16_slot c 1 0) p _
theorem sem_off16_w4_1 (A : DmaSems sig S32) (c : Dev nD) (p) (hq : S1.Squeezes S_) :
    ((A.slice (Rect.unit (s := S32) (k0_off16 c 4#32 1#32) S1.size p)).squeeze S_ hq).sem = sem32 A (slot (zc c) 1 3) :=
  congrArg (fun X : DmaSems sig S1 => (X.squeeze S_ hq).sem) (semSlice_off16_w4_1 A c p)
theorem semSlice_off16_w4_2 (A : DmaSems sig S32) (c : Dev nD) (p) :
    A.slice (Rect.unit (s := S32) (k0_off16 c 4#32 2#32) S1.size p)
      = A.slice (Rect.unit (s := S32) ![(slot (zc c) 1 2).val] S1.size (inb32 (slot (zc c) 1 2))) :=
  SemArray.slice_unit_congr A (off16_slot c 1 1) p _
theorem sem_off16_w4_2 (A : DmaSems sig S32) (c : Dev nD) (p) (hq : S1.Squeezes S_) :
    ((A.slice (Rect.unit (s := S32) (k0_off16 c 4#32 2#32) S1.size p)).squeeze S_ hq).sem = sem32 A (slot (zc c) 1 2) :=
  congrArg (fun X : DmaSems sig S1 => (X.squeeze S_ hq).sem) (semSlice_off16_w4_2 A c p)
theorem semSlice_off16_w4_3 (A : DmaSems sig S32) (c : Dev nD) (p) :
    A.slice (Rect.unit (s := S32) (k0_off16 c 4#32 3#32) S1.size p)
      = A.slice (Rect.unit (s := S32) ![(slot (zc c) 1 1).val] S1.size (inb32 (slot (zc c) 1 1))) :=
  SemArray.slice_unit_congr A (off16_slot c 1 2) p _
theorem sem_off16_w4_3 (A : DmaSems sig S32) (c : Dev nD) (p) (hq : S1.Squeezes S_) :
    ((A.slice (Rect.unit (s := S32) (k0_off16 c 4#32 3#32) S1.size p)).squeeze S_ hq).sem = sem32 A (slot (zc c) 1 1) :=
  congrArg (fun X : DmaSems sig S1 => (X.squeeze S_ hq).sem) (semSlice_off16_w4_3 A c p)
theorem semSlice_off16_w8_1 (A : DmaSems sig S32) (c : Dev nD) (p) :
    A.slice (Rect.unit (s := S32) (k0_off16 c 8#32 1#32) S1.size p)
      = A.slice (Rect.unit (s := S32) ![(slot (zc c) 2 3).val] S1.size (inb32 (slot (zc c) 2 3))) :=
  SemArray.slice_unit_congr A (off16_slot c 2 0) p _
theorem sem_off16_w8_1 (A : DmaSems sig S32) (c : Dev nD) (p) (hq : S1.Squeezes S_) :
    ((A.slice (Rect.unit (s := S32) (k0_off16 c 8#32 1#32) S1.size p)).squeeze S_ hq).sem = sem32 A (slot (zc c) 2 3) :=
  congrArg (fun X : DmaSems sig S1 => (X.squeeze S_ hq).sem) (semSlice_off16_w8_1 A c p)
theorem semSlice_off16_w8_2 (A : DmaSems sig S32) (c : Dev nD) (p) :
    A.slice (Rect.unit (s := S32) (k0_off16 c 8#32 2#32) S1.size p)
      = A.slice (Rect.unit (s := S32) ![(slot (zc c) 2 2).val] S1.size (inb32 (slot (zc c) 2 2))) :=
  SemArray.slice_unit_congr A (off16_slot c 2 1) p _
theorem sem_off16_w8_2 (A : DmaSems sig S32) (c : Dev nD) (p) (hq : S1.Squeezes S_) :
    ((A.slice (Rect.unit (s := S32) (k0_off16 c 8#32 2#32) S1.size p)).squeeze S_ hq).sem = sem32 A (slot (zc c) 2 2) :=
  congrArg (fun X : DmaSems sig S1 => (X.squeeze S_ hq).sem) (semSlice_off16_w8_2 A c p)
theorem semSlice_off16_w8_3 (A : DmaSems sig S32) (c : Dev nD) (p) :
    A.slice (Rect.unit (s := S32) (k0_off16 c 8#32 3#32) S1.size p)
      = A.slice (Rect.unit (s := S32) ![(slot (zc c) 2 1).val] S1.size (inb32 (slot (zc c) 2 1))) :=
  SemArray.slice_unit_congr A (off16_slot c 2 2) p _
theorem sem_off16_w8_3 (A : DmaSems sig S32) (c : Dev nD) (p) (hq : S1.Squeezes S_) :
    ((A.slice (Rect.unit (s := S32) (k0_off16 c 8#32 3#32) S1.size p)).squeeze S_ hq).sem = sem32 A (slot (zc c) 2 1) :=
  congrArg (fun X : DmaSems sig S1 => (X.squeeze S_ hq).sem) (semSlice_off16_w8_3 A c p)
theorem semSlice_off16_w12_1 (A : DmaSems sig S32) (c : Dev nD) (p) :
    A.slice (Rect.unit (s := S32) (k0_off16 c 12#32 1#32) S1.size p)
      = A.slice (Rect.unit (s := S32) ![(slot (zc c) 3 3).val] S1.size (inb32 (slot (zc c) 3 3))) :=
  SemArray.slice_unit_congr A (off16_slot c 3 0) p _
theorem sem_off16_w12_1 (A : DmaSems sig S32) (c : Dev nD) (p) (hq : S1.Squeezes S_) :
    ((A.slice (Rect.unit (s := S32) (k0_off16 c 12#32 1#32) S1.size p)).squeeze S_ hq).sem = sem32 A (slot (zc c) 3 3) :=
  congrArg (fun X : DmaSems sig S1 => (X.squeeze S_ hq).sem) (semSlice_off16_w12_1 A c p)
theorem semSlice_off16_w12_2 (A : DmaSems sig S32) (c : Dev nD) (p) :
    A.slice (Rect.unit (s := S32) (k0_off16 c 12#32 2#32) S1.size p)
      = A.slice (Rect.unit (s := S32) ![(slot (zc c) 3 2).val] S1.size (inb32 (slot (zc c) 3 2))) :=
  SemArray.slice_unit_congr A (off16_slot c 3 1) p _
theorem sem_off16_w12_2 (A : DmaSems sig S32) (c : Dev nD) (p) (hq : S1.Squeezes S_) :
    ((A.slice (Rect.unit (s := S32) (k0_off16 c 12#32 2#32) S1.size p)).squeeze S_ hq).sem = sem32 A (slot (zc c) 3 2) :=
  congrArg (fun X : DmaSems sig S1 => (X.squeeze S_ hq).sem) (semSlice_off16_w12_2 A c p)
theorem semSlice_off16_w12_3 (A : DmaSems sig S32) (c : Dev nD) (p) :
    A.slice (Rect.unit (s := S32) (k0_off16 c 12#32 3#32) S1.size p)
      = A.slice (Rect.unit (s := S32) ![(slot (zc c) 3 1).val] S1.size (inb32 (slot (zc c) 3 1))) :=
  SemArray.slice_unit_congr A (off16_slot c 3 2) p _
theorem sem_off16_w12_3 (A : DmaSems sig S32) (c : Dev nD) (p) (hq : S1.Squeezes S_) :
    ((A.slice (Rect.unit (s := S32) (k0_off16 c 12#32 3#32) S1.size p)).squeeze S_ hq).sem = sem32 A (slot (zc c) 3 1) :=
  congrArg (fun X : DmaSems sig S1 => (X.squeeze S_ hq).sem) (semSlice_off16_w12_3 A c p)
theorem semSlice_off16_w16_1 (A : DmaSems sig S32) (c : Dev nD) (p) :
    A.slice (Rect.unit (s := S32) (k0_off16 c 16#32 1#32) S1.size p)
      = A.slice (Rect.unit (s := S32) ![(slot (zc c) 4 3).val] S1.size (inb32 (slot (zc c) 4 3))) :=
  SemArray.slice_unit_congr A (off16_slot c 4 0) p _
theorem sem_off16_w16_1 (A : DmaSems sig S32) (c : Dev nD) (p) (hq : S1.Squeezes S_) :
    ((A.slice (Rect.unit (s := S32) (k0_off16 c 16#32 1#32) S1.size p)).squeeze S_ hq).sem = sem32 A (slot (zc c) 4 3) :=
  congrArg (fun X : DmaSems sig S1 => (X.squeeze S_ hq).sem) (semSlice_off16_w16_1 A c p)
theorem semSlice_off16_w16_2 (A : DmaSems sig S32) (c : Dev nD) (p) :
    A.slice (Rect.unit (s := S32) (k0_off16 c 16#32 2#32) S1.size p)
      = A.slice (Rect.unit (s := S32) ![(slot (zc c) 4 2).val] S1.size (inb32 (slot (zc c) 4 2))) :=
  SemArray.slice_unit_congr A (off16_slot c 4 1) p _
theorem sem_off16_w16_2 (A : DmaSems sig S32) (c : Dev nD) (p) (hq : S1.Squeezes S_) :
    ((A.slice (Rect.unit (s := S32) (k0_off16 c 16#32 2#32) S1.size p)).squeeze S_ hq).sem = sem32 A (slot (zc c) 4 2) :=
  congrArg (fun X : DmaSems sig S1 => (X.squeeze S_ hq).sem) (semSlice_off16_w16_2 A c p)
theorem semSlice_off16_w16_3 (A : DmaSems sig S32) (c : Dev nD) (p) :
    A.slice (Rect.unit (s := S32) (k0_off16 c 16#32 3#32) S1.size p)
      = A.slice (Rect.unit (s := S32) ![(slot (zc c) 4 1).val] S1.size (inb32 (slot (zc c) 4 1))) :=
  SemArray.slice_unit_congr A (off16_slot c 4 2) p _
theorem sem_off16_w16_3 (A : DmaSems sig S32) (c : Dev nD) (p) (hq : S1.Squeezes S_) :
    ((A.slice (Rect.unit (s := S32) (k0_off16 c 16#32 3#32) S1.size p)).squeeze S_ hq).sem = sem32 A (slot (zc c) 4 1) :=
  congrArg (fun X : DmaSems sig S1 => (X.squeeze S_ hq).sem) (semSlice_off16_w16_3 A c p)
theorem semSlice_off16_w20_1 (A : DmaSems sig S32) (c : Dev nD) (p) :
    A.slice (Rect.unit (s := S32) (k0_off16 c 20#32 1#32) S1.size p)
      = A.slice (Rect.unit (s := S32) ![(slot (zc c) 5 3).val] S1.size (inb32 (slot (zc c) 5 3))) :=
  SemArray.slice_unit_congr A (off16_slot c 5 0) p _
theorem sem_off16_w20_1 (A : DmaSems sig S32) (c : Dev nD) (p) (hq : S1.Squeezes S_) :
    ((A.slice (Rect.unit (s := S32) (k0_off16 c 20#32 1#32) S1.size p)).squeeze S_ hq).sem = sem32 A (slot (zc c) 5 3) :=
  congrArg (fun X : DmaSems sig S1 => (X.squeeze S_ hq).sem) (semSlice_off16_w20_1 A c p)
theorem semSlice_off16_w20_2 (A : DmaSems sig S32) (c : Dev nD) (p) :
    A.slice (Rect.unit (s := S32) (k0_off16 c 20#32 2#32) S1.size p)
      = A.slice (Rect.unit (s := S32) ![(slot (zc c) 5 2).val] S1.size (inb32 (slot (zc c) 5 2))) :=
  SemArray.slice_unit_congr A (off16_slot c 5 1) p _
theorem sem_off16_w20_2 (A : DmaSems sig S32) (c : Dev nD) (p) (hq : S1.Squeezes S_) :
    ((A.slice (Rect.unit (s := S32) (k0_off16 c 20#32 2#32) S1.size p)).squeeze S_ hq).sem = sem32 A (slot (zc c) 5 2) :=
  congrArg (fun X : DmaSems sig S1 => (X.squeeze S_ hq).sem) (semSlice_off16_w20_2 A c p)
theorem semSlice_off16_w20_3 (A : DmaSems sig S32) (c : Dev nD) (p) :
    A.slice (Rect.unit (s := S32) (k0_off16 c 20#32 3#32) S1.size p)
      = A.slice (Rect.unit (s := S32) ![(slot (zc c) 5 1).val] S1.size (inb32 (slot (zc c) 5 1))) :=
  SemArray.slice_unit_congr A (off16_slot c 5 2) p _
theorem sem_off16_w20_3 (A : DmaSems sig S32) (c : Dev nD) (p) (hq : S1.Squeezes S_) :
    ((A.slice (Rect.unit (s := S32) (k0_off16 c 20#32 3#32) S1.size p)).squeeze S_ hq).sem = sem32 A (slot (zc c) 5 1) :=
  congrArg (fun X : DmaSems sig S1 => (X.squeeze S_ hq).sem) (semSlice_off16_w20_3 A c p)
theorem semSlice_off16_w24_1 (A : DmaSems sig S32) (c : Dev nD) (p) :
    A.slice (Rect.unit (s := S32) (k0_off16 c 24#32 1#32) S1.size p)
      = A.slice (Rect.unit (s := S32) ![(slot (zc c) 6 3).val] S1.size (inb32 (slot (zc c) 6 3))) :=
  SemArray.slice_unit_congr A (off16_slot c 6 0) p _
theorem sem_off16_w24_1 (A : DmaSems sig S32) (c : Dev nD) (p) (hq : S1.Squeezes S_) :
    ((A.slice (Rect.unit (s := S32) (k0_off16 c 24#32 1#32) S1.size p)).squeeze S_ hq).sem = sem32 A (slot (zc c) 6 3) :=
  congrArg (fun X : DmaSems sig S1 => (X.squeeze S_ hq).sem) (semSlice_off16_w24_1 A c p)
theorem semSlice_off16_w24_2 (A : DmaSems sig S32) (c : Dev nD) (p) :
    A.slice (Rect.unit (s := S32) (k0_off16 c 24#32 2#32) S1.size p)
      = A.slice (Rect.unit (s := S32) ![(slot (zc c) 6 2).val] S1.size (inb32 (slot (zc c) 6 2))) :=
  SemArray.slice_unit_congr A (off16_slot c 6 1) p _
theorem sem_off16_w24_2 (A : DmaSems sig S32) (c : Dev nD) (p) (hq : S1.Squeezes S_) :
    ((A.slice (Rect.unit (s := S32) (k0_off16 c 24#32 2#32) S1.size p)).squeeze S_ hq).sem = sem32 A (slot (zc c) 6 2) :=
  congrArg (fun X : DmaSems sig S1 => (X.squeeze S_ hq).sem) (semSlice_off16_w24_2 A c p)
theorem semSlice_off16_w24_3 (A : DmaSems sig S32) (c : Dev nD) (p) :
    A.slice (Rect.unit (s := S32) (k0_off16 c 24#32 3#32) S1.size p)
      = A.slice (Rect.unit (s := S32) ![(slot (zc c) 6 1).val] S1.size (inb32 (slot (zc c) 6 1))) :=
  SemArray.slice_unit_congr A (off16_slot c 6 2) p _
theorem sem_off16_w24_3 (A : DmaSems sig S32) (c : Dev nD) (p) (hq : S1.Squeezes S_) :
    ((A.slice (Rect.unit (s := S32) (k0_off16 c 24#32 3#32) S1.size p)).squeeze S_ hq).sem = sem32 A (slot (zc c) 6 1) :=
  congrArg (fun X : DmaSems sig S1 => (X.squeeze S_ hq).sem) (semSlice_off16_w24_3 A c p)
theorem semSlice_off16_w28_1 (A : DmaSems sig S32) (c : Dev nD) (p) :
    A.slice (Rect.unit (s := S32) (k0_off16 c 28#32 1#32) S1.size p)
      = A.slice (Rect.unit (s := S32) ![(slot (zc c) 7 3).val] S1.size (inb32 (slot (zc c) 7 3))) :=
  SemArray.slice_unit_congr A (off16_slot c 7 0) p _
theorem sem_off16_w28_1 (A : DmaSems sig S32) (c : Dev nD) (p) (hq : S1.Squeezes S_) :
    ((A.slice (Rect.unit (s := S32) (k0_off16 c 28#32 1#32) S1.size p)).squeeze S_ hq).sem = sem32 A (slot (zc c) 7 3) :=
  congrArg (fun X : DmaSems sig S1 => (X.squeeze S_ hq).sem) (semSlice_off16_w28_1 A c p)
theorem semSlice_off16_w28_2 (A : DmaSems sig S32) (c : Dev nD) (p) :
    A.slice (Rect.unit (s := S32) (k0_off16 c 28#32 2#32) S1.size p)
      = A.slice (Rect.unit (s := S32) ![(slot (zc c) 7 2).val] S1.size (inb32 (slot (zc c) 7 2))) :=
  SemArray.slice_unit_congr A (off16_slot c 7 1) p _
theorem sem_off16_w28_2 (A : DmaSems sig S32) (c : Dev nD) (p) (hq : S1.Squeezes S_) :
    ((A.slice (Rect.unit (s := S32) (k0_off16 c 28#32 2#32) S1.size p)).squeeze S_ hq).sem = sem32 A (slot (zc c) 7 2) :=
  congrArg (fun X : DmaSems sig S1 => (X.squeeze S_ hq).sem) (semSlice_off16_w28_2 A c p)
theorem semSlice_off16_w28_3 (A : DmaSems sig S32) (c : Dev nD) (p) :
    A.slice (Rect.unit (s := S32) (k0_off16 c 28#32 3#32) S1.size p)
      = A.slice (Rect.unit (s := S32) ![(slot (zc c) 7 1).val] S1.size (inb32 (slot (zc c) 7 1))) :=
  SemArray.slice_unit_congr A (off16_slot c 7 2) p _
theorem sem_off16_w28_3 (A : DmaSems sig S32) (c : Dev nD) (p) (hq : S1.Squeezes S_) :
    ((A.slice (Rect.unit (s := S32) (k0_off16 c 28#32 3#32) S1.size p)).squeeze S_ hq).sem = sem32 A (slot (zc c) 7 1) :=
  congrArg (fun X : DmaSems sig S1 => (X.squeeze S_ hq).sem) (semSlice_off16_w28_3 A c p)

/-! ### Offset function 17: a slot of a stage-3 buffer -/

theorem slice_off17_w0_1 (M : Memref sig .tc .vmem S32x32x128 .bf16) (c : Dev nD) (p) (hs) :
    M.slice (Rect.unit (s := S32x32x128) (k0_off17 c 0#32 1#32) S1x32x128.size p) hs = slot3 M (slot (zc c) 0 3) :=
  Memref.slice_unit_congr M (off17_slot c 0 0) p _ hs _
theorem slice_off17_w0_2 (M : Memref sig .tc .vmem S32x32x128 .bf16) (c : Dev nD) (p) (hs) :
    M.slice (Rect.unit (s := S32x32x128) (k0_off17 c 0#32 2#32) S1x32x128.size p) hs = slot3 M (slot (zc c) 0 2) :=
  Memref.slice_unit_congr M (off17_slot c 0 1) p _ hs _
theorem slice_off17_w0_3 (M : Memref sig .tc .vmem S32x32x128 .bf16) (c : Dev nD) (p) (hs) :
    M.slice (Rect.unit (s := S32x32x128) (k0_off17 c 0#32 3#32) S1x32x128.size p) hs = slot3 M (slot (zc c) 0 1) :=
  Memref.slice_unit_congr M (off17_slot c 0 2) p _ hs _
theorem slice_off17_w4_1 (M : Memref sig .tc .vmem S32x32x128 .bf16) (c : Dev nD) (p) (hs) :
    M.slice (Rect.unit (s := S32x32x128) (k0_off17 c 4#32 1#32) S1x32x128.size p) hs = slot3 M (slot (zc c) 1 3) :=
  Memref.slice_unit_congr M (off17_slot c 1 0) p _ hs _
theorem slice_off17_w4_2 (M : Memref sig .tc .vmem S32x32x128 .bf16) (c : Dev nD) (p) (hs) :
    M.slice (Rect.unit (s := S32x32x128) (k0_off17 c 4#32 2#32) S1x32x128.size p) hs = slot3 M (slot (zc c) 1 2) :=
  Memref.slice_unit_congr M (off17_slot c 1 1) p _ hs _
theorem slice_off17_w4_3 (M : Memref sig .tc .vmem S32x32x128 .bf16) (c : Dev nD) (p) (hs) :
    M.slice (Rect.unit (s := S32x32x128) (k0_off17 c 4#32 3#32) S1x32x128.size p) hs = slot3 M (slot (zc c) 1 1) :=
  Memref.slice_unit_congr M (off17_slot c 1 2) p _ hs _
theorem slice_off17_w8_1 (M : Memref sig .tc .vmem S32x32x128 .bf16) (c : Dev nD) (p) (hs) :
    M.slice (Rect.unit (s := S32x32x128) (k0_off17 c 8#32 1#32) S1x32x128.size p) hs = slot3 M (slot (zc c) 2 3) :=
  Memref.slice_unit_congr M (off17_slot c 2 0) p _ hs _
theorem slice_off17_w8_2 (M : Memref sig .tc .vmem S32x32x128 .bf16) (c : Dev nD) (p) (hs) :
    M.slice (Rect.unit (s := S32x32x128) (k0_off17 c 8#32 2#32) S1x32x128.size p) hs = slot3 M (slot (zc c) 2 2) :=
  Memref.slice_unit_congr M (off17_slot c 2 1) p _ hs _
theorem slice_off17_w8_3 (M : Memref sig .tc .vmem S32x32x128 .bf16) (c : Dev nD) (p) (hs) :
    M.slice (Rect.unit (s := S32x32x128) (k0_off17 c 8#32 3#32) S1x32x128.size p) hs = slot3 M (slot (zc c) 2 1) :=
  Memref.slice_unit_congr M (off17_slot c 2 2) p _ hs _
theorem slice_off17_w12_1 (M : Memref sig .tc .vmem S32x32x128 .bf16) (c : Dev nD) (p) (hs) :
    M.slice (Rect.unit (s := S32x32x128) (k0_off17 c 12#32 1#32) S1x32x128.size p) hs = slot3 M (slot (zc c) 3 3) :=
  Memref.slice_unit_congr M (off17_slot c 3 0) p _ hs _
theorem slice_off17_w12_2 (M : Memref sig .tc .vmem S32x32x128 .bf16) (c : Dev nD) (p) (hs) :
    M.slice (Rect.unit (s := S32x32x128) (k0_off17 c 12#32 2#32) S1x32x128.size p) hs = slot3 M (slot (zc c) 3 2) :=
  Memref.slice_unit_congr M (off17_slot c 3 1) p _ hs _
theorem slice_off17_w12_3 (M : Memref sig .tc .vmem S32x32x128 .bf16) (c : Dev nD) (p) (hs) :
    M.slice (Rect.unit (s := S32x32x128) (k0_off17 c 12#32 3#32) S1x32x128.size p) hs = slot3 M (slot (zc c) 3 1) :=
  Memref.slice_unit_congr M (off17_slot c 3 2) p _ hs _
theorem slice_off17_w16_1 (M : Memref sig .tc .vmem S32x32x128 .bf16) (c : Dev nD) (p) (hs) :
    M.slice (Rect.unit (s := S32x32x128) (k0_off17 c 16#32 1#32) S1x32x128.size p) hs = slot3 M (slot (zc c) 4 3) :=
  Memref.slice_unit_congr M (off17_slot c 4 0) p _ hs _
theorem slice_off17_w16_2 (M : Memref sig .tc .vmem S32x32x128 .bf16) (c : Dev nD) (p) (hs) :
    M.slice (Rect.unit (s := S32x32x128) (k0_off17 c 16#32 2#32) S1x32x128.size p) hs = slot3 M (slot (zc c) 4 2) :=
  Memref.slice_unit_congr M (off17_slot c 4 1) p _ hs _
theorem slice_off17_w16_3 (M : Memref sig .tc .vmem S32x32x128 .bf16) (c : Dev nD) (p) (hs) :
    M.slice (Rect.unit (s := S32x32x128) (k0_off17 c 16#32 3#32) S1x32x128.size p) hs = slot3 M (slot (zc c) 4 1) :=
  Memref.slice_unit_congr M (off17_slot c 4 2) p _ hs _
theorem slice_off17_w20_1 (M : Memref sig .tc .vmem S32x32x128 .bf16) (c : Dev nD) (p) (hs) :
    M.slice (Rect.unit (s := S32x32x128) (k0_off17 c 20#32 1#32) S1x32x128.size p) hs = slot3 M (slot (zc c) 5 3) :=
  Memref.slice_unit_congr M (off17_slot c 5 0) p _ hs _
theorem slice_off17_w20_2 (M : Memref sig .tc .vmem S32x32x128 .bf16) (c : Dev nD) (p) (hs) :
    M.slice (Rect.unit (s := S32x32x128) (k0_off17 c 20#32 2#32) S1x32x128.size p) hs = slot3 M (slot (zc c) 5 2) :=
  Memref.slice_unit_congr M (off17_slot c 5 1) p _ hs _
theorem slice_off17_w20_3 (M : Memref sig .tc .vmem S32x32x128 .bf16) (c : Dev nD) (p) (hs) :
    M.slice (Rect.unit (s := S32x32x128) (k0_off17 c 20#32 3#32) S1x32x128.size p) hs = slot3 M (slot (zc c) 5 1) :=
  Memref.slice_unit_congr M (off17_slot c 5 2) p _ hs _
theorem slice_off17_w24_1 (M : Memref sig .tc .vmem S32x32x128 .bf16) (c : Dev nD) (p) (hs) :
    M.slice (Rect.unit (s := S32x32x128) (k0_off17 c 24#32 1#32) S1x32x128.size p) hs = slot3 M (slot (zc c) 6 3) :=
  Memref.slice_unit_congr M (off17_slot c 6 0) p _ hs _
theorem slice_off17_w24_2 (M : Memref sig .tc .vmem S32x32x128 .bf16) (c : Dev nD) (p) (hs) :
    M.slice (Rect.unit (s := S32x32x128) (k0_off17 c 24#32 2#32) S1x32x128.size p) hs = slot3 M (slot (zc c) 6 2) :=
  Memref.slice_unit_congr M (off17_slot c 6 1) p _ hs _
theorem slice_off17_w24_3 (M : Memref sig .tc .vmem S32x32x128 .bf16) (c : Dev nD) (p) (hs) :
    M.slice (Rect.unit (s := S32x32x128) (k0_off17 c 24#32 3#32) S1x32x128.size p) hs = slot3 M (slot (zc c) 6 1) :=
  Memref.slice_unit_congr M (off17_slot c 6 2) p _ hs _
theorem slice_off17_w28_1 (M : Memref sig .tc .vmem S32x32x128 .bf16) (c : Dev nD) (p) (hs) :
    M.slice (Rect.unit (s := S32x32x128) (k0_off17 c 28#32 1#32) S1x32x128.size p) hs = slot3 M (slot (zc c) 7 3) :=
  Memref.slice_unit_congr M (off17_slot c 7 0) p _ hs _
theorem slice_off17_w28_2 (M : Memref sig .tc .vmem S32x32x128 .bf16) (c : Dev nD) (p) (hs) :
    M.slice (Rect.unit (s := S32x32x128) (k0_off17 c 28#32 2#32) S1x32x128.size p) hs = slot3 M (slot (zc c) 7 2) :=
  Memref.slice_unit_congr M (off17_slot c 7 1) p _ hs _
theorem slice_off17_w28_3 (M : Memref sig .tc .vmem S32x32x128 .bf16) (c : Dev nD) (p) (hs) :
    M.slice (Rect.unit (s := S32x32x128) (k0_off17 c 28#32 3#32) S1x32x128.size p) hs = slot3 M (slot (zc c) 7 1) :=
  Memref.slice_unit_congr M (off17_slot c 7 2) p _ hs _

/-! ### Offset function 18: the rectangle of a load from a stage-3 buffer -/

theorem rect_off18_w0_1 (c : Dev nD) (p) :
    Rect.unit (s := S32x32x128) (k0_off18 c 0#32 1#32) S1x32x128.size p
      = Rect.unit (s := S32x32x128) ![(slot (zc c) 0 3).val, 0, 0] S1x32x128.size (inbB (slot (zc c) 0 3)) :=
  Rect.unit_congr (off18_slot c 0 0) p _
theorem rect_off18_w0_2 (c : Dev nD) (p) :
    Rect.unit (s := S32x32x128) (k0_off18 c 0#32 2#32) S1x32x128.size p
      = Rect.unit (s := S32x32x128) ![(slot (zc c) 0 2).val, 0, 0] S1x32x128.size (inbB (slot (zc c) 0 2)) :=
  Rect.unit_congr (off18_slot c 0 1) p _
theorem rect_off18_w0_3 (c : Dev nD) (p) :
    Rect.unit (s := S32x32x128) (k0_off18 c 0#32 3#32) S1x32x128.size p
      = Rect.unit (s := S32x32x128) ![(slot (zc c) 0 1).val, 0, 0] S1x32x128.size (inbB (slot (zc c) 0 1)) :=
  Rect.unit_congr (off18_slot c 0 2) p _
theorem rect_off18_w4_1 (c : Dev nD) (p) :
    Rect.unit (s := S32x32x128) (k0_off18 c 4#32 1#32) S1x32x128.size p
      = Rect.unit (s := S32x32x128) ![(slot (zc c) 1 3).val, 0, 0] S1x32x128.size (inbB (slot (zc c) 1 3)) :=
  Rect.unit_congr (off18_slot c 1 0) p _
theorem rect_off18_w4_2 (c : Dev nD) (p) :
    Rect.unit (s := S32x32x128) (k0_off18 c 4#32 2#32) S1x32x128.size p
      = Rect.unit (s := S32x32x128) ![(slot (zc c) 1 2).val, 0, 0] S1x32x128.size (inbB (slot (zc c) 1 2)) :=
  Rect.unit_congr (off18_slot c 1 1) p _
theorem rect_off18_w4_3 (c : Dev nD) (p) :
    Rect.unit (s := S32x32x128) (k0_off18 c 4#32 3#32) S1x32x128.size p
      = Rect.unit (s := S32x32x128) ![(slot (zc c) 1 1).val, 0, 0] S1x32x128.size (inbB (slot (zc c) 1 1)) :=
  Rect.unit_congr (off18_slot c 1 2) p _
theorem rect_off18_w8_1 (c : Dev nD) (p) :
    Rect.unit (s := S32x32x128) (k0_off18 c 8#32 1#32) S1x32x128.size p
      = Rect.unit (s := S32x32x128) ![(slot (zc c) 2 3).val, 0, 0] S1x32x128.size (inbB (slot (zc c) 2 3)) :=
  Rect.unit_congr (off18_slot c 2 0) p _
theorem rect_off18_w8_2 (c : Dev nD) (p) :
    Rect.unit (s := S32x32x128) (k0_off18 c 8#32 2#32) S1x32x128.size p
      = Rect.unit (s := S32x32x128) ![(slot (zc c) 2 2).val, 0, 0] S1x32x128.size (inbB (slot (zc c) 2 2)) :=
  Rect.unit_congr (off18_slot c 2 1) p _
theorem rect_off18_w8_3 (c : Dev nD) (p) :
    Rect.unit (s := S32x32x128) (k0_off18 c 8#32 3#32) S1x32x128.size p
      = Rect.unit (s := S32x32x128) ![(slot (zc c) 2 1).val, 0, 0] S1x32x128.size (inbB (slot (zc c) 2 1)) :=
  Rect.unit_congr (off18_slot c 2 2) p _
theorem rect_off18_w12_1 (c : Dev nD) (p) :
    Rect.unit (s := S32x32x128) (k0_off18 c 12#32 1#32) S1x32x128.size p
      = Rect.unit (s := S32x32x128) ![(slot (zc c) 3 3).val, 0, 0] S1x32x128.size (inbB (slot (zc c) 3 3)) :=
  Rect.unit_congr (off18_slot c 3 0) p _
theorem rect_off18_w12_2 (c : Dev nD) (p) :
    Rect.unit (s := S32x32x128) (k0_off18 c 12#32 2#32) S1x32x128.size p
      = Rect.unit (s := S32x32x128) ![(slot (zc c) 3 2).val, 0, 0] S1x32x128.size (inbB (slot (zc c) 3 2)) :=
  Rect.unit_congr (off18_slot c 3 1) p _
theorem rect_off18_w12_3 (c : Dev nD) (p) :
    Rect.unit (s := S32x32x128) (k0_off18 c 12#32 3#32) S1x32x128.size p
      = Rect.unit (s := S32x32x128) ![(slot (zc c) 3 1).val, 0, 0] S1x32x128.size (inbB (slot (zc c) 3 1)) :=
  Rect.unit_congr (off18_slot c 3 2) p _
theorem rect_off18_w16_1 (c : Dev nD) (p) :
    Rect.unit (s := S32x32x128) (k0_off18 c 16#32 1#32) S1x32x128.size p
      = Rect.unit (s := S32x32x128) ![(slot (zc c) 4 3).val, 0, 0] S1x32x128.size (inbB (slot (zc c) 4 3)) :=
  Rect.unit_congr (off18_slot c 4 0) p _
theorem rect_off18_w16_2 (c : Dev nD) (p) :
    Rect.unit (s := S32x32x128) (k0_off18 c 16#32 2#32) S1x32x128.size p
      = Rect.unit (s := S32x32x128) ![(slot (zc c) 4 2).val, 0, 0] S1x32x128.size (inbB (slot (zc c) 4 2)) :=
  Rect.unit_congr (off18_slot c 4 1) p _
theorem rect_off18_w16_3 (c : Dev nD) (p) :
    Rect.unit (s := S32x32x128) (k0_off18 c 16#32 3#32) S1x32x128.size p
      = Rect.unit (s := S32x32x128) ![(slot (zc c) 4 1).val, 0, 0] S1x32x128.size (inbB (slot (zc c) 4 1)) :=
  Rect.unit_congr (off18_slot c 4 2) p _
theorem rect_off18_w20_1 (c : Dev nD) (p) :
    Rect.unit (s := S32x32x128) (k0_off18 c 20#32 1#32) S1x32x128.size p
      = Rect.unit (s := S32x32x128) ![(slot (zc c) 5 3).val, 0, 0] S1x32x128.size (inbB (slot (zc c) 5 3)) :=
  Rect.unit_congr (off18_slot c 5 0) p _
theorem rect_off18_w20_2 (c : Dev nD) (p) :
    Rect.unit (s := S32x32x128) (k0_off18 c 20#32 2#32) S1x32x128.size p
      = Rect.unit (s := S32x32x128) ![(slot (zc c) 5 2).val, 0, 0] S1x32x128.size (inbB (slot (zc c) 5 2)) :=
  Rect.unit_congr (off18_slot c 5 1) p _
theorem rect_off18_w20_3 (c : Dev nD) (p) :
    Rect.unit (s := S32x32x128) (k0_off18 c 20#32 3#32) S1x32x128.size p
      = Rect.unit (s := S32x32x128) ![(slot (zc c) 5 1).val, 0, 0] S1x32x128.size (inbB (slot (zc c) 5 1)) :=
  Rect.unit_congr (off18_slot c 5 2) p _
theorem rect_off18_w24_1 (c : Dev nD) (p) :
    Rect.unit (s := S32x32x128) (k0_off18 c 24#32 1#32) S1x32x128.size p
      = Rect.unit (s := S32x32x128) ![(slot (zc c) 6 3).val, 0, 0] S1x32x128.size (inbB (slot (zc c) 6 3)) :=
  Rect.unit_congr (off18_slot c 6 0) p _
theorem rect_off18_w24_2 (c : Dev nD) (p) :
    Rect.unit (s := S32x32x128) (k0_off18 c 24#32 2#32) S1x32x128.size p
      = Rect.unit (s := S32x32x128) ![(slot (zc c) 6 2).val, 0, 0] S1x32x128.size (inbB (slot (zc c) 6 2)) :=
  Rect.unit_congr (off18_slot c 6 1) p _
theorem rect_off18_w24_3 (c : Dev nD) (p) :
    Rect.unit (s := S32x32x128) (k0_off18 c 24#32 3#32) S1x32x128.size p
      = Rect.unit (s := S32x32x128) ![(slot (zc c) 6 1).val, 0, 0] S1x32x128.size (inbB (slot (zc c) 6 1)) :=
  Rect.unit_congr (off18_slot c 6 2) p _
theorem rect_off18_w28_1 (c : Dev nD) (p) :
    Rect.unit (s := S32x32x128) (k0_off18 c 28#32 1#32) S1x32x128.size p
      = Rect.unit (s := S32x32x128) ![(slot (zc c) 7 3).val, 0, 0] S1x32x128.size (inbB (slot (zc c) 7 3)) :=
  Rect.unit_congr (off18_slot c 7 0) p _
theorem rect_off18_w28_2 (c : Dev nD) (p) :
    Rect.unit (s := S32x32x128) (k0_off18 c 28#32 2#32) S1x32x128.size p
      = Rect.unit (s := S32x32x128) ![(slot (zc c) 7 2).val, 0, 0] S1x32x128.size (inbB (slot (zc c) 7 2)) :=
  Rect.unit_congr (off18_slot c 7 1) p _
theorem rect_off18_w28_3 (c : Dev nD) (p) :
    Rect.unit (s := S32x32x128) (k0_off18 c 28#32 3#32) S1x32x128.size p
      = Rect.unit (s := S32x32x128) ![(slot (zc c) 7 1).val, 0, 0] S1x32x128.size (inbB (slot (zc c) 7 1)) :=
  Rect.unit_congr (off18_slot c 7 2) p _

/-! ## The six semaphore arrays inside the kernel's own semaphores

The arrays lie one after another in the pool, from DMA semaphore 3 on. -/

theorem osem_a1s (q : Fin 8) :
    (SemLoc.dma (sem8 cc0_scratch9 q) : SemLoc sig) = LaunchSems.osem ⟨0 + q.val, by have := q.isLt; omega⟩ := by
  apply congrArg SemLoc.dma; apply Fin.ext; rw [sem8_a1s]; show _ = 3 + (0 + q.val); omega

theorem osem_a1r (q : Fin 8) :
    (SemLoc.dma (sem8 cc0_scratch10 q) : SemLoc sig) = LaunchSems.osem ⟨8 + q.val, by have := q.isLt; omega⟩ := by
  apply congrArg SemLoc.dma; apply Fin.ext; rw [sem8_a1r]; show _ = 3 + (8 + q.val); omega

theorem osem_a2s (i : Fin 32) :
    (SemLoc.dma (sem32 cc0_scratch11 i) : SemLoc sig) = LaunchSems.osem ⟨16 + i.val, by have := i.isLt; omega⟩ := by
  apply congrArg SemLoc.dma; apply Fin.ext; rw [sem32_a2s]; show _ = 3 + (16 + i.val); omega

theorem osem_a2r (i : Fin 32) :
    (SemLoc.dma (sem32 cc0_scratch12 i) : SemLoc sig) = LaunchSems.osem ⟨48 + i.val, by have := i.isLt; omega⟩ := by
  apply congrArg SemLoc.dma; apply Fin.ext; rw [sem32_a2r]; show _ = 3 + (48 + i.val); omega

theorem osem_bs (i : Fin 32) :
    (SemLoc.dma (sem32 cc0_scratch13 i) : SemLoc sig) = LaunchSems.osem ⟨80 + i.val, by have := i.isLt; omega⟩ := by
  apply congrArg SemLoc.dma; apply Fin.ext; rw [sem32_bs]; show _ = 3 + (80 + i.val); omega

theorem osem_br (i : Fin 32) :
    (SemLoc.dma (sem32 cc0_scratch14 i) : SemLoc sig) = LaunchSems.osem ⟨112 + i.val, by have := i.isLt; omega⟩ := by
  apply congrArg SemLoc.dma; apply Fin.ext; rw [sem32_br]; show _ = 3 + (112 + i.val); omega

/-! ## The slice equations as canonical names

Opening this namespace registers the equations of the semaphore slices and of the buffer slots as canonical
names, so that the program's spellings are rewritten to the slot numbers. -/

namespace Tagged

attribute [scoped sl_canon] semSlice_off3_w0_1 semSlice_off3_w0_2 semSlice_off3_w0_3 semSlice_off3_w4_1 semSlice_off3_w4_2 semSlice_off3_w4_3
attribute [scoped sl_canon] semSlice_off3_w8_1 semSlice_off3_w8_2 semSlice_off3_w8_3 semSlice_off3_w12_1 semSlice_off3_w12_2 semSlice_off3_w12_3
attribute [scoped sl_canon] semSlice_off3_w16_1 semSlice_off3_w16_2 semSlice_off3_w16_3 semSlice_off3_w20_1 semSlice_off3_w20_2 semSlice_off3_w20_3
attribute [scoped sl_canon] semSlice_off3_w24_1 semSlice_off3_w24_2 semSlice_off3_w24_3 semSlice_off3_w28_1 semSlice_off3_w28_2 semSlice_off3_w28_3
attribute [scoped sl_canon] semSlice_off4_w0 semSlice_off4_w4 semSlice_off4_w8 semSlice_off4_w12 semSlice_off4_w16 semSlice_off4_w20
attribute [scoped sl_canon] semSlice_off4_w24 semSlice_off4_w28 slice_off5_w0 slice_off5_w4 slice_off5_w8 slice_off5_w12
attribute [scoped sl_canon] slice_off5_w16 slice_off5_w20 slice_off5_w24 slice_off5_w28 slice_off6_w0_1 slice_off6_w0_2
attribute [scoped sl_canon] slice_off6_w0_3 slice_off6_w4_1 slice_off6_w4_2 slice_off6_w4_3 slice_off6_w8_1 slice_off6_w8_2
attribute [scoped sl_canon] slice_off6_w8_3 slice_off6_w12_1 slice_off6_w12_2 slice_off6_w12_3 slice_off6_w16_1 slice_off6_w16_2
attribute [scoped sl_canon] slice_off6_w16_3 slice_off6_w20_1 slice_off6_w20_2 slice_off6_w20_3 slice_off6_w24_1 slice_off6_w24_2
attribute [scoped sl_canon] slice_off6_w24_3 slice_off6_w28_1 slice_off6_w28_2 slice_off6_w28_3 semSlice_off8_w0_1 semSlice_off8_w0_2
attribute [scoped sl_canon] semSlice_off8_w0_3 semSlice_off8_w4_1 semSlice_off8_w4_2 semSlice_off8_w4_3 semSlice_off8_w8_1 semSlice_off8_w8_2
attribute [scoped sl_canon] semSlice_off8_w8_3 semSlice_off8_w12_1 semSlice_off8_w12_2 semSlice_off8_w12_3 semSlice_off8_w16_1 semSlice_off8_w16_2
attribute [scoped sl_canon] semSlice_off8_w16_3 semSlice_off8_w20_1 semSlice_off8_w20_2 semSlice_off8_w20_3 semSlice_off8_w24_1 semSlice_off8_w24_2
attribute [scoped sl_canon] semSlice_off8_w24_3 semSlice_off8_w28_1 semSlice_off8_w28_2 semSlice_off8_w28_3 slice_off9_w0_1 slice_off9_w0_2
attribute [scoped sl_canon] slice_off9_w0_3 slice_off9_w4_1 slice_off9_w4_2 slice_off9_w4_3 slice_off9_w8_1 slice_off9_w8_2
attribute [scoped sl_canon] slice_off9_w8_3 slice_off9_w12_1 slice_off9_w12_2 slice_off9_w12_3 slice_off9_w16_1 slice_off9_w16_2
attribute [scoped sl_canon] slice_off9_w16_3 slice_off9_w20_1 slice_off9_w20_2 slice_off9_w20_3 slice_off9_w24_1 slice_off9_w24_2
attribute [scoped sl_canon] slice_off9_w24_3 slice_off9_w28_1 slice_off9_w28_2 slice_off9_w28_3 semSlice_off11_w0_1 semSlice_off11_w0_2
attribute [scoped sl_canon] semSlice_off11_w0_3 semSlice_off11_w4_1 semSlice_off11_w4_2 semSlice_off11_w4_3 semSlice_off11_w8_1 semSlice_off11_w8_2
attribute [scoped sl_canon] semSlice_off11_w8_3 semSlice_off11_w12_1 semSlice_off11_w12_2 semSlice_off11_w12_3 semSlice_off11_w16_1 semSlice_off11_w16_2
attribute [scoped sl_canon] semSlice_off11_w16_3 semSlice_off11_w20_1 semSlice_off11_w20_2 semSlice_off11_w20_3 semSlice_off11_w24_1 semSlice_off11_w24_2
attribute [scoped sl_canon] semSlice_off11_w24_3 semSlice_off11_w28_1 semSlice_off11_w28_2 semSlice_off11_w28_3 semSlice_off12_w0 semSlice_off12_w4
attribute [scoped sl_canon] semSlice_off12_w8 semSlice_off12_w12 semSlice_off12_w16 semSlice_off12_w20 semSlice_off12_w24 semSlice_off12_w28
attribute [scoped sl_canon] slice_off13_w0 slice_off13_w4 slice_off13_w8 slice_off13_w12 slice_off13_w16 slice_off13_w20
attribute [scoped sl_canon] slice_off13_w24 slice_off13_w28 slice_off14_w0_1 slice_off14_w0_2 slice_off14_w0_3 slice_off14_w4_1
attribute [scoped sl_canon] slice_off14_w4_2 slice_off14_w4_3 slice_off14_w8_1 slice_off14_w8_2 slice_off14_w8_3 slice_off14_w12_1
attribute [scoped sl_canon] slice_off14_w12_2 slice_off14_w12_3 slice_off14_w16_1 slice_off14_w16_2 slice_off14_w16_3 slice_off14_w20_1
attribute [scoped sl_canon] slice_off14_w20_2 slice_off14_w20_3 slice_off14_w24_1 slice_off14_w24_2 slice_off14_w24_3 slice_off14_w28_1
attribute [scoped sl_canon] slice_off14_w28_2 slice_off14_w28_3 semSlice_off16_w0_1 semSlice_off16_w0_2 semSlice_off16_w0_3 semSlice_off16_w4_1
attribute [scoped sl_canon] semSlice_off16_w4_2 semSlice_off16_w4_3 semSlice_off16_w8_1 semSlice_off16_w8_2 semSlice_off16_w8_3 semSlice_off16_w12_1
attribute [scoped sl_canon] semSlice_off16_w12_2 semSlice_off16_w12_3 semSlice_off16_w16_1 semSlice_off16_w16_2 semSlice_off16_w16_3 semSlice_off16_w20_1
attribute [scoped sl_canon] semSlice_off16_w20_2 semSlice_off16_w20_3 semSlice_off16_w24_1 semSlice_off16_w24_2 semSlice_off16_w24_3 semSlice_off16_w28_1
attribute [scoped sl_canon] semSlice_off16_w28_2 semSlice_off16_w28_3 slice_off17_w0_1 slice_off17_w0_2 slice_off17_w0_3 slice_off17_w4_1
attribute [scoped sl_canon] slice_off17_w4_2 slice_off17_w4_3 slice_off17_w8_1 slice_off17_w8_2 slice_off17_w8_3 slice_off17_w12_1
attribute [scoped sl_canon] slice_off17_w12_2 slice_off17_w12_3 slice_off17_w16_1 slice_off17_w16_2 slice_off17_w16_3 slice_off17_w20_1
attribute [scoped sl_canon] slice_off17_w20_2 slice_off17_w20_3 slice_off17_w24_1 slice_off17_w24_2 slice_off17_w24_3 slice_off17_w28_1
attribute [scoped sl_canon] slice_off17_w28_2 slice_off17_w28_3

end Tagged

end Cert.KernelIdeal.Canon

end
-- ==== Proof.ClosedOffs.lean ====
/-
  The offsets of the loads whose row depends on the device, in closed form: the row of the slot that the
  device's row or plane coordinate names, on the other axes zero.
-/
import proofs.«900893_g7700000000000894_dist_matmul_mk_i_outk_m1024_n1024_k512_v7x_i32_f32_1_alg».proof.Proof.Canon

namespace Cert.KernelIdeal.ClosedOffs

open Cert.KernelIdeal Cert.KernelIdeal.Gen
open Cert.Mesh (zc yc slot)
open Idealize.ShloMosaic Idealize.ShloMosaic.Tactic

/-! ### Offset function 7 -/

instance closedOff7_w0 (c : Dev nD) : ClosedOff (k0_off7 c 0#32) :=
  ⟨![(slot (yc c) 0 0).val, 0, 0, 0], Canon.off7_slot c 0⟩
instance closedOff7_w4 (c : Dev nD) : ClosedOff (k0_off7 c 4#32) :=
  ⟨![(slot (yc c) 1 0).val, 0, 0, 0], Canon.off7_slot c 1⟩
instance closedOff7_w8 (c : Dev nD) : ClosedOff (k0_off7 c 8#32) :=
  ⟨![(slot (yc c) 2 0).val, 0, 0, 0], Canon.off7_slot c 2⟩
instance closedOff7_w12 (c : Dev nD) : ClosedOff (k0_off7 c 12#32) :=
  ⟨![(slot (yc c) 3 0).val, 0, 0, 0], Canon.off7_slot c 3⟩
instance closedOff7_w16 (c : Dev nD) : ClosedOff (k0_off7 c 16#32) :=
  ⟨![(slot (yc c) 4 0).val, 0, 0, 0], Canon.off7_slot c 4⟩
instance closedOff7_w20 (c : Dev nD) : ClosedOff (k0_off7 c 20#32) :=
  ⟨![(slot (yc c) 5 0).val, 0, 0, 0], Canon.off7_slot c 5⟩
instance closedOff7_w24 (c : Dev nD) : ClosedOff (k0_off7 c 24#32) :=
  ⟨![(slot (yc c) 6 0).val, 0, 0, 0], Canon.off7_slot c 6⟩
instance closedOff7_w28 (c : Dev nD) : ClosedOff (k0_off7 c 28#32) :=
  ⟨![(slot (yc c) 7 0).val, 0, 0, 0], Canon.off7_slot c 7⟩

/-! ### Offset function 10 -/

instance closedOff10_w0_1 (c : Dev nD) : ClosedOff (k0_off10 c 0#32 1#32) :=
  ⟨![(slot (yc c) 0 3).val, 0, 0, 0], Canon.off10_slot c 0 0⟩
instance closedOff10_w0_2 (c : Dev nD) : ClosedOff (k0_off10 c 0#32 2#32) :=
  ⟨![(slot (yc c) 0 2).val, 0, 0, 0], Canon.off10_slot c 0 1⟩
instance closedOff10_w0_3 (c : Dev nD) : ClosedOff (k0_off10 c 0#32 3#32) :=
  ⟨![(slot (yc c) 0 1).val, 0, 0, 0], Canon.off10_slot c 0 2⟩
instance closedOff10_w4_1 (c : Dev nD) : ClosedOff (k0_off10 c 4#32 1#32) :=
  ⟨![(slot (yc c) 1 3).val, 0, 0, 0], Canon.off10_slot c 1 0⟩
instance closedOff10_w4_2 (c : Dev nD) : ClosedOff (k0_off10 c 4#32 2#32) :=
  ⟨![(slot (yc c) 1 2).val, 0, 0, 0], Canon.off10_slot c 1 1⟩
instance closedOff10_w4_3 (c : Dev nD) : ClosedOff (k0_off10 c 4#32 3#32) :=
  ⟨![(slot (yc c) 1 1).val, 0, 0, 0], Canon.off10_slot c 1 2⟩
instance closedOff10_w8_1 (c : Dev nD) : ClosedOff (k0_off10 c 8#32 1#32) :=
  ⟨![(slot (yc c) 2 3).val, 0, 0, 0], Canon.off10_slot c 2 0⟩
instance closedOff10_w8_2 (c : Dev nD) : ClosedOff (k0_off10 c 8#32 2#32) :=
  ⟨![(slot (yc c) 2 2).val, 0, 0, 0], Canon.off10_slot c 2 1⟩
instance closedOff10_w8_3 (c : Dev nD) : ClosedOff (k0_off10 c 8#32 3#32) :=
  ⟨![(slot (yc c) 2 1).val, 0, 0, 0], Canon.off10_slot c 2 2⟩
instance closedOff10_w12_1 (c : Dev nD) : ClosedOff (k0_off10 c 12#32 1#32) :=
  ⟨![(slot (yc c) 3 3).val, 0, 0, 0], Canon.off10_slot c 3 0⟩
instance closedOff10_w12_2 (c : Dev nD) : ClosedOff (k0_off10 c 12#32 2#32) :=
  ⟨![(slot (yc c) 3 2).val, 0, 0, 0], Canon.off10_slot c 3 1⟩
instance closedOff10_w12_3 (c : Dev nD) : ClosedOff (k0_off10 c 12#32 3#32) :=
  ⟨![(slot (yc c) 3 1).val, 0, 0, 0], Canon.off10_slot c 3 2⟩
instance closedOff10_w16_1 (c : Dev nD) : ClosedOff (k0_off10 c 16#32 1#32) :=
  ⟨![(slot (yc c) 4 3).val, 0, 0, 0], Canon.off10_slot c 4 0⟩
instance closedOff10_w16_2 (c : Dev nD) : ClosedOff (k0_off10 c 16#32 2#32) :=
  ⟨![(slot (yc c) 4 2).val, 0, 0, 0], Canon.off10_slot c 4 1⟩
instance closedOff10_w16_3 (c : Dev nD) : ClosedOff (k0_off10 c 16#32 3#32) :=
  ⟨![(slot (yc c) 4 1).val, 0, 0, 0], Canon.off10_slot c 4 2⟩
instance closedOff10_w20_1 (c : Dev nD) : ClosedOff (k0_off10 c 20#32 1#32) :=
  ⟨![(slot (yc c) 5 3).val, 0, 0, 0], Canon.off10_slot c 5 0⟩
instance closedOff10_w20_2 (c : Dev nD) : ClosedOff (k0_off10 c 20#32 2#32) :=
  ⟨![(slot (yc c) 5 2).val, 0, 0, 0], Canon.off10_slot c 5 1⟩
instance closedOff10_w20_3 (c : Dev nD) : ClosedOff (k0_off10 c 20#32 3#32) :=
  ⟨![(slot (yc c) 5 1).val, 0, 0, 0], Canon.off10_slot c 5 2⟩
instance closedOff10_w24_1 (c : Dev nD) : ClosedOff (k0_off10 c 24#32 1#32) :=
  ⟨![(slot (yc c) 6 3).val, 0, 0, 0], Canon.off10_slot c 6 0⟩
instance closedOff10_w24_2 (c : Dev nD) : ClosedOff (k0_off10 c 24#32 2#32) :=
  ⟨![(slot (yc c) 6 2).val, 0, 0, 0], Canon.off10_slot c 6 1⟩
instance closedOff10_w24_3 (c : Dev nD) : ClosedOff (k0_off10 c 24#32 3#32) :=
  ⟨![(slot (yc c) 6 1).val, 0, 0, 0], Canon.off10_slot c 6 2⟩
instance closedOff10_w28_1 (c : Dev nD) : ClosedOff (k0_off10 c 28#32 1#32) :=
  ⟨![(slot (yc c) 7 3).val, 0, 0, 0], Canon.off10_slot c 7 0⟩
instance closedOff10_w28_2 (c : Dev nD) : ClosedOff (k0_off10 c 28#32 2#32) :=
  ⟨![(slot (yc c) 7 2).val, 0, 0, 0], Canon.off10_slot c 7 1⟩
instance closedOff10_w28_3 (c : Dev nD) : ClosedOff (k0_off10 c 28#32 3#32) :=
  ⟨![(slot (yc c) 7 1).val, 0, 0, 0], Canon.off10_slot c 7 2⟩

/-! ### Offset function 15 -/

instance closedOff15_w0 (c : Dev nD) : ClosedOff (k0_off15 c 0#32) :=
  ⟨![(slot (zc c) 0 0).val, 0, 0], Canon.off15_slot c 0⟩
instance closedOff15_w4 (c : Dev nD) : ClosedOff (k0_off15 c 4#32) :=
  ⟨![(slot (zc c) 1 0).val, 0, 0], Canon.off15_slot c 1⟩
instance closedOff15_w8 (c : Dev nD) : ClosedOff (k0_off15 c 8#32) :=
  ⟨![(slot (zc c) 2 0).val, 0, 0], Canon.off15_slot c 2⟩
instance closedOff15_w12 (c : Dev nD) : ClosedOff (k0_off15 c 12#32) :=
  ⟨![(slot (zc c) 3 0).val, 0, 0], Canon.off15_slot c 3⟩
instance closedOff15_w16 (c : Dev nD) : ClosedOff (k0_off15 c 16#32) :=
  ⟨![(slot (zc c) 4 0).val, 0, 0], Canon.off15_slot c 4⟩
instance closedOff15_w20 (c : Dev nD) : ClosedOff (k0_off15 c 20#32) :=
  ⟨![(slot (zc c) 5 0).val, 0, 0], Canon.off15_slot c 5⟩
instance closedOff15_w24 (c : Dev nD) : ClosedOff (k0_off15 c 24#32) :=
  ⟨![(slot (zc c) 6 0).val, 0, 0], Canon.off15_slot c 6⟩
instance closedOff15_w28 (c : Dev nD) : ClosedOff (k0_off15 c 28#32) :=
  ⟨![(slot (zc c) 7 0).val, 0, 0], Canon.off15_slot c 7⟩

/-! ### Offset function 18 -/

instance closedOff18_w0_1 (c : Dev nD) : ClosedOff (k0_off18 c 0#32 1#32) :=
  ⟨![(slot (zc c) 0 3).val, 0, 0], Canon.off18_slot c 0 0⟩
instance closedOff18_w0_2 (c : Dev nD) : ClosedOff (k0_off18 c 0#32 2#32) :=
  ⟨![(slot (zc c) 0 2).val, 0, 0], Canon.off18_slot c 0 1⟩
instance closedOff18_w0_3 (c : Dev nD) : ClosedOff (k0_off18 c 0#32 3#32) :=
  ⟨![(slot (zc c) 0 1).val, 0, 0], Canon.off18_slot c 0 2⟩
instance closedOff18_w4_1 (c : Dev nD) : ClosedOff (k0_off18 c 4#32 1#32) :=
  ⟨![(slot (zc c) 1 3).val, 0, 0], Canon.off18_slot c 1 0⟩
instance closedOff18_w4_2 (c : Dev nD) : ClosedOff (k0_off18 c 4#32 2#32) :=
  ⟨![(slot (zc c) 1 2).val, 0, 0], Canon.off18_slot c 1 1⟩
instance closedOff18_w4_3 (c : Dev nD) : ClosedOff (k0_off18 c 4#32 3#32) :=
  ⟨![(slot (zc c) 1 1).val, 0, 0], Canon.off18_slot c 1 2⟩
instance closedOff18_w8_1 (c : Dev nD) : ClosedOff (k0_off18 c 8#32 1#32) :=
  ⟨![(slot (zc c) 2 3).val, 0, 0], Canon.off18_slot c 2 0⟩
instance closedOff18_w8_2 (c : Dev nD) : ClosedOff (k0_off18 c 8#32 2#32) :=
  ⟨![(slot (zc c) 2 2).val, 0, 0], Canon.off18_slot c 2 1⟩
instance closedOff18_w8_3 (c : Dev nD) : ClosedOff (k0_off18 c 8#32 3#32) :=
  ⟨![(slot (zc c) 2 1).val, 0, 0], Canon.off18_slot c 2 2⟩
instance closedOff18_w12_1 (c : Dev nD) : ClosedOff (k0_off18 c 12#32 1#32) :=
  ⟨![(slot (zc c) 3 3).val, 0, 0], Canon.off18_slot c 3 0⟩
instance closedOff18_w12_2 (c : Dev nD) : ClosedOff (k0_off18 c 12#32 2#32) :=
  ⟨![(slot (zc c) 3 2).val, 0, 0], Canon.off18_slot c 3 1⟩
instance closedOff18_w12_3 (c : Dev nD) : ClosedOff (k0_off18 c 12#32 3#32) :=
  ⟨![(slot (zc c) 3 1).val, 0, 0], Canon.off18_slot c 3 2⟩
instance closedOff18_w16_1 (c : Dev nD) : ClosedOff (k0_off18 c 16#32 1#32) :=
  ⟨![(slot (zc c) 4 3).val, 0, 0], Canon.off18_slot c 4 0⟩
instance closedOff18_w16_2 (c : Dev nD) : ClosedOff (k0_off18 c 16#32 2#32) :=
  ⟨![(slot (zc c) 4 2).val, 0, 0], Canon.off18_slot c 4 1⟩
instance closedOff18_w16_3 (c : Dev nD) : ClosedOff (k0_off18 c 16#32 3#32) :=
  ⟨![(slot (zc c) 4 1).val, 0, 0], Canon.off18_slot c 4 2⟩
instance closedOff18_w20_1 (c : Dev nD) : ClosedOff (k0_off18 c 20#32 1#32) :=
  ⟨![(slot (zc c) 5 3).val, 0, 0], Canon.off18_slot c 5 0⟩
instance closedOff18_w20_2 (c : Dev nD) : ClosedOff (k0_off18 c 20#32 2#32) :=
  ⟨![(slot (zc c) 5 2).val, 0, 0], Canon.off18_slot c 5 1⟩
instance closedOff18_w20_3 (c : Dev nD) : ClosedOff (k0_off18 c 20#32 3#32) :=
  ⟨![(slot (zc c) 5 1).val, 0, 0], Canon.off18_slot c 5 2⟩
instance closedOff18_w24_1 (c : Dev nD) : ClosedOff (k0_off18 c 24#32 1#32) :=
  ⟨![(slot (zc c) 6 3).val, 0, 0], Canon.off18_slot c 6 0⟩
instance closedOff18_w24_2 (c : Dev nD) : ClosedOff (k0_off18 c 24#32 2#32) :=
  ⟨![(slot (zc c) 6 2).val, 0, 0], Canon.off18_slot c 6 1⟩
instance closedOff18_w24_3 (c : Dev nD) : ClosedOff (k0_off18 c 24#32 3#32) :=
  ⟨![(slot (zc c) 6 1).val, 0, 0], Canon.off18_slot c 6 2⟩
instance closedOff18_w28_1 (c : Dev nD) : ClosedOff (k0_off18 c 28#32 1#32) :=
  ⟨![(slot (zc c) 7 3).val, 0, 0], Canon.off18_slot c 7 0⟩
instance closedOff18_w28_2 (c : Dev nD) : ClosedOff (k0_off18 c 28#32 2#32) :=
  ⟨![(slot (zc c) 7 2).val, 0, 0], Canon.off18_slot c 7 1⟩
instance closedOff18_w28_3 (c : Dev nD) : ClosedOff (k0_off18 c 28#32 3#32) :=
  ⟨![(slot (zc c) 7 1).val, 0, 0], Canon.off18_slot c 7 2⟩

end Cert.KernelIdeal.ClosedOffs
-- ==== Proof.BodyClose.lean ====
/-
  The end of a device's body: each of its 144 own DMA cells is closed, so that the semaphores return to the
  launch at zero. A cell that had its one duty stands past it, at round 1; the cells of a device's own slots
  (advance 0) never had a duty and stand at round 0. In either case no duty remains from the position on,
  so the owner closes the cell and keeps its counter, which reads zero.
-/
import proofs.«900893_g7700000000000894_dist_matmul_mk_i_outk_m1024_n1024_k512_v7x_i32_f32_1_alg».proof.Proof.Proto
import proofs.«900893_g7700000000000894_dist_matmul_mk_i_outk_m1024_n1024_k512_v7x_i32_f32_1_alg».proof.Proof.SlotIdx
import proofs.«900893_g7700000000000894_dist_matmul_mk_i_outk_m1024_n1024_k512_v7x_i32_f32_1_alg».proof.Proof.Ghost
import proofs.«900893_g7700000000000894_dist_matmul_mk_i_outk_m1024_n1024_k512_v7x_i32_f32_1_alg».proof.Proof.SlotGeom
import proofs.«900893_g7700000000000894_dist_matmul_mk_i_outk_m1024_n1024_k512_v7x_i32_f32_1_alg».proof.Proof.LaunchSems
import proofs.«900893_g7700000000000894_dist_matmul_mk_i_outk_m1024_n1024_k512_v7x_i32_f32_1_alg».proof.Proof.Canon
import Idealize.ShloMosaic.Lib.Rounds

noncomputable section

namespace Cert.KernelIdeal.BodyClose

open Cert.KernelIdeal Cert.KernelIdeal.Gen Cert.KernelIdeal.Proto Cert.KernelIdeal.Ghost
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the eight chunks -/

theorem eight_sep (Φ Ψ : Fin 8 → sProp 𝕄) : eight (fun q => iprop(Φ q ∗ Ψ q)) = iprop(eight Φ ∗ eight Ψ) := by
  rw [SlotGeom.eight_eq, SlotGeom.eight_eq, SlotGeom.eight_eq]; exact bigSep_sep _ _ _

theorem eight_mono {Φ Ψ : Fin 8 → sProp 𝕄} (h : ∀ q, Φ q ⊢ Ψ q) : eight Φ ⊢ eight Ψ := by
  rw [SlotGeom.eight_eq, SlotGeom.eight_eq]; exact bigSep_mono fun q _ => h q

theorem eight_fupd (Φ : Fin 8 → sProp 𝕄) :
    eight (fun q => iprop(|={Set.univ}=> Φ q)) ⊢ (iprop(|={Set.univ}=> eight Φ) : sProp 𝕄) := by
  rw [SlotGeom.eight_eq, SlotGeom.eight_eq]; exact bigSep_fupd _ _

/-! ## Closing cells -/

/-- Two cells closed at once. -/
theorem close_pair (Rd : Schedule (GSem nD τ sig) D (MT nD τ sig Unit (Elt F) ℕ UU ℕ)) (K : GSem nD τ sig → ℕ)
    (hunit : ∀ g, ¬ Rd.unitless g) (g₁ g₂ : GSem nD τ sig) (R₁ R₂ : ℕ)
    (h₁ : ∀ r, R₁ ≤ r → Rd.duties g₁ r = ∅) (h₂ : ∀ r, R₂ ≤ r → Rd.duties g₂ r = ∅) :
    iprop((cinv Rd K g₁ ∗ cinv Rd K g₂) ∗ (atPos ER g₁ R₁ ∅ 0 ∗ atPos ER g₂ R₂ ∅ 0))
      ⊢ (iprop(|={Set.univ}=> (semVal g₁ 0 ∗ semVal g₂ 0)) : sProp 𝕄) := by
  iintro ⟨⟨I1, I2⟩, ⟨P1, P2⟩⟩
  imod (Rounds.cell_close ER Rd (Set.mem_univ _) (hunit g₁) h₁) $$ [I1 P1] with S1
  · isplitl [I1] <;> iassumption
  imod (Rounds.cell_close ER Rd (Set.mem_univ _) (hunit g₂) h₂) $$ [I2 P2] with S2
  · isplitl [I2] <;> iassumption
  imodintro
  isplitl [S1] <;> iassumption

/-- The four pairs of one chunk: the pair at advance 0 stands at round 0, the others at round 1. -/
theorem close_four (Rd : Schedule (GSem nD τ sig) D (MT nD τ sig Unit (Elt F) ℕ UU ℕ)) (K : GSem nD τ sig → ℕ)
    (hunit : ∀ g, ¬ Rd.unitless g) (hlater : ∀ g r, 1 ≤ r → Rd.duties g r = ∅) (gs gr : ℕ → GSem nD τ sig)
    (h0s : ∀ r, Rd.duties (gs 0) r = ∅) (h0r : ∀ r, Rd.duties (gr 0) r = ∅) :
    iprop(four (fun s => iprop(cinv Rd K (gs s) ∗ cinv Rd K (gr s)))
        ∗ (iprop(atPos ER (gs 0) 0 ∅ 0 ∗ atPos ER (gr 0) 0 ∅ 0) ∗ iprop(atPos ER (gs 1) 1 ∅ 0 ∗ atPos ER (gr 1) 1 ∅ 0)
          ∗ iprop(atPos ER (gs 2) 1 ∅ 0 ∗ atPos ER (gr 2) 1 ∅ 0) ∗ iprop(atPos ER (gs 3) 1 ∅ 0 ∗ atPos ER (gr 3) 1 ∅ 0)))
      ⊢ (iprop(|={Set.univ}=> four (fun s => iprop(semVal (gs s) 0 ∗ semVal (gr s) 0))) : sProp 𝕄) := by
  unfold four
  iintro ⟨⟨I0, I1, I2, I3⟩, ⟨P0, P1, P2, P3⟩⟩
  imod (close_pair Rd K hunit (gs 0) (gr 0) 0 0 (fun r _ => h0s r) (fun r _ => h0r r)) $$ [I0 P0] with S0
  · isplitl [I0] <;> iassumption
  imod (close_pair Rd K hunit (gs 1) (gr 1) 1 1 (fun r hr => hlater _ r hr) (fun r hr => hlater _ r hr)) $$ [I1 P1] with S1
  · isplitl [I1] <;> iassumption
  imod (close_pair Rd K hunit (gs 2) (gr 2) 1 1 (fun r hr => hlater _ r hr) (fun r hr => hlater _ r hr)) $$ [I2 P2] with S2
  · isplitl [I2] <;> iassumption
  imod (close_pair Rd K hunit (gs 3) (gr 3) 1 1 (fun r hr => hlater _ r hr) (fun r hr => hlater _ r hr)) $$ [I3 P3] with S3
  · isplitl [I3] <;> iassumption
  imodintro
  isplitl [S0]; · iexact S0
  isplitl [S1]; · iexact S1
  isplitl [S2] <;> iassumption

/-! ## The positions at the end of the body -/

/-- The device's position at each of its 144 own DMA cells when its body ends: past the one duty (round 1)
    at the cells that had one, at round 0 at the cells of its own slots, which never had one. -/
def positionsEnd (c : Dev nD) : sProp 𝕄 :=
  iprop(eight (fun q => iprop(atPos ER (a1sCell c q) 1 ∅ 0 ∗ atPos ER (a1rCell c q) 1 ∅ 0))
    ∗ eight (fun q => iprop(iprop(atPos ER (a2sCell c (slot (yc c) q 0)) 0 ∅ 0 ∗ atPos ER (a2rCell c (slot (yc c) q 0)) 0 ∅ 0)
        ∗ iprop(atPos ER (a2sCell c (slot (yc c) q 1)) 1 ∅ 0 ∗ atPos ER (a2rCell c (slot (yc c) q 1)) 1 ∅ 0)
        ∗ iprop(atPos ER (a2sCell c (slot (yc c) q 2)) 1 ∅ 0 ∗ atPos ER (a2rCell c (slot (yc c) q 2)) 1 ∅ 0)
        ∗ iprop(atPos ER (a2sCell c (slot (yc c) q 3)) 1 ∅ 0 ∗ atPos ER (a2rCell c (slot (yc c) q 3)) 1 ∅ 0)))
    ∗ eight (fun q => iprop(iprop(atPos ER (bsCell c (slot (zc c) q 0)) 0 ∅ 0 ∗ atPos ER (brCell c (slot (zc c) q 0)) 0 ∅ 0)
        ∗ iprop(atPos ER (bsCell c (slot (zc c) q 1)) 1 ∅ 0 ∗ atPos ER (brCell c (slot (zc c) q 1)) 1 ∅ 0)
        ∗ iprop(atPos ER (bsCell c (slot (zc c) q 2)) 1 ∅ 0 ∗ atPos ER (brCell c (slot (zc c) q 2)) 1 ∅ 0)
        ∗ iprop(atPos ER (bsCell c (slot (zc c) q 3)) 1 ∅ 0 ∗ atPos ER (brCell c (slot (zc c) q 3)) 1 ∅ 0))))

/-- The 144 own semaphores at zero, in the shape of the positions. -/
def semsEnd (c : Dev nD) : sProp 𝕄 :=
  iprop(eight (fun q => iprop(semVal (a1sCell c q) 0 ∗ semVal (a1rCell c q) 0))
    ∗ eight (fun q => four fun s => iprop(semVal (a2sCell c (slot (yc c) q s)) 0 ∗ semVal (a2rCell c (slot (yc c) q s)) 0))
    ∗ eight (fun q => four fun s => iprop(semVal (bsCell c (slot (zc c) q s)) 0 ∗ semVal (brCell c (slot (zc c) q s)) 0)))

/-- Every own DMA cell closed, pool by pool. -/
theorem close_pools (Rd : Schedule (GSem nD τ sig) D (MT nD τ sig Unit (Elt F) ℕ UU ℕ)) (K : GSem nD τ sig → ℕ)
    (hunit : ∀ g, ¬ Rd.unitless g) (hlater : ∀ g r, 1 ≤ r → Rd.duties g r = ∅)
    (hown_a2s : ∀ c q r, Rd.duties (a2sCell c (slot (yc c) q 0)) r = ∅)
    (hown_a2r : ∀ c q r, Rd.duties (a2rCell c (slot (yc c) q 0)) r = ∅)
    (hown_bs : ∀ c q r, Rd.duties (bsCell c (slot (zc c) q 0)) r = ∅)
    (hown_br : ∀ c q r, Rd.duties (brCell c (slot (zc c) q 0)) r = ∅) (c : Dev nD) :
    iprop(ownInvs Rd K c ∗ positionsEnd c) ⊢ (iprop(|={Set.univ}=> semsEnd c) : sProp 𝕄) := by
  have s1 : iprop(eight (fun q => iprop(cinv Rd K (a1sCell c q) ∗ cinv Rd K (a1rCell c q)))
        ∗ eight (fun q => iprop(atPos ER (a1sCell c q) 1 ∅ 0 ∗ atPos ER (a1rCell c q) 1 ∅ 0)))
      ⊢ (iprop(|={Set.univ}=> eight (fun q => iprop(semVal (a1sCell c q) 0 ∗ semVal (a1rCell c q) 0))) : sProp 𝕄) := by
    rw [← eight_sep]
    exact (eight_mono fun q => close_pair Rd K hunit _ _ 1 1 (fun r hr => hlater _ r hr) (fun r hr => hlater _ r hr)).trans (eight_fupd _)
  have s2 : iprop(eight (fun q => four fun s => iprop(cinv Rd K (a2sCell c (slot (yc c) q s)) ∗ cinv Rd K (a2rCell c (slot (yc c) q s))))
        ∗ eight (fun q => iprop(iprop(atPos ER (a2sCell c (slot (yc c) q 0)) 0 ∅ 0 ∗ atPos ER (a2rCell c (slot (yc c) q 0)) 0 ∅ 0)
            ∗ iprop(atPos ER (a2sCell c (slot (yc c) q 1)) 1 ∅ 0 ∗ atPos ER (a2rCell c (slot (yc c) q 1)) 1 ∅ 0)
            ∗ iprop(atPos ER (a2sCell c (slot (yc c) q 2)) 1 ∅ 0 ∗ atPos ER (a2rCell c (slot (yc c) q 2)) 1 ∅ 0)
            ∗ iprop(atPos ER (a2sCell c (slot (yc c) q 3)) 1 ∅ 0 ∗ atPos ER (a2rCell c (slot (yc c) q 3)) 1 ∅ 0))))
      ⊢ (iprop(|={Set.univ}=> eight (fun q => four fun s => iprop(semVal (a2sCell c (slot (yc c) q s)) 0 ∗ semVal (a2rCell c (slot (yc c) q s)) 0))) : sProp 𝕄) := by
    rw [← eight_sep]
    exact (eight_mono fun q => close_four Rd K hunit hlater (fun s => a2sCell c (slot (yc c) q s)) (fun s => a2rCell c (slot (yc c) q s))
      (hown_a2s c q) (hown_a2r c q)).trans (eight_fupd _)
  have s3 : iprop(eight (fun q => four fun s => iprop(cinv Rd K (bsCell c (slot (zc c) q s)) ∗ cinv Rd K (brCell c (slot (zc c) q s))))
        ∗ eight (fun q => iprop(iprop(atPos ER (bsCell c (slot (zc c) q 0)) 0 ∅ 0 ∗ atPos ER (brCell c (slot (zc c) q 0)) 0 ∅ 0)
            ∗ iprop(atPos ER (bsCell c (slot (zc c) q 1)) 1 ∅ 0 ∗ atPos ER (brCell c (slot (zc c) q 1)) 1 ∅ 0)
            ∗ iprop(atPos ER (bsCell c (slot (zc c) q 2)) 1 ∅ 0 ∗ atPos ER (brCell c (slot (zc c) q 2)) 1 ∅ 0)
            ∗ iprop(atPos ER (bsCell c (slot (zc c) q 3)) 1 ∅ 0 ∗ atPos ER (brCell c (slot (zc c) q 3)) 1 ∅ 0))))
      ⊢ (iprop(|={Set.univ}=> eight (fun q => four fun s => iprop(semVal (bsCell c (slot (zc c) q s)) 0 ∗ semVal (brCell c (slot (zc c) q s)) 0))) : sProp 𝕄) := by
    rw [← eight_sep]
    exact (eight_mono fun q => close_four Rd K hunit hlater (fun s => bsCell c (slot (zc c) q s)) (fun s => brCell c (slot (zc c) q s))
      (hown_bs c q) (hown_br c q)).trans (eight_fupd _)
  unfold ownInvs positionsEnd semsEnd
  iintro ⟨⟨_, I1, I2, I3⟩, ⟨P1, P2, P3⟩⟩
  imod s1 $$ [I1 P1] with S1
  · isplitl [I1] <;> iassumption
  imod s2 $$ [I2 P2] with S2
  · isplitl [I2] <;> iassumption
  imod s3 $$ [I3 P3] with S3
  · isplitl [I3] <;> iassumption
  imodintro
  isplitl [S1]; · iexact S1
  isplitl [S2] <;> iassumption

/-! ## The 144 own semaphores, pool by pool

The six semaphore arrays lie one after another among the kernel's own semaphores: 8, 8, 32, 32, 32 and 32 of
them, so a conjunction over the 144 is the conjunction of the six over the arrays. -/

/-- The six arrays' index ranges side by side. -/
abbrev Pools : Type := Fin 8 ⊕ (Fin 8 ⊕ (Fin 32 ⊕ (Fin 32 ⊕ (Fin 32 ⊕ Fin 32))))

/-- An array's index as the number of its semaphore among the 144. -/
def poolIx : Pools → Fin 144
  | .inl q => ⟨0 + q.val, by omega⟩
  | .inr (.inl q) => ⟨8 + q.val, by omega⟩
  | .inr (.inr (.inl i)) => ⟨16 + i.val, by omega⟩
  | .inr (.inr (.inr (.inl i))) => ⟨48 + i.val, by omega⟩
  | .inr (.inr (.inr (.inr (.inl i)))) => ⟨80 + i.val, by omega⟩
  | .inr (.inr (.inr (.inr (.inr i)))) => ⟨112 + i.val, by omega⟩

theorem poolIx_bijective : Function.Bijective poolIx := by
  constructor
  · rintro (a | a | a | a | a | a) (b | b | b | b | b | b) h <;>
      have h' := congrArg Fin.val h <;> simp only [poolIx] at h' <;>
      first
        | (have := a.isLt; have := b.isLt; exfalso; omega)
        | (have e : a = b := Fin.ext (by omega); subst e; rfl)
  · intro i
    have hi := i.isLt
    by_cases h1 : i.val < 8
    · exact ⟨.inl ⟨i.val, h1⟩, Fin.ext (by simp only [poolIx]; omega)⟩
    by_cases h2 : i.val < 16
    · exact ⟨.inr (.inl ⟨i.val - 8, by omega⟩), Fin.ext (by simp only [poolIx]; omega)⟩
    by_cases h3 : i.val < 48
    · exact ⟨.inr (.inr (.inl ⟨i.val - 16, by omega⟩)), Fin.ext (by simp only [poolIx]; omega)⟩
    by_cases h4 : i.val < 80
    · exact ⟨.inr (.inr (.inr (.inl ⟨i.val - 48, by omega⟩))), Fin.ext (by simp only [poolIx]; omega)⟩
    by_cases h5 : i.val < 112
    · exact ⟨.inr (.inr (.inr (.inr (.inl ⟨i.val - 80, by omega⟩)))), Fin.ext (by simp only [poolIx]; omega)⟩
    · exact ⟨.inr (.inr (.inr (.inr (.inr ⟨i.val - 112, by omega⟩)))), Fin.ext (by simp only [poolIx]; omega)⟩

def poolEquiv : Pools ≃ Fin 144 := Equiv.ofBijective poolIx poolIx_bijective

/-- A conjunction over the device's 144 own cells is the conjunction over the six arrays' cells. -/
theorem own144_split (Ψ : GSem nD τ sig → sProp 𝕄) (c : Dev nD) :
    bigSep Finset.univ (fun i : Fin 144 => Ψ ((c : Thread nD τ), LaunchSems.osem i))
      = iprop(bigSep Finset.univ (fun q : Fin 8 => Ψ (a1sCell c q)) ∗ bigSep Finset.univ (fun q : Fin 8 => Ψ (a1rCell c q))
          ∗ bigSep Finset.univ (fun i : Fin 32 => Ψ (a2sCell c i)) ∗ bigSep Finset.univ (fun i : Fin 32 => Ψ (a2rCell c i))
          ∗ bigSep Finset.univ (fun i : Fin 32 => Ψ (bsCell c i)) ∗ bigSep Finset.univ (fun i : Fin 32 => Ψ (brCell c i))) := by
  rw [bigSep_univ_equiv poolEquiv, bigSep_univ_sum, bigSep_univ_sum, bigSep_univ_sum, bigSep_univ_sum, bigSep_univ_sum]
  have e1 : ∀ q : Fin 8, Ψ ((c : Thread nD τ), LaunchSems.osem (poolEquiv (.inl q))) = Ψ (a1sCell c q) :=
    fun q => congrArg (fun x => Ψ ((c : Thread nD τ), x)) (Canon.osem_a1s q).symm
  have e2 : ∀ q : Fin 8, Ψ ((c : Thread nD τ), LaunchSems.osem (poolEquiv (.inr (.inl q)))) = Ψ (a1rCell c q) :=
    fun q => congrArg (fun x => Ψ ((c : Thread nD τ), x)) (Canon.osem_a1r q).symm
  have e3 : ∀ i : Fin 32, Ψ ((c : Thread nD τ), LaunchSems.osem (poolEquiv (.inr (.inr (.inl i))))) = Ψ (a2sCell c i) :=
    fun i => congrArg (fun x => Ψ ((c : Thread nD τ), x)) (Canon.osem_a2s i).symm
  have e4 : ∀ i : Fin 32, Ψ ((c : Thread nD τ), LaunchSems.osem (poolEquiv (.inr (.inr (.inr (.inl i)))))) = Ψ (a2rCell c i) :=
    fun i => congrArg (fun x => Ψ ((c : Thread nD τ), x)) (Canon.osem_a2r i).symm
  have e5 : ∀ i : Fin 32, Ψ ((c : Thread nD τ), LaunchSems.osem (poolEquiv (.inr (.inr (.inr (.inr (.inl i))))))) = Ψ (bsCell c i) :=
    fun i => congrArg (fun x => Ψ ((c : Thread nD τ), x)) (Canon.osem_bs i).symm
  have e6 : ∀ i : Fin 32, Ψ ((c : Thread nD τ), LaunchSems.osem (poolEquiv (.inr (.inr (.inr (.inr (.inr i))))))) = Ψ (brCell c i) :=
    fun i => congrArg (fun x => Ψ ((c : Thread nD τ), x)) (Canon.osem_br i).symm
  simp only [e1, e2, e3, e4, e5, e6]
  rfl

theorem sep_assoc_eq (P Q R : sProp 𝕄) : iprop((P ∗ Q) ∗ R) = iprop(P ∗ (Q ∗ R)) := by
  have h1 : iprop((P ∗ Q) ∗ R) ⊢ (iprop(P ∗ (Q ∗ R)) : sProp 𝕄) := by
    iintro ⟨⟨HP, HQ⟩, HR⟩
    isplitl [HP]; · iexact HP
    isplitl [HQ] <;> iassumption
  have h2 : iprop(P ∗ (Q ∗ R)) ⊢ (iprop((P ∗ Q) ∗ R) : sProp 𝕄) := by
    iintro ⟨HP, HQ, HR⟩
    isplitl [HP HQ]
    · isplitl [HP] <;> iassumption
    · iexact HR
  exact Entails.antisymm h1 h2

theorem four_sep (Φ Ψ : ℕ → sProp 𝕄) : four (fun s => iprop(Φ s ∗ Ψ s)) = iprop(four Φ ∗ four Ψ) := by
  rw [SlotGeom.four_eq, SlotGeom.four_eq, SlotGeom.four_eq]; exact bigSep_sep _ _ _

/-- The own semaphores at zero, as the launch states them and in the shape of the positions. -/
theorem sems144_eq (c : Dev nD) :
    (bigSep Finset.univ (fun i : Fin 144 => semVal ((c : Thread nD τ), LaunchSems.osem i) 0) : sProp 𝕄) = semsEnd c := by
  rw [own144_split (fun g => semVal g 0) c, SlotGeom.reindex32 (yc c) (fun i => semVal (a2sCell c i) 0),
    SlotGeom.reindex32 (yc c) (fun i => semVal (a2rCell c i) 0), SlotGeom.reindex32 (zc c) (fun i => semVal (bsCell c i) 0),
    SlotGeom.reindex32 (zc c) (fun i => semVal (brCell c i) 0)]
  unfold semsEnd
  simp only [four_sep, eight_sep]
  rw [← SlotGeom.eight_eq, ← SlotGeom.eight_eq]
  rw [sep_assoc_eq, sep_assoc_eq]

/-- Every own DMA cell closed: the 144 semaphores return at zero. -/
theorem close_all (Rd : Schedule (GSem nD τ sig) D (MT nD τ sig Unit (Elt F) ℕ UU ℕ)) (K : GSem nD τ sig → ℕ)
    (hunit : ∀ g, ¬ Rd.unitless g) (hlater : ∀ g r, 1 ≤ r → Rd.duties g r = ∅)
    (hown_a2s : ∀ c q r, Rd.duties (a2sCell c (slot (yc c) q 0)) r = ∅)
    (hown_a2r : ∀ c q r, Rd.duties (a2rCell c (slot (yc c) q 0)) r = ∅)
    (hown_bs : ∀ c q r, Rd.duties (bsCell c (slot (zc c) q 0)) r = ∅)
    (hown_br : ∀ c q r, Rd.duties (brCell c (slot (zc c) q 0)) r = ∅) (c : Dev nD) :
    iprop(ownInvs Rd K c ∗ positionsEnd c)
      ⊢ (iprop(|={Set.univ}=> bigSep Finset.univ fun i : Fin 144 => semVal ((c : Thread nD τ), LaunchSems.osem i) 0) : sProp 𝕄) := by
  rw [sems144_eq]
  exact close_pools Rd K hunit hlater hown_a2s hown_a2r hown_bs hown_br c

end Cert.KernelIdeal.BodyClose

end
-- ==== Proof.SlotJoin.lean ====
/-
  The exchange buffers put back together. Each slot comes back at contents of its own; pairwise disjoint
  and covering the buffer, the slots held each at some contents are the buffer held at some contents.
-/
import proofs.«900893_g7700000000000894_dist_matmul_mk_i_outk_m1024_n1024_k512_v7x_i32_f32_1_alg».proof.Proof.SlotGeom
import Idealize.ShloMosaic.Lib.Ring

noncomputable section

namespace Cert.KernelIdeal.SlotJoin

open Cert.KernelIdeal Cert.KernelIdeal.Gen Cert.KernelIdeal.Proto Cert.KernelIdeal.Ghost Cert.KernelIdeal.SlotGeom
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The eight slots of a stage-one buffer, each at some contents, are the buffer at some contents. -/
theorem join1 (M : Memref sig .tc .vmem S8x4x4x32x128 .bf16) (hM : M.view.set = Finset.univ) (c : Dev nD) :
    eight (fun q => iprop(∃ f, (slot1 M q).view.loc (c : Thread nD τ) ↦[(slot1 M q).view.set]{fullShare} f))
      ⊢ (iprop(∃ f, M.view.loc (c : Thread nD τ) ↦{fullShare} f) : sProp 𝕄) := by
  rw [eight_eq]
  exact Idealize.ShloMosaic.Ring.pointsTo_blocks_join_exists (ℓ := M.view.loc (c : Thread nD τ)) (q := fullShare)
    (fun q : Fin 8 => ((slot1 M q).view.set : Finset (Idx (M.view.loc (c : Thread nD τ)))))
    (fun q q' h => slot1_disjoint M q q' h)
    ((set1_cover M c).symm.trans hM)
    (fun _ => Classical.arbitrary _)

/-- The same with each slot's unit axis kept. -/
theorem join1u (M : Memref sig .tc .vmem S8x4x4x32x128 .bf16) (hM : M.view.set = Finset.univ) (c : Dev nD) :
    eight (fun q => iprop(∃ f, (slot1u M q).view.loc (c : Thread nD τ) ↦[(slot1u M q).view.set]{fullShare} f))
      ⊢ (iprop(∃ f, M.view.loc (c : Thread nD τ) ↦{fullShare} f) : sProp 𝕄) := by
  have h : (fun q : Fin 8 => (iprop(∃ f, (slot1u M q).view.loc (c : Thread nD τ) ↦[(slot1u M q).view.set]{fullShare} f) : sProp 𝕄))
      = fun q => iprop(∃ f, (slot1 M q).view.loc (c : Thread nD τ) ↦[(slot1 M q).view.set]{fullShare} f) :=
    funext fun q => by
      show iprop(∃ f : Buf (Elt F) (M.view.loc (c : Thread nD τ)), _) = iprop(∃ f : Buf (Elt F) (M.view.loc (c : Thread nD τ)), _)
      exact congrArg (fun Φ : Buf (Elt F) (M.view.loc (c : Thread nD τ)) → sProp 𝕄 => iprop(∃ f, Φ f))
        (funext fun f => (pts_squeeze1 M q c fullShare f).symm)
  rw [h]
  exact join1 M hM c

/-- The 32 slots of a stage-two buffer, each at some contents, are the buffer at some contents. -/
theorem join2_all (M : Memref sig .tc .vmem S32x4x32x128 .bf16) (hM : M.view.set = Finset.univ) (c : Dev nD) :
    bigSep Finset.univ (fun i : Fin 32 => iprop(∃ f, (slot2 M i).view.loc (c : Thread nD τ) ↦[(slot2 M i).view.set]{fullShare} f))
      ⊢ (iprop(∃ f, M.view.loc (c : Thread nD τ) ↦{fullShare} f) : sProp 𝕄) :=
  Idealize.ShloMosaic.Ring.pointsTo_blocks_join_exists (ℓ := M.view.loc (c : Thread nD τ)) (q := fullShare)
    (fun i : Fin 32 => ((slot2 M i).view.set : Finset (Idx (M.view.loc (c : Thread nD τ)))))
    (fun i i' h => slot2_disjoint M i i' h)
    ((set2_cover M c).symm.trans hM)
    (fun _ => Classical.arbitrary _)

/-- The same from the slots step by step: one advance on, two, three, then the own slots. -/
theorem join2 (M : Memref sig .tc .vmem S32x4x32x128 .bf16) (hM : M.view.set = Finset.univ) (v : ℕ) (c : Dev nD) :
    iprop(eight (fun q => iprop(∃ f, (slot2 M (slot v q 1)).view.loc (c : Thread nD τ) ↦[(slot2 M (slot v q 1)).view.set]{fullShare} f))
        ∗ eight (fun q => iprop(∃ f, (slot2 M (slot v q 2)).view.loc (c : Thread nD τ) ↦[(slot2 M (slot v q 2)).view.set]{fullShare} f))
        ∗ eight (fun q => iprop(∃ f, (slot2 M (slot v q 3)).view.loc (c : Thread nD τ) ↦[(slot2 M (slot v q 3)).view.set]{fullShare} f))
        ∗ eight (fun q => iprop(∃ f, (slot2 M (slot v q 0)).view.loc (c : Thread nD τ) ↦[(slot2 M (slot v q 0)).view.set]{fullShare} f)))
      ⊢ (iprop(∃ f, M.view.loc (c : Thread nD τ) ↦{fullShare} f) : sProp 𝕄) := by
  rw [← eight_four_by_step (fun q s => iprop(∃ f, (slot2 M (slot v q s)).view.loc (c : Thread nD τ) ↦[(slot2 M (slot v q s)).view.set]{fullShare} f)),
    ← reindex32 v (fun i : Fin 32 => iprop(∃ f, (slot2 M i).view.loc (c : Thread nD τ) ↦[(slot2 M i).view.set]{fullShare} f))]
  exact join2_all M hM c

/-- The 32 slots of a stage-three buffer, each at some contents, are the buffer at some contents. -/
theorem join3_all (M : Memref sig .tc .vmem S32x32x128 .bf16) (hM : M.view.set = Finset.univ) (c : Dev nD) :
    bigSep Finset.univ (fun i : Fin 32 => iprop(∃ f, (slot3 M i).view.loc (c : Thread nD τ) ↦[(slot3 M i).view.set]{fullShare} f))
      ⊢ (iprop(∃ f, M.view.loc (c : Thread nD τ) ↦{fullShare} f) : sProp 𝕄) :=
  Idealize.ShloMosaic.Ring.pointsTo_blocks_join_exists (ℓ := M.view.loc (c : Thread nD τ)) (q := fullShare)
    (fun i : Fin 32 => ((slot3 M i).view.set : Finset (Idx (M.view.loc (c : Thread nD τ)))))
    (fun i i' h => slot3_disjoint M i i' h)
    ((set3_cover M c).symm.trans hM)
    (fun _ => Classical.arbitrary _)

/-- The same from the slots step by step: one advance on, two, three, then the own slots. -/
theorem join3 (M : Memref sig .tc .vmem S32x32x128 .bf16) (hM : M.view.set = Finset.univ) (v : ℕ) (c : Dev nD) :
    iprop(eight (fun q => iprop(∃ f, (slot3 M (slot v q 1)).view.loc (c : Thread nD τ) ↦[(slot3 M (slot v q 1)).view.set]{fullShare} f))
        ∗ eight (fun q => iprop(∃ f, (slot3 M (slot v q 2)).view.loc (c : Thread nD τ) ↦[(slot3 M (slot v q 2)).view.set]{fullShare} f))
        ∗ eight (fun q => iprop(∃ f, (slot3 M (slot v q 3)).view.loc (c : Thread nD τ) ↦[(slot3 M (slot v q 3)).view.set]{fullShare} f))
        ∗ eight (fun q => iprop(∃ f, (slot3 M (slot v q 0)).view.loc (c : Thread nD τ) ↦[(slot3 M (slot v q 0)).view.set]{fullShare} f)))
      ⊢ (iprop(∃ f, M.view.loc (c : Thread nD τ) ↦{fullShare} f) : sProp 𝕄) := by
  rw [← eight_four_by_step (fun q s => iprop(∃ f, (slot3 M (slot v q s)).view.loc (c : Thread nD τ) ↦[(slot3 M (slot v q s)).view.set]{fullShare} f)),
    ← reindex32 v (fun i : Fin 32 => iprop(∃ f, (slot3 M i).view.loc (c : Thread nD τ) ↦[(slot3 M i).view.set]{fullShare} f))]
  exact join3_all M hM c

end Cert.KernelIdeal.SlotJoin

end
-- ==== Proof.BodyEnd.lean ====
/-
  From the state the body's run ends in to the body's postcondition. At the end nothing is owed, every own
  cell stands past its one duty (or at round 0 where it never had one), the inputs are as they were, and the
  seven exchange buffers are held slot by slot at some contents. Closing the 144 own cells returns their
  semaphores at zero, and each exchange buffer's slots join back into the whole buffer.
-/
import proofs.«900893_g7700000000000894_dist_matmul_mk_i_outk_m1024_n1024_k512_v7x_i32_f32_1_alg».proof.Proof.BodyWrap
import proofs.«900893_g7700000000000894_dist_matmul_mk_i_outk_m1024_n1024_k512_v7x_i32_f32_1_alg».proof.Proof.BodyClose
import proofs.«900893_g7700000000000894_dist_matmul_mk_i_outk_m1024_n1024_k512_v7x_i32_f32_1_alg».proof.Proof.SlotGeom
import proofs.«900893_g7700000000000894_dist_matmul_mk_i_outk_m1024_n1024_k512_v7x_i32_f32_1_alg».proof.Proof.Proto0
import proofs.«900893_g7700000000000894_dist_matmul_mk_i_outk_m1024_n1024_k512_v7x_i32_f32_1_alg».proof.Proof.SlotJoin

noncomputable section

namespace Cert.KernelIdeal.BodyEnd

open Cert.KernelIdeal Cert.KernelIdeal.Gen Cert.KernelIdeal.Proto Cert.KernelIdeal.Ghost Cert.KernelIdeal.LaunchData
open Cert.KernelIdeal.SlotGeom
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots at some contents -/

/-- Slot q of a stage-one buffer at some contents. -/
abbrev some1 (M : Memref sig .tc .vmem S8x4x4x32x128 .bf16) (c : Dev nD) (q : Fin 8) : sProp 𝕄 :=
  iprop(∃ f, (slot1 M q).view.loc (c : Thread nD τ) ↦[(slot1 M q).view.set]{fullShare} f)
/-- Slot i of a stage-two buffer at some contents. -/
abbrev some2 (M : Memref sig .tc .vmem S32x4x32x128 .bf16) (c : Dev nD) (i : Fin 32) : sProp 𝕄 :=
  iprop(∃ f, (slot2 M i).view.loc (c : Thread nD τ) ↦[(slot2 M i).view.set]{fullShare} f)
/-- Slot i of a stage-three buffer at some contents. -/
abbrev some3 (M : Memref sig .tc .vmem S32x32x128 .bf16) (c : Dev nD) (i : Fin 32) : sProp 𝕄 :=
  iprop(∃ f, (slot3 M i).view.loc (c : Thread nD τ) ↦[(slot3 M i).view.set]{fullShare} f)

/-- The eight slots of a stage-one buffer, each at some contents. -/
abbrev slots1 (M : Memref sig .tc .vmem S8x4x4x32x128 .bf16) (c : Dev nD) : sProp 𝕄 :=
  eight (fun q => some1 M c q)
/-- The 32 slots of a stage-two buffer from base v, step by step (advances 1, 2, 3, then 0), each at some contents. -/
abbrev slots2 (M : Memref sig .tc .vmem S32x4x32x128 .bf16) (v : ℕ) (c : Dev nD) : sProp 𝕄 :=
  iprop(eight (fun q => some2 M c (slot v q 1)) ∗ eight (fun q => some2 M c (slot v q 2))
    ∗ eight (fun q => some2 M c (slot v q 3)) ∗ eight (fun q => some2 M c (slot v q 0)))
/-- The 32 slots of a stage-three buffer from base v, step by step, each at some contents. -/
abbrev slots3 (M : Memref sig .tc .vmem S32x32x128 .bf16) (v : ℕ) (c : Dev nD) : sProp 𝕄 :=
  iprop(eight (fun q => some3 M c (slot v q 1)) ∗ eight (fun q => some3 M c (slot v q 2))
    ∗ eight (fun q => some3 M c (slot v q 3)) ∗ eight (fun q => some3 M c (slot v q 0)))

/-- A staging or scratch buffer whole at some contents. -/
abbrev wholeSome (c : Dev nD) (b : Ref sig .tc) : sProp 𝕄 :=
  iprop(∃ f : Buf (Elt F) ((c : Thread nD τ).loc b), ((Memref.whole b : Memref sig .tc _ _ _).view.loc (c : Thread nD τ) ↦{fullShare} f))

/-! ## The end state, buffer by buffer -/

variable (m : (ℓ : Loc nD τ sig) → Buf (Elt F) ℓ)

/-- Nothing is owed. -/
def endOwes (c : Dev nD) : sProp 𝕄 := iprop(∃ W' : Waits sig Unit, owes (c : Thread nD τ) 0 W')
/-- The staged A block, as it was. -/
def endStgA (c : Dev nD) : sProp 𝕄 := ((Memref.whole cc0_stg0_0 : Memref sig .tc _ _ _).view.loc (c : Thread nD τ) ↦{fullShare} astg m c)
/-- The staged B block, as it was. -/
def endStgB (c : Dev nD) : sProp 𝕄 := ((Memref.whole cc0_stg1_0 : Memref sig .tc _ _ _).view.loc (c : Thread nD τ) ↦{fullShare} bstg m c)
/-- The result's staging buffer. -/
def endStgR (c : Dev nD) : sProp 𝕄 := wholeSome (F := F) c cc0_stg2_0
/-- The cast copy of the A block. -/
def endAb (c : Dev nD) : sProp 𝕄 := wholeSome (F := F) c cc0_scratch0
/-- The cast copy of the B block. -/
def endBb (c : Dev nD) : sProp 𝕄 := wholeSome (F := F) c cc0_scratch1
/-- The stage-one send buffer, slot by slot. -/
def endSendA1 (c : Dev nD) : sProp 𝕄 := slots1 (F := F) sendA1 c
/-- The stage-one landing buffer, slot by slot. -/
def endCommA1 (c : Dev nD) : sProp 𝕄 := slots1 (F := F) commA1 c
/-- The kept stage-one products. -/
def endOwnA (c : Dev nD) : sProp 𝕄 := wholeSome (F := F) c cc0_scratch4
/-- The stage-two send buffer, slot by slot from the device's row. -/
def endSendA2 (c : Dev nD) : sProp 𝕄 := slots2 (F := F) sendA2 (yc c) c
/-- The stage-two landing buffer, slot by slot from the device's row. -/
def endCommA2 (c : Dev nD) : sProp 𝕄 := slots2 (F := F) commA2 (yc c) c
/-- The stage-three send buffer, slot by slot from the device's plane. -/
def endSendB (c : Dev nD) : sProp 𝕄 := slots3 (F := F) sendB (zc c) c
/-- The stage-three landing buffer, slot by slot from the device's plane. -/
def endCommB (c : Dev nD) : sProp 𝕄 := slots3 (F := F) commB (zc c) c

/-- The state the body's run ends in. -/
def endState (K : GSem nD τ sig → ℕ) (c : Dev nD) : sProp 𝕄 :=
  iprop(Ghost.ownInvs (sched0 (F := F)) K c ∗ BodyClose.positionsEnd c ∗ endOwes (F := F) c
    ∗ endStgA m c ∗ endStgB m c ∗ endStgR (F := F) c ∗ endAb (F := F) c ∗ endBb (F := F) c
    ∗ endSendA1 (F := F) c ∗ endCommA1 (F := F) c ∗ endOwnA (F := F) c
    ∗ endSendA2 (F := F) c ∗ endCommA2 (F := F) c ∗ endSendB (F := F) c ∗ endCommB (F := F) c)

/-! ## The step to the postcondition -/

/-- From the end state to the body's postcondition, given that a buffer's slots join back into the buffer. -/
theorem finish_of
    (hj1 : ∀ (M : Memref sig .tc .vmem S8x4x4x32x128 .bf16) (hM : M.view.set = Finset.univ) (c : Dev nD),
      slots1 (F := F) M c ⊢ iprop(∃ f, (M.view.loc (c : Thread nD τ) ↦{fullShare} f : sProp 𝕄)))
    (hj2 : ∀ (M : Memref sig .tc .vmem S32x4x32x128 .bf16) (hM : M.view.set = Finset.univ) (v : ℕ) (c : Dev nD),
      slots2 (F := F) M v c ⊢ iprop(∃ f, (M.view.loc (c : Thread nD τ) ↦{fullShare} f : sProp 𝕄)))
    (hj3 : ∀ (M : Memref sig .tc .vmem S32x32x128 .bf16) (hM : M.view.set = Finset.univ) (v : ℕ) (c : Dev nD),
      slots3 (F := F) M v c ⊢ iprop(∃ f, (M.view.loc (c : Thread nD τ) ↦{fullShare} f : sProp 𝕄)))
    (K : GSem nD τ sig → ℕ) (c : Dev nD) :
    endState m K c ⊢ (iprop(|={Set.univ}=> BodyWrap.bodyPost m c) : sProp 𝕄) := by
  unfold endState endOwes endStgA endStgB endStgR endAb endBb endSendA1 endCommA1 endOwnA endSendA2 endCommA2 endSendB endCommB
  iintro ⟨HI, HP, HO, Ha, Hb, Hr, H0, H1, H2, H3, H4, H5, H6, H7, H8⟩
  imod (BodyClose.close_all (sched0 (F := F)) K (fun _ h => h) (fun g r hr => duties_later0 g r hr)
      (fun c q r => by rcases Nat.eq_zero_or_pos r with rfl | h; exact duties_a2s_own0 c q; exact duties_later0 _ r h)
      (fun c q r => by rcases Nat.eq_zero_or_pos r with rfl | h; exact duties_a2r_own0 c q; exact duties_later0 _ r h)
      (fun c q r => by rcases Nat.eq_zero_or_pos r with rfl | h; exact duties_bs_own0 c q; exact duties_later0 _ r h)
      (fun c q r => by rcases Nat.eq_zero_or_pos r with rfl | h; exact duties_br_own0 c q; exact duties_later0 _ r h) c) $$ [HI HP] with Hs
  · isplitl [HI] <;> iassumption
  imodintro
  unfold BodyWrap.bodyPost
  isplitl [HO]; · iexact HO
  isplitl [Ha]; · iexact Ha
  isplitl [Hb]; · iexact Hb
  isplitl [Hr]; · iexact Hr
  isplitl [H0]; · iexact H0
  isplitl [H1]; · iexact H1
  isplitl [H2]; · iapply (hj1 sendA1 sendA1_univ c) $$ H2
  isplitl [H3]; · iapply (hj1 commA1 commA1_univ c) $$ H3
  isplitl [H4]; · iexact H4
  isplitl [H5]; · iapply (hj2 sendA2 sendA2_univ (yc c) c) $$ H5
  isplitl [H6]; · iapply (hj2 commA2 commA2_univ (yc c) c) $$ H6
  isplitl [H7]; · iapply (hj3 sendB sendB_univ (zc c) c) $$ H7
  isplitl [H8]; · iapply (hj3 commB commB_univ (zc c) c) $$ H8
  iexact Hs

/-- From the end state to the body's postcondition. -/
theorem finish (K : GSem nD τ sig → ℕ) (c : Dev nD) :
    endState m K c ⊢ (iprop(|={Set.univ}=> BodyWrap.bodyPost m c) : sProp 𝕄) :=
  finish_of m (fun M hM c => SlotJoin.join1 M hM c) (fun M hM v c => SlotJoin.join2 M hM v c)
    (fun M hM v c => SlotJoin.join3 M hM v c) K c

end Cert.KernelIdeal.BodyEnd

end
-- ==== Proof.BodyClose2.lean ====
/-
  The body's last step: once the run has reached the end state, buffer by buffer, the postcondition follows
  under an update (every own cell is closed and the slots join back into their buffers), and the continuation
  is met.
-/
import proofs.«900893_g7700000000000894_dist_matmul_mk_i_outk_m1024_n1024_k512_v7x_i32_f32_1_alg».proof.Proof.BodyEnd
import Idealize.ShloMosaic.Lib.Tactic

noncomputable section

namespace Cert.KernelIdeal.BodyClose2

open Cert.KernelIdeal Cert.KernelIdeal.Gen Cert.KernelIdeal.Proto Cert.KernelIdeal.Ghost Cert.KernelIdeal.LaunchData
open Cert.KernelIdeal.SlotGeom
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body's last step: from the end state, the continuation's premise is met and the run returns. -/
theorem close (m : (ℓ : Loc nD τ sig) → Buf (Elt F) ℓ) (K : GSem nD τ sig → ℕ) (c : Dev nD) (Kt : PUnit → sProp 𝕄) :
    iprop(BodyEnd.endState m K c ∗ (BodyWrap.bodyPost m c -∗ Kt ⟨⟩))
      ⊢ wp frame (wpE (defs₀ (F := F)) Variants.none (c : Thread nD τ) none) Set.univ (Prog.ret PUnit.unit) Kt := by
  rw [wp_ret]
  iintro ⟨HE, Hk⟩
  imod (BodyEnd.finish m K c) $$ HE with HP
  imodintro
  iapply Hk
  iexact HP

/-- info: 'Cert.KernelIdeal.BodyClose2.close' depends on axioms: [propext, Classical.choice, Quot.sound] -/
#guard_msgs in #print axioms close

end Cert.KernelIdeal.BodyClose2

end
-- ==== Proof.Body.lean ====
/-
  One device's kernel body, from the protocol's ghost state to its end state.
  The body signals its seven peers' barrier cells (lending each the slots of its own receive buffers that the
  peer will write), casts its blocks of A and B, and waits for seven units on its own barrier cell, which
  brings the slots of its peers that it will write. Then, column chunk by column chunk: it stores a product
  and sends it to its partner; it waits for its partner's product, adds its own and sends the three foreign
  rows of the sum along its rail; it waits for the three rows sent to it, adds its own and sends the three
  foreign planes across the planes; it waits for the three planes sent to it, adds its own and stores the
  chunk of the result. It ends by waiting for its 56 departures. Every wait happens while the device owes
  only arrivals of strictly later stages, which is what makes it permitted; every remote copy takes its source
  slot and the receiver's slot whole and pays one departure and one arrival. What the slots hold is not
  followed: each is handed over and received at some contents.
-/
import proofs.«900893_g7700000000000894_dist_matmul_mk_i_outk_m1024_n1024_k512_v7x_i32_f32_1_alg».proof.Proof.Ghost
import proofs.«900893_g7700000000000894_dist_matmul_mk_i_outk_m1024_n1024_k512_v7x_i32_f32_1_alg».proof.Proof.ProtoTables
import proofs.«900893_g7700000000000894_dist_matmul_mk_i_outk_m1024_n1024_k512_v7x_i32_f32_1_alg».proof.Proof.Proto0
import proofs.«900893_g7700000000000894_dist_matmul_mk_i_outk_m1024_n1024_k512_v7x_i32_f32_1_alg».proof.Proof.SlotGeom
import proofs.«900893_g7700000000000894_dist_matmul_mk_i_outk_m1024_n1024_k512_v7x_i32_f32_1_alg».proof.Proof.ChunkGeom
import proofs.«900893_g7700000000000894_dist_matmul_mk_i_outk_m1024_n1024_k512_v7x_i32_f32_1_alg».proof.Proof.Canon
import proofs.«900893_g7700000000000894_dist_matmul_mk_i_outk_m1024_n1024_k512_v7x_i32_f32_1_alg».proof.Proof.ClosedOffs
import proofs.«900893_g7700000000000894_dist_matmul_mk_i_outk_m1024_n1024_k512_v7x_i32_f32_1_alg».proof.Proof.BodyWrap
import proofs.«900893_g7700000000000894_dist_matmul_mk_i_outk_m1024_n1024_k512_v7x_i32_f32_1_alg».proof.Proof.BodyEnd
import proofs.«900893_g7700000000000894_dist_matmul_mk_i_outk_m1024_n1024_k512_v7x_i32_f32_1_alg».proof.Proof.BodyClose2
import proofs.«900893_g7700000000000894_dist_matmul_mk_i_outk_m1024_n1024_k512_v7x_i32_f32_1_alg».proof.Proof.Gen.KernelIdeal.Skeleton
import Idealize.ShloMosaic.Lib.Tactic

set_option maxRecDepth 65536

noncomputable section

namespace Cert.KernelIdeal.Body

open Cert.KernelIdeal Cert.KernelIdeal.Gen Cert.KernelIdeal.Proto Cert.KernelIdeal.Ghost Cert.KernelIdeal.SlotGeom
open Cert.KernelIdeal.LaunchData (astg bstg)
open Cert.KernelIdeal.MeshFacts (dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq dev63_eq)
open Cert.KernelIdeal.Canon.Tagged
open Cert.KernelIdeal.ChunkGeom Cert.KernelIdeal.ClosedOffs
open Cert.Mesh (partner rail zpeer zc pc yc xc pOf dev slot)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

-- the box's maps stay folded while the body is stepped: two slots are told apart by their literal arguments
-- a semaphore of an array is told from another by its array and slot, never by unfolding down to its number
attribute [local irreducible] Idealize.ShloMosaic.SemArray.sem Idealize.ShloMosaic.SemArray.squeeze Idealize.ShloMosaic.SemArray.slice
attribute [local irreducible] Cert.Mesh.slot Cert.Mesh.rail Cert.Mesh.partner Cert.Mesh.zpeer Cert.Mesh.yc Cert.Mesh.zc Cert.Mesh.xc Cert.Mesh.pc Cert.Mesh.dev Cert.Mesh.pOf
attribute [local sl_rounds] duties_bar0 duties_a1s0 duties_a1r0 duties_a2s0 duties_a2r0 duties_bs0 duties_br0 duties_a2r_peer0 duties_br_peer0 amount_bar0 amount_a1s0 amount_a1r0 amount_a2s0 amount_a2r0 amount_bs0 amount_br0 expect_bar0 expect_a1s0 expect_a1r0 expect_a2s0 expect_a2r0 expect_bs0 expect_br0 payload_bar_partner0 payload_bar_rail1_0 payload_bar_rail2_0 payload_bar_rail3_0 payload_bar_zpeer1_0 payload_bar_zpeer2_0 payload_bar_zpeer3_0 payload_a1s0 payload_a1r0 payload_a1r_peer0 payload_a2s0 payload_a2r0 payload_a2r_peer0 payload_bs0 payload_br0 payload_br_peer0 rest_bar0 barPay_own0 barPay_own1 barPay_own2 barPay_own3 barPay_own4 barPay_own5 barPay_own6 grant1_eq grant2_flat grant3_flat
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq dev63_eq

set_option maxHeartbeats 16000000 in
/-- The body of device c runs to its end, from the ghost state the launch hands it. -/
theorem sound (m : (ℓ : Loc nD τ sig) → Buf (Elt F) ℓ) : BodyWrap.Sound (sched0 (F := F)) m := by
  intro c K W Kt o0 f0 f1 f2 f3 f4 f5 f6 f7 f8
  unfold BodyWrap.bodyPre
  unfold ghost records ownInvs paidInvs sendReached recvReached positions payToks credits
  simp (config := {proj := false, dsimp := false}) only [three, four, eight]
  iintro ⟨⟨⟨⟨⟨#Ibar, ⟨⟨#Ia1s0, #Ia1r0⟩, ⟨#Ia1s1, #Ia1r1⟩, ⟨#Ia1s2, #Ia1r2⟩, ⟨#Ia1s3, #Ia1r3⟩, ⟨#Ia1s4, #Ia1r4⟩, ⟨#Ia1s5, #Ia1r5⟩, ⟨#Ia1s6, #Ia1r6⟩, ⟨#Ia1s7, #Ia1r7⟩⟩, ⟨⟨⟨#Ia2s0_0, #Ia2r0_0⟩, ⟨#Ia2s0_1, #Ia2r0_1⟩, ⟨#Ia2s0_2, #Ia2r0_2⟩, ⟨#Ia2s0_3, #Ia2r0_3⟩⟩, ⟨⟨#Ia2s1_0, #Ia2r1_0⟩, ⟨#Ia2s1_1, #Ia2r1_1⟩, ⟨#Ia2s1_2, #Ia2r1_2⟩, ⟨#Ia2s1_3, #Ia2r1_3⟩⟩, ⟨⟨#Ia2s2_0, #Ia2r2_0⟩, ⟨#Ia2s2_1, #Ia2r2_1⟩, ⟨#Ia2s2_2, #Ia2r2_2⟩, ⟨#Ia2s2_3, #Ia2r2_3⟩⟩, ⟨⟨#Ia2s3_0, #Ia2r3_0⟩, ⟨#Ia2s3_1, #Ia2r3_1⟩, ⟨#Ia2s3_2, #Ia2r3_2⟩, ⟨#Ia2s3_3, #Ia2r3_3⟩⟩, ⟨⟨#Ia2s4_0, #Ia2r4_0⟩, ⟨#Ia2s4_1, #Ia2r4_1⟩, ⟨#Ia2s4_2, #Ia2r4_2⟩, ⟨#Ia2s4_3, #Ia2r4_3⟩⟩, ⟨⟨#Ia2s5_0, #Ia2r5_0⟩, ⟨#Ia2s5_1, #Ia2r5_1⟩, ⟨#Ia2s5_2, #Ia2r5_2⟩, ⟨#Ia2s5_3, #Ia2r5_3⟩⟩, ⟨⟨#Ia2s6_0, #Ia2r6_0⟩, ⟨#Ia2s6_1, #Ia2r6_1⟩, ⟨#Ia2s6_2, #Ia2r6_2⟩, ⟨#Ia2s6_3, #Ia2r6_3⟩⟩, ⟨⟨#Ia2s7_0, #Ia2r7_0⟩, ⟨#Ia2s7_1, #Ia2r7_1⟩, ⟨#Ia2s7_2, #Ia2r7_2⟩, ⟨#Ia2s7_3, #Ia2r7_3⟩⟩⟩, ⟨⟨⟨#Ibs0_0, #Ibr0_0⟩, ⟨#Ibs0_1, #Ibr0_1⟩, ⟨#Ibs0_2, #Ibr0_2⟩, ⟨#Ibs0_3, #Ibr0_3⟩⟩, ⟨⟨#Ibs1_0, #Ibr1_0⟩, ⟨#Ibs1_1, #Ibr1_1⟩, ⟨#Ibs1_2, #Ibr1_2⟩, ⟨#Ibs1_3, #Ibr1_3⟩⟩, ⟨⟨#Ibs2_0, #Ibr2_0⟩, ⟨#Ibs2_1, #Ibr2_1⟩, ⟨#Ibs2_2, #Ibr2_2⟩, ⟨#Ibs2_3, #Ibr2_3⟩⟩, ⟨⟨#Ibs3_0, #Ibr3_0⟩, ⟨#Ibs3_1, #Ibr3_1⟩, ⟨#Ibs3_2, #Ibr3_2⟩, ⟨#Ibs3_3, #Ibr3_3⟩⟩, ⟨⟨#Ibs4_0, #Ibr4_0⟩, ⟨#Ibs4_1, #Ibr4_1⟩, ⟨#Ibs4_2, #Ibr4_2⟩, ⟨#Ibs4_3, #Ibr4_3⟩⟩, ⟨⟨#Ibs5_0, #Ibr5_0⟩, ⟨#Ibs5_1, #Ibr5_1⟩, ⟨#Ibs5_2, #Ibr5_2⟩, ⟨#Ibs5_3, #Ibr5_3⟩⟩, ⟨⟨#Ibs6_0, #Ibr6_0⟩, ⟨#Ibs6_1, #Ibr6_1⟩, ⟨#Ibs6_2, #Ibr6_2⟩, ⟨#Ibs6_3, #Ibr6_3⟩⟩, ⟨⟨#Ibs7_0, #Ibr7_0⟩, ⟨#Ibs7_1, #Ibr7_1⟩, ⟨#Ibs7_2, #Ibr7_2⟩, ⟨#Ibs7_3, #Ibr7_3⟩⟩⟩⟩, ⟨⟨#JbarP, #RbarP⟩, ⟨⟨#JbarR1, #RbarR1⟩, ⟨#JbarR2, #RbarR2⟩, ⟨#JbarR3, #RbarR3⟩⟩, ⟨⟨#JbarZ1, #RbarZ1⟩, ⟨#JbarZ2, #RbarZ2⟩, ⟨#JbarZ3, #RbarZ3⟩⟩, ⟨⟨#Ja1r0, #Ra1r0⟩, ⟨#Ja1r1, #Ra1r1⟩, ⟨#Ja1r2, #Ra1r2⟩, ⟨#Ja1r3, #Ra1r3⟩, ⟨#Ja1r4, #Ra1r4⟩, ⟨#Ja1r5, #Ra1r5⟩, ⟨#Ja1r6, #Ra1r6⟩, ⟨#Ja1r7, #Ra1r7⟩⟩, ⟨⟨⟨#Ja2r0_1, #Ra2r0_1⟩, ⟨#Ja2r0_2, #Ra2r0_2⟩, ⟨#Ja2r0_3, #Ra2r0_3⟩⟩, ⟨⟨#Ja2r1_1, #Ra2r1_1⟩, ⟨#Ja2r1_2, #Ra2r1_2⟩, ⟨#Ja2r1_3, #Ra2r1_3⟩⟩, ⟨⟨#Ja2r2_1, #Ra2r2_1⟩, ⟨#Ja2r2_2, #Ra2r2_2⟩, ⟨#Ja2r2_3, #Ra2r2_3⟩⟩, ⟨⟨#Ja2r3_1, #Ra2r3_1⟩, ⟨#Ja2r3_2, #Ra2r3_2⟩, ⟨#Ja2r3_3, #Ra2r3_3⟩⟩, ⟨⟨#Ja2r4_1, #Ra2r4_1⟩, ⟨#Ja2r4_2, #Ra2r4_2⟩, ⟨#Ja2r4_3, #Ra2r4_3⟩⟩, ⟨⟨#Ja2r5_1, #Ra2r5_1⟩, ⟨#Ja2r5_2, #Ra2r5_2⟩, ⟨#Ja2r5_3, #Ra2r5_3⟩⟩, ⟨⟨#Ja2r6_1, #Ra2r6_1⟩, ⟨#Ja2r6_2, #Ra2r6_2⟩, ⟨#Ja2r6_3, #Ra2r6_3⟩⟩, ⟨⟨#Ja2r7_1, #Ra2r7_1⟩, ⟨#Ja2r7_2, #Ra2r7_2⟩, ⟨#Ja2r7_3, #Ra2r7_3⟩⟩⟩, ⟨⟨⟨#Jbr0_1, #Rbr0_1⟩, ⟨#Jbr0_2, #Rbr0_2⟩, ⟨#Jbr0_3, #Rbr0_3⟩⟩, ⟨⟨#Jbr1_1, #Rbr1_1⟩, ⟨#Jbr1_2, #Rbr1_2⟩, ⟨#Jbr1_3, #Rbr1_3⟩⟩, ⟨⟨#Jbr2_1, #Rbr2_1⟩, ⟨#Jbr2_2, #Rbr2_2⟩, ⟨#Jbr2_3, #Rbr2_3⟩⟩, ⟨⟨#Jbr3_1, #Rbr3_1⟩, ⟨#Jbr3_2, #Rbr3_2⟩, ⟨#Jbr3_3, #Rbr3_3⟩⟩, ⟨⟨#Jbr4_1, #Rbr4_1⟩, ⟨#Jbr4_2, #Rbr4_2⟩, ⟨#Jbr4_3, #Rbr4_3⟩⟩, ⟨⟨#Jbr5_1, #Rbr5_1⟩, ⟨#Jbr5_2, #Rbr5_2⟩, ⟨#Jbr5_3, #Rbr5_3⟩⟩, ⟨⟨#Jbr6_1, #Rbr6_1⟩, ⟨#Jbr6_2, #Rbr6_2⟩, ⟨#Jbr6_3, #Rbr6_3⟩⟩, ⟨⟨#Jbr7_1, #Rbr7_1⟩, ⟨#Jbr7_2, #Rbr7_2⟩, ⟨#Jbr7_3, #Rbr7_3⟩⟩⟩⟩, ⟨⟨#Sa1s0, #Sa1s1, #Sa1s2, #Sa1s3, #Sa1s4, #Sa1s5, #Sa1s6, #Sa1s7⟩, ⟨⟨#Sa2s0_1, #Sa2s0_2, #Sa2s0_3⟩, ⟨#Sa2s1_1, #Sa2s1_2, #Sa2s1_3⟩, ⟨#Sa2s2_1, #Sa2s2_2, #Sa2s2_3⟩, ⟨#Sa2s3_1, #Sa2s3_2, #Sa2s3_3⟩, ⟨#Sa2s4_1, #Sa2s4_2, #Sa2s4_3⟩, ⟨#Sa2s5_1, #Sa2s5_2, #Sa2s5_3⟩, ⟨#Sa2s6_1, #Sa2s6_2, #Sa2s6_3⟩, ⟨#Sa2s7_1, #Sa2s7_2, #Sa2s7_3⟩⟩, ⟨⟨#Sbs0_1, #Sbs0_2, #Sbs0_3⟩, ⟨#Sbs1_1, #Sbs1_2, #Sbs1_3⟩, ⟨#Sbs2_1, #Sbs2_2, #Sbs2_3⟩, ⟨#Sbs3_1, #Sbs3_2, #Sbs3_3⟩, ⟨#Sbs4_1, #Sbs4_2, #Sbs4_3⟩, ⟨#Sbs5_1, #Sbs5_2, #Sbs5_3⟩, ⟨#Sbs6_1, #Sbs6_2, #Sbs6_3⟩, ⟨#Sbs7_1, #Sbs7_2, #Sbs7_3⟩⟩⟩, ⟨⟨#Va1r0, #Va1r1, #Va1r2, #Va1r3, #Va1r4, #Va1r5, #Va1r6, #Va1r7⟩, ⟨⟨#Va2r0_1, #Va2r0_2, #Va2r0_3⟩, ⟨#Va2r1_1, #Va2r1_2, #Va2r1_3⟩, ⟨#Va2r2_1, #Va2r2_2, #Va2r2_3⟩, ⟨#Va2r3_1, #Va2r3_2, #Va2r3_3⟩, ⟨#Va2r4_1, #Va2r4_2, #Va2r4_3⟩, ⟨#Va2r5_1, #Va2r5_2, #Va2r5_3⟩, ⟨#Va2r6_1, #Va2r6_2, #Va2r6_3⟩, ⟨#Va2r7_1, #Va2r7_2, #Va2r7_3⟩⟩, ⟨⟨#Vbr0_1, #Vbr0_2, #Vbr0_3⟩, ⟨#Vbr1_1, #Vbr1_2, #Vbr1_3⟩, ⟨#Vbr2_1, #Vbr2_2, #Vbr2_3⟩, ⟨#Vbr3_1, #Vbr3_2, #Vbr3_3⟩, ⟨#Vbr4_1, #Vbr4_2, #Vbr4_3⟩, ⟨#Vbr5_1, #Vbr5_2, #Vbr5_3⟩, ⟨#Vbr6_1, #Vbr6_2, #Vbr6_3⟩, ⟨#Vbr7_1, #Vbr7_2, #Vbr7_3⟩⟩⟩⟩, ⟨Pbar, ⟨⟨Pa1s0, Pa1r0⟩, ⟨Pa1s1, Pa1r1⟩, ⟨Pa1s2, Pa1r2⟩, ⟨Pa1s3, Pa1r3⟩, ⟨Pa1s4, Pa1r4⟩, ⟨Pa1s5, Pa1r5⟩, ⟨Pa1s6, Pa1r6⟩, ⟨Pa1s7, Pa1r7⟩⟩, ⟨⟨⟨Pa2s0_0, Pa2r0_0⟩, ⟨Pa2s0_1, Pa2r0_1⟩, ⟨Pa2s0_2, Pa2r0_2⟩, ⟨Pa2s0_3, Pa2r0_3⟩⟩, ⟨⟨Pa2s1_0, Pa2r1_0⟩, ⟨Pa2s1_1, Pa2r1_1⟩, ⟨Pa2s1_2, Pa2r1_2⟩, ⟨Pa2s1_3, Pa2r1_3⟩⟩, ⟨⟨Pa2s2_0, Pa2r2_0⟩, ⟨Pa2s2_1, Pa2r2_1⟩, ⟨Pa2s2_2, Pa2r2_2⟩, ⟨Pa2s2_3, Pa2r2_3⟩⟩, ⟨⟨Pa2s3_0, Pa2r3_0⟩, ⟨Pa2s3_1, Pa2r3_1⟩, ⟨Pa2s3_2, Pa2r3_2⟩, ⟨Pa2s3_3, Pa2r3_3⟩⟩, ⟨⟨Pa2s4_0, Pa2r4_0⟩, ⟨Pa2s4_1, Pa2r4_1⟩, ⟨Pa2s4_2, Pa2r4_2⟩, ⟨Pa2s4_3, Pa2r4_3⟩⟩, ⟨⟨Pa2s5_0, Pa2r5_0⟩, ⟨Pa2s5_1, Pa2r5_1⟩, ⟨Pa2s5_2, Pa2r5_2⟩, ⟨Pa2s5_3, Pa2r5_3⟩⟩, ⟨⟨Pa2s6_0, Pa2r6_0⟩, ⟨Pa2s6_1, Pa2r6_1⟩, ⟨Pa2s6_2, Pa2r6_2⟩, ⟨Pa2s6_3, Pa2r6_3⟩⟩, ⟨⟨Pa2s7_0, Pa2r7_0⟩, ⟨Pa2s7_1, Pa2r7_1⟩, ⟨Pa2s7_2, Pa2r7_2⟩, ⟨Pa2s7_3, Pa2r7_3⟩⟩⟩, ⟨⟨⟨Pbs0_0, Pbr0_0⟩, ⟨Pbs0_1, Pbr0_1⟩, ⟨Pbs0_2, Pbr0_2⟩, ⟨Pbs0_3, Pbr0_3⟩⟩, ⟨⟨Pbs1_0, Pbr1_0⟩, ⟨Pbs1_1, Pbr1_1⟩, ⟨Pbs1_2, Pbr1_2⟩, ⟨Pbs1_3, Pbr1_3⟩⟩, ⟨⟨Pbs2_0, Pbr2_0⟩, ⟨Pbs2_1, Pbr2_1⟩, ⟨Pbs2_2, Pbr2_2⟩, ⟨Pbs2_3, Pbr2_3⟩⟩, ⟨⟨Pbs3_0, Pbr3_0⟩, ⟨Pbs3_1, Pbr3_1⟩, ⟨Pbs3_2, Pbr3_2⟩, ⟨Pbs3_3, Pbr3_3⟩⟩, ⟨⟨Pbs4_0, Pbr4_0⟩, ⟨Pbs4_1, Pbr4_1⟩, ⟨Pbs4_2, Pbr4_2⟩, ⟨Pbs4_3, Pbr4_3⟩⟩, ⟨⟨Pbs5_0, Pbr5_0⟩, ⟨Pbs5_1, Pbr5_1⟩, ⟨Pbs5_2, Pbr5_2⟩, ⟨Pbs5_3, Pbr5_3⟩⟩, ⟨⟨Pbs6_0, Pbr6_0⟩, ⟨Pbs6_1, Pbr6_1⟩, ⟨Pbs6_2, Pbr6_2⟩, ⟨Pbs6_3, Pbr6_3⟩⟩, ⟨⟨Pbs7_0, Pbr7_0⟩, ⟨Pbs7_1, Pbr7_1⟩, ⟨Pbs7_2, Pbr7_2⟩, ⟨Pbs7_3, Pbr7_3⟩⟩⟩⟩, ⟨TbarP, TbarR1, TbarR2, TbarR3, TbarZ1, TbarZ2, TbarZ3, ⟨⟨Ta1s0, Ta1r0⟩, ⟨Ta1s1, Ta1r1⟩, ⟨Ta1s2, Ta1r2⟩, ⟨Ta1s3, Ta1r3⟩, ⟨Ta1s4, Ta1r4⟩, ⟨Ta1s5, Ta1r5⟩, ⟨Ta1s6, Ta1r6⟩, ⟨Ta1s7, Ta1r7⟩⟩, ⟨⟨⟨Ta2s0_1, Ta2r0_1⟩, ⟨Ta2s0_2, Ta2r0_2⟩, ⟨Ta2s0_3, Ta2r0_3⟩⟩, ⟨⟨Ta2s1_1, Ta2r1_1⟩, ⟨Ta2s1_2, Ta2r1_2⟩, ⟨Ta2s1_3, Ta2r1_3⟩⟩, ⟨⟨Ta2s2_1, Ta2r2_1⟩, ⟨Ta2s2_2, Ta2r2_2⟩, ⟨Ta2s2_3, Ta2r2_3⟩⟩, ⟨⟨Ta2s3_1, Ta2r3_1⟩, ⟨Ta2s3_2, Ta2r3_2⟩, ⟨Ta2s3_3, Ta2r3_3⟩⟩, ⟨⟨Ta2s4_1, Ta2r4_1⟩, ⟨Ta2s4_2, Ta2r4_2⟩, ⟨Ta2s4_3, Ta2r4_3⟩⟩, ⟨⟨Ta2s5_1, Ta2r5_1⟩, ⟨Ta2s5_2, Ta2r5_2⟩, ⟨Ta2s5_3, Ta2r5_3⟩⟩, ⟨⟨Ta2s6_1, Ta2r6_1⟩, ⟨Ta2s6_2, Ta2r6_2⟩, ⟨Ta2s6_3, Ta2r6_3⟩⟩, ⟨⟨Ta2s7_1, Ta2r7_1⟩, ⟨Ta2s7_2, Ta2r7_2⟩, ⟨Ta2s7_3, Ta2r7_3⟩⟩⟩, ⟨⟨⟨Tbs0_1, Tbr0_1⟩, ⟨Tbs0_2, Tbr0_2⟩, ⟨Tbs0_3, Tbr0_3⟩⟩, ⟨⟨Tbs1_1, Tbr1_1⟩, ⟨Tbs1_2, Tbr1_2⟩, ⟨Tbs1_3, Tbr1_3⟩⟩, ⟨⟨Tbs2_1, Tbr2_1⟩, ⟨Tbs2_2, Tbr2_2⟩, ⟨Tbs2_3, Tbr2_3⟩⟩, ⟨⟨Tbs3_1, Tbr3_1⟩, ⟨Tbs3_2, Tbr3_2⟩, ⟨Tbs3_3, Tbr3_3⟩⟩, ⟨⟨Tbs4_1, Tbr4_1⟩, ⟨Tbs4_2, Tbr4_2⟩, ⟨Tbs4_3, Tbr4_3⟩⟩, ⟨⟨Tbs5_1, Tbr5_1⟩, ⟨Tbs5_2, Tbr5_2⟩, ⟨Tbs5_3, Tbr5_3⟩⟩, ⟨⟨Tbs6_1, Tbr6_1⟩, ⟨Tbs6_2, Tbr6_2⟩, ⟨Tbs6_3, Tbr6_3⟩⟩, ⟨⟨Tbs7_1, Tbr7_1⟩, ⟨Tbs7_2, Tbr7_2⟩, ⟨Tbs7_3, Tbr7_3⟩⟩⟩⟩, ⟨Cbar, ⟨Ca1r0, Ca1r1, Ca1r2, Ca1r3, Ca1r4, Ca1r5, Ca1r6, Ca1r7⟩, ⟨⟨Ca2r0_1, Ca2r0_2, Ca2r0_3⟩, ⟨Ca2r1_1, Ca2r1_2, Ca2r1_3⟩, ⟨Ca2r2_1, Ca2r2_2, Ca2r2_3⟩, ⟨Ca2r3_1, Ca2r3_2, Ca2r3_3⟩, ⟨Ca2r4_1, Ca2r4_2, Ca2r4_3⟩, ⟨Ca2r5_1, Ca2r5_2, Ca2r5_3⟩, ⟨Ca2r6_1, Ca2r6_2, Ca2r6_3⟩, ⟨Ca2r7_1, Ca2r7_2, Ca2r7_3⟩⟩, ⟨⟨Cbr0_1, Cbr0_2, Cbr0_3⟩, ⟨Cbr1_1, Cbr1_2, Cbr1_3⟩, ⟨Cbr2_1, Cbr2_2, Cbr2_3⟩, ⟨Cbr3_1, Cbr3_2, Cbr3_3⟩, ⟨Cbr4_1, Cbr4_2, Cbr4_3⟩, ⟨Cbr5_1, Cbr5_2, Cbr5_3⟩, ⟨Cbr6_1, Cbr6_2, Cbr6_3⟩, ⟨Cbr7_1, Cbr7_2, Cbr7_3⟩⟩⟩⟩, #Hlev, HO, HA, HB, HR, S0, S1b, S2, S3, S4, S5, S6, S7, S8⟩, Hk⟩
  -- the stage-1 send buffer slot by slot; the two 32-slot receive buffers slot by slot in the order they are lent;
  -- the two 32-slot send buffers chunk by chunk (a chunk is stored at once, then sent slot by slot)
  ihave S2' := (Entails.of_eq (split1 sendA1 sendA1_univ c f2)) $$ S2
  ihave S6' := (Entails.of_eq (split2_by_step commA2 commA2_univ (yc c) c f6)) $$ S6
  ihave S8' := (Entails.of_eq (split3_by_step commB commB_univ (zc c) c f8)) $$ S8
  ihave S5' := (Entails.of_eq (split2_chunks sendA2 sendA2_univ c f5)) $$ S5
  ihave S7' := (Entails.of_eq (split3_chunks sendB sendB_univ c f7)) $$ S7
  simp (config := {proj := false, dsimp := false}) only [four, eight]
  icases S2' with ⟨X2_0, X2_1, X2_2, X2_3, X2_4, X2_5, X2_6, X2_7⟩
  icases S6' with ⟨⟨X6_0_1, X6_1_1, X6_2_1, X6_3_1, X6_4_1, X6_5_1, X6_6_1, X6_7_1⟩, ⟨X6_0_2, X6_1_2, X6_2_2, X6_3_2, X6_4_2, X6_5_2, X6_6_2, X6_7_2⟩, ⟨X6_0_3, X6_1_3, X6_2_3, X6_3_3, X6_4_3, X6_5_3, X6_6_3, X6_7_3⟩, ⟨X6_0_0, X6_1_0, X6_2_0, X6_3_0, X6_4_0, X6_5_0, X6_6_0, X6_7_0⟩⟩
  icases S8' with ⟨⟨X8_0_1, X8_1_1, X8_2_1, X8_3_1, X8_4_1, X8_5_1, X8_6_1, X8_7_1⟩, ⟨X8_0_2, X8_1_2, X8_2_2, X8_3_2, X8_4_2, X8_5_2, X8_6_2, X8_7_2⟩, ⟨X8_0_3, X8_1_3, X8_2_3, X8_3_3, X8_4_3, X8_5_3, X8_6_3, X8_7_3⟩, ⟨X8_0_0, X8_1_0, X8_2_0, X8_3_0, X8_4_0, X8_5_0, X8_6_0, X8_7_0⟩⟩
  icases S5' with ⟨C5_0, C5_1, C5_2, C5_3, C5_4, C5_5, C5_6, C5_7⟩
  icases S7' with ⟨C7_0, C7_1, C7_2, C7_3, C7_4, C7_5, C7_6, C7_7⟩
  ihave S3' := (Entails.of_eq (show ((((Memref.whole cc0_scratch3 : Memref sig .tc _ _ _).view.loc (c : Thread nD τ)) ↦{fullShare} f3 : sProp 𝕄)) = (((c : Thread nD τ).loc cc0_scratch3) ↦{fullShare} f3 : sProp 𝕄) from rfl)) $$ S3
  -- when the device may wait on its barrier: everything it still owes then lies above it
  have hmwBar : (levAts L lv : sProp 𝕄) ⊢ MayWait (c : Thread nD τ) (.reg barS) () (Oafter c 7) := mayWait_bar c 7 (le_refl _)
  have hdev8 : ∀ c : Dev nD, (⟨k0_dev8 c, k0_dev8_lt c⟩ : Dev nD) = partner c := fun c => dev8_eq c
  have hdev9 : ∀ c : Dev nD, (⟨k0_dev9 c, k0_dev9_lt c⟩ : Dev nD) = partner c := fun c => dev9_eq c
  have hdev10 : ∀ c : Dev nD, (⟨k0_dev10 c, k0_dev10_lt c⟩ : Dev nD) = partner c := fun c => dev10_eq c
  have hdev11 : ∀ c : Dev nD, (⟨k0_dev11 c, k0_dev11_lt c⟩ : Dev nD) = partner c := fun c => dev11_eq c
  have hdev12 : ∀ c : Dev nD, (⟨k0_dev12 c, k0_dev12_lt c⟩ : Dev nD) = partner c := fun c => dev12_eq c
  have hdev13 : ∀ c : Dev nD, (⟨k0_dev13 c, k0_dev13_lt c⟩ : Dev nD) = partner c := fun c => dev13_eq c
  have hdev14 : ∀ c : Dev nD, (⟨k0_dev14 c, k0_dev14_lt c⟩ : Dev nD) = partner c := fun c => dev14_eq c
  have hdev15 : ∀ c : Dev nD, (⟨k0_dev15 c, k0_dev15_lt c⟩ : Dev nD) = partner c := fun c => dev15_eq c
  have hdev16 : ∀ c : Dev nD, (⟨k0_dev16 c, k0_dev16_lt c⟩ : Dev nD) = rail c 1 := fun c => dev16_eq c
  have hdev17 : ∀ c : Dev nD, (⟨k0_dev17 c, k0_dev17_lt c⟩ : Dev nD) = rail c 2 := fun c => dev17_eq c
  have hdev18 : ∀ c : Dev nD, (⟨k0_dev18 c, k0_dev18_lt c⟩ : Dev nD) = rail c 3 := fun c => dev18_eq c
  have hdev19 : ∀ c : Dev nD, (⟨k0_dev19 c, k0_dev19_lt c⟩ : Dev nD) = rail c 1 := fun c => dev19_eq c
  have hdev20 : ∀ c : Dev nD, (⟨k0_dev20 c, k0_dev20_lt c⟩ : Dev nD) = rail c 2 := fun c => dev20_eq c
  have hdev21 : ∀ c : Dev nD, (⟨k0_dev21 c, k0_dev21_lt c⟩ : Dev nD) = rail c 3 := fun c => dev21_eq c
  have hdev22 : ∀ c : Dev nD, (⟨k0_dev22 c, k0_dev22_lt c⟩ : Dev nD) = rail c 1 := fun c => dev22_eq c
  have hdev23 : ∀ c : Dev nD, (⟨k0_dev23 c, k0_dev23_lt c⟩ : Dev nD) = rail c 2 := fun c => dev23_eq c
  have hdev24 : ∀ c : Dev nD, (⟨k0_dev24 c, k0_dev24_lt c⟩ : Dev nD) = rail c 3 := fun c => dev24_eq c
  have hdev25 : ∀ c : Dev nD, (⟨k0_dev25 c, k0_dev25_lt c⟩ : Dev nD) = rail c 1 := fun c => dev25_eq c
  have hdev26 : ∀ c : Dev nD, (⟨k0_dev26 c, k0_dev26_lt c⟩ : Dev nD) = rail c 2 := fun c => dev26_eq c
  have hdev27 : ∀ c : Dev nD, (⟨k0_dev27 c, k0_dev27_lt c⟩ : Dev nD) = rail c 3 := fun c => dev27_eq c
  have hdev28 : ∀ c : Dev nD, (⟨k0_dev28 c, k0_dev28_lt c⟩ : Dev nD) = rail c 1 := fun c => dev28_eq c
  have hdev29 : ∀ c : Dev nD, (⟨k0_dev29 c, k0_dev29_lt c⟩ : Dev nD) = rail c 2 := fun c => dev29_eq c
  have hdev30 : ∀ c : Dev nD, (⟨k0_dev30 c, k0_dev30_lt c⟩ : Dev nD) = rail c 3 := fun c => dev30_eq c
  have hdev31 : ∀ c : Dev nD, (⟨k0_dev31 c, k0_dev31_lt c⟩ : Dev nD) = rail c 1 := fun c => dev31_eq c
  have hdev32 : ∀ c : Dev nD, (⟨k0_dev32 c, k0_dev32_lt c⟩ : Dev nD) = rail c 2 := fun c => dev32_eq c
  have hdev33 : ∀ c : Dev nD, (⟨k0_dev33 c, k0_dev33_lt c⟩ : Dev nD) = rail c 3 := fun c => dev33_eq c
  have hdev34 : ∀ c : Dev nD, (⟨k0_dev34 c, k0_dev34_lt c⟩ : Dev nD) = rail c 1 := fun c => dev34_eq c
  have hdev35 : ∀ c : Dev nD, (⟨k0_dev35 c, k0_dev35_lt c⟩ : Dev nD) = rail c 2 := fun c => dev35_eq c
  have hdev36 : ∀ c : Dev nD, (⟨k0_dev36 c, k0_dev36_lt c⟩ : Dev nD) = rail c 3 := fun c => dev36_eq c
  have hdev37 : ∀ c : Dev nD, (⟨k0_dev37 c, k0_dev37_lt c⟩ : Dev nD) = rail c 1 := fun c => dev37_eq c
  have hdev38 : ∀ c : Dev nD, (⟨k0_dev38 c, k0_dev38_lt c⟩ : Dev nD) = rail c 2 := fun c => dev38_eq c
  have hdev39 : ∀ c : Dev nD, (⟨k0_dev39 c, k0_dev39_lt c⟩ : Dev nD) = rail c 3 := fun c => dev39_eq c
  have hdev40 : ∀ c : Dev nD, (⟨k0_dev40 c, k0_dev40_lt c⟩ : Dev nD) = zpeer c 1 := fun c => dev40_eq c
  have hdev41 : ∀ c : Dev nD, (⟨k0_dev41 c, k0_dev41_lt c⟩ : Dev nD) = zpeer c 2 := fun c => dev41_eq c
  have hdev42 : ∀ c : Dev nD, (⟨k0_dev42 c, k0_dev42_lt c⟩ : Dev nD) = zpeer c 3 := fun c => dev42_eq c
  have hdev43 : ∀ c : Dev nD, (⟨k0_dev43 c, k0_dev43_lt c⟩ : Dev nD) = zpeer c 1 := fun c => dev43_eq c
  have hdev44 : ∀ c : Dev nD, (⟨k0_dev44 c, k0_dev44_lt c⟩ : Dev nD) = zpeer c 2 := fun c => dev44_eq c
  have hdev45 : ∀ c : Dev nD, (⟨k0_dev45 c, k0_dev45_lt c⟩ : Dev nD) = zpeer c 3 := fun c => dev45_eq c
  have hdev46 : ∀ c : Dev nD, (⟨k0_dev46 c, k0_dev46_lt c⟩ : Dev nD) = zpeer c 1 := fun c => dev46_eq c
  have hdev47 : ∀ c : Dev nD, (⟨k0_dev47 c, k0_dev47_lt c⟩ : Dev nD) = zpeer c 2 := fun c => dev47_eq c
  have hdev48 : ∀ c : Dev nD, (⟨k0_dev48 c, k0_dev48_lt c⟩ : Dev nD) = zpeer c 3 := fun c => dev48_eq c
  have hdev49 : ∀ c : Dev nD, (⟨k0_dev49 c, k0_dev49_lt c⟩ : Dev nD) = zpeer c 1 := fun c => dev49_eq c
  have hdev50 : ∀ c : Dev nD, (⟨k0_dev50 c, k0_dev50_lt c⟩ : Dev nD) = zpeer c 2 := fun c => dev50_eq c
  have hdev51 : ∀ c : Dev nD, (⟨k0_dev51 c, k0_dev51_lt c⟩ : Dev nD) = zpeer c 3 := fun c => dev51_eq c
  have hdev52 : ∀ c : Dev nD, (⟨k0_dev52 c, k0_dev52_lt c⟩ : Dev nD) = zpeer c 1 := fun c => dev52_eq c
  have hdev53 : ∀ c : Dev nD, (⟨k0_dev53 c, k0_dev53_lt c⟩ : Dev nD) = zpeer c 2 := fun c => dev53_eq c
  have hdev54 : ∀ c : Dev nD, (⟨k0_dev54 c, k0_dev54_lt c⟩ : Dev nD) = zpeer c 3 := fun c => dev54_eq c
  have hdev55 : ∀ c : Dev nD, (⟨k0_dev55 c, k0_dev55_lt c⟩ : Dev nD) = zpeer c 1 := fun c => dev55_eq c
  have hdev56 : ∀ c : Dev nD, (⟨k0_dev56 c, k0_dev56_lt c⟩ : Dev nD) = zpeer c 2 := fun c => dev56_eq c
  have hdev57 : ∀ c : Dev nD, (⟨k0_dev57 c, k0_dev57_lt c⟩ : Dev nD) = zpeer c 3 := fun c => dev57_eq c
  have hdev58 : ∀ c : Dev nD, (⟨k0_dev58 c, k0_dev58_lt c⟩ : Dev nD) = zpeer c 1 := fun c => dev58_eq c
  have hdev59 : ∀ c : Dev nD, (⟨k0_dev59 c, k0_dev59_lt c⟩ : Dev nD) = zpeer c 2 := fun c => dev59_eq c
  have hdev60 : ∀ c : Dev nD, (⟨k0_dev60 c, k0_dev60_lt c⟩ : Dev nD) = zpeer c 3 := fun c => dev60_eq c
  have hdev61 : ∀ c : Dev nD, (⟨k0_dev61 c, k0_dev61_lt c⟩ : Dev nD) = zpeer c 1 := fun c => dev61_eq c
  have hdev62 : ∀ c : Dev nD, (⟨k0_dev62 c, k0_dev62_lt c⟩ : Dev nD) = zpeer c 2 := fun c => dev62_eq c
  have hdev63 : ∀ c : Dev nD, (⟨k0_dev63 c, k0_dev63_lt c⟩ : Dev nD) = zpeer c 3 := fun c => dev63_eq c
  unfold O₀ O1 O2 O3
  sl_unfold [cc0_body]
  set_option sl_exec.stepHeartbeats 400000 in
  set_option sl_exec.respelt true in
  sl_exec_parts
  clear hmwBar
  -- what the barrier wait handed back: the seven peers' grants, opened
  ihave Hg := (Entails.of_eq (bar_payloads0 (F := F) c)) $$ Pbar_pay1
  rw [grant1_eq, grant2_flat, grant2_flat, grant2_flat, grant3_flat, grant3_flat, grant3_flat]
  icases Hg with ⟨⟨⟨%g3p, Y3⟩, #R3_0, #R3_1, #R3_2, #R3_3, #R3_4, #R3_5, #R3_6, #R3_7⟩, ⟨⟨%v6r3_0, Y6r3_0⟩, #R6r3_0, ⟨%v6r3_1, Y6r3_1⟩, #R6r3_1, ⟨%v6r3_2, Y6r3_2⟩, #R6r3_2, ⟨%v6r3_3, Y6r3_3⟩, #R6r3_3, ⟨%v6r3_4, Y6r3_4⟩, #R6r3_4, ⟨%v6r3_5, Y6r3_5⟩, #R6r3_5, ⟨%v6r3_6, Y6r3_6⟩, #R6r3_6, ⟨%v6r3_7, Y6r3_7⟩, #R6r3_7⟩, ⟨⟨%v6r2_0, Y6r2_0⟩, #R6r2_0, ⟨%v6r2_1, Y6r2_1⟩, #R6r2_1, ⟨%v6r2_2, Y6r2_2⟩, #R6r2_2, ⟨%v6r2_3, Y6r2_3⟩, #R6r2_3, ⟨%v6r2_4, Y6r2_4⟩, #R6r2_4, ⟨%v6r2_5, Y6r2_5⟩, #R6r2_5, ⟨%v6r2_6, Y6r2_6⟩, #R6r2_6, ⟨%v6r2_7, Y6r2_7⟩, #R6r2_7⟩, ⟨⟨%v6r1_0, Y6r1_0⟩, #R6r1_0, ⟨%v6r1_1, Y6r1_1⟩, #R6r1_1, ⟨%v6r1_2, Y6r1_2⟩, #R6r1_2, ⟨%v6r1_3, Y6r1_3⟩, #R6r1_3, ⟨%v6r1_4, Y6r1_4⟩, #R6r1_4, ⟨%v6r1_5, Y6r1_5⟩, #R6r1_5, ⟨%v6r1_6, Y6r1_6⟩, #R6r1_6, ⟨%v6r1_7, Y6r1_7⟩, #R6r1_7⟩, ⟨⟨%v8z3_0, Y8z3_0⟩, #R8z3_0, ⟨%v8z3_1, Y8z3_1⟩, #R8z3_1, ⟨%v8z3_2, Y8z3_2⟩, #R8z3_2, ⟨%v8z3_3, Y8z3_3⟩, #R8z3_3, ⟨%v8z3_4, Y8z3_4⟩, #R8z3_4, ⟨%v8z3_5, Y8z3_5⟩, #R8z3_5, ⟨%v8z3_6, Y8z3_6⟩, #R8z3_6, ⟨%v8z3_7, Y8z3_7⟩, #R8z3_7⟩, ⟨⟨%v8z2_0, Y8z2_0⟩, #R8z2_0, ⟨%v8z2_1, Y8z2_1⟩, #R8z2_1, ⟨%v8z2_2, Y8z2_2⟩, #R8z2_2, ⟨%v8z2_3, Y8z2_3⟩, #R8z2_3, ⟨%v8z2_4, Y8z2_4⟩, #R8z2_4, ⟨%v8z2_5, Y8z2_5⟩, #R8z2_5, ⟨%v8z2_6, Y8z2_6⟩, #R8z2_6, ⟨%v8z2_7, Y8z2_7⟩, #R8z2_7⟩, ⟨⟨%v8z1_0, Y8z1_0⟩, #R8z1_0, ⟨%v8z1_1, Y8z1_1⟩, #R8z1_1, ⟨%v8z1_2, Y8z1_2⟩, #R8z1_2, ⟨%v8z1_3, Y8z1_3⟩, #R8z1_3, ⟨%v8z1_4, Y8z1_4⟩, #R8z1_4, ⟨%v8z1_5, Y8z1_5⟩, #R8z1_5, ⟨%v8z1_6, Y8z1_6⟩, #R8z1_6, ⟨%v8z1_7, Y8z1_7⟩, #R8z1_7⟩⟩
  -- the partner's stage-1 receive buffer, slot by slot, in the order the copies go
  ihave Y3s := (Entails.of_eq ((show (((((partner c : Dev nD)) : Thread nD τ).loc cc0_scratch3) ↦{fullShare} g3p : sProp 𝕄) = ((commA1.view.loc (((partner c : Dev nD)) : Thread nD τ)) ↦{fullShare} g3p : sProp 𝕄) from rfl).trans (split1 commA1 commA1_univ (partner c) g3p))) $$ Y3
  simp (config := {proj := false, dsimp := false}) only [eight]
  icases Y3s with ⟨Y3_0, Y3_1, Y3_2, Y3_3, Y3_4, Y3_5, Y3_6, Y3_7⟩
  set_option sl_exec.stepHeartbeats 400000 in
  set_option sl_exec.respelt true in
  sl_exec_parts
  -- chunk 0, stage 2: the wait on its stage-1 landing; only the later stages' arrivals are still owed
  have hmwA1_0 : (levAts L lv : sProp 𝕄) ⊢ MayWait (c : Thread nD τ) (.dma (sem8 cc0_scratch10 0)) () (Oafter c 15) := mayWait_a1r c 0 15 (by decide)
  set_option sl_exec.stepHeartbeats 400000 in
  set_option sl_exec.respelt true in
  sl_exec_parts
  clear hmwA1_0
  ihave X5c0 := (Entails.of_eq (chunk2_by_step sendA2 (yc c) 0 c _)) $$ C5_0
  icases X5c0 with ⟨X5_0_1, X5_0_2, X5_0_3, X5_0_0⟩
  set_option sl_exec.stepHeartbeats 400000 in
  set_option sl_exec.respelt true in
  sl_exec_parts
  -- chunk 1, stage 2: the wait on its stage-1 landing; only the later stages' arrivals are still owed
  have hmwA1_1 : (levAts L lv : sProp 𝕄) ⊢ MayWait (c : Thread nD τ) (.dma (sem8 cc0_scratch10 1)) () (Oafter c 18) := mayWait_a1r c 1 18 (by decide)
  set_option sl_exec.stepHeartbeats 400000 in
  set_option sl_exec.respelt true in
  sl_exec_parts
  clear hmwA1_1
  ihave X5c1 := (Entails.of_eq (chunk2_by_step sendA2 (yc c) 1 c _)) $$ C5_1
  icases X5c1 with ⟨X5_1_1, X5_1_2, X5_1_3, X5_1_0⟩
  set_option sl_exec.stepHeartbeats 400000 in
  set_option sl_exec.respelt true in
  sl_exec_parts
  -- chunk 2, stage 2: the wait on its stage-1 landing; only the later stages' arrivals are still owed
  have hmwA1_2 : (levAts L lv : sProp 𝕄) ⊢ MayWait (c : Thread nD τ) (.dma (sem8 cc0_scratch10 2)) () (Oafter c 21) := mayWait_a1r c 2 21 (by decide)
  set_option sl_exec.stepHeartbeats 400000 in
  set_option sl_exec.respelt true in
  sl_exec_parts
  clear hmwA1_2
  ihave X5c2 := (Entails.of_eq (chunk2_by_step sendA2 (yc c) 2 c _)) $$ C5_2
  icases X5c2 with ⟨X5_2_1, X5_2_2, X5_2_3, X5_2_0⟩
  set_option sl_exec.stepHeartbeats 400000 in
  set_option sl_exec.respelt true in
  sl_exec_parts
  -- chunk 3, stage 2: the wait on its stage-1 landing; only the later stages' arrivals are still owed
  have hmwA1_3 : (levAts L lv : sProp 𝕄) ⊢ MayWait (c : Thread nD τ) (.dma (sem8 cc0_scratch10 3)) () (Oafter c 24) := mayWait_a1r c 3 24 (by decide)
  set_option sl_exec.stepHeartbeats 400000 in
  set_option sl_exec.respelt true in
  sl_exec_parts
  clear hmwA1_3
  ihave X5c3 := (Entails.of_eq (chunk2_by_step sendA2 (yc c) 3 c _)) $$ C5_3
  icases X5c3 with ⟨X5_3_1, X5_3_2, X5_3_3, X5_3_0⟩
  set_option sl_exec.stepHeartbeats 400000 in
  set_option sl_exec.respelt true in
  sl_exec_parts
  -- chunk 4, stage 2: the wait on its stage-1 landing; only the later stages' arrivals are still owed
  have hmwA1_4 : (levAts L lv : sProp 𝕄) ⊢ MayWait (c : Thread nD τ) (.dma (sem8 cc0_scratch10 4)) () (Oafter c 27) := mayWait_a1r c 4 27 (by decide)
  set_option sl_exec.stepHeartbeats 400000 in
  set_option sl_exec.respelt true in
  sl_exec_parts
  clear hmwA1_4
  ihave X5c4 := (Entails.of_eq (chunk2_by_step sendA2 (yc c) 4 c _)) $$ C5_4
  icases X5c4 with ⟨X5_4_1, X5_4_2, X5_4_3, X5_4_0⟩
  set_option sl_exec.stepHeartbeats 400000 in
  set_option sl_exec.respelt true in
  sl_exec_parts
  -- chunk 5, stage 2: the wait on its stage-1 landing; only the later stages' arrivals are still owed
  have hmwA1_5 : (levAts L lv : sProp 𝕄) ⊢ MayWait (c : Thread nD τ) (.dma (sem8 cc0_scratch10 5)) () (Oafter c 30) := mayWait_a1r c 5 30 (by decide)
  set_option sl_exec.stepHeartbeats 400000 in
  set_option sl_exec.respelt true in
  sl_exec_parts
  clear hmwA1_5
  ihave X5c5 := (Entails.of_eq (chunk2_by_step sendA2 (yc c) 5 c _)) $$ C5_5
  icases X5c5 with ⟨X5_5_1, X5_5_2, X5_5_3, X5_5_0⟩
  set_option sl_exec.stepHeartbeats 400000 in
  set_option sl_exec.respelt true in
  sl_exec_parts
  -- chunk 6, stage 2: the wait on its stage-1 landing; only the later stages' arrivals are still owed
  have hmwA1_6 : (levAts L lv : sProp 𝕄) ⊢ MayWait (c : Thread nD τ) (.dma (sem8 cc0_scratch10 6)) () (Oafter c 33) := mayWait_a1r c 6 33 (by decide)
  set_option sl_exec.stepHeartbeats 400000 in
  set_option sl_exec.respelt true in
  sl_exec_parts
  clear hmwA1_6
  ihave X5c6 := (Entails.of_eq (chunk2_by_step sendA2 (yc c) 6 c _)) $$ C5_6
  icases X5c6 with ⟨X5_6_1, X5_6_2, X5_6_3, X5_6_0⟩
  set_option sl_exec.stepHeartbeats 400000 in
  set_option sl_exec.respelt true in
  sl_exec_parts
  -- chunk 7, stage 2: the wait on its stage-1 landing; only the later stages' arrivals are still owed
  have hmwA1_7 : (levAts L lv : sProp 𝕄) ⊢ MayWait (c : Thread nD τ) (.dma (sem8 cc0_scratch10 7)) () (Oafter c 36) := mayWait_a1r c 7 36 (by decide)
  set_option sl_exec.stepHeartbeats 400000 in
  set_option sl_exec.respelt true in
  sl_exec_parts
  clear hmwA1_7
  ihave X5c7 := (Entails.of_eq (chunk2_by_step sendA2 (yc c) 7 c _)) $$ C5_7
  icases X5c7 with ⟨X5_7_1, X5_7_2, X5_7_3, X5_7_0⟩
  set_option sl_exec.stepHeartbeats 400000 in
  set_option sl_exec.respelt true in
  sl_exec_parts
  -- chunk 0, stage 3: the three waits on its stage-2 landings; only stage-3 arrivals are still owed
  have hmwA2_0_3 : (levAts L lv : sProp 𝕄) ⊢ MayWait (c : Thread nD τ) (.dma (sem32 cc0_scratch12 (slot (yc c) 0 3))) () (Oafter c 39) := mayWait_a2r c _ 39 (by decide)
  have hmwA2_0_2 : (levAts L lv : sProp 𝕄) ⊢ MayWait (c : Thread nD τ) (.dma (sem32 cc0_scratch12 (slot (yc c) 0 2))) () (Oafter c 39) := mayWait_a2r c _ 39 (by decide)
  have hmwA2_0_1 : (levAts L lv : sProp 𝕄) ⊢ MayWait (c : Thread nD τ) (.dma (sem32 cc0_scratch12 (slot (yc c) 0 1))) () (Oafter c 39) := mayWait_a2r c _ 39 (by decide)
  set_option sl_exec.stepHeartbeats 400000 in
  set_option sl_exec.respelt true in
  sl_exec_parts
  clear hmwA2_0_3 hmwA2_0_2 hmwA2_0_1
  ihave X7c0 := (Entails.of_eq (chunk3_by_step sendB (zc c) 0 c _)) $$ C7_0
  icases X7c0 with ⟨X7_0_1, X7_0_2, X7_0_3, X7_0_0⟩
  set_option sl_exec.stepHeartbeats 400000 in
  set_option sl_exec.respelt true in
  sl_exec_parts
  -- chunk 1, stage 3: the three waits on its stage-2 landings; only stage-3 arrivals are still owed
  have hmwA2_1_3 : (levAts L lv : sProp 𝕄) ⊢ MayWait (c : Thread nD τ) (.dma (sem32 cc0_scratch12 (slot (yc c) 1 3))) () (Oafter c 42) := mayWait_a2r c _ 42 (by decide)
  have hmwA2_1_2 : (levAts L lv : sProp 𝕄) ⊢ MayWait (c : Thread nD τ) (.dma (sem32 cc0_scratch12 (slot (yc c) 1 2))) () (Oafter c 42) := mayWait_a2r c _ 42 (by decide)
  have hmwA2_1_1 : (levAts L lv : sProp 𝕄) ⊢ MayWait (c : Thread nD τ) (.dma (sem32 cc0_scratch12 (slot (yc c) 1 1))) () (Oafter c 42) := mayWait_a2r c _ 42 (by decide)
  set_option sl_exec.stepHeartbeats 400000 in
  set_option sl_exec.respelt true in
  sl_exec_parts
  clear hmwA2_1_3 hmwA2_1_2 hmwA2_1_1
  ihave X7c1 := (Entails.of_eq (chunk3_by_step sendB (zc c) 1 c _)) $$ C7_1
  icases X7c1 with ⟨X7_1_1, X7_1_2, X7_1_3, X7_1_0⟩
  set_option sl_exec.stepHeartbeats 400000 in
  set_option sl_exec.respelt true in
  sl_exec_parts
  -- chunk 2, stage 3: the three waits on its stage-2 landings; only stage-3 arrivals are still owed
  have hmwA2_2_3 : (levAts L lv : sProp 𝕄) ⊢ MayWait (c : Thread nD τ) (.dma (sem32 cc0_scratch12 (slot (yc c) 2 3))) () (Oafter c 45) := mayWait_a2r c _ 45 (by decide)
  have hmwA2_2_2 : (levAts L lv : sProp 𝕄) ⊢ MayWait (c : Thread nD τ) (.dma (sem32 cc0_scratch12 (slot (yc c) 2 2))) () (Oafter c 45) := mayWait_a2r c _ 45 (by decide)
  have hmwA2_2_1 : (levAts L lv : sProp 𝕄) ⊢ MayWait (c : Thread nD τ) (.dma (sem32 cc0_scratch12 (slot (yc c) 2 1))) () (Oafter c 45) := mayWait_a2r c _ 45 (by decide)
  set_option sl_exec.stepHeartbeats 400000 in
  set_option sl_exec.respelt true in
  sl_exec_parts
  clear hmwA2_2_3 hmwA2_2_2 hmwA2_2_1
  ihave X7c2 := (Entails.of_eq (chunk3_by_step sendB (zc c) 2 c _)) $$ C7_2
  icases X7c2 with ⟨X7_2_1, X7_2_2, X7_2_3, X7_2_0⟩
  set_option sl_exec.stepHeartbeats 400000 in
  set_option sl_exec.respelt true in
  sl_exec_parts
  -- chunk 3, stage 3: the three waits on its stage-2 landings; only stage-3 arrivals are still owed
  have hmwA2_3_3 : (levAts L lv : sProp 𝕄) ⊢ MayWait (c : Thread nD τ) (.dma (sem32 cc0_scratch12 (slot (yc c) 3 3))) () (Oafter c 48) := mayWait_a2r c _ 48 (by decide)
  have hmwA2_3_2 : (levAts L lv : sProp 𝕄) ⊢ MayWait (c : Thread nD τ) (.dma (sem32 cc0_scratch12 (slot (yc c) 3 2))) () (Oafter c 48) := mayWait_a2r c _ 48 (by decide)
  have hmwA2_3_1 : (levAts L lv : sProp 𝕄) ⊢ MayWait (c : Thread nD τ) (.dma (sem32 cc0_scratch12 (slot (yc c) 3 1))) () (Oafter c 48) := mayWait_a2r c _ 48 (by decide)
  set_option sl_exec.stepHeartbeats 400000 in
  set_option sl_exec.respelt true in
  sl_exec_parts
  clear hmwA2_3_3 hmwA2_3_2 hmwA2_3_1
  ihave X7c3 := (Entails.of_eq (chunk3_by_step sendB (zc c) 3 c _)) $$ C7_3
  icases X7c3 with ⟨X7_3_1, X7_3_2, X7_3_3, X7_3_0⟩
  set_option sl_exec.stepHeartbeats 400000 in
  set_option sl_exec.respelt true in
  sl_exec_parts
  -- chunk 4, stage 3: the three waits on its stage-2 landings; only stage-3 arrivals are still owed
  have hmwA2_4_3 : (levAts L lv : sProp 𝕄) ⊢ MayWait (c : Thread nD τ) (.dma (sem32 cc0_scratch12 (slot (yc c) 4 3))) () (Oafter c 51) := mayWait_a2r c _ 51 (by decide)
  have hmwA2_4_2 : (levAts L lv : sProp 𝕄) ⊢ MayWait (c : Thread nD τ) (.dma (sem32 cc0_scratch12 (slot (yc c) 4 2))) () (Oafter c 51) := mayWait_a2r c _ 51 (by decide)
  have hmwA2_4_1 : (levAts L lv : sProp 𝕄) ⊢ MayWait (c : Thread nD τ) (.dma (sem32 cc0_scratch12 (slot (yc c) 4 1))) () (Oafter c 51) := mayWait_a2r c _ 51 (by decide)
  set_option sl_exec.stepHeartbeats 400000 in
  set_option sl_exec.respelt true in
  sl_exec_parts
  clear hmwA2_4_3 hmwA2_4_2 hmwA2_4_1
  ihave X7c4 := (Entails.of_eq (chunk3_by_step sendB (zc c) 4 c _)) $$ C7_4
  icases X7c4 with ⟨X7_4_1, X7_4_2, X7_4_3, X7_4_0⟩
  set_option sl_exec.stepHeartbeats 400000 in
  set_option sl_exec.respelt true in
  sl_exec_parts
  -- chunk 5, stage 3: the three waits on its stage-2 landings; only stage-3 arrivals are still owed
  have hmwA2_5_3 : (levAts L lv : sProp 𝕄) ⊢ MayWait (c : Thread nD τ) (.dma (sem32 cc0_scratch12 (slot (yc c) 5 3))) () (Oafter c 54) := mayWait_a2r c _ 54 (by decide)
  have hmwA2_5_2 : (levAts L lv : sProp 𝕄) ⊢ MayWait (c : Thread nD τ) (.dma (sem32 cc0_scratch12 (slot (yc c) 5 2))) () (Oafter c 54) := mayWait_a2r c _ 54 (by decide)
  have hmwA2_5_1 : (levAts L lv : sProp 𝕄) ⊢ MayWait (c : Thread nD τ) (.dma (sem32 cc0_scratch12 (slot (yc c) 5 1))) () (Oafter c 54) := mayWait_a2r c _ 54 (by decide)
  set_option sl_exec.stepHeartbeats 400000 in
  set_option sl_exec.respelt true in
  sl_exec_parts
  clear hmwA2_5_3 hmwA2_5_2 hmwA2_5_1
  ihave X7c5 := (Entails.of_eq (chunk3_by_step sendB (zc c) 5 c _)) $$ C7_5
  icases X7c5 with ⟨X7_5_1, X7_5_2, X7_5_3, X7_5_0⟩
  set_option sl_exec.stepHeartbeats 400000 in
  set_option sl_exec.respelt true in
  sl_exec_parts
  -- chunk 6, stage 3: the three waits on its stage-2 landings; only stage-3 arrivals are still owed
  have hmwA2_6_3 : (levAts L lv : sProp 𝕄) ⊢ MayWait (c : Thread nD τ) (.dma (sem32 cc0_scratch12 (slot (yc c) 6 3))) () (Oafter c 57) := mayWait_a2r c _ 57 (by decide)
  have hmwA2_6_2 : (levAts L lv : sProp 𝕄) ⊢ MayWait (c : Thread nD τ) (.dma (sem32 cc0_scratch12 (slot (yc c) 6 2))) () (Oafter c 57) := mayWait_a2r c _ 57 (by decide)
  have hmwA2_6_1 : (levAts L lv : sProp 𝕄) ⊢ MayWait (c : Thread nD τ) (.dma (sem32 cc0_scratch12 (slot (yc c) 6 1))) () (Oafter c 57) := mayWait_a2r c _ 57 (by decide)
  set_option sl_exec.stepHeartbeats 400000 in
  set_option sl_exec.respelt true in
  sl_exec_parts
  clear hmwA2_6_3 hmwA2_6_2 hmwA2_6_1
  ihave X7c6 := (Entails.of_eq (chunk3_by_step sendB (zc c) 6 c _)) $$ C7_6
  icases X7c6 with ⟨X7_6_1, X7_6_2, X7_6_3, X7_6_0⟩
  set_option sl_exec.stepHeartbeats 400000 in
  set_option sl_exec.respelt true in
  sl_exec_parts
  -- chunk 7, stage 3: the three waits on its stage-2 landings; only stage-3 arrivals are still owed
  have hmwA2_7_3 : (levAts L lv : sProp 𝕄) ⊢ MayWait (c : Thread nD τ) (.dma (sem32 cc0_scratch12 (slot (yc c) 7 3))) () (Oafter c 60) := mayWait_a2r c _ 60 (by decide)
  have hmwA2_7_2 : (levAts L lv : sProp 𝕄) ⊢ MayWait (c : Thread nD τ) (.dma (sem32 cc0_scratch12 (slot (yc c) 7 2))) () (Oafter c 60) := mayWait_a2r c _ 60 (by decide)
  have hmwA2_7_1 : (levAts L lv : sProp 𝕄) ⊢ MayWait (c : Thread nD τ) (.dma (sem32 cc0_scratch12 (slot (yc c) 7 1))) () (Oafter c 60) := mayWait_a2r c _ 60 (by decide)
  set_option sl_exec.stepHeartbeats 400000 in
  set_option sl_exec.respelt true in
  sl_exec_parts
  clear hmwA2_7_3 hmwA2_7_2 hmwA2_7_1
  ihave X7c7 := (Entails.of_eq (chunk3_by_step sendB (zc c) 7 c _)) $$ C7_7
  icases X7c7 with ⟨X7_7_1, X7_7_2, X7_7_3, X7_7_0⟩
  set_option sl_exec.stepHeartbeats 400000 in
  set_option sl_exec.respelt true in
  sl_exec_parts
  -- nothing is owed any more: the stage-3 landings and the 56 departures may be waited for
  have hmwBr_0_3 : (levAts L lv : sProp 𝕄) ⊢ MayWait (c : Thread nD τ) (.dma (sem32 cc0_scratch14 (slot (zc c) 0 3))) () 0 := mayWait_none c _
  have hmwBr_0_2 : (levAts L lv : sProp 𝕄) ⊢ MayWait (c : Thread nD τ) (.dma (sem32 cc0_scratch14 (slot (zc c) 0 2))) () 0 := mayWait_none c _
  have hmwBr_0_1 : (levAts L lv : sProp 𝕄) ⊢ MayWait (c : Thread nD τ) (.dma (sem32 cc0_scratch14 (slot (zc c) 0 1))) () 0 := mayWait_none c _
  have hmwBr_1_3 : (levAts L lv : sProp 𝕄) ⊢ MayWait (c : Thread nD τ) (.dma (sem32 cc0_scratch14 (slot (zc c) 1 3))) () 0 := mayWait_none c _
  have hmwBr_1_2 : (levAts L lv : sProp 𝕄) ⊢ MayWait (c : Thread nD τ) (.dma (sem32 cc0_scratch14 (slot (zc c) 1 2))) () 0 := mayWait_none c _
  have hmwBr_1_1 : (levAts L lv : sProp 𝕄) ⊢ MayWait (c : Thread nD τ) (.dma (sem32 cc0_scratch14 (slot (zc c) 1 1))) () 0 := mayWait_none c _
  have hmwBr_2_3 : (levAts L lv : sProp 𝕄) ⊢ MayWait (c : Thread nD τ) (.dma (sem32 cc0_scratch14 (slot (zc c) 2 3))) () 0 := mayWait_none c _
  have hmwBr_2_2 : (levAts L lv : sProp 𝕄) ⊢ MayWait (c : Thread nD τ) (.dma (sem32 cc0_scratch14 (slot (zc c) 2 2))) () 0 := mayWait_none c _
  have hmwBr_2_1 : (levAts L lv : sProp 𝕄) ⊢ MayWait (c : Thread nD τ) (.dma (sem32 cc0_scratch14 (slot (zc c) 2 1))) () 0 := mayWait_none c _
  have hmwBr_3_3 : (levAts L lv : sProp 𝕄) ⊢ MayWait (c : Thread nD τ) (.dma (sem32 cc0_scratch14 (slot (zc c) 3 3))) () 0 := mayWait_none c _
  have hmwBr_3_2 : (levAts L lv : sProp 𝕄) ⊢ MayWait (c : Thread nD τ) (.dma (sem32 cc0_scratch14 (slot (zc c) 3 2))) () 0 := mayWait_none c _
  have hmwBr_3_1 : (levAts L lv : sProp 𝕄) ⊢ MayWait (c : Thread nD τ) (.dma (sem32 cc0_scratch14 (slot (zc c) 3 1))) () 0 := mayWait_none c _
  have hmwBr_4_3 : (levAts L lv : sProp 𝕄) ⊢ MayWait (c : Thread nD τ) (.dma (sem32 cc0_scratch14 (slot (zc c) 4 3))) () 0 := mayWait_none c _
  have hmwBr_4_2 : (levAts L lv : sProp 𝕄) ⊢ MayWait (c : Thread nD τ) (.dma (sem32 cc0_scratch14 (slot (zc c) 4 2))) () 0 := mayWait_none c _
  have hmwBr_4_1 : (levAts L lv : sProp 𝕄) ⊢ MayWait (c : Thread nD τ) (.dma (sem32 cc0_scratch14 (slot (zc c) 4 1))) () 0 := mayWait_none c _
  have hmwBr_5_3 : (levAts L lv : sProp 𝕄) ⊢ MayWait (c : Thread nD τ) (.dma (sem32 cc0_scratch14 (slot (zc c) 5 3))) () 0 := mayWait_none c _
  have hmwBr_5_2 : (levAts L lv : sProp 𝕄) ⊢ MayWait (c : Thread nD τ) (.dma (sem32 cc0_scratch14 (slot (zc c) 5 2))) () 0 := mayWait_none c _
  have hmwBr_5_1 : (levAts L lv : sProp 𝕄) ⊢ MayWait (c : Thread nD τ) (.dma (sem32 cc0_scratch14 (slot (zc c) 5 1))) () 0 := mayWait_none c _
  have hmwBr_6_3 : (levAts L lv : sProp 𝕄) ⊢ MayWait (c : Thread nD τ) (.dma (sem32 cc0_scratch14 (slot (zc c) 6 3))) () 0 := mayWait_none c _
  have hmwBr_6_2 : (levAts L lv : sProp 𝕄) ⊢ MayWait (c : Thread nD τ) (.dma (sem32 cc0_scratch14 (slot (zc c) 6 2))) () 0 := mayWait_none c _
  have hmwBr_6_1 : (levAts L lv : sProp 𝕄) ⊢ MayWait (c : Thread nD τ) (.dma (sem32 cc0_scratch14 (slot (zc c) 6 1))) () 0 := mayWait_none c _
  have hmwBr_7_3 : (levAts L lv : sProp 𝕄) ⊢ MayWait (c : Thread nD τ) (.dma (sem32 cc0_scratch14 (slot (zc c) 7 3))) () 0 := mayWait_none c _
  have hmwBr_7_2 : (levAts L lv : sProp 𝕄) ⊢ MayWait (c : Thread nD τ) (.dma (sem32 cc0_scratch14 (slot (zc c) 7 2))) () 0 := mayWait_none c _
  have hmwBr_7_1 : (levAts L lv : sProp 𝕄) ⊢ MayWait (c : Thread nD τ) (.dma (sem32 cc0_scratch14 (slot (zc c) 7 1))) () 0 := mayWait_none c _
  have hmwS1_0 : (levAts L lv : sProp 𝕄) ⊢ MayWait (c : Thread nD τ) (.dma (sem8 cc0_scratch9 0)) () 0 := mayWait_none c _
  have hmwS1_1 : (levAts L lv : sProp 𝕄) ⊢ MayWait (c : Thread nD τ) (.dma (sem8 cc0_scratch9 1)) () 0 := mayWait_none c _
  have hmwS1_2 : (levAts L lv : sProp 𝕄) ⊢ MayWait (c : Thread nD τ) (.dma (sem8 cc0_scratch9 2)) () 0 := mayWait_none c _
  have hmwS1_3 : (levAts L lv : sProp 𝕄) ⊢ MayWait (c : Thread nD τ) (.dma (sem8 cc0_scratch9 3)) () 0 := mayWait_none c _
  have hmwS1_4 : (levAts L lv : sProp 𝕄) ⊢ MayWait (c : Thread nD τ) (.dma (sem8 cc0_scratch9 4)) () 0 := mayWait_none c _
  have hmwS1_5 : (levAts L lv : sProp 𝕄) ⊢ MayWait (c : Thread nD τ) (.dma (sem8 cc0_scratch9 5)) () 0 := mayWait_none c _
  have hmwS1_6 : (levAts L lv : sProp 𝕄) ⊢ MayWait (c : Thread nD τ) (.dma (sem8 cc0_scratch9 6)) () 0 := mayWait_none c _
  have hmwS1_7 : (levAts L lv : sProp 𝕄) ⊢ MayWait (c : Thread nD τ) (.dma (sem8 cc0_scratch9 7)) () 0 := mayWait_none c _
  have hmwS2_0_1 : (levAts L lv : sProp 𝕄) ⊢ MayWait (c : Thread nD τ) (.dma (sem32 cc0_scratch11 (slot (yc c) 0 1))) () 0 := mayWait_none c _
  have hmwS2_0_2 : (levAts L lv : sProp 𝕄) ⊢ MayWait (c : Thread nD τ) (.dma (sem32 cc0_scratch11 (slot (yc c) 0 2))) () 0 := mayWait_none c _
  have hmwS2_0_3 : (levAts L lv : sProp 𝕄) ⊢ MayWait (c : Thread nD τ) (.dma (sem32 cc0_scratch11 (slot (yc c) 0 3))) () 0 := mayWait_none c _
  have hmwS2_1_1 : (levAts L lv : sProp 𝕄) ⊢ MayWait (c : Thread nD τ) (.dma (sem32 cc0_scratch11 (slot (yc c) 1 1))) () 0 := mayWait_none c _
  have hmwS2_1_2 : (levAts L lv : sProp 𝕄) ⊢ MayWait (c : Thread nD τ) (.dma (sem32 cc0_scratch11 (slot (yc c) 1 2))) () 0 := mayWait_none c _
  have hmwS2_1_3 : (levAts L lv : sProp 𝕄) ⊢ MayWait (c : Thread nD τ) (.dma (sem32 cc0_scratch11 (slot (yc c) 1 3))) () 0 := mayWait_none c _
  have hmwS2_2_1 : (levAts L lv : sProp 𝕄) ⊢ MayWait (c : Thread nD τ) (.dma (sem32 cc0_scratch11 (slot (yc c) 2 1))) () 0 := mayWait_none c _
  have hmwS2_2_2 : (levAts L lv : sProp 𝕄) ⊢ MayWait (c : Thread nD τ) (.dma (sem32 cc0_scratch11 (slot (yc c) 2 2))) () 0 := mayWait_none c _
  have hmwS2_2_3 : (levAts L lv : sProp 𝕄) ⊢ MayWait (c : Thread nD τ) (.dma (sem32 cc0_scratch11 (slot (yc c) 2 3))) () 0 := mayWait_none c _
  have hmwS2_3_1 : (levAts L lv : sProp 𝕄) ⊢ MayWait (c : Thread nD τ) (.dma (sem32 cc0_scratch11 (slot (yc c) 3 1))) () 0 := mayWait_none c _
  have hmwS2_3_2 : (levAts L lv : sProp 𝕄) ⊢ MayWait (c : Thread nD τ) (.dma (sem32 cc0_scratch11 (slot (yc c) 3 2))) () 0 := mayWait_none c _
  have hmwS2_3_3 : (levAts L lv : sProp 𝕄) ⊢ MayWait (c : Thread nD τ) (.dma (sem32 cc0_scratch11 (slot (yc c) 3 3))) () 0 := mayWait_none c _
  have hmwS2_4_1 : (levAts L lv : sProp 𝕄) ⊢ MayWait (c : Thread nD τ) (.dma (sem32 cc0_scratch11 (slot (yc c) 4 1))) () 0 := mayWait_none c _
  have hmwS2_4_2 : (levAts L lv : sProp 𝕄) ⊢ MayWait (c : Thread nD τ) (.dma (sem32 cc0_scratch11 (slot (yc c) 4 2))) () 0 := mayWait_none c _
  have hmwS2_4_3 : (levAts L lv : sProp 𝕄) ⊢ MayWait (c : Thread nD τ) (.dma (sem32 cc0_scratch11 (slot (yc c) 4 3))) () 0 := mayWait_none c _
  have hmwS2_5_1 : (levAts L lv : sProp 𝕄) ⊢ MayWait (c : Thread nD τ) (.dma (sem32 cc0_scratch11 (slot (yc c) 5 1))) () 0 := mayWait_none c _
  have hmwS2_5_2 : (levAts L lv : sProp 𝕄) ⊢ MayWait (c : Thread nD τ) (.dma (sem32 cc0_scratch11 (slot (yc c) 5 2))) () 0 := mayWait_none c _
  have hmwS2_5_3 : (levAts L lv : sProp 𝕄) ⊢ MayWait (c : Thread nD τ) (.dma (sem32 cc0_scratch11 (slot (yc c) 5 3))) () 0 := mayWait_none c _
  have hmwS2_6_1 : (levAts L lv : sProp 𝕄) ⊢ MayWait (c : Thread nD τ) (.dma (sem32 cc0_scratch11 (slot (yc c) 6 1))) () 0 := mayWait_none c _
  have hmwS2_6_2 : (levAts L lv : sProp 𝕄) ⊢ MayWait (c : Thread nD τ) (.dma (sem32 cc0_scratch11 (slot (yc c) 6 2))) () 0 := mayWait_none c _
  have hmwS2_6_3 : (levAts L lv : sProp 𝕄) ⊢ MayWait (c : Thread nD τ) (.dma (sem32 cc0_scratch11 (slot (yc c) 6 3))) () 0 := mayWait_none c _
  have hmwS2_7_1 : (levAts L lv : sProp 𝕄) ⊢ MayWait (c : Thread nD τ) (.dma (sem32 cc0_scratch11 (slot (yc c) 7 1))) () 0 := mayWait_none c _
  have hmwS2_7_2 : (levAts L lv : sProp 𝕄) ⊢ MayWait (c : Thread nD τ) (.dma (sem32 cc0_scratch11 (slot (yc c) 7 2))) () 0 := mayWait_none c _
  have hmwS2_7_3 : (levAts L lv : sProp 𝕄) ⊢ MayWait (c : Thread nD τ) (.dma (sem32 cc0_scratch11 (slot (yc c) 7 3))) () 0 := mayWait_none c _
  have hmwS3_0_1 : (levAts L lv : sProp 𝕄) ⊢ MayWait (c : Thread nD τ) (.dma (sem32 cc0_scratch13 (slot (zc c) 0 1))) () 0 := mayWait_none c _
  have hmwS3_0_2 : (levAts L lv : sProp 𝕄) ⊢ MayWait (c : Thread nD τ) (.dma (sem32 cc0_scratch13 (slot (zc c) 0 2))) () 0 := mayWait_none c _
  have hmwS3_0_3 : (levAts L lv : sProp 𝕄) ⊢ MayWait (c : Thread nD τ) (.dma (sem32 cc0_scratch13 (slot (zc c) 0 3))) () 0 := mayWait_none c _
  have hmwS3_1_1 : (levAts L lv : sProp 𝕄) ⊢ MayWait (c : Thread nD τ) (.dma (sem32 cc0_scratch13 (slot (zc c) 1 1))) () 0 := mayWait_none c _
  have hmwS3_1_2 : (levAts L lv : sProp 𝕄) ⊢ MayWait (c : Thread nD τ) (.dma (sem32 cc0_scratch13 (slot (zc c) 1 2))) () 0 := mayWait_none c _
  have hmwS3_1_3 : (levAts L lv : sProp 𝕄) ⊢ MayWait (c : Thread nD τ) (.dma (sem32 cc0_scratch13 (slot (zc c) 1 3))) () 0 := mayWait_none c _
  have hmwS3_2_1 : (levAts L lv : sProp 𝕄) ⊢ MayWait (c : Thread nD τ) (.dma (sem32 cc0_scratch13 (slot (zc c) 2 1))) () 0 := mayWait_none c _
  have hmwS3_2_2 : (levAts L lv : sProp 𝕄) ⊢ MayWait (c : Thread nD τ) (.dma (sem32 cc0_scratch13 (slot (zc c) 2 2))) () 0 := mayWait_none c _
  have hmwS3_2_3 : (levAts L lv : sProp 𝕄) ⊢ MayWait (c : Thread nD τ) (.dma (sem32 cc0_scratch13 (slot (zc c) 2 3))) () 0 := mayWait_none c _
  have hmwS3_3_1 : (levAts L lv : sProp 𝕄) ⊢ MayWait (c : Thread nD τ) (.dma (sem32 cc0_scratch13 (slot (zc c) 3 1))) () 0 := mayWait_none c _
  have hmwS3_3_2 : (levAts L lv : sProp 𝕄) ⊢ MayWait (c : Thread nD τ) (.dma (sem32 cc0_scratch13 (slot (zc c) 3 2))) () 0 := mayWait_none c _
  have hmwS3_3_3 : (levAts L lv : sProp 𝕄) ⊢ MayWait (c : Thread nD τ) (.dma (sem32 cc0_scratch13 (slot (zc c) 3 3))) () 0 := mayWait_none c _
  have hmwS3_4_1 : (levAts L lv : sProp 𝕄) ⊢ MayWait (c : Thread nD τ) (.dma (sem32 cc0_scratch13 (slot (zc c) 4 1))) () 0 := mayWait_none c _
  have hmwS3_4_2 : (levAts L lv : sProp 𝕄) ⊢ MayWait (c : Thread nD τ) (.dma (sem32 cc0_scratch13 (slot (zc c) 4 2))) () 0 := mayWait_none c _
  have hmwS3_4_3 : (levAts L lv : sProp 𝕄) ⊢ MayWait (c : Thread nD τ) (.dma (sem32 cc0_scratch13 (slot (zc c) 4 3))) () 0 := mayWait_none c _
  have hmwS3_5_1 : (levAts L lv : sProp 𝕄) ⊢ MayWait (c : Thread nD τ) (.dma (sem32 cc0_scratch13 (slot (zc c) 5 1))) () 0 := mayWait_none c _
  have hmwS3_5_2 : (levAts L lv : sProp 𝕄) ⊢ MayWait (c : Thread nD τ) (.dma (sem32 cc0_scratch13 (slot (zc c) 5 2))) () 0 := mayWait_none c _
  have hmwS3_5_3 : (levAts L lv : sProp 𝕄) ⊢ MayWait (c : Thread nD τ) (.dma (sem32 cc0_scratch13 (slot (zc c) 5 3))) () 0 := mayWait_none c _
  have hmwS3_6_1 : (levAts L lv : sProp 𝕄) ⊢ MayWait (c : Thread nD τ) (.dma (sem32 cc0_scratch13 (slot (zc c) 6 1))) () 0 := mayWait_none c _
  have hmwS3_6_2 : (levAts L lv : sProp 𝕄) ⊢ MayWait (c : Thread nD τ) (.dma (sem32 cc0_scratch13 (slot (zc c) 6 2))) () 0 := mayWait_none c _
  have hmwS3_6_3 : (levAts L lv : sProp 𝕄) ⊢ MayWait (c : Thread nD τ) (.dma (sem32 cc0_scratch13 (slot (zc c) 6 3))) () 0 := mayWait_none c _
  have hmwS3_7_1 : (levAts L lv : sProp 𝕄) ⊢ MayWait (c : Thread nD τ) (.dma (sem32 cc0_scratch13 (slot (zc c) 7 1))) () 0 := mayWait_none c _
  have hmwS3_7_2 : (levAts L lv : sProp 𝕄) ⊢ MayWait (c : Thread nD τ) (.dma (sem32 cc0_scratch13 (slot (zc c) 7 2))) () 0 := mayWait_none c _
  have hmwS3_7_3 : (levAts L lv : sProp 𝕄) ⊢ MayWait (c : Thread nD τ) (.dma (sem32 cc0_scratch13 (slot (zc c) 7 3))) () 0 := mayWait_none c _
  set_option sl_exec.stepHeartbeats 400000 in
  set_option sl_exec.respelt true in
  sl_exec_parts
  -- the end: every own cell closed, every buffer put back together
  iapply (BodyClose2.close m K c Kt)
  isplitr [Hk]
  · unfold BodyEnd.endState BodyEnd.endOwes BodyEnd.endStgA BodyEnd.endStgB BodyEnd.endStgR BodyEnd.endAb BodyEnd.endBb BodyEnd.endSendA1 BodyEnd.endCommA1 BodyEnd.endOwnA BodyEnd.endSendA2 BodyEnd.endCommA2 BodyEnd.endSendB BodyEnd.endCommB BodyEnd.slots1 BodyEnd.slots2 BodyEnd.slots3 BodyClose.positionsEnd Ghost.ownInvs
    simp (config := {proj := false, dsimp := false}) only [Ghost.three, Ghost.four, Ghost.eight]
    sl_close
  · iexact Hk

end Cert.KernelIdeal.Body

end
-- ==== Proof.Word.ChunkGeom.lean ====
/-
  The stage-two and stage-three send buffers cut into their eight chunks of four slots. Chunk q is the rows
  4 q .. 4 q + 3, one slice. The leading coordinate of an index, divided by 4, names exactly one chunk, and inside
  chunk q the four slots 4 q + (v + s) % 4, s = 0, 1, 2, 3, from any base v, are the four rows; so holding a chunk
  is holding its four slots over the same contents, and holding the buffer is holding its eight chunks.
-/
import proofs.«900893_g7700000000000894_dist_matmul_mk_i_outk_m1024_n1024_k512_v7x_i32_f32_1_alg».proof.Proof.Word.SlotGeom

noncomputable section

namespace Cert.Kernel.ChunkGeom

open Cert.Kernel Cert.Kernel.Gen Cert.Kernel.Proto Cert.Kernel.Ghost Cert.Kernel.SlotGeom
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Stage two -/

theorem inbC2 (q : Fin 8) : ∀ a, (![4 * q.val, 0, 0, 0] : Fin 4 → ℕ) a + S4x4x32x128.size a ≤ S32x4x32x128.size a := by
  intro a; have := q.isLt; fin_cases a <;> simp <;> omega

/-- The rectangle of chunk q: leading coordinates 4 q .. 4 q + 3, everything on the other axes. -/
abbrev rectC2 (q : Fin 8) : Rect S32x4x32x128 :=
  Rect.unit (s := S32x4x32x128) ![4 * q.val, 0, 0, 0] S4x4x32x128.size (inbC2 q)

/-- Chunk q of a stage-two buffer: its four rows 4 q .. 4 q + 3 as one slice. -/
abbrev chunk2 (M : Memref sig .tc .vmem S32x4x32x128 .bf16) (q : Fin 8) : Memref sig .tc .vmem S4x4x32x128 .bf16 :=
  M.slice (rectC2 q) (fun _ => rfl)

/-- An index lies in chunk q's rectangle exactly when its leading coordinate, divided by 4, is q. -/
theorem mem_rectC2 (q : Fin 8) (j : S32x4x32x128.Idx) : j ∈ (rectC2 q).set ↔ (j 0).val / 4 = q.val := by
  rw [Rect.mem_set_unit]
  constructor
  · intro h
    have h0 := h 0
    simp at h0
    omega
  · intro h a
    have ha := (j a).isLt
    fin_cases a <;> simp at ha ⊢ <;> omega

/-- A chunk's elements are its rectangle's, seen through the buffer's view. -/
theorem chunk2_set (M : Memref sig .tc .vmem S32x4x32x128 .bf16) (q : Fin 8) :
    (chunk2 M q).view.set = (rectC2 q).set.map M.view.emb :=
  View.set_slice _ _

/-- The elements of chunk q are those of its four slots, from any base. -/
theorem chunk2_cover (M : Memref sig .tc .vmem S32x4x32x128 .bf16) (v : ℕ) (q : Fin 8) (c : Dev nD) :
    ((chunk2 M q).view.set : Finset (Idx (M.view.loc (c : Thread nD τ))))
      = Finset.univ.biUnion fun s : Fin 4 => ((slot2 M (slot v q s.val)).view.set : Finset (Idx (M.view.loc (c : Thread nD τ)))) := by
  ext j
  constructor
  · intro hj
    rw [chunk2_set] at hj
    obtain ⟨x, hx, rfl⟩ := Finset.mem_map.mp hj
    have hq := (mem_rectC2 q x).mp hx
    refine Finset.mem_biUnion.mpr ⟨⟨((x 0).val % 4 + 4 - v % 4) % 4, Nat.mod_lt _ (by decide)⟩, Finset.mem_univ _, ?_⟩
    rw [slot2_set]
    refine Finset.mem_map_of_mem _ ((mem_rect2 _ x).mpr ?_)
    rw [Cert.Mesh.slot_val]
    show (x 0).val = 4 * q.val + (v + ((x 0).val % 4 + 4 - v % 4) % 4) % 4
    omega
  · intro hj
    obtain ⟨s, -, hs⟩ := Finset.mem_biUnion.mp hj
    rw [slot2_set] at hs
    obtain ⟨x, hx, rfl⟩ := Finset.mem_map.mp hs
    rw [chunk2_set]
    refine Finset.mem_map_of_mem _ ((mem_rectC2 q x).mpr ?_)
    have h := (mem_rect2 _ x).mp hx
    rw [Cert.Mesh.slot_val] at h
    omega

/-- Holding a chunk is holding its four slots, over the same contents. -/
theorem chunk2_split_all (M : Memref sig .tc .vmem S32x4x32x128 .bf16) (v : ℕ) (q : Fin 8) (c : Dev nD)
    (f : Buf (Elt F) (M.view.loc (c : Thread nD τ))) :
    ((chunk2 M q).view.loc (c : Thread nD τ) ↦[(chunk2 M q).view.set]{fullShare} f : sProp 𝕄)
      = bigSep Finset.univ (fun s : Fin 4 =>
          (slot2 M (slot v q s.val)).view.loc (c : Thread nD τ) ↦[(slot2 M (slot v q s.val)).view.set]{fullShare} f) := by
  have key : (M.view.loc (c : Thread nD τ) ↦[Finset.univ.biUnion fun s : Fin 4 => ((slot2 M (slot v q s.val)).view.set : Finset (Idx (M.view.loc (c : Thread nD τ))))]{fullShare} f : sProp 𝕄)
      = bigSep Finset.univ fun s : Fin 4 => (M.view.loc (c : Thread nD τ) ↦[(slot2 M (slot v q s.val)).view.set]{fullShare} f) :=
    pointsTo_biUnion (ℓ := M.view.loc (c : Thread nD τ)) Finset.univ _ (fun s _ s' _ h => slot2_disjoint M _ _ (fun e => h (Fin.ext (by
      have h1 := Cert.Mesh.slot_inj_s v q s.val s'.val e
      have h2 := s.isLt
      have h3 := s'.isLt
      omega))))
  rw [chunk2_cover M v q c]
  exact key

/-- The same, step by step: the slot one advance on, then two, then three, then the own slot. -/
theorem chunk2_by_step (M : Memref sig .tc .vmem S32x4x32x128 .bf16) (v : ℕ) (q : Fin 8) (c : Dev nD)
    (f : Buf (Elt F) (M.view.loc (c : Thread nD τ))) :
    ((chunk2 M q).view.loc (c : Thread nD τ) ↦[(chunk2 M q).view.set]{fullShare} f : sProp 𝕄)
      = iprop(((slot2 M (slot v q 1)).view.loc (c : Thread nD τ) ↦[(slot2 M (slot v q 1)).view.set]{fullShare} f)
        ∗ ((slot2 M (slot v q 2)).view.loc (c : Thread nD τ) ↦[(slot2 M (slot v q 2)).view.set]{fullShare} f)
        ∗ ((slot2 M (slot v q 3)).view.loc (c : Thread nD τ) ↦[(slot2 M (slot v q 3)).view.set]{fullShare} f)
        ∗ ((slot2 M (slot v q 0)).view.loc (c : Thread nD τ) ↦[(slot2 M (slot v q 0)).view.set]{fullShare} f)) :=
  (chunk2_split_all M v q c f).trans
    ((four_eq (fun s => (slot2 M (slot v q s)).view.loc (c : Thread nD τ) ↦[(slot2 M (slot v q s)).view.set]{fullShare} f)).symm.trans
      (rot4 _ _ _ _))

/-- A stage-two buffer whose view is all of it is its eight chunks. -/
theorem split2_chunks (M : Memref sig .tc .vmem S32x4x32x128 .bf16) (hM : M.view.set = Finset.univ) (c : Dev nD)
    (f : Buf (Elt F) (M.view.loc (c : Thread nD τ))) :
    (M.view.loc (c : Thread nD τ) ↦{fullShare} f : sProp 𝕄)
      = eight (fun q => (chunk2 M q).view.loc (c : Thread nD τ) ↦[(chunk2 M q).view.set]{fullShare} f) := by
  rw [split2 M hM 0 c f]
  refine congrArg eight (funext fun q => ?_)
  exact (four_eq (fun s => (slot2 M (slot 0 q s)).view.loc (c : Thread nD τ) ↦[(slot2 M (slot 0 q s)).view.set]{fullShare} f)).trans
    (chunk2_split_all M 0 q c f).symm

/-! ## Stage three -/

theorem inbC3 (q : Fin 8) : ∀ a, (![4 * q.val, 0, 0] : Fin 3 → ℕ) a + S4x32x128.size a ≤ S32x32x128.size a := by
  intro a; have := q.isLt; fin_cases a <;> simp <;> omega

/-- The rectangle of chunk q: leading coordinates 4 q .. 4 q + 3, everything on the other axes. -/
abbrev rectC3 (q : Fin 8) : Rect S32x32x128 :=
  Rect.unit (s := S32x32x128) ![4 * q.val, 0, 0] S4x32x128.size (inbC3 q)

/-- Chunk q of a stage-three buffer: its four rows 4 q .. 4 q + 3 as one slice. -/
abbrev chunk3 (M : Memref sig .tc .vmem S32x32x128 .bf16) (q : Fin 8) : Memref sig .tc .vmem S4x32x128 .bf16 :=
  M.slice (rectC3 q) (fun _ => rfl)

/-- An index lies in chunk q's rectangle exactly when its leading coordinate, divided by 4, is q. -/
theorem mem_rectC3 (q : Fin 8) (j : S32x32x128.Idx) : j ∈ (rectC3 q).set ↔ (j 0).val / 4 = q.val := by
  rw [Rect.mem_set_unit]
  constructor
  · intro h
    have h0 := h 0
    simp at h0
    omega
  · intro h a
    have ha := (j a).isLt
    fin_cases a <;> simp at ha ⊢ <;> omega

/-- A chunk's elements are its rectangle's, seen through the buffer's view. -/
theorem chunk3_set (M : Memref sig .tc .vmem S32x32x128 .bf16) (q : Fin 8) :
    (chunk3 M q).view.set = (rectC3 q).set.map M.view.emb :=
  View.set_slice _ _

/-- The elements of chunk q are those of its four slots, from any base. -/
theorem chunk3_cover (M : Memref sig .tc .vmem S32x32x128 .bf16) (v : ℕ) (q : Fin 8) (c : Dev nD) :
    ((chunk3 M q).view.set : Finset (Idx (M.view.loc (c : Thread nD τ))))
      = Finset.univ.biUnion fun s : Fin 4 => ((slot3 M (slot v q s.val)).view.set : Finset (Idx (M.view.loc (c : Thread nD τ)))) := by
  ext j
  constructor
  · intro hj
    rw [chunk3_set] at hj
    obtain ⟨x, hx, rfl⟩ := Finset.mem_map.mp hj
    have hq := (mem_rectC3 q x).mp hx
    refine Finset.mem_biUnion.mpr ⟨⟨((x 0).val % 4 + 4 - v % 4) % 4, Nat.mod_lt _ (by decide)⟩, Finset.mem_univ _, ?_⟩
    rw [slot3_set]
    refine Finset.mem_map_of_mem _ ((mem_rect3 _ x).mpr ?_)
    rw [Cert.Mesh.slot_val]
    show (x 0).val = 4 * q.val + (v + ((x 0).val % 4 + 4 - v % 4) % 4) % 4
    omega
  · intro hj
    obtain ⟨s, -, hs⟩ := Finset.mem_biUnion.mp hj
    rw [slot3_set] at hs
    obtain ⟨x, hx, rfl⟩ := Finset.mem_map.mp hs
    rw [chunk3_set]
    refine Finset.mem_map_of_mem _ ((mem_rectC3 q x).mpr ?_)
    have h := (mem_rect3 _ x).mp hx
    rw [Cert.Mesh.slot_val] at h
    omega

/-- Holding a chunk is holding its four slots, over the same contents. -/
theorem chunk3_split_all (M : Memref sig .tc .vmem S32x32x128 .bf16) (v : ℕ) (q : Fin 8) (c : Dev nD)
    (f : Buf (Elt F) (M.view.loc (c : Thread nD τ))) :
    ((chunk3 M q).view.loc (c : Thread nD τ) ↦[(chunk3 M q).view.set]{fullShare} f : sProp 𝕄)
      = bigSep Finset.univ (fun s : Fin 4 =>
          (slot3 M (slot v q s.val)).view.loc (c : Thread nD τ) ↦[(slot3 M (slot v q s.val)).view.set]{fullShare} f) := by
  have key : (M.view.loc (c : Thread nD τ) ↦[Finset.univ.biUnion fun s : Fin 4 => ((slot3 M (slot v q s.val)).view.set : Finset (Idx (M.view.loc (c : Thread nD τ))))]{fullShare} f : sProp 𝕄)
      = bigSep Finset.univ fun s : Fin 4 => (M.view.loc (c : Thread nD τ) ↦[(slot3 M (slot v q s.val)).view.set]{fullShare} f) :=
    pointsTo_biUnion (ℓ := M.view.loc (c : Thread nD τ)) Finset.univ _ (fun s _ s' _ h => slot3_disjoint M _ _ (fun e => h (Fin.ext (by
      have h1 := Cert.Mesh.slot_inj_s v q s.val s'.val e
      have h2 := s.isLt
      have h3 := s'.isLt
      omega))))
  rw [chunk3_cover M v q c]
  exact key

/-- The same, step by step: the slot one advance on, then two, then three, then the own slot. -/
theorem chunk3_by_step (M : Memref sig .tc .vmem S32x32x128 .bf16) (v : ℕ) (q : Fin 8) (c : Dev nD)
    (f : Buf (Elt F) (M.view.loc (c : Thread nD τ))) :
    ((chunk3 M q).view.loc (c : Thread nD τ) ↦[(chunk3 M q).view.set]{fullShare} f : sProp 𝕄)
      = iprop(((slot3 M (slot v q 1)).view.loc (c : Thread nD τ) ↦[(slot3 M (slot v q 1)).view.set]{fullShare} f)
        ∗ ((slot3 M (slot v q 2)).view.loc (c : Thread nD τ) ↦[(slot3 M (slot v q 2)).view.set]{fullShare} f)
        ∗ ((slot3 M (slot v q 3)).view.loc (c : Thread nD τ) ↦[(slot3 M (slot v q 3)).view.set]{fullShare} f)
        ∗ ((slot3 M (slot v q 0)).view.loc (c : Thread nD τ) ↦[(slot3 M (slot v q 0)).view.set]{fullShare} f)) :=
  (chunk3_split_all M v q c f).trans
    ((four_eq (fun s => (slot3 M (slot v q s)).view.loc (c : Thread nD τ) ↦[(slot3 M (slot v q s)).view.set]{fullShare} f)).symm.trans
      (rot4 _ _ _ _))

/-- A stage-three buffer whose view is all of it is its eight chunks. -/
theorem split3_chunks (M : Memref sig .tc .vmem S32x32x128 .bf16) (hM : M.view.set = Finset.univ) (c : Dev nD)
    (f : Buf (Elt F) (M.view.loc (c : Thread nD τ))) :
    (M.view.loc (c : Thread nD τ) ↦{fullShare} f : sProp 𝕄)
      = eight (fun q => (chunk3 M q).view.loc (c : Thread nD τ) ↦[(chunk3 M q).view.set]{fullShare} f) := by
  rw [split3 M hM 0 c f]
  refine congrArg eight (funext fun q => ?_)
  exact (four_eq (fun s => (slot3 M (slot 0 q s)).view.loc (c : Thread nD τ) ↦[(slot3 M (slot 0 q s)).view.set]{fullShare} f)).trans
    (chunk3_split_all M 0 q c f).symm

end Cert.Kernel.ChunkGeom

end
-- ==== Proof.Word.Canon.lean ====
/-
  Canonical names. The kernel spells a slot of an exchange buffer, or a semaphore of a semaphore array, through
  an offset computed from the device id; each such spelling is the slot, or the semaphore, whose number is given
  by the device's row or plane coordinate: 4·q + (v + s) % 4 for column chunk q and advance s.
-/
import proofs.«900893_g7700000000000894_dist_matmul_mk_i_outk_m1024_n1024_k512_v7x_i32_f32_1_alg».proof.Proof.Word.MeshFacts
import proofs.«900893_g7700000000000894_dist_matmul_mk_i_outk_m1024_n1024_k512_v7x_i32_f32_1_alg».proof.Proof.SlotIdx
import proofs.«900893_g7700000000000894_dist_matmul_mk_i_outk_m1024_n1024_k512_v7x_i32_f32_1_alg».proof.Proof.Word.Proto
import proofs.«900893_g7700000000000894_dist_matmul_mk_i_outk_m1024_n1024_k512_v7x_i32_f32_1_alg».proof.Proof.Word.LaunchSems

set_option Elab.async false

noncomputable section

namespace Cert.Kernel.Canon

open Cert.Kernel Cert.Kernel.Gen Cert.Kernel.Facts₀
open Cert.Kernel.Proto
open Cert.Mesh (partner rail zpeer zc pc yc xc pOf dev slot slot_val)
open Idealize.ShloMosaic Idealize.SL.Sem

/-! ## The offsets through the slot numbers

An offset with parameters (4·q, s) is slot q of the coordinate advanced by s; the offsets of the slots a device
receives into run behind it, at the advance 4 − s. -/

theorem off3_slot (c : Dev nD) (r₁ : Fin 8) (r₂ : Fin 3) :
    k0_off3 c (BitVec.ofNat 32 (4 * r₁.val)) (BitVec.ofNat 32 (1 + r₂.val)) = ![(slot (yc c) r₁ (1 + r₂.val)).val] :=
  MeshFacts.off3_eq c r₁ r₂

theorem off4_slot (c : Dev nD) (r : Fin 8) :
    k0_off4 c (BitVec.ofNat 32 (4 * r.val)) = ![(slot (yc c) r 0).val] := by
  have e : 4 * r.val + yc c = (slot (yc c) r 0).val := by rw [slot_val]; have := MeshFacts.yc_lt c; omega
  rw [MeshFacts.off4_eq, e]

theorem off5_slot (c : Dev nD) (r : Fin 8) :
    k0_off5 c (BitVec.ofNat 32 (4 * r.val)) = ![(slot (yc c) r 0).val, 0, 0, 0] := by
  have e : 4 * r.val + yc c = (slot (yc c) r 0).val := by rw [slot_val]; have := MeshFacts.yc_lt c; omega
  rw [MeshFacts.off5_eq, e]

theorem off6_slot (c : Dev nD) (r₁ : Fin 8) (r₂ : Fin 3) :
    k0_off6 c (BitVec.ofNat 32 (4 * r₁.val)) (BitVec.ofNat 32 (1 + r₂.val)) = ![(slot (yc c) r₁ (1 + r₂.val)).val, 0, 0, 0] :=
  MeshFacts.off6_eq c r₁ r₂

theorem off7_slot (c : Dev nD) (r : Fin 8) :
    k0_off7 c (BitVec.ofNat 32 (4 * r.val)) = ![(slot (yc c) r 0).val, 0, 0, 0] := by
  have e : 4 * r.val + yc c = (slot (yc c) r 0).val := by rw [slot_val]; have := MeshFacts.yc_lt c; omega
  rw [MeshFacts.off7_eq, e]

theorem off8_slot (c : Dev nD) (r₁ : Fin 8) (r₂ : Fin 3) :
    k0_off8 c (BitVec.ofNat 32 (4 * r₁.val)) (BitVec.ofNat 32 (1 + r₂.val)) = ![(slot (yc c) r₁ (3 - r₂.val)).val] := by
  have e : 4 * r₁.val + (yc c + 4 - (1 + r₂.val)) % 4 = (slot (yc c) r₁ (3 - r₂.val)).val := by rw [slot_val]; have := r₂.isLt; omega
  rw [MeshFacts.off8_eq, e]

theorem off9_slot (c : Dev nD) (r₁ : Fin 8) (r₂ : Fin 3) :
    k0_off9 c (BitVec.ofNat 32 (4 * r₁.val)) (BitVec.ofNat 32 (1 + r₂.val)) = ![(slot (yc c) r₁ (3 - r₂.val)).val, 0, 0, 0] := by
  have e : 4 * r₁.val + (yc c + 4 - (1 + r₂.val)) % 4 = (slot (yc c) r₁ (3 - r₂.val)).val := by rw [slot_val]; have := r₂.isLt; omega
  rw [MeshFacts.off9_eq, e]

theorem off10_slot (c : Dev nD) (r₁ : Fin 8) (r₂ : Fin 3) :
    k0_off10 c (BitVec.ofNat 32 (4 * r₁.val)) (BitVec.ofNat 32 (1 + r₂.val)) = ![(slot (yc c) r₁ (3 - r₂.val)).val, 0, 0, 0] := by
  have e : 4 * r₁.val + (yc c + 4 - (1 + r₂.val)) % 4 = (slot (yc c) r₁ (3 - r₂.val)).val := by rw [slot_val]; have := r₂.isLt; omega
  rw [MeshFacts.off10_eq, e]

theorem off11_slot (c : Dev nD) (r₁ : Fin 8) (r₂ : Fin 3) :
    k0_off11 c (BitVec.ofNat 32 (4 * r₁.val)) (BitVec.ofNat 32 (1 + r₂.val)) = ![(slot (zc c) r₁ (1 + r₂.val)).val] :=
  MeshFacts.off11_eq c r₁ r₂

theorem off12_slot (c : Dev nD) (r : Fin 8) :
    k0_off12 c (BitVec.ofNat 32 (4 * r.val)) = ![(slot (zc c) r 0).val] := by
  have e : 4 * r.val + zc c = (slot (zc c) r 0).val := by rw [slot_val]; have := MeshFacts.zc_lt c; omega
  rw [MeshFacts.off12_eq, e]

theorem off13_slot (c : Dev nD) (r : Fin 8) :
    k0_off13 c (BitVec.ofNat 32 (4 * r.val)) = ![(slot (zc c) r 0).val, 0, 0] := by
  have e : 4 * r.val + zc c = (slot (zc c) r 0).val := by rw [slot_val]; have := MeshFacts.zc_lt c; omega
  rw [MeshFacts.off13_eq, e]

theorem off14_slot (c : Dev nD) (r₁ : Fin 8) (r₂ : Fin 3) :
    k0_off14 c (BitVec.ofNat 32 (4 * r₁.val)) (BitVec.ofNat 32 (1 + r₂.val)) = ![(slot (zc c) r₁ (1 + r₂.val)).val, 0, 0] :=
  MeshFacts.off14_eq c r₁ r₂

theorem off15_slot (c : Dev nD) (r : Fin 8) :
    k0_off15 c (BitVec.ofNat 32 (4 * r.val)) = ![(slot (zc c) r 0).val, 0, 0] := by
  have e : 4 * r.val + zc c = (slot (zc c) r 0).val := by rw [slot_val]; have := MeshFacts.zc_lt c; omega
  rw [MeshFacts.off15_eq, e]

theorem off16_slot (c : Dev nD) (r₁ : Fin 8) (r₂ : Fin 3) :
    k0_off16 c (BitVec.ofNat 32 (4 * r₁.val)) (BitVec.ofNat 32 (1 + r₂.val)) = ![(slot (zc c) r₁ (3 - r₂.val)).val] := by
  have e : 4 * r₁.val + (zc c + 4 - (1 + r₂.val)) % 4 = (slot (zc c) r₁ (3 - r₂.val)).val := by rw [slot_val]; have := r₂.isLt; omega
  rw [MeshFacts.off16_eq, e]

theorem off17_slot (c : Dev nD) (r₁ : Fin 8) (r₂ : Fin 3) :
    k0_off17 c (BitVec.ofNat 32 (4 * r₁.val)) (BitVec.ofNat 32 (1 + r₂.val)) = ![(slot (zc c) r₁ (3 - r₂.val)).val, 0, 0] := by
  have e : 4 * r₁.val + (zc c + 4 - (1 + r₂.val)) % 4 = (slot (zc c) r₁ (3 - r₂.val)).val := by rw [slot_val]; have := r₂.isLt; omega
  rw [MeshFacts.off17_eq, e]

theorem off18_slot (c : Dev nD) (r₁ : Fin 8) (r₂ : Fin 3) :
    k0_off18 c (BitVec.ofNat 32 (4 * r₁.val)) (BitVec.ofNat 32 (1 + r₂.val)) = ![(slot (zc c) r₁ (3 - r₂.val)).val, 0, 0] := by
  have e : 4 * r₁.val + (zc c + 4 - (1 + r₂.val)) % 4 = (slot (zc c) r₁ (3 - r₂.val)).val := by rw [slot_val]; have := r₂.isLt; omega
  rw [MeshFacts.off18_eq, e]

/-! ## The printed spellings, parameter by parameter

One equation for each offset function and each pair of literal parameters the kernel uses: the unit slice at
the computed offset is the slice at the slot number (for a semaphore array also after the squeeze, as the one
semaphore it names; for a load, the rectangle read). -/

/-! ### Offset function 3: a semaphore of a 32-array -/

theorem semSlice_off3_w0_1 (A : DmaSems sig S32) (c : Dev nD) (p) :
    A.slice (Rect.unit (s := S32) (k0_off3 c 0#32 1#32) S1.size p)
      = A.slice (Rect.unit (s := S32) ![(slot (yc c) 0 1).val] S1.size (inb32 (slot (yc c) 0 1))) :=
  SemArray.slice_unit_congr A (off3_slot c 0 0) p _
theorem sem_off3_w0_1 (A : DmaSems sig S32) (c : Dev nD) (p) (hq : S1.Squeezes S_) :
    ((A.slice (Rect.unit (s := S32) (k0_off3 c 0#32 1#32) S1.size p)).squeeze S_ hq).sem = sem32 A (slot (yc c) 0 1) :=
  congrArg (fun X : DmaSems sig S1 => (X.squeeze S_ hq).sem) (semSlice_off3_w0_1 A c p)
theorem semSlice_off3_w0_2 (A : DmaSems sig S32) (c : Dev nD) (p) :
    A.slice (Rect.unit (s := S32) (k0_off3 c 0#32 2#32) S1.size p)
      = A.slice (Rect.unit (s := S32) ![(slot (yc c) 0 2).val] S1.size (inb32 (slot (yc c) 0 2))) :=
  SemArray.slice_unit_congr A (off3_slot c 0 1) p _
theorem sem_off3_w0_2 (A : DmaSems sig S32) (c : Dev nD) (p) (hq : S1.Squeezes S_) :
    ((A.slice (Rect.unit (s := S32) (k0_off3 c 0#32 2#32) S1.size p)).squeeze S_ hq).sem = sem32 A (slot (yc c) 0 2) :=
  congrArg (fun X : DmaSems sig S1 => (X.squeeze S_ hq).sem) (semSlice_off3_w0_2 A c p)
theorem semSlice_off3_w0_3 (A : DmaSems sig S32) (c : Dev nD) (p) :
    A.slice (Rect.unit (s := S32) (k0_off3 c 0#32 3#32) S1.size p)
      = A.slice (Rect.unit (s := S32) ![(slot (yc c) 0 3).val] S1.size (inb32 (slot (yc c) 0 3))) :=
  SemArray.slice_unit_congr A (off3_slot c 0 2) p _
theorem sem_off3_w0_3 (A : DmaSems sig S32) (c : Dev nD) (p) (hq : S1.Squeezes S_) :
    ((A.slice (Rect.unit (s := S32) (k0_off3 c 0#32 3#32) S1.size p)).squeeze S_ hq).sem = sem32 A (slot (yc c) 0 3) :=
  congrArg (fun X : DmaSems sig S1 => (X.squeeze S_ hq).sem) (semSlice_off3_w0_3 A c p)
theorem semSlice_off3_w4_1 (A : DmaSems sig S32) (c : Dev nD) (p) :
    A.slice (Rect.unit (s := S32) (k0_off3 c 4#32 1#32) S1.size p)
      = A.slice (Rect.unit (s := S32) ![(slot (yc c) 1 1).val] S1.size (inb32 (slot (yc c) 1 1))) :=
  SemArray.slice_unit_congr A (off3_slot c 1 0) p _
theorem sem_off3_w4_1 (A : DmaSems sig S32) (c : Dev nD) (p) (hq : S1.Squeezes S_) :
    ((A.slice (Rect.unit (s := S32) (k0_off3 c 4#32 1#32) S1.size p)).squeeze S_ hq).sem = sem32 A (slot (yc c) 1 1) :=
  congrArg (fun X : DmaSems sig S1 => (X.squeeze S_ hq).sem) (semSlice_off3_w4_1 A c p)
theorem semSlice_off3_w4_2 (A : DmaSems sig S32) (c : Dev nD) (p) :
    A.slice (Rect.unit (s := S32) (k0_off3 c 4#32 2#32) S1.size p)
      = A.slice (Rect.unit (s := S32) ![(slot (yc c) 1 2).val] S1.size (inb32 (slot (yc c) 1 2))) :=
  SemArray.slice_unit_congr A (off3_slot c 1 1) p _
theorem sem_off3_w4_2 (A : DmaSems sig S32) (c : Dev nD) (p) (hq : S1.Squeezes S_) :
    ((A.slice (Rect.unit (s := S32) (k0_off3 c 4#32 2#32) S1.size p)).squeeze S_ hq).sem = sem32 A (slot (yc c) 1 2) :=
  congrArg (fun X : DmaSems sig S1 => (X.squeeze S_ hq).sem) (semSlice_off3_w4_2 A c p)
theorem semSlice_off3_w4_3 (A : DmaSems sig S32) (c : Dev nD) (p) :
    A.slice (Rect.unit (s := S32) (k0_off3 c 4#32 3#32) S1.size p)
      = A.slice (Rect.unit (s := S32) ![(slot (yc c) 1 3).val] S1.size (inb32 (slot (yc c) 1 3))) :=
  SemArray.slice_unit_congr A (off3_slot c 1 2) p _
theorem sem_off3_w4_3 (A : DmaSems sig S32) (c : Dev nD) (p) (hq : S1.Squeezes S_) :
    ((A.slice (Rect.unit (s := S32) (k0_off3 c 4#32 3#32) S1.size p)).squeeze S_ hq).sem = sem32 A (slot (yc c) 1 3) :=
  congrArg (fun X : DmaSems sig S1 => (X.squeeze S_ hq).sem) (semSlice_off3_w4_3 A c p)
theorem semSlice_off3_w8_1 (A : DmaSems sig S32) (c : Dev nD) (p) :
    A.slice (Rect.unit (s := S32) (k0_off3 c 8#32 1#32) S1.size p)
      = A.slice (Rect.unit (s := S32) ![(slot (yc c) 2 1).val] S1.size (inb32 (slot (yc c) 2 1))) :=
  SemArray.slice_unit_congr A (off3_slot c 2 0) p _
theorem sem_off3_w8_1 (A : DmaSems sig S32) (c : Dev nD) (p) (hq : S1.Squeezes S_) :
    ((A.slice (Rect.unit (s := S32) (k0_off3 c 8#32 1#32) S1.size p)).squeeze S_ hq).sem = sem32 A (slot (yc c) 2 1) :=
  congrArg (fun X : DmaSems sig S1 => (X.squeeze S_ hq).sem) (semSlice_off3_w8_1 A c p)
theorem semSlice_off3_w8_2 (A : DmaSems sig S32) (c : Dev nD) (p) :
    A.slice (Rect.unit (s := S32) (k0_off3 c 8#32 2#32) S1.size p)
      = A.slice (Rect.unit (s := S32) ![(slot (yc c) 2 2).val] S1.size (inb32 (slot (yc c) 2 2))) :=
  SemArray.slice_unit_congr A (off3_slot c 2 1) p _
theorem sem_off3_w8_2 (A : DmaSems sig S32) (c : Dev nD) (p) (hq : S1.Squeezes S_) :
    ((A.slice (Rect.unit (s := S32) (k0_off3 c 8#32 2#32) S1.size p)).squeeze S_ hq).sem = sem32 A (slot (yc c) 2 2) :=
  congrArg (fun X : DmaSems sig S1 => (X.squeeze S_ hq).sem) (semSlice_off3_w8_2 A c p)
theorem semSlice_off3_w8_3 (A : DmaSems sig S32) (c : Dev nD) (p) :
    A.slice (Rect.unit (s := S32) (k0_off3 c 8#32 3#32) S1.size p)
      = A.slice (Rect.unit (s := S32) ![(slot (yc c) 2 3).val] S1.size (inb32 (slot (yc c) 2 3))) :=
  SemArray.slice_unit_congr A (off3_slot c 2 2) p _
theorem sem_off3_w8_3 (A : DmaSems sig S32) (c : Dev nD) (p) (hq : S1.Squeezes S_) :
    ((A.slice (Rect.unit (s := S32) (k0_off3 c 8#32 3#32) S1.size p)).squeeze S_ hq).sem = sem32 A (slot (yc c) 2 3) :=
  congrArg (fun X : DmaSems sig S1 => (X.squeeze S_ hq).sem) (semSlice_off3_w8_3 A c p)
theorem semSlice_off3_w12_1 (A : DmaSems sig S32) (c : Dev nD) (p) :
    A.slice (Rect.unit (s := S32) (k0_off3 c 12#32 1#32) S1.size p)
      = A.slice (Rect.unit (s := S32) ![(slot (yc c) 3 1).val] S1.size (inb32 (slot (yc c) 3 1))) :=
  SemArray.slice_unit_congr A (off3_slot c 3 0) p _
theorem sem_off3_w12_1 (A : DmaSems sig S32) (c : Dev nD) (p) (hq : S1.Squeezes S_) :
    ((A.slice (Rect.unit (s := S32) (k0_off3 c 12#32 1#32) S1.size p)).squeeze S_ hq).sem = sem32 A (slot (yc c) 3 1) :=
  congrArg (fun X : DmaSems sig S1 => (X.squeeze S_ hq).sem) (semSlice_off3_w12_1 A c p)
theorem semSlice_off3_w12_2 (A : DmaSems sig S32) (c : Dev nD) (p) :
    A.slice (Rect.unit (s := S32) (k0_off3 c 12#32 2#32) S1.size p)
      = A.slice (Rect.unit (s := S32) ![(slot (yc c) 3 2).val] S1.size (inb32 (slot (yc c) 3 2))) :=
  SemArray.slice_unit_congr A (off3_slot c 3 1) p _
theorem sem_off3_w12_2 (A : DmaSems sig S32) (c : Dev nD) (p) (hq : S1.Squeezes S_) :
    ((A.slice (Rect.unit (s := S32) (k0_off3 c 12#32 2#32) S1.size p)).squeeze S_ hq).sem = sem32 A (slot (yc c) 3 2) :=
  congrArg (fun X : DmaSems sig S1 => (X.squeeze S_ hq).sem) (semSlice_off3_w12_2 A c p)
theorem semSlice_off3_w12_3 (A : DmaSems sig S32) (c : Dev nD) (p) :
    A.slice (Rect.unit (s := S32) (k0_off3 c 12#32 3#32) S1.size p)
      = A.slice (Rect.unit (s := S32) ![(slot (yc c) 3 3).val] S1.size (inb32 (slot (yc c) 3 3))) :=
  SemArray.slice_unit_congr A (off3_slot c 3 2) p _
theorem sem_off3_w12_3 (A : DmaSems sig S32) (c : Dev nD) (p) (hq : S1.Squeezes S_) :
    ((A.slice (Rect.unit (s := S32) (k0_off3 c 12#32 3#32) S1.size p)).squeeze S_ hq).sem = sem32 A (slot (yc c) 3 3) :=
  congrArg (fun X : DmaSems sig S1 => (X.squeeze S_ hq).sem) (semSlice_off3_w12_3 A c p)
theorem semSlice_off3_w16_1 (A : DmaSems sig S32) (c : Dev nD) (p) :
    A.slice (Rect.unit (s := S32) (k0_off3 c 16#32 1#32) S1.size p)
      = A.slice (Rect.unit (s := S32) ![(slot (yc c) 4 1).val] S1.size (inb32 (slot (yc c) 4 1))) :=
  SemArray.slice_unit_congr A (off3_slot c 4 0) p _
theorem sem_off3_w16_1 (A : DmaSems sig S32) (c : Dev nD) (p) (hq : S1.Squeezes S_) :
    ((A.slice (Rect.unit (s := S32) (k0_off3 c 16#32 1#32) S1.size p)).squeeze S_ hq).sem = sem32 A (slot (yc c) 4 1) :=
  congrArg (fun X : DmaSems sig S1 => (X.squeeze S_ hq).sem) (semSlice_off3_w16_1 A c p)
theorem semSlice_off3_w16_2 (A : DmaSems sig S32) (c : Dev nD) (p) :
    A.slice (Rect.unit (s := S32) (k0_off3 c 16#32 2#32) S1.size p)
      = A.slice (Rect.unit (s := S32) ![(slot (yc c) 4 2).val] S1.size (inb32 (slot (yc c) 4 2))) :=
  SemArray.slice_unit_congr A (off3_slot c 4 1) p _
theorem sem_off3_w16_2 (A : DmaSems sig S32) (c : Dev nD) (p) (hq : S1.Squeezes S_) :
    ((A.slice (Rect.unit (s := S32) (k0_off3 c 16#32 2#32) S1.size p)).squeeze S_ hq).sem = sem32 A (slot (yc c) 4 2) :=
  congrArg (fun X : DmaSems sig S1 => (X.squeeze S_ hq).sem) (semSlice_off3_w16_2 A c p)
theorem semSlice_off3_w16_3 (A : DmaSems sig S32) (c : Dev nD) (p) :
    A.slice (Rect.unit (s := S32) (k0_off3 c 16#32 3#32) S1.size p)
      = A.slice (Rect.unit (s := S32) ![(slot (yc c) 4 3).val] S1.size (inb32 (slot (yc c) 4 3))) :=
  SemArray.slice_unit_congr A (off3_slot c 4 2) p _
theorem sem_off3_w16_3 (A : DmaSems sig S32) (c : Dev nD) (p) (hq : S1.Squeezes S_) :
    ((A.slice (Rect.unit (s := S32) (k0_off3 c 16#32 3#32) S1.size p)).squeeze S_ hq).sem = sem32 A (slot (yc c) 4 3) :=
  congrArg (fun X : DmaSems sig S1 => (X.squeeze S_ hq).sem) (semSlice_off3_w16_3 A c p)
theorem semSlice_off3_w20_1 (A : DmaSems sig S32) (c : Dev nD) (p) :
    A.slice (Rect.unit (s := S32) (k0_off3 c 20#32 1#32) S1.size p)
      = A.slice (Rect.unit (s := S32) ![(slot (yc c) 5 1).val] S1.size (inb32 (slot (yc c) 5 1))) :=
  SemArray.slice_unit_congr A (off3_slot c 5 0) p _
theorem sem_off3_w20_1 (A : DmaSems sig S32) (c : Dev nD) (p) (hq : S1.Squeezes S_) :
    ((A.slice (Rect.unit (s := S32) (k0_off3 c 20#32 1#32) S1.size p)).squeeze S_ hq).sem = sem32 A (slot (yc c) 5 1) :=
  congrArg (fun X : DmaSems sig S1 => (X.squeeze S_ hq).sem) (semSlice_off3_w20_1 A c p)
theorem semSlice_off3_w20_2 (A : DmaSems sig S32) (c : Dev nD) (p) :
    A.slice (Rect.unit (s := S32) (k0_off3 c 20#32 2#32) S1.size p)
      = A.slice (Rect.unit (s := S32) ![(slot (yc c) 5 2).val] S1.size (inb32 (slot (yc c) 5 2))) :=
  SemArray.slice_unit_congr A (off3_slot c 5 1) p _
theorem sem_off3_w20_2 (A : DmaSems sig S32) (c : Dev nD) (p) (hq : S1.Squeezes S_) :
    ((A.slice (Rect.unit (s := S32) (k0_off3 c 20#32 2#32) S1.size p)).squeeze S_ hq).sem = sem32 A (slot (yc c) 5 2) :=
  congrArg (fun X : DmaSems sig S1 => (X.squeeze S_ hq).sem) (semSlice_off3_w20_2 A c p)
theorem semSlice_off3_w20_3 (A : DmaSems sig S32) (c : Dev nD) (p) :
    A.slice (Rect.unit (s := S32) (k0_off3 c 20#32 3#32) S1.size p)
      = A.slice (Rect.unit (s := S32) ![(slot (yc c) 5 3).val] S1.size (inb32 (slot (yc c) 5 3))) :=
  SemArray.slice_unit_congr A (off3_slot c 5 2) p _
theorem sem_off3_w20_3 (A : DmaSems sig S32) (c : Dev nD) (p) (hq : S1.Squeezes S_) :
    ((A.slice (Rect.unit (s := S32) (k0_off3 c 20#32 3#32) S1.size p)).squeeze S_ hq).sem = sem32 A (slot (yc c) 5 3) :=
  congrArg (fun X : DmaSems sig S1 => (X.squeeze S_ hq).sem) (semSlice_off3_w20_3 A c p)
theorem semSlice_off3_w24_1 (A : DmaSems sig S32) (c : Dev nD) (p) :
    A.slice (Rect.unit (s := S32) (k0_off3 c 24#32 1#32) S1.size p)
      = A.slice (Rect.unit (s := S32) ![(slot (yc c) 6 1).val] S1.size (inb32 (slot (yc c) 6 1))) :=
  SemArray.slice_unit_congr A (off3_slot c 6 0) p _
theorem sem_off3_w24_1 (A : DmaSems sig S32) (c : Dev nD) (p) (hq : S1.Squeezes S_) :
    ((A.slice (Rect.unit (s := S32) (k0_off3 c 24#32 1#32) S1.size p)).squeeze S_ hq).sem = sem32 A (slot (yc c) 6 1) :=
  congrArg (fun X : DmaSems sig S1 => (X.squeeze S_ hq).sem) (semSlice_off3_w24_1 A c p)
theorem semSlice_off3_w24_2 (A : DmaSems sig S32) (c : Dev nD) (p) :
    A.slice (Rect.unit (s := S32) (k0_off3 c 24#32 2#32) S1.size p)
      = A.slice (Rect.unit (s := S32) ![(slot (yc c) 6 2).val] S1.size (inb32 (slot (yc c) 6 2))) :=
  SemArray.slice_unit_congr A (off3_slot c 6 1) p _
theorem sem_off3_w24_2 (A : DmaSems sig S32) (c : Dev nD) (p) (hq : S1.Squeezes S_) :
    ((A.slice (Rect.unit (s := S32) (k0_off3 c 24#32 2#32) S1.size p)).squeeze S_ hq).sem = sem32 A (slot (yc c) 6 2) :=
  congrArg (fun X : DmaSems sig S1 => (X.squeeze S_ hq).sem) (semSlice_off3_w24_2 A c p)
theorem semSlice_off3_w24_3 (A : DmaSems sig S32) (c : Dev nD) (p) :
    A.slice (Rect.unit (s := S32) (k0_off3 c 24#32 3#32) S1.size p)
      = A.slice (Rect.unit (s := S32) ![(slot (yc c) 6 3).val] S1.size (inb32 (slot (yc c) 6 3))) :=
  SemArray.slice_unit_congr A (off3_slot c 6 2) p _
theorem sem_off3_w24_3 (A : DmaSems sig S32) (c : Dev nD) (p) (hq : S1.Squeezes S_) :
    ((A.slice (Rect.unit (s := S32) (k0_off3 c 24#32 3#32) S1.size p)).squeeze S_ hq).sem = sem32 A (slot (yc c) 6 3) :=
  congrArg (fun X : DmaSems sig S1 => (X.squeeze S_ hq).sem) (semSlice_off3_w24_3 A c p)
theorem semSlice_off3_w28_1 (A : DmaSems sig S32) (c : Dev nD) (p) :
    A.slice (Rect.unit (s := S32) (k0_off3 c 28#32 1#32) S1.size p)
      = A.slice (Rect.unit (s := S32) ![(slot (yc c) 7 1).val] S1.size (inb32 (slot (yc c) 7 1))) :=
  SemArray.slice_unit_congr A (off3_slot c 7 0) p _
theorem sem_off3_w28_1 (A : DmaSems sig S32) (c : Dev nD) (p) (hq : S1.Squeezes S_) :
    ((A.slice (Rect.unit (s := S32) (k0_off3 c 28#32 1#32) S1.size p)).squeeze S_ hq).sem = sem32 A (slot (yc c) 7 1) :=
  congrArg (fun X : DmaSems sig S1 => (X.squeeze S_ hq).sem) (semSlice_off3_w28_1 A c p)
theorem semSlice_off3_w28_2 (A : DmaSems sig S32) (c : Dev nD) (p) :
    A.slice (Rect.unit (s := S32) (k0_off3 c 28#32 2#32) S1.size p)
      = A.slice (Rect.unit (s := S32) ![(slot (yc c) 7 2).val] S1.size (inb32 (slot (yc c) 7 2))) :=
  SemArray.slice_unit_congr A (off3_slot c 7 1) p _
theorem sem_off3_w28_2 (A : DmaSems sig S32) (c : Dev nD) (p) (hq : S1.Squeezes S_) :
    ((A.slice (Rect.unit (s := S32) (k0_off3 c 28#32 2#32) S1.size p)).squeeze S_ hq).sem = sem32 A (slot (yc c) 7 2) :=
  congrArg (fun X : DmaSems sig S1 => (X.squeeze S_ hq).sem) (semSlice_off3_w28_2 A c p)
theorem semSlice_off3_w28_3 (A : DmaSems sig S32) (c : Dev nD) (p) :
    A.slice (Rect.unit (s := S32) (k0_off3 c 28#32 3#32) S1.size p)
      = A.slice (Rect.unit (s := S32) ![(slot (yc c) 7 3).val] S1.size (inb32 (slot (yc c) 7 3))) :=
  SemArray.slice_unit_congr A (off3_slot c 7 2) p _
theorem sem_off3_w28_3 (A : DmaSems sig S32) (c : Dev nD) (p) (hq : S1.Squeezes S_) :
    ((A.slice (Rect.unit (s := S32) (k0_off3 c 28#32 3#32) S1.size p)).squeeze S_ hq).sem = sem32 A (slot (yc c) 7 3) :=
  congrArg (fun X : DmaSems sig S1 => (X.squeeze S_ hq).sem) (semSlice_off3_w28_3 A c p)

/-! ### Offset function 4: a semaphore of a 32-array -/

theorem semSlice_off4_w0 (A : DmaSems sig S32) (c : Dev nD) (p) :
    A.slice (Rect.unit (s := S32) (k0_off4 c 0#32) S1.size p)
      = A.slice (Rect.unit (s := S32) ![(slot (yc c) 0 0).val] S1.size (inb32 (slot (yc c) 0 0))) :=
  SemArray.slice_unit_congr A (off4_slot c 0) p _
theorem sem_off4_w0 (A : DmaSems sig S32) (c : Dev nD) (p) (hq : S1.Squeezes S_) :
    ((A.slice (Rect.unit (s := S32) (k0_off4 c 0#32) S1.size p)).squeeze S_ hq).sem = sem32 A (slot (yc c) 0 0) :=
  congrArg (fun X : DmaSems sig S1 => (X.squeeze S_ hq).sem) (semSlice_off4_w0 A c p)
theorem semSlice_off4_w4 (A : DmaSems sig S32) (c : Dev nD) (p) :
    A.slice (Rect.unit (s := S32) (k0_off4 c 4#32) S1.size p)
      = A.slice (Rect.unit (s := S32) ![(slot (yc c) 1 0).val] S1.size (inb32 (slot (yc c) 1 0))) :=
  SemArray.slice_unit_congr A (off4_slot c 1) p _
theorem sem_off4_w4 (A : DmaSems sig S32) (c : Dev nD) (p) (hq : S1.Squeezes S_) :
    ((A.slice (Rect.unit (s := S32) (k0_off4 c 4#32) S1.size p)).squeeze S_ hq).sem = sem32 A (slot (yc c) 1 0) :=
  congrArg (fun X : DmaSems sig S1 => (X.squeeze S_ hq).sem) (semSlice_off4_w4 A c p)
theorem semSlice_off4_w8 (A : DmaSems sig S32) (c : Dev nD) (p) :
    A.slice (Rect.unit (s := S32) (k0_off4 c 8#32) S1.size p)
      = A.slice (Rect.unit (s := S32) ![(slot (yc c) 2 0).val] S1.size (inb32 (slot (yc c) 2 0))) :=
  SemArray.slice_unit_congr A (off4_slot c 2) p _
theorem sem_off4_w8 (A : DmaSems sig S32) (c : Dev nD) (p) (hq : S1.Squeezes S_) :
    ((A.slice (Rect.unit (s := S32) (k0_off4 c 8#32) S1.size p)).squeeze S_ hq).sem = sem32 A (slot (yc c) 2 0) :=
  congrArg (fun X : DmaSems sig S1 => (X.squeeze S_ hq).sem) (semSlice_off4_w8 A c p)
theorem semSlice_off4_w12 (A : DmaSems sig S32) (c : Dev nD) (p) :
    A.slice (Rect.unit (s := S32) (k0_off4 c 12#32) S1.size p)
      = A.slice (Rect.unit (s := S32) ![(slot (yc c) 3 0).val] S1.size (inb32 (slot (yc c) 3 0))) :=
  SemArray.slice_unit_congr A (off4_slot c 3) p _
theorem sem_off4_w12 (A : DmaSems sig S32) (c : Dev nD) (p) (hq : S1.Squeezes S_) :
    ((A.slice (Rect.unit (s := S32) (k0_off4 c 12#32) S1.size p)).squeeze S_ hq).sem = sem32 A (slot (yc c) 3 0) :=
  congrArg (fun X : DmaSems sig S1 => (X.squeeze S_ hq).sem) (semSlice_off4_w12 A c p)
theorem semSlice_off4_w16 (A : DmaSems sig S32) (c : Dev nD) (p) :
    A.slice (Rect.unit (s := S32) (k0_off4 c 16#32) S1.size p)
      = A.slice (Rect.unit (s := S32) ![(slot (yc c) 4 0).val] S1.size (inb32 (slot (yc c) 4 0))) :=
  SemArray.slice_unit_congr A (off4_slot c 4) p _
theorem sem_off4_w16 (A : DmaSems sig S32) (c : Dev nD) (p) (hq : S1.Squeezes S_) :
    ((A.slice (Rect.unit (s := S32) (k0_off4 c 16#32) S1.size p)).squeeze S_ hq).sem = sem32 A (slot (yc c) 4 0) :=
  congrArg (fun X : DmaSems sig S1 => (X.squeeze S_ hq).sem) (semSlice_off4_w16 A c p)
theorem semSlice_off4_w20 (A : DmaSems sig S32) (c : Dev nD) (p) :
    A.slice (Rect.unit (s := S32) (k0_off4 c 20#32) S1.size p)
      = A.slice (Rect.unit (s := S32) ![(slot (yc c) 5 0).val] S1.size (inb32 (slot (yc c) 5 0))) :=
  SemArray.slice_unit_congr A (off4_slot c 5) p _
theorem sem_off4_w20 (A : DmaSems sig S32) (c : Dev nD) (p) (hq : S1.Squeezes S_) :
    ((A.slice (Rect.unit (s := S32) (k0_off4 c 20#32) S1.size p)).squeeze S_ hq).sem = sem32 A (slot (yc c) 5 0) :=
  congrArg (fun X : DmaSems sig S1 => (X.squeeze S_ hq).sem) (semSlice_off4_w20 A c p)
theorem semSlice_off4_w24 (A : DmaSems sig S32) (c : Dev nD) (p) :
    A.slice (Rect.unit (s := S32) (k0_off4 c 24#32) S1.size p)
      = A.slice (Rect.unit (s := S32) ![(slot (yc c) 6 0).val] S1.size (inb32 (slot (yc c) 6 0))) :=
  SemArray.slice_unit_congr A (off4_slot c 6) p _
theorem sem_off4_w24 (A : DmaSems sig S32) (c : Dev nD) (p) (hq : S1.Squeezes S_) :
    ((A.slice (Rect.unit (s := S32) (k0_off4 c 24#32) S1.size p)).squeeze S_ hq).sem = sem32 A (slot (yc c) 6 0) :=
  congrArg (fun X : DmaSems sig S1 => (X.squeeze S_ hq).sem) (semSlice_off4_w24 A c p)
theorem semSlice_off4_w28 (A : DmaSems sig S32) (c : Dev nD) (p) :
    A.slice (Rect.unit (s := S32) (k0_off4 c 28#32) S1.size p)
      = A.slice (Rect.unit (s := S32) ![(slot (yc c) 7 0).val] S1.size (inb32 (slot (yc c) 7 0))) :=
  SemArray.slice_unit_congr A (off4_slot c 7) p _
theorem sem_off4_w28 (A : DmaSems sig S32) (c : Dev nD) (p) (hq : S1.Squeezes S_) :
    ((A.slice (Rect.unit (s := S32) (k0_off4 c 28#32) S1.size p)).squeeze S_ hq).sem = sem32 A (slot (yc c) 7 0) :=
  congrArg (fun X : DmaSems sig S1 => (X.squeeze S_ hq).sem) (semSlice_off4_w28 A c p)

/-! ### Offset function 5: a slot of a stage-2 buffer -/

theorem slice_off5_w0 (M : Memref sig .tc .vmem S32x4x32x128 .bf16) (c : Dev nD) (p) (hs) :
    M.slice (Rect.unit (s := S32x4x32x128) (k0_off5 c 0#32) S1x4x32x128.size p) hs = slot2 M (slot (yc c) 0 0) :=
  Memref.slice_unit_congr M (off5_slot c 0) p _ hs _
theorem slice_off5_w4 (M : Memref sig .tc .vmem S32x4x32x128 .bf16) (c : Dev nD) (p) (hs) :
    M.slice (Rect.unit (s := S32x4x32x128) (k0_off5 c 4#32) S1x4x32x128.size p) hs = slot2 M (slot (yc c) 1 0) :=
  Memref.slice_unit_congr M (off5_slot c 1) p _ hs _
theorem slice_off5_w8 (M : Memref sig .tc .vmem S32x4x32x128 .bf16) (c : Dev nD) (p) (hs) :
    M.slice (Rect.unit (s := S32x4x32x128) (k0_off5 c 8#32) S1x4x32x128.size p) hs = slot2 M (slot (yc c) 2 0) :=
  Memref.slice_unit_congr M (off5_slot c 2) p _ hs _
theorem slice_off5_w12 (M : Memref sig .tc .vmem S32x4x32x128 .bf16) (c : Dev nD) (p) (hs) :
    M.slice (Rect.unit (s := S32x4x32x128) (k0_off5 c 12#32) S1x4x32x128.size p) hs = slot2 M (slot (yc c) 3 0) :=
  Memref.slice_unit_congr M (off5_slot c 3) p _ hs _
theorem slice_off5_w16 (M : Memref sig .tc .vmem S32x4x32x128 .bf16) (c : Dev nD) (p) (hs) :
    M.slice (Rect.unit (s := S32x4x32x128) (k0_off5 c 16#32) S1x4x32x128.size p) hs = slot2 M (slot (yc c) 4 0) :=
  Memref.slice_unit_congr M (off5_slot c 4) p _ hs _
theorem slice_off5_w20 (M : Memref sig .tc .vmem S32x4x32x128 .bf16) (c : Dev nD) (p) (hs) :
    M.slice (Rect.unit (s := S32x4x32x128) (k0_off5 c 20#32) S1x4x32x128.size p) hs = slot2 M (slot (yc c) 5 0) :=
  Memref.slice_unit_congr M (off5_slot c 5) p _ hs _
theorem slice_off5_w24 (M : Memref sig .tc .vmem S32x4x32x128 .bf16) (c : Dev nD) (p) (hs) :
    M.slice (Rect.unit (s := S32x4x32x128) (k0_off5 c 24#32) S1x4x32x128.size p) hs = slot2 M (slot (yc c) 6 0) :=
  Memref.slice_unit_congr M (off5_slot c 6) p _ hs _
theorem slice_off5_w28 (M : Memref sig .tc .vmem S32x4x32x128 .bf16) (c : Dev nD) (p) (hs) :
    M.slice (Rect.unit (s := S32x4x32x128) (k0_off5 c 28#32) S1x4x32x128.size p) hs = slot2 M (slot (yc c) 7 0) :=
  Memref.slice_unit_congr M (off5_slot c 7) p _ hs _

/-! ### Offset function 6: a slot of a stage-2 buffer -/

theorem slice_off6_w0_1 (M : Memref sig .tc .vmem S32x4x32x128 .bf16) (c : Dev nD) (p) (hs) :
    M.slice (Rect.unit (s := S32x4x32x128) (k0_off6 c 0#32 1#32) S1x4x32x128.size p) hs = slot2 M (slot (yc c) 0 1) :=
  Memref.slice_unit_congr M (off6_slot c 0 0) p _ hs _
theorem slice_off6_w0_2 (M : Memref sig .tc .vmem S32x4x32x128 .bf16) (c : Dev nD) (p) (hs) :
    M.slice (Rect.unit (s := S32x4x32x128) (k0_off6 c 0#32 2#32) S1x4x32x128.size p) hs = slot2 M (slot (yc c) 0 2) :=
  Memref.slice_unit_congr M (off6_slot c 0 1) p _ hs _
theorem slice_off6_w0_3 (M : Memref sig .tc .vmem S32x4x32x128 .bf16) (c : Dev nD) (p) (hs) :
    M.slice (Rect.unit (s := S32x4x32x128) (k0_off6 c 0#32 3#32) S1x4x32x128.size p) hs = slot2 M (slot (yc c) 0 3) :=
  Memref.slice_unit_congr M (off6_slot c 0 2) p _ hs _
theorem slice_off6_w4_1 (M : Memref sig .tc .vmem S32x4x32x128 .bf16) (c : Dev nD) (p) (hs) :
    M.slice (Rect.unit (s := S32x4x32x128) (k0_off6 c 4#32 1#32) S1x4x32x128.size p) hs = slot2 M (slot (yc c) 1 1) :=
  Memref.slice_unit_congr M (off6_slot c 1 0) p _ hs _
theorem slice_off6_w4_2 (M : Memref sig .tc .vmem S32x4x32x128 .bf16) (c : Dev nD) (p) (hs) :
    M.slice (Rect.unit (s := S32x4x32x128) (k0_off6 c 4#32 2#32) S1x4x32x128.size p) hs = slot2 M (slot (yc c) 1 2) :=
  Memref.slice_unit_congr M (off6_slot c 1 1) p _ hs _
theorem slice_off6_w4_3 (M : Memref sig .tc .vmem S32x4x32x128 .bf16) (c : Dev nD) (p) (hs) :
    M.slice (Rect.unit (s := S32x4x32x128) (k0_off6 c 4#32 3#32) S1x4x32x128.size p) hs = slot2 M (slot (yc c) 1 3) :=
  Memref.slice_unit_congr M (off6_slot c 1 2) p _ hs _
theorem slice_off6_w8_1 (M : Memref sig .tc .vmem S32x4x32x128 .bf16) (c : Dev nD) (p) (hs) :
    M.slice (Rect.unit (s := S32x4x32x128) (k0_off6 c 8#32 1#32) S1x4x32x128.size p) hs = slot2 M (slot (yc c) 2 1) :=
  Memref.slice_unit_congr M (off6_slot c 2 0) p _ hs _
theorem slice_off6_w8_2 (M : Memref sig .tc .vmem S32x4x32x128 .bf16) (c : Dev nD) (p) (hs) :
    M.slice (Rect.unit (s := S32x4x32x128) (k0_off6 c 8#32 2#32) S1x4x32x128.size p) hs = slot2 M (slot (yc c) 2 2) :=
  Memref.slice_unit_congr M (off6_slot c 2 1) p _ hs _
theorem slice_off6_w8_3 (M : Memref sig .tc .vmem S32x4x32x128 .bf16) (c : Dev nD) (p) (hs) :
    M.slice (Rect.unit (s := S32x4x32x128) (k0_off6 c 8#32 3#32) S1x4x32x128.size p) hs = slot2 M (slot (yc c) 2 3) :=
  Memref.slice_unit_congr M (off6_slot c 2 2) p _ hs _
theorem slice_off6_w12_1 (M : Memref sig .tc .vmem S32x4x32x128 .bf16) (c : Dev nD) (p) (hs) :
    M.slice (Rect.unit (s := S32x4x32x128) (k0_off6 c 12#32 1#32) S1x4x32x128.size p) hs = slot2 M (slot (yc c) 3 1) :=
  Memref.slice_unit_congr M (off6_slot c 3 0) p _ hs _
theorem slice_off6_w12_2 (M : Memref sig .tc .vmem S32x4x32x128 .bf16) (c : Dev nD) (p) (hs) :
    M.slice (Rect.unit (s := S32x4x32x128) (k0_off6 c 12#32 2#32) S1x4x32x128.size p) hs = slot2 M (slot (yc c) 3 2) :=
  Memref.slice_unit_congr M (off6_slot c 3 1) p _ hs _
theorem slice_off6_w12_3 (M : Memref sig .tc .vmem S32x4x32x128 .bf16) (c : Dev nD) (p) (hs) :
    M.slice (Rect.unit (s := S32x4x32x128) (k0_off6 c 12#32 3#32) S1x4x32x128.size p) hs = slot2 M (slot (yc c) 3 3) :=
  Memref.slice_unit_congr M (off6_slot c 3 2) p _ hs _
theorem slice_off6_w16_1 (M : Memref sig .tc .vmem S32x4x32x128 .bf16) (c : Dev nD) (p) (hs) :
    M.slice (Rect.unit (s := S32x4x32x128) (k0_off6 c 16#32 1#32) S1x4x32x128.size p) hs = slot2 M (slot (yc c) 4 1) :=
  Memref.slice_unit_congr M (off6_slot c 4 0) p _ hs _
theorem slice_off6_w16_2 (M : Memref sig .tc .vmem S32x4x32x128 .bf16) (c : Dev nD) (p) (hs) :
    M.slice (Rect.unit (s := S32x4x32x128) (k0_off6 c 16#32 2#32) S1x4x32x128.size p) hs = slot2 M (slot (yc c) 4 2) :=
  Memref.slice_unit_congr M (off6_slot c 4 1) p _ hs _
theorem slice_off6_w16_3 (M : Memref sig .tc .vmem S32x4x32x128 .bf16) (c : Dev nD) (p) (hs) :
    M.slice (Rect.unit (s := S32x4x32x128) (k0_off6 c 16#32 3#32) S1x4x32x128.size p) hs = slot2 M (slot (yc c) 4 3) :=
  Memref.slice_unit_congr M (off6_slot c 4 2) p _ hs _
theorem slice_off6_w20_1 (M : Memref sig .tc .vmem S32x4x32x128 .bf16) (c : Dev nD) (p) (hs) :
    M.slice (Rect.unit (s := S32x4x32x128) (k0_off6 c 20#32 1#32) S1x4x32x128.size p) hs = slot2 M (slot (yc c) 5 1) :=
  Memref.slice_unit_congr M (off6_slot c 5 0) p _ hs _
theorem slice_off6_w20_2 (M : Memref sig .tc .vmem S32x4x32x128 .bf16) (c : Dev nD) (p) (hs) :
    M.slice (Rect.unit (s := S32x4x32x128) (k0_off6 c 20#32 2#32) S1x4x32x128.size p) hs = slot2 M (slot (yc c) 5 2) :=
  Memref.slice_unit_congr M (off6_slot c 5 1) p _ hs _
theorem slice_off6_w20_3 (M : Memref sig .tc .vmem S32x4x32x128 .bf16) (c : Dev nD) (p) (hs) :
    M.slice (Rect.unit (s := S32x4x32x128) (k0_off6 c 20#32 3#32) S1x4x32x128.size p) hs = slot2 M (slot (yc c) 5 3) :=
  Memref.slice_unit_congr M (off6_slot c 5 2) p _ hs _
theorem slice_off6_w24_1 (M : Memref sig .tc .vmem S32x4x32x128 .bf16) (c : Dev nD) (p) (hs) :
    M.slice (Rect.unit (s := S32x4x32x128) (k0_off6 c 24#32 1#32) S1x4x32x128.size p) hs = slot2 M (slot (yc c) 6 1) :=
  Memref.slice_unit_congr M (off6_slot c 6 0) p _ hs _
theorem slice_off6_w24_2 (M : Memref sig .tc .vmem S32x4x32x128 .bf16) (c : Dev nD) (p) (hs) :
    M.slice (Rect.unit (s := S32x4x32x128) (k0_off6 c 24#32 2#32) S1x4x32x128.size p) hs = slot2 M (slot (yc c) 6 2) :=
  Memref.slice_unit_congr M (off6_slot c 6 1) p _ hs _
theorem slice_off6_w24_3 (M : Memref sig .tc .vmem S32x4x32x128 .bf16) (c : Dev nD) (p) (hs) :
    M.slice (Rect.unit (s := S32x4x32x128) (k0_off6 c 24#32 3#32) S1x4x32x128.size p) hs = slot2 M (slot (yc c) 6 3) :=
  Memref.slice_unit_congr M (off6_slot c 6 2) p _ hs _
theorem slice_off6_w28_1 (M : Memref sig .tc .vmem S32x4x32x128 .bf16) (c : Dev nD) (p) (hs) :
    M.slice (Rect.unit (s := S32x4x32x128) (k0_off6 c 28#32 1#32) S1x4x32x128.size p) hs = slot2 M (slot (yc c) 7 1) :=
  Memref.slice_unit_congr M (off6_slot c 7 0) p _ hs _
theorem slice_off6_w28_2 (M : Memref sig .tc .vmem S32x4x32x128 .bf16) (c : Dev nD) (p) (hs) :
    M.slice (Rect.unit (s := S32x4x32x128) (k0_off6 c 28#32 2#32) S1x4x32x128.size p) hs = slot2 M (slot (yc c) 7 2) :=
  Memref.slice_unit_congr M (off6_slot c 7 1) p _ hs _
theorem slice_off6_w28_3 (M : Memref sig .tc .vmem S32x4x32x128 .bf16) (c : Dev nD) (p) (hs) :
    M.slice (Rect.unit (s := S32x4x32x128) (k0_off6 c 28#32 3#32) S1x4x32x128.size p) hs = slot2 M (slot (yc c) 7 3) :=
  Memref.slice_unit_congr M (off6_slot c 7 2) p _ hs _

/-! ### Offset function 7: the rectangle of a load from a stage-2 buffer -/

theorem rect_off7_w0 (c : Dev nD) (p) :
    Rect.unit (s := S32x4x32x128) (k0_off7 c 0#32) S1x4x32x128.size p
      = Rect.unit (s := S32x4x32x128) ![(slot (yc c) 0 0).val, 0, 0, 0] S1x4x32x128.size (inbA2 (slot (yc c) 0 0)) :=
  Rect.unit_congr (off7_slot c 0) p _
theorem rect_off7_w4 (c : Dev nD) (p) :
    Rect.unit (s := S32x4x32x128) (k0_off7 c 4#32) S1x4x32x128.size p
      = Rect.unit (s := S32x4x32x128) ![(slot (yc c) 1 0).val, 0, 0, 0] S1x4x32x128.size (inbA2 (slot (yc c) 1 0)) :=
  Rect.unit_congr (off7_slot c 1) p _
theorem rect_off7_w8 (c : Dev nD) (p) :
    Rect.unit (s := S32x4x32x128) (k0_off7 c 8#32) S1x4x32x128.size p
      = Rect.unit (s := S32x4x32x128) ![(slot (yc c) 2 0).val, 0, 0, 0] S1x4x32x128.size (inbA2 (slot (yc c) 2 0)) :=
  Rect.unit_congr (off7_slot c 2) p _
theorem rect_off7_w12 (c : Dev nD) (p) :
    Rect.unit (s := S32x4x32x128) (k0_off7 c 12#32) S1x4x32x128.size p
      = Rect.unit (s := S32x4x32x128) ![(slot (yc c) 3 0).val, 0, 0, 0] S1x4x32x128.size (inbA2 (slot (yc c) 3 0)) :=
  Rect.unit_congr (off7_slot c 3) p _
theorem rect_off7_w16 (c : Dev nD) (p) :
    Rect.unit (s := S32x4x32x128) (k0_off7 c 16#32) S1x4x32x128.size p
      = Rect.unit (s := S32x4x32x128) ![(slot (yc c) 4 0).val, 0, 0, 0] S1x4x32x128.size (inbA2 (slot (yc c) 4 0)) :=
  Rect.unit_congr (off7_slot c 4) p _
theorem rect_off7_w20 (c : Dev nD) (p) :
    Rect.unit (s := S32x4x32x128) (k0_off7 c 20#32) S1x4x32x128.size p
      = Rect.unit (s := S32x4x32x128) ![(slot (yc c) 5 0).val, 0, 0, 0] S1x4x32x128.size (inbA2 (slot (yc c) 5 0)) :=
  Rect.unit_congr (off7_slot c 5) p _
theorem rect_off7_w24 (c : Dev nD) (p) :
    Rect.unit (s := S32x4x32x128) (k0_off7 c 24#32) S1x4x32x128.size p
      = Rect.unit (s := S32x4x32x128) ![(slot (yc c) 6 0).val, 0, 0, 0] S1x4x32x128.size (inbA2 (slot (yc c) 6 0)) :=
  Rect.unit_congr (off7_slot c 6) p _
theorem rect_off7_w28 (c : Dev nD) (p) :
    Rect.unit (s := S32x4x32x128) (k0_off7 c 28#32) S1x4x32x128.size p
      = Rect.unit (s := S32x4x32x128) ![(slot (yc c) 7 0).val, 0, 0, 0] S1x4x32x128.size (inbA2 (slot (yc c) 7 0)) :=
  Rect.unit_congr (off7_slot c 7) p _

/-! ### Offset function 8: a semaphore of a 32-array -/

theorem semSlice_off8_w0_1 (A : DmaSems sig S32) (c : Dev nD) (p) :
    A.slice (Rect.unit (s := S32) (k0_off8 c 0#32 1#32) S1.size p)
      = A.slice (Rect.unit (s := S32) ![(slot (yc c) 0 3).val] S1.size (inb32 (slot (yc c) 0 3))) :=
  SemArray.slice_unit_congr A (off8_slot c 0 0) p _
theorem sem_off8_w0_1 (A : DmaSems sig S32) (c : Dev nD) (p) (hq : S1.Squeezes S_) :
    ((A.slice (Rect.unit (s := S32) (k0_off8 c 0#32 1#32) S1.size p)).squeeze S_ hq).sem = sem32 A (slot (yc c) 0 3) :=
  congrArg (fun X : DmaSems sig S1 => (X.squeeze S_ hq).sem) (semSlice_off8_w0_1 A c p)
theorem semSlice_off8_w0_2 (A : DmaSems sig S32) (c : Dev nD) (p) :
    A.slice (Rect.unit (s := S32) (k0_off8 c 0#32 2#32) S1.size p)
      = A.slice (Rect.unit (s := S32) ![(slot (yc c) 0 2).val] S1.size (inb32 (slot (yc c) 0 2))) :=
  SemArray.slice_unit_congr A (off8_slot c 0 1) p _
theorem sem_off8_w0_2 (A : DmaSems sig S32) (c : Dev nD) (p) (hq : S1.Squeezes S_) :
    ((A.slice (Rect.unit (s := S32) (k0_off8 c 0#32 2#32) S1.size p)).squeeze S_ hq).sem = sem32 A (slot (yc c) 0 2) :=
  congrArg (fun X : DmaSems sig S1 => (X.squeeze S_ hq).sem) (semSlice_off8_w0_2 A c p)
theorem semSlice_off8_w0_3 (A : DmaSems sig S32) (c : Dev nD) (p) :
    A.slice (Rect.unit (s := S32) (k0_off8 c 0#32 3#32) S1.size p)
      = A.slice (Rect.unit (s := S32) ![(slot (yc c) 0 1).val] S1.size (inb32 (slot (yc c) 0 1))) :=
  SemArray.slice_unit_congr A (off8_slot c 0 2) p _
theorem sem_off8_w0_3 (A : DmaSems sig S32) (c : Dev nD) (p) (hq : S1.Squeezes S_) :
    ((A.slice (Rect.unit (s := S32) (k0_off8 c 0#32 3#32) S1.size p)).squeeze S_ hq).sem = sem32 A (slot (yc c) 0 1) :=
  congrArg (fun X : DmaSems sig S1 => (X.squeeze S_ hq).sem) (semSlice_off8_w0_3 A c p)
theorem semSlice_off8_w4_1 (A : DmaSems sig S32) (c : Dev nD) (p) :
    A.slice (Rect.unit (s := S32) (k0_off8 c 4#32 1#32) S1.size p)
      = A.slice (Rect.unit (s := S32) ![(slot (yc c) 1 3).val] S1.size (inb32 (slot (yc c) 1 3))) :=
  SemArray.slice_unit_congr A (off8_slot c 1 0) p _
theorem sem_off8_w4_1 (A : DmaSems sig S32) (c : Dev nD) (p) (hq : S1.Squeezes S_) :
    ((A.slice (Rect.unit (s := S32) (k0_off8 c 4#32 1#32) S1.size p)).squeeze S_ hq).sem = sem32 A (slot (yc c) 1 3) :=
  congrArg (fun X : DmaSems sig S1 => (X.squeeze S_ hq).sem) (semSlice_off8_w4_1 A c p)
theorem semSlice_off8_w4_2 (A : DmaSems sig S32) (c : Dev nD) (p) :
    A.slice (Rect.unit (s := S32) (k0_off8 c 4#32 2#32) S1.size p)
      = A.slice (Rect.unit (s := S32) ![(slot (yc c) 1 2).val] S1.size (inb32 (slot (yc c) 1 2))) :=
  SemArray.slice_unit_congr A (off8_slot c 1 1) p _
theorem sem_off8_w4_2 (A : DmaSems sig S32) (c : Dev nD) (p) (hq : S1.Squeezes S_) :
    ((A.slice (Rect.unit (s := S32) (k0_off8 c 4#32 2#32) S1.size p)).squeeze S_ hq).sem = sem32 A (slot (yc c) 1 2) :=
  congrArg (fun X : DmaSems sig S1 => (X.squeeze S_ hq).sem) (semSlice_off8_w4_2 A c p)
theorem semSlice_off8_w4_3 (A : DmaSems sig S32) (c : Dev nD) (p) :
    A.slice (Rect.unit (s := S32) (k0_off8 c 4#32 3#32) S1.size p)
      = A.slice (Rect.unit (s := S32) ![(slot (yc c) 1 1).val] S1.size (inb32 (slot (yc c) 1 1))) :=
  SemArray.slice_unit_congr A (off8_slot c 1 2) p _
theorem sem_off8_w4_3 (A : DmaSems sig S32) (c : Dev nD) (p) (hq : S1.Squeezes S_) :
    ((A.slice (Rect.unit (s := S32) (k0_off8 c 4#32 3#32) S1.size p)).squeeze S_ hq).sem = sem32 A (slot (yc c) 1 1) :=
  congrArg (fun X : DmaSems sig S1 => (X.squeeze S_ hq).sem) (semSlice_off8_w4_3 A c p)
theorem semSlice_off8_w8_1 (A : DmaSems sig S32) (c : Dev nD) (p) :
    A.slice (Rect.unit (s := S32) (k0_off8 c 8#32 1#32) S1.size p)
      = A.slice (Rect.unit (s := S32) ![(slot (yc c) 2 3).val] S1.size (inb32 (slot (yc c) 2 3))) :=
  SemArray.slice_unit_congr A (off8_slot c 2 0) p _
theorem sem_off8_w8_1 (A : DmaSems sig S32) (c : Dev nD) (p) (hq : S1.Squeezes S_) :
    ((A.slice (Rect.unit (s := S32) (k0_off8 c 8#32 1#32) S1.size p)).squeeze S_ hq).sem = sem32 A (slot (yc c) 2 3) :=
  congrArg (fun X : DmaSems sig S1 => (X.squeeze S_ hq).sem) (semSlice_off8_w8_1 A c p)
theorem semSlice_off8_w8_2 (A : DmaSems sig S32) (c : Dev nD) (p) :
    A.slice (Rect.unit (s := S32) (k0_off8 c 8#32 2#32) S1.size p)
      = A.slice (Rect.unit (s := S32) ![(slot (yc c) 2 2).val] S1.size (inb32 (slot (yc c) 2 2))) :=
  SemArray.slice_unit_congr A (off8_slot c 2 1) p _
theorem sem_off8_w8_2 (A : DmaSems sig S32) (c : Dev nD) (p) (hq : S1.Squeezes S_) :
    ((A.slice (Rect.unit (s := S32) (k0_off8 c 8#32 2#32) S1.size p)).squeeze S_ hq).sem = sem32 A (slot (yc c) 2 2) :=
  congrArg (fun X : DmaSems sig S1 => (X.squeeze S_ hq).sem) (semSlice_off8_w8_2 A c p)
theorem semSlice_off8_w8_3 (A : DmaSems sig S32) (c : Dev nD) (p) :
    A.slice (Rect.unit (s := S32) (k0_off8 c 8#32 3#32) S1.size p)
      = A.slice (Rect.unit (s := S32) ![(slot (yc c) 2 1).val] S1.size (inb32 (slot (yc c) 2 1))) :=
  SemArray.slice_unit_congr A (off8_slot c 2 2) p _
theorem sem_off8_w8_3 (A : DmaSems sig S32) (c : Dev nD) (p) (hq : S1.Squeezes S_) :
    ((A.slice (Rect.unit (s := S32) (k0_off8 c 8#32 3#32) S1.size p)).squeeze S_ hq).sem = sem32 A (slot (yc c) 2 1) :=
  congrArg (fun X : DmaSems sig S1 => (X.squeeze S_ hq).sem) (semSlice_off8_w8_3 A c p)
theorem semSlice_off8_w12_1 (A : DmaSems sig S32) (c : Dev nD) (p) :
    A.slice (Rect.unit (s := S32) (k0_off8 c 12#32 1#32) S1.size p)
      = A.slice (Rect.unit (s := S32) ![(slot (yc c) 3 3).val] S1.size (inb32 (slot (yc c) 3 3))) :=
  SemArray.slice_unit_congr A (off8_slot c 3 0) p _
theorem sem_off8_w12_1 (A : DmaSems sig S32) (c : Dev nD) (p) (hq : S1.Squeezes S_) :
    ((A.slice (Rect.unit (s := S32) (k0_off8 c 12#32 1#32) S1.size p)).squeeze S_ hq).sem = sem32 A (slot (yc c) 3 3) :=
  congrArg (fun X : DmaSems sig S1 => (X.squeeze S_ hq).sem) (semSlice_off8_w12_1 A c p)
theorem semSlice_off8_w12_2 (A : DmaSems sig S32) (c : Dev nD) (p) :
    A.slice (Rect.unit (s := S32) (k0_off8 c 12#32 2#32) S1.size p)
      = A.slice (Rect.unit (s := S32) ![(slot (yc c) 3 2).val] S1.size (inb32 (slot (yc c) 3 2))) :=
  SemArray.slice_unit_congr A (off8_slot c 3 1) p _
theorem sem_off8_w12_2 (A : DmaSems sig S32) (c : Dev nD) (p) (hq : S1.Squeezes S_) :
    ((A.slice (Rect.unit (s := S32) (k0_off8 c 12#32 2#32) S1.size p)).squeeze S_ hq).sem = sem32 A (slot (yc c) 3 2) :=
  congrArg (fun X : DmaSems sig S1 => (X.squeeze S_ hq).sem) (semSlice_off8_w12_2 A c p)
theorem semSlice_off8_w12_3 (A : DmaSems sig S32) (c : Dev nD) (p) :
    A.slice (Rect.unit (s := S32) (k0_off8 c 12#32 3#32) S1.size p)
      = A.slice (Rect.unit (s := S32) ![(slot (yc c) 3 1).val] S1.size (inb32 (slot (yc c) 3 1))) :=
  SemArray.slice_unit_congr A (off8_slot c 3 2) p _
theorem sem_off8_w12_3 (A : DmaSems sig S32) (c : Dev nD) (p) (hq : S1.Squeezes S_) :
    ((A.slice (Rect.unit (s := S32) (k0_off8 c 12#32 3#32) S1.size p)).squeeze S_ hq).sem = sem32 A (slot (yc c) 3 1) :=
  congrArg (fun X : DmaSems sig S1 => (X.squeeze S_ hq).sem) (semSlice_off8_w12_3 A c p)
theorem semSlice_off8_w16_1 (A : DmaSems sig S32) (c : Dev nD) (p) :
    A.slice (Rect.unit (s := S32) (k0_off8 c 16#32 1#32) S1.size p)
      = A.slice (Rect.unit (s := S32) ![(slot (yc c) 4 3).val] S1.size (inb32 (slot (yc c) 4 3))) :=
  SemArray.slice_unit_congr A (off8_slot c 4 0) p _
theorem sem_off8_w16_1 (A : DmaSems sig S32) (c : Dev nD) (p) (hq : S1.Squeezes S_) :
    ((A.slice (Rect.unit (s := S32) (k0_off8 c 16#32 1#32) S1.size p)).squeeze S_ hq).sem = sem32 A (slot (yc c) 4 3) :=
  congrArg (fun X : DmaSems sig S1 => (X.squeeze S_ hq).sem) (semSlice_off8_w16_1 A c p)
theorem semSlice_off8_w16_2 (A : DmaSems sig S32) (c : Dev nD) (p) :
    A.slice (Rect.unit (s := S32) (k0_off8 c 16#32 2#32) S1.size p)
      = A.slice (Rect.unit (s := S32) ![(slot (yc c) 4 2).val] S1.size (inb32 (slot (yc c) 4 2))) :=
  SemArray.slice_unit_congr A (off8_slot c 4 1) p _
theorem sem_off8_w16_2 (A : DmaSems sig S32) (c : Dev nD) (p) (hq : S1.Squeezes S_) :
    ((A.slice (Rect.unit (s := S32) (k0_off8 c 16#32 2#32) S1.size p)).squeeze S_ hq).sem = sem32 A (slot (yc c) 4 2) :=
  congrArg (fun X : DmaSems sig S1 => (X.squeeze S_ hq).sem) (semSlice_off8_w16_2 A c p)
theorem semSlice_off8_w16_3 (A : DmaSems sig S32) (c : Dev nD) (p) :
    A.slice (Rect.unit (s := S32) (k0_off8 c 16#32 3#32) S1.size p)
      = A.slice (Rect.unit (s := S32) ![(slot (yc c) 4 1).val] S1.size (inb32 (slot (yc c) 4 1))) :=
  SemArray.slice_unit_congr A (off8_slot c 4 2) p _
theorem sem_off8_w16_3 (A : DmaSems sig S32) (c : Dev nD) (p) (hq : S1.Squeezes S_) :
    ((A.slice (Rect.unit (s := S32) (k0_off8 c 16#32 3#32) S1.size p)).squeeze S_ hq).sem = sem32 A (slot (yc c) 4 1) :=
  congrArg (fun X : DmaSems sig S1 => (X.squeeze S_ hq).sem) (semSlice_off8_w16_3 A c p)
theorem semSlice_off8_w20_1 (A : DmaSems sig S32) (c : Dev nD) (p) :
    A.slice (Rect.unit (s := S32) (k0_off8 c 20#32 1#32) S1.size p)
      = A.slice (Rect.unit (s := S32) ![(slot (yc c) 5 3).val] S1.size (inb32 (slot (yc c) 5 3))) :=
  SemArray.slice_unit_congr A (off8_slot c 5 0) p _
theorem sem_off8_w20_1 (A : DmaSems sig S32) (c : Dev nD) (p) (hq : S1.Squeezes S_) :
    ((A.slice (Rect.unit (s := S32) (k0_off8 c 20#32 1#32) S1.size p)).squeeze S_ hq).sem = sem32 A (slot (yc c) 5 3) :=
  congrArg (fun X : DmaSems sig S1 => (X.squeeze S_ hq).sem) (semSlice_off8_w20_1 A c p)
theorem semSlice_off8_w20_2 (A : DmaSems sig S32) (c : Dev nD) (p) :
    A.slice (Rect.unit (s := S32) (k0_off8 c 20#32 2#32) S1.size p)
      = A.slice (Rect.unit (s := S32) ![(slot (yc c) 5 2).val] S1.size (inb32 (slot (yc c) 5 2))) :=
  SemArray.slice_unit_congr A (off8_slot c 5 1) p _
theorem sem_off8_w20_2 (A : DmaSems sig S32) (c : Dev nD) (p) (hq : S1.Squeezes S_) :
    ((A.slice (Rect.unit (s := S32) (k0_off8 c 20#32 2#32) S1.size p)).squeeze S_ hq).sem = sem32 A (slot (yc c) 5 2) :=
  congrArg (fun X : DmaSems sig S1 => (X.squeeze S_ hq).sem) (semSlice_off8_w20_2 A c p)
theorem semSlice_off8_w20_3 (A : DmaSems sig S32) (c : Dev nD) (p) :
    A.slice (Rect.unit (s := S32) (k0_off8 c 20#32 3#32) S1.size p)
      = A.slice (Rect.unit (s := S32) ![(slot (yc c) 5 1).val] S1.size (inb32 (slot (yc c) 5 1))) :=
  SemArray.slice_unit_congr A (off8_slot c 5 2) p _
theorem sem_off8_w20_3 (A : DmaSems sig S32) (c : Dev nD) (p) (hq : S1.Squeezes S_) :
    ((A.slice (Rect.unit (s := S32) (k0_off8 c 20#32 3#32) S1.size p)).squeeze S_ hq).sem = sem32 A (slot (yc c) 5 1) :=
  congrArg (fun X : DmaSems sig S1 => (X.squeeze S_ hq).sem) (semSlice_off8_w20_3 A c p)
theorem semSlice_off8_w24_1 (A : DmaSems sig S32) (c : Dev nD) (p) :
    A.slice (Rect.unit (s := S32) (k0_off8 c 24#32 1#32) S1.size p)
      = A.slice (Rect.unit (s := S32) ![(slot (yc c) 6 3).val] S1.size (inb32 (slot (yc c) 6 3))) :=
  SemArray.slice_unit_congr A (off8_slot c 6 0) p _
theorem sem_off8_w24_1 (A : DmaSems sig S32) (c : Dev nD) (p) (hq : S1.Squeezes S_) :
    ((A.slice (Rect.unit (s := S32) (k0_off8 c 24#32 1#32) S1.size p)).squeeze S_ hq).sem = sem32 A (slot (yc c) 6 3) :=
  congrArg (fun X : DmaSems sig S1 => (X.squeeze S_ hq).sem) (semSlice_off8_w24_1 A c p)
theorem semSlice_off8_w24_2 (A : DmaSems sig S32) (c : Dev nD) (p) :
    A.slice (Rect.unit (s := S32) (k0_off8 c 24#32 2#32) S1.size p)
      = A.slice (Rect.unit (s := S32) ![(slot (yc c) 6 2).val] S1.size (inb32 (slot (yc c) 6 2))) :=
  SemArray.slice_unit_congr A (off8_slot c 6 1) p _
theorem sem_off8_w24_2 (A : DmaSems sig S32) (c : Dev nD) (p) (hq : S1.Squeezes S_) :
    ((A.slice (Rect.unit (s := S32) (k0_off8 c 24#32 2#32) S1.size p)).squeeze S_ hq).sem = sem32 A (slot (yc c) 6 2) :=
  congrArg (fun X : DmaSems sig S1 => (X.squeeze S_ hq).sem) (semSlice_off8_w24_2 A c p)
theorem semSlice_off8_w24_3 (A : DmaSems sig S32) (c : Dev nD) (p) :
    A.slice (Rect.unit (s := S32) (k0_off8 c 24#32 3#32) S1.size p)
      = A.slice (Rect.unit (s := S32) ![(slot (yc c) 6 1).val] S1.size (inb32 (slot (yc c) 6 1))) :=
  SemArray.slice_unit_congr A (off8_slot c 6 2) p _
theorem sem_off8_w24_3 (A : DmaSems sig S32) (c : Dev nD) (p) (hq : S1.Squeezes S_) :
    ((A.slice (Rect.unit (s := S32) (k0_off8 c 24#32 3#32) S1.size p)).squeeze S_ hq).sem = sem32 A (slot (yc c) 6 1) :=
  congrArg (fun X : DmaSems sig S1 => (X.squeeze S_ hq).sem) (semSlice_off8_w24_3 A c p)
theorem semSlice_off8_w28_1 (A : DmaSems sig S32) (c : Dev nD) (p) :
    A.slice (Rect.unit (s := S32) (k0_off8 c 28#32 1#32) S1.size p)
      = A.slice (Rect.unit (s := S32) ![(slot (yc c) 7 3).val] S1.size (inb32 (slot (yc c) 7 3))) :=
  SemArray.slice_unit_congr A (off8_slot c 7 0) p _
theorem sem_off8_w28_1 (A : DmaSems sig S32) (c : Dev nD) (p) (hq : S1.Squeezes S_) :
    ((A.slice (Rect.unit (s := S32) (k0_off8 c 28#32 1#32) S1.size p)).squeeze S_ hq).sem = sem32 A (slot (yc c) 7 3) :=
  congrArg (fun X : DmaSems sig S1 => (X.squeeze S_ hq).sem) (semSlice_off8_w28_1 A c p)
theorem semSlice_off8_w28_2 (A : DmaSems sig S32) (c : Dev nD) (p) :
    A.slice (Rect.unit (s := S32) (k0_off8 c 28#32 2#32) S1.size p)
      = A.slice (Rect.unit (s := S32) ![(slot (yc c) 7 2).val] S1.size (inb32 (slot (yc c) 7 2))) :=
  SemArray.slice_unit_congr A (off8_slot c 7 1) p _
theorem sem_off8_w28_2 (A : DmaSems sig S32) (c : Dev nD) (p) (hq : S1.Squeezes S_) :
    ((A.slice (Rect.unit (s := S32) (k0_off8 c 28#32 2#32) S1.size p)).squeeze S_ hq).sem = sem32 A (slot (yc c) 7 2) :=
  congrArg (fun X : DmaSems sig S1 => (X.squeeze S_ hq).sem) (semSlice_off8_w28_2 A c p)
theorem semSlice_off8_w28_3 (A : DmaSems sig S32) (c : Dev nD) (p) :
    A.slice (Rect.unit (s := S32) (k0_off8 c 28#32 3#32) S1.size p)
      = A.slice (Rect.unit (s := S32) ![(slot (yc c) 7 1).val] S1.size (inb32 (slot (yc c) 7 1))) :=
  SemArray.slice_unit_congr A (off8_slot c 7 2) p _
theorem sem_off8_w28_3 (A : DmaSems sig S32) (c : Dev nD) (p) (hq : S1.Squeezes S_) :
    ((A.slice (Rect.unit (s := S32) (k0_off8 c 28#32 3#32) S1.size p)).squeeze S_ hq).sem = sem32 A (slot (yc c) 7 1) :=
  congrArg (fun X : DmaSems sig S1 => (X.squeeze S_ hq).sem) (semSlice_off8_w28_3 A c p)

/-! ### Offset function 9: a slot of a stage-2 buffer -/

theorem slice_off9_w0_1 (M : Memref sig .tc .vmem S32x4x32x128 .bf16) (c : Dev nD) (p) (hs) :
    M.slice (Rect.unit (s := S32x4x32x128) (k0_off9 c 0#32 1#32) S1x4x32x128.size p) hs = slot2 M (slot (yc c) 0 3) :=
  Memref.slice_unit_congr M (off9_slot c 0 0) p _ hs _
theorem slice_off9_w0_2 (M : Memref sig .tc .vmem S32x4x32x128 .bf16) (c : Dev nD) (p) (hs) :
    M.slice (Rect.unit (s := S32x4x32x128) (k0_off9 c 0#32 2#32) S1x4x32x128.size p) hs = slot2 M (slot (yc c) 0 2) :=
  Memref.slice_unit_congr M (off9_slot c 0 1) p _ hs _
theorem slice_off9_w0_3 (M : Memref sig .tc .vmem S32x4x32x128 .bf16) (c : Dev nD) (p) (hs) :
    M.slice (Rect.unit (s := S32x4x32x128) (k0_off9 c 0#32 3#32) S1x4x32x128.size p) hs = slot2 M (slot (yc c) 0 1) :=
  Memref.slice_unit_congr M (off9_slot c 0 2) p _ hs _
theorem slice_off9_w4_1 (M : Memref sig .tc .vmem S32x4x32x128 .bf16) (c : Dev nD) (p) (hs) :
    M.slice (Rect.unit (s := S32x4x32x128) (k0_off9 c 4#32 1#32) S1x4x32x128.size p) hs = slot2 M (slot (yc c) 1 3) :=
  Memref.slice_unit_congr M (off9_slot c 1 0) p _ hs _
theorem slice_off9_w4_2 (M : Memref sig .tc .vmem S32x4x32x128 .bf16) (c : Dev nD) (p) (hs) :
    M.slice (Rect.unit (s := S32x4x32x128) (k0_off9 c 4#32 2#32) S1x4x32x128.size p) hs = slot2 M (slot (yc c) 1 2) :=
  Memref.slice_unit_congr M (off9_slot c 1 1) p _ hs _
theorem slice_off9_w4_3 (M : Memref sig .tc .vmem S32x4x32x128 .bf16) (c : Dev nD) (p) (hs) :
    M.slice (Rect.unit (s := S32x4x32x128) (k0_off9 c 4#32 3#32) S1x4x32x128.size p) hs = slot2 M (slot (yc c) 1 1) :=
  Memref.slice_unit_congr M (off9_slot c 1 2) p _ hs _
theorem slice_off9_w8_1 (M : Memref sig .tc .vmem S32x4x32x128 .bf16) (c : Dev nD) (p) (hs) :
    M.slice (Rect.unit (s := S32x4x32x128) (k0_off9 c 8#32 1#32) S1x4x32x128.size p) hs = slot2 M (slot (yc c) 2 3) :=
  Memref.slice_unit_congr M (off9_slot c 2 0) p _ hs _
theorem slice_off9_w8_2 (M : Memref sig .tc .vmem S32x4x32x128 .bf16) (c : Dev nD) (p) (hs) :
    M.slice (Rect.unit (s := S32x4x32x128) (k0_off9 c 8#32 2#32) S1x4x32x128.size p) hs = slot2 M (slot (yc c) 2 2) :=
  Memref.slice_unit_congr M (off9_slot c 2 1) p _ hs _
theorem slice_off9_w8_3 (M : Memref sig .tc .vmem S32x4x32x128 .bf16) (c : Dev nD) (p) (hs) :
    M.slice (Rect.unit (s := S32x4x32x128) (k0_off9 c 8#32 3#32) S1x4x32x128.size p) hs = slot2 M (slot (yc c) 2 1) :=
  Memref.slice_unit_congr M (off9_slot c 2 2) p _ hs _
theorem slice_off9_w12_1 (M : Memref sig .tc .vmem S32x4x32x128 .bf16) (c : Dev nD) (p) (hs) :
    M.slice (Rect.unit (s := S32x4x32x128) (k0_off9 c 12#32 1#32) S1x4x32x128.size p) hs = slot2 M (slot (yc c) 3 3) :=
  Memref.slice_unit_congr M (off9_slot c 3 0) p _ hs _
theorem slice_off9_w12_2 (M : Memref sig .tc .vmem S32x4x32x128 .bf16) (c : Dev nD) (p) (hs) :
    M.slice (Rect.unit (s := S32x4x32x128) (k0_off9 c 12#32 2#32) S1x4x32x128.size p) hs = slot2 M (slot (yc c) 3 2) :=
  Memref.slice_unit_congr M (off9_slot c 3 1) p _ hs _
theorem slice_off9_w12_3 (M : Memref sig .tc .vmem S32x4x32x128 .bf16) (c : Dev nD) (p) (hs) :
    M.slice (Rect.unit (s := S32x4x32x128) (k0_off9 c 12#32 3#32) S1x4x32x128.size p) hs = slot2 M (slot (yc c) 3 1) :=
  Memref.slice_unit_congr M (off9_slot c 3 2) p _ hs _
theorem slice_off9_w16_1 (M : Memref sig .tc .vmem S32x4x32x128 .bf16) (c : Dev nD) (p) (hs) :
    M.slice (Rect.unit (s := S32x4x32x128) (k0_off9 c 16#32 1#32) S1x4x32x128.size p) hs = slot2 M (slot (yc c) 4 3) :=
  Memref.slice_unit_congr M (off9_slot c 4 0) p _ hs _
theorem slice_off9_w16_2 (M : Memref sig .tc .vmem S32x4x32x128 .bf16) (c : Dev nD) (p) (hs) :
    M.slice (Rect.unit (s := S32x4x32x128) (k0_off9 c 16#32 2#32) S1x4x32x128.size p) hs = slot2 M (slot (yc c) 4 2) :=
  Memref.slice_unit_congr M (off9_slot c 4 1) p _ hs _
theorem slice_off9_w16_3 (M : Memref sig .tc .vmem S32x4x32x128 .bf16) (c : Dev nD) (p) (hs) :
    M.slice (Rect.unit (s := S32x4x32x128) (k0_off9 c 16#32 3#32) S1x4x32x128.size p) hs = slot2 M (slot (yc c) 4 1) :=
  Memref.slice_unit_congr M (off9_slot c 4 2) p _ hs _
theorem slice_off9_w20_1 (M : Memref sig .tc .vmem S32x4x32x128 .bf16) (c : Dev nD) (p) (hs) :
    M.slice (Rect.unit (s := S32x4x32x128) (k0_off9 c 20#32 1#32) S1x4x32x128.size p) hs = slot2 M (slot (yc c) 5 3) :=
  Memref.slice_unit_congr M (off9_slot c 5 0) p _ hs _
theorem slice_off9_w20_2 (M : Memref sig .tc .vmem S32x4x32x128 .bf16) (c : Dev nD) (p) (hs) :
    M.slice (Rect.unit (s := S32x4x32x128) (k0_off9 c 20#32 2#32) S1x4x32x128.size p) hs = slot2 M (slot (yc c) 5 2) :=
  Memref.slice_unit_congr M (off9_slot c 5 1) p _ hs _
theorem slice_off9_w20_3 (M : Memref sig .tc .vmem S32x4x32x128 .bf16) (c : Dev nD) (p) (hs) :
    M.slice (Rect.unit (s := S32x4x32x128) (k0_off9 c 20#32 3#32) S1x4x32x128.size p) hs = slot2 M (slot (yc c) 5 1) :=
  Memref.slice_unit_congr M (off9_slot c 5 2) p _ hs _
theorem slice_off9_w24_1 (M : Memref sig .tc .vmem S32x4x32x128 .bf16) (c : Dev nD) (p) (hs) :
    M.slice (Rect.unit (s := S32x4x32x128) (k0_off9 c 24#32 1#32) S1x4x32x128.size p) hs = slot2 M (slot (yc c) 6 3) :=
  Memref.slice_unit_congr M (off9_slot c 6 0) p _ hs _
theorem slice_off9_w24_2 (M : Memref sig .tc .vmem S32x4x32x128 .bf16) (c : Dev nD) (p) (hs) :
    M.slice (Rect.unit (s := S32x4x32x128) (k0_off9 c 24#32 2#32) S1x4x32x128.size p) hs = slot2 M (slot (yc c) 6 2) :=
  Memref.slice_unit_congr M (off9_slot c 6 1) p _ hs _
theorem slice_off9_w24_3 (M : Memref sig .tc .vmem S32x4x32x128 .bf16) (c : Dev nD) (p) (hs) :
    M.slice (Rect.unit (s := S32x4x32x128) (k0_off9 c 24#32 3#32) S1x4x32x128.size p) hs = slot2 M (slot (yc c) 6 1) :=
  Memref.slice_unit_congr M (off9_slot c 6 2) p _ hs _
theorem slice_off9_w28_1 (M : Memref sig .tc .vmem S32x4x32x128 .bf16) (c : Dev nD) (p) (hs) :
    M.slice (Rect.unit (s := S32x4x32x128) (k0_off9 c 28#32 1#32) S1x4x32x128.size p) hs = slot2 M (slot (yc c) 7 3) :=
  Memref.slice_unit_congr M (off9_slot c 7 0) p _ hs _
theorem slice_off9_w28_2 (M : Memref sig .tc .vmem S32x4x32x128 .bf16) (c : Dev nD) (p) (hs) :
    M.slice (Rect.unit (s := S32x4x32x128) (k0_off9 c 28#32 2#32) S1x4x32x128.size p) hs = slot2 M (slot (yc c) 7 2) :=
  Memref.slice_unit_congr M (off9_slot c 7 1) p _ hs _
theorem slice_off9_w28_3 (M : Memref sig .tc .vmem S32x4x32x128 .bf16) (c : Dev nD) (p) (hs) :
    M.slice (Rect.unit (s := S32x4x32x128) (k0_off9 c 28#32 3#32) S1x4x32x128.size p) hs = slot2 M (slot (yc c) 7 1) :=
  Memref.slice_unit_congr M (off9_slot c 7 2) p _ hs _

/-! ### Offset function 10: the rectangle of a load from a stage-2 buffer -/

theorem rect_off10_w0_1 (c : Dev nD) (p) :
    Rect.unit (s := S32x4x32x128) (k0_off10 c 0#32 1#32) S1x4x32x128.size p
      = Rect.unit (s := S32x4x32x128) ![(slot (yc c) 0 3).val, 0, 0, 0] S1x4x32x128.size (inbA2 (slot (yc c) 0 3)) :=
  Rect.unit_congr (off10_slot c 0 0) p _
theorem rect_off10_w0_2 (c : Dev nD) (p) :
    Rect.unit (s := S32x4x32x128) (k0_off10 c 0#32 2#32) S1x4x32x128.size p
      = Rect.unit (s := S32x4x32x128) ![(slot (yc c) 0 2).val, 0, 0, 0] S1x4x32x128.size (inbA2 (slot (yc c) 0 2)) :=
  Rect.unit_congr (off10_slot c 0 1) p _
theorem rect_off10_w0_3 (c : Dev nD) (p) :
    Rect.unit (s := S32x4x32x128) (k0_off10 c 0#32 3#32) S1x4x32x128.size p
      = Rect.unit (s := S32x4x32x128) ![(slot (yc c) 0 1).val, 0, 0, 0] S1x4x32x128.size (inbA2 (slot (yc c) 0 1)) :=
  Rect.unit_congr (off10_slot c 0 2) p _
theorem rect_off10_w4_1 (c : Dev nD) (p) :
    Rect.unit (s := S32x4x32x128) (k0_off10 c 4#32 1#32) S1x4x32x128.size p
      = Rect.unit (s := S32x4x32x128) ![(slot (yc c) 1 3).val, 0, 0, 0] S1x4x32x128.size (inbA2 (slot (yc c) 1 3)) :=
  Rect.unit_congr (off10_slot c 1 0) p _
theorem rect_off10_w4_2 (c : Dev nD) (p) :
    Rect.unit (s := S32x4x32x128) (k0_off10 c 4#32 2#32) S1x4x32x128.size p
      = Rect.unit (s := S32x4x32x128) ![(slot (yc c) 1 2).val, 0, 0, 0] S1x4x32x128.size (inbA2 (slot (yc c) 1 2)) :=
  Rect.unit_congr (off10_slot c 1 1) p _
theorem rect_off10_w4_3 (c : Dev nD) (p) :
    Rect.unit (s := S32x4x32x128) (k0_off10 c 4#32 3#32) S1x4x32x128.size p
      = Rect.unit (s := S32x4x32x128) ![(slot (yc c) 1 1).val, 0, 0, 0] S1x4x32x128.size (inbA2 (slot (yc c) 1 1)) :=
  Rect.unit_congr (off10_slot c 1 2) p _
theorem rect_off10_w8_1 (c : Dev nD) (p) :
    Rect.unit (s := S32x4x32x128) (k0_off10 c 8#32 1#32) S1x4x32x128.size p
      = Rect.unit (s := S32x4x32x128) ![(slot (yc c) 2 3).val, 0, 0, 0] S1x4x32x128.size (inbA2 (slot (yc c) 2 3)) :=
  Rect.unit_congr (off10_slot c 2 0) p _
theorem rect_off10_w8_2 (c : Dev nD) (p) :
    Rect.unit (s := S32x4x32x128) (k0_off10 c 8#32 2#32) S1x4x32x128.size p
      = Rect.unit (s := S32x4x32x128) ![(slot (yc c) 2 2).val, 0, 0, 0] S1x4x32x128.size (inbA2 (slot (yc c) 2 2)) :=
  Rect.unit_congr (off10_slot c 2 1) p _
theorem rect_off10_w8_3 (c : Dev nD) (p) :
    Rect.unit (s := S32x4x32x128) (k0_off10 c 8#32 3#32) S1x4x32x128.size p
      = Rect.unit (s := S32x4x32x128) ![(slot (yc c) 2 1).val, 0, 0, 0] S1x4x32x128.size (inbA2 (slot (yc c) 2 1)) :=
  Rect.unit_congr (off10_slot c 2 2) p _
theorem rect_off10_w12_1 (c : Dev nD) (p) :
    Rect.unit (s := S32x4x32x128) (k0_off10 c 12#32 1#32) S1x4x32x128.size p
      = Rect.unit (s := S32x4x32x128) ![(slot (yc c) 3 3).val, 0, 0, 0] S1x4x32x128.size (inbA2 (slot (yc c) 3 3)) :=
  Rect.unit_congr (off10_slot c 3 0) p _
theorem rect_off10_w12_2 (c : Dev nD) (p) :
    Rect.unit (s := S32x4x32x128) (k0_off10 c 12#32 2#32) S1x4x32x128.size p
      = Rect.unit (s := S32x4x32x128) ![(slot (yc c) 3 2).val, 0, 0, 0] S1x4x32x128.size (inbA2 (slot (yc c) 3 2)) :=
  Rect.unit_congr (off10_slot c 3 1) p _
theorem rect_off10_w12_3 (c : Dev nD) (p) :
    Rect.unit (s := S32x4x32x128) (k0_off10 c 12#32 3#32) S1x4x32x128.size p
      = Rect.unit (s := S32x4x32x128) ![(slot (yc c) 3 1).val, 0, 0, 0] S1x4x32x128.size (inbA2 (slot (yc c) 3 1)) :=
  Rect.unit_congr (off10_slot c 3 2) p _
theorem rect_off10_w16_1 (c : Dev nD) (p) :
    Rect.unit (s := S32x4x32x128) (k0_off10 c 16#32 1#32) S1x4x32x128.size p
      = Rect.unit (s := S32x4x32x128) ![(slot (yc c) 4 3).val, 0, 0, 0] S1x4x32x128.size (inbA2 (slot (yc c) 4 3)) :=
  Rect.unit_congr (off10_slot c 4 0) p _
theorem rect_off10_w16_2 (c : Dev nD) (p) :
    Rect.unit (s := S32x4x32x128) (k0_off10 c 16#32 2#32) S1x4x32x128.size p
      = Rect.unit (s := S32x4x32x128) ![(slot (yc c) 4 2).val, 0, 0, 0] S1x4x32x128.size (inbA2 (slot (yc c) 4 2)) :=
  Rect.unit_congr (off10_slot c 4 1) p _
theorem rect_off10_w16_3 (c : Dev nD) (p) :
    Rect.unit (s := S32x4x32x128) (k0_off10 c 16#32 3#32) S1x4x32x128.size p
      = Rect.unit (s := S32x4x32x128) ![(slot (yc c) 4 1).val, 0, 0, 0] S1x4x32x128.size (inbA2 (slot (yc c) 4 1)) :=
  Rect.unit_congr (off10_slot c 4 2) p _
theorem rect_off10_w20_1 (c : Dev nD) (p) :
    Rect.unit (s := S32x4x32x128) (k0_off10 c 20#32 1#32) S1x4x32x128.size p
      = Rect.unit (s := S32x4x32x128) ![(slot (yc c) 5 3).val, 0, 0, 0] S1x4x32x128.size (inbA2 (slot (yc c) 5 3)) :=
  Rect.unit_congr (off10_slot c 5 0) p _
theorem rect_off10_w20_2 (c : Dev nD) (p) :
    Rect.unit (s := S32x4x32x128) (k0_off10 c 20#32 2#32) S1x4x32x128.size p
      = Rect.unit (s := S32x4x32x128) ![(slot (yc c) 5 2).val, 0, 0, 0] S1x4x32x128.size (inbA2 (slot (yc c) 5 2)) :=
  Rect.unit_congr (off10_slot c 5 1) p _
theorem rect_off10_w20_3 (c : Dev nD) (p) :
    Rect.unit (s := S32x4x32x128) (k0_off10 c 20#32 3#32) S1x4x32x128.size p
      = Rect.unit (s := S32x4x32x128) ![(slot (yc c) 5 1).val, 0, 0, 0] S1x4x32x128.size (inbA2 (slot (yc c) 5 1)) :=
  Rect.unit_congr (off10_slot c 5 2) p _
theorem rect_off10_w24_1 (c : Dev nD) (p) :
    Rect.unit (s := S32x4x32x128) (k0_off10 c 24#32 1#32) S1x4x32x128.size p
      = Rect.unit (s := S32x4x32x128) ![(slot (yc c) 6 3).val, 0, 0, 0] S1x4x32x128.size (inbA2 (slot (yc c) 6 3)) :=
  Rect.unit_congr (off10_slot c 6 0) p _
theorem rect_off10_w24_2 (c : Dev nD) (p) :
    Rect.unit (s := S32x4x32x128) (k0_off10 c 24#32 2#32) S1x4x32x128.size p
      = Rect.unit (s := S32x4x32x128) ![(slot (yc c) 6 2).val, 0, 0, 0] S1x4x32x128.size (inbA2 (slot (yc c) 6 2)) :=
  Rect.unit_congr (off10_slot c 6 1) p _
theorem rect_off10_w24_3 (c : Dev nD) (p) :
    Rect.unit (s := S32x4x32x128) (k0_off10 c 24#32 3#32) S1x4x32x128.size p
      = Rect.unit (s := S32x4x32x128) ![(slot (yc c) 6 1).val, 0, 0, 0] S1x4x32x128.size (inbA2 (slot (yc c) 6 1)) :=
  Rect.unit_congr (off10_slot c 6 2) p _
theorem rect_off10_w28_1 (c : Dev nD) (p) :
    Rect.unit (s := S32x4x32x128) (k0_off10 c 28#32 1#32) S1x4x32x128.size p
      = Rect.unit (s := S32x4x32x128) ![(slot (yc c) 7 3).val, 0, 0, 0] S1x4x32x128.size (inbA2 (slot (yc c) 7 3)) :=
  Rect.unit_congr (off10_slot c 7 0) p _
theorem rect_off10_w28_2 (c : Dev nD) (p) :
    Rect.unit (s := S32x4x32x128) (k0_off10 c 28#32 2#32) S1x4x32x128.size p
      = Rect.unit (s := S32x4x32x128) ![(slot (yc c) 7 2).val, 0, 0, 0] S1x4x32x128.size (inbA2 (slot (yc c) 7 2)) :=
  Rect.unit_congr (off10_slot c 7 1) p _
theorem rect_off10_w28_3 (c : Dev nD) (p) :
    Rect.unit (s := S32x4x32x128) (k0_off10 c 28#32 3#32) S1x4x32x128.size p
      = Rect.unit (s := S32x4x32x128) ![(slot (yc c) 7 1).val, 0, 0, 0] S1x4x32x128.size (inbA2 (slot (yc c) 7 1)) :=
  Rect.unit_congr (off10_slot c 7 2) p _

/-! ### Offset function 11: a semaphore of a 32-array -/

theorem semSlice_off11_w0_1 (A : DmaSems sig S32) (c : Dev nD) (p) :
    A.slice (Rect.unit (s := S32) (k0_off11 c 0#32 1#32) S1.size p)
      = A.slice (Rect.unit (s := S32) ![(slot (zc c) 0 1).val] S1.size (inb32 (slot (zc c) 0 1))) :=
  SemArray.slice_unit_congr A (off11_slot c 0 0) p _
theorem sem_off11_w0_1 (A : DmaSems sig S32) (c : Dev nD) (p) (hq : S1.Squeezes S_) :
    ((A.slice (Rect.unit (s := S32) (k0_off11 c 0#32 1#32) S1.size p)).squeeze S_ hq).sem = sem32 A (slot (zc c) 0 1) :=
  congrArg (fun X : DmaSems sig S1 => (X.squeeze S_ hq).sem) (semSlice_off11_w0_1 A c p)
theorem semSlice_off11_w0_2 (A : DmaSems sig S32) (c : Dev nD) (p) :
    A.slice (Rect.unit (s := S32) (k0_off11 c 0#32 2#32) S1.size p)
      = A.slice (Rect.unit (s := S32) ![(slot (zc c) 0 2).val] S1.size (inb32 (slot (zc c) 0 2))) :=
  SemArray.slice_unit_congr A (off11_slot c 0 1) p _
theorem sem_off11_w0_2 (A : DmaSems sig S32) (c : Dev nD) (p) (hq : S1.Squeezes S_) :
    ((A.slice (Rect.unit (s := S32) (k0_off11 c 0#32 2#32) S1.size p)).squeeze S_ hq).sem = sem32 A (slot (zc c) 0 2) :=
  congrArg (fun X : DmaSems sig S1 => (X.squeeze S_ hq).sem) (semSlice_off11_w0_2 A c p)
theorem semSlice_off11_w0_3 (A : DmaSems sig S32) (c : Dev nD) (p) :
    A.slice (Rect.unit (s := S32) (k0_off11 c 0#32 3#32) S1.size p)
      = A.slice (Rect.unit (s := S32) ![(slot (zc c) 0 3).val] S1.size (inb32 (slot (zc c) 0 3))) :=
  SemArray.slice_unit_congr A (off11_slot c 0 2) p _
theorem sem_off11_w0_3 (A : DmaSems sig S32) (c : Dev nD) (p) (hq : S1.Squeezes S_) :
    ((A.slice (Rect.unit (s := S32) (k0_off11 c 0#32 3#32) S1.size p)).squeeze S_ hq).sem = sem32 A (slot (zc c) 0 3) :=
  congrArg (fun X : DmaSems sig S1 => (X.squeeze S_ hq).sem) (semSlice_off11_w0_3 A c p)
theorem semSlice_off11_w4_1 (A : DmaSems sig S32) (c : Dev nD) (p) :
    A.slice (Rect.unit (s := S32) (k0_off11 c 4#32 1#32) S1.size p)
      = A.slice (Rect.unit (s := S32) ![(slot (zc c) 1 1).val] S1.size (inb32 (slot (zc c) 1 1))) :=
  SemArray.slice_unit_congr A (off11_slot c 1 0) p _
theorem sem_off11_w4_1 (A : DmaSems sig S32) (c : Dev nD) (p) (hq : S1.Squeezes S_) :
    ((A.slice (Rect.unit (s := S32) (k0_off11 c 4#32 1#32) S1.size p)).squeeze S_ hq).sem = sem32 A (slot (zc c) 1 1) :=
  congrArg (fun X : DmaSems sig S1 => (X.squeeze S_ hq).sem) (semSlice_off11_w4_1 A c p)
theorem semSlice_off11_w4_2 (A : DmaSems sig S32) (c : Dev nD) (p) :
    A.slice (Rect.unit (s := S32) (k0_off11 c 4#32 2#32) S1.size p)
      = A.slice (Rect.unit (s := S32) ![(slot (zc c) 1 2).val] S1.size (inb32 (slot (zc c) 1 2))) :=
  SemArray.slice_unit_congr A (off11_slot c 1 1) p _
theorem sem_off11_w4_2 (A : DmaSems sig S32) (c : Dev nD) (p) (hq : S1.Squeezes S_) :
    ((A.slice (Rect.unit (s := S32) (k0_off11 c 4#32 2#32) S1.size p)).squeeze S_ hq).sem = sem32 A (slot (zc c) 1 2) :=
  congrArg (fun X : DmaSems sig S1 => (X.squeeze S_ hq).sem) (semSlice_off11_w4_2 A c p)
theorem semSlice_off11_w4_3 (A : DmaSems sig S32) (c : Dev nD) (p) :
    A.slice (Rect.unit (s := S32) (k0_off11 c 4#32 3#32) S1.size p)
      = A.slice (Rect.unit (s := S32) ![(slot (zc c) 1 3).val] S1.size (inb32 (slot (zc c) 1 3))) :=
  SemArray.slice_unit_congr A (off11_slot c 1 2) p _
theorem sem_off11_w4_3 (A : DmaSems sig S32) (c : Dev nD) (p) (hq : S1.Squeezes S_) :
    ((A.slice (Rect.unit (s := S32) (k0_off11 c 4#32 3#32) S1.size p)).squeeze S_ hq).sem = sem32 A (slot (zc c) 1 3) :=
  congrArg (fun X : DmaSems sig S1 => (X.squeeze S_ hq).sem) (semSlice_off11_w4_3 A c p)
theorem semSlice_off11_w8_1 (A : DmaSems sig S32) (c : Dev nD) (p) :
    A.slice (Rect.unit (s := S32) (k0_off11 c 8#32 1#32) S1.size p)
      = A.slice (Rect.unit (s := S32) ![(slot (zc c) 2 1).val] S1.size (inb32 (slot (zc c) 2 1))) :=
  SemArray.slice_unit_congr A (off11_slot c 2 0) p _
theorem sem_off11_w8_1 (A : DmaSems sig S32) (c : Dev nD) (p) (hq : S1.Squeezes S_) :
    ((A.slice (Rect.unit (s := S32) (k0_off11 c 8#32 1#32) S1.size p)).squeeze S_ hq).sem = sem32 A (slot (zc c) 2 1) :=
  congrArg (fun X : DmaSems sig S1 => (X.squeeze S_ hq).sem) (semSlice_off11_w8_1 A c p)
theorem semSlice_off11_w8_2 (A : DmaSems sig S32) (c : Dev nD) (p) :
    A.slice (Rect.unit (s := S32) (k0_off11 c 8#32 2#32) S1.size p)
      = A.slice (Rect.unit (s := S32) ![(slot (zc c) 2 2).val] S1.size (inb32 (slot (zc c) 2 2))) :=
  SemArray.slice_unit_congr A (off11_slot c 2 1) p _
theorem sem_off11_w8_2 (A : DmaSems sig S32) (c : Dev nD) (p) (hq : S1.Squeezes S_) :
    ((A.slice (Rect.unit (s := S32) (k0_off11 c 8#32 2#32) S1.size p)).squeeze S_ hq).sem = sem32 A (slot (zc c) 2 2) :=
  congrArg (fun X : DmaSems sig S1 => (X.squeeze S_ hq).sem) (semSlice_off11_w8_2 A c p)
theorem semSlice_off11_w8_3 (A : DmaSems sig S32) (c : Dev nD) (p) :
    A.slice (Rect.unit (s := S32) (k0_off11 c 8#32 3#32) S1.size p)
      = A.slice (Rect.unit (s := S32) ![(slot (zc c) 2 3).val] S1.size (inb32 (slot (zc c) 2 3))) :=
  SemArray.slice_unit_congr A (off11_slot c 2 2) p _
theorem sem_off11_w8_3 (A : DmaSems sig S32) (c : Dev nD) (p) (hq : S1.Squeezes S_) :
    ((A.slice (Rect.unit (s := S32) (k0_off11 c 8#32 3#32) S1.size p)).squeeze S_ hq).sem = sem32 A (slot (zc c) 2 3) :=
  congrArg (fun X : DmaSems sig S1 => (X.squeeze S_ hq).sem) (semSlice_off11_w8_3 A c p)
theorem semSlice_off11_w12_1 (A : DmaSems sig S32) (c : Dev nD) (p) :
    A.slice (Rect.unit (s := S32) (k0_off11 c 12#32 1#32) S1.size p)
      = A.slice (Rect.unit (s := S32) ![(slot (zc c) 3 1).val] S1.size (inb32 (slot (zc c) 3 1))) :=
  SemArray.slice_unit_congr A (off11_slot c 3 0) p _
theorem sem_off11_w12_1 (A : DmaSems sig S32) (c : Dev nD) (p) (hq : S1.Squeezes S_) :
    ((A.slice (Rect.unit (s := S32) (k0_off11 c 12#32 1#32) S1.size p)).squeeze S_ hq).sem = sem32 A (slot (zc c) 3 1) :=
  congrArg (fun X : DmaSems sig S1 => (X.squeeze S_ hq).sem) (semSlice_off11_w12_1 A c p)
theorem semSlice_off11_w12_2 (A : DmaSems sig S32) (c : Dev nD) (p) :
    A.slice (Rect.unit (s := S32) (k0_off11 c 12#32 2#32) S1.size p)
      = A.slice (Rect.unit (s := S32) ![(slot (zc c) 3 2).val] S1.size (inb32 (slot (zc c) 3 2))) :=
  SemArray.slice_unit_congr A (off11_slot c 3 1) p _
theorem sem_off11_w12_2 (A : DmaSems sig S32) (c : Dev nD) (p) (hq : S1.Squeezes S_) :
    ((A.slice (Rect.unit (s := S32) (k0_off11 c 12#32 2#32) S1.size p)).squeeze S_ hq).sem = sem32 A (slot (zc c) 3 2) :=
  congrArg (fun X : DmaSems sig S1 => (X.squeeze S_ hq).sem) (semSlice_off11_w12_2 A c p)
theorem semSlice_off11_w12_3 (A : DmaSems sig S32) (c : Dev nD) (p) :
    A.slice (Rect.unit (s := S32) (k0_off11 c 12#32 3#32) S1.size p)
      = A.slice (Rect.unit (s := S32) ![(slot (zc c) 3 3).val] S1.size (inb32 (slot (zc c) 3 3))) :=
  SemArray.slice_unit_congr A (off11_slot c 3 2) p _
theorem sem_off11_w12_3 (A : DmaSems sig S32) (c : Dev nD) (p) (hq : S1.Squeezes S_) :
    ((A.slice (Rect.unit (s := S32) (k0_off11 c 12#32 3#32) S1.size p)).squeeze S_ hq).sem = sem32 A (slot (zc c) 3 3) :=
  congrArg (fun X : DmaSems sig S1 => (X.squeeze S_ hq).sem) (semSlice_off11_w12_3 A c p)
theorem semSlice_off11_w16_1 (A : DmaSems sig S32) (c : Dev nD) (p) :
    A.slice (Rect.unit (s := S32) (k0_off11 c 16#32 1#32) S1.size p)
      = A.slice (Rect.unit (s := S32) ![(slot (zc c) 4 1).val] S1.size (inb32 (slot (zc c) 4 1))) :=
  SemArray.slice_unit_congr A (off11_slot c 4 0) p _
theorem sem_off11_w16_1 (A : DmaSems sig S32) (c : Dev nD) (p) (hq : S1.Squeezes S_) :
    ((A.slice (Rect.unit (s := S32) (k0_off11 c 16#32 1#32) S1.size p)).squeeze S_ hq).sem = sem32 A (slot (zc c) 4 1) :=
  congrArg (fun X : DmaSems sig S1 => (X.squeeze S_ hq).sem) (semSlice_off11_w16_1 A c p)
theorem semSlice_off11_w16_2 (A : DmaSems sig S32) (c : Dev nD) (p) :
    A.slice (Rect.unit (s := S32) (k0_off11 c 16#32 2#32) S1.size p)
      = A.slice (Rect.unit (s := S32) ![(slot (zc c) 4 2).val] S1.size (inb32 (slot (zc c) 4 2))) :=
  SemArray.slice_unit_congr A (off11_slot c 4 1) p _
theorem sem_off11_w16_2 (A : DmaSems sig S32) (c : Dev nD) (p) (hq : S1.Squeezes S_) :
    ((A.slice (Rect.unit (s := S32) (k0_off11 c 16#32 2#32) S1.size p)).squeeze S_ hq).sem = sem32 A (slot (zc c) 4 2) :=
  congrArg (fun X : DmaSems sig S1 => (X.squeeze S_ hq).sem) (semSlice_off11_w16_2 A c p)
theorem semSlice_off11_w16_3 (A : DmaSems sig S32) (c : Dev nD) (p) :
    A.slice (Rect.unit (s := S32) (k0_off11 c 16#32 3#32) S1.size p)
      = A.slice (Rect.unit (s := S32) ![(slot (zc c) 4 3).val] S1.size (inb32 (slot (zc c) 4 3))) :=
  SemArray.slice_unit_congr A (off11_slot c 4 2) p _
theorem sem_off11_w16_3 (A : DmaSems sig S32) (c : Dev nD) (p) (hq : S1.Squeezes S_) :
    ((A.slice (Rect.unit (s := S32) (k0_off11 c 16#32 3#32) S1.size p)).squeeze S_ hq).sem = sem32 A (slot (zc c) 4 3) :=
  congrArg (fun X : DmaSems sig S1 => (X.squeeze S_ hq).sem) (semSlice_off11_w16_3 A c p)
theorem semSlice_off11_w20_1 (A : DmaSems sig S32) (c : Dev nD) (p) :
    A.slice (Rect.unit (s := S32) (k0_off11 c 20#32 1#32) S1.size p)
      = A.slice (Rect.unit (s := S32) ![(slot (zc c) 5 1).val] S1.size (inb32 (slot (zc c) 5 1))) :=
  SemArray.slice_unit_congr A (off11_slot c 5 0) p _
theorem sem_off11_w20_1 (A : DmaSems sig S32) (c : Dev nD) (p) (hq : S1.Squeezes S_) :
    ((A.slice (Rect.unit (s := S32) (k0_off11 c 20#32 1#32) S1.size p)).squeeze S_ hq).sem = sem32 A (slot (zc c) 5 1) :=
  congrArg (fun X : DmaSems sig S1 => (X.squeeze S_ hq).sem) (semSlice_off11_w20_1 A c p)
theorem semSlice_off11_w20_2 (A : DmaSems sig S32) (c : Dev nD) (p) :
    A.slice (Rect.unit (s := S32) (k0_off11 c 20#32 2#32) S1.size p)
      = A.slice (Rect.unit (s := S32) ![(slot (zc c) 5 2).val] S1.size (inb32 (slot (zc c) 5 2))) :=
  SemArray.slice_unit_congr A (off11_slot c 5 1) p _
theorem sem_off11_w20_2 (A : DmaSems sig S32) (c : Dev nD) (p) (hq : S1.Squeezes S_) :
    ((A.slice (Rect.unit (s := S32) (k0_off11 c 20#32 2#32) S1.size p)).squeeze S_ hq).sem = sem32 A (slot (zc c) 5 2) :=
  congrArg (fun X : DmaSems sig S1 => (X.squeeze S_ hq).sem) (semSlice_off11_w20_2 A c p)
theorem semSlice_off11_w20_3 (A : DmaSems sig S32) (c : Dev nD) (p) :
    A.slice (Rect.unit (s := S32) (k0_off11 c 20#32 3#32) S1.size p)
      = A.slice (Rect.unit (s := S32) ![(slot (zc c) 5 3).val] S1.size (inb32 (slot (zc c) 5 3))) :=
  SemArray.slice_unit_congr A (off11_slot c 5 2) p _
theorem sem_off11_w20_3 (A : DmaSems sig S32) (c : Dev nD) (p) (hq : S1.Squeezes S_) :
    ((A.slice (Rect.unit (s := S32) (k0_off11 c 20#32 3#32) S1.size p)).squeeze S_ hq).sem = sem32 A (slot (zc c) 5 3) :=
  congrArg (fun X : DmaSems sig S1 => (X.squeeze S_ hq).sem) (semSlice_off11_w20_3 A c p)
theorem semSlice_off11_w24_1 (A : DmaSems sig S32) (c : Dev nD) (p) :
    A.slice (Rect.unit (s := S32) (k0_off11 c 24#32 1#32) S1.size p)
      = A.slice (Rect.unit (s := S32) ![(slot (zc c) 6 1).val] S1.size (inb32 (slot (zc c) 6 1))) :=
  SemArray.slice_unit_congr A (off11_slot c 6 0) p _
theorem sem_off11_w24_1 (A : DmaSems sig S32) (c : Dev nD) (p) (hq : S1.Squeezes S_) :
    ((A.slice (Rect.unit (s := S32) (k0_off11 c 24#32 1#32) S1.size p)).squeeze S_ hq).sem = sem32 A (slot (zc c) 6 1) :=
  congrArg (fun X : DmaSems sig S1 => (X.squeeze S_ hq).sem) (semSlice_off11_w24_1 A c p)
theorem semSlice_off11_w24_2 (A : DmaSems sig S32) (c : Dev nD) (p) :
    A.slice (Rect.unit (s := S32) (k0_off11 c 24#32 2#32) S1.size p)
      = A.slice (Rect.unit (s := S32) ![(slot (zc c) 6 2).val] S1.size (inb32 (slot (zc c) 6 2))) :=
  SemArray.slice_unit_congr A (off11_slot c 6 1) p _
theorem sem_off11_w24_2 (A : DmaSems sig S32) (c : Dev nD) (p) (hq : S1.Squeezes S_) :
    ((A.slice (Rect.unit (s := S32) (k0_off11 c 24#32 2#32) S1.size p)).squeeze S_ hq).sem = sem32 A (slot (zc c) 6 2) :=
  congrArg (fun X : DmaSems sig S1 => (X.squeeze S_ hq).sem) (semSlice_off11_w24_2 A c p)
theorem semSlice_off11_w24_3 (A : DmaSems sig S32) (c : Dev nD) (p) :
    A.slice (Rect.unit (s := S32) (k0_off11 c 24#32 3#32) S1.size p)
      = A.slice (Rect.unit (s := S32) ![(slot (zc c) 6 3).val] S1.size (inb32 (slot (zc c) 6 3))) :=
  SemArray.slice_unit_congr A (off11_slot c 6 2) p _
theorem sem_off11_w24_3 (A : DmaSems sig S32) (c : Dev nD) (p) (hq : S1.Squeezes S_) :
    ((A.slice (Rect.unit (s := S32) (k0_off11 c 24#32 3#32) S1.size p)).squeeze S_ hq).sem = sem32 A (slot (zc c) 6 3) :=
  congrArg (fun X : DmaSems sig S1 => (X.squeeze S_ hq).sem) (semSlice_off11_w24_3 A c p)
theorem semSlice_off11_w28_1 (A : DmaSems sig S32) (c : Dev nD) (p) :
    A.slice (Rect.unit (s := S32) (k0_off11 c 28#32 1#32) S1.size p)
      = A.slice (Rect.unit (s := S32) ![(slot (zc c) 7 1).val] S1.size (inb32 (slot (zc c) 7 1))) :=
  SemArray.slice_unit_congr A (off11_slot c 7 0) p _
theorem sem_off11_w28_1 (A : DmaSems sig S32) (c : Dev nD) (p) (hq : S1.Squeezes S_) :
    ((A.slice (Rect.unit (s := S32) (k0_off11 c 28#32 1#32) S1.size p)).squeeze S_ hq).sem = sem32 A (slot (zc c) 7 1) :=
  congrArg (fun X : DmaSems sig S1 => (X.squeeze S_ hq).sem) (semSlice_off11_w28_1 A c p)
theorem semSlice_off11_w28_2 (A : DmaSems sig S32) (c : Dev nD) (p) :
    A.slice (Rect.unit (s := S32) (k0_off11 c 28#32 2#32) S1.size p)
      = A.slice (Rect.unit (s := S32) ![(slot (zc c) 7 2).val] S1.size (inb32 (slot (zc c) 7 2))) :=
  SemArray.slice_unit_congr A (off11_slot c 7 1) p _
theorem sem_off11_w28_2 (A : DmaSems sig S32) (c : Dev nD) (p) (hq : S1.Squeezes S_) :
    ((A.slice (Rect.unit (s := S32) (k0_off11 c 28#32 2#32) S1.size p)).squeeze S_ hq).sem = sem32 A (slot (zc c) 7 2) :=
  congrArg (fun X : DmaSems sig S1 => (X.squeeze S_ hq).sem) (semSlice_off11_w28_2 A c p)
theorem semSlice_off11_w28_3 (A : DmaSems sig S32) (c : Dev nD) (p) :
    A.slice (Rect.unit (s := S32) (k0_off11 c 28#32 3#32) S1.size p)
      = A.slice (Rect.unit (s := S32) ![(slot (zc c) 7 3).val] S1.size (inb32 (slot (zc c) 7 3))) :=
  SemArray.slice_unit_congr A (off11_slot c 7 2) p _
theorem sem_off11_w28_3 (A : DmaSems sig S32) (c : Dev nD) (p) (hq : S1.Squeezes S_) :
    ((A.slice (Rect.unit (s := S32) (k0_off11 c 28#32 3#32) S1.size p)).squeeze S_ hq).sem = sem32 A (slot (zc c) 7 3) :=
  congrArg (fun X : DmaSems sig S1 => (X.squeeze S_ hq).sem) (semSlice_off11_w28_3 A c p)

/-! ### Offset function 12: a semaphore of a 32-array -/

theorem semSlice_off12_w0 (A : DmaSems sig S32) (c : Dev nD) (p) :
    A.slice (Rect.unit (s := S32) (k0_off12 c 0#32) S1.size p)
      = A.slice (Rect.unit (s := S32) ![(slot (zc c) 0 0).val] S1.size (inb32 (slot (zc c) 0 0))) :=
  SemArray.slice_unit_congr A (off12_slot c 0) p _
theorem sem_off12_w0 (A : DmaSems sig S32) (c : Dev nD) (p) (hq : S1.Squeezes S_) :
    ((A.slice (Rect.unit (s := S32) (k0_off12 c 0#32) S1.size p)).squeeze S_ hq).sem = sem32 A (slot (zc c) 0 0) :=
  congrArg (fun X : DmaSems sig S1 => (X.squeeze S_ hq).sem) (semSlice_off12_w0 A c p)
theorem semSlice_off12_w4 (A : DmaSems sig S32) (c : Dev nD) (p) :
    A.slice (Rect.unit (s := S32) (k0_off12 c 4#32) S1.size p)
      = A.slice (Rect.unit (s := S32) ![(slot (zc c) 1 0).val] S1.size (inb32 (slot (zc c) 1 0))) :=
  SemArray.slice_unit_congr A (off12_slot c 1) p _
theorem sem_off12_w4 (A : DmaSems sig S32) (c : Dev nD) (p) (hq : S1.Squeezes S_) :
    ((A.slice (Rect.unit (s := S32) (k0_off12 c 4#32) S1.size p)).squeeze S_ hq).sem = sem32 A (slot (zc c) 1 0) :=
  congrArg (fun X : DmaSems sig S1 => (X.squeeze S_ hq).sem) (semSlice_off12_w4 A c p)
theorem semSlice_off12_w8 (A : DmaSems sig S32) (c : Dev nD) (p) :
    A.slice (Rect.unit (s := S32) (k0_off12 c 8#32) S1.size p)
      = A.slice (Rect.unit (s := S32) ![(slot (zc c) 2 0).val] S1.size (inb32 (slot (zc c) 2 0))) :=
  SemArray.slice_unit_congr A (off12_slot c 2) p _
theorem sem_off12_w8 (A : DmaSems sig S32) (c : Dev nD) (p) (hq : S1.Squeezes S_) :
    ((A.slice (Rect.unit (s := S32) (k0_off12 c 8#32) S1.size p)).squeeze S_ hq).sem = sem32 A (slot (zc c) 2 0) :=
  congrArg (fun X : DmaSems sig S1 => (X.squeeze S_ hq).sem) (semSlice_off12_w8 A c p)
theorem semSlice_off12_w12 (A : DmaSems sig S32) (c : Dev nD) (p) :
    A.slice (Rect.unit (s := S32) (k0_off12 c 12#32) S1.size p)
      = A.slice (Rect.unit (s := S32) ![(slot (zc c) 3 0).val] S1.size (inb32 (slot (zc c) 3 0))) :=
  SemArray.slice_unit_congr A (off12_slot c 3) p _
theorem sem_off12_w12 (A : DmaSems sig S32) (c : Dev nD) (p) (hq : S1.Squeezes S_) :
    ((A.slice (Rect.unit (s := S32) (k0_off12 c 12#32) S1.size p)).squeeze S_ hq).sem = sem32 A (slot (zc c) 3 0) :=
  congrArg (fun X : DmaSems sig S1 => (X.squeeze S_ hq).sem) (semSlice_off12_w12 A c p)
theorem semSlice_off12_w16 (A : DmaSems sig S32) (c : Dev nD) (p) :
    A.slice (Rect.unit (s := S32) (k0_off12 c 16#32) S1.size p)
      = A.slice (Rect.unit (s := S32) ![(slot (zc c) 4 0).val] S1.size (inb32 (slot (zc c) 4 0))) :=
  SemArray.slice_unit_congr A (off12_slot c 4) p _
theorem sem_off12_w16 (A : DmaSems sig S32) (c : Dev nD) (p) (hq : S1.Squeezes S_) :
    ((A.slice (Rect.unit (s := S32) (k0_off12 c 16#32) S1.size p)).squeeze S_ hq).sem = sem32 A (slot (zc c) 4 0) :=
  congrArg (fun X : DmaSems sig S1 => (X.squeeze S_ hq).sem) (semSlice_off12_w16 A c p)
theorem semSlice_off12_w20 (A : DmaSems sig S32) (c : Dev nD) (p) :
    A.slice (Rect.unit (s := S32) (k0_off12 c 20#32) S1.size p)
      = A.slice (Rect.unit (s := S32) ![(slot (zc c) 5 0).val] S1.size (inb32 (slot (zc c) 5 0))) :=
  SemArray.slice_unit_congr A (off12_slot c 5) p _
theorem sem_off12_w20 (A : DmaSems sig S32) (c : Dev nD) (p) (hq : S1.Squeezes S_) :
    ((A.slice (Rect.unit (s := S32) (k0_off12 c 20#32) S1.size p)).squeeze S_ hq).sem = sem32 A (slot (zc c) 5 0) :=
  congrArg (fun X : DmaSems sig S1 => (X.squeeze S_ hq).sem) (semSlice_off12_w20 A c p)
theorem semSlice_off12_w24 (A : DmaSems sig S32) (c : Dev nD) (p) :
    A.slice (Rect.unit (s := S32) (k0_off12 c 24#32) S1.size p)
      = A.slice (Rect.unit (s := S32) ![(slot (zc c) 6 0).val] S1.size (inb32 (slot (zc c) 6 0))) :=
  SemArray.slice_unit_congr A (off12_slot c 6) p _
theorem sem_off12_w24 (A : DmaSems sig S32) (c : Dev nD) (p) (hq : S1.Squeezes S_) :
    ((A.slice (Rect.unit (s := S32) (k0_off12 c 24#32) S1.size p)).squeeze S_ hq).sem = sem32 A (slot (zc c) 6 0) :=
  congrArg (fun X : DmaSems sig S1 => (X.squeeze S_ hq).sem) (semSlice_off12_w24 A c p)
theorem semSlice_off12_w28 (A : DmaSems sig S32) (c : Dev nD) (p) :
    A.slice (Rect.unit (s := S32) (k0_off12 c 28#32) S1.size p)
      = A.slice (Rect.unit (s := S32) ![(slot (zc c) 7 0).val] S1.size (inb32 (slot (zc c) 7 0))) :=
  SemArray.slice_unit_congr A (off12_slot c 7) p _
theorem sem_off12_w28 (A : DmaSems sig S32) (c : Dev nD) (p) (hq : S1.Squeezes S_) :
    ((A.slice (Rect.unit (s := S32) (k0_off12 c 28#32) S1.size p)).squeeze S_ hq).sem = sem32 A (slot (zc c) 7 0) :=
  congrArg (fun X : DmaSems sig S1 => (X.squeeze S_ hq).sem) (semSlice_off12_w28 A c p)

/-! ### Offset function 13: a slot of a stage-3 buffer -/

theorem slice_off13_w0 (M : Memref sig .tc .vmem S32x32x128 .bf16) (c : Dev nD) (p) (hs) :
    M.slice (Rect.unit (s := S32x32x128) (k0_off13 c 0#32) S1x32x128.size p) hs = slot3 M (slot (zc c) 0 0) :=
  Memref.slice_unit_congr M (off13_slot c 0) p _ hs _
theorem slice_off13_w4 (M : Memref sig .tc .vmem S32x32x128 .bf16) (c : Dev nD) (p) (hs) :
    M.slice (Rect.unit (s := S32x32x128) (k0_off13 c 4#32) S1x32x128.size p) hs = slot3 M (slot (zc c) 1 0) :=
  Memref.slice_unit_congr M (off13_slot c 1) p _ hs _
theorem slice_off13_w8 (M : Memref sig .tc .vmem S32x32x128 .bf16) (c : Dev nD) (p) (hs) :
    M.slice (Rect.unit (s := S32x32x128) (k0_off13 c 8#32) S1x32x128.size p) hs = slot3 M (slot (zc c) 2 0) :=
  Memref.slice_unit_congr M (off13_slot c 2) p _ hs _
theorem slice_off13_w12 (M : Memref sig .tc .vmem S32x32x128 .bf16) (c : Dev nD) (p) (hs) :
    M.slice (Rect.unit (s := S32x32x128) (k0_off13 c 12#32) S1x32x128.size p) hs = slot3 M (slot (zc c) 3 0) :=
  Memref.slice_unit_congr M (off13_slot c 3) p _ hs _
theorem slice_off13_w16 (M : Memref sig .tc .vmem S32x32x128 .bf16) (c : Dev nD) (p) (hs) :
    M.slice (Rect.unit (s := S32x32x128) (k0_off13 c 16#32) S1x32x128.size p) hs = slot3 M (slot (zc c) 4 0) :=
  Memref.slice_unit_congr M (off13_slot c 4) p _ hs _
theorem slice_off13_w20 (M : Memref sig .tc .vmem S32x32x128 .bf16) (c : Dev nD) (p) (hs) :
    M.slice (Rect.unit (s := S32x32x128) (k0_off13 c 20#32) S1x32x128.size p) hs = slot3 M (slot (zc c) 5 0) :=
  Memref.slice_unit_congr M (off13_slot c 5) p _ hs _
theorem slice_off13_w24 (M : Memref sig .tc .vmem S32x32x128 .bf16) (c : Dev nD) (p) (hs) :
    M.slice (Rect.unit (s := S32x32x128) (k0_off13 c 24#32) S1x32x128.size p) hs = slot3 M (slot (zc c) 6 0) :=
  Memref.slice_unit_congr M (off13_slot c 6) p _ hs _
theorem slice_off13_w28 (M : Memref sig .tc .vmem S32x32x128 .bf16) (c : Dev nD) (p) (hs) :
    M.slice (Rect.unit (s := S32x32x128) (k0_off13 c 28#32) S1x32x128.size p) hs = slot3 M (slot (zc c) 7 0) :=
  Memref.slice_unit_congr M (off13_slot c 7) p _ hs _

/-! ### Offset function 14: a slot of a stage-3 buffer -/

theorem slice_off14_w0_1 (M : Memref sig .tc .vmem S32x32x128 .bf16) (c : Dev nD) (p) (hs) :
    M.slice (Rect.unit (s := S32x32x128) (k0_off14 c 0#32 1#32) S1x32x128.size p) hs = slot3 M (slot (zc c) 0 1) :=
  Memref.slice_unit_congr M (off14_slot c 0 0) p _ hs _
theorem slice_off14_w0_2 (M : Memref sig .tc .vmem S32x32x128 .bf16) (c : Dev nD) (p) (hs) :
    M.slice (Rect.unit (s := S32x32x128) (k0_off14 c 0#32 2#32) S1x32x128.size p) hs = slot3 M (slot (zc c) 0 2) :=
  Memref.slice_unit_congr M (off14_slot c 0 1) p _ hs _
theorem slice_off14_w0_3 (M : Memref sig .tc .vmem S32x32x128 .bf16) (c : Dev nD) (p) (hs) :
    M.slice (Rect.unit (s := S32x32x128) (k0_off14 c 0#32 3#32) S1x32x128.size p) hs = slot3 M (slot (zc c) 0 3) :=
  Memref.slice_unit_congr M (off14_slot c 0 2) p _ hs _
theorem slice_off14_w4_1 (M : Memref sig .tc .vmem S32x32x128 .bf16) (c : Dev nD) (p) (hs) :
    M.slice (Rect.unit (s := S32x32x128) (k0_off14 c 4#32 1#32) S1x32x128.size p) hs = slot3 M (slot (zc c) 1 1) :=
  Memref.slice_unit_congr M (off14_slot c 1 0) p _ hs _
theorem slice_off14_w4_2 (M : Memref sig .tc .vmem S32x32x128 .bf16) (c : Dev nD) (p) (hs) :
    M.slice (Rect.unit (s := S32x32x128) (k0_off14 c 4#32 2#32) S1x32x128.size p) hs = slot3 M (slot (zc c) 1 2) :=
  Memref.slice_unit_congr M (off14_slot c 1 1) p _ hs _
theorem slice_off14_w4_3 (M : Memref sig .tc .vmem S32x32x128 .bf16) (c : Dev nD) (p) (hs) :
    M.slice (Rect.unit (s := S32x32x128) (k0_off14 c 4#32 3#32) S1x32x128.size p) hs = slot3 M (slot (zc c) 1 3) :=
  Memref.slice_unit_congr M (off14_slot c 1 2) p _ hs _
theorem slice_off14_w8_1 (M : Memref sig .tc .vmem S32x32x128 .bf16) (c : Dev nD) (p) (hs) :
    M.slice (Rect.unit (s := S32x32x128) (k0_off14 c 8#32 1#32) S1x32x128.size p) hs = slot3 M (slot (zc c) 2 1) :=
  Memref.slice_unit_congr M (off14_slot c 2 0) p _ hs _
theorem slice_off14_w8_2 (M : Memref sig .tc .vmem S32x32x128 .bf16) (c : Dev nD) (p) (hs) :
    M.slice (Rect.unit (s := S32x32x128) (k0_off14 c 8#32 2#32) S1x32x128.size p) hs = slot3 M (slot (zc c) 2 2) :=
  Memref.slice_unit_congr M (off14_slot c 2 1) p _ hs _
theorem slice_off14_w8_3 (M : Memref sig .tc .vmem S32x32x128 .bf16) (c : Dev nD) (p) (hs) :
    M.slice (Rect.unit (s := S32x32x128) (k0_off14 c 8#32 3#32) S1x32x128.size p) hs = slot3 M (slot (zc c) 2 3) :=
  Memref.slice_unit_congr M (off14_slot c 2 2) p _ hs _
theorem slice_off14_w12_1 (M : Memref sig .tc .vmem S32x32x128 .bf16) (c : Dev nD) (p) (hs) :
    M.slice (Rect.unit (s := S32x32x128) (k0_off14 c 12#32 1#32) S1x32x128.size p) hs = slot3 M (slot (zc c) 3 1) :=
  Memref.slice_unit_congr M (off14_slot c 3 0) p _ hs _
theorem slice_off14_w12_2 (M : Memref sig .tc .vmem S32x32x128 .bf16) (c : Dev nD) (p) (hs) :
    M.slice (Rect.unit (s := S32x32x128) (k0_off14 c 12#32 2#32) S1x32x128.size p) hs = slot3 M (slot (zc c) 3 2) :=
  Memref.slice_unit_congr M (off14_slot c 3 1) p _ hs _
theorem slice_off14_w12_3 (M : Memref sig .tc .vmem S32x32x128 .bf16) (c : Dev nD) (p) (hs) :
    M.slice (Rect.unit (s := S32x32x128) (k0_off14 c 12#32 3#32) S1x32x128.size p) hs = slot3 M (slot (zc c) 3 3) :=
  Memref.slice_unit_congr M (off14_slot c 3 2) p _ hs _
theorem slice_off14_w16_1 (M : Memref sig .tc .vmem S32x32x128 .bf16) (c : Dev nD) (p) (hs) :
    M.slice (Rect.unit (s := S32x32x128) (k0_off14 c 16#32 1#32) S1x32x128.size p) hs = slot3 M (slot (zc c) 4 1) :=
  Memref.slice_unit_congr M (off14_slot c 4 0) p _ hs _
theorem slice_off14_w16_2 (M : Memref sig .tc .vmem S32x32x128 .bf16) (c : Dev nD) (p) (hs) :
    M.slice (Rect.unit (s := S32x32x128) (k0_off14 c 16#32 2#32) S1x32x128.size p) hs = slot3 M (slot (zc c) 4 2) :=
  Memref.slice_unit_congr M (off14_slot c 4 1) p _ hs _
theorem slice_off14_w16_3 (M : Memref sig .tc .vmem S32x32x128 .bf16) (c : Dev nD) (p) (hs) :
    M.slice (Rect.unit (s := S32x32x128) (k0_off14 c 16#32 3#32) S1x32x128.size p) hs = slot3 M (slot (zc c) 4 3) :=
  Memref.slice_unit_congr M (off14_slot c 4 2) p _ hs _
theorem slice_off14_w20_1 (M : Memref sig .tc .vmem S32x32x128 .bf16) (c : Dev nD) (p) (hs) :
    M.slice (Rect.unit (s := S32x32x128) (k0_off14 c 20#32 1#32) S1x32x128.size p) hs = slot3 M (slot (zc c) 5 1) :=
  Memref.slice_unit_congr M (off14_slot c 5 0) p _ hs _
theorem slice_off14_w20_2 (M : Memref sig .tc .vmem S32x32x128 .bf16) (c : Dev nD) (p) (hs) :
    M.slice (Rect.unit (s := S32x32x128) (k0_off14 c 20#32 2#32) S1x32x128.size p) hs = slot3 M (slot (zc c) 5 2) :=
  Memref.slice_unit_congr M (off14_slot c 5 1) p _ hs _
theorem slice_off14_w20_3 (M : Memref sig .tc .vmem S32x32x128 .bf16) (c : Dev nD) (p) (hs) :
    M.slice (Rect.unit (s := S32x32x128) (k0_off14 c 20#32 3#32) S1x32x128.size p) hs = slot3 M (slot (zc c) 5 3) :=
  Memref.slice_unit_congr M (off14_slot c 5 2) p _ hs _
theorem slice_off14_w24_1 (M : Memref sig .tc .vmem S32x32x128 .bf16) (c : Dev nD) (p) (hs) :
    M.slice (Rect.unit (s := S32x32x128) (k0_off14 c 24#32 1#32) S1x32x128.size p) hs = slot3 M (slot (zc c) 6 1) :=
  Memref.slice_unit_congr M (off14_slot c 6 0) p _ hs _
theorem slice_off14_w24_2 (M : Memref sig .tc .vmem S32x32x128 .bf16) (c : Dev nD) (p) (hs) :
    M.slice (Rect.unit (s := S32x32x128) (k0_off14 c 24#32 2#32) S1x32x128.size p) hs = slot3 M (slot (zc c) 6 2) :=
  Memref.slice_unit_congr M (off14_slot c 6 1) p _ hs _
theorem slice_off14_w24_3 (M : Memref sig .tc .vmem S32x32x128 .bf16) (c : Dev nD) (p) (hs) :
    M.slice (Rect.unit (s := S32x32x128) (k0_off14 c 24#32 3#32) S1x32x128.size p) hs = slot3 M (slot (zc c) 6 3) :=
  Memref.slice_unit_congr M (off14_slot c 6 2) p _ hs _
theorem slice_off14_w28_1 (M : Memref sig .tc .vmem S32x32x128 .bf16) (c : Dev nD) (p) (hs) :
    M.slice (Rect.unit (s := S32x32x128) (k0_off14 c 28#32 1#32) S1x32x128.size p) hs = slot3 M (slot (zc c) 7 1) :=
  Memref.slice_unit_congr M (off14_slot c 7 0) p _ hs _
theorem slice_off14_w28_2 (M : Memref sig .tc .vmem S32x32x128 .bf16) (c : Dev nD) (p) (hs) :
    M.slice (Rect.unit (s := S32x32x128) (k0_off14 c 28#32 2#32) S1x32x128.size p) hs = slot3 M (slot (zc c) 7 2) :=
  Memref.slice_unit_congr M (off14_slot c 7 1) p _ hs _
theorem slice_off14_w28_3 (M : Memref sig .tc .vmem S32x32x128 .bf16) (c : Dev nD) (p) (hs) :
    M.slice (Rect.unit (s := S32x32x128) (k0_off14 c 28#32 3#32) S1x32x128.size p) hs = slot3 M (slot (zc c) 7 3) :=
  Memref.slice_unit_congr M (off14_slot c 7 2) p _ hs _

/-! ### Offset function 15: the rectangle of a load from a stage-3 buffer -/

theorem rect_off15_w0 (c : Dev nD) (p) :
    Rect.unit (s := S32x32x128) (k0_off15 c 0#32) S1x32x128.size p
      = Rect.unit (s := S32x32x128) ![(slot (zc c) 0 0).val, 0, 0] S1x32x128.size (inbB (slot (zc c) 0 0)) :=
  Rect.unit_congr (off15_slot c 0) p _
theorem rect_off15_w4 (c : Dev nD) (p) :
    Rect.unit (s := S32x32x128) (k0_off15 c 4#32) S1x32x128.size p
      = Rect.unit (s := S32x32x128) ![(slot (zc c) 1 0).val, 0, 0] S1x32x128.size (inbB (slot (zc c) 1 0)) :=
  Rect.unit_congr (off15_slot c 1) p _
theorem rect_off15_w8 (c : Dev nD) (p) :
    Rect.unit (s := S32x32x128) (k0_off15 c 8#32) S1x32x128.size p
      = Rect.unit (s := S32x32x128) ![(slot (zc c) 2 0).val, 0, 0] S1x32x128.size (inbB (slot (zc c) 2 0)) :=
  Rect.unit_congr (off15_slot c 2) p _
theorem rect_off15_w12 (c : Dev nD) (p) :
    Rect.unit (s := S32x32x128) (k0_off15 c 12#32) S1x32x128.size p
      = Rect.unit (s := S32x32x128) ![(slot (zc c) 3 0).val, 0, 0] S1x32x128.size (inbB (slot (zc c) 3 0)) :=
  Rect.unit_congr (off15_slot c 3) p _
theorem rect_off15_w16 (c : Dev nD) (p) :
    Rect.unit (s := S32x32x128) (k0_off15 c 16#32) S1x32x128.size p
      = Rect.unit (s := S32x32x128) ![(slot (zc c) 4 0).val, 0, 0] S1x32x128.size (inbB (slot (zc c) 4 0)) :=
  Rect.unit_congr (off15_slot c 4) p _
theorem rect_off15_w20 (c : Dev nD) (p) :
    Rect.unit (s := S32x32x128) (k0_off15 c 20#32) S1x32x128.size p
      = Rect.unit (s := S32x32x128) ![(slot (zc c) 5 0).val, 0, 0] S1x32x128.size (inbB (slot (zc c) 5 0)) :=
  Rect.unit_congr (off15_slot c 5) p _
theorem rect_off15_w24 (c : Dev nD) (p) :
    Rect.unit (s := S32x32x128) (k0_off15 c 24#32) S1x32x128.size p
      = Rect.unit (s := S32x32x128) ![(slot (zc c) 6 0).val, 0, 0] S1x32x128.size (inbB (slot (zc c) 6 0)) :=
  Rect.unit_congr (off15_slot c 6) p _
theorem rect_off15_w28 (c : Dev nD) (p) :
    Rect.unit (s := S32x32x128) (k0_off15 c 28#32) S1x32x128.size p
      = Rect.unit (s := S32x32x128) ![(slot (zc c) 7 0).val, 0, 0] S1x32x128.size (inbB (slot (zc c) 7 0)) :=
  Rect.unit_congr (off15_slot c 7) p _

/-! ### Offset function 16: a semaphore of a 32-array -/

theorem semSlice_off16_w0_1 (A : DmaSems sig S32) (c : Dev nD) (p) :
    A.slice (Rect.unit (s := S32) (k0_off16 c 0#32 1#32) S1.size p)
      = A.slice (Rect.unit (s := S32) ![(slot (zc c) 0 3).val] S1.size (inb32 (slot (zc c) 0 3))) :=
  SemArray.slice_unit_congr A (off16_slot c 0 0) p _
theorem sem_off16_w0_1 (A : DmaSems sig S32) (c : Dev nD) (p) (hq : S1.Squeezes S_) :
    ((A.slice (Rect.unit (s := S32) (k0_off16 c 0#32 1#32) S1.size p)).squeeze S_ hq).sem = sem32 A (slot (zc c) 0 3) :=
  congrArg (fun X : DmaSems sig S1 => (X.squeeze S_ hq).sem) (semSlice_off16_w0_1 A c p)
theorem semSlice_off16_w0_2 (A : DmaSems sig S32) (c : Dev nD) (p) :
    A.slice (Rect.unit (s := S32) (k0_off16 c 0#32 2#32) S1.size p)
      = A.slice (Rect.unit (s := S32) ![(slot (zc c) 0 2).val] S1.size (inb32 (slot (zc c) 0 2))) :=
  SemArray.slice_unit_congr A (off16_slot c 0 1) p _
theorem sem_off16_w0_2 (A : DmaSems sig S32) (c : Dev nD) (p) (hq : S1.Squeezes S_) :
    ((A.slice (Rect.unit (s := S32) (k0_off16 c 0#32 2#32) S1.size p)).squeeze S_ hq).sem = sem32 A (slot (zc c) 0 2) :=
  congrArg (fun X : DmaSems sig S1 => (X.squeeze S_ hq).sem) (semSlice_off16_w0_2 A c p)
theorem semSlice_off16_w0_3 (A : DmaSems sig S32) (c : Dev nD) (p) :
    A.slice (Rect.unit (s := S32) (k0_off16 c 0#32 3#32) S1.size p)
      = A.slice (Rect.unit (s := S32) ![(slot (zc c) 0 1).val] S1.size (inb32 (slot (zc c) 0 1))) :=
  SemArray.slice_unit_congr A (off16_slot c 0 2) p _
theorem sem_off16_w0_3 (A : DmaSems sig S32) (c : Dev nD) (p) (hq : S1.Squeezes S_) :
    ((A.slice (Rect.unit (s := S32) (k0_off16 c 0#32 3#32) S1.size p)).squeeze S_ hq).sem = sem32 A (slot (zc c) 0 1) :=
  congrArg (fun X : DmaSems sig S1 => (X.squeeze S_ hq).sem) (semSlice_off16_w0_3 A c p)
theorem semSlice_off16_w4_1 (A : DmaSems sig S32) (c : Dev nD) (p) :
    A.slice (Rect.unit (s := S32) (k0_off16 c 4#32 1#32) S1.size p)
      = A.slice (Rect.unit (s := S32) ![(slot (zc c) 1 3).val] S1.size (inb32 (slot (zc c) 1 3))) :=
  SemArray.slice_unit_congr A (off16_slot c 1 0) p _
theorem sem_off16_w4_1 (A : DmaSems sig S32) (c : Dev nD) (p) (hq : S1.Squeezes S_) :
    ((A.slice (Rect.unit (s := S32) (k0_off16 c 4#32 1#32) S1.size p)).squeeze S_ hq).sem = sem32 A (slot (zc c) 1 3) :=
  congrArg (fun X : DmaSems sig S1 => (X.squeeze S_ hq).sem) (semSlice_off16_w4_1 A c p)
theorem semSlice_off16_w4_2 (A : DmaSems sig S32) (c : Dev nD) (p) :
    A.slice (Rect.unit (s := S32) (k0_off16 c 4#32 2#32) S1.size p)
      = A.slice (Rect.unit (s := S32) ![(slot (zc c) 1 2).val] S1.size (inb32 (slot (zc c) 1 2))) :=
  SemArray.slice_unit_congr A (off16_slot c 1 1) p _
theorem sem_off16_w4_2 (A : DmaSems sig S32) (c : Dev nD) (p) (hq : S1.Squeezes S_) :
    ((A.slice (Rect.unit (s := S32) (k0_off16 c 4#32 2#32) S1.size p)).squeeze S_ hq).sem = sem32 A (slot (zc c) 1 2) :=
  congrArg (fun X : DmaSems sig S1 => (X.squeeze S_ hq).sem) (semSlice_off16_w4_2 A c p)
theorem semSlice_off16_w4_3 (A : DmaSems sig S32) (c : Dev nD) (p) :
    A.slice (Rect.unit (s := S32) (k0_off16 c 4#32 3#32) S1.size p)
      = A.slice (Rect.unit (s := S32) ![(slot (zc c) 1 1).val] S1.size (inb32 (slot (zc c) 1 1))) :=
  SemArray.slice_unit_congr A (off16_slot c 1 2) p _
theorem sem_off16_w4_3 (A : DmaSems sig S32) (c : Dev nD) (p) (hq : S1.Squeezes S_) :
    ((A.slice (Rect.unit (s := S32) (k0_off16 c 4#32 3#32) S1.size p)).squeeze S_ hq).sem = sem32 A (slot (zc c) 1 1) :=
  congrArg (fun X : DmaSems sig S1 => (X.squeeze S_ hq).sem) (semSlice_off16_w4_3 A c p)
theorem semSlice_off16_w8_1 (A : DmaSems sig S32) (c : Dev nD) (p) :
    A.slice (Rect.unit (s := S32) (k0_off16 c 8#32 1#32) S1.size p)
      = A.slice (Rect.unit (s := S32) ![(slot (zc c) 2 3).val] S1.size (inb32 (slot (zc c) 2 3))) :=
  SemArray.slice_unit_congr A (off16_slot c 2 0) p _
theorem sem_off16_w8_1 (A : DmaSems sig S32) (c : Dev nD) (p) (hq : S1.Squeezes S_) :
    ((A.slice (Rect.unit (s := S32) (k0_off16 c 8#32 1#32) S1.size p)).squeeze S_ hq).sem = sem32 A (slot (zc c) 2 3) :=
  congrArg (fun X : DmaSems sig S1 => (X.squeeze S_ hq).sem) (semSlice_off16_w8_1 A c p)
theorem semSlice_off16_w8_2 (A : DmaSems sig S32) (c : Dev nD) (p) :
    A.slice (Rect.unit (s := S32) (k0_off16 c 8#32 2#32) S1.size p)
      = A.slice (Rect.unit (s := S32) ![(slot (zc c) 2 2).val] S1.size (inb32 (slot (zc c) 2 2))) :=
  SemArray.slice_unit_congr A (off16_slot c 2 1) p _
theorem sem_off16_w8_2 (A : DmaSems sig S32) (c : Dev nD) (p) (hq : S1.Squeezes S_) :
    ((A.slice (Rect.unit (s := S32) (k0_off16 c 8#32 2#32) S1.size p)).squeeze S_ hq).sem = sem32 A (slot (zc c) 2 2) :=
  congrArg (fun X : DmaSems sig S1 => (X.squeeze S_ hq).sem) (semSlice_off16_w8_2 A c p)
theorem semSlice_off16_w8_3 (A : DmaSems sig S32) (c : Dev nD) (p) :
    A.slice (Rect.unit (s := S32) (k0_off16 c 8#32 3#32) S1.size p)
      = A.slice (Rect.unit (s := S32) ![(slot (zc c) 2 1).val] S1.size (inb32 (slot (zc c) 2 1))) :=
  SemArray.slice_unit_congr A (off16_slot c 2 2) p _
theorem sem_off16_w8_3 (A : DmaSems sig S32) (c : Dev nD) (p) (hq : S1.Squeezes S_) :
    ((A.slice (Rect.unit (s := S32) (k0_off16 c 8#32 3#32) S1.size p)).squeeze S_ hq).sem = sem32 A (slot (zc c) 2 1) :=
  congrArg (fun X : DmaSems sig S1 => (X.squeeze S_ hq).sem) (semSlice_off16_w8_3 A c p)
theorem semSlice_off16_w12_1 (A : DmaSems sig S32) (c : Dev nD) (p) :
    A.slice (Rect.unit (s := S32) (k0_off16 c 12#32 1#32) S1.size p)
      = A.slice (Rect.unit (s := S32) ![(slot (zc c) 3 3).val] S1.size (inb32 (slot (zc c) 3 3))) :=
  SemArray.slice_unit_congr A (off16_slot c 3 0) p _
theorem sem_off16_w12_1 (A : DmaSems sig S32) (c : Dev nD) (p) (hq : S1.Squeezes S_) :
    ((A.slice (Rect.unit (s := S32) (k0_off16 c 12#32 1#32) S1.size p)).squeeze S_ hq).sem = sem32 A (slot (zc c) 3 3) :=
  congrArg (fun X : DmaSems sig S1 => (X.squeeze S_ hq).sem) (semSlice_off16_w12_1 A c p)
theorem semSlice_off16_w12_2 (A : DmaSems sig S32) (c : Dev nD) (p) :
    A.slice (Rect.unit (s := S32) (k0_off16 c 12#32 2#32) S1.size p)
      = A.slice (Rect.unit (s := S32) ![(slot (zc c) 3 2).val] S1.size (inb32 (slot (zc c) 3 2))) :=
  SemArray.slice_unit_congr A (off16_slot c 3 1) p _
theorem sem_off16_w12_2 (A : DmaSems sig S32) (c : Dev nD) (p) (hq : S1.Squeezes S_) :
    ((A.slice (Rect.unit (s := S32) (k0_off16 c 12#32 2#32) S1.size p)).squeeze S_ hq).sem = sem32 A (slot (zc c) 3 2) :=
  congrArg (fun X : DmaSems sig S1 => (X.squeeze S_ hq).sem) (semSlice_off16_w12_2 A c p)
theorem semSlice_off16_w12_3 (A : DmaSems sig S32) (c : Dev nD) (p) :
    A.slice (Rect.unit (s := S32) (k0_off16 c 12#32 3#32) S1.size p)
      = A.slice (Rect.unit (s := S32) ![(slot (zc c) 3 1).val] S1.size (inb32 (slot (zc c) 3 1))) :=
  SemArray.slice_unit_congr A (off16_slot c 3 2) p _
theorem sem_off16_w12_3 (A : DmaSems sig S32) (c : Dev nD) (p) (hq : S1.Squeezes S_) :
    ((A.slice (Rect.unit (s := S32) (k0_off16 c 12#32 3#32) S1.size p)).squeeze S_ hq).sem = sem32 A (slot (zc c) 3 1) :=
  congrArg (fun X : DmaSems sig S1 => (X.squeeze S_ hq).sem) (semSlice_off16_w12_3 A c p)
theorem semSlice_off16_w16_1 (A : DmaSems sig S32) (c : Dev nD) (p) :
    A.slice (Rect.unit (s := S32) (k0_off16 c 16#32 1#32) S1.size p)
      = A.slice (Rect.unit (s := S32) ![(slot (zc c) 4 3).val] S1.size (inb32 (slot (zc c) 4 3))) :=
  SemArray.slice_unit_congr A (off16_slot c 4 0) p _
theorem sem_off16_w16_1 (A : DmaSems sig S32) (c : Dev nD) (p) (hq : S1.Squeezes S_) :
    ((A.slice (Rect.unit (s := S32) (k0_off16 c 16#32 1#32) S1.size p)).squeeze S_ hq).sem = sem32 A (slot (zc c) 4 3) :=
  congrArg (fun X : DmaSems sig S1 => (X.squeeze S_ hq).sem) (semSlice_off16_w16_1 A c p)
theorem semSlice_off16_w16_2 (A : DmaSems sig S32) (c : Dev nD) (p) :
    A.slice (Rect.unit (s := S32) (k0_off16 c 16#32 2#32) S1.size p)
      = A.slice (Rect.unit (s := S32) ![(slot (zc c) 4 2).val] S1.size (inb32 (slot (zc c) 4 2))) :=
  SemArray.slice_unit_congr A (off16_slot c 4 1) p _
theorem sem_off16_w16_2 (A : DmaSems sig S32) (c : Dev nD) (p) (hq : S1.Squeezes S_) :
    ((A.slice (Rect.unit (s := S32) (k0_off16 c 16#32 2#32) S1.size p)).squeeze S_ hq).sem = sem32 A (slot (zc c) 4 2) :=
  congrArg (fun X : DmaSems sig S1 => (X.squeeze S_ hq).sem) (semSlice_off16_w16_2 A c p)
theorem semSlice_off16_w16_3 (A : DmaSems sig S32) (c : Dev nD) (p) :
    A.slice (Rect.unit (s := S32) (k0_off16 c 16#32 3#32) S1.size p)
      = A.slice (Rect.unit (s := S32) ![(slot (zc c) 4 1).val] S1.size (inb32 (slot (zc c) 4 1))) :=
  SemArray.slice_unit_congr A (off16_slot c 4 2) p _
theorem sem_off16_w16_3 (A : DmaSems sig S32) (c : Dev nD) (p) (hq : S1.Squeezes S_) :
    ((A.slice (Rect.unit (s := S32) (k0_off16 c 16#32 3#32) S1.size p)).squeeze S_ hq).sem = sem32 A (slot (zc c) 4 1) :=
  congrArg (fun X : DmaSems sig S1 => (X.squeeze S_ hq).sem) (semSlice_off16_w16_3 A c p)
theorem semSlice_off16_w20_1 (A : DmaSems sig S32) (c : Dev nD) (p) :
    A.slice (Rect.unit (s := S32) (k0_off16 c 20#32 1#32) S1.size p)
      = A.slice (Rect.unit (s := S32) ![(slot (zc c) 5 3).val] S1.size (inb32 (slot (zc c) 5 3))) :=
  SemArray.slice_unit_congr A (off16_slot c 5 0) p _
theorem sem_off16_w20_1 (A : DmaSems sig S32) (c : Dev nD) (p) (hq : S1.Squeezes S_) :
    ((A.slice (Rect.unit (s := S32) (k0_off16 c 20#32 1#32) S1.size p)).squeeze S_ hq).sem = sem32 A (slot (zc c) 5 3) :=
  congrArg (fun X : DmaSems sig S1 => (X.squeeze S_ hq).sem) (semSlice_off16_w20_1 A c p)
theorem semSlice_off16_w20_2 (A : DmaSems sig S32) (c : Dev nD) (p) :
    A.slice (Rect.unit (s := S32) (k0_off16 c 20#32 2#32) S1.size p)
      = A.slice (Rect.unit (s := S32) ![(slot (zc c) 5 2).val] S1.size (inb32 (slot (zc c) 5 2))) :=
  SemArray.slice_unit_congr A (off16_slot c 5 1) p _
theorem sem_off16_w20_2 (A : DmaSems sig S32) (c : Dev nD) (p) (hq : S1.Squeezes S_) :
    ((A.slice (Rect.unit (s := S32) (k0_off16 c 20#32 2#32) S1.size p)).squeeze S_ hq).sem = sem32 A (slot (zc c) 5 2) :=
  congrArg (fun X : DmaSems sig S1 => (X.squeeze S_ hq).sem) (semSlice_off16_w20_2 A c p)
theorem semSlice_off16_w20_3 (A : DmaSems sig S32) (c : Dev nD) (p) :
    A.slice (Rect.unit (s := S32) (k0_off16 c 20#32 3#32) S1.size p)
      = A.slice (Rect.unit (s := S32) ![(slot (zc c) 5 1).val] S1.size (inb32 (slot (zc c) 5 1))) :=
  SemArray.slice_unit_congr A (off16_slot c 5 2) p _
theorem sem_off16_w20_3 (A : DmaSems sig S32) (c : Dev nD) (p) (hq : S1.Squeezes S_) :
    ((A.slice (Rect.unit (s := S32) (k0_off16 c 20#32 3#32) S1.size p)).squeeze S_ hq).sem = sem32 A (slot (zc c) 5 1) :=
  congrArg (fun X : DmaSems sig S1 => (X.squeeze S_ hq).sem) (semSlice_off16_w20_3 A c p)
theorem semSlice_off16_w24_1 (A : DmaSems sig S32) (c : Dev nD) (p) :
    A.slice (Rect.unit (s := S32) (k0_off16 c 24#32 1#32) S1.size p)
      = A.slice (Rect.unit (s := S32) ![(slot (zc c) 6 3).val] S1.size (inb32 (slot (zc c) 6 3))) :=
  SemArray.slice_unit_congr A (off16_slot c 6 0) p _
theorem sem_off16_w24_1 (A : DmaSems sig S32) (c : Dev nD) (p) (hq : S1.Squeezes S_) :
    ((A.slice (Rect.unit (s := S32) (k0_off16 c 24#32 1#32) S1.size p)).squeeze S_ hq).sem = sem32 A (slot (zc c) 6 3) :=
  congrArg (fun X : DmaSems sig S1 => (X.squeeze S_ hq).sem) (semSlice_off16_w24_1 A c p)
theorem semSlice_off16_w24_2 (A : DmaSems sig S32) (c : Dev nD) (p) :
    A.slice (Rect.unit (s := S32) (k0_off16 c 24#32 2#32) S1.size p)
      = A.slice (Rect.unit (s := S32) ![(slot (zc c) 6 2).val] S1.size (inb32 (slot (zc c) 6 2))) :=
  SemArray.slice_unit_congr A (off16_slot c 6 1) p _
theorem sem_off16_w24_2 (A : DmaSems sig S32) (c : Dev nD) (p) (hq : S1.Squeezes S_) :
    ((A.slice (Rect.unit (s := S32) (k0_off16 c 24#32 2#32) S1.size p)).squeeze S_ hq).sem = sem32 A (slot (zc c) 6 2) :=
  congrArg (fun X : DmaSems sig S1 => (X.squeeze S_ hq).sem) (semSlice_off16_w24_2 A c p)
theorem semSlice_off16_w24_3 (A : DmaSems sig S32) (c : Dev nD) (p) :
    A.slice (Rect.unit (s := S32) (k0_off16 c 24#32 3#32) S1.size p)
      = A.slice (Rect.unit (s := S32) ![(slot (zc c) 6 1).val] S1.size (inb32 (slot (zc c) 6 1))) :=
  SemArray.slice_unit_congr A (off16_slot c 6 2) p _
theorem sem_off16_w24_3 (A : DmaSems sig S32) (c : Dev nD) (p) (hq : S1.Squeezes S_) :
    ((A.slice (Rect.unit (s := S32) (k0_off16 c 24#32 3#32) S1.size p)).squeeze S_ hq).sem = sem32 A (slot (zc c) 6 1) :=
  congrArg (fun X : DmaSems sig S1 => (X.squeeze S_ hq).sem) (semSlice_off16_w24_3 A c p)
theorem semSlice_off16_w28_1 (A : DmaSems sig S32) (c : Dev nD) (p) :
    A.slice (Rect.unit (s := S32) (k0_off16 c 28#32 1#32) S1.size p)
      = A.slice (Rect.unit (s := S32) ![(slot (zc c) 7 3).val] S1.size (inb32 (slot (zc c) 7 3))) :=
  SemArray.slice_unit_congr A (off16_slot c 7 0) p _
theorem sem_off16_w28_1 (A : DmaSems sig S32) (c : Dev nD) (p) (hq : S1.Squeezes S_) :
    ((A.slice (Rect.unit (s := S32) (k0_off16 c 28#32 1#32) S1.size p)).squeeze S_ hq).sem = sem32 A (slot (zc c) 7 3) :=
  congrArg (fun X : DmaSems sig S1 => (X.squeeze S_ hq).sem) (semSlice_off16_w28_1 A c p)
theorem semSlice_off16_w28_2 (A : DmaSems sig S32) (c : Dev nD) (p) :
    A.slice (Rect.unit (s := S32) (k0_off16 c 28#32 2#32) S1.size p)
      = A.slice (Rect.unit (s := S32) ![(slot (zc c) 7 2).val] S1.size (inb32 (slot (zc c) 7 2))) :=
  SemArray.slice_unit_congr A (off16_slot c 7 1) p _
theorem sem_off16_w28_2 (A : DmaSems sig S32) (c : Dev nD) (p) (hq : S1.Squeezes S_) :
    ((A.slice (Rect.unit (s := S32) (k0_off16 c 28#32 2#32) S1.size p)).squeeze S_ hq).sem = sem32 A (slot (zc c) 7 2) :=
  congrArg (fun X : DmaSems sig S1 => (X.squeeze S_ hq).sem) (semSlice_off16_w28_2 A c p)
theorem semSlice_off16_w28_3 (A : DmaSems sig S32) (c : Dev nD) (p) :
    A.slice (Rect.unit (s := S32) (k0_off16 c 28#32 3#32) S1.size p)
      = A.slice (Rect.unit (s := S32) ![(slot (zc c) 7 1).val] S1.size (inb32 (slot (zc c) 7 1))) :=
  SemArray.slice_unit_congr A (off16_slot c 7 2) p _
theorem sem_off16_w28_3 (A : DmaSems sig S32) (c : Dev nD) (p) (hq : S1.Squeezes S_) :
    ((A.slice (Rect.unit (s := S32) (k0_off16 c 28#32 3#32) S1.size p)).squeeze S_ hq).sem = sem32 A (slot (zc c) 7 1) :=
  congrArg (fun X : DmaSems sig S1 => (X.squeeze S_ hq).sem) (semSlice_off16_w28_3 A c p)

/-! ### Offset function 17: a slot of a stage-3 buffer -/

theorem slice_off17_w0_1 (M : Memref sig .tc .vmem S32x32x128 .bf16) (c : Dev nD) (p) (hs) :
    M.slice (Rect.unit (s := S32x32x128) (k0_off17 c 0#32 1#32) S1x32x128.size p) hs = slot3 M (slot (zc c) 0 3) :=
  Memref.slice_unit_congr M (off17_slot c 0 0) p _ hs _
theorem slice_off17_w0_2 (M : Memref sig .tc .vmem S32x32x128 .bf16) (c : Dev nD) (p) (hs) :
    M.slice (Rect.unit (s := S32x32x128) (k0_off17 c 0#32 2#32) S1x32x128.size p) hs = slot3 M (slot (zc c) 0 2) :=
  Memref.slice_unit_congr M (off17_slot c 0 1) p _ hs _
theorem slice_off17_w0_3 (M : Memref sig .tc .vmem S32x32x128 .bf16) (c : Dev nD) (p) (hs) :
    M.slice (Rect.unit (s := S32x32x128) (k0_off17 c 0#32 3#32) S1x32x128.size p) hs = slot3 M (slot (zc c) 0 1) :=
  Memref.slice_unit_congr M (off17_slot c 0 2) p _ hs _
theorem slice_off17_w4_1 (M : Memref sig .tc .vmem S32x32x128 .bf16) (c : Dev nD) (p) (hs) :
    M.slice (Rect.unit (s := S32x32x128) (k0_off17 c 4#32 1#32) S1x32x128.size p) hs = slot3 M (slot (zc c) 1 3) :=
  Memref.slice_unit_congr M (off17_slot c 1 0) p _ hs _
theorem slice_off17_w4_2 (M : Memref sig .tc .vmem S32x32x128 .bf16) (c : Dev nD) (p) (hs) :
    M.slice (Rect.unit (s := S32x32x128) (k0_off17 c 4#32 2#32) S1x32x128.size p) hs = slot3 M (slot (zc c) 1 2) :=
  Memref.slice_unit_congr M (off17_slot c 1 1) p _ hs _
theorem slice_off17_w4_3 (M : Memref sig .tc .vmem S32x32x128 .bf16) (c : Dev nD) (p) (hs) :
    M.slice (Rect.unit (s := S32x32x128) (k0_off17 c 4#32 3#32) S1x32x128.size p) hs = slot3 M (slot (zc c) 1 1) :=
  Memref.slice_unit_congr M (off17_slot c 1 2) p _ hs _
theorem slice_off17_w8_1 (M : Memref sig .tc .vmem S32x32x128 .bf16) (c : Dev nD) (p) (hs) :
    M.slice (Rect.unit (s := S32x32x128) (k0_off17 c 8#32 1#32) S1x32x128.size p) hs = slot3 M (slot (zc c) 2 3) :=
  Memref.slice_unit_congr M (off17_slot c 2 0) p _ hs _
theorem slice_off17_w8_2 (M : Memref sig .tc .vmem S32x32x128 .bf16) (c : Dev nD) (p) (hs) :
    M.slice (Rect.unit (s := S32x32x128) (k0_off17 c 8#32 2#32) S1x32x128.size p) hs = slot3 M (slot (zc c) 2 2) :=
  Memref.slice_unit_congr M (off17_slot c 2 1) p _ hs _
theorem slice_off17_w8_3 (M : Memref sig .tc .vmem S32x32x128 .bf16) (c : Dev nD) (p) (hs) :
    M.slice (Rect.unit (s := S32x32x128) (k0_off17 c 8#32 3#32) S1x32x128.size p) hs = slot3 M (slot (zc c) 2 1) :=
  Memref.slice_unit_congr M (off17_slot c 2 2) p _ hs _
theorem slice_off17_w12_1 (M : Memref sig .tc .vmem S32x32x128 .bf16) (c : Dev nD) (p) (hs) :
    M.slice (Rect.unit (s := S32x32x128) (k0_off17 c 12#32 1#32) S1x32x128.size p) hs = slot3 M (slot (zc c) 3 3) :=
  Memref.slice_unit_congr M (off17_slot c 3 0) p _ hs _
theorem slice_off17_w12_2 (M : Memref sig .tc .vmem S32x32x128 .bf16) (c : Dev nD) (p) (hs) :
    M.slice (Rect.unit (s := S32x32x128) (k0_off17 c 12#32 2#32) S1x32x128.size p) hs = slot3 M (slot (zc c) 3 2) :=
  Memref.slice_unit_congr M (off17_slot c 3 1) p _ hs _
theorem slice_off17_w12_3 (M : Memref sig .tc .vmem S32x32x128 .bf16) (c : Dev nD) (p) (hs) :
    M.slice (Rect.unit (s := S32x32x128) (k0_off17 c 12#32 3#32) S1x32x128.size p) hs = slot3 M (slot (zc c) 3 1) :=
  Memref.slice_unit_congr M (off17_slot c 3 2) p _ hs _
theorem slice_off17_w16_1 (M : Memref sig .tc .vmem S32x32x128 .bf16) (c : Dev nD) (p) (hs) :
    M.slice (Rect.unit (s := S32x32x128) (k0_off17 c 16#32 1#32) S1x32x128.size p) hs = slot3 M (slot (zc c) 4 3) :=
  Memref.slice_unit_congr M (off17_slot c 4 0) p _ hs _
theorem slice_off17_w16_2 (M : Memref sig .tc .vmem S32x32x128 .bf16) (c : Dev nD) (p) (hs) :
    M.slice (Rect.unit (s := S32x32x128) (k0_off17 c 16#32 2#32) S1x32x128.size p) hs = slot3 M (slot (zc c) 4 2) :=
  Memref.slice_unit_congr M (off17_slot c 4 1) p _ hs _
theorem slice_off17_w16_3 (M : Memref sig .tc .vmem S32x32x128 .bf16) (c : Dev nD) (p) (hs) :
    M.slice (Rect.unit (s := S32x32x128) (k0_off17 c 16#32 3#32) S1x32x128.size p) hs = slot3 M (slot (zc c) 4 1) :=
  Memref.slice_unit_congr M (off17_slot c 4 2) p _ hs _
theorem slice_off17_w20_1 (M : Memref sig .tc .vmem S32x32x128 .bf16) (c : Dev nD) (p) (hs) :
    M.slice (Rect.unit (s := S32x32x128) (k0_off17 c 20#32 1#32) S1x32x128.size p) hs = slot3 M (slot (zc c) 5 3) :=
  Memref.slice_unit_congr M (off17_slot c 5 0) p _ hs _
theorem slice_off17_w20_2 (M : Memref sig .tc .vmem S32x32x128 .bf16) (c : Dev nD) (p) (hs) :
    M.slice (Rect.unit (s := S32x32x128) (k0_off17 c 20#32 2#32) S1x32x128.size p) hs = slot3 M (slot (zc c) 5 2) :=
  Memref.slice_unit_congr M (off17_slot c 5 1) p _ hs _
theorem slice_off17_w20_3 (M : Memref sig .tc .vmem S32x32x128 .bf16) (c : Dev nD) (p) (hs) :
    M.slice (Rect.unit (s := S32x32x128) (k0_off17 c 20#32 3#32) S1x32x128.size p) hs = slot3 M (slot (zc c) 5 1) :=
  Memref.slice_unit_congr M (off17_slot c 5 2) p _ hs _
theorem slice_off17_w24_1 (M : Memref sig .tc .vmem S32x32x128 .bf16) (c : Dev nD) (p) (hs) :
    M.slice (Rect.unit (s := S32x32x128) (k0_off17 c 24#32 1#32) S1x32x128.size p) hs = slot3 M (slot (zc c) 6 3) :=
  Memref.slice_unit_congr M (off17_slot c 6 0) p _ hs _
theorem slice_off17_w24_2 (M : Memref sig .tc .vmem S32x32x128 .bf16) (c : Dev nD) (p) (hs) :
    M.slice (Rect.unit (s := S32x32x128) (k0_off17 c 24#32 2#32) S1x32x128.size p) hs = slot3 M (slot (zc c) 6 2) :=
  Memref.slice_unit_congr M (off17_slot c 6 1) p _ hs _
theorem slice_off17_w24_3 (M : Memref sig .tc .vmem S32x32x128 .bf16) (c : Dev nD) (p) (hs) :
    M.slice (Rect.unit (s := S32x32x128) (k0_off17 c 24#32 3#32) S1x32x128.size p) hs = slot3 M (slot (zc c) 6 1) :=
  Memref.slice_unit_congr M (off17_slot c 6 2) p _ hs _
theorem slice_off17_w28_1 (M : Memref sig .tc .vmem S32x32x128 .bf16) (c : Dev nD) (p) (hs) :
    M.slice (Rect.unit (s := S32x32x128) (k0_off17 c 28#32 1#32) S1x32x128.size p) hs = slot3 M (slot (zc c) 7 3) :=
  Memref.slice_unit_congr M (off17_slot c 7 0) p _ hs _
theorem slice_off17_w28_2 (M : Memref sig .tc .vmem S32x32x128 .bf16) (c : Dev nD) (p) (hs) :
    M.slice (Rect.unit (s := S32x32x128) (k0_off17 c 28#32 2#32) S1x32x128.size p) hs = slot3 M (slot (zc c) 7 2) :=
  Memref.slice_unit_congr M (off17_slot c 7 1) p _ hs _
theorem slice_off17_w28_3 (M : Memref sig .tc .vmem S32x32x128 .bf16) (c : Dev nD) (p) (hs) :
    M.slice (Rect.unit (s := S32x32x128) (k0_off17 c 28#32 3#32) S1x32x128.size p) hs = slot3 M (slot (zc c) 7 1) :=
  Memref.slice_unit_congr M (off17_slot c 7 2) p _ hs _

/-! ### Offset function 18: the rectangle of a load from a stage-3 buffer -/

theorem rect_off18_w0_1 (c : Dev nD) (p) :
    Rect.unit (s := S32x32x128) (k0_off18 c 0#32 1#32) S1x32x128.size p
      = Rect.unit (s := S32x32x128) ![(slot (zc c) 0 3).val, 0, 0] S1x32x128.size (inbB (slot (zc c) 0 3)) :=
  Rect.unit_congr (off18_slot c 0 0) p _
theorem rect_off18_w0_2 (c : Dev nD) (p) :
    Rect.unit (s := S32x32x128) (k0_off18 c 0#32 2#32) S1x32x128.size p
      = Rect.unit (s := S32x32x128) ![(slot (zc c) 0 2).val, 0, 0] S1x32x128.size (inbB (slot (zc c) 0 2)) :=
  Rect.unit_congr (off18_slot c 0 1) p _
theorem rect_off18_w0_3 (c : Dev nD) (p) :
    Rect.unit (s := S32x32x128) (k0_off18 c 0#32 3#32) S1x32x128.size p
      = Rect.unit (s := S32x32x128) ![(slot (zc c) 0 1).val, 0, 0] S1x32x128.size (inbB (slot (zc c) 0 1)) :=
  Rect.unit_congr (off18_slot c 0 2) p _
theorem rect_off18_w4_1 (c : Dev nD) (p) :
    Rect.unit (s := S32x32x128) (k0_off18 c 4#32 1#32) S1x32x128.size p
      = Rect.unit (s := S32x32x128) ![(slot (zc c) 1 3).val, 0, 0] S1x32x128.size (inbB (slot (zc c) 1 3)) :=
  Rect.unit_congr (off18_slot c 1 0) p _
theorem rect_off18_w4_2 (c : Dev nD) (p) :
    Rect.unit (s := S32x32x128) (k0_off18 c 4#32 2#32) S1x32x128.size p
      = Rect.unit (s := S32x32x128) ![(slot (zc c) 1 2).val, 0, 0] S1x32x128.size (inbB (slot (zc c) 1 2)) :=
  Rect.unit_congr (off18_slot c 1 1) p _
theorem rect_off18_w4_3 (c : Dev nD) (p) :
    Rect.unit (s := S32x32x128) (k0_off18 c 4#32 3#32) S1x32x128.size p
      = Rect.unit (s := S32x32x128) ![(slot (zc c) 1 1).val, 0, 0] S1x32x128.size (inbB (slot (zc c) 1 1)) :=
  Rect.unit_congr (off18_slot c 1 2) p _
theorem rect_off18_w8_1 (c : Dev nD) (p) :
    Rect.unit (s := S32x32x128) (k0_off18 c 8#32 1#32) S1x32x128.size p
      = Rect.unit (s := S32x32x128) ![(slot (zc c) 2 3).val, 0, 0] S1x32x128.size (inbB (slot (zc c) 2 3)) :=
  Rect.unit_congr (off18_slot c 2 0) p _
theorem rect_off18_w8_2 (c : Dev nD) (p) :
    Rect.unit (s := S32x32x128) (k0_off18 c 8#32 2#32) S1x32x128.size p
      = Rect.unit (s := S32x32x128) ![(slot (zc c) 2 2).val, 0, 0] S1x32x128.size (inbB (slot (zc c) 2 2)) :=
  Rect.unit_congr (off18_slot c 2 1) p _
theorem rect_off18_w8_3 (c : Dev nD) (p) :
    Rect.unit (s := S32x32x128) (k0_off18 c 8#32 3#32) S1x32x128.size p
      = Rect.unit (s := S32x32x128) ![(slot (zc c) 2 1).val, 0, 0] S1x32x128.size (inbB (slot (zc c) 2 1)) :=
  Rect.unit_congr (off18_slot c 2 2) p _
theorem rect_off18_w12_1 (c : Dev nD) (p) :
    Rect.unit (s := S32x32x128) (k0_off18 c 12#32 1#32) S1x32x128.size p
      = Rect.unit (s := S32x32x128) ![(slot (zc c) 3 3).val, 0, 0] S1x32x128.size (inbB (slot (zc c) 3 3)) :=
  Rect.unit_congr (off18_slot c 3 0) p _
theorem rect_off18_w12_2 (c : Dev nD) (p) :
    Rect.unit (s := S32x32x128) (k0_off18 c 12#32 2#32) S1x32x128.size p
      = Rect.unit (s := S32x32x128) ![(slot (zc c) 3 2).val, 0, 0] S1x32x128.size (inbB (slot (zc c) 3 2)) :=
  Rect.unit_congr (off18_slot c 3 1) p _
theorem rect_off18_w12_3 (c : Dev nD) (p) :
    Rect.unit (s := S32x32x128) (k0_off18 c 12#32 3#32) S1x32x128.size p
      = Rect.unit (s := S32x32x128) ![(slot (zc c) 3 1).val, 0, 0] S1x32x128.size (inbB (slot (zc c) 3 1)) :=
  Rect.unit_congr (off18_slot c 3 2) p _
theorem rect_off18_w16_1 (c : Dev nD) (p) :
    Rect.unit (s := S32x32x128) (k0_off18 c 16#32 1#32) S1x32x128.size p
      = Rect.unit (s := S32x32x128) ![(slot (zc c) 4 3).val, 0, 0] S1x32x128.size (inbB (slot (zc c) 4 3)) :=
  Rect.unit_congr (off18_slot c 4 0) p _
theorem rect_off18_w16_2 (c : Dev nD) (p) :
    Rect.unit (s := S32x32x128) (k0_off18 c 16#32 2#32) S1x32x128.size p
      = Rect.unit (s := S32x32x128) ![(slot (zc c) 4 2).val, 0, 0] S1x32x128.size (inbB (slot (zc c) 4 2)) :=
  Rect.unit_congr (off18_slot c 4 1) p _
theorem rect_off18_w16_3 (c : Dev nD) (p) :
    Rect.unit (s := S32x32x128) (k0_off18 c 16#32 3#32) S1x32x128.size p
      = Rect.unit (s := S32x32x128) ![(slot (zc c) 4 1).val, 0, 0] S1x32x128.size (inbB (slot (zc c) 4 1)) :=
  Rect.unit_congr (off18_slot c 4 2) p _
theorem rect_off18_w20_1 (c : Dev nD) (p) :
    Rect.unit (s := S32x32x128) (k0_off18 c 20#32 1#32) S1x32x128.size p
      = Rect.unit (s := S32x32x128) ![(slot (zc c) 5 3).val, 0, 0] S1x32x128.size (inbB (slot (zc c) 5 3)) :=
  Rect.unit_congr (off18_slot c 5 0) p _
theorem rect_off18_w20_2 (c : Dev nD) (p) :
    Rect.unit (s := S32x32x128) (k0_off18 c 20#32 2#32) S1x32x128.size p
      = Rect.unit (s := S32x32x128) ![(slot (zc c) 5 2).val, 0, 0] S1x32x128.size (inbB (slot (zc c) 5 2)) :=
  Rect.unit_congr (off18_slot c 5 1) p _
theorem rect_off18_w20_3 (c : Dev nD) (p) :
    Rect.unit (s := S32x32x128) (k0_off18 c 20#32 3#32) S1x32x128.size p
      = Rect.unit (s := S32x32x128) ![(slot (zc c) 5 1).val, 0, 0] S1x32x128.size (inbB (slot (zc c) 5 1)) :=
  Rect.unit_congr (off18_slot c 5 2) p _
theorem rect_off18_w24_1 (c : Dev nD) (p) :
    Rect.unit (s := S32x32x128) (k0_off18 c 24#32 1#32) S1x32x128.size p
      = Rect.unit (s := S32x32x128) ![(slot (zc c) 6 3).val, 0, 0] S1x32x128.size (inbB (slot (zc c) 6 3)) :=
  Rect.unit_congr (off18_slot c 6 0) p _
theorem rect_off18_w24_2 (c : Dev nD) (p) :
    Rect.unit (s := S32x32x128) (k0_off18 c 24#32 2#32) S1x32x128.size p
      = Rect.unit (s := S32x32x128) ![(slot (zc c) 6 2).val, 0, 0] S1x32x128.size (inbB (slot (zc c) 6 2)) :=
  Rect.unit_congr (off18_slot c 6 1) p _
theorem rect_off18_w24_3 (c : Dev nD) (p) :
    Rect.unit (s := S32x32x128) (k0_off18 c 24#32 3#32) S1x32x128.size p
      = Rect.unit (s := S32x32x128) ![(slot (zc c) 6 1).val, 0, 0] S1x32x128.size (inbB (slot (zc c) 6 1)) :=
  Rect.unit_congr (off18_slot c 6 2) p _
theorem rect_off18_w28_1 (c : Dev nD) (p) :
    Rect.unit (s := S32x32x128) (k0_off18 c 28#32 1#32) S1x32x128.size p
      = Rect.unit (s := S32x32x128) ![(slot (zc c) 7 3).val, 0, 0] S1x32x128.size (inbB (slot (zc c) 7 3)) :=
  Rect.unit_congr (off18_slot c 7 0) p _
theorem rect_off18_w28_2 (c : Dev nD) (p) :
    Rect.unit (s := S32x32x128) (k0_off18 c 28#32 2#32) S1x32x128.size p
      = Rect.unit (s := S32x32x128) ![(slot (zc c) 7 2).val, 0, 0] S1x32x128.size (inbB (slot (zc c) 7 2)) :=
  Rect.unit_congr (off18_slot c 7 1) p _
theorem rect_off18_w28_3 (c : Dev nD) (p) :
    Rect.unit (s := S32x32x128) (k0_off18 c 28#32 3#32) S1x32x128.size p
      = Rect.unit (s := S32x32x128) ![(slot (zc c) 7 1).val, 0, 0] S1x32x128.size (inbB (slot (zc c) 7 1)) :=
  Rect.unit_congr (off18_slot c 7 2) p _

/-! ## The six semaphore arrays inside the kernel's own semaphores

The arrays lie one after another in the pool, from DMA semaphore 3 on. -/

theorem osem_a1s (q : Fin 8) :
    (SemLoc.dma (sem8 cc0_scratch9 q) : SemLoc sig) = LaunchSems.osem ⟨0 + q.val, by have := q.isLt; omega⟩ := by
  apply congrArg SemLoc.dma; apply Fin.ext; rw [sem8_a1s]; show _ = 3 + (0 + q.val); omega

theorem osem_a1r (q : Fin 8) :
    (SemLoc.dma (sem8 cc0_scratch10 q) : SemLoc sig) = LaunchSems.osem ⟨8 + q.val, by have := q.isLt; omega⟩ := by
  apply congrArg SemLoc.dma; apply Fin.ext; rw [sem8_a1r]; show _ = 3 + (8 + q.val); omega

theorem osem_a2s (i : Fin 32) :
    (SemLoc.dma (sem32 cc0_scratch11 i) : SemLoc sig) = LaunchSems.osem ⟨16 + i.val, by have := i.isLt; omega⟩ := by
  apply congrArg SemLoc.dma; apply Fin.ext; rw [sem32_a2s]; show _ = 3 + (16 + i.val); omega

theorem osem_a2r (i : Fin 32) :
    (SemLoc.dma (sem32 cc0_scratch12 i) : SemLoc sig) = LaunchSems.osem ⟨48 + i.val, by have := i.isLt; omega⟩ := by
  apply congrArg SemLoc.dma; apply Fin.ext; rw [sem32_a2r]; show _ = 3 + (48 + i.val); omega

theorem osem_bs (i : Fin 32) :
    (SemLoc.dma (sem32 cc0_scratch13 i) : SemLoc sig) = LaunchSems.osem ⟨80 + i.val, by have := i.isLt; omega⟩ := by
  apply congrArg SemLoc.dma; apply Fin.ext; rw [sem32_bs]; show _ = 3 + (80 + i.val); omega

theorem osem_br (i : Fin 32) :
    (SemLoc.dma (sem32 cc0_scratch14 i) : SemLoc sig) = LaunchSems.osem ⟨112 + i.val, by have := i.isLt; omega⟩ := by
  apply congrArg SemLoc.dma; apply Fin.ext; rw [sem32_br]; show _ = 3 + (112 + i.val); omega

/-! ## The slice equations as canonical names

Opening this namespace registers the equations of the semaphore slices and of the buffer slots as canonical
names, so that the program's spellings are rewritten to the slot numbers. -/

namespace Tagged

attribute [scoped sl_canon] semSlice_off3_w0_1 semSlice_off3_w0_2 semSlice_off3_w0_3 semSlice_off3_w4_1 semSlice_off3_w4_2 semSlice_off3_w4_3
attribute [scoped sl_canon] semSlice_off3_w8_1 semSlice_off3_w8_2 semSlice_off3_w8_3 semSlice_off3_w12_1 semSlice_off3_w12_2 semSlice_off3_w12_3
attribute [scoped sl_canon] semSlice_off3_w16_1 semSlice_off3_w16_2 semSlice_off3_w16_3 semSlice_off3_w20_1 semSlice_off3_w20_2 semSlice_off3_w20_3
attribute [scoped sl_canon] semSlice_off3_w24_1 semSlice_off3_w24_2 semSlice_off3_w24_3 semSlice_off3_w28_1 semSlice_off3_w28_2 semSlice_off3_w28_3
attribute [scoped sl_canon] semSlice_off4_w0 semSlice_off4_w4 semSlice_off4_w8 semSlice_off4_w12 semSlice_off4_w16 semSlice_off4_w20
attribute [scoped sl_canon] semSlice_off4_w24 semSlice_off4_w28 slice_off5_w0 slice_off5_w4 slice_off5_w8 slice_off5_w12
attribute [scoped sl_canon] slice_off5_w16 slice_off5_w20 slice_off5_w24 slice_off5_w28 slice_off6_w0_1 slice_off6_w0_2
attribute [scoped sl_canon] slice_off6_w0_3 slice_off6_w4_1 slice_off6_w4_2 slice_off6_w4_3 slice_off6_w8_1 slice_off6_w8_2
attribute [scoped sl_canon] slice_off6_w8_3 slice_off6_w12_1 slice_off6_w12_2 slice_off6_w12_3 slice_off6_w16_1 slice_off6_w16_2
attribute [scoped sl_canon] slice_off6_w16_3 slice_off6_w20_1 slice_off6_w20_2 slice_off6_w20_3 slice_off6_w24_1 slice_off6_w24_2
attribute [scoped sl_canon] slice_off6_w24_3 slice_off6_w28_1 slice_off6_w28_2 slice_off6_w28_3 semSlice_off8_w0_1 semSlice_off8_w0_2
attribute [scoped sl_canon] semSlice_off8_w0_3 semSlice_off8_w4_1 semSlice_off8_w4_2 semSlice_off8_w4_3 semSlice_off8_w8_1 semSlice_off8_w8_2
attribute [scoped sl_canon] semSlice_off8_w8_3 semSlice_off8_w12_1 semSlice_off8_w12_2 semSlice_off8_w12_3 semSlice_off8_w16_1 semSlice_off8_w16_2
attribute [scoped sl_canon] semSlice_off8_w16_3 semSlice_off8_w20_1 semSlice_off8_w20_2 semSlice_off8_w20_3 semSlice_off8_w24_1 semSlice_off8_w24_2
attribute [scoped sl_canon] semSlice_off8_w24_3 semSlice_off8_w28_1 semSlice_off8_w28_2 semSlice_off8_w28_3 slice_off9_w0_1 slice_off9_w0_2
attribute [scoped sl_canon] slice_off9_w0_3 slice_off9_w4_1 slice_off9_w4_2 slice_off9_w4_3 slice_off9_w8_1 slice_off9_w8_2
attribute [scoped sl_canon] slice_off9_w8_3 slice_off9_w12_1 slice_off9_w12_2 slice_off9_w12_3 slice_off9_w16_1 slice_off9_w16_2
attribute [scoped sl_canon] slice_off9_w16_3 slice_off9_w20_1 slice_off9_w20_2 slice_off9_w20_3 slice_off9_w24_1 slice_off9_w24_2
attribute [scoped sl_canon] slice_off9_w24_3 slice_off9_w28_1 slice_off9_w28_2 slice_off9_w28_3 semSlice_off11_w0_1 semSlice_off11_w0_2
attribute [scoped sl_canon] semSlice_off11_w0_3 semSlice_off11_w4_1 semSlice_off11_w4_2 semSlice_off11_w4_3 semSlice_off11_w8_1 semSlice_off11_w8_2
attribute [scoped sl_canon] semSlice_off11_w8_3 semSlice_off11_w12_1 semSlice_off11_w12_2 semSlice_off11_w12_3 semSlice_off11_w16_1 semSlice_off11_w16_2
attribute [scoped sl_canon] semSlice_off11_w16_3 semSlice_off11_w20_1 semSlice_off11_w20_2 semSlice_off11_w20_3 semSlice_off11_w24_1 semSlice_off11_w24_2
attribute [scoped sl_canon] semSlice_off11_w24_3 semSlice_off11_w28_1 semSlice_off11_w28_2 semSlice_off11_w28_3 semSlice_off12_w0 semSlice_off12_w4
attribute [scoped sl_canon] semSlice_off12_w8 semSlice_off12_w12 semSlice_off12_w16 semSlice_off12_w20 semSlice_off12_w24 semSlice_off12_w28
attribute [scoped sl_canon] slice_off13_w0 slice_off13_w4 slice_off13_w8 slice_off13_w12 slice_off13_w16 slice_off13_w20
attribute [scoped sl_canon] slice_off13_w24 slice_off13_w28 slice_off14_w0_1 slice_off14_w0_2 slice_off14_w0_3 slice_off14_w4_1
attribute [scoped sl_canon] slice_off14_w4_2 slice_off14_w4_3 slice_off14_w8_1 slice_off14_w8_2 slice_off14_w8_3 slice_off14_w12_1
attribute [scoped sl_canon] slice_off14_w12_2 slice_off14_w12_3 slice_off14_w16_1 slice_off14_w16_2 slice_off14_w16_3 slice_off14_w20_1
attribute [scoped sl_canon] slice_off14_w20_2 slice_off14_w20_3 slice_off14_w24_1 slice_off14_w24_2 slice_off14_w24_3 slice_off14_w28_1
attribute [scoped sl_canon] slice_off14_w28_2 slice_off14_w28_3 semSlice_off16_w0_1 semSlice_off16_w0_2 semSlice_off16_w0_3 semSlice_off16_w4_1
attribute [scoped sl_canon] semSlice_off16_w4_2 semSlice_off16_w4_3 semSlice_off16_w8_1 semSlice_off16_w8_2 semSlice_off16_w8_3 semSlice_off16_w12_1
attribute [scoped sl_canon] semSlice_off16_w12_2 semSlice_off16_w12_3 semSlice_off16_w16_1 semSlice_off16_w16_2 semSlice_off16_w16_3 semSlice_off16_w20_1
attribute [scoped sl_canon] semSlice_off16_w20_2 semSlice_off16_w20_3 semSlice_off16_w24_1 semSlice_off16_w24_2 semSlice_off16_w24_3 semSlice_off16_w28_1
attribute [scoped sl_canon] semSlice_off16_w28_2 semSlice_off16_w28_3 slice_off17_w0_1 slice_off17_w0_2 slice_off17_w0_3 slice_off17_w4_1
attribute [scoped sl_canon] slice_off17_w4_2 slice_off17_w4_3 slice_off17_w8_1 slice_off17_w8_2 slice_off17_w8_3 slice_off17_w12_1
attribute [scoped sl_canon] slice_off17_w12_2 slice_off17_w12_3 slice_off17_w16_1 slice_off17_w16_2 slice_off17_w16_3 slice_off17_w20_1
attribute [scoped sl_canon] slice_off17_w20_2 slice_off17_w20_3 slice_off17_w24_1 slice_off17_w24_2 slice_off17_w24_3 slice_off17_w28_1
attribute [scoped sl_canon] slice_off17_w28_2 slice_off17_w28_3

end Tagged

end Cert.Kernel.Canon

end
-- ==== Proof.Word.ClosedOffs.lean ====
/-
  The offsets of the loads whose row depends on the device, in closed form: the row of the slot that the
  device's row or plane coordinate names, on the other axes zero.
-/
import proofs.«900893_g7700000000000894_dist_matmul_mk_i_outk_m1024_n1024_k512_v7x_i32_f32_1_alg».proof.Proof.Word.Canon

namespace Cert.Kernel.ClosedOffs

open Cert.Kernel Cert.Kernel.Gen
open Cert.Mesh (zc yc slot)
open Idealize.ShloMosaic Idealize.ShloMosaic.Tactic

/-! ### Offset function 7 -/

instance closedOff7_w0 (c : Dev nD) : ClosedOff (k0_off7 c 0#32) :=
  ⟨![(slot (yc c) 0 0).val, 0, 0, 0], Canon.off7_slot c 0⟩
instance closedOff7_w4 (c : Dev nD) : ClosedOff (k0_off7 c 4#32) :=
  ⟨![(slot (yc c) 1 0).val, 0, 0, 0], Canon.off7_slot c 1⟩
instance closedOff7_w8 (c : Dev nD) : ClosedOff (k0_off7 c 8#32) :=
  ⟨![(slot (yc c) 2 0).val, 0, 0, 0], Canon.off7_slot c 2⟩
instance closedOff7_w12 (c : Dev nD) : ClosedOff (k0_off7 c 12#32) :=
  ⟨![(slot (yc c) 3 0).val, 0, 0, 0], Canon.off7_slot c 3⟩
instance closedOff7_w16 (c : Dev nD) : ClosedOff (k0_off7 c 16#32) :=
  ⟨![(slot (yc c) 4 0).val, 0, 0, 0], Canon.off7_slot c 4⟩
instance closedOff7_w20 (c : Dev nD) : ClosedOff (k0_off7 c 20#32) :=
  ⟨![(slot (yc c) 5 0).val, 0, 0, 0], Canon.off7_slot c 5⟩
instance closedOff7_w24 (c : Dev nD) : ClosedOff (k0_off7 c 24#32) :=
  ⟨![(slot (yc c) 6 0).val, 0, 0, 0], Canon.off7_slot c 6⟩
instance closedOff7_w28 (c : Dev nD) : ClosedOff (k0_off7 c 28#32) :=
  ⟨![(slot (yc c) 7 0).val, 0, 0, 0], Canon.off7_slot c 7⟩

/-! ### Offset function 10 -/

instance closedOff10_w0_1 (c : Dev nD) : ClosedOff (k0_off10 c 0#32 1#32) :=
  ⟨![(slot (yc c) 0 3).val, 0, 0, 0], Canon.off10_slot c 0 0⟩
instance closedOff10_w0_2 (c : Dev nD) : ClosedOff (k0_off10 c 0#32 2#32) :=
  ⟨![(slot (yc c) 0 2).val, 0, 0, 0], Canon.off10_slot c 0 1⟩
instance closedOff10_w0_3 (c : Dev nD) : ClosedOff (k0_off10 c 0#32 3#32) :=
  ⟨![(slot (yc c) 0 1).val, 0, 0, 0], Canon.off10_slot c 0 2⟩
instance closedOff10_w4_1 (c : Dev nD) : ClosedOff (k0_off10 c 4#32 1#32) :=
  ⟨![(slot (yc c) 1 3).val, 0, 0, 0], Canon.off10_slot c 1 0⟩
instance closedOff10_w4_2 (c : Dev nD) : ClosedOff (k0_off10 c 4#32 2#32) :=
  ⟨![(slot (yc c) 1 2).val, 0, 0, 0], Canon.off10_slot c 1 1⟩
instance closedOff10_w4_3 (c : Dev nD) : ClosedOff (k0_off10 c 4#32 3#32) :=
  ⟨![(slot (yc c) 1 1).val, 0, 0, 0], Canon.off10_slot c 1 2⟩
instance closedOff10_w8_1 (c : Dev nD) : ClosedOff (k0_off10 c 8#32 1#32) :=
  ⟨![(slot (yc c) 2 3).val, 0, 0, 0], Canon.off10_slot c 2 0⟩
instance closedOff10_w8_2 (c : Dev nD) : ClosedOff (k0_off10 c 8#32 2#32) :=
  ⟨![(slot (yc c) 2 2).val, 0, 0, 0], Canon.off10_slot c 2 1⟩
instance closedOff10_w8_3 (c : Dev nD) : ClosedOff (k0_off10 c 8#32 3#32) :=
  ⟨![(slot (yc c) 2 1).val, 0, 0, 0], Canon.off10_slot c 2 2⟩
instance closedOff10_w12_1 (c : Dev nD) : ClosedOff (k0_off10 c 12#32 1#32) :=
  ⟨![(slot (yc c) 3 3).val, 0, 0, 0], Canon.off10_slot c 3 0⟩
instance closedOff10_w12_2 (c : Dev nD) : ClosedOff (k0_off10 c 12#32 2#32) :=
  ⟨![(slot (yc c) 3 2).val, 0, 0, 0], Canon.off10_slot c 3 1⟩
instance closedOff10_w12_3 (c : Dev nD) : ClosedOff (k0_off10 c 12#32 3#32) :=
  ⟨![(slot (yc c) 3 1).val, 0, 0, 0], Canon.off10_slot c 3 2⟩
instance closedOff10_w16_1 (c : Dev nD) : ClosedOff (k0_off10 c 16#32 1#32) :=
  ⟨![(slot (yc c) 4 3).val, 0, 0, 0], Canon.off10_slot c 4 0⟩
instance closedOff10_w16_2 (c : Dev nD) : ClosedOff (k0_off10 c 16#32 2#32) :=
  ⟨![(slot (yc c) 4 2).val, 0, 0, 0], Canon.off10_slot c 4 1⟩
instance closedOff10_w16_3 (c : Dev nD) : ClosedOff (k0_off10 c 16#32 3#32) :=
  ⟨![(slot (yc c) 4 1).val, 0, 0, 0], Canon.off10_slot c 4 2⟩
instance closedOff10_w20_1 (c : Dev nD) : ClosedOff (k0_off10 c 20#32 1#32) :=
  ⟨![(slot (yc c) 5 3).val, 0, 0, 0], Canon.off10_slot c 5 0⟩
instance closedOff10_w20_2 (c : Dev nD) : ClosedOff (k0_off10 c 20#32 2#32) :=
  ⟨![(slot (yc c) 5 2).val, 0, 0, 0], Canon.off10_slot c 5 1⟩
instance closedOff10_w20_3 (c : Dev nD) : ClosedOff (k0_off10 c 20#32 3#32) :=
  ⟨![(slot (yc c) 5 1).val, 0, 0, 0], Canon.off10_slot c 5 2⟩
instance closedOff10_w24_1 (c : Dev nD) : ClosedOff (k0_off10 c 24#32 1#32) :=
  ⟨![(slot (yc c) 6 3).val, 0, 0, 0], Canon.off10_slot c 6 0⟩
instance closedOff10_w24_2 (c : Dev nD) : ClosedOff (k0_off10 c 24#32 2#32) :=
  ⟨![(slot (yc c) 6 2).val, 0, 0, 0], Canon.off10_slot c 6 1⟩
instance closedOff10_w24_3 (c : Dev nD) : ClosedOff (k0_off10 c 24#32 3#32) :=
  ⟨![(slot (yc c) 6 1).val, 0, 0, 0], Canon.off10_slot c 6 2⟩
instance closedOff10_w28_1 (c : Dev nD) : ClosedOff (k0_off10 c 28#32 1#32) :=
  ⟨![(slot (yc c) 7 3).val, 0, 0, 0], Canon.off10_slot c 7 0⟩
instance closedOff10_w28_2 (c : Dev nD) : ClosedOff (k0_off10 c 28#32 2#32) :=
  ⟨![(slot (yc c) 7 2).val, 0, 0, 0], Canon.off10_slot c 7 1⟩
instance closedOff10_w28_3 (c : Dev nD) : ClosedOff (k0_off10 c 28#32 3#32) :=
  ⟨![(slot (yc c) 7 1).val, 0, 0, 0], Canon.off10_slot c 7 2⟩

/-! ### Offset function 15 -/

instance closedOff15_w0 (c : Dev nD) : ClosedOff (k0_off15 c 0#32) :=
  ⟨![(slot (zc c) 0 0).val, 0, 0], Canon.off15_slot c 0⟩
instance closedOff15_w4 (c : Dev nD) : ClosedOff (k0_off15 c 4#32) :=
  ⟨![(slot (zc c) 1 0).val, 0, 0], Canon.off15_slot c 1⟩
instance closedOff15_w8 (c : Dev nD) : ClosedOff (k0_off15 c 8#32) :=
  ⟨![(slot (zc c) 2 0).val, 0, 0], Canon.off15_slot c 2⟩
instance closedOff15_w12 (c : Dev nD) : ClosedOff (k0_off15 c 12#32) :=
  ⟨![(slot (zc c) 3 0).val, 0, 0], Canon.off15_slot c 3⟩
instance closedOff15_w16 (c : Dev nD) : ClosedOff (k0_off15 c 16#32) :=
  ⟨![(slot (zc c) 4 0).val, 0, 0], Canon.off15_slot c 4⟩
instance closedOff15_w20 (c : Dev nD) : ClosedOff (k0_off15 c 20#32) :=
  ⟨![(slot (zc c) 5 0).val, 0, 0], Canon.off15_slot c 5⟩
instance closedOff15_w24 (c : Dev nD) : ClosedOff (k0_off15 c 24#32) :=
  ⟨![(slot (zc c) 6 0).val, 0, 0], Canon.off15_slot c 6⟩
instance closedOff15_w28 (c : Dev nD) : ClosedOff (k0_off15 c 28#32) :=
  ⟨![(slot (zc c) 7 0).val, 0, 0], Canon.off15_slot c 7⟩

/-! ### Offset function 18 -/

instance closedOff18_w0_1 (c : Dev nD) : ClosedOff (k0_off18 c 0#32 1#32) :=
  ⟨![(slot (zc c) 0 3).val, 0, 0], Canon.off18_slot c 0 0⟩
instance closedOff18_w0_2 (c : Dev nD) : ClosedOff (k0_off18 c 0#32 2#32) :=
  ⟨![(slot (zc c) 0 2).val, 0, 0], Canon.off18_slot c 0 1⟩
instance closedOff18_w0_3 (c : Dev nD) : ClosedOff (k0_off18 c 0#32 3#32) :=
  ⟨![(slot (zc c) 0 1).val, 0, 0], Canon.off18_slot c 0 2⟩
instance closedOff18_w4_1 (c : Dev nD) : ClosedOff (k0_off18 c 4#32 1#32) :=
  ⟨![(slot (zc c) 1 3).val, 0, 0], Canon.off18_slot c 1 0⟩
instance closedOff18_w4_2 (c : Dev nD) : ClosedOff (k0_off18 c 4#32 2#32) :=
  ⟨![(slot (zc c) 1 2).val, 0, 0], Canon.off18_slot c 1 1⟩
instance closedOff18_w4_3 (c : Dev nD) : ClosedOff (k0_off18 c 4#32 3#32) :=
  ⟨![(slot (zc c) 1 1).val, 0, 0], Canon.off18_slot c 1 2⟩
instance closedOff18_w8_1 (c : Dev nD) : ClosedOff (k0_off18 c 8#32 1#32) :=
  ⟨![(slot (zc c) 2 3).val, 0, 0], Canon.off18_slot c 2 0⟩
instance closedOff18_w8_2 (c : Dev nD) : ClosedOff (k0_off18 c 8#32 2#32) :=
  ⟨![(slot (zc c) 2 2).val, 0, 0], Canon.off18_slot c 2 1⟩
instance closedOff18_w8_3 (c : Dev nD) : ClosedOff (k0_off18 c 8#32 3#32) :=
  ⟨![(slot (zc c) 2 1).val, 0, 0], Canon.off18_slot c 2 2⟩
instance closedOff18_w12_1 (c : Dev nD) : ClosedOff (k0_off18 c 12#32 1#32) :=
  ⟨![(slot (zc c) 3 3).val, 0, 0], Canon.off18_slot c 3 0⟩
instance closedOff18_w12_2 (c : Dev nD) : ClosedOff (k0_off18 c 12#32 2#32) :=
  ⟨![(slot (zc c) 3 2).val, 0, 0], Canon.off18_slot c 3 1⟩
instance closedOff18_w12_3 (c : Dev nD) : ClosedOff (k0_off18 c 12#32 3#32) :=
  ⟨![(slot (zc c) 3 1).val, 0, 0], Canon.off18_slot c 3 2⟩
instance closedOff18_w16_1 (c : Dev nD) : ClosedOff (k0_off18 c 16#32 1#32) :=
  ⟨![(slot (zc c) 4 3).val, 0, 0], Canon.off18_slot c 4 0⟩
instance closedOff18_w16_2 (c : Dev nD) : ClosedOff (k0_off18 c 16#32 2#32) :=
  ⟨![(slot (zc c) 4 2).val, 0, 0], Canon.off18_slot c 4 1⟩
instance closedOff18_w16_3 (c : Dev nD) : ClosedOff (k0_off18 c 16#32 3#32) :=
  ⟨![(slot (zc c) 4 1).val, 0, 0], Canon.off18_slot c 4 2⟩
instance closedOff18_w20_1 (c : Dev nD) : ClosedOff (k0_off18 c 20#32 1#32) :=
  ⟨![(slot (zc c) 5 3).val, 0, 0], Canon.off18_slot c 5 0⟩
instance closedOff18_w20_2 (c : Dev nD) : ClosedOff (k0_off18 c 20#32 2#32) :=
  ⟨![(slot (zc c) 5 2).val, 0, 0], Canon.off18_slot c 5 1⟩
instance closedOff18_w20_3 (c : Dev nD) : ClosedOff (k0_off18 c 20#32 3#32) :=
  ⟨![(slot (zc c) 5 1).val, 0, 0], Canon.off18_slot c 5 2⟩
instance closedOff18_w24_1 (c : Dev nD) : ClosedOff (k0_off18 c 24#32 1#32) :=
  ⟨![(slot (zc c) 6 3).val, 0, 0], Canon.off18_slot c 6 0⟩
instance closedOff18_w24_2 (c : Dev nD) : ClosedOff (k0_off18 c 24#32 2#32) :=
  ⟨![(slot (zc c) 6 2).val, 0, 0], Canon.off18_slot c 6 1⟩
instance closedOff18_w24_3 (c : Dev nD) : ClosedOff (k0_off18 c 24#32 3#32) :=
  ⟨![(slot (zc c) 6 1).val, 0, 0], Canon.off18_slot c 6 2⟩
instance closedOff18_w28_1 (c : Dev nD) : ClosedOff (k0_off18 c 28#32 1#32) :=
  ⟨![(slot (zc c) 7 3).val, 0, 0], Canon.off18_slot c 7 0⟩
instance closedOff18_w28_2 (c : Dev nD) : ClosedOff (k0_off18 c 28#32 2#32) :=
  ⟨![(slot (zc c) 7 2).val, 0, 0], Canon.off18_slot c 7 1⟩
instance closedOff18_w28_3 (c : Dev nD) : ClosedOff (k0_off18 c 28#32 3#32) :=
  ⟨![(slot (zc c) 7 1).val, 0, 0], Canon.off18_slot c 7 2⟩

end Cert.Kernel.ClosedOffs
-- ==== Proof.Word.BodyClose.lean ====
/-
  The end of a device's body: each of its 144 own DMA cells is closed, so that the semaphores return to the
  launch at zero. A cell that had its one duty stands past it, at round 1; the cells of a device's own slots
  (advance 0) never had a duty and stand at round 0. In either case no duty remains from the position on,
  so the owner closes the cell and keeps its counter, which reads zero.
-/
import proofs.«900893_g7700000000000894_dist_matmul_mk_i_outk_m1024_n1024_k512_v7x_i32_f32_1_alg».proof.Proof.Word.Proto
import proofs.«900893_g7700000000000894_dist_matmul_mk_i_outk_m1024_n1024_k512_v7x_i32_f32_1_alg».proof.Proof.SlotIdx
import proofs.«900893_g7700000000000894_dist_matmul_mk_i_outk_m1024_n1024_k512_v7x_i32_f32_1_alg».proof.Proof.Word.Ghost
import proofs.«900893_g7700000000000894_dist_matmul_mk_i_outk_m1024_n1024_k512_v7x_i32_f32_1_alg».proof.Proof.Word.SlotGeom
import proofs.«900893_g7700000000000894_dist_matmul_mk_i_outk_m1024_n1024_k512_v7x_i32_f32_1_alg».proof.Proof.Word.LaunchSems
import proofs.«900893_g7700000000000894_dist_matmul_mk_i_outk_m1024_n1024_k512_v7x_i32_f32_1_alg».proof.Proof.Word.Canon
import Idealize.ShloMosaic.Lib.Rounds

noncomputable section

namespace Cert.Kernel.BodyClose

open Cert.Kernel Cert.Kernel.Gen Cert.Kernel.Proto Cert.Kernel.Ghost
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the eight chunks -/

theorem eight_sep (Φ Ψ : Fin 8 → sProp 𝕄) : eight (fun q => iprop(Φ q ∗ Ψ q)) = iprop(eight Φ ∗ eight Ψ) := by
  rw [SlotGeom.eight_eq, SlotGeom.eight_eq, SlotGeom.eight_eq]; exact bigSep_sep _ _ _

theorem eight_mono {Φ Ψ : Fin 8 → sProp 𝕄} (h : ∀ q, Φ q ⊢ Ψ q) : eight Φ ⊢ eight Ψ := by
  rw [SlotGeom.eight_eq, SlotGeom.eight_eq]; exact bigSep_mono fun q _ => h q

theorem eight_fupd (Φ : Fin 8 → sProp 𝕄) :
    eight (fun q => iprop(|={Set.univ}=> Φ q)) ⊢ (iprop(|={Set.univ}=> eight Φ) : sProp 𝕄) := by
  rw [SlotGeom.eight_eq, SlotGeom.eight_eq]; exact bigSep_fupd _ _

/-! ## Closing cells -/

/-- Two cells closed at once. -/
theorem close_pair (Rd : Schedule (GSem nD τ sig) D (MT nD τ sig Unit (Elt F) ℕ UU ℕ)) (K : GSem nD τ sig → ℕ)
    (hunit : ∀ g, ¬ Rd.unitless g) (g₁ g₂ : GSem nD τ sig) (R₁ R₂ : ℕ)
    (h₁ : ∀ r, R₁ ≤ r → Rd.duties g₁ r = ∅) (h₂ : ∀ r, R₂ ≤ r → Rd.duties g₂ r = ∅) :
    iprop((cinv Rd K g₁ ∗ cinv Rd K g₂) ∗ (atPos ER g₁ R₁ ∅ 0 ∗ atPos ER g₂ R₂ ∅ 0))
      ⊢ (iprop(|={Set.univ}=> (semVal g₁ 0 ∗ semVal g₂ 0)) : sProp 𝕄) := by
  iintro ⟨⟨I1, I2⟩, ⟨P1, P2⟩⟩
  imod (Rounds.cell_close ER Rd (Set.mem_univ _) (hunit g₁) h₁) $$ [I1 P1] with S1
  · isplitl [I1] <;> iassumption
  imod (Rounds.cell_close ER Rd (Set.mem_univ _) (hunit g₂) h₂) $$ [I2 P2] with S2
  · isplitl [I2] <;> iassumption
  imodintro
  isplitl [S1] <;> iassumption

/-- The four pairs of one chunk: the pair at advance 0 stands at round 0, the others at round 1. -/
theorem close_four (Rd : Schedule (GSem nD τ sig) D (MT nD τ sig Unit (Elt F) ℕ UU ℕ)) (K : GSem nD τ sig → ℕ)
    (hunit : ∀ g, ¬ Rd.unitless g) (hlater : ∀ g r, 1 ≤ r → Rd.duties g r = ∅) (gs gr : ℕ → GSem nD τ sig)
    (h0s : ∀ r, Rd.duties (gs 0) r = ∅) (h0r : ∀ r, Rd.duties (gr 0) r = ∅) :
    iprop(four (fun s => iprop(cinv Rd K (gs s) ∗ cinv Rd K (gr s)))
        ∗ (iprop(atPos ER (gs 0) 0 ∅ 0 ∗ atPos ER (gr 0) 0 ∅ 0) ∗ iprop(atPos ER (gs 1) 1 ∅ 0 ∗ atPos ER (gr 1) 1 ∅ 0)
          ∗ iprop(atPos ER (gs 2) 1 ∅ 0 ∗ atPos ER (gr 2) 1 ∅ 0) ∗ iprop(atPos ER (gs 3) 1 ∅ 0 ∗ atPos ER (gr 3) 1 ∅ 0)))
      ⊢ (iprop(|={Set.univ}=> four (fun s => iprop(semVal (gs s) 0 ∗ semVal (gr s) 0))) : sProp 𝕄) := by
  unfold four
  iintro ⟨⟨I0, I1, I2, I3⟩, ⟨P0, P1, P2, P3⟩⟩
  imod (close_pair Rd K hunit (gs 0) (gr 0) 0 0 (fun r _ => h0s r) (fun r _ => h0r r)) $$ [I0 P0] with S0
  · isplitl [I0] <;> iassumption
  imod (close_pair Rd K hunit (gs 1) (gr 1) 1 1 (fun r hr => hlater _ r hr) (fun r hr => hlater _ r hr)) $$ [I1 P1] with S1
  · isplitl [I1] <;> iassumption
  imod (close_pair Rd K hunit (gs 2) (gr 2) 1 1 (fun r hr => hlater _ r hr) (fun r hr => hlater _ r hr)) $$ [I2 P2] with S2
  · isplitl [I2] <;> iassumption
  imod (close_pair Rd K hunit (gs 3) (gr 3) 1 1 (fun r hr => hlater _ r hr) (fun r hr => hlater _ r hr)) $$ [I3 P3] with S3
  · isplitl [I3] <;> iassumption
  imodintro
  isplitl [S0]; · iexact S0
  isplitl [S1]; · iexact S1
  isplitl [S2] <;> iassumption

/-! ## The positions at the end of the body -/

/-- The device's position at each of its 144 own DMA cells when its body ends: past the one duty (round 1)
    at the cells that had one, at round 0 at the cells of its own slots, which never had one. -/
def positionsEnd (c : Dev nD) : sProp 𝕄 :=
  iprop(eight (fun q => iprop(atPos ER (a1sCell c q) 1 ∅ 0 ∗ atPos ER (a1rCell c q) 1 ∅ 0))
    ∗ eight (fun q => iprop(iprop(atPos ER (a2sCell c (slot (yc c) q 0)) 0 ∅ 0 ∗ atPos ER (a2rCell c (slot (yc c) q 0)) 0 ∅ 0)
        ∗ iprop(atPos ER (a2sCell c (slot (yc c) q 1)) 1 ∅ 0 ∗ atPos ER (a2rCell c (slot (yc c) q 1)) 1 ∅ 0)
        ∗ iprop(atPos ER (a2sCell c (slot (yc c) q 2)) 1 ∅ 0 ∗ atPos ER (a2rCell c (slot (yc c) q 2)) 1 ∅ 0)
        ∗ iprop(atPos ER (a2sCell c (slot (yc c) q 3)) 1 ∅ 0 ∗ atPos ER (a2rCell c (slot (yc c) q 3)) 1 ∅ 0)))
    ∗ eight (fun q => iprop(iprop(atPos ER (bsCell c (slot (zc c) q 0)) 0 ∅ 0 ∗ atPos ER (brCell c (slot (zc c) q 0)) 0 ∅ 0)
        ∗ iprop(atPos ER (bsCell c (slot (zc c) q 1)) 1 ∅ 0 ∗ atPos ER (brCell c (slot (zc c) q 1)) 1 ∅ 0)
        ∗ iprop(atPos ER (bsCell c (slot (zc c) q 2)) 1 ∅ 0 ∗ atPos ER (brCell c (slot (zc c) q 2)) 1 ∅ 0)
        ∗ iprop(atPos ER (bsCell c (slot (zc c) q 3)) 1 ∅ 0 ∗ atPos ER (brCell c (slot (zc c) q 3)) 1 ∅ 0))))

/-- The 144 own semaphores at zero, in the shape of the positions. -/
def semsEnd (c : Dev nD) : sProp 𝕄 :=
  iprop(eight (fun q => iprop(semVal (a1sCell c q) 0 ∗ semVal (a1rCell c q) 0))
    ∗ eight (fun q => four fun s => iprop(semVal (a2sCell c (slot (yc c) q s)) 0 ∗ semVal (a2rCell c (slot (yc c) q s)) 0))
    ∗ eight (fun q => four fun s => iprop(semVal (bsCell c (slot (zc c) q s)) 0 ∗ semVal (brCell c (slot (zc c) q s)) 0)))

/-- Every own DMA cell closed, pool by pool. -/
theorem close_pools (Rd : Schedule (GSem nD τ sig) D (MT nD τ sig Unit (Elt F) ℕ UU ℕ)) (K : GSem nD τ sig → ℕ)
    (hunit : ∀ g, ¬ Rd.unitless g) (hlater : ∀ g r, 1 ≤ r → Rd.duties g r = ∅)
    (hown_a2s : ∀ c q r, Rd.duties (a2sCell c (slot (yc c) q 0)) r = ∅)
    (hown_a2r : ∀ c q r, Rd.duties (a2rCell c (slot (yc c) q 0)) r = ∅)
    (hown_bs : ∀ c q r, Rd.duties (bsCell c (slot (zc c) q 0)) r = ∅)
    (hown_br : ∀ c q r, Rd.duties (brCell c (slot (zc c) q 0)) r = ∅) (c : Dev nD) :
    iprop(ownInvs Rd K c ∗ positionsEnd c) ⊢ (iprop(|={Set.univ}=> semsEnd c) : sProp 𝕄) := by
  have s1 : iprop(eight (fun q => iprop(cinv Rd K (a1sCell c q) ∗ cinv Rd K (a1rCell c q)))
        ∗ eight (fun q => iprop(atPos ER (a1sCell c q) 1 ∅ 0 ∗ atPos ER (a1rCell c q) 1 ∅ 0)))
      ⊢ (iprop(|={Set.univ}=> eight (fun q => iprop(semVal (a1sCell c q) 0 ∗ semVal (a1rCell c q) 0))) : sProp 𝕄) := by
    rw [← eight_sep]
    exact (eight_mono fun q => close_pair Rd K hunit _ _ 1 1 (fun r hr => hlater _ r hr) (fun r hr => hlater _ r hr)).trans (eight_fupd _)
  have s2 : iprop(eight (fun q => four fun s => iprop(cinv Rd K (a2sCell c (slot (yc c) q s)) ∗ cinv Rd K (a2rCell c (slot (yc c) q s))))
        ∗ eight (fun q => iprop(iprop(atPos ER (a2sCell c (slot (yc c) q 0)) 0 ∅ 0 ∗ atPos ER (a2rCell c (slot (yc c) q 0)) 0 ∅ 0)
            ∗ iprop(atPos ER (a2sCell c (slot (yc c) q 1)) 1 ∅ 0 ∗ atPos ER (a2rCell c (slot (yc c) q 1)) 1 ∅ 0)
            ∗ iprop(atPos ER (a2sCell c (slot (yc c) q 2)) 1 ∅ 0 ∗ atPos ER (a2rCell c (slot (yc c) q 2)) 1 ∅ 0)
            ∗ iprop(atPos ER (a2sCell c (slot (yc c) q 3)) 1 ∅ 0 ∗ atPos ER (a2rCell c (slot (yc c) q 3)) 1 ∅ 0))))
      ⊢ (iprop(|={Set.univ}=> eight (fun q => four fun s => iprop(semVal (a2sCell c (slot (yc c) q s)) 0 ∗ semVal (a2rCell c (slot (yc c) q s)) 0))) : sProp 𝕄) := by
    rw [← eight_sep]
    exact (eight_mono fun q => close_four Rd K hunit hlater (fun s => a2sCell c (slot (yc c) q s)) (fun s => a2rCell c (slot (yc c) q s))
      (hown_a2s c q) (hown_a2r c q)).trans (eight_fupd _)
  have s3 : iprop(eight (fun q => four fun s => iprop(cinv Rd K (bsCell c (slot (zc c) q s)) ∗ cinv Rd K (brCell c (slot (zc c) q s))))
        ∗ eight (fun q => iprop(iprop(atPos ER (bsCell c (slot (zc c) q 0)) 0 ∅ 0 ∗ atPos ER (brCell c (slot (zc c) q 0)) 0 ∅ 0)
            ∗ iprop(atPos ER (bsCell c (slot (zc c) q 1)) 1 ∅ 0 ∗ atPos ER (brCell c (slot (zc c) q 1)) 1 ∅ 0)
            ∗ iprop(atPos ER (bsCell c (slot (zc c) q 2)) 1 ∅ 0 ∗ atPos ER (brCell c (slot (zc c) q 2)) 1 ∅ 0)
            ∗ iprop(atPos ER (bsCell c (slot (zc c) q 3)) 1 ∅ 0 ∗ atPos ER (brCell c (slot (zc c) q 3)) 1 ∅ 0))))
      ⊢ (iprop(|={Set.univ}=> eight (fun q => four fun s => iprop(semVal (bsCell c (slot (zc c) q s)) 0 ∗ semVal (brCell c (slot (zc c) q s)) 0))) : sProp 𝕄) := by
    rw [← eight_sep]
    exact (eight_mono fun q => close_four Rd K hunit hlater (fun s => bsCell c (slot (zc c) q s)) (fun s => brCell c (slot (zc c) q s))
      (hown_bs c q) (hown_br c q)).trans (eight_fupd _)
  unfold ownInvs positionsEnd semsEnd
  iintro ⟨⟨_, I1, I2, I3⟩, ⟨P1, P2, P3⟩⟩
  imod s1 $$ [I1 P1] with S1
  · isplitl [I1] <;> iassumption
  imod s2 $$ [I2 P2] with S2
  · isplitl [I2] <;> iassumption
  imod s3 $$ [I3 P3] with S3
  · isplitl [I3] <;> iassumption
  imodintro
  isplitl [S1]; · iexact S1
  isplitl [S2] <;> iassumption

/-! ## The 144 own semaphores, pool by pool

The six semaphore arrays lie one after another among the kernel's own semaphores: 8, 8, 32, 32, 32 and 32 of
them, so a conjunction over the 144 is the conjunction of the six over the arrays. -/

/-- The six arrays' index ranges side by side. -/
abbrev Pools : Type := Fin 8 ⊕ (Fin 8 ⊕ (Fin 32 ⊕ (Fin 32 ⊕ (Fin 32 ⊕ Fin 32))))

/-- An array's index as the number of its semaphore among the 144. -/
def poolIx : Pools → Fin 144
  | .inl q => ⟨0 + q.val, by omega⟩
  | .inr (.inl q) => ⟨8 + q.val, by omega⟩
  | .inr (.inr (.inl i)) => ⟨16 + i.val, by omega⟩
  | .inr (.inr (.inr (.inl i))) => ⟨48 + i.val, by omega⟩
  | .inr (.inr (.inr (.inr (.inl i)))) => ⟨80 + i.val, by omega⟩
  | .inr (.inr (.inr (.inr (.inr i)))) => ⟨112 + i.val, by omega⟩

theorem poolIx_bijective : Function.Bijective poolIx := by
  constructor
  · rintro (a | a | a | a | a | a) (b | b | b | b | b | b) h <;>
      have h' := congrArg Fin.val h <;> simp only [poolIx] at h' <;>
      first
        | (have := a.isLt; have := b.isLt; exfalso; omega)
        | (have e : a = b := Fin.ext (by omega); subst e; rfl)
  · intro i
    have hi := i.isLt
    by_cases h1 : i.val < 8
    · exact ⟨.inl ⟨i.val, h1⟩, Fin.ext (by simp only [poolIx]; omega)⟩
    by_cases h2 : i.val < 16
    · exact ⟨.inr (.inl ⟨i.val - 8, by omega⟩), Fin.ext (by simp only [poolIx]; omega)⟩
    by_cases h3 : i.val < 48
    · exact ⟨.inr (.inr (.inl ⟨i.val - 16, by omega⟩)), Fin.ext (by simp only [poolIx]; omega)⟩
    by_cases h4 : i.val < 80
    · exact ⟨.inr (.inr (.inr (.inl ⟨i.val - 48, by omega⟩))), Fin.ext (by simp only [poolIx]; omega)⟩
    by_cases h5 : i.val < 112
    · exact ⟨.inr (.inr (.inr (.inr (.inl ⟨i.val - 80, by omega⟩)))), Fin.ext (by simp only [poolIx]; omega)⟩
    · exact ⟨.inr (.inr (.inr (.inr (.inr ⟨i.val - 112, by omega⟩)))), Fin.ext (by simp only [poolIx]; omega)⟩

def poolEquiv : Pools ≃ Fin 144 := Equiv.ofBijective poolIx poolIx_bijective

/-- A conjunction over the device's 144 own cells is the conjunction over the six arrays' cells. -/
theorem own144_split (Ψ : GSem nD τ sig → sProp 𝕄) (c : Dev nD) :
    bigSep Finset.univ (fun i : Fin 144 => Ψ ((c : Thread nD τ), LaunchSems.osem i))
      = iprop(bigSep Finset.univ (fun q : Fin 8 => Ψ (a1sCell c q)) ∗ bigSep Finset.univ (fun q : Fin 8 => Ψ (a1rCell c q))
          ∗ bigSep Finset.univ (fun i : Fin 32 => Ψ (a2sCell c i)) ∗ bigSep Finset.univ (fun i : Fin 32 => Ψ (a2rCell c i))
          ∗ bigSep Finset.univ (fun i : Fin 32 => Ψ (bsCell c i)) ∗ bigSep Finset.univ (fun i : Fin 32 => Ψ (brCell c i))) := by
  rw [bigSep_univ_equiv poolEquiv, bigSep_univ_sum, bigSep_univ_sum, bigSep_univ_sum, bigSep_univ_sum, bigSep_univ_sum]
  have e1 : ∀ q : Fin 8, Ψ ((c : Thread nD τ), LaunchSems.osem (poolEquiv (.inl q))) = Ψ (a1sCell c q) :=
    fun q => congrArg (fun x => Ψ ((c : Thread nD τ), x)) (Canon.osem_a1s q).symm
  have e2 : ∀ q : Fin 8, Ψ ((c : Thread nD τ), LaunchSems.osem (poolEquiv (.inr (.inl q)))) = Ψ (a1rCell c q) :=
    fun q => congrArg (fun x => Ψ ((c : Thread nD τ), x)) (Canon.osem_a1r q).symm
  have e3 : ∀ i : Fin 32, Ψ ((c : Thread nD τ), LaunchSems.osem (poolEquiv (.inr (.inr (.inl i))))) = Ψ (a2sCell c i) :=
    fun i => congrArg (fun x => Ψ ((c : Thread nD τ), x)) (Canon.osem_a2s i).symm
  have e4 : ∀ i : Fin 32, Ψ ((c : Thread nD τ), LaunchSems.osem (poolEquiv (.inr (.inr (.inr (.inl i)))))) = Ψ (a2rCell c i) :=
    fun i => congrArg (fun x => Ψ ((c : Thread nD τ), x)) (Canon.osem_a2r i).symm
  have e5 : ∀ i : Fin 32, Ψ ((c : Thread nD τ), LaunchSems.osem (poolEquiv (.inr (.inr (.inr (.inr (.inl i))))))) = Ψ (bsCell c i) :=
    fun i => congrArg (fun x => Ψ ((c : Thread nD τ), x)) (Canon.osem_bs i).symm
  have e6 : ∀ i : Fin 32, Ψ ((c : Thread nD τ), LaunchSems.osem (poolEquiv (.inr (.inr (.inr (.inr (.inr i))))))) = Ψ (brCell c i) :=
    fun i => congrArg (fun x => Ψ ((c : Thread nD τ), x)) (Canon.osem_br i).symm
  simp only [e1, e2, e3, e4, e5, e6]
  rfl

theorem sep_assoc_eq (P Q R : sProp 𝕄) : iprop((P ∗ Q) ∗ R) = iprop(P ∗ (Q ∗ R)) := by
  have h1 : iprop((P ∗ Q) ∗ R) ⊢ (iprop(P ∗ (Q ∗ R)) : sProp 𝕄) := by
    iintro ⟨⟨HP, HQ⟩, HR⟩
    isplitl [HP]; · iexact HP
    isplitl [HQ] <;> iassumption
  have h2 : iprop(P ∗ (Q ∗ R)) ⊢ (iprop((P ∗ Q) ∗ R) : sProp 𝕄) := by
    iintro ⟨HP, HQ, HR⟩
    isplitl [HP HQ]
    · isplitl [HP] <;> iassumption
    · iexact HR
  exact Entails.antisymm h1 h2

theorem four_sep (Φ Ψ : ℕ → sProp 𝕄) : four (fun s => iprop(Φ s ∗ Ψ s)) = iprop(four Φ ∗ four Ψ) := by
  rw [SlotGeom.four_eq, SlotGeom.four_eq, SlotGeom.four_eq]; exact bigSep_sep _ _ _

/-- The own semaphores at zero, as the launch states them and in the shape of the positions. -/
theorem sems144_eq (c : Dev nD) :
    (bigSep Finset.univ (fun i : Fin 144 => semVal ((c : Thread nD τ), LaunchSems.osem i) 0) : sProp 𝕄) = semsEnd c := by
  rw [own144_split (fun g => semVal g 0) c, SlotGeom.reindex32 (yc c) (fun i => semVal (a2sCell c i) 0),
    SlotGeom.reindex32 (yc c) (fun i => semVal (a2rCell c i) 0), SlotGeom.reindex32 (zc c) (fun i => semVal (bsCell c i) 0),
    SlotGeom.reindex32 (zc c) (fun i => semVal (brCell c i) 0)]
  unfold semsEnd
  simp only [four_sep, eight_sep]
  rw [← SlotGeom.eight_eq, ← SlotGeom.eight_eq]
  rw [sep_assoc_eq, sep_assoc_eq]

/-- Every own DMA cell closed: the 144 semaphores return at zero. -/
theorem close_all (Rd : Schedule (GSem nD τ sig) D (MT nD τ sig Unit (Elt F) ℕ UU ℕ)) (K : GSem nD τ sig → ℕ)
    (hunit : ∀ g, ¬ Rd.unitless g) (hlater : ∀ g r, 1 ≤ r → Rd.duties g r = ∅)
    (hown_a2s : ∀ c q r, Rd.duties (a2sCell c (slot (yc c) q 0)) r = ∅)
    (hown_a2r : ∀ c q r, Rd.duties (a2rCell c (slot (yc c) q 0)) r = ∅)
    (hown_bs : ∀ c q r, Rd.duties (bsCell c (slot (zc c) q 0)) r = ∅)
    (hown_br : ∀ c q r, Rd.duties (brCell c (slot (zc c) q 0)) r = ∅) (c : Dev nD) :
    iprop(ownInvs Rd K c ∗ positionsEnd c)
      ⊢ (iprop(|={Set.univ}=> bigSep Finset.univ fun i : Fin 144 => semVal ((c : Thread nD τ), LaunchSems.osem i) 0) : sProp 𝕄) := by
  rw [sems144_eq]
  exact close_pools Rd K hunit hlater hown_a2s hown_a2r hown_bs hown_br c

end Cert.Kernel.BodyClose

end
-- ==== Proof.Word.SlotJoin.lean ====
/-
  The exchange buffers put back together. Each slot comes back at contents of its own; pairwise disjoint
  and covering the buffer, the slots held each at some contents are the buffer held at some contents.
-/
import proofs.«900893_g7700000000000894_dist_matmul_mk_i_outk_m1024_n1024_k512_v7x_i32_f32_1_alg».proof.Proof.Word.SlotGeom
import Idealize.ShloMosaic.Lib.Ring

noncomputable section

namespace Cert.Kernel.SlotJoin

open Cert.Kernel Cert.Kernel.Gen Cert.Kernel.Proto Cert.Kernel.Ghost Cert.Kernel.SlotGeom
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The eight slots of a stage-one buffer, each at some contents, are the buffer at some contents. -/
theorem join1 (M : Memref sig .tc .vmem S8x4x4x32x128 .bf16) (hM : M.view.set = Finset.univ) (c : Dev nD) :
    eight (fun q => iprop(∃ f, (slot1 M q).view.loc (c : Thread nD τ) ↦[(slot1 M q).view.set]{fullShare} f))
      ⊢ (iprop(∃ f, M.view.loc (c : Thread nD τ) ↦{fullShare} f) : sProp 𝕄) := by
  rw [eight_eq]
  exact Idealize.ShloMosaic.Ring.pointsTo_blocks_join_exists (ℓ := M.view.loc (c : Thread nD τ)) (q := fullShare)
    (fun q : Fin 8 => ((slot1 M q).view.set : Finset (Idx (M.view.loc (c : Thread nD τ)))))
    (fun q q' h => slot1_disjoint M q q' h)
    ((set1_cover M c).symm.trans hM)
    (fun _ => Classical.arbitrary _)

/-- The same with each slot's unit axis kept. -/
theorem join1u (M : Memref sig .tc .vmem S8x4x4x32x128 .bf16) (hM : M.view.set = Finset.univ) (c : Dev nD) :
    eight (fun q => iprop(∃ f, (slot1u M q).view.loc (c : Thread nD τ) ↦[(slot1u M q).view.set]{fullShare} f))
      ⊢ (iprop(∃ f, M.view.loc (c : Thread nD τ) ↦{fullShare} f) : sProp 𝕄) := by
  have h : (fun q : Fin 8 => (iprop(∃ f, (slot1u M q).view.loc (c : Thread nD τ) ↦[(slot1u M q).view.set]{fullShare} f) : sProp 𝕄))
      = fun q => iprop(∃ f, (slot1 M q).view.loc (c : Thread nD τ) ↦[(slot1 M q).view.set]{fullShare} f) :=
    funext fun q => by
      show iprop(∃ f : Buf (Elt F) (M.view.loc (c : Thread nD τ)), _) = iprop(∃ f : Buf (Elt F) (M.view.loc (c : Thread nD τ)), _)
      exact congrArg (fun Φ : Buf (Elt F) (M.view.loc (c : Thread nD τ)) → sProp 𝕄 => iprop(∃ f, Φ f))
        (funext fun f => (pts_squeeze1 M q c fullShare f).symm)
  rw [h]
  exact join1 M hM c

/-- The 32 slots of a stage-two buffer, each at some contents, are the buffer at some contents. -/
theorem join2_all (M : Memref sig .tc .vmem S32x4x32x128 .bf16) (hM : M.view.set = Finset.univ) (c : Dev nD) :
    bigSep Finset.univ (fun i : Fin 32 => iprop(∃ f, (slot2 M i).view.loc (c : Thread nD τ) ↦[(slot2 M i).view.set]{fullShare} f))
      ⊢ (iprop(∃ f, M.view.loc (c : Thread nD τ) ↦{fullShare} f) : sProp 𝕄) :=
  Idealize.ShloMosaic.Ring.pointsTo_blocks_join_exists (ℓ := M.view.loc (c : Thread nD τ)) (q := fullShare)
    (fun i : Fin 32 => ((slot2 M i).view.set : Finset (Idx (M.view.loc (c : Thread nD τ)))))
    (fun i i' h => slot2_disjoint M i i' h)
    ((set2_cover M c).symm.trans hM)
    (fun _ => Classical.arbitrary _)

/-- The same from the slots step by step: one advance on, two, three, then the own slots. -/
theorem join2 (M : Memref sig .tc .vmem S32x4x32x128 .bf16) (hM : M.view.set = Finset.univ) (v : ℕ) (c : Dev nD) :
    iprop(eight (fun q => iprop(∃ f, (slot2 M (slot v q 1)).view.loc (c : Thread nD τ) ↦[(slot2 M (slot v q 1)).view.set]{fullShare} f))
        ∗ eight (fun q => iprop(∃ f, (slot2 M (slot v q 2)).view.loc (c : Thread nD τ) ↦[(slot2 M (slot v q 2)).view.set]{fullShare} f))
        ∗ eight (fun q => iprop(∃ f, (slot2 M (slot v q 3)).view.loc (c : Thread nD τ) ↦[(slot2 M (slot v q 3)).view.set]{fullShare} f))
        ∗ eight (fun q => iprop(∃ f, (slot2 M (slot v q 0)).view.loc (c : Thread nD τ) ↦[(slot2 M (slot v q 0)).view.set]{fullShare} f)))
      ⊢ (iprop(∃ f, M.view.loc (c : Thread nD τ) ↦{fullShare} f) : sProp 𝕄) := by
  rw [← eight_four_by_step (fun q s => iprop(∃ f, (slot2 M (slot v q s)).view.loc (c : Thread nD τ) ↦[(slot2 M (slot v q s)).view.set]{fullShare} f)),
    ← reindex32 v (fun i : Fin 32 => iprop(∃ f, (slot2 M i).view.loc (c : Thread nD τ) ↦[(slot2 M i).view.set]{fullShare} f))]
  exact join2_all M hM c

/-- The 32 slots of a stage-three buffer, each at some contents, are the buffer at some contents. -/
theorem join3_all (M : Memref sig .tc .vmem S32x32x128 .bf16) (hM : M.view.set = Finset.univ) (c : Dev nD) :
    bigSep Finset.univ (fun i : Fin 32 => iprop(∃ f, (slot3 M i).view.loc (c : Thread nD τ) ↦[(slot3 M i).view.set]{fullShare} f))
      ⊢ (iprop(∃ f, M.view.loc (c : Thread nD τ) ↦{fullShare} f) : sProp 𝕄) :=
  Idealize.ShloMosaic.Ring.pointsTo_blocks_join_exists (ℓ := M.view.loc (c : Thread nD τ)) (q := fullShare)
    (fun i : Fin 32 => ((slot3 M i).view.set : Finset (Idx (M.view.loc (c : Thread nD τ)))))
    (fun i i' h => slot3_disjoint M i i' h)
    ((set3_cover M c).symm.trans hM)
    (fun _ => Classical.arbitrary _)

/-- The same from the slots step by step: one advance on, two, three, then the own slots. -/
theorem join3 (M : Memref sig .tc .vmem S32x32x128 .bf16) (hM : M.view.set = Finset.univ) (v : ℕ) (c : Dev nD) :
    iprop(eight (fun q => iprop(∃ f, (slot3 M (slot v q 1)).view.loc (c : Thread nD τ) ↦[(slot3 M (slot v q 1)).view.set]{fullShare} f))
        ∗ eight (fun q => iprop(∃ f, (slot3 M (slot v q 2)).view.loc (c : Thread nD τ) ↦[(slot3 M (slot v q 2)).view.set]{fullShare} f))
        ∗ eight (fun q => iprop(∃ f, (slot3 M (slot v q 3)).view.loc (c : Thread nD τ) ↦[(slot3 M (slot v q 3)).view.set]{fullShare} f))
        ∗ eight (fun q => iprop(∃ f, (slot3 M (slot v q 0)).view.loc (c : Thread nD τ) ↦[(slot3 M (slot v q 0)).view.set]{fullShare} f)))
      ⊢ (iprop(∃ f, M.view.loc (c : Thread nD τ) ↦{fullShare} f) : sProp 𝕄) := by
  rw [← eight_four_by_step (fun q s => iprop(∃ f, (slot3 M (slot v q s)).view.loc (c : Thread nD τ) ↦[(slot3 M (slot v q s)).view.set]{fullShare} f)),
    ← reindex32 v (fun i : Fin 32 => iprop(∃ f, (slot3 M i).view.loc (c : Thread nD τ) ↦[(slot3 M i).view.set]{fullShare} f))]
  exact join3_all M hM c

end Cert.Kernel.SlotJoin

end
-- ==== Proof.Word.BodyEnd.lean ====
/-
  From the state the body's run ends in to the body's postcondition. At the end nothing is owed, every own
  cell stands past its one duty (or at round 0 where it never had one), the inputs are as they were, and the
  seven exchange buffers are held slot by slot at some contents. Closing the 144 own cells returns their
  semaphores at zero, and each exchange buffer's slots join back into the whole buffer.
-/
import proofs.«900893_g7700000000000894_dist_matmul_mk_i_outk_m1024_n1024_k512_v7x_i32_f32_1_alg».proof.Proof.Word.BodyWrap
import proofs.«900893_g7700000000000894_dist_matmul_mk_i_outk_m1024_n1024_k512_v7x_i32_f32_1_alg».proof.Proof.Word.BodyClose
import proofs.«900893_g7700000000000894_dist_matmul_mk_i_outk_m1024_n1024_k512_v7x_i32_f32_1_alg».proof.Proof.Word.SlotGeom
import proofs.«900893_g7700000000000894_dist_matmul_mk_i_outk_m1024_n1024_k512_v7x_i32_f32_1_alg».proof.Proof.Word.Proto0
import proofs.«900893_g7700000000000894_dist_matmul_mk_i_outk_m1024_n1024_k512_v7x_i32_f32_1_alg».proof.Proof.Word.SlotJoin

noncomputable section

namespace Cert.Kernel.BodyEnd

open Cert.Kernel Cert.Kernel.Gen Cert.Kernel.Proto Cert.Kernel.Ghost Cert.Kernel.LaunchData
open Cert.Kernel.SlotGeom
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots at some contents -/

/-- Slot q of a stage-one buffer at some contents. -/
abbrev some1 (M : Memref sig .tc .vmem S8x4x4x32x128 .bf16) (c : Dev nD) (q : Fin 8) : sProp 𝕄 :=
  iprop(∃ f, (slot1 M q).view.loc (c : Thread nD τ) ↦[(slot1 M q).view.set]{fullShare} f)
/-- Slot i of a stage-two buffer at some contents. -/
abbrev some2 (M : Memref sig .tc .vmem S32x4x32x128 .bf16) (c : Dev nD) (i : Fin 32) : sProp 𝕄 :=
  iprop(∃ f, (slot2 M i).view.loc (c : Thread nD τ) ↦[(slot2 M i).view.set]{fullShare} f)
/-- Slot i of a stage-three buffer at some contents. -/
abbrev some3 (M : Memref sig .tc .vmem S32x32x128 .bf16) (c : Dev nD) (i : Fin 32) : sProp 𝕄 :=
  iprop(∃ f, (slot3 M i).view.loc (c : Thread nD τ) ↦[(slot3 M i).view.set]{fullShare} f)

/-- The eight slots of a stage-one buffer, each at some contents. -/
abbrev slots1 (M : Memref sig .tc .vmem S8x4x4x32x128 .bf16) (c : Dev nD) : sProp 𝕄 :=
  eight (fun q => some1 M c q)
/-- The 32 slots of a stage-two buffer from base v, step by step (advances 1, 2, 3, then 0), each at some contents. -/
abbrev slots2 (M : Memref sig .tc .vmem S32x4x32x128 .bf16) (v : ℕ) (c : Dev nD) : sProp 𝕄 :=
  iprop(eight (fun q => some2 M c (slot v q 1)) ∗ eight (fun q => some2 M c (slot v q 2))
    ∗ eight (fun q => some2 M c (slot v q 3)) ∗ eight (fun q => some2 M c (slot v q 0)))
/-- The 32 slots of a stage-three buffer from base v, step by step, each at some contents. -/
abbrev slots3 (M : Memref sig .tc .vmem S32x32x128 .bf16) (v : ℕ) (c : Dev nD) : sProp 𝕄 :=
  iprop(eight (fun q => some3 M c (slot v q 1)) ∗ eight (fun q => some3 M c (slot v q 2))
    ∗ eight (fun q => some3 M c (slot v q 3)) ∗ eight (fun q => some3 M c (slot v q 0)))

/-- A staging or scratch buffer whole at some contents. -/
abbrev wholeSome (c : Dev nD) (b : Ref sig .tc) : sProp 𝕄 :=
  iprop(∃ f : Buf (Elt F) ((c : Thread nD τ).loc b), ((Memref.whole b : Memref sig .tc _ _ _).view.loc (c : Thread nD τ) ↦{fullShare} f))

/-! ## The end state, buffer by buffer -/

variable (m : (ℓ : Loc nD τ sig) → Buf (Elt F) ℓ)

/-- Nothing is owed. -/
def endOwes (c : Dev nD) : sProp 𝕄 := iprop(∃ W' : Waits sig Unit, owes (c : Thread nD τ) 0 W')
/-- The staged A block, as it was. -/
def endStgA (c : Dev nD) : sProp 𝕄 := ((Memref.whole cc0_stg0_0 : Memref sig .tc _ _ _).view.loc (c : Thread nD τ) ↦{fullShare} astg m c)
/-- The staged B block, as it was. -/
def endStgB (c : Dev nD) : sProp 𝕄 := ((Memref.whole cc0_stg1_0 : Memref sig .tc _ _ _).view.loc (c : Thread nD τ) ↦{fullShare} bstg m c)
/-- The result's staging buffer. -/
def endStgR (c : Dev nD) : sProp 𝕄 := wholeSome (F := F) c cc0_stg2_0
/-- The cast copy of the A block. -/
def endAb (c : Dev nD) : sProp 𝕄 := wholeSome (F := F) c cc0_scratch0
/-- The cast copy of the B block. -/
def endBb (c : Dev nD) : sProp 𝕄 := wholeSome (F := F) c cc0_scratch1
/-- The stage-one send buffer, slot by slot. -/
def endSendA1 (c : Dev nD) : sProp 𝕄 := slots1 (F := F) sendA1 c
/-- The stage-one landing buffer, slot by slot. -/
def endCommA1 (c : Dev nD) : sProp 𝕄 := slots1 (F := F) commA1 c
/-- The kept stage-one products. -/
def endOwnA (c : Dev nD) : sProp 𝕄 := wholeSome (F := F) c cc0_scratch4
/-- The stage-two send buffer, slot by slot from the device's row. -/
def endSendA2 (c : Dev nD) : sProp 𝕄 := slots2 (F := F) sendA2 (yc c) c
/-- The stage-two landing buffer, slot by slot from the device's row. -/
def endCommA2 (c : Dev nD) : sProp 𝕄 := slots2 (F := F) commA2 (yc c) c
/-- The stage-three send buffer, slot by slot from the device's plane. -/
def endSendB (c : Dev nD) : sProp 𝕄 := slots3 (F := F) sendB (zc c) c
/-- The stage-three landing buffer, slot by slot from the device's plane. -/
def endCommB (c : Dev nD) : sProp 𝕄 := slots3 (F := F) commB (zc c) c

/-- The state the body's run ends in. -/
def endState (K : GSem nD τ sig → ℕ) (c : Dev nD) : sProp 𝕄 :=
  iprop(Ghost.ownInvs (sched0 (F := F)) K c ∗ BodyClose.positionsEnd c ∗ endOwes (F := F) c
    ∗ endStgA m c ∗ endStgB m c ∗ endStgR (F := F) c ∗ endAb (F := F) c ∗ endBb (F := F) c
    ∗ endSendA1 (F := F) c ∗ endCommA1 (F := F) c ∗ endOwnA (F := F) c
    ∗ endSendA2 (F := F) c ∗ endCommA2 (F := F) c ∗ endSendB (F := F) c ∗ endCommB (F := F) c)

/-! ## The step to the postcondition -/

/-- From the end state to the body's postcondition, given that a buffer's slots join back into the buffer. -/
theorem finish_of
    (hj1 : ∀ (M : Memref sig .tc .vmem S8x4x4x32x128 .bf16) (hM : M.view.set = Finset.univ) (c : Dev nD),
      slots1 (F := F) M c ⊢ iprop(∃ f, (M.view.loc (c : Thread nD τ) ↦{fullShare} f : sProp 𝕄)))
    (hj2 : ∀ (M : Memref sig .tc .vmem S32x4x32x128 .bf16) (hM : M.view.set = Finset.univ) (v : ℕ) (c : Dev nD),
      slots2 (F := F) M v c ⊢ iprop(∃ f, (M.view.loc (c : Thread nD τ) ↦{fullShare} f : sProp 𝕄)))
    (hj3 : ∀ (M : Memref sig .tc .vmem S32x32x128 .bf16) (hM : M.view.set = Finset.univ) (v : ℕ) (c : Dev nD),
      slots3 (F := F) M v c ⊢ iprop(∃ f, (M.view.loc (c : Thread nD τ) ↦{fullShare} f : sProp 𝕄)))
    (K : GSem nD τ sig → ℕ) (c : Dev nD) :
    endState m K c ⊢ (iprop(|={Set.univ}=> BodyWrap.bodyPost m c) : sProp 𝕄) := by
  unfold endState endOwes endStgA endStgB endStgR endAb endBb endSendA1 endCommA1 endOwnA endSendA2 endCommA2 endSendB endCommB
  iintro ⟨HI, HP, HO, Ha, Hb, Hr, H0, H1, H2, H3, H4, H5, H6, H7, H8⟩
  imod (BodyClose.close_all (sched0 (F := F)) K (fun _ h => h) (fun g r hr => duties_later0 g r hr)
      (fun c q r => by rcases Nat.eq_zero_or_pos r with rfl | h; exact duties_a2s_own0 c q; exact duties_later0 _ r h)
      (fun c q r => by rcases Nat.eq_zero_or_pos r with rfl | h; exact duties_a2r_own0 c q; exact duties_later0 _ r h)
      (fun c q r => by rcases Nat.eq_zero_or_pos r with rfl | h; exact duties_bs_own0 c q; exact duties_later0 _ r h)
      (fun c q r => by rcases Nat.eq_zero_or_pos r with rfl | h; exact duties_br_own0 c q; exact duties_later0 _ r h) c) $$ [HI HP] with Hs
  · isplitl [HI] <;> iassumption
  imodintro
  unfold BodyWrap.bodyPost
  isplitl [HO]; · iexact HO
  isplitl [Ha]; · iexact Ha
  isplitl [Hb]; · iexact Hb
  isplitl [Hr]; · iexact Hr
  isplitl [H0]; · iexact H0
  isplitl [H1]; · iexact H1
  isplitl [H2]; · iapply (hj1 sendA1 sendA1_univ c) $$ H2
  isplitl [H3]; · iapply (hj1 commA1 commA1_univ c) $$ H3
  isplitl [H4]; · iexact H4
  isplitl [H5]; · iapply (hj2 sendA2 sendA2_univ (yc c) c) $$ H5
  isplitl [H6]; · iapply (hj2 commA2 commA2_univ (yc c) c) $$ H6
  isplitl [H7]; · iapply (hj3 sendB sendB_univ (zc c) c) $$ H7
  isplitl [H8]; · iapply (hj3 commB commB_univ (zc c) c) $$ H8
  iexact Hs

/-- From the end state to the body's postcondition. -/
theorem finish (K : GSem nD τ sig → ℕ) (c : Dev nD) :
    endState m K c ⊢ (iprop(|={Set.univ}=> BodyWrap.bodyPost m c) : sProp 𝕄) :=
  finish_of m (fun M hM c => SlotJoin.join1 M hM c) (fun M hM v c => SlotJoin.join2 M hM v c)
    (fun M hM v c => SlotJoin.join3 M hM v c) K c

end Cert.Kernel.BodyEnd

end
-- ==== Proof.Word.BodyClose2.lean ====
/-
  The body's last step: once the run has reached the end state, buffer by buffer, the postcondition follows
  under an update (every own cell is closed and the slots join back into their buffers), and the continuation
  is met.
-/
import proofs.«900893_g7700000000000894_dist_matmul_mk_i_outk_m1024_n1024_k512_v7x_i32_f32_1_alg».proof.Proof.Word.BodyEnd
import Idealize.ShloMosaic.Lib.Tactic

noncomputable section

namespace Cert.Kernel.BodyClose2

open Cert.Kernel Cert.Kernel.Gen Cert.Kernel.Proto Cert.Kernel.Ghost Cert.Kernel.LaunchData
open Cert.Kernel.SlotGeom
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body's last step: from the end state, the continuation's premise is met and the run returns. -/
theorem close (m : (ℓ : Loc nD τ sig) → Buf (Elt F) ℓ) (K : GSem nD τ sig → ℕ) (c : Dev nD) (Kt : PUnit → sProp 𝕄) :
    iprop(BodyEnd.endState m K c ∗ (BodyWrap.bodyPost m c -∗ Kt ⟨⟩))
      ⊢ wp frame (wpE (defs₀ (F := F)) Variants.none (c : Thread nD τ) none) Set.univ (Prog.ret PUnit.unit) Kt := by
  rw [wp_ret]
  iintro ⟨HE, Hk⟩
  imod (BodyEnd.finish m K c) $$ HE with HP
  imodintro
  iapply Hk
  iexact HP

/-- info: 'Cert.Kernel.BodyClose2.close' depends on axioms: [propext, Classical.choice, Quot.sound] -/
#guard_msgs in #print axioms close

end Cert.Kernel.BodyClose2

end
-- ==== Proof.Word.Body.lean ====
/-
  One device's kernel body, from the protocol's ghost state to its end state.
  The body signals its seven peers' barrier cells (lending each the slots of its own receive buffers that the
  peer will write), casts its blocks of A and B, and waits for seven units on its own barrier cell, which
  brings the slots of its peers that it will write. Then, column chunk by column chunk: it stores a product
  and sends it to its partner; it waits for its partner's product, adds its own and sends the three foreign
  rows of the sum along its rail; it waits for the three rows sent to it, adds its own and sends the three
  foreign planes across the planes; it waits for the three planes sent to it, adds its own and stores the
  chunk of the result. It ends by waiting for its 56 departures. Every wait happens while the device owes
  only arrivals of strictly later stages, which is what makes it permitted; every remote copy takes its source
  slot and the receiver's slot whole and pays one departure and one arrival. What the slots hold is not
  followed: each is handed over and received at some contents.
-/
import proofs.«900893_g7700000000000894_dist_matmul_mk_i_outk_m1024_n1024_k512_v7x_i32_f32_1_alg».proof.Proof.Word.Ghost
import proofs.«900893_g7700000000000894_dist_matmul_mk_i_outk_m1024_n1024_k512_v7x_i32_f32_1_alg».proof.Proof.Word.ProtoTables
import proofs.«900893_g7700000000000894_dist_matmul_mk_i_outk_m1024_n1024_k512_v7x_i32_f32_1_alg».proof.Proof.Word.Proto0
import proofs.«900893_g7700000000000894_dist_matmul_mk_i_outk_m1024_n1024_k512_v7x_i32_f32_1_alg».proof.Proof.Word.SlotGeom
import proofs.«900893_g7700000000000894_dist_matmul_mk_i_outk_m1024_n1024_k512_v7x_i32_f32_1_alg».proof.Proof.Word.ChunkGeom
import proofs.«900893_g7700000000000894_dist_matmul_mk_i_outk_m1024_n1024_k512_v7x_i32_f32_1_alg».proof.Proof.Word.Canon
import proofs.«900893_g7700000000000894_dist_matmul_mk_i_outk_m1024_n1024_k512_v7x_i32_f32_1_alg».proof.Proof.Word.ClosedOffs
import proofs.«900893_g7700000000000894_dist_matmul_mk_i_outk_m1024_n1024_k512_v7x_i32_f32_1_alg».proof.Proof.Word.BodyWrap
import proofs.«900893_g7700000000000894_dist_matmul_mk_i_outk_m1024_n1024_k512_v7x_i32_f32_1_alg».proof.Proof.Word.BodyEnd
import proofs.«900893_g7700000000000894_dist_matmul_mk_i_outk_m1024_n1024_k512_v7x_i32_f32_1_alg».proof.Proof.Word.BodyClose2
import proofs.«900893_g7700000000000894_dist_matmul_mk_i_outk_m1024_n1024_k512_v7x_i32_f32_1_alg».proof.Proof.Gen.Kernel.Skeleton
import Idealize.ShloMosaic.Lib.Tactic

set_option maxRecDepth 65536

noncomputable section

namespace Cert.Kernel.Body

open Cert.Kernel Cert.Kernel.Gen Cert.Kernel.Proto Cert.Kernel.Ghost Cert.Kernel.SlotGeom
open Cert.Kernel.LaunchData (astg bstg)
open Cert.Kernel.MeshFacts (dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq dev63_eq)
open Cert.Kernel.Canon.Tagged
open Cert.Kernel.ChunkGeom Cert.Kernel.ClosedOffs
open Cert.Mesh (partner rail zpeer zc pc yc xc pOf dev slot)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

-- the box's maps stay folded while the body is stepped: two slots are told apart by their literal arguments
-- a semaphore of an array is told from another by its array and slot, never by unfolding down to its number
attribute [local irreducible] Idealize.ShloMosaic.SemArray.sem Idealize.ShloMosaic.SemArray.squeeze Idealize.ShloMosaic.SemArray.slice
attribute [local irreducible] Cert.Mesh.slot Cert.Mesh.rail Cert.Mesh.partner Cert.Mesh.zpeer Cert.Mesh.yc Cert.Mesh.zc Cert.Mesh.xc Cert.Mesh.pc Cert.Mesh.dev Cert.Mesh.pOf
attribute [local sl_rounds] duties_bar0 duties_a1s0 duties_a1r0 duties_a2s0 duties_a2r0 duties_bs0 duties_br0 duties_a2r_peer0 duties_br_peer0 amount_bar0 amount_a1s0 amount_a1r0 amount_a2s0 amount_a2r0 amount_bs0 amount_br0 expect_bar0 expect_a1s0 expect_a1r0 expect_a2s0 expect_a2r0 expect_bs0 expect_br0 payload_bar_partner0 payload_bar_rail1_0 payload_bar_rail2_0 payload_bar_rail3_0 payload_bar_zpeer1_0 payload_bar_zpeer2_0 payload_bar_zpeer3_0 payload_a1s0 payload_a1r0 payload_a1r_peer0 payload_a2s0 payload_a2r0 payload_a2r_peer0 payload_bs0 payload_br0 payload_br_peer0 rest_bar0 barPay_own0 barPay_own1 barPay_own2 barPay_own3 barPay_own4 barPay_own5 barPay_own6 grant1_eq grant2_flat grant3_flat
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq dev63_eq

set_option maxHeartbeats 16000000 in
/-- The body of device c runs to its end, from the ghost state the launch hands it. -/
theorem sound (m : (ℓ : Loc nD τ sig) → Buf (Elt F) ℓ) : BodyWrap.Sound (sched0 (F := F)) m := by
  intro c K W Kt o0 f0 f1 f2 f3 f4 f5 f6 f7 f8
  unfold BodyWrap.bodyPre
  unfold ghost records ownInvs paidInvs sendReached recvReached positions payToks credits
  simp (config := {proj := false, dsimp := false}) only [three, four, eight]
  iintro ⟨⟨⟨⟨⟨#Ibar, ⟨⟨#Ia1s0, #Ia1r0⟩, ⟨#Ia1s1, #Ia1r1⟩, ⟨#Ia1s2, #Ia1r2⟩, ⟨#Ia1s3, #Ia1r3⟩, ⟨#Ia1s4, #Ia1r4⟩, ⟨#Ia1s5, #Ia1r5⟩, ⟨#Ia1s6, #Ia1r6⟩, ⟨#Ia1s7, #Ia1r7⟩⟩, ⟨⟨⟨#Ia2s0_0, #Ia2r0_0⟩, ⟨#Ia2s0_1, #Ia2r0_1⟩, ⟨#Ia2s0_2, #Ia2r0_2⟩, ⟨#Ia2s0_3, #Ia2r0_3⟩⟩, ⟨⟨#Ia2s1_0, #Ia2r1_0⟩, ⟨#Ia2s1_1, #Ia2r1_1⟩, ⟨#Ia2s1_2, #Ia2r1_2⟩, ⟨#Ia2s1_3, #Ia2r1_3⟩⟩, ⟨⟨#Ia2s2_0, #Ia2r2_0⟩, ⟨#Ia2s2_1, #Ia2r2_1⟩, ⟨#Ia2s2_2, #Ia2r2_2⟩, ⟨#Ia2s2_3, #Ia2r2_3⟩⟩, ⟨⟨#Ia2s3_0, #Ia2r3_0⟩, ⟨#Ia2s3_1, #Ia2r3_1⟩, ⟨#Ia2s3_2, #Ia2r3_2⟩, ⟨#Ia2s3_3, #Ia2r3_3⟩⟩, ⟨⟨#Ia2s4_0, #Ia2r4_0⟩, ⟨#Ia2s4_1, #Ia2r4_1⟩, ⟨#Ia2s4_2, #Ia2r4_2⟩, ⟨#Ia2s4_3, #Ia2r4_3⟩⟩, ⟨⟨#Ia2s5_0, #Ia2r5_0⟩, ⟨#Ia2s5_1, #Ia2r5_1⟩, ⟨#Ia2s5_2, #Ia2r5_2⟩, ⟨#Ia2s5_3, #Ia2r5_3⟩⟩, ⟨⟨#Ia2s6_0, #Ia2r6_0⟩, ⟨#Ia2s6_1, #Ia2r6_1⟩, ⟨#Ia2s6_2, #Ia2r6_2⟩, ⟨#Ia2s6_3, #Ia2r6_3⟩⟩, ⟨⟨#Ia2s7_0, #Ia2r7_0⟩, ⟨#Ia2s7_1, #Ia2r7_1⟩, ⟨#Ia2s7_2, #Ia2r7_2⟩, ⟨#Ia2s7_3, #Ia2r7_3⟩⟩⟩, ⟨⟨⟨#Ibs0_0, #Ibr0_0⟩, ⟨#Ibs0_1, #Ibr0_1⟩, ⟨#Ibs0_2, #Ibr0_2⟩, ⟨#Ibs0_3, #Ibr0_3⟩⟩, ⟨⟨#Ibs1_0, #Ibr1_0⟩, ⟨#Ibs1_1, #Ibr1_1⟩, ⟨#Ibs1_2, #Ibr1_2⟩, ⟨#Ibs1_3, #Ibr1_3⟩⟩, ⟨⟨#Ibs2_0, #Ibr2_0⟩, ⟨#Ibs2_1, #Ibr2_1⟩, ⟨#Ibs2_2, #Ibr2_2⟩, ⟨#Ibs2_3, #Ibr2_3⟩⟩, ⟨⟨#Ibs3_0, #Ibr3_0⟩, ⟨#Ibs3_1, #Ibr3_1⟩, ⟨#Ibs3_2, #Ibr3_2⟩, ⟨#Ibs3_3, #Ibr3_3⟩⟩, ⟨⟨#Ibs4_0, #Ibr4_0⟩, ⟨#Ibs4_1, #Ibr4_1⟩, ⟨#Ibs4_2, #Ibr4_2⟩, ⟨#Ibs4_3, #Ibr4_3⟩⟩, ⟨⟨#Ibs5_0, #Ibr5_0⟩, ⟨#Ibs5_1, #Ibr5_1⟩, ⟨#Ibs5_2, #Ibr5_2⟩, ⟨#Ibs5_3, #Ibr5_3⟩⟩, ⟨⟨#Ibs6_0, #Ibr6_0⟩, ⟨#Ibs6_1, #Ibr6_1⟩, ⟨#Ibs6_2, #Ibr6_2⟩, ⟨#Ibs6_3, #Ibr6_3⟩⟩, ⟨⟨#Ibs7_0, #Ibr7_0⟩, ⟨#Ibs7_1, #Ibr7_1⟩, ⟨#Ibs7_2, #Ibr7_2⟩, ⟨#Ibs7_3, #Ibr7_3⟩⟩⟩⟩, ⟨⟨#JbarP, #RbarP⟩, ⟨⟨#JbarR1, #RbarR1⟩, ⟨#JbarR2, #RbarR2⟩, ⟨#JbarR3, #RbarR3⟩⟩, ⟨⟨#JbarZ1, #RbarZ1⟩, ⟨#JbarZ2, #RbarZ2⟩, ⟨#JbarZ3, #RbarZ3⟩⟩, ⟨⟨#Ja1r0, #Ra1r0⟩, ⟨#Ja1r1, #Ra1r1⟩, ⟨#Ja1r2, #Ra1r2⟩, ⟨#Ja1r3, #Ra1r3⟩, ⟨#Ja1r4, #Ra1r4⟩, ⟨#Ja1r5, #Ra1r5⟩, ⟨#Ja1r6, #Ra1r6⟩, ⟨#Ja1r7, #Ra1r7⟩⟩, ⟨⟨⟨#Ja2r0_1, #Ra2r0_1⟩, ⟨#Ja2r0_2, #Ra2r0_2⟩, ⟨#Ja2r0_3, #Ra2r0_3⟩⟩, ⟨⟨#Ja2r1_1, #Ra2r1_1⟩, ⟨#Ja2r1_2, #Ra2r1_2⟩, ⟨#Ja2r1_3, #Ra2r1_3⟩⟩, ⟨⟨#Ja2r2_1, #Ra2r2_1⟩, ⟨#Ja2r2_2, #Ra2r2_2⟩, ⟨#Ja2r2_3, #Ra2r2_3⟩⟩, ⟨⟨#Ja2r3_1, #Ra2r3_1⟩, ⟨#Ja2r3_2, #Ra2r3_2⟩, ⟨#Ja2r3_3, #Ra2r3_3⟩⟩, ⟨⟨#Ja2r4_1, #Ra2r4_1⟩, ⟨#Ja2r4_2, #Ra2r4_2⟩, ⟨#Ja2r4_3, #Ra2r4_3⟩⟩, ⟨⟨#Ja2r5_1, #Ra2r5_1⟩, ⟨#Ja2r5_2, #Ra2r5_2⟩, ⟨#Ja2r5_3, #Ra2r5_3⟩⟩, ⟨⟨#Ja2r6_1, #Ra2r6_1⟩, ⟨#Ja2r6_2, #Ra2r6_2⟩, ⟨#Ja2r6_3, #Ra2r6_3⟩⟩, ⟨⟨#Ja2r7_1, #Ra2r7_1⟩, ⟨#Ja2r7_2, #Ra2r7_2⟩, ⟨#Ja2r7_3, #Ra2r7_3⟩⟩⟩, ⟨⟨⟨#Jbr0_1, #Rbr0_1⟩, ⟨#Jbr0_2, #Rbr0_2⟩, ⟨#Jbr0_3, #Rbr0_3⟩⟩, ⟨⟨#Jbr1_1, #Rbr1_1⟩, ⟨#Jbr1_2, #Rbr1_2⟩, ⟨#Jbr1_3, #Rbr1_3⟩⟩, ⟨⟨#Jbr2_1, #Rbr2_1⟩, ⟨#Jbr2_2, #Rbr2_2⟩, ⟨#Jbr2_3, #Rbr2_3⟩⟩, ⟨⟨#Jbr3_1, #Rbr3_1⟩, ⟨#Jbr3_2, #Rbr3_2⟩, ⟨#Jbr3_3, #Rbr3_3⟩⟩, ⟨⟨#Jbr4_1, #Rbr4_1⟩, ⟨#Jbr4_2, #Rbr4_2⟩, ⟨#Jbr4_3, #Rbr4_3⟩⟩, ⟨⟨#Jbr5_1, #Rbr5_1⟩, ⟨#Jbr5_2, #Rbr5_2⟩, ⟨#Jbr5_3, #Rbr5_3⟩⟩, ⟨⟨#Jbr6_1, #Rbr6_1⟩, ⟨#Jbr6_2, #Rbr6_2⟩, ⟨#Jbr6_3, #Rbr6_3⟩⟩, ⟨⟨#Jbr7_1, #Rbr7_1⟩, ⟨#Jbr7_2, #Rbr7_2⟩, ⟨#Jbr7_3, #Rbr7_3⟩⟩⟩⟩, ⟨⟨#Sa1s0, #Sa1s1, #Sa1s2, #Sa1s3, #Sa1s4, #Sa1s5, #Sa1s6, #Sa1s7⟩, ⟨⟨#Sa2s0_1, #Sa2s0_2, #Sa2s0_3⟩, ⟨#Sa2s1_1, #Sa2s1_2, #Sa2s1_3⟩, ⟨#Sa2s2_1, #Sa2s2_2, #Sa2s2_3⟩, ⟨#Sa2s3_1, #Sa2s3_2, #Sa2s3_3⟩, ⟨#Sa2s4_1, #Sa2s4_2, #Sa2s4_3⟩, ⟨#Sa2s5_1, #Sa2s5_2, #Sa2s5_3⟩, ⟨#Sa2s6_1, #Sa2s6_2, #Sa2s6_3⟩, ⟨#Sa2s7_1, #Sa2s7_2, #Sa2s7_3⟩⟩, ⟨⟨#Sbs0_1, #Sbs0_2, #Sbs0_3⟩, ⟨#Sbs1_1, #Sbs1_2, #Sbs1_3⟩, ⟨#Sbs2_1, #Sbs2_2, #Sbs2_3⟩, ⟨#Sbs3_1, #Sbs3_2, #Sbs3_3⟩, ⟨#Sbs4_1, #Sbs4_2, #Sbs4_3⟩, ⟨#Sbs5_1, #Sbs5_2, #Sbs5_3⟩, ⟨#Sbs6_1, #Sbs6_2, #Sbs6_3⟩, ⟨#Sbs7_1, #Sbs7_2, #Sbs7_3⟩⟩⟩, ⟨⟨#Va1r0, #Va1r1, #Va1r2, #Va1r3, #Va1r4, #Va1r5, #Va1r6, #Va1r7⟩, ⟨⟨#Va2r0_1, #Va2r0_2, #Va2r0_3⟩, ⟨#Va2r1_1, #Va2r1_2, #Va2r1_3⟩, ⟨#Va2r2_1, #Va2r2_2, #Va2r2_3⟩, ⟨#Va2r3_1, #Va2r3_2, #Va2r3_3⟩, ⟨#Va2r4_1, #Va2r4_2, #Va2r4_3⟩, ⟨#Va2r5_1, #Va2r5_2, #Va2r5_3⟩, ⟨#Va2r6_1, #Va2r6_2, #Va2r6_3⟩, ⟨#Va2r7_1, #Va2r7_2, #Va2r7_3⟩⟩, ⟨⟨#Vbr0_1, #Vbr0_2, #Vbr0_3⟩, ⟨#Vbr1_1, #Vbr1_2, #Vbr1_3⟩, ⟨#Vbr2_1, #Vbr2_2, #Vbr2_3⟩, ⟨#Vbr3_1, #Vbr3_2, #Vbr3_3⟩, ⟨#Vbr4_1, #Vbr4_2, #Vbr4_3⟩, ⟨#Vbr5_1, #Vbr5_2, #Vbr5_3⟩, ⟨#Vbr6_1, #Vbr6_2, #Vbr6_3⟩, ⟨#Vbr7_1, #Vbr7_2, #Vbr7_3⟩⟩⟩⟩, ⟨Pbar, ⟨⟨Pa1s0, Pa1r0⟩, ⟨Pa1s1, Pa1r1⟩, ⟨Pa1s2, Pa1r2⟩, ⟨Pa1s3, Pa1r3⟩, ⟨Pa1s4, Pa1r4⟩, ⟨Pa1s5, Pa1r5⟩, ⟨Pa1s6, Pa1r6⟩, ⟨Pa1s7, Pa1r7⟩⟩, ⟨⟨⟨Pa2s0_0, Pa2r0_0⟩, ⟨Pa2s0_1, Pa2r0_1⟩, ⟨Pa2s0_2, Pa2r0_2⟩, ⟨Pa2s0_3, Pa2r0_3⟩⟩, ⟨⟨Pa2s1_0, Pa2r1_0⟩, ⟨Pa2s1_1, Pa2r1_1⟩, ⟨Pa2s1_2, Pa2r1_2⟩, ⟨Pa2s1_3, Pa2r1_3⟩⟩, ⟨⟨Pa2s2_0, Pa2r2_0⟩, ⟨Pa2s2_1, Pa2r2_1⟩, ⟨Pa2s2_2, Pa2r2_2⟩, ⟨Pa2s2_3, Pa2r2_3⟩⟩, ⟨⟨Pa2s3_0, Pa2r3_0⟩, ⟨Pa2s3_1, Pa2r3_1⟩, ⟨Pa2s3_2, Pa2r3_2⟩, ⟨Pa2s3_3, Pa2r3_3⟩⟩, ⟨⟨Pa2s4_0, Pa2r4_0⟩, ⟨Pa2s4_1, Pa2r4_1⟩, ⟨Pa2s4_2, Pa2r4_2⟩, ⟨Pa2s4_3, Pa2r4_3⟩⟩, ⟨⟨Pa2s5_0, Pa2r5_0⟩, ⟨Pa2s5_1, Pa2r5_1⟩, ⟨Pa2s5_2, Pa2r5_2⟩, ⟨Pa2s5_3, Pa2r5_3⟩⟩, ⟨⟨Pa2s6_0, Pa2r6_0⟩, ⟨Pa2s6_1, Pa2r6_1⟩, ⟨Pa2s6_2, Pa2r6_2⟩, ⟨Pa2s6_3, Pa2r6_3⟩⟩, ⟨⟨Pa2s7_0, Pa2r7_0⟩, ⟨Pa2s7_1, Pa2r7_1⟩, ⟨Pa2s7_2, Pa2r7_2⟩, ⟨Pa2s7_3, Pa2r7_3⟩⟩⟩, ⟨⟨⟨Pbs0_0, Pbr0_0⟩, ⟨Pbs0_1, Pbr0_1⟩, ⟨Pbs0_2, Pbr0_2⟩, ⟨Pbs0_3, Pbr0_3⟩⟩, ⟨⟨Pbs1_0, Pbr1_0⟩, ⟨Pbs1_1, Pbr1_1⟩, ⟨Pbs1_2, Pbr1_2⟩, ⟨Pbs1_3, Pbr1_3⟩⟩, ⟨⟨Pbs2_0, Pbr2_0⟩, ⟨Pbs2_1, Pbr2_1⟩, ⟨Pbs2_2, Pbr2_2⟩, ⟨Pbs2_3, Pbr2_3⟩⟩, ⟨⟨Pbs3_0, Pbr3_0⟩, ⟨Pbs3_1, Pbr3_1⟩, ⟨Pbs3_2, Pbr3_2⟩, ⟨Pbs3_3, Pbr3_3⟩⟩, ⟨⟨Pbs4_0, Pbr4_0⟩, ⟨Pbs4_1, Pbr4_1⟩, ⟨Pbs4_2, Pbr4_2⟩, ⟨Pbs4_3, Pbr4_3⟩⟩, ⟨⟨Pbs5_0, Pbr5_0⟩, ⟨Pbs5_1, Pbr5_1⟩, ⟨Pbs5_2, Pbr5_2⟩, ⟨Pbs5_3, Pbr5_3⟩⟩, ⟨⟨Pbs6_0, Pbr6_0⟩, ⟨Pbs6_1, Pbr6_1⟩, ⟨Pbs6_2, Pbr6_2⟩, ⟨Pbs6_3, Pbr6_3⟩⟩, ⟨⟨Pbs7_0, Pbr7_0⟩, ⟨Pbs7_1, Pbr7_1⟩, ⟨Pbs7_2, Pbr7_2⟩, ⟨Pbs7_3, Pbr7_3⟩⟩⟩⟩, ⟨TbarP, TbarR1, TbarR2, TbarR3, TbarZ1, TbarZ2, TbarZ3, ⟨⟨Ta1s0, Ta1r0⟩, ⟨Ta1s1, Ta1r1⟩, ⟨Ta1s2, Ta1r2⟩, ⟨Ta1s3, Ta1r3⟩, ⟨Ta1s4, Ta1r4⟩, ⟨Ta1s5, Ta1r5⟩, ⟨Ta1s6, Ta1r6⟩, ⟨Ta1s7, Ta1r7⟩⟩, ⟨⟨⟨Ta2s0_1, Ta2r0_1⟩, ⟨Ta2s0_2, Ta2r0_2⟩, ⟨Ta2s0_3, Ta2r0_3⟩⟩, ⟨⟨Ta2s1_1, Ta2r1_1⟩, ⟨Ta2s1_2, Ta2r1_2⟩, ⟨Ta2s1_3, Ta2r1_3⟩⟩, ⟨⟨Ta2s2_1, Ta2r2_1⟩, ⟨Ta2s2_2, Ta2r2_2⟩, ⟨Ta2s2_3, Ta2r2_3⟩⟩, ⟨⟨Ta2s3_1, Ta2r3_1⟩, ⟨Ta2s3_2, Ta2r3_2⟩, ⟨Ta2s3_3, Ta2r3_3⟩⟩, ⟨⟨Ta2s4_1, Ta2r4_1⟩, ⟨Ta2s4_2, Ta2r4_2⟩, ⟨Ta2s4_3, Ta2r4_3⟩⟩, ⟨⟨Ta2s5_1, Ta2r5_1⟩, ⟨Ta2s5_2, Ta2r5_2⟩, ⟨Ta2s5_3, Ta2r5_3⟩⟩, ⟨⟨Ta2s6_1, Ta2r6_1⟩, ⟨Ta2s6_2, Ta2r6_2⟩, ⟨Ta2s6_3, Ta2r6_3⟩⟩, ⟨⟨Ta2s7_1, Ta2r7_1⟩, ⟨Ta2s7_2, Ta2r7_2⟩, ⟨Ta2s7_3, Ta2r7_3⟩⟩⟩, ⟨⟨⟨Tbs0_1, Tbr0_1⟩, ⟨Tbs0_2, Tbr0_2⟩, ⟨Tbs0_3, Tbr0_3⟩⟩, ⟨⟨Tbs1_1, Tbr1_1⟩, ⟨Tbs1_2, Tbr1_2⟩, ⟨Tbs1_3, Tbr1_3⟩⟩, ⟨⟨Tbs2_1, Tbr2_1⟩, ⟨Tbs2_2, Tbr2_2⟩, ⟨Tbs2_3, Tbr2_3⟩⟩, ⟨⟨Tbs3_1, Tbr3_1⟩, ⟨Tbs3_2, Tbr3_2⟩, ⟨Tbs3_3, Tbr3_3⟩⟩, ⟨⟨Tbs4_1, Tbr4_1⟩, ⟨Tbs4_2, Tbr4_2⟩, ⟨Tbs4_3, Tbr4_3⟩⟩, ⟨⟨Tbs5_1, Tbr5_1⟩, ⟨Tbs5_2, Tbr5_2⟩, ⟨Tbs5_3, Tbr5_3⟩⟩, ⟨⟨Tbs6_1, Tbr6_1⟩, ⟨Tbs6_2, Tbr6_2⟩, ⟨Tbs6_3, Tbr6_3⟩⟩, ⟨⟨Tbs7_1, Tbr7_1⟩, ⟨Tbs7_2, Tbr7_2⟩, ⟨Tbs7_3, Tbr7_3⟩⟩⟩⟩, ⟨Cbar, ⟨Ca1r0, Ca1r1, Ca1r2, Ca1r3, Ca1r4, Ca1r5, Ca1r6, Ca1r7⟩, ⟨⟨Ca2r0_1, Ca2r0_2, Ca2r0_3⟩, ⟨Ca2r1_1, Ca2r1_2, Ca2r1_3⟩, ⟨Ca2r2_1, Ca2r2_2, Ca2r2_3⟩, ⟨Ca2r3_1, Ca2r3_2, Ca2r3_3⟩, ⟨Ca2r4_1, Ca2r4_2, Ca2r4_3⟩, ⟨Ca2r5_1, Ca2r5_2, Ca2r5_3⟩, ⟨Ca2r6_1, Ca2r6_2, Ca2r6_3⟩, ⟨Ca2r7_1, Ca2r7_2, Ca2r7_3⟩⟩, ⟨⟨Cbr0_1, Cbr0_2, Cbr0_3⟩, ⟨Cbr1_1, Cbr1_2, Cbr1_3⟩, ⟨Cbr2_1, Cbr2_2, Cbr2_3⟩, ⟨Cbr3_1, Cbr3_2, Cbr3_3⟩, ⟨Cbr4_1, Cbr4_2, Cbr4_3⟩, ⟨Cbr5_1, Cbr5_2, Cbr5_3⟩, ⟨Cbr6_1, Cbr6_2, Cbr6_3⟩, ⟨Cbr7_1, Cbr7_2, Cbr7_3⟩⟩⟩⟩, #Hlev, HO, HA, HB, HR, S0, S1b, S2, S3, S4, S5, S6, S7, S8⟩, Hk⟩
  -- the stage-1 send buffer slot by slot; the two 32-slot receive buffers slot by slot in the order they are lent;
  -- the two 32-slot send buffers chunk by chunk (a chunk is stored at once, then sent slot by slot)
  ihave S2' := (Entails.of_eq (split1 sendA1 sendA1_univ c f2)) $$ S2
  ihave S6' := (Entails.of_eq (split2_by_step commA2 commA2_univ (yc c) c f6)) $$ S6
  ihave S8' := (Entails.of_eq (split3_by_step commB commB_univ (zc c) c f8)) $$ S8
  ihave S5' := (Entails.of_eq (split2_chunks sendA2 sendA2_univ c f5)) $$ S5
  ihave S7' := (Entails.of_eq (split3_chunks sendB sendB_univ c f7)) $$ S7
  simp (config := {proj := false, dsimp := false}) only [four, eight]
  icases S2' with ⟨X2_0, X2_1, X2_2, X2_3, X2_4, X2_5, X2_6, X2_7⟩
  icases S6' with ⟨⟨X6_0_1, X6_1_1, X6_2_1, X6_3_1, X6_4_1, X6_5_1, X6_6_1, X6_7_1⟩, ⟨X6_0_2, X6_1_2, X6_2_2, X6_3_2, X6_4_2, X6_5_2, X6_6_2, X6_7_2⟩, ⟨X6_0_3, X6_1_3, X6_2_3, X6_3_3, X6_4_3, X6_5_3, X6_6_3, X6_7_3⟩, ⟨X6_0_0, X6_1_0, X6_2_0, X6_3_0, X6_4_0, X6_5_0, X6_6_0, X6_7_0⟩⟩
  icases S8' with ⟨⟨X8_0_1, X8_1_1, X8_2_1, X8_3_1, X8_4_1, X8_5_1, X8_6_1, X8_7_1⟩, ⟨X8_0_2, X8_1_2, X8_2_2, X8_3_2, X8_4_2, X8_5_2, X8_6_2, X8_7_2⟩, ⟨X8_0_3, X8_1_3, X8_2_3, X8_3_3, X8_4_3, X8_5_3, X8_6_3, X8_7_3⟩, ⟨X8_0_0, X8_1_0, X8_2_0, X8_3_0, X8_4_0, X8_5_0, X8_6_0, X8_7_0⟩⟩
  icases S5' with ⟨C5_0, C5_1, C5_2, C5_3, C5_4, C5_5, C5_6, C5_7⟩
  icases S7' with ⟨C7_0, C7_1, C7_2, C7_3, C7_4, C7_5, C7_6, C7_7⟩
  ihave S3' := (Entails.of_eq (show ((((Memref.whole cc0_scratch3 : Memref sig .tc _ _ _).view.loc (c : Thread nD τ)) ↦{fullShare} f3 : sProp 𝕄)) = (((c : Thread nD τ).loc cc0_scratch3) ↦{fullShare} f3 : sProp 𝕄) from rfl)) $$ S3
  -- when the device may wait on its barrier: everything it still owes then lies above it
  have hmwBar : (levAts L lv : sProp 𝕄) ⊢ MayWait (c : Thread nD τ) (.reg barS) () (Oafter c 7) := mayWait_bar c 7 (le_refl _)
  have hdev8 : ∀ c : Dev nD, (⟨k0_dev8 c, k0_dev8_lt c⟩ : Dev nD) = partner c := fun c => dev8_eq c
  have hdev9 : ∀ c : Dev nD, (⟨k0_dev9 c, k0_dev9_lt c⟩ : Dev nD) = partner c := fun c => dev9_eq c
  have hdev10 : ∀ c : Dev nD, (⟨k0_dev10 c, k0_dev10_lt c⟩ : Dev nD) = partner c := fun c => dev10_eq c
  have hdev11 : ∀ c : Dev nD, (⟨k0_dev11 c, k0_dev11_lt c⟩ : Dev nD) = partner c := fun c => dev11_eq c
  have hdev12 : ∀ c : Dev nD, (⟨k0_dev12 c, k0_dev12_lt c⟩ : Dev nD) = partner c := fun c => dev12_eq c
  have hdev13 : ∀ c : Dev nD, (⟨k0_dev13 c, k0_dev13_lt c⟩ : Dev nD) = partner c := fun c => dev13_eq c
  have hdev14 : ∀ c : Dev nD, (⟨k0_dev14 c, k0_dev14_lt c⟩ : Dev nD) = partner c := fun c => dev14_eq c
  have hdev15 : ∀ c : Dev nD, (⟨k0_dev15 c, k0_dev15_lt c⟩ : Dev nD) = partner c := fun c => dev15_eq c
  have hdev16 : ∀ c : Dev nD, (⟨k0_dev16 c, k0_dev16_lt c⟩ : Dev nD) = rail c 1 := fun c => dev16_eq c
  have hdev17 : ∀ c : Dev nD, (⟨k0_dev17 c, k0_dev17_lt c⟩ : Dev nD) = rail c 2 := fun c => dev17_eq c
  have hdev18 : ∀ c : Dev nD, (⟨k0_dev18 c, k0_dev18_lt c⟩ : Dev nD) = rail c 3 := fun c => dev18_eq c
  have hdev19 : ∀ c : Dev nD, (⟨k0_dev19 c, k0_dev19_lt c⟩ : Dev nD) = rail c 1 := fun c => dev19_eq c
  have hdev20 : ∀ c : Dev nD, (⟨k0_dev20 c, k0_dev20_lt c⟩ : Dev nD) = rail c 2 := fun c => dev20_eq c
  have hdev21 : ∀ c : Dev nD, (⟨k0_dev21 c, k0_dev21_lt c⟩ : Dev nD) = rail c 3 := fun c => dev21_eq c
  have hdev22 : ∀ c : Dev nD, (⟨k0_dev22 c, k0_dev22_lt c⟩ : Dev nD) = rail c 1 := fun c => dev22_eq c
  have hdev23 : ∀ c : Dev nD, (⟨k0_dev23 c, k0_dev23_lt c⟩ : Dev nD) = rail c 2 := fun c => dev23_eq c
  have hdev24 : ∀ c : Dev nD, (⟨k0_dev24 c, k0_dev24_lt c⟩ : Dev nD) = rail c 3 := fun c => dev24_eq c
  have hdev25 : ∀ c : Dev nD, (⟨k0_dev25 c, k0_dev25_lt c⟩ : Dev nD) = rail c 1 := fun c => dev25_eq c
  have hdev26 : ∀ c : Dev nD, (⟨k0_dev26 c, k0_dev26_lt c⟩ : Dev nD) = rail c 2 := fun c => dev26_eq c
  have hdev27 : ∀ c : Dev nD, (⟨k0_dev27 c, k0_dev27_lt c⟩ : Dev nD) = rail c 3 := fun c => dev27_eq c
  have hdev28 : ∀ c : Dev nD, (⟨k0_dev28 c, k0_dev28_lt c⟩ : Dev nD) = rail c 1 := fun c => dev28_eq c
  have hdev29 : ∀ c : Dev nD, (⟨k0_dev29 c, k0_dev29_lt c⟩ : Dev nD) = rail c 2 := fun c => dev29_eq c
  have hdev30 : ∀ c : Dev nD, (⟨k0_dev30 c, k0_dev30_lt c⟩ : Dev nD) = rail c 3 := fun c => dev30_eq c
  have hdev31 : ∀ c : Dev nD, (⟨k0_dev31 c, k0_dev31_lt c⟩ : Dev nD) = rail c 1 := fun c => dev31_eq c
  have hdev32 : ∀ c : Dev nD, (⟨k0_dev32 c, k0_dev32_lt c⟩ : Dev nD) = rail c 2 := fun c => dev32_eq c
  have hdev33 : ∀ c : Dev nD, (⟨k0_dev33 c, k0_dev33_lt c⟩ : Dev nD) = rail c 3 := fun c => dev33_eq c
  have hdev34 : ∀ c : Dev nD, (⟨k0_dev34 c, k0_dev34_lt c⟩ : Dev nD) = rail c 1 := fun c => dev34_eq c
  have hdev35 : ∀ c : Dev nD, (⟨k0_dev35 c, k0_dev35_lt c⟩ : Dev nD) = rail c 2 := fun c => dev35_eq c
  have hdev36 : ∀ c : Dev nD, (⟨k0_dev36 c, k0_dev36_lt c⟩ : Dev nD) = rail c 3 := fun c => dev36_eq c
  have hdev37 : ∀ c : Dev nD, (⟨k0_dev37 c, k0_dev37_lt c⟩ : Dev nD) = rail c 1 := fun c => dev37_eq c
  have hdev38 : ∀ c : Dev nD, (⟨k0_dev38 c, k0_dev38_lt c⟩ : Dev nD) = rail c 2 := fun c => dev38_eq c
  have hdev39 : ∀ c : Dev nD, (⟨k0_dev39 c, k0_dev39_lt c⟩ : Dev nD) = rail c 3 := fun c => dev39_eq c
  have hdev40 : ∀ c : Dev nD, (⟨k0_dev40 c, k0_dev40_lt c⟩ : Dev nD) = zpeer c 1 := fun c => dev40_eq c
  have hdev41 : ∀ c : Dev nD, (⟨k0_dev41 c, k0_dev41_lt c⟩ : Dev nD) = zpeer c 2 := fun c => dev41_eq c
  have hdev42 : ∀ c : Dev nD, (⟨k0_dev42 c, k0_dev42_lt c⟩ : Dev nD) = zpeer c 3 := fun c => dev42_eq c
  have hdev43 : ∀ c : Dev nD, (⟨k0_dev43 c, k0_dev43_lt c⟩ : Dev nD) = zpeer c 1 := fun c => dev43_eq c
  have hdev44 : ∀ c : Dev nD, (⟨k0_dev44 c, k0_dev44_lt c⟩ : Dev nD) = zpeer c 2 := fun c => dev44_eq c
  have hdev45 : ∀ c : Dev nD, (⟨k0_dev45 c, k0_dev45_lt c⟩ : Dev nD) = zpeer c 3 := fun c => dev45_eq c
  have hdev46 : ∀ c : Dev nD, (⟨k0_dev46 c, k0_dev46_lt c⟩ : Dev nD) = zpeer c 1 := fun c => dev46_eq c
  have hdev47 : ∀ c : Dev nD, (⟨k0_dev47 c, k0_dev47_lt c⟩ : Dev nD) = zpeer c 2 := fun c => dev47_eq c
  have hdev48 : ∀ c : Dev nD, (⟨k0_dev48 c, k0_dev48_lt c⟩ : Dev nD) = zpeer c 3 := fun c => dev48_eq c
  have hdev49 : ∀ c : Dev nD, (⟨k0_dev49 c, k0_dev49_lt c⟩ : Dev nD) = zpeer c 1 := fun c => dev49_eq c
  have hdev50 : ∀ c : Dev nD, (⟨k0_dev50 c, k0_dev50_lt c⟩ : Dev nD) = zpeer c 2 := fun c => dev50_eq c
  have hdev51 : ∀ c : Dev nD, (⟨k0_dev51 c, k0_dev51_lt c⟩ : Dev nD) = zpeer c 3 := fun c => dev51_eq c
  have hdev52 : ∀ c : Dev nD, (⟨k0_dev52 c, k0_dev52_lt c⟩ : Dev nD) = zpeer c 1 := fun c => dev52_eq c
  have hdev53 : ∀ c : Dev nD, (⟨k0_dev53 c, k0_dev53_lt c⟩ : Dev nD) = zpeer c 2 := fun c => dev53_eq c
  have hdev54 : ∀ c : Dev nD, (⟨k0_dev54 c, k0_dev54_lt c⟩ : Dev nD) = zpeer c 3 := fun c => dev54_eq c
  have hdev55 : ∀ c : Dev nD, (⟨k0_dev55 c, k0_dev55_lt c⟩ : Dev nD) = zpeer c 1 := fun c => dev55_eq c
  have hdev56 : ∀ c : Dev nD, (⟨k0_dev56 c, k0_dev56_lt c⟩ : Dev nD) = zpeer c 2 := fun c => dev56_eq c
  have hdev57 : ∀ c : Dev nD, (⟨k0_dev57 c, k0_dev57_lt c⟩ : Dev nD) = zpeer c 3 := fun c => dev57_eq c
  have hdev58 : ∀ c : Dev nD, (⟨k0_dev58 c, k0_dev58_lt c⟩ : Dev nD) = zpeer c 1 := fun c => dev58_eq c
  have hdev59 : ∀ c : Dev nD, (⟨k0_dev59 c, k0_dev59_lt c⟩ : Dev nD) = zpeer c 2 := fun c => dev59_eq c
  have hdev60 : ∀ c : Dev nD, (⟨k0_dev60 c, k0_dev60_lt c⟩ : Dev nD) = zpeer c 3 := fun c => dev60_eq c
  have hdev61 : ∀ c : Dev nD, (⟨k0_dev61 c, k0_dev61_lt c⟩ : Dev nD) = zpeer c 1 := fun c => dev61_eq c
  have hdev62 : ∀ c : Dev nD, (⟨k0_dev62 c, k0_dev62_lt c⟩ : Dev nD) = zpeer c 2 := fun c => dev62_eq c
  have hdev63 : ∀ c : Dev nD, (⟨k0_dev63 c, k0_dev63_lt c⟩ : Dev nD) = zpeer c 3 := fun c => dev63_eq c
  unfold O₀ O1 O2 O3
  sl_unfold [cc0_body]
  set_option sl_exec.stepHeartbeats 400000 in
  set_option sl_exec.respelt true in
  sl_exec_parts
  clear hmwBar
  -- what the barrier wait handed back: the seven peers' grants, opened
  ihave Hg := (Entails.of_eq (bar_payloads0 (F := F) c)) $$ Pbar_pay1
  rw [grant1_eq, grant2_flat, grant2_flat, grant2_flat, grant3_flat, grant3_flat, grant3_flat]
  icases Hg with ⟨⟨⟨%g3p, Y3⟩, #R3_0, #R3_1, #R3_2, #R3_3, #R3_4, #R3_5, #R3_6, #R3_7⟩, ⟨⟨%v6r3_0, Y6r3_0⟩, #R6r3_0, ⟨%v6r3_1, Y6r3_1⟩, #R6r3_1, ⟨%v6r3_2, Y6r3_2⟩, #R6r3_2, ⟨%v6r3_3, Y6r3_3⟩, #R6r3_3, ⟨%v6r3_4, Y6r3_4⟩, #R6r3_4, ⟨%v6r3_5, Y6r3_5⟩, #R6r3_5, ⟨%v6r3_6, Y6r3_6⟩, #R6r3_6, ⟨%v6r3_7, Y6r3_7⟩, #R6r3_7⟩, ⟨⟨%v6r2_0, Y6r2_0⟩, #R6r2_0, ⟨%v6r2_1, Y6r2_1⟩, #R6r2_1, ⟨%v6r2_2, Y6r2_2⟩, #R6r2_2, ⟨%v6r2_3, Y6r2_3⟩, #R6r2_3, ⟨%v6r2_4, Y6r2_4⟩, #R6r2_4, ⟨%v6r2_5, Y6r2_5⟩, #R6r2_5, ⟨%v6r2_6, Y6r2_6⟩, #R6r2_6, ⟨%v6r2_7, Y6r2_7⟩, #R6r2_7⟩, ⟨⟨%v6r1_0, Y6r1_0⟩, #R6r1_0, ⟨%v6r1_1, Y6r1_1⟩, #R6r1_1, ⟨%v6r1_2, Y6r1_2⟩, #R6r1_2, ⟨%v6r1_3, Y6r1_3⟩, #R6r1_3, ⟨%v6r1_4, Y6r1_4⟩, #R6r1_4, ⟨%v6r1_5, Y6r1_5⟩, #R6r1_5, ⟨%v6r1_6, Y6r1_6⟩, #R6r1_6, ⟨%v6r1_7, Y6r1_7⟩, #R6r1_7⟩, ⟨⟨%v8z3_0, Y8z3_0⟩, #R8z3_0, ⟨%v8z3_1, Y8z3_1⟩, #R8z3_1, ⟨%v8z3_2, Y8z3_2⟩, #R8z3_2, ⟨%v8z3_3, Y8z3_3⟩, #R8z3_3, ⟨%v8z3_4, Y8z3_4⟩, #R8z3_4, ⟨%v8z3_5, Y8z3_5⟩, #R8z3_5, ⟨%v8z3_6, Y8z3_6⟩, #R8z3_6, ⟨%v8z3_7, Y8z3_7⟩, #R8z3_7⟩, ⟨⟨%v8z2_0, Y8z2_0⟩, #R8z2_0, ⟨%v8z2_1, Y8z2_1⟩, #R8z2_1, ⟨%v8z2_2, Y8z2_2⟩, #R8z2_2, ⟨%v8z2_3, Y8z2_3⟩, #R8z2_3, ⟨%v8z2_4, Y8z2_4⟩, #R8z2_4, ⟨%v8z2_5, Y8z2_5⟩, #R8z2_5, ⟨%v8z2_6, Y8z2_6⟩, #R8z2_6, ⟨%v8z2_7, Y8z2_7⟩, #R8z2_7⟩, ⟨⟨%v8z1_0, Y8z1_0⟩, #R8z1_0, ⟨%v8z1_1, Y8z1_1⟩, #R8z1_1, ⟨%v8z1_2, Y8z1_2⟩, #R8z1_2, ⟨%v8z1_3, Y8z1_3⟩, #R8z1_3, ⟨%v8z1_4, Y8z1_4⟩, #R8z1_4, ⟨%v8z1_5, Y8z1_5⟩, #R8z1_5, ⟨%v8z1_6, Y8z1_6⟩, #R8z1_6, ⟨%v8z1_7, Y8z1_7⟩, #R8z1_7⟩⟩
  -- the partner's stage-1 receive buffer, slot by slot, in the order the copies go
  ihave Y3s := (Entails.of_eq ((show (((((partner c : Dev nD)) : Thread nD τ).loc cc0_scratch3) ↦{fullShare} g3p : sProp 𝕄) = ((commA1.view.loc (((partner c : Dev nD)) : Thread nD τ)) ↦{fullShare} g3p : sProp 𝕄) from rfl).trans (split1 commA1 commA1_univ (partner c) g3p))) $$ Y3
  simp (config := {proj := false, dsimp := false}) only [eight]
  icases Y3s with ⟨Y3_0, Y3_1, Y3_2, Y3_3, Y3_4, Y3_5, Y3_6, Y3_7⟩
  set_option sl_exec.stepHeartbeats 400000 in
  set_option sl_exec.respelt true in
  sl_exec_parts
  -- chunk 0, stage 2: the wait on its stage-1 landing; only the later stages' arrivals are still owed
  have hmwA1_0 : (levAts L lv : sProp 𝕄) ⊢ MayWait (c : Thread nD τ) (.dma (sem8 cc0_scratch10 0)) () (Oafter c 15) := mayWait_a1r c 0 15 (by decide)
  set_option sl_exec.stepHeartbeats 400000 in
  set_option sl_exec.respelt true in
  sl_exec_parts
  clear hmwA1_0
  ihave X5c0 := (Entails.of_eq (chunk2_by_step sendA2 (yc c) 0 c _)) $$ C5_0
  icases X5c0 with ⟨X5_0_1, X5_0_2, X5_0_3, X5_0_0⟩
  set_option sl_exec.stepHeartbeats 400000 in
  set_option sl_exec.respelt true in
  sl_exec_parts
  -- chunk 1, stage 2: the wait on its stage-1 landing; only the later stages' arrivals are still owed
  have hmwA1_1 : (levAts L lv : sProp 𝕄) ⊢ MayWait (c : Thread nD τ) (.dma (sem8 cc0_scratch10 1)) () (Oafter c 18) := mayWait_a1r c 1 18 (by decide)
  set_option sl_exec.stepHeartbeats 400000 in
  set_option sl_exec.respelt true in
  sl_exec_parts
  clear hmwA1_1
  ihave X5c1 := (Entails.of_eq (chunk2_by_step sendA2 (yc c) 1 c _)) $$ C5_1
  icases X5c1 with ⟨X5_1_1, X5_1_2, X5_1_3, X5_1_0⟩
  set_option sl_exec.stepHeartbeats 400000 in
  set_option sl_exec.respelt true in
  sl_exec_parts
  -- chunk 2, stage 2: the wait on its stage-1 landing; only the later stages' arrivals are still owed
  have hmwA1_2 : (levAts L lv : sProp 𝕄) ⊢ MayWait (c : Thread nD τ) (.dma (sem8 cc0_scratch10 2)) () (Oafter c 21) := mayWait_a1r c 2 21 (by decide)
  set_option sl_exec.stepHeartbeats 400000 in
  set_option sl_exec.respelt true in
  sl_exec_parts
  clear hmwA1_2
  ihave X5c2 := (Entails.of_eq (chunk2_by_step sendA2 (yc c) 2 c _)) $$ C5_2
  icases X5c2 with ⟨X5_2_1, X5_2_2, X5_2_3, X5_2_0⟩
  set_option sl_exec.stepHeartbeats 400000 in
  set_option sl_exec.respelt true in
  sl_exec_parts
  -- chunk 3, stage 2: the wait on its stage-1 landing; only the later stages' arrivals are still owed
  have hmwA1_3 : (levAts L lv : sProp 𝕄) ⊢ MayWait (c : Thread nD τ) (.dma (sem8 cc0_scratch10 3)) () (Oafter c 24) := mayWait_a1r c 3 24 (by decide)
  set_option sl_exec.stepHeartbeats 400000 in
  set_option sl_exec.respelt true in
  sl_exec_parts
  clear hmwA1_3
  ihave X5c3 := (Entails.of_eq (chunk2_by_step sendA2 (yc c) 3 c _)) $$ C5_3
  icases X5c3 with ⟨X5_3_1, X5_3_2, X5_3_3, X5_3_0⟩
  set_option sl_exec.stepHeartbeats 400000 in
  set_option sl_exec.respelt true in
  sl_exec_parts
  -- chunk 4, stage 2: the wait on its stage-1 landing; only the later stages' arrivals are still owed
  have hmwA1_4 : (levAts L lv : sProp 𝕄) ⊢ MayWait (c : Thread nD τ) (.dma (sem8 cc0_scratch10 4)) () (Oafter c 27) := mayWait_a1r c 4 27 (by decide)
  set_option sl_exec.stepHeartbeats 400000 in
  set_option sl_exec.respelt true in
  sl_exec_parts
  clear hmwA1_4
  ihave X5c4 := (Entails.of_eq (chunk2_by_step sendA2 (yc c) 4 c _)) $$ C5_4
  icases X5c4 with ⟨X5_4_1, X5_4_2, X5_4_3, X5_4_0⟩
  set_option sl_exec.stepHeartbeats 400000 in
  set_option sl_exec.respelt true in
  sl_exec_parts
  -- chunk 5, stage 2: the wait on its stage-1 landing; only the later stages' arrivals are still owed
  have hmwA1_5 : (levAts L lv : sProp 𝕄) ⊢ MayWait (c : Thread nD τ) (.dma (sem8 cc0_scratch10 5)) () (Oafter c 30) := mayWait_a1r c 5 30 (by decide)
  set_option sl_exec.stepHeartbeats 400000 in
  set_option sl_exec.respelt true in
  sl_exec_parts
  clear hmwA1_5
  ihave X5c5 := (Entails.of_eq (chunk2_by_step sendA2 (yc c) 5 c _)) $$ C5_5
  icases X5c5 with ⟨X5_5_1, X5_5_2, X5_5_3, X5_5_0⟩
  set_option sl_exec.stepHeartbeats 400000 in
  set_option sl_exec.respelt true in
  sl_exec_parts
  -- chunk 6, stage 2: the wait on its stage-1 landing; only the later stages' arrivals are still owed
  have hmwA1_6 : (levAts L lv : sProp 𝕄) ⊢ MayWait (c : Thread nD τ) (.dma (sem8 cc0_scratch10 6)) () (Oafter c 33) := mayWait_a1r c 6 33 (by decide)
  set_option sl_exec.stepHeartbeats 400000 in
  set_option sl_exec.respelt true in
  sl_exec_parts
  clear hmwA1_6
  ihave X5c6 := (Entails.of_eq (chunk2_by_step sendA2 (yc c) 6 c _)) $$ C5_6
  icases X5c6 with ⟨X5_6_1, X5_6_2, X5_6_3, X5_6_0⟩
  set_option sl_exec.stepHeartbeats 400000 in
  set_option sl_exec.respelt true in
  sl_exec_parts
  -- chunk 7, stage 2: the wait on its stage-1 landing; only the later stages' arrivals are still owed
  have hmwA1_7 : (levAts L lv : sProp 𝕄) ⊢ MayWait (c : Thread nD τ) (.dma (sem8 cc0_scratch10 7)) () (Oafter c 36) := mayWait_a1r c 7 36 (by decide)
  set_option sl_exec.stepHeartbeats 400000 in
  set_option sl_exec.respelt true in
  sl_exec_parts
  clear hmwA1_7
  ihave X5c7 := (Entails.of_eq (chunk2_by_step sendA2 (yc c) 7 c _)) $$ C5_7
  icases X5c7 with ⟨X5_7_1, X5_7_2, X5_7_3, X5_7_0⟩
  set_option sl_exec.stepHeartbeats 400000 in
  set_option sl_exec.respelt true in
  sl_exec_parts
  -- chunk 0, stage 3: the three waits on its stage-2 landings; only stage-3 arrivals are still owed
  have hmwA2_0_3 : (levAts L lv : sProp 𝕄) ⊢ MayWait (c : Thread nD τ) (.dma (sem32 cc0_scratch12 (slot (yc c) 0 3))) () (Oafter c 39) := mayWait_a2r c _ 39 (by decide)
  have hmwA2_0_2 : (levAts L lv : sProp 𝕄) ⊢ MayWait (c : Thread nD τ) (.dma (sem32 cc0_scratch12 (slot (yc c) 0 2))) () (Oafter c 39) := mayWait_a2r c _ 39 (by decide)
  have hmwA2_0_1 : (levAts L lv : sProp 𝕄) ⊢ MayWait (c : Thread nD τ) (.dma (sem32 cc0_scratch12 (slot (yc c) 0 1))) () (Oafter c 39) := mayWait_a2r c _ 39 (by decide)
  set_option sl_exec.stepHeartbeats 400000 in
  set_option sl_exec.respelt true in
  sl_exec_parts
  clear hmwA2_0_3 hmwA2_0_2 hmwA2_0_1
  ihave X7c0 := (Entails.of_eq (chunk3_by_step sendB (zc c) 0 c _)) $$ C7_0
  icases X7c0 with ⟨X7_0_1, X7_0_2, X7_0_3, X7_0_0⟩
  set_option sl_exec.stepHeartbeats 400000 in
  set_option sl_exec.respelt true in
  sl_exec_parts
  -- chunk 1, stage 3: the three waits on its stage-2 landings; only stage-3 arrivals are still owed
  have hmwA2_1_3 : (levAts L lv : sProp 𝕄) ⊢ MayWait (c : Thread nD τ) (.dma (sem32 cc0_scratch12 (slot (yc c) 1 3))) () (Oafter c 42) := mayWait_a2r c _ 42 (by decide)
  have hmwA2_1_2 : (levAts L lv : sProp 𝕄) ⊢ MayWait (c : Thread nD τ) (.dma (sem32 cc0_scratch12 (slot (yc c) 1 2))) () (Oafter c 42) := mayWait_a2r c _ 42 (by decide)
  have hmwA2_1_1 : (levAts L lv : sProp 𝕄) ⊢ MayWait (c : Thread nD τ) (.dma (sem32 cc0_scratch12 (slot (yc c) 1 1))) () (Oafter c 42) := mayWait_a2r c _ 42 (by decide)
  set_option sl_exec.stepHeartbeats 400000 in
  set_option sl_exec.respelt true in
  sl_exec_parts
  clear hmwA2_1_3 hmwA2_1_2 hmwA2_1_1
  ihave X7c1 := (Entails.of_eq (chunk3_by_step sendB (zc c) 1 c _)) $$ C7_1
  icases X7c1 with ⟨X7_1_1, X7_1_2, X7_1_3, X7_1_0⟩
  set_option sl_exec.stepHeartbeats 400000 in
  set_option sl_exec.respelt true in
  sl_exec_parts
  -- chunk 2, stage 3: the three waits on its stage-2 landings; only stage-3 arrivals are still owed
  have hmwA2_2_3 : (levAts L lv : sProp 𝕄) ⊢ MayWait (c : Thread nD τ) (.dma (sem32 cc0_scratch12 (slot (yc c) 2 3))) () (Oafter c 45) := mayWait_a2r c _ 45 (by decide)
  have hmwA2_2_2 : (levAts L lv : sProp 𝕄) ⊢ MayWait (c : Thread nD τ) (.dma (sem32 cc0_scratch12 (slot (yc c) 2 2))) () (Oafter c 45) := mayWait_a2r c _ 45 (by decide)
  have hmwA2_2_1 : (levAts L lv : sProp 𝕄) ⊢ MayWait (c : Thread nD τ) (.dma (sem32 cc0_scratch12 (slot (yc c) 2 1))) () (Oafter c 45) := mayWait_a2r c _ 45 (by decide)
  set_option sl_exec.stepHeartbeats 400000 in
  set_option sl_exec.respelt true in
  sl_exec_parts
  clear hmwA2_2_3 hmwA2_2_2 hmwA2_2_1
  ihave X7c2 := (Entails.of_eq (chunk3_by_step sendB (zc c) 2 c _)) $$ C7_2
  icases X7c2 with ⟨X7_2_1, X7_2_2, X7_2_3, X7_2_0⟩
  set_option sl_exec.stepHeartbeats 400000 in
  set_option sl_exec.respelt true in
  sl_exec_parts
  -- chunk 3, stage 3: the three waits on its stage-2 landings; only stage-3 arrivals are still owed
  have hmwA2_3_3 : (levAts L lv : sProp 𝕄) ⊢ MayWait (c : Thread nD τ) (.dma (sem32 cc0_scratch12 (slot (yc c) 3 3))) () (Oafter c 48) := mayWait_a2r c _ 48 (by decide)
  have hmwA2_3_2 : (levAts L lv : sProp 𝕄) ⊢ MayWait (c : Thread nD τ) (.dma (sem32 cc0_scratch12 (slot (yc c) 3 2))) () (Oafter c 48) := mayWait_a2r c _ 48 (by decide)
  have hmwA2_3_1 : (levAts L lv : sProp 𝕄) ⊢ MayWait (c : Thread nD τ) (.dma (sem32 cc0_scratch12 (slot (yc c) 3 1))) () (Oafter c 48) := mayWait_a2r c _ 48 (by decide)
  set_option sl_exec.stepHeartbeats 400000 in
  set_option sl_exec.respelt true in
  sl_exec_parts
  clear hmwA2_3_3 hmwA2_3_2 hmwA2_3_1
  ihave X7c3 := (Entails.of_eq (chunk3_by_step sendB (zc c) 3 c _)) $$ C7_3
  icases X7c3 with ⟨X7_3_1, X7_3_2, X7_3_3, X7_3_0⟩
  set_option sl_exec.stepHeartbeats 400000 in
  set_option sl_exec.respelt true in
  sl_exec_parts
  -- chunk 4, stage 3: the three waits on its stage-2 landings; only stage-3 arrivals are still owed
  have hmwA2_4_3 : (levAts L lv : sProp 𝕄) ⊢ MayWait (c : Thread nD τ) (.dma (sem32 cc0_scratch12 (slot (yc c) 4 3))) () (Oafter c 51) := mayWait_a2r c _ 51 (by decide)
  have hmwA2_4_2 : (levAts L lv : sProp 𝕄) ⊢ MayWait (c : Thread nD τ) (.dma (sem32 cc0_scratch12 (slot (yc c) 4 2))) () (Oafter c 51) := mayWait_a2r c _ 51 (by decide)
  have hmwA2_4_1 : (levAts L lv : sProp 𝕄) ⊢ MayWait (c : Thread nD τ) (.dma (sem32 cc0_scratch12 (slot (yc c) 4 1))) () (Oafter c 51) := mayWait_a2r c _ 51 (by decide)
  set_option sl_exec.stepHeartbeats 400000 in
  set_option sl_exec.respelt true in
  sl_exec_parts
  clear hmwA2_4_3 hmwA2_4_2 hmwA2_4_1
  ihave X7c4 := (Entails.of_eq (chunk3_by_step sendB (zc c) 4 c _)) $$ C7_4
  icases X7c4 with ⟨X7_4_1, X7_4_2, X7_4_3, X7_4_0⟩
  set_option sl_exec.stepHeartbeats 400000 in
  set_option sl_exec.respelt true in
  sl_exec_parts
  -- chunk 5, stage 3: the three waits on its stage-2 landings; only stage-3 arrivals are still owed
  have hmwA2_5_3 : (levAts L lv : sProp 𝕄) ⊢ MayWait (c : Thread nD τ) (.dma (sem32 cc0_scratch12 (slot (yc c) 5 3))) () (Oafter c 54) := mayWait_a2r c _ 54 (by decide)
  have hmwA2_5_2 : (levAts L lv : sProp 𝕄) ⊢ MayWait (c : Thread nD τ) (.dma (sem32 cc0_scratch12 (slot (yc c) 5 2))) () (Oafter c 54) := mayWait_a2r c _ 54 (by decide)
  have hmwA2_5_1 : (levAts L lv : sProp 𝕄) ⊢ MayWait (c : Thread nD τ) (.dma (sem32 cc0_scratch12 (slot (yc c) 5 1))) () (Oafter c 54) := mayWait_a2r c _ 54 (by decide)
  set_option sl_exec.stepHeartbeats 400000 in
  set_option sl_exec.respelt true in
  sl_exec_parts
  clear hmwA2_5_3 hmwA2_5_2 hmwA2_5_1
  ihave X7c5 := (Entails.of_eq (chunk3_by_step sendB (zc c) 5 c _)) $$ C7_5
  icases X7c5 with ⟨X7_5_1, X7_5_2, X7_5_3, X7_5_0⟩
  set_option sl_exec.stepHeartbeats 400000 in
  set_option sl_exec.respelt true in
  sl_exec_parts
  -- chunk 6, stage 3: the three waits on its stage-2 landings; only stage-3 arrivals are still owed
  have hmwA2_6_3 : (levAts L lv : sProp 𝕄) ⊢ MayWait (c : Thread nD τ) (.dma (sem32 cc0_scratch12 (slot (yc c) 6 3))) () (Oafter c 57) := mayWait_a2r c _ 57 (by decide)
  have hmwA2_6_2 : (levAts L lv : sProp 𝕄) ⊢ MayWait (c : Thread nD τ) (.dma (sem32 cc0_scratch12 (slot (yc c) 6 2))) () (Oafter c 57) := mayWait_a2r c _ 57 (by decide)
  have hmwA2_6_1 : (levAts L lv : sProp 𝕄) ⊢ MayWait (c : Thread nD τ) (.dma (sem32 cc0_scratch12 (slot (yc c) 6 1))) () (Oafter c 57) := mayWait_a2r c _ 57 (by decide)
  set_option sl_exec.stepHeartbeats 400000 in
  set_option sl_exec.respelt true in
  sl_exec_parts
  clear hmwA2_6_3 hmwA2_6_2 hmwA2_6_1
  ihave X7c6 := (Entails.of_eq (chunk3_by_step sendB (zc c) 6 c _)) $$ C7_6
  icases X7c6 with ⟨X7_6_1, X7_6_2, X7_6_3, X7_6_0⟩
  set_option sl_exec.stepHeartbeats 400000 in
  set_option sl_exec.respelt true in
  sl_exec_parts
  -- chunk 7, stage 3: the three waits on its stage-2 landings; only stage-3 arrivals are still owed
  have hmwA2_7_3 : (levAts L lv : sProp 𝕄) ⊢ MayWait (c : Thread nD τ) (.dma (sem32 cc0_scratch12 (slot (yc c) 7 3))) () (Oafter c 60) := mayWait_a2r c _ 60 (by decide)
  have hmwA2_7_2 : (levAts L lv : sProp 𝕄) ⊢ MayWait (c : Thread nD τ) (.dma (sem32 cc0_scratch12 (slot (yc c) 7 2))) () (Oafter c 60) := mayWait_a2r c _ 60 (by decide)
  have hmwA2_7_1 : (levAts L lv : sProp 𝕄) ⊢ MayWait (c : Thread nD τ) (.dma (sem32 cc0_scratch12 (slot (yc c) 7 1))) () (Oafter c 60) := mayWait_a2r c _ 60 (by decide)
  set_option sl_exec.stepHeartbeats 400000 in
  set_option sl_exec.respelt true in
  sl_exec_parts
  clear hmwA2_7_3 hmwA2_7_2 hmwA2_7_1
  ihave X7c7 := (Entails.of_eq (chunk3_by_step sendB (zc c) 7 c _)) $$ C7_7
  icases X7c7 with ⟨X7_7_1, X7_7_2, X7_7_3, X7_7_0⟩
  set_option sl_exec.stepHeartbeats 400000 in
  set_option sl_exec.respelt true in
  sl_exec_parts
  -- nothing is owed any more: the stage-3 landings and the 56 departures may be waited for
  have hmwBr_0_3 : (levAts L lv : sProp 𝕄) ⊢ MayWait (c : Thread nD τ) (.dma (sem32 cc0_scratch14 (slot (zc c) 0 3))) () 0 := mayWait_none c _
  have hmwBr_0_2 : (levAts L lv : sProp 𝕄) ⊢ MayWait (c : Thread nD τ) (.dma (sem32 cc0_scratch14 (slot (zc c) 0 2))) () 0 := mayWait_none c _
  have hmwBr_0_1 : (levAts L lv : sProp 𝕄) ⊢ MayWait (c : Thread nD τ) (.dma (sem32 cc0_scratch14 (slot (zc c) 0 1))) () 0 := mayWait_none c _
  have hmwBr_1_3 : (levAts L lv : sProp 𝕄) ⊢ MayWait (c : Thread nD τ) (.dma (sem32 cc0_scratch14 (slot (zc c) 1 3))) () 0 := mayWait_none c _
  have hmwBr_1_2 : (levAts L lv : sProp 𝕄) ⊢ MayWait (c : Thread nD τ) (.dma (sem32 cc0_scratch14 (slot (zc c) 1 2))) () 0 := mayWait_none c _
  have hmwBr_1_1 : (levAts L lv : sProp 𝕄) ⊢ MayWait (c : Thread nD τ) (.dma (sem32 cc0_scratch14 (slot (zc c) 1 1))) () 0 := mayWait_none c _
  have hmwBr_2_3 : (levAts L lv : sProp 𝕄) ⊢ MayWait (c : Thread nD τ) (.dma (sem32 cc0_scratch14 (slot (zc c) 2 3))) () 0 := mayWait_none c _
  have hmwBr_2_2 : (levAts L lv : sProp 𝕄) ⊢ MayWait (c : Thread nD τ) (.dma (sem32 cc0_scratch14 (slot (zc c) 2 2))) () 0 := mayWait_none c _
  have hmwBr_2_1 : (levAts L lv : sProp 𝕄) ⊢ MayWait (c : Thread nD τ) (.dma (sem32 cc0_scratch14 (slot (zc c) 2 1))) () 0 := mayWait_none c _
  have hmwBr_3_3 : (levAts L lv : sProp 𝕄) ⊢ MayWait (c : Thread nD τ) (.dma (sem32 cc0_scratch14 (slot (zc c) 3 3))) () 0 := mayWait_none c _
  have hmwBr_3_2 : (levAts L lv : sProp 𝕄) ⊢ MayWait (c : Thread nD τ) (.dma (sem32 cc0_scratch14 (slot (zc c) 3 2))) () 0 := mayWait_none c _
  have hmwBr_3_1 : (levAts L lv : sProp 𝕄) ⊢ MayWait (c : Thread nD τ) (.dma (sem32 cc0_scratch14 (slot (zc c) 3 1))) () 0 := mayWait_none c _
  have hmwBr_4_3 : (levAts L lv : sProp 𝕄) ⊢ MayWait (c : Thread nD τ) (.dma (sem32 cc0_scratch14 (slot (zc c) 4 3))) () 0 := mayWait_none c _
  have hmwBr_4_2 : (levAts L lv : sProp 𝕄) ⊢ MayWait (c : Thread nD τ) (.dma (sem32 cc0_scratch14 (slot (zc c) 4 2))) () 0 := mayWait_none c _
  have hmwBr_4_1 : (levAts L lv : sProp 𝕄) ⊢ MayWait (c : Thread nD τ) (.dma (sem32 cc0_scratch14 (slot (zc c) 4 1))) () 0 := mayWait_none c _
  have hmwBr_5_3 : (levAts L lv : sProp 𝕄) ⊢ MayWait (c : Thread nD τ) (.dma (sem32 cc0_scratch14 (slot (zc c) 5 3))) () 0 := mayWait_none c _
  have hmwBr_5_2 : (levAts L lv : sProp 𝕄) ⊢ MayWait (c : Thread nD τ) (.dma (sem32 cc0_scratch14 (slot (zc c) 5 2))) () 0 := mayWait_none c _
  have hmwBr_5_1 : (levAts L lv : sProp 𝕄) ⊢ MayWait (c : Thread nD τ) (.dma (sem32 cc0_scratch14 (slot (zc c) 5 1))) () 0 := mayWait_none c _
  have hmwBr_6_3 : (levAts L lv : sProp 𝕄) ⊢ MayWait (c : Thread nD τ) (.dma (sem32 cc0_scratch14 (slot (zc c) 6 3))) () 0 := mayWait_none c _
  have hmwBr_6_2 : (levAts L lv : sProp 𝕄) ⊢ MayWait (c : Thread nD τ) (.dma (sem32 cc0_scratch14 (slot (zc c) 6 2))) () 0 := mayWait_none c _
  have hmwBr_6_1 : (levAts L lv : sProp 𝕄) ⊢ MayWait (c : Thread nD τ) (.dma (sem32 cc0_scratch14 (slot (zc c) 6 1))) () 0 := mayWait_none c _
  have hmwBr_7_3 : (levAts L lv : sProp 𝕄) ⊢ MayWait (c : Thread nD τ) (.dma (sem32 cc0_scratch14 (slot (zc c) 7 3))) () 0 := mayWait_none c _
  have hmwBr_7_2 : (levAts L lv : sProp 𝕄) ⊢ MayWait (c : Thread nD τ) (.dma (sem32 cc0_scratch14 (slot (zc c) 7 2))) () 0 := mayWait_none c _
  have hmwBr_7_1 : (levAts L lv : sProp 𝕄) ⊢ MayWait (c : Thread nD τ) (.dma (sem32 cc0_scratch14 (slot (zc c) 7 1))) () 0 := mayWait_none c _
  have hmwS1_0 : (levAts L lv : sProp 𝕄) ⊢ MayWait (c : Thread nD τ) (.dma (sem8 cc0_scratch9 0)) () 0 := mayWait_none c _
  have hmwS1_1 : (levAts L lv : sProp 𝕄) ⊢ MayWait (c : Thread nD τ) (.dma (sem8 cc0_scratch9 1)) () 0 := mayWait_none c _
  have hmwS1_2 : (levAts L lv : sProp 𝕄) ⊢ MayWait (c : Thread nD τ) (.dma (sem8 cc0_scratch9 2)) () 0 := mayWait_none c _
  have hmwS1_3 : (levAts L lv : sProp 𝕄) ⊢ MayWait (c : Thread nD τ) (.dma (sem8 cc0_scratch9 3)) () 0 := mayWait_none c _
  have hmwS1_4 : (levAts L lv : sProp 𝕄) ⊢ MayWait (c : Thread nD τ) (.dma (sem8 cc0_scratch9 4)) () 0 := mayWait_none c _
  have hmwS1_5 : (levAts L lv : sProp 𝕄) ⊢ MayWait (c : Thread nD τ) (.dma (sem8 cc0_scratch9 5)) () 0 := mayWait_none c _
  have hmwS1_6 : (levAts L lv : sProp 𝕄) ⊢ MayWait (c : Thread nD τ) (.dma (sem8 cc0_scratch9 6)) () 0 := mayWait_none c _
  have hmwS1_7 : (levAts L lv : sProp 𝕄) ⊢ MayWait (c : Thread nD τ) (.dma (sem8 cc0_scratch9 7)) () 0 := mayWait_none c _
  have hmwS2_0_1 : (levAts L lv : sProp 𝕄) ⊢ MayWait (c : Thread nD τ) (.dma (sem32 cc0_scratch11 (slot (yc c) 0 1))) () 0 := mayWait_none c _
  have hmwS2_0_2 : (levAts L lv : sProp 𝕄) ⊢ MayWait (c : Thread nD τ) (.dma (sem32 cc0_scratch11 (slot (yc c) 0 2))) () 0 := mayWait_none c _
  have hmwS2_0_3 : (levAts L lv : sProp 𝕄) ⊢ MayWait (c : Thread nD τ) (.dma (sem32 cc0_scratch11 (slot (yc c) 0 3))) () 0 := mayWait_none c _
  have hmwS2_1_1 : (levAts L lv : sProp 𝕄) ⊢ MayWait (c : Thread nD τ) (.dma (sem32 cc0_scratch11 (slot (yc c) 1 1))) () 0 := mayWait_none c _
  have hmwS2_1_2 : (levAts L lv : sProp 𝕄) ⊢ MayWait (c : Thread nD τ) (.dma (sem32 cc0_scratch11 (slot (yc c) 1 2))) () 0 := mayWait_none c _
  have hmwS2_1_3 : (levAts L lv : sProp 𝕄) ⊢ MayWait (c : Thread nD τ) (.dma (sem32 cc0_scratch11 (slot (yc c) 1 3))) () 0 := mayWait_none c _
  have hmwS2_2_1 : (levAts L lv : sProp 𝕄) ⊢ MayWait (c : Thread nD τ) (.dma (sem32 cc0_scratch11 (slot (yc c) 2 1))) () 0 := mayWait_none c _
  have hmwS2_2_2 : (levAts L lv : sProp 𝕄) ⊢ MayWait (c : Thread nD τ) (.dma (sem32 cc0_scratch11 (slot (yc c) 2 2))) () 0 := mayWait_none c _
  have hmwS2_2_3 : (levAts L lv : sProp 𝕄) ⊢ MayWait (c : Thread nD τ) (.dma (sem32 cc0_scratch11 (slot (yc c) 2 3))) () 0 := mayWait_none c _
  have hmwS2_3_1 : (levAts L lv : sProp 𝕄) ⊢ MayWait (c : Thread nD τ) (.dma (sem32 cc0_scratch11 (slot (yc c) 3 1))) () 0 := mayWait_none c _
  have hmwS2_3_2 : (levAts L lv : sProp 𝕄) ⊢ MayWait (c : Thread nD τ) (.dma (sem32 cc0_scratch11 (slot (yc c) 3 2))) () 0 := mayWait_none c _
  have hmwS2_3_3 : (levAts L lv : sProp 𝕄) ⊢ MayWait (c : Thread nD τ) (.dma (sem32 cc0_scratch11 (slot (yc c) 3 3))) () 0 := mayWait_none c _
  have hmwS2_4_1 : (levAts L lv : sProp 𝕄) ⊢ MayWait (c : Thread nD τ) (.dma (sem32 cc0_scratch11 (slot (yc c) 4 1))) () 0 := mayWait_none c _
  have hmwS2_4_2 : (levAts L lv : sProp 𝕄) ⊢ MayWait (c : Thread nD τ) (.dma (sem32 cc0_scratch11 (slot (yc c) 4 2))) () 0 := mayWait_none c _
  have hmwS2_4_3 : (levAts L lv : sProp 𝕄) ⊢ MayWait (c : Thread nD τ) (.dma (sem32 cc0_scratch11 (slot (yc c) 4 3))) () 0 := mayWait_none c _
  have hmwS2_5_1 : (levAts L lv : sProp 𝕄) ⊢ MayWait (c : Thread nD τ) (.dma (sem32 cc0_scratch11 (slot (yc c) 5 1))) () 0 := mayWait_none c _
  have hmwS2_5_2 : (levAts L lv : sProp 𝕄) ⊢ MayWait (c : Thread nD τ) (.dma (sem32 cc0_scratch11 (slot (yc c) 5 2))) () 0 := mayWait_none c _
  have hmwS2_5_3 : (levAts L lv : sProp 𝕄) ⊢ MayWait (c : Thread nD τ) (.dma (sem32 cc0_scratch11 (slot (yc c) 5 3))) () 0 := mayWait_none c _
  have hmwS2_6_1 : (levAts L lv : sProp 𝕄) ⊢ MayWait (c : Thread nD τ) (.dma (sem32 cc0_scratch11 (slot (yc c) 6 1))) () 0 := mayWait_none c _
  have hmwS2_6_2 : (levAts L lv : sProp 𝕄) ⊢ MayWait (c : Thread nD τ) (.dma (sem32 cc0_scratch11 (slot (yc c) 6 2))) () 0 := mayWait_none c _
  have hmwS2_6_3 : (levAts L lv : sProp 𝕄) ⊢ MayWait (c : Thread nD τ) (.dma (sem32 cc0_scratch11 (slot (yc c) 6 3))) () 0 := mayWait_none c _
  have hmwS2_7_1 : (levAts L lv : sProp 𝕄) ⊢ MayWait (c : Thread nD τ) (.dma (sem32 cc0_scratch11 (slot (yc c) 7 1))) () 0 := mayWait_none c _
  have hmwS2_7_2 : (levAts L lv : sProp 𝕄) ⊢ MayWait (c : Thread nD τ) (.dma (sem32 cc0_scratch11 (slot (yc c) 7 2))) () 0 := mayWait_none c _
  have hmwS2_7_3 : (levAts L lv : sProp 𝕄) ⊢ MayWait (c : Thread nD τ) (.dma (sem32 cc0_scratch11 (slot (yc c) 7 3))) () 0 := mayWait_none c _
  have hmwS3_0_1 : (levAts L lv : sProp 𝕄) ⊢ MayWait (c : Thread nD τ) (.dma (sem32 cc0_scratch13 (slot (zc c) 0 1))) () 0 := mayWait_none c _
  have hmwS3_0_2 : (levAts L lv : sProp 𝕄) ⊢ MayWait (c : Thread nD τ) (.dma (sem32 cc0_scratch13 (slot (zc c) 0 2))) () 0 := mayWait_none c _
  have hmwS3_0_3 : (levAts L lv : sProp 𝕄) ⊢ MayWait (c : Thread nD τ) (.dma (sem32 cc0_scratch13 (slot (zc c) 0 3))) () 0 := mayWait_none c _
  have hmwS3_1_1 : (levAts L lv : sProp 𝕄) ⊢ MayWait (c : Thread nD τ) (.dma (sem32 cc0_scratch13 (slot (zc c) 1 1))) () 0 := mayWait_none c _
  have hmwS3_1_2 : (levAts L lv : sProp 𝕄) ⊢ MayWait (c : Thread nD τ) (.dma (sem32 cc0_scratch13 (slot (zc c) 1 2))) () 0 := mayWait_none c _
  have hmwS3_1_3 : (levAts L lv : sProp 𝕄) ⊢ MayWait (c : Thread nD τ) (.dma (sem32 cc0_scratch13 (slot (zc c) 1 3))) () 0 := mayWait_none c _
  have hmwS3_2_1 : (levAts L lv : sProp 𝕄) ⊢ MayWait (c : Thread nD τ) (.dma (sem32 cc0_scratch13 (slot (zc c) 2 1))) () 0 := mayWait_none c _
  have hmwS3_2_2 : (levAts L lv : sProp 𝕄) ⊢ MayWait (c : Thread nD τ) (.dma (sem32 cc0_scratch13 (slot (zc c) 2 2))) () 0 := mayWait_none c _
  have hmwS3_2_3 : (levAts L lv : sProp 𝕄) ⊢ MayWait (c : Thread nD τ) (.dma (sem32 cc0_scratch13 (slot (zc c) 2 3))) () 0 := mayWait_none c _
  have hmwS3_3_1 : (levAts L lv : sProp 𝕄) ⊢ MayWait (c : Thread nD τ) (.dma (sem32 cc0_scratch13 (slot (zc c) 3 1))) () 0 := mayWait_none c _
  have hmwS3_3_2 : (levAts L lv : sProp 𝕄) ⊢ MayWait (c : Thread nD τ) (.dma (sem32 cc0_scratch13 (slot (zc c) 3 2))) () 0 := mayWait_none c _
  have hmwS3_3_3 : (levAts L lv : sProp 𝕄) ⊢ MayWait (c : Thread nD τ) (.dma (sem32 cc0_scratch13 (slot (zc c) 3 3))) () 0 := mayWait_none c _
  have hmwS3_4_1 : (levAts L lv : sProp 𝕄) ⊢ MayWait (c : Thread nD τ) (.dma (sem32 cc0_scratch13 (slot (zc c) 4 1))) () 0 := mayWait_none c _
  have hmwS3_4_2 : (levAts L lv : sProp 𝕄) ⊢ MayWait (c : Thread nD τ) (.dma (sem32 cc0_scratch13 (slot (zc c) 4 2))) () 0 := mayWait_none c _
  have hmwS3_4_3 : (levAts L lv : sProp 𝕄) ⊢ MayWait (c : Thread nD τ) (.dma (sem32 cc0_scratch13 (slot (zc c) 4 3))) () 0 := mayWait_none c _
  have hmwS3_5_1 : (levAts L lv : sProp 𝕄) ⊢ MayWait (c : Thread nD τ) (.dma (sem32 cc0_scratch13 (slot (zc c) 5 1))) () 0 := mayWait_none c _
  have hmwS3_5_2 : (levAts L lv : sProp 𝕄) ⊢ MayWait (c : Thread nD τ) (.dma (sem32 cc0_scratch13 (slot (zc c) 5 2))) () 0 := mayWait_none c _
  have hmwS3_5_3 : (levAts L lv : sProp 𝕄) ⊢ MayWait (c : Thread nD τ) (.dma (sem32 cc0_scratch13 (slot (zc c) 5 3))) () 0 := mayWait_none c _
  have hmwS3_6_1 : (levAts L lv : sProp 𝕄) ⊢ MayWait (c : Thread nD τ) (.dma (sem32 cc0_scratch13 (slot (zc c) 6 1))) () 0 := mayWait_none c _
  have hmwS3_6_2 : (levAts L lv : sProp 𝕄) ⊢ MayWait (c : Thread nD τ) (.dma (sem32 cc0_scratch13 (slot (zc c) 6 2))) () 0 := mayWait_none c _
  have hmwS3_6_3 : (levAts L lv : sProp 𝕄) ⊢ MayWait (c : Thread nD τ) (.dma (sem32 cc0_scratch13 (slot (zc c) 6 3))) () 0 := mayWait_none c _
  have hmwS3_7_1 : (levAts L lv : sProp 𝕄) ⊢ MayWait (c : Thread nD τ) (.dma (sem32 cc0_scratch13 (slot (zc c) 7 1))) () 0 := mayWait_none c _
  have hmwS3_7_2 : (levAts L lv : sProp 𝕄) ⊢ MayWait (c : Thread nD τ) (.dma (sem32 cc0_scratch13 (slot (zc c) 7 2))) () 0 := mayWait_none c _
  have hmwS3_7_3 : (levAts L lv : sProp 𝕄) ⊢ MayWait (c : Thread nD τ) (.dma (sem32 cc0_scratch13 (slot (zc c) 7 3))) () 0 := mayWait_none c _
  set_option sl_exec.stepHeartbeats 400000 in
  set_option sl_exec.respelt true in
  sl_exec_parts
  -- the end: every own cell closed, every buffer put back together
  iapply (BodyClose2.close m K c Kt)
  isplitr [Hk]
  · unfold BodyEnd.endState BodyEnd.endOwes BodyEnd.endStgA BodyEnd.endStgB BodyEnd.endStgR BodyEnd.endAb BodyEnd.endBb BodyEnd.endSendA1 BodyEnd.endCommA1 BodyEnd.endOwnA BodyEnd.endSendA2 BodyEnd.endCommA2 BodyEnd.endSendB BodyEnd.endCommB BodyEnd.slots1 BodyEnd.slots2 BodyEnd.slots3 BodyClose.positionsEnd Ghost.ownInvs
    simp (config := {proj := false, dsimp := false}) only [Ghost.three, Ghost.four, Ghost.eight]
    sl_close
  · iexact Hk

end Cert.Kernel.Body

end
-- ==== Proof.BodyLocal.lean ====
/-
  What the local prefix of the body leaves in the two cast copies, as functions of the staged blocks and
  of the device.

  The copy of the B block is the B block rounded elementwise to bf16. The copy of the A block is made of 32
  row blocks of 32 rows: row block j holds, rounded elementwise to bf16, the 32 rows of the A block that start
  at the printed offset of block j (the first 16 blocks through the first offset function, the last 16
  through the second), so that the rows are gathered by destination device. Each copy is written by stores
  whose rectangles tile it, so what it holds afterwards does not depend on what it held before.
-/
import proofs.«900893_g7700000000000894_dist_matmul_mk_i_outk_m1024_n1024_k512_v7x_i32_f32_1_alg».proof.Proof.Gen.KernelIdeal.Skeleton
import Idealize.ShloMosaic.Lib.Pipeline.Value
import Idealize.ShloMosaic.Lib.Ring
import Idealize.ShloMosaic.Lib.Tactic

noncomputable section

namespace Cert.KernelIdeal.BodyLocal

open Idealize.ShloMosaic Idealize.SL.Sem
open Cert.KernelIdeal.Gen

variable {F : FTy → Type} [FloatOps F]

/-! ## The rounding of one block -/

/-- Elementwise rounding of a 32 × 512 block of f32 to bf16. -/
def castBlk (v : Vec F S32x512 .f32) : FVec F S32x512 .bf16 :=
  fun i => FloatOps.truncf .bf16 bitsLt_bf16_f32 (v i)

theorem castBlk_apply (v : Vec F S32x512 .f32) (i : S32x512.Idx) :
    castBlk v i = FloatOps.truncf .bf16 bitsLt_bf16_f32 (v i) := rfl

/-! Every payload of a row block is that rounding (a cast to the same shape is the identity); four of them
are written as two payloads, one applied to the other. -/

theorem pay2_eq (v : Vec F S32x512 .f32) : k0_pay2 v = castBlk v := by
  unfold k0_pay2 castBlk; simp only [shapeCast_self]; rfl
theorem pay3_eq (v : Vec F S32x512 .f32) : k0_pay3 v = castBlk v := by
  unfold k0_pay3 castBlk; simp only [shapeCast_self]; rfl
theorem pay4_eq (v : Vec F S32x512 .f32) : k0_pay4 v = castBlk v := by
  unfold k0_pay4 castBlk; simp only [shapeCast_self]; rfl
theorem pay6_5_eq (v : Vec F S32x512 .f32) : k0_pay6 (k0_pay5 v) = castBlk v := by
  unfold k0_pay6 k0_pay5 castBlk; simp only [shapeCast_self]; rfl
theorem pay7_eq (v : Vec F S32x512 .f32) : k0_pay7 v = castBlk v := by
  unfold k0_pay7 castBlk; simp only [shapeCast_self]; rfl
theorem pay8_eq (v : Vec F S32x512 .f32) : k0_pay8 v = castBlk v := by
  unfold k0_pay8 castBlk; simp only [shapeCast_self]; rfl
theorem pay10_9_eq (v : Vec F S32x512 .f32) : k0_pay10 (k0_pay9 v) = castBlk v := by
  unfold k0_pay10 k0_pay9 castBlk; simp only [shapeCast_self]; rfl
theorem pay11_eq (v : Vec F S32x512 .f32) : k0_pay11 v = castBlk v := by
  unfold k0_pay11 castBlk; simp only [shapeCast_self]; rfl
theorem pay12_eq (v : Vec F S32x512 .f32) : k0_pay12 v = castBlk v := by
  unfold k0_pay12 castBlk; simp only [shapeCast_self]; rfl
theorem pay13_eq (v : Vec F S32x512 .f32) : k0_pay13 v = castBlk v := by
  unfold k0_pay13 castBlk; simp only [shapeCast_self]; rfl
theorem pay14_eq (v : Vec F S32x512 .f32) : k0_pay14 v = castBlk v := by
  unfold k0_pay14 castBlk; simp only [shapeCast_self]; rfl
theorem pay15_eq (v : Vec F S32x512 .f32) : k0_pay15 v = castBlk v := by
  unfold k0_pay15 castBlk; simp only [shapeCast_self]; rfl
theorem pay16_eq (v : Vec F S32x512 .f32) : k0_pay16 v = castBlk v := by
  unfold k0_pay16 castBlk; simp only [shapeCast_self]; rfl
theorem pay17_eq (v : Vec F S32x512 .f32) : k0_pay17 v = castBlk v := by
  unfold k0_pay17 castBlk; simp only [shapeCast_self]; rfl
theorem pay18_eq (v : Vec F S32x512 .f32) : k0_pay18 v = castBlk v := by
  unfold k0_pay18 castBlk; simp only [shapeCast_self]; rfl
theorem pay19_eq (v : Vec F S32x512 .f32) : k0_pay19 v = castBlk v := by
  unfold k0_pay19 castBlk; simp only [shapeCast_self]; rfl
theorem pay20_eq (v : Vec F S32x512 .f32) : k0_pay20 v = castBlk v := by
  unfold k0_pay20 castBlk; simp only [shapeCast_self]; rfl
theorem pay21_eq (v : Vec F S32x512 .f32) : k0_pay21 v = castBlk v := by
  unfold k0_pay21 castBlk; simp only [shapeCast_self]; rfl
theorem pay22_eq (v : Vec F S32x512 .f32) : k0_pay22 v = castBlk v := by
  unfold k0_pay22 castBlk; simp only [shapeCast_self]; rfl
theorem pay23_eq (v : Vec F S32x512 .f32) : k0_pay23 v = castBlk v := by
  unfold k0_pay23 castBlk; simp only [shapeCast_self]; rfl
theorem pay24_eq (v : Vec F S32x512 .f32) : k0_pay24 v = castBlk v := by
  unfold k0_pay24 castBlk; simp only [shapeCast_self]; rfl
theorem pay25_eq (v : Vec F S32x512 .f32) : k0_pay25 v = castBlk v := by
  unfold k0_pay25 castBlk; simp only [shapeCast_self]; rfl
theorem pay26_eq (v : Vec F S32x512 .f32) : k0_pay26 v = castBlk v := by
  unfold k0_pay26 castBlk; simp only [shapeCast_self]; rfl
theorem pay27_eq (v : Vec F S32x512 .f32) : k0_pay27 v = castBlk v := by
  unfold k0_pay27 castBlk; simp only [shapeCast_self]; rfl
theorem pay29_28_eq (v : Vec F S32x512 .f32) : k0_pay29 (k0_pay28 v) = castBlk v := by
  unfold k0_pay29 k0_pay28 castBlk; simp only [shapeCast_self]; rfl
theorem pay30_eq (v : Vec F S32x512 .f32) : k0_pay30 v = castBlk v := by
  unfold k0_pay30 castBlk; simp only [shapeCast_self]; rfl
theorem pay31_eq (v : Vec F S32x512 .f32) : k0_pay31 v = castBlk v := by
  unfold k0_pay31 castBlk; simp only [shapeCast_self]; rfl
theorem pay33_32_eq (v : Vec F S32x512 .f32) : k0_pay33 (k0_pay32 v) = castBlk v := by
  unfold k0_pay33 k0_pay32 castBlk; simp only [shapeCast_self]; rfl
theorem pay34_eq (v : Vec F S32x512 .f32) : k0_pay34 v = castBlk v := by
  unfold k0_pay34 castBlk; simp only [shapeCast_self]; rfl
theorem pay35_eq (v : Vec F S32x512 .f32) : k0_pay35 v = castBlk v := by
  unfold k0_pay35 castBlk; simp only [shapeCast_self]; rfl
theorem pay36_eq (v : Vec F S32x512 .f32) : k0_pay36 v = castBlk v := by
  unfold k0_pay36 castBlk; simp only [shapeCast_self]; rfl
theorem pay37_eq (v : Vec F S32x512 .f32) : k0_pay37 v = castBlk v := by
  unfold k0_pay37 castBlk; simp only [shapeCast_self]; rfl

/-! ## The copy of the A block -/

/-- The stores into the copy of the A block, the last first: row block j at rows 32 j, its payload the
    rounding of the 32 rows of the staged A block at the printed offset of block j. -/
def abPieces (c : Dev nD) (a0 : cc0_stg0_0.ty.Contents (Elt F)) : List (View.Piece (Elt F) S1024x512 .bf16) :=
  [
    ⟨Rect.unit (s := S1024x512) ![992, 0] S32x512.size inb_S1024x512_S32x512_992_0,
      k0_pay37 (View.readAt (Elt F) (Memref.whole cc0_stg0_0).view (Rect.unit (s := S1024x512) (k0_off2 c 768#32 6#32 1#32) S32x512.size (k0_off2_inb c 15)).toLoadRect a0)⟩,
    ⟨Rect.unit (s := S1024x512) ![960, 0] S32x512.size inb_S1024x512_S32x512_960_0,
      k0_pay36 (View.readAt (Elt F) (Memref.whole cc0_stg0_0).view (Rect.unit (s := S1024x512) (k0_off2 c 512#32 6#32 1#32) S32x512.size (k0_off2_inb c 14)).toLoadRect a0)⟩,
    ⟨Rect.unit (s := S1024x512) ![928, 0] S32x512.size inb_S1024x512_S32x512_928_0,
      k0_pay35 (View.readAt (Elt F) (Memref.whole cc0_stg0_0).view (Rect.unit (s := S1024x512) (k0_off2 c 256#32 6#32 1#32) S32x512.size (k0_off2_inb c 13)).toLoadRect a0)⟩,
    ⟨Rect.unit (s := S1024x512) ![896, 0] S32x512.size inb_S1024x512_S32x512_896_0,
      k0_pay34 (View.readAt (Elt F) (Memref.whole cc0_stg0_0).view (Rect.unit (s := S1024x512) (k0_off2 c 0#32 6#32 1#32) S32x512.size (k0_off2_inb c 12)).toLoadRect a0)⟩,
    ⟨Rect.unit (s := S1024x512) ![864, 0] S32x512.size inb_S1024x512_S32x512_864_0,
      k0_pay33 (k0_pay32 (View.readAt (Elt F) (Memref.whole cc0_stg0_0).view (Rect.unit (s := S1024x512) (k0_off2 c 768#32 4#32 0#32) S32x512.size (k0_off2_inb c 11)).toLoadRect a0))⟩,
    ⟨Rect.unit (s := S1024x512) ![832, 0] S32x512.size inb_S1024x512_S32x512_832_0,
      k0_pay31 (View.readAt (Elt F) (Memref.whole cc0_stg0_0).view (Rect.unit (s := S1024x512) (k0_off2 c 512#32 4#32 0#32) S32x512.size (k0_off2_inb c 10)).toLoadRect a0)⟩,
    ⟨Rect.unit (s := S1024x512) ![800, 0] S32x512.size inb_S1024x512_S32x512_800_0,
      k0_pay30 (View.readAt (Elt F) (Memref.whole cc0_stg0_0).view (Rect.unit (s := S1024x512) (k0_off2 c 256#32 4#32 0#32) S32x512.size (k0_off2_inb c 9)).toLoadRect a0)⟩,
    ⟨Rect.unit (s := S1024x512) ![768, 0] S32x512.size inb_S1024x512_S32x512_768_0,
      k0_pay29 (k0_pay28 (View.readAt (Elt F) (Memref.whole cc0_stg0_0).view (Rect.unit (s := S1024x512) (k0_off2 c 0#32 4#32 0#32) S32x512.size (k0_off2_inb c 8)).toLoadRect a0))⟩,
    ⟨Rect.unit (s := S1024x512) ![736, 0] S32x512.size inb_S1024x512_S32x512_736_0,
      k0_pay27 (View.readAt (Elt F) (Memref.whole cc0_stg0_0).view (Rect.unit (s := S1024x512) (k0_off2 c 768#32 2#32 1#32) S32x512.size (k0_off2_inb c 7)).toLoadRect a0)⟩,
    ⟨Rect.unit (s := S1024x512) ![704, 0] S32x512.size inb_S1024x512_S32x512_704_0,
      k0_pay26 (View.readAt (Elt F) (Memref.whole cc0_stg0_0).view (Rect.unit (s := S1024x512) (k0_off2 c 512#32 2#32 1#32) S32x512.size (k0_off2_inb c 6)).toLoadRect a0)⟩,
    ⟨Rect.unit (s := S1024x512) ![672, 0] S32x512.size inb_S1024x512_S32x512_672_0,
      k0_pay25 (View.readAt (Elt F) (Memref.whole cc0_stg0_0).view (Rect.unit (s := S1024x512) (k0_off2 c 256#32 2#32 1#32) S32x512.size (k0_off2_inb c 5)).toLoadRect a0)⟩,
    ⟨Rect.unit (s := S1024x512) ![640, 0] S32x512.size inb_S1024x512_S32x512_640_0,
      k0_pay24 (View.readAt (Elt F) (Memref.whole cc0_stg0_0).view (Rect.unit (s := S1024x512) (k0_off2 c 0#32 2#32 1#32) S32x512.size (k0_off2_inb c 4)).toLoadRect a0)⟩,
    ⟨Rect.unit (s := S1024x512) ![608, 0] S32x512.size inb_S1024x512_S32x512_608_0,
      k0_pay23 (View.readAt (Elt F) (Memref.whole cc0_stg0_0).view (Rect.unit (s := S1024x512) (k0_off2 c 768#32 0#32 0#32) S32x512.size (k0_off2_inb c 3)).toLoadRect a0)⟩,
    ⟨Rect.unit (s := S1024x512) ![576, 0] S32x512.size inb_S1024x512_S32x512_576_0,
      k0_pay22 (View.readAt (Elt F) (Memref.whole cc0_stg0_0).view (Rect.unit (s := S1024x512) (k0_off2 c 512#32 0#32 0#32) S32x512.size (k0_off2_inb c 2)).toLoadRect a0)⟩,
    ⟨Rect.unit (s := S1024x512) ![544, 0] S32x512.size inb_S1024x512_S32x512_544_0,
      k0_pay21 (View.readAt (Elt F) (Memref.whole cc0_stg0_0).view (Rect.unit (s := S1024x512) (k0_off2 c 256#32 0#32 0#32) S32x512.size (k0_off2_inb c 1)).toLoadRect a0)⟩,
    ⟨Rect.unit (s := S1024x512) ![512, 0] S32x512.size inb_S1024x512_S32x512_512_0,
      k0_pay20 (View.readAt (Elt F) (Memref.whole cc0_stg0_0).view (Rect.unit (s := S1024x512) (k0_off2 c 0#32 0#32 0#32) S32x512.size (k0_off2_inb c 0)).toLoadRect a0)⟩,
    ⟨Rect.unit (s := S1024x512) ![480, 0] S32x512.size inb_S1024x512_S32x512_480_0,
      k0_pay19 (View.readAt (Elt F) (Memref.whole cc0_stg0_0).view (Rect.unit (s := S1024x512) (k0_off1 c 768#32 6#32 1#32) S32x512.size (k0_off1_inb c 15)).toLoadRect a0)⟩,
    ⟨Rect.unit (s := S1024x512) ![448, 0] S32x512.size inb_S1024x512_S32x512_448_0,
      k0_pay18 (View.readAt (Elt F) (Memref.whole cc0_stg0_0).view (Rect.unit (s := S1024x512) (k0_off1 c 512#32 6#32 1#32) S32x512.size (k0_off1_inb c 14)).toLoadRect a0)⟩,
    ⟨Rect.unit (s := S1024x512) ![416, 0] S32x512.size inb_S1024x512_S32x512_416_0,
      k0_pay17 (View.readAt (Elt F) (Memref.whole cc0_stg0_0).view (Rect.unit (s := S1024x512) (k0_off1 c 256#32 6#32 1#32) S32x512.size (k0_off1_inb c 13)).toLoadRect a0)⟩,
    ⟨Rect.unit (s := S1024x512) ![384, 0] S32x512.size inb_S1024x512_S32x512_384_0,
      k0_pay16 (View.readAt (Elt F) (Memref.whole cc0_stg0_0).view (Rect.unit (s := S1024x512) (k0_off1 c 0#32 6#32 1#32) S32x512.size (k0_off1_inb c 12)).toLoadRect a0)⟩,
    ⟨Rect.unit (s := S1024x512) ![352, 0] S32x512.size inb_S1024x512_S32x512_352_0,
      k0_pay15 (View.readAt (Elt F) (Memref.whole cc0_stg0_0).view (Rect.unit (s := S1024x512) (k0_off1 c 768#32 4#32 0#32) S32x512.size (k0_off1_inb c 11)).toLoadRect a0)⟩,
    ⟨Rect.unit (s := S1024x512) ![320, 0] S32x512.size inb_S1024x512_S32x512_320_0,
      k0_pay14 (View.readAt (Elt F) (Memref.whole cc0_stg0_0).view (Rect.unit (s := S1024x512) (k0_off1 c 512#32 4#32 0#32) S32x512.size (k0_off1_inb c 10)).toLoadRect a0)⟩,
    ⟨Rect.unit (s := S1024x512) ![288, 0] S32x512.size inb_S1024x512_S32x512_288_0,
      k0_pay13 (View.readAt (Elt F) (Memref.whole cc0_stg0_0).view (Rect.unit (s := S1024x512) (k0_off1 c 256#32 4#32 0#32) S32x512.size (k0_off1_inb c 9)).toLoadRect a0)⟩,
    ⟨Rect.unit (s := S1024x512) ![256, 0] S32x512.size inb_S1024x512_S32x512_256_0,
      k0_pay12 (View.readAt (Elt F) (Memref.whole cc0_stg0_0).view (Rect.unit (s := S1024x512) (k0_off1 c 0#32 4#32 0#32) S32x512.size (k0_off1_inb c 8)).toLoadRect a0)⟩,
    ⟨Rect.unit (s := S1024x512) ![224, 0] S32x512.size inb_S1024x512_S32x512_224_0,
      k0_pay11 (View.readAt (Elt F) (Memref.whole cc0_stg0_0).view (Rect.unit (s := S1024x512) (k0_off1 c 768#32 2#32 1#32) S32x512.size (k0_off1_inb c 7)).toLoadRect a0)⟩,
    ⟨Rect.unit (s := S1024x512) ![192, 0] S32x512.size inb_S1024x512_S32x512_192_0,
      k0_pay10 (k0_pay9 (View.readAt (Elt F) (Memref.whole cc0_stg0_0).view (Rect.unit (s := S1024x512) (k0_off1 c 512#32 2#32 1#32) S32x512.size (k0_off1_inb c 6)).toLoadRect a0))⟩,
    ⟨Rect.unit (s := S1024x512) ![160, 0] S32x512.size inb_S1024x512_S32x512_160_0,
      k0_pay8 (View.readAt (Elt F) (Memref.whole cc0_stg0_0).view (Rect.unit (s := S1024x512) (k0_off1 c 256#32 2#32 1#32) S32x512.size (k0_off1_inb c 5)).toLoadRect a0)⟩,
    ⟨Rect.unit (s := S1024x512) ![128, 0] S32x512.size inb_S1024x512_S32x512_128_0,
      k0_pay7 (View.readAt (Elt F) (Memref.whole cc0_stg0_0).view (Rect.unit (s := S1024x512) (k0_off1 c 0#32 2#32 1#32) S32x512.size (k0_off1_inb c 4)).toLoadRect a0)⟩,
    ⟨Rect.unit (s := S1024x512) ![96, 0] S32x512.size inb_S1024x512_S32x512_96_0,
      k0_pay6 (k0_pay5 (View.readAt (Elt F) (Memref.whole cc0_stg0_0).view (Rect.unit (s := S1024x512) (k0_off1 c 768#32 0#32 0#32) S32x512.size (k0_off1_inb c 3)).toLoadRect a0))⟩,
    ⟨Rect.unit (s := S1024x512) ![64, 0] S32x512.size inb_S1024x512_S32x512_64_0,
      k0_pay4 (View.readAt (Elt F) (Memref.whole cc0_stg0_0).view (Rect.unit (s := S1024x512) (k0_off1 c 512#32 0#32 0#32) S32x512.size (k0_off1_inb c 2)).toLoadRect a0)⟩,
    ⟨Rect.unit (s := S1024x512) ![32, 0] S32x512.size inb_S1024x512_S32x512_32_0,
      k0_pay3 (View.readAt (Elt F) (Memref.whole cc0_stg0_0).view (Rect.unit (s := S1024x512) (k0_off1 c 256#32 0#32 0#32) S32x512.size (k0_off1_inb c 1)).toLoadRect a0)⟩,
    ⟨Rect.unit (s := S1024x512) ![0, 0] S32x512.size inb_S1024x512_S32x512_0_0,
      k0_pay2 (View.readAt (Elt F) (Memref.whole cc0_stg0_0).view (Rect.unit (s := S1024x512) (k0_off1 c 0#32 0#32 0#32) S32x512.size (k0_off1_inb c 0)).toLoadRect a0)⟩
  ]

/-- The 32 rows of the staged A block that row block j of the copy is read from. -/
def srcBlk (c : Dev nD) (a0 : cc0_stg0_0.ty.Contents (Elt F)) (j : Fin 32) : Vec F S32x512 .f32 :=
  if h : j.val < 16 then
    View.readAt (Elt F) (Memref.whole cc0_stg0_0).view
      (Rect.unit (s := S1024x512) (k0_off1 c (k0_off1_at ⟨j.val, h⟩).1 (k0_off1_at ⟨j.val, h⟩).2.1 (k0_off1_at ⟨j.val, h⟩).2.2)
        S32x512.size (k0_off1_inb c ⟨j.val, h⟩)).toLoadRect a0
  else
    View.readAt (Elt F) (Memref.whole cc0_stg0_0).view
      (Rect.unit (s := S1024x512)
        (k0_off2 c (k0_off2_at ⟨j.val - 16, by omega⟩).1 (k0_off2_at ⟨j.val - 16, by omega⟩).2.1 (k0_off2_at ⟨j.val - 16, by omega⟩).2.2)
        S32x512.size (k0_off2_inb c ⟨j.val - 16, by omega⟩)).toLoadRect a0

/-- The row block of an index of the copy. -/
def blk32 (y : S1024x512.Idx) : Fin 32 :=
  ⟨(y 0).val / 32, by have h : (y 0).val < 1024 := (y 0).isLt; omega⟩

/-- The index inside its row block. -/
def loc32 (y : S1024x512.Idx) : S32x512.Idx
  | ⟨0, _⟩ => (⟨(y 0).val % 32, Nat.mod_lt _ (by decide)⟩ : Fin 32)
  | ⟨1, _⟩ => (⟨(y 1).val, (y 1).isLt⟩ : Fin 512)

/-- What the copy of the A block holds after the local prefix: at row 32 j + i, column k, the rounding of
    row i, column k of the source block of j. -/
def abVal (c : Dev nD) (a0 : cc0_stg0_0.ty.Contents (Elt F)) : S1024x512.Idx → Elt F .bf16 :=
  fun y => castBlk (srcBlk c a0 (blk32 y)) (loc32 y)

theorem abVal_apply (c : Dev nD) (a0 : cc0_stg0_0.ty.Contents (Elt F)) (y : S1024x512.Idx) :
    abVal c a0 y = FloatOps.truncf .bf16 bitsLt_bf16_f32 (srcBlk c a0 (blk32 y) (loc32 y)) := rfl

/-- The first 16 row blocks are read through the first offset function, -/
theorem srcBlk_of_lt (c : Dev nD) (a0 : cc0_stg0_0.ty.Contents (Elt F)) (j : Fin 32) (h : j.val < 16) :
    srcBlk c a0 j = View.readAt (Elt F) (Memref.whole cc0_stg0_0).view
      (Rect.unit (s := S1024x512) (k0_off1 c (k0_off1_at ⟨j.val, h⟩).1 (k0_off1_at ⟨j.val, h⟩).2.1 (k0_off1_at ⟨j.val, h⟩).2.2)
        S32x512.size (k0_off1_inb c ⟨j.val, h⟩)).toLoadRect a0 := dif_pos h

/-- the last 16 through the second. -/
theorem srcBlk_of_ge (c : Dev nD) (a0 : cc0_stg0_0.ty.Contents (Elt F)) (j : Fin 32) (h : ¬ j.val < 16) :
    srcBlk c a0 j = View.readAt (Elt F) (Memref.whole cc0_stg0_0).view
      (Rect.unit (s := S1024x512)
        (k0_off2 c (k0_off2_at ⟨j.val - 16, by omega⟩).1 (k0_off2_at ⟨j.val - 16, by omega⟩).2.1 (k0_off2_at ⟨j.val - 16, by omega⟩).2.2)
        S32x512.size (k0_off2_inb c ⟨j.val - 16, by omega⟩)).toLoadRect a0 := dif_neg h

theorem blk32_emb (j : Fin 32) (o : ℕ) (ho : o = 32 * j.val)
    (inb : ∀ a, (![o, 0] : Fin 2 → ℕ) a + S32x512.size a ≤ S1024x512.size a) (x : S32x512.Idx) :
    blk32 ((Rect.unit (s := S1024x512) ![o, 0] S32x512.size inb).emb x) = j := by
  apply Fin.ext
  have hx : (x 0).val < 32 := (x 0).isLt
  show (((Rect.unit (s := S1024x512) ![o, 0] S32x512.size inb).emb x 0 : Fin _) : ℕ) / 32 = j.val
  rw [Rect.emb_apply]
  show (o + 1 * (x 0).val) / 32 = j.val
  omega

theorem loc32_emb (j : Fin 32) (o : ℕ) (ho : o = 32 * j.val)
    (inb : ∀ a, (![o, 0] : Fin 2 → ℕ) a + S32x512.size a ≤ S1024x512.size a) (x : S32x512.Idx) :
    loc32 ((Rect.unit (s := S1024x512) ![o, 0] S32x512.size inb).emb x) = x := by
  have hx : (x 0).val < 32 := (x 0).isLt
  funext a
  match a with
  | ⟨0, _⟩ =>
    apply Fin.ext
    show (((Rect.unit (s := S1024x512) ![o, 0] S32x512.size inb).emb x 0 : Fin _) : ℕ) % 32 = (x 0).val
    rw [Rect.emb_apply]
    show (o + 1 * (x 0).val) % 32 = (x 0).val
    omega
  | ⟨1, _⟩ =>
    apply Fin.ext
    show (((Rect.unit (s := S1024x512) ![o, 0] S32x512.size inb).emb x 1 : Fin _) : ℕ) = (x 1).val
    rw [Rect.emb_apply]
    show (0 + 1 * (x 1).val) = (x 1).val
    omega

/-- A store at rows 32 j of the rounding of the source block of j agrees with `abVal` on its rectangle. -/
theorem piece_ok (c : Dev nD) (a0 : cc0_stg0_0.ty.Contents (Elt F)) (j : Fin 32) (o : ℕ) (ho : o = 32 * j.val)
    (inb : ∀ a, (![o, 0] : Fin 2 → ℕ) a + S32x512.size a ≤ S1024x512.size a)
    (w : FVec F S32x512 .bf16) (hw : w = castBlk (srcBlk c a0 j)) (x : S32x512.Idx) :
    w x = abVal c a0 ((Rect.unit (s := S1024x512) ![o, 0] S32x512.size inb).emb x) := by
  subst hw; unfold abVal; rw [blk32_emb j o ho inb x, loc32_emb j o ho inb x]

/-- Every store's payload is `abVal` on the store's rectangle. -/
theorem abPieces_spec (c : Dev nD) (a0 : cc0_stg0_0.ty.Contents (Elt F)) :
    ∀ p ∈ abPieces c a0, ∀ x : p.1.shape.Idx, p.2 x = abVal c a0 (p.1.emb x) := by
  unfold abPieces
  refine List.forall_mem_cons.mpr ⟨fun x => piece_ok c a0 31 992 (by decide) inb_S1024x512_S32x512_992_0 _ (pay37_eq _) x, ?_⟩
  refine List.forall_mem_cons.mpr ⟨fun x => piece_ok c a0 30 960 (by decide) inb_S1024x512_S32x512_960_0 _ (pay36_eq _) x, ?_⟩
  refine List.forall_mem_cons.mpr ⟨fun x => piece_ok c a0 29 928 (by decide) inb_S1024x512_S32x512_928_0 _ (pay35_eq _) x, ?_⟩
  refine List.forall_mem_cons.mpr ⟨fun x => piece_ok c a0 28 896 (by decide) inb_S1024x512_S32x512_896_0 _ (pay34_eq _) x, ?_⟩
  refine List.forall_mem_cons.mpr ⟨fun x => piece_ok c a0 27 864 (by decide) inb_S1024x512_S32x512_864_0 _ (pay33_32_eq _) x, ?_⟩
  refine List.forall_mem_cons.mpr ⟨fun x => piece_ok c a0 26 832 (by decide) inb_S1024x512_S32x512_832_0 _ (pay31_eq _) x, ?_⟩
  refine List.forall_mem_cons.mpr ⟨fun x => piece_ok c a0 25 800 (by decide) inb_S1024x512_S32x512_800_0 _ (pay30_eq _) x, ?_⟩
  refine List.forall_mem_cons.mpr ⟨fun x => piece_ok c a0 24 768 (by decide) inb_S1024x512_S32x512_768_0 _ (pay29_28_eq _) x, ?_⟩
  refine List.forall_mem_cons.mpr ⟨fun x => piece_ok c a0 23 736 (by decide) inb_S1024x512_S32x512_736_0 _ (pay27_eq _) x, ?_⟩
  refine List.forall_mem_cons.mpr ⟨fun x => piece_ok c a0 22 704 (by decide) inb_S1024x512_S32x512_704_0 _ (pay26_eq _) x, ?_⟩
  refine List.forall_mem_cons.mpr ⟨fun x => piece_ok c a0 21 672 (by decide) inb_S1024x512_S32x512_672_0 _ (pay25_eq _) x, ?_⟩
  refine List.forall_mem_cons.mpr ⟨fun x => piece_ok c a0 20 640 (by decide) inb_S1024x512_S32x512_640_0 _ (pay24_eq _) x, ?_⟩
  refine List.forall_mem_cons.mpr ⟨fun x => piece_ok c a0 19 608 (by decide) inb_S1024x512_S32x512_608_0 _ (pay23_eq _) x, ?_⟩
  refine List.forall_mem_cons.mpr ⟨fun x => piece_ok c a0 18 576 (by decide) inb_S1024x512_S32x512_576_0 _ (pay22_eq _) x, ?_⟩
  refine List.forall_mem_cons.mpr ⟨fun x => piece_ok c a0 17 544 (by decide) inb_S1024x512_S32x512_544_0 _ (pay21_eq _) x, ?_⟩
  refine List.forall_mem_cons.mpr ⟨fun x => piece_ok c a0 16 512 (by decide) inb_S1024x512_S32x512_512_0 _ (pay20_eq _) x, ?_⟩
  refine List.forall_mem_cons.mpr ⟨fun x => piece_ok c a0 15 480 (by decide) inb_S1024x512_S32x512_480_0 _ (pay19_eq _) x, ?_⟩
  refine List.forall_mem_cons.mpr ⟨fun x => piece_ok c a0 14 448 (by decide) inb_S1024x512_S32x512_448_0 _ (pay18_eq _) x, ?_⟩
  refine List.forall_mem_cons.mpr ⟨fun x => piece_ok c a0 13 416 (by decide) inb_S1024x512_S32x512_416_0 _ (pay17_eq _) x, ?_⟩
  refine List.forall_mem_cons.mpr ⟨fun x => piece_ok c a0 12 384 (by decide) inb_S1024x512_S32x512_384_0 _ (pay16_eq _) x, ?_⟩
  refine List.forall_mem_cons.mpr ⟨fun x => piece_ok c a0 11 352 (by decide) inb_S1024x512_S32x512_352_0 _ (pay15_eq _) x, ?_⟩
  refine List.forall_mem_cons.mpr ⟨fun x => piece_ok c a0 10 320 (by decide) inb_S1024x512_S32x512_320_0 _ (pay14_eq _) x, ?_⟩
  refine List.forall_mem_cons.mpr ⟨fun x => piece_ok c a0 9 288 (by decide) inb_S1024x512_S32x512_288_0 _ (pay13_eq _) x, ?_⟩
  refine List.forall_mem_cons.mpr ⟨fun x => piece_ok c a0 8 256 (by decide) inb_S1024x512_S32x512_256_0 _ (pay12_eq _) x, ?_⟩
  refine List.forall_mem_cons.mpr ⟨fun x => piece_ok c a0 7 224 (by decide) inb_S1024x512_S32x512_224_0 _ (pay11_eq _) x, ?_⟩
  refine List.forall_mem_cons.mpr ⟨fun x => piece_ok c a0 6 192 (by decide) inb_S1024x512_S32x512_192_0 _ (pay10_9_eq _) x, ?_⟩
  refine List.forall_mem_cons.mpr ⟨fun x => piece_ok c a0 5 160 (by decide) inb_S1024x512_S32x512_160_0 _ (pay8_eq _) x, ?_⟩
  refine List.forall_mem_cons.mpr ⟨fun x => piece_ok c a0 4 128 (by decide) inb_S1024x512_S32x512_128_0 _ (pay7_eq _) x, ?_⟩
  refine List.forall_mem_cons.mpr ⟨fun x => piece_ok c a0 3 96 (by decide) inb_S1024x512_S32x512_96_0 _ (pay6_5_eq _) x, ?_⟩
  refine List.forall_mem_cons.mpr ⟨fun x => piece_ok c a0 2 64 (by decide) inb_S1024x512_S32x512_64_0 _ (pay4_eq _) x, ?_⟩
  refine List.forall_mem_cons.mpr ⟨fun x => piece_ok c a0 1 32 (by decide) inb_S1024x512_S32x512_32_0 _ (pay3_eq _) x, ?_⟩
  refine List.forall_mem_cons.mpr ⟨fun x => piece_ok c a0 0 0 (by decide) inb_S1024x512_S32x512_0_0 _ (pay2_eq _) x, ?_⟩
  exact fun _ h => absurd h List.not_mem_nil

/-- The 32 rectangles tile the copy. -/
theorem abPieces_cover (c : Dev nD) (a0 : cc0_stg0_0.ty.Contents (Elt F)) :
    ∀ y : S1024x512.Idx, ∃ p ∈ abPieces c a0, y ∈ p.1.set :=
  View.cover_of_tiledL (abPieces c a0) S32x512.size (by sl_kernel_rfl)

/-- The stores leave `abVal`, as the contents a covering list of stores leaves; -/
theorem canon_abPieces (c : Dev nD) (a0 : cc0_stg0_0.ty.Contents (Elt F)) :
    View.canon (abPieces c a0) = abVal c a0 :=
  funext fun y => View.canon_apply_of_pieces (abVal c a0) (abPieces c a0) (abPieces_spec c a0) y (abPieces_cover c a0 y)

/-- read through the buffer, whatever it held before; -/
theorem read_writes_abPieces (c : Dev nD) (a0 : cc0_stg0_0.ty.Contents (Elt F))
    (f0 : (Memref.whole cc0_scratch0).view.ty.Contents (Elt F)) :
    (Memref.whole cc0_scratch0).view.read (Elt F) ((Memref.whole cc0_scratch0).view.writes (Elt F) f0 (abPieces c a0)) = abVal c a0 :=
  (View.read_writes_eq_canon _ f0 _ (abPieces_cover c a0)).trans (canon_abPieces c a0)

/-- and a later load of any box of it reads `abVal` at the box's indices. -/
theorem readCov_abPieces (c : Dev nD) (a0 : cc0_stg0_0.ty.Contents (Elt F)) (B : LoadRect S1024x512) :
    (Memref.whole cc0_scratch0).view.readCov (abPieces c a0) B = fun j => abVal c a0 (B.idx j) := by
  rw [View.readCov_eq_canon']
  exact funext fun j => congrFun (canon_abPieces c a0) (B.idx j)

/-! ## The copy of the B block -/

/-- Elementwise rounding of the 512 × 1024 block of f32 to bf16. -/
def castB (v : Vec F S512x1024 .f32) : FVec F S512x1024 .bf16 :=
  fun i => FloatOps.truncf .bf16 bitsLt_bf16_f32 (v i)

theorem pay1_eq (v : Vec F S512x1024 .f32) : k0_pay1 v = castB v := by
  unfold k0_pay1 castB; simp only [shapeCast_self]; rfl

/-- The one store into the copy of the B block: the whole block, rounded. -/
def bbPieces (a1 : cc0_stg1_0.ty.Contents (Elt F)) : List (View.Piece (Elt F) S512x1024 .bf16) :=
  [⟨Rect.unit (s := S512x1024) ![0, 0] S512x1024.size inb_S512x1024_S512x1024_0_0,
      k0_pay1 (View.readAt (Elt F) (Memref.whole cc0_stg1_0).view
        (Rect.unit (s := S512x1024) ![0, 0] S512x1024.size inb_S512x1024_S512x1024_0_0).toLoadRect a1)⟩]

/-- What the copy of the B block holds after the local prefix: the staged B block rounded elementwise. -/
def bbVal (a1 : cc0_stg1_0.ty.Contents (Elt F)) : S512x1024.Idx → Elt F .bf16 :=
  fun y => FloatOps.truncf .bf16 bitsLt_bf16_f32 ((Memref.whole cc0_stg1_0).view.read (Elt F) a1 y)

theorem zero2 : (![0, 0] : Fin 2 → ℕ) = fun _ => 0 := by
  funext a
  match a with
  | ⟨0, _⟩ => rfl
  | ⟨1, _⟩ => rfl

theorem bbPieces_cover (a1 : cc0_stg1_0.ty.Contents (Elt F)) :
    ∀ y : S512x1024.Idx, ∃ p ∈ bbPieces a1, y ∈ p.1.set :=
  fun y => ⟨_, List.mem_singleton_self _, View.mem_set_unit_zero zero2 inb_S512x1024_S512x1024_0_0 y⟩

theorem canon_bbPieces (a1 : cc0_stg1_0.ty.Contents (Elt F)) : View.canon (bbPieces a1) = bbVal a1 := by
  unfold bbPieces
  rw [View.canon_unit_zero zero2, pay1_eq]
  funext y
  exact congrArg (FloatOps.truncf .bf16 bitsLt_bf16_f32)
    (congrFun (View.ld_unit_zero zero2 inb_S512x1024_S512x1024_0_0 ((Memref.whole cc0_stg1_0).view.read (Elt F) a1)) y)

theorem read_writes_bbPieces (a1 : cc0_stg1_0.ty.Contents (Elt F))
    (f1 : (Memref.whole cc0_scratch1).view.ty.Contents (Elt F)) :
    (Memref.whole cc0_scratch1).view.read (Elt F) ((Memref.whole cc0_scratch1).view.writes (Elt F) f1 (bbPieces a1)) = bbVal a1 :=
  (View.read_writes_eq_canon _ f1 _ (bbPieces_cover a1)).trans (canon_bbPieces a1)

theorem readCov_bbPieces (a1 : cc0_stg1_0.ty.Contents (Elt F)) (B : LoadRect S512x1024) :
    (Memref.whole cc0_scratch1).view.readCov (bbPieces a1) B = fun j => bbVal a1 (B.idx j) := by
  rw [View.readCov_eq_canon']
  exact funext fun j => congrFun (canon_bbPieces a1) (B.idx j)

end Cert.KernelIdeal.BodyLocal

end
-- ==== Proof.BodyStage1.lean ====
/-
  The stage-1 products. For each of the 8 column chunks q the body forms two products of the cast copies:
  rows 0..511 of the copy of the A block by columns 128 q .. 128 q + 127 of the copy of the B block (stored in
  slot q of the buffer that is sent to the partner), and rows 512..1023 by the same columns (stored in slot q
  of the buffer that is kept). Each is a 512 × 512 by 512 × 128 product accumulated in f32 from zero, rounded
  elementwise to bf16, and laid out as a 4 × 4 × 32 × 128 slot; 16 payloads of the printed body are that one
  function.
-/
import proofs.«900893_g7700000000000894_dist_matmul_mk_i_outk_m1024_n1024_k512_v7x_i32_f32_1_alg».proof.Proof.BodyLocal
import proofs.«900893_g7700000000000894_dist_matmul_mk_i_outk_m1024_n1024_k512_v7x_i32_f32_1_alg».proof.Proof.Proto

noncomputable section

namespace Cert.KernelIdeal.BodyStage1

open Idealize.ShloMosaic Idealize.SL.Sem
open Cert.KernelIdeal.Gen
open Cert.KernelIdeal.BodyLocal (abVal bbVal abPieces bbPieces)

variable {F : FTy → Type} [FloatOps F]

/-! ## The product of two blocks as a slot value -/

/-- The 512 × 512 by 512 × 128 product, accumulated in f32 from zero and rounded elementwise to bf16. -/
def prodFlat (lhs : Vec F S512x512 .bf16) (rhs : Vec F S512x128 .bf16) : FVec F S512x128 .bf16 :=
  truncf .bf16 (matmul dot_S512x512_S512x128_S512x128_1_0_0_1_n_n none lhs rhs (constant S512x128 .f32 0x00000000#32)) bitsLt_bf16_f32

/-- The same in the shape of a slot, 4 × 4 × 32 × 128 (the same elements in row-major order). -/
def prod4 (lhs : Vec F S512x512 .bf16) (rhs : Vec F S512x128 .bf16) : FVec F S4x4x32x128 .bf16 :=
  shapeCast S4x4x32x128 (prodFlat lhs rhs) shapeCasts_S512x128_S4x4x32x128

/-- The same with the unit leading axis of the slot's rectangle in its buffer: what is stored. -/
def prodSlot (lhs : Vec F S512x512 .bf16) (rhs : Vec F S512x128 .bf16) : FVec F S1x4x4x32x128 .bf16 :=
  shapeCast S1x4x4x32x128 (prod4 lhs rhs) shapeCasts_S4x4x32x128_S1x4x4x32x128

/-- What a slot, read with its unit leading axis dropped, holds of a stored value. -/
def slotRead (w : FVec F S1x4x4x32x128 .bf16) : Proto.C1 F :=
  shapeCast S4x4x32x128 w shapeCasts_S1x4x4x32x128_S4x4x32x128

/-- Read back through the slot, the stored product is the product in the slot's shape. -/
theorem slotRead_prodSlot (lhs : Vec F S512x512 .bf16) (rhs : Vec F S512x128 .bf16) :
    slotRead (prodSlot lhs rhs) = prod4 lhs rhs :=
  shapeCast_shapeCast _ _ _

/-! The 16 payloads: 12 written as one payload, 4 as two, one applied to the other. -/

theorem pay38_eq (l : Vec F S512x512 .bf16) (r : Vec F S512x128 .bf16) : k0_pay38 l r = prodSlot l r := rfl
theorem pay39_eq (l : Vec F S512x512 .bf16) (r : Vec F S512x128 .bf16) : k0_pay39 l r = prodSlot l r := rfl
theorem pay40_eq (l : Vec F S512x512 .bf16) (r : Vec F S512x128 .bf16) : k0_pay40 l r = prodSlot l r := rfl
theorem pay41_eq (l : Vec F S512x512 .bf16) (r : Vec F S512x128 .bf16) : k0_pay41 l r = prodSlot l r := rfl
theorem pay42_eq (l : Vec F S512x512 .bf16) (r : Vec F S512x128 .bf16) : k0_pay42 l r = prodSlot l r := rfl
theorem pay43_eq (l : Vec F S512x512 .bf16) (r : Vec F S512x128 .bf16) : k0_pay43 l r = prodSlot l r := rfl
theorem pay44_eq (l : Vec F S512x512 .bf16) (r : Vec F S512x128 .bf16) : k0_pay44 l r = prodSlot l r := rfl
theorem pay45_eq (l : Vec F S512x512 .bf16) (r : Vec F S512x128 .bf16) : k0_pay45 l r = prodSlot l r := rfl
theorem pay47_46_eq (l : Vec F S512x512 .bf16) (r : Vec F S512x128 .bf16) : k0_pay47 (k0_pay46 l r) = prodSlot l r := rfl
theorem pay48_eq (l : Vec F S512x512 .bf16) (r : Vec F S512x128 .bf16) : k0_pay48 l r = prodSlot l r := rfl
theorem pay50_49_eq (l : Vec F S512x512 .bf16) (r : Vec F S512x128 .bf16) : k0_pay50 (k0_pay49 l r) = prodSlot l r := rfl
theorem pay51_eq (l : Vec F S512x512 .bf16) (r : Vec F S512x128 .bf16) : k0_pay51 l r = prodSlot l r := rfl
theorem pay52_eq (l : Vec F S512x512 .bf16) (r : Vec F S512x128 .bf16) : k0_pay52 l r = prodSlot l r := rfl
theorem pay54_53_eq (l : Vec F S512x512 .bf16) (r : Vec F S512x128 .bf16) : k0_pay54 (k0_pay53 l r) = prodSlot l r := rfl
theorem pay55_eq (l : Vec F S512x512 .bf16) (r : Vec F S512x128 .bf16) : k0_pay55 l r = prodSlot l r := rfl
theorem pay57_56_eq (l : Vec F S512x512 .bf16) (r : Vec F S512x128 .bf16) : k0_pay57 (k0_pay56 l r) = prodSlot l r := rfl

theorem pay46_eq (l : Vec F S512x512 .bf16) (r : Vec F S512x128 .bf16) : k0_pay46 l r = prod4 l r := rfl
theorem pay49_eq (l : Vec F S512x512 .bf16) (r : Vec F S512x128 .bf16) : k0_pay49 l r = prodFlat l r := rfl
theorem pay53_eq (l : Vec F S512x512 .bf16) (r : Vec F S512x128 .bf16) : k0_pay53 l r = prod4 l r := rfl
theorem pay56_eq (l : Vec F S512x512 .bf16) (r : Vec F S512x128 .bf16) : k0_pay56 l r = prod4 l r := rfl

/-! ## The operands, read from the cast copies -/

/-- The left operand of side 0 (rows 0..511 of the copy of the A block) or of side 1 (rows 512..1023). -/
def abRows (c : Dev nD) (a0 : cc0_stg0_0.ty.Contents (Elt F)) : Fin 2 → Vec F S512x512 .bf16
  | 0 => fun j => abVal c a0 ((Rect.unit (s := S1024x512) ![0, 0] S512x512.size inb_S1024x512_S512x512_0_0).toLoadRect.idx j)
  | 1 => fun j => abVal c a0 ((Rect.unit (s := S1024x512) ![512, 0] S512x512.size inb_S1024x512_S512x512_512_0).toLoadRect.idx j)

theorem inbCols (q : Fin 8) : ∀ a, (![0, 128 * q.val] : Fin 2 → ℕ) a + S512x128.size a ≤ S512x1024.size a := by
  intro a; have := q.isLt; fin_cases a <;> simp <;> omega

/-- The right operand of chunk q: columns 128 q .. 128 q + 127 of the copy of the B block. -/
def bbCols (a1 : cc0_stg1_0.ty.Contents (Elt F)) (q : Fin 8) : Vec F S512x128 .bf16 :=
  fun j => bbVal a1 ((Rect.unit (s := S512x1024) ![0, 128 * q.val] S512x128.size (inbCols q)).toLoadRect.idx j)

theorem bbCols_0 (a1 : cc0_stg1_0.ty.Contents (Elt F)) :
    bbCols a1 0 = fun j => bbVal a1 ((Rect.unit (s := S512x1024) ![0, 0] S512x128.size inb_S512x1024_S512x128_0_0).toLoadRect.idx j) := rfl
theorem bbCols_1 (a1 : cc0_stg1_0.ty.Contents (Elt F)) :
    bbCols a1 1 = fun j => bbVal a1 ((Rect.unit (s := S512x1024) ![0, 128] S512x128.size inb_S512x1024_S512x128_0_128).toLoadRect.idx j) := rfl
theorem bbCols_2 (a1 : cc0_stg1_0.ty.Contents (Elt F)) :
    bbCols a1 2 = fun j => bbVal a1 ((Rect.unit (s := S512x1024) ![0, 256] S512x128.size inb_S512x1024_S512x128_0_256).toLoadRect.idx j) := rfl
theorem bbCols_3 (a1 : cc0_stg1_0.ty.Contents (Elt F)) :
    bbCols a1 3 = fun j => bbVal a1 ((Rect.unit (s := S512x1024) ![0, 384] S512x128.size inb_S512x1024_S512x128_0_384).toLoadRect.idx j) := rfl
theorem bbCols_4 (a1 : cc0_stg1_0.ty.Contents (Elt F)) :
    bbCols a1 4 = fun j => bbVal a1 ((Rect.unit (s := S512x1024) ![0, 512] S512x128.size inb_S512x1024_S512x128_0_512).toLoadRect.idx j) := rfl
theorem bbCols_5 (a1 : cc0_stg1_0.ty.Contents (Elt F)) :
    bbCols a1 5 = fun j => bbVal a1 ((Rect.unit (s := S512x1024) ![0, 640] S512x128.size inb_S512x1024_S512x128_0_640).toLoadRect.idx j) := rfl
theorem bbCols_6 (a1 : cc0_stg1_0.ty.Contents (Elt F)) :
    bbCols a1 6 = fun j => bbVal a1 ((Rect.unit (s := S512x1024) ![0, 768] S512x128.size inb_S512x1024_S512x128_0_768).toLoadRect.idx j) := rfl
theorem bbCols_7 (a1 : cc0_stg1_0.ty.Contents (Elt F)) :
    bbCols a1 7 = fun j => bbVal a1 ((Rect.unit (s := S512x1024) ![0, 896] S512x128.size inb_S512x1024_S512x128_0_896).toLoadRect.idx j) := rfl

/-! ## What the two stage-1 buffers hold, slot by slot -/

/-- Slot q of the buffer sent to the partner: the product of side 0 for chunk q, read through the slot. -/
def S1val (c : Dev nD) (a0 : cc0_stg0_0.ty.Contents (Elt F)) (a1 : cc0_stg1_0.ty.Contents (Elt F)) (q : Fin 8) : Proto.C1 F :=
  slotRead (prodSlot (abRows c a0 0) (bbCols a1 q))

/-- Slot q of the buffer that is kept: the product of side 1 for chunk q, read through the slot. -/
def OWNval (c : Dev nD) (a0 : cc0_stg0_0.ty.Contents (Elt F)) (a1 : cc0_stg1_0.ty.Contents (Elt F)) (q : Fin 8) : Proto.C1 F :=
  slotRead (prodSlot (abRows c a0 1) (bbCols a1 q))

theorem S1val_eq (c : Dev nD) (a0 : cc0_stg0_0.ty.Contents (Elt F)) (a1 : cc0_stg1_0.ty.Contents (Elt F)) (q : Fin 8) :
    S1val c a0 a1 q = prod4 (abRows c a0 0) (bbCols a1 q) := slotRead_prodSlot _ _

theorem OWNval_eq (c : Dev nD) (a0 : cc0_stg0_0.ty.Contents (Elt F)) (a1 : cc0_stg1_0.ty.Contents (Elt F)) (q : Fin 8) :
    OWNval c a0 a1 q = prod4 (abRows c a0 1) (bbCols a1 q) := slotRead_prodSlot _ _

/-! A load of the copies through the operands' rectangles, after the stores of the local prefix, reads the operands. -/

theorem readCov_abRows0 (c : Dev nD) (a0 : cc0_stg0_0.ty.Contents (Elt F)) :
    (Memref.whole cc0_scratch0).view.readCov (abPieces c a0) (Rect.unit (s := S1024x512) ![0, 0] S512x512.size inb_S1024x512_S512x512_0_0).toLoadRect = abRows c a0 0 :=
  BodyLocal.readCov_abPieces c a0 _
theorem readCov_abRows1 (c : Dev nD) (a0 : cc0_stg0_0.ty.Contents (Elt F)) :
    (Memref.whole cc0_scratch0).view.readCov (abPieces c a0) (Rect.unit (s := S1024x512) ![512, 0] S512x512.size inb_S1024x512_S512x512_512_0).toLoadRect = abRows c a0 1 :=
  BodyLocal.readCov_abPieces c a0 _
theorem readCov_bbCols_0 (a1 : cc0_stg1_0.ty.Contents (Elt F)) :
    (Memref.whole cc0_scratch1).view.readCov (bbPieces a1) (Rect.unit (s := S512x1024) ![0, 0] S512x128.size inb_S512x1024_S512x128_0_0).toLoadRect = bbCols a1 0 :=
  (BodyLocal.readCov_bbPieces a1 _).trans (bbCols_0 a1).symm
theorem readCov_bbCols_1 (a1 : cc0_stg1_0.ty.Contents (Elt F)) :
    (Memref.whole cc0_scratch1).view.readCov (bbPieces a1) (Rect.unit (s := S512x1024) ![0, 128] S512x128.size inb_S512x1024_S512x128_0_128).toLoadRect = bbCols a1 1 :=
  (BodyLocal.readCov_bbPieces a1 _).trans (bbCols_1 a1).symm
theorem readCov_bbCols_2 (a1 : cc0_stg1_0.ty.Contents (Elt F)) :
    (Memref.whole cc0_scratch1).view.readCov (bbPieces a1) (Rect.unit (s := S512x1024) ![0, 256] S512x128.size inb_S512x1024_S512x128_0_256).toLoadRect = bbCols a1 2 :=
  (BodyLocal.readCov_bbPieces a1 _).trans (bbCols_2 a1).symm
theorem readCov_bbCols_3 (a1 : cc0_stg1_0.ty.Contents (Elt F)) :
    (Memref.whole cc0_scratch1).view.readCov (bbPieces a1) (Rect.unit (s := S512x1024) ![0, 384] S512x128.size inb_S512x1024_S512x128_0_384).toLoadRect = bbCols a1 3 :=
  (BodyLocal.readCov_bbPieces a1 _).trans (bbCols_3 a1).symm
theorem readCov_bbCols_4 (a1 : cc0_stg1_0.ty.Contents (Elt F)) :
    (Memref.whole cc0_scratch1).view.readCov (bbPieces a1) (Rect.unit (s := S512x1024) ![0, 512] S512x128.size inb_S512x1024_S512x128_0_512).toLoadRect = bbCols a1 4 :=
  (BodyLocal.readCov_bbPieces a1 _).trans (bbCols_4 a1).symm
theorem readCov_bbCols_5 (a1 : cc0_stg1_0.ty.Contents (Elt F)) :
    (Memref.whole cc0_scratch1).view.readCov (bbPieces a1) (Rect.unit (s := S512x1024) ![0, 640] S512x128.size inb_S512x1024_S512x128_0_640).toLoadRect = bbCols a1 5 :=
  (BodyLocal.readCov_bbPieces a1 _).trans (bbCols_5 a1).symm
theorem readCov_bbCols_6 (a1 : cc0_stg1_0.ty.Contents (Elt F)) :
    (Memref.whole cc0_scratch1).view.readCov (bbPieces a1) (Rect.unit (s := S512x1024) ![0, 768] S512x128.size inb_S512x1024_S512x128_0_768).toLoadRect = bbCols a1 6 :=
  (BodyLocal.readCov_bbPieces a1 _).trans (bbCols_6 a1).symm
theorem readCov_bbCols_7 (a1 : cc0_stg1_0.ty.Contents (Elt F)) :
    (Memref.whole cc0_scratch1).view.readCov (bbPieces a1) (Rect.unit (s := S512x1024) ![0, 896] S512x128.size inb_S512x1024_S512x128_0_896).toLoadRect = bbCols a1 7 :=
  (BodyLocal.readCov_bbPieces a1 _).trans (bbCols_7 a1).symm

/-! The 16 stored payloads, on the loads of the copies. -/

theorem stored0_0 (c : Dev nD) (a0 : cc0_stg0_0.ty.Contents (Elt F)) (a1 : cc0_stg1_0.ty.Contents (Elt F)) :
    k0_pay38 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 0] S512x128.size inb_S512x1024_S512x128_0_0).toLoadRect)
      = prodSlot (abRows c a0 0) (bbCols a1 0) := by
  rw [readCov_abRows0, readCov_bbCols_0, pay38_eq]
theorem stored1_0 (c : Dev nD) (a0 : cc0_stg0_0.ty.Contents (Elt F)) (a1 : cc0_stg1_0.ty.Contents (Elt F)) :
    k0_pay39 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 0] S512x128.size inb_S512x1024_S512x128_0_0).toLoadRect)
      = prodSlot (abRows c a0 1) (bbCols a1 0) := by
  rw [readCov_abRows1, readCov_bbCols_0, pay39_eq]
theorem stored0_1 (c : Dev nD) (a0 : cc0_stg0_0.ty.Contents (Elt F)) (a1 : cc0_stg1_0.ty.Contents (Elt F)) :
    k0_pay40 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 128] S512x128.size inb_S512x1024_S512x128_0_128).toLoadRect)
      = prodSlot (abRows c a0 0) (bbCols a1 1) := by
  rw [readCov_abRows0, readCov_bbCols_1, pay40_eq]
theorem stored1_1 (c : Dev nD) (a0 : cc0_stg0_0.ty.Contents (Elt F)) (a1 : cc0_stg1_0.ty.Contents (Elt F)) :
    k0_pay41 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 128] S512x128.size inb_S512x1024_S512x128_0_128).toLoadRect)
      = prodSlot (abRows c a0 1) (bbCols a1 1) := by
  rw [readCov_abRows1, readCov_bbCols_1, pay41_eq]
theorem stored0_2 (c : Dev nD) (a0 : cc0_stg0_0.ty.Contents (Elt F)) (a1 : cc0_stg1_0.ty.Contents (Elt F)) :
    k0_pay42 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 256] S512x128.size inb_S512x1024_S512x128_0_256).toLoadRect)
      = prodSlot (abRows c a0 0) (bbCols a1 2) := by
  rw [readCov_abRows0, readCov_bbCols_2, pay42_eq]
theorem stored1_2 (c : Dev nD) (a0 : cc0_stg0_0.ty.Contents (Elt F)) (a1 : cc0_stg1_0.ty.Contents (Elt F)) :
    k0_pay43 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 256] S512x128.size inb_S512x1024_S512x128_0_256).toLoadRect)
      = prodSlot (abRows c a0 1) (bbCols a1 2) := by
  rw [readCov_abRows1, readCov_bbCols_2, pay43_eq]
theorem stored0_3 (c : Dev nD) (a0 : cc0_stg0_0.ty.Contents (Elt F)) (a1 : cc0_stg1_0.ty.Contents (Elt F)) :
    k0_pay44 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 384] S512x128.size inb_S512x1024_S512x128_0_384).toLoadRect)
      = prodSlot (abRows c a0 0) (bbCols a1 3) := by
  rw [readCov_abRows0, readCov_bbCols_3, pay44_eq]
theorem stored1_3 (c : Dev nD) (a0 : cc0_stg0_0.ty.Contents (Elt F)) (a1 : cc0_stg1_0.ty.Contents (Elt F)) :
    k0_pay45 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 384] S512x128.size inb_S512x1024_S512x128_0_384).toLoadRect)
      = prodSlot (abRows c a0 1) (bbCols a1 3) := by
  rw [readCov_abRows1, readCov_bbCols_3, pay45_eq]
theorem stored0_4 (c : Dev nD) (a0 : cc0_stg0_0.ty.Contents (Elt F)) (a1 : cc0_stg1_0.ty.Contents (Elt F)) :
    k0_pay47 (k0_pay46 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 512] S512x128.size inb_S512x1024_S512x128_0_512).toLoadRect))
      = prodSlot (abRows c a0 0) (bbCols a1 4) := by
  rw [readCov_abRows0, readCov_bbCols_4, pay47_46_eq]
theorem stored1_4 (c : Dev nD) (a0 : cc0_stg0_0.ty.Contents (Elt F)) (a1 : cc0_stg1_0.ty.Contents (Elt F)) :
    k0_pay48 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 512] S512x128.size inb_S512x1024_S512x128_0_512).toLoadRect)
      = prodSlot (abRows c a0 1) (bbCols a1 4) := by
  rw [readCov_abRows1, readCov_bbCols_4, pay48_eq]
theorem stored0_5 (c : Dev nD) (a0 : cc0_stg0_0.ty.Contents (Elt F)) (a1 : cc0_stg1_0.ty.Contents (Elt F)) :
    k0_pay50 (k0_pay49 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 640] S512x128.size inb_S512x1024_S512x128_0_640).toLoadRect))
      = prodSlot (abRows c a0 0) (bbCols a1 5) := by
  rw [readCov_abRows0, readCov_bbCols_5, pay50_49_eq]
theorem stored1_5 (c : Dev nD) (a0 : cc0_stg0_0.ty.Contents (Elt F)) (a1 : cc0_stg1_0.ty.Contents (Elt F)) :
    k0_pay51 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 640] S512x128.size inb_S512x1024_S512x128_0_640).toLoadRect)
      = prodSlot (abRows c a0 1) (bbCols a1 5) := by
  rw [readCov_abRows1, readCov_bbCols_5, pay51_eq]
theorem stored0_6 (c : Dev nD) (a0 : cc0_stg0_0.ty.Contents (Elt F)) (a1 : cc0_stg1_0.ty.Contents (Elt F)) :
    k0_pay52 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 768] S512x128.size inb_S512x1024_S512x128_0_768).toLoadRect)
      = prodSlot (abRows c a0 0) (bbCols a1 6) := by
  rw [readCov_abRows0, readCov_bbCols_6, pay52_eq]
theorem stored1_6 (c : Dev nD) (a0 : cc0_stg0_0.ty.Contents (Elt F)) (a1 : cc0_stg1_0.ty.Contents (Elt F)) :
    k0_pay54 (k0_pay53 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 768] S512x128.size inb_S512x1024_S512x128_0_768).toLoadRect))
      = prodSlot (abRows c a0 1) (bbCols a1 6) := by
  rw [readCov_abRows1, readCov_bbCols_6, pay54_53_eq]
theorem stored0_7 (c : Dev nD) (a0 : cc0_stg0_0.ty.Contents (Elt F)) (a1 : cc0_stg1_0.ty.Contents (Elt F)) :
    k0_pay55 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 896] S512x128.size inb_S512x1024_S512x128_0_896).toLoadRect)
      = prodSlot (abRows c a0 0) (bbCols a1 7) := by
  rw [readCov_abRows0, readCov_bbCols_7, pay55_eq]
theorem stored1_7 (c : Dev nD) (a0 : cc0_stg0_0.ty.Contents (Elt F)) (a1 : cc0_stg1_0.ty.Contents (Elt F)) :
    k0_pay57 (k0_pay56 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 896] S512x128.size inb_S512x1024_S512x128_0_896).toLoadRect))
      = prodSlot (abRows c a0 1) (bbCols a1 7) := by
  rw [readCov_abRows1, readCov_bbCols_7, pay57_56_eq]

end Cert.KernelIdeal.BodyStage1

end
-- ==== Proof.Values.lean ====
/-
  What the exchange buffers hold, as functions of the devices' staged argument blocks, in the kernel's own
  operations. Stage one: a device's product for the partner (side 0) and for itself (side 1); the pair sum
  of what the partner sent and what was kept. Stage two: a row of the pair sum is a slot; the own slot and
  the three landed ones, added in the order the device waits for them. Stage three: a plane row of that
  sum is a slot; the own slot and the three landed ones, added likewise; the eight column chunks side by
  side are the result.
-/
import proofs.«900893_g7700000000000894_dist_matmul_mk_i_outk_m1024_n1024_k512_v7x_i32_f32_1_alg».proof.Proof.BodyStage1
import proofs.«900893_g7700000000000894_dist_matmul_mk_i_outk_m1024_n1024_k512_v7x_i32_f32_1_alg».proof.Proof.LaunchData
import proofs.«900893_g7700000000000894_dist_matmul_mk_i_outk_m1024_n1024_k512_v7x_i32_f32_1_alg».proof.Proof.Proto
import proofs.«900893_g7700000000000894_dist_matmul_mk_i_outk_m1024_n1024_k512_v7x_i32_f32_1_alg».proof.Proof.Gen.KernelIdeal.Skeleton
import Idealize.ShloMosaic.Lib.ValueIdx

noncomputable section

namespace Cert.KernelIdeal.Values

open Cert.KernelIdeal Cert.KernelIdeal.Gen Cert.KernelIdeal.Proto
open Cert.KernelIdeal.LaunchData (astg bstg)
open Cert.Mesh (partner rail zpeer zc pc yc xc pOf dev slot)
open Idealize.ShloMosaic Idealize.ShloMosaic.TcCoe Idealize.SL.Sem Idealize.ShloMosaic.ValueIdx

variable {F : FTy → Type} [FloatOps F]

/-! ## The sums, in the payloads' own operations -/

/-- A stage-one slot's value with the unit leading axis of its rectangle: what a load of the slot reads. -/
def up5 (X : Proto.C1 F) : FVec F S1x4x4x32x128 .bf16 :=
  shapeCast S1x4x4x32x128 X shapeCasts_S4x4x32x128_S1x4x4x32x128

/-- The pair sum: the landed block plus the kept block, added in f32 and rounded to bf16. -/
def pairF (a b : Vec F S1x4x4x32x128 .bf16) : FVec F S4x4x32x128 .bf16 := k0_pay58 a b

/-- The column sum: the own slot plus the three landed slots, in the order they are waited for, added in f32
    and rounded to bf16. -/
def accF (o c1 c2 c3 : Vec F S1x4x32x128 .bf16) : FVec F S4x32x128 .bf16 :=
  k0_pay71 (k0_pay70 (k0_pay69 (k0_pay68 o) c1) c2 c3)

/-- The plane sum: the own slot plus the three landed slots, in the order they are waited for, added in f32. -/
def faccF (o c1 c2 c3 : Vec F S1x32x128 .bf16) : FVec F S32x128 .f32 :=
  k0_pay99 (k0_pay98 (k0_pay97 o c1) c2) c3

/-- Row y of a 4 × 4 × 32 × 128 value, as a stage-two slot. -/
def row2 (X : FVec F S4x4x32x128 .bf16) (y : Fin 4) : Proto.C2 F :=
  fun j => X (ix4 y (⟨(j 1).val, (j 1).isLt⟩ : Fin 4) (⟨(j 2).val, (j 2).isLt⟩ : Fin 32) (⟨(j 3).val, (j 3).isLt⟩ : Fin 128))

/-- Plane row z of a 4 × 32 × 128 value, as a stage-three slot. -/
def row3 (X : FVec F S4x32x128 .bf16) (z : Fin 4) : Proto.C3 F :=
  fun j => X (ix3 z (⟨(j 1).val, (j 1).isLt⟩ : Fin 32) (⟨(j 2).val, (j 2).isLt⟩ : Fin 128))

/-! ## The contents families -/

variable (m : (ℓ : Loc nD τ sig) → Buf (Elt F) ℓ)

/-- Slot q of device d's buffer for its partner: d's product on the rows of the other column. -/
def S1v (d : Dev nD) (q : Fin 8) : Proto.C1 F := BodyStage1.S1val d (astg m d) (bstg m d) q
/-- Slot q of device d's kept buffer: d's product on the rows of its own column. -/
def OWNv (d : Dev nD) (q : Fin 8) : Proto.C1 F := BodyStage1.OWNval d (astg m d) (bstg m d) q

/-- Chunk q of device d after stage one: what its partner sent plus what it kept. -/
def PAIRv (d : Dev nD) (q : Fin 8) : FVec F S4x4x32x128 .bf16 :=
  pairF (up5 (S1v m (partner d) q)) (up5 (OWNv m d q))

/-- Slot i of device d's stage-two send buffer: row i % 4 of the pair sum of chunk i / 4. -/
def P2v (d : Dev nD) (i : Fin 32) : Proto.C2 F :=
  row2 (PAIRv m d (qOf i)) ⟨i.val % 4, Nat.mod_lt _ (by decide)⟩

/-- Chunk q of device d after stage two: its own row's slot plus the slots landed from the rail peers 3, 2, 1
    rows on, each the sender's slot of THIS device's row. -/
def ACCv (d : Dev nD) (q : Fin 8) : FVec F S4x32x128 .bf16 :=
  accF (P2v m d (slot (yc d) q 0)) (P2v m (rail d 3) (slot (yc d) q 0))
    (P2v m (rail d 2) (slot (yc d) q 0)) (P2v m (rail d 1) (slot (yc d) q 0))

/-- Slot i of device d's stage-three send buffer: plane row i % 4 of the column sum of chunk i / 4. -/
def P3v (d : Dev nD) (i : Fin 32) : Proto.C3 F :=
  row3 (ACCv m d (qOf i)) ⟨i.val % 4, Nat.mod_lt _ (by decide)⟩

/-- Chunk q of device d after stage three: its own plane's slot plus the slots landed from the plane peers 3, 2, 1
    planes on, each the sender's slot of THIS device's plane. -/
def FACCv (d : Dev nD) (q : Fin 8) : FVec F S32x128 .f32 :=
  faccF (P3v m d (slot (zc d) q 0)) (P3v m (zpeer d 3) (slot (zc d) q 0))
    (P3v m (zpeer d 2) (slot (zc d) q 0)) (P3v m (zpeer d 1) (slot (zc d) q 0))

/-- The result block of device d: the eight column chunks side by side. -/
def OUTv (d : Dev nD) : FVec F S32x1024 .f32 :=
  fun j => FACCv m d ⟨(j 1).val / 128, by have h : (j 1).val < 1024 := (j 1).isLt; omega⟩
    (ix2 (⟨(j 0).val, (j 0).isLt⟩ : Fin 32) (⟨(j 1).val % 128, Nat.mod_lt _ (by decide)⟩ : Fin 128))

end Cert.KernelIdeal.Values

end
-- ==== Proof.PayIdeal.lean ====
/-
  The kernel's sixteen matrix products, read at an index at the ideal values. Each multiplies a 512 × 512
  block by a 512 × 128 block into a zero accumulator and lays the 512 × 128 result out as 1 × 4 × 4 × 32 × 128
  in row-major order; a change of format is the identity on the extended reals. So entry (0, y, z, r, j) of the
  laid-out result is the sum over k of lhs(((4·y + z)·32 + r), k) · rhs(k, j).
-/
import proofs.«900893_g7700000000000894_dist_matmul_mk_i_outk_m1024_n1024_k512_v7x_i32_f32_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.PayIdeal

open Cert.KernelIdeal Cert.KernelIdeal.Gen Idealize.ShloMosaic Idealize.SL.Sem Idealize.ShloMosaic.ValueIdx

/-! ## The product at an index -/

/-- The left operand's row is the result's row. -/
theorem lhs_row (i : S512x128.Idx) (q : dot_S512x512_S512x128_S512x128_1_0_0_1_n_n.contr.Idx) : (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide),
    dif_pos (show (0 : Fin S512x512.rank) ∈ dot_S512x512_S512x128_S512x128_1_0_0_1_n_n.lhsNonContracting by decide)]
  rfl

/-- The right operand's column is the result's column. -/
theorem rhs_col (i : S512x128.Idx) (q : dot_S512x512_S512x128_S512x128_1_0_0_1_n_n.contr.Idx) : (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide),
    dif_pos (show (1 : Fin S512x128.rank) ∈ dot_S512x512_S512x128_S512x128_1_0_0_1_n_n.rhsNonContracting by decide)]
  rfl

/-- The product into a zero accumulator, at row p and column q: the sum over the 512 contracted positions. -/
theorem mm_apply (lhs : FVec Ideal S512x512 .bf16) (rhs : FVec Ideal S512x128 .bf16) (p : Fin 512) (q : Fin 128) :
    matmul dot_S512x512_S512x128_S512x128_1_0_0_1_n_n none lhs rhs (constant S512x128 .f32 0x00000000#32) (ix2 p q)
      = ∑ k : Fin 512, lhs (ix2 p k) * rhs (ix2 k q) := by
  show FloatOps.matmul dot_S512x512_S512x128_S512x128_1_0_0_1_n_n none lhs rhs (constant S512x128 .f32 0x00000000#32) (ix2 p q) = _
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p q) ((contrEquiv1 dot_S512x512_S512x128_S512x128_1_0_0_1_n_n 512 rfl rfl).symm k) = ix2 p k :=
    funext fun a => Fin.ext (by
      match a with
      | ⟨0, _⟩ => exact lhs_row _ _
      | ⟨1, _⟩ => exact (dot_S512x512_S512x128_S512x128_1_0_0_1_n_n.lhsIdx_val_of_single rfl _ _).trans hk)
  have er : dot_S512x512_S512x128_S512x128_1_0_0_1_n_n.rhsIdx (ix2 p q) ((contrEquiv1 dot_S512x512_S512x128_S512x128_1_0_0_1_n_n 512 rfl rfl).symm k) = ix2 k q :=
    funext fun a => Fin.ext (by
      match a with
      | ⟨0, _⟩ => exact (dot_S512x512_S512x128_S512x128_1_0_0_1_n_n.rhsIdx_val_of_single rfl _ _).trans hk
      | ⟨1, _⟩ => exact rhs_col _ _)
  rw [el, er]

/-! ## The two changes of shape at an index -/

/-- 512 × 128 read as 4 × 4 × 32 × 128 in row-major order: entry (y, z, r, j) is row (4·y + z)·32 + r, column j. -/
theorem cast4_apply {α : Type} (v : S512x128.Idx → α) (h : S512x128.ShapeCasts S4x4x32x128)
    (y zo : Fin 4) (r : Fin 32) (jj : Fin 128) :
    shapeCast S4x4x32x128 v h (ix4 y zo r jj)
      = v (ix2 (⟨(4 * y.val + zo.val) * 32 + r.val, by have := y.isLt; have := zo.isLt; have := r.isLt; omega⟩ : Fin 512) jj) := by
  refine shapeCast_apply v h _ _ ?_
  rw [Shape.rowMajor_val_two, Shape.rowMajor_val_four]
  show ((4 * y.val + zo.val) * 32 + r.val) * 128 + jj.val = ((y.val * 4 + zo.val) * 32 + r.val) * 128 + jj.val
  omega

/-- A leading unit axis added: entry (0, y, z, r, j) is entry (y, z, r, j). -/
theorem cast5_apply {α : Type} (w : S4x4x32x128.Idx → α) (h : S4x4x32x128.ShapeCasts S1x4x4x32x128)
    (u : Fin 1) (y zo : Fin 4) (r : Fin 32) (jj : Fin 128) :
    shapeCast S1x4x4x32x128 w h (ix5 u y zo r jj) = w (ix4 y zo r jj) := by
  refine shapeCast_apply w h _ _ ?_
  rw [Shape.rowMajor_val_four, Shape.rowMajor_val_five]
  show ((y.val * 4 + zo.val) * 32 + r.val) * 128 + jj.val
    = (((u.val * 4 + y.val) * 4 + zo.val) * 32 + r.val) * 128 + jj.val
  have := u.isLt
  omega

/-- The whole chain — product, change of format, the two changes of shape — at entry (0, y, z, r, j). -/
theorem prod_apply (lhs : FVec Ideal S512x512 .bf16) (rhs : FVec Ideal S512x128 .bf16)
    (hb : FTy.bits .bf16 < FTy.bits .f32) (h4 : S512x128.ShapeCasts S4x4x32x128) (h5 : S4x4x32x128.ShapeCasts S1x4x4x32x128)
    (u : Fin 1) (y zo : Fin 4) (r : Fin 32) (jj : Fin 128) :
    shapeCast S1x4x4x32x128
        (shapeCast S4x4x32x128 (truncf .bf16 (matmul dot_S512x512_S512x128_S512x128_1_0_0_1_n_n none lhs rhs (constant S512x128 .f32 0x00000000#32)) hb) h4) h5
        (ix5 u y zo r jj)
      = ∑ k : Fin 512,
          lhs (ix2 (⟨(4 * y.val + zo.val) * 32 + r.val, by have := y.isLt; have := zo.isLt; have := r.isLt; omega⟩ : Fin 512) k)
            * rhs (ix2 k jj) := by
  rw [cast5_apply, cast4_apply, truncf_apply, mm_apply]

/-! ## The sixteen products -/

theorem k0_pay38_apply (lhs : Vec Ideal S512x512 .bf16) (rhs : Vec Ideal S512x128 .bf16)
    (u : Fin 1) (y zo : Fin 4) (r : Fin 32) (jj : Fin 128) :
    k0_pay38 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay39_apply (lhs : Vec Ideal S512x512 .bf16) (rhs : Vec Ideal S512x128 .bf16)
    (u : Fin 1) (y zo : Fin 4) (r : Fin 32) (jj : Fin 128) :
    k0_pay39 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay40_apply (lhs : Vec Ideal S512x512 .bf16) (rhs : Vec Ideal S512x128 .bf16)
    (u : Fin 1) (y zo : Fin 4) (r : Fin 32) (jj : Fin 128) :
    k0_pay40 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay41_apply (lhs : Vec Ideal S512x512 .bf16) (rhs : Vec Ideal S512x128 .bf16)
    (u : Fin 1) (y zo : Fin 4) (r : Fin 32) (jj : Fin 128) :
    k0_pay41 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay42_apply (lhs : Vec Ideal S512x512 .bf16) (rhs : Vec Ideal S512x128 .bf16)
    (u : Fin 1) (y zo : Fin 4) (r : Fin 32) (jj : Fin 128) :
    k0_pay42 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay43_apply (lhs : Vec Ideal S512x512 .bf16) (rhs : Vec Ideal S512x128 .bf16)
    (u : Fin 1) (y zo : Fin 4) (r : Fin 32) (jj : Fin 128) :
    k0_pay43 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay44_apply (lhs : Vec Ideal S512x512 .bf16) (rhs : Vec Ideal S512x128 .bf16)
    (u : Fin 1) (y zo : Fin 4) (r : Fin 32) (jj : Fin 128) :
    k0_pay44 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay45_apply (lhs : Vec Ideal S512x512 .bf16) (rhs : Vec Ideal S512x128 .bf16)
    (u : Fin 1) (y zo : Fin 4) (r : Fin 32) (jj : Fin 128) :
    k0_pay45 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay48_apply (lhs : Vec Ideal S512x512 .bf16) (rhs : Vec Ideal S512x128 .bf16)
    (u : Fin 1) (y zo : Fin 4) (r : Fin 32) (jj : Fin 128) :
    k0_pay48 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay51_apply (lhs : Vec Ideal S512x512 .bf16) (rhs : Vec Ideal S512x128 .bf16)
    (u : Fin 1) (y zo : Fin 4) (r : Fin 32) (jj : Fin 128) :
    k0_pay51 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay52_apply (lhs : Vec Ideal S512x512 .bf16) (rhs : Vec Ideal S512x128 .bf16)
    (u : Fin 1) (y zo : Fin 4) (r : Fin 32) (jj : Fin 128) :
    k0_pay52 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

theorem k0_pay55_apply (lhs : Vec Ideal S512x512 .bf16) (rhs : Vec Ideal S512x128 .bf16)
    (u : Fin 1) (y zo : Fin 4) (r : Fin 32) (jj : Fin 128) :
    k0_pay55 (F := Ideal) lhs rhs (ix5 u y zo r jj)
      = ∑ k : Fin 512, lhs (ix2 (⟨(4 * y.val + zo.val) * 32 + r.val, by have := y.isLt; have := zo.isLt; have := r.isLt; omega⟩ : Fin 512) k) * rhs (ix2 k jj) :=
  prod_apply lhs rhs _ _ _ u y zo r jj

/-- The product, already laid out as 4 × 4 × 32 × 128. -/
theorem k0_pay46_apply (lhs : Vec Ideal S512x512 .bf16) (rhs : Vec Ideal S512x128 .bf16)
    (y zo : Fin 4) (r : Fin 32) (jj : Fin 128) :
    k0_pay46 (F := Ideal) lhs rhs (ix4 y zo r jj)
      = ∑ k : Fin 512, lhs (ix2 (⟨(4 * y.val + zo.val) * 32 + r.val, by have := y.isLt; have := zo.isLt; have := r.isLt; omega⟩ : Fin 512) k) * rhs (ix2 k jj) := by
  show shapeCast S4x4x32x128 (truncf .bf16 (matmul (F := Ideal) (φ₁ := .bf16) (φ₂ := .bf16) dot_S512x512_S512x128_S512x128_1_0_0_1_n_n none lhs rhs (constant S512x128 .f32 0x00000000#32)) _) _ (ix4 y zo r jj) = _
  rw [cast4_apply, truncf_apply, mm_apply]

/-- The leading unit axis added to it. -/
theorem k0_pay47_apply (w : FVec Ideal S4x4x32x128 .bf16) (u : Fin 1) (y zo : Fin 4) (r : Fin 32) (jj : Fin 128) :
    k0_pay47 (F := Ideal) w (ix5 u y zo r jj) = w (ix4 y zo r jj) :=
  cast5_apply w _ u y zo r jj

theorem k0_pay47_pay46_apply (lhs : Vec Ideal S512x512 .bf16) (rhs : Vec Ideal S512x128 .bf16)
    (u : Fin 1) (y zo : Fin 4) (r : Fin 32) (jj : Fin 128) :
    k0_pay47 (F := Ideal) (k0_pay46 (F := Ideal) lhs rhs) (ix5 u y zo r jj)
      = ∑ k : Fin 512, lhs (ix2 (⟨(4 * y.val + zo.val) * 32 + r.val, by have := y.isLt; have := zo.isLt; have := r.isLt; omega⟩ : Fin 512) k) * rhs (ix2 k jj) := by
  rw [k0_pay47_apply, k0_pay46_apply]

/-- The product, already laid out as 4 × 4 × 32 × 128. -/
theorem k0_pay53_apply (lhs : Vec Ideal S512x512 .bf16) (rhs : Vec Ideal S512x128 .bf16)
    (y zo : Fin 4) (r : Fin 32) (jj : Fin 128) :
    k0_pay53 (F := Ideal) lhs rhs (ix4 y zo r jj)
      = ∑ k : Fin 512, lhs (ix2 (⟨(4 * y.val + zo.val) * 32 + r.val, by have := y.isLt; have := zo.isLt; have := r.isLt; omega⟩ : Fin 512) k) * rhs (ix2 k jj) := by
  show shapeCast S4x4x32x128 (truncf .bf16 (matmul (F := Ideal) (φ₁ := .bf16) (φ₂ := .bf16) dot_S512x512_S512x128_S512x128_1_0_0_1_n_n none lhs rhs (constant S512x128 .f32 0x00000000#32)) _) _ (ix4 y zo r jj) = _
  rw [cast4_apply, truncf_apply, mm_apply]

/-- The leading unit axis added to it. -/
theorem k0_pay54_apply (w : FVec Ideal S4x4x32x128 .bf16) (u : Fin 1) (y zo : Fin 4) (r : Fin 32) (jj : Fin 128) :
    k0_pay54 (F := Ideal) w (ix5 u y zo r jj) = w (ix4 y zo r jj) :=
  cast5_apply w _ u y zo r jj

theorem k0_pay54_pay53_apply (lhs : Vec Ideal S512x512 .bf16) (rhs : Vec Ideal S512x128 .bf16)
    (u : Fin 1) (y zo : Fin 4) (r : Fin 32) (jj : Fin 128) :
    k0_pay54 (F := Ideal) (k0_pay53 (F := Ideal) lhs rhs) (ix5 u y zo r jj)
      = ∑ k : Fin 512, lhs (ix2 (⟨(4 * y.val + zo.val) * 32 + r.val, by have := y.isLt; have := zo.isLt; have := r.isLt; omega⟩ : Fin 512) k) * rhs (ix2 k jj) := by
  rw [k0_pay54_apply, k0_pay53_apply]

/-- The product, already laid out as 4 × 4 × 32 × 128. -/
theorem k0_pay56_apply (lhs : Vec Ideal S512x512 .bf16) (rhs : Vec Ideal S512x128 .bf16)
    (y zo : Fin 4) (r : Fin 32) (jj : Fin 128) :
    k0_pay56 (F := Ideal) lhs rhs (ix4 y zo r jj)
      = ∑ k : Fin 512, lhs (ix2 (⟨(4 * y.val + zo.val) * 32 + r.val, by have := y.isLt; have := zo.isLt; have := r.isLt; omega⟩ : Fin 512) k) * rhs (ix2 k jj) := by
  show shapeCast S4x4x32x128 (truncf .bf16 (matmul (F := Ideal) (φ₁ := .bf16) (φ₂ := .bf16) dot_S512x512_S512x128_S512x128_1_0_0_1_n_n none lhs rhs (constant S512x128 .f32 0x00000000#32)) _) _ (ix4 y zo r jj) = _
  rw [cast4_apply, truncf_apply, mm_apply]

/-- The leading unit axis added to it. -/
theorem k0_pay57_apply (w : FVec Ideal S4x4x32x128 .bf16) (u : Fin 1) (y zo : Fin 4) (r : Fin 32) (jj : Fin 128) :
    k0_pay57 (F := Ideal) w (ix5 u y zo r jj) = w (ix4 y zo r jj) :=
  cast5_apply w _ u y zo r jj

theorem k0_pay57_pay56_apply (lhs : Vec Ideal S512x512 .bf16) (rhs : Vec Ideal S512x128 .bf16)
    (u : Fin 1) (y zo : Fin 4) (r : Fin 32) (jj : Fin 128) :
    k0_pay57 (F := Ideal) (k0_pay56 (F := Ideal) lhs rhs) (ix5 u y zo r jj)
      = ∑ k : Fin 512, lhs (ix2 (⟨(4 * y.val + zo.val) * 32 + r.val, by have := y.isLt; have := zo.isLt; have := r.isLt; omega⟩ : Fin 512) k) * rhs (ix2 k jj) := by
  rw [k0_pay57_apply, k0_pay56_apply]

/-- The product, still 512 × 128. -/
theorem k0_pay49_apply (lhs : Vec Ideal S512x512 .bf16) (rhs : Vec Ideal S512x128 .bf16) (p : Fin 512) (q : Fin 128) :
    k0_pay49 (F := Ideal) lhs rhs (ix2 p q) = ∑ k : Fin 512, lhs (ix2 p k) * rhs (ix2 k q) := by
  show truncf .bf16 (matmul (F := Ideal) (φ₁ := .bf16) (φ₂ := .bf16) dot_S512x512_S512x128_S512x128_1_0_0_1_n_n none lhs rhs (constant S512x128 .f32 0x00000000#32)) _ (ix2 p q) = _
  rw [truncf_apply, mm_apply]

/-- The two changes of shape applied to it. -/
theorem k0_pay50_apply (v : FVec Ideal S512x128 .bf16) (u : Fin 1) (y zo : Fin 4) (r : Fin 32) (jj : Fin 128) :
    k0_pay50 (F := Ideal) v (ix5 u y zo r jj) = v (ix2 (⟨(4 * y.val + zo.val) * 32 + r.val, by have := y.isLt; have := zo.isLt; have := r.isLt; omega⟩ : Fin 512) jj) := by
  show shapeCast S1x4x4x32x128 (shapeCast S4x4x32x128 v _) _ (ix5 u y zo r jj) = _
  rw [cast5_apply, cast4_apply]

theorem k0_pay50_pay49_apply (lhs : Vec Ideal S512x512 .bf16) (rhs : Vec Ideal S512x128 .bf16)
    (u : Fin 1) (y zo : Fin 4) (r : Fin 32) (jj : Fin 128) :
    k0_pay50 (F := Ideal) (k0_pay49 (F := Ideal) lhs rhs) (ix5 u y zo r jj)
      = ∑ k : Fin 512, lhs (ix2 (⟨(4 * y.val + zo.val) * 32 + r.val, by have := y.isLt; have := zo.isLt; have := r.isLt; omega⟩ : Fin 512) k) * rhs (ix2 k jj) := by
  rw [k0_pay50_apply, k0_pay49_apply]

end Cert.KernelIdeal.PayIdeal

end
-- ==== Proof.PartialIdeal.lean ====
/-
  What a device's stage-one slots hold, at the ideal values: its partial product. Slot q of the buffer sent
  to the partner holds, at (y, z, r, j), the sum over the device's 512 contracted positions of row
  (8·z + p)·32 + r of its block of A, p the position of the OTHER column on row y, by column 128·q + j of its
  block of B: the rows of the device of plane z, the other column, row y. Slot q of the buffer kept holds the
  same with p the position of the device's own column on row y.
-/
import proofs.«900893_g7700000000000894_dist_matmul_mk_i_outk_m1024_n1024_k512_v7x_i32_f32_1_alg».proof.Proof.BodyStage1
import proofs.«900893_g7700000000000894_dist_matmul_mk_i_outk_m1024_n1024_k512_v7x_i32_f32_1_alg».proof.Proof.BodyLocal
import proofs.«900893_g7700000000000894_dist_matmul_mk_i_outk_m1024_n1024_k512_v7x_i32_f32_1_alg».proof.Proof.PayIdeal
import proofs.«900893_g7700000000000894_dist_matmul_mk_i_outk_m1024_n1024_k512_v7x_i32_f32_1_alg».proof.Proof.MeshFacts

noncomputable section

open scoped BigOperators

namespace Cert.KernelIdeal.PartialIdeal

open Cert.KernelIdeal Cert.KernelIdeal.Gen Cert.KernelIdeal.BodyStage1 Cert.KernelIdeal.BodyLocal Cert.KernelIdeal.PayIdeal
open Idealize.ShloMosaic Idealize.SL.Sem Idealize.ShloMosaic.ValueIdx
open Cert.Mesh (partner rail zpeer zc pc yc xc pOf dev)

/-- The right operand of chunk q, at (k, j): the staged B block at (k, 128·q + j). -/
theorem bbCols_apply (a1 : cc0_stg1_0.ty.Contents (Elt Ideal)) (q : Fin 8) (k : Fin 512) (jj : Fin 128) :
    bbCols (F := Ideal) a1 q (ix2 k jj)
      = a1 (ix2 k (⟨128 * q.val + jj.val, by have := q.isLt; have := jj.isLt; omega⟩ : Fin 1024)) := by
  show a1 ((Rect.unit (s := S512x1024) ![0, 128 * q.val] S512x128.size (inbCols q)).toLoadRect.idx (ix2 k jj)) = _
  congr 1
  funext a
  apply Fin.ext
  match a with
  | ⟨0, _⟩ => show 0 + 1 * k.val = k.val; omega
  | ⟨1, _⟩ => show 128 * q.val + 1 * jj.val = 128 * q.val + jj.val; omega

/-- The left operand of side 0, at row (4·y + z)·32 + r: the staged A block at row (8·z + p)·32 + r, p the
    position of the other column on row y. -/
theorem abRows0_apply (c : Dev nD) (a0 : cc0_stg0_0.ty.Contents (Elt Ideal)) (y zo : Fin 4) (r : Fin 32) (k : Fin 512) :
    abRows (F := Ideal) c a0 0 (ix2 (⟨(4 * y.val + zo.val) * 32 + r.val, by have := y.isLt; have := zo.isLt; have := r.isLt; omega⟩ : Fin 512) k)
      = a0 (ix2 (⟨(zo.val * 8 + pOf (1 - xc c) y.val) * 32 + r.val, by
          have := zo.isLt; have := r.isLt; have : pOf (1 - xc c) y.val < 8 := by unfold pOf; have := y.isLt; omega
          omega⟩ : Fin 1024) k) := by
  have hy := y.isLt; have hz := zo.isLt; have hr := r.isLt
  have hj : 4 * y.val + zo.val < 16 := by omega
  let j : Fin 32 := ⟨4 * y.val + zo.val, by omega⟩
  let y0 : S1024x512.Idx := (Rect.unit (s := S1024x512) ![0, 0] S512x512.size inb_S1024x512_S512x512_0_0).toLoadRect.idx (ix2 (⟨(4 * y.val + zo.val) * 32 + r.val, by have := y.isLt; have := zo.isLt; have := r.isLt; omega⟩ : Fin 512) k)
  have hb : blk32 y0 = j := Fin.ext (by
    show (0 + 1 * ((4 * y.val + zo.val) * 32 + r.val)) / 32 = 4 * y.val + zo.val
    omega)
  show srcBlk c a0 (blk32 y0) (loc32 y0) = _
  rw [hb, srcBlk_of_lt c a0 j hj]
  show a0 _ = a0 _
  congr 1
  funext a
  apply Fin.ext
  match a with
  | ⟨0, _⟩ =>
    show k0_off1 c (k0_off1_at ⟨j.val, hj⟩).1 (k0_off1_at ⟨j.val, hj⟩).2.1 (k0_off1_at ⟨j.val, hj⟩).2.2 0
        + 1 * ((0 + 1 * ((4 * y.val + zo.val) * 32 + r.val)) % 32) = (zo.val * 8 + pOf (1 - xc c) y.val) * 32 + r.val
    rw [MeshFacts.off1_pt c ⟨j.val, hj⟩ 0]
    show (4 * y.val + zo.val) % 4 * 256 + pOf (1 - xc c) ((4 * y.val + zo.val) / 4) * 32
        + 1 * ((0 + 1 * ((4 * y.val + zo.val) * 32 + r.val)) % 32) = _
    rw [show (4 * y.val + zo.val) / 4 = y.val by omega]
    omega
  | ⟨1, _⟩ =>
    show k0_off1 c (k0_off1_at ⟨j.val, hj⟩).1 (k0_off1_at ⟨j.val, hj⟩).2.1 (k0_off1_at ⟨j.val, hj⟩).2.2 1
        + 1 * (0 + 1 * k.val) = k.val
    rw [MeshFacts.off1_pt c ⟨j.val, hj⟩ 1]
    show 0 + 1 * (0 + 1 * k.val) = k.val
    omega

/-- The left operand of side 1, at row (4·y + z)·32 + r: the staged A block at row (8·z + p)·32 + r, p the
    position of the device's own column on row y. -/
theorem abRows1_apply (c : Dev nD) (a0 : cc0_stg0_0.ty.Contents (Elt Ideal)) (y zo : Fin 4) (r : Fin 32) (k : Fin 512) :
    abRows (F := Ideal) c a0 1 (ix2 (⟨(4 * y.val + zo.val) * 32 + r.val, by have := y.isLt; have := zo.isLt; have := r.isLt; omega⟩ : Fin 512) k)
      = a0 (ix2 (⟨(zo.val * 8 + pOf (xc c) y.val) * 32 + r.val, by
          have := zo.isLt; have := r.isLt; have : pOf (xc c) y.val < 8 := by unfold pOf; have := y.isLt; omega
          omega⟩ : Fin 1024) k) := by
  have hy := y.isLt; have hz := zo.isLt; have hr := r.isLt
  let j : Fin 32 := ⟨16 + (4 * y.val + zo.val), by omega⟩
  have hj : ¬ j.val < 16 := by show ¬ 16 + (4 * y.val + zo.val) < 16; omega
  let y0 : S1024x512.Idx := (Rect.unit (s := S1024x512) ![512, 0] S512x512.size inb_S1024x512_S512x512_512_0).toLoadRect.idx (ix2 (⟨(4 * y.val + zo.val) * 32 + r.val, by have := y.isLt; have := zo.isLt; have := r.isLt; omega⟩ : Fin 512) k)
  have hb : blk32 y0 = j := Fin.ext (by
    show (512 + 1 * ((4 * y.val + zo.val) * 32 + r.val)) / 32 = 16 + (4 * y.val + zo.val)
    omega)
  show srcBlk c a0 (blk32 y0) (loc32 y0) = _
  rw [hb, srcBlk_of_ge c a0 j hj]
  show a0 _ = a0 _
  congr 1
  funext a
  apply Fin.ext
  match a with
  | ⟨0, _⟩ =>
    show k0_off2 c (k0_off2_at ⟨j.val - 16, by omega⟩).1 (k0_off2_at ⟨j.val - 16, by omega⟩).2.1 (k0_off2_at ⟨j.val - 16, by omega⟩).2.2 0
        + 1 * ((512 + 1 * ((4 * y.val + zo.val) * 32 + r.val)) % 32) = (zo.val * 8 + pOf (xc c) y.val) * 32 + r.val
    rw [MeshFacts.off2_pt c ⟨j.val - 16, by omega⟩ 0]
    show (16 + (4 * y.val + zo.val) - 16) % 4 * 256 + pOf (xc c) ((16 + (4 * y.val + zo.val) - 16) / 4) * 32
        + 1 * ((512 + 1 * ((4 * y.val + zo.val) * 32 + r.val)) % 32) = _
    rw [show (16 + (4 * y.val + zo.val) - 16) / 4 = y.val by omega]
    omega
  | ⟨1, _⟩ =>
    show k0_off2 c (k0_off2_at ⟨j.val - 16, by omega⟩).1 (k0_off2_at ⟨j.val - 16, by omega⟩).2.1 (k0_off2_at ⟨j.val - 16, by omega⟩).2.2 1
        + 1 * (0 + 1 * k.val) = k.val
    rw [MeshFacts.off2_pt c ⟨j.val - 16, by omega⟩ 1]
    show 0 + 1 * (0 + 1 * k.val) = k.val
    omega

/-! ## The two stage-one slots of chunk q -/

/-- The product in the slot's shape, at (y, z, r, j): the sum over the contracted positions. -/
theorem prod4_apply (lhs : Vec Ideal S512x512 .bf16) (rhs : Vec Ideal S512x128 .bf16) (y zo : Fin 4) (r : Fin 32) (jj : Fin 128) :
    prod4 (F := Ideal) lhs rhs (ix4 y zo r jj) = ∑ k : Fin 512, lhs (ix2 (⟨(4 * y.val + zo.val) * 32 + r.val, by have := y.isLt; have := zo.isLt; have := r.isLt; omega⟩ : Fin 512) k) * rhs (ix2 k jj) := by
  show shapeCast S4x4x32x128 (truncf .bf16 (matmul (F := Ideal) (φ₁ := .bf16) (φ₂ := .bf16) dot_S512x512_S512x128_S512x128_1_0_0_1_n_n none lhs rhs (constant S512x128 .f32 0x00000000#32)) _) _ (ix4 y zo r jj) = _
  rw [cast4_apply, truncf_apply, mm_apply]

/-- What goes to the partner: the device's partial product for the rows of the device of plane z, the other
    column, row y, and the columns of chunk q. -/
theorem S1val_apply (c : Dev nD) (a0 : FVec Ideal S1024x512 .f32) (a1 : FVec Ideal S512x1024 .f32) (q : Fin 8)
    (y zo : Fin 4) (r : Fin 32) (jj : Fin 128) :
    S1val (F := Ideal) c a0 a1 q (ix4 y zo r jj)
      = ∑ k : Fin 512, a0 (ix2 (⟨(zo.val * 8 + pOf (1 - xc c) y.val) * 32 + r.val, by
          have := zo.isLt; have := r.isLt; have : pOf (1 - xc c) y.val < 8 := by unfold pOf; have := y.isLt; omega
          omega⟩ : Fin 1024) k) * a1 (ix2 k (⟨128 * q.val + jj.val, by have := q.isLt; have := jj.isLt; omega⟩ : Fin 1024)) := by
  rw [S1val_eq, prod4_apply]
  refine Finset.sum_congr rfl fun k _ => ?_
  rw [abRows0_apply, bbCols_apply]

/-- What is kept: the device's partial product for the rows of the device of plane z, its own column, row y,
    and the columns of chunk q. -/
theorem OWNval_apply (c : Dev nD) (a0 : FVec Ideal S1024x512 .f32) (a1 : FVec Ideal S512x1024 .f32) (q : Fin 8)
    (y zo : Fin 4) (r : Fin 32) (jj : Fin 128) :
    OWNval (F := Ideal) c a0 a1 q (ix4 y zo r jj)
      = ∑ k : Fin 512, a0 (ix2 (⟨(zo.val * 8 + pOf (xc c) y.val) * 32 + r.val, by
          have := zo.isLt; have := r.isLt; have : pOf (xc c) y.val < 8 := by unfold pOf; have := y.isLt; omega
          omega⟩ : Fin 1024) k) * a1 (ix2 k (⟨128 * q.val + jj.val, by have := q.isLt; have := jj.isLt; omega⟩ : Fin 1024)) := by
  rw [OWNval_eq, prod4_apply]
  refine Finset.sum_congr rfl fun k _ => ?_
  rw [abRows1_apply, bbCols_apply]

end Cert.KernelIdeal.PartialIdeal

end
-- ==== Proof.PayIdeal2.lean ====
/-
  The payloads of the three reduction stages, read at an index at the ideal values. Each widens or narrows a
  format (the identity on the extended reals), drops the leading unit axis of a block, and adds two or three
  operands; so at every index it is the plain sum of its operands at the matching index, in the order and
  association the text adds them.
-/
import proofs.«900893_g7700000000000894_dist_matmul_mk_i_outk_m1024_n1024_k512_v7x_i32_f32_1_alg».proof.Proof.Gen.KernelIdeal.Skeleton
import Idealize.ShloMosaic.Lib.ValueIdx
import Idealize.ShloMosaic.Lib.Pipeline.Value

noncomputable section

namespace Cert.KernelIdeal.PayIdeal

open Cert.KernelIdeal Cert.KernelIdeal.Gen Idealize.ShloMosaic Idealize.SL.Sem Idealize.ShloMosaic.ValueIdx

/-! ## A leading unit axis dropped, at an index -/

/-- 1 × 4 × 4 × 32 × 128 read as 4 × 4 × 32 × 128: entry (y, z, r, j) is entry (0, y, z, r, j). -/
theorem drop5_apply {α : Type} (v : S1x4x4x32x128.Idx → α) (h : S1x4x4x32x128.ShapeCasts S4x4x32x128)
    (y zo : Fin 4) (r : Fin 32) (jj : Fin 128) :
    shapeCast S4x4x32x128 v h (ix4 y zo r jj) = v (ix5 (0 : Fin 1) y zo r jj) := by
  refine shapeCast_apply v h _ _ ?_
  rw [Shape.rowMajor_val_four, Shape.rowMajor_val_five]
  show ((((0 : ℕ) * 4 + y.val) * 4 + zo.val) * 32 + r.val) * 128 + jj.val
    = ((y.val * 4 + zo.val) * 32 + r.val) * 128 + jj.val
  omega

/-- 1 × 4 × 32 × 128 read as 4 × 32 × 128: entry (s, r, j) is entry (0, s, r, j). -/
theorem drop4_apply {α : Type} (v : S1x4x32x128.Idx → α) (h : S1x4x32x128.ShapeCasts S4x32x128)
    (s : Fin 4) (r : Fin 32) (jj : Fin 128) :
    shapeCast S4x32x128 v h (ix3 s r jj) = v (ix4 (0 : Fin 1) s r jj) := by
  refine shapeCast_apply v h _ _ ?_
  rw [Shape.rowMajor_val_three, Shape.rowMajor_val_four]
  show (((0 : ℕ) * 4 + s.val) * 32 + r.val) * 128 + jj.val = (s.val * 32 + r.val) * 128 + jj.val
  omega

/-- 1 × 32 × 128 read as 32 × 128: entry (r, j) is entry (0, r, j). -/
theorem drop3_apply {α : Type} (v : S1x32x128.Idx → α) (h : S1x32x128.ShapeCasts S32x128)
    (r : Fin 32) (jj : Fin 128) :
    shapeCast S32x128 v h (ix2 r jj) = v (ix3 (0 : Fin 1) r jj) := by
  refine shapeCast_apply v h _ _ ?_
  rw [Shape.rowMajor_val_two, Shape.rowMajor_val_three]
  show ((0 : ℕ) * 32 + r.val) * 128 + jj.val = r.val * 128 + jj.val
  omega

/-! ## Stage one: the partner's block and the device's own (4 × 4 × 32 × 128) -/

theorem k0_pay58_apply (v764 : Vec Ideal S1x4x4x32x128 .bf16) (v767 : Vec Ideal S1x4x4x32x128 .bf16) (y zo : Fin 4) (r : Fin 32) (jj : Fin 128) :
    k0_pay58 (F := Ideal) v764 v767 (ix4 y zo r jj) = v764 (ix5 (0 : Fin 1) y zo r jj) + v767 (ix5 (0 : Fin 1) y zo r jj) := by
  simp only [k0_pay58, shapeCast_self, drop5_apply, drop4_apply, drop3_apply, truncf_apply, extf_apply, addf_apply]

theorem k0_pay59_apply (v870 : Vec Ideal S1x4x4x32x128 .bf16) (v873 : Vec Ideal S1x4x4x32x128 .bf16) (y zo : Fin 4) (r : Fin 32) (jj : Fin 128) :
    k0_pay59 (F := Ideal) v870 v873 (ix4 y zo r jj) = v870 (ix5 (0 : Fin 1) y zo r jj) + v873 (ix5 (0 : Fin 1) y zo r jj) := by
  simp only [k0_pay59, shapeCast_self, drop5_apply, drop4_apply, drop3_apply, truncf_apply, extf_apply, addf_apply]

theorem k0_pay60_apply (v976 : Vec Ideal S1x4x4x32x128 .bf16) (v979 : Vec Ideal S1x4x4x32x128 .bf16) (y zo : Fin 4) (r : Fin 32) (jj : Fin 128) :
    k0_pay60 (F := Ideal) v976 v979 (ix4 y zo r jj) = v976 (ix5 (0 : Fin 1) y zo r jj) + v979 (ix5 (0 : Fin 1) y zo r jj) := by
  simp only [k0_pay60, shapeCast_self, drop5_apply, drop4_apply, drop3_apply, truncf_apply, extf_apply, addf_apply]

theorem k0_pay61_apply (v1082 : Vec Ideal S1x4x4x32x128 .bf16) (y zo : Fin 4) (r : Fin 32) (jj : Fin 128) :
    k0_pay61 (F := Ideal) v1082 (ix4 y zo r jj) = v1082 (ix5 (0 : Fin 1) y zo r jj) := by
  simp only [k0_pay61, shapeCast_self, drop5_apply, drop4_apply, drop3_apply, truncf_apply, extf_apply, addf_apply]

theorem k0_pay62_apply (v1084 : FVec Ideal S4x4x32x128 .f32) (v1085 : Vec Ideal S1x4x4x32x128 .bf16) (y zo : Fin 4) (r : Fin 32) (jj : Fin 128) :
    k0_pay62 (F := Ideal) v1084 v1085 (ix4 y zo r jj) = v1084 (ix4 y zo r jj) + v1085 (ix5 (0 : Fin 1) y zo r jj) := by
  simp only [k0_pay62, shapeCast_self, drop5_apply, drop4_apply, drop3_apply, truncf_apply, extf_apply, addf_apply]

theorem k0_pay63_apply (v1188 : Vec Ideal S1x4x4x32x128 .bf16) (v1191 : Vec Ideal S1x4x4x32x128 .bf16) (y zo : Fin 4) (r : Fin 32) (jj : Fin 128) :
    k0_pay63 (F := Ideal) v1188 v1191 (ix4 y zo r jj) = v1188 (ix5 (0 : Fin 1) y zo r jj) + v1191 (ix5 (0 : Fin 1) y zo r jj) := by
  simp only [k0_pay63, shapeCast_self, drop5_apply, drop4_apply, drop3_apply, truncf_apply, extf_apply, addf_apply]

theorem k0_pay64_apply (v1294 : Vec Ideal S1x4x4x32x128 .bf16) (v1297 : Vec Ideal S1x4x4x32x128 .bf16) (y zo : Fin 4) (r : Fin 32) (jj : Fin 128) :
    k0_pay64 (F := Ideal) v1294 v1297 (ix4 y zo r jj) = v1294 (ix5 (0 : Fin 1) y zo r jj) + v1297 (ix5 (0 : Fin 1) y zo r jj) := by
  simp only [k0_pay64, shapeCast_self, drop5_apply, drop4_apply, drop3_apply, truncf_apply, extf_apply, addf_apply]

theorem k0_pay65_apply (v1300 : FVec Ideal S4x4x32x128 .f32) (y zo : Fin 4) (r : Fin 32) (jj : Fin 128) :
    k0_pay65 (F := Ideal) v1300 (ix4 y zo r jj) = v1300 (ix4 y zo r jj) := by
  simp only [k0_pay65, shapeCast_self, drop5_apply, drop4_apply, drop3_apply, truncf_apply, extf_apply, addf_apply]

theorem k0_pay66_apply (v1400 : Vec Ideal S1x4x4x32x128 .bf16) (v1403 : Vec Ideal S1x4x4x32x128 .bf16) (y zo : Fin 4) (r : Fin 32) (jj : Fin 128) :
    k0_pay66 (F := Ideal) v1400 v1403 (ix4 y zo r jj) = v1400 (ix5 (0 : Fin 1) y zo r jj) + v1403 (ix5 (0 : Fin 1) y zo r jj) := by
  simp only [k0_pay66, shapeCast_self, drop5_apply, drop4_apply, drop3_apply, truncf_apply, extf_apply, addf_apply]

theorem k0_pay67_apply (v1506 : Vec Ideal S1x4x4x32x128 .bf16) (v1509 : Vec Ideal S1x4x4x32x128 .bf16) (y zo : Fin 4) (r : Fin 32) (jj : Fin 128) :
    k0_pay67 (F := Ideal) v1506 v1509 (ix4 y zo r jj) = v1506 (ix5 (0 : Fin 1) y zo r jj) + v1509 (ix5 (0 : Fin 1) y zo r jj) := by
  simp only [k0_pay67, shapeCast_self, drop5_apply, drop4_apply, drop3_apply, truncf_apply, extf_apply, addf_apply]

/-! ## Stage two: along the column (4 × 32 × 128) -/

theorem k0_pay68_apply (v1606 : Vec Ideal S1x4x32x128 .bf16) (s : Fin 4) (r : Fin 32) (jj : Fin 128) :
    k0_pay68 (F := Ideal) v1606 (ix3 s r jj) = v1606 (ix4 (0 : Fin 1) s r jj) := by
  simp only [k0_pay68, shapeCast_self, drop5_apply, drop4_apply, drop3_apply, truncf_apply, extf_apply, addf_apply]

theorem k0_pay69_apply (v1608 : FVec Ideal S4x32x128 .f32) (v1628 : Vec Ideal S1x4x32x128 .bf16) (s : Fin 4) (r : Fin 32) (jj : Fin 128) :
    k0_pay69 (F := Ideal) v1608 v1628 (ix3 s r jj) = v1608 (ix3 s r jj) + v1628 (ix4 (0 : Fin 1) s r jj) := by
  simp only [k0_pay69, shapeCast_self, drop5_apply, drop4_apply, drop3_apply, truncf_apply, extf_apply, addf_apply]

theorem k0_pay70_apply (v1631 : FVec Ideal S4x32x128 .f32) (v1651 : Vec Ideal S1x4x32x128 .bf16) (v1674 : Vec Ideal S1x4x32x128 .bf16) (s : Fin 4) (r : Fin 32) (jj : Fin 128) :
    k0_pay70 (F := Ideal) v1631 v1651 v1674 (ix3 s r jj) = v1631 (ix3 s r jj) + v1651 (ix4 (0 : Fin 1) s r jj) + v1674 (ix4 (0 : Fin 1) s r jj) := by
  simp only [k0_pay70, shapeCast_self, drop5_apply, drop4_apply, drop3_apply, truncf_apply, extf_apply, addf_apply]

theorem k0_pay71_apply (v1678 : FVec Ideal S4x32x128 .bf16) (s : Fin 4) (r : Fin 32) (jj : Fin 128) :
    k0_pay71 (F := Ideal) v1678 (ix3 s r jj) = v1678 (ix3 s r jj) := by
  simp only [k0_pay71, shapeCast_self, drop5_apply, drop4_apply, drop3_apply, truncf_apply, extf_apply, addf_apply]

theorem k0_pay72_apply (v1759 : Vec Ideal S1x4x32x128 .bf16) (s : Fin 4) (r : Fin 32) (jj : Fin 128) :
    k0_pay72 (F := Ideal) v1759 (ix3 s r jj) = v1759 (ix4 (0 : Fin 1) s r jj) := by
  simp only [k0_pay72, shapeCast_self, drop5_apply, drop4_apply, drop3_apply, truncf_apply, extf_apply, addf_apply]

theorem k0_pay73_apply (v1761 : FVec Ideal S4x32x128 .f32) (v1781 : Vec Ideal S1x4x32x128 .bf16) (v1804 : Vec Ideal S1x4x32x128 .bf16) (s : Fin 4) (r : Fin 32) (jj : Fin 128) :
    k0_pay73 (F := Ideal) v1761 v1781 v1804 (ix3 s r jj) = v1761 (ix3 s r jj) + v1781 (ix4 (0 : Fin 1) s r jj) + v1804 (ix4 (0 : Fin 1) s r jj) := by
  simp only [k0_pay73, shapeCast_self, drop5_apply, drop4_apply, drop3_apply, truncf_apply, extf_apply, addf_apply]

theorem k0_pay74_apply (v1807 : FVec Ideal S4x32x128 .f32) (v1827 : Vec Ideal S1x4x32x128 .bf16) (s : Fin 4) (r : Fin 32) (jj : Fin 128) :
    k0_pay74 (F := Ideal) v1807 v1827 (ix3 s r jj) = v1807 (ix3 s r jj) + v1827 (ix4 (0 : Fin 1) s r jj) := by
  simp only [k0_pay74, shapeCast_self, drop5_apply, drop4_apply, drop3_apply, truncf_apply, extf_apply, addf_apply]

theorem k0_pay75_apply (v1912 : Vec Ideal S1x4x32x128 .bf16) (v1934 : Vec Ideal S1x4x32x128 .bf16) (s : Fin 4) (r : Fin 32) (jj : Fin 128) :
    k0_pay75 (F := Ideal) v1912 v1934 (ix3 s r jj) = v1912 (ix4 (0 : Fin 1) s r jj) + v1934 (ix4 (0 : Fin 1) s r jj) := by
  simp only [k0_pay75, shapeCast_self, drop5_apply, drop4_apply, drop3_apply, truncf_apply, extf_apply, addf_apply]

theorem k0_pay76_apply (v1937 : FVec Ideal S4x32x128 .f32) (v1957 : Vec Ideal S1x4x32x128 .bf16) (s : Fin 4) (r : Fin 32) (jj : Fin 128) :
    k0_pay76 (F := Ideal) v1937 v1957 (ix3 s r jj) = v1937 (ix3 s r jj) + v1957 (ix4 (0 : Fin 1) s r jj) := by
  simp only [k0_pay76, shapeCast_self, drop5_apply, drop4_apply, drop3_apply, truncf_apply, extf_apply, addf_apply]

theorem k0_pay77_apply (v1960 : FVec Ideal S4x32x128 .f32) (v1980 : Vec Ideal S1x4x32x128 .bf16) (s : Fin 4) (r : Fin 32) (jj : Fin 128) :
    k0_pay77 (F := Ideal) v1960 v1980 (ix3 s r jj) = v1960 (ix3 s r jj) + v1980 (ix4 (0 : Fin 1) s r jj) := by
  simp only [k0_pay77, shapeCast_self, drop5_apply, drop4_apply, drop3_apply, truncf_apply, extf_apply, addf_apply]

theorem k0_pay78_apply (v2065 : Vec Ideal S1x4x32x128 .bf16) (s : Fin 4) (r : Fin 32) (jj : Fin 128) :
    k0_pay78 (F := Ideal) v2065 (ix3 s r jj) = v2065 (ix4 (0 : Fin 1) s r jj) := by
  simp only [k0_pay78, shapeCast_self, drop5_apply, drop4_apply, drop3_apply, truncf_apply, extf_apply, addf_apply]

theorem k0_pay79_apply (v2067 : FVec Ideal S4x32x128 .f32) (v2087 : Vec Ideal S1x4x32x128 .bf16) (s : Fin 4) (r : Fin 32) (jj : Fin 128) :
    k0_pay79 (F := Ideal) v2067 v2087 (ix3 s r jj) = v2067 (ix3 s r jj) + v2087 (ix4 (0 : Fin 1) s r jj) := by
  simp only [k0_pay79, shapeCast_self, drop5_apply, drop4_apply, drop3_apply, truncf_apply, extf_apply, addf_apply]

theorem k0_pay80_apply (v2090 : FVec Ideal S4x32x128 .f32) (v2110 : Vec Ideal S1x4x32x128 .bf16) (s : Fin 4) (r : Fin 32) (jj : Fin 128) :
    k0_pay80 (F := Ideal) v2090 v2110 (ix3 s r jj) = v2090 (ix3 s r jj) + v2110 (ix4 (0 : Fin 1) s r jj) := by
  simp only [k0_pay80, shapeCast_self, drop5_apply, drop4_apply, drop3_apply, truncf_apply, extf_apply, addf_apply]

theorem k0_pay81_apply (v2133 : Vec Ideal S1x4x32x128 .bf16) (s : Fin 4) (r : Fin 32) (jj : Fin 128) :
    k0_pay81 (F := Ideal) v2133 (ix3 s r jj) = v2133 (ix4 (0 : Fin 1) s r jj) := by
  simp only [k0_pay81, shapeCast_self, drop5_apply, drop4_apply, drop3_apply, truncf_apply, extf_apply, addf_apply]

theorem k0_pay82_apply (v2113 : FVec Ideal S4x32x128 .f32) (v2135 : FVec Ideal S4x32x128 .f32) (s : Fin 4) (r : Fin 32) (jj : Fin 128) :
    k0_pay82 (F := Ideal) v2113 v2135 (ix3 s r jj) = v2113 (ix3 s r jj) + v2135 (ix3 s r jj) := by
  simp only [k0_pay82, shapeCast_self, drop5_apply, drop4_apply, drop3_apply, truncf_apply, extf_apply, addf_apply]

theorem k0_pay83_apply (v2218 : Vec Ideal S1x4x32x128 .bf16) (s : Fin 4) (r : Fin 32) (jj : Fin 128) :
    k0_pay83 (F := Ideal) v2218 (ix3 s r jj) = v2218 (ix4 (0 : Fin 1) s r jj) := by
  simp only [k0_pay83, shapeCast_self, drop5_apply, drop4_apply, drop3_apply, truncf_apply, extf_apply, addf_apply]

theorem k0_pay84_apply (v2220 : FVec Ideal S4x32x128 .f32) (v2240 : Vec Ideal S1x4x32x128 .bf16) (v2263 : Vec Ideal S1x4x32x128 .bf16) (s : Fin 4) (r : Fin 32) (jj : Fin 128) :
    k0_pay84 (F := Ideal) v2220 v2240 v2263 (ix3 s r jj) = v2220 (ix3 s r jj) + v2240 (ix4 (0 : Fin 1) s r jj) + v2263 (ix4 (0 : Fin 1) s r jj) := by
  simp only [k0_pay84, shapeCast_self, drop5_apply, drop4_apply, drop3_apply, truncf_apply, extf_apply, addf_apply]

theorem k0_pay85_apply (v2266 : FVec Ideal S4x32x128 .f32) (v2286 : Vec Ideal S1x4x32x128 .bf16) (s : Fin 4) (r : Fin 32) (jj : Fin 128) :
    k0_pay85 (F := Ideal) v2266 v2286 (ix3 s r jj) = v2266 (ix3 s r jj) + v2286 (ix4 (0 : Fin 1) s r jj) := by
  simp only [k0_pay85, shapeCast_self, drop5_apply, drop4_apply, drop3_apply, truncf_apply, extf_apply, addf_apply]

theorem k0_pay86_apply (v2371 : Vec Ideal S1x4x32x128 .bf16) (v2393 : Vec Ideal S1x4x32x128 .bf16) (s : Fin 4) (r : Fin 32) (jj : Fin 128) :
    k0_pay86 (F := Ideal) v2371 v2393 (ix3 s r jj) = v2371 (ix4 (0 : Fin 1) s r jj) + v2393 (ix4 (0 : Fin 1) s r jj) := by
  simp only [k0_pay86, shapeCast_self, drop5_apply, drop4_apply, drop3_apply, truncf_apply, extf_apply, addf_apply]

theorem k0_pay87_apply (v2396 : FVec Ideal S4x32x128 .f32) (v2416 : Vec Ideal S1x4x32x128 .bf16) (s : Fin 4) (r : Fin 32) (jj : Fin 128) :
    k0_pay87 (F := Ideal) v2396 v2416 (ix3 s r jj) = v2396 (ix3 s r jj) + v2416 (ix4 (0 : Fin 1) s r jj) := by
  simp only [k0_pay87, shapeCast_self, drop5_apply, drop4_apply, drop3_apply, truncf_apply, extf_apply, addf_apply]

theorem k0_pay88_apply (v2419 : FVec Ideal S4x32x128 .f32) (v2439 : Vec Ideal S1x4x32x128 .bf16) (s : Fin 4) (r : Fin 32) (jj : Fin 128) :
    k0_pay88 (F := Ideal) v2419 v2439 (ix3 s r jj) = v2419 (ix3 s r jj) + v2439 (ix4 (0 : Fin 1) s r jj) := by
  simp only [k0_pay88, shapeCast_self, drop5_apply, drop4_apply, drop3_apply, truncf_apply, extf_apply, addf_apply]

theorem k0_pay89_apply (v2524 : Vec Ideal S1x4x32x128 .bf16) (s : Fin 4) (r : Fin 32) (jj : Fin 128) :
    k0_pay89 (F := Ideal) v2524 (ix3 s r jj) = v2524 (ix4 (0 : Fin 1) s r jj) := by
  simp only [k0_pay89, shapeCast_self, drop5_apply, drop4_apply, drop3_apply, truncf_apply, extf_apply, addf_apply]

theorem k0_pay90_apply (v2526 : FVec Ideal S4x32x128 .f32) (v2546 : Vec Ideal S1x4x32x128 .bf16) (s : Fin 4) (r : Fin 32) (jj : Fin 128) :
    k0_pay90 (F := Ideal) v2526 v2546 (ix3 s r jj) = v2526 (ix3 s r jj) + v2546 (ix4 (0 : Fin 1) s r jj) := by
  simp only [k0_pay90, shapeCast_self, drop5_apply, drop4_apply, drop3_apply, truncf_apply, extf_apply, addf_apply]

theorem k0_pay91_apply (v2549 : FVec Ideal S4x32x128 .f32) (v2569 : Vec Ideal S1x4x32x128 .bf16) (s : Fin 4) (r : Fin 32) (jj : Fin 128) :
    k0_pay91 (F := Ideal) v2549 v2569 (ix3 s r jj) = v2549 (ix3 s r jj) + v2569 (ix4 (0 : Fin 1) s r jj) := by
  simp only [k0_pay91, shapeCast_self, drop5_apply, drop4_apply, drop3_apply, truncf_apply, extf_apply, addf_apply]

theorem k0_pay92_apply (v2572 : FVec Ideal S4x32x128 .f32) (v2592 : Vec Ideal S1x4x32x128 .bf16) (s : Fin 4) (r : Fin 32) (jj : Fin 128) :
    k0_pay92 (F := Ideal) v2572 v2592 (ix3 s r jj) = v2572 (ix3 s r jj) + v2592 (ix4 (0 : Fin 1) s r jj) := by
  simp only [k0_pay92, shapeCast_self, drop5_apply, drop4_apply, drop3_apply, truncf_apply, extf_apply, addf_apply]

theorem k0_pay93_apply (v2677 : Vec Ideal S1x4x32x128 .bf16) (s : Fin 4) (r : Fin 32) (jj : Fin 128) :
    k0_pay93 (F := Ideal) v2677 (ix3 s r jj) = v2677 (ix4 (0 : Fin 1) s r jj) := by
  simp only [k0_pay93, shapeCast_self, drop5_apply, drop4_apply, drop3_apply, truncf_apply, extf_apply, addf_apply]

theorem k0_pay94_apply (v2679 : FVec Ideal S4x32x128 .f32) (v2699 : Vec Ideal S1x4x32x128 .bf16) (s : Fin 4) (r : Fin 32) (jj : Fin 128) :
    k0_pay94 (F := Ideal) v2679 v2699 (ix3 s r jj) = v2679 (ix3 s r jj) + v2699 (ix4 (0 : Fin 1) s r jj) := by
  simp only [k0_pay94, shapeCast_self, drop5_apply, drop4_apply, drop3_apply, truncf_apply, extf_apply, addf_apply]

theorem k0_pay95_apply (v2722 : Vec Ideal S1x4x32x128 .bf16) (s : Fin 4) (r : Fin 32) (jj : Fin 128) :
    k0_pay95 (F := Ideal) v2722 (ix3 s r jj) = v2722 (ix4 (0 : Fin 1) s r jj) := by
  simp only [k0_pay95, shapeCast_self, drop5_apply, drop4_apply, drop3_apply, truncf_apply, extf_apply, addf_apply]

theorem k0_pay96_apply (v2702 : FVec Ideal S4x32x128 .f32) (v2724 : FVec Ideal S4x32x128 .f32) (v2745 : Vec Ideal S1x4x32x128 .bf16) (s : Fin 4) (r : Fin 32) (jj : Fin 128) :
    k0_pay96 (F := Ideal) v2702 v2724 v2745 (ix3 s r jj) = v2702 (ix3 s r jj) + v2724 (ix3 s r jj) + v2745 (ix4 (0 : Fin 1) s r jj) := by
  simp only [k0_pay96, shapeCast_self, drop5_apply, drop4_apply, drop3_apply, truncf_apply, extf_apply, addf_apply]

/-! ## Stage three: across the planes (32 × 128) -/

theorem k0_pay97_apply (v2830 : Vec Ideal S1x32x128 .bf16) (v2852 : Vec Ideal S1x32x128 .bf16) (r : Fin 32) (jj : Fin 128) :
    k0_pay97 (F := Ideal) v2830 v2852 (ix2 r jj) = v2830 (ix3 (0 : Fin 1) r jj) + v2852 (ix3 (0 : Fin 1) r jj) := by
  simp only [k0_pay97, shapeCast_self, drop5_apply, drop4_apply, drop3_apply, truncf_apply, extf_apply, addf_apply]

theorem k0_pay98_apply (v2855 : FVec Ideal S32x128 .f32) (v2875 : Vec Ideal S1x32x128 .bf16) (r : Fin 32) (jj : Fin 128) :
    k0_pay98 (F := Ideal) v2855 v2875 (ix2 r jj) = v2855 (ix2 r jj) + v2875 (ix3 (0 : Fin 1) r jj) := by
  simp only [k0_pay98, shapeCast_self, drop5_apply, drop4_apply, drop3_apply, truncf_apply, extf_apply, addf_apply]

theorem k0_pay99_apply (v2878 : FVec Ideal S32x128 .f32) (v2898 : Vec Ideal S1x32x128 .bf16) (r : Fin 32) (jj : Fin 128) :
    k0_pay99 (F := Ideal) v2878 v2898 (ix2 r jj) = v2878 (ix2 r jj) + v2898 (ix3 (0 : Fin 1) r jj) := by
  simp only [k0_pay99, shapeCast_self, drop5_apply, drop4_apply, drop3_apply, truncf_apply, extf_apply, addf_apply]

theorem k0_pay100_apply (v2905 : Vec Ideal S1x32x128 .bf16) (r : Fin 32) (jj : Fin 128) :
    k0_pay100 (F := Ideal) v2905 (ix2 r jj) = v2905 (ix3 (0 : Fin 1) r jj) := by
  simp only [k0_pay100, shapeCast_self, drop5_apply, drop4_apply, drop3_apply, truncf_apply, extf_apply, addf_apply]

theorem k0_pay101_apply (v2907 : FVec Ideal S32x128 .f32) (v2927 : Vec Ideal S1x32x128 .bf16) (v2950 : Vec Ideal S1x32x128 .bf16) (r : Fin 32) (jj : Fin 128) :
    k0_pay101 (F := Ideal) v2907 v2927 v2950 (ix2 r jj) = v2907 (ix2 r jj) + v2927 (ix3 (0 : Fin 1) r jj) + v2950 (ix3 (0 : Fin 1) r jj) := by
  simp only [k0_pay101, shapeCast_self, drop5_apply, drop4_apply, drop3_apply, truncf_apply, extf_apply, addf_apply]

theorem k0_pay102_apply (v2953 : FVec Ideal S32x128 .f32) (v2973 : Vec Ideal S1x32x128 .bf16) (r : Fin 32) (jj : Fin 128) :
    k0_pay102 (F := Ideal) v2953 v2973 (ix2 r jj) = v2953 (ix2 r jj) + v2973 (ix3 (0 : Fin 1) r jj) := by
  simp only [k0_pay102, shapeCast_self, drop5_apply, drop4_apply, drop3_apply, truncf_apply, extf_apply, addf_apply]

theorem k0_pay103_apply (v2980 : Vec Ideal S1x32x128 .bf16) (r : Fin 32) (jj : Fin 128) :
    k0_pay103 (F := Ideal) v2980 (ix2 r jj) = v2980 (ix3 (0 : Fin 1) r jj) := by
  simp only [k0_pay103, shapeCast_self, drop5_apply, drop4_apply, drop3_apply, truncf_apply, extf_apply, addf_apply]

theorem k0_pay104_apply (v2982 : FVec Ideal S32x128 .f32) (v3002 : Vec Ideal S1x32x128 .bf16) (r : Fin 32) (jj : Fin 128) :
    k0_pay104 (F := Ideal) v2982 v3002 (ix2 r jj) = v2982 (ix2 r jj) + v3002 (ix3 (0 : Fin 1) r jj) := by
  simp only [k0_pay104, shapeCast_self, drop5_apply, drop4_apply, drop3_apply, truncf_apply, extf_apply, addf_apply]

theorem k0_pay105_apply (v3005 : FVec Ideal S32x128 .f32) (v3025 : Vec Ideal S1x32x128 .bf16) (v3048 : Vec Ideal S1x32x128 .bf16) (r : Fin 32) (jj : Fin 128) :
    k0_pay105 (F := Ideal) v3005 v3025 v3048 (ix2 r jj) = v3005 (ix2 r jj) + v3025 (ix3 (0 : Fin 1) r jj) + v3048 (ix3 (0 : Fin 1) r jj) := by
  simp only [k0_pay105, shapeCast_self, drop5_apply, drop4_apply, drop3_apply, truncf_apply, extf_apply, addf_apply]

theorem k0_pay106_apply (v3055 : Vec Ideal S1x32x128 .bf16) (r : Fin 32) (jj : Fin 128) :
    k0_pay106 (F := Ideal) v3055 (ix2 r jj) = v3055 (ix3 (0 : Fin 1) r jj) := by
  simp only [k0_pay106, shapeCast_self, drop5_apply, drop4_apply, drop3_apply, truncf_apply, extf_apply, addf_apply]

theorem k0_pay107_apply (v3057 : FVec Ideal S32x128 .f32) (v3077 : Vec Ideal S1x32x128 .bf16) (r : Fin 32) (jj : Fin 128) :
    k0_pay107 (F := Ideal) v3057 v3077 (ix2 r jj) = v3057 (ix2 r jj) + v3077 (ix3 (0 : Fin 1) r jj) := by
  simp only [k0_pay107, shapeCast_self, drop5_apply, drop4_apply, drop3_apply, truncf_apply, extf_apply, addf_apply]

theorem k0_pay108_apply (v3080 : FVec Ideal S32x128 .f32) (v3100 : Vec Ideal S1x32x128 .bf16) (r : Fin 32) (jj : Fin 128) :
    k0_pay108 (F := Ideal) v3080 v3100 (ix2 r jj) = v3080 (ix2 r jj) + v3100 (ix3 (0 : Fin 1) r jj) := by
  simp only [k0_pay108, shapeCast_self, drop5_apply, drop4_apply, drop3_apply, truncf_apply, extf_apply, addf_apply]

theorem k0_pay109_apply (v3123 : Vec Ideal S1x32x128 .bf16) (r : Fin 32) (jj : Fin 128) :
    k0_pay109 (F := Ideal) v3123 (ix2 r jj) = v3123 (ix3 (0 : Fin 1) r jj) := by
  simp only [k0_pay109, shapeCast_self, drop5_apply, drop4_apply, drop3_apply, truncf_apply, extf_apply, addf_apply]

theorem k0_pay110_apply (v3103 : FVec Ideal S32x128 .f32) (v3125 : FVec Ideal S32x128 .f32) (r : Fin 32) (jj : Fin 128) :
    k0_pay110 (F := Ideal) v3103 v3125 (ix2 r jj) = v3103 (ix2 r jj) + v3125 (ix2 r jj) := by
  simp only [k0_pay110, shapeCast_self, drop5_apply, drop4_apply, drop3_apply, truncf_apply, extf_apply, addf_apply]

theorem k0_pay111_apply (v3130 : Vec Ideal S1x32x128 .bf16) (v3152 : Vec Ideal S1x32x128 .bf16) (r : Fin 32) (jj : Fin 128) :
    k0_pay111 (F := Ideal) v3130 v3152 (ix2 r jj) = v3130 (ix3 (0 : Fin 1) r jj) + v3152 (ix3 (0 : Fin 1) r jj) := by
  simp only [k0_pay111, shapeCast_self, drop5_apply, drop4_apply, drop3_apply, truncf_apply, extf_apply, addf_apply]

theorem k0_pay112_apply (v3155 : FVec Ideal S32x128 .f32) (v3175 : Vec Ideal S1x32x128 .bf16) (r : Fin 32) (jj : Fin 128) :
    k0_pay112 (F := Ideal) v3155 v3175 (ix2 r jj) = v3155 (ix2 r jj) + v3175 (ix3 (0 : Fin 1) r jj) := by
  simp only [k0_pay112, shapeCast_self, drop5_apply, drop4_apply, drop3_apply, truncf_apply, extf_apply, addf_apply]

theorem k0_pay113_apply (v3178 : FVec Ideal S32x128 .f32) (v3198 : Vec Ideal S1x32x128 .bf16) (r : Fin 32) (jj : Fin 128) :
    k0_pay113 (F := Ideal) v3178 v3198 (ix2 r jj) = v3178 (ix2 r jj) + v3198 (ix3 (0 : Fin 1) r jj) := by
  simp only [k0_pay113, shapeCast_self, drop5_apply, drop4_apply, drop3_apply, truncf_apply, extf_apply, addf_apply]

theorem k0_pay114_apply (v3205 : Vec Ideal S1x32x128 .bf16) (r : Fin 32) (jj : Fin 128) :
    k0_pay114 (F := Ideal) v3205 (ix2 r jj) = v3205 (ix3 (0 : Fin 1) r jj) := by
  simp only [k0_pay114, shapeCast_self, drop5_apply, drop4_apply, drop3_apply, truncf_apply, extf_apply, addf_apply]

theorem k0_pay115_apply (v3207 : FVec Ideal S32x128 .f32) (v3227 : Vec Ideal S1x32x128 .bf16) (v3250 : Vec Ideal S1x32x128 .bf16) (r : Fin 32) (jj : Fin 128) :
    k0_pay115 (F := Ideal) v3207 v3227 v3250 (ix2 r jj) = v3207 (ix2 r jj) + v3227 (ix3 (0 : Fin 1) r jj) + v3250 (ix3 (0 : Fin 1) r jj) := by
  simp only [k0_pay115, shapeCast_self, drop5_apply, drop4_apply, drop3_apply, truncf_apply, extf_apply, addf_apply]

theorem k0_pay116_apply (v3253 : FVec Ideal S32x128 .f32) (v3273 : Vec Ideal S1x32x128 .bf16) (r : Fin 32) (jj : Fin 128) :
    k0_pay116 (F := Ideal) v3253 v3273 (ix2 r jj) = v3253 (ix2 r jj) + v3273 (ix3 (0 : Fin 1) r jj) := by
  simp only [k0_pay116, shapeCast_self, drop5_apply, drop4_apply, drop3_apply, truncf_apply, extf_apply, addf_apply]

theorem k0_pay117_apply (v3280 : Vec Ideal S1x32x128 .bf16) (r : Fin 32) (jj : Fin 128) :
    k0_pay117 (F := Ideal) v3280 (ix2 r jj) = v3280 (ix3 (0 : Fin 1) r jj) := by
  simp only [k0_pay117, shapeCast_self, drop5_apply, drop4_apply, drop3_apply, truncf_apply, extf_apply, addf_apply]

theorem k0_pay118_apply (v3282 : FVec Ideal S32x128 .f32) (v3302 : Vec Ideal S1x32x128 .bf16) (r : Fin 32) (jj : Fin 128) :
    k0_pay118 (F := Ideal) v3282 v3302 (ix2 r jj) = v3282 (ix2 r jj) + v3302 (ix3 (0 : Fin 1) r jj) := by
  simp only [k0_pay118, shapeCast_self, drop5_apply, drop4_apply, drop3_apply, truncf_apply, extf_apply, addf_apply]

theorem k0_pay119_apply (v3305 : FVec Ideal S32x128 .f32) (v3325 : Vec Ideal S1x32x128 .bf16) (v3348 : Vec Ideal S1x32x128 .bf16) (r : Fin 32) (jj : Fin 128) :
    k0_pay119 (F := Ideal) v3305 v3325 v3348 (ix2 r jj) = v3305 (ix2 r jj) + v3325 (ix3 (0 : Fin 1) r jj) + v3348 (ix3 (0 : Fin 1) r jj) := by
  simp only [k0_pay119, shapeCast_self, drop5_apply, drop4_apply, drop3_apply, truncf_apply, extf_apply, addf_apply]

theorem k0_pay120_apply (v3355 : Vec Ideal S1x32x128 .bf16) (r : Fin 32) (jj : Fin 128) :
    k0_pay120 (F := Ideal) v3355 (ix2 r jj) = v3355 (ix3 (0 : Fin 1) r jj) := by
  simp only [k0_pay120, shapeCast_self, drop5_apply, drop4_apply, drop3_apply, truncf_apply, extf_apply, addf_apply]

theorem k0_pay121_apply (v3357 : FVec Ideal S32x128 .f32) (v3377 : Vec Ideal S1x32x128 .bf16) (r : Fin 32) (jj : Fin 128) :
    k0_pay121 (F := Ideal) v3357 v3377 (ix2 r jj) = v3357 (ix2 r jj) + v3377 (ix3 (0 : Fin 1) r jj) := by
  simp only [k0_pay121, shapeCast_self, drop5_apply, drop4_apply, drop3_apply, truncf_apply, extf_apply, addf_apply]

theorem k0_pay122_apply (v3380 : FVec Ideal S32x128 .f32) (v3400 : Vec Ideal S1x32x128 .bf16) (r : Fin 32) (jj : Fin 128) :
    k0_pay122 (F := Ideal) v3380 v3400 (ix2 r jj) = v3380 (ix2 r jj) + v3400 (ix3 (0 : Fin 1) r jj) := by
  simp only [k0_pay122, shapeCast_self, drop5_apply, drop4_apply, drop3_apply, truncf_apply, extf_apply, addf_apply]

theorem k0_pay123_apply (v3423 : Vec Ideal S1x32x128 .bf16) (r : Fin 32) (jj : Fin 128) :
    k0_pay123 (F := Ideal) v3423 (ix2 r jj) = v3423 (ix3 (0 : Fin 1) r jj) := by
  simp only [k0_pay123, shapeCast_self, drop5_apply, drop4_apply, drop3_apply, truncf_apply, extf_apply, addf_apply]

theorem k0_pay124_apply (v3403 : FVec Ideal S32x128 .f32) (v3425 : FVec Ideal S32x128 .f32) (r : Fin 32) (jj : Fin 128) :
    k0_pay124 (F := Ideal) v3403 v3425 (ix2 r jj) = v3403 (ix2 r jj) + v3425 (ix2 r jj) := by
  simp only [k0_pay124, shapeCast_self, drop5_apply, drop4_apply, drop3_apply, truncf_apply, extf_apply, addf_apply]

/-! ## Sums the text splits over several payloads, composed

  Where a sum is carried from one stretch of the text to the next, the payloads chain: the later one takes the
  earlier one's result as its first operand. Composed, every stage-two and stage-three chain is
  ((own + c₁) + c₂) + c₃ of the four blocks it reads. -/

theorem k0_pay62_chain_apply (v1082 : Vec Ideal S1x4x4x32x128 .bf16) (v1085 : Vec Ideal S1x4x4x32x128 .bf16) (y zo : Fin 4) (r : Fin 32) (jj : Fin 128) :
    (k0_pay62 (F := Ideal) (k0_pay61 (F := Ideal) v1082) v1085) (ix4 y zo r jj)
      = v1082 (ix5 (0 : Fin 1) y zo r jj) + v1085 (ix5 (0 : Fin 1) y zo r jj) := by
  simp only [k0_pay61_apply, k0_pay62_apply]

theorem k0_pay65_chain_apply (v1294 : Vec Ideal S1x4x4x32x128 .bf16) (v1297 : Vec Ideal S1x4x4x32x128 .bf16) (y zo : Fin 4) (r : Fin 32) (jj : Fin 128) :
    (k0_pay65 (F := Ideal) (k0_pay64 (F := Ideal) v1294 v1297)) (ix4 y zo r jj)
      = v1294 (ix5 (0 : Fin 1) y zo r jj) + v1297 (ix5 (0 : Fin 1) y zo r jj) := by
  simp only [k0_pay64_apply, k0_pay65_apply]

theorem k0_pay71_chain_apply (v1606 : Vec Ideal S1x4x32x128 .bf16) (v1628 : Vec Ideal S1x4x32x128 .bf16) (v1651 : Vec Ideal S1x4x32x128 .bf16) (v1674 : Vec Ideal S1x4x32x128 .bf16) (s : Fin 4) (r : Fin 32) (jj : Fin 128) :
    (k0_pay71 (F := Ideal) (k0_pay70 (F := Ideal) (k0_pay69 (F := Ideal) (k0_pay68 (F := Ideal) v1606) v1628) v1651 v1674)) (ix3 s r jj)
      = v1606 (ix4 (0 : Fin 1) s r jj) + v1628 (ix4 (0 : Fin 1) s r jj) + v1651 (ix4 (0 : Fin 1) s r jj) + v1674 (ix4 (0 : Fin 1) s r jj) := by
  simp only [k0_pay68_apply, k0_pay69_apply, k0_pay70_apply, k0_pay71_apply]

theorem k0_pay74_chain_apply (v1759 : Vec Ideal S1x4x32x128 .bf16) (v1781 : Vec Ideal S1x4x32x128 .bf16) (v1804 : Vec Ideal S1x4x32x128 .bf16) (v1827 : Vec Ideal S1x4x32x128 .bf16) (s : Fin 4) (r : Fin 32) (jj : Fin 128) :
    (k0_pay74 (F := Ideal) (k0_pay73 (F := Ideal) (k0_pay72 (F := Ideal) v1759) v1781 v1804) v1827) (ix3 s r jj)
      = v1759 (ix4 (0 : Fin 1) s r jj) + v1781 (ix4 (0 : Fin 1) s r jj) + v1804 (ix4 (0 : Fin 1) s r jj) + v1827 (ix4 (0 : Fin 1) s r jj) := by
  simp only [k0_pay72_apply, k0_pay73_apply, k0_pay74_apply]

theorem k0_pay77_chain_apply (v1912 : Vec Ideal S1x4x32x128 .bf16) (v1934 : Vec Ideal S1x4x32x128 .bf16) (v1957 : Vec Ideal S1x4x32x128 .bf16) (v1980 : Vec Ideal S1x4x32x128 .bf16) (s : Fin 4) (r : Fin 32) (jj : Fin 128) :
    (k0_pay77 (F := Ideal) (k0_pay76 (F := Ideal) (k0_pay75 (F := Ideal) v1912 v1934) v1957) v1980) (ix3 s r jj)
      = v1912 (ix4 (0 : Fin 1) s r jj) + v1934 (ix4 (0 : Fin 1) s r jj) + v1957 (ix4 (0 : Fin 1) s r jj) + v1980 (ix4 (0 : Fin 1) s r jj) := by
  simp only [k0_pay75_apply, k0_pay76_apply, k0_pay77_apply]

theorem k0_pay82_chain_apply (v2065 : Vec Ideal S1x4x32x128 .bf16) (v2087 : Vec Ideal S1x4x32x128 .bf16) (v2110 : Vec Ideal S1x4x32x128 .bf16) (v2133 : Vec Ideal S1x4x32x128 .bf16) (s : Fin 4) (r : Fin 32) (jj : Fin 128) :
    (k0_pay82 (F := Ideal) (k0_pay80 (F := Ideal) (k0_pay79 (F := Ideal) (k0_pay78 (F := Ideal) v2065) v2087) v2110) (k0_pay81 (F := Ideal) v2133)) (ix3 s r jj)
      = v2065 (ix4 (0 : Fin 1) s r jj) + v2087 (ix4 (0 : Fin 1) s r jj) + v2110 (ix4 (0 : Fin 1) s r jj) + v2133 (ix4 (0 : Fin 1) s r jj) := by
  simp only [k0_pay78_apply, k0_pay79_apply, k0_pay80_apply, k0_pay81_apply, k0_pay82_apply]

theorem k0_pay85_chain_apply (v2218 : Vec Ideal S1x4x32x128 .bf16) (v2240 : Vec Ideal S1x4x32x128 .bf16) (v2263 : Vec Ideal S1x4x32x128 .bf16) (v2286 : Vec Ideal S1x4x32x128 .bf16) (s : Fin 4) (r : Fin 32) (jj : Fin 128) :
    (k0_pay85 (F := Ideal) (k0_pay84 (F := Ideal) (k0_pay83 (F := Ideal) v2218) v2240 v2263) v2286) (ix3 s r jj)
      = v2218 (ix4 (0 : Fin 1) s r jj) + v2240 (ix4 (0 : Fin 1) s r jj) + v2263 (ix4 (0 : Fin 1) s r jj) + v2286 (ix4 (0 : Fin 1) s r jj) := by
  simp only [k0_pay83_apply, k0_pay84_apply, k0_pay85_apply]

theorem k0_pay88_chain_apply (v2371 : Vec Ideal S1x4x32x128 .bf16) (v2393 : Vec Ideal S1x4x32x128 .bf16) (v2416 : Vec Ideal S1x4x32x128 .bf16) (v2439 : Vec Ideal S1x4x32x128 .bf16) (s : Fin 4) (r : Fin 32) (jj : Fin 128) :
    (k0_pay88 (F := Ideal) (k0_pay87 (F := Ideal) (k0_pay86 (F := Ideal) v2371 v2393) v2416) v2439) (ix3 s r jj)
      = v2371 (ix4 (0 : Fin 1) s r jj) + v2393 (ix4 (0 : Fin 1) s r jj) + v2416 (ix4 (0 : Fin 1) s r jj) + v2439 (ix4 (0 : Fin 1) s r jj) := by
  simp only [k0_pay86_apply, k0_pay87_apply, k0_pay88_apply]

theorem k0_pay92_chain_apply (v2524 : Vec Ideal S1x4x32x128 .bf16) (v2546 : Vec Ideal S1x4x32x128 .bf16) (v2569 : Vec Ideal S1x4x32x128 .bf16) (v2592 : Vec Ideal S1x4x32x128 .bf16) (s : Fin 4) (r : Fin 32) (jj : Fin 128) :
    (k0_pay92 (F := Ideal) (k0_pay91 (F := Ideal) (k0_pay90 (F := Ideal) (k0_pay89 (F := Ideal) v2524) v2546) v2569) v2592) (ix3 s r jj)
      = v2524 (ix4 (0 : Fin 1) s r jj) + v2546 (ix4 (0 : Fin 1) s r jj) + v2569 (ix4 (0 : Fin 1) s r jj) + v2592 (ix4 (0 : Fin 1) s r jj) := by
  simp only [k0_pay89_apply, k0_pay90_apply, k0_pay91_apply, k0_pay92_apply]

theorem k0_pay96_chain_apply (v2677 : Vec Ideal S1x4x32x128 .bf16) (v2699 : Vec Ideal S1x4x32x128 .bf16) (v2722 : Vec Ideal S1x4x32x128 .bf16) (v2745 : Vec Ideal S1x4x32x128 .bf16) (s : Fin 4) (r : Fin 32) (jj : Fin 128) :
    (k0_pay96 (F := Ideal) (k0_pay94 (F := Ideal) (k0_pay93 (F := Ideal) v2677) v2699) (k0_pay95 (F := Ideal) v2722) v2745) (ix3 s r jj)
      = v2677 (ix4 (0 : Fin 1) s r jj) + v2699 (ix4 (0 : Fin 1) s r jj) + v2722 (ix4 (0 : Fin 1) s r jj) + v2745 (ix4 (0 : Fin 1) s r jj) := by
  simp only [k0_pay93_apply, k0_pay94_apply, k0_pay95_apply, k0_pay96_apply]

theorem k0_pay99_chain_apply (v2830 : Vec Ideal S1x32x128 .bf16) (v2852 : Vec Ideal S1x32x128 .bf16) (v2875 : Vec Ideal S1x32x128 .bf16) (v2898 : Vec Ideal S1x32x128 .bf16) (r : Fin 32) (jj : Fin 128) :
    (k0_pay99 (F := Ideal) (k0_pay98 (F := Ideal) (k0_pay97 (F := Ideal) v2830 v2852) v2875) v2898) (ix2 r jj)
      = v2830 (ix3 (0 : Fin 1) r jj) + v2852 (ix3 (0 : Fin 1) r jj) + v2875 (ix3 (0 : Fin 1) r jj) + v2898 (ix3 (0 : Fin 1) r jj) := by
  simp only [k0_pay97_apply, k0_pay98_apply, k0_pay99_apply]

theorem k0_pay102_chain_apply (v2905 : Vec Ideal S1x32x128 .bf16) (v2927 : Vec Ideal S1x32x128 .bf16) (v2950 : Vec Ideal S1x32x128 .bf16) (v2973 : Vec Ideal S1x32x128 .bf16) (r : Fin 32) (jj : Fin 128) :
    (k0_pay102 (F := Ideal) (k0_pay101 (F := Ideal) (k0_pay100 (F := Ideal) v2905) v2927 v2950) v2973) (ix2 r jj)
      = v2905 (ix3 (0 : Fin 1) r jj) + v2927 (ix3 (0 : Fin 1) r jj) + v2950 (ix3 (0 : Fin 1) r jj) + v2973 (ix3 (0 : Fin 1) r jj) := by
  simp only [k0_pay100_apply, k0_pay101_apply, k0_pay102_apply]

theorem k0_pay105_chain_apply (v2980 : Vec Ideal S1x32x128 .bf16) (v3002 : Vec Ideal S1x32x128 .bf16) (v3025 : Vec Ideal S1x32x128 .bf16) (v3048 : Vec Ideal S1x32x128 .bf16) (r : Fin 32) (jj : Fin 128) :
    (k0_pay105 (F := Ideal) (k0_pay104 (F := Ideal) (k0_pay103 (F := Ideal) v2980) v3002) v3025 v3048) (ix2 r jj)
      = v2980 (ix3 (0 : Fin 1) r jj) + v3002 (ix3 (0 : Fin 1) r jj) + v3025 (ix3 (0 : Fin 1) r jj) + v3048 (ix3 (0 : Fin 1) r jj) := by
  simp only [k0_pay103_apply, k0_pay104_apply, k0_pay105_apply]

theorem k0_pay110_chain_apply (v3055 : Vec Ideal S1x32x128 .bf16) (v3077 : Vec Ideal S1x32x128 .bf16) (v3100 : Vec Ideal S1x32x128 .bf16) (v3123 : Vec Ideal S1x32x128 .bf16) (r : Fin 32) (jj : Fin 128) :
    (k0_pay110 (F := Ideal) (k0_pay108 (F := Ideal) (k0_pay107 (F := Ideal) (k0_pay106 (F := Ideal) v3055) v3077) v3100) (k0_pay109 (F := Ideal) v3123)) (ix2 r jj)
      = v3055 (ix3 (0 : Fin 1) r jj) + v3077 (ix3 (0 : Fin 1) r jj) + v3100 (ix3 (0 : Fin 1) r jj) + v3123 (ix3 (0 : Fin 1) r jj) := by
  simp only [k0_pay106_apply, k0_pay107_apply, k0_pay108_apply, k0_pay109_apply, k0_pay110_apply]

theorem k0_pay113_chain_apply (v3130 : Vec Ideal S1x32x128 .bf16) (v3152 : Vec Ideal S1x32x128 .bf16) (v3175 : Vec Ideal S1x32x128 .bf16) (v3198 : Vec Ideal S1x32x128 .bf16) (r : Fin 32) (jj : Fin 128) :
    (k0_pay113 (F := Ideal) (k0_pay112 (F := Ideal) (k0_pay111 (F := Ideal) v3130 v3152) v3175) v3198) (ix2 r jj)
      = v3130 (ix3 (0 : Fin 1) r jj) + v3152 (ix3 (0 : Fin 1) r jj) + v3175 (ix3 (0 : Fin 1) r jj) + v3198 (ix3 (0 : Fin 1) r jj) := by
  simp only [k0_pay111_apply, k0_pay112_apply, k0_pay113_apply]

theorem k0_pay116_chain_apply (v3205 : Vec Ideal S1x32x128 .bf16) (v3227 : Vec Ideal S1x32x128 .bf16) (v3250 : Vec Ideal S1x32x128 .bf16) (v3273 : Vec Ideal S1x32x128 .bf16) (r : Fin 32) (jj : Fin 128) :
    (k0_pay116 (F := Ideal) (k0_pay115 (F := Ideal) (k0_pay114 (F := Ideal) v3205) v3227 v3250) v3273) (ix2 r jj)
      = v3205 (ix3 (0 : Fin 1) r jj) + v3227 (ix3 (0 : Fin 1) r jj) + v3250 (ix3 (0 : Fin 1) r jj) + v3273 (ix3 (0 : Fin 1) r jj) := by
  simp only [k0_pay114_apply, k0_pay115_apply, k0_pay116_apply]

theorem k0_pay119_chain_apply (v3280 : Vec Ideal S1x32x128 .bf16) (v3302 : Vec Ideal S1x32x128 .bf16) (v3325 : Vec Ideal S1x32x128 .bf16) (v3348 : Vec Ideal S1x32x128 .bf16) (r : Fin 32) (jj : Fin 128) :
    (k0_pay119 (F := Ideal) (k0_pay118 (F := Ideal) (k0_pay117 (F := Ideal) v3280) v3302) v3325 v3348) (ix2 r jj)
      = v3280 (ix3 (0 : Fin 1) r jj) + v3302 (ix3 (0 : Fin 1) r jj) + v3325 (ix3 (0 : Fin 1) r jj) + v3348 (ix3 (0 : Fin 1) r jj) := by
  simp only [k0_pay117_apply, k0_pay118_apply, k0_pay119_apply]

theorem k0_pay124_chain_apply (v3355 : Vec Ideal S1x32x128 .bf16) (v3377 : Vec Ideal S1x32x128 .bf16) (v3400 : Vec Ideal S1x32x128 .bf16) (v3423 : Vec Ideal S1x32x128 .bf16) (r : Fin 32) (jj : Fin 128) :
    (k0_pay124 (F := Ideal) (k0_pay122 (F := Ideal) (k0_pay121 (F := Ideal) (k0_pay120 (F := Ideal) v3355) v3377) v3400) (k0_pay123 (F := Ideal) v3423)) (ix2 r jj)
      = v3355 (ix3 (0 : Fin 1) r jj) + v3377 (ix3 (0 : Fin 1) r jj) + v3400 (ix3 (0 : Fin 1) r jj) + v3423 (ix3 (0 : Fin 1) r jj) := by
  simp only [k0_pay120_apply, k0_pay121_apply, k0_pay122_apply, k0_pay123_apply, k0_pay124_apply]

end Cert.KernelIdeal.PayIdeal

end
-- ==== Proof.SumAlgebra.lean ====
/-
  The arithmetic behind a matrix product cut over 32 devices.
  (1) A contraction over 16384 = 32 · 512 positions is the sum, over the 32 blocks, of the contractions
      over each block's 512 positions; read through the block layout of the two factors.
  (2) Adding the 32 partial results pair first, then along the four rows of a column, then across the
      four planes visits every device exactly once, so it is the plain sum over the devices.
  (3) Row r of result block c is row 32·c + r of the whole result.
  Only commutativity and associativity of addition and re-indexing of finite sums are used.
-/
import proofs.«900893_g7700000000000894_dist_matmul_mk_i_outk_m1024_n1024_k512_v7x_i32_f32_1_alg».proof.Proof.MeshDefs
import Idealize.ShloMosaic.Lib.Layout
import Idealize.ShloMosaic.Lib.ValueIdx
import Mathlib.Data.EReal.Basic
import Mathlib.Logic.Equiv.Fin.Basic
import Mathlib.Algebra.BigOperators.Fin
import Mathlib.Algebra.BigOperators.Group.Finset.Basic
import Mathlib.Data.Fintype.BigOperators

open scoped BigOperators

namespace Cert.SumAlgebra

open Idealize.ShloMosaic Idealize.ShloMosaic.ValueIdx Cert.Mesh

/-! ## Where a block's index lands -/

/-- Column k of block d of a 1024 × 16384 array cut along its columns is column 512·d + k of the whole. -/
theorem blockA_apply {α : Type} (d : Fin 32) (A : (⟨2, ![1024, 16384]⟩ : Shape).Idx → α) (i : Fin 1024) (k : Fin 512) :
    (Layout.block ⟨2, ![1024, 512]⟩ ⟨2, ![1024, 16384]⟩ 1 32 d A) (ix2 i k)
      = A (ix2 i (⟨d.val * 512 + k.val, by have := d.isLt; have := k.isLt; omega⟩ : Fin 16384)) := by
  rw [Layout.block_apply]
  congr 1
  funext b
  match b with
  | ⟨0, _⟩ => rfl
  | ⟨1, _⟩ => rfl

/-- Row k of block d of a 16384 × 1024 array cut along its rows is row 512·d + k of the whole. -/
theorem blockB_apply {α : Type} (d : Fin 32) (B : (⟨2, ![16384, 1024]⟩ : Shape).Idx → α) (k : Fin 512) (j : Fin 1024) :
    (Layout.block ⟨2, ![512, 1024]⟩ ⟨2, ![16384, 1024]⟩ 0 32 d B) (ix2 k j)
      = B (ix2 (⟨d.val * 512 + k.val, by have := d.isLt; have := k.isLt; omega⟩ : Fin 16384) j) := by
  rw [Layout.block_apply]
  congr 1
  funext b
  match b with
  | ⟨0, _⟩ => rfl
  | ⟨1, _⟩ => rfl

/-- Row r of block c of a 1024 × 1024 array cut along its rows is row 32·c + r of the whole. -/
theorem blockOut_apply {α : Type} (c : Fin 32) (v : (⟨2, ![1024, 1024]⟩ : Shape).Idx → α) (r : Fin 32) (j : Fin 1024) :
    (Layout.block ⟨2, ![32, 1024]⟩ ⟨2, ![1024, 1024]⟩ 0 32 c v) (ix2 r j)
      = v (ix2 (⟨32 * c.val + r.val, by have := c.isLt; have := r.isLt; omega⟩ : Fin 1024) j) := by
  rw [Layout.block_apply]
  congr 1
  funext b
  match b with
  | ⟨0, _⟩ => exact Fin.ext (show c.val * 32 + r.val = 32 * c.val + r.val by omega)
  | ⟨1, _⟩ => rfl

/-! ## A sum over 16384 positions, block by block -/

/-- A sum over 16384 = 32 · 512 positions is the sum over the 32 blocks of the sums over each block. -/
theorem sum_blocks {M : Type*} [AddCommMonoid M] (g : Fin 16384 → M) :
    ∑ K : Fin 16384, g K
      = ∑ d : Fin 32, ∑ k : Fin 512, g ⟨d.val * 512 + k.val, by have := d.isLt; have := k.isLt; omega⟩ := by
  rw [← Fintype.sum_prod_type']
  refine (Fintype.sum_equiv (finProdFinEquiv (m := 32) (n := 512)) _ g (fun p => ?_)).symm
  refine congrArg g (Fin.ext ?_)
  simp only [finProdFinEquiv_apply_val]
  omega

/-- The contraction over all 16384 positions is the sum over the devices of the contractions of their blocks. -/
theorem dot_blocks (A : (⟨2, ![1024, 16384]⟩ : Shape).Idx → EReal) (B : (⟨2, ![16384, 1024]⟩ : Shape).Idx → EReal)
    (i j : Fin 1024) :
    ∑ K : Fin 16384, A (ix2 i K) * B (ix2 K j)
      = ∑ d : Fin 32, ∑ k : Fin 512,
          (Layout.block ⟨2, ![1024, 512]⟩ ⟨2, ![1024, 16384]⟩ 1 32 d A) (ix2 i k)
            * (Layout.block ⟨2, ![512, 1024]⟩ ⟨2, ![16384, 1024]⟩ 0 32 d B) (ix2 k j) := by
  rw [sum_blocks]
  refine Finset.sum_congr rfl (fun d _ => Finset.sum_congr rfl (fun k _ => ?_))
  rw [blockA_apply, blockB_apply]

/-! ## The order in which the 32 partial results are added

  Device c first adds its partner's value to its own, then the three such pair sums of the other rows of
  its column, then the three such column sums of the other planes. -/

section Order

variable {M : Type*} [AddCommMonoid M]

/-- The partner's value and the device's own. -/
def pairSum (f : Fin 32 → M) (d : Fin 32) : M := f (partner d) + f d
/-- The pair sums of the four rows of a column, the device's own row first, then rows 3, 2, 1 further on. -/
def railSum (f : Fin 32 → M) (d : Fin 32) : M :=
  ((pairSum f d + pairSum f (rail d 3)) + pairSum f (rail d 2)) + pairSum f (rail d 1)
/-- The column sums of the four planes, the device's own plane first, then planes 3, 2, 1 further on. -/
def kerSum (f : Fin 32 → M) (c : Fin 32) : M :=
  ((railSum f c + railSum f (zpeer c 3)) + railSum f (zpeer c 2)) + railSum f (zpeer c 1)

/-- The two devices of a pair sum, in the order they are added. -/
def pairArgs (d : Fin 32) : List (Fin 32) := [partner d, d]
/-- The eight devices of a column sum, in the order they are added. -/
def railArgs (d : Fin 32) : List (Fin 32) :=
  pairArgs d ++ pairArgs (rail d 3) ++ pairArgs (rail d 2) ++ pairArgs (rail d 1)
/-- The 32 devices whose values reach device c, in the order they are added. -/
def kerArgs (c : Fin 32) : List (Fin 32) :=
  railArgs c ++ railArgs (zpeer c 3) ++ railArgs (zpeer c 2) ++ railArgs (zpeer c 1)

theorem pairSum_list (f : Fin 32 → M) (d : Fin 32) : pairSum f d = ((pairArgs d).map f).sum := by
  simp only [pairSum, pairArgs, List.map_cons, List.map_nil, List.sum_cons, List.sum_nil, add_zero]

theorem railSum_list (f : Fin 32 → M) (d : Fin 32) : railSum f d = ((railArgs d).map f).sum := by
  simp only [railSum, railArgs, List.map_append, List.sum_append, pairSum_list]

theorem kerSum_list (f : Fin 32 → M) (c : Fin 32) : kerSum f c = ((kerArgs c).map f).sum := by
  simp only [kerSum, kerArgs, List.map_append, List.sum_append, railSum_list]

/-- Whatever device c is, the 32 devices whose values reach it are all the devices, each once. -/
theorem kerArgs_perm : ∀ c : Fin 32, (kerArgs c).Perm (List.finRange 32) := by decide

/-- A sum over a list that names every device once is the sum over the devices. -/
theorem sum_of_perm (f : Fin 32 → M) (l : List (Fin 32)) (h : l.Perm (List.finRange 32)) :
    (l.map f).sum = ∑ d : Fin 32, f d := by
  rw [Fin.sum_univ_def]
  exact (h.map f).sum_eq

/-- Added in the kernel's order, the 32 values give their plain sum. -/
theorem kerSum_eq (f : Fin 32 → M) (c : Fin 32) : kerSum f c = ∑ d : Fin 32, f d :=
  (kerSum_list f c).trans (sum_of_perm f _ (kerArgs_perm c))

/-- A pair sum written the other way round. -/
theorem pairSum_comm (f : Fin 32 → M) (d : Fin 32) : f d + f (partner d) = pairSum f d := add_comm _ _

end Order

/-! ## The three facts chained -/

/-- If v is the product of A and B, then row r, column j of block c of v is the 32 devices' partial products
    (each the contraction of that device's two blocks) at row 32·c + r, column j, added in the kernel's order. -/
theorem spec (A : (⟨2, ![1024, 16384]⟩ : Shape).Idx → EReal) (B : (⟨2, ![16384, 1024]⟩ : Shape).Idx → EReal)
    (v : (⟨2, ![1024, 1024]⟩ : Shape).Idx → EReal)
    (hv : ∀ i j : Fin 1024, v (ix2 i j) = ∑ K : Fin 16384, A (ix2 i K) * B (ix2 K j))
    (c : Fin 32) (r : Fin 32) (j : Fin 1024) :
    (Layout.block ⟨2, ![32, 1024]⟩ ⟨2, ![1024, 1024]⟩ 0 32 c v) (ix2 r j)
      = kerSum (fun d => ∑ k : Fin 512,
          (Layout.block ⟨2, ![1024, 512]⟩ ⟨2, ![1024, 16384]⟩ 1 32 d A)
              (ix2 (⟨32 * c.val + r.val, by have := c.isLt; have := r.isLt; omega⟩ : Fin 1024) k)
            * (Layout.block ⟨2, ![512, 1024]⟩ ⟨2, ![16384, 1024]⟩ 0 32 d B) (ix2 k j)) c := by
  rw [blockOut_apply, hv, dot_blocks, kerSum_eq]

end Cert.SumAlgebra
-- ==== Proof.ValuesIdeal.lean ====
/-
  The contents families at the ideal values: every sum is the plain sum, every slot a row of the sum before
  it, and the result block of device c is the 32 devices' partial products at its rows, added pair first,
  then along the column, then across the planes.
-/
import proofs.«900893_g7700000000000894_dist_matmul_mk_i_outk_m1024_n1024_k512_v7x_i32_f32_1_alg».proof.Proof.Values
import proofs.«900893_g7700000000000894_dist_matmul_mk_i_outk_m1024_n1024_k512_v7x_i32_f32_1_alg».proof.Proof.PartialIdeal
import proofs.«900893_g7700000000000894_dist_matmul_mk_i_outk_m1024_n1024_k512_v7x_i32_f32_1_alg».proof.Proof.PayIdeal2
import proofs.«900893_g7700000000000894_dist_matmul_mk_i_outk_m1024_n1024_k512_v7x_i32_f32_1_alg».proof.Proof.SumAlgebra
import proofs.«900893_g7700000000000894_dist_matmul_mk_i_outk_m1024_n1024_k512_v7x_i32_f32_1_alg».proof.Proof.MeshFacts

noncomputable section

open scoped BigOperators

namespace Cert.KernelIdeal.Values

open Cert.KernelIdeal Cert.KernelIdeal.Gen Cert.KernelIdeal.Proto Cert.KernelIdeal.PayIdeal
open Cert.KernelIdeal.LaunchData (astg bstg)
open Cert.Mesh (partner rail zpeer zc pc yc xc pOf dev slot)
open Idealize.ShloMosaic Idealize.ShloMosaic.TcCoe Idealize.SL.Sem Idealize.ShloMosaic.ValueIdx

variable (m : (ℓ : Loc nD τ sig) → Buf (Elt Ideal) ℓ)

/-- The pair sum at an index. -/
theorem PAIRv_apply (d : Dev nD) (q : Fin 8) (y zo : Fin 4) (r : Fin 32) (jj : Fin 128) :
    PAIRv (F := Ideal) m d q (ix4 y zo r jj) = S1v m (partner d) q (ix4 y zo r jj) + OWNv m d q (ix4 y zo r jj) := by
  unfold PAIRv pairF
  rw [k0_pay58_apply]
  unfold up5
  rw [cast5_apply, cast5_apply]

/-- A stage-two slot at an index: the row of the pair sum. -/
theorem P2v_apply (d : Dev nD) (i : Fin 32) (zo : Fin 4) (r : Fin 32) (jj : Fin 128) :
    P2v (F := Ideal) m d i (ix4 (0 : Fin 1) zo r jj) = PAIRv m d (qOf i) (ix4 (⟨i.val % 4, Nat.mod_lt _ (by decide)⟩ : Fin 4) zo r jj) := rfl

/-- The column sum at an index. -/
theorem ACCv_apply (d : Dev nD) (q : Fin 8) (zo : Fin 4) (r : Fin 32) (jj : Fin 128) :
    ACCv (F := Ideal) m d q (ix3 zo r jj)
      = P2v m d (slot (yc d) q 0) (ix4 (0 : Fin 1) zo r jj) + P2v m (rail d 3) (slot (yc d) q 0) (ix4 (0 : Fin 1) zo r jj)
        + P2v m (rail d 2) (slot (yc d) q 0) (ix4 (0 : Fin 1) zo r jj) + P2v m (rail d 1) (slot (yc d) q 0) (ix4 (0 : Fin 1) zo r jj) :=
  k0_pay71_chain_apply _ _ _ _ zo r jj

/-- A stage-three slot at an index: the plane row of the column sum. -/
theorem P3v_apply (d : Dev nD) (i : Fin 32) (r : Fin 32) (jj : Fin 128) :
    P3v (F := Ideal) m d i (ix3 (0 : Fin 1) r jj) = ACCv m d (qOf i) (ix3 (⟨i.val % 4, Nat.mod_lt _ (by decide)⟩ : Fin 4) r jj) := rfl

/-- The plane sum at an index. -/
theorem FACCv_apply (d : Dev nD) (q : Fin 8) (r : Fin 32) (jj : Fin 128) :
    FACCv (F := Ideal) m d q (ix2 r jj)
      = P3v m d (slot (zc d) q 0) (ix3 (0 : Fin 1) r jj) + P3v m (zpeer d 3) (slot (zc d) q 0) (ix3 (0 : Fin 1) r jj)
        + P3v m (zpeer d 2) (slot (zc d) q 0) (ix3 (0 : Fin 1) r jj) + P3v m (zpeer d 1) (slot (zc d) q 0) (ix3 (0 : Fin 1) r jj) :=
  k0_pay99_chain_apply _ _ _ _ r jj

/-- The result block at an index: the chunk of its column. -/
theorem OUTv_apply (d : Dev nD) (r : Fin 32) (j : Fin 1024) :
    OUTv (F := Ideal) m d (ix2 r j) = FACCv m d (⟨j.val / 128, by have := j.isLt; omega⟩ : Fin 8) (ix2 r (⟨j.val % 128, Nat.mod_lt _ (by decide)⟩ : Fin 128)) := rfl

/-! ## The partial products -/

/-- Device d's staged block of the first argument, as extended reals. -/
def aOf (d : Dev nD) : FVec Ideal S1024x512 .f32 := astg m d
/-- Device d's staged block of the second argument, as extended reals. -/
def bOf (d : Dev nD) : FVec Ideal S512x1024 .f32 := bstg m d

/-- Device d's partial product at row i and column j of the whole product: the contraction of its staged blocks. -/
def partialAt (d : Dev nD) (i : Fin 1024) (j : Fin 1024) : EReal :=
  ∑ k : Fin 512, aOf m d (ix2 i k) * bOf m d (ix2 k j)

/-- What device p sends its partner, at the row and plane of device c, is p's partial product at c's rows,
    when the other column of p is c's column. -/
theorem S1_term (p c : Dev nD) (hx : 1 - xc p = xc c) (Y Z : Fin 4) (hY : Y.val = yc c) (hZ : Z.val = zc c)
    (r : Fin 32) (j : Fin 1024) :
    S1v (F := Ideal) m p (⟨j.val / 128, by have := j.isLt; omega⟩ : Fin 8) (ix4 Y Z r (⟨j.val % 128, Nat.mod_lt _ (by decide)⟩ : Fin 128)) = partialAt m p (⟨32 * c.val + r.val, by have h : c.val < 32 := c.isLt; have := r.isLt; omega⟩ : Fin 1024) j := by
  unfold S1v partialAt aOf bOf
  rw [PartialIdeal.S1val_apply]
  refine Finset.sum_congr rfl fun k _ => ?_
  have hc : c.val = zc c * 8 + pOf (xc c) (yc c) := by
    rw [MeshFacts.val_eq c, MeshFacts.pc_eq_pOf]
  congr 2
  · congr 1
    apply Fin.ext
    show (Z.val * 8 + pOf (1 - xc p) Y.val) * 32 + r.val = 32 * c.val + r.val
    rw [hx, hY, hZ, hc]; omega
  · congr 1
    apply Fin.ext
    show 128 * (j.val / 128) + j.val % 128 = j.val
    omega

/-- What device p keeps, at the row and plane of device c, is p's partial product at c's rows, when p's column
    is c's column. -/
theorem OWN_term (p c : Dev nD) (hx : xc p = xc c) (Y Z : Fin 4) (hY : Y.val = yc c) (hZ : Z.val = zc c)
    (r : Fin 32) (j : Fin 1024) :
    OWNv (F := Ideal) m p (⟨j.val / 128, by have := j.isLt; omega⟩ : Fin 8) (ix4 Y Z r (⟨j.val % 128, Nat.mod_lt _ (by decide)⟩ : Fin 128)) = partialAt m p (⟨32 * c.val + r.val, by have h : c.val < 32 := c.isLt; have := r.isLt; omega⟩ : Fin 1024) j := by
  unfold OWNv partialAt aOf bOf
  rw [PartialIdeal.OWNval_apply]
  refine Finset.sum_congr rfl fun k _ => ?_
  have hc : c.val = zc c * 8 + pOf (xc c) (yc c) := by
    rw [MeshFacts.val_eq c, MeshFacts.pc_eq_pOf]
  congr 2
  · congr 1
    apply Fin.ext
    show (Z.val * 8 + pOf (xc p) Y.val) * 32 + r.val = 32 * c.val + r.val
    rw [hx, hY, hZ, hc]; omega
  · congr 1
    apply Fin.ext
    show 128 * (j.val / 128) + j.val % 128 = j.val
    omega

/-- The pair sum of a device e of c's column, at the row and plane of c: e's and its partner's partial products. -/
theorem pair_term (e c : Dev nD) (hx : xc e = xc c) (Y Z : Fin 4) (hY : Y.val = yc c) (hZ : Z.val = zc c)
    (r : Fin 32) (j : Fin 1024) :
    PAIRv (F := Ideal) m e (⟨j.val / 128, by have := j.isLt; omega⟩ : Fin 8) (ix4 Y Z r (⟨j.val % 128, Nat.mod_lt _ (by decide)⟩ : Fin 128))
      = SumAlgebra.pairSum (fun d => partialAt m d (⟨32 * c.val + r.val, by have h : c.val < 32 := c.isLt; have := r.isLt; omega⟩ : Fin 1024) j) e := by
  rw [PAIRv_apply, S1_term m (partner e) c (by rw [MeshFacts.xc_partner, hx]; have := MeshFacts.xc_lt c; omega) Y Z hY hZ r j,
    OWN_term m e c hx Y Z hY hZ r j]
  rfl

/-- The column sum of a device e of c's column and row, at the plane of c. -/
theorem rail_term (e c : Dev nD) (hx : xc e = xc c) (hy : yc e = yc c) (Z : Fin 4) (hZ : Z.val = zc c)
    (r : Fin 32) (j : Fin 1024) :
    ACCv (F := Ideal) m e (⟨j.val / 128, by have := j.isLt; omega⟩ : Fin 8) (ix3 Z r (⟨j.val % 128, Nat.mod_lt _ (by decide)⟩ : Fin 128))
      = SumAlgebra.railSum (fun d => partialAt m d (⟨32 * c.val + r.val, by have h : c.val < 32 := c.isLt; have := r.isLt; omega⟩ : Fin 1024) j) e := by
  have hY : ((⟨(slot (yc e) (⟨j.val / 128, by have := j.isLt; omega⟩ : Fin 8) 0).val % 4, Nat.mod_lt _ (by decide)⟩ : Fin 4)).val = yc c := by
    show (slot (yc e) (⟨j.val / 128, by have := j.isLt; omega⟩ : Fin 8) 0).val % 4 = yc c
    rw [Proto.slot_mod, hy]; have := MeshFacts.yc_lt c; omega
  rw [ACCv_apply, P2v_apply, P2v_apply, P2v_apply, P2v_apply, Proto.qOf_slot,
    pair_term m e c hx _ Z hY hZ r j,
    pair_term m (rail e 3) c (by rw [MeshFacts.xc_rail, hx]) _ Z hY hZ r j,
    pair_term m (rail e 2) c (by rw [MeshFacts.xc_rail, hx]) _ Z hY hZ r j,
    pair_term m (rail e 1) c (by rw [MeshFacts.xc_rail, hx]) _ Z hY hZ r j]
  rfl

/-- The result block of device c, at row r and column j, is the 32 devices' partial products at row 32·c + r and
    column j, added in the kernel's order. -/
theorem OUTv_kerSum (c : Dev nD) (r : Fin 32) (j : Fin 1024) :
    OUTv (F := Ideal) m c (ix2 r j) = SumAlgebra.kerSum (fun d => partialAt m d (⟨32 * c.val + r.val, by have h : c.val < 32 := c.isLt; have := r.isLt; omega⟩ : Fin 1024) j) c := by
  have hZ : ((⟨(slot (zc c) (⟨j.val / 128, by have := j.isLt; omega⟩ : Fin 8) 0).val % 4, Nat.mod_lt _ (by decide)⟩ : Fin 4)).val = zc c := by
    show (slot (zc c) (⟨j.val / 128, by have := j.isLt; omega⟩ : Fin 8) 0).val % 4 = zc c
    rw [Proto.slot_mod]; have := MeshFacts.zc_lt c; omega
  rw [OUTv_apply, FACCv_apply, P3v_apply, P3v_apply, P3v_apply, P3v_apply, Proto.qOf_slot,
    rail_term m c c rfl rfl _ hZ r j,
    rail_term m (zpeer c 3) c (MeshFacts.xc_zpeer c 3) (MeshFacts.yc_zpeer c 3) _ hZ r j,
    rail_term m (zpeer c 2) c (MeshFacts.xc_zpeer c 2) (MeshFacts.yc_zpeer c 2) _ hZ r j,
    rail_term m (zpeer c 1) c (MeshFacts.xc_zpeer c 1) (MeshFacts.yc_zpeer c 1) _ hZ r j]
  rfl

/-- With the devices' staged blocks the blocks of whole arrays A and B, the result block of device c is block c of
    any v that is the product of A and B. -/
theorem OUTv_ideal (A : (⟨2, ![1024, 16384]⟩ : Shape).Idx → EReal) (B : (⟨2, ![16384, 1024]⟩ : Shape).Idx → EReal)
    (hA : ∀ d : Dev nD, aOf m d = Layout.block ⟨2, ![1024, 512]⟩ ⟨2, ![1024, 16384]⟩ 1 32 d A)
    (hB : ∀ d : Dev nD, bOf m d = Layout.block ⟨2, ![512, 1024]⟩ ⟨2, ![16384, 1024]⟩ 0 32 d B)
    (v : (⟨2, ![1024, 1024]⟩ : Shape).Idx → EReal)
    (hv : ∀ i j : Fin 1024, v (ix2 i j) = ∑ K : Fin 16384, A (ix2 i K) * B (ix2 K j))
    (c : Dev nD) (r : Fin 32) (j : Fin 1024) :
    OUTv (F := Ideal) m c (ix2 r j) = (Layout.block ⟨2, ![32, 1024]⟩ ⟨2, ![1024, 1024]⟩ 0 32 c v) (ix2 r j) := by
  rw [OUTv_kerSum, SumAlgebra.spec A B v hv c r j]
  congr 1
  funext d
  unfold partialAt
  rw [hA d, hB d]

end Cert.KernelIdeal.Values

end
-- ==== Proof.ValuesBlock.lean ====
/-
  The result block of every device, as a whole: with each device's argument buffers the blocks of whole
  arrays A and B, the result block of device c is block c of the reference's product of A and B.
-/
import proofs.«900893_g7700000000000894_dist_matmul_mk_i_outk_m1024_n1024_k512_v7x_i32_f32_1_alg».proof.Proof.ValuesIdeal
import proofs.«900893_g7700000000000894_dist_matmul_mk_i_outk_m1024_n1024_k512_v7x_i32_f32_1_alg».proof.Proof.RefValue
import Idealize.ShloMosaic.Lib.Pipeline.Value

noncomputable section

open scoped BigOperators

namespace Cert.KernelIdeal.Values

open Cert.KernelIdeal Cert.KernelIdeal.Gen Cert.KernelIdeal.Proto
open Cert.KernelIdeal.LaunchData (astg bstg)
open Cert.Mesh (partner rail zpeer zc pc yc xc pOf dev slot)
open Idealize.ShloMosaic Idealize.ShloMosaic.TcCoe Idealize.SL.Sem Idealize.ShloMosaic.ValueIdx

variable (m : (ℓ : Loc nD τ sig) → Buf (Elt Ideal) ℓ)

/-- The one block of the first argument's window is the whole array: an element sits where its coordinates say. -/
theorem emb0_val (i : cc0_stg0_0.ty.Idx) (a : Fin 2) : (((win0_0.blk (0 : Fin 1)).view.emb i) a : ℕ) = (i a : ℕ) := by
  show (((win0_0.rect (0 : Fin 1)).emb i a : ℕ)) = _
  exact Pipeline.Window.rect_emb_val_of_index_zero win0_0 (0 : Fin 1) a (by revert a; decide) i

/-- Likewise for the second argument's window. -/
theorem emb1_val (i : cc0_stg1_0.ty.Idx) (a : Fin 2) : (((win0_1.blk (0 : Fin 1)).view.emb i) a : ℕ) = (i a : ℕ) := by
  show (((win0_1.rect (0 : Fin 1)).emb i a : ℕ)) = _
  exact Pipeline.Window.rect_emb_val_of_index_zero win0_1 (0 : Fin 1) a (by revert a; decide) i

/-- What the pipeline stages of the first argument is the device's whole buffer of it. -/
theorem astg_eq (d : Dev nD) : astg m d = m ((d : Thread nD τ).loc main_arg0) := by
  funext i
  unfold astg
  rw [View.read_apply]
  have he : (win0_0.blk (0 : Fin 1)).view.emb i = i := funext fun a => Fin.ext (emb0_val i a)
  rw [he]
  rfl

/-- What the pipeline stages of the second argument is the device's whole buffer of it. -/
theorem bstg_eq (d : Dev nD) : bstg m d = m ((d : Thread nD τ).loc main_arg1) := by
  funext i
  unfold bstg
  rw [View.read_apply]
  have he : (win0_1.blk (0 : Fin 1)).view.emb i = i := funext fun a => Fin.ext (emb1_val i a)
  rw [he]
  rfl

/-- With every device's argument buffers the blocks of whole arrays A and B, the result block of device c is
    block c of the reference's product of A and B. -/
theorem OUTv_block
    (A : (⟨Cert.ReferenceIdeal.S1024x16384, .f32⟩ : BufTy).Contents (Elt Ideal))
    (B : (⟨Cert.ReferenceIdeal.S16384x1024, .f32⟩ : BufTy).Contents (Elt Ideal))
    (hm : ∀ c : Dev nD,
      m ((c : Thread nD τ).loc main_arg0) = Layout.block ⟨2, ![1024, 512]⟩ ⟨2, ![1024, 16384]⟩ 1 32 c A
      ∧ m ((c : Thread nD τ).loc main_arg1) = Layout.block ⟨2, ![512, 1024]⟩ ⟨2, ![16384, 1024]⟩ 0 32 c B)
    (c : Dev nD) :
    OUTv (F := Ideal) m c = Layout.block ⟨2, ![32, 1024]⟩ ⟨2, ![1024, 1024]⟩ 0 32 c (Cert.ReferenceIdeal.RefValue.refOut A B) := by
  funext i
  obtain ⟨r, j, rfl⟩ : ∃ (r : Fin 32) (j : Fin 1024), i = ix2 r j := ⟨i 0, i 1, eq_ix2 i⟩
  exact OUTv_ideal m A B (fun d => (astg_eq m d).trans (hm d).1) (fun d => (bstg_eq m d).trans (hm d).2)
    (Cert.ReferenceIdeal.RefValue.refOut A B) (Cert.ReferenceIdeal.RefValue.refOut_apply A B) c r j

end Cert.KernelIdeal.Values

end
-- ==== Proof.LaunchV.lean ====
/-
  The launch with the values named: the proof data say what every window's staging buffer holds after the kernel
  body, the result window's included, over the schedule whose payloads name the contents each copy lands; the run
  then ends with each device's result array holding what the body left in the result's staging buffer.
-/
import proofs.«900893_g7700000000000894_dist_matmul_mk_i_outk_m1024_n1024_k512_v7x_i32_f32_1_alg».proof.Proof.LaunchData
import proofs.«900893_g7700000000000894_dist_matmul_mk_i_outk_m1024_n1024_k512_v7x_i32_f32_1_alg».proof.Proof.LaunchAlloc
import proofs.«900893_g7700000000000894_dist_matmul_mk_i_outk_m1024_n1024_k512_v7x_i32_f32_1_alg».proof.Proof.LaunchDeal
import proofs.«900893_g7700000000000894_dist_matmul_mk_i_outk_m1024_n1024_k512_v7x_i32_f32_1_alg».proof.Proof.Launch
import proofs.«900893_g7700000000000894_dist_matmul_mk_i_outk_m1024_n1024_k512_v7x_i32_f32_1_alg».proof.Proof.ProtoCred
import proofs.«900893_g7700000000000894_dist_matmul_mk_i_outk_m1024_n1024_k512_v7x_i32_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.LaunchV

open Cert.KernelIdeal Cert.KernelIdeal.Gen Cert.KernelIdeal.Proto Cert.KernelIdeal.Ghost
open Cert.KernelIdeal.LaunchSems (osem ownSemFacts ownSems0_eq unscopedSems0_eq)
open Cert.KernelIdeal.LaunchData Cert.KernelIdeal.LaunchAlloc Cert.KernelIdeal.LaunchDeal
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (S1 : Dev nD → Fin 8 → C1 F) (P2 : Dev nD → Fin 32 → C2 F) (P3 : Dev nD → Fin 32 → C3 F)
variable (OUT : (c : Dev nD) → (cc0_stg2_0 : Ref sig .tc).ty.Contents (Elt F))

/-- The proof data with every window's contents after the body named; the invariants are those of the launch, over the
    schedule whose payloads name the landed contents. -/
def datsV (_ : Fin 1) (c : Dev nD) : Dat τ (Elt F) Unit ℕ UU ℕ cfg0 c where
  A w := m ((cfg0.win w).arr.view.loc (c : Thread nD τ))
  after w _ := match w with
    | ⟨0, _⟩ => astg m c
    | ⟨1, _⟩ => bstg m c
    | ⟨2, _⟩ => OUT c
  Φ t := match t with
    | ⟨0, _⟩ => Φ₀ (sched S1 P2 P3) c
    | ⟨_ + 1, _⟩ => Φ₁ c
  q _ := fullShare
  owed t := match t with
    | ⟨0, _⟩ => O₀ c
    | ⟨_ + 1, _⟩ => 0

theorem share_eq (c : Dev nD) (w : Fin cfg0.W) : (datsV m S1 P2 P3 OUT 0 c).share w = fullShare := by
  unfold Dat.share; split <;> rfl

theorem waits (c : Dev nD) : (levAts L lv : sProp 𝕄) ⊢ Pipeline.cellsWaits cfgs (datsV m S1 P2 P3 OUT) () 0 c :=
  Pipeline.cellsWaits_intro cfgs (datsV m S1 P2 P3 OUT) () 0 c fun w s t => by
    have hn : (((cfgs 0).win w).sem s).val < 3 := by fin_cases w <;> fin_cases s <;> decide
    rcases t with ⟨_ | _, ht⟩
    · exact mayWait_stage c _ hn 0
    · exact mayWait_none c _

/-- The result array after the run holds what the body left in the result's staging buffer. -/
theorem final_out (c : Dev nD) : (datsV m S1 P2 P3 OUT 0 c).arrAt (2 : Fin 3) cfg0.N = OUT c := by
  have h := (datsV m S1 P2 P3 OUT 0 c).arrAt_succ (2 : Fin 3) t0_0
  rw [if_pos (flush0_2 t0_0)] at h
  refine h.trans ?_
  first
    | exact View.write_whole_univ _ _ _
    | exact Memref.write_access_unit_zero_univ (Elt F) main_v1 (by funext a; fin_cases a <;> rfl) _ _ _
    | (show (View.whole main_v1).write (Elt F) _ (OUT c) Finset.univ = OUT c; exact View.write_whole_univ _ _ _)

set_option maxRecDepth 8000 in
/-- At the compiled mesh, from any memory with zero counters: if every device's kernel body meets its obligation at the
    named contents, every weakly fair execution of the program terminates, each device's result array ends holding the
    contents named for it, and both argument arrays of every device end unchanged. -/
theorem run_of_bodyV (hbody : ∀ c, BodyObligation (datsV m S1 P2 P3 OUT 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = OUT c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (datsV m S1 P2 P3 OUT) () cellOf_inj (0 : Fin 1)
    winFacts0.to₀ ownSemFacts (Pipeline.PreFacts.none _) EP defs₀ Variants.none m ρ main
    (hmain := fun _ => rfl)
    (hbody := fun c => (hbody c).loose) (hne := fun w => by fin_cases w <;> exact Nat.succ_pos _) (harr := arr_whole0) (hstage := stage_whole0)
    (hshare := share_eq m S1 P2 P3 OUT)
    (hdistinct := winFacts0.arr_inj)
    (O₀ := O₀) (howed₀ := fun _ => rfl) (howedN := fun _ => rfl)
    (L := L) (lv := lv) (hL := L_of_ne) (hwaits := waits m S1 P2 P3 OUT)
    (G := Launch.G (sched S1 P2 P3)) (G' := G' (sched S1 P2 P3)) (u₀ := Launch.u₀)
    (hu₀ := by
      unfold Launch.u₀
      iintro Hu
      ihave H := (ownU_pair _ _) $$ Hu
      icases H with ⟨HP, HX⟩
      imod (Launch.fund_all (sched S1 P2 P3)) $$ HX with HG
      imodintro
      isplitl [HP] <;> iassumption)
    (hglob := Launch.glob_all (sched S1 P2 P3))
    (hA := fun _ _ => rfl) (hpf := fun _ k => k.elim0)
    (X := Launch.X (sched S1 P2 P3)) (Y := fun _ => iprop(emp)) (Z := fun _ => iprop(emp))
    (hX := Launch.start_intro (sched S1 P2 P3) m ρ) (hin := Launch.phi0_intro (sched S1 P2 P3) m) (hout := Launch.phi1_exit (sched S1 P2 P3) m)
    (QY := fun _ _ => True)
    (hY := fun c s' => by
      iintro ⟨-, -, HSI⟩
      imodintro
      isplitr; · ipureintro; trivial
      iexact HSI)
    (hQ := fun s h c =>
      ⟨((h c).1 2).trans (final_out m S1 P2 P3 OUT c),
       ((h c).1 0).trans ((datsV m S1 P2 P3 OUT 0 c).arrAt_in 0 rfl _),
       ((h c).1 1).trans ((datsV m S1 P2 P3 OUT 0 c).arrAt_in 1 rfl _)⟩)

/-- info: 'Cert.KernelIdeal.LaunchV.run_of_bodyV' depends on axioms: [propext, Classical.choice, Quot.sound] -/
#guard_msgs in #print axioms run_of_bodyV

end Cert.KernelIdeal.LaunchV

end
-- ==== Proof.BodyWrapV.lean ====
/-
  From the run of one device's kernel body at its own pre- and postcondition, the result's staging buffer left at
  the contents named for the device, to the pipeline's body obligation over the proof data with the values named.
-/
import proofs.«900893_g7700000000000894_dist_matmul_mk_i_outk_m1024_n1024_k512_v7x_i32_f32_1_alg».proof.Proof.LaunchV
import proofs.«900893_g7700000000000894_dist_matmul_mk_i_outk_m1024_n1024_k512_v7x_i32_f32_1_alg».proof.Proof.BodyWrap
import proofs.«900893_g7700000000000894_dist_matmul_mk_i_outk_m1024_n1024_k512_v7x_i32_f32_1_alg».proof.Proof.Gen.KernelIdeal.Launch
import proofs.«900893_g7700000000000894_dist_matmul_mk_i_outk_m1024_n1024_k512_v7x_i32_f32_1_alg».proof.Proof.Gen.KernelIdeal.Points

noncomputable section

namespace Cert.KernelIdeal.BodyWrapV

open Cert.KernelIdeal Cert.KernelIdeal.Gen Cert.KernelIdeal.Proto Cert.KernelIdeal.Ghost Cert.KernelIdeal.LaunchData Cert.KernelIdeal.LaunchV
open Cert.KernelIdeal.BodyWrap (bodyPre stg)
open Cert.KernelIdeal.LaunchSems (osem ownSemFacts ownSems0_eq unscopedSems0_eq)
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (S1 : Dev nD → Fin 8 → C1 F) (P2 : Dev nD → Fin 32 → C2 F) (P3 : Dev nD → Fin 32 → C3 F)
variable (OUT : (c : Dev nD) → (cc0_stg2_0 : Ref sig .tc).ty.Contents (Elt F))

/-- What the body ends with: nothing owed, the two input staging buffers as they were, the result staging buffer at
    the contents named for the device, the nine scratch buffers at some contents, the 144 own semaphores at zero. -/
def bodyPostV (c : Dev nD) : sProp 𝕄 :=
  iprop((∃ W' : Waits sig Unit, owes (c : Thread nD τ) 0 W')
    ∗ ((Memref.whole cc0_stg0_0 : Memref sig .tc _ _ _).view.loc (c : Thread nD τ) ↦{fullShare} astg m c)
    ∗ ((Memref.whole cc0_stg1_0 : Memref sig .tc _ _ _).view.loc (c : Thread nD τ) ↦{fullShare} bstg m c)
    ∗ ((Memref.whole cc0_stg2_0 : Memref sig .tc _ _ _).view.loc (c : Thread nD τ) ↦{fullShare} OUT c)
    ∗ (∃ f : Buf (Elt F) ((c : Thread nD τ).loc cc0_scratch0), ((Memref.whole cc0_scratch0 : Memref sig .tc _ _ _).view.loc (c : Thread nD τ) ↦{fullShare} f))
    ∗ (∃ f : Buf (Elt F) ((c : Thread nD τ).loc cc0_scratch1), ((Memref.whole cc0_scratch1 : Memref sig .tc _ _ _).view.loc (c : Thread nD τ) ↦{fullShare} f))
    ∗ (∃ f : Buf (Elt F) ((c : Thread nD τ).loc cc0_scratch2), ((Memref.whole cc0_scratch2 : Memref sig .tc _ _ _).view.loc (c : Thread nD τ) ↦{fullShare} f))
    ∗ (∃ f : Buf (Elt F) ((c : Thread nD τ).loc cc0_scratch3), ((Memref.whole cc0_scratch3 : Memref sig .tc _ _ _).view.loc (c : Thread nD τ) ↦{fullShare} f))
    ∗ (∃ f : Buf (Elt F) ((c : Thread nD τ).loc cc0_scratch4), ((Memref.whole cc0_scratch4 : Memref sig .tc _ _ _).view.loc (c : Thread nD τ) ↦{fullShare} f))
    ∗ (∃ f : Buf (Elt F) ((c : Thread nD τ).loc cc0_scratch5), ((Memref.whole cc0_scratch5 : Memref sig .tc _ _ _).view.loc (c : Thread nD τ) ↦{fullShare} f))
    ∗ (∃ f : Buf (Elt F) ((c : Thread nD τ).loc cc0_scratch6), ((Memref.whole cc0_scratch6 : Memref sig .tc _ _ _).view.loc (c : Thread nD τ) ↦{fullShare} f))
    ∗ (∃ f : Buf (Elt F) ((c : Thread nD τ).loc cc0_scratch7), ((Memref.whole cc0_scratch7 : Memref sig .tc _ _ _).view.loc (c : Thread nD τ) ↦{fullShare} f))
    ∗ (∃ f : Buf (Elt F) ((c : Thread nD τ).loc cc0_scratch8), ((Memref.whole cc0_scratch8 : Memref sig .tc _ _ _).view.loc (c : Thread nD τ) ↦{fullShare} f))
    ∗ bigSep Finset.univ fun i : Fin 144 => semVal ((c : Thread nD τ), LaunchSems.osem i) 0)

/-- The run of one device's kernel body over the valued schedule, from the launch's precondition to `bodyPostV`. -/
def SoundV : Prop :=
  ∀ (c : Dev nD) (K : GSem nD τ sig → ℕ) (W : Waits sig Unit) (Kt : PUnit → sProp 𝕄)
      (o0 : Buf (Elt F) ((c : Thread nD τ).loc cc0_stg2_0))
      (f0 : Buf (Elt F) ((c : Thread nD τ).loc cc0_scratch0))
      (f1 : Buf (Elt F) ((c : Thread nD τ).loc cc0_scratch1))
      (f2 : Buf (Elt F) ((c : Thread nD τ).loc cc0_scratch2))
      (f3 : Buf (Elt F) ((c : Thread nD τ).loc cc0_scratch3))
      (f4 : Buf (Elt F) ((c : Thread nD τ).loc cc0_scratch4))
      (f5 : Buf (Elt F) ((c : Thread nD τ).loc cc0_scratch5))
      (f6 : Buf (Elt F) ((c : Thread nD τ).loc cc0_scratch6))
      (f7 : Buf (Elt F) ((c : Thread nD τ).loc cc0_scratch7))
      (f8 : Buf (Elt F) ((c : Thread nD τ).loc cc0_scratch8)),
      iprop(bodyPre (sched S1 P2 P3) m K c W o0 f0 f1 f2 f3 f4 f5 f6 f7 f8 ∗ (bodyPostV m OUT c -∗ Kt ⟨⟩))
        ⊢ wp frame (wpE (defs₀ (F := F)) Variants.none (c : Thread nD τ) none) Set.univ
          (cc0_body (F := F) (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 cc0_scratch12 cc0_scratch13 cc0_scratch14) Kt

/-- The obligation's precondition at the one point. -/
def bodyPreV' (c : Dev nD) : sProp 𝕄 :=
  iprop(Φ₀ (sched S1 P2 P3) c ∗ (datsV m S1 P2 P3 OUT 0 c).owesAt () t0_0.castSucc
    ∗ (∃ d, stg c cc0_stg0_0 ((datsV m S1 P2 P3 OUT 0 c).before (0 : Fin 3) t0_0 d))
    ∗ (∃ d, stg c cc0_stg1_0 ((datsV m S1 P2 P3 OUT 0 c).before (1 : Fin 3) t0_0 d))
    ∗ (∃ d, stg c cc0_stg2_0 ((datsV m S1 P2 P3 OUT 0 c).before (2 : Fin 3) t0_0 d)))

/-- The obligation's postcondition at the one point. -/
def bodyPostV' (c : Dev nD) : sProp 𝕄 :=
  iprop(Φ₁ c ∗ (datsV m S1 P2 P3 OUT 0 c).owesAt () t0_0.succ
    ∗ stg c cc0_stg0_0 (astg m c) ∗ stg c cc0_stg1_0 (bstg m c) ∗ stg c cc0_stg2_0 (OUT c))

theorem before_0 (c : Dev nD) (d : (cfg0.win (0 : Fin 3)).block.Idx → Elt F (cfg0.win (0 : Fin 3)).elt) :
    (datsV m S1 P2 P3 OUT 0 c).before (0 : Fin 3) t0_0 d = astg m c := by
  unfold Dat.before; rw [if_pos (fetch0_0 t0_0)]; rfl

theorem before_1 (c : Dev nD) (d : (cfg0.win (1 : Fin 3)).block.Idx → Elt F (cfg0.win (1 : Fin 3)).elt) :
    (datsV m S1 P2 P3 OUT 0 c).before (1 : Fin 3) t0_0 d = bstg m c := by
  unfold Dat.before; rw [if_pos (fetch0_1 t0_0)]; rfl

set_option maxRecDepth 100000 in
set_option maxHeartbeats 1600000 in
/-- The pipeline's body obligation on every device, from the body's lemma. -/
theorem body_obligationV (hsound : SoundV m S1 P2 P3 OUT) :
    ∀ c : Dev nD, BodyObligation (datsV m S1 P2 P3 OUT 0 c) (defs₀ (F := F)) Variants.none () Set.univ := fun c t => by
  rw [fin_N0 t, bigSep_W0, bigSep_W0]
  simp only [owns_whole_eq]
  show bodyPreV' m S1 P2 P3 OUT c ⊢ wp frame (wpE (defs₀ (F := F)) Variants.none (c : Thread nD τ) none) Set.univ
    (cc0_body (F := F) (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 cc0_scratch12 cc0_scratch13 cc0_scratch14) (fun _ => bodyPostV' m S1 P2 P3 OUT c)
  have hsr := scopedRest0_eq (Ix := Unit) (Val := Elt F) (Name := ℕ) (U := UU) (Lvl := ℕ) c
  unfold bodyPreV' bodyPostV' Φ₀ Φ₁
  rw [show (Pipeline.scopedRest cfg0.spec c : sProp 𝕄) = _ from hsr,
    show (Pipeline.ownSems0 osem c : sProp 𝕄) = _ from ownSems0_eq (Ix := Unit) (Val := Elt F) (Name := ℕ) (U := UU) (Lvl := ℕ) c]
  iintro ⟨⟨⟨%K, Hg⟩, Hlev, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, ⟨%W, %hW, Ho⟩, ⟨%d0, %g0, %hg0, Ha⟩, ⟨%d1, %g1, %hg1, Hb⟩, ⟨%d2, %g2, %hg2, Hout⟩⟩
  have ha : g0 = astg m c := hg0.trans (before_0 m S1 P2 P3 OUT c d0)
  have hb : g1 = bstg m c := hg1.trans (before_1 m S1 P2 P3 OUT c d1)
  subst ha hb
  iapply (hsound c K W _ g2 f0 f1 f2 f3 f4 f5 f6 f7 f8)
  isplitr []
  · unfold bodyPre
    isplitl [Hg]; · iexact Hg
    isplitl [Hlev]; · iexact Hlev
    isplitl [Ho]; · iexact Ho
    isplitl [Ha]; · iexact Ha
    isplitl [Hb]; · iexact Hb
    isplitl [Hout]; · iexact Hout
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · unfold bodyPostV
    iintro ⟨⟨%W', Ho'⟩, Ha, Hb, Hout, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, Hsems⟩
    isplitl [Hsems H0 H1 H2 H3 H4 H5 H6 H7 H8]
    · isplitl [Hsems]; · iexact Hsems
      isplitl [H0]; · (iexists e0; iexact H0)
      isplitl [H1]; · (iexists e1; iexact H1)
      isplitl [H2]; · (iexists e2; iexact H2)
      isplitl [H3]; · (iexists e3; iexact H3)
      isplitl [H4]; · (iexists e4; iexact H4)
      isplitl [H5]; · (iexists e5; iexact H5)
      isplitl [H6]; · (iexists e6; iexact H6)
      isplitl [H7]; · (iexists e7; iexact H7)
      iexists e8; iexact H8
    isplitl [Ho']
    · iexists W'
      isplitr; · (ipureintro; exact Set.subset_union_of_subset_left (Set.subset_univ _) _)
      iexact Ho'
    isplitl [Ha]
    · iexists _; isplitr; · (ipureintro; rfl)
      iexact Ha
    isplitl [Hb]
    · iexists _; isplitr; · (ipureintro; rfl)
      iexact Hb
    iexists _; isplitr; · (ipureintro; rfl)
    iexact Hout

/-- info: 'Cert.KernelIdeal.BodyWrapV.body_obligationV' depends on axioms: [propext, Classical.choice, Quot.sound] -/
#guard_msgs in #print axioms body_obligationV

end Cert.KernelIdeal.BodyWrapV

end
-- ==== Proof.Algebraic.lean ====
/-
  The algebraic claim from the valued launch: at the ideal instance, if every device's kernel body runs from the
  launch's precondition to the postcondition that names its result, and that named result is the device's block of
  rows of the reference's product of the whole arrays, then the kernel on the 32 devices and the reference on one
  both run, each device's result array ends as its block of the reference's result, and all arguments end unchanged.
-/
import proofs.«900893_g7700000000000894_dist_matmul_mk_i_outk_m1024_n1024_k512_v7x_i32_f32_1_alg».proof.Defs
import proofs.«900893_g7700000000000894_dist_matmul_mk_i_outk_m1024_n1024_k512_v7x_i32_f32_1_alg».proof.Proof.Gen.Pre_finite_inputs_Kernel
import proofs.«900893_g7700000000000894_dist_matmul_mk_i_outk_m1024_n1024_k512_v7x_i32_f32_1_alg».proof.Proof.RefValue
import proofs.«900893_g7700000000000894_dist_matmul_mk_i_outk_m1024_n1024_k512_v7x_i32_f32_1_alg».proof.Proof.Values
import proofs.«900893_g7700000000000894_dist_matmul_mk_i_outk_m1024_n1024_k512_v7x_i32_f32_1_alg».proof.Proof.ValuesBlock
import proofs.«900893_g7700000000000894_dist_matmul_mk_i_outk_m1024_n1024_k512_v7x_i32_f32_1_alg».proof.Proof.LaunchV
import proofs.«900893_g7700000000000894_dist_matmul_mk_i_outk_m1024_n1024_k512_v7x_i32_f32_1_alg».proof.Proof.BodyWrapV

noncomputable section

namespace Cert.Proof.Algebraic

open Idealize.ShloMosaic Idealize.SL.Sem
open Idealize.ShloMosaic.Pipeline (BodyObligation)
open Cert.ReferenceIdeal.RefValue (refOut ref_run)

/-- The kernel's named result on device `c` is its block of rows of the reference's result. -/
def OutIsBlock : Prop :=
  ∀ (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ),
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))) →
    ∀ c : Dev Cert.KernelIdeal.nD,
      (Cert.KernelIdeal.Values.OUTv (F := Ideal) m c : Buf (Elt Ideal) ((c.tc : Thread Cert.KernelIdeal.nD Cert.KernelIdeal.τ).loc Cert.KernelIdeal.main_v1))
        = Layout.block ⟨2, ![32, 1024]⟩ ⟨2, ![1024, 1024]⟩ 0 32 c (refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))

/-- The algebraic claim, from the valued body lemma and the value equation. -/
theorem algebraic_of
    (hsoundV : ∀ m : (ℓ : Loc Cert.KernelIdeal.nD Cert.KernelIdeal.τ Cert.KernelIdeal.sig) → Buf (Elt Ideal) ℓ,
      Cert.KernelIdeal.BodyWrapV.SoundV (F := Ideal) m (Cert.KernelIdeal.Values.S1v m) (Cert.KernelIdeal.Values.P2v m) (Cert.KernelIdeal.Values.P3v m) (Cert.KernelIdeal.Values.OUTv m))
    (hOUT : OutIsBlock) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) := by
  intro m g m' g' _ hblk
  refine ⟨refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, ref_run m' g'⟩
  exact (θ_run _ _ _).mono (fun _ h c => ⟨((h c).1).trans (hOUT m m' hblk c), (h c).2.1, (h c).2.2⟩)
    (Cert.KernelIdeal.LaunchV.run_of_bodyV m g (Cert.KernelIdeal.Values.S1v m) (Cert.KernelIdeal.Values.P2v m) (Cert.KernelIdeal.Values.P3v m) (Cert.KernelIdeal.Values.OUTv m)
      (Cert.KernelIdeal.BodyWrapV.body_obligationV m _ _ _ _ (hsoundV m)))

/-- The value equation holds: the named result is the device's block of rows of the reference's product. -/
theorem outIsBlock : OutIsBlock := fun m _ hm c => Cert.KernelIdeal.Values.OUTv_block m _ _ hm c

/-- The algebraic claim from the valued body lemma alone. -/
theorem algebraic_of_body
    (hsoundV : ∀ m : (ℓ : Loc Cert.KernelIdeal.nD Cert.KernelIdeal.τ Cert.KernelIdeal.sig) → Buf (Elt Ideal) ℓ,
      Cert.KernelIdeal.BodyWrapV.SoundV (F := Ideal) m (Cert.KernelIdeal.Values.S1v m) (Cert.KernelIdeal.Values.P2v m) (Cert.KernelIdeal.Values.P3v m) (Cert.KernelIdeal.Values.OUTv m)) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) :=
  algebraic_of hsoundV outIsBlock

/-- info: 'Cert.Proof.Algebraic.algebraic_of_body' depends on axioms: [propext, Classical.choice, Quot.sound] -/
#guard_msgs in #print axioms algebraic_of_body
/-- info: 'Cert.Proof.Algebraic.algebraic_of' depends on axioms: [propext, Classical.choice, Quot.sound] -/
#guard_msgs in #print axioms algebraic_of

end Cert.Proof.Algebraic

end
-- ==== Proof.ProtoV.lean ====
/-
  The protocol with named contents, continued: what the barrier wait hands back, and for each of the three kinds of
  copy the two entailments a transfer presents: the source slot as sent is the send cell's payload, the landing slot
  as the transfer writes it is the receive cell's payload.
-/
import proofs.«900893_g7700000000000894_dist_matmul_mk_i_outk_m1024_n1024_k512_v7x_i32_f32_1_alg».proof.Proof.ProtoTables
import proofs.«900893_g7700000000000894_dist_matmul_mk_i_outk_m1024_n1024_k512_v7x_i32_f32_1_alg».proof.Proof.Proto0

noncomputable section

namespace Cert.KernelIdeal.Proto

open Cert.KernelIdeal Cert.KernelIdeal.Gen
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (S1 : Dev nD → Fin 8 → C1 F) (P2 : Dev nD → Fin 32 → C2 F) (P3 : Dev nD → Fin 32 → C3 F)

omit [FloatOps F] in
/-- What the barrier wait hands back: the seven peers' grants. -/
theorem bar_payloads (c : Dev nD) : (bigSep Finset.univ fun d : D => (sched S1 P2 P3).payload (barCell c) 0 d)
    = iprop(grant1 (partner c) ∗ grant2 (rail c 3) (yc c) 0 ∗ grant2 (rail c 2) (yc c) 0 ∗ grant2 (rail c 1) (yc c) 0
        ∗ grant3 (zpeer c 3) (zc c) 0 ∗ grant3 (zpeer c 2) (zc c) 0 ∗ grant3 (zpeer c 1) (zc c) 0) := by
  rw [bigSep_univ_eq_bigSepL [(0 : D), 1, 2, 3, 4, 5, 6] (by decide) (by decide)]
  simp only [bigSepL_cons_cons, bigSepL_singleton, payload_bar]
  rfl

omit [FloatOps F] in
/-- The receive cell of any slot, as the schedule's definition states it. -/
theorem payload_a2r_at (c : Dev nD) (i : Fin 32) (d : D) : (sched S1 P2 P3).payload (a2rCell c i) 0 d
    = pts2 commA2 c i (P2 (dev (zc c) (xc c) (i.val % 4)) (slot (yc c) (qOf i) 0)) := payload_a2r_raw S1 P2 P3 c i d
omit [FloatOps F] in
theorem payload_br_at (c : Dev nD) (i : Fin 32) (d : D) : (sched S1 P2 P3).payload (brCell c i) 0 d
    = pts3 commB c i (P3 (dev (i.val % 4) (xc c) (yc c)) (slot (zc c) (qOf i) 0)) := payload_br_raw S1 P2 P3 c i d

/-! ## A transfer's two payloads -/

section Transfers
variable (c : Dev nD)

omit [FloatOps F] in
/-- Stage 1: the source slot, holding what the contents family names, is the send cell's payload. -/
theorem send_pay1 (q : Fin 8) (fs : Buf (Elt F) ((slot1 sendA1 q).view.loc (c : Thread nD τ)))
    (h : (slot1 sendA1 q).view.read (Elt F) fs = S1 c q) (d : D) :
    ((slot1 sendA1 q).view.loc (c : Thread nD τ) ↦[(slot1 sendA1 q).view.set]{fullShare} fs : sProp 𝕄)
      ⊢ (sched S1 P2 P3).payload (a1sCell c q) 0 d :=
  Entails.of_eq ((pts_slotBuf c (slot1 sendA1 q) h_S4x4x32x128 fullShare fs (S1 c q) h).trans (payload_a1s S1 P2 P3 c q d).symm)
omit [FloatOps F] in
/-- Stage 1: the partner's landing slot, rewritten by the transfer, is its receive cell's payload. -/
theorem land_pay1 (q : Fin 8) (fd : Buf (Elt F) ((slot1 commA1 q).view.loc (partner c : Thread nD τ)))
    (fs : Buf (Elt F) ((slot1 sendA1 q).view.loc (c : Thread nD τ))) (h : (slot1 sendA1 q).view.read (Elt F) fs = S1 c q) (d : D) :
    ((slot1 commA1 q).view.loc (partner c : Thread nD τ) ↦[(slot1 commA1 q).view.set]{fullShare}
        (slot1 commA1 q).view.write (Elt F) fd ((slot1 sendA1 q).view.read (Elt F) fs) Finset.univ : sProp 𝕄)
      ⊢ (sched S1 P2 P3).payload (a1rCell (partner c) q) 0 d :=
  Entails.of_eq ((pts_slotBuf (partner c) (slot1 commA1 q) h_S4x4x32x128 fullShare _ (S1 c q) (by rw [View.read_write_univ]; exact h)).trans
    (payload_a1r_peer S1 P2 P3 c q d).symm)

omit [FloatOps F] in
/-- Stage 2, step `s`: the source slot `4q + (y + s) % 4`. -/
theorem send_pay2 (q : Fin 8) (s : ℕ) (fs : Buf (Elt F) ((slot2 sendA2 (slot (yc c) q s)).view.loc (c : Thread nD τ)))
    (h : (slot2 sendA2 (slot (yc c) q s)).view.read (Elt F) fs = P2 c (slot (yc c) q s)) (d : D) :
    ((slot2 sendA2 (slot (yc c) q s)).view.loc (c : Thread nD τ) ↦[(slot2 sendA2 (slot (yc c) q s)).view.set]{fullShare} fs : sProp 𝕄)
      ⊢ (sched S1 P2 P3).payload (a2sCell c (slot (yc c) q s)) 0 d :=
  Entails.of_eq ((pts_slotBuf c (slot2 sendA2 (slot (yc c) q s)) h_S1x4x32x128 fullShare fs _ h).trans (payload_a2s S1 P2 P3 c _ d).symm)
omit [FloatOps F] in
/-- Stage 2, step `s`: the landing slot `4q + y` on the rail peer `s` rows on. -/
theorem land_pay2 (q : Fin 8) (s : ℕ) (fd : Buf (Elt F) ((slot2 commA2 (slot (yc c) q 0)).view.loc (rail c s : Thread nD τ)))
    (fs : Buf (Elt F) ((slot2 sendA2 (slot (yc c) q s)).view.loc (c : Thread nD τ)))
    (h : (slot2 sendA2 (slot (yc c) q s)).view.read (Elt F) fs = P2 c (slot (yc c) q s)) (d : D) :
    ((slot2 commA2 (slot (yc c) q 0)).view.loc (rail c s : Thread nD τ) ↦[(slot2 commA2 (slot (yc c) q 0)).view.set]{fullShare}
        (slot2 commA2 (slot (yc c) q 0)).view.write (Elt F) fd ((slot2 sendA2 (slot (yc c) q s)).view.read (Elt F) fs) Finset.univ : sProp 𝕄)
      ⊢ (sched S1 P2 P3).payload (a2rCell (rail c s) (slot (yc c) q 0)) 0 d :=
  Entails.of_eq ((pts_slotBuf (rail c s) (slot2 commA2 (slot (yc c) q 0)) h_S1x4x32x128 fullShare _ _ (by rw [View.read_write_univ]; exact h)).trans
    (payload_a2r_peer S1 P2 P3 c q s d).symm)

omit [FloatOps F] in
/-- Stage 3, step `s`: the source slot `4q + (z + s) % 4`. -/
theorem send_pay3 (q : Fin 8) (s : ℕ) (fs : Buf (Elt F) ((slot3 sendB (slot (zc c) q s)).view.loc (c : Thread nD τ)))
    (h : (slot3 sendB (slot (zc c) q s)).view.read (Elt F) fs = P3 c (slot (zc c) q s)) (d : D) :
    ((slot3 sendB (slot (zc c) q s)).view.loc (c : Thread nD τ) ↦[(slot3 sendB (slot (zc c) q s)).view.set]{fullShare} fs : sProp 𝕄)
      ⊢ (sched S1 P2 P3).payload (bsCell c (slot (zc c) q s)) 0 d :=
  Entails.of_eq ((pts_slotBuf c (slot3 sendB (slot (zc c) q s)) h_S1x32x128 fullShare fs _ h).trans (payload_bs S1 P2 P3 c _ d).symm)
omit [FloatOps F] in
/-- Stage 3, step `s`: the landing slot `4q + z` on the plane peer `s` planes on. -/
theorem land_pay3 (q : Fin 8) (s : ℕ) (fd : Buf (Elt F) ((slot3 commB (slot (zc c) q 0)).view.loc (zpeer c s : Thread nD τ)))
    (fs : Buf (Elt F) ((slot3 sendB (slot (zc c) q s)).view.loc (c : Thread nD τ)))
    (h : (slot3 sendB (slot (zc c) q s)).view.read (Elt F) fs = P3 c (slot (zc c) q s)) (d : D) :
    ((slot3 commB (slot (zc c) q 0)).view.loc (zpeer c s : Thread nD τ) ↦[(slot3 commB (slot (zc c) q 0)).view.set]{fullShare}
        (slot3 commB (slot (zc c) q 0)).view.write (Elt F) fd ((slot3 sendB (slot (zc c) q s)).view.read (Elt F) fs) Finset.univ : sProp 𝕄)
      ⊢ (sched S1 P2 P3).payload (brCell (zpeer c s) (slot (zc c) q 0)) 0 d :=
  Entails.of_eq ((pts_slotBuf (zpeer c s) (slot3 commB (slot (zc c) q 0)) h_S1x32x128 fullShare _ _ (by rw [View.read_write_univ]; exact h)).trans
    (payload_br_peer S1 P2 P3 c q s d).symm)

omit [FloatOps F] in
/-- What a receive wait hands back reads as the contents the family names: stage 1, -/
theorem read_pts1 (M : Memref sig .tc .vmem S8x4x4x32x128 .bf16) (q : Fin 8) (X : C1 F) :
    (slot1 M q).view.read (Elt F) (slotBuf (slot1 M q).view h_S4x4x32x128 X) = X := read_slotBuf _ _ _
omit [FloatOps F] in
/-- … stage 2, -/
theorem read_pts2 (M : Memref sig .tc .vmem S32x4x32x128 .bf16) (i : Fin 32) (X : C2 F) :
    (slot2 M i).view.read (Elt F) (slotBuf (slot2 M i).view h_S1x4x32x128 X) = X := read_slotBuf _ _ _
omit [FloatOps F] in
/-- … stage 3. -/
theorem read_pts3 (M : Memref sig .tc .vmem S32x32x128 .bf16) (i : Fin 32) (X : C3 F) :
    (slot3 M i).view.read (Elt F) (slotBuf (slot3 M i).view h_S1x32x128 X) = X := read_slotBuf _ _ _

end Transfers

end Cert.KernelIdeal.Proto

end
-- ==== Proof.SendRules.lean ====
/-
  The remote copies applied by hand. Under the schedule with values, the landing slot of a copy is handed to its
  receive cell holding the sender's value: the rule's landing (the destination rewritten by what the source reads)
  agrees with it on the slot's elements. One lemma per stage: the copy statement with its memrefs, peer and
  semaphores as free variables, identified with the slot names by equations, so that it applies to the printed
  statement and to the statement in slot names alike.
-/
import proofs.«900893_g7700000000000894_dist_matmul_mk_i_outk_m1024_n1024_k512_v7x_i32_f32_1_alg».proof.Proof.ProtoV
import proofs.«900893_g7700000000000894_dist_matmul_mk_i_outk_m1024_n1024_k512_v7x_i32_f32_1_alg».proof.Proof.Ghost
import proofs.«900893_g7700000000000894_dist_matmul_mk_i_outk_m1024_n1024_k512_v7x_i32_f32_1_alg».proof.Proof.Gen.KernelIdeal.Skeleton
import Idealize.ShloMosaic.Lib.Rounds

noncomputable section

namespace Cert.KernelIdeal.SendRules

open Cert.KernelIdeal Cert.KernelIdeal.Gen Cert.KernelIdeal.Proto Cert.KernelIdeal.Ghost
open Cert.Mesh (partner rail zpeer zc pc yc xc pOf dev slot)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A stage-one copy, applied by hand: the statement with its memrefs, peer and semaphores identified with the slot
    names, the source's contents known to be the schedule's. -/
theorem send1 {α : Type} (S1 : Dev nD → Fin 8 → C1 F) (P2 : Dev nD → Fin 32 → C2 F) (P3 : Dev nD → Fin 32 → C3 F)
    (K : GSem nD τ sig → ℕ) (c : Dev nD) (q : Fin 8)
    {d' : Dev nD} {src : Memref sig .tc .vmem S4x4x32x128 .bf16} {dst : Memref sig .tc .vmem S4x4x32x128 .bf16}
    {hsc : dst.view.ref.isScScratch = false} {sS sem : SemLoc sig}
    {hsrc : src.view.WordExact} {hdst : dst.view.WordExact} {hsem : DmaTarget.Typed .vmem sem (.remote (Dev.tc d' : Thread nD τ) dst sS hsc)}
    {kont : PUnit → Prog (TpuEff nD τ sig (Elt F) Λ₀ .tc) α} {Q : α → sProp 𝕄}
    (ed : d' = partner c) (esrc : src = slot1 sendA1 q) (edst : dst = slot1 commA1 q)
    (esS : sS = .dma (sem8 cc0_scratch9 q)) (esem : sem = .dma (sem8 cc0_scratch10 q))
    (fs : Buf (Elt F) ((slot1 sendA1 q).view.loc (c : Thread nD τ)))
    (fd : Buf (Elt F) ((slot1 commA1 q).view.loc (partner c : Thread nD τ)))
    (h : (slot1 sendA1 q).view.read (Elt F) fs = S1 c q)
    {O₀ : CellTallies nD τ sig Unit} (O : CellTallies nD τ sig Unit)
    (hO : O₀ = O + tallyAt (a1rCell (partner c) q) () N1) {W : Waits sig Unit} :
    iprop(cinv (sched S1 P2 P3) K (a1sCell c q) ∗ cinv (sched S1 P2 P3) K (a1rCell (partner c) q)
        ∗ ((slot1 sendA1 q).view.loc (c : Thread nD τ) ↦[(slot1 sendA1 q).view.set]{fullShare} fs)
        ∗ ((slot1 commA1 q).view.loc (partner c : Thread nD τ) ↦[(slot1 commA1 q).view.set]{fullShare} fd)
        ∗ owes (c : Thread nD τ) O₀ W
        ∗ dutyTok ER (a1sCell c q) 0 (0 : D) ∗ reached ER (a1sCell c q) 0
        ∗ dutyTok ER (a1rCell (partner c) q) 0 (0 : D) ∗ reached ER (a1rCell (partner c) q) 0)
      ⊢ (iprop(((cred (tallyAt (a1sCell c q) () N1) ∗ owes (c : Thread nD τ) O W)
              -∗ wp frame (wpE (defs₀ (F := F)) Variants.none (c : Thread nD τ) none) Set.univ (kont ⟨⟩) Q)
          -∗ wp frame (wpE (defs₀ (F := F)) Variants.none (c : Thread nD τ) none) Set.univ
              (.op (.enqueueDma src (.remote (Dev.tc d') dst sS hsc) sem hsrc hdst hsem) kont) Q) : sProp 𝕄) := by
  subst ed esrc edst esS esem
  exact Rounds.wp_send_pointsTo Variants.none ER (sched S1 P2 P3) (c : Thread nD τ) none
    (κ₁ := K (a1sCell c q)) (κ₂ := K (a1rCell (partner c) q)) (r₁ := 0) (r₂ := 0) (d₁ := 0) (d₂ := 0)
    (by rw [show ((c : Thread nD τ), SemLoc.dma (sem8 cc0_scratch9 q)) = a1sCell c q from rfl, duties_a1s S1 P2 P3 c q]; exact Finset.mem_singleton_self _)
    (by rw [show ((Dev.tc (partner c) : Thread nD τ), SemLoc.dma (sem8 cc0_scratch10 q)) = a1rCell (partner c) q from rfl, duties_a1r S1 P2 P3 (partner c) q]; exact Finset.mem_singleton_self _)
    () () N1 rfl (amount_a1s S1 P2 P3 c q 0) (amount_a1r S1 P2 P3 (partner c) q 0) O hO
    (send_pay1 S1 P2 P3 c q fs h 0) (land_pay1 S1 P2 P3 c q fd fs h 0)

/-- A stage-two copy, applied by hand: the statement with its memrefs, peer and semaphores identified with the slot
    names, the source's contents known to be the schedule's. -/
theorem send2 {α : Type} (S1 : Dev nD → Fin 8 → C1 F) (P2 : Dev nD → Fin 32 → C2 F) (P3 : Dev nD → Fin 32 → C3 F)
    (K : GSem nD τ sig → ℕ) (c : Dev nD) (q : Fin 8) (s : ℕ) (hs : s % 4 ≠ 0)
    {d' : Dev nD} {src : Memref sig .tc .vmem S1x4x32x128 .bf16} {dst : Memref sig .tc .vmem S1x4x32x128 .bf16}
    {hsc : dst.view.ref.isScScratch = false} {sS sem : SemLoc sig}
    {hsrc : src.view.WordExact} {hdst : dst.view.WordExact} {hsem : DmaTarget.Typed .vmem sem (.remote (Dev.tc d' : Thread nD τ) dst sS hsc)}
    {kont : PUnit → Prog (TpuEff nD τ sig (Elt F) Λ₀ .tc) α} {Q : α → sProp 𝕄}
    (ed : d' = rail c s) (esrc : src = slot2 sendA2 (slot (yc c) q s)) (edst : dst = slot2 commA2 (slot (yc c) q 0))
    (esS : sS = .dma (sem32 cc0_scratch11 (slot (yc c) q s))) (esem : sem = .dma (sem32 cc0_scratch12 (slot (yc c) q 0)))
    (fs : Buf (Elt F) ((slot2 sendA2 (slot (yc c) q s)).view.loc (c : Thread nD τ)))
    (fd : Buf (Elt F) ((slot2 commA2 (slot (yc c) q 0)).view.loc (rail c s : Thread nD τ)))
    (h : (slot2 sendA2 (slot (yc c) q s)).view.read (Elt F) fs = P2 c (slot (yc c) q s))
    {O₀ : CellTallies nD τ sig Unit} (O : CellTallies nD τ sig Unit)
    (hO : O₀ = O + tallyAt (a2rCell (rail c s) (slot (yc c) q 0)) () N2) {W : Waits sig Unit} :
    iprop(cinv (sched S1 P2 P3) K (a2sCell c (slot (yc c) q s)) ∗ cinv (sched S1 P2 P3) K (a2rCell (rail c s) (slot (yc c) q 0))
        ∗ ((slot2 sendA2 (slot (yc c) q s)).view.loc (c : Thread nD τ) ↦[(slot2 sendA2 (slot (yc c) q s)).view.set]{fullShare} fs)
        ∗ ((slot2 commA2 (slot (yc c) q 0)).view.loc (rail c s : Thread nD τ) ↦[(slot2 commA2 (slot (yc c) q 0)).view.set]{fullShare} fd)
        ∗ owes (c : Thread nD τ) O₀ W
        ∗ dutyTok ER (a2sCell c (slot (yc c) q s)) 0 (0 : D) ∗ reached ER (a2sCell c (slot (yc c) q s)) 0
        ∗ dutyTok ER (a2rCell (rail c s) (slot (yc c) q 0)) 0 (0 : D) ∗ reached ER (a2rCell (rail c s) (slot (yc c) q 0)) 0)
      ⊢ (iprop(((cred (tallyAt (a2sCell c (slot (yc c) q s)) () N2) ∗ owes (c : Thread nD τ) O W)
              -∗ wp frame (wpE (defs₀ (F := F)) Variants.none (c : Thread nD τ) none) Set.univ (kont ⟨⟩) Q)
          -∗ wp frame (wpE (defs₀ (F := F)) Variants.none (c : Thread nD τ) none) Set.univ
              (.op (.enqueueDma src (.remote (Dev.tc d') dst sS hsc) sem hsrc hdst hsem) kont) Q) : sProp 𝕄) := by
  subst ed esrc edst esS esem
  exact Rounds.wp_send_pointsTo Variants.none ER (sched S1 P2 P3) (c : Thread nD τ) none
    (κ₁ := K (a2sCell c (slot (yc c) q s))) (κ₂ := K (a2rCell (rail c s) (slot (yc c) q 0))) (r₁ := 0) (r₂ := 0) (d₁ := 0) (d₂ := 0)
    (by rw [show ((c : Thread nD τ), SemLoc.dma (sem32 cc0_scratch11 (slot (yc c) q s))) = a2sCell c (slot (yc c) q s) from rfl, duties_a2s S1 P2 P3 c q s hs]; exact Finset.mem_singleton_self _)
    (by rw [show ((Dev.tc (rail c s) : Thread nD τ), SemLoc.dma (sem32 cc0_scratch12 (slot (yc c) q 0))) = a2rCell (rail c s) (slot (yc c) q 0) from rfl, duties_a2r_peer S1 P2 P3 c q s hs]; exact Finset.mem_singleton_self _)
    () () N2 rfl (amount_a2s S1 P2 P3 c _ 0) (amount_a2r S1 P2 P3 (rail c s) _ 0) O hO
    (send_pay2 S1 P2 P3 c q s fs h 0) (land_pay2 S1 P2 P3 c q s fd fs h 0)

/-- A stage-three copy, applied by hand: the statement with its memrefs, peer and semaphores identified with the slot
    names, the source's contents known to be the schedule's. -/
theorem send3 {α : Type} (S1 : Dev nD → Fin 8 → C1 F) (P2 : Dev nD → Fin 32 → C2 F) (P3 : Dev nD → Fin 32 → C3 F)
    (K : GSem nD τ sig → ℕ) (c : Dev nD) (q : Fin 8) (s : ℕ) (hs : s % 4 ≠ 0)
    {d' : Dev nD} {src : Memref sig .tc .vmem S1x32x128 .bf16} {dst : Memref sig .tc .vmem S1x32x128 .bf16}
    {hsc : dst.view.ref.isScScratch = false} {sS sem : SemLoc sig}
    {hsrc : src.view.WordExact} {hdst : dst.view.WordExact} {hsem : DmaTarget.Typed .vmem sem (.remote (Dev.tc d' : Thread nD τ) dst sS hsc)}
    {kont : PUnit → Prog (TpuEff nD τ sig (Elt F) Λ₀ .tc) α} {Q : α → sProp 𝕄}
    (ed : d' = zpeer c s) (esrc : src = slot3 sendB (slot (zc c) q s)) (edst : dst = slot3 commB (slot (zc c) q 0))
    (esS : sS = .dma (sem32 cc0_scratch13 (slot (zc c) q s))) (esem : sem = .dma (sem32 cc0_scratch14 (slot (zc c) q 0)))
    (fs : Buf (Elt F) ((slot3 sendB (slot (zc c) q s)).view.loc (c : Thread nD τ)))
    (fd : Buf (Elt F) ((slot3 commB (slot (zc c) q 0)).view.loc (zpeer c s : Thread nD τ)))
    (h : (slot3 sendB (slot (zc c) q s)).view.read (Elt F) fs = P3 c (slot (zc c) q s))
    {O₀ : CellTallies nD τ sig Unit} (O : CellTallies nD τ sig Unit)
    (hO : O₀ = O + tallyAt (brCell (zpeer c s) (slot (zc c) q 0)) () N3) {W : Waits sig Unit} :
    iprop(cinv (sched S1 P2 P3) K (bsCell c (slot (zc c) q s)) ∗ cinv (sched S1 P2 P3) K (brCell (zpeer c s) (slot (zc c) q 0))
        ∗ ((slot3 sendB (slot (zc c) q s)).view.loc (c : Thread nD τ) ↦[(slot3 sendB (slot (zc c) q s)).view.set]{fullShare} fs)
        ∗ ((slot3 commB (slot (zc c) q 0)).view.loc (zpeer c s : Thread nD τ) ↦[(slot3 commB (slot (zc c) q 0)).view.set]{fullShare} fd)
        ∗ owes (c : Thread nD τ) O₀ W
        ∗ dutyTok ER (bsCell c (slot (zc c) q s)) 0 (0 : D) ∗ reached ER (bsCell c (slot (zc c) q s)) 0
        ∗ dutyTok ER (brCell (zpeer c s) (slot (zc c) q 0)) 0 (0 : D) ∗ reached ER (brCell (zpeer c s) (slot (zc c) q 0)) 0)
      ⊢ (iprop(((cred (tallyAt (bsCell c (slot (zc c) q s)) () N3) ∗ owes (c : Thread nD τ) O W)
              -∗ wp frame (wpE (defs₀ (F := F)) Variants.none (c : Thread nD τ) none) Set.univ (kont ⟨⟩) Q)
          -∗ wp frame (wpE (defs₀ (F := F)) Variants.none (c : Thread nD τ) none) Set.univ
              (.op (.enqueueDma src (.remote (Dev.tc d') dst sS hsc) sem hsrc hdst hsem) kont) Q) : sProp 𝕄) := by
  subst ed esrc edst esS esem
  exact Rounds.wp_send_pointsTo Variants.none ER (sched S1 P2 P3) (c : Thread nD τ) none
    (κ₁ := K (bsCell c (slot (zc c) q s))) (κ₂ := K (brCell (zpeer c s) (slot (zc c) q 0))) (r₁ := 0) (r₂ := 0) (d₁ := 0) (d₂ := 0)
    (by rw [show ((c : Thread nD τ), SemLoc.dma (sem32 cc0_scratch13 (slot (zc c) q s))) = bsCell c (slot (zc c) q s) from rfl, duties_bs S1 P2 P3 c q s hs]; exact Finset.mem_singleton_self _)
    (by rw [show ((Dev.tc (zpeer c s) : Thread nD τ), SemLoc.dma (sem32 cc0_scratch14 (slot (zc c) q 0))) = brCell (zpeer c s) (slot (zc c) q 0) from rfl, duties_br_peer S1 P2 P3 c q s hs]; exact Finset.mem_singleton_self _)
    () () N3 rfl (amount_bs S1 P2 P3 c _ 0) (amount_br S1 P2 P3 (zpeer c s) _ 0) O hO
    (send_pay3 S1 P2 P3 c q s fs h 0) (land_pay3 S1 P2 P3 c q s fd fs h 0)

end Cert.KernelIdeal.SendRules

end
-- ==== Proof.BodyEndV.lean ====
/-
  The end of the valued body run: the end state with the result's staging buffer at the contents named for the
  device, the step from it to the valued postcondition (every own cell closed, the slots joined back into their
  buffers), and the run's return on the continuation.
-/
import proofs.«900893_g7700000000000894_dist_matmul_mk_i_outk_m1024_n1024_k512_v7x_i32_f32_1_alg».proof.Proof.BodyEnd
import proofs.«900893_g7700000000000894_dist_matmul_mk_i_outk_m1024_n1024_k512_v7x_i32_f32_1_alg».proof.Proof.BodyWrapV
import proofs.«900893_g7700000000000894_dist_matmul_mk_i_outk_m1024_n1024_k512_v7x_i32_f32_1_alg».proof.Proof.ProtoTables
import Idealize.ShloMosaic.Lib.Tactic

noncomputable section

namespace Cert.KernelIdeal.BodyEndV

open Cert.KernelIdeal Cert.KernelIdeal.Gen Cert.KernelIdeal.Proto Cert.KernelIdeal.Ghost Cert.KernelIdeal.LaunchData
open Cert.KernelIdeal.SlotGeom Cert.KernelIdeal.BodyEnd
open Cert.Mesh (partner rail zpeer zc pc yc xc pOf dev slot)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (S1 : Dev nD → Fin 8 → C1 F) (P2 : Dev nD → Fin 32 → C2 F) (P3 : Dev nD → Fin 32 → C3 F)
variable (OUT : (c : Dev nD) → (cc0_stg2_0 : Ref sig .tc).ty.Contents (Elt F))

/-- The result's staging buffer whole at the contents named for the device. -/
def endStgRV (c : Dev nD) : sProp 𝕄 :=
  ((Memref.whole cc0_stg2_0 : Memref sig .tc _ _ _).view.loc (c : Thread nD τ) ↦{fullShare} OUT c)

/-- The state the valued body's run ends in: as the valueless one, the result's staging buffer at its named contents. -/
def endStateV (K : GSem nD τ sig → ℕ) (c : Dev nD) : sProp 𝕄 :=
  iprop(Ghost.ownInvs (sched S1 P2 P3) K c ∗ BodyClose.positionsEnd c ∗ endOwes (F := F) c
    ∗ endStgA m c ∗ endStgB m c ∗ endStgRV OUT c ∗ endAb (F := F) c ∗ endBb (F := F) c
    ∗ endSendA1 (F := F) c ∗ endCommA1 (F := F) c ∗ endOwnA (F := F) c
    ∗ endSendA2 (F := F) c ∗ endCommA2 (F := F) c ∗ endSendB (F := F) c ∗ endCommB (F := F) c)

/-- From the end state to the valued postcondition. -/
theorem finishV (K : GSem nD τ sig → ℕ) (c : Dev nD) :
    endStateV m S1 P2 P3 OUT K c ⊢ (iprop(|={Set.univ}=> BodyWrapV.bodyPostV m OUT c) : sProp 𝕄) := by
  unfold endStateV endOwes endStgA endStgB endStgRV endAb endBb endSendA1 endCommA1 endOwnA endSendA2 endCommA2 endSendB endCommB
  iintro ⟨HI, HP, HO, Ha, Hb, Hr, H0, H1, H2, H3, H4, H5, H6, H7, H8⟩
  imod (BodyClose.close_all (sched S1 P2 P3) K (fun _ h => h) (fun g r hr => duties_later S1 P2 P3 g r hr)
      (fun c q r => by rcases Nat.eq_zero_or_pos r with rfl | h; exact duties_a2s_own S1 P2 P3 c q; exact duties_later S1 P2 P3 _ r h)
      (fun c q r => by rcases Nat.eq_zero_or_pos r with rfl | h; exact duties_a2r_own S1 P2 P3 c q; exact duties_later S1 P2 P3 _ r h)
      (fun c q r => by rcases Nat.eq_zero_or_pos r with rfl | h; exact duties_bs_own S1 P2 P3 c q; exact duties_later S1 P2 P3 _ r h)
      (fun c q r => by rcases Nat.eq_zero_or_pos r with rfl | h; exact duties_br_own S1 P2 P3 c q; exact duties_later S1 P2 P3 _ r h) c) $$ [HI HP] with Hs
  · isplitl [HI] <;> iassumption
  imodintro
  unfold BodyWrapV.bodyPostV
  isplitl [HO]; · iexact HO
  isplitl [Ha]; · iexact Ha
  isplitl [Hb]; · iexact Hb
  isplitl [Hr]; · iexact Hr
  isplitl [H0]; · iexact H0
  isplitl [H1]; · iexact H1
  isplitl [H2]; · iapply (SlotJoin.join1 sendA1 sendA1_univ c) $$ H2
  isplitl [H3]; · iapply (SlotJoin.join1 commA1 commA1_univ c) $$ H3
  isplitl [H4]; · iexact H4
  isplitl [H5]; · iapply (SlotJoin.join2 sendA2 sendA2_univ (yc c) c) $$ H5
  isplitl [H6]; · iapply (SlotJoin.join2 commA2 commA2_univ (yc c) c) $$ H6
  isplitl [H7]; · iapply (SlotJoin.join3 sendB sendB_univ (zc c) c) $$ H7
  isplitl [H8]; · iapply (SlotJoin.join3 commB commB_univ (zc c) c) $$ H8
  iexact Hs

/-- The valued body's last step: from the end state, the continuation's premise is met and the run returns. -/
theorem closeV (K : GSem nD τ sig → ℕ) (c : Dev nD) (Kt : PUnit → sProp 𝕄) :
    iprop(endStateV m S1 P2 P3 OUT K c ∗ (BodyWrapV.bodyPostV m OUT c -∗ Kt ⟨⟩))
      ⊢ wp frame (wpE (defs₀ (F := F)) Variants.none (c : Thread nD τ) none) Set.univ (Prog.ret PUnit.unit) Kt := by
  rw [wp_ret]
  iintro ⟨HE, Hk⟩
  imod (finishV m S1 P2 P3 OUT K c) $$ HE with HP
  imodintro
  iapply Hk
  iexact HP

/-- info: 'Cert.KernelIdeal.BodyEndV.closeV' depends on axioms: [propext, Classical.choice, Quot.sound] -/
#guard_msgs in #print axioms closeV

end Cert.KernelIdeal.BodyEndV

end
-- ==== Proof.Restate.lean ====
/-
  The source slots of the copies, as the body's stores leave them, in the form the schedule states them. A
  store through the whole buffer at a slot's (or a chunk's) rectangle leaves, under the slot's own view, the
  stored value re-indexed: through a stage-one slot, whose unit leading axis is dropped, the value cast to the
  slot's shape; through a stage-two or stage-three slot, which is one row of its chunk, that row of the chunk's
  value. A points-to on a slot's elements sees only what the slot's view reads, so it may be restated over the
  buffer that holds exactly that.
-/
import proofs.«900893_g7700000000000894_dist_matmul_mk_i_outk_m1024_n1024_k512_v7x_i32_f32_1_alg».proof.Proof.BodyStage1
import proofs.«900893_g7700000000000894_dist_matmul_mk_i_outk_m1024_n1024_k512_v7x_i32_f32_1_alg».proof.Proof.ChunkGeom
import proofs.«900893_g7700000000000894_dist_matmul_mk_i_outk_m1024_n1024_k512_v7x_i32_f32_1_alg».proof.Proof.Values

noncomputable section

namespace Cert.KernelIdeal.Restate

open Cert.KernelIdeal Cert.KernelIdeal.Gen Cert.KernelIdeal.Proto Cert.KernelIdeal.Ghost Cert.KernelIdeal.SlotGeom Cert.KernelIdeal.ChunkGeom
open Cert.KernelIdeal.BodyLocal (abPieces bbPieces)
open Cert.Mesh (partner rail zpeer zc pc yc xc pOf dev slot)

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## What a view reads of a full write through a related view -/

/-- A view with its shape changed reads, of a full write through the view itself, the payload re-indexed. -/
theorem read_reshape_write_univ {κ : Kind} {sp : Space} {s s' : Shape} {e : EltTy} (v : View sig κ sp s e)
    (h : s'.numel = s.numel) (f : v.ty.Contents (Elt F)) (w : s.Idx → Elt F e) :
    (v.reshape s' h).read (Elt F) (v.write (Elt F) f w Finset.univ) = fun j => w (Shape.reshapeEquiv h j) := by
  funext j
  have h1 : (v.reshape s' h).read (Elt F) (v.write (Elt F) f w Finset.univ) j
      = v.read (Elt F) (v.write (Elt F) f w Finset.univ) (Shape.reshapeEquiv h j) := by
    rw [View.read_apply, View.read_apply]; rfl
  rw [h1, View.read_write_univ]

/-! ## Stage one -/

/-- A stage-one slot reads, of a full store through the buffer at the slot's rectangle, the value cast to the slot's shape. -/
theorem read_slot1_write (M : Memref sig .tc .vmem S8x4x4x32x128 .bf16) (q : Fin 8) (c : Dev nD)
    (f : Buf (Elt F) (M.view.loc (c : Thread nD τ))) (w : FVec F S1x4x4x32x128 .bf16) :
    (slot1 M q).view.read (Elt F)
        (View.write (Elt F) (M.access (Rect.unit (s := S8x4x4x32x128) ![q.val, 0, 0, 0, 0] S1x4x4x32x128.size (inbA1 q))) f w Finset.univ)
      = BodyStage1.slotRead w :=
  (read_reshape_write_univ (M.view.slice (Rect.unit (s := S8x4x4x32x128) ![q.val, 0, 0, 0, 0] S1x4x4x32x128.size (inbA1 q))) _ f w).trans rfl

/-- The slot after its store, in the schedule's form, for any value the stored one reads back as. -/
theorem restate1 (M : Memref sig .tc .vmem S8x4x4x32x128 .bf16) (q : Fin 8) (c : Dev nD)
    (f : Buf (Elt F) (M.view.loc (c : Thread nD τ))) (w : FVec F S1x4x4x32x128 .bf16) (X : C1 F)
    (hX : BodyStage1.slotRead w = X) :
    ((slot1 M q).view.loc (c : Thread nD τ) ↦[(slot1 M q).view.set]{fullShare}
        View.write (Elt F) (M.access (Rect.unit (s := S8x4x4x32x128) ![q.val, 0, 0, 0, 0] S1x4x4x32x128.size (inbA1 q))) f w Finset.univ : sProp 𝕄)
      = pts1 M c q X :=
  pts_slotBuf c (slot1 M q) h_S4x4x32x128 fullShare _ X ((read_slot1_write M q c f w).trans hX)

/-- Slot 0 of the stage-one send buffer, as the store leaves it, in the schedule's form. -/
theorem restate1_0 (c : Dev nD) (a0 : cc0_stg0_0.ty.Contents (Elt F)) (a1 : cc0_stg1_0.ty.Contents (Elt F))
    (f : Buf (Elt F) ((sendA1 : Memref sig .tc .vmem S8x4x4x32x128 .bf16).view.loc (c : Thread nD τ))) :
    ((slot1 sendA1 0).view.loc (c : Thread nD τ) ↦[(slot1 sendA1 0).view.set]{fullShare}
        View.write (Elt F) ((Memref.whole cc0_scratch2).access (Rect.unit (s := S8x4x4x32x128) ![0, 0, 0, 0, 0] S1x4x4x32x128.size inb_S8x4x4x32x128_S1x4x4x32x128_0_0_0_0_0)) f
          (k0_pay38 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 0] S512x128.size inb_S512x1024_S512x128_0_0).toLoadRect)) Finset.univ : sProp 𝕄)
      = pts1 sendA1 c 0 (BodyStage1.S1val c a0 a1 0) :=
  restate1 sendA1 0 c f _ _ (congrArg BodyStage1.slotRead (BodyStage1.stored0_0 c a0 a1))

/-- Slot 1 of the stage-one send buffer, as the store leaves it, in the schedule's form. -/
theorem restate1_1 (c : Dev nD) (a0 : cc0_stg0_0.ty.Contents (Elt F)) (a1 : cc0_stg1_0.ty.Contents (Elt F))
    (f : Buf (Elt F) ((sendA1 : Memref sig .tc .vmem S8x4x4x32x128 .bf16).view.loc (c : Thread nD τ))) :
    ((slot1 sendA1 1).view.loc (c : Thread nD τ) ↦[(slot1 sendA1 1).view.set]{fullShare}
        View.write (Elt F) ((Memref.whole cc0_scratch2).access (Rect.unit (s := S8x4x4x32x128) ![1, 0, 0, 0, 0] S1x4x4x32x128.size inb_S8x4x4x32x128_S1x4x4x32x128_1_0_0_0_0)) f
          (k0_pay40 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 128] S512x128.size inb_S512x1024_S512x128_0_128).toLoadRect)) Finset.univ : sProp 𝕄)
      = pts1 sendA1 c 1 (BodyStage1.S1val c a0 a1 1) :=
  restate1 sendA1 1 c f _ _ (congrArg BodyStage1.slotRead (BodyStage1.stored0_1 c a0 a1))

/-- Slot 2 of the stage-one send buffer, as the store leaves it, in the schedule's form. -/
theorem restate1_2 (c : Dev nD) (a0 : cc0_stg0_0.ty.Contents (Elt F)) (a1 : cc0_stg1_0.ty.Contents (Elt F))
    (f : Buf (Elt F) ((sendA1 : Memref sig .tc .vmem S8x4x4x32x128 .bf16).view.loc (c : Thread nD τ))) :
    ((slot1 sendA1 2).view.loc (c : Thread nD τ) ↦[(slot1 sendA1 2).view.set]{fullShare}
        View.write (Elt F) ((Memref.whole cc0_scratch2).access (Rect.unit (s := S8x4x4x32x128) ![2, 0, 0, 0, 0] S1x4x4x32x128.size inb_S8x4x4x32x128_S1x4x4x32x128_2_0_0_0_0)) f
          (k0_pay42 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 256] S512x128.size inb_S512x1024_S512x128_0_256).toLoadRect)) Finset.univ : sProp 𝕄)
      = pts1 sendA1 c 2 (BodyStage1.S1val c a0 a1 2) :=
  restate1 sendA1 2 c f _ _ (congrArg BodyStage1.slotRead (BodyStage1.stored0_2 c a0 a1))

/-- Slot 3 of the stage-one send buffer, as the store leaves it, in the schedule's form. -/
theorem restate1_3 (c : Dev nD) (a0 : cc0_stg0_0.ty.Contents (Elt F)) (a1 : cc0_stg1_0.ty.Contents (Elt F))
    (f : Buf (Elt F) ((sendA1 : Memref sig .tc .vmem S8x4x4x32x128 .bf16).view.loc (c : Thread nD τ))) :
    ((slot1 sendA1 3).view.loc (c : Thread nD τ) ↦[(slot1 sendA1 3).view.set]{fullShare}
        View.write (Elt F) ((Memref.whole cc0_scratch2).access (Rect.unit (s := S8x4x4x32x128) ![3, 0, 0, 0, 0] S1x4x4x32x128.size inb_S8x4x4x32x128_S1x4x4x32x128_3_0_0_0_0)) f
          (k0_pay44 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 384] S512x128.size inb_S512x1024_S512x128_0_384).toLoadRect)) Finset.univ : sProp 𝕄)
      = pts1 sendA1 c 3 (BodyStage1.S1val c a0 a1 3) :=
  restate1 sendA1 3 c f _ _ (congrArg BodyStage1.slotRead (BodyStage1.stored0_3 c a0 a1))

/-- Slot 4 of the stage-one send buffer, as the store leaves it, in the schedule's form. -/
theorem restate1_4 (c : Dev nD) (a0 : cc0_stg0_0.ty.Contents (Elt F)) (a1 : cc0_stg1_0.ty.Contents (Elt F))
    (f : Buf (Elt F) ((sendA1 : Memref sig .tc .vmem S8x4x4x32x128 .bf16).view.loc (c : Thread nD τ))) :
    ((slot1 sendA1 4).view.loc (c : Thread nD τ) ↦[(slot1 sendA1 4).view.set]{fullShare}
        View.write (Elt F) ((Memref.whole cc0_scratch2).access (Rect.unit (s := S8x4x4x32x128) ![4, 0, 0, 0, 0] S1x4x4x32x128.size inb_S8x4x4x32x128_S1x4x4x32x128_4_0_0_0_0)) f
          (k0_pay47 (k0_pay46 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 512] S512x128.size inb_S512x1024_S512x128_0_512).toLoadRect))) Finset.univ : sProp 𝕄)
      = pts1 sendA1 c 4 (BodyStage1.S1val c a0 a1 4) :=
  restate1 sendA1 4 c f _ _ (congrArg BodyStage1.slotRead (BodyStage1.stored0_4 c a0 a1))

/-- Slot 5 of the stage-one send buffer, as the store leaves it, in the schedule's form. -/
theorem restate1_5 (c : Dev nD) (a0 : cc0_stg0_0.ty.Contents (Elt F)) (a1 : cc0_stg1_0.ty.Contents (Elt F))
    (f : Buf (Elt F) ((sendA1 : Memref sig .tc .vmem S8x4x4x32x128 .bf16).view.loc (c : Thread nD τ))) :
    ((slot1 sendA1 5).view.loc (c : Thread nD τ) ↦[(slot1 sendA1 5).view.set]{fullShare}
        View.write (Elt F) ((Memref.whole cc0_scratch2).access (Rect.unit (s := S8x4x4x32x128) ![5, 0, 0, 0, 0] S1x4x4x32x128.size inb_S8x4x4x32x128_S1x4x4x32x128_5_0_0_0_0)) f
          (k0_pay50 (k0_pay49 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 640] S512x128.size inb_S512x1024_S512x128_0_640).toLoadRect))) Finset.univ : sProp 𝕄)
      = pts1 sendA1 c 5 (BodyStage1.S1val c a0 a1 5) :=
  restate1 sendA1 5 c f _ _ (congrArg BodyStage1.slotRead (BodyStage1.stored0_5 c a0 a1))

/-- Slot 6 of the stage-one send buffer, as the store leaves it, in the schedule's form. -/
theorem restate1_6 (c : Dev nD) (a0 : cc0_stg0_0.ty.Contents (Elt F)) (a1 : cc0_stg1_0.ty.Contents (Elt F))
    (f : Buf (Elt F) ((sendA1 : Memref sig .tc .vmem S8x4x4x32x128 .bf16).view.loc (c : Thread nD τ))) :
    ((slot1 sendA1 6).view.loc (c : Thread nD τ) ↦[(slot1 sendA1 6).view.set]{fullShare}
        View.write (Elt F) ((Memref.whole cc0_scratch2).access (Rect.unit (s := S8x4x4x32x128) ![6, 0, 0, 0, 0] S1x4x4x32x128.size inb_S8x4x4x32x128_S1x4x4x32x128_6_0_0_0_0)) f
          (k0_pay52 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 768] S512x128.size inb_S512x1024_S512x128_0_768).toLoadRect)) Finset.univ : sProp 𝕄)
      = pts1 sendA1 c 6 (BodyStage1.S1val c a0 a1 6) :=
  restate1 sendA1 6 c f _ _ (congrArg BodyStage1.slotRead (BodyStage1.stored0_6 c a0 a1))

/-- Slot 7 of the stage-one send buffer, as the store leaves it, in the schedule's form. -/
theorem restate1_7 (c : Dev nD) (a0 : cc0_stg0_0.ty.Contents (Elt F)) (a1 : cc0_stg1_0.ty.Contents (Elt F))
    (f : Buf (Elt F) ((sendA1 : Memref sig .tc .vmem S8x4x4x32x128 .bf16).view.loc (c : Thread nD τ))) :
    ((slot1 sendA1 7).view.loc (c : Thread nD τ) ↦[(slot1 sendA1 7).view.set]{fullShare}
        View.write (Elt F) ((Memref.whole cc0_scratch2).access (Rect.unit (s := S8x4x4x32x128) ![7, 0, 0, 0, 0] S1x4x4x32x128.size inb_S8x4x4x32x128_S1x4x4x32x128_7_0_0_0_0)) f
          (k0_pay55 ((Memref.whole cc0_scratch0).view.readCov (abPieces c a0) (Rect.unit (s := S1024x512) ![0, 0] S512x512.size inb_S1024x512_S512x512_0_0).toLoadRect) ((Memref.whole cc0_scratch1).view.readCov (bbPieces a1) (Rect.unit (s := S512x1024) ![0, 896] S512x128.size inb_S512x1024_S512x128_0_896).toLoadRect)) Finset.univ : sProp 𝕄)
      = pts1 sendA1 c 7 (BodyStage1.S1val c a0 a1 7) :=
  restate1 sendA1 7 c f _ _ (congrArg BodyStage1.slotRead (BodyStage1.stored0_7 c a0 a1))

/-! ## Stage two -/

/-- A stage-two slot reads, of a full store through the buffer at its chunk's rectangle, its row of the stored value. -/
theorem read_slot2_write (M : Memref sig .tc .vmem S32x4x32x128 .bf16) (q : Fin 8) (i : Fin 32) (hi : i.val / 4 = q.val) (c : Dev nD)
    (f : Buf (Elt F) (M.view.loc (c : Thread nD τ))) (W : FVec F S4x4x32x128 .bf16) :
    (slot2 M i).view.read (Elt F) (View.write (Elt F) (M.access (rectC2 q)) f W Finset.univ)
      = fun j => W (ix4 (⟨i.val % 4, Nat.mod_lt _ (by decide)⟩ : Fin 4) (⟨(j 1).val, (j 1).isLt⟩ : Fin 4) (⟨(j 2).val, (j 2).isLt⟩ : Fin 32) (⟨(j 3).val, (j 3).isLt⟩ : Fin 128)) := by
  funext j
  have h1 : (slot2 M i).view.read (Elt F) (View.write (Elt F) (M.access (rectC2 q)) f W Finset.univ) j
      = M.view.read (Elt F) (View.write (Elt F) (M.access (rectC2 q)) f W Finset.univ) ((rect2 i).emb j) := by
    rw [View.read_apply, View.read_apply]; rfl
  have hidx : (rect2 i).emb j
      = (rectC2 q).emb (ix4 (⟨i.val % 4, Nat.mod_lt _ (by decide)⟩ : Fin 4) (⟨(j 1).val, (j 1).isLt⟩ : Fin 4) (⟨(j 2).val, (j 2).isLt⟩ : Fin 32) (⟨(j 3).val, (j 3).isLt⟩ : Fin 128)) := by
    funext a
    apply Fin.ext
    have h0 : (j 0).val < 1 := (j 0).isLt
    rw [Rect.emb_apply, Rect.emb_apply]
    match a with
    | ⟨0, _⟩ =>
      show i.val + 1 * (j 0).val = 4 * q.val + 1 * (i.val % 4)
      omega
    | ⟨1, _⟩ =>
      show 0 + 1 * (j 1).val = 0 + 1 * (j 1).val
      rfl
    | ⟨2, _⟩ =>
      show 0 + 1 * (j 2).val = 0 + 1 * (j 2).val
      rfl
    | ⟨3, _⟩ =>
      show 0 + 1 * (j 3).val = 0 + 1 * (j 3).val
      rfl
  rw [h1, hidx]
  exact View.read_slice_write_emb (v := M.view) (rectC2 q) f W (Finset.mem_univ _)

/-- The slot after its chunk's store, in the schedule's form, for any value that row reads as. -/
theorem restate2 (M : Memref sig .tc .vmem S32x4x32x128 .bf16) (q : Fin 8) (i : Fin 32) (hi : i.val / 4 = q.val) (c : Dev nD)
    (f : Buf (Elt F) (M.view.loc (c : Thread nD τ))) (W : FVec F S4x4x32x128 .bf16) (X : C2 F)
    (hX : (fun j => W (ix4 (⟨i.val % 4, Nat.mod_lt _ (by decide)⟩ : Fin 4) (⟨(j 1).val, (j 1).isLt⟩ : Fin 4) (⟨(j 2).val, (j 2).isLt⟩ : Fin 32) (⟨(j 3).val, (j 3).isLt⟩ : Fin 128))) = X) :
    ((slot2 M i).view.loc (c : Thread nD τ) ↦[(slot2 M i).view.set]{fullShare}
        View.write (Elt F) (M.access (rectC2 q)) f W Finset.univ : sProp 𝕄)
      = pts2 M c i X :=
  pts_slotBuf c (slot2 M i) h_S1x4x32x128 fullShare _ X ((read_slot2_write M q i hi c f W).trans hX)

/-- Chunk 0's slot at advance s, as the chunk's store leaves it, in the schedule's form. -/
theorem restate2_0 (c : Dev nD) (s : ℕ) (f : Buf (Elt F) ((sendA2 : Memref sig .tc .vmem S32x4x32x128 .bf16).view.loc (c : Thread nD τ)))
    (W : FVec F S4x4x32x128 .bf16) (X : C2 F) (hX : (fun j => W (ix4 (⟨(slot (yc c) 0 s).val % 4, Nat.mod_lt _ (by decide)⟩ : Fin 4) (⟨(j 1).val, (j 1).isLt⟩ : Fin 4) (⟨(j 2).val, (j 2).isLt⟩ : Fin 32) (⟨(j 3).val, (j 3).isLt⟩ : Fin 128))) = X) :
    ((slot2 sendA2 (slot (yc c) 0 s)).view.loc (c : Thread nD τ) ↦[(slot2 sendA2 (slot (yc c) 0 s)).view.set]{fullShare}
        View.write (Elt F) ((Memref.whole cc0_scratch5).access (Rect.unit (s := S32x4x32x128) ![0, 0, 0, 0] S4x4x32x128.size inb_S32x4x32x128_S4x4x32x128_0_0_0_0)) f W Finset.univ : sProp 𝕄)
      = pts2 sendA2 c (slot (yc c) 0 s) X :=
  restate2 sendA2 0 (slot (yc c) 0 s) (by rw [Cert.Mesh.slot_val]; omega) c f W X hX

/-- Chunk 1's slot at advance s, as the chunk's store leaves it, in the schedule's form. -/
theorem restate2_1 (c : Dev nD) (s : ℕ) (f : Buf (Elt F) ((sendA2 : Memref sig .tc .vmem S32x4x32x128 .bf16).view.loc (c : Thread nD τ)))
    (W : FVec F S4x4x32x128 .bf16) (X : C2 F) (hX : (fun j => W (ix4 (⟨(slot (yc c) 1 s).val % 4, Nat.mod_lt _ (by decide)⟩ : Fin 4) (⟨(j 1).val, (j 1).isLt⟩ : Fin 4) (⟨(j 2).val, (j 2).isLt⟩ : Fin 32) (⟨(j 3).val, (j 3).isLt⟩ : Fin 128))) = X) :
    ((slot2 sendA2 (slot (yc c) 1 s)).view.loc (c : Thread nD τ) ↦[(slot2 sendA2 (slot (yc c) 1 s)).view.set]{fullShare}
        View.write (Elt F) ((Memref.whole cc0_scratch5).access (Rect.unit (s := S32x4x32x128) ![4, 0, 0, 0] S4x4x32x128.size inb_S32x4x32x128_S4x4x32x128_4_0_0_0)) f W Finset.univ : sProp 𝕄)
      = pts2 sendA2 c (slot (yc c) 1 s) X :=
  restate2 sendA2 1 (slot (yc c) 1 s) (by rw [Cert.Mesh.slot_val]; omega) c f W X hX

/-- Chunk 2's slot at advance s, as the chunk's store leaves it, in the schedule's form. -/
theorem restate2_2 (c : Dev nD) (s : ℕ) (f : Buf (Elt F) ((sendA2 : Memref sig .tc .vmem S32x4x32x128 .bf16).view.loc (c : Thread nD τ)))
    (W : FVec F S4x4x32x128 .bf16) (X : C2 F) (hX : (fun j => W (ix4 (⟨(slot (yc c) 2 s).val % 4, Nat.mod_lt _ (by decide)⟩ : Fin 4) (⟨(j 1).val, (j 1).isLt⟩ : Fin 4) (⟨(j 2).val, (j 2).isLt⟩ : Fin 32) (⟨(j 3).val, (j 3).isLt⟩ : Fin 128))) = X) :
    ((slot2 sendA2 (slot (yc c) 2 s)).view.loc (c : Thread nD τ) ↦[(slot2 sendA2 (slot (yc c) 2 s)).view.set]{fullShare}
        View.write (Elt F) ((Memref.whole cc0_scratch5).access (Rect.unit (s := S32x4x32x128) ![8, 0, 0, 0] S4x4x32x128.size inb_S32x4x32x128_S4x4x32x128_8_0_0_0)) f W Finset.univ : sProp 𝕄)
      = pts2 sendA2 c (slot (yc c) 2 s) X :=
  restate2 sendA2 2 (slot (yc c) 2 s) (by rw [Cert.Mesh.slot_val]; omega) c f W X hX

/-- Chunk 3's slot at advance s, as the chunk's store leaves it, in the schedule's form. -/
theorem restate2_3 (c : Dev nD) (s : ℕ) (f : Buf (Elt F) ((sendA2 : Memref sig .tc .vmem S32x4x32x128 .bf16).view.loc (c : Thread nD τ)))
    (W : FVec F S4x4x32x128 .bf16) (X : C2 F) (hX : (fun j => W (ix4 (⟨(slot (yc c) 3 s).val % 4, Nat.mod_lt _ (by decide)⟩ : Fin 4) (⟨(j 1).val, (j 1).isLt⟩ : Fin 4) (⟨(j 2).val, (j 2).isLt⟩ : Fin 32) (⟨(j 3).val, (j 3).isLt⟩ : Fin 128))) = X) :
    ((slot2 sendA2 (slot (yc c) 3 s)).view.loc (c : Thread nD τ) ↦[(slot2 sendA2 (slot (yc c) 3 s)).view.set]{fullShare}
        View.write (Elt F) ((Memref.whole cc0_scratch5).access (Rect.unit (s := S32x4x32x128) ![12, 0, 0, 0] S4x4x32x128.size inb_S32x4x32x128_S4x4x32x128_12_0_0_0)) f W Finset.univ : sProp 𝕄)
      = pts2 sendA2 c (slot (yc c) 3 s) X :=
  restate2 sendA2 3 (slot (yc c) 3 s) (by rw [Cert.Mesh.slot_val]; omega) c f W X hX

/-- Chunk 4's slot at advance s, as the chunk's store leaves it, in the schedule's form. -/
theorem restate2_4 (c : Dev nD) (s : ℕ) (f : Buf (Elt F) ((sendA2 : Memref sig .tc .vmem S32x4x32x128 .bf16).view.loc (c : Thread nD τ)))
    (W : FVec F S4x4x32x128 .bf16) (X : C2 F) (hX : (fun j => W (ix4 (⟨(slot (yc c) 4 s).val % 4, Nat.mod_lt _ (by decide)⟩ : Fin 4) (⟨(j 1).val, (j 1).isLt⟩ : Fin 4) (⟨(j 2).val, (j 2).isLt⟩ : Fin 32) (⟨(j 3).val, (j 3).isLt⟩ : Fin 128))) = X) :
    ((slot2 sendA2 (slot (yc c) 4 s)).view.loc (c : Thread nD τ) ↦[(slot2 sendA2 (slot (yc c) 4 s)).view.set]{fullShare}
        View.write (Elt F) ((Memref.whole cc0_scratch5).access (Rect.unit (s := S32x4x32x128) ![16, 0, 0, 0] S4x4x32x128.size inb_S32x4x32x128_S4x4x32x128_16_0_0_0)) f W Finset.univ : sProp 𝕄)
      = pts2 sendA2 c (slot (yc c) 4 s) X :=
  restate2 sendA2 4 (slot (yc c) 4 s) (by rw [Cert.Mesh.slot_val]; omega) c f W X hX

/-- Chunk 5's slot at advance s, as the chunk's store leaves it, in the schedule's form. -/
theorem restate2_5 (c : Dev nD) (s : ℕ) (f : Buf (Elt F) ((sendA2 : Memref sig .tc .vmem S32x4x32x128 .bf16).view.loc (c : Thread nD τ)))
    (W : FVec F S4x4x32x128 .bf16) (X : C2 F) (hX : (fun j => W (ix4 (⟨(slot (yc c) 5 s).val % 4, Nat.mod_lt _ (by decide)⟩ : Fin 4) (⟨(j 1).val, (j 1).isLt⟩ : Fin 4) (⟨(j 2).val, (j 2).isLt⟩ : Fin 32) (⟨(j 3).val, (j 3).isLt⟩ : Fin 128))) = X) :
    ((slot2 sendA2 (slot (yc c) 5 s)).view.loc (c : Thread nD τ) ↦[(slot2 sendA2 (slot (yc c) 5 s)).view.set]{fullShare}
        View.write (Elt F) ((Memref.whole cc0_scratch5).access (Rect.unit (s := S32x4x32x128) ![20, 0, 0, 0] S4x4x32x128.size inb_S32x4x32x128_S4x4x32x128_20_0_0_0)) f W Finset.univ : sProp 𝕄)
      = pts2 sendA2 c (slot (yc c) 5 s) X :=
  restate2 sendA2 5 (slot (yc c) 5 s) (by rw [Cert.Mesh.slot_val]; omega) c f W X hX

/-- Chunk 6's slot at advance s, as the chunk's store leaves it, in the schedule's form. -/
theorem restate2_6 (c : Dev nD) (s : ℕ) (f : Buf (Elt F) ((sendA2 : Memref sig .tc .vmem S32x4x32x128 .bf16).view.loc (c : Thread nD τ)))
    (W : FVec F S4x4x32x128 .bf16) (X : C2 F) (hX : (fun j => W (ix4 (⟨(slot (yc c) 6 s).val % 4, Nat.mod_lt _ (by decide)⟩ : Fin 4) (⟨(j 1).val, (j 1).isLt⟩ : Fin 4) (⟨(j 2).val, (j 2).isLt⟩ : Fin 32) (⟨(j 3).val, (j 3).isLt⟩ : Fin 128))) = X) :
    ((slot2 sendA2 (slot (yc c) 6 s)).view.loc (c : Thread nD τ) ↦[(slot2 sendA2 (slot (yc c) 6 s)).view.set]{fullShare}
        View.write (Elt F) ((Memref.whole cc0_scratch5).access (Rect.unit (s := S32x4x32x128) ![24, 0, 0, 0] S4x4x32x128.size inb_S32x4x32x128_S4x4x32x128_24_0_0_0)) f W Finset.univ : sProp 𝕄)
      = pts2 sendA2 c (slot (yc c) 6 s) X :=
  restate2 sendA2 6 (slot (yc c) 6 s) (by rw [Cert.Mesh.slot_val]; omega) c f W X hX

/-- Chunk 7's slot at advance s, as the chunk's store leaves it, in the schedule's form. -/
theorem restate2_7 (c : Dev nD) (s : ℕ) (f : Buf (Elt F) ((sendA2 : Memref sig .tc .vmem S32x4x32x128 .bf16).view.loc (c : Thread nD τ)))
    (W : FVec F S4x4x32x128 .bf16) (X : C2 F) (hX : (fun j => W (ix4 (⟨(slot (yc c) 7 s).val % 4, Nat.mod_lt _ (by decide)⟩ : Fin 4) (⟨(j 1).val, (j 1).isLt⟩ : Fin 4) (⟨(j 2).val, (j 2).isLt⟩ : Fin 32) (⟨(j 3).val, (j 3).isLt⟩ : Fin 128))) = X) :
    ((slot2 sendA2 (slot (yc c) 7 s)).view.loc (c : Thread nD τ) ↦[(slot2 sendA2 (slot (yc c) 7 s)).view.set]{fullShare}
        View.write (Elt F) ((Memref.whole cc0_scratch5).access (Rect.unit (s := S32x4x32x128) ![28, 0, 0, 0] S4x4x32x128.size inb_S32x4x32x128_S4x4x32x128_28_0_0_0)) f W Finset.univ : sProp 𝕄)
      = pts2 sendA2 c (slot (yc c) 7 s) X :=
  restate2 sendA2 7 (slot (yc c) 7 s) (by rw [Cert.Mesh.slot_val]; omega) c f W X hX

/-! ## Stage three -/

/-- A stage-three slot reads, of a full store through the buffer at its chunk's rectangle, its row of the stored value. -/
theorem read_slot3_write (M : Memref sig .tc .vmem S32x32x128 .bf16) (q : Fin 8) (i : Fin 32) (hi : i.val / 4 = q.val) (c : Dev nD)
    (f : Buf (Elt F) (M.view.loc (c : Thread nD τ))) (W : FVec F S4x32x128 .bf16) :
    (slot3 M i).view.read (Elt F) (View.write (Elt F) (M.access (rectC3 q)) f W Finset.univ)
      = fun j => W (ix3 (⟨i.val % 4, Nat.mod_lt _ (by decide)⟩ : Fin 4) (⟨(j 1).val, (j 1).isLt⟩ : Fin 32) (⟨(j 2).val, (j 2).isLt⟩ : Fin 128)) := by
  funext j
  have h1 : (slot3 M i).view.read (Elt F) (View.write (Elt F) (M.access (rectC3 q)) f W Finset.univ) j
      = M.view.read (Elt F) (View.write (Elt F) (M.access (rectC3 q)) f W Finset.univ) ((rect3 i).emb j) := by
    rw [View.read_apply, View.read_apply]; rfl
  have hidx : (rect3 i).emb j
      = (rectC3 q).emb (ix3 (⟨i.val % 4, Nat.mod_lt _ (by decide)⟩ : Fin 4) (⟨(j 1).val, (j 1).isLt⟩ : Fin 32) (⟨(j 2).val, (j 2).isLt⟩ : Fin 128)) := by
    funext a
    apply Fin.ext
    have h0 : (j 0).val < 1 := (j 0).isLt
    rw [Rect.emb_apply, Rect.emb_apply]
    match a with
    | ⟨0, _⟩ =>
      show i.val + 1 * (j 0).val = 4 * q.val + 1 * (i.val % 4)
      omega
    | ⟨1, _⟩ =>
      show 0 + 1 * (j 1).val = 0 + 1 * (j 1).val
      rfl
    | ⟨2, _⟩ =>
      show 0 + 1 * (j 2).val = 0 + 1 * (j 2).val
      rfl
  rw [h1, hidx]
  exact View.read_slice_write_emb (v := M.view) (rectC3 q) f W (Finset.mem_univ _)

/-- The slot after its chunk's store, in the schedule's form, for any value that row reads as. -/
theorem restate3 (M : Memref sig .tc .vmem S32x32x128 .bf16) (q : Fin 8) (i : Fin 32) (hi : i.val / 4 = q.val) (c : Dev nD)
    (f : Buf (Elt F) (M.view.loc (c : Thread nD τ))) (W : FVec F S4x32x128 .bf16) (X : C3 F)
    (hX : (fun j => W (ix3 (⟨i.val % 4, Nat.mod_lt _ (by decide)⟩ : Fin 4) (⟨(j 1).val, (j 1).isLt⟩ : Fin 32) (⟨(j 2).val, (j 2).isLt⟩ : Fin 128))) = X) :
    ((slot3 M i).view.loc (c : Thread nD τ) ↦[(slot3 M i).view.set]{fullShare}
        View.write (Elt F) (M.access (rectC3 q)) f W Finset.univ : sProp 𝕄)
      = pts3 M c i X :=
  pts_slotBuf c (slot3 M i) h_S1x32x128 fullShare _ X ((read_slot3_write M q i hi c f W).trans hX)

/-- Chunk 0's slot at advance s, as the chunk's store leaves it, in the schedule's form. -/
theorem restate3_0 (c : Dev nD) (s : ℕ) (f : Buf (Elt F) ((sendB : Memref sig .tc .vmem S32x32x128 .bf16).view.loc (c : Thread nD τ)))
    (W : FVec F S4x32x128 .bf16) (X : C3 F) (hX : (fun j => W (ix3 (⟨(slot (zc c) 0 s).val % 4, Nat.mod_lt _ (by decide)⟩ : Fin 4) (⟨(j 1).val, (j 1).isLt⟩ : Fin 32) (⟨(j 2).val, (j 2).isLt⟩ : Fin 128))) = X) :
    ((slot3 sendB (slot (zc c) 0 s)).view.loc (c : Thread nD τ) ↦[(slot3 sendB (slot (zc c) 0 s)).view.set]{fullShare}
        View.write (Elt F) ((Memref.whole cc0_scratch7).access (Rect.unit (s := S32x32x128) ![0, 0, 0] S4x32x128.size inb_S32x32x128_S4x32x128_0_0_0)) f W Finset.univ : sProp 𝕄)
      = pts3 sendB c (slot (zc c) 0 s) X :=
  restate3 sendB 0 (slot (zc c) 0 s) (by rw [Cert.Mesh.slot_val]; omega) c f W X hX

/-- Chunk 1's slot at advance s, as the chunk's store leaves it, in the schedule's form. -/
theorem restate3_1 (c : Dev nD) (s : ℕ) (f : Buf (Elt F) ((sendB : Memref sig .tc .vmem S32x32x128 .bf16).view.loc (c : Thread nD τ)))
    (W : FVec F S4x32x128 .bf16) (X : C3 F) (hX : (fun j => W (ix3 (⟨(slot (zc c) 1 s).val % 4, Nat.mod_lt _ (by decide)⟩ : Fin 4) (⟨(j 1).val, (j 1).isLt⟩ : Fin 32) (⟨(j 2).val, (j 2).isLt⟩ : Fin 128))) = X) :
    ((slot3 sendB (slot (zc c) 1 s)).view.loc (c : Thread nD τ) ↦[(slot3 sendB (slot (zc c) 1 s)).view.set]{fullShare}
        View.write (Elt F) ((Memref.whole cc0_scratch7).access (Rect.unit (s := S32x32x128) ![4, 0, 0] S4x32x128.size inb_S32x32x128_S4x32x128_4_0_0)) f W Finset.univ : sProp 𝕄)
      = pts3 sendB c (slot (zc c) 1 s) X :=
  restate3 sendB 1 (slot (zc c) 1 s) (by rw [Cert.Mesh.slot_val]; omega) c f W X hX

/-- Chunk 2's slot at advance s, as the chunk's store leaves it, in the schedule's form. -/
theorem restate3_2 (c : Dev nD) (s : ℕ) (f : Buf (Elt F) ((sendB : Memref sig .tc .vmem S32x32x128 .bf16).view.loc (c : Thread nD τ)))
    (W : FVec F S4x32x128 .bf16) (X : C3 F) (hX : (fun j => W (ix3 (⟨(slot (zc c) 2 s).val % 4, Nat.mod_lt _ (by decide)⟩ : Fin 4) (⟨(j 1).val, (j 1).isLt⟩ : Fin 32) (⟨(j 2).val, (j 2).isLt⟩ : Fin 128))) = X) :
    ((slot3 sendB (slot (zc c) 2 s)).view.loc (c : Thread nD τ) ↦[(slot3 sendB (slot (zc c) 2 s)).view.set]{fullShare}
        View.write (Elt F) ((Memref.whole cc0_scratch7).access (Rect.unit (s := S32x32x128) ![8, 0, 0] S4x32x128.size inb_S32x32x128_S4x32x128_8_0_0)) f W Finset.univ : sProp 𝕄)
      = pts3 sendB c (slot (zc c) 2 s) X :=
  restate3 sendB 2 (slot (zc c) 2 s) (by rw [Cert.Mesh.slot_val]; omega) c f W X hX

/-- Chunk 3's slot at advance s, as the chunk's store leaves it, in the schedule's form. -/
theorem restate3_3 (c : Dev nD) (s : ℕ) (f : Buf (Elt F) ((sendB : Memref sig .tc .vmem S32x32x128 .bf16).view.loc (c : Thread nD τ)))
    (W : FVec F S4x32x128 .bf16) (X : C3 F) (hX : (fun j => W (ix3 (⟨(slot (zc c) 3 s).val % 4, Nat.mod_lt _ (by decide)⟩ : Fin 4) (⟨(j 1).val, (j 1).isLt⟩ : Fin 32) (⟨(j 2).val, (j 2).isLt⟩ : Fin 128))) = X) :
    ((slot3 sendB (slot (zc c) 3 s)).view.loc (c : Thread nD τ) ↦[(slot3 sendB (slot (zc c) 3 s)).view.set]{fullShare}
        View.write (Elt F) ((Memref.whole cc0_scratch7).access (Rect.unit (s := S32x32x128) ![12, 0, 0] S4x32x128.size inb_S32x32x128_S4x32x128_12_0_0)) f W Finset.univ : sProp 𝕄)
      = pts3 sendB c (slot (zc c) 3 s) X :=
  restate3 sendB 3 (slot (zc c) 3 s) (by rw [Cert.Mesh.slot_val]; omega) c f W X hX

/-- Chunk 4's slot at advance s, as the chunk's store leaves it, in the schedule's form. -/
theorem restate3_4 (c : Dev nD) (s : ℕ) (f : Buf (Elt F) ((sendB : Memref sig .tc .vmem S32x32x128 .bf16).view.loc (c : Thread nD τ)))
    (W : FVec F S4x32x128 .bf16) (X : C3 F) (hX : (fun j => W (ix3 (⟨(slot (zc c) 4 s).val % 4, Nat.mod_lt _ (by decide)⟩ : Fin 4) (⟨(j 1).val, (j 1).isLt⟩ : Fin 32) (⟨(j 2).val, (j 2).isLt⟩ : Fin 128))) = X) :
    ((slot3 sendB (slot (zc c) 4 s)).view.loc (c : Thread nD τ) ↦[(slot3 sendB (slot (zc c) 4 s)).view.set]{fullShare}
        View.write (Elt F) ((Memref.whole cc0_scratch7).access (Rect.unit (s := S32x32x128) ![16, 0, 0] S4x32x128.size inb_S32x32x128_S4x32x128_16_0_0)) f W Finset.univ : sProp 𝕄)
      = pts3 sendB c (slot (zc c) 4 s) X :=
  restate3 sendB 4 (slot (zc c) 4 s) (by rw [Cert.Mesh.slot_val]; omega) c f W X hX

/-- Chunk 5's slot at advance s, as the chunk's store leaves it, in the schedule's form. -/
theorem restate3_5 (c : Dev nD) (s : ℕ) (f : Buf (Elt F) ((sendB : Memref sig .tc .vmem S32x32x128 .bf16).view.loc (c : Thread nD τ)))
    (W : FVec F S4x32x128 .bf16) (X : C3 F) (hX : (fun j => W (ix3 (⟨(slot (zc c) 5 s).val % 4, Nat.mod_lt _ (by decide)⟩ : Fin 4) (⟨(j 1).val, (j 1).isLt⟩ : Fin 32) (⟨(j 2).val, (j 2).isLt⟩ : Fin 128))) = X) :
    ((slot3 sendB (slot (zc c) 5 s)).view.loc (c : Thread nD τ) ↦[(slot3 sendB (slot (zc c) 5 s)).view.set]{fullShare}
        View.write (Elt F) ((Memref.whole cc0_scratch7).access (Rect.unit (s := S32x32x128) ![20, 0, 0] S4x32x128.size inb_S32x32x128_S4x32x128_20_0_0)) f W Finset.univ : sProp 𝕄)
      = pts3 sendB c (slot (zc c) 5 s) X :=
  restate3 sendB 5 (slot (zc c) 5 s) (by rw [Cert.Mesh.slot_val]; omega) c f W X hX

/-- Chunk 6's slot at advance s, as the chunk's store leaves it, in the schedule's form. -/
theorem restate3_6 (c : Dev nD) (s : ℕ) (f : Buf (Elt F) ((sendB : Memref sig .tc .vmem S32x32x128 .bf16).view.loc (c : Thread nD τ)))
    (W : FVec F S4x32x128 .bf16) (X : C3 F) (hX : (fun j => W (ix3 (⟨(slot (zc c) 6 s).val % 4, Nat.mod_lt _ (by decide)⟩ : Fin 4) (⟨(j 1).val, (j 1).isLt⟩ : Fin 32) (⟨(j 2).val, (j 2).isLt⟩ : Fin 128))) = X) :
    ((slot3 sendB (slot (zc c) 6 s)).view.loc (c : Thread nD τ) ↦[(slot3 sendB (slot (zc c) 6 s)).view.set]{fullShare}
        View.write (Elt F) ((Memref.whole cc0_scratch7).access (Rect.unit (s := S32x32x128) ![24, 0, 0] S4x32x128.size inb_S32x32x128_S4x32x128_24_0_0)) f W Finset.univ : sProp 𝕄)
      = pts3 sendB c (slot (zc c) 6 s) X :=
  restate3 sendB 6 (slot (zc c) 6 s) (by rw [Cert.Mesh.slot_val]; omega) c f W X hX

/-- Chunk 7's slot at advance s, as the chunk's store leaves it, in the schedule's form. -/
theorem restate3_7 (c : Dev nD) (s : ℕ) (f : Buf (Elt F) ((sendB : Memref sig .tc .vmem S32x32x128 .bf16).view.loc (c : Thread nD τ)))
    (W : FVec F S4x32x128 .bf16) (X : C3 F) (hX : (fun j => W (ix3 (⟨(slot (zc c) 7 s).val % 4, Nat.mod_lt _ (by decide)⟩ : Fin 4) (⟨(j 1).val, (j 1).isLt⟩ : Fin 32) (⟨(j 2).val, (j 2).isLt⟩ : Fin 128))) = X) :
    ((slot3 sendB (slot (zc c) 7 s)).view.loc (c : Thread nD τ) ↦[(slot3 sendB (slot (zc c) 7 s)).view.set]{fullShare}
        View.write (Elt F) ((Memref.whole cc0_scratch7).access (Rect.unit (s := S32x32x128) ![28, 0, 0] S4x32x128.size inb_S32x32x128_S4x32x128_28_0_0)) f W Finset.univ : sProp 𝕄)
      = pts3 sendB c (slot (zc c) 7 s) X :=
  restate3 sendB 7 (slot (zc c) 7 s) (by rw [Cert.Mesh.slot_val]; omega) c f W X hX

/-! The same, landing on the contents families: the chunk's value is the pair sum of chunk q. -/

theorem restate2v_0 (m : (ℓ : Loc nD τ sig) → Buf (Elt F) ℓ) (c : Dev nD) (s : ℕ)
    (f : Buf (Elt F) ((sendA2 : Memref sig .tc .vmem S32x4x32x128 .bf16).view.loc (c : Thread nD τ)))
    (W : FVec F S4x4x32x128 .bf16) (hW : W = Values.PAIRv m c 0) :
    ((slot2 sendA2 (slot (yc c) 0 s)).view.loc (c : Thread nD τ) ↦[(slot2 sendA2 (slot (yc c) 0 s)).view.set]{fullShare}
        View.write (Elt F) ((Memref.whole cc0_scratch5).access (Rect.unit (s := S32x4x32x128) ![0, 0, 0, 0] S4x4x32x128.size inb_S32x4x32x128_S4x4x32x128_0_0_0_0)) f W Finset.univ : sProp 𝕄)
      = pts2 sendA2 c (slot (yc c) 0 s) (Values.P2v m c (slot (yc c) 0 s)) :=
  restate2_0 c s f W _ (by subst hW; unfold Values.P2v; rw [Proto.qOf_slot]; rfl)

theorem restate2v_1 (m : (ℓ : Loc nD τ sig) → Buf (Elt F) ℓ) (c : Dev nD) (s : ℕ)
    (f : Buf (Elt F) ((sendA2 : Memref sig .tc .vmem S32x4x32x128 .bf16).view.loc (c : Thread nD τ)))
    (W : FVec F S4x4x32x128 .bf16) (hW : W = Values.PAIRv m c 1) :
    ((slot2 sendA2 (slot (yc c) 1 s)).view.loc (c : Thread nD τ) ↦[(slot2 sendA2 (slot (yc c) 1 s)).view.set]{fullShare}
        View.write (Elt F) ((Memref.whole cc0_scratch5).access (Rect.unit (s := S32x4x32x128) ![4, 0, 0, 0] S4x4x32x128.size inb_S32x4x32x128_S4x4x32x128_4_0_0_0)) f W Finset.univ : sProp 𝕄)
      = pts2 sendA2 c (slot (yc c) 1 s) (Values.P2v m c (slot (yc c) 1 s)) :=
  restate2_1 c s f W _ (by subst hW; unfold Values.P2v; rw [Proto.qOf_slot]; rfl)

theorem restate2v_2 (m : (ℓ : Loc nD τ sig) → Buf (Elt F) ℓ) (c : Dev nD) (s : ℕ)
    (f : Buf (Elt F) ((sendA2 : Memref sig .tc .vmem S32x4x32x128 .bf16).view.loc (c : Thread nD τ)))
    (W : FVec F S4x4x32x128 .bf16) (hW : W = Values.PAIRv m c 2) :
    ((slot2 sendA2 (slot (yc c) 2 s)).view.loc (c : Thread nD τ) ↦[(slot2 sendA2 (slot (yc c) 2 s)).view.set]{fullShare}
        View.write (Elt F) ((Memref.whole cc0_scratch5).access (Rect.unit (s := S32x4x32x128) ![8, 0, 0, 0] S4x4x32x128.size inb_S32x4x32x128_S4x4x32x128_8_0_0_0)) f W Finset.univ : sProp 𝕄)
      = pts2 sendA2 c (slot (yc c) 2 s) (Values.P2v m c (slot (yc c) 2 s)) :=
  restate2_2 c s f W _ (by subst hW; unfold Values.P2v; rw [Proto.qOf_slot]; rfl)

theorem restate2v_3 (m : (ℓ : Loc nD τ sig) → Buf (Elt F) ℓ) (c : Dev nD) (s : ℕ)
    (f : Buf (Elt F) ((sendA2 : Memref sig .tc .vmem S32x4x32x128 .bf16).view.loc (c : Thread nD τ)))
    (W : FVec F S4x4x32x128 .bf16) (hW : W = Values.PAIRv m c 3) :
    ((slot2 sendA2 (slot (yc c) 3 s)).view.loc (c : Thread nD τ) ↦[(slot2 sendA2 (slot (yc c) 3 s)).view.set]{fullShare}
        View.write (Elt F) ((Memref.whole cc0_scratch5).access (Rect.unit (s := S32x4x32x128) ![12, 0, 0, 0] S4x4x32x128.size inb_S32x4x32x128_S4x4x32x128_12_0_0_0)) f W Finset.univ : sProp 𝕄)
      = pts2 sendA2 c (slot (yc c) 3 s) (Values.P2v m c (slot (yc c) 3 s)) :=
  restate2_3 c s f W _ (by subst hW; unfold Values.P2v; rw [Proto.qOf_slot]; rfl)

theorem restate2v_4 (m : (ℓ : Loc nD τ sig) → Buf (Elt F) ℓ) (c : Dev nD) (s : ℕ)
    (f : Buf (Elt F) ((sendA2 : Memref sig .tc .vmem S32x4x32x128 .bf16).view.loc (c : Thread nD τ)))
    (W : FVec F S4x4x32x128 .bf16) (hW : W = Values.PAIRv m c 4) :
    ((slot2 sendA2 (slot (yc c) 4 s)).view.loc (c : Thread nD τ) ↦[(slot2 sendA2 (slot (yc c) 4 s)).view.set]{fullShare}
        View.write (Elt F) ((Memref.whole cc0_scratch5).access (Rect.unit (s := S32x4x32x128) ![16, 0, 0, 0] S4x4x32x128.size inb_S32x4x32x128_S4x4x32x128_16_0_0_0)) f W Finset.univ : sProp 𝕄)
      = pts2 sendA2 c (slot (yc c) 4 s) (Values.P2v m c (slot (yc c) 4 s)) :=
  restate2_4 c s f W _ (by subst hW; unfold Values.P2v; rw [Proto.qOf_slot]; rfl)

theorem restate2v_5 (m : (ℓ : Loc nD τ sig) → Buf (Elt F) ℓ) (c : Dev nD) (s : ℕ)
    (f : Buf (Elt F) ((sendA2 : Memref sig .tc .vmem S32x4x32x128 .bf16).view.loc (c : Thread nD τ)))
    (W : FVec F S4x4x32x128 .bf16) (hW : W = Values.PAIRv m c 5) :
    ((slot2 sendA2 (slot (yc c) 5 s)).view.loc (c : Thread nD τ) ↦[(slot2 sendA2 (slot (yc c) 5 s)).view.set]{fullShare}
        View.write (Elt F) ((Memref.whole cc0_scratch5).access (Rect.unit (s := S32x4x32x128) ![20, 0, 0, 0] S4x4x32x128.size inb_S32x4x32x128_S4x4x32x128_20_0_0_0)) f W Finset.univ : sProp 𝕄)
      = pts2 sendA2 c (slot (yc c) 5 s) (Values.P2v m c (slot (yc c) 5 s)) :=
  restate2_5 c s f W _ (by subst hW; unfold Values.P2v; rw [Proto.qOf_slot]; rfl)

theorem restate2v_6 (m : (ℓ : Loc nD τ sig) → Buf (Elt F) ℓ) (c : Dev nD) (s : ℕ)
    (f : Buf (Elt F) ((sendA2 : Memref sig .tc .vmem S32x4x32x128 .bf16).view.loc (c : Thread nD τ)))
    (W : FVec F S4x4x32x128 .bf16) (hW : W = Values.PAIRv m c 6) :
    ((slot2 sendA2 (slot (yc c) 6 s)).view.loc (c : Thread nD τ) ↦[(slot2 sendA2 (slot (yc c) 6 s)).view.set]{fullShare}
        View.write (Elt F) ((Memref.whole cc0_scratch5).access (Rect.unit (s := S32x4x32x128) ![24, 0, 0, 0] S4x4x32x128.size inb_S32x4x32x128_S4x4x32x128_24_0_0_0)) f W Finset.univ : sProp 𝕄)
      = pts2 sendA2 c (slot (yc c) 6 s) (Values.P2v m c (slot (yc c) 6 s)) :=
  restate2_6 c s f W _ (by subst hW; unfold Values.P2v; rw [Proto.qOf_slot]; rfl)

theorem restate2v_7 (m : (ℓ : Loc nD τ sig) → Buf (Elt F) ℓ) (c : Dev nD) (s : ℕ)
    (f : Buf (Elt F) ((sendA2 : Memref sig .tc .vmem S32x4x32x128 .bf16).view.loc (c : Thread nD τ)))
    (W : FVec F S4x4x32x128 .bf16) (hW : W = Values.PAIRv m c 7) :
    ((slot2 sendA2 (slot (yc c) 7 s)).view.loc (c : Thread nD τ) ↦[(slot2 sendA2 (slot (yc c) 7 s)).view.set]{fullShare}
        View.write (Elt F) ((Memref.whole cc0_scratch5).access (Rect.unit (s := S32x4x32x128) ![28, 0, 0, 0] S4x4x32x128.size inb_S32x4x32x128_S4x4x32x128_28_0_0_0)) f W Finset.univ : sProp 𝕄)
      = pts2 sendA2 c (slot (yc c) 7 s) (Values.P2v m c (slot (yc c) 7 s)) :=
  restate2_7 c s f W _ (by subst hW; unfold Values.P2v; rw [Proto.qOf_slot]; rfl)

/-! The same, landing on the contents families: the chunk's value is the column sum of chunk q. -/

theorem restate3v_0 (m : (ℓ : Loc nD τ sig) → Buf (Elt F) ℓ) (c : Dev nD) (s : ℕ)
    (f : Buf (Elt F) ((sendB : Memref sig .tc .vmem S32x32x128 .bf16).view.loc (c : Thread nD τ)))
    (W : FVec F S4x32x128 .bf16) (hW : W = Values.ACCv m c 0) :
    ((slot3 sendB (slot (zc c) 0 s)).view.loc (c : Thread nD τ) ↦[(slot3 sendB (slot (zc c) 0 s)).view.set]{fullShare}
        View.write (Elt F) ((Memref.whole cc0_scratch7).access (Rect.unit (s := S32x32x128) ![0, 0, 0] S4x32x128.size inb_S32x32x128_S4x32x128_0_0_0)) f W Finset.univ : sProp 𝕄)
      = pts3 sendB c (slot (zc c) 0 s) (Values.P3v m c (slot (zc c) 0 s)) :=
  restate3_0 c s f W _ (by subst hW; unfold Values.P3v; rw [Proto.qOf_slot]; rfl)

theorem restate3v_1 (m : (ℓ : Loc nD τ sig) → Buf (Elt F) ℓ) (c : Dev nD) (s : ℕ)
    (f : Buf (Elt F) ((sendB : Memref sig .tc .vmem S32x32x128 .bf16).view.loc (c : Thread nD τ)))
    (W : FVec F S4x32x128 .bf16) (hW : W = Values.ACCv m c 1) :
    ((slot3 sendB (slot (zc c) 1 s)).view.loc (c : Thread nD τ) ↦[(slot3 sendB (slot (zc c) 1 s)).view.set]{fullShare}
        View.write (Elt F) ((Memref.whole cc0_scratch7).access (Rect.unit (s := S32x32x128) ![4, 0, 0] S4x32x128.size inb_S32x32x128_S4x32x128_4_0_0)) f W Finset.univ : sProp 𝕄)
      = pts3 sendB c (slot (zc c) 1 s) (Values.P3v m c (slot (zc c) 1 s)) :=
  restate3_1 c s f W _ (by subst hW; unfold Values.P3v; rw [Proto.qOf_slot]; rfl)

theorem restate3v_2 (m : (ℓ : Loc nD τ sig) → Buf (Elt F) ℓ) (c : Dev nD) (s : ℕ)
    (f : Buf (Elt F) ((sendB : Memref sig .tc .vmem S32x32x128 .bf16).view.loc (c : Thread nD τ)))
    (W : FVec F S4x32x128 .bf16) (hW : W = Values.ACCv m c 2) :
    ((slot3 sendB (slot (zc c) 2 s)).view.loc (c : Thread nD τ) ↦[(slot3 sendB (slot (zc c) 2 s)).view.set]{fullShare}
        View.write (Elt F) ((Memref.whole cc0_scratch7).access (Rect.unit (s := S32x32x128) ![8, 0, 0] S4x32x128.size inb_S32x32x128_S4x32x128_8_0_0)) f W Finset.univ : sProp 𝕄)
      = pts3 sendB c (slot (zc c) 2 s) (Values.P3v m c (slot (zc c) 2 s)) :=
  restate3_2 c s f W _ (by subst hW; unfold Values.P3v; rw [Proto.qOf_slot]; rfl)

theorem restate3v_3 (m : (ℓ : Loc nD τ sig) → Buf (Elt F) ℓ) (c : Dev nD) (s : ℕ)
    (f : Buf (Elt F) ((sendB : Memref sig .tc .vmem S32x32x128 .bf16).view.loc (c : Thread nD τ)))
    (W : FVec F S4x32x128 .bf16) (hW : W = Values.ACCv m c 3) :
    ((slot3 sendB (slot (zc c) 3 s)).view.loc (c : Thread nD τ) ↦[(slot3 sendB (slot (zc c) 3 s)).view.set]{fullShare}
        View.write (Elt F) ((Memref.whole cc0_scratch7).access (Rect.unit (s := S32x32x128) ![12, 0, 0] S4x32x128.size inb_S32x32x128_S4x32x128_12_0_0)) f W Finset.univ : sProp 𝕄)
      = pts3 sendB c (slot (zc c) 3 s) (Values.P3v m c (slot (zc c) 3 s)) :=
  restate3_3 c s f W _ (by subst hW; unfold Values.P3v; rw [Proto.qOf_slot]; rfl)

theorem restate3v_4 (m : (ℓ : Loc nD τ sig) → Buf (Elt F) ℓ) (c : Dev nD) (s : ℕ)
    (f : Buf (Elt F) ((sendB : Memref sig .tc .vmem S32x32x128 .bf16).view.loc (c : Thread nD τ)))
    (W : FVec F S4x32x128 .bf16) (hW : W = Values.ACCv m c 4) :
    ((slot3 sendB (slot (zc c) 4 s)).view.loc (c : Thread nD τ) ↦[(slot3 sendB (slot (zc c) 4 s)).view.set]{fullShare}
        View.write (Elt F) ((Memref.whole cc0_scratch7).access (Rect.unit (s := S32x32x128) ![16, 0, 0] S4x32x128.size inb_S32x32x128_S4x32x128_16_0_0)) f W Finset.univ : sProp 𝕄)
      = pts3 sendB c (slot (zc c) 4 s) (Values.P3v m c (slot (zc c) 4 s)) :=
  restate3_4 c s f W _ (by subst hW; unfold Values.P3v; rw [Proto.qOf_slot]; rfl)

theorem restate3v_5 (m : (ℓ : Loc nD τ sig) → Buf (Elt F) ℓ) (c : Dev nD) (s : ℕ)
    (f : Buf (Elt F) ((sendB : Memref sig .tc .vmem S32x32x128 .bf16).view.loc (c : Thread nD τ)))
    (W : FVec F S4x32x128 .bf16) (hW : W = Values.ACCv m c 5) :
    ((slot3 sendB (slot (zc c) 5 s)).view.loc (c : Thread nD τ) ↦[(slot3 sendB (slot (zc c) 5 s)).view.set]{fullShare}
        View.write (Elt F) ((Memref.whole cc0_scratch7).access (Rect.unit (s := S32x32x128) ![20, 0, 0] S4x32x128.size inb_S32x32x128_S4x32x128_20_0_0)) f W Finset.univ : sProp 𝕄)
      = pts3 sendB c (slot (zc c) 5 s) (Values.P3v m c (slot (zc c) 5 s)) :=
  restate3_5 c s f W _ (by subst hW; unfold Values.P3v; rw [Proto.qOf_slot]; rfl)

theorem restate3v_6 (m : (ℓ : Loc nD τ sig) → Buf (Elt F) ℓ) (c : Dev nD) (s : ℕ)
    (f : Buf (Elt F) ((sendB : Memref sig .tc .vmem S32x32x128 .bf16).view.loc (c : Thread nD τ)))
    (W : FVec F S4x32x128 .bf16) (hW : W = Values.ACCv m c 6) :
    ((slot3 sendB (slot (zc c) 6 s)).view.loc (c : Thread nD τ) ↦[(slot3 sendB (slot (zc c) 6 s)).view.set]{fullShare}
        View.write (Elt F) ((Memref.whole cc0_scratch7).access (Rect.unit (s := S32x32x128) ![24, 0, 0] S4x32x128.size inb_S32x32x128_S4x32x128_24_0_0)) f W Finset.univ : sProp 𝕄)
      = pts3 sendB c (slot (zc c) 6 s) (Values.P3v m c (slot (zc c) 6 s)) :=
  restate3_6 c s f W _ (by subst hW; unfold Values.P3v; rw [Proto.qOf_slot]; rfl)

theorem restate3v_7 (m : (ℓ : Loc nD τ sig) → Buf (Elt F) ℓ) (c : Dev nD) (s : ℕ)
    (f : Buf (Elt F) ((sendB : Memref sig .tc .vmem S32x32x128 .bf16).view.loc (c : Thread nD τ)))
    (W : FVec F S4x32x128 .bf16) (hW : W = Values.ACCv m c 7) :
    ((slot3 sendB (slot (zc c) 7 s)).view.loc (c : Thread nD τ) ↦[(slot3 sendB (slot (zc c) 7 s)).view.set]{fullShare}
        View.write (Elt F) ((Memref.whole cc0_scratch7).access (Rect.unit (s := S32x32x128) ![28, 0, 0] S4x32x128.size inb_S32x32x128_S4x32x128_28_0_0)) f W Finset.univ : sProp 𝕄)
      = pts3 sendB c (slot (zc c) 7 s) (Values.P3v m c (slot (zc c) 7 s)) :=
  restate3_7 c s f W _ (by subst hW; unfold Values.P3v; rw [Proto.qOf_slot]; rfl)

end Cert.KernelIdeal.Restate

end
-- ==== Proof.RestateOwn.lean ====
/-
  What a load of a kept stage-one slot reads once the eight kept products are stored. The kept buffer is
  written by eight stores, one per slot, whose rectangles tile it; so what it holds afterwards is, under
  slot q, the product of side one for chunk q, whatever it held before, and a load of slot q reads that
  product with the slot's unit leading axis.
-/
import proofs.«900893_g7700000000000894_dist_matmul_mk_i_outk_m1024_n1024_k512_v7x_i32_f32_1_alg».proof.Proof.BodyStage1
import proofs.«900893_g7700000000000894_dist_matmul_mk_i_outk_m1024_n1024_k512_v7x_i32_f32_1_alg».proof.Proof.Values

noncomputable section

namespace Cert.KernelIdeal.RestateOwn

open Cert.KernelIdeal Cert.KernelIdeal.Gen Cert.KernelIdeal.Proto
open Cert.KernelIdeal.BodyLocal (abPieces bbPieces)
open Cert.KernelIdeal.BodyStage1 (prodSlot abRows bbCols)
open Idealize.ShloMosaic Idealize.SL.Sem

variable {F : FTy → Type} [FloatOps F]

/-- The eight stores into the kept buffer, the last first: slot q holds the product of side one for chunk q. -/
def ownPieces (c : Dev nD) (a0 : cc0_stg0_0.ty.Contents (Elt F)) (a1 : cc0_stg1_0.ty.Contents (Elt F)) :
    List (View.Piece (Elt F) S8x4x4x32x128 .bf16) :=
  [
    ⟨Rect.unit (s := S8x4x4x32x128) ![7, 0, 0, 0, 0] S1x4x4x32x128.size inb_S8x4x4x32x128_S1x4x4x32x128_7_0_0_0_0,
      k0_pay57 (k0_pay56 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 896] S512x128.size inb_S512x1024_S512x128_0_896).toLoadRect))⟩,
    ⟨Rect.unit (s := S8x4x4x32x128) ![6, 0, 0, 0, 0] S1x4x4x32x128.size inb_S8x4x4x32x128_S1x4x4x32x128_6_0_0_0_0,
      k0_pay54 (k0_pay53 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 768] S512x128.size inb_S512x1024_S512x128_0_768).toLoadRect))⟩,
    ⟨Rect.unit (s := S8x4x4x32x128) ![5, 0, 0, 0, 0] S1x4x4x32x128.size inb_S8x4x4x32x128_S1x4x4x32x128_5_0_0_0_0,
      k0_pay51 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 640] S512x128.size inb_S512x1024_S512x128_0_640).toLoadRect)⟩,
    ⟨Rect.unit (s := S8x4x4x32x128) ![4, 0, 0, 0, 0] S1x4x4x32x128.size inb_S8x4x4x32x128_S1x4x4x32x128_4_0_0_0_0,
      k0_pay48 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 512] S512x128.size inb_S512x1024_S512x128_0_512).toLoadRect)⟩,
    ⟨Rect.unit (s := S8x4x4x32x128) ![3, 0, 0, 0, 0] S1x4x4x32x128.size inb_S8x4x4x32x128_S1x4x4x32x128_3_0_0_0_0,
      k0_pay45 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 384] S512x128.size inb_S512x1024_S512x128_0_384).toLoadRect)⟩,
    ⟨Rect.unit (s := S8x4x4x32x128) ![2, 0, 0, 0, 0] S1x4x4x32x128.size inb_S8x4x4x32x128_S1x4x4x32x128_2_0_0_0_0,
      k0_pay43 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 256] S512x128.size inb_S512x1024_S512x128_0_256).toLoadRect)⟩,
    ⟨Rect.unit (s := S8x4x4x32x128) ![1, 0, 0, 0, 0] S1x4x4x32x128.size inb_S8x4x4x32x128_S1x4x4x32x128_1_0_0_0_0,
      k0_pay41 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 128] S512x128.size inb_S512x1024_S512x128_0_128).toLoadRect)⟩,
    ⟨Rect.unit (s := S8x4x4x32x128) ![0, 0, 0, 0, 0] S1x4x4x32x128.size inb_S8x4x4x32x128_S1x4x4x32x128_0_0_0_0_0,
      k0_pay39 ((Memref.whole cc0_scratch0).view.readCov (abPieces c a0) (Rect.unit (s := S1024x512) ![512, 0] S512x512.size inb_S1024x512_S512x512_512_0).toLoadRect) ((Memref.whole cc0_scratch1).view.readCov (bbPieces a1) (Rect.unit (s := S512x1024) ![0, 0] S512x128.size inb_S512x1024_S512x128_0_0).toLoadRect)⟩
  ]

/-- The slot of an index of the kept buffer. -/
def lead (y : S8x4x4x32x128.Idx) : Fin 8 := ⟨(y 0).val, (y 0).isLt⟩

/-- The index inside its slot, the unit leading axis kept. -/
def loc1 (y : S8x4x4x32x128.Idx) : S1x4x4x32x128.Idx
  | ⟨0, _⟩ => (⟨0, by decide⟩ : Fin 1)
  | ⟨1, _⟩ => (⟨(y 1).val, (y 1).isLt⟩ : Fin 4)
  | ⟨2, _⟩ => (⟨(y 2).val, (y 2).isLt⟩ : Fin 4)
  | ⟨3, _⟩ => (⟨(y 3).val, (y 3).isLt⟩ : Fin 32)
  | ⟨4, _⟩ => (⟨(y 4).val, (y 4).isLt⟩ : Fin 128)

/-- What the kept buffer holds after the eight stores. -/
def ownVal (c : Dev nD) (a0 : cc0_stg0_0.ty.Contents (Elt F)) (a1 : cc0_stg1_0.ty.Contents (Elt F)) :
    S8x4x4x32x128.Idx → Elt F .bf16 :=
  fun y => prodSlot (abRows c a0 1) (bbCols a1 (lead y)) (loc1 y)

theorem lead_emb (q : Fin 8) (o : ℕ) (ho : o = q.val)
    (inb : ∀ a, (![o, 0, 0, 0, 0] : Fin 5 → ℕ) a + S1x4x4x32x128.size a ≤ S8x4x4x32x128.size a) (x : S1x4x4x32x128.Idx) :
    lead ((Rect.unit (s := S8x4x4x32x128) ![o, 0, 0, 0, 0] S1x4x4x32x128.size inb).emb x) = q := by
  apply Fin.ext
  have hx : (x 0).val < 1 := (x 0).isLt
  show (((Rect.unit (s := S8x4x4x32x128) ![o, 0, 0, 0, 0] S1x4x4x32x128.size inb).emb x 0 : Fin _) : ℕ) = q.val
  rw [Rect.emb_apply]
  show o + 1 * (x 0).val = q.val
  omega

theorem loc1_emb (o : ℕ)
    (inb : ∀ a, (![o, 0, 0, 0, 0] : Fin 5 → ℕ) a + S1x4x4x32x128.size a ≤ S8x4x4x32x128.size a) (x : S1x4x4x32x128.Idx) :
    loc1 ((Rect.unit (s := S8x4x4x32x128) ![o, 0, 0, 0, 0] S1x4x4x32x128.size inb).emb x) = x := by
  have hx : (x 0).val < 1 := (x 0).isLt
  funext a
  match a with
  | ⟨0, _⟩ =>
    apply Fin.ext
    show 0 = (x 0).val
    omega
  | ⟨1, _⟩ =>
    apply Fin.ext
    show (((Rect.unit (s := S8x4x4x32x128) ![o, 0, 0, 0, 0] S1x4x4x32x128.size inb).emb x 1 : Fin _) : ℕ) = (x 1).val
    rw [Rect.emb_apply]
    show 0 + 1 * (x 1).val = (x 1).val
    omega
  | ⟨2, _⟩ =>
    apply Fin.ext
    show (((Rect.unit (s := S8x4x4x32x128) ![o, 0, 0, 0, 0] S1x4x4x32x128.size inb).emb x 2 : Fin _) : ℕ) = (x 2).val
    rw [Rect.emb_apply]
    show 0 + 1 * (x 2).val = (x 2).val
    omega
  | ⟨3, _⟩ =>
    apply Fin.ext
    show (((Rect.unit (s := S8x4x4x32x128) ![o, 0, 0, 0, 0] S1x4x4x32x128.size inb).emb x 3 : Fin _) : ℕ) = (x 3).val
    rw [Rect.emb_apply]
    show 0 + 1 * (x 3).val = (x 3).val
    omega
  | ⟨4, _⟩ =>
    apply Fin.ext
    show (((Rect.unit (s := S8x4x4x32x128) ![o, 0, 0, 0, 0] S1x4x4x32x128.size inb).emb x 4 : Fin _) : ℕ) = (x 4).val
    rw [Rect.emb_apply]
    show 0 + 1 * (x 4).val = (x 4).val
    omega

/-- A store at slot q of the product of side one for chunk q agrees with `ownVal` on its rectangle. -/
theorem piece_ok (c : Dev nD) (a0 : cc0_stg0_0.ty.Contents (Elt F)) (a1 : cc0_stg1_0.ty.Contents (Elt F)) (q : Fin 8) (o : ℕ)
    (ho : o = q.val) (inb : ∀ a, (![o, 0, 0, 0, 0] : Fin 5 → ℕ) a + S1x4x4x32x128.size a ≤ S8x4x4x32x128.size a)
    (w : FVec F S1x4x4x32x128 .bf16) (hw : w = prodSlot (abRows c a0 1) (bbCols a1 q)) (x : S1x4x4x32x128.Idx) :
    w x = ownVal c a0 a1 ((Rect.unit (s := S8x4x4x32x128) ![o, 0, 0, 0, 0] S1x4x4x32x128.size inb).emb x) := by
  subst hw; unfold ownVal; rw [lead_emb q o ho inb x, loc1_emb o inb x]

theorem ownPieces_spec (c : Dev nD) (a0 : cc0_stg0_0.ty.Contents (Elt F)) (a1 : cc0_stg1_0.ty.Contents (Elt F)) :
    ∀ p ∈ ownPieces c a0 a1, ∀ x : p.1.shape.Idx, p.2 x = ownVal c a0 a1 (p.1.emb x) := by
  unfold ownPieces
  refine List.forall_mem_cons.mpr ⟨fun x => piece_ok c a0 a1 7 7 (by decide) inb_S8x4x4x32x128_S1x4x4x32x128_7_0_0_0_0 _ (BodyStage1.stored1_7 c a0 a1) x, ?_⟩
  refine List.forall_mem_cons.mpr ⟨fun x => piece_ok c a0 a1 6 6 (by decide) inb_S8x4x4x32x128_S1x4x4x32x128_6_0_0_0_0 _ (BodyStage1.stored1_6 c a0 a1) x, ?_⟩
  refine List.forall_mem_cons.mpr ⟨fun x => piece_ok c a0 a1 5 5 (by decide) inb_S8x4x4x32x128_S1x4x4x32x128_5_0_0_0_0 _ (BodyStage1.stored1_5 c a0 a1) x, ?_⟩
  refine List.forall_mem_cons.mpr ⟨fun x => piece_ok c a0 a1 4 4 (by decide) inb_S8x4x4x32x128_S1x4x4x32x128_4_0_0_0_0 _ (BodyStage1.stored1_4 c a0 a1) x, ?_⟩
  refine List.forall_mem_cons.mpr ⟨fun x => piece_ok c a0 a1 3 3 (by decide) inb_S8x4x4x32x128_S1x4x4x32x128_3_0_0_0_0 _ (BodyStage1.stored1_3 c a0 a1) x, ?_⟩
  refine List.forall_mem_cons.mpr ⟨fun x => piece_ok c a0 a1 2 2 (by decide) inb_S8x4x4x32x128_S1x4x4x32x128_2_0_0_0_0 _ (BodyStage1.stored1_2 c a0 a1) x, ?_⟩
  refine List.forall_mem_cons.mpr ⟨fun x => piece_ok c a0 a1 1 1 (by decide) inb_S8x4x4x32x128_S1x4x4x32x128_1_0_0_0_0 _ (BodyStage1.stored1_1 c a0 a1) x, ?_⟩
  refine List.forall_mem_cons.mpr ⟨fun x => piece_ok c a0 a1 0 0 (by decide) inb_S8x4x4x32x128_S1x4x4x32x128_0_0_0_0_0 _ (BodyStage1.stored1_0 c a0 a1) x, ?_⟩
  exact fun _ h => absurd h List.not_mem_nil

theorem ownPieces_cover (c : Dev nD) (a0 : cc0_stg0_0.ty.Contents (Elt F)) (a1 : cc0_stg1_0.ty.Contents (Elt F)) :
    ∀ y : S8x4x4x32x128.Idx, ∃ p ∈ ownPieces c a0 a1, y ∈ p.1.set :=
  View.cover_of_tiledL (ownPieces c a0 a1) S1x4x4x32x128.size (by sl_kernel_rfl)

theorem canon_ownPieces (c : Dev nD) (a0 : cc0_stg0_0.ty.Contents (Elt F)) (a1 : cc0_stg1_0.ty.Contents (Elt F)) :
    View.canon (ownPieces c a0 a1) = ownVal c a0 a1 :=
  funext fun y => View.canon_apply_of_pieces (ownVal c a0 a1) (ownPieces c a0 a1) (ownPieces_spec c a0 a1) y (ownPieces_cover c a0 a1 y)

/-- The stored product, read back through the slot and given its unit axis again, is itself. -/
theorem up5_slotRead (w : FVec F S1x4x4x32x128 .bf16) : Values.up5 (BodyStage1.slotRead w) = w :=
  shapeCast_shapeCast _ _ _

/-- The load of kept slot q after the eight stores. -/
theorem readCov_own (c : Dev nD) (a0 : cc0_stg0_0.ty.Contents (Elt F)) (a1 : cc0_stg1_0.ty.Contents (Elt F)) (q : Fin 8) (o : ℕ)
    (ho : o = q.val) (inb : ∀ a, (![o, 0, 0, 0, 0] : Fin 5 → ℕ) a + S1x4x4x32x128.size a ≤ S8x4x4x32x128.size a) :
    (Memref.whole cc0_scratch4).view.readCov (ownPieces c a0 a1)
        (Rect.unit (s := S8x4x4x32x128) ![o, 0, 0, 0, 0] S1x4x4x32x128.size inb).toLoadRect
      = Values.up5 (BodyStage1.OWNval c a0 a1 q) := by
  rw [View.readCov_eq_canon', canon_ownPieces]
  funext j
  show ownVal c a0 a1 ((Rect.unit (s := S8x4x4x32x128) ![o, 0, 0, 0, 0] S1x4x4x32x128.size inb).emb j) = _
  unfold ownVal
  rw [lead_emb q o ho inb j, loc1_emb o inb j]
  unfold BodyStage1.OWNval
  rw [up5_slotRead]

/-- The load of kept slot 0, after the eight stores, reads that slot's product. -/
theorem readCov_own_0 (c : Dev nD) (a0 : cc0_stg0_0.ty.Contents (Elt F)) (a1 : cc0_stg1_0.ty.Contents (Elt F)) :
    (Memref.whole cc0_scratch4).view.readCov (ownPieces c a0 a1) (Rect.unit (s := S8x4x4x32x128) ![0, 0, 0, 0, 0] S1x4x4x32x128.size inb_S8x4x4x32x128_S1x4x4x32x128_0_0_0_0_0).toLoadRect
      = Values.up5 (BodyStage1.OWNval c a0 a1 0) :=
  readCov_own c a0 a1 0 0 (by decide) inb_S8x4x4x32x128_S1x4x4x32x128_0_0_0_0_0

/-- The load of kept slot 1, after the eight stores, reads that slot's product. -/
theorem readCov_own_1 (c : Dev nD) (a0 : cc0_stg0_0.ty.Contents (Elt F)) (a1 : cc0_stg1_0.ty.Contents (Elt F)) :
    (Memref.whole cc0_scratch4).view.readCov (ownPieces c a0 a1) (Rect.unit (s := S8x4x4x32x128) ![1, 0, 0, 0, 0] S1x4x4x32x128.size inb_S8x4x4x32x128_S1x4x4x32x128_1_0_0_0_0).toLoadRect
      = Values.up5 (BodyStage1.OWNval c a0 a1 1) :=
  readCov_own c a0 a1 1 1 (by decide) inb_S8x4x4x32x128_S1x4x4x32x128_1_0_0_0_0

/-- The load of kept slot 2, after the eight stores, reads that slot's product. -/
theorem readCov_own_2 (c : Dev nD) (a0 : cc0_stg0_0.ty.Contents (Elt F)) (a1 : cc0_stg1_0.ty.Contents (Elt F)) :
    (Memref.whole cc0_scratch4).view.readCov (ownPieces c a0 a1) (Rect.unit (s := S8x4x4x32x128) ![2, 0, 0, 0, 0] S1x4x4x32x128.size inb_S8x4x4x32x128_S1x4x4x32x128_2_0_0_0_0).toLoadRect
      = Values.up5 (BodyStage1.OWNval c a0 a1 2) :=
  readCov_own c a0 a1 2 2 (by decide) inb_S8x4x4x32x128_S1x4x4x32x128_2_0_0_0_0

/-- The load of kept slot 3, after the eight stores, reads that slot's product. -/
theorem readCov_own_3 (c : Dev nD) (a0 : cc0_stg0_0.ty.Contents (Elt F)) (a1 : cc0_stg1_0.ty.Contents (Elt F)) :
    (Memref.whole cc0_scratch4).view.readCov (ownPieces c a0 a1) (Rect.unit (s := S8x4x4x32x128) ![3, 0, 0, 0, 0] S1x4x4x32x128.size inb_S8x4x4x32x128_S1x4x4x32x128_3_0_0_0_0).toLoadRect
      = Values.up5 (BodyStage1.OWNval c a0 a1 3) :=
  readCov_own c a0 a1 3 3 (by decide) inb_S8x4x4x32x128_S1x4x4x32x128_3_0_0_0_0

/-- The load of kept slot 4, after the eight stores, reads that slot's product. -/
theorem readCov_own_4 (c : Dev nD) (a0 : cc0_stg0_0.ty.Contents (Elt F)) (a1 : cc0_stg1_0.ty.Contents (Elt F)) :
    (Memref.whole cc0_scratch4).view.readCov (ownPieces c a0 a1) (Rect.unit (s := S8x4x4x32x128) ![4, 0, 0, 0, 0] S1x4x4x32x128.size inb_S8x4x4x32x128_S1x4x4x32x128_4_0_0_0_0).toLoadRect
      = Values.up5 (BodyStage1.OWNval c a0 a1 4) :=
  readCov_own c a0 a1 4 4 (by decide) inb_S8x4x4x32x128_S1x4x4x32x128_4_0_0_0_0

/-- The load of kept slot 5, after the eight stores, reads that slot's product. -/
theorem readCov_own_5 (c : Dev nD) (a0 : cc0_stg0_0.ty.Contents (Elt F)) (a1 : cc0_stg1_0.ty.Contents (Elt F)) :
    (Memref.whole cc0_scratch4).view.readCov (ownPieces c a0 a1) (Rect.unit (s := S8x4x4x32x128) ![5, 0, 0, 0, 0] S1x4x4x32x128.size inb_S8x4x4x32x128_S1x4x4x32x128_5_0_0_0_0).toLoadRect
      = Values.up5 (BodyStage1.OWNval c a0 a1 5) :=
  readCov_own c a0 a1 5 5 (by decide) inb_S8x4x4x32x128_S1x4x4x32x128_5_0_0_0_0

/-- The load of kept slot 6, after the eight stores, reads that slot's product. -/
theorem readCov_own_6 (c : Dev nD) (a0 : cc0_stg0_0.ty.Contents (Elt F)) (a1 : cc0_stg1_0.ty.Contents (Elt F)) :
    (Memref.whole cc0_scratch4).view.readCov (ownPieces c a0 a1) (Rect.unit (s := S8x4x4x32x128) ![6, 0, 0, 0, 0] S1x4x4x32x128.size inb_S8x4x4x32x128_S1x4x4x32x128_6_0_0_0_0).toLoadRect
      = Values.up5 (BodyStage1.OWNval c a0 a1 6) :=
  readCov_own c a0 a1 6 6 (by decide) inb_S8x4x4x32x128_S1x4x4x32x128_6_0_0_0_0

/-- The load of kept slot 7, after the eight stores, reads that slot's product. -/
theorem readCov_own_7 (c : Dev nD) (a0 : cc0_stg0_0.ty.Contents (Elt F)) (a1 : cc0_stg1_0.ty.Contents (Elt F)) :
    (Memref.whole cc0_scratch4).view.readCov (ownPieces c a0 a1) (Rect.unit (s := S8x4x4x32x128) ![7, 0, 0, 0, 0] S1x4x4x32x128.size inb_S8x4x4x32x128_S1x4x4x32x128_7_0_0_0_0).toLoadRect
      = Values.up5 (BodyStage1.OWNval c a0 a1 7) :=
  readCov_own c a0 a1 7 7 (by decide) inb_S8x4x4x32x128_S1x4x4x32x128_7_0_0_0_0

end Cert.KernelIdeal.RestateOwn

end
-- ==== Proof.ReadGeom.lean ====
/-
  What a load reads of a slot held at the schedule's canonical contents, and what a slot reads of a chunk
  written at once: the slot's own value, respectively the row of the chunk's value.
-/
import proofs.«900893_g7700000000000894_dist_matmul_mk_i_outk_m1024_n1024_k512_v7x_i32_f32_1_alg».proof.Proof.Values
import proofs.«900893_g7700000000000894_dist_matmul_mk_i_outk_m1024_n1024_k512_v7x_i32_f32_1_alg».proof.Proof.Proto
import proofs.«900893_g7700000000000894_dist_matmul_mk_i_outk_m1024_n1024_k512_v7x_i32_f32_1_alg».proof.Proof.SlotIdx

noncomputable section

namespace Cert.KernelIdeal.ReadGeom

open Cert.KernelIdeal Cert.KernelIdeal.Gen Cert.KernelIdeal.Proto
open Cert.Mesh (partner rail zpeer zc pc yc xc pOf dev slot)
open Idealize.ShloMosaic Idealize.ShloMosaic.TcCoe Idealize.SL.Sem Idealize.ShloMosaic.ValueIdx

variable {F : FTy → Type} [FloatOps F]

/-! ## A load of a slot held at its canonical contents -/

/-- A stage-one slot of the landing buffer, loaded with its unit leading axis, reads its value with that axis added. -/
theorem read_slot1_commA1 (q : Fin 8) (off : Fin 5 → ℕ) (hoff : off = ![q.val, 0, 0, 0, 0])
    (inb : ∀ a, off a + S1x4x4x32x128.size a ≤ S8x4x4x32x128.size a) (X : Proto.C1 F) :
    View.readAt (Elt F) (commA1 : Memref sig .tc .vmem S8x4x4x32x128 .bf16).view
        (Rect.unit (s := S8x4x4x32x128) off S1x4x4x32x128.size inb).toLoadRect
        (slotBuf (slot1 commA1 q).view h_S4x4x32x128 X)
      = Values.up5 X := by
  subst hoff
  funext x
  let y : S4x4x32x128.Idx := Shape.reshapeEquiv shapeCasts_S4x4x32x128_S1x4x4x32x128 x
  have hx : (slot1 commA1 q).view.emb y
      = (Rect.unit (s := S8x4x4x32x128) ![q.val, 0, 0, 0, 0] S1x4x4x32x128.size inb).toLoadRect.idx x := by
    show (Rect.unit (s := S8x4x4x32x128) ![q.val, 0, 0, 0, 0] S1x4x4x32x128.size (inbA1 q)).emb
      (Shape.reshapeEquiv _ (Shape.reshapeEquiv _ x)) = _
    rw [Shape.reshapeEquiv_reshapeEquiv, Shape.reshapeEquiv_self]
    rfl
  show slotBuf (slot1 commA1 q).view h_S4x4x32x128 X
      ((Rect.unit (s := S8x4x4x32x128) ![q.val, 0, 0, 0, 0] S1x4x4x32x128.size inb).toLoadRect.idx x) = X y
  rw [← hx]
  unfold slotBuf
  rw [View.write_emb_of_mem _ _ (Finset.mem_univ y)]
  simp

/-- A stage-two slot of the landing buffer, loaded, reads its value. -/
theorem read_slot2_commA2 (i : Fin 32) (off : Fin 4 → ℕ) (hoff : off = ![i.val, 0, 0, 0])
    (inb : ∀ a, off a + S1x4x32x128.size a ≤ S32x4x32x128.size a) (X : Proto.C2 F) :
    View.readAt (Elt F) (commA2 : Memref sig .tc .vmem S32x4x32x128 .bf16).view
        (Rect.unit (s := S32x4x32x128) off S1x4x32x128.size inb).toLoadRect
        (slotBuf (slot2 commA2 i).view h_S1x4x32x128 X)
      = X := by
  subst hoff
  funext x
  have hx : (slot2 commA2 i).view.emb x
      = (Rect.unit (s := S32x4x32x128) ![i.val, 0, 0, 0] S1x4x32x128.size inb).toLoadRect.idx x := rfl
  show slotBuf (slot2 commA2 i).view h_S1x4x32x128 X
      ((Rect.unit (s := S32x4x32x128) ![i.val, 0, 0, 0] S1x4x32x128.size inb).toLoadRect.idx x) = X x
  rw [← hx]
  unfold slotBuf
  rw [View.write_emb_of_mem _ _ (Finset.mem_univ x)]
  simp

/-- A stage-three slot of the landing buffer, loaded, reads its value. -/
theorem read_slot3_commB (i : Fin 32) (off : Fin 3 → ℕ) (hoff : off = ![i.val, 0, 0])
    (inb : ∀ a, off a + S1x32x128.size a ≤ S32x32x128.size a) (X : Proto.C3 F) :
    View.readAt (Elt F) (commB : Memref sig .tc .vmem S32x32x128 .bf16).view
        (Rect.unit (s := S32x32x128) off S1x32x128.size inb).toLoadRect
        (slotBuf (slot3 commB i).view h_S1x32x128 X)
      = X := by
  subst hoff
  funext x
  have hx : (slot3 commB i).view.emb x
      = (Rect.unit (s := S32x32x128) ![i.val, 0, 0] S1x32x128.size inb).toLoadRect.idx x := rfl
  show slotBuf (slot3 commB i).view h_S1x32x128 X
      ((Rect.unit (s := S32x32x128) ![i.val, 0, 0] S1x32x128.size inb).toLoadRect.idx x) = X x
  rw [← hx]
  unfold slotBuf
  rw [View.write_emb_of_mem _ _ (Finset.mem_univ x)]
  simp

/-! ## A slot read out of a chunk written at once -/

/-- A slot read out of a chunk written at once is the row of the chunk's value: slot 4·q + (v + s) % 4 is row (v + s) % 4. -/
theorem read_chunk2 (q : Fin 8) (v s : ℕ) (off : Fin 4 → ℕ) (hoff : off = ![4 * q.val, 0, 0, 0])
    (inb : ∀ a, off a + S4x4x32x128.size a ≤ S32x4x32x128.size a)
    (f : (sendA2 : Memref sig .tc .vmem S32x4x32x128 .bf16).view.ty.Contents (Elt F)) (V : FVec F S4x4x32x128 .bf16) :
    (slot2 sendA2 (slot v q s)).view.read (Elt F)
        (View.write (Elt F) ((sendA2 : Memref sig .tc .vmem S32x4x32x128 .bf16).access (Rect.unit (s := S32x4x32x128) off S4x4x32x128.size inb)) f V Finset.univ)
      = Values.row2 V (⟨(v + s) % 4, Nat.mod_lt _ (by decide)⟩ : Fin 4) := by
  subst hoff
  funext x
  let Y : Fin 4 := ⟨(v + s) % 4, Nat.mod_lt _ (by decide)⟩
  let z : S4x4x32x128.Idx := ix4 Y (⟨(x 1).val, (x 1).isLt⟩ : Fin 4) (⟨(x 2).val, (x 2).isLt⟩ : Fin 32) (⟨(x 3).val, (x 3).isLt⟩ : Fin 128)
  have hz : (slot2 sendA2 (slot v q s)).view.emb x
      = ((sendA2 : Memref sig .tc .vmem S32x4x32x128 .bf16).access (Rect.unit (s := S32x4x32x128) ![4 * q.val, 0, 0, 0] S4x4x32x128.size inb)).emb z :=
    funext fun a => Fin.ext (by
      match a with
      | ⟨0, _⟩ =>
        show (slot v q s).val + 1 * (x 0).val = 4 * q.val + 1 * ((v + s) % 4)
        have h0 : (x 0).val < 1 := (x 0).isLt
        rw [Cert.Mesh.slot_val]; omega
      | ⟨1, _⟩ => rfl
      | ⟨2, _⟩ => rfl
      | ⟨3, _⟩ => rfl)
  show View.read (Elt F) (slot2 sendA2 (slot v q s)).view _ x = V z
  rw [View.read_apply, hz, View.write_emb_of_mem _ _ (Finset.mem_univ z)]
  simp

/-- A slot read out of a chunk written at once is the row of the chunk's value: slot 4·q + (v + s) % 4 is row (v + s) % 4. -/
theorem read_chunk3 (q : Fin 8) (v s : ℕ) (off : Fin 3 → ℕ) (hoff : off = ![4 * q.val, 0, 0])
    (inb : ∀ a, off a + S4x32x128.size a ≤ S32x32x128.size a)
    (f : (sendB : Memref sig .tc .vmem S32x32x128 .bf16).view.ty.Contents (Elt F)) (V : FVec F S4x32x128 .bf16) :
    (slot3 sendB (slot v q s)).view.read (Elt F)
        (View.write (Elt F) ((sendB : Memref sig .tc .vmem S32x32x128 .bf16).access (Rect.unit (s := S32x32x128) off S4x32x128.size inb)) f V Finset.univ)
      = Values.row3 V (⟨(v + s) % 4, Nat.mod_lt _ (by decide)⟩ : Fin 4) := by
  subst hoff
  funext x
  let Y : Fin 4 := ⟨(v + s) % 4, Nat.mod_lt _ (by decide)⟩
  let z : S4x32x128.Idx := ix3 Y (⟨(x 1).val, (x 1).isLt⟩ : Fin 32) (⟨(x 2).val, (x 2).isLt⟩ : Fin 128)
  have hz : (slot3 sendB (slot v q s)).view.emb x
      = ((sendB : Memref sig .tc .vmem S32x32x128 .bf16).access (Rect.unit (s := S32x32x128) ![4 * q.val, 0, 0] S4x32x128.size inb)).emb z :=
    funext fun a => Fin.ext (by
      match a with
      | ⟨0, _⟩ =>
        show (slot v q s).val + 1 * (x 0).val = 4 * q.val + 1 * ((v + s) % 4)
        have h0 : (x 0).val < 1 := (x 0).isLt
        rw [Cert.Mesh.slot_val]; omega
      | ⟨1, _⟩ => rfl
      | ⟨2, _⟩ => rfl)
  show View.read (Elt F) (slot3 sendB (slot v q s)).view _ x = V z
  rw [View.read_apply, hz, View.write_emb_of_mem _ _ (Finset.mem_univ z)]
  simp

end Cert.KernelIdeal.ReadGeom

end
-- ==== Proof.PayFamilies.lean ====
/-
  The reduction payloads as three functions. The printed body spells the pair sum, the column sum and the
  plane sum once per column chunk, some of them cut over several payloads; composed, every chunk's is the
  same function of the blocks it reads.
-/
import proofs.«900893_g7700000000000894_dist_matmul_mk_i_outk_m1024_n1024_k512_v7x_i32_f32_1_alg».proof.Proof.Values
import proofs.«900893_g7700000000000894_dist_matmul_mk_i_outk_m1024_n1024_k512_v7x_i32_f32_1_alg».proof.Proof.Gen.KernelIdeal.Skeleton

noncomputable section

namespace Cert.KernelIdeal.PayFamilies

open Cert.KernelIdeal Cert.KernelIdeal.Gen Cert.KernelIdeal.Proto Cert.KernelIdeal.Values
open Idealize.ShloMosaic Idealize.SL.Sem

variable {F : FTy → Type} [FloatOps F]

/-! ## Stage one: the pair sum of each of the eight chunks -/

theorem pay58_eq (v764 : Vec F S1x4x4x32x128 .bf16) (v767 : Vec F S1x4x4x32x128 .bf16) :
    k0_pay58 (F := F) v764 v767 = pairF v764 v767 := rfl

theorem pay59_eq (v870 : Vec F S1x4x4x32x128 .bf16) (v873 : Vec F S1x4x4x32x128 .bf16) :
    k0_pay59 (F := F) v870 v873 = pairF v870 v873 := rfl

theorem pay60_eq (v976 : Vec F S1x4x4x32x128 .bf16) (v979 : Vec F S1x4x4x32x128 .bf16) :
    k0_pay60 (F := F) v976 v979 = pairF v976 v979 := rfl

theorem pay62_chain_eq (v1082 : Vec F S1x4x4x32x128 .bf16) (v1085 : Vec F S1x4x4x32x128 .bf16) :
    k0_pay62 (F := F) (k0_pay61 (F := F) v1082) v1085 = pairF v1082 v1085 := rfl

theorem pay63_eq (v1188 : Vec F S1x4x4x32x128 .bf16) (v1191 : Vec F S1x4x4x32x128 .bf16) :
    k0_pay63 (F := F) v1188 v1191 = pairF v1188 v1191 := rfl

theorem pay65_chain_eq (v1294 : Vec F S1x4x4x32x128 .bf16) (v1297 : Vec F S1x4x4x32x128 .bf16) :
    k0_pay65 (F := F) (k0_pay64 (F := F) v1294 v1297) = pairF v1294 v1297 := rfl

theorem pay66_eq (v1400 : Vec F S1x4x4x32x128 .bf16) (v1403 : Vec F S1x4x4x32x128 .bf16) :
    k0_pay66 (F := F) v1400 v1403 = pairF v1400 v1403 := rfl

theorem pay67_eq (v1506 : Vec F S1x4x4x32x128 .bf16) (v1509 : Vec F S1x4x4x32x128 .bf16) :
    k0_pay67 (F := F) v1506 v1509 = pairF v1506 v1509 := rfl

/-! ## Stage two: the column sum of each of the eight chunks -/

theorem pay71_chain_eq (v1606 : Vec F S1x4x32x128 .bf16) (v1628 : Vec F S1x4x32x128 .bf16) (v1651 : Vec F S1x4x32x128 .bf16) (v1674 : Vec F S1x4x32x128 .bf16) :
    k0_pay71 (F := F) (k0_pay70 (F := F) (k0_pay69 (F := F) (k0_pay68 (F := F) v1606) v1628) v1651 v1674) = accF v1606 v1628 v1651 v1674 := rfl

theorem pay74_chain_eq (v1759 : Vec F S1x4x32x128 .bf16) (v1781 : Vec F S1x4x32x128 .bf16) (v1804 : Vec F S1x4x32x128 .bf16) (v1827 : Vec F S1x4x32x128 .bf16) :
    k0_pay74 (F := F) (k0_pay73 (F := F) (k0_pay72 (F := F) v1759) v1781 v1804) v1827 = accF v1759 v1781 v1804 v1827 := rfl

theorem pay77_chain_eq (v1912 : Vec F S1x4x32x128 .bf16) (v1934 : Vec F S1x4x32x128 .bf16) (v1957 : Vec F S1x4x32x128 .bf16) (v1980 : Vec F S1x4x32x128 .bf16) :
    k0_pay77 (F := F) (k0_pay76 (F := F) (k0_pay75 (F := F) v1912 v1934) v1957) v1980 = accF v1912 v1934 v1957 v1980 := rfl

theorem pay82_chain_eq (v2065 : Vec F S1x4x32x128 .bf16) (v2087 : Vec F S1x4x32x128 .bf16) (v2110 : Vec F S1x4x32x128 .bf16) (v2133 : Vec F S1x4x32x128 .bf16) :
    k0_pay82 (F := F) (k0_pay80 (F := F) (k0_pay79 (F := F) (k0_pay78 (F := F) v2065) v2087) v2110) (k0_pay81 (F := F) v2133) = accF v2065 v2087 v2110 v2133 := rfl

theorem pay85_chain_eq (v2218 : Vec F S1x4x32x128 .bf16) (v2240 : Vec F S1x4x32x128 .bf16) (v2263 : Vec F S1x4x32x128 .bf16) (v2286 : Vec F S1x4x32x128 .bf16) :
    k0_pay85 (F := F) (k0_pay84 (F := F) (k0_pay83 (F := F) v2218) v2240 v2263) v2286 = accF v2218 v2240 v2263 v2286 := rfl

theorem pay88_chain_eq (v2371 : Vec F S1x4x32x128 .bf16) (v2393 : Vec F S1x4x32x128 .bf16) (v2416 : Vec F S1x4x32x128 .bf16) (v2439 : Vec F S1x4x32x128 .bf16) :
    k0_pay88 (F := F) (k0_pay87 (F := F) (k0_pay86 (F := F) v2371 v2393) v2416) v2439 = accF v2371 v2393 v2416 v2439 := rfl

theorem pay92_chain_eq (v2524 : Vec F S1x4x32x128 .bf16) (v2546 : Vec F S1x4x32x128 .bf16) (v2569 : Vec F S1x4x32x128 .bf16) (v2592 : Vec F S1x4x32x128 .bf16) :
    k0_pay92 (F := F) (k0_pay91 (F := F) (k0_pay90 (F := F) (k0_pay89 (F := F) v2524) v2546) v2569) v2592 = accF v2524 v2546 v2569 v2592 := rfl

theorem pay96_chain_eq (v2677 : Vec F S1x4x32x128 .bf16) (v2699 : Vec F S1x4x32x128 .bf16) (v2722 : Vec F S1x4x32x128 .bf16) (v2745 : Vec F S1x4x32x128 .bf16) :
    k0_pay96 (F := F) (k0_pay94 (F := F) (k0_pay93 (F := F) v2677) v2699) (k0_pay95 (F := F) v2722) v2745 = accF v2677 v2699 v2722 v2745 := rfl

/-! ## Stage three: the plane sum of each of the eight chunks -/

theorem pay99_chain_eq (v2830 : Vec F S1x32x128 .bf16) (v2852 : Vec F S1x32x128 .bf16) (v2875 : Vec F S1x32x128 .bf16) (v2898 : Vec F S1x32x128 .bf16) :
    k0_pay99 (F := F) (k0_pay98 (F := F) (k0_pay97 (F := F) v2830 v2852) v2875) v2898 = faccF v2830 v2852 v2875 v2898 := rfl

theorem pay102_chain_eq (v2905 : Vec F S1x32x128 .bf16) (v2927 : Vec F S1x32x128 .bf16) (v2950 : Vec F S1x32x128 .bf16) (v2973 : Vec F S1x32x128 .bf16) :
    k0_pay102 (F := F) (k0_pay101 (F := F) (k0_pay100 (F := F) v2905) v2927 v2950) v2973 = faccF v2905 v2927 v2950 v2973 := rfl

theorem pay105_chain_eq (v2980 : Vec F S1x32x128 .bf16) (v3002 : Vec F S1x32x128 .bf16) (v3025 : Vec F S1x32x128 .bf16) (v3048 : Vec F S1x32x128 .bf16) :
    k0_pay105 (F := F) (k0_pay104 (F := F) (k0_pay103 (F := F) v2980) v3002) v3025 v3048 = faccF v2980 v3002 v3025 v3048 := rfl

theorem pay110_chain_eq (v3055 : Vec F S1x32x128 .bf16) (v3077 : Vec F S1x32x128 .bf16) (v3100 : Vec F S1x32x128 .bf16) (v3123 : Vec F S1x32x128 .bf16) :
    k0_pay110 (F := F) (k0_pay108 (F := F) (k0_pay107 (F := F) (k0_pay106 (F := F) v3055) v3077) v3100) (k0_pay109 (F := F) v3123) = faccF v3055 v3077 v3100 v3123 := rfl

theorem pay113_chain_eq (v3130 : Vec F S1x32x128 .bf16) (v3152 : Vec F S1x32x128 .bf16) (v3175 : Vec F S1x32x128 .bf16) (v3198 : Vec F S1x32x128 .bf16) :
    k0_pay113 (F := F) (k0_pay112 (F := F) (k0_pay111 (F := F) v3130 v3152) v3175) v3198 = faccF v3130 v3152 v3175 v3198 := rfl

theorem pay116_chain_eq (v3205 : Vec F S1x32x128 .bf16) (v3227 : Vec F S1x32x128 .bf16) (v3250 : Vec F S1x32x128 .bf16) (v3273 : Vec F S1x32x128 .bf16) :
    k0_pay116 (F := F) (k0_pay115 (F := F) (k0_pay114 (F := F) v3205) v3227 v3250) v3273 = faccF v3205 v3227 v3250 v3273 := rfl

theorem pay119_chain_eq (v3280 : Vec F S1x32x128 .bf16) (v3302 : Vec F S1x32x128 .bf16) (v3325 : Vec F S1x32x128 .bf16) (v3348 : Vec F S1x32x128 .bf16) :
    k0_pay119 (F := F) (k0_pay118 (F := F) (k0_pay117 (F := F) v3280) v3302) v3325 v3348 = faccF v3280 v3302 v3325 v3348 := rfl

theorem pay124_chain_eq (v3355 : Vec F S1x32x128 .bf16) (v3377 : Vec F S1x32x128 .bf16) (v3400 : Vec F S1x32x128 .bf16) (v3423 : Vec F S1x32x128 .bf16) :
    k0_pay124 (F := F) (k0_pay122 (F := F) (k0_pay121 (F := F) (k0_pay120 (F := F) v3355) v3377) v3400) (k0_pay123 (F := F) v3423) = faccF v3355 v3377 v3400 v3423 := rfl

end Cert.KernelIdeal.PayFamilies

end
-- ==== Proof.ValuesSlots.lean ====
/-
  The send slots by chunk and advance: slot 4·q + (v + s) % 4 of a device's stage-two send buffer is row
  (v + s) % 4 of its pair sum of chunk q, and likewise for stage three.
-/
import proofs.«900893_g7700000000000894_dist_matmul_mk_i_outk_m1024_n1024_k512_v7x_i32_f32_1_alg».proof.Proof.Values
import proofs.«900893_g7700000000000894_dist_matmul_mk_i_outk_m1024_n1024_k512_v7x_i32_f32_1_alg».proof.Proof.Proto

noncomputable section

namespace Cert.KernelIdeal.Values

open Cert.KernelIdeal Cert.KernelIdeal.Gen Cert.KernelIdeal.Proto
open Cert.Mesh (partner rail zpeer zc pc yc xc pOf dev slot)
open Idealize.ShloMosaic Idealize.ShloMosaic.TcCoe Idealize.SL.Sem

variable {F : FTy → Type} [FloatOps F] (m : (ℓ : Loc nD τ sig) → Buf (Elt F) ℓ)

theorem P2v_slot (d : Dev nD) (v : ℕ) (q : Fin 8) (s : ℕ) :
    P2v m d (slot v q s) = row2 (PAIRv m d q) (⟨(v + s) % 4, Nat.mod_lt _ (by decide)⟩ : Fin 4) := by
  unfold P2v
  rw [Proto.qOf_slot]
  congr 1
  exact Fin.ext (Proto.slot_mod v q s)

theorem P3v_slot (d : Dev nD) (v : ℕ) (q : Fin 8) (s : ℕ) :
    P3v m d (slot v q s) = row3 (ACCv m d q) (⟨(v + s) % 4, Nat.mod_lt _ (by decide)⟩ : Fin 4) := by
  unfold P3v
  rw [Proto.qOf_slot]
  congr 1
  exact Fin.ext (Proto.slot_mod v q s)

end Cert.KernelIdeal.Values

end
-- ==== Proof.OutValue.lean ====
/-
  The result's staging buffer after the eight stores of the last stage: the 32 × 1024 block is written in eight
  32 × 128 column chunks, chunk q at columns 128 q; whatever the buffer held before, it then holds, at row i and
  column j, chunk j / 128 at (i, j % 128).
-/
import proofs.«900893_g7700000000000894_dist_matmul_mk_i_outk_m1024_n1024_k512_v7x_i32_f32_1_alg».proof.Proof.Gen.KernelIdeal.Skeleton
import Idealize.ShloMosaic.Lib.Pipeline.Value
import Idealize.ShloMosaic.Lib.Pipeline.FrameBody
import Idealize.ShloMosaic.Lib.Ring
import Idealize.ShloMosaic.Lib.ValueIdx
import Idealize.ShloMosaic.Lib.Tactic

noncomputable section

namespace Cert.KernelIdeal.OutValue

open Idealize.ShloMosaic Idealize.SL.Sem Idealize.ShloMosaic.ValueIdx
open Cert.KernelIdeal.Gen

variable {F : FTy → Type} [FloatOps F]

/-- The eight stores into the result's staging buffer, the last first: chunk q at columns 128 q. -/
def outPieces (V : Fin 8 → FVec F S32x128 .f32) : List (View.Piece (Elt F) S32x1024 .f32) :=
  [
    ⟨Rect.unit (s := S32x1024) ![0, 896] S32x128.size inb_S32x1024_S32x128_0_896, V 7⟩,
    ⟨Rect.unit (s := S32x1024) ![0, 768] S32x128.size inb_S32x1024_S32x128_0_768, V 6⟩,
    ⟨Rect.unit (s := S32x1024) ![0, 640] S32x128.size inb_S32x1024_S32x128_0_640, V 5⟩,
    ⟨Rect.unit (s := S32x1024) ![0, 512] S32x128.size inb_S32x1024_S32x128_0_512, V 4⟩,
    ⟨Rect.unit (s := S32x1024) ![0, 384] S32x128.size inb_S32x1024_S32x128_0_384, V 3⟩,
    ⟨Rect.unit (s := S32x1024) ![0, 256] S32x128.size inb_S32x1024_S32x128_0_256, V 2⟩,
    ⟨Rect.unit (s := S32x1024) ![0, 128] S32x128.size inb_S32x1024_S32x128_0_128, V 1⟩,
    ⟨Rect.unit (s := S32x1024) ![0, 0] S32x128.size inb_S32x1024_S32x128_0_0, V 0⟩
  ]

/-- What the buffer holds after them: at row i, column j, chunk j / 128 at (i, j % 128). -/
def outVal (V : Fin 8 → FVec F S32x128 .f32) : S32x1024.Idx → Elt F .f32 :=
  fun j => V ⟨(j 1).val / 128, by have h : (j 1).val < 1024 := (j 1).isLt; omega⟩
    (ix2 (⟨(j 0).val, (j 0).isLt⟩ : Fin 32) (⟨(j 1).val % 128, Nat.mod_lt _ (by decide)⟩ : Fin 128))

/-- A store of chunk q at columns 128 q agrees with `outVal` on its rectangle. -/
theorem piece_ok (V : Fin 8 → FVec F S32x128 .f32) (q : Fin 8) (o : ℕ) (ho : o = 128 * q.val)
    (inb : ∀ a, (![0, o] : Fin 2 → ℕ) a + S32x128.size a ≤ S32x1024.size a) (x : S32x128.Idx) :
    V q x = outVal V ((Rect.unit (s := S32x1024) ![0, o] S32x128.size inb).emb x) := by
  have hx0 : (x 0).val < 32 := (x 0).isLt
  have hx1 : (x 1).val < 128 := (x 1).isLt
  have e0 : (((Rect.unit (s := S32x1024) ![0, o] S32x128.size inb).emb x 0 : Fin _) : ℕ) = (x 0).val := by
    rw [Rect.emb_apply]
    show (0 + 1 * (x 0).val) = (x 0).val
    omega
  have e1 : (((Rect.unit (s := S32x1024) ![0, o] S32x128.size inb).emb x 1 : Fin _) : ℕ) = o + (x 1).val := by
    rw [Rect.emb_apply]
    show (o + 1 * (x 1).val) = o + (x 1).val
    omega
  unfold outVal
  have hq : (⟨(((Rect.unit (s := S32x1024) ![0, o] S32x128.size inb).emb x 1 : Fin _) : ℕ) / 128, by
      have h : (((Rect.unit (s := S32x1024) ![0, o] S32x128.size inb).emb x 1 : Fin _) : ℕ) < 1024 := ((Rect.unit (s := S32x1024) ![0, o] S32x128.size inb).emb x 1).isLt
      omega⟩ : Fin 8) = q := Fin.ext (by simp only [e1]; omega)
  rw [hq]
  refine congrArg (V q) ?_
  funext a
  match a with
  | ⟨0, _⟩ => exact Fin.ext e0.symm
  | ⟨1, _⟩ => exact Fin.ext (by show (x 1).val = _ % 128; rw [e1]; omega)

/-- Every store's payload is `outVal` on the store's rectangle. -/
theorem outPieces_spec (V : Fin 8 → FVec F S32x128 .f32) :
    ∀ p ∈ outPieces V, ∀ x : p.1.shape.Idx, p.2 x = outVal V (p.1.emb x) := by
  unfold outPieces
  refine List.forall_mem_cons.mpr ⟨fun x => piece_ok V 7 896 (by decide) inb_S32x1024_S32x128_0_896 x, ?_⟩
  refine List.forall_mem_cons.mpr ⟨fun x => piece_ok V 6 768 (by decide) inb_S32x1024_S32x128_0_768 x, ?_⟩
  refine List.forall_mem_cons.mpr ⟨fun x => piece_ok V 5 640 (by decide) inb_S32x1024_S32x128_0_640 x, ?_⟩
  refine List.forall_mem_cons.mpr ⟨fun x => piece_ok V 4 512 (by decide) inb_S32x1024_S32x128_0_512 x, ?_⟩
  refine List.forall_mem_cons.mpr ⟨fun x => piece_ok V 3 384 (by decide) inb_S32x1024_S32x128_0_384 x, ?_⟩
  refine List.forall_mem_cons.mpr ⟨fun x => piece_ok V 2 256 (by decide) inb_S32x1024_S32x128_0_256 x, ?_⟩
  refine List.forall_mem_cons.mpr ⟨fun x => piece_ok V 1 128 (by decide) inb_S32x1024_S32x128_0_128 x, ?_⟩
  refine List.forall_mem_cons.mpr ⟨fun x => piece_ok V 0 0 (by decide) inb_S32x1024_S32x128_0_0 x, ?_⟩
  exact fun _ h => absurd h List.not_mem_nil

/-- The eight rectangles tile the buffer. -/
theorem outPieces_cover (V : Fin 8 → FVec F S32x128 .f32) : ∀ y : S32x1024.Idx, ∃ p ∈ outPieces V, y ∈ p.1.set :=
  View.cover_of_tiledL (outPieces V) S32x128.size (by sl_kernel_rfl)

theorem canon_outPieces (V : Fin 8 → FVec F S32x128 .f32) : View.canon (outPieces V) = outVal V :=
  funext fun y => View.canon_apply_of_pieces (outVal V) (outPieces V) (outPieces_spec V) y (outPieces_cover V y)

/-- The stores leave `outVal`, read through the buffer, whatever it held before; -/
theorem read_writes_outPieces (V : Fin 8 → FVec F S32x128 .f32) (o0 : (Memref.whole cc0_stg2_0).view.ty.Contents (Elt F)) :
    (Memref.whole cc0_stg2_0).view.read (Elt F) ((Memref.whole cc0_stg2_0).view.writes (Elt F) o0 (outPieces V)) = outVal V :=
  (View.read_writes_eq_canon _ o0 _ (outPieces_cover V)).trans (canon_outPieces V)

/-- and, the buffer's view being all of it, the buffer's contents themselves are `outVal`. -/
theorem writes_outPieces (V : Fin 8 → FVec F S32x128 .f32) (o0 : (Memref.whole cc0_stg2_0).view.ty.Contents (Elt F)) :
    (Memref.whole cc0_stg2_0).view.writes (Elt F) o0 (outPieces V) = outVal V := by
  have h := read_writes_outPieces V o0
  have e : (Memref.whole cc0_stg2_0).view.read (Elt F) ((Memref.whole cc0_stg2_0).view.writes (Elt F) o0 (outPieces V))
      = (Memref.whole cc0_stg2_0).view.writes (Elt F) o0 (outPieces V) := by
    show (View.whole cc0_stg2_0).read (Elt F) _ = _
    rw [View.read_whole]
  exact e.symm.trans h

/-- info: 'Cert.KernelIdeal.OutValue.writes_outPieces' depends on axioms: [propext, Classical.choice, Quot.sound] -/
#guard_msgs in #print axioms writes_outPieces

end Cert.KernelIdeal.OutValue

end
-- ==== Proof.OutValueV.lean ====
/-
  The result's staging buffer after the last stage's eight stores, at the values named for the device: the eight
  column chunks side by side are the device's named result.
-/
import proofs.«900893_g7700000000000894_dist_matmul_mk_i_outk_m1024_n1024_k512_v7x_i32_f32_1_alg».proof.Proof.OutValue
import proofs.«900893_g7700000000000894_dist_matmul_mk_i_outk_m1024_n1024_k512_v7x_i32_f32_1_alg».proof.Proof.Values

noncomputable section

namespace Cert.KernelIdeal.OutValue

open Idealize.ShloMosaic Idealize.SL.Sem Idealize.ShloMosaic.ValueIdx
open Cert.KernelIdeal.Gen

variable {F : FTy → Type} [FloatOps F]

/-- The eight chunks of device c's last stage, side by side, are its named result. -/
theorem outVal_FACCv (m : (ℓ : Loc nD τ sig) → Buf (Elt F) ℓ) (c : Dev nD) :
    outVal (Values.FACCv m c) = Values.OUTv m c := rfl

/-- The result's staging buffer after the eight stores of the named chunks holds the named result. -/
theorem writes_out (m : (ℓ : Loc nD τ sig) → Buf (Elt F) ℓ) (c : Dev nD) (o0 : (Memref.whole cc0_stg2_0).view.ty.Contents (Elt F)) :
    (Memref.whole cc0_stg2_0).view.writes (Elt F) o0 (outPieces (Values.FACCv m c)) = Values.OUTv m c :=
  (writes_outPieces _ o0).trans (outVal_FACCv m c)

end Cert.KernelIdeal.OutValue

end
-- ==== Proof.ReadGeomSend.lean ====
/-
  What a load reads of a slot held at the schedule's canonical contents, and what a slot reads of a chunk
  written at once: the slot's own value, respectively the row of the chunk's value.
-/
import proofs.«900893_g7700000000000894_dist_matmul_mk_i_outk_m1024_n1024_k512_v7x_i32_f32_1_alg».proof.Proof.Values
import proofs.«900893_g7700000000000894_dist_matmul_mk_i_outk_m1024_n1024_k512_v7x_i32_f32_1_alg».proof.Proof.Proto
import proofs.«900893_g7700000000000894_dist_matmul_mk_i_outk_m1024_n1024_k512_v7x_i32_f32_1_alg».proof.Proof.SlotIdx

noncomputable section

namespace Cert.KernelIdeal.ReadGeomSend

open Cert.KernelIdeal Cert.KernelIdeal.Gen Cert.KernelIdeal.Proto
open Cert.Mesh (partner rail zpeer zc pc yc xc pOf dev slot)
open Idealize.ShloMosaic Idealize.ShloMosaic.TcCoe Idealize.SL.Sem Idealize.ShloMosaic.ValueIdx

variable {F : FTy → Type} [FloatOps F]

/-! ## A load of a device's own send slot held at its canonical contents -/

/-- A stage-two slot of the send buffer, loaded, reads its value. -/
theorem read_slot2_sendA2 (i : Fin 32) (off : Fin 4 → ℕ) (hoff : off = ![i.val, 0, 0, 0])
    (inb : ∀ a, off a + S1x4x32x128.size a ≤ S32x4x32x128.size a) (X : Proto.C2 F) :
    View.readAt (Elt F) (sendA2 : Memref sig .tc .vmem S32x4x32x128 .bf16).view
        (Rect.unit (s := S32x4x32x128) off S1x4x32x128.size inb).toLoadRect
        (slotBuf (slot2 sendA2 i).view h_S1x4x32x128 X)
      = X := by
  subst hoff
  funext x
  have hx : (slot2 sendA2 i).view.emb x
      = (Rect.unit (s := S32x4x32x128) ![i.val, 0, 0, 0] S1x4x32x128.size inb).toLoadRect.idx x := rfl
  show slotBuf (slot2 sendA2 i).view h_S1x4x32x128 X
      ((Rect.unit (s := S32x4x32x128) ![i.val, 0, 0, 0] S1x4x32x128.size inb).toLoadRect.idx x) = X x
  rw [← hx]
  unfold slotBuf
  rw [View.write_emb_of_mem _ _ (Finset.mem_univ x)]
  simp

/-- A stage-three slot of the send buffer, loaded, reads its value. -/
theorem read_slot3_sendB (i : Fin 32) (off : Fin 3 → ℕ) (hoff : off = ![i.val, 0, 0])
    (inb : ∀ a, off a + S1x32x128.size a ≤ S32x32x128.size a) (X : Proto.C3 F) :
    View.readAt (Elt F) (sendB : Memref sig .tc .vmem S32x32x128 .bf16).view
        (Rect.unit (s := S32x32x128) off S1x32x128.size inb).toLoadRect
        (slotBuf (slot3 sendB i).view h_S1x32x128 X)
      = X := by
  subst hoff
  funext x
  have hx : (slot3 sendB i).view.emb x
      = (Rect.unit (s := S32x32x128) ![i.val, 0, 0] S1x32x128.size inb).toLoadRect.idx x := rfl
  show slotBuf (slot3 sendB i).view h_S1x32x128 X
      ((Rect.unit (s := S32x32x128) ![i.val, 0, 0] S1x32x128.size inb).toLoadRect.idx x) = X x
  rw [← hx]
  unfold slotBuf
  rw [View.write_emb_of_mem _ _ (Finset.mem_univ x)]
  simp

end Cert.KernelIdeal.ReadGeomSend

end
-- ==== Proof.BodyV.lean ====
/-
  One device's kernel body with what every slot holds followed, at the ideal values.
  The steps are those of the body over slots at some contents: seven barrier signals, the casts, the barrier
  wait, then chunk by chunk a product sent to the partner, the pair sum's three foreign rows sent along the
  rail, the column sum's three foreign planes sent across the planes, the plane sum stored, and last the waits
  for the 56 departures. Here each copy is taken by the send rule with the value its source slot holds:
  the device's own product (stage one), the row of the pair sum of the partner's landed product and the kept
  one (stage two), the plane row of the column sum of the own row and the three landed rows (stage three);
  each landing then arrives holding the sender's value, and the result buffer ends holding the eight column
  chunks of the plane sums, which is the named result block.
-/
import proofs.«900893_g7700000000000894_dist_matmul_mk_i_outk_m1024_n1024_k512_v7x_i32_f32_1_alg».proof.Proof.Ghost
import proofs.«900893_g7700000000000894_dist_matmul_mk_i_outk_m1024_n1024_k512_v7x_i32_f32_1_alg».proof.Proof.ProtoTables
import proofs.«900893_g7700000000000894_dist_matmul_mk_i_outk_m1024_n1024_k512_v7x_i32_f32_1_alg».proof.Proof.Proto0
import proofs.«900893_g7700000000000894_dist_matmul_mk_i_outk_m1024_n1024_k512_v7x_i32_f32_1_alg».proof.Proof.SlotGeom
import proofs.«900893_g7700000000000894_dist_matmul_mk_i_outk_m1024_n1024_k512_v7x_i32_f32_1_alg».proof.Proof.ChunkGeom
import proofs.«900893_g7700000000000894_dist_matmul_mk_i_outk_m1024_n1024_k512_v7x_i32_f32_1_alg».proof.Proof.Canon
import proofs.«900893_g7700000000000894_dist_matmul_mk_i_outk_m1024_n1024_k512_v7x_i32_f32_1_alg».proof.Proof.ClosedOffs
import proofs.«900893_g7700000000000894_dist_matmul_mk_i_outk_m1024_n1024_k512_v7x_i32_f32_1_alg».proof.Proof.BodyWrap
import proofs.«900893_g7700000000000894_dist_matmul_mk_i_outk_m1024_n1024_k512_v7x_i32_f32_1_alg».proof.Proof.BodyEnd
import proofs.«900893_g7700000000000894_dist_matmul_mk_i_outk_m1024_n1024_k512_v7x_i32_f32_1_alg».proof.Proof.BodyClose2
import proofs.«900893_g7700000000000894_dist_matmul_mk_i_outk_m1024_n1024_k512_v7x_i32_f32_1_alg».proof.Proof.ProtoV
import proofs.«900893_g7700000000000894_dist_matmul_mk_i_outk_m1024_n1024_k512_v7x_i32_f32_1_alg».proof.Proof.SendRules
import proofs.«900893_g7700000000000894_dist_matmul_mk_i_outk_m1024_n1024_k512_v7x_i32_f32_1_alg».proof.Proof.Values
import proofs.«900893_g7700000000000894_dist_matmul_mk_i_outk_m1024_n1024_k512_v7x_i32_f32_1_alg».proof.Proof.BodyWrapV
import proofs.«900893_g7700000000000894_dist_matmul_mk_i_outk_m1024_n1024_k512_v7x_i32_f32_1_alg».proof.Proof.BodyEndV
import proofs.«900893_g7700000000000894_dist_matmul_mk_i_outk_m1024_n1024_k512_v7x_i32_f32_1_alg».proof.Proof.Restate
import proofs.«900893_g7700000000000894_dist_matmul_mk_i_outk_m1024_n1024_k512_v7x_i32_f32_1_alg».proof.Proof.RestateOwn
import proofs.«900893_g7700000000000894_dist_matmul_mk_i_outk_m1024_n1024_k512_v7x_i32_f32_1_alg».proof.Proof.ReadGeom
import proofs.«900893_g7700000000000894_dist_matmul_mk_i_outk_m1024_n1024_k512_v7x_i32_f32_1_alg».proof.Proof.PayFamilies
import proofs.«900893_g7700000000000894_dist_matmul_mk_i_outk_m1024_n1024_k512_v7x_i32_f32_1_alg».proof.Proof.ValuesSlots
import proofs.«900893_g7700000000000894_dist_matmul_mk_i_outk_m1024_n1024_k512_v7x_i32_f32_1_alg».proof.Proof.OutValueV
import proofs.«900893_g7700000000000894_dist_matmul_mk_i_outk_m1024_n1024_k512_v7x_i32_f32_1_alg».proof.Proof.ReadGeomSend
import proofs.«900893_g7700000000000894_dist_matmul_mk_i_outk_m1024_n1024_k512_v7x_i32_f32_1_alg».proof.Proof.Gen.KernelIdeal.Skeleton
import Idealize.ShloMosaic.Lib.Tactic

set_option maxRecDepth 65536

noncomputable section

namespace Cert.KernelIdeal.BodyV

open Cert.KernelIdeal Cert.KernelIdeal.Gen Cert.KernelIdeal.Proto Cert.KernelIdeal.Ghost Cert.KernelIdeal.SlotGeom
open Cert.KernelIdeal.LaunchData (astg bstg)
open Cert.KernelIdeal.MeshFacts (dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq dev63_eq)
open Cert.KernelIdeal.Canon.Tagged
open Cert.KernelIdeal.ChunkGeom Cert.KernelIdeal.ClosedOffs
open Cert.Mesh (partner rail zpeer zc pc yc xc pOf dev slot)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

abbrev F : FTy → Type := Ideal

local notation "𝕄" => MT nD τ sig Unit (Elt F) ℕ UU ℕ

-- the box's maps stay folded while the body is stepped: two slots are told apart by their literal arguments
-- a semaphore of an array is told from another by its array and slot, never by unfolding down to its number
attribute [local irreducible] Idealize.ShloMosaic.SemArray.sem Idealize.ShloMosaic.SemArray.squeeze Idealize.ShloMosaic.SemArray.slice
attribute [local irreducible] Cert.Mesh.slot Cert.Mesh.rail Cert.Mesh.partner Cert.Mesh.zpeer Cert.Mesh.yc Cert.Mesh.zc Cert.Mesh.xc Cert.Mesh.pc Cert.Mesh.dev Cert.Mesh.pOf
attribute [local sl_rounds] duties_bar duties_a1s duties_a1r duties_a2s duties_a2r duties_bs duties_br duties_a2r_peer duties_br_peer amount_bar amount_a1s amount_a1r amount_a2s amount_a2r amount_bs amount_br expect_bar expect_a1s expect_a1r expect_a2s expect_a2r expect_bs expect_br payload_bar_partner payload_bar_rail1 payload_bar_rail2 payload_bar_rail3 payload_bar_zpeer1 payload_bar_zpeer2 payload_bar_zpeer3 payload_a1s payload_a1r payload_a1r_peer payload_a2s payload_a2r payload_a2r_peer payload_bs payload_br payload_br_peer rest_bar barPay_own0 barPay_own1 barPay_own2 barPay_own3 barPay_own4 barPay_own5 barPay_own6 grant1_eq grant2_flat grant3_flat
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq dev63_eq

set_option maxHeartbeats 16000000 in
theorem soundV (m : (ℓ : Loc nD τ sig) → Buf (Elt Ideal) ℓ) : BodyWrapV.SoundV (F := Ideal) m (Values.S1v m) (Values.P2v m) (Values.P3v m) (Values.OUTv m) := by
  intro c K W Kt o0 f0 f1 f2 f3 f4 f5 f6 f7 f8
  unfold BodyWrap.bodyPre
  unfold ghost records ownInvs paidInvs sendReached recvReached positions payToks credits
  simp (config := {proj := false, dsimp := false}) only [three, four, eight]
  iintro ⟨⟨⟨⟨⟨#Ibar, ⟨⟨#Ia1s0, #Ia1r0⟩, ⟨#Ia1s1, #Ia1r1⟩, ⟨#Ia1s2, #Ia1r2⟩, ⟨#Ia1s3, #Ia1r3⟩, ⟨#Ia1s4, #Ia1r4⟩, ⟨#Ia1s5, #Ia1r5⟩, ⟨#Ia1s6, #Ia1r6⟩, ⟨#Ia1s7, #Ia1r7⟩⟩, ⟨⟨⟨#Ia2s0_0, #Ia2r0_0⟩, ⟨#Ia2s0_1, #Ia2r0_1⟩, ⟨#Ia2s0_2, #Ia2r0_2⟩, ⟨#Ia2s0_3, #Ia2r0_3⟩⟩, ⟨⟨#Ia2s1_0, #Ia2r1_0⟩, ⟨#Ia2s1_1, #Ia2r1_1⟩, ⟨#Ia2s1_2, #Ia2r1_2⟩, ⟨#Ia2s1_3, #Ia2r1_3⟩⟩, ⟨⟨#Ia2s2_0, #Ia2r2_0⟩, ⟨#Ia2s2_1, #Ia2r2_1⟩, ⟨#Ia2s2_2, #Ia2r2_2⟩, ⟨#Ia2s2_3, #Ia2r2_3⟩⟩, ⟨⟨#Ia2s3_0, #Ia2r3_0⟩, ⟨#Ia2s3_1, #Ia2r3_1⟩, ⟨#Ia2s3_2, #Ia2r3_2⟩, ⟨#Ia2s3_3, #Ia2r3_3⟩⟩, ⟨⟨#Ia2s4_0, #Ia2r4_0⟩, ⟨#Ia2s4_1, #Ia2r4_1⟩, ⟨#Ia2s4_2, #Ia2r4_2⟩, ⟨#Ia2s4_3, #Ia2r4_3⟩⟩, ⟨⟨#Ia2s5_0, #Ia2r5_0⟩, ⟨#Ia2s5_1, #Ia2r5_1⟩, ⟨#Ia2s5_2, #Ia2r5_2⟩, ⟨#Ia2s5_3, #Ia2r5_3⟩⟩, ⟨⟨#Ia2s6_0, #Ia2r6_0⟩, ⟨#Ia2s6_1, #Ia2r6_1⟩, ⟨#Ia2s6_2, #Ia2r6_2⟩, ⟨#Ia2s6_3, #Ia2r6_3⟩⟩, ⟨⟨#Ia2s7_0, #Ia2r7_0⟩, ⟨#Ia2s7_1, #Ia2r7_1⟩, ⟨#Ia2s7_2, #Ia2r7_2⟩, ⟨#Ia2s7_3, #Ia2r7_3⟩⟩⟩, ⟨⟨⟨#Ibs0_0, #Ibr0_0⟩, ⟨#Ibs0_1, #Ibr0_1⟩, ⟨#Ibs0_2, #Ibr0_2⟩, ⟨#Ibs0_3, #Ibr0_3⟩⟩, ⟨⟨#Ibs1_0, #Ibr1_0⟩, ⟨#Ibs1_1, #Ibr1_1⟩, ⟨#Ibs1_2, #Ibr1_2⟩, ⟨#Ibs1_3, #Ibr1_3⟩⟩, ⟨⟨#Ibs2_0, #Ibr2_0⟩, ⟨#Ibs2_1, #Ibr2_1⟩, ⟨#Ibs2_2, #Ibr2_2⟩, ⟨#Ibs2_3, #Ibr2_3⟩⟩, ⟨⟨#Ibs3_0, #Ibr3_0⟩, ⟨#Ibs3_1, #Ibr3_1⟩, ⟨#Ibs3_2, #Ibr3_2⟩, ⟨#Ibs3_3, #Ibr3_3⟩⟩, ⟨⟨#Ibs4_0, #Ibr4_0⟩, ⟨#Ibs4_1, #Ibr4_1⟩, ⟨#Ibs4_2, #Ibr4_2⟩, ⟨#Ibs4_3, #Ibr4_3⟩⟩, ⟨⟨#Ibs5_0, #Ibr5_0⟩, ⟨#Ibs5_1, #Ibr5_1⟩, ⟨#Ibs5_2, #Ibr5_2⟩, ⟨#Ibs5_3, #Ibr5_3⟩⟩, ⟨⟨#Ibs6_0, #Ibr6_0⟩, ⟨#Ibs6_1, #Ibr6_1⟩, ⟨#Ibs6_2, #Ibr6_2⟩, ⟨#Ibs6_3, #Ibr6_3⟩⟩, ⟨⟨#Ibs7_0, #Ibr7_0⟩, ⟨#Ibs7_1, #Ibr7_1⟩, ⟨#Ibs7_2, #Ibr7_2⟩, ⟨#Ibs7_3, #Ibr7_3⟩⟩⟩⟩, ⟨⟨#JbarP, #RbarP⟩, ⟨⟨#JbarR1, #RbarR1⟩, ⟨#JbarR2, #RbarR2⟩, ⟨#JbarR3, #RbarR3⟩⟩, ⟨⟨#JbarZ1, #RbarZ1⟩, ⟨#JbarZ2, #RbarZ2⟩, ⟨#JbarZ3, #RbarZ3⟩⟩, ⟨⟨#Ja1r0, #Ra1r0⟩, ⟨#Ja1r1, #Ra1r1⟩, ⟨#Ja1r2, #Ra1r2⟩, ⟨#Ja1r3, #Ra1r3⟩, ⟨#Ja1r4, #Ra1r4⟩, ⟨#Ja1r5, #Ra1r5⟩, ⟨#Ja1r6, #Ra1r6⟩, ⟨#Ja1r7, #Ra1r7⟩⟩, ⟨⟨⟨#Ja2r0_1, #Ra2r0_1⟩, ⟨#Ja2r0_2, #Ra2r0_2⟩, ⟨#Ja2r0_3, #Ra2r0_3⟩⟩, ⟨⟨#Ja2r1_1, #Ra2r1_1⟩, ⟨#Ja2r1_2, #Ra2r1_2⟩, ⟨#Ja2r1_3, #Ra2r1_3⟩⟩, ⟨⟨#Ja2r2_1, #Ra2r2_1⟩, ⟨#Ja2r2_2, #Ra2r2_2⟩, ⟨#Ja2r2_3, #Ra2r2_3⟩⟩, ⟨⟨#Ja2r3_1, #Ra2r3_1⟩, ⟨#Ja2r3_2, #Ra2r3_2⟩, ⟨#Ja2r3_3, #Ra2r3_3⟩⟩, ⟨⟨#Ja2r4_1, #Ra2r4_1⟩, ⟨#Ja2r4_2, #Ra2r4_2⟩, ⟨#Ja2r4_3, #Ra2r4_3⟩⟩, ⟨⟨#Ja2r5_1, #Ra2r5_1⟩, ⟨#Ja2r5_2, #Ra2r5_2⟩, ⟨#Ja2r5_3, #Ra2r5_3⟩⟩, ⟨⟨#Ja2r6_1, #Ra2r6_1⟩, ⟨#Ja2r6_2, #Ra2r6_2⟩, ⟨#Ja2r6_3, #Ra2r6_3⟩⟩, ⟨⟨#Ja2r7_1, #Ra2r7_1⟩, ⟨#Ja2r7_2, #Ra2r7_2⟩, ⟨#Ja2r7_3, #Ra2r7_3⟩⟩⟩, ⟨⟨⟨#Jbr0_1, #Rbr0_1⟩, ⟨#Jbr0_2, #Rbr0_2⟩, ⟨#Jbr0_3, #Rbr0_3⟩⟩, ⟨⟨#Jbr1_1, #Rbr1_1⟩, ⟨#Jbr1_2, #Rbr1_2⟩, ⟨#Jbr1_3, #Rbr1_3⟩⟩, ⟨⟨#Jbr2_1, #Rbr2_1⟩, ⟨#Jbr2_2, #Rbr2_2⟩, ⟨#Jbr2_3, #Rbr2_3⟩⟩, ⟨⟨#Jbr3_1, #Rbr3_1⟩, ⟨#Jbr3_2, #Rbr3_2⟩, ⟨#Jbr3_3, #Rbr3_3⟩⟩, ⟨⟨#Jbr4_1, #Rbr4_1⟩, ⟨#Jbr4_2, #Rbr4_2⟩, ⟨#Jbr4_3, #Rbr4_3⟩⟩, ⟨⟨#Jbr5_1, #Rbr5_1⟩, ⟨#Jbr5_2, #Rbr5_2⟩, ⟨#Jbr5_3, #Rbr5_3⟩⟩, ⟨⟨#Jbr6_1, #Rbr6_1⟩, ⟨#Jbr6_2, #Rbr6_2⟩, ⟨#Jbr6_3, #Rbr6_3⟩⟩, ⟨⟨#Jbr7_1, #Rbr7_1⟩, ⟨#Jbr7_2, #Rbr7_2⟩, ⟨#Jbr7_3, #Rbr7_3⟩⟩⟩⟩, ⟨⟨#Sa1s0, #Sa1s1, #Sa1s2, #Sa1s3, #Sa1s4, #Sa1s5, #Sa1s6, #Sa1s7⟩, ⟨⟨#Sa2s0_1, #Sa2s0_2, #Sa2s0_3⟩, ⟨#Sa2s1_1, #Sa2s1_2, #Sa2s1_3⟩, ⟨#Sa2s2_1, #Sa2s2_2, #Sa2s2_3⟩, ⟨#Sa2s3_1, #Sa2s3_2, #Sa2s3_3⟩, ⟨#Sa2s4_1, #Sa2s4_2, #Sa2s4_3⟩, ⟨#Sa2s5_1, #Sa2s5_2, #Sa2s5_3⟩, ⟨#Sa2s6_1, #Sa2s6_2, #Sa2s6_3⟩, ⟨#Sa2s7_1, #Sa2s7_2, #Sa2s7_3⟩⟩, ⟨⟨#Sbs0_1, #Sbs0_2, #Sbs0_3⟩, ⟨#Sbs1_1, #Sbs1_2, #Sbs1_3⟩, ⟨#Sbs2_1, #Sbs2_2, #Sbs2_3⟩, ⟨#Sbs3_1, #Sbs3_2, #Sbs3_3⟩, ⟨#Sbs4_1, #Sbs4_2, #Sbs4_3⟩, ⟨#Sbs5_1, #Sbs5_2, #Sbs5_3⟩, ⟨#Sbs6_1, #Sbs6_2, #Sbs6_3⟩, ⟨#Sbs7_1, #Sbs7_2, #Sbs7_3⟩⟩⟩, ⟨⟨#Va1r0, #Va1r1, #Va1r2, #Va1r3, #Va1r4, #Va1r5, #Va1r6, #Va1r7⟩, ⟨⟨#Va2r0_1, #Va2r0_2, #Va2r0_3⟩, ⟨#Va2r1_1, #Va2r1_2, #Va2r1_3⟩, ⟨#Va2r2_1, #Va2r2_2, #Va2r2_3⟩, ⟨#Va2r3_1, #Va2r3_2, #Va2r3_3⟩, ⟨#Va2r4_1, #Va2r4_2, #Va2r4_3⟩, ⟨#Va2r5_1, #Va2r5_2, #Va2r5_3⟩, ⟨#Va2r6_1, #Va2r6_2, #Va2r6_3⟩, ⟨#Va2r7_1, #Va2r7_2, #Va2r7_3⟩⟩, ⟨⟨#Vbr0_1, #Vbr0_2, #Vbr0_3⟩, ⟨#Vbr1_1, #Vbr1_2, #Vbr1_3⟩, ⟨#Vbr2_1, #Vbr2_2, #Vbr2_3⟩, ⟨#Vbr3_1, #Vbr3_2, #Vbr3_3⟩, ⟨#Vbr4_1, #Vbr4_2, #Vbr4_3⟩, ⟨#Vbr5_1, #Vbr5_2, #Vbr5_3⟩, ⟨#Vbr6_1, #Vbr6_2, #Vbr6_3⟩, ⟨#Vbr7_1, #Vbr7_2, #Vbr7_3⟩⟩⟩⟩, ⟨Pbar, ⟨⟨Pa1s0, Pa1r0⟩, ⟨Pa1s1, Pa1r1⟩, ⟨Pa1s2, Pa1r2⟩, ⟨Pa1s3, Pa1r3⟩, ⟨Pa1s4, Pa1r4⟩, ⟨Pa1s5, Pa1r5⟩, ⟨Pa1s6, Pa1r6⟩, ⟨Pa1s7, Pa1r7⟩⟩, ⟨⟨⟨Pa2s0_0, Pa2r0_0⟩, ⟨Pa2s0_1, Pa2r0_1⟩, ⟨Pa2s0_2, Pa2r0_2⟩, ⟨Pa2s0_3, Pa2r0_3⟩⟩, ⟨⟨Pa2s1_0, Pa2r1_0⟩, ⟨Pa2s1_1, Pa2r1_1⟩, ⟨Pa2s1_2, Pa2r1_2⟩, ⟨Pa2s1_3, Pa2r1_3⟩⟩, ⟨⟨Pa2s2_0, Pa2r2_0⟩, ⟨Pa2s2_1, Pa2r2_1⟩, ⟨Pa2s2_2, Pa2r2_2⟩, ⟨Pa2s2_3, Pa2r2_3⟩⟩, ⟨⟨Pa2s3_0, Pa2r3_0⟩, ⟨Pa2s3_1, Pa2r3_1⟩, ⟨Pa2s3_2, Pa2r3_2⟩, ⟨Pa2s3_3, Pa2r3_3⟩⟩, ⟨⟨Pa2s4_0, Pa2r4_0⟩, ⟨Pa2s4_1, Pa2r4_1⟩, ⟨Pa2s4_2, Pa2r4_2⟩, ⟨Pa2s4_3, Pa2r4_3⟩⟩, ⟨⟨Pa2s5_0, Pa2r5_0⟩, ⟨Pa2s5_1, Pa2r5_1⟩, ⟨Pa2s5_2, Pa2r5_2⟩, ⟨Pa2s5_3, Pa2r5_3⟩⟩, ⟨⟨Pa2s6_0, Pa2r6_0⟩, ⟨Pa2s6_1, Pa2r6_1⟩, ⟨Pa2s6_2, Pa2r6_2⟩, ⟨Pa2s6_3, Pa2r6_3⟩⟩, ⟨⟨Pa2s7_0, Pa2r7_0⟩, ⟨Pa2s7_1, Pa2r7_1⟩, ⟨Pa2s7_2, Pa2r7_2⟩, ⟨Pa2s7_3, Pa2r7_3⟩⟩⟩, ⟨⟨⟨Pbs0_0, Pbr0_0⟩, ⟨Pbs0_1, Pbr0_1⟩, ⟨Pbs0_2, Pbr0_2⟩, ⟨Pbs0_3, Pbr0_3⟩⟩, ⟨⟨Pbs1_0, Pbr1_0⟩, ⟨Pbs1_1, Pbr1_1⟩, ⟨Pbs1_2, Pbr1_2⟩, ⟨Pbs1_3, Pbr1_3⟩⟩, ⟨⟨Pbs2_0, Pbr2_0⟩, ⟨Pbs2_1, Pbr2_1⟩, ⟨Pbs2_2, Pbr2_2⟩, ⟨Pbs2_3, Pbr2_3⟩⟩, ⟨⟨Pbs3_0, Pbr3_0⟩, ⟨Pbs3_1, Pbr3_1⟩, ⟨Pbs3_2, Pbr3_2⟩, ⟨Pbs3_3, Pbr3_3⟩⟩, ⟨⟨Pbs4_0, Pbr4_0⟩, ⟨Pbs4_1, Pbr4_1⟩, ⟨Pbs4_2, Pbr4_2⟩, ⟨Pbs4_3, Pbr4_3⟩⟩, ⟨⟨Pbs5_0, Pbr5_0⟩, ⟨Pbs5_1, Pbr5_1⟩, ⟨Pbs5_2, Pbr5_2⟩, ⟨Pbs5_3, Pbr5_3⟩⟩, ⟨⟨Pbs6_0, Pbr6_0⟩, ⟨Pbs6_1, Pbr6_1⟩, ⟨Pbs6_2, Pbr6_2⟩, ⟨Pbs6_3, Pbr6_3⟩⟩, ⟨⟨Pbs7_0, Pbr7_0⟩, ⟨Pbs7_1, Pbr7_1⟩, ⟨Pbs7_2, Pbr7_2⟩, ⟨Pbs7_3, Pbr7_3⟩⟩⟩⟩, ⟨TbarP, TbarR1, TbarR2, TbarR3, TbarZ1, TbarZ2, TbarZ3, ⟨⟨Ta1s0, Ta1r0⟩, ⟨Ta1s1, Ta1r1⟩, ⟨Ta1s2, Ta1r2⟩, ⟨Ta1s3, Ta1r3⟩, ⟨Ta1s4, Ta1r4⟩, ⟨Ta1s5, Ta1r5⟩, ⟨Ta1s6, Ta1r6⟩, ⟨Ta1s7, Ta1r7⟩⟩, ⟨⟨⟨Ta2s0_1, Ta2r0_1⟩, ⟨Ta2s0_2, Ta2r0_2⟩, ⟨Ta2s0_3, Ta2r0_3⟩⟩, ⟨⟨Ta2s1_1, Ta2r1_1⟩, ⟨Ta2s1_2, Ta2r1_2⟩, ⟨Ta2s1_3, Ta2r1_3⟩⟩, ⟨⟨Ta2s2_1, Ta2r2_1⟩, ⟨Ta2s2_2, Ta2r2_2⟩, ⟨Ta2s2_3, Ta2r2_3⟩⟩, ⟨⟨Ta2s3_1, Ta2r3_1⟩, ⟨Ta2s3_2, Ta2r3_2⟩, ⟨Ta2s3_3, Ta2r3_3⟩⟩, ⟨⟨Ta2s4_1, Ta2r4_1⟩, ⟨Ta2s4_2, Ta2r4_2⟩, ⟨Ta2s4_3, Ta2r4_3⟩⟩, ⟨⟨Ta2s5_1, Ta2r5_1⟩, ⟨Ta2s5_2, Ta2r5_2⟩, ⟨Ta2s5_3, Ta2r5_3⟩⟩, ⟨⟨Ta2s6_1, Ta2r6_1⟩, ⟨Ta2s6_2, Ta2r6_2⟩, ⟨Ta2s6_3, Ta2r6_3⟩⟩, ⟨⟨Ta2s7_1, Ta2r7_1⟩, ⟨Ta2s7_2, Ta2r7_2⟩, ⟨Ta2s7_3, Ta2r7_3⟩⟩⟩, ⟨⟨⟨Tbs0_1, Tbr0_1⟩, ⟨Tbs0_2, Tbr0_2⟩, ⟨Tbs0_3, Tbr0_3⟩⟩, ⟨⟨Tbs1_1, Tbr1_1⟩, ⟨Tbs1_2, Tbr1_2⟩, ⟨Tbs1_3, Tbr1_3⟩⟩, ⟨⟨Tbs2_1, Tbr2_1⟩, ⟨Tbs2_2, Tbr2_2⟩, ⟨Tbs2_3, Tbr2_3⟩⟩, ⟨⟨Tbs3_1, Tbr3_1⟩, ⟨Tbs3_2, Tbr3_2⟩, ⟨Tbs3_3, Tbr3_3⟩⟩, ⟨⟨Tbs4_1, Tbr4_1⟩, ⟨Tbs4_2, Tbr4_2⟩, ⟨Tbs4_3, Tbr4_3⟩⟩, ⟨⟨Tbs5_1, Tbr5_1⟩, ⟨Tbs5_2, Tbr5_2⟩, ⟨Tbs5_3, Tbr5_3⟩⟩, ⟨⟨Tbs6_1, Tbr6_1⟩, ⟨Tbs6_2, Tbr6_2⟩, ⟨Tbs6_3, Tbr6_3⟩⟩, ⟨⟨Tbs7_1, Tbr7_1⟩, ⟨Tbs7_2, Tbr7_2⟩, ⟨Tbs7_3, Tbr7_3⟩⟩⟩⟩, ⟨Cbar, ⟨Ca1r0, Ca1r1, Ca1r2, Ca1r3, Ca1r4, Ca1r5, Ca1r6, Ca1r7⟩, ⟨⟨Ca2r0_1, Ca2r0_2, Ca2r0_3⟩, ⟨Ca2r1_1, Ca2r1_2, Ca2r1_3⟩, ⟨Ca2r2_1, Ca2r2_2, Ca2r2_3⟩, ⟨Ca2r3_1, Ca2r3_2, Ca2r3_3⟩, ⟨Ca2r4_1, Ca2r4_2, Ca2r4_3⟩, ⟨Ca2r5_1, Ca2r5_2, Ca2r5_3⟩, ⟨Ca2r6_1, Ca2r6_2, Ca2r6_3⟩, ⟨Ca2r7_1, Ca2r7_2, Ca2r7_3⟩⟩, ⟨⟨Cbr0_1, Cbr0_2, Cbr0_3⟩, ⟨Cbr1_1, Cbr1_2, Cbr1_3⟩, ⟨Cbr2_1, Cbr2_2, Cbr2_3⟩, ⟨Cbr3_1, Cbr3_2, Cbr3_3⟩, ⟨Cbr4_1, Cbr4_2, Cbr4_3⟩, ⟨Cbr5_1, Cbr5_2, Cbr5_3⟩, ⟨Cbr6_1, Cbr6_2, Cbr6_3⟩, ⟨Cbr7_1, Cbr7_2, Cbr7_3⟩⟩⟩⟩, #Hlev, HO, HA, HB, HR, S0, S1b, S2, S3, S4, S5, S6, S7, S8⟩, Hk⟩
  ihave S2' := (Entails.of_eq (split1 sendA1 sendA1_univ c f2)) $$ S2
  ihave S6' := (Entails.of_eq (split2_by_step commA2 commA2_univ (yc c) c f6)) $$ S6
  ihave S8' := (Entails.of_eq (split3_by_step commB commB_univ (zc c) c f8)) $$ S8
  ihave S5' := (Entails.of_eq (split2_chunks sendA2 sendA2_univ c f5)) $$ S5
  ihave S7' := (Entails.of_eq (split3_chunks sendB sendB_univ c f7)) $$ S7
  simp (config := {proj := false, dsimp := false}) only [four, eight]
  icases S2' with ⟨X2_0, X2_1, X2_2, X2_3, X2_4, X2_5, X2_6, X2_7⟩
  icases S6' with ⟨⟨X6_0_1, X6_1_1, X6_2_1, X6_3_1, X6_4_1, X6_5_1, X6_6_1, X6_7_1⟩, ⟨X6_0_2, X6_1_2, X6_2_2, X6_3_2, X6_4_2, X6_5_2, X6_6_2, X6_7_2⟩, ⟨X6_0_3, X6_1_3, X6_2_3, X6_3_3, X6_4_3, X6_5_3, X6_6_3, X6_7_3⟩, ⟨X6_0_0, X6_1_0, X6_2_0, X6_3_0, X6_4_0, X6_5_0, X6_6_0, X6_7_0⟩⟩
  icases S8' with ⟨⟨X8_0_1, X8_1_1, X8_2_1, X8_3_1, X8_4_1, X8_5_1, X8_6_1, X8_7_1⟩, ⟨X8_0_2, X8_1_2, X8_2_2, X8_3_2, X8_4_2, X8_5_2, X8_6_2, X8_7_2⟩, ⟨X8_0_3, X8_1_3, X8_2_3, X8_3_3, X8_4_3, X8_5_3, X8_6_3, X8_7_3⟩, ⟨X8_0_0, X8_1_0, X8_2_0, X8_3_0, X8_4_0, X8_5_0, X8_6_0, X8_7_0⟩⟩
  icases S5' with ⟨C5_0, C5_1, C5_2, C5_3, C5_4, C5_5, C5_6, C5_7⟩
  icases S7' with ⟨C7_0, C7_1, C7_2, C7_3, C7_4, C7_5, C7_6, C7_7⟩
  ihave S3' := (Entails.of_eq (show ((((Memref.whole cc0_scratch3 : Memref sig .tc _ _ _).view.loc (c : Thread nD τ)) ↦{fullShare} f3 : sProp 𝕄)) = (((c : Thread nD τ).loc cc0_scratch3) ↦{fullShare} f3 : sProp 𝕄) from rfl)) $$ S3
  have hmwBar : (levAts L lv : sProp 𝕄) ⊢ MayWait (c : Thread nD τ) (.reg barS) () (Oafter c 7) := mayWait_bar c 7 (le_refl _)
  have hdev8 : ∀ c : Dev nD, (⟨k0_dev8 c, k0_dev8_lt c⟩ : Dev nD) = partner c := fun c => dev8_eq c
  have hdev9 : ∀ c : Dev nD, (⟨k0_dev9 c, k0_dev9_lt c⟩ : Dev nD) = partner c := fun c => dev9_eq c
  have hdev10 : ∀ c : Dev nD, (⟨k0_dev10 c, k0_dev10_lt c⟩ : Dev nD) = partner c := fun c => dev10_eq c
  have hdev11 : ∀ c : Dev nD, (⟨k0_dev11 c, k0_dev11_lt c⟩ : Dev nD) = partner c := fun c => dev11_eq c
  have hdev12 : ∀ c : Dev nD, (⟨k0_dev12 c, k0_dev12_lt c⟩ : Dev nD) = partner c := fun c => dev12_eq c
  have hdev13 : ∀ c : Dev nD, (⟨k0_dev13 c, k0_dev13_lt c⟩ : Dev nD) = partner c := fun c => dev13_eq c
  have hdev14 : ∀ c : Dev nD, (⟨k0_dev14 c, k0_dev14_lt c⟩ : Dev nD) = partner c := fun c => dev14_eq c
  have hdev15 : ∀ c : Dev nD, (⟨k0_dev15 c, k0_dev15_lt c⟩ : Dev nD) = partner c := fun c => dev15_eq c
  have hdev16 : ∀ c : Dev nD, (⟨k0_dev16 c, k0_dev16_lt c⟩ : Dev nD) = rail c 1 := fun c => dev16_eq c
  have hdev17 : ∀ c : Dev nD, (⟨k0_dev17 c, k0_dev17_lt c⟩ : Dev nD) = rail c 2 := fun c => dev17_eq c
  have hdev18 : ∀ c : Dev nD, (⟨k0_dev18 c, k0_dev18_lt c⟩ : Dev nD) = rail c 3 := fun c => dev18_eq c
  have hdev19 : ∀ c : Dev nD, (⟨k0_dev19 c, k0_dev19_lt c⟩ : Dev nD) = rail c 1 := fun c => dev19_eq c
  have hdev20 : ∀ c : Dev nD, (⟨k0_dev20 c, k0_dev20_lt c⟩ : Dev nD) = rail c 2 := fun c => dev20_eq c
  have hdev21 : ∀ c : Dev nD, (⟨k0_dev21 c, k0_dev21_lt c⟩ : Dev nD) = rail c 3 := fun c => dev21_eq c
  have hdev22 : ∀ c : Dev nD, (⟨k0_dev22 c, k0_dev22_lt c⟩ : Dev nD) = rail c 1 := fun c => dev22_eq c
  have hdev23 : ∀ c : Dev nD, (⟨k0_dev23 c, k0_dev23_lt c⟩ : Dev nD) = rail c 2 := fun c => dev23_eq c
  have hdev24 : ∀ c : Dev nD, (⟨k0_dev24 c, k0_dev24_lt c⟩ : Dev nD) = rail c 3 := fun c => dev24_eq c
  have hdev25 : ∀ c : Dev nD, (⟨k0_dev25 c, k0_dev25_lt c⟩ : Dev nD) = rail c 1 := fun c => dev25_eq c
  have hdev26 : ∀ c : Dev nD, (⟨k0_dev26 c, k0_dev26_lt c⟩ : Dev nD) = rail c 2 := fun c => dev26_eq c
  have hdev27 : ∀ c : Dev nD, (⟨k0_dev27 c, k0_dev27_lt c⟩ : Dev nD) = rail c 3 := fun c => dev27_eq c
  have hdev28 : ∀ c : Dev nD, (⟨k0_dev28 c, k0_dev28_lt c⟩ : Dev nD) = rail c 1 := fun c => dev28_eq c
  have hdev29 : ∀ c : Dev nD, (⟨k0_dev29 c, k0_dev29_lt c⟩ : Dev nD) = rail c 2 := fun c => dev29_eq c
  have hdev30 : ∀ c : Dev nD, (⟨k0_dev30 c, k0_dev30_lt c⟩ : Dev nD) = rail c 3 := fun c => dev30_eq c
  have hdev31 : ∀ c : Dev nD, (⟨k0_dev31 c, k0_dev31_lt c⟩ : Dev nD) = rail c 1 := fun c => dev31_eq c
  have hdev32 : ∀ c : Dev nD, (⟨k0_dev32 c, k0_dev32_lt c⟩ : Dev nD) = rail c 2 := fun c => dev32_eq c
  have hdev33 : ∀ c : Dev nD, (⟨k0_dev33 c, k0_dev33_lt c⟩ : Dev nD) = rail c 3 := fun c => dev33_eq c
  have hdev34 : ∀ c : Dev nD, (⟨k0_dev34 c, k0_dev34_lt c⟩ : Dev nD) = rail c 1 := fun c => dev34_eq c
  have hdev35 : ∀ c : Dev nD, (⟨k0_dev35 c, k0_dev35_lt c⟩ : Dev nD) = rail c 2 := fun c => dev35_eq c
  have hdev36 : ∀ c : Dev nD, (⟨k0_dev36 c, k0_dev36_lt c⟩ : Dev nD) = rail c 3 := fun c => dev36_eq c
  have hdev37 : ∀ c : Dev nD, (⟨k0_dev37 c, k0_dev37_lt c⟩ : Dev nD) = rail c 1 := fun c => dev37_eq c
  have hdev38 : ∀ c : Dev nD, (⟨k0_dev38 c, k0_dev38_lt c⟩ : Dev nD) = rail c 2 := fun c => dev38_eq c
  have hdev39 : ∀ c : Dev nD, (⟨k0_dev39 c, k0_dev39_lt c⟩ : Dev nD) = rail c 3 := fun c => dev39_eq c
  have hdev40 : ∀ c : Dev nD, (⟨k0_dev40 c, k0_dev40_lt c⟩ : Dev nD) = zpeer c 1 := fun c => dev40_eq c
  have hdev41 : ∀ c : Dev nD, (⟨k0_dev41 c, k0_dev41_lt c⟩ : Dev nD) = zpeer c 2 := fun c => dev41_eq c
  have hdev42 : ∀ c : Dev nD, (⟨k0_dev42 c, k0_dev42_lt c⟩ : Dev nD) = zpeer c 3 := fun c => dev42_eq c
  have hdev43 : ∀ c : Dev nD, (⟨k0_dev43 c, k0_dev43_lt c⟩ : Dev nD) = zpeer c 1 := fun c => dev43_eq c
  have hdev44 : ∀ c : Dev nD, (⟨k0_dev44 c, k0_dev44_lt c⟩ : Dev nD) = zpeer c 2 := fun c => dev44_eq c
  have hdev45 : ∀ c : Dev nD, (⟨k0_dev45 c, k0_dev45_lt c⟩ : Dev nD) = zpeer c 3 := fun c => dev45_eq c
  have hdev46 : ∀ c : Dev nD, (⟨k0_dev46 c, k0_dev46_lt c⟩ : Dev nD) = zpeer c 1 := fun c => dev46_eq c
  have hdev47 : ∀ c : Dev nD, (⟨k0_dev47 c, k0_dev47_lt c⟩ : Dev nD) = zpeer c 2 := fun c => dev47_eq c
  have hdev48 : ∀ c : Dev nD, (⟨k0_dev48 c, k0_dev48_lt c⟩ : Dev nD) = zpeer c 3 := fun c => dev48_eq c
  have hdev49 : ∀ c : Dev nD, (⟨k0_dev49 c, k0_dev49_lt c⟩ : Dev nD) = zpeer c 1 := fun c => dev49_eq c
  have hdev50 : ∀ c : Dev nD, (⟨k0_dev50 c, k0_dev50_lt c⟩ : Dev nD) = zpeer c 2 := fun c => dev50_eq c
  have hdev51 : ∀ c : Dev nD, (⟨k0_dev51 c, k0_dev51_lt c⟩ : Dev nD) = zpeer c 3 := fun c => dev51_eq c
  have hdev52 : ∀ c : Dev nD, (⟨k0_dev52 c, k0_dev52_lt c⟩ : Dev nD) = zpeer c 1 := fun c => dev52_eq c
  have hdev53 : ∀ c : Dev nD, (⟨k0_dev53 c, k0_dev53_lt c⟩ : Dev nD) = zpeer c 2 := fun c => dev53_eq c
  have hdev54 : ∀ c : Dev nD, (⟨k0_dev54 c, k0_dev54_lt c⟩ : Dev nD) = zpeer c 3 := fun c => dev54_eq c
  have hdev55 : ∀ c : Dev nD, (⟨k0_dev55 c, k0_dev55_lt c⟩ : Dev nD) = zpeer c 1 := fun c => dev55_eq c
  have hdev56 : ∀ c : Dev nD, (⟨k0_dev56 c, k0_dev56_lt c⟩ : Dev nD) = zpeer c 2 := fun c => dev56_eq c
  have hdev57 : ∀ c : Dev nD, (⟨k0_dev57 c, k0_dev57_lt c⟩ : Dev nD) = zpeer c 3 := fun c => dev57_eq c
  have hdev58 : ∀ c : Dev nD, (⟨k0_dev58 c, k0_dev58_lt c⟩ : Dev nD) = zpeer c 1 := fun c => dev58_eq c
  have hdev59 : ∀ c : Dev nD, (⟨k0_dev59 c, k0_dev59_lt c⟩ : Dev nD) = zpeer c 2 := fun c => dev59_eq c
  have hdev60 : ∀ c : Dev nD, (⟨k0_dev60 c, k0_dev60_lt c⟩ : Dev nD) = zpeer c 3 := fun c => dev60_eq c
  have hdev61 : ∀ c : Dev nD, (⟨k0_dev61 c, k0_dev61_lt c⟩ : Dev nD) = zpeer c 1 := fun c => dev61_eq c
  have hdev62 : ∀ c : Dev nD, (⟨k0_dev62 c, k0_dev62_lt c⟩ : Dev nD) = zpeer c 2 := fun c => dev62_eq c
  have hdev63 : ∀ c : Dev nD, (⟨k0_dev63 c, k0_dev63_lt c⟩ : Dev nD) = zpeer c 3 := fun c => dev63_eq c
  unfold O₀ O1 O2 O3
  sl_unfold [cc0_body]
  set_option sl_exec.stepHeartbeats 400000 in
  set_option sl_exec.respelt true in
  sl_exec_parts
  clear hmwBar
  ihave Hg := (Entails.of_eq (bar_payloads (Values.S1v m) (Values.P2v m) (Values.P3v m) c)) $$ Pbar_pay1
  rw [grant1_eq, grant2_flat, grant2_flat, grant2_flat, grant3_flat, grant3_flat, grant3_flat]
  icases Hg with ⟨⟨⟨%g3p, Y3⟩, #R3_0, #R3_1, #R3_2, #R3_3, #R3_4, #R3_5, #R3_6, #R3_7⟩, ⟨⟨%v6r3_0, Y6r3_0⟩, #R6r3_0, ⟨%v6r3_1, Y6r3_1⟩, #R6r3_1, ⟨%v6r3_2, Y6r3_2⟩, #R6r3_2, ⟨%v6r3_3, Y6r3_3⟩, #R6r3_3, ⟨%v6r3_4, Y6r3_4⟩, #R6r3_4, ⟨%v6r3_5, Y6r3_5⟩, #R6r3_5, ⟨%v6r3_6, Y6r3_6⟩, #R6r3_6, ⟨%v6r3_7, Y6r3_7⟩, #R6r3_7⟩, ⟨⟨%v6r2_0, Y6r2_0⟩, #R6r2_0, ⟨%v6r2_1, Y6r2_1⟩, #R6r2_1, ⟨%v6r2_2, Y6r2_2⟩, #R6r2_2, ⟨%v6r2_3, Y6r2_3⟩, #R6r2_3, ⟨%v6r2_4, Y6r2_4⟩, #R6r2_4, ⟨%v6r2_5, Y6r2_5⟩, #R6r2_5, ⟨%v6r2_6, Y6r2_6⟩, #R6r2_6, ⟨%v6r2_7, Y6r2_7⟩, #R6r2_7⟩, ⟨⟨%v6r1_0, Y6r1_0⟩, #R6r1_0, ⟨%v6r1_1, Y6r1_1⟩, #R6r1_1, ⟨%v6r1_2, Y6r1_2⟩, #R6r1_2, ⟨%v6r1_3, Y6r1_3⟩, #R6r1_3, ⟨%v6r1_4, Y6r1_4⟩, #R6r1_4, ⟨%v6r1_5, Y6r1_5⟩, #R6r1_5, ⟨%v6r1_6, Y6r1_6⟩, #R6r1_6, ⟨%v6r1_7, Y6r1_7⟩, #R6r1_7⟩, ⟨⟨%v8z3_0, Y8z3_0⟩, #R8z3_0, ⟨%v8z3_1, Y8z3_1⟩, #R8z3_1, ⟨%v8z3_2, Y8z3_2⟩, #R8z3_2, ⟨%v8z3_3, Y8z3_3⟩, #R8z3_3, ⟨%v8z3_4, Y8z3_4⟩, #R8z3_4, ⟨%v8z3_5, Y8z3_5⟩, #R8z3_5, ⟨%v8z3_6, Y8z3_6⟩, #R8z3_6, ⟨%v8z3_7, Y8z3_7⟩, #R8z3_7⟩, ⟨⟨%v8z2_0, Y8z2_0⟩, #R8z2_0, ⟨%v8z2_1, Y8z2_1⟩, #R8z2_1, ⟨%v8z2_2, Y8z2_2⟩, #R8z2_2, ⟨%v8z2_3, Y8z2_3⟩, #R8z2_3, ⟨%v8z2_4, Y8z2_4⟩, #R8z2_4, ⟨%v8z2_5, Y8z2_5⟩, #R8z2_5, ⟨%v8z2_6, Y8z2_6⟩, #R8z2_6, ⟨%v8z2_7, Y8z2_7⟩, #R8z2_7⟩, ⟨⟨%v8z1_0, Y8z1_0⟩, #R8z1_0, ⟨%v8z1_1, Y8z1_1⟩, #R8z1_1, ⟨%v8z1_2, Y8z1_2⟩, #R8z1_2, ⟨%v8z1_3, Y8z1_3⟩, #R8z1_3, ⟨%v8z1_4, Y8z1_4⟩, #R8z1_4, ⟨%v8z1_5, Y8z1_5⟩, #R8z1_5, ⟨%v8z1_6, Y8z1_6⟩, #R8z1_6, ⟨%v8z1_7, Y8z1_7⟩, #R8z1_7⟩⟩
  -- the partner's stage-1 receive buffer, slot by slot; kept together, one slot taken at each copy
  ihave Y3s := (Entails.of_eq ((show (((((partner c : Dev nD)) : Thread nD τ).loc cc0_scratch3) ↦{fullShare} g3p : sProp 𝕄) = ((commA1.view.loc (((partner c : Dev nD)) : Thread nD τ)) ↦{fullShare} g3p : sProp 𝕄) from rfl).trans (split1 commA1 commA1_univ (partner c) g3p))) $$ Y3
  simp (config := {proj := false, dsimp := false}) only [eight]
  icases Y3s with ⟨Y3_0, Y3s⟩
  -- what slot 0 of the send buffer holds: the device's product for its partner's rows
  sl_unfold_run_names
  try rw [← BodyLocal.abPieces.eq_1 c (astg m c)]
  try rw [← BodyLocal.bbPieces.eq_1 (bstg m c)]
  ihave X2_0 := (Entails.of_eq (Restate.restate1_0 c (astg m c) (bstg m c) f2)) $$ X2_0
  -- stage 1, chunk 0: the copy to the partner, by the send rule
  try sl_respell []
  iapply (SendRules.send1 (Values.S1v m) (Values.P2v m) (Values.P3v m) K c 0 (by first | rfl | exact dev8_eq c) rfl rfl rfl rfl _ _ (show (slot1 sendA1 0).view.read (Elt Ideal) _ = Values.S1v m c 0 from Proto.read_slotBuf _ _ _) _ rfl) $$ [X2_0 Y3_0 HO Ta1s0 Ta1r0]
  · isplitl []; · iexact Ia1s0
    isplitl []; · iexact Ja1r0
    isplitl [X2_0]; · iexact X2_0
    isplitl [Y3_0]; · iexact Y3_0
    isplitl [HO]; · iexact HO
    isplitl [Ta1s0]; · iexact Ta1s0
    isplitl []; · iexact Sa1s0
    isplitl [Ta1r0]; · iexact Ta1r0
    iexact Ra1r0
  iintro ⟨X2_0_cred, HO⟩
  set_option sl_exec.stepHeartbeats 400000 in
  set_option sl_exec.respelt true in
  sl_exec_parts
  icases Y3s with ⟨Y3_1, Y3s⟩
  -- what slot 1 of the send buffer holds: the device's product for its partner's rows
  sl_unfold_run_names
  try rw [← BodyLocal.abPieces.eq_1 c (astg m c)]
  try rw [← BodyLocal.bbPieces.eq_1 (bstg m c)]
  ihave X2_1 := (Entails.of_eq (Restate.restate1_1 c (astg m c) (bstg m c) f2)) $$ X2_1
  -- stage 1, chunk 1: the copy to the partner, by the send rule
  try sl_respell []
  iapply (SendRules.send1 (Values.S1v m) (Values.P2v m) (Values.P3v m) K c 1 (by first | rfl | exact dev9_eq c) rfl rfl rfl rfl _ _ (show (slot1 sendA1 1).view.read (Elt Ideal) _ = Values.S1v m c 1 from Proto.read_slotBuf _ _ _) _ rfl) $$ [X2_1 Y3_1 HO Ta1s1 Ta1r1]
  · isplitl []; · iexact Ia1s1
    isplitl []; · iexact Ja1r1
    isplitl [X2_1]; · iexact X2_1
    isplitl [Y3_1]; · iexact Y3_1
    isplitl [HO]; · iexact HO
    isplitl [Ta1s1]; · iexact Ta1s1
    isplitl []; · iexact Sa1s1
    isplitl [Ta1r1]; · iexact Ta1r1
    iexact Ra1r1
  iintro ⟨X2_1_cred, HO⟩
  set_option sl_exec.stepHeartbeats 400000 in
  set_option sl_exec.respelt true in
  sl_exec_parts
  icases Y3s with ⟨Y3_2, Y3s⟩
  -- what slot 2 of the send buffer holds: the device's product for its partner's rows
  sl_unfold_run_names
  try rw [← BodyLocal.abPieces.eq_1 c (astg m c)]
  try rw [← BodyLocal.bbPieces.eq_1 (bstg m c)]
  ihave X2_2 := (Entails.of_eq (Restate.restate1_2 c (astg m c) (bstg m c) f2)) $$ X2_2
  -- stage 1, chunk 2: the copy to the partner, by the send rule
  try sl_respell []
  iapply (SendRules.send1 (Values.S1v m) (Values.P2v m) (Values.P3v m) K c 2 (by first | rfl | exact dev10_eq c) rfl rfl rfl rfl _ _ (show (slot1 sendA1 2).view.read (Elt Ideal) _ = Values.S1v m c 2 from Proto.read_slotBuf _ _ _) _ rfl) $$ [X2_2 Y3_2 HO Ta1s2 Ta1r2]
  · isplitl []; · iexact Ia1s2
    isplitl []; · iexact Ja1r2
    isplitl [X2_2]; · iexact X2_2
    isplitl [Y3_2]; · iexact Y3_2
    isplitl [HO]; · iexact HO
    isplitl [Ta1s2]; · iexact Ta1s2
    isplitl []; · iexact Sa1s2
    isplitl [Ta1r2]; · iexact Ta1r2
    iexact Ra1r2
  iintro ⟨X2_2_cred, HO⟩
  set_option sl_exec.stepHeartbeats 400000 in
  set_option sl_exec.respelt true in
  sl_exec_parts
  icases Y3s with ⟨Y3_3, Y3s⟩
  -- what slot 3 of the send buffer holds: the device's product for its partner's rows
  sl_unfold_run_names
  try rw [← BodyLocal.abPieces.eq_1 c (astg m c)]
  try rw [← BodyLocal.bbPieces.eq_1 (bstg m c)]
  ihave X2_3 := (Entails.of_eq (Restate.restate1_3 c (astg m c) (bstg m c) f2)) $$ X2_3
  -- stage 1, chunk 3: the copy to the partner, by the send rule
  try sl_respell []
  iapply (SendRules.send1 (Values.S1v m) (Values.P2v m) (Values.P3v m) K c 3 (by first | rfl | exact dev11_eq c) rfl rfl rfl rfl _ _ (show (slot1 sendA1 3).view.read (Elt Ideal) _ = Values.S1v m c 3 from Proto.read_slotBuf _ _ _) _ rfl) $$ [X2_3 Y3_3 HO Ta1s3 Ta1r3]
  · isplitl []; · iexact Ia1s3
    isplitl []; · iexact Ja1r3
    isplitl [X2_3]; · iexact X2_3
    isplitl [Y3_3]; · iexact Y3_3
    isplitl [HO]; · iexact HO
    isplitl [Ta1s3]; · iexact Ta1s3
    isplitl []; · iexact Sa1s3
    isplitl [Ta1r3]; · iexact Ta1r3
    iexact Ra1r3
  iintro ⟨X2_3_cred, HO⟩
  set_option sl_exec.stepHeartbeats 400000 in
  set_option sl_exec.respelt true in
  sl_exec_parts
  icases Y3s with ⟨Y3_4, Y3s⟩
  -- what slot 4 of the send buffer holds: the device's product for its partner's rows
  sl_unfold_run_names
  try rw [← BodyLocal.abPieces.eq_1 c (astg m c)]
  try rw [← BodyLocal.bbPieces.eq_1 (bstg m c)]
  ihave X2_4 := (Entails.of_eq (Restate.restate1_4 c (astg m c) (bstg m c) f2)) $$ X2_4
  -- stage 1, chunk 4: the copy to the partner, by the send rule
  try sl_respell []
  iapply (SendRules.send1 (Values.S1v m) (Values.P2v m) (Values.P3v m) K c 4 (by first | rfl | exact dev12_eq c) rfl rfl rfl rfl _ _ (show (slot1 sendA1 4).view.read (Elt Ideal) _ = Values.S1v m c 4 from Proto.read_slotBuf _ _ _) _ rfl) $$ [X2_4 Y3_4 HO Ta1s4 Ta1r4]
  · isplitl []; · iexact Ia1s4
    isplitl []; · iexact Ja1r4
    isplitl [X2_4]; · iexact X2_4
    isplitl [Y3_4]; · iexact Y3_4
    isplitl [HO]; · iexact HO
    isplitl [Ta1s4]; · iexact Ta1s4
    isplitl []; · iexact Sa1s4
    isplitl [Ta1r4]; · iexact Ta1r4
    iexact Ra1r4
  iintro ⟨X2_4_cred, HO⟩
  set_option sl_exec.stepHeartbeats 400000 in
  set_option sl_exec.respelt true in
  sl_exec_parts
  icases Y3s with ⟨Y3_5, Y3s⟩
  -- what slot 5 of the send buffer holds: the device's product for its partner's rows
  sl_unfold_run_names
  try rw [← BodyLocal.abPieces.eq_1 c (astg m c)]
  try rw [← BodyLocal.bbPieces.eq_1 (bstg m c)]
  ihave X2_5 := (Entails.of_eq (Restate.restate1_5 c (astg m c) (bstg m c) f2)) $$ X2_5
  -- stage 1, chunk 5: the copy to the partner, by the send rule
  try sl_respell []
  iapply (SendRules.send1 (Values.S1v m) (Values.P2v m) (Values.P3v m) K c 5 (by first | rfl | exact dev13_eq c) rfl rfl rfl rfl _ _ (show (slot1 sendA1 5).view.read (Elt Ideal) _ = Values.S1v m c 5 from Proto.read_slotBuf _ _ _) _ rfl) $$ [X2_5 Y3_5 HO Ta1s5 Ta1r5]
  · isplitl []; · iexact Ia1s5
    isplitl []; · iexact Ja1r5
    isplitl [X2_5]; · iexact X2_5
    isplitl [Y3_5]; · iexact Y3_5
    isplitl [HO]; · iexact HO
    isplitl [Ta1s5]; · iexact Ta1s5
    isplitl []; · iexact Sa1s5
    isplitl [Ta1r5]; · iexact Ta1r5
    iexact Ra1r5
  iintro ⟨X2_5_cred, HO⟩
  set_option sl_exec.stepHeartbeats 400000 in
  set_option sl_exec.respelt true in
  sl_exec_parts
  icases Y3s with ⟨Y3_6, Y3_7⟩
  -- what slot 6 of the send buffer holds: the device's product for its partner's rows
  sl_unfold_run_names
  try rw [← BodyLocal.abPieces.eq_1 c (astg m c)]
  try rw [← BodyLocal.bbPieces.eq_1 (bstg m c)]
  ihave X2_6 := (Entails.of_eq (Restate.restate1_6 c (astg m c) (bstg m c) f2)) $$ X2_6
  -- stage 1, chunk 6: the copy to the partner, by the send rule
  try sl_respell []
  iapply (SendRules.send1 (Values.S1v m) (Values.P2v m) (Values.P3v m) K c 6 (by first | rfl | exact dev14_eq c) rfl rfl rfl rfl _ _ (show (slot1 sendA1 6).view.read (Elt Ideal) _ = Values.S1v m c 6 from Proto.read_slotBuf _ _ _) _ rfl) $$ [X2_6 Y3_6 HO Ta1s6 Ta1r6]
  · isplitl []; · iexact Ia1s6
    isplitl []; · iexact Ja1r6
    isplitl [X2_6]; · iexact X2_6
    isplitl [Y3_6]; · iexact Y3_6
    isplitl [HO]; · iexact HO
    isplitl [Ta1s6]; · iexact Ta1s6
    isplitl []; · iexact Sa1s6
    isplitl [Ta1r6]; · iexact Ta1r6
    iexact Ra1r6
  iintro ⟨X2_6_cred, HO⟩
  set_option sl_exec.stepHeartbeats 400000 in
  set_option sl_exec.respelt true in
  sl_exec_parts
  -- what slot 7 of the send buffer holds: the device's product for its partner's rows
  sl_unfold_run_names
  try rw [← BodyLocal.abPieces.eq_1 c (astg m c)]
  try rw [← BodyLocal.bbPieces.eq_1 (bstg m c)]
  ihave X2_7 := (Entails.of_eq (Restate.restate1_7 c (astg m c) (bstg m c) f2)) $$ X2_7
  -- stage 1, chunk 7: the copy to the partner, by the send rule
  try sl_respell []
  iapply (SendRules.send1 (Values.S1v m) (Values.P2v m) (Values.P3v m) K c 7 (by first | rfl | exact dev15_eq c) rfl rfl rfl rfl _ _ (show (slot1 sendA1 7).view.read (Elt Ideal) _ = Values.S1v m c 7 from Proto.read_slotBuf _ _ _) _ rfl) $$ [X2_7 Y3_7 HO Ta1s7 Ta1r7]
  · isplitl []; · iexact Ia1s7
    isplitl []; · iexact Ja1r7
    isplitl [X2_7]; · iexact X2_7
    isplitl [Y3_7]; · iexact Y3_7
    isplitl [HO]; · iexact HO
    isplitl [Ta1s7]; · iexact Ta1s7
    isplitl []; · iexact Sa1s7
    isplitl [Ta1r7]; · iexact Ta1r7
    iexact Ra1r7
  iintro ⟨X2_7_cred, HO⟩
  have hmwA1_0 : (levAts L lv : sProp 𝕄) ⊢ MayWait (c : Thread nD τ) (.dma (sem8 cc0_scratch10 0)) () (Oafter c 15) := mayWait_a1r c 0 15 (by decide)
  set_option sl_exec.stepHeartbeats 400000 in
  set_option sl_exec.respelt true in
  sl_exec_parts
  clear hmwA1_0
  ihave X5c0 := (Entails.of_eq (chunk2_by_step sendA2 (yc c) 0 c _)) $$ C5_0
  icases X5c0 with ⟨X5_0_1, XR5_0⟩
  -- what chunk 0 of the stage-2 send buffer holds: the partner's landed product plus the kept one
  sl_unfold_run_names
  first | rw [← BodyLocal.abPieces.eq_1 c (astg m c)] | skip
  first | rw [← BodyLocal.bbPieces.eq_1 (bstg m c)] | skip
  first | rw [← RestateOwn.ownPieces.eq_1 c (astg m c) (bstg m c)] | skip
  have hW0 : k0_pay58 (View.readAt (Elt F) (Memref.whole cc0_scratch3).view (Rect.unit (s := S8x4x4x32x128) ![0, 0, 0, 0, 0] S1x4x4x32x128.size inb_S8x4x4x32x128_S1x4x4x32x128_0_0_0_0_0).toLoadRect (slotBuf (slot1 commA1 0).view h_S4x4x32x128 (Values.S1v m (partner c) 0))) ((Memref.whole cc0_scratch4).view.readCov (RestateOwn.ownPieces c (astg m c) (bstg m c)) (Rect.unit (s := S8x4x4x32x128) ![0, 0, 0, 0, 0] S1x4x4x32x128.size inb_S8x4x4x32x128_S1x4x4x32x128_0_0_0_0_0).toLoadRect) = Values.PAIRv m c 0 := by
    rw [ReadGeom.read_slot1_commA1 0 ![0, 0, 0, 0, 0] rfl inb_S8x4x4x32x128_S1x4x4x32x128_0_0_0_0_0, RestateOwn.readCov_own_0]; rfl
  ihave X5_0_1 := (Entails.of_eq (Restate.restate2v_0 m c 1 _ _ hW0)) $$ X5_0_1
  -- stage 2, chunk 0, step 1
  try sl_respell []
  iapply (SendRules.send2 (Values.S1v m) (Values.P2v m) (Values.P3v m) K c 0 1 (by decide) (by first | rfl | exact dev16_eq c) (by first | rfl | exact Canon.slice_off6_w0_1 _ c _ _) (by first | rfl | exact Canon.slice_off5_w0 _ c _ _) (by first | rfl | exact congrArg SemLoc.dma (Canon.sem_off3_w0_1 _ c _ _)) (by first | rfl | exact congrArg SemLoc.dma (Canon.sem_off4_w0 _ c _ _)) _ _ (show (slot2 sendA2 (slot (yc c) 0 1)).view.read (Elt Ideal) _ = Values.P2v m c (slot (yc c) 0 1) from Proto.read_slotBuf _ _ _) _ rfl) $$ [X5_0_1 Y6r1_0 HO Ta2s0_1 Ta2r0_1]
  · isplitl []; · iexact Ia2s0_1
    isplitl []; · iexact Ja2r0_1
    isplitl [X5_0_1]; · iexact X5_0_1
    isplitl [Y6r1_0]; · iexact Y6r1_0
    isplitl [HO]; · iexact HO
    isplitl [Ta2s0_1]; · iexact Ta2s0_1
    isplitl []; · iexact Sa2s0_1
    isplitl [Ta2r0_1]; · iexact Ta2r0_1
    iexact Ra2r0_1
  iintro ⟨X5_0_1_cred, HO⟩
  set_option sl_exec.stepHeartbeats 400000 in
  set_option sl_exec.respelt true in
  sl_exec_parts
  icases XR5_0 with ⟨X5_0_2, XR5_0⟩
  ihave X5_0_2 := (Entails.of_eq (Restate.restate2v_0 m c 2 _ _ hW0)) $$ X5_0_2
  -- stage 2, chunk 0, step 2
  try sl_respell []
  iapply (SendRules.send2 (Values.S1v m) (Values.P2v m) (Values.P3v m) K c 0 2 (by decide) (by first | rfl | exact dev17_eq c) (by first | rfl | exact Canon.slice_off6_w0_2 _ c _ _) (by first | rfl | exact Canon.slice_off5_w0 _ c _ _) (by first | rfl | exact congrArg SemLoc.dma (Canon.sem_off3_w0_2 _ c _ _)) (by first | rfl | exact congrArg SemLoc.dma (Canon.sem_off4_w0 _ c _ _)) _ _ (show (slot2 sendA2 (slot (yc c) 0 2)).view.read (Elt Ideal) _ = Values.P2v m c (slot (yc c) 0 2) from Proto.read_slotBuf _ _ _) _ rfl) $$ [X5_0_2 Y6r2_0 HO Ta2s0_2 Ta2r0_2]
  · isplitl []; · iexact Ia2s0_2
    isplitl []; · iexact Ja2r0_2
    isplitl [X5_0_2]; · iexact X5_0_2
    isplitl [Y6r2_0]; · iexact Y6r2_0
    isplitl [HO]; · iexact HO
    isplitl [Ta2s0_2]; · iexact Ta2s0_2
    isplitl []; · iexact Sa2s0_2
    isplitl [Ta2r0_2]; · iexact Ta2r0_2
    iexact Ra2r0_2
  iintro ⟨X5_0_2_cred, HO⟩
  set_option sl_exec.stepHeartbeats 400000 in
  set_option sl_exec.respelt true in
  sl_exec_parts
  icases XR5_0 with ⟨X5_0_3, X5_0_0⟩
  ihave X5_0_3 := (Entails.of_eq (Restate.restate2v_0 m c 3 _ _ hW0)) $$ X5_0_3
  -- stage 2, chunk 0, step 3
  try sl_respell []
  iapply (SendRules.send2 (Values.S1v m) (Values.P2v m) (Values.P3v m) K c 0 3 (by decide) (by first | rfl | exact dev18_eq c) (by first | rfl | exact Canon.slice_off6_w0_3 _ c _ _) (by first | rfl | exact Canon.slice_off5_w0 _ c _ _) (by first | rfl | exact congrArg SemLoc.dma (Canon.sem_off3_w0_3 _ c _ _)) (by first | rfl | exact congrArg SemLoc.dma (Canon.sem_off4_w0 _ c _ _)) _ _ (show (slot2 sendA2 (slot (yc c) 0 3)).view.read (Elt Ideal) _ = Values.P2v m c (slot (yc c) 0 3) from Proto.read_slotBuf _ _ _) _ rfl) $$ [X5_0_3 Y6r3_0 HO Ta2s0_3 Ta2r0_3]
  · isplitl []; · iexact Ia2s0_3
    isplitl []; · iexact Ja2r0_3
    isplitl [X5_0_3]; · iexact X5_0_3
    isplitl [Y6r3_0]; · iexact Y6r3_0
    isplitl [HO]; · iexact HO
    isplitl [Ta2s0_3]; · iexact Ta2s0_3
    isplitl []; · iexact Sa2s0_3
    isplitl [Ta2r0_3]; · iexact Ta2r0_3
    iexact Ra2r0_3
  iintro ⟨X5_0_3_cred, HO⟩
  ihave X5_0_0 := (Entails.of_eq (Restate.restate2v_0 m c 0 _ _ hW0)) $$ X5_0_0
  clear hW0
  have hmwA1_1 : (levAts L lv : sProp 𝕄) ⊢ MayWait (c : Thread nD τ) (.dma (sem8 cc0_scratch10 1)) () (Oafter c 18) := mayWait_a1r c 1 18 (by decide)
  set_option sl_exec.stepHeartbeats 400000 in
  set_option sl_exec.respelt true in
  sl_exec_parts
  clear hmwA1_1
  ihave X5c1 := (Entails.of_eq (chunk2_by_step sendA2 (yc c) 1 c _)) $$ C5_1
  icases X5c1 with ⟨X5_1_1, XR5_1⟩
  -- what chunk 1 of the stage-2 send buffer holds: the partner's landed product plus the kept one
  sl_unfold_run_names
  first | rw [← BodyLocal.abPieces.eq_1 c (astg m c)] | skip
  first | rw [← BodyLocal.bbPieces.eq_1 (bstg m c)] | skip
  first | rw [← RestateOwn.ownPieces.eq_1 c (astg m c) (bstg m c)] | skip
  have hW1 : k0_pay59 (View.readAt (Elt F) (Memref.whole cc0_scratch3).view (Rect.unit (s := S8x4x4x32x128) ![1, 0, 0, 0, 0] S1x4x4x32x128.size inb_S8x4x4x32x128_S1x4x4x32x128_1_0_0_0_0).toLoadRect (slotBuf (slot1 commA1 1).view h_S4x4x32x128 (Values.S1v m (partner c) 1))) ((Memref.whole cc0_scratch4).view.readCov (RestateOwn.ownPieces c (astg m c) (bstg m c)) (Rect.unit (s := S8x4x4x32x128) ![1, 0, 0, 0, 0] S1x4x4x32x128.size inb_S8x4x4x32x128_S1x4x4x32x128_1_0_0_0_0).toLoadRect) = Values.PAIRv m c 1 := by
    rw [PayFamilies.pay59_eq]
    rw [ReadGeom.read_slot1_commA1 1 ![1, 0, 0, 0, 0] rfl inb_S8x4x4x32x128_S1x4x4x32x128_1_0_0_0_0, RestateOwn.readCov_own_1]; rfl
  ihave X5_1_1 := (Entails.of_eq (Restate.restate2v_1 m c 1 _ _ hW1)) $$ X5_1_1
  -- stage 2, chunk 1, step 1
  try sl_respell []
  iapply (SendRules.send2 (Values.S1v m) (Values.P2v m) (Values.P3v m) K c 1 1 (by decide) (by first | rfl | exact dev19_eq c) (by first | rfl | exact Canon.slice_off6_w4_1 _ c _ _) (by first | rfl | exact Canon.slice_off5_w4 _ c _ _) (by first | rfl | exact congrArg SemLoc.dma (Canon.sem_off3_w4_1 _ c _ _)) (by first | rfl | exact congrArg SemLoc.dma (Canon.sem_off4_w4 _ c _ _)) _ _ (show (slot2 sendA2 (slot (yc c) 1 1)).view.read (Elt Ideal) _ = Values.P2v m c (slot (yc c) 1 1) from Proto.read_slotBuf _ _ _) _ rfl) $$ [X5_1_1 Y6r1_1 HO Ta2s1_1 Ta2r1_1]
  · isplitl []; · iexact Ia2s1_1
    isplitl []; · iexact Ja2r1_1
    isplitl [X5_1_1]; · iexact X5_1_1
    isplitl [Y6r1_1]; · iexact Y6r1_1
    isplitl [HO]; · iexact HO
    isplitl [Ta2s1_1]; · iexact Ta2s1_1
    isplitl []; · iexact Sa2s1_1
    isplitl [Ta2r1_1]; · iexact Ta2r1_1
    iexact Ra2r1_1
  iintro ⟨X5_1_1_cred, HO⟩
  set_option sl_exec.stepHeartbeats 400000 in
  set_option sl_exec.respelt true in
  sl_exec_parts
  icases XR5_1 with ⟨X5_1_2, XR5_1⟩
  ihave X5_1_2 := (Entails.of_eq (Restate.restate2v_1 m c 2 _ _ hW1)) $$ X5_1_2
  -- stage 2, chunk 1, step 2
  try sl_respell []
  iapply (SendRules.send2 (Values.S1v m) (Values.P2v m) (Values.P3v m) K c 1 2 (by decide) (by first | rfl | exact dev20_eq c) (by first | rfl | exact Canon.slice_off6_w4_2 _ c _ _) (by first | rfl | exact Canon.slice_off5_w4 _ c _ _) (by first | rfl | exact congrArg SemLoc.dma (Canon.sem_off3_w4_2 _ c _ _)) (by first | rfl | exact congrArg SemLoc.dma (Canon.sem_off4_w4 _ c _ _)) _ _ (show (slot2 sendA2 (slot (yc c) 1 2)).view.read (Elt Ideal) _ = Values.P2v m c (slot (yc c) 1 2) from Proto.read_slotBuf _ _ _) _ rfl) $$ [X5_1_2 Y6r2_1 HO Ta2s1_2 Ta2r1_2]
  · isplitl []; · iexact Ia2s1_2
    isplitl []; · iexact Ja2r1_2
    isplitl [X5_1_2]; · iexact X5_1_2
    isplitl [Y6r2_1]; · iexact Y6r2_1
    isplitl [HO]; · iexact HO
    isplitl [Ta2s1_2]; · iexact Ta2s1_2
    isplitl []; · iexact Sa2s1_2
    isplitl [Ta2r1_2]; · iexact Ta2r1_2
    iexact Ra2r1_2
  iintro ⟨X5_1_2_cred, HO⟩
  set_option sl_exec.stepHeartbeats 400000 in
  set_option sl_exec.respelt true in
  sl_exec_parts
  icases XR5_1 with ⟨X5_1_3, X5_1_0⟩
  ihave X5_1_3 := (Entails.of_eq (Restate.restate2v_1 m c 3 _ _ hW1)) $$ X5_1_3
  -- stage 2, chunk 1, step 3
  try sl_respell []
  iapply (SendRules.send2 (Values.S1v m) (Values.P2v m) (Values.P3v m) K c 1 3 (by decide) (by first | rfl | exact dev21_eq c) (by first | rfl | exact Canon.slice_off6_w4_3 _ c _ _) (by first | rfl | exact Canon.slice_off5_w4 _ c _ _) (by first | rfl | exact congrArg SemLoc.dma (Canon.sem_off3_w4_3 _ c _ _)) (by first | rfl | exact congrArg SemLoc.dma (Canon.sem_off4_w4 _ c _ _)) _ _ (show (slot2 sendA2 (slot (yc c) 1 3)).view.read (Elt Ideal) _ = Values.P2v m c (slot (yc c) 1 3) from Proto.read_slotBuf _ _ _) _ rfl) $$ [X5_1_3 Y6r3_1 HO Ta2s1_3 Ta2r1_3]
  · isplitl []; · iexact Ia2s1_3
    isplitl []; · iexact Ja2r1_3
    isplitl [X5_1_3]; · iexact X5_1_3
    isplitl [Y6r3_1]; · iexact Y6r3_1
    isplitl [HO]; · iexact HO
    isplitl [Ta2s1_3]; · iexact Ta2s1_3
    isplitl []; · iexact Sa2s1_3
    isplitl [Ta2r1_3]; · iexact Ta2r1_3
    iexact Ra2r1_3
  iintro ⟨X5_1_3_cred, HO⟩
  ihave X5_1_0 := (Entails.of_eq (Restate.restate2v_1 m c 0 _ _ hW1)) $$ X5_1_0
  clear hW1
  have hmwA1_2 : (levAts L lv : sProp 𝕄) ⊢ MayWait (c : Thread nD τ) (.dma (sem8 cc0_scratch10 2)) () (Oafter c 21) := mayWait_a1r c 2 21 (by decide)
  set_option sl_exec.stepHeartbeats 400000 in
  set_option sl_exec.respelt true in
  sl_exec_parts
  clear hmwA1_2
  ihave X5c2 := (Entails.of_eq (chunk2_by_step sendA2 (yc c) 2 c _)) $$ C5_2
  icases X5c2 with ⟨X5_2_1, XR5_2⟩
  -- what chunk 2 of the stage-2 send buffer holds: the partner's landed product plus the kept one
  sl_unfold_run_names
  first | rw [← BodyLocal.abPieces.eq_1 c (astg m c)] | skip
  first | rw [← BodyLocal.bbPieces.eq_1 (bstg m c)] | skip
  first | rw [← RestateOwn.ownPieces.eq_1 c (astg m c) (bstg m c)] | skip
  have hW2 : k0_pay60 (View.readAt (Elt F) (Memref.whole cc0_scratch3).view (Rect.unit (s := S8x4x4x32x128) ![2, 0, 0, 0, 0] S1x4x4x32x128.size inb_S8x4x4x32x128_S1x4x4x32x128_2_0_0_0_0).toLoadRect (slotBuf (slot1 commA1 2).view h_S4x4x32x128 (Values.S1v m (partner c) 2))) ((Memref.whole cc0_scratch4).view.readCov (RestateOwn.ownPieces c (astg m c) (bstg m c)) (Rect.unit (s := S8x4x4x32x128) ![2, 0, 0, 0, 0] S1x4x4x32x128.size inb_S8x4x4x32x128_S1x4x4x32x128_2_0_0_0_0).toLoadRect) = Values.PAIRv m c 2 := by
    rw [PayFamilies.pay60_eq]
    rw [ReadGeom.read_slot1_commA1 2 ![2, 0, 0, 0, 0] rfl inb_S8x4x4x32x128_S1x4x4x32x128_2_0_0_0_0, RestateOwn.readCov_own_2]; rfl
  ihave X5_2_1 := (Entails.of_eq (Restate.restate2v_2 m c 1 _ _ hW2)) $$ X5_2_1
  -- stage 2, chunk 2, step 1
  try sl_respell []
  iapply (SendRules.send2 (Values.S1v m) (Values.P2v m) (Values.P3v m) K c 2 1 (by decide) (by first | rfl | exact dev22_eq c) (by first | rfl | exact Canon.slice_off6_w8_1 _ c _ _) (by first | rfl | exact Canon.slice_off5_w8 _ c _ _) (by first | rfl | exact congrArg SemLoc.dma (Canon.sem_off3_w8_1 _ c _ _)) (by first | rfl | exact congrArg SemLoc.dma (Canon.sem_off4_w8 _ c _ _)) _ _ (show (slot2 sendA2 (slot (yc c) 2 1)).view.read (Elt Ideal) _ = Values.P2v m c (slot (yc c) 2 1) from Proto.read_slotBuf _ _ _) _ rfl) $$ [X5_2_1 Y6r1_2 HO Ta2s2_1 Ta2r2_1]
  · isplitl []; · iexact Ia2s2_1
    isplitl []; · iexact Ja2r2_1
    isplitl [X5_2_1]; · iexact X5_2_1
    isplitl [Y6r1_2]; · iexact Y6r1_2
    isplitl [HO]; · iexact HO
    isplitl [Ta2s2_1]; · iexact Ta2s2_1
    isplitl []; · iexact Sa2s2_1
    isplitl [Ta2r2_1]; · iexact Ta2r2_1
    iexact Ra2r2_1
  iintro ⟨X5_2_1_cred, HO⟩
  set_option sl_exec.stepHeartbeats 400000 in
  set_option sl_exec.respelt true in
  sl_exec_parts
  icases XR5_2 with ⟨X5_2_2, XR5_2⟩
  ihave X5_2_2 := (Entails.of_eq (Restate.restate2v_2 m c 2 _ _ hW2)) $$ X5_2_2
  -- stage 2, chunk 2, step 2
  try sl_respell []
  iapply (SendRules.send2 (Values.S1v m) (Values.P2v m) (Values.P3v m) K c 2 2 (by decide) (by first | rfl | exact dev23_eq c) (by first | rfl | exact Canon.slice_off6_w8_2 _ c _ _) (by first | rfl | exact Canon.slice_off5_w8 _ c _ _) (by first | rfl | exact congrArg SemLoc.dma (Canon.sem_off3_w8_2 _ c _ _)) (by first | rfl | exact congrArg SemLoc.dma (Canon.sem_off4_w8 _ c _ _)) _ _ (show (slot2 sendA2 (slot (yc c) 2 2)).view.read (Elt Ideal) _ = Values.P2v m c (slot (yc c) 2 2) from Proto.read_slotBuf _ _ _) _ rfl) $$ [X5_2_2 Y6r2_2 HO Ta2s2_2 Ta2r2_2]
  · isplitl []; · iexact Ia2s2_2
    isplitl []; · iexact Ja2r2_2
    isplitl [X5_2_2]; · iexact X5_2_2
    isplitl [Y6r2_2]; · iexact Y6r2_2
    isplitl [HO]; · iexact HO
    isplitl [Ta2s2_2]; · iexact Ta2s2_2
    isplitl []; · iexact Sa2s2_2
    isplitl [Ta2r2_2]; · iexact Ta2r2_2
    iexact Ra2r2_2
  iintro ⟨X5_2_2_cred, HO⟩
  set_option sl_exec.stepHeartbeats 400000 in
  set_option sl_exec.respelt true in
  sl_exec_parts
  icases XR5_2 with ⟨X5_2_3, X5_2_0⟩
  ihave X5_2_3 := (Entails.of_eq (Restate.restate2v_2 m c 3 _ _ hW2)) $$ X5_2_3
  -- stage 2, chunk 2, step 3
  try sl_respell []
  iapply (SendRules.send2 (Values.S1v m) (Values.P2v m) (Values.P3v m) K c 2 3 (by decide) (by first | rfl | exact dev24_eq c) (by first | rfl | exact Canon.slice_off6_w8_3 _ c _ _) (by first | rfl | exact Canon.slice_off5_w8 _ c _ _) (by first | rfl | exact congrArg SemLoc.dma (Canon.sem_off3_w8_3 _ c _ _)) (by first | rfl | exact congrArg SemLoc.dma (Canon.sem_off4_w8 _ c _ _)) _ _ (show (slot2 sendA2 (slot (yc c) 2 3)).view.read (Elt Ideal) _ = Values.P2v m c (slot (yc c) 2 3) from Proto.read_slotBuf _ _ _) _ rfl) $$ [X5_2_3 Y6r3_2 HO Ta2s2_3 Ta2r2_3]
  · isplitl []; · iexact Ia2s2_3
    isplitl []; · iexact Ja2r2_3
    isplitl [X5_2_3]; · iexact X5_2_3
    isplitl [Y6r3_2]; · iexact Y6r3_2
    isplitl [HO]; · iexact HO
    isplitl [Ta2s2_3]; · iexact Ta2s2_3
    isplitl []; · iexact Sa2s2_3
    isplitl [Ta2r2_3]; · iexact Ta2r2_3
    iexact Ra2r2_3
  iintro ⟨X5_2_3_cred, HO⟩
  ihave X5_2_0 := (Entails.of_eq (Restate.restate2v_2 m c 0 _ _ hW2)) $$ X5_2_0
  clear hW2
  have hmwA1_3 : (levAts L lv : sProp 𝕄) ⊢ MayWait (c : Thread nD τ) (.dma (sem8 cc0_scratch10 3)) () (Oafter c 24) := mayWait_a1r c 3 24 (by decide)
  set_option sl_exec.stepHeartbeats 400000 in
  set_option sl_exec.respelt true in
  sl_exec_parts
  clear hmwA1_3
  ihave X5c3 := (Entails.of_eq (chunk2_by_step sendA2 (yc c) 3 c _)) $$ C5_3
  icases X5c3 with ⟨X5_3_1, XR5_3⟩
  -- what chunk 3 of the stage-2 send buffer holds: the partner's landed product plus the kept one
  sl_unfold_run_names
  first | rw [← BodyLocal.abPieces.eq_1 c (astg m c)] | skip
  first | rw [← BodyLocal.bbPieces.eq_1 (bstg m c)] | skip
  first | rw [← RestateOwn.ownPieces.eq_1 c (astg m c) (bstg m c)] | skip
  have hW3 : k0_pay62 (k0_pay61 (View.readAt (Elt F) (Memref.whole cc0_scratch3).view (Rect.unit (s := S8x4x4x32x128) ![3, 0, 0, 0, 0] S1x4x4x32x128.size inb_S8x4x4x32x128_S1x4x4x32x128_3_0_0_0_0).toLoadRect (slotBuf (slot1 commA1 3).view h_S4x4x32x128 (Values.S1v m (partner c) 3)))) ((Memref.whole cc0_scratch4).view.readCov (RestateOwn.ownPieces c (astg m c) (bstg m c)) (Rect.unit (s := S8x4x4x32x128) ![3, 0, 0, 0, 0] S1x4x4x32x128.size inb_S8x4x4x32x128_S1x4x4x32x128_3_0_0_0_0).toLoadRect) = Values.PAIRv m c 3 := by
    rw [PayFamilies.pay62_chain_eq]
    rw [ReadGeom.read_slot1_commA1 3 ![3, 0, 0, 0, 0] rfl inb_S8x4x4x32x128_S1x4x4x32x128_3_0_0_0_0, RestateOwn.readCov_own_3]; rfl
  ihave X5_3_1 := (Entails.of_eq (Restate.restate2v_3 m c 1 _ _ hW3)) $$ X5_3_1
  -- stage 2, chunk 3, step 1
  try sl_respell []
  iapply (SendRules.send2 (Values.S1v m) (Values.P2v m) (Values.P3v m) K c 3 1 (by decide) (by first | rfl | exact dev25_eq c) (by first | rfl | exact Canon.slice_off6_w12_1 _ c _ _) (by first | rfl | exact Canon.slice_off5_w12 _ c _ _) (by first | rfl | exact congrArg SemLoc.dma (Canon.sem_off3_w12_1 _ c _ _)) (by first | rfl | exact congrArg SemLoc.dma (Canon.sem_off4_w12 _ c _ _)) _ _ (show (slot2 sendA2 (slot (yc c) 3 1)).view.read (Elt Ideal) _ = Values.P2v m c (slot (yc c) 3 1) from Proto.read_slotBuf _ _ _) _ rfl) $$ [X5_3_1 Y6r1_3 HO Ta2s3_1 Ta2r3_1]
  · isplitl []; · iexact Ia2s3_1
    isplitl []; · iexact Ja2r3_1
    isplitl [X5_3_1]; · iexact X5_3_1
    isplitl [Y6r1_3]; · iexact Y6r1_3
    isplitl [HO]; · iexact HO
    isplitl [Ta2s3_1]; · iexact Ta2s3_1
    isplitl []; · iexact Sa2s3_1
    isplitl [Ta2r3_1]; · iexact Ta2r3_1
    iexact Ra2r3_1
  iintro ⟨X5_3_1_cred, HO⟩
  set_option sl_exec.stepHeartbeats 400000 in
  set_option sl_exec.respelt true in
  sl_exec_parts
  icases XR5_3 with ⟨X5_3_2, XR5_3⟩
  ihave X5_3_2 := (Entails.of_eq (Restate.restate2v_3 m c 2 _ _ hW3)) $$ X5_3_2
  -- stage 2, chunk 3, step 2
  try sl_respell []
  iapply (SendRules.send2 (Values.S1v m) (Values.P2v m) (Values.P3v m) K c 3 2 (by decide) (by first | rfl | exact dev26_eq c) (by first | rfl | exact Canon.slice_off6_w12_2 _ c _ _) (by first | rfl | exact Canon.slice_off5_w12 _ c _ _) (by first | rfl | exact congrArg SemLoc.dma (Canon.sem_off3_w12_2 _ c _ _)) (by first | rfl | exact congrArg SemLoc.dma (Canon.sem_off4_w12 _ c _ _)) _ _ (show (slot2 sendA2 (slot (yc c) 3 2)).view.read (Elt Ideal) _ = Values.P2v m c (slot (yc c) 3 2) from Proto.read_slotBuf _ _ _) _ rfl) $$ [X5_3_2 Y6r2_3 HO Ta2s3_2 Ta2r3_2]
  · isplitl []; · iexact Ia2s3_2
    isplitl []; · iexact Ja2r3_2
    isplitl [X5_3_2]; · iexact X5_3_2
    isplitl [Y6r2_3]; · iexact Y6r2_3
    isplitl [HO]; · iexact HO
    isplitl [Ta2s3_2]; · iexact Ta2s3_2
    isplitl []; · iexact Sa2s3_2
    isplitl [Ta2r3_2]; · iexact Ta2r3_2
    iexact Ra2r3_2
  iintro ⟨X5_3_2_cred, HO⟩
  set_option sl_exec.stepHeartbeats 400000 in
  set_option sl_exec.respelt true in
  sl_exec_parts
  icases XR5_3 with ⟨X5_3_3, X5_3_0⟩
  ihave X5_3_3 := (Entails.of_eq (Restate.restate2v_3 m c 3 _ _ hW3)) $$ X5_3_3
  -- stage 2, chunk 3, step 3
  try sl_respell []
  iapply (SendRules.send2 (Values.S1v m) (Values.P2v m) (Values.P3v m) K c 3 3 (by decide) (by first | rfl | exact dev27_eq c) (by first | rfl | exact Canon.slice_off6_w12_3 _ c _ _) (by first | rfl | exact Canon.slice_off5_w12 _ c _ _) (by first | rfl | exact congrArg SemLoc.dma (Canon.sem_off3_w12_3 _ c _ _)) (by first | rfl | exact congrArg SemLoc.dma (Canon.sem_off4_w12 _ c _ _)) _ _ (show (slot2 sendA2 (slot (yc c) 3 3)).view.read (Elt Ideal) _ = Values.P2v m c (slot (yc c) 3 3) from Proto.read_slotBuf _ _ _) _ rfl) $$ [X5_3_3 Y6r3_3 HO Ta2s3_3 Ta2r3_3]
  · isplitl []; · iexact Ia2s3_3
    isplitl []; · iexact Ja2r3_3
    isplitl [X5_3_3]; · iexact X5_3_3
    isplitl [Y6r3_3]; · iexact Y6r3_3
    isplitl [HO]; · iexact HO
    isplitl [Ta2s3_3]; · iexact Ta2s3_3
    isplitl []; · iexact Sa2s3_3
    isplitl [Ta2r3_3]; · iexact Ta2r3_3
    iexact Ra2r3_3
  iintro ⟨X5_3_3_cred, HO⟩
  ihave X5_3_0 := (Entails.of_eq (Restate.restate2v_3 m c 0 _ _ hW3)) $$ X5_3_0
  clear hW3
  have hmwA1_4 : (levAts L lv : sProp 𝕄) ⊢ MayWait (c : Thread nD τ) (.dma (sem8 cc0_scratch10 4)) () (Oafter c 27) := mayWait_a1r c 4 27 (by decide)
  set_option sl_exec.stepHeartbeats 400000 in
  set_option sl_exec.respelt true in
  sl_exec_parts
  clear hmwA1_4
  ihave X5c4 := (Entails.of_eq (chunk2_by_step sendA2 (yc c) 4 c _)) $$ C5_4
  icases X5c4 with ⟨X5_4_1, XR5_4⟩
  -- what chunk 4 of the stage-2 send buffer holds: the partner's landed product plus the kept one
  sl_unfold_run_names
  first | rw [← BodyLocal.abPieces.eq_1 c (astg m c)] | skip
  first | rw [← BodyLocal.bbPieces.eq_1 (bstg m c)] | skip
  first | rw [← RestateOwn.ownPieces.eq_1 c (astg m c) (bstg m c)] | skip
  have hW4 : k0_pay63 (View.readAt (Elt F) (Memref.whole cc0_scratch3).view (Rect.unit (s := S8x4x4x32x128) ![4, 0, 0, 0, 0] S1x4x4x32x128.size inb_S8x4x4x32x128_S1x4x4x32x128_4_0_0_0_0).toLoadRect (slotBuf (slot1 commA1 4).view h_S4x4x32x128 (Values.S1v m (partner c) 4))) ((Memref.whole cc0_scratch4).view.readCov (RestateOwn.ownPieces c (astg m c) (bstg m c)) (Rect.unit (s := S8x4x4x32x128) ![4, 0, 0, 0, 0] S1x4x4x32x128.size inb_S8x4x4x32x128_S1x4x4x32x128_4_0_0_0_0).toLoadRect) = Values.PAIRv m c 4 := by
    rw [PayFamilies.pay63_eq]
    rw [ReadGeom.read_slot1_commA1 4 ![4, 0, 0, 0, 0] rfl inb_S8x4x4x32x128_S1x4x4x32x128_4_0_0_0_0, RestateOwn.readCov_own_4]; rfl
  ihave X5_4_1 := (Entails.of_eq (Restate.restate2v_4 m c 1 _ _ hW4)) $$ X5_4_1
  -- stage 2, chunk 4, step 1
  try sl_respell []
  iapply (SendRules.send2 (Values.S1v m) (Values.P2v m) (Values.P3v m) K c 4 1 (by decide) (by first | rfl | exact dev28_eq c) (by first | rfl | exact Canon.slice_off6_w16_1 _ c _ _) (by first | rfl | exact Canon.slice_off5_w16 _ c _ _) (by first | rfl | exact congrArg SemLoc.dma (Canon.sem_off3_w16_1 _ c _ _)) (by first | rfl | exact congrArg SemLoc.dma (Canon.sem_off4_w16 _ c _ _)) _ _ (show (slot2 sendA2 (slot (yc c) 4 1)).view.read (Elt Ideal) _ = Values.P2v m c (slot (yc c) 4 1) from Proto.read_slotBuf _ _ _) _ rfl) $$ [X5_4_1 Y6r1_4 HO Ta2s4_1 Ta2r4_1]
  · isplitl []; · iexact Ia2s4_1
    isplitl []; · iexact Ja2r4_1
    isplitl [X5_4_1]; · iexact X5_4_1
    isplitl [Y6r1_4]; · iexact Y6r1_4
    isplitl [HO]; · iexact HO
    isplitl [Ta2s4_1]; · iexact Ta2s4_1
    isplitl []; · iexact Sa2s4_1
    isplitl [Ta2r4_1]; · iexact Ta2r4_1
    iexact Ra2r4_1
  iintro ⟨X5_4_1_cred, HO⟩
  set_option sl_exec.stepHeartbeats 400000 in
  set_option sl_exec.respelt true in
  sl_exec_parts
  icases XR5_4 with ⟨X5_4_2, XR5_4⟩
  ihave X5_4_2 := (Entails.of_eq (Restate.restate2v_4 m c 2 _ _ hW4)) $$ X5_4_2
  -- stage 2, chunk 4, step 2
  try sl_respell []
  iapply (SendRules.send2 (Values.S1v m) (Values.P2v m) (Values.P3v m) K c 4 2 (by decide) (by first | rfl | exact dev29_eq c) (by first | rfl | exact Canon.slice_off6_w16_2 _ c _ _) (by first | rfl | exact Canon.slice_off5_w16 _ c _ _) (by first | rfl | exact congrArg SemLoc.dma (Canon.sem_off3_w16_2 _ c _ _)) (by first | rfl | exact congrArg SemLoc.dma (Canon.sem_off4_w16 _ c _ _)) _ _ (show (slot2 sendA2 (slot (yc c) 4 2)).view.read (Elt Ideal) _ = Values.P2v m c (slot (yc c) 4 2) from Proto.read_slotBuf _ _ _) _ rfl) $$ [X5_4_2 Y6r2_4 HO Ta2s4_2 Ta2r4_2]
  · isplitl []; · iexact Ia2s4_2
    isplitl []; · iexact Ja2r4_2
    isplitl [X5_4_2]; · iexact X5_4_2
    isplitl [Y6r2_4]; · iexact Y6r2_4
    isplitl [HO]; · iexact HO
    isplitl [Ta2s4_2]; · iexact Ta2s4_2
    isplitl []; · iexact Sa2s4_2
    isplitl [Ta2r4_2]; · iexact Ta2r4_2
    iexact Ra2r4_2
  iintro ⟨X5_4_2_cred, HO⟩
  set_option sl_exec.stepHeartbeats 400000 in
  set_option sl_exec.respelt true in
  sl_exec_parts
  icases XR5_4 with ⟨X5_4_3, X5_4_0⟩
  ihave X5_4_3 := (Entails.of_eq (Restate.restate2v_4 m c 3 _ _ hW4)) $$ X5_4_3
  -- stage 2, chunk 4, step 3
  try sl_respell []
  iapply (SendRules.send2 (Values.S1v m) (Values.P2v m) (Values.P3v m) K c 4 3 (by decide) (by first | rfl | exact dev30_eq c) (by first | rfl | exact Canon.slice_off6_w16_3 _ c _ _) (by first | rfl | exact Canon.slice_off5_w16 _ c _ _) (by first | rfl | exact congrArg SemLoc.dma (Canon.sem_off3_w16_3 _ c _ _)) (by first | rfl | exact congrArg SemLoc.dma (Canon.sem_off4_w16 _ c _ _)) _ _ (show (slot2 sendA2 (slot (yc c) 4 3)).view.read (Elt Ideal) _ = Values.P2v m c (slot (yc c) 4 3) from Proto.read_slotBuf _ _ _) _ rfl) $$ [X5_4_3 Y6r3_4 HO Ta2s4_3 Ta2r4_3]
  · isplitl []; · iexact Ia2s4_3
    isplitl []; · iexact Ja2r4_3
    isplitl [X5_4_3]; · iexact X5_4_3
    isplitl [Y6r3_4]; · iexact Y6r3_4
    isplitl [HO]; · iexact HO
    isplitl [Ta2s4_3]; · iexact Ta2s4_3
    isplitl []; · iexact Sa2s4_3
    isplitl [Ta2r4_3]; · iexact Ta2r4_3
    iexact Ra2r4_3
  iintro ⟨X5_4_3_cred, HO⟩
  ihave X5_4_0 := (Entails.of_eq (Restate.restate2v_4 m c 0 _ _ hW4)) $$ X5_4_0
  clear hW4
  have hmwA1_5 : (levAts L lv : sProp 𝕄) ⊢ MayWait (c : Thread nD τ) (.dma (sem8 cc0_scratch10 5)) () (Oafter c 30) := mayWait_a1r c 5 30 (by decide)
  set_option sl_exec.stepHeartbeats 400000 in
  set_option sl_exec.respelt true in
  sl_exec_parts
  clear hmwA1_5
  ihave X5c5 := (Entails.of_eq (chunk2_by_step sendA2 (yc c) 5 c _)) $$ C5_5
  icases X5c5 with ⟨X5_5_1, XR5_5⟩
  -- what chunk 5 of the stage-2 send buffer holds: the partner's landed product plus the kept one
  sl_unfold_run_names
  first | rw [← BodyLocal.abPieces.eq_1 c (astg m c)] | skip
  first | rw [← BodyLocal.bbPieces.eq_1 (bstg m c)] | skip
  first | rw [← RestateOwn.ownPieces.eq_1 c (astg m c) (bstg m c)] | skip
  have hW5 : k0_pay65 (k0_pay64 (View.readAt (Elt F) (Memref.whole cc0_scratch3).view (Rect.unit (s := S8x4x4x32x128) ![5, 0, 0, 0, 0] S1x4x4x32x128.size inb_S8x4x4x32x128_S1x4x4x32x128_5_0_0_0_0).toLoadRect (slotBuf (slot1 commA1 5).view h_S4x4x32x128 (Values.S1v m (partner c) 5))) ((Memref.whole cc0_scratch4).view.readCov (RestateOwn.ownPieces c (astg m c) (bstg m c)) (Rect.unit (s := S8x4x4x32x128) ![5, 0, 0, 0, 0] S1x4x4x32x128.size inb_S8x4x4x32x128_S1x4x4x32x128_5_0_0_0_0).toLoadRect)) = Values.PAIRv m c 5 := by
    rw [PayFamilies.pay65_chain_eq]
    rw [ReadGeom.read_slot1_commA1 5 ![5, 0, 0, 0, 0] rfl inb_S8x4x4x32x128_S1x4x4x32x128_5_0_0_0_0, RestateOwn.readCov_own_5]; rfl
  ihave X5_5_1 := (Entails.of_eq (Restate.restate2v_5 m c 1 _ _ hW5)) $$ X5_5_1
  -- stage 2, chunk 5, step 1
  try sl_respell []
  iapply (SendRules.send2 (Values.S1v m) (Values.P2v m) (Values.P3v m) K c 5 1 (by decide) (by first | rfl | exact dev31_eq c) (by first | rfl | exact Canon.slice_off6_w20_1 _ c _ _) (by first | rfl | exact Canon.slice_off5_w20 _ c _ _) (by first | rfl | exact congrArg SemLoc.dma (Canon.sem_off3_w20_1 _ c _ _)) (by first | rfl | exact congrArg SemLoc.dma (Canon.sem_off4_w20 _ c _ _)) _ _ (show (slot2 sendA2 (slot (yc c) 5 1)).view.read (Elt Ideal) _ = Values.P2v m c (slot (yc c) 5 1) from Proto.read_slotBuf _ _ _) _ rfl) $$ [X5_5_1 Y6r1_5 HO Ta2s5_1 Ta2r5_1]
  · isplitl []; · iexact Ia2s5_1
    isplitl []; · iexact Ja2r5_1
    isplitl [X5_5_1]; · iexact X5_5_1
    isplitl [Y6r1_5]; · iexact Y6r1_5
    isplitl [HO]; · iexact HO
    isplitl [Ta2s5_1]; · iexact Ta2s5_1
    isplitl []; · iexact Sa2s5_1
    isplitl [Ta2r5_1]; · iexact Ta2r5_1
    iexact Ra2r5_1
  iintro ⟨X5_5_1_cred, HO⟩
  set_option sl_exec.stepHeartbeats 400000 in
  set_option sl_exec.respelt true in
  sl_exec_parts
  icases XR5_5 with ⟨X5_5_2, XR5_5⟩
  ihave X5_5_2 := (Entails.of_eq (Restate.restate2v_5 m c 2 _ _ hW5)) $$ X5_5_2
  -- stage 2, chunk 5, step 2
  try sl_respell []
  iapply (SendRules.send2 (Values.S1v m) (Values.P2v m) (Values.P3v m) K c 5 2 (by decide) (by first | rfl | exact dev32_eq c) (by first | rfl | exact Canon.slice_off6_w20_2 _ c _ _) (by first | rfl | exact Canon.slice_off5_w20 _ c _ _) (by first | rfl | exact congrArg SemLoc.dma (Canon.sem_off3_w20_2 _ c _ _)) (by first | rfl | exact congrArg SemLoc.dma (Canon.sem_off4_w20 _ c _ _)) _ _ (show (slot2 sendA2 (slot (yc c) 5 2)).view.read (Elt Ideal) _ = Values.P2v m c (slot (yc c) 5 2) from Proto.read_slotBuf _ _ _) _ rfl) $$ [X5_5_2 Y6r2_5 HO Ta2s5_2 Ta2r5_2]
  · isplitl []; · iexact Ia2s5_2
    isplitl []; · iexact Ja2r5_2
    isplitl [X5_5_2]; · iexact X5_5_2
    isplitl [Y6r2_5]; · iexact Y6r2_5
    isplitl [HO]; · iexact HO
    isplitl [Ta2s5_2]; · iexact Ta2s5_2
    isplitl []; · iexact Sa2s5_2
    isplitl [Ta2r5_2]; · iexact Ta2r5_2
    iexact Ra2r5_2
  iintro ⟨X5_5_2_cred, HO⟩
  set_option sl_exec.stepHeartbeats 400000 in
  set_option sl_exec.respelt true in
  sl_exec_parts
  icases XR5_5 with ⟨X5_5_3, X5_5_0⟩
  ihave X5_5_3 := (Entails.of_eq (Restate.restate2v_5 m c 3 _ _ hW5)) $$ X5_5_3
  -- stage 2, chunk 5, step 3
  try sl_respell []
  iapply (SendRules.send2 (Values.S1v m) (Values.P2v m) (Values.P3v m) K c 5 3 (by decide) (by first | rfl | exact dev33_eq c) (by first | rfl | exact Canon.slice_off6_w20_3 _ c _ _) (by first | rfl | exact Canon.slice_off5_w20 _ c _ _) (by first | rfl | exact congrArg SemLoc.dma (Canon.sem_off3_w20_3 _ c _ _)) (by first | rfl | exact congrArg SemLoc.dma (Canon.sem_off4_w20 _ c _ _)) _ _ (show (slot2 sendA2 (slot (yc c) 5 3)).view.read (Elt Ideal) _ = Values.P2v m c (slot (yc c) 5 3) from Proto.read_slotBuf _ _ _) _ rfl) $$ [X5_5_3 Y6r3_5 HO Ta2s5_3 Ta2r5_3]
  · isplitl []; · iexact Ia2s5_3
    isplitl []; · iexact Ja2r5_3
    isplitl [X5_5_3]; · iexact X5_5_3
    isplitl [Y6r3_5]; · iexact Y6r3_5
    isplitl [HO]; · iexact HO
    isplitl [Ta2s5_3]; · iexact Ta2s5_3
    isplitl []; · iexact Sa2s5_3
    isplitl [Ta2r5_3]; · iexact Ta2r5_3
    iexact Ra2r5_3
  iintro ⟨X5_5_3_cred, HO⟩
  ihave X5_5_0 := (Entails.of_eq (Restate.restate2v_5 m c 0 _ _ hW5)) $$ X5_5_0
  clear hW5
  have hmwA1_6 : (levAts L lv : sProp 𝕄) ⊢ MayWait (c : Thread nD τ) (.dma (sem8 cc0_scratch10 6)) () (Oafter c 33) := mayWait_a1r c 6 33 (by decide)
  set_option sl_exec.stepHeartbeats 400000 in
  set_option sl_exec.respelt true in
  sl_exec_parts
  clear hmwA1_6
  ihave X5c6 := (Entails.of_eq (chunk2_by_step sendA2 (yc c) 6 c _)) $$ C5_6
  icases X5c6 with ⟨X5_6_1, XR5_6⟩
  -- what chunk 6 of the stage-2 send buffer holds: the partner's landed product plus the kept one
  sl_unfold_run_names
  first | rw [← BodyLocal.abPieces.eq_1 c (astg m c)] | skip
  first | rw [← BodyLocal.bbPieces.eq_1 (bstg m c)] | skip
  first | rw [← RestateOwn.ownPieces.eq_1 c (astg m c) (bstg m c)] | skip
  have hW6 : k0_pay66 (View.readAt (Elt F) (Memref.whole cc0_scratch3).view (Rect.unit (s := S8x4x4x32x128) ![6, 0, 0, 0, 0] S1x4x4x32x128.size inb_S8x4x4x32x128_S1x4x4x32x128_6_0_0_0_0).toLoadRect (slotBuf (slot1 commA1 6).view h_S4x4x32x128 (Values.S1v m (partner c) 6))) ((Memref.whole cc0_scratch4).view.readCov (RestateOwn.ownPieces c (astg m c) (bstg m c)) (Rect.unit (s := S8x4x4x32x128) ![6, 0, 0, 0, 0] S1x4x4x32x128.size inb_S8x4x4x32x128_S1x4x4x32x128_6_0_0_0_0).toLoadRect) = Values.PAIRv m c 6 := by
    rw [PayFamilies.pay66_eq]
    rw [ReadGeom.read_slot1_commA1 6 ![6, 0, 0, 0, 0] rfl inb_S8x4x4x32x128_S1x4x4x32x128_6_0_0_0_0, RestateOwn.readCov_own_6]; rfl
  ihave X5_6_1 := (Entails.of_eq (Restate.restate2v_6 m c 1 _ _ hW6)) $$ X5_6_1
  -- stage 2, chunk 6, step 1
  try sl_respell []
  iapply (SendRules.send2 (Values.S1v m) (Values.P2v m) (Values.P3v m) K c 6 1 (by decide) (by first | rfl | exact dev34_eq c) (by first | rfl | exact Canon.slice_off6_w24_1 _ c _ _) (by first | rfl | exact Canon.slice_off5_w24 _ c _ _) (by first | rfl | exact congrArg SemLoc.dma (Canon.sem_off3_w24_1 _ c _ _)) (by first | rfl | exact congrArg SemLoc.dma (Canon.sem_off4_w24 _ c _ _)) _ _ (show (slot2 sendA2 (slot (yc c) 6 1)).view.read (Elt Ideal) _ = Values.P2v m c (slot (yc c) 6 1) from Proto.read_slotBuf _ _ _) _ rfl) $$ [X5_6_1 Y6r1_6 HO Ta2s6_1 Ta2r6_1]
  · isplitl []; · iexact Ia2s6_1
    isplitl []; · iexact Ja2r6_1
    isplitl [X5_6_1]; · iexact X5_6_1
    isplitl [Y6r1_6]; · iexact Y6r1_6
    isplitl [HO]; · iexact HO
    isplitl [Ta2s6_1]; · iexact Ta2s6_1
    isplitl []; · iexact Sa2s6_1
    isplitl [Ta2r6_1]; · iexact Ta2r6_1
    iexact Ra2r6_1
  iintro ⟨X5_6_1_cred, HO⟩
  set_option sl_exec.stepHeartbeats 400000 in
  set_option sl_exec.respelt true in
  sl_exec_parts
  icases XR5_6 with ⟨X5_6_2, XR5_6⟩
  ihave X5_6_2 := (Entails.of_eq (Restate.restate2v_6 m c 2 _ _ hW6)) $$ X5_6_2
  -- stage 2, chunk 6, step 2
  try sl_respell []
  iapply (SendRules.send2 (Values.S1v m) (Values.P2v m) (Values.P3v m) K c 6 2 (by decide) (by first | rfl | exact dev35_eq c) (by first | rfl | exact Canon.slice_off6_w24_2 _ c _ _) (by first | rfl | exact Canon.slice_off5_w24 _ c _ _) (by first | rfl | exact congrArg SemLoc.dma (Canon.sem_off3_w24_2 _ c _ _)) (by first | rfl | exact congrArg SemLoc.dma (Canon.sem_off4_w24 _ c _ _)) _ _ (show (slot2 sendA2 (slot (yc c) 6 2)).view.read (Elt Ideal) _ = Values.P2v m c (slot (yc c) 6 2) from Proto.read_slotBuf _ _ _) _ rfl) $$ [X5_6_2 Y6r2_6 HO Ta2s6_2 Ta2r6_2]
  · isplitl []; · iexact Ia2s6_2
    isplitl []; · iexact Ja2r6_2
    isplitl [X5_6_2]; · iexact X5_6_2
    isplitl [Y6r2_6]; · iexact Y6r2_6
    isplitl [HO]; · iexact HO
    isplitl [Ta2s6_2]; · iexact Ta2s6_2
    isplitl []; · iexact Sa2s6_2
    isplitl [Ta2r6_2]; · iexact Ta2r6_2
    iexact Ra2r6_2
  iintro ⟨X5_6_2_cred, HO⟩
  set_option sl_exec.stepHeartbeats 400000 in
  set_option sl_exec.respelt true in
  sl_exec_parts
  icases XR5_6 with ⟨X5_6_3, X5_6_0⟩
  ihave X5_6_3 := (Entails.of_eq (Restate.restate2v_6 m c 3 _ _ hW6)) $$ X5_6_3
  -- stage 2, chunk 6, step 3
  try sl_respell []
  iapply (SendRules.send2 (Values.S1v m) (Values.P2v m) (Values.P3v m) K c 6 3 (by decide) (by first | rfl | exact dev36_eq c) (by first | rfl | exact Canon.slice_off6_w24_3 _ c _ _) (by first | rfl | exact Canon.slice_off5_w24 _ c _ _) (by first | rfl | exact congrArg SemLoc.dma (Canon.sem_off3_w24_3 _ c _ _)) (by first | rfl | exact congrArg SemLoc.dma (Canon.sem_off4_w24 _ c _ _)) _ _ (show (slot2 sendA2 (slot (yc c) 6 3)).view.read (Elt Ideal) _ = Values.P2v m c (slot (yc c) 6 3) from Proto.read_slotBuf _ _ _) _ rfl) $$ [X5_6_3 Y6r3_6 HO Ta2s6_3 Ta2r6_3]
  · isplitl []; · iexact Ia2s6_3
    isplitl []; · iexact Ja2r6_3
    isplitl [X5_6_3]; · iexact X5_6_3
    isplitl [Y6r3_6]; · iexact Y6r3_6
    isplitl [HO]; · iexact HO
    isplitl [Ta2s6_3]; · iexact Ta2s6_3
    isplitl []; · iexact Sa2s6_3
    isplitl [Ta2r6_3]; · iexact Ta2r6_3
    iexact Ra2r6_3
  iintro ⟨X5_6_3_cred, HO⟩
  ihave X5_6_0 := (Entails.of_eq (Restate.restate2v_6 m c 0 _ _ hW6)) $$ X5_6_0
  clear hW6
  have hmwA1_7 : (levAts L lv : sProp 𝕄) ⊢ MayWait (c : Thread nD τ) (.dma (sem8 cc0_scratch10 7)) () (Oafter c 36) := mayWait_a1r c 7 36 (by decide)
  set_option sl_exec.stepHeartbeats 400000 in
  set_option sl_exec.respelt true in
  sl_exec_parts
  clear hmwA1_7
  ihave X5c7 := (Entails.of_eq (chunk2_by_step sendA2 (yc c) 7 c _)) $$ C5_7
  icases X5c7 with ⟨X5_7_1, XR5_7⟩
  -- what chunk 7 of the stage-2 send buffer holds: the partner's landed product plus the kept one
  sl_unfold_run_names
  first | rw [← BodyLocal.abPieces.eq_1 c (astg m c)] | skip
  first | rw [← BodyLocal.bbPieces.eq_1 (bstg m c)] | skip
  first | rw [← RestateOwn.ownPieces.eq_1 c (astg m c) (bstg m c)] | skip
  have hW7 : k0_pay67 (View.readAt (Elt F) (Memref.whole cc0_scratch3).view (Rect.unit (s := S8x4x4x32x128) ![7, 0, 0, 0, 0] S1x4x4x32x128.size inb_S8x4x4x32x128_S1x4x4x32x128_7_0_0_0_0).toLoadRect (slotBuf (slot1 commA1 7).view h_S4x4x32x128 (Values.S1v m (partner c) 7))) ((Memref.whole cc0_scratch4).view.readCov (RestateOwn.ownPieces c (astg m c) (bstg m c)) (Rect.unit (s := S8x4x4x32x128) ![7, 0, 0, 0, 0] S1x4x4x32x128.size inb_S8x4x4x32x128_S1x4x4x32x128_7_0_0_0_0).toLoadRect) = Values.PAIRv m c 7 := by
    rw [PayFamilies.pay67_eq]
    rw [ReadGeom.read_slot1_commA1 7 ![7, 0, 0, 0, 0] rfl inb_S8x4x4x32x128_S1x4x4x32x128_7_0_0_0_0, RestateOwn.readCov_own_7]; rfl
  ihave X5_7_1 := (Entails.of_eq (Restate.restate2v_7 m c 1 _ _ hW7)) $$ X5_7_1
  -- stage 2, chunk 7, step 1
  try sl_respell []
  iapply (SendRules.send2 (Values.S1v m) (Values.P2v m) (Values.P3v m) K c 7 1 (by decide) (by first | rfl | exact dev37_eq c) (by first | rfl | exact Canon.slice_off6_w28_1 _ c _ _) (by first | rfl | exact Canon.slice_off5_w28 _ c _ _) (by first | rfl | exact congrArg SemLoc.dma (Canon.sem_off3_w28_1 _ c _ _)) (by first | rfl | exact congrArg SemLoc.dma (Canon.sem_off4_w28 _ c _ _)) _ _ (show (slot2 sendA2 (slot (yc c) 7 1)).view.read (Elt Ideal) _ = Values.P2v m c (slot (yc c) 7 1) from Proto.read_slotBuf _ _ _) _ rfl) $$ [X5_7_1 Y6r1_7 HO Ta2s7_1 Ta2r7_1]
  · isplitl []; · iexact Ia2s7_1
    isplitl []; · iexact Ja2r7_1
    isplitl [X5_7_1]; · iexact X5_7_1
    isplitl [Y6r1_7]; · iexact Y6r1_7
    isplitl [HO]; · iexact HO
    isplitl [Ta2s7_1]; · iexact Ta2s7_1
    isplitl []; · iexact Sa2s7_1
    isplitl [Ta2r7_1]; · iexact Ta2r7_1
    iexact Ra2r7_1
  iintro ⟨X5_7_1_cred, HO⟩
  set_option sl_exec.stepHeartbeats 400000 in
  set_option sl_exec.respelt true in
  sl_exec_parts
  icases XR5_7 with ⟨X5_7_2, XR5_7⟩
  ihave X5_7_2 := (Entails.of_eq (Restate.restate2v_7 m c 2 _ _ hW7)) $$ X5_7_2
  -- stage 2, chunk 7, step 2
  try sl_respell []
  iapply (SendRules.send2 (Values.S1v m) (Values.P2v m) (Values.P3v m) K c 7 2 (by decide) (by first | rfl | exact dev38_eq c) (by first | rfl | exact Canon.slice_off6_w28_2 _ c _ _) (by first | rfl | exact Canon.slice_off5_w28 _ c _ _) (by first | rfl | exact congrArg SemLoc.dma (Canon.sem_off3_w28_2 _ c _ _)) (by first | rfl | exact congrArg SemLoc.dma (Canon.sem_off4_w28 _ c _ _)) _ _ (show (slot2 sendA2 (slot (yc c) 7 2)).view.read (Elt Ideal) _ = Values.P2v m c (slot (yc c) 7 2) from Proto.read_slotBuf _ _ _) _ rfl) $$ [X5_7_2 Y6r2_7 HO Ta2s7_2 Ta2r7_2]
  · isplitl []; · iexact Ia2s7_2
    isplitl []; · iexact Ja2r7_2
    isplitl [X5_7_2]; · iexact X5_7_2
    isplitl [Y6r2_7]; · iexact Y6r2_7
    isplitl [HO]; · iexact HO
    isplitl [Ta2s7_2]; · iexact Ta2s7_2
    isplitl []; · iexact Sa2s7_2
    isplitl [Ta2r7_2]; · iexact Ta2r7_2
    iexact Ra2r7_2
  iintro ⟨X5_7_2_cred, HO⟩
  set_option sl_exec.stepHeartbeats 400000 in
  set_option sl_exec.respelt true in
  sl_exec_parts
  icases XR5_7 with ⟨X5_7_3, X5_7_0⟩
  ihave X5_7_3 := (Entails.of_eq (Restate.restate2v_7 m c 3 _ _ hW7)) $$ X5_7_3
  -- stage 2, chunk 7, step 3
  try sl_respell []
  iapply (SendRules.send2 (Values.S1v m) (Values.P2v m) (Values.P3v m) K c 7 3 (by decide) (by first | rfl | exact dev39_eq c) (by first | rfl | exact Canon.slice_off6_w28_3 _ c _ _) (by first | rfl | exact Canon.slice_off5_w28 _ c _ _) (by first | rfl | exact congrArg SemLoc.dma (Canon.sem_off3_w28_3 _ c _ _)) (by first | rfl | exact congrArg SemLoc.dma (Canon.sem_off4_w28 _ c _ _)) _ _ (show (slot2 sendA2 (slot (yc c) 7 3)).view.read (Elt Ideal) _ = Values.P2v m c (slot (yc c) 7 3) from Proto.read_slotBuf _ _ _) _ rfl) $$ [X5_7_3 Y6r3_7 HO Ta2s7_3 Ta2r7_3]
  · isplitl []; · iexact Ia2s7_3
    isplitl []; · iexact Ja2r7_3
    isplitl [X5_7_3]; · iexact X5_7_3
    isplitl [Y6r3_7]; · iexact Y6r3_7
    isplitl [HO]; · iexact HO
    isplitl [Ta2s7_3]; · iexact Ta2s7_3
    isplitl []; · iexact Sa2s7_3
    isplitl [Ta2r7_3]; · iexact Ta2r7_3
    iexact Ra2r7_3
  iintro ⟨X5_7_3_cred, HO⟩
  ihave X5_7_0 := (Entails.of_eq (Restate.restate2v_7 m c 0 _ _ hW7)) $$ X5_7_0
  clear hW7
  have e7_0 : k0_off7 c 0#32 = ![(slot (yc c) 0 0).val, 0, 0, 0] := Canon.off7_slot c 0
  have hown_0 := ReadGeomSend.read_slot2_sendA2 (F := F) (slot (yc c) 0 0) _ e7_0 (k0_off7_inb c 0) (Values.P2v m c (slot (yc c) 0 0))
  have e10_0_1 : k0_off10 c 0#32 1#32 = ![(slot (yc c) 0 3).val, 0, 0, 0] := Canon.off10_slot c 0 0
  have hl_0_1 := ReadGeom.read_slot2_commA2 (F := F) (slot (yc c) 0 3) _ e10_0_1 (k0_off10_inb c 0 0) (Values.P2v m (rail c 3) (slot (yc c) 0 0))
  have e10_0_2 : k0_off10 c 0#32 2#32 = ![(slot (yc c) 0 2).val, 0, 0, 0] := Canon.off10_slot c 0 1
  have hl_0_2 := ReadGeom.read_slot2_commA2 (F := F) (slot (yc c) 0 2) _ e10_0_2 (k0_off10_inb c 0 1) (Values.P2v m (rail c 2) (slot (yc c) 0 0))
  have e10_0_3 : k0_off10 c 0#32 3#32 = ![(slot (yc c) 0 1).val, 0, 0, 0] := Canon.off10_slot c 0 2
  have hl_0_3 := ReadGeom.read_slot2_commA2 (F := F) (slot (yc c) 0 1) _ e10_0_3 (k0_off10_inb c 0 2) (Values.P2v m (rail c 1) (slot (yc c) 0 0))
  have hmwA2_0_3 : (levAts L lv : sProp 𝕄) ⊢ MayWait (c : Thread nD τ) (.dma (sem32 cc0_scratch12 (slot (yc c) 0 3))) () (Oafter c 39) := mayWait_a2r c _ 39 (by decide)
  have hmwA2_0_2 : (levAts L lv : sProp 𝕄) ⊢ MayWait (c : Thread nD τ) (.dma (sem32 cc0_scratch12 (slot (yc c) 0 2))) () (Oafter c 39) := mayWait_a2r c _ 39 (by decide)
  have hmwA2_0_1 : (levAts L lv : sProp 𝕄) ⊢ MayWait (c : Thread nD τ) (.dma (sem32 cc0_scratch12 (slot (yc c) 0 1))) () (Oafter c 39) := mayWait_a2r c _ 39 (by decide)
  set_option sl_exec.stepHeartbeats 400000 in
  set_option sl_exec.respelt true in
  sl_exec_parts
  clear hmwA2_0_3 hmwA2_0_2 hmwA2_0_1
  clear hown_0 hl_0_1 hl_0_2 hl_0_3 e7_0 e10_0_1 e10_0_2 e10_0_3
  ihave X7c0 := (Entails.of_eq (chunk3_by_step sendB (zc c) 0 c _)) $$ C7_0
  icases X7c0 with ⟨X7_0_1, XR7_0⟩
  sl_unfold_run_names
  ihave X7_0_1 := (Entails.of_eq (Restate.restate3v_0 m c 1 _ _ (by rfl))) $$ X7_0_1
  -- stage 3, chunk 0, step 1
  try sl_respell []
  iapply (SendRules.send3 (Values.S1v m) (Values.P2v m) (Values.P3v m) K c 0 1 (by decide) (by first | rfl | exact dev40_eq c) (by first | rfl | exact Canon.slice_off14_w0_1 _ c _ _) (by first | rfl | exact Canon.slice_off13_w0 _ c _ _) (by first | rfl | exact congrArg SemLoc.dma (Canon.sem_off11_w0_1 _ c _ _)) (by first | rfl | exact congrArg SemLoc.dma (Canon.sem_off12_w0 _ c _ _)) _ _ (show (slot3 sendB (slot (zc c) 0 1)).view.read (Elt Ideal) _ = Values.P3v m c (slot (zc c) 0 1) from Proto.read_slotBuf _ _ _) _ rfl) $$ [X7_0_1 Y8z1_0 HO Tbs0_1 Tbr0_1]
  · isplitl []; · iexact Ibs0_1
    isplitl []; · iexact Jbr0_1
    isplitl [X7_0_1]; · iexact X7_0_1
    isplitl [Y8z1_0]; · iexact Y8z1_0
    isplitl [HO]; · iexact HO
    isplitl [Tbs0_1]; · iexact Tbs0_1
    isplitl []; · iexact Sbs0_1
    isplitl [Tbr0_1]; · iexact Tbr0_1
    iexact Rbr0_1
  iintro ⟨X7_0_1_cred, HO⟩
  set_option sl_exec.stepHeartbeats 400000 in
  set_option sl_exec.respelt true in
  sl_exec_parts
  icases XR7_0 with ⟨X7_0_2, XR7_0⟩
  ihave X7_0_2 := (Entails.of_eq (Restate.restate3v_0 m c 2 _ _ (by rfl))) $$ X7_0_2
  -- stage 3, chunk 0, step 2
  try sl_respell []
  iapply (SendRules.send3 (Values.S1v m) (Values.P2v m) (Values.P3v m) K c 0 2 (by decide) (by first | rfl | exact dev41_eq c) (by first | rfl | exact Canon.slice_off14_w0_2 _ c _ _) (by first | rfl | exact Canon.slice_off13_w0 _ c _ _) (by first | rfl | exact congrArg SemLoc.dma (Canon.sem_off11_w0_2 _ c _ _)) (by first | rfl | exact congrArg SemLoc.dma (Canon.sem_off12_w0 _ c _ _)) _ _ (show (slot3 sendB (slot (zc c) 0 2)).view.read (Elt Ideal) _ = Values.P3v m c (slot (zc c) 0 2) from Proto.read_slotBuf _ _ _) _ rfl) $$ [X7_0_2 Y8z2_0 HO Tbs0_2 Tbr0_2]
  · isplitl []; · iexact Ibs0_2
    isplitl []; · iexact Jbr0_2
    isplitl [X7_0_2]; · iexact X7_0_2
    isplitl [Y8z2_0]; · iexact Y8z2_0
    isplitl [HO]; · iexact HO
    isplitl [Tbs0_2]; · iexact Tbs0_2
    isplitl []; · iexact Sbs0_2
    isplitl [Tbr0_2]; · iexact Tbr0_2
    iexact Rbr0_2
  iintro ⟨X7_0_2_cred, HO⟩
  set_option sl_exec.stepHeartbeats 400000 in
  set_option sl_exec.respelt true in
  sl_exec_parts
  icases XR7_0 with ⟨X7_0_3, X7_0_0⟩
  ihave X7_0_3 := (Entails.of_eq (Restate.restate3v_0 m c 3 _ _ (by rfl))) $$ X7_0_3
  -- stage 3, chunk 0, step 3
  try sl_respell []
  iapply (SendRules.send3 (Values.S1v m) (Values.P2v m) (Values.P3v m) K c 0 3 (by decide) (by first | rfl | exact dev42_eq c) (by first | rfl | exact Canon.slice_off14_w0_3 _ c _ _) (by first | rfl | exact Canon.slice_off13_w0 _ c _ _) (by first | rfl | exact congrArg SemLoc.dma (Canon.sem_off11_w0_3 _ c _ _)) (by first | rfl | exact congrArg SemLoc.dma (Canon.sem_off12_w0 _ c _ _)) _ _ (show (slot3 sendB (slot (zc c) 0 3)).view.read (Elt Ideal) _ = Values.P3v m c (slot (zc c) 0 3) from Proto.read_slotBuf _ _ _) _ rfl) $$ [X7_0_3 Y8z3_0 HO Tbs0_3 Tbr0_3]
  · isplitl []; · iexact Ibs0_3
    isplitl []; · iexact Jbr0_3
    isplitl [X7_0_3]; · iexact X7_0_3
    isplitl [Y8z3_0]; · iexact Y8z3_0
    isplitl [HO]; · iexact HO
    isplitl [Tbs0_3]; · iexact Tbs0_3
    isplitl []; · iexact Sbs0_3
    isplitl [Tbr0_3]; · iexact Tbr0_3
    iexact Rbr0_3
  iintro ⟨X7_0_3_cred, HO⟩
  ihave X7_0_0 := (Entails.of_eq (Restate.restate3v_0 m c 0 _ _ (by rfl))) $$ X7_0_0
  have e7_1 : k0_off7 c 4#32 = ![(slot (yc c) 1 0).val, 0, 0, 0] := Canon.off7_slot c 1
  have hown_1 := ReadGeomSend.read_slot2_sendA2 (F := F) (slot (yc c) 1 0) _ e7_1 (k0_off7_inb c 1) (Values.P2v m c (slot (yc c) 1 0))
  have e10_1_1 : k0_off10 c 4#32 1#32 = ![(slot (yc c) 1 3).val, 0, 0, 0] := Canon.off10_slot c 1 0
  have hl_1_1 := ReadGeom.read_slot2_commA2 (F := F) (slot (yc c) 1 3) _ e10_1_1 (k0_off10_inb c 1 0) (Values.P2v m (rail c 3) (slot (yc c) 1 0))
  have e10_1_2 : k0_off10 c 4#32 2#32 = ![(slot (yc c) 1 2).val, 0, 0, 0] := Canon.off10_slot c 1 1
  have hl_1_2 := ReadGeom.read_slot2_commA2 (F := F) (slot (yc c) 1 2) _ e10_1_2 (k0_off10_inb c 1 1) (Values.P2v m (rail c 2) (slot (yc c) 1 0))
  have e10_1_3 : k0_off10 c 4#32 3#32 = ![(slot (yc c) 1 1).val, 0, 0, 0] := Canon.off10_slot c 1 2
  have hl_1_3 := ReadGeom.read_slot2_commA2 (F := F) (slot (yc c) 1 1) _ e10_1_3 (k0_off10_inb c 1 2) (Values.P2v m (rail c 1) (slot (yc c) 1 0))
  have hmwA2_1_3 : (levAts L lv : sProp 𝕄) ⊢ MayWait (c : Thread nD τ) (.dma (sem32 cc0_scratch12 (slot (yc c) 1 3))) () (Oafter c 42) := mayWait_a2r c _ 42 (by decide)
  have hmwA2_1_2 : (levAts L lv : sProp 𝕄) ⊢ MayWait (c : Thread nD τ) (.dma (sem32 cc0_scratch12 (slot (yc c) 1 2))) () (Oafter c 42) := mayWait_a2r c _ 42 (by decide)
  have hmwA2_1_1 : (levAts L lv : sProp 𝕄) ⊢ MayWait (c : Thread nD τ) (.dma (sem32 cc0_scratch12 (slot (yc c) 1 1))) () (Oafter c 42) := mayWait_a2r c _ 42 (by decide)
  set_option sl_exec.stepHeartbeats 400000 in
  set_option sl_exec.respelt true in
  sl_exec_parts
  clear hmwA2_1_3 hmwA2_1_2 hmwA2_1_1
  clear hown_1 hl_1_1 hl_1_2 hl_1_3 e7_1 e10_1_1 e10_1_2 e10_1_3
  ihave X7c1 := (Entails.of_eq (chunk3_by_step sendB (zc c) 1 c _)) $$ C7_1
  icases X7c1 with ⟨X7_1_1, XR7_1⟩
  sl_unfold_run_names
  ihave X7_1_1 := (Entails.of_eq (Restate.restate3v_1 m c 1 _ _ (by rfl))) $$ X7_1_1
  -- stage 3, chunk 1, step 1
  try sl_respell []
  iapply (SendRules.send3 (Values.S1v m) (Values.P2v m) (Values.P3v m) K c 1 1 (by decide) (by first | rfl | exact dev43_eq c) (by first | rfl | exact Canon.slice_off14_w4_1 _ c _ _) (by first | rfl | exact Canon.slice_off13_w4 _ c _ _) (by first | rfl | exact congrArg SemLoc.dma (Canon.sem_off11_w4_1 _ c _ _)) (by first | rfl | exact congrArg SemLoc.dma (Canon.sem_off12_w4 _ c _ _)) _ _ (show (slot3 sendB (slot (zc c) 1 1)).view.read (Elt Ideal) _ = Values.P3v m c (slot (zc c) 1 1) from Proto.read_slotBuf _ _ _) _ rfl) $$ [X7_1_1 Y8z1_1 HO Tbs1_1 Tbr1_1]
  · isplitl []; · iexact Ibs1_1
    isplitl []; · iexact Jbr1_1
    isplitl [X7_1_1]; · iexact X7_1_1
    isplitl [Y8z1_1]; · iexact Y8z1_1
    isplitl [HO]; · iexact HO
    isplitl [Tbs1_1]; · iexact Tbs1_1
    isplitl []; · iexact Sbs1_1
    isplitl [Tbr1_1]; · iexact Tbr1_1
    iexact Rbr1_1
  iintro ⟨X7_1_1_cred, HO⟩
  set_option sl_exec.stepHeartbeats 400000 in
  set_option sl_exec.respelt true in
  sl_exec_parts
  icases XR7_1 with ⟨X7_1_2, XR7_1⟩
  ihave X7_1_2 := (Entails.of_eq (Restate.restate3v_1 m c 2 _ _ (by rfl))) $$ X7_1_2
  -- stage 3, chunk 1, step 2
  try sl_respell []
  iapply (SendRules.send3 (Values.S1v m) (Values.P2v m) (Values.P3v m) K c 1 2 (by decide) (by first | rfl | exact dev44_eq c) (by first | rfl | exact Canon.slice_off14_w4_2 _ c _ _) (by first | rfl | exact Canon.slice_off13_w4 _ c _ _) (by first | rfl | exact congrArg SemLoc.dma (Canon.sem_off11_w4_2 _ c _ _)) (by first | rfl | exact congrArg SemLoc.dma (Canon.sem_off12_w4 _ c _ _)) _ _ (show (slot3 sendB (slot (zc c) 1 2)).view.read (Elt Ideal) _ = Values.P3v m c (slot (zc c) 1 2) from Proto.read_slotBuf _ _ _) _ rfl) $$ [X7_1_2 Y8z2_1 HO Tbs1_2 Tbr1_2]
  · isplitl []; · iexact Ibs1_2
    isplitl []; · iexact Jbr1_2
    isplitl [X7_1_2]; · iexact X7_1_2
    isplitl [Y8z2_1]; · iexact Y8z2_1
    isplitl [HO]; · iexact HO
    isplitl [Tbs1_2]; · iexact Tbs1_2
    isplitl []; · iexact Sbs1_2
    isplitl [Tbr1_2]; · iexact Tbr1_2
    iexact Rbr1_2
  iintro ⟨X7_1_2_cred, HO⟩
  set_option sl_exec.stepHeartbeats 400000 in
  set_option sl_exec.respelt true in
  sl_exec_parts
  icases XR7_1 with ⟨X7_1_3, X7_1_0⟩
  ihave X7_1_3 := (Entails.of_eq (Restate.restate3v_1 m c 3 _ _ (by rfl))) $$ X7_1_3
  -- stage 3, chunk 1, step 3
  try sl_respell []
  iapply (SendRules.send3 (Values.S1v m) (Values.P2v m) (Values.P3v m) K c 1 3 (by decide) (by first | rfl | exact dev45_eq c) (by first | rfl | exact Canon.slice_off14_w4_3 _ c _ _) (by first | rfl | exact Canon.slice_off13_w4 _ c _ _) (by first | rfl | exact congrArg SemLoc.dma (Canon.sem_off11_w4_3 _ c _ _)) (by first | rfl | exact congrArg SemLoc.dma (Canon.sem_off12_w4 _ c _ _)) _ _ (show (slot3 sendB (slot (zc c) 1 3)).view.read (Elt Ideal) _ = Values.P3v m c (slot (zc c) 1 3) from Proto.read_slotBuf _ _ _) _ rfl) $$ [X7_1_3 Y8z3_1 HO Tbs1_3 Tbr1_3]
  · isplitl []; · iexact Ibs1_3
    isplitl []; · iexact Jbr1_3
    isplitl [X7_1_3]; · iexact X7_1_3
    isplitl [Y8z3_1]; · iexact Y8z3_1
    isplitl [HO]; · iexact HO
    isplitl [Tbs1_3]; · iexact Tbs1_3
    isplitl []; · iexact Sbs1_3
    isplitl [Tbr1_3]; · iexact Tbr1_3
    iexact Rbr1_3
  iintro ⟨X7_1_3_cred, HO⟩
  ihave X7_1_0 := (Entails.of_eq (Restate.restate3v_1 m c 0 _ _ (by rfl))) $$ X7_1_0
  have e7_2 : k0_off7 c 8#32 = ![(slot (yc c) 2 0).val, 0, 0, 0] := Canon.off7_slot c 2
  have hown_2 := ReadGeomSend.read_slot2_sendA2 (F := F) (slot (yc c) 2 0) _ e7_2 (k0_off7_inb c 2) (Values.P2v m c (slot (yc c) 2 0))
  have e10_2_1 : k0_off10 c 8#32 1#32 = ![(slot (yc c) 2 3).val, 0, 0, 0] := Canon.off10_slot c 2 0
  have hl_2_1 := ReadGeom.read_slot2_commA2 (F := F) (slot (yc c) 2 3) _ e10_2_1 (k0_off10_inb c 2 0) (Values.P2v m (rail c 3) (slot (yc c) 2 0))
  have e10_2_2 : k0_off10 c 8#32 2#32 = ![(slot (yc c) 2 2).val, 0, 0, 0] := Canon.off10_slot c 2 1
  have hl_2_2 := ReadGeom.read_slot2_commA2 (F := F) (slot (yc c) 2 2) _ e10_2_2 (k0_off10_inb c 2 1) (Values.P2v m (rail c 2) (slot (yc c) 2 0))
  have e10_2_3 : k0_off10 c 8#32 3#32 = ![(slot (yc c) 2 1).val, 0, 0, 0] := Canon.off10_slot c 2 2
  have hl_2_3 := ReadGeom.read_slot2_commA2 (F := F) (slot (yc c) 2 1) _ e10_2_3 (k0_off10_inb c 2 2) (Values.P2v m (rail c 1) (slot (yc c) 2 0))
  have hmwA2_2_3 : (levAts L lv : sProp 𝕄) ⊢ MayWait (c : Thread nD τ) (.dma (sem32 cc0_scratch12 (slot (yc c) 2 3))) () (Oafter c 45) := mayWait_a2r c _ 45 (by decide)
  have hmwA2_2_2 : (levAts L lv : sProp 𝕄) ⊢ MayWait (c : Thread nD τ) (.dma (sem32 cc0_scratch12 (slot (yc c) 2 2))) () (Oafter c 45) := mayWait_a2r c _ 45 (by decide)
  have hmwA2_2_1 : (levAts L lv : sProp 𝕄) ⊢ MayWait (c : Thread nD τ) (.dma (sem32 cc0_scratch12 (slot (yc c) 2 1))) () (Oafter c 45) := mayWait_a2r c _ 45 (by decide)
  set_option sl_exec.stepHeartbeats 400000 in
  set_option sl_exec.respelt true in
  sl_exec_parts
  clear hmwA2_2_3 hmwA2_2_2 hmwA2_2_1
  clear hown_2 hl_2_1 hl_2_2 hl_2_3 e7_2 e10_2_1 e10_2_2 e10_2_3
  ihave X7c2 := (Entails.of_eq (chunk3_by_step sendB (zc c) 2 c _)) $$ C7_2
  icases X7c2 with ⟨X7_2_1, XR7_2⟩
  sl_unfold_run_names
  ihave X7_2_1 := (Entails.of_eq (Restate.restate3v_2 m c 1 _ _ (by rfl))) $$ X7_2_1
  -- stage 3, chunk 2, step 1
  try sl_respell []
  iapply (SendRules.send3 (Values.S1v m) (Values.P2v m) (Values.P3v m) K c 2 1 (by decide) (by first | rfl | exact dev46_eq c) (by first | rfl | exact Canon.slice_off14_w8_1 _ c _ _) (by first | rfl | exact Canon.slice_off13_w8 _ c _ _) (by first | rfl | exact congrArg SemLoc.dma (Canon.sem_off11_w8_1 _ c _ _)) (by first | rfl | exact congrArg SemLoc.dma (Canon.sem_off12_w8 _ c _ _)) _ _ (show (slot3 sendB (slot (zc c) 2 1)).view.read (Elt Ideal) _ = Values.P3v m c (slot (zc c) 2 1) from Proto.read_slotBuf _ _ _) _ rfl) $$ [X7_2_1 Y8z1_2 HO Tbs2_1 Tbr2_1]
  · isplitl []; · iexact Ibs2_1
    isplitl []; · iexact Jbr2_1
    isplitl [X7_2_1]; · iexact X7_2_1
    isplitl [Y8z1_2]; · iexact Y8z1_2
    isplitl [HO]; · iexact HO
    isplitl [Tbs2_1]; · iexact Tbs2_1
    isplitl []; · iexact Sbs2_1
    isplitl [Tbr2_1]; · iexact Tbr2_1
    iexact Rbr2_1
  iintro ⟨X7_2_1_cred, HO⟩
  set_option sl_exec.stepHeartbeats 400000 in
  set_option sl_exec.respelt true in
  sl_exec_parts
  icases XR7_2 with ⟨X7_2_2, XR7_2⟩
  ihave X7_2_2 := (Entails.of_eq (Restate.restate3v_2 m c 2 _ _ (by rfl))) $$ X7_2_2
  -- stage 3, chunk 2, step 2
  try sl_respell []
  iapply (SendRules.send3 (Values.S1v m) (Values.P2v m) (Values.P3v m) K c 2 2 (by decide) (by first | rfl | exact dev47_eq c) (by first | rfl | exact Canon.slice_off14_w8_2 _ c _ _) (by first | rfl | exact Canon.slice_off13_w8 _ c _ _) (by first | rfl | exact congrArg SemLoc.dma (Canon.sem_off11_w8_2 _ c _ _)) (by first | rfl | exact congrArg SemLoc.dma (Canon.sem_off12_w8 _ c _ _)) _ _ (show (slot3 sendB (slot (zc c) 2 2)).view.read (Elt Ideal) _ = Values.P3v m c (slot (zc c) 2 2) from Proto.read_slotBuf _ _ _) _ rfl) $$ [X7_2_2 Y8z2_2 HO Tbs2_2 Tbr2_2]
  · isplitl []; · iexact Ibs2_2
    isplitl []; · iexact Jbr2_2
    isplitl [X7_2_2]; · iexact X7_2_2
    isplitl [Y8z2_2]; · iexact Y8z2_2
    isplitl [HO]; · iexact HO
    isplitl [Tbs2_2]; · iexact Tbs2_2
    isplitl []; · iexact Sbs2_2
    isplitl [Tbr2_2]; · iexact Tbr2_2
    iexact Rbr2_2
  iintro ⟨X7_2_2_cred, HO⟩
  set_option sl_exec.stepHeartbeats 400000 in
  set_option sl_exec.respelt true in
  sl_exec_parts
  icases XR7_2 with ⟨X7_2_3, X7_2_0⟩
  ihave X7_2_3 := (Entails.of_eq (Restate.restate3v_2 m c 3 _ _ (by rfl))) $$ X7_2_3
  -- stage 3, chunk 2, step 3
  try sl_respell []
  iapply (SendRules.send3 (Values.S1v m) (Values.P2v m) (Values.P3v m) K c 2 3 (by decide) (by first | rfl | exact dev48_eq c) (by first | rfl | exact Canon.slice_off14_w8_3 _ c _ _) (by first | rfl | exact Canon.slice_off13_w8 _ c _ _) (by first | rfl | exact congrArg SemLoc.dma (Canon.sem_off11_w8_3 _ c _ _)) (by first | rfl | exact congrArg SemLoc.dma (Canon.sem_off12_w8 _ c _ _)) _ _ (show (slot3 sendB (slot (zc c) 2 3)).view.read (Elt Ideal) _ = Values.P3v m c (slot (zc c) 2 3) from Proto.read_slotBuf _ _ _) _ rfl) $$ [X7_2_3 Y8z3_2 HO Tbs2_3 Tbr2_3]
  · isplitl []; · iexact Ibs2_3
    isplitl []; · iexact Jbr2_3
    isplitl [X7_2_3]; · iexact X7_2_3
    isplitl [Y8z3_2]; · iexact Y8z3_2
    isplitl [HO]; · iexact HO
    isplitl [Tbs2_3]; · iexact Tbs2_3
    isplitl []; · iexact Sbs2_3
    isplitl [Tbr2_3]; · iexact Tbr2_3
    iexact Rbr2_3
  iintro ⟨X7_2_3_cred, HO⟩
  ihave X7_2_0 := (Entails.of_eq (Restate.restate3v_2 m c 0 _ _ (by rfl))) $$ X7_2_0
  have e7_3 : k0_off7 c 12#32 = ![(slot (yc c) 3 0).val, 0, 0, 0] := Canon.off7_slot c 3
  have hown_3 := ReadGeomSend.read_slot2_sendA2 (F := F) (slot (yc c) 3 0) _ e7_3 (k0_off7_inb c 3) (Values.P2v m c (slot (yc c) 3 0))
  have e10_3_1 : k0_off10 c 12#32 1#32 = ![(slot (yc c) 3 3).val, 0, 0, 0] := Canon.off10_slot c 3 0
  have hl_3_1 := ReadGeom.read_slot2_commA2 (F := F) (slot (yc c) 3 3) _ e10_3_1 (k0_off10_inb c 3 0) (Values.P2v m (rail c 3) (slot (yc c) 3 0))
  have e10_3_2 : k0_off10 c 12#32 2#32 = ![(slot (yc c) 3 2).val, 0, 0, 0] := Canon.off10_slot c 3 1
  have hl_3_2 := ReadGeom.read_slot2_commA2 (F := F) (slot (yc c) 3 2) _ e10_3_2 (k0_off10_inb c 3 1) (Values.P2v m (rail c 2) (slot (yc c) 3 0))
  have e10_3_3 : k0_off10 c 12#32 3#32 = ![(slot (yc c) 3 1).val, 0, 0, 0] := Canon.off10_slot c 3 2
  have hl_3_3 := ReadGeom.read_slot2_commA2 (F := F) (slot (yc c) 3 1) _ e10_3_3 (k0_off10_inb c 3 2) (Values.P2v m (rail c 1) (slot (yc c) 3 0))
  have hmwA2_3_3 : (levAts L lv : sProp 𝕄) ⊢ MayWait (c : Thread nD τ) (.dma (sem32 cc0_scratch12 (slot (yc c) 3 3))) () (Oafter c 48) := mayWait_a2r c _ 48 (by decide)
  have hmwA2_3_2 : (levAts L lv : sProp 𝕄) ⊢ MayWait (c : Thread nD τ) (.dma (sem32 cc0_scratch12 (slot (yc c) 3 2))) () (Oafter c 48) := mayWait_a2r c _ 48 (by decide)
  have hmwA2_3_1 : (levAts L lv : sProp 𝕄) ⊢ MayWait (c : Thread nD τ) (.dma (sem32 cc0_scratch12 (slot (yc c) 3 1))) () (Oafter c 48) := mayWait_a2r c _ 48 (by decide)
  set_option sl_exec.stepHeartbeats 400000 in
  set_option sl_exec.respelt true in
  sl_exec_parts
  clear hmwA2_3_3 hmwA2_3_2 hmwA2_3_1
  clear hown_3 hl_3_1 hl_3_2 hl_3_3 e7_3 e10_3_1 e10_3_2 e10_3_3
  ihave X7c3 := (Entails.of_eq (chunk3_by_step sendB (zc c) 3 c _)) $$ C7_3
  icases X7c3 with ⟨X7_3_1, XR7_3⟩
  sl_unfold_run_names
  ihave X7_3_1 := (Entails.of_eq (Restate.restate3v_3 m c 1 _ _ (by rfl))) $$ X7_3_1
  -- stage 3, chunk 3, step 1
  try sl_respell []
  iapply (SendRules.send3 (Values.S1v m) (Values.P2v m) (Values.P3v m) K c 3 1 (by decide) (by first | rfl | exact dev49_eq c) (by first | rfl | exact Canon.slice_off14_w12_1 _ c _ _) (by first | rfl | exact Canon.slice_off13_w12 _ c _ _) (by first | rfl | exact congrArg SemLoc.dma (Canon.sem_off11_w12_1 _ c _ _)) (by first | rfl | exact congrArg SemLoc.dma (Canon.sem_off12_w12 _ c _ _)) _ _ (show (slot3 sendB (slot (zc c) 3 1)).view.read (Elt Ideal) _ = Values.P3v m c (slot (zc c) 3 1) from Proto.read_slotBuf _ _ _) _ rfl) $$ [X7_3_1 Y8z1_3 HO Tbs3_1 Tbr3_1]
  · isplitl []; · iexact Ibs3_1
    isplitl []; · iexact Jbr3_1
    isplitl [X7_3_1]; · iexact X7_3_1
    isplitl [Y8z1_3]; · iexact Y8z1_3
    isplitl [HO]; · iexact HO
    isplitl [Tbs3_1]; · iexact Tbs3_1
    isplitl []; · iexact Sbs3_1
    isplitl [Tbr3_1]; · iexact Tbr3_1
    iexact Rbr3_1
  iintro ⟨X7_3_1_cred, HO⟩
  set_option sl_exec.stepHeartbeats 400000 in
  set_option sl_exec.respelt true in
  sl_exec_parts
  icases XR7_3 with ⟨X7_3_2, XR7_3⟩
  ihave X7_3_2 := (Entails.of_eq (Restate.restate3v_3 m c 2 _ _ (by rfl))) $$ X7_3_2
  -- stage 3, chunk 3, step 2
  try sl_respell []
  iapply (SendRules.send3 (Values.S1v m) (Values.P2v m) (Values.P3v m) K c 3 2 (by decide) (by first | rfl | exact dev50_eq c) (by first | rfl | exact Canon.slice_off14_w12_2 _ c _ _) (by first | rfl | exact Canon.slice_off13_w12 _ c _ _) (by first | rfl | exact congrArg SemLoc.dma (Canon.sem_off11_w12_2 _ c _ _)) (by first | rfl | exact congrArg SemLoc.dma (Canon.sem_off12_w12 _ c _ _)) _ _ (show (slot3 sendB (slot (zc c) 3 2)).view.read (Elt Ideal) _ = Values.P3v m c (slot (zc c) 3 2) from Proto.read_slotBuf _ _ _) _ rfl) $$ [X7_3_2 Y8z2_3 HO Tbs3_2 Tbr3_2]
  · isplitl []; · iexact Ibs3_2
    isplitl []; · iexact Jbr3_2
    isplitl [X7_3_2]; · iexact X7_3_2
    isplitl [Y8z2_3]; · iexact Y8z2_3
    isplitl [HO]; · iexact HO
    isplitl [Tbs3_2]; · iexact Tbs3_2
    isplitl []; · iexact Sbs3_2
    isplitl [Tbr3_2]; · iexact Tbr3_2
    iexact Rbr3_2
  iintro ⟨X7_3_2_cred, HO⟩
  set_option sl_exec.stepHeartbeats 400000 in
  set_option sl_exec.respelt true in
  sl_exec_parts
  icases XR7_3 with ⟨X7_3_3, X7_3_0⟩
  ihave X7_3_3 := (Entails.of_eq (Restate.restate3v_3 m c 3 _ _ (by rfl))) $$ X7_3_3
  -- stage 3, chunk 3, step 3
  try sl_respell []
  iapply (SendRules.send3 (Values.S1v m) (Values.P2v m) (Values.P3v m) K c 3 3 (by decide) (by first | rfl | exact dev51_eq c) (by first | rfl | exact Canon.slice_off14_w12_3 _ c _ _) (by first | rfl | exact Canon.slice_off13_w12 _ c _ _) (by first | rfl | exact congrArg SemLoc.dma (Canon.sem_off11_w12_3 _ c _ _)) (by first | rfl | exact congrArg SemLoc.dma (Canon.sem_off12_w12 _ c _ _)) _ _ (show (slot3 sendB (slot (zc c) 3 3)).view.read (Elt Ideal) _ = Values.P3v m c (slot (zc c) 3 3) from Proto.read_slotBuf _ _ _) _ rfl) $$ [X7_3_3 Y8z3_3 HO Tbs3_3 Tbr3_3]
  · isplitl []; · iexact Ibs3_3
    isplitl []; · iexact Jbr3_3
    isplitl [X7_3_3]; · iexact X7_3_3
    isplitl [Y8z3_3]; · iexact Y8z3_3
    isplitl [HO]; · iexact HO
    isplitl [Tbs3_3]; · iexact Tbs3_3
    isplitl []; · iexact Sbs3_3
    isplitl [Tbr3_3]; · iexact Tbr3_3
    iexact Rbr3_3
  iintro ⟨X7_3_3_cred, HO⟩
  ihave X7_3_0 := (Entails.of_eq (Restate.restate3v_3 m c 0 _ _ (by rfl))) $$ X7_3_0
  have e7_4 : k0_off7 c 16#32 = ![(slot (yc c) 4 0).val, 0, 0, 0] := Canon.off7_slot c 4
  have hown_4 := ReadGeomSend.read_slot2_sendA2 (F := F) (slot (yc c) 4 0) _ e7_4 (k0_off7_inb c 4) (Values.P2v m c (slot (yc c) 4 0))
  have e10_4_1 : k0_off10 c 16#32 1#32 = ![(slot (yc c) 4 3).val, 0, 0, 0] := Canon.off10_slot c 4 0
  have hl_4_1 := ReadGeom.read_slot2_commA2 (F := F) (slot (yc c) 4 3) _ e10_4_1 (k0_off10_inb c 4 0) (Values.P2v m (rail c 3) (slot (yc c) 4 0))
  have e10_4_2 : k0_off10 c 16#32 2#32 = ![(slot (yc c) 4 2).val, 0, 0, 0] := Canon.off10_slot c 4 1
  have hl_4_2 := ReadGeom.read_slot2_commA2 (F := F) (slot (yc c) 4 2) _ e10_4_2 (k0_off10_inb c 4 1) (Values.P2v m (rail c 2) (slot (yc c) 4 0))
  have e10_4_3 : k0_off10 c 16#32 3#32 = ![(slot (yc c) 4 1).val, 0, 0, 0] := Canon.off10_slot c 4 2
  have hl_4_3 := ReadGeom.read_slot2_commA2 (F := F) (slot (yc c) 4 1) _ e10_4_3 (k0_off10_inb c 4 2) (Values.P2v m (rail c 1) (slot (yc c) 4 0))
  have hmwA2_4_3 : (levAts L lv : sProp 𝕄) ⊢ MayWait (c : Thread nD τ) (.dma (sem32 cc0_scratch12 (slot (yc c) 4 3))) () (Oafter c 51) := mayWait_a2r c _ 51 (by decide)
  have hmwA2_4_2 : (levAts L lv : sProp 𝕄) ⊢ MayWait (c : Thread nD τ) (.dma (sem32 cc0_scratch12 (slot (yc c) 4 2))) () (Oafter c 51) := mayWait_a2r c _ 51 (by decide)
  have hmwA2_4_1 : (levAts L lv : sProp 𝕄) ⊢ MayWait (c : Thread nD τ) (.dma (sem32 cc0_scratch12 (slot (yc c) 4 1))) () (Oafter c 51) := mayWait_a2r c _ 51 (by decide)
  set_option sl_exec.stepHeartbeats 400000 in
  set_option sl_exec.respelt true in
  sl_exec_parts
  clear hmwA2_4_3 hmwA2_4_2 hmwA2_4_1
  clear hown_4 hl_4_1 hl_4_2 hl_4_3 e7_4 e10_4_1 e10_4_2 e10_4_3
  ihave X7c4 := (Entails.of_eq (chunk3_by_step sendB (zc c) 4 c _)) $$ C7_4
  icases X7c4 with ⟨X7_4_1, XR7_4⟩
  sl_unfold_run_names
  ihave X7_4_1 := (Entails.of_eq (Restate.restate3v_4 m c 1 _ _ (by rfl))) $$ X7_4_1
  -- stage 3, chunk 4, step 1
  try sl_respell []
  iapply (SendRules.send3 (Values.S1v m) (Values.P2v m) (Values.P3v m) K c 4 1 (by decide) (by first | rfl | exact dev52_eq c) (by first | rfl | exact Canon.slice_off14_w16_1 _ c _ _) (by first | rfl | exact Canon.slice_off13_w16 _ c _ _) (by first | rfl | exact congrArg SemLoc.dma (Canon.sem_off11_w16_1 _ c _ _)) (by first | rfl | exact congrArg SemLoc.dma (Canon.sem_off12_w16 _ c _ _)) _ _ (show (slot3 sendB (slot (zc c) 4 1)).view.read (Elt Ideal) _ = Values.P3v m c (slot (zc c) 4 1) from Proto.read_slotBuf _ _ _) _ rfl) $$ [X7_4_1 Y8z1_4 HO Tbs4_1 Tbr4_1]
  · isplitl []; · iexact Ibs4_1
    isplitl []; · iexact Jbr4_1
    isplitl [X7_4_1]; · iexact X7_4_1
    isplitl [Y8z1_4]; · iexact Y8z1_4
    isplitl [HO]; · iexact HO
    isplitl [Tbs4_1]; · iexact Tbs4_1
    isplitl []; · iexact Sbs4_1
    isplitl [Tbr4_1]; · iexact Tbr4_1
    iexact Rbr4_1
  iintro ⟨X7_4_1_cred, HO⟩
  set_option sl_exec.stepHeartbeats 400000 in
  set_option sl_exec.respelt true in
  sl_exec_parts
  icases XR7_4 with ⟨X7_4_2, XR7_4⟩
  ihave X7_4_2 := (Entails.of_eq (Restate.restate3v_4 m c 2 _ _ (by rfl))) $$ X7_4_2
  -- stage 3, chunk 4, step 2
  try sl_respell []
  iapply (SendRules.send3 (Values.S1v m) (Values.P2v m) (Values.P3v m) K c 4 2 (by decide) (by first | rfl | exact dev53_eq c) (by first | rfl | exact Canon.slice_off14_w16_2 _ c _ _) (by first | rfl | exact Canon.slice_off13_w16 _ c _ _) (by first | rfl | exact congrArg SemLoc.dma (Canon.sem_off11_w16_2 _ c _ _)) (by first | rfl | exact congrArg SemLoc.dma (Canon.sem_off12_w16 _ c _ _)) _ _ (show (slot3 sendB (slot (zc c) 4 2)).view.read (Elt Ideal) _ = Values.P3v m c (slot (zc c) 4 2) from Proto.read_slotBuf _ _ _) _ rfl) $$ [X7_4_2 Y8z2_4 HO Tbs4_2 Tbr4_2]
  · isplitl []; · iexact Ibs4_2
    isplitl []; · iexact Jbr4_2
    isplitl [X7_4_2]; · iexact X7_4_2
    isplitl [Y8z2_4]; · iexact Y8z2_4
    isplitl [HO]; · iexact HO
    isplitl [Tbs4_2]; · iexact Tbs4_2
    isplitl []; · iexact Sbs4_2
    isplitl [Tbr4_2]; · iexact Tbr4_2
    iexact Rbr4_2
  iintro ⟨X7_4_2_cred, HO⟩
  set_option sl_exec.stepHeartbeats 400000 in
  set_option sl_exec.respelt true in
  sl_exec_parts
  icases XR7_4 with ⟨X7_4_3, X7_4_0⟩
  ihave X7_4_3 := (Entails.of_eq (Restate.restate3v_4 m c 3 _ _ (by rfl))) $$ X7_4_3
  -- stage 3, chunk 4, step 3
  try sl_respell []
  iapply (SendRules.send3 (Values.S1v m) (Values.P2v m) (Values.P3v m) K c 4 3 (by decide) (by first | rfl | exact dev54_eq c) (by first | rfl | exact Canon.slice_off14_w16_3 _ c _ _) (by first | rfl | exact Canon.slice_off13_w16 _ c _ _) (by first | rfl | exact congrArg SemLoc.dma (Canon.sem_off11_w16_3 _ c _ _)) (by first | rfl | exact congrArg SemLoc.dma (Canon.sem_off12_w16 _ c _ _)) _ _ (show (slot3 sendB (slot (zc c) 4 3)).view.read (Elt Ideal) _ = Values.P3v m c (slot (zc c) 4 3) from Proto.read_slotBuf _ _ _) _ rfl) $$ [X7_4_3 Y8z3_4 HO Tbs4_3 Tbr4_3]
  · isplitl []; · iexact Ibs4_3
    isplitl []; · iexact Jbr4_3
    isplitl [X7_4_3]; · iexact X7_4_3
    isplitl [Y8z3_4]; · iexact Y8z3_4
    isplitl [HO]; · iexact HO
    isplitl [Tbs4_3]; · iexact Tbs4_3
    isplitl []; · iexact Sbs4_3
    isplitl [Tbr4_3]; · iexact Tbr4_3
    iexact Rbr4_3
  iintro ⟨X7_4_3_cred, HO⟩
  ihave X7_4_0 := (Entails.of_eq (Restate.restate3v_4 m c 0 _ _ (by rfl))) $$ X7_4_0
  have e7_5 : k0_off7 c 20#32 = ![(slot (yc c) 5 0).val, 0, 0, 0] := Canon.off7_slot c 5
  have hown_5 := ReadGeomSend.read_slot2_sendA2 (F := F) (slot (yc c) 5 0) _ e7_5 (k0_off7_inb c 5) (Values.P2v m c (slot (yc c) 5 0))
  have e10_5_1 : k0_off10 c 20#32 1#32 = ![(slot (yc c) 5 3).val, 0, 0, 0] := Canon.off10_slot c 5 0
  have hl_5_1 := ReadGeom.read_slot2_commA2 (F := F) (slot (yc c) 5 3) _ e10_5_1 (k0_off10_inb c 5 0) (Values.P2v m (rail c 3) (slot (yc c) 5 0))
  have e10_5_2 : k0_off10 c 20#32 2#32 = ![(slot (yc c) 5 2).val, 0, 0, 0] := Canon.off10_slot c 5 1
  have hl_5_2 := ReadGeom.read_slot2_commA2 (F := F) (slot (yc c) 5 2) _ e10_5_2 (k0_off10_inb c 5 1) (Values.P2v m (rail c 2) (slot (yc c) 5 0))
  have e10_5_3 : k0_off10 c 20#32 3#32 = ![(slot (yc c) 5 1).val, 0, 0, 0] := Canon.off10_slot c 5 2
  have hl_5_3 := ReadGeom.read_slot2_commA2 (F := F) (slot (yc c) 5 1) _ e10_5_3 (k0_off10_inb c 5 2) (Values.P2v m (rail c 1) (slot (yc c) 5 0))
  have hmwA2_5_3 : (levAts L lv : sProp 𝕄) ⊢ MayWait (c : Thread nD τ) (.dma (sem32 cc0_scratch12 (slot (yc c) 5 3))) () (Oafter c 54) := mayWait_a2r c _ 54 (by decide)
  have hmwA2_5_2 : (levAts L lv : sProp 𝕄) ⊢ MayWait (c : Thread nD τ) (.dma (sem32 cc0_scratch12 (slot (yc c) 5 2))) () (Oafter c 54) := mayWait_a2r c _ 54 (by decide)
  have hmwA2_5_1 : (levAts L lv : sProp 𝕄) ⊢ MayWait (c : Thread nD τ) (.dma (sem32 cc0_scratch12 (slot (yc c) 5 1))) () (Oafter c 54) := mayWait_a2r c _ 54 (by decide)
  set_option sl_exec.stepHeartbeats 400000 in
  set_option sl_exec.respelt true in
  sl_exec_parts
  clear hmwA2_5_3 hmwA2_5_2 hmwA2_5_1
  clear hown_5 hl_5_1 hl_5_2 hl_5_3 e7_5 e10_5_1 e10_5_2 e10_5_3
  ihave X7c5 := (Entails.of_eq (chunk3_by_step sendB (zc c) 5 c _)) $$ C7_5
  icases X7c5 with ⟨X7_5_1, XR7_5⟩
  sl_unfold_run_names
  ihave X7_5_1 := (Entails.of_eq (Restate.restate3v_5 m c 1 _ _ (by rfl))) $$ X7_5_1
  -- stage 3, chunk 5, step 1
  try sl_respell []
  iapply (SendRules.send3 (Values.S1v m) (Values.P2v m) (Values.P3v m) K c 5 1 (by decide) (by first | rfl | exact dev55_eq c) (by first | rfl | exact Canon.slice_off14_w20_1 _ c _ _) (by first | rfl | exact Canon.slice_off13_w20 _ c _ _) (by first | rfl | exact congrArg SemLoc.dma (Canon.sem_off11_w20_1 _ c _ _)) (by first | rfl | exact congrArg SemLoc.dma (Canon.sem_off12_w20 _ c _ _)) _ _ (show (slot3 sendB (slot (zc c) 5 1)).view.read (Elt Ideal) _ = Values.P3v m c (slot (zc c) 5 1) from Proto.read_slotBuf _ _ _) _ rfl) $$ [X7_5_1 Y8z1_5 HO Tbs5_1 Tbr5_1]
  · isplitl []; · iexact Ibs5_1
    isplitl []; · iexact Jbr5_1
    isplitl [X7_5_1]; · iexact X7_5_1
    isplitl [Y8z1_5]; · iexact Y8z1_5
    isplitl [HO]; · iexact HO
    isplitl [Tbs5_1]; · iexact Tbs5_1
    isplitl []; · iexact Sbs5_1
    isplitl [Tbr5_1]; · iexact Tbr5_1
    iexact Rbr5_1
  iintro ⟨X7_5_1_cred, HO⟩
  set_option sl_exec.stepHeartbeats 400000 in
  set_option sl_exec.respelt true in
  sl_exec_parts
  icases XR7_5 with ⟨X7_5_2, XR7_5⟩
  ihave X7_5_2 := (Entails.of_eq (Restate.restate3v_5 m c 2 _ _ (by rfl))) $$ X7_5_2
  -- stage 3, chunk 5, step 2
  try sl_respell []
  iapply (SendRules.send3 (Values.S1v m) (Values.P2v m) (Values.P3v m) K c 5 2 (by decide) (by first | rfl | exact dev56_eq c) (by first | rfl | exact Canon.slice_off14_w20_2 _ c _ _) (by first | rfl | exact Canon.slice_off13_w20 _ c _ _) (by first | rfl | exact congrArg SemLoc.dma (Canon.sem_off11_w20_2 _ c _ _)) (by first | rfl | exact congrArg SemLoc.dma (Canon.sem_off12_w20 _ c _ _)) _ _ (show (slot3 sendB (slot (zc c) 5 2)).view.read (Elt Ideal) _ = Values.P3v m c (slot (zc c) 5 2) from Proto.read_slotBuf _ _ _) _ rfl) $$ [X7_5_2 Y8z2_5 HO Tbs5_2 Tbr5_2]
  · isplitl []; · iexact Ibs5_2
    isplitl []; · iexact Jbr5_2
    isplitl [X7_5_2]; · iexact X7_5_2
    isplitl [Y8z2_5]; · iexact Y8z2_5
    isplitl [HO]; · iexact HO
    isplitl [Tbs5_2]; · iexact Tbs5_2
    isplitl []; · iexact Sbs5_2
    isplitl [Tbr5_2]; · iexact Tbr5_2
    iexact Rbr5_2
  iintro ⟨X7_5_2_cred, HO⟩
  set_option sl_exec.stepHeartbeats 400000 in
  set_option sl_exec.respelt true in
  sl_exec_parts
  icases XR7_5 with ⟨X7_5_3, X7_5_0⟩
  ihave X7_5_3 := (Entails.of_eq (Restate.restate3v_5 m c 3 _ _ (by rfl))) $$ X7_5_3
  -- stage 3, chunk 5, step 3
  try sl_respell []
  iapply (SendRules.send3 (Values.S1v m) (Values.P2v m) (Values.P3v m) K c 5 3 (by decide) (by first | rfl | exact dev57_eq c) (by first | rfl | exact Canon.slice_off14_w20_3 _ c _ _) (by first | rfl | exact Canon.slice_off13_w20 _ c _ _) (by first | rfl | exact congrArg SemLoc.dma (Canon.sem_off11_w20_3 _ c _ _)) (by first | rfl | exact congrArg SemLoc.dma (Canon.sem_off12_w20 _ c _ _)) _ _ (show (slot3 sendB (slot (zc c) 5 3)).view.read (Elt Ideal) _ = Values.P3v m c (slot (zc c) 5 3) from Proto.read_slotBuf _ _ _) _ rfl) $$ [X7_5_3 Y8z3_5 HO Tbs5_3 Tbr5_3]
  · isplitl []; · iexact Ibs5_3
    isplitl []; · iexact Jbr5_3
    isplitl [X7_5_3]; · iexact X7_5_3
    isplitl [Y8z3_5]; · iexact Y8z3_5
    isplitl [HO]; · iexact HO
    isplitl [Tbs5_3]; · iexact Tbs5_3
    isplitl []; · iexact Sbs5_3
    isplitl [Tbr5_3]; · iexact Tbr5_3
    iexact Rbr5_3
  iintro ⟨X7_5_3_cred, HO⟩
  ihave X7_5_0 := (Entails.of_eq (Restate.restate3v_5 m c 0 _ _ (by rfl))) $$ X7_5_0
  have e7_6 : k0_off7 c 24#32 = ![(slot (yc c) 6 0).val, 0, 0, 0] := Canon.off7_slot c 6
  have hown_6 := ReadGeomSend.read_slot2_sendA2 (F := F) (slot (yc c) 6 0) _ e7_6 (k0_off7_inb c 6) (Values.P2v m c (slot (yc c) 6 0))
  have e10_6_1 : k0_off10 c 24#32 1#32 = ![(slot (yc c) 6 3).val, 0, 0, 0] := Canon.off10_slot c 6 0
  have hl_6_1 := ReadGeom.read_slot2_commA2 (F := F) (slot (yc c) 6 3) _ e10_6_1 (k0_off10_inb c 6 0) (Values.P2v m (rail c 3) (slot (yc c) 6 0))
  have e10_6_2 : k0_off10 c 24#32 2#32 = ![(slot (yc c) 6 2).val, 0, 0, 0] := Canon.off10_slot c 6 1
  have hl_6_2 := ReadGeom.read_slot2_commA2 (F := F) (slot (yc c) 6 2) _ e10_6_2 (k0_off10_inb c 6 1) (Values.P2v m (rail c 2) (slot (yc c) 6 0))
  have e10_6_3 : k0_off10 c 24#32 3#32 = ![(slot (yc c) 6 1).val, 0, 0, 0] := Canon.off10_slot c 6 2
  have hl_6_3 := ReadGeom.read_slot2_commA2 (F := F) (slot (yc c) 6 1) _ e10_6_3 (k0_off10_inb c 6 2) (Values.P2v m (rail c 1) (slot (yc c) 6 0))
  have hmwA2_6_3 : (levAts L lv : sProp 𝕄) ⊢ MayWait (c : Thread nD τ) (.dma (sem32 cc0_scratch12 (slot (yc c) 6 3))) () (Oafter c 57) := mayWait_a2r c _ 57 (by decide)
  have hmwA2_6_2 : (levAts L lv : sProp 𝕄) ⊢ MayWait (c : Thread nD τ) (.dma (sem32 cc0_scratch12 (slot (yc c) 6 2))) () (Oafter c 57) := mayWait_a2r c _ 57 (by decide)
  have hmwA2_6_1 : (levAts L lv : sProp 𝕄) ⊢ MayWait (c : Thread nD τ) (.dma (sem32 cc0_scratch12 (slot (yc c) 6 1))) () (Oafter c 57) := mayWait_a2r c _ 57 (by decide)
  set_option sl_exec.stepHeartbeats 400000 in
  set_option sl_exec.respelt true in
  sl_exec_parts
  clear hmwA2_6_3 hmwA2_6_2 hmwA2_6_1
  clear hown_6 hl_6_1 hl_6_2 hl_6_3 e7_6 e10_6_1 e10_6_2 e10_6_3
  ihave X7c6 := (Entails.of_eq (chunk3_by_step sendB (zc c) 6 c _)) $$ C7_6
  icases X7c6 with ⟨X7_6_1, XR7_6⟩
  sl_unfold_run_names
  ihave X7_6_1 := (Entails.of_eq (Restate.restate3v_6 m c 1 _ _ (by rfl))) $$ X7_6_1
  -- stage 3, chunk 6, step 1
  try sl_respell []
  iapply (SendRules.send3 (Values.S1v m) (Values.P2v m) (Values.P3v m) K c 6 1 (by decide) (by first | rfl | exact dev58_eq c) (by first | rfl | exact Canon.slice_off14_w24_1 _ c _ _) (by first | rfl | exact Canon.slice_off13_w24 _ c _ _) (by first | rfl | exact congrArg SemLoc.dma (Canon.sem_off11_w24_1 _ c _ _)) (by first | rfl | exact congrArg SemLoc.dma (Canon.sem_off12_w24 _ c _ _)) _ _ (show (slot3 sendB (slot (zc c) 6 1)).view.read (Elt Ideal) _ = Values.P3v m c (slot (zc c) 6 1) from Proto.read_slotBuf _ _ _) _ rfl) $$ [X7_6_1 Y8z1_6 HO Tbs6_1 Tbr6_1]
  · isplitl []; · iexact Ibs6_1
    isplitl []; · iexact Jbr6_1
    isplitl [X7_6_1]; · iexact X7_6_1
    isplitl [Y8z1_6]; · iexact Y8z1_6
    isplitl [HO]; · iexact HO
    isplitl [Tbs6_1]; · iexact Tbs6_1
    isplitl []; · iexact Sbs6_1
    isplitl [Tbr6_1]; · iexact Tbr6_1
    iexact Rbr6_1
  iintro ⟨X7_6_1_cred, HO⟩
  set_option sl_exec.stepHeartbeats 400000 in
  set_option sl_exec.respelt true in
  sl_exec_parts
  icases XR7_6 with ⟨X7_6_2, XR7_6⟩
  ihave X7_6_2 := (Entails.of_eq (Restate.restate3v_6 m c 2 _ _ (by rfl))) $$ X7_6_2
  -- stage 3, chunk 6, step 2
  try sl_respell []
  iapply (SendRules.send3 (Values.S1v m) (Values.P2v m) (Values.P3v m) K c 6 2 (by decide) (by first | rfl | exact dev59_eq c) (by first | rfl | exact Canon.slice_off14_w24_2 _ c _ _) (by first | rfl | exact Canon.slice_off13_w24 _ c _ _) (by first | rfl | exact congrArg SemLoc.dma (Canon.sem_off11_w24_2 _ c _ _)) (by first | rfl | exact congrArg SemLoc.dma (Canon.sem_off12_w24 _ c _ _)) _ _ (show (slot3 sendB (slot (zc c) 6 2)).view.read (Elt Ideal) _ = Values.P3v m c (slot (zc c) 6 2) from Proto.read_slotBuf _ _ _) _ rfl) $$ [X7_6_2 Y8z2_6 HO Tbs6_2 Tbr6_2]
  · isplitl []; · iexact Ibs6_2
    isplitl []; · iexact Jbr6_2
    isplitl [X7_6_2]; · iexact X7_6_2
    isplitl [Y8z2_6]; · iexact Y8z2_6
    isplitl [HO]; · iexact HO
    isplitl [Tbs6_2]; · iexact Tbs6_2
    isplitl []; · iexact Sbs6_2
    isplitl [Tbr6_2]; · iexact Tbr6_2
    iexact Rbr6_2
  iintro ⟨X7_6_2_cred, HO⟩
  set_option sl_exec.stepHeartbeats 400000 in
  set_option sl_exec.respelt true in
  sl_exec_parts
  icases XR7_6 with ⟨X7_6_3, X7_6_0⟩
  ihave X7_6_3 := (Entails.of_eq (Restate.restate3v_6 m c 3 _ _ (by rfl))) $$ X7_6_3
  -- stage 3, chunk 6, step 3
  try sl_respell []
  iapply (SendRules.send3 (Values.S1v m) (Values.P2v m) (Values.P3v m) K c 6 3 (by decide) (by first | rfl | exact dev60_eq c) (by first | rfl | exact Canon.slice_off14_w24_3 _ c _ _) (by first | rfl | exact Canon.slice_off13_w24 _ c _ _) (by first | rfl | exact congrArg SemLoc.dma (Canon.sem_off11_w24_3 _ c _ _)) (by first | rfl | exact congrArg SemLoc.dma (Canon.sem_off12_w24 _ c _ _)) _ _ (show (slot3 sendB (slot (zc c) 6 3)).view.read (Elt Ideal) _ = Values.P3v m c (slot (zc c) 6 3) from Proto.read_slotBuf _ _ _) _ rfl) $$ [X7_6_3 Y8z3_6 HO Tbs6_3 Tbr6_3]
  · isplitl []; · iexact Ibs6_3
    isplitl []; · iexact Jbr6_3
    isplitl [X7_6_3]; · iexact X7_6_3
    isplitl [Y8z3_6]; · iexact Y8z3_6
    isplitl [HO]; · iexact HO
    isplitl [Tbs6_3]; · iexact Tbs6_3
    isplitl []; · iexact Sbs6_3
    isplitl [Tbr6_3]; · iexact Tbr6_3
    iexact Rbr6_3
  iintro ⟨X7_6_3_cred, HO⟩
  ihave X7_6_0 := (Entails.of_eq (Restate.restate3v_6 m c 0 _ _ (by rfl))) $$ X7_6_0
  have e7_7 : k0_off7 c 28#32 = ![(slot (yc c) 7 0).val, 0, 0, 0] := Canon.off7_slot c 7
  have hown_7 := ReadGeomSend.read_slot2_sendA2 (F := F) (slot (yc c) 7 0) _ e7_7 (k0_off7_inb c 7) (Values.P2v m c (slot (yc c) 7 0))
  have e10_7_1 : k0_off10 c 28#32 1#32 = ![(slot (yc c) 7 3).val, 0, 0, 0] := Canon.off10_slot c 7 0
  have hl_7_1 := ReadGeom.read_slot2_commA2 (F := F) (slot (yc c) 7 3) _ e10_7_1 (k0_off10_inb c 7 0) (Values.P2v m (rail c 3) (slot (yc c) 7 0))
  have e10_7_2 : k0_off10 c 28#32 2#32 = ![(slot (yc c) 7 2).val, 0, 0, 0] := Canon.off10_slot c 7 1
  have hl_7_2 := ReadGeom.read_slot2_commA2 (F := F) (slot (yc c) 7 2) _ e10_7_2 (k0_off10_inb c 7 1) (Values.P2v m (rail c 2) (slot (yc c) 7 0))
  have e10_7_3 : k0_off10 c 28#32 3#32 = ![(slot (yc c) 7 1).val, 0, 0, 0] := Canon.off10_slot c 7 2
  have hl_7_3 := ReadGeom.read_slot2_commA2 (F := F) (slot (yc c) 7 1) _ e10_7_3 (k0_off10_inb c 7 2) (Values.P2v m (rail c 1) (slot (yc c) 7 0))
  have hmwA2_7_3 : (levAts L lv : sProp 𝕄) ⊢ MayWait (c : Thread nD τ) (.dma (sem32 cc0_scratch12 (slot (yc c) 7 3))) () (Oafter c 60) := mayWait_a2r c _ 60 (by decide)
  have hmwA2_7_2 : (levAts L lv : sProp 𝕄) ⊢ MayWait (c : Thread nD τ) (.dma (sem32 cc0_scratch12 (slot (yc c) 7 2))) () (Oafter c 60) := mayWait_a2r c _ 60 (by decide)
  have hmwA2_7_1 : (levAts L lv : sProp 𝕄) ⊢ MayWait (c : Thread nD τ) (.dma (sem32 cc0_scratch12 (slot (yc c) 7 1))) () (Oafter c 60) := mayWait_a2r c _ 60 (by decide)
  set_option sl_exec.stepHeartbeats 400000 in
  set_option sl_exec.respelt true in
  sl_exec_parts
  clear hmwA2_7_3 hmwA2_7_2 hmwA2_7_1
  clear hown_7 hl_7_1 hl_7_2 hl_7_3 e7_7 e10_7_1 e10_7_2 e10_7_3
  ihave X7c7 := (Entails.of_eq (chunk3_by_step sendB (zc c) 7 c _)) $$ C7_7
  icases X7c7 with ⟨X7_7_1, XR7_7⟩
  sl_unfold_run_names
  ihave X7_7_1 := (Entails.of_eq (Restate.restate3v_7 m c 1 _ _ (by rfl))) $$ X7_7_1
  -- stage 3, chunk 7, step 1
  try sl_respell []
  iapply (SendRules.send3 (Values.S1v m) (Values.P2v m) (Values.P3v m) K c 7 1 (by decide) (by first | rfl | exact dev61_eq c) (by first | rfl | exact Canon.slice_off14_w28_1 _ c _ _) (by first | rfl | exact Canon.slice_off13_w28 _ c _ _) (by first | rfl | exact congrArg SemLoc.dma (Canon.sem_off11_w28_1 _ c _ _)) (by first | rfl | exact congrArg SemLoc.dma (Canon.sem_off12_w28 _ c _ _)) _ _ (show (slot3 sendB (slot (zc c) 7 1)).view.read (Elt Ideal) _ = Values.P3v m c (slot (zc c) 7 1) from Proto.read_slotBuf _ _ _) _ rfl) $$ [X7_7_1 Y8z1_7 HO Tbs7_1 Tbr7_1]
  · isplitl []; · iexact Ibs7_1
    isplitl []; · iexact Jbr7_1
    isplitl [X7_7_1]; · iexact X7_7_1
    isplitl [Y8z1_7]; · iexact Y8z1_7
    isplitl [HO]; · iexact HO
    isplitl [Tbs7_1]; · iexact Tbs7_1
    isplitl []; · iexact Sbs7_1
    isplitl [Tbr7_1]; · iexact Tbr7_1
    iexact Rbr7_1
  iintro ⟨X7_7_1_cred, HO⟩
  set_option sl_exec.stepHeartbeats 400000 in
  set_option sl_exec.respelt true in
  sl_exec_parts
  icases XR7_7 with ⟨X7_7_2, XR7_7⟩
  ihave X7_7_2 := (Entails.of_eq (Restate.restate3v_7 m c 2 _ _ (by rfl))) $$ X7_7_2
  -- stage 3, chunk 7, step 2
  try sl_respell []
  iapply (SendRules.send3 (Values.S1v m) (Values.P2v m) (Values.P3v m) K c 7 2 (by decide) (by first | rfl | exact dev62_eq c) (by first | rfl | exact Canon.slice_off14_w28_2 _ c _ _) (by first | rfl | exact Canon.slice_off13_w28 _ c _ _) (by first | rfl | exact congrArg SemLoc.dma (Canon.sem_off11_w28_2 _ c _ _)) (by first | rfl | exact congrArg SemLoc.dma (Canon.sem_off12_w28 _ c _ _)) _ _ (show (slot3 sendB (slot (zc c) 7 2)).view.read (Elt Ideal) _ = Values.P3v m c (slot (zc c) 7 2) from Proto.read_slotBuf _ _ _) _ rfl) $$ [X7_7_2 Y8z2_7 HO Tbs7_2 Tbr7_2]
  · isplitl []; · iexact Ibs7_2
    isplitl []; · iexact Jbr7_2
    isplitl [X7_7_2]; · iexact X7_7_2
    isplitl [Y8z2_7]; · iexact Y8z2_7
    isplitl [HO]; · iexact HO
    isplitl [Tbs7_2]; · iexact Tbs7_2
    isplitl []; · iexact Sbs7_2
    isplitl [Tbr7_2]; · iexact Tbr7_2
    iexact Rbr7_2
  iintro ⟨X7_7_2_cred, HO⟩
  set_option sl_exec.stepHeartbeats 400000 in
  set_option sl_exec.respelt true in
  sl_exec_parts
  icases XR7_7 with ⟨X7_7_3, X7_7_0⟩
  ihave X7_7_3 := (Entails.of_eq (Restate.restate3v_7 m c 3 _ _ (by rfl))) $$ X7_7_3
  -- stage 3, chunk 7, step 3
  try sl_respell []
  iapply (SendRules.send3 (Values.S1v m) (Values.P2v m) (Values.P3v m) K c 7 3 (by decide) (by first | rfl | exact dev63_eq c) (by first | rfl | exact Canon.slice_off14_w28_3 _ c _ _) (by first | rfl | exact Canon.slice_off13_w28 _ c _ _) (by first | rfl | exact congrArg SemLoc.dma (Canon.sem_off11_w28_3 _ c _ _)) (by first | rfl | exact congrArg SemLoc.dma (Canon.sem_off12_w28 _ c _ _)) _ _ (show (slot3 sendB (slot (zc c) 7 3)).view.read (Elt Ideal) _ = Values.P3v m c (slot (zc c) 7 3) from Proto.read_slotBuf _ _ _) 0 (zero_add _).symm) $$ [X7_7_3 Y8z3_7 HO Tbs7_3 Tbr7_3]
  · isplitl []; · iexact Ibs7_3
    isplitl []; · iexact Jbr7_3
    isplitl [X7_7_3]; · iexact X7_7_3
    isplitl [Y8z3_7]; · iexact Y8z3_7
    isplitl [HO]; · iexact HO
    isplitl [Tbs7_3]; · iexact Tbs7_3
    isplitl []; · iexact Sbs7_3
    isplitl [Tbr7_3]; · iexact Tbr7_3
    iexact Rbr7_3
  iintro ⟨X7_7_3_cred, HO⟩
  ihave X7_7_0 := (Entails.of_eq (Restate.restate3v_7 m c 0 _ _ (by rfl))) $$ X7_7_0
  have e15_0 : k0_off15 c 0#32 = ![(slot (zc c) 0 0).val, 0, 0] := Canon.off15_slot c 0
  have hown4_0 := ReadGeomSend.read_slot3_sendB (F := F) (slot (zc c) 0 0) _ e15_0 (k0_off15_inb c 0) (Values.P3v m c (slot (zc c) 0 0))
  have e18_0_1 : k0_off18 c 0#32 1#32 = ![(slot (zc c) 0 3).val, 0, 0] := Canon.off18_slot c 0 0
  have hl4_0_1 := ReadGeom.read_slot3_commB (F := F) (slot (zc c) 0 3) _ e18_0_1 (k0_off18_inb c 0 0) (Values.P3v m (zpeer c 3) (slot (zc c) 0 0))
  have e18_0_2 : k0_off18 c 0#32 2#32 = ![(slot (zc c) 0 2).val, 0, 0] := Canon.off18_slot c 0 1
  have hl4_0_2 := ReadGeom.read_slot3_commB (F := F) (slot (zc c) 0 2) _ e18_0_2 (k0_off18_inb c 0 1) (Values.P3v m (zpeer c 2) (slot (zc c) 0 0))
  have e18_0_3 : k0_off18 c 0#32 3#32 = ![(slot (zc c) 0 1).val, 0, 0] := Canon.off18_slot c 0 2
  have hl4_0_3 := ReadGeom.read_slot3_commB (F := F) (slot (zc c) 0 1) _ e18_0_3 (k0_off18_inb c 0 2) (Values.P3v m (zpeer c 1) (slot (zc c) 0 0))
  have e15_1 : k0_off15 c 4#32 = ![(slot (zc c) 1 0).val, 0, 0] := Canon.off15_slot c 1
  have hown4_1 := ReadGeomSend.read_slot3_sendB (F := F) (slot (zc c) 1 0) _ e15_1 (k0_off15_inb c 1) (Values.P3v m c (slot (zc c) 1 0))
  have e18_1_1 : k0_off18 c 4#32 1#32 = ![(slot (zc c) 1 3).val, 0, 0] := Canon.off18_slot c 1 0
  have hl4_1_1 := ReadGeom.read_slot3_commB (F := F) (slot (zc c) 1 3) _ e18_1_1 (k0_off18_inb c 1 0) (Values.P3v m (zpeer c 3) (slot (zc c) 1 0))
  have e18_1_2 : k0_off18 c 4#32 2#32 = ![(slot (zc c) 1 2).val, 0, 0] := Canon.off18_slot c 1 1
  have hl4_1_2 := ReadGeom.read_slot3_commB (F := F) (slot (zc c) 1 2) _ e18_1_2 (k0_off18_inb c 1 1) (Values.P3v m (zpeer c 2) (slot (zc c) 1 0))
  have e18_1_3 : k0_off18 c 4#32 3#32 = ![(slot (zc c) 1 1).val, 0, 0] := Canon.off18_slot c 1 2
  have hl4_1_3 := ReadGeom.read_slot3_commB (F := F) (slot (zc c) 1 1) _ e18_1_3 (k0_off18_inb c 1 2) (Values.P3v m (zpeer c 1) (slot (zc c) 1 0))
  have e15_2 : k0_off15 c 8#32 = ![(slot (zc c) 2 0).val, 0, 0] := Canon.off15_slot c 2
  have hown4_2 := ReadGeomSend.read_slot3_sendB (F := F) (slot (zc c) 2 0) _ e15_2 (k0_off15_inb c 2) (Values.P3v m c (slot (zc c) 2 0))
  have e18_2_1 : k0_off18 c 8#32 1#32 = ![(slot (zc c) 2 3).val, 0, 0] := Canon.off18_slot c 2 0
  have hl4_2_1 := ReadGeom.read_slot3_commB (F := F) (slot (zc c) 2 3) _ e18_2_1 (k0_off18_inb c 2 0) (Values.P3v m (zpeer c 3) (slot (zc c) 2 0))
  have e18_2_2 : k0_off18 c 8#32 2#32 = ![(slot (zc c) 2 2).val, 0, 0] := Canon.off18_slot c 2 1
  have hl4_2_2 := ReadGeom.read_slot3_commB (F := F) (slot (zc c) 2 2) _ e18_2_2 (k0_off18_inb c 2 1) (Values.P3v m (zpeer c 2) (slot (zc c) 2 0))
  have e18_2_3 : k0_off18 c 8#32 3#32 = ![(slot (zc c) 2 1).val, 0, 0] := Canon.off18_slot c 2 2
  have hl4_2_3 := ReadGeom.read_slot3_commB (F := F) (slot (zc c) 2 1) _ e18_2_3 (k0_off18_inb c 2 2) (Values.P3v m (zpeer c 1) (slot (zc c) 2 0))
  have e15_3 : k0_off15 c 12#32 = ![(slot (zc c) 3 0).val, 0, 0] := Canon.off15_slot c 3
  have hown4_3 := ReadGeomSend.read_slot3_sendB (F := F) (slot (zc c) 3 0) _ e15_3 (k0_off15_inb c 3) (Values.P3v m c (slot (zc c) 3 0))
  have e18_3_1 : k0_off18 c 12#32 1#32 = ![(slot (zc c) 3 3).val, 0, 0] := Canon.off18_slot c 3 0
  have hl4_3_1 := ReadGeom.read_slot3_commB (F := F) (slot (zc c) 3 3) _ e18_3_1 (k0_off18_inb c 3 0) (Values.P3v m (zpeer c 3) (slot (zc c) 3 0))
  have e18_3_2 : k0_off18 c 12#32 2#32 = ![(slot (zc c) 3 2).val, 0, 0] := Canon.off18_slot c 3 1
  have hl4_3_2 := ReadGeom.read_slot3_commB (F := F) (slot (zc c) 3 2) _ e18_3_2 (k0_off18_inb c 3 1) (Values.P3v m (zpeer c 2) (slot (zc c) 3 0))
  have e18_3_3 : k0_off18 c 12#32 3#32 = ![(slot (zc c) 3 1).val, 0, 0] := Canon.off18_slot c 3 2
  have hl4_3_3 := ReadGeom.read_slot3_commB (F := F) (slot (zc c) 3 1) _ e18_3_3 (k0_off18_inb c 3 2) (Values.P3v m (zpeer c 1) (slot (zc c) 3 0))
  have e15_4 : k0_off15 c 16#32 = ![(slot (zc c) 4 0).val, 0, 0] := Canon.off15_slot c 4
  have hown4_4 := ReadGeomSend.read_slot3_sendB (F := F) (slot (zc c) 4 0) _ e15_4 (k0_off15_inb c 4) (Values.P3v m c (slot (zc c) 4 0))
  have e18_4_1 : k0_off18 c 16#32 1#32 = ![(slot (zc c) 4 3).val, 0, 0] := Canon.off18_slot c 4 0
  have hl4_4_1 := ReadGeom.read_slot3_commB (F := F) (slot (zc c) 4 3) _ e18_4_1 (k0_off18_inb c 4 0) (Values.P3v m (zpeer c 3) (slot (zc c) 4 0))
  have e18_4_2 : k0_off18 c 16#32 2#32 = ![(slot (zc c) 4 2).val, 0, 0] := Canon.off18_slot c 4 1
  have hl4_4_2 := ReadGeom.read_slot3_commB (F := F) (slot (zc c) 4 2) _ e18_4_2 (k0_off18_inb c 4 1) (Values.P3v m (zpeer c 2) (slot (zc c) 4 0))
  have e18_4_3 : k0_off18 c 16#32 3#32 = ![(slot (zc c) 4 1).val, 0, 0] := Canon.off18_slot c 4 2
  have hl4_4_3 := ReadGeom.read_slot3_commB (F := F) (slot (zc c) 4 1) _ e18_4_3 (k0_off18_inb c 4 2) (Values.P3v m (zpeer c 1) (slot (zc c) 4 0))
  have e15_5 : k0_off15 c 20#32 = ![(slot (zc c) 5 0).val, 0, 0] := Canon.off15_slot c 5
  have hown4_5 := ReadGeomSend.read_slot3_sendB (F := F) (slot (zc c) 5 0) _ e15_5 (k0_off15_inb c 5) (Values.P3v m c (slot (zc c) 5 0))
  have e18_5_1 : k0_off18 c 20#32 1#32 = ![(slot (zc c) 5 3).val, 0, 0] := Canon.off18_slot c 5 0
  have hl4_5_1 := ReadGeom.read_slot3_commB (F := F) (slot (zc c) 5 3) _ e18_5_1 (k0_off18_inb c 5 0) (Values.P3v m (zpeer c 3) (slot (zc c) 5 0))
  have e18_5_2 : k0_off18 c 20#32 2#32 = ![(slot (zc c) 5 2).val, 0, 0] := Canon.off18_slot c 5 1
  have hl4_5_2 := ReadGeom.read_slot3_commB (F := F) (slot (zc c) 5 2) _ e18_5_2 (k0_off18_inb c 5 1) (Values.P3v m (zpeer c 2) (slot (zc c) 5 0))
  have e18_5_3 : k0_off18 c 20#32 3#32 = ![(slot (zc c) 5 1).val, 0, 0] := Canon.off18_slot c 5 2
  have hl4_5_3 := ReadGeom.read_slot3_commB (F := F) (slot (zc c) 5 1) _ e18_5_3 (k0_off18_inb c 5 2) (Values.P3v m (zpeer c 1) (slot (zc c) 5 0))
  have e15_6 : k0_off15 c 24#32 = ![(slot (zc c) 6 0).val, 0, 0] := Canon.off15_slot c 6
  have hown4_6 := ReadGeomSend.read_slot3_sendB (F := F) (slot (zc c) 6 0) _ e15_6 (k0_off15_inb c 6) (Values.P3v m c (slot (zc c) 6 0))
  have e18_6_1 : k0_off18 c 24#32 1#32 = ![(slot (zc c) 6 3).val, 0, 0] := Canon.off18_slot c 6 0
  have hl4_6_1 := ReadGeom.read_slot3_commB (F := F) (slot (zc c) 6 3) _ e18_6_1 (k0_off18_inb c 6 0) (Values.P3v m (zpeer c 3) (slot (zc c) 6 0))
  have e18_6_2 : k0_off18 c 24#32 2#32 = ![(slot (zc c) 6 2).val, 0, 0] := Canon.off18_slot c 6 1
  have hl4_6_2 := ReadGeom.read_slot3_commB (F := F) (slot (zc c) 6 2) _ e18_6_2 (k0_off18_inb c 6 1) (Values.P3v m (zpeer c 2) (slot (zc c) 6 0))
  have e18_6_3 : k0_off18 c 24#32 3#32 = ![(slot (zc c) 6 1).val, 0, 0] := Canon.off18_slot c 6 2
  have hl4_6_3 := ReadGeom.read_slot3_commB (F := F) (slot (zc c) 6 1) _ e18_6_3 (k0_off18_inb c 6 2) (Values.P3v m (zpeer c 1) (slot (zc c) 6 0))
  have e15_7 : k0_off15 c 28#32 = ![(slot (zc c) 7 0).val, 0, 0] := Canon.off15_slot c 7
  have hown4_7 := ReadGeomSend.read_slot3_sendB (F := F) (slot (zc c) 7 0) _ e15_7 (k0_off15_inb c 7) (Values.P3v m c (slot (zc c) 7 0))
  have e18_7_1 : k0_off18 c 28#32 1#32 = ![(slot (zc c) 7 3).val, 0, 0] := Canon.off18_slot c 7 0
  have hl4_7_1 := ReadGeom.read_slot3_commB (F := F) (slot (zc c) 7 3) _ e18_7_1 (k0_off18_inb c 7 0) (Values.P3v m (zpeer c 3) (slot (zc c) 7 0))
  have e18_7_2 : k0_off18 c 28#32 2#32 = ![(slot (zc c) 7 2).val, 0, 0] := Canon.off18_slot c 7 1
  have hl4_7_2 := ReadGeom.read_slot3_commB (F := F) (slot (zc c) 7 2) _ e18_7_2 (k0_off18_inb c 7 1) (Values.P3v m (zpeer c 2) (slot (zc c) 7 0))
  have e18_7_3 : k0_off18 c 28#32 3#32 = ![(slot (zc c) 7 1).val, 0, 0] := Canon.off18_slot c 7 2
  have hl4_7_3 := ReadGeom.read_slot3_commB (F := F) (slot (zc c) 7 1) _ e18_7_3 (k0_off18_inb c 7 2) (Values.P3v m (zpeer c 1) (slot (zc c) 7 0))
  have hmwBr_0_3 : (levAts L lv : sProp 𝕄) ⊢ MayWait (c : Thread nD τ) (.dma (sem32 cc0_scratch14 (slot (zc c) 0 3))) () 0 := mayWait_none c _
  have hmwBr_0_2 : (levAts L lv : sProp 𝕄) ⊢ MayWait (c : Thread nD τ) (.dma (sem32 cc0_scratch14 (slot (zc c) 0 2))) () 0 := mayWait_none c _
  have hmwBr_0_1 : (levAts L lv : sProp 𝕄) ⊢ MayWait (c : Thread nD τ) (.dma (sem32 cc0_scratch14 (slot (zc c) 0 1))) () 0 := mayWait_none c _
  have hmwBr_1_3 : (levAts L lv : sProp 𝕄) ⊢ MayWait (c : Thread nD τ) (.dma (sem32 cc0_scratch14 (slot (zc c) 1 3))) () 0 := mayWait_none c _
  have hmwBr_1_2 : (levAts L lv : sProp 𝕄) ⊢ MayWait (c : Thread nD τ) (.dma (sem32 cc0_scratch14 (slot (zc c) 1 2))) () 0 := mayWait_none c _
  have hmwBr_1_1 : (levAts L lv : sProp 𝕄) ⊢ MayWait (c : Thread nD τ) (.dma (sem32 cc0_scratch14 (slot (zc c) 1 1))) () 0 := mayWait_none c _
  have hmwBr_2_3 : (levAts L lv : sProp 𝕄) ⊢ MayWait (c : Thread nD τ) (.dma (sem32 cc0_scratch14 (slot (zc c) 2 3))) () 0 := mayWait_none c _
  have hmwBr_2_2 : (levAts L lv : sProp 𝕄) ⊢ MayWait (c : Thread nD τ) (.dma (sem32 cc0_scratch14 (slot (zc c) 2 2))) () 0 := mayWait_none c _
  have hmwBr_2_1 : (levAts L lv : sProp 𝕄) ⊢ MayWait (c : Thread nD τ) (.dma (sem32 cc0_scratch14 (slot (zc c) 2 1))) () 0 := mayWait_none c _
  have hmwBr_3_3 : (levAts L lv : sProp 𝕄) ⊢ MayWait (c : Thread nD τ) (.dma (sem32 cc0_scratch14 (slot (zc c) 3 3))) () 0 := mayWait_none c _
  have hmwBr_3_2 : (levAts L lv : sProp 𝕄) ⊢ MayWait (c : Thread nD τ) (.dma (sem32 cc0_scratch14 (slot (zc c) 3 2))) () 0 := mayWait_none c _
  have hmwBr_3_1 : (levAts L lv : sProp 𝕄) ⊢ MayWait (c : Thread nD τ) (.dma (sem32 cc0_scratch14 (slot (zc c) 3 1))) () 0 := mayWait_none c _
  have hmwBr_4_3 : (levAts L lv : sProp 𝕄) ⊢ MayWait (c : Thread nD τ) (.dma (sem32 cc0_scratch14 (slot (zc c) 4 3))) () 0 := mayWait_none c _
  have hmwBr_4_2 : (levAts L lv : sProp 𝕄) ⊢ MayWait (c : Thread nD τ) (.dma (sem32 cc0_scratch14 (slot (zc c) 4 2))) () 0 := mayWait_none c _
  have hmwBr_4_1 : (levAts L lv : sProp 𝕄) ⊢ MayWait (c : Thread nD τ) (.dma (sem32 cc0_scratch14 (slot (zc c) 4 1))) () 0 := mayWait_none c _
  have hmwBr_5_3 : (levAts L lv : sProp 𝕄) ⊢ MayWait (c : Thread nD τ) (.dma (sem32 cc0_scratch14 (slot (zc c) 5 3))) () 0 := mayWait_none c _
  have hmwBr_5_2 : (levAts L lv : sProp 𝕄) ⊢ MayWait (c : Thread nD τ) (.dma (sem32 cc0_scratch14 (slot (zc c) 5 2))) () 0 := mayWait_none c _
  have hmwBr_5_1 : (levAts L lv : sProp 𝕄) ⊢ MayWait (c : Thread nD τ) (.dma (sem32 cc0_scratch14 (slot (zc c) 5 1))) () 0 := mayWait_none c _
  have hmwBr_6_3 : (levAts L lv : sProp 𝕄) ⊢ MayWait (c : Thread nD τ) (.dma (sem32 cc0_scratch14 (slot (zc c) 6 3))) () 0 := mayWait_none c _
  have hmwBr_6_2 : (levAts L lv : sProp 𝕄) ⊢ MayWait (c : Thread nD τ) (.dma (sem32 cc0_scratch14 (slot (zc c) 6 2))) () 0 := mayWait_none c _
  have hmwBr_6_1 : (levAts L lv : sProp 𝕄) ⊢ MayWait (c : Thread nD τ) (.dma (sem32 cc0_scratch14 (slot (zc c) 6 1))) () 0 := mayWait_none c _
  have hmwBr_7_3 : (levAts L lv : sProp 𝕄) ⊢ MayWait (c : Thread nD τ) (.dma (sem32 cc0_scratch14 (slot (zc c) 7 3))) () 0 := mayWait_none c _
  have hmwBr_7_2 : (levAts L lv : sProp 𝕄) ⊢ MayWait (c : Thread nD τ) (.dma (sem32 cc0_scratch14 (slot (zc c) 7 2))) () 0 := mayWait_none c _
  have hmwBr_7_1 : (levAts L lv : sProp 𝕄) ⊢ MayWait (c : Thread nD τ) (.dma (sem32 cc0_scratch14 (slot (zc c) 7 1))) () 0 := mayWait_none c _
  have hmwS1_0 : (levAts L lv : sProp 𝕄) ⊢ MayWait (c : Thread nD τ) (.dma (sem8 cc0_scratch9 0)) () 0 := mayWait_none c _
  have hmwS1_1 : (levAts L lv : sProp 𝕄) ⊢ MayWait (c : Thread nD τ) (.dma (sem8 cc0_scratch9 1)) () 0 := mayWait_none c _
  have hmwS1_2 : (levAts L lv : sProp 𝕄) ⊢ MayWait (c : Thread nD τ) (.dma (sem8 cc0_scratch9 2)) () 0 := mayWait_none c _
  have hmwS1_3 : (levAts L lv : sProp 𝕄) ⊢ MayWait (c : Thread nD τ) (.dma (sem8 cc0_scratch9 3)) () 0 := mayWait_none c _
  have hmwS1_4 : (levAts L lv : sProp 𝕄) ⊢ MayWait (c : Thread nD τ) (.dma (sem8 cc0_scratch9 4)) () 0 := mayWait_none c _
  have hmwS1_5 : (levAts L lv : sProp 𝕄) ⊢ MayWait (c : Thread nD τ) (.dma (sem8 cc0_scratch9 5)) () 0 := mayWait_none c _
  have hmwS1_6 : (levAts L lv : sProp 𝕄) ⊢ MayWait (c : Thread nD τ) (.dma (sem8 cc0_scratch9 6)) () 0 := mayWait_none c _
  have hmwS1_7 : (levAts L lv : sProp 𝕄) ⊢ MayWait (c : Thread nD τ) (.dma (sem8 cc0_scratch9 7)) () 0 := mayWait_none c _
  have hmwS2_0_1 : (levAts L lv : sProp 𝕄) ⊢ MayWait (c : Thread nD τ) (.dma (sem32 cc0_scratch11 (slot (yc c) 0 1))) () 0 := mayWait_none c _
  have hmwS2_0_2 : (levAts L lv : sProp 𝕄) ⊢ MayWait (c : Thread nD τ) (.dma (sem32 cc0_scratch11 (slot (yc c) 0 2))) () 0 := mayWait_none c _
  have hmwS2_0_3 : (levAts L lv : sProp 𝕄) ⊢ MayWait (c : Thread nD τ) (.dma (sem32 cc0_scratch11 (slot (yc c) 0 3))) () 0 := mayWait_none c _
  have hmwS2_1_1 : (levAts L lv : sProp 𝕄) ⊢ MayWait (c : Thread nD τ) (.dma (sem32 cc0_scratch11 (slot (yc c) 1 1))) () 0 := mayWait_none c _
  have hmwS2_1_2 : (levAts L lv : sProp 𝕄) ⊢ MayWait (c : Thread nD τ) (.dma (sem32 cc0_scratch11 (slot (yc c) 1 2))) () 0 := mayWait_none c _
  have hmwS2_1_3 : (levAts L lv : sProp 𝕄) ⊢ MayWait (c : Thread nD τ) (.dma (sem32 cc0_scratch11 (slot (yc c) 1 3))) () 0 := mayWait_none c _
  have hmwS2_2_1 : (levAts L lv : sProp 𝕄) ⊢ MayWait (c : Thread nD τ) (.dma (sem32 cc0_scratch11 (slot (yc c) 2 1))) () 0 := mayWait_none c _
  have hmwS2_2_2 : (levAts L lv : sProp 𝕄) ⊢ MayWait (c : Thread nD τ) (.dma (sem32 cc0_scratch11 (slot (yc c) 2 2))) () 0 := mayWait_none c _
  have hmwS2_2_3 : (levAts L lv : sProp 𝕄) ⊢ MayWait (c : Thread nD τ) (.dma (sem32 cc0_scratch11 (slot (yc c) 2 3))) () 0 := mayWait_none c _
  have hmwS2_3_1 : (levAts L lv : sProp 𝕄) ⊢ MayWait (c : Thread nD τ) (.dma (sem32 cc0_scratch11 (slot (yc c) 3 1))) () 0 := mayWait_none c _
  have hmwS2_3_2 : (levAts L lv : sProp 𝕄) ⊢ MayWait (c : Thread nD τ) (.dma (sem32 cc0_scratch11 (slot (yc c) 3 2))) () 0 := mayWait_none c _
  have hmwS2_3_3 : (levAts L lv : sProp 𝕄) ⊢ MayWait (c : Thread nD τ) (.dma (sem32 cc0_scratch11 (slot (yc c) 3 3))) () 0 := mayWait_none c _
  have hmwS2_4_1 : (levAts L lv : sProp 𝕄) ⊢ MayWait (c : Thread nD τ) (.dma (sem32 cc0_scratch11 (slot (yc c) 4 1))) () 0 := mayWait_none c _
  have hmwS2_4_2 : (levAts L lv : sProp 𝕄) ⊢ MayWait (c : Thread nD τ) (.dma (sem32 cc0_scratch11 (slot (yc c) 4 2))) () 0 := mayWait_none c _
  have hmwS2_4_3 : (levAts L lv : sProp 𝕄) ⊢ MayWait (c : Thread nD τ) (.dma (sem32 cc0_scratch11 (slot (yc c) 4 3))) () 0 := mayWait_none c _
  have hmwS2_5_1 : (levAts L lv : sProp 𝕄) ⊢ MayWait (c : Thread nD τ) (.dma (sem32 cc0_scratch11 (slot (yc c) 5 1))) () 0 := mayWait_none c _
  have hmwS2_5_2 : (levAts L lv : sProp 𝕄) ⊢ MayWait (c : Thread nD τ) (.dma (sem32 cc0_scratch11 (slot (yc c) 5 2))) () 0 := mayWait_none c _
  have hmwS2_5_3 : (levAts L lv : sProp 𝕄) ⊢ MayWait (c : Thread nD τ) (.dma (sem32 cc0_scratch11 (slot (yc c) 5 3))) () 0 := mayWait_none c _
  have hmwS2_6_1 : (levAts L lv : sProp 𝕄) ⊢ MayWait (c : Thread nD τ) (.dma (sem32 cc0_scratch11 (slot (yc c) 6 1))) () 0 := mayWait_none c _
  have hmwS2_6_2 : (levAts L lv : sProp 𝕄) ⊢ MayWait (c : Thread nD τ) (.dma (sem32 cc0_scratch11 (slot (yc c) 6 2))) () 0 := mayWait_none c _
  have hmwS2_6_3 : (levAts L lv : sProp 𝕄) ⊢ MayWait (c : Thread nD τ) (.dma (sem32 cc0_scratch11 (slot (yc c) 6 3))) () 0 := mayWait_none c _
  have hmwS2_7_1 : (levAts L lv : sProp 𝕄) ⊢ MayWait (c : Thread nD τ) (.dma (sem32 cc0_scratch11 (slot (yc c) 7 1))) () 0 := mayWait_none c _
  have hmwS2_7_2 : (levAts L lv : sProp 𝕄) ⊢ MayWait (c : Thread nD τ) (.dma (sem32 cc0_scratch11 (slot (yc c) 7 2))) () 0 := mayWait_none c _
  have hmwS2_7_3 : (levAts L lv : sProp 𝕄) ⊢ MayWait (c : Thread nD τ) (.dma (sem32 cc0_scratch11 (slot (yc c) 7 3))) () 0 := mayWait_none c _
  have hmwS3_0_1 : (levAts L lv : sProp 𝕄) ⊢ MayWait (c : Thread nD τ) (.dma (sem32 cc0_scratch13 (slot (zc c) 0 1))) () 0 := mayWait_none c _
  have hmwS3_0_2 : (levAts L lv : sProp 𝕄) ⊢ MayWait (c : Thread nD τ) (.dma (sem32 cc0_scratch13 (slot (zc c) 0 2))) () 0 := mayWait_none c _
  have hmwS3_0_3 : (levAts L lv : sProp 𝕄) ⊢ MayWait (c : Thread nD τ) (.dma (sem32 cc0_scratch13 (slot (zc c) 0 3))) () 0 := mayWait_none c _
  have hmwS3_1_1 : (levAts L lv : sProp 𝕄) ⊢ MayWait (c : Thread nD τ) (.dma (sem32 cc0_scratch13 (slot (zc c) 1 1))) () 0 := mayWait_none c _
  have hmwS3_1_2 : (levAts L lv : sProp 𝕄) ⊢ MayWait (c : Thread nD τ) (.dma (sem32 cc0_scratch13 (slot (zc c) 1 2))) () 0 := mayWait_none c _
  have hmwS3_1_3 : (levAts L lv : sProp 𝕄) ⊢ MayWait (c : Thread nD τ) (.dma (sem32 cc0_scratch13 (slot (zc c) 1 3))) () 0 := mayWait_none c _
  have hmwS3_2_1 : (levAts L lv : sProp 𝕄) ⊢ MayWait (c : Thread nD τ) (.dma (sem32 cc0_scratch13 (slot (zc c) 2 1))) () 0 := mayWait_none c _
  have hmwS3_2_2 : (levAts L lv : sProp 𝕄) ⊢ MayWait (c : Thread nD τ) (.dma (sem32 cc0_scratch13 (slot (zc c) 2 2))) () 0 := mayWait_none c _
  have hmwS3_2_3 : (levAts L lv : sProp 𝕄) ⊢ MayWait (c : Thread nD τ) (.dma (sem32 cc0_scratch13 (slot (zc c) 2 3))) () 0 := mayWait_none c _
  have hmwS3_3_1 : (levAts L lv : sProp 𝕄) ⊢ MayWait (c : Thread nD τ) (.dma (sem32 cc0_scratch13 (slot (zc c) 3 1))) () 0 := mayWait_none c _
  have hmwS3_3_2 : (levAts L lv : sProp 𝕄) ⊢ MayWait (c : Thread nD τ) (.dma (sem32 cc0_scratch13 (slot (zc c) 3 2))) () 0 := mayWait_none c _
  have hmwS3_3_3 : (levAts L lv : sProp 𝕄) ⊢ MayWait (c : Thread nD τ) (.dma (sem32 cc0_scratch13 (slot (zc c) 3 3))) () 0 := mayWait_none c _
  have hmwS3_4_1 : (levAts L lv : sProp 𝕄) ⊢ MayWait (c : Thread nD τ) (.dma (sem32 cc0_scratch13 (slot (zc c) 4 1))) () 0 := mayWait_none c _
  have hmwS3_4_2 : (levAts L lv : sProp 𝕄) ⊢ MayWait (c : Thread nD τ) (.dma (sem32 cc0_scratch13 (slot (zc c) 4 2))) () 0 := mayWait_none c _
  have hmwS3_4_3 : (levAts L lv : sProp 𝕄) ⊢ MayWait (c : Thread nD τ) (.dma (sem32 cc0_scratch13 (slot (zc c) 4 3))) () 0 := mayWait_none c _
  have hmwS3_5_1 : (levAts L lv : sProp 𝕄) ⊢ MayWait (c : Thread nD τ) (.dma (sem32 cc0_scratch13 (slot (zc c) 5 1))) () 0 := mayWait_none c _
  have hmwS3_5_2 : (levAts L lv : sProp 𝕄) ⊢ MayWait (c : Thread nD τ) (.dma (sem32 cc0_scratch13 (slot (zc c) 5 2))) () 0 := mayWait_none c _
  have hmwS3_5_3 : (levAts L lv : sProp 𝕄) ⊢ MayWait (c : Thread nD τ) (.dma (sem32 cc0_scratch13 (slot (zc c) 5 3))) () 0 := mayWait_none c _
  have hmwS3_6_1 : (levAts L lv : sProp 𝕄) ⊢ MayWait (c : Thread nD τ) (.dma (sem32 cc0_scratch13 (slot (zc c) 6 1))) () 0 := mayWait_none c _
  have hmwS3_6_2 : (levAts L lv : sProp 𝕄) ⊢ MayWait (c : Thread nD τ) (.dma (sem32 cc0_scratch13 (slot (zc c) 6 2))) () 0 := mayWait_none c _
  have hmwS3_6_3 : (levAts L lv : sProp 𝕄) ⊢ MayWait (c : Thread nD τ) (.dma (sem32 cc0_scratch13 (slot (zc c) 6 3))) () 0 := mayWait_none c _
  have hmwS3_7_1 : (levAts L lv : sProp 𝕄) ⊢ MayWait (c : Thread nD τ) (.dma (sem32 cc0_scratch13 (slot (zc c) 7 1))) () 0 := mayWait_none c _
  have hmwS3_7_2 : (levAts L lv : sProp 𝕄) ⊢ MayWait (c : Thread nD τ) (.dma (sem32 cc0_scratch13 (slot (zc c) 7 2))) () 0 := mayWait_none c _
  have hmwS3_7_3 : (levAts L lv : sProp 𝕄) ⊢ MayWait (c : Thread nD τ) (.dma (sem32 cc0_scratch13 (slot (zc c) 7 3))) () 0 := mayWait_none c _
  set_option sl_exec.stepHeartbeats 400000 in
  set_option sl_exec.respelt true in
  sl_exec_parts
  -- the result buffer holds the eight column chunks of the plane sums
  sl_unfold_run_names
  ihave HR := (Entails.of_eq (congrArg (fun L => ((((Memref.whole cc0_stg2_0 : Memref sig .tc _ _ _).view.loc (c : Thread nD τ)) ↦{fullShare} (Memref.whole cc0_stg2_0 : Memref sig .tc _ _ _).view.writes (Elt F) o0 L) : sProp 𝕄)) (by rfl : _ = OutValue.outPieces (Values.FACCv m c)))) $$ HR
  rw [OutValue.writes_out m c o0]
  iapply (BodyEndV.closeV m (Values.S1v m) (Values.P2v m) (Values.P3v m) (Values.OUTv m) K c Kt)
  isplitr [Hk]
  · unfold BodyEndV.endStateV BodyEndV.endStgRV BodyEnd.endOwes BodyEnd.endStgA BodyEnd.endStgB BodyEnd.endAb BodyEnd.endBb BodyEnd.endSendA1 BodyEnd.endCommA1 BodyEnd.endOwnA BodyEnd.endSendA2 BodyEnd.endCommA2 BodyEnd.endSendB BodyEnd.endCommB BodyEnd.slots1 BodyEnd.slots2 BodyEnd.slots3 BodyClose.positionsEnd Ghost.ownInvs
    simp (config := {proj := false, dsimp := false}) only [Ghost.three, Ghost.four, Ghost.eight]
    sl_close
  · iexact Hk

end Cert.KernelIdeal.BodyV

end
-- ==== Proof.lean ====
/-
  The claim's five conjuncts.
  The reference is one matrix product of the whole arrays; its frame is its generated run with the value
  dropped. The idealization rewrote no operation, so the sanctioned-idealization conjunct is `True`.
  The kernel computes, on each of the 32 devices, that device's partial product for all 1024 rows and
  sums the 32 partials for its own 32 rows by a three-stage reduce-scatter (with its partner, along its
  rail of four, across the four planes); over the extended reals that sum is the device's block of rows of
  the whole product, since addition there is commutative and associative and the contracted axis is the
  disjoint union of the 32 devices' 512 columns.
  The two kernel frames are the launch of the 32 bodies: each body, from the protocol's ghost state, runs to
  its end without a fault (every wait is made while only arrivals of later stages are owed), and the launch
  turns that into termination of every fair interleaving with the arguments unchanged.
-/
import proofs.«900893_g7700000000000894_dist_matmul_mk_i_outk_m1024_n1024_k512_v7x_i32_f32_1_alg».proof.Defs
import proofs.«900893_g7700000000000894_dist_matmul_mk_i_outk_m1024_n1024_k512_v7x_i32_f32_1_alg».proof.Proof.Gen.Kernel
import proofs.«900893_g7700000000000894_dist_matmul_mk_i_outk_m1024_n1024_k512_v7x_i32_f32_1_alg».proof.Proof.Gen.KernelIdeal
import proofs.«900893_g7700000000000894_dist_matmul_mk_i_outk_m1024_n1024_k512_v7x_i32_f32_1_alg».proof.Proof.Gen.ReferenceIdeal
import proofs.«900893_g7700000000000894_dist_matmul_mk_i_outk_m1024_n1024_k512_v7x_i32_f32_1_alg».proof.Proof.Gen.Pre_finite_inputs_Kernel
import proofs.«900893_g7700000000000894_dist_matmul_mk_i_outk_m1024_n1024_k512_v7x_i32_f32_1_alg».proof.Proof.Gen.Pre_finite_inputs_ReferenceIdeal
import proofs.«900893_g7700000000000894_dist_matmul_mk_i_outk_m1024_n1024_k512_v7x_i32_f32_1_alg».proof.Proof.RefValue
import proofs.«900893_g7700000000000894_dist_matmul_mk_i_outk_m1024_n1024_k512_v7x_i32_f32_1_alg».proof.Proof.Frames
import proofs.«900893_g7700000000000894_dist_matmul_mk_i_outk_m1024_n1024_k512_v7x_i32_f32_1_alg».proof.Proof.Body
import proofs.«900893_g7700000000000894_dist_matmul_mk_i_outk_m1024_n1024_k512_v7x_i32_f32_1_alg».proof.Proof.Word.Body
import proofs.«900893_g7700000000000894_dist_matmul_mk_i_outk_m1024_n1024_k512_v7x_i32_f32_1_alg».proof.Proof.Algebraic
import proofs.«900893_g7700000000000894_dist_matmul_mk_i_outk_m1024_n1024_k512_v7x_i32_f32_1_alg».proof.Proof.BodyV
import Idealize.ShloMosaic.Adequacy
import Idealize.ShloMosaic.Init

noncomputable section

namespace Cert.Proof

open Idealize.ShloMosaic Idealize.SL.Sem

/-- The word-level kernel on the 32 devices terminates without a fault and leaves its arguments unchanged. -/
theorem frame_k : Cert.frame_Kernel (hKernel := Cert.Kernel.Gen.facts) (hPre_finite_inputs_Kernel := Cert.Pre_finite_inputs_Kernel.Gen.facts) :=
  Cert.Proof.Frames.frame_k (fun m => Cert.Kernel.Body.sound m)

/-- The idealized kernel on the 32 devices terminates without a fault and leaves its arguments unchanged. -/
theorem frame_ki : Cert.frame_KernelIdeal (hKernelIdeal := Cert.KernelIdeal.Gen.facts) (hPre_finite_inputs_Kernel := Cert.Pre_finite_inputs_Kernel.Gen.facts) :=
  Cert.Proof.Frames.frame_ki (fun m => Cert.KernelIdeal.Body.sound m)

/-- Each device's result is its block of 32 rows of the reference's product of the whole arrays. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  Cert.Proof.Algebraic.algebraic_of_body (fun m => Cert.KernelIdeal.BodyV.soundV m)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.ReferenceIdeal.RefValue.ref_frame, trivial, algebraic⟩

end Cert.Proof

end
